-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v692)) (v1 : (c : Dev Cert.KernelIdeal.nD) → Buf (Elt Ideal) ((c.tc : Thread Cert.KernelIdeal.nD Cert.KernelIdeal.τ).loc Cert.KernelIdeal.main_v693)) (v2 : (c : Dev Cert.KernelIdeal.nD) → Buf (Elt Ideal) ((c.tc : Thread Cert.KernelIdeal.nD Cert.KernelIdeal.τ).loc Cert.KernelIdeal.main_v581)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v692) = v0 c
          ∧ r.2.mem ((c.tc : Thread Cert.KernelIdeal.nD Cert.KernelIdeal.τ).loc Cert.KernelIdeal.main_v693) = v1 c
          ∧ r.2.mem ((c.tc : Thread Cert.KernelIdeal.nD Cert.KernelIdeal.τ).loc Cert.KernelIdeal.main_v581) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v722) = v0 c
          ∧ r.2.mem ((c.tc : Thread Cert.ReferenceIdeal.nD Cert.ReferenceIdeal.τ).loc Cert.ReferenceIdeal.main_v723) = v1 c
          ∧ r.2.mem ((c.tc : Thread Cert.ReferenceIdeal.nD Cert.ReferenceIdeal.τ).loc Cert.ReferenceIdeal.main_v581) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4x64 : Shape := ⟨2, ![4, 64]⟩
abbrev S8192x4 : Shape := ⟨2, ![8192, 4]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S8192x4 : S_.BroadcastsInDim S8192x4 (![] : Fin 0 → Fin S8192x4.rank)
  reducesTo_S8192x4_S_d0_1 : S8192x4.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part3 {F : FTy → Type} [FloatOps F] (main_v48 : IVec S_ 1) (main_v49 : FVec F S8192x64 .f32) (main_v50 : FVec F S8192x64 .f32) : IVec S_ 1 :=
  let main_v51 : IVec S8192x64 1 := cmpf .olt main_v49 main_v50
  let main_c_19 : IVec S_ 1 := constantI S_ 1 1#1
  let main_v52 : IVec S_ 1 := (fun x v => Host.reduce IntOp.andi x v reducesTo_S8192x64_S_d0_1 h_S_) main_v51 main_c_19
  let main_v53 : IVec S_ 1 := andi main_v48 main_v52
  main_v53

def fn_part2 {F : FTy → Type} [FloatOps F] (main_arg7 : FVec F S8192x8192 .f32) (main_arg8 : FVec F S8192x8192 .f32) (main_arg9 : FVec F S8192x64 .f32) (main_arg10 : FVec F S8192x64 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S8192x8192 .f32 := Host.absf main_arg8
  let main_cst_14 : FVec F S_ .f32 := constant S_ .f32 0x7F800000#32
  let main_v40 : FVec F S8192x8192 .f32 := broadcastInDim S8192x8192 ![] bcast_S_S8192x8192 main_cst_14
  let main_v41 : IVec S8192x8192 1 := cmpf .olt main_v39 main_v40
  let main_c_15 : IVec S_ 1 := constantI S_ 1 1#1
  let main_v42 : IVec S_ 1 := (fun x v => Host.reduce IntOp.andi x v reducesTo_S8192x8192_S_d0_1 h_S_) main_v41 main_c_15
  let main_v43 : IVec S_ 1 := andi main_v38 main_v42
  let main_v44 : FVec F S8192x64 .f32 := Host.absf main_arg9
  let main_cst_16 : FVec F S_ .f32 := constant S_ .f32 0x7F800000#32
  let main_v45 : FVec F S8192x64 .f32 := broadcastInDim S8192x64 ![] bcast_S_S8192x64 main_cst_16
  let main_v46 : IVec S8192x64 1 := cmpf .olt main_v44 main_v45
  let main_c_17 : IVec S_ 1 := constantI S_ 1 1#1
  let main_v47 : IVec S_ 1 := (fun x v => Host.reduce IntOp.andi x v reducesTo_S8192x64_S_d0_1 h_S_) main_v46 main_c_17
  let main_v48 : IVec S_ 1 := andi main_v43 main_v47
  let main_v49 : FVec F S8192x64 .f32 := Host.absf main_arg10
  let main_cst_18 : FVec F S_ .f32 := constant S_ .f32 0x7F800000#32
  let main_v50 : FVec F S8192x64 .f32 := broadcastInDim S8192x64 ![] bcast_S_S8192x64 main_cst_18
  fn_part3 (F := F) main_v48 main_v49 main_v50

def fn_part1 {F : FTy → Type} [FloatOps F] (main_arg4 : FVec F S8192x4 .f32) (main_arg5 : FVec F S8192x8192 .f32) (main_arg6 : FVec F S8192x8192 .f32) (main_arg7 : FVec F S8192x8192 .f32) (main_arg8 : FVec F S8192x8192 .f32) (main_arg9 : FVec F S8192x64 .f32) (main_arg10 : FVec F S8192x64 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S8192x4 .f32 := Host.absf main_arg4
  let main_cst_6 : FVec F S_ .f32 := constant S_ .f32 0x7F800000#32
  let main_v20 : FVec F S8192x4 .f32 := broadcastInDim S8192x4 ![] bcast_S_S8192x4 main_cst_6
  let main_v21 : IVec S8192x4 1 := cmpf .olt main_v19 main_v20
  let main_c_7 : IVec S_ 1 := constantI S_ 1 1#1
  let main_v22 : IVec S_ 1 := (fun x v => Host.reduce IntOp.andi x v reducesTo_S8192x4_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x64 .f32) (main_arg1 : FVec F S8192x64 .f32) (main_arg2 : FVec F S4x64 .f32) (main_arg3 : FVec F S8192x4 .f32) (main_arg4 : FVec F S8192x4 .f32) (main_arg5 : FVec F S8192x8192 .f32) (main_arg6 : FVec F S8192x8192 .f32) (main_arg7 : FVec F S8192x8192 .f32) (main_arg8 : FVec F S8192x8192 .f32) (main_arg9 : FVec F S8192x64 .f32) (main_arg10 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_arg5 main_arg6 main_arg7 main_arg8 main_arg9 main_arg10 main_v13 main_v16
-- ==== Kernel.lean ====
abbrev S8192x64 : Shape := ⟨2, ![8192, 64]⟩
abbrev S4x64 : Shape := ⟨2, ![4, 64]⟩
abbrev S8192x4 : Shape := ⟨2, ![8192, 4]⟩
abbrev S8192x8192 : Shape := ⟨2, ![8192, 8192]⟩
abbrev S1x64 : Shape := ⟨2, ![1, 64]⟩
abbrev S64 : Shape := ⟨1, ![64]⟩
abbrev S64x1 : Shape := ⟨2, ![64, 1]⟩
abbrev S64x64 : Shape := ⟨2, ![64, 64]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1024x64 : Shape := ⟨2, ![1024, 64]⟩
abbrev S2048x64 : Shape := ⟨2, ![2048, 64]⟩
abbrev S8192x512 : Shape := ⟨2, ![8192, 512]⟩

abbrev nBuf : Space → Nat
  | .hbm => 972
  | .vmem => 84
  | .smem => 0
  | _ => 0

abbrev hbmTy0_0 (i : Nat) : BufTy := match i % 128 with
  | 0 => ⟨S8192x64, .f32⟩
  | 1 => ⟨S8192x64, .f32⟩
  | 2 => ⟨S4x64, .f32⟩
  | 3 => ⟨S8192x4, .f32⟩
  | 4 => ⟨S8192x4, .f32⟩
  | 5 => ⟨S8192x8192, .f32⟩
  | 6 => ⟨S8192x8192, .f32⟩
  | 7 => ⟨S8192x8192, .f32⟩
  | 8 => ⟨S8192x8192, .f32⟩
  | 9 => ⟨S8192x64, .f32⟩
  | 10 => ⟨S8192x64, .f32⟩
  | 11 => ⟨S1x64, .f32⟩
  | 12 => ⟨S64, .f32⟩
  | 13 => ⟨S1x64, .f32⟩
  | 14 => ⟨S64, .f32⟩
  | 15 => ⟨S64, .f32⟩
  | 16 => ⟨S64, .f32⟩
  | 17 => ⟨S64x1, .f32⟩
  | 18 => ⟨S1x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x1, .f32⟩
  | 26 => ⟨S1x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x1, .f32⟩
  | 34 => ⟨S64x64, .f32⟩
  | 35 => ⟨S64x64, .f32⟩
  | 36 => ⟨S1x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x1, .f32⟩
  | 47 => ⟨S64x64, .f32⟩
  | 48 => ⟨S64x64, .f32⟩
  | 49 => ⟨S1x64, .f32⟩
  | 50 => ⟨S64x64, .f32⟩
  | 51 => ⟨S64x64, .f32⟩
  | 52 => ⟨S_, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S64x64, .f32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S64x64, .f32⟩
  | 66 => ⟨S64x64, .f32⟩
  | 67 => ⟨S_, .f32⟩
  | 68 => ⟨S64, .f32⟩
  | 69 => ⟨S64x1, .f32⟩
  | 70 => ⟨S_, .f32⟩
  | 71 => ⟨S64x1, .f32⟩
  | 72 => ⟨S64x1, .f32⟩
  | 73 => ⟨S64x64, .f32⟩
  | 74 => ⟨S64x64, .f32⟩
  | 75 => ⟨S_, .f32⟩
  | 76 => ⟨S_, .f32⟩
  | 77 => ⟨S_, .f32⟩
  | 78 => ⟨S_, .f32⟩
  | 79 => ⟨S64x64, .f32⟩
  | 80 => ⟨S64x64, .f32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S64x64, .f32⟩
  | 88 => ⟨S64x64, .f32⟩
  | 89 => ⟨S_, .f32⟩
  | 90 => ⟨S64, .f32⟩
  | 91 => ⟨S64x1, .f32⟩
  | 92 => ⟨S_, .f32⟩
  | 93 => ⟨S64x1, .f32⟩
  | 94 => ⟨S64x1, .f32⟩
  | 95 => ⟨S64x64, .f32⟩
  | 96 => ⟨S64x64, .f32⟩
  | 97 => ⟨S_, .f32⟩
  | 98 => ⟨S_, .f32⟩
  | 99 => ⟨S_, .f32⟩
  | 100 => ⟨S_, .f32⟩
  | 101 => ⟨S64x64, .f32⟩
  | 102 => ⟨S64x64, .f32⟩
  | 103 => ⟨S64x64, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S64x64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S64x64, .f32⟩
  | 124 => ⟨S_, .f32⟩
  | 125 => ⟨S_, .f32⟩
  | 126 => ⟨S_, .f32⟩
  | 127 => ⟨S_, .f32⟩
  | _ => ⟨S8192x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_6 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S8192x64, .f32⟩
  | 13 => ⟨S_, .f32⟩
  | 14 => ⟨S8192, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x64, .f32⟩
  | 21 => ⟨S8192x64, .f32⟩
  | 22 => ⟨S8192x64, .f32⟩
  | 23 => ⟨S_, .f32⟩
  | 24 => ⟨S8192, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x64, .f32⟩
  | 31 => ⟨S8192x64, .f32⟩
  | 32 => ⟨S8192x64, .f32⟩
  | 33 => ⟨S_, .f32⟩
  | 34 => ⟨S8192, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x64, .f32⟩
  | 41 => ⟨S8192x64, .f32⟩
  | 42 => ⟨S8192x64, .f32⟩
  | 43 => ⟨S_, .f32⟩
  | 44 => ⟨S8192, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x64, .f32⟩
  | 51 => ⟨S8192x64, .f32⟩
  | 52 => ⟨S8192x64, .f32⟩
  | 53 => ⟨S8192x64, .f32⟩
  | 54 => ⟨S8192x64, .f32⟩
  | 55 => ⟨S8192x64, .f32⟩
  | 56 => ⟨S8192x64, .f32⟩
  | 57 => ⟨S8192x64, .f32⟩
  | 58 => ⟨S8192x64, .f32⟩
  | 59 => ⟨S8192x64, .f32⟩
  | 60 => ⟨S8192x64, .f32⟩
  | 61 => ⟨S8192x64, .f32⟩
  | 62 => ⟨S8192x64, .f32⟩
  | 63 => ⟨S_, .f32⟩
  | 64 => ⟨S8192, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x64, .f32⟩
  | 71 => ⟨S8192x64, .f32⟩
  | 72 => ⟨S8192x64, .f32⟩
  | 73 => ⟨S_, .f32⟩
  | 74 => ⟨S8192, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x64, .f32⟩
  | 81 => ⟨S8192x64, .f32⟩
  | 82 => ⟨S8192x64, .f32⟩
  | 83 => ⟨S_, .f32⟩
  | 84 => ⟨S8192, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x64, .f32⟩
  | 91 => ⟨S8192x64, .f32⟩
  | 92 => ⟨S8192x64, .f32⟩
  | 93 => ⟨S_, .f32⟩
  | 94 => ⟨S8192, .f32⟩
  | 95 => ⟨S8192x1, .f32⟩
  | 96 => ⟨S8192x1, .f32⟩
  | 97 => ⟨S_, .f32⟩
  | 98 => ⟨S8192x1, .f32⟩
  | 99 => ⟨S8192x1, .f32⟩
  | 100 => ⟨S8192x64, .f32⟩
  | 101 => ⟨S8192x64, .f32⟩
  | 102 => ⟨S8192x64, .f32⟩
  | 103 => ⟨S8192x64, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S8192x64, .f32⟩
  | 111 => ⟨S8192x64, .f32⟩
  | 112 => ⟨S8192x64, .f32⟩
  | 113 => ⟨S_, .f32⟩
  | 114 => ⟨S8192, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x64, .f32⟩
  | 121 => ⟨S8192x64, .f32⟩
  | 122 => ⟨S8192x64, .f32⟩
  | 123 => ⟨S_, .f32⟩
  | 124 => ⟨S8192, .f32⟩
  | 125 => ⟨S8192x1, .f32⟩
  | 126 => ⟨S8192x1, .f32⟩
  | 127 => ⟨S_, .f32⟩
  | _ => ⟨S8192x64, .f32⟩

abbrev hbmTy0_7 (i : Nat) : BufTy := match i % 128 with
  | 0 => ⟨S8192x1, .f32⟩
  | 1 => ⟨S8192x1, .f32⟩
  | 2 => ⟨S8192x64, .f32⟩
  | 3 => ⟨S8192x64, .f32⟩
  | 4 => ⟨S8192x64, .f32⟩
  | 5 => ⟨S_, .f32⟩
  | 6 => ⟨S8192, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S8192x64, .f32⟩
  | 13 => ⟨S8192x64, .f32⟩
  | 14 => ⟨S8192x64, .f32⟩
  | 15 => ⟨S_, .f32⟩
  | 16 => ⟨S8192, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x64, .f32⟩
  | 23 => ⟨S8192x64, .f32⟩
  | 24 => ⟨S8192x64, .f32⟩
  | 25 => ⟨S8192x64, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S8192x64, .f32⟩
  | 34 => ⟨S8192x64, .f32⟩
  | 35 => ⟨S_, .f32⟩
  | 36 => ⟨S8192, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x64, .f32⟩
  | 43 => ⟨S8192x64, .f32⟩
  | 44 => ⟨S8192x64, .f32⟩
  | 45 => ⟨S_, .f32⟩
  | 46 => ⟨S8192, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x64, .f32⟩
  | 53 => ⟨S8192x64, .f32⟩
  | 54 => ⟨S8192x64, .f32⟩
  | 55 => ⟨S_, .f32⟩
  | 56 => ⟨S8192, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x64, .f32⟩
  | 63 => ⟨S8192x64, .f32⟩
  | 64 => ⟨S8192x64, .f32⟩
  | 65 => ⟨S_, .f32⟩
  | 66 => ⟨S8192, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x64, .f32⟩
  | 73 => ⟨S8192x64, .f32⟩
  | 74 => ⟨S8192x512, .f32⟩
  | 75 => ⟨S8192x512, .f32⟩
  | _ => ⟨S8192x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8192x64, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x1024, .f32⟩
  | .local _ .vmem, ⟨8, _⟩ => ⟨S2048x1024, .f32⟩
  | .local _ .vmem, ⟨9, _⟩ => ⟨S1024x64, .f32⟩
  | .local _ .vmem, ⟨10, _⟩ => ⟨S1024x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x1024, .f32⟩
  | .local _ .vmem, ⟨15, _⟩ => ⟨S2048x1024, .f32⟩
  | .local _ .vmem, ⟨16, _⟩ => ⟨S1024x64, .f32⟩
  | .local _ .vmem, ⟨17, _⟩ => ⟨S1024x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x1024, .f32⟩
  | .local _ .vmem, ⟨22, _⟩ => ⟨S2048x1024, .f32⟩
  | .local _ .vmem, ⟨23, _⟩ => ⟨S1024x64, .f32⟩
  | .local _ .vmem, ⟨24, _⟩ => ⟨S1024x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x1024, .f32⟩
  | .local _ .vmem, ⟨29, _⟩ => ⟨S2048x1024, .f32⟩
  | .local _ .vmem, ⟨30, _⟩ => ⟨S1024x64, .f32⟩
  | .local _ .vmem, ⟨31, _⟩ => ⟨S1024x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x1024, .f32⟩
  | .local _ .vmem, ⟨36, _⟩ => ⟨S2048x1024, .f32⟩
  | .local _ .vmem, ⟨37, _⟩ => ⟨S1024x64, .f32⟩
  | .local _ .vmem, ⟨38, _⟩ => ⟨S1024x64, .f32⟩
  | .local _ .vmem, ⟨39, _⟩ => ⟨S2048x64, .f32⟩
  | .local _ .vmem, ⟨40, _⟩ => ⟨S2048x64, .f32⟩
  | .local _ .vmem, ⟨41, _⟩ => ⟨S2048x64, .f32⟩
  | .local _ .vmem, ⟨42, _⟩ => ⟨S2048x1024, .f32⟩
  | .local _ .vmem, ⟨43, _⟩ => ⟨S2048x1024, .f32⟩
  | .local _ .vmem, ⟨44, _⟩ => ⟨S1024x64, .f32⟩
  | .local _ .vmem, ⟨45, _⟩ => ⟨S1024x64, .f32⟩
  | .local _ .vmem, ⟨46, _⟩ => ⟨S2048x64, .f32⟩
  | .local _ .vmem, ⟨47, _⟩ => ⟨S2048x64, .f32⟩
  | .local _ .vmem, ⟨48, _⟩ => ⟨S2048x64, .f32⟩
  | .local _ .vmem, ⟨49, _⟩ => ⟨S2048x1024, .f32⟩
  | .local _ .vmem, ⟨50, _⟩ => ⟨S2048x1024, .f32⟩
  | .local _ .vmem, ⟨51, _⟩ => ⟨S1024x64, .f32⟩
  | .local _ .vmem, ⟨52, _⟩ => ⟨S1024x64, .f32⟩
  | .local _ .vmem, ⟨53, _⟩ => ⟨S2048x64, .f32⟩
  | .local _ .vmem, ⟨54, _⟩ => ⟨S2048x64, .f32⟩
  | .local _ .vmem, ⟨55, _⟩ => ⟨S2048x64, .f32⟩
  | .local _ .vmem, ⟨56, _⟩ => ⟨S2048x1024, .f32⟩
  | .local _ .vmem, ⟨57, _⟩ => ⟨S2048x1024, .f32⟩
  | .local _ .vmem, ⟨58, _⟩ => ⟨S1024x64, .f32⟩
  | .local _ .vmem, ⟨59, _⟩ => ⟨S1024x64, .f32⟩
  | .local _ .vmem, ⟨60, _⟩ => ⟨S2048x64, .f32⟩
  | .local _ .vmem, ⟨61, _⟩ => ⟨S2048x64, .f32⟩
  | .local _ .vmem, ⟨62, _⟩ => ⟨S2048x64, .f32⟩
  | .local _ .vmem, ⟨63, _⟩ => ⟨S2048x1024, .f32⟩
  | .local _ .vmem, ⟨64, _⟩ => ⟨S2048x1024, .f32⟩
  | .local _ .vmem, ⟨65, _⟩ => ⟨S1024x64, .f32⟩
  | .local _ .vmem, ⟨66, _⟩ => ⟨S1024x64, .f32⟩
  | .local _ .vmem, ⟨67, _⟩ => ⟨S2048x64, .f32⟩
  | .local _ .vmem, ⟨68, _⟩ => ⟨S2048x64, .f32⟩
  | .local _ .vmem, ⟨69, _⟩ => ⟨S2048x64, .f32⟩
  | .local _ .vmem, ⟨70, _⟩ => ⟨S2048x1024, .f32⟩
  | .local _ .vmem, ⟨71, _⟩ => ⟨S2048x1024, .f32⟩
  | .local _ .vmem, ⟨72, _⟩ => ⟨S1024x64, .f32⟩
  | .local _ .vmem, ⟨73, _⟩ => ⟨S1024x64, .f32⟩
  | .local _ .vmem, ⟨74, _⟩ => ⟨S2048x64, .f32⟩
  | .local _ .vmem, ⟨75, _⟩ => ⟨S2048x64, .f32⟩
  | .local _ .vmem, ⟨76, _⟩ => ⟨S2048x64, .f32⟩
  | .local _ .vmem, ⟨77, _⟩ => ⟨S2048x1024, .f32⟩
  | .local _ .vmem, ⟨78, _⟩ => ⟨S2048x1024, .f32⟩
  | .local _ .vmem, ⟨79, _⟩ => ⟨S1024x64, .f32⟩
  | .local _ .vmem, ⟨80, _⟩ => ⟨S1024x64, .f32⟩
  | .local _ .vmem, ⟨81, _⟩ => ⟨S2048x64, .f32⟩
  | .local _ .vmem, ⟨82, _⟩ => ⟨S2048x64, .f32⟩
  | .local _ .vmem, ⟨83, _⟩ => ⟨S2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_cst_19 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_cst_23 : Ref sig .tc := ⟨.hbm, 118, rfl⟩
abbrev main_v83 : Ref sig .tc := ⟨.hbm, 119, rfl⟩
abbrev main_cst_24 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_v87 : Ref sig .tc := ⟨.hbm, 125, rfl⟩
abbrev main_cst_26 : Ref sig .tc := ⟨.hbm, 126, rfl⟩
abbrev main_v88 : Ref sig .tc := ⟨.hbm, 127, rfl⟩
abbrev main_cst_27 : Ref sig .tc := ⟨.hbm, 128, rfl⟩
abbrev main_v89 : Ref sig .tc := ⟨.hbm, 129, rfl⟩
abbrev main_cst_28 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_29 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_30 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_31 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_32 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_33 : Ref sig .tc := ⟨.hbm, 168, rfl⟩
abbrev main_v123 : Ref sig .tc := ⟨.hbm, 169, rfl⟩
abbrev main_v124 : Ref sig .tc := ⟨.hbm, 170, rfl⟩
abbrev main_cst_34 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_35 : Ref sig .tc := ⟨.hbm, 181, rfl⟩
abbrev main_v134 : Ref sig .tc := ⟨.hbm, 182, rfl⟩
abbrev main_v135 : Ref sig .tc := ⟨.hbm, 183, rfl⟩
abbrev main_cst_36 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_37 : Ref sig .tc := ⟨.hbm, 188, rfl⟩
abbrev main_v139 : Ref sig .tc := ⟨.hbm, 189, rfl⟩
abbrev main_v140 : Ref sig .tc := ⟨.hbm, 190, rfl⟩
abbrev main_cst_38 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_39 : Ref sig .tc := ⟨.hbm, 196, rfl⟩
abbrev main_v145 : Ref sig .tc := ⟨.hbm, 197, rfl⟩
abbrev main_v146 : Ref sig .tc := ⟨.hbm, 198, rfl⟩
abbrev main_cst_40 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_41 : Ref sig .tc := ⟨.hbm, 204, rfl⟩
abbrev main_v151 : Ref sig .tc := ⟨.hbm, 205, rfl⟩
abbrev main_cst_42 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_43 : Ref sig .tc := ⟨.hbm, 210, rfl⟩
abbrev main_v155 : Ref sig .tc := ⟨.hbm, 211, rfl⟩
abbrev main_v156 : Ref sig .tc := ⟨.hbm, 212, rfl⟩
abbrev main_cst_44 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_45 : Ref sig .tc := ⟨.hbm, 218, rfl⟩
abbrev main_v161 : Ref sig .tc := ⟨.hbm, 219, rfl⟩
abbrev main_v162 : Ref sig .tc := ⟨.hbm, 220, rfl⟩
abbrev main_cst_46 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_47 : Ref sig .tc := ⟨.hbm, 226, rfl⟩
abbrev main_v167 : Ref sig .tc := ⟨.hbm, 227, rfl⟩
abbrev main_cst_48 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_49 : Ref sig .tc := ⟨.hbm, 233, rfl⟩
abbrev main_v172 : Ref sig .tc := ⟨.hbm, 234, rfl⟩
abbrev main_cst_50 : Ref sig .tc := ⟨.hbm, 235, rfl⟩
abbrev main_v173 : Ref sig .tc := ⟨.hbm, 236, rfl⟩
abbrev main_cst_51 : Ref sig .tc := ⟨.hbm, 237, rfl⟩
abbrev main_v174 : Ref sig .tc := ⟨.hbm, 238, rfl⟩
abbrev main_cst_52 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_53 : Ref sig .tc := ⟨.hbm, 243, rfl⟩
abbrev main_v178 : Ref sig .tc := ⟨.hbm, 244, rfl⟩
abbrev main_cst_54 : Ref sig .tc := ⟨.hbm, 245, rfl⟩
abbrev main_v179 : Ref sig .tc := ⟨.hbm, 246, rfl⟩
abbrev main_cst_55 : Ref sig .tc := ⟨.hbm, 247, rfl⟩
abbrev main_v180 : Ref sig .tc := ⟨.hbm, 248, rfl⟩
abbrev main_cst_56 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_cst_57 : Ref sig .tc := ⟨.hbm, 253, rfl⟩
abbrev main_v184 : Ref sig .tc := ⟨.hbm, 254, rfl⟩
abbrev main_cst_58 : Ref sig .tc := ⟨.hbm, 255, rfl⟩
abbrev main_v185 : Ref sig .tc := ⟨.hbm, 256, rfl⟩
abbrev main_cst_59 : Ref sig .tc := ⟨.hbm, 257, rfl⟩
abbrev main_v186 : Ref sig .tc := ⟨.hbm, 258, rfl⟩
abbrev main_cst_60 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_61 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_cst_62 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_cst_63 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_cst_64 : Ref sig .tc := ⟨.hbm, 296, rfl⟩
abbrev main_v220 : Ref sig .tc := ⟨.hbm, 297, rfl⟩
abbrev main_v221 : Ref sig .tc := ⟨.hbm, 298, rfl⟩
abbrev main_cst_65 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_cst_66 : Ref sig .tc := ⟨.hbm, 309, rfl⟩
abbrev main_v231 : Ref sig .tc := ⟨.hbm, 310, rfl⟩
abbrev main_v232 : Ref sig .tc := ⟨.hbm, 311, rfl⟩
abbrev main_cst_67 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_cst_68 : Ref sig .tc := ⟨.hbm, 316, rfl⟩
abbrev main_v236 : Ref sig .tc := ⟨.hbm, 317, rfl⟩
abbrev main_v237 : Ref sig .tc := ⟨.hbm, 318, rfl⟩
abbrev main_cst_69 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_cst_70 : Ref sig .tc := ⟨.hbm, 324, rfl⟩
abbrev main_v242 : Ref sig .tc := ⟨.hbm, 325, rfl⟩
abbrev main_v243 : Ref sig .tc := ⟨.hbm, 326, rfl⟩
abbrev main_cst_71 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_cst_72 : Ref sig .tc := ⟨.hbm, 332, rfl⟩
abbrev main_v248 : Ref sig .tc := ⟨.hbm, 333, rfl⟩
abbrev main_cst_73 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_cst_74 : Ref sig .tc := ⟨.hbm, 338, rfl⟩
abbrev main_v252 : Ref sig .tc := ⟨.hbm, 339, rfl⟩
abbrev main_v253 : Ref sig .tc := ⟨.hbm, 340, rfl⟩
abbrev main_cst_75 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_cst_76 : Ref sig .tc := ⟨.hbm, 346, rfl⟩
abbrev main_v258 : Ref sig .tc := ⟨.hbm, 347, rfl⟩
abbrev main_v259 : Ref sig .tc := ⟨.hbm, 348, rfl⟩
abbrev main_cst_77 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_cst_78 : Ref sig .tc := ⟨.hbm, 354, rfl⟩
abbrev main_v264 : Ref sig .tc := ⟨.hbm, 355, rfl⟩
abbrev main_cst_79 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_cst_80 : Ref sig .tc := ⟨.hbm, 361, rfl⟩
abbrev main_v269 : Ref sig .tc := ⟨.hbm, 362, rfl⟩
abbrev main_cst_81 : Ref sig .tc := ⟨.hbm, 363, rfl⟩
abbrev main_v270 : Ref sig .tc := ⟨.hbm, 364, rfl⟩
abbrev main_cst_82 : Ref sig .tc := ⟨.hbm, 365, rfl⟩
abbrev main_v271 : Ref sig .tc := ⟨.hbm, 366, rfl⟩
abbrev main_cst_83 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_cst_84 : Ref sig .tc := ⟨.hbm, 371, rfl⟩
abbrev main_v275 : Ref sig .tc := ⟨.hbm, 372, rfl⟩
abbrev main_cst_85 : Ref sig .tc := ⟨.hbm, 373, rfl⟩
abbrev main_v276 : Ref sig .tc := ⟨.hbm, 374, rfl⟩
abbrev main_cst_86 : Ref sig .tc := ⟨.hbm, 375, rfl⟩
abbrev main_v277 : Ref sig .tc := ⟨.hbm, 376, rfl⟩
abbrev main_cst_87 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_cst_88 : Ref sig .tc := ⟨.hbm, 381, rfl⟩
abbrev main_v281 : Ref sig .tc := ⟨.hbm, 382, rfl⟩
abbrev main_cst_89 : Ref sig .tc := ⟨.hbm, 383, rfl⟩
abbrev main_v282 : Ref sig .tc := ⟨.hbm, 384, rfl⟩
abbrev main_cst_90 : Ref sig .tc := ⟨.hbm, 385, rfl⟩
abbrev main_v283 : Ref sig .tc := ⟨.hbm, 386, rfl⟩
abbrev main_cst_91 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_cst_92 : Ref sig .tc := ⟨.hbm, 391, rfl⟩
abbrev main_v287 : Ref sig .tc := ⟨.hbm, 392, rfl⟩
abbrev main_v288 : Ref sig .tc := ⟨.hbm, 393, rfl⟩
abbrev main_v289 : Ref sig .tc := ⟨.hbm, 394, rfl⟩
abbrev main_v290 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_cst_93 : Ref sig .tc := ⟨.hbm, 407, rfl⟩
abbrev main_v302 : Ref sig .tc := ⟨.hbm, 408, rfl⟩
abbrev main_v303 : Ref sig .tc := ⟨.hbm, 409, rfl⟩
abbrev main_v304 : Ref sig .tc := ⟨.hbm, 410, rfl⟩
abbrev main_v305 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_cst_94 : Ref sig .tc := ⟨.hbm, 415, rfl⟩
abbrev main_v309 : Ref sig .tc := ⟨.hbm, 416, rfl⟩
abbrev main_v310 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_cst_95 : Ref sig .tc := ⟨.hbm, 424, rfl⟩
abbrev main_v317 : Ref sig .tc := ⟨.hbm, 425, rfl⟩
abbrev main_v318 : Ref sig .tc := ⟨.hbm, 426, rfl⟩
abbrev main_cst_96 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_v327 : Ref sig .tc := ⟨.hbm, 436, rfl⟩
abbrev main_cst_97 : Ref sig .tc := ⟨.hbm, 437, rfl⟩
abbrev main_v328 : Ref sig .tc := ⟨.hbm, 438, rfl⟩
abbrev main_v329 : Ref sig .tc := ⟨.hbm, 439, rfl⟩
abbrev main_cst_98 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_cst_99 : Ref sig .tc := ⟨.hbm, 444, rfl⟩
abbrev main_v333 : Ref sig .tc := ⟨.hbm, 445, rfl⟩
abbrev main_v334 : Ref sig .tc := ⟨.hbm, 446, rfl⟩
abbrev main_cst_100 : Ref sig .tc := ⟨.hbm, 447, rfl⟩
abbrev main_v335 : Ref sig .tc := ⟨.hbm, 448, rfl⟩
abbrev main_v336 : Ref sig .tc := ⟨.hbm, 449, rfl⟩
abbrev main_v337 : Ref sig .tc := ⟨.hbm, 450, rfl⟩
abbrev main_v338 : Ref sig .tc := ⟨.hbm, 451, rfl⟩
abbrev main_cst_101 : Ref sig .tc := ⟨.hbm, 452, rfl⟩
abbrev main_v339 : Ref sig .tc := ⟨.hbm, 453, rfl⟩
abbrev main_v340 : Ref sig .tc := ⟨.hbm, 454, rfl⟩
abbrev main_cst_102 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_cst_103 : Ref sig .tc := ⟨.hbm, 460, rfl⟩
abbrev main_v345 : Ref sig .tc := ⟨.hbm, 461, rfl⟩
abbrev main_cst_104 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_cst_105 : Ref sig .tc := ⟨.hbm, 466, rfl⟩
abbrev main_v349 : Ref sig .tc := ⟨.hbm, 467, rfl⟩
abbrev main_v350 : Ref sig .tc := ⟨.hbm, 468, rfl⟩
abbrev main_cst_106 : Ref sig .tc := ⟨.hbm, 469, rfl⟩
abbrev main_v351 : Ref sig .tc := ⟨.hbm, 470, rfl⟩
abbrev main_v352 : Ref sig .tc := ⟨.hbm, 471, rfl⟩
abbrev main_v353 : Ref sig .tc := ⟨.hbm, 472, rfl⟩
abbrev main_v354 : Ref sig .tc := ⟨.hbm, 473, rfl⟩
abbrev main_cst_107 : Ref sig .tc := ⟨.hbm, 474, rfl⟩
abbrev main_v355 : Ref sig .tc := ⟨.hbm, 475, rfl⟩
abbrev main_v356 : Ref sig .tc := ⟨.hbm, 476, rfl⟩
abbrev main_cst_108 : Ref sig .tc := ⟨.hbm, 477, rfl⟩
abbrev main_v357 : Ref sig .tc := ⟨.hbm, 478, rfl⟩
abbrev main_v358 : Ref sig .tc := ⟨.hbm, 479, rfl⟩
abbrev main_v359 : Ref sig .tc := ⟨.hbm, 480, rfl⟩
abbrev main_v360 : Ref sig .tc := ⟨.hbm, 481, rfl⟩
abbrev main_cst_109 : Ref sig .tc := ⟨.hbm, 482, rfl⟩
abbrev main_v361 : Ref sig .tc := ⟨.hbm, 483, rfl⟩
abbrev main_cst_110 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_v365 : Ref sig .tc := ⟨.hbm, 488, rfl⟩
abbrev main_cst_111 : Ref sig .tc := ⟨.hbm, 489, rfl⟩
abbrev main_v366 : Ref sig .tc := ⟨.hbm, 490, rfl⟩
abbrev main_cst_112 : Ref sig .tc := ⟨.hbm, 491, rfl⟩
abbrev main_v367 : Ref sig .tc := ⟨.hbm, 492, rfl⟩
abbrev main_cst_113 : Ref sig .tc := ⟨.hbm, 493, rfl⟩
abbrev main_v368 : Ref sig .tc := ⟨.hbm, 494, rfl⟩
abbrev main_cst_114 : Ref sig .tc := ⟨.hbm, 495, rfl⟩
abbrev main_v369 : Ref sig .tc := ⟨.hbm, 496, rfl⟩
abbrev main_v370 : Ref sig .tc := ⟨.hbm, 497, rfl⟩
abbrev main_v371 : Ref sig .tc := ⟨.hbm, 498, rfl⟩
abbrev main_cst_115 : Ref sig .tc := ⟨.hbm, 499, rfl⟩
abbrev main_v372 : Ref sig .tc := ⟨.hbm, 500, rfl⟩
abbrev main_cst_116 : Ref sig .tc := ⟨.hbm, 501, rfl⟩
abbrev main_v373 : Ref sig .tc := ⟨.hbm, 502, rfl⟩
abbrev main_cst_117 : Ref sig .tc := ⟨.hbm, 503, rfl⟩
abbrev main_v374 : Ref sig .tc := ⟨.hbm, 504, rfl⟩
abbrev main_cst_118 : Ref sig .tc := ⟨.hbm, 505, rfl⟩
abbrev main_v375 : Ref sig .tc := ⟨.hbm, 506, rfl⟩
abbrev main_v376 : Ref sig .tc := ⟨.hbm, 507, rfl⟩
abbrev main_v377 : Ref sig .tc := ⟨.hbm, 508, rfl⟩
abbrev main_cst_119 : Ref sig .tc := ⟨.hbm, 509, rfl⟩
abbrev main_v378 : Ref sig .tc := ⟨.hbm, 510, rfl⟩
abbrev main_cst_120 : Ref sig .tc := ⟨.hbm, 511, rfl⟩
abbrev main_v379 : Ref sig .tc := ⟨.hbm, 512, rfl⟩
abbrev main_cst_121 : Ref sig .tc := ⟨.hbm, 513, rfl⟩
abbrev main_v380 : Ref sig .tc := ⟨.hbm, 514, rfl⟩
abbrev main_cst_122 : Ref sig .tc := ⟨.hbm, 515, rfl⟩
abbrev main_v381 : Ref sig .tc := ⟨.hbm, 516, rfl⟩
abbrev main_v382 : Ref sig .tc := ⟨.hbm, 517, rfl⟩
abbrev main_v383 : Ref sig .tc := ⟨.hbm, 518, rfl⟩
abbrev main_cst_123 : Ref sig .tc := ⟨.hbm, 519, rfl⟩
abbrev main_v384 : Ref sig .tc := ⟨.hbm, 520, rfl⟩
abbrev main_v385 : Ref sig .tc := ⟨.hbm, 521, rfl⟩
abbrev main_v386 : Ref sig .tc := ⟨.hbm, 522, rfl⟩
abbrev main_v387 : Ref sig .tc := ⟨.hbm, 523, rfl⟩
abbrev main_v388 : Ref sig .tc := ⟨.hbm, 524, rfl⟩
abbrev main_v389 : Ref sig .tc := ⟨.hbm, 525, rfl⟩
abbrev main_v390 : Ref sig .tc := ⟨.hbm, 526, rfl⟩
abbrev main_v391 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_v395 : Ref sig .tc := ⟨.hbm, 531, rfl⟩
abbrev main_v396 : Ref sig .tc := ⟨.hbm, 532, rfl⟩
abbrev main_v397 : Ref sig .tc := ⟨.hbm, 533, rfl⟩
abbrev main_v398 : Ref sig .tc := ⟨.hbm, 534, rfl⟩
abbrev main_cst_124 : Ref sig .tc := ⟨.hbm, 535, rfl⟩
abbrev main_v399 : Ref sig .tc := ⟨.hbm, 536, rfl⟩
abbrev main_v400 : Ref sig .tc := ⟨.hbm, 537, rfl⟩
abbrev main_v401 : Ref sig .tc := ⟨.hbm, 538, rfl⟩
abbrev main_v402 : Ref sig .tc := ⟨.hbm, 539, rfl⟩
abbrev main_v403 : Ref sig .tc := ⟨.hbm, 540, rfl⟩
abbrev main_v404 : Ref sig .tc := ⟨.hbm, 541, rfl⟩
abbrev main_v405 : Ref sig .tc := ⟨.hbm, 542, rfl⟩
abbrev main_cst_125 : Ref sig .tc := ⟨.hbm, 543, rfl⟩
abbrev main_v406 : Ref sig .tc := ⟨.hbm, 544, rfl⟩
abbrev main_v407 : Ref sig .tc := ⟨.hbm, 545, rfl⟩
abbrev main_v408 : Ref sig .tc := ⟨.hbm, 546, rfl⟩
abbrev main_v409 : Ref sig .tc := ⟨.hbm, 547, rfl⟩
abbrev main_v410 : Ref sig .tc := ⟨.hbm, 548, rfl⟩
abbrev main_v411 : Ref sig .tc := ⟨.hbm, 549, rfl⟩
abbrev main_v412 : Ref sig .tc := ⟨.hbm, 550, rfl⟩
abbrev main_v413 : Ref sig .tc := ⟨.hbm, 551, rfl⟩
abbrev main_cst_126 : Ref sig .tc := ⟨.hbm, 552, rfl⟩
abbrev main_v414 : Ref sig .tc := ⟨.hbm, 553, rfl⟩
abbrev main_v415 : Ref sig .tc := ⟨.hbm, 554, rfl⟩
abbrev main_cst_127 : Ref sig .tc := ⟨.hbm, 555, rfl⟩
abbrev main_v416 : Ref sig .tc := ⟨.hbm, 556, rfl⟩
abbrev main_v417 : Ref sig .tc := ⟨.hbm, 557, rfl⟩
abbrev main_v418 : Ref sig .tc := ⟨.hbm, 558, rfl⟩
abbrev main_v419 : Ref sig .tc := ⟨.hbm, 559, rfl⟩
abbrev main_v420 : Ref sig .tc := ⟨.hbm, 560, rfl⟩
abbrev main_v421 : Ref sig .tc := ⟨.hbm, 561, rfl⟩
abbrev main_v422 : Ref sig .tc := ⟨.hbm, 562, rfl⟩
abbrev main_v423 : Ref sig .tc := ⟨.hbm, 563, rfl⟩
abbrev main_v424 : Ref sig .tc := ⟨.hbm, 564, rfl⟩
abbrev main_cst_128 : Ref sig .tc := ⟨.hbm, 565, rfl⟩
abbrev main_v425 : Ref sig .tc := ⟨.hbm, 566, rfl⟩
abbrev main_v426 : Ref sig .tc := ⟨.hbm, 567, rfl⟩
abbrev main_cst_129 : Ref sig .tc := ⟨.hbm, 568, rfl⟩
abbrev main_v427 : Ref sig .tc := ⟨.hbm, 569, rfl⟩
abbrev main_v428 : Ref sig .tc := ⟨.hbm, 570, rfl⟩
abbrev main_v429 : Ref sig .tc := ⟨.hbm, 571, rfl⟩
abbrev main_cst_130 : Ref sig .tc := ⟨.hbm, 572, rfl⟩
abbrev main_v430 : Ref sig .tc := ⟨.hbm, 573, rfl⟩
abbrev main_v431 : Ref sig .tc := ⟨.hbm, 574, rfl⟩
abbrev main_cst_131 : Ref sig .tc := ⟨.hbm, 575, rfl⟩
abbrev main_v432 : Ref sig .tc := ⟨.hbm, 576, rfl⟩
abbrev main_v433 : Ref sig .tc := ⟨.hbm, 577, rfl⟩
abbrev main_v434 : Ref sig .tc := ⟨.hbm, 578, rfl⟩
abbrev main_v435 : Ref sig .tc := ⟨.hbm, 579, rfl⟩
abbrev main_cst_132 : Ref sig .tc := ⟨.hbm, 580, rfl⟩
abbrev main_v436 : Ref sig .tc := ⟨.hbm, 581, rfl⟩
abbrev main_v437 : Ref sig .tc := ⟨.hbm, 582, rfl⟩
abbrev main_cst_133 : Ref sig .tc := ⟨.hbm, 583, rfl⟩
abbrev main_v438 : Ref sig .tc := ⟨.hbm, 584, rfl⟩
abbrev main_v439 : Ref sig .tc := ⟨.hbm, 585, rfl⟩
abbrev main_v440 : Ref sig .tc := ⟨.hbm, 586, rfl⟩
abbrev main_v441 : Ref sig .tc := ⟨.hbm, 587, rfl⟩
abbrev main_cst_134 : Ref sig .tc := ⟨.hbm, 588, rfl⟩
abbrev main_v442 : Ref sig .tc := ⟨.hbm, 589, rfl⟩
abbrev main_cst_135 : Ref sig .tc := ⟨.hbm, 590, rfl⟩
abbrev main_v443 : Ref sig .tc := ⟨.hbm, 591, rfl⟩
abbrev main_v444 : Ref sig .tc := ⟨.hbm, 592, rfl⟩
abbrev main_v445 : Ref sig .tc := ⟨.hbm, 593, rfl⟩
abbrev main_cst_136 : Ref sig .tc := ⟨.hbm, 594, rfl⟩
abbrev main_v446 : Ref sig .tc := ⟨.hbm, 595, rfl⟩
abbrev main_v447 : Ref sig .tc := ⟨.hbm, 596, rfl⟩
abbrev main_cst_137 : Ref sig .tc := ⟨.hbm, 597, rfl⟩
abbrev main_v448 : Ref sig .tc := ⟨.hbm, 598, rfl⟩
abbrev main_v449 : Ref sig .tc := ⟨.hbm, 599, rfl⟩
abbrev main_v450 : Ref sig .tc := ⟨.hbm, 600, rfl⟩
abbrev main_v451 : Ref sig .tc := ⟨.hbm, 601, rfl⟩
abbrev main_cst_138 : Ref sig .tc := ⟨.hbm, 602, rfl⟩
abbrev main_v452 : Ref sig .tc := ⟨.hbm, 603, rfl⟩
abbrev main_v453 : Ref sig .tc := ⟨.hbm, 604, rfl⟩
abbrev main_cst_139 : Ref sig .tc := ⟨.hbm, 605, rfl⟩
abbrev main_v454 : Ref sig .tc := ⟨.hbm, 606, rfl⟩
abbrev main_v455 : Ref sig .tc := ⟨.hbm, 607, rfl⟩
abbrev main_v456 : Ref sig .tc := ⟨.hbm, 608, rfl⟩
abbrev main_v457 : Ref sig .tc := ⟨.hbm, 609, rfl⟩
abbrev main_cst_140 : Ref sig .tc := ⟨.hbm, 610, rfl⟩
abbrev main_v458 : Ref sig .tc := ⟨.hbm, 611, rfl⟩
abbrev main_cst_141 : Ref sig .tc := ⟨.hbm, 612, rfl⟩
abbrev main_v459 : Ref sig .tc := ⟨.hbm, 613, rfl⟩
abbrev main_v460 : Ref sig .tc := ⟨.hbm, 614, rfl⟩
abbrev main_v461 : Ref sig .tc := ⟨.hbm, 615, rfl⟩
abbrev main_v462 : Ref sig .tc := ⟨.hbm, 616, rfl⟩
abbrev main_cst_142 : Ref sig .tc := ⟨.hbm, 617, rfl⟩
abbrev main_v463 : Ref sig .tc := ⟨.hbm, 618, rfl⟩
abbrev main_cst_143 : Ref sig .tc := ⟨.hbm, 619, rfl⟩
abbrev main_v464 : Ref sig .tc := ⟨.hbm, 620, rfl⟩
abbrev main_cst_144 : Ref sig .tc := ⟨.hbm, 621, rfl⟩
abbrev main_v465 : Ref sig .tc := ⟨.hbm, 622, rfl⟩
abbrev main_cst_145 : Ref sig .tc := ⟨.hbm, 623, rfl⟩
abbrev main_v466 : Ref sig .tc := ⟨.hbm, 624, rfl⟩
abbrev main_v467 : Ref sig .tc := ⟨.hbm, 625, rfl⟩
abbrev main_v468 : Ref sig .tc := ⟨.hbm, 626, rfl⟩
abbrev main_cst_146 : Ref sig .tc := ⟨.hbm, 627, rfl⟩
abbrev main_v469 : Ref sig .tc := ⟨.hbm, 628, rfl⟩
abbrev main_cst_147 : Ref sig .tc := ⟨.hbm, 629, rfl⟩
abbrev main_v470 : Ref sig .tc := ⟨.hbm, 630, rfl⟩
abbrev main_cst_148 : Ref sig .tc := ⟨.hbm, 631, rfl⟩
abbrev main_v471 : Ref sig .tc := ⟨.hbm, 632, rfl⟩
abbrev main_cst_149 : Ref sig .tc := ⟨.hbm, 633, rfl⟩
abbrev main_v472 : Ref sig .tc := ⟨.hbm, 634, rfl⟩
abbrev main_v473 : Ref sig .tc := ⟨.hbm, 635, rfl⟩
abbrev main_v474 : Ref sig .tc := ⟨.hbm, 636, rfl⟩
abbrev main_cst_150 : Ref sig .tc := ⟨.hbm, 637, rfl⟩
abbrev main_v475 : Ref sig .tc := ⟨.hbm, 638, rfl⟩
abbrev main_cst_151 : Ref sig .tc := ⟨.hbm, 639, rfl⟩
abbrev main_v476 : Ref sig .tc := ⟨.hbm, 640, rfl⟩
abbrev main_cst_152 : Ref sig .tc := ⟨.hbm, 641, rfl⟩
abbrev main_v477 : Ref sig .tc := ⟨.hbm, 642, rfl⟩
abbrev main_cst_153 : Ref sig .tc := ⟨.hbm, 643, rfl⟩
abbrev main_v478 : Ref sig .tc := ⟨.hbm, 644, rfl⟩
abbrev main_v479 : Ref sig .tc := ⟨.hbm, 645, rfl⟩
abbrev main_v480 : Ref sig .tc := ⟨.hbm, 646, rfl⟩
abbrev main_cst_154 : Ref sig .tc := ⟨.hbm, 647, rfl⟩
abbrev main_v481 : Ref sig .tc := ⟨.hbm, 648, rfl⟩
abbrev main_v482 : Ref sig .tc := ⟨.hbm, 649, rfl⟩
abbrev main_v483 : Ref sig .tc := ⟨.hbm, 650, rfl⟩
abbrev main_v484 : Ref sig .tc := ⟨.hbm, 651, rfl⟩
abbrev main_v485 : Ref sig .tc := ⟨.hbm, 652, rfl⟩
abbrev main_v486 : Ref sig .tc := ⟨.hbm, 653, rfl⟩
abbrev main_v487 : Ref sig .tc := ⟨.hbm, 654, rfl⟩
abbrev main_v488 : Ref sig .tc := ⟨.hbm, 655, rfl⟩
abbrev main_v489 : Ref sig .tc := ⟨.hbm, 656, rfl⟩
abbrev main_v490 : Ref sig .tc := ⟨.hbm, 657, rfl⟩
abbrev main_v491 : Ref sig .tc := ⟨.hbm, 658, rfl⟩
abbrev main_v492 : Ref sig .tc := ⟨.hbm, 659, rfl⟩
abbrev main_v493 : Ref sig .tc := ⟨.hbm, 660, rfl⟩
abbrev main_v494 : Ref sig .tc := ⟨.hbm, 661, rfl⟩
abbrev main_v495 : Ref sig .tc := ⟨.hbm, 662, rfl⟩
abbrev main_cst_155 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_v499 : Ref sig .tc := ⟨.hbm, 667, rfl⟩
abbrev main_v500 : Ref sig .tc := ⟨.hbm, 668, rfl⟩
abbrev main_v501 : Ref sig .tc := ⟨.hbm, 669, rfl⟩
abbrev main_v502 : Ref sig .tc := ⟨.hbm, 670, rfl⟩
abbrev main_cst_156 : Ref sig .tc := ⟨.hbm, 671, rfl⟩
abbrev main_v503 : Ref sig .tc := ⟨.hbm, 672, rfl⟩
abbrev main_v504 : Ref sig .tc := ⟨.hbm, 673, rfl⟩
abbrev main_v505 : Ref sig .tc := ⟨.hbm, 674, rfl⟩
abbrev main_v506 : Ref sig .tc := ⟨.hbm, 675, rfl⟩
abbrev main_v507 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_cst_157 : Ref sig .tc := ⟨.hbm, 680, rfl⟩
abbrev main_v511 : Ref sig .tc := ⟨.hbm, 681, rfl⟩
abbrev main_v512 : Ref sig .tc := ⟨.hbm, 682, rfl⟩
abbrev main_cst_158 : Ref sig .tc := ⟨.hbm, 683, rfl⟩
abbrev main_v513 : Ref sig .tc := ⟨.hbm, 684, rfl⟩
abbrev main_v514 : Ref sig .tc := ⟨.hbm, 685, rfl⟩
abbrev main_v515 : Ref sig .tc := ⟨.hbm, 686, rfl⟩
abbrev main_v516 : Ref sig .tc := ⟨.hbm, 687, rfl⟩
abbrev main_v517 : Ref sig .tc := ⟨.hbm, 688, rfl⟩
abbrev main_v518 : Ref sig .tc := ⟨.hbm, 689, rfl⟩
abbrev main_v519 : Ref sig .tc := ⟨.hbm, 690, rfl⟩
abbrev main_v520 : Ref sig .tc := ⟨.hbm, 691, rfl⟩
abbrev main_v521 : Ref sig .tc := ⟨.hbm, 692, rfl⟩
abbrev main_cst_159 : Ref sig .tc := ⟨.hbm, 693, rfl⟩
abbrev main_v522 : Ref sig .tc := ⟨.hbm, 694, rfl⟩
abbrev main_v523 : Ref sig .tc := ⟨.hbm, 695, rfl⟩
abbrev main_cst_160 : Ref sig .tc := ⟨.hbm, 696, rfl⟩
abbrev main_v524 : Ref sig .tc := ⟨.hbm, 697, rfl⟩
abbrev main_v525 : Ref sig .tc := ⟨.hbm, 698, rfl⟩
abbrev main_v526 : Ref sig .tc := ⟨.hbm, 699, rfl⟩
abbrev main_cst_161 : Ref sig .tc := ⟨.hbm, 700, rfl⟩
abbrev main_v527 : Ref sig .tc := ⟨.hbm, 701, rfl⟩
abbrev main_v528 : Ref sig .tc := ⟨.hbm, 702, rfl⟩
abbrev main_cst_162 : Ref sig .tc := ⟨.hbm, 703, rfl⟩
abbrev main_v529 : Ref sig .tc := ⟨.hbm, 704, rfl⟩
abbrev main_v530 : Ref sig .tc := ⟨.hbm, 705, rfl⟩
abbrev main_v531 : Ref sig .tc := ⟨.hbm, 706, rfl⟩
abbrev main_v532 : Ref sig .tc := ⟨.hbm, 707, rfl⟩
abbrev main_cst_163 : Ref sig .tc := ⟨.hbm, 708, rfl⟩
abbrev main_v533 : Ref sig .tc := ⟨.hbm, 709, rfl⟩
abbrev main_v534 : Ref sig .tc := ⟨.hbm, 710, rfl⟩
abbrev main_cst_164 : Ref sig .tc := ⟨.hbm, 711, rfl⟩
abbrev main_v535 : Ref sig .tc := ⟨.hbm, 712, rfl⟩
abbrev main_v536 : Ref sig .tc := ⟨.hbm, 713, rfl⟩
abbrev main_v537 : Ref sig .tc := ⟨.hbm, 714, rfl⟩
abbrev main_v538 : Ref sig .tc := ⟨.hbm, 715, rfl⟩
abbrev main_cst_165 : Ref sig .tc := ⟨.hbm, 716, rfl⟩
abbrev main_v539 : Ref sig .tc := ⟨.hbm, 717, rfl⟩
abbrev main_cst_166 : Ref sig .tc := ⟨.hbm, 718, rfl⟩
abbrev main_v540 : Ref sig .tc := ⟨.hbm, 719, rfl⟩
abbrev main_v541 : Ref sig .tc := ⟨.hbm, 720, rfl⟩
abbrev main_v542 : Ref sig .tc := ⟨.hbm, 721, rfl⟩
abbrev main_cst_167 : Ref sig .tc := ⟨.hbm, 722, rfl⟩
abbrev main_v543 : Ref sig .tc := ⟨.hbm, 723, rfl⟩
abbrev main_v544 : Ref sig .tc := ⟨.hbm, 724, rfl⟩
abbrev main_cst_168 : Ref sig .tc := ⟨.hbm, 725, rfl⟩
abbrev main_v545 : Ref sig .tc := ⟨.hbm, 726, rfl⟩
abbrev main_v546 : Ref sig .tc := ⟨.hbm, 727, rfl⟩
abbrev main_v547 : Ref sig .tc := ⟨.hbm, 728, rfl⟩
abbrev main_v548 : Ref sig .tc := ⟨.hbm, 729, rfl⟩
abbrev main_cst_169 : Ref sig .tc := ⟨.hbm, 730, rfl⟩
abbrev main_v549 : Ref sig .tc := ⟨.hbm, 731, rfl⟩
abbrev main_v550 : Ref sig .tc := ⟨.hbm, 732, rfl⟩
abbrev main_cst_170 : Ref sig .tc := ⟨.hbm, 733, rfl⟩
abbrev main_v551 : Ref sig .tc := ⟨.hbm, 734, rfl⟩
abbrev main_v552 : Ref sig .tc := ⟨.hbm, 735, rfl⟩
abbrev main_v553 : Ref sig .tc := ⟨.hbm, 736, rfl⟩
abbrev main_v554 : Ref sig .tc := ⟨.hbm, 737, rfl⟩
abbrev main_cst_171 : Ref sig .tc := ⟨.hbm, 738, rfl⟩
abbrev main_v555 : Ref sig .tc := ⟨.hbm, 739, rfl⟩
abbrev main_cst_172 : Ref sig .tc := ⟨.hbm, 740, rfl⟩
abbrev main_v556 : Ref sig .tc := ⟨.hbm, 741, rfl⟩
abbrev main_v557 : Ref sig .tc := ⟨.hbm, 742, rfl⟩
abbrev main_v558 : Ref sig .tc := ⟨.hbm, 743, rfl⟩
abbrev main_v559 : Ref sig .tc := ⟨.hbm, 744, rfl⟩
abbrev main_cst_173 : Ref sig .tc := ⟨.hbm, 745, rfl⟩
abbrev main_v560 : Ref sig .tc := ⟨.hbm, 746, rfl⟩
abbrev main_cst_174 : Ref sig .tc := ⟨.hbm, 747, rfl⟩
abbrev main_v561 : Ref sig .tc := ⟨.hbm, 748, rfl⟩
abbrev main_cst_175 : Ref sig .tc := ⟨.hbm, 749, rfl⟩
abbrev main_v562 : Ref sig .tc := ⟨.hbm, 750, rfl⟩
abbrev main_cst_176 : Ref sig .tc := ⟨.hbm, 751, rfl⟩
abbrev main_v563 : Ref sig .tc := ⟨.hbm, 752, rfl⟩
abbrev main_v564 : Ref sig .tc := ⟨.hbm, 753, rfl⟩
abbrev main_v565 : Ref sig .tc := ⟨.hbm, 754, rfl⟩
abbrev main_cst_177 : Ref sig .tc := ⟨.hbm, 755, rfl⟩
abbrev main_v566 : Ref sig .tc := ⟨.hbm, 756, rfl⟩
abbrev main_cst_178 : Ref sig .tc := ⟨.hbm, 757, rfl⟩
abbrev main_v567 : Ref sig .tc := ⟨.hbm, 758, rfl⟩
abbrev main_cst_179 : Ref sig .tc := ⟨.hbm, 759, rfl⟩
abbrev main_v568 : Ref sig .tc := ⟨.hbm, 760, rfl⟩
abbrev main_cst_180 : Ref sig .tc := ⟨.hbm, 761, rfl⟩
abbrev main_v569 : Ref sig .tc := ⟨.hbm, 762, rfl⟩
abbrev main_v570 : Ref sig .tc := ⟨.hbm, 763, rfl⟩
abbrev main_v571 : Ref sig .tc := ⟨.hbm, 764, rfl⟩
abbrev main_cst_181 : Ref sig .tc := ⟨.hbm, 765, rfl⟩
abbrev main_v572 : Ref sig .tc := ⟨.hbm, 766, rfl⟩
abbrev main_cst_182 : Ref sig .tc := ⟨.hbm, 767, rfl⟩
abbrev main_v573 : Ref sig .tc := ⟨.hbm, 768, rfl⟩
abbrev main_cst_183 : Ref sig .tc := ⟨.hbm, 769, rfl⟩
abbrev main_v574 : Ref sig .tc := ⟨.hbm, 770, rfl⟩
abbrev main_cst_184 : Ref sig .tc := ⟨.hbm, 771, rfl⟩
abbrev main_v575 : Ref sig .tc := ⟨.hbm, 772, rfl⟩
abbrev main_v576 : Ref sig .tc := ⟨.hbm, 773, rfl⟩
abbrev main_v577 : Ref sig .tc := ⟨.hbm, 774, rfl⟩
abbrev main_cst_185 : Ref sig .tc := ⟨.hbm, 775, rfl⟩
abbrev main_v578 : Ref sig .tc := ⟨.hbm, 776, rfl⟩
abbrev main_v579 : Ref sig .tc := ⟨.hbm, 777, rfl⟩
abbrev main_v580 : Ref sig .tc := ⟨.hbm, 778, rfl⟩
abbrev main_v581 : Ref sig .tc := ⟨.hbm, 779, rfl⟩
abbrev main_call0_v0 : Ref sig .tc := ⟨.hbm, 780, rfl⟩
abbrev main_call0_cst : Ref sig .tc := ⟨.hbm, 781, rfl⟩
abbrev main_call0_v1 : Ref sig .tc := ⟨.hbm, 782, rfl⟩
abbrev main_call0_v2 : Ref sig .tc := ⟨.hbm, 783, rfl⟩
abbrev main_v582 : Ref sig .tc := ⟨.hbm, 784, rfl⟩
abbrev main_cst_186 : Ref sig .tc := ⟨.hbm, 785, rfl⟩
abbrev main_v583 : Ref sig .tc := ⟨.hbm, 786, rfl⟩
abbrev main_v584 : Ref sig .tc := ⟨.hbm, 787, rfl⟩
abbrev main_v585 : Ref sig .tc := ⟨.hbm, 788, rfl⟩
abbrev main_v586 : Ref sig .tc := ⟨.hbm, 789, rfl⟩
abbrev main_call1_v0 : Ref sig .tc := ⟨.hbm, 790, rfl⟩
abbrev main_call1_cst : Ref sig .tc := ⟨.hbm, 791, rfl⟩
abbrev main_call1_v1 : Ref sig .tc := ⟨.hbm, 792, rfl⟩
abbrev main_call1_v2 : Ref sig .tc := ⟨.hbm, 793, rfl⟩
abbrev main_v587 : Ref sig .tc := ⟨.hbm, 794, rfl⟩
abbrev main_cst_187 : Ref sig .tc := ⟨.hbm, 795, rfl⟩
abbrev main_v588 : Ref sig .tc := ⟨.hbm, 796, rfl⟩
abbrev main_v589 : Ref sig .tc := ⟨.hbm, 797, rfl⟩
abbrev main_v590 : Ref sig .tc := ⟨.hbm, 798, rfl⟩
abbrev main_v591 : Ref sig .tc := ⟨.hbm, 799, rfl⟩
abbrev main_call2_v0 : Ref sig .tc := ⟨.hbm, 800, rfl⟩
abbrev main_call2_cst : Ref sig .tc := ⟨.hbm, 801, rfl⟩
abbrev main_call2_v1 : Ref sig .tc := ⟨.hbm, 802, rfl⟩
abbrev main_call2_v2 : Ref sig .tc := ⟨.hbm, 803, rfl⟩
abbrev main_v592 : Ref sig .tc := ⟨.hbm, 804, rfl⟩
abbrev main_cst_188 : Ref sig .tc := ⟨.hbm, 805, rfl⟩
abbrev main_v593 : Ref sig .tc := ⟨.hbm, 806, rfl⟩
abbrev main_v594 : Ref sig .tc := ⟨.hbm, 807, rfl⟩
abbrev main_v595 : Ref sig .tc := ⟨.hbm, 808, rfl⟩
abbrev main_v596 : Ref sig .tc := ⟨.hbm, 809, rfl⟩
abbrev main_call3_v0 : Ref sig .tc := ⟨.hbm, 810, rfl⟩
abbrev main_call3_cst : Ref sig .tc := ⟨.hbm, 811, rfl⟩
abbrev main_call3_v1 : Ref sig .tc := ⟨.hbm, 812, rfl⟩
abbrev main_call3_v2 : Ref sig .tc := ⟨.hbm, 813, rfl⟩
abbrev main_v597 : Ref sig .tc := ⟨.hbm, 814, rfl⟩
abbrev main_cst_189 : Ref sig .tc := ⟨.hbm, 815, rfl⟩
abbrev main_v598 : Ref sig .tc := ⟨.hbm, 816, rfl⟩
abbrev main_v599 : Ref sig .tc := ⟨.hbm, 817, rfl⟩
abbrev main_v600 : Ref sig .tc := ⟨.hbm, 818, rfl⟩
abbrev main_v601 : Ref sig .tc := ⟨.hbm, 819, rfl⟩
abbrev main_v602 : Ref sig .tc := ⟨.hbm, 820, rfl⟩
abbrev main_v603 : Ref sig .tc := ⟨.hbm, 821, rfl⟩
abbrev main_v604 : Ref sig .tc := ⟨.hbm, 822, rfl⟩
abbrev main_v605 : Ref sig .tc := ⟨.hbm, 823, rfl⟩
abbrev main_v606 : Ref sig .tc := ⟨.hbm, 824, rfl⟩
abbrev main_v607 : Ref sig .tc := ⟨.hbm, 825, rfl⟩
abbrev main_v608 : Ref sig .tc := ⟨.hbm, 826, rfl⟩
abbrev main_v609 : Ref sig .tc := ⟨.hbm, 827, rfl⟩
abbrev main_v610 : Ref sig .tc := ⟨.hbm, 828, rfl⟩
abbrev main_v611 : Ref sig .tc := ⟨.hbm, 829, rfl⟩
abbrev main_call4_v0 : Ref sig .tc := ⟨.hbm, 830, rfl⟩
abbrev main_call4_cst : Ref sig .tc := ⟨.hbm, 831, rfl⟩
abbrev main_call4_v1 : Ref sig .tc := ⟨.hbm, 832, rfl⟩
abbrev main_call4_v2 : Ref sig .tc := ⟨.hbm, 833, rfl⟩
abbrev main_v612 : Ref sig .tc := ⟨.hbm, 834, rfl⟩
abbrev main_cst_190 : Ref sig .tc := ⟨.hbm, 835, rfl⟩
abbrev main_v613 : Ref sig .tc := ⟨.hbm, 836, rfl⟩
abbrev main_v614 : Ref sig .tc := ⟨.hbm, 837, rfl⟩
abbrev main_v615 : Ref sig .tc := ⟨.hbm, 838, rfl⟩
abbrev main_v616 : Ref sig .tc := ⟨.hbm, 839, rfl⟩
abbrev main_call5_v0 : Ref sig .tc := ⟨.hbm, 840, rfl⟩
abbrev main_call5_cst : Ref sig .tc := ⟨.hbm, 841, rfl⟩
abbrev main_call5_v1 : Ref sig .tc := ⟨.hbm, 842, rfl⟩
abbrev main_call5_v2 : Ref sig .tc := ⟨.hbm, 843, rfl⟩
abbrev main_v617 : Ref sig .tc := ⟨.hbm, 844, rfl⟩
abbrev main_cst_191 : Ref sig .tc := ⟨.hbm, 845, rfl⟩
abbrev main_v618 : Ref sig .tc := ⟨.hbm, 846, rfl⟩
abbrev main_v619 : Ref sig .tc := ⟨.hbm, 847, rfl⟩
abbrev main_v620 : Ref sig .tc := ⟨.hbm, 848, rfl⟩
abbrev main_v621 : Ref sig .tc := ⟨.hbm, 849, rfl⟩
abbrev main_call6_v0 : Ref sig .tc := ⟨.hbm, 850, rfl⟩
abbrev main_call6_cst : Ref sig .tc := ⟨.hbm, 851, rfl⟩
abbrev main_call6_v1 : Ref sig .tc := ⟨.hbm, 852, rfl⟩
abbrev main_call6_v2 : Ref sig .tc := ⟨.hbm, 853, rfl⟩
abbrev main_v622 : Ref sig .tc := ⟨.hbm, 854, rfl⟩
abbrev main_cst_192 : Ref sig .tc := ⟨.hbm, 855, rfl⟩
abbrev main_v623 : Ref sig .tc := ⟨.hbm, 856, rfl⟩
abbrev main_v624 : Ref sig .tc := ⟨.hbm, 857, rfl⟩
abbrev main_v625 : Ref sig .tc := ⟨.hbm, 858, rfl⟩
abbrev main_v626 : Ref sig .tc := ⟨.hbm, 859, rfl⟩
abbrev main_call7_v0 : Ref sig .tc := ⟨.hbm, 860, rfl⟩
abbrev main_call7_cst : Ref sig .tc := ⟨.hbm, 861, rfl⟩
abbrev main_call7_v1 : Ref sig .tc := ⟨.hbm, 862, rfl⟩
abbrev main_call7_v2 : Ref sig .tc := ⟨.hbm, 863, rfl⟩
abbrev main_v627 : Ref sig .tc := ⟨.hbm, 864, rfl⟩
abbrev main_cst_193 : Ref sig .tc := ⟨.hbm, 865, rfl⟩
abbrev main_v628 : Ref sig .tc := ⟨.hbm, 866, rfl⟩
abbrev main_v629 : Ref sig .tc := ⟨.hbm, 867, rfl⟩
abbrev main_v630 : Ref sig .tc := ⟨.hbm, 868, rfl⟩
abbrev main_v631 : Ref sig .tc := ⟨.hbm, 869, rfl⟩
abbrev main_v632 : Ref sig .tc := ⟨.hbm, 870, rfl⟩
abbrev main_v633 : Ref sig .tc := ⟨.hbm, 871, rfl⟩
abbrev main_v634 : Ref sig .tc := ⟨.hbm, 872, rfl⟩
abbrev main_v635 : Ref sig .tc := ⟨.hbm, 873, rfl⟩
abbrev main_v636 : Ref sig .tc := ⟨.hbm, 874, rfl⟩
abbrev main_v637 : Ref sig .tc := ⟨.hbm, 875, rfl⟩
abbrev main_v638 : Ref sig .tc := ⟨.hbm, 876, rfl⟩
abbrev main_v639 : Ref sig .tc := ⟨.hbm, 877, rfl⟩
abbrev main_v640 : Ref sig .tc := ⟨.hbm, 878, rfl⟩
abbrev main_v641 : Ref sig .tc := ⟨.hbm, 879, rfl⟩
abbrev main_call8_v0 : Ref sig .tc := ⟨.hbm, 880, rfl⟩
abbrev main_call8_cst : Ref sig .tc := ⟨.hbm, 881, rfl⟩
abbrev main_call8_v1 : Ref sig .tc := ⟨.hbm, 882, rfl⟩
abbrev main_call8_v2 : Ref sig .tc := ⟨.hbm, 883, rfl⟩
abbrev main_v642 : Ref sig .tc := ⟨.hbm, 884, rfl⟩
abbrev main_cst_194 : Ref sig .tc := ⟨.hbm, 885, rfl⟩
abbrev main_v643 : Ref sig .tc := ⟨.hbm, 886, rfl⟩
abbrev main_v644 : Ref sig .tc := ⟨.hbm, 887, rfl⟩
abbrev main_v645 : Ref sig .tc := ⟨.hbm, 888, rfl⟩
abbrev main_v646 : Ref sig .tc := ⟨.hbm, 889, rfl⟩
abbrev main_call9_v0 : Ref sig .tc := ⟨.hbm, 890, rfl⟩
abbrev main_call9_cst : Ref sig .tc := ⟨.hbm, 891, rfl⟩
abbrev main_call9_v1 : Ref sig .tc := ⟨.hbm, 892, rfl⟩
abbrev main_call9_v2 : Ref sig .tc := ⟨.hbm, 893, rfl⟩
abbrev main_v647 : Ref sig .tc := ⟨.hbm, 894, rfl⟩
abbrev main_cst_195 : Ref sig .tc := ⟨.hbm, 895, rfl⟩
abbrev main_v648 : Ref sig .tc := ⟨.hbm, 896, rfl⟩
abbrev main_v649 : Ref sig .tc := ⟨.hbm, 897, rfl⟩
abbrev main_v650 : Ref sig .tc := ⟨.hbm, 898, rfl⟩
abbrev main_v651 : Ref sig .tc := ⟨.hbm, 899, rfl⟩
abbrev main_call10_v0 : Ref sig .tc := ⟨.hbm, 900, rfl⟩
abbrev main_call10_cst : Ref sig .tc := ⟨.hbm, 901, rfl⟩
abbrev main_call10_v1 : Ref sig .tc := ⟨.hbm, 902, rfl⟩
abbrev main_call10_v2 : Ref sig .tc := ⟨.hbm, 903, rfl⟩
abbrev main_v652 : Ref sig .tc := ⟨.hbm, 904, rfl⟩
abbrev main_cst_196 : Ref sig .tc := ⟨.hbm, 905, rfl⟩
abbrev main_v653 : Ref sig .tc := ⟨.hbm, 906, rfl⟩
abbrev main_v654 : Ref sig .tc := ⟨.hbm, 907, rfl⟩
abbrev main_v655 : Ref sig .tc := ⟨.hbm, 908, rfl⟩
abbrev main_v656 : Ref sig .tc := ⟨.hbm, 909, rfl⟩
abbrev main_call11_v0 : Ref sig .tc := ⟨.hbm, 910, rfl⟩
abbrev main_call11_cst : Ref sig .tc := ⟨.hbm, 911, rfl⟩
abbrev main_call11_v1 : Ref sig .tc := ⟨.hbm, 912, rfl⟩
abbrev main_call11_v2 : Ref sig .tc := ⟨.hbm, 913, rfl⟩
abbrev main_v657 : Ref sig .tc := ⟨.hbm, 914, rfl⟩
abbrev main_cst_197 : Ref sig .tc := ⟨.hbm, 915, rfl⟩
abbrev main_v658 : Ref sig .tc := ⟨.hbm, 916, rfl⟩
abbrev main_v659 : Ref sig .tc := ⟨.hbm, 917, rfl⟩
abbrev main_v660 : Ref sig .tc := ⟨.hbm, 918, rfl⟩
abbrev main_v661 : Ref sig .tc := ⟨.hbm, 919, rfl⟩
abbrev main_v662 : Ref sig .tc := ⟨.hbm, 920, rfl⟩
abbrev main_v663 : Ref sig .tc := ⟨.hbm, 921, rfl⟩
abbrev main_v664 : Ref sig .tc := ⟨.hbm, 922, rfl⟩
abbrev main_v665 : Ref sig .tc := ⟨.hbm, 923, rfl⟩
abbrev main_v666 : Ref sig .tc := ⟨.hbm, 924, rfl⟩
abbrev main_v667 : Ref sig .tc := ⟨.hbm, 925, rfl⟩
abbrev main_v668 : Ref sig .tc := ⟨.hbm, 926, rfl⟩
abbrev main_v669 : Ref sig .tc := ⟨.hbm, 927, rfl⟩
abbrev main_v670 : Ref sig .tc := ⟨.hbm, 928, rfl⟩
abbrev main_v671 : Ref sig .tc := ⟨.hbm, 929, rfl⟩
abbrev main_call12_v0 : Ref sig .tc := ⟨.hbm, 930, rfl⟩
abbrev main_call12_cst : Ref sig .tc := ⟨.hbm, 931, rfl⟩
abbrev main_call12_v1 : Ref sig .tc := ⟨.hbm, 932, rfl⟩
abbrev main_call12_v2 : Ref sig .tc := ⟨.hbm, 933, rfl⟩
abbrev main_v672 : Ref sig .tc := ⟨.hbm, 934, rfl⟩
abbrev main_cst_198 : Ref sig .tc := ⟨.hbm, 935, rfl⟩
abbrev main_v673 : Ref sig .tc := ⟨.hbm, 936, rfl⟩
abbrev main_v674 : Ref sig .tc := ⟨.hbm, 937, rfl⟩
abbrev main_v675 : Ref sig .tc := ⟨.hbm, 938, rfl⟩
abbrev main_v676 : Ref sig .tc := ⟨.hbm, 939, rfl⟩
abbrev main_call13_v0 : Ref sig .tc := ⟨.hbm, 940, rfl⟩
abbrev main_call13_cst : Ref sig .tc := ⟨.hbm, 941, rfl⟩
abbrev main_call13_v1 : Ref sig .tc := ⟨.hbm, 942, rfl⟩
abbrev main_call13_v2 : Ref sig .tc := ⟨.hbm, 943, rfl⟩
abbrev main_v677 : Ref sig .tc := ⟨.hbm, 944, rfl⟩
abbrev main_cst_199 : Ref sig .tc := ⟨.hbm, 945, rfl⟩
abbrev main_v678 : Ref sig .tc := ⟨.hbm, 946, rfl⟩
abbrev main_v679 : Ref sig .tc := ⟨.hbm, 947, rfl⟩
abbrev main_v680 : Ref sig .tc := ⟨.hbm, 948, rfl⟩
abbrev main_v681 : Ref sig .tc := ⟨.hbm, 949, rfl⟩
abbrev main_call14_v0 : Ref sig .tc := ⟨.hbm, 950, rfl⟩
abbrev main_call14_cst : Ref sig .tc := ⟨.hbm, 951, rfl⟩
abbrev main_call14_v1 : Ref sig .tc := ⟨.hbm, 952, rfl⟩
abbrev main_call14_v2 : Ref sig .tc := ⟨.hbm, 953, rfl⟩
abbrev main_v682 : Ref sig .tc := ⟨.hbm, 954, rfl⟩
abbrev main_cst_200 : Ref sig .tc := ⟨.hbm, 955, rfl⟩
abbrev main_v683 : Ref sig .tc := ⟨.hbm, 956, rfl⟩
abbrev main_v684 : Ref sig .tc := ⟨.hbm, 957, rfl⟩
abbrev main_v685 : Ref sig .tc := ⟨.hbm, 958, rfl⟩
abbrev main_v686 : Ref sig .tc := ⟨.hbm, 959, rfl⟩
abbrev main_call15_v0 : Ref sig .tc := ⟨.hbm, 960, rfl⟩
abbrev main_call15_cst : Ref sig .tc := ⟨.hbm, 961, rfl⟩
abbrev main_call15_v1 : Ref sig .tc := ⟨.hbm, 962, rfl⟩
abbrev main_call15_v2 : Ref sig .tc := ⟨.hbm, 963, rfl⟩
abbrev main_v687 : Ref sig .tc := ⟨.hbm, 964, rfl⟩
abbrev main_cst_201 : Ref sig .tc := ⟨.hbm, 965, rfl⟩
abbrev main_v688 : Ref sig .tc := ⟨.hbm, 966, rfl⟩
abbrev main_v689 : Ref sig .tc := ⟨.hbm, 967, rfl⟩
abbrev main_v690 : Ref sig .tc := ⟨.hbm, 968, rfl⟩
abbrev main_v691 : Ref sig .tc := ⟨.hbm, 969, rfl⟩
abbrev main_v692 : Ref sig .tc := ⟨.hbm, 970, rfl⟩
abbrev main_v693 : Ref sig .tc := ⟨.hbm, 971, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_scratch0 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_scratch0 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc8_scratch0 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg2_1 : Ref sig .tc := ⟨.vmem, 68, rfl⟩
abbrev cc9_scratch0 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc10_scratch0 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc11_stg2_1 : Ref sig .tc := ⟨.vmem, 82, rfl⟩
abbrev cc11_scratch0 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 8], ![false, false]⟩

def k5_cond2 (i : grid5.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 8], ![false, false]⟩

def k6_cond2 (i : grid6.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![4, 8], ![false, false]⟩

def k7_cond2 (i : grid7.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![4, 8], ![false, false]⟩

def k8_cond2 (i : grid8.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1024x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![4, 8], ![false, false]⟩

def k9_cond2 (i : grid9.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S2048x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1024x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S2048x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev grid10 : Pipeline.Grid := ⟨2, ![4, 8], ![false, false]⟩

def k10_cond2 (i : grid10.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1024x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨2, ![4, 8], ![false, false]⟩

def k11_cond2 (i : grid11.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S2048x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1024x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S2048x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

class Facts₀ : Prop where
  slices_S4x64_S1x64_0_0 : S4x64.Slices ![0, 0] S1x64
  shapeCasts_S1x64_S64 : S1x64.ShapeCasts S64
  slices_S4x64_S1x64_1_0 : S4x64.Slices ![1, 0] S1x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S64_d0 : S64x64.ReducesTo [0] S64
  h_S_ : 0 < S_.numel
  bcast_S_S1x64 : S_.BroadcastsInDim S1x64 (![] : Fin 0 → Fin S1x64.rank)
  reducesTo_S64x64_S64_d1 : S64x64.ReducesTo [1] S64
  bcast_S_S64x1 : S_.BroadcastsInDim S64x1 (![] : Fin 0 → Fin S64x1.rank)
  reducesTo_S64x64_S_d0_1 : S64x64.ReducesTo [0, 1] S_
  slices_S4x64_S1x64_2_0 : S4x64.Slices ![2, 0] S1x64
  slices_S4x64_S1x64_3_0 : S4x64.Slices ![3, 0] S1x64
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  concatenates_S8192x64_S8192x64_S8192x64_S8192x64_S8192x64_S8192x64_S8192x64_S8192x64_S8192x512_d1 : Shape.Concatenates [S8192x64, S8192x64, S8192x64, S8192x64, S8192x64, S8192x64, S8192x64, S8192x64] S8192x512 1
  dot_S2048x1024_S1024x64_S2048x64_1_0_0_1_n_n_wf : DotDims.WF S2048x1024 S1024x64 S2048x64 [1] [0] [0] [1] [] []
  dot_S8192x4_S4x64_S8192x64_1_0_0_1_n_n_wf : DotDims.WF S8192x4 S4x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .f32 = 32 ∨ (Rect.block (s := S8192x8192) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .f32 = 32 ∨ (Rect.block (s := S8192x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S8192x8192.size a
  hwx4_0 : ∀ i : grid4.Coords, EltTy.bits .f32 = 32 ∨ (Rect.block (s := S8192x8192) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S8192x64.size a
  hwx4_2 : ∀ i : grid4.Coords, EltTy.bits .f32 = 32 ∨ (Rect.block (s := S8192x64) S2048x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S8192x8192.size a
  hwx5_0 : ∀ i : grid5.Coords, EltTy.bits .f32 = 32 ∨ (Rect.block (s := S8192x8192) S2048x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S8192x64.size a
  hwx5_1 : ∀ i : grid5.Coords, EltTy.bits .f32 = 32 ∨ (Rect.block (s := S8192x64) S1024x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S8192x64.size a
  hwx5_2 : ∀ i : grid5.Coords, EltTy.bits .f32 = 32 ∨ (Rect.block (s := S8192x64) S2048x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x1024.size a ≤ S8192x8192.size a
  hwx6_0 : ∀ i : grid6.Coords, EltTy.bits .f32 = 32 ∨ (Rect.block (s := S8192x8192) S2048x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x64.size a ≤ S8192x64.size a
  hwx6_1 : ∀ i : grid6.Coords, EltTy.bits .f32 = 32 ∨ (Rect.block (s := S8192x64) S1024x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x64.size a ≤ S8192x64.size a
  hwx6_2 : ∀ i : grid6.Coords, EltTy.bits .f32 = 32 ∨ (Rect.block (s := S8192x64) S2048x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x1024.size a ≤ S8192x8192.size a
  hwx7_0 : ∀ i : grid7.Coords, EltTy.bits .f32 = 32 ∨ (Rect.block (s := S8192x8192) S2048x1024.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x64.size a ≤ S8192x64.size a
  hwx7_1 : ∀ i : grid7.Coords, EltTy.bits .f32 = 32 ∨ (Rect.block (s := S8192x64) S1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x64.size a ≤ S8192x64.size a
  hwx7_2 : ∀ i : grid7.Coords, EltTy.bits .f32 = 32 ∨ (Rect.block (s := S8192x64) S2048x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x1024.size a ≤ S8192x8192.size a
  hwx8_0 : ∀ i : grid8.Coords, EltTy.bits .f32 = 32 ∨ (Rect.block (s := S8192x8192) S2048x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x64.size a ≤ S8192x64.size a
  hwx8_1 : ∀ i : grid8.Coords, EltTy.bits .f32 = 32 ∨ (Rect.block (s := S8192x64) S1024x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x64.size a ≤ S8192x64.size a
  hwx8_2 : ∀ i : grid8.Coords, EltTy.bits .f32 = 32 ∨ (Rect.block (s := S8192x64) S2048x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x1024.size a ≤ S8192x8192.size a
  hwx9_0 : ∀ i : grid9.Coords, EltTy.bits .f32 = 32 ∨ (Rect.block (s := S8192x8192) S2048x1024.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x64.size a ≤ S8192x64.size a
  hwx9_1 : ∀ i : grid9.Coords, EltTy.bits .f32 = 32 ∨ (Rect.block (s := S8192x64) S1024x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x64.size a ≤ S8192x64.size a
  hwx9_2 : ∀ i : grid9.Coords, EltTy.bits .f32 = 32 ∨ (Rect.block (s := S8192x64) S2048x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x1024.size a ≤ S8192x8192.size a
  hwx10_0 : ∀ i : grid10.Coords, EltTy.bits .f32 = 32 ∨ (Rect.block (s := S8192x8192) S2048x1024.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x64.size a ≤ S8192x64.size a
  hwx10_1 : ∀ i : grid10.Coords, EltTy.bits .f32 = 32 ∨ (Rect.block (s := S8192x64) S1024x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2048x64.size a ≤ S8192x64.size a
  hwx10_2 : ∀ i : grid10.Coords, EltTy.bits .f32 = 32 ∨ (Rect.block (s := S8192x64) S2048x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x1024.size a ≤ S8192x8192.size a
  hwx11_0 : ∀ i : grid11.Coords, EltTy.bits .f32 = 32 ∨ (Rect.block (s := S8192x8192) S2048x1024.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x64.size a ≤ S8192x64.size a
  hwx11_1 : ∀ i : grid11.Coords, EltTy.bits .f32 = 32 ∨ (Rect.block (s := S8192x64) S1024x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2048x64.size a ≤ S8192x64.size a
  hwx11_2 : ∀ i : grid11.Coords, EltTy.bits .f32 = 32 ∨ (Rect.block (s := S8192x64) S2048x64.size (cc11_transform_2 i) (hinb11_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S8192x4_S4x64_S8192x64_1_0_0_1_n_n : DotDims S8192x4 S4x64 S8192x64 where
  lhsContracting := [1]
  rhsContracting := [0]
  lhsNonContracting := [0]
  rhsNonContracting := [1]
  lhsBatch := []
  rhsBatch := []
  wf := dot_S8192x4_S4x64_S8192x64_1_0_0_1_n_n_wf

abbrev win0_0 : Pipeline.Window sig grid0 :=
  Pipeline.Window.ofSpec (Memref.whole main_arg5) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v602) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg6) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v606) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg8) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v610) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg7) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v611) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg5) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v609) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v632) S2048x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg6) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v605) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v636) S2048x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_arg8) S2048x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v610) S1024x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v640) S2048x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_arg7) S2048x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v611) S1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v641) S2048x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_arg5) S2048x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v639) S1024x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v662) S2048x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_arg6) S2048x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v635) S1024x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v666) S2048x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_arg8) S2048x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v640) S1024x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v670) S2048x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_arg7) S2048x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v641) S1024x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v671) S2048x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S4x64 : Shape := ⟨2, ![4, 64]⟩
abbrev S8192x4 : Shape := ⟨2, ![8192, 4]⟩
abbrev S8192x8192 : Shape := ⟨2, ![8192, 8192]⟩
abbrev S1x64 : Shape := ⟨2, ![1, 64]⟩
abbrev S64 : Shape := ⟨1, ![64]⟩
abbrev S64x1 : Shape := ⟨2, ![64, 1]⟩
abbrev S64x64 : Shape := ⟨2, ![64, 64]⟩
abbrev S_ : Shape := ⟨0, ![]⟩
abbrev S8192 : Shape := ⟨1, ![8192]⟩
abbrev S8192x1 : Shape := ⟨2, ![8192, 1]⟩
abbrev S1x4x64 : Shape := ⟨3, ![1, 4, 64]⟩
abbrev S8192x4x1 : Shape := ⟨3, ![8192, 4, 1]⟩
abbrev S8192x4x64 : Shape := ⟨3, ![8192, 4, 64]⟩
abbrev S8192x512 : Shape := ⟨2, ![8192, 512]⟩

abbrev nBuf : Space → Nat
  | .hbm => 1008
  | .vmem => 0
  | .smem => 0
  | _ => 0

abbrev hbmTy0_0 (i : Nat) : BufTy := match i % 128 with
  | 0 => ⟨S8192x64, .f32⟩
  | 1 => ⟨S8192x64, .f32⟩
  | 2 => ⟨S4x64, .f32⟩
  | 3 => ⟨S8192x4, .f32⟩
  | 4 => ⟨S8192x4, .f32⟩
  | 5 => ⟨S8192x8192, .f32⟩
  | 6 => ⟨S8192x8192, .f32⟩
  | 7 => ⟨S8192x8192, .f32⟩
  | 8 => ⟨S8192x8192, .f32⟩
  | 9 => ⟨S8192x64, .f32⟩
  | 10 => ⟨S8192x64, .f32⟩
  | 11 => ⟨S1x64, .f32⟩
  | 12 => ⟨S64, .f32⟩
  | 13 => ⟨S1x64, .f32⟩
  | 14 => ⟨S64, .f32⟩
  | 15 => ⟨S64, .f32⟩
  | 16 => ⟨S64, .f32⟩
  | 17 => ⟨S64x1, .f32⟩
  | 18 => ⟨S1x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x1, .f32⟩
  | 26 => ⟨S1x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x1, .f32⟩
  | 34 => ⟨S64x64, .f32⟩
  | 35 => ⟨S64x64, .f32⟩
  | 36 => ⟨S1x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x1, .f32⟩
  | 47 => ⟨S64x64, .f32⟩
  | 48 => ⟨S64x64, .f32⟩
  | 49 => ⟨S1x64, .f32⟩
  | 50 => ⟨S64x64, .f32⟩
  | 51 => ⟨S64x64, .f32⟩
  | 52 => ⟨S_, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S64x64, .f32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S64x64, .f32⟩
  | 66 => ⟨S64x64, .f32⟩
  | 67 => ⟨S_, .f32⟩
  | 68 => ⟨S64, .f32⟩
  | 69 => ⟨S64x1, .f32⟩
  | 70 => ⟨S_, .f32⟩
  | 71 => ⟨S64x1, .f32⟩
  | 72 => ⟨S64x1, .f32⟩
  | 73 => ⟨S64x64, .f32⟩
  | 74 => ⟨S64x64, .f32⟩
  | 75 => ⟨S_, .f32⟩
  | 76 => ⟨S_, .f32⟩
  | 77 => ⟨S_, .f32⟩
  | 78 => ⟨S_, .f32⟩
  | 79 => ⟨S64x64, .f32⟩
  | 80 => ⟨S64x64, .f32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S64x64, .f32⟩
  | 88 => ⟨S64x64, .f32⟩
  | 89 => ⟨S_, .f32⟩
  | 90 => ⟨S64, .f32⟩
  | 91 => ⟨S64x1, .f32⟩
  | 92 => ⟨S_, .f32⟩
  | 93 => ⟨S64x1, .f32⟩
  | 94 => ⟨S64x1, .f32⟩
  | 95 => ⟨S64x64, .f32⟩
  | 96 => ⟨S64x64, .f32⟩
  | 97 => ⟨S_, .f32⟩
  | 98 => ⟨S_, .f32⟩
  | 99 => ⟨S_, .f32⟩
  | 100 => ⟨S_, .f32⟩
  | 101 => ⟨S64x64, .f32⟩
  | 102 => ⟨S64x64, .f32⟩
  | 103 => ⟨S64x64, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S64x64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S64x64, .f32⟩
  | 124 => ⟨S_, .f32⟩
  | 125 => ⟨S_, .f32⟩
  | 126 => ⟨S_, .f32⟩
  | 127 => ⟨S_, .f32⟩
  | _ => ⟨S8192x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x64, .f32⟩
  | 13 => ⟨S64, .f32⟩
  | 14 => ⟨S1x64, .f32⟩
  | 15 => ⟨S64, .f32⟩
  | 16 => ⟨S64, .f32⟩
  | 17 => ⟨S64, .f32⟩
  | 18 => ⟨S64x1, .f32⟩
  | 19 => ⟨S1x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x1, .f32⟩
  | 35 => ⟨S64x64, .f32⟩
  | 36 => ⟨S64x64, .f32⟩
  | 37 => ⟨S1x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x1, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S64x64, .f32⟩
  | 67 => ⟨S64x64, .f32⟩
  | 68 => ⟨S_, .f32⟩
  | 69 => ⟨S64, .f32⟩
  | 70 => ⟨S64x1, .f32⟩
  | 71 => ⟨S_, .f32⟩
  | 72 => ⟨S64x1, .f32⟩
  | 73 => ⟨S64x1, .f32⟩
  | 74 => ⟨S64x64, .f32⟩
  | 75 => ⟨S64x64, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S64x64, .f32⟩
  | 89 => ⟨S64x64, .f32⟩
  | 90 => ⟨S_, .f32⟩
  | 91 => ⟨S64, .f32⟩
  | 92 => ⟨S64x1, .f32⟩
  | 93 => ⟨S_, .f32⟩
  | 94 => ⟨S64x1, .f32⟩
  | 95 => ⟨S64x1, .f32⟩
  | 96 => ⟨S64x64, .f32⟩
  | 97 => ⟨S64x64, .f32⟩
  | 98 => ⟨S_, .f32⟩
  | 99 => ⟨S_, .f32⟩
  | 100 => ⟨S_, .f32⟩
  | 101 => ⟨S_, .f32⟩
  | 102 => ⟨S64x64, .f32⟩
  | 103 => ⟨S64x64, .f32⟩
  | 104 => ⟨S64x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S64x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S64x64, .f32⟩
  | 125 => ⟨S_, .f32⟩
  | 126 => ⟨S_, .f32⟩
  | 127 => ⟨S_, .f32⟩
  | _ => ⟨S8192x64, .f32⟩

abbrev hbmTy0_6 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S8192x64, .f32⟩
  | 13 => ⟨S_, .f32⟩
  | 14 => ⟨S8192, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x64, .f32⟩
  | 21 => ⟨S8192x64, .f32⟩
  | 22 => ⟨S8192x64, .f32⟩
  | 23 => ⟨S_, .f32⟩
  | 24 => ⟨S8192, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x64, .f32⟩
  | 31 => ⟨S8192x64, .f32⟩
  | 32 => ⟨S8192x64, .f32⟩
  | 33 => ⟨S_, .f32⟩
  | 34 => ⟨S8192, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x64, .f32⟩
  | 41 => ⟨S8192x64, .f32⟩
  | 42 => ⟨S8192x64, .f32⟩
  | 43 => ⟨S_, .f32⟩
  | 44 => ⟨S8192, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x64, .f32⟩
  | 51 => ⟨S8192x64, .f32⟩
  | 52 => ⟨S8192x64, .f32⟩
  | 53 => ⟨S1x4x64, .f32⟩
  | 54 => ⟨S8192x4x1, .f32⟩
  | 55 => ⟨S8192x4x64, .f32⟩
  | 56 => ⟨S8192x4x64, .f32⟩
  | 57 => ⟨S8192x4x64, .f32⟩
  | 58 => ⟨S_, .f32⟩
  | 59 => ⟨S8192x64, .f32⟩
  | 60 => ⟨S8192x64, .f32⟩
  | 61 => ⟨S8192x64, .f32⟩
  | 62 => ⟨S8192x64, .f32⟩
  | 63 => ⟨S1x4x64, .f32⟩
  | 64 => ⟨S8192x4x1, .f32⟩
  | 65 => ⟨S8192x4x64, .f32⟩
  | 66 => ⟨S8192x4x64, .f32⟩
  | 67 => ⟨S8192x4x64, .f32⟩
  | 68 => ⟨S_, .f32⟩
  | 69 => ⟨S8192x64, .f32⟩
  | 70 => ⟨S8192x64, .f32⟩
  | 71 => ⟨S8192x64, .f32⟩
  | 72 => ⟨S8192x64, .f32⟩
  | 73 => ⟨S8192x64, .f32⟩
  | 74 => ⟨S8192x64, .f32⟩
  | 75 => ⟨S_, .f32⟩
  | 76 => ⟨S8192, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x64, .f32⟩
  | 83 => ⟨S8192x64, .f32⟩
  | 84 => ⟨S8192x64, .f32⟩
  | 85 => ⟨S_, .f32⟩
  | 86 => ⟨S8192, .f32⟩
  | 87 => ⟨S8192x1, .f32⟩
  | 88 => ⟨S8192x1, .f32⟩
  | 89 => ⟨S_, .f32⟩
  | 90 => ⟨S8192x1, .f32⟩
  | 91 => ⟨S8192x1, .f32⟩
  | 92 => ⟨S8192x64, .f32⟩
  | 93 => ⟨S8192x64, .f32⟩
  | 94 => ⟨S8192x64, .f32⟩
  | 95 => ⟨S_, .f32⟩
  | 96 => ⟨S8192, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x64, .f32⟩
  | 103 => ⟨S8192x64, .f32⟩
  | 104 => ⟨S8192x64, .f32⟩
  | 105 => ⟨S_, .f32⟩
  | 106 => ⟨S8192, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x64, .f32⟩
  | 113 => ⟨S8192x64, .f32⟩
  | 114 => ⟨S8192x64, .f32⟩
  | 115 => ⟨S1x4x64, .f32⟩
  | 116 => ⟨S8192x4x1, .f32⟩
  | 117 => ⟨S8192x4x64, .f32⟩
  | 118 => ⟨S8192x4x64, .f32⟩
  | 119 => ⟨S8192x4x64, .f32⟩
  | 120 => ⟨S_, .f32⟩
  | 121 => ⟨S8192x64, .f32⟩
  | 122 => ⟨S8192x64, .f32⟩
  | 123 => ⟨S8192x64, .f32⟩
  | 124 => ⟨S8192x64, .f32⟩
  | 125 => ⟨S1x4x64, .f32⟩
  | 126 => ⟨S8192x4x1, .f32⟩
  | 127 => ⟨S8192x4x64, .f32⟩
  | _ => ⟨S8192x64, .f32⟩

abbrev hbmTy0_7 (i : Nat) : BufTy := match i % 128 with
  | 0 => ⟨S8192x4x64, .f32⟩
  | 1 => ⟨S8192x4x64, .f32⟩
  | 2 => ⟨S_, .f32⟩
  | 3 => ⟨S8192x64, .f32⟩
  | 4 => ⟨S8192x64, .f32⟩
  | 5 => ⟨S8192x64, .f32⟩
  | 6 => ⟨S8192x64, .f32⟩
  | 7 => ⟨S8192x64, .f32⟩
  | 8 => ⟨S8192x64, .f32⟩
  | 9 => ⟨S_, .f32⟩
  | 10 => ⟨S8192, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x64, .f32⟩
  | 17 => ⟨S8192x64, .f32⟩
  | 18 => ⟨S8192x64, .f32⟩
  | 19 => ⟨S_, .f32⟩
  | 20 => ⟨S8192, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x64, .f32⟩
  | 27 => ⟨S8192x64, .f32⟩
  | 28 => ⟨S8192x64, .f32⟩
  | 29 => ⟨S_, .f32⟩
  | 30 => ⟨S8192, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x64, .f32⟩
  | 37 => ⟨S8192x64, .f32⟩
  | 38 => ⟨S8192x64, .f32⟩
  | 39 => ⟨S_, .f32⟩
  | 40 => ⟨S8192, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x64, .f32⟩
  | 47 => ⟨S8192x64, .f32⟩
  | 48 => ⟨S8192x64, .f32⟩
  | 49 => ⟨S1x4x64, .f32⟩
  | 50 => ⟨S8192x4x1, .f32⟩
  | 51 => ⟨S8192x4x64, .f32⟩
  | 52 => ⟨S8192x4x64, .f32⟩
  | 53 => ⟨S8192x4x64, .f32⟩
  | 54 => ⟨S_, .f32⟩
  | 55 => ⟨S8192x64, .f32⟩
  | 56 => ⟨S8192x64, .f32⟩
  | 57 => ⟨S8192x64, .f32⟩
  | 58 => ⟨S8192x64, .f32⟩
  | 59 => ⟨S1x4x64, .f32⟩
  | 60 => ⟨S8192x4x1, .f32⟩
  | 61 => ⟨S8192x4x64, .f32⟩
  | 62 => ⟨S8192x4x64, .f32⟩
  | 63 => ⟨S8192x4x64, .f32⟩
  | 64 => ⟨S_, .f32⟩
  | 65 => ⟨S8192x64, .f32⟩
  | 66 => ⟨S8192x64, .f32⟩
  | 67 => ⟨S8192x64, .f32⟩
  | 68 => ⟨S8192x64, .f32⟩
  | 69 => ⟨S8192x64, .f32⟩
  | 70 => ⟨S8192x64, .f32⟩
  | 71 => ⟨S_, .f32⟩
  | 72 => ⟨S8192, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x64, .f32⟩
  | 79 => ⟨S8192x64, .f32⟩
  | 80 => ⟨S8192x64, .f32⟩
  | 81 => ⟨S_, .f32⟩
  | 82 => ⟨S8192, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x64, .f32⟩
  | 89 => ⟨S8192x64, .f32⟩
  | 90 => ⟨S8192x64, .f32⟩
  | 91 => ⟨S_, .f32⟩
  | 92 => ⟨S8192, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x64, .f32⟩
  | 99 => ⟨S8192x64, .f32⟩
  | 100 => ⟨S8192x64, .f32⟩
  | 101 => ⟨S_, .f32⟩
  | 102 => ⟨S8192, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x64, .f32⟩
  | 109 => ⟨S8192x64, .f32⟩
  | 110 => ⟨S8192x512, .f32⟩
  | 111 => ⟨S8192x512, .f32⟩
  | _ => ⟨S8192x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_cst_19 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_cst_23 : Ref sig .tc := ⟨.hbm, 118, rfl⟩
abbrev main_v83 : Ref sig .tc := ⟨.hbm, 119, rfl⟩
abbrev main_cst_24 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_v87 : Ref sig .tc := ⟨.hbm, 125, rfl⟩
abbrev main_cst_26 : Ref sig .tc := ⟨.hbm, 126, rfl⟩
abbrev main_v88 : Ref sig .tc := ⟨.hbm, 127, rfl⟩
abbrev main_cst_27 : Ref sig .tc := ⟨.hbm, 128, rfl⟩
abbrev main_v89 : Ref sig .tc := ⟨.hbm, 129, rfl⟩
abbrev main_cst_28 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_29 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_30 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_31 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_32 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_33 : Ref sig .tc := ⟨.hbm, 168, rfl⟩
abbrev main_v123 : Ref sig .tc := ⟨.hbm, 169, rfl⟩
abbrev main_v124 : Ref sig .tc := ⟨.hbm, 170, rfl⟩
abbrev main_cst_34 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_35 : Ref sig .tc := ⟨.hbm, 181, rfl⟩
abbrev main_v134 : Ref sig .tc := ⟨.hbm, 182, rfl⟩
abbrev main_v135 : Ref sig .tc := ⟨.hbm, 183, rfl⟩
abbrev main_cst_36 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_37 : Ref sig .tc := ⟨.hbm, 188, rfl⟩
abbrev main_v139 : Ref sig .tc := ⟨.hbm, 189, rfl⟩
abbrev main_v140 : Ref sig .tc := ⟨.hbm, 190, rfl⟩
abbrev main_cst_38 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_39 : Ref sig .tc := ⟨.hbm, 196, rfl⟩
abbrev main_v145 : Ref sig .tc := ⟨.hbm, 197, rfl⟩
abbrev main_v146 : Ref sig .tc := ⟨.hbm, 198, rfl⟩
abbrev main_cst_40 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_41 : Ref sig .tc := ⟨.hbm, 204, rfl⟩
abbrev main_v151 : Ref sig .tc := ⟨.hbm, 205, rfl⟩
abbrev main_cst_42 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_43 : Ref sig .tc := ⟨.hbm, 210, rfl⟩
abbrev main_v155 : Ref sig .tc := ⟨.hbm, 211, rfl⟩
abbrev main_v156 : Ref sig .tc := ⟨.hbm, 212, rfl⟩
abbrev main_cst_44 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_45 : Ref sig .tc := ⟨.hbm, 218, rfl⟩
abbrev main_v161 : Ref sig .tc := ⟨.hbm, 219, rfl⟩
abbrev main_v162 : Ref sig .tc := ⟨.hbm, 220, rfl⟩
abbrev main_cst_46 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_47 : Ref sig .tc := ⟨.hbm, 226, rfl⟩
abbrev main_v167 : Ref sig .tc := ⟨.hbm, 227, rfl⟩
abbrev main_cst_48 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_49 : Ref sig .tc := ⟨.hbm, 233, rfl⟩
abbrev main_v172 : Ref sig .tc := ⟨.hbm, 234, rfl⟩
abbrev main_cst_50 : Ref sig .tc := ⟨.hbm, 235, rfl⟩
abbrev main_v173 : Ref sig .tc := ⟨.hbm, 236, rfl⟩
abbrev main_cst_51 : Ref sig .tc := ⟨.hbm, 237, rfl⟩
abbrev main_v174 : Ref sig .tc := ⟨.hbm, 238, rfl⟩
abbrev main_cst_52 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_53 : Ref sig .tc := ⟨.hbm, 243, rfl⟩
abbrev main_v178 : Ref sig .tc := ⟨.hbm, 244, rfl⟩
abbrev main_cst_54 : Ref sig .tc := ⟨.hbm, 245, rfl⟩
abbrev main_v179 : Ref sig .tc := ⟨.hbm, 246, rfl⟩
abbrev main_cst_55 : Ref sig .tc := ⟨.hbm, 247, rfl⟩
abbrev main_v180 : Ref sig .tc := ⟨.hbm, 248, rfl⟩
abbrev main_cst_56 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_cst_57 : Ref sig .tc := ⟨.hbm, 253, rfl⟩
abbrev main_v184 : Ref sig .tc := ⟨.hbm, 254, rfl⟩
abbrev main_cst_58 : Ref sig .tc := ⟨.hbm, 255, rfl⟩
abbrev main_v185 : Ref sig .tc := ⟨.hbm, 256, rfl⟩
abbrev main_cst_59 : Ref sig .tc := ⟨.hbm, 257, rfl⟩
abbrev main_v186 : Ref sig .tc := ⟨.hbm, 258, rfl⟩
abbrev main_cst_60 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_61 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_cst_62 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_cst_63 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_cst_64 : Ref sig .tc := ⟨.hbm, 296, rfl⟩
abbrev main_v220 : Ref sig .tc := ⟨.hbm, 297, rfl⟩
abbrev main_v221 : Ref sig .tc := ⟨.hbm, 298, rfl⟩
abbrev main_cst_65 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_cst_66 : Ref sig .tc := ⟨.hbm, 309, rfl⟩
abbrev main_v231 : Ref sig .tc := ⟨.hbm, 310, rfl⟩
abbrev main_v232 : Ref sig .tc := ⟨.hbm, 311, rfl⟩
abbrev main_cst_67 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_cst_68 : Ref sig .tc := ⟨.hbm, 316, rfl⟩
abbrev main_v236 : Ref sig .tc := ⟨.hbm, 317, rfl⟩
abbrev main_v237 : Ref sig .tc := ⟨.hbm, 318, rfl⟩
abbrev main_cst_69 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_cst_70 : Ref sig .tc := ⟨.hbm, 324, rfl⟩
abbrev main_v242 : Ref sig .tc := ⟨.hbm, 325, rfl⟩
abbrev main_v243 : Ref sig .tc := ⟨.hbm, 326, rfl⟩
abbrev main_cst_71 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_cst_72 : Ref sig .tc := ⟨.hbm, 332, rfl⟩
abbrev main_v248 : Ref sig .tc := ⟨.hbm, 333, rfl⟩
abbrev main_cst_73 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_cst_74 : Ref sig .tc := ⟨.hbm, 338, rfl⟩
abbrev main_v252 : Ref sig .tc := ⟨.hbm, 339, rfl⟩
abbrev main_v253 : Ref sig .tc := ⟨.hbm, 340, rfl⟩
abbrev main_cst_75 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_cst_76 : Ref sig .tc := ⟨.hbm, 346, rfl⟩
abbrev main_v258 : Ref sig .tc := ⟨.hbm, 347, rfl⟩
abbrev main_v259 : Ref sig .tc := ⟨.hbm, 348, rfl⟩
abbrev main_cst_77 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_cst_78 : Ref sig .tc := ⟨.hbm, 354, rfl⟩
abbrev main_v264 : Ref sig .tc := ⟨.hbm, 355, rfl⟩
abbrev main_cst_79 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_cst_80 : Ref sig .tc := ⟨.hbm, 361, rfl⟩
abbrev main_v269 : Ref sig .tc := ⟨.hbm, 362, rfl⟩
abbrev main_cst_81 : Ref sig .tc := ⟨.hbm, 363, rfl⟩
abbrev main_v270 : Ref sig .tc := ⟨.hbm, 364, rfl⟩
abbrev main_cst_82 : Ref sig .tc := ⟨.hbm, 365, rfl⟩
abbrev main_v271 : Ref sig .tc := ⟨.hbm, 366, rfl⟩
abbrev main_cst_83 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_cst_84 : Ref sig .tc := ⟨.hbm, 371, rfl⟩
abbrev main_v275 : Ref sig .tc := ⟨.hbm, 372, rfl⟩
abbrev main_cst_85 : Ref sig .tc := ⟨.hbm, 373, rfl⟩
abbrev main_v276 : Ref sig .tc := ⟨.hbm, 374, rfl⟩
abbrev main_cst_86 : Ref sig .tc := ⟨.hbm, 375, rfl⟩
abbrev main_v277 : Ref sig .tc := ⟨.hbm, 376, rfl⟩
abbrev main_cst_87 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_cst_88 : Ref sig .tc := ⟨.hbm, 381, rfl⟩
abbrev main_v281 : Ref sig .tc := ⟨.hbm, 382, rfl⟩
abbrev main_cst_89 : Ref sig .tc := ⟨.hbm, 383, rfl⟩
abbrev main_v282 : Ref sig .tc := ⟨.hbm, 384, rfl⟩
abbrev main_cst_90 : Ref sig .tc := ⟨.hbm, 385, rfl⟩
abbrev main_v283 : Ref sig .tc := ⟨.hbm, 386, rfl⟩
abbrev main_cst_91 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_cst_92 : Ref sig .tc := ⟨.hbm, 391, rfl⟩
abbrev main_v287 : Ref sig .tc := ⟨.hbm, 392, rfl⟩
abbrev main_v288 : Ref sig .tc := ⟨.hbm, 393, rfl⟩
abbrev main_v289 : Ref sig .tc := ⟨.hbm, 394, rfl⟩
abbrev main_v290 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_cst_93 : Ref sig .tc := ⟨.hbm, 407, rfl⟩
abbrev main_v302 : Ref sig .tc := ⟨.hbm, 408, rfl⟩
abbrev main_v303 : Ref sig .tc := ⟨.hbm, 409, rfl⟩
abbrev main_v304 : Ref sig .tc := ⟨.hbm, 410, rfl⟩
abbrev main_v305 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_cst_94 : Ref sig .tc := ⟨.hbm, 415, rfl⟩
abbrev main_v309 : Ref sig .tc := ⟨.hbm, 416, rfl⟩
abbrev main_v310 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_v316 : Ref sig .tc := ⟨.hbm, 423, rfl⟩
abbrev main_cst_95 : Ref sig .tc := ⟨.hbm, 424, rfl⟩
abbrev main_v317 : Ref sig .tc := ⟨.hbm, 425, rfl⟩
abbrev main_v318 : Ref sig .tc := ⟨.hbm, 426, rfl⟩
abbrev main_cst_96 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_v327 : Ref sig .tc := ⟨.hbm, 436, rfl⟩
abbrev main_cst_97 : Ref sig .tc := ⟨.hbm, 437, rfl⟩
abbrev main_v328 : Ref sig .tc := ⟨.hbm, 438, rfl⟩
abbrev main_v329 : Ref sig .tc := ⟨.hbm, 439, rfl⟩
abbrev main_cst_98 : Ref sig .tc := ⟨.hbm, 440, rfl⟩
abbrev main_v330 : Ref sig .tc := ⟨.hbm, 441, rfl⟩
abbrev main_v331 : Ref sig .tc := ⟨.hbm, 442, rfl⟩
abbrev main_v332 : Ref sig .tc := ⟨.hbm, 443, rfl⟩
abbrev main_cst_99 : Ref sig .tc := ⟨.hbm, 444, rfl⟩
abbrev main_v333 : Ref sig .tc := ⟨.hbm, 445, rfl⟩
abbrev main_v334 : Ref sig .tc := ⟨.hbm, 446, rfl⟩
abbrev main_cst_100 : Ref sig .tc := ⟨.hbm, 447, rfl⟩
abbrev main_v335 : Ref sig .tc := ⟨.hbm, 448, rfl⟩
abbrev main_v336 : Ref sig .tc := ⟨.hbm, 449, rfl⟩
abbrev main_v337 : Ref sig .tc := ⟨.hbm, 450, rfl⟩
abbrev main_v338 : Ref sig .tc := ⟨.hbm, 451, rfl⟩
abbrev main_cst_101 : Ref sig .tc := ⟨.hbm, 452, rfl⟩
abbrev main_v339 : Ref sig .tc := ⟨.hbm, 453, rfl⟩
abbrev main_v340 : Ref sig .tc := ⟨.hbm, 454, rfl⟩
abbrev main_cst_102 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_cst_103 : Ref sig .tc := ⟨.hbm, 460, rfl⟩
abbrev main_v345 : Ref sig .tc := ⟨.hbm, 461, rfl⟩
abbrev main_cst_104 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_cst_105 : Ref sig .tc := ⟨.hbm, 466, rfl⟩
abbrev main_v349 : Ref sig .tc := ⟨.hbm, 467, rfl⟩
abbrev main_v350 : Ref sig .tc := ⟨.hbm, 468, rfl⟩
abbrev main_cst_106 : Ref sig .tc := ⟨.hbm, 469, rfl⟩
abbrev main_v351 : Ref sig .tc := ⟨.hbm, 470, rfl⟩
abbrev main_v352 : Ref sig .tc := ⟨.hbm, 471, rfl⟩
abbrev main_v353 : Ref sig .tc := ⟨.hbm, 472, rfl⟩
abbrev main_v354 : Ref sig .tc := ⟨.hbm, 473, rfl⟩
abbrev main_cst_107 : Ref sig .tc := ⟨.hbm, 474, rfl⟩
abbrev main_v355 : Ref sig .tc := ⟨.hbm, 475, rfl⟩
abbrev main_v356 : Ref sig .tc := ⟨.hbm, 476, rfl⟩
abbrev main_cst_108 : Ref sig .tc := ⟨.hbm, 477, rfl⟩
abbrev main_v357 : Ref sig .tc := ⟨.hbm, 478, rfl⟩
abbrev main_v358 : Ref sig .tc := ⟨.hbm, 479, rfl⟩
abbrev main_v359 : Ref sig .tc := ⟨.hbm, 480, rfl⟩
abbrev main_v360 : Ref sig .tc := ⟨.hbm, 481, rfl⟩
abbrev main_cst_109 : Ref sig .tc := ⟨.hbm, 482, rfl⟩
abbrev main_v361 : Ref sig .tc := ⟨.hbm, 483, rfl⟩
abbrev main_cst_110 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_v365 : Ref sig .tc := ⟨.hbm, 488, rfl⟩
abbrev main_cst_111 : Ref sig .tc := ⟨.hbm, 489, rfl⟩
abbrev main_v366 : Ref sig .tc := ⟨.hbm, 490, rfl⟩
abbrev main_cst_112 : Ref sig .tc := ⟨.hbm, 491, rfl⟩
abbrev main_v367 : Ref sig .tc := ⟨.hbm, 492, rfl⟩
abbrev main_cst_113 : Ref sig .tc := ⟨.hbm, 493, rfl⟩
abbrev main_v368 : Ref sig .tc := ⟨.hbm, 494, rfl⟩
abbrev main_cst_114 : Ref sig .tc := ⟨.hbm, 495, rfl⟩
abbrev main_v369 : Ref sig .tc := ⟨.hbm, 496, rfl⟩
abbrev main_v370 : Ref sig .tc := ⟨.hbm, 497, rfl⟩
abbrev main_v371 : Ref sig .tc := ⟨.hbm, 498, rfl⟩
abbrev main_cst_115 : Ref sig .tc := ⟨.hbm, 499, rfl⟩
abbrev main_v372 : Ref sig .tc := ⟨.hbm, 500, rfl⟩
abbrev main_cst_116 : Ref sig .tc := ⟨.hbm, 501, rfl⟩
abbrev main_v373 : Ref sig .tc := ⟨.hbm, 502, rfl⟩
abbrev main_cst_117 : Ref sig .tc := ⟨.hbm, 503, rfl⟩
abbrev main_v374 : Ref sig .tc := ⟨.hbm, 504, rfl⟩
abbrev main_cst_118 : Ref sig .tc := ⟨.hbm, 505, rfl⟩
abbrev main_v375 : Ref sig .tc := ⟨.hbm, 506, rfl⟩
abbrev main_v376 : Ref sig .tc := ⟨.hbm, 507, rfl⟩
abbrev main_v377 : Ref sig .tc := ⟨.hbm, 508, rfl⟩
abbrev main_cst_119 : Ref sig .tc := ⟨.hbm, 509, rfl⟩
abbrev main_v378 : Ref sig .tc := ⟨.hbm, 510, rfl⟩
abbrev main_cst_120 : Ref sig .tc := ⟨.hbm, 511, rfl⟩
abbrev main_v379 : Ref sig .tc := ⟨.hbm, 512, rfl⟩
abbrev main_cst_121 : Ref sig .tc := ⟨.hbm, 513, rfl⟩
abbrev main_v380 : Ref sig .tc := ⟨.hbm, 514, rfl⟩
abbrev main_cst_122 : Ref sig .tc := ⟨.hbm, 515, rfl⟩
abbrev main_v381 : Ref sig .tc := ⟨.hbm, 516, rfl⟩
abbrev main_v382 : Ref sig .tc := ⟨.hbm, 517, rfl⟩
abbrev main_v383 : Ref sig .tc := ⟨.hbm, 518, rfl⟩
abbrev main_cst_123 : Ref sig .tc := ⟨.hbm, 519, rfl⟩
abbrev main_v384 : Ref sig .tc := ⟨.hbm, 520, rfl⟩
abbrev main_v385 : Ref sig .tc := ⟨.hbm, 521, rfl⟩
abbrev main_v386 : Ref sig .tc := ⟨.hbm, 522, rfl⟩
abbrev main_v387 : Ref sig .tc := ⟨.hbm, 523, rfl⟩
abbrev main_v388 : Ref sig .tc := ⟨.hbm, 524, rfl⟩
abbrev main_v389 : Ref sig .tc := ⟨.hbm, 525, rfl⟩
abbrev main_v390 : Ref sig .tc := ⟨.hbm, 526, rfl⟩
abbrev main_v391 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_v395 : Ref sig .tc := ⟨.hbm, 531, rfl⟩
abbrev main_v396 : Ref sig .tc := ⟨.hbm, 532, rfl⟩
abbrev main_v397 : Ref sig .tc := ⟨.hbm, 533, rfl⟩
abbrev main_v398 : Ref sig .tc := ⟨.hbm, 534, rfl⟩
abbrev main_cst_124 : Ref sig .tc := ⟨.hbm, 535, rfl⟩
abbrev main_v399 : Ref sig .tc := ⟨.hbm, 536, rfl⟩
abbrev main_v400 : Ref sig .tc := ⟨.hbm, 537, rfl⟩
abbrev main_v401 : Ref sig .tc := ⟨.hbm, 538, rfl⟩
abbrev main_v402 : Ref sig .tc := ⟨.hbm, 539, rfl⟩
abbrev main_v403 : Ref sig .tc := ⟨.hbm, 540, rfl⟩
abbrev main_v404 : Ref sig .tc := ⟨.hbm, 541, rfl⟩
abbrev main_v405 : Ref sig .tc := ⟨.hbm, 542, rfl⟩
abbrev main_cst_125 : Ref sig .tc := ⟨.hbm, 543, rfl⟩
abbrev main_v406 : Ref sig .tc := ⟨.hbm, 544, rfl⟩
abbrev main_v407 : Ref sig .tc := ⟨.hbm, 545, rfl⟩
abbrev main_v408 : Ref sig .tc := ⟨.hbm, 546, rfl⟩
abbrev main_v409 : Ref sig .tc := ⟨.hbm, 547, rfl⟩
abbrev main_v410 : Ref sig .tc := ⟨.hbm, 548, rfl⟩
abbrev main_v411 : Ref sig .tc := ⟨.hbm, 549, rfl⟩
abbrev main_v412 : Ref sig .tc := ⟨.hbm, 550, rfl⟩
abbrev main_v413 : Ref sig .tc := ⟨.hbm, 551, rfl⟩
abbrev main_cst_126 : Ref sig .tc := ⟨.hbm, 552, rfl⟩
abbrev main_v414 : Ref sig .tc := ⟨.hbm, 553, rfl⟩
abbrev main_v415 : Ref sig .tc := ⟨.hbm, 554, rfl⟩
abbrev main_cst_127 : Ref sig .tc := ⟨.hbm, 555, rfl⟩
abbrev main_v416 : Ref sig .tc := ⟨.hbm, 556, rfl⟩
abbrev main_v417 : Ref sig .tc := ⟨.hbm, 557, rfl⟩
abbrev main_v418 : Ref sig .tc := ⟨.hbm, 558, rfl⟩
abbrev main_v419 : Ref sig .tc := ⟨.hbm, 559, rfl⟩
abbrev main_v420 : Ref sig .tc := ⟨.hbm, 560, rfl⟩
abbrev main_v421 : Ref sig .tc := ⟨.hbm, 561, rfl⟩
abbrev main_v422 : Ref sig .tc := ⟨.hbm, 562, rfl⟩
abbrev main_v423 : Ref sig .tc := ⟨.hbm, 563, rfl⟩
abbrev main_v424 : Ref sig .tc := ⟨.hbm, 564, rfl⟩
abbrev main_cst_128 : Ref sig .tc := ⟨.hbm, 565, rfl⟩
abbrev main_v425 : Ref sig .tc := ⟨.hbm, 566, rfl⟩
abbrev main_v426 : Ref sig .tc := ⟨.hbm, 567, rfl⟩
abbrev main_cst_129 : Ref sig .tc := ⟨.hbm, 568, rfl⟩
abbrev main_v427 : Ref sig .tc := ⟨.hbm, 569, rfl⟩
abbrev main_v428 : Ref sig .tc := ⟨.hbm, 570, rfl⟩
abbrev main_v429 : Ref sig .tc := ⟨.hbm, 571, rfl⟩
abbrev main_cst_130 : Ref sig .tc := ⟨.hbm, 572, rfl⟩
abbrev main_v430 : Ref sig .tc := ⟨.hbm, 573, rfl⟩
abbrev main_v431 : Ref sig .tc := ⟨.hbm, 574, rfl⟩
abbrev main_cst_131 : Ref sig .tc := ⟨.hbm, 575, rfl⟩
abbrev main_v432 : Ref sig .tc := ⟨.hbm, 576, rfl⟩
abbrev main_v433 : Ref sig .tc := ⟨.hbm, 577, rfl⟩
abbrev main_v434 : Ref sig .tc := ⟨.hbm, 578, rfl⟩
abbrev main_v435 : Ref sig .tc := ⟨.hbm, 579, rfl⟩
abbrev main_cst_132 : Ref sig .tc := ⟨.hbm, 580, rfl⟩
abbrev main_v436 : Ref sig .tc := ⟨.hbm, 581, rfl⟩
abbrev main_v437 : Ref sig .tc := ⟨.hbm, 582, rfl⟩
abbrev main_cst_133 : Ref sig .tc := ⟨.hbm, 583, rfl⟩
abbrev main_v438 : Ref sig .tc := ⟨.hbm, 584, rfl⟩
abbrev main_v439 : Ref sig .tc := ⟨.hbm, 585, rfl⟩
abbrev main_v440 : Ref sig .tc := ⟨.hbm, 586, rfl⟩
abbrev main_v441 : Ref sig .tc := ⟨.hbm, 587, rfl⟩
abbrev main_cst_134 : Ref sig .tc := ⟨.hbm, 588, rfl⟩
abbrev main_v442 : Ref sig .tc := ⟨.hbm, 589, rfl⟩
abbrev main_cst_135 : Ref sig .tc := ⟨.hbm, 590, rfl⟩
abbrev main_v443 : Ref sig .tc := ⟨.hbm, 591, rfl⟩
abbrev main_v444 : Ref sig .tc := ⟨.hbm, 592, rfl⟩
abbrev main_v445 : Ref sig .tc := ⟨.hbm, 593, rfl⟩
abbrev main_cst_136 : Ref sig .tc := ⟨.hbm, 594, rfl⟩
abbrev main_v446 : Ref sig .tc := ⟨.hbm, 595, rfl⟩
abbrev main_v447 : Ref sig .tc := ⟨.hbm, 596, rfl⟩
abbrev main_cst_137 : Ref sig .tc := ⟨.hbm, 597, rfl⟩
abbrev main_v448 : Ref sig .tc := ⟨.hbm, 598, rfl⟩
abbrev main_v449 : Ref sig .tc := ⟨.hbm, 599, rfl⟩
abbrev main_v450 : Ref sig .tc := ⟨.hbm, 600, rfl⟩
abbrev main_v451 : Ref sig .tc := ⟨.hbm, 601, rfl⟩
abbrev main_cst_138 : Ref sig .tc := ⟨.hbm, 602, rfl⟩
abbrev main_v452 : Ref sig .tc := ⟨.hbm, 603, rfl⟩
abbrev main_v453 : Ref sig .tc := ⟨.hbm, 604, rfl⟩
abbrev main_cst_139 : Ref sig .tc := ⟨.hbm, 605, rfl⟩
abbrev main_v454 : Ref sig .tc := ⟨.hbm, 606, rfl⟩
abbrev main_v455 : Ref sig .tc := ⟨.hbm, 607, rfl⟩
abbrev main_v456 : Ref sig .tc := ⟨.hbm, 608, rfl⟩
abbrev main_v457 : Ref sig .tc := ⟨.hbm, 609, rfl⟩
abbrev main_cst_140 : Ref sig .tc := ⟨.hbm, 610, rfl⟩
abbrev main_v458 : Ref sig .tc := ⟨.hbm, 611, rfl⟩
abbrev main_cst_141 : Ref sig .tc := ⟨.hbm, 612, rfl⟩
abbrev main_v459 : Ref sig .tc := ⟨.hbm, 613, rfl⟩
abbrev main_v460 : Ref sig .tc := ⟨.hbm, 614, rfl⟩
abbrev main_v461 : Ref sig .tc := ⟨.hbm, 615, rfl⟩
abbrev main_v462 : Ref sig .tc := ⟨.hbm, 616, rfl⟩
abbrev main_cst_142 : Ref sig .tc := ⟨.hbm, 617, rfl⟩
abbrev main_v463 : Ref sig .tc := ⟨.hbm, 618, rfl⟩
abbrev main_cst_143 : Ref sig .tc := ⟨.hbm, 619, rfl⟩
abbrev main_v464 : Ref sig .tc := ⟨.hbm, 620, rfl⟩
abbrev main_cst_144 : Ref sig .tc := ⟨.hbm, 621, rfl⟩
abbrev main_v465 : Ref sig .tc := ⟨.hbm, 622, rfl⟩
abbrev main_cst_145 : Ref sig .tc := ⟨.hbm, 623, rfl⟩
abbrev main_v466 : Ref sig .tc := ⟨.hbm, 624, rfl⟩
abbrev main_v467 : Ref sig .tc := ⟨.hbm, 625, rfl⟩
abbrev main_v468 : Ref sig .tc := ⟨.hbm, 626, rfl⟩
abbrev main_cst_146 : Ref sig .tc := ⟨.hbm, 627, rfl⟩
abbrev main_v469 : Ref sig .tc := ⟨.hbm, 628, rfl⟩
abbrev main_cst_147 : Ref sig .tc := ⟨.hbm, 629, rfl⟩
abbrev main_v470 : Ref sig .tc := ⟨.hbm, 630, rfl⟩
abbrev main_cst_148 : Ref sig .tc := ⟨.hbm, 631, rfl⟩
abbrev main_v471 : Ref sig .tc := ⟨.hbm, 632, rfl⟩
abbrev main_cst_149 : Ref sig .tc := ⟨.hbm, 633, rfl⟩
abbrev main_v472 : Ref sig .tc := ⟨.hbm, 634, rfl⟩
abbrev main_v473 : Ref sig .tc := ⟨.hbm, 635, rfl⟩
abbrev main_v474 : Ref sig .tc := ⟨.hbm, 636, rfl⟩
abbrev main_cst_150 : Ref sig .tc := ⟨.hbm, 637, rfl⟩
abbrev main_v475 : Ref sig .tc := ⟨.hbm, 638, rfl⟩
abbrev main_cst_151 : Ref sig .tc := ⟨.hbm, 639, rfl⟩
abbrev main_v476 : Ref sig .tc := ⟨.hbm, 640, rfl⟩
abbrev main_cst_152 : Ref sig .tc := ⟨.hbm, 641, rfl⟩
abbrev main_v477 : Ref sig .tc := ⟨.hbm, 642, rfl⟩
abbrev main_cst_153 : Ref sig .tc := ⟨.hbm, 643, rfl⟩
abbrev main_v478 : Ref sig .tc := ⟨.hbm, 644, rfl⟩
abbrev main_v479 : Ref sig .tc := ⟨.hbm, 645, rfl⟩
abbrev main_v480 : Ref sig .tc := ⟨.hbm, 646, rfl⟩
abbrev main_cst_154 : Ref sig .tc := ⟨.hbm, 647, rfl⟩
abbrev main_v481 : Ref sig .tc := ⟨.hbm, 648, rfl⟩
abbrev main_v482 : Ref sig .tc := ⟨.hbm, 649, rfl⟩
abbrev main_v483 : Ref sig .tc := ⟨.hbm, 650, rfl⟩
abbrev main_v484 : Ref sig .tc := ⟨.hbm, 651, rfl⟩
abbrev main_v485 : Ref sig .tc := ⟨.hbm, 652, rfl⟩
abbrev main_v486 : Ref sig .tc := ⟨.hbm, 653, rfl⟩
abbrev main_v487 : Ref sig .tc := ⟨.hbm, 654, rfl⟩
abbrev main_v488 : Ref sig .tc := ⟨.hbm, 655, rfl⟩
abbrev main_v489 : Ref sig .tc := ⟨.hbm, 656, rfl⟩
abbrev main_v490 : Ref sig .tc := ⟨.hbm, 657, rfl⟩
abbrev main_v491 : Ref sig .tc := ⟨.hbm, 658, rfl⟩
abbrev main_v492 : Ref sig .tc := ⟨.hbm, 659, rfl⟩
abbrev main_v493 : Ref sig .tc := ⟨.hbm, 660, rfl⟩
abbrev main_v494 : Ref sig .tc := ⟨.hbm, 661, rfl⟩
abbrev main_v495 : Ref sig .tc := ⟨.hbm, 662, rfl⟩
abbrev main_cst_155 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_v499 : Ref sig .tc := ⟨.hbm, 667, rfl⟩
abbrev main_v500 : Ref sig .tc := ⟨.hbm, 668, rfl⟩
abbrev main_v501 : Ref sig .tc := ⟨.hbm, 669, rfl⟩
abbrev main_v502 : Ref sig .tc := ⟨.hbm, 670, rfl⟩
abbrev main_cst_156 : Ref sig .tc := ⟨.hbm, 671, rfl⟩
abbrev main_v503 : Ref sig .tc := ⟨.hbm, 672, rfl⟩
abbrev main_v504 : Ref sig .tc := ⟨.hbm, 673, rfl⟩
abbrev main_v505 : Ref sig .tc := ⟨.hbm, 674, rfl⟩
abbrev main_v506 : Ref sig .tc := ⟨.hbm, 675, rfl⟩
abbrev main_v507 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_cst_157 : Ref sig .tc := ⟨.hbm, 680, rfl⟩
abbrev main_v511 : Ref sig .tc := ⟨.hbm, 681, rfl⟩
abbrev main_v512 : Ref sig .tc := ⟨.hbm, 682, rfl⟩
abbrev main_cst_158 : Ref sig .tc := ⟨.hbm, 683, rfl⟩
abbrev main_v513 : Ref sig .tc := ⟨.hbm, 684, rfl⟩
abbrev main_v514 : Ref sig .tc := ⟨.hbm, 685, rfl⟩
abbrev main_v515 : Ref sig .tc := ⟨.hbm, 686, rfl⟩
abbrev main_v516 : Ref sig .tc := ⟨.hbm, 687, rfl⟩
abbrev main_v517 : Ref sig .tc := ⟨.hbm, 688, rfl⟩
abbrev main_v518 : Ref sig .tc := ⟨.hbm, 689, rfl⟩
abbrev main_v519 : Ref sig .tc := ⟨.hbm, 690, rfl⟩
abbrev main_v520 : Ref sig .tc := ⟨.hbm, 691, rfl⟩
abbrev main_v521 : Ref sig .tc := ⟨.hbm, 692, rfl⟩
abbrev main_cst_159 : Ref sig .tc := ⟨.hbm, 693, rfl⟩
abbrev main_v522 : Ref sig .tc := ⟨.hbm, 694, rfl⟩
abbrev main_v523 : Ref sig .tc := ⟨.hbm, 695, rfl⟩
abbrev main_cst_160 : Ref sig .tc := ⟨.hbm, 696, rfl⟩
abbrev main_v524 : Ref sig .tc := ⟨.hbm, 697, rfl⟩
abbrev main_v525 : Ref sig .tc := ⟨.hbm, 698, rfl⟩
abbrev main_v526 : Ref sig .tc := ⟨.hbm, 699, rfl⟩
abbrev main_cst_161 : Ref sig .tc := ⟨.hbm, 700, rfl⟩
abbrev main_v527 : Ref sig .tc := ⟨.hbm, 701, rfl⟩
abbrev main_v528 : Ref sig .tc := ⟨.hbm, 702, rfl⟩
abbrev main_cst_162 : Ref sig .tc := ⟨.hbm, 703, rfl⟩
abbrev main_v529 : Ref sig .tc := ⟨.hbm, 704, rfl⟩
abbrev main_v530 : Ref sig .tc := ⟨.hbm, 705, rfl⟩
abbrev main_v531 : Ref sig .tc := ⟨.hbm, 706, rfl⟩
abbrev main_v532 : Ref sig .tc := ⟨.hbm, 707, rfl⟩
abbrev main_cst_163 : Ref sig .tc := ⟨.hbm, 708, rfl⟩
abbrev main_v533 : Ref sig .tc := ⟨.hbm, 709, rfl⟩
abbrev main_v534 : Ref sig .tc := ⟨.hbm, 710, rfl⟩
abbrev main_cst_164 : Ref sig .tc := ⟨.hbm, 711, rfl⟩
abbrev main_v535 : Ref sig .tc := ⟨.hbm, 712, rfl⟩
abbrev main_v536 : Ref sig .tc := ⟨.hbm, 713, rfl⟩
abbrev main_v537 : Ref sig .tc := ⟨.hbm, 714, rfl⟩
abbrev main_v538 : Ref sig .tc := ⟨.hbm, 715, rfl⟩
abbrev main_cst_165 : Ref sig .tc := ⟨.hbm, 716, rfl⟩
abbrev main_v539 : Ref sig .tc := ⟨.hbm, 717, rfl⟩
abbrev main_cst_166 : Ref sig .tc := ⟨.hbm, 718, rfl⟩
abbrev main_v540 : Ref sig .tc := ⟨.hbm, 719, rfl⟩
abbrev main_v541 : Ref sig .tc := ⟨.hbm, 720, rfl⟩
abbrev main_v542 : Ref sig .tc := ⟨.hbm, 721, rfl⟩
abbrev main_cst_167 : Ref sig .tc := ⟨.hbm, 722, rfl⟩
abbrev main_v543 : Ref sig .tc := ⟨.hbm, 723, rfl⟩
abbrev main_v544 : Ref sig .tc := ⟨.hbm, 724, rfl⟩
abbrev main_cst_168 : Ref sig .tc := ⟨.hbm, 725, rfl⟩
abbrev main_v545 : Ref sig .tc := ⟨.hbm, 726, rfl⟩
abbrev main_v546 : Ref sig .tc := ⟨.hbm, 727, rfl⟩
abbrev main_v547 : Ref sig .tc := ⟨.hbm, 728, rfl⟩
abbrev main_v548 : Ref sig .tc := ⟨.hbm, 729, rfl⟩
abbrev main_cst_169 : Ref sig .tc := ⟨.hbm, 730, rfl⟩
abbrev main_v549 : Ref sig .tc := ⟨.hbm, 731, rfl⟩
abbrev main_v550 : Ref sig .tc := ⟨.hbm, 732, rfl⟩
abbrev main_cst_170 : Ref sig .tc := ⟨.hbm, 733, rfl⟩
abbrev main_v551 : Ref sig .tc := ⟨.hbm, 734, rfl⟩
abbrev main_v552 : Ref sig .tc := ⟨.hbm, 735, rfl⟩
abbrev main_v553 : Ref sig .tc := ⟨.hbm, 736, rfl⟩
abbrev main_v554 : Ref sig .tc := ⟨.hbm, 737, rfl⟩
abbrev main_cst_171 : Ref sig .tc := ⟨.hbm, 738, rfl⟩
abbrev main_v555 : Ref sig .tc := ⟨.hbm, 739, rfl⟩
abbrev main_cst_172 : Ref sig .tc := ⟨.hbm, 740, rfl⟩
abbrev main_v556 : Ref sig .tc := ⟨.hbm, 741, rfl⟩
abbrev main_v557 : Ref sig .tc := ⟨.hbm, 742, rfl⟩
abbrev main_v558 : Ref sig .tc := ⟨.hbm, 743, rfl⟩
abbrev main_v559 : Ref sig .tc := ⟨.hbm, 744, rfl⟩
abbrev main_cst_173 : Ref sig .tc := ⟨.hbm, 745, rfl⟩
abbrev main_v560 : Ref sig .tc := ⟨.hbm, 746, rfl⟩
abbrev main_cst_174 : Ref sig .tc := ⟨.hbm, 747, rfl⟩
abbrev main_v561 : Ref sig .tc := ⟨.hbm, 748, rfl⟩
abbrev main_cst_175 : Ref sig .tc := ⟨.hbm, 749, rfl⟩
abbrev main_v562 : Ref sig .tc := ⟨.hbm, 750, rfl⟩
abbrev main_cst_176 : Ref sig .tc := ⟨.hbm, 751, rfl⟩
abbrev main_v563 : Ref sig .tc := ⟨.hbm, 752, rfl⟩
abbrev main_v564 : Ref sig .tc := ⟨.hbm, 753, rfl⟩
abbrev main_v565 : Ref sig .tc := ⟨.hbm, 754, rfl⟩
abbrev main_cst_177 : Ref sig .tc := ⟨.hbm, 755, rfl⟩
abbrev main_v566 : Ref sig .tc := ⟨.hbm, 756, rfl⟩
abbrev main_cst_178 : Ref sig .tc := ⟨.hbm, 757, rfl⟩
abbrev main_v567 : Ref sig .tc := ⟨.hbm, 758, rfl⟩
abbrev main_cst_179 : Ref sig .tc := ⟨.hbm, 759, rfl⟩
abbrev main_v568 : Ref sig .tc := ⟨.hbm, 760, rfl⟩
abbrev main_cst_180 : Ref sig .tc := ⟨.hbm, 761, rfl⟩
abbrev main_v569 : Ref sig .tc := ⟨.hbm, 762, rfl⟩
abbrev main_v570 : Ref sig .tc := ⟨.hbm, 763, rfl⟩
abbrev main_v571 : Ref sig .tc := ⟨.hbm, 764, rfl⟩
abbrev main_cst_181 : Ref sig .tc := ⟨.hbm, 765, rfl⟩
abbrev main_v572 : Ref sig .tc := ⟨.hbm, 766, rfl⟩
abbrev main_cst_182 : Ref sig .tc := ⟨.hbm, 767, rfl⟩
abbrev main_v573 : Ref sig .tc := ⟨.hbm, 768, rfl⟩
abbrev main_cst_183 : Ref sig .tc := ⟨.hbm, 769, rfl⟩
abbrev main_v574 : Ref sig .tc := ⟨.hbm, 770, rfl⟩
abbrev main_cst_184 : Ref sig .tc := ⟨.hbm, 771, rfl⟩
abbrev main_v575 : Ref sig .tc := ⟨.hbm, 772, rfl⟩
abbrev main_v576 : Ref sig .tc := ⟨.hbm, 773, rfl⟩
abbrev main_v577 : Ref sig .tc := ⟨.hbm, 774, rfl⟩
abbrev main_cst_185 : Ref sig .tc := ⟨.hbm, 775, rfl⟩
abbrev main_v578 : Ref sig .tc := ⟨.hbm, 776, rfl⟩
abbrev main_v579 : Ref sig .tc := ⟨.hbm, 777, rfl⟩
abbrev main_v580 : Ref sig .tc := ⟨.hbm, 778, rfl⟩
abbrev main_v581 : Ref sig .tc := ⟨.hbm, 779, rfl⟩
abbrev main_call0_v0 : Ref sig .tc := ⟨.hbm, 780, rfl⟩
abbrev main_call0_cst : Ref sig .tc := ⟨.hbm, 781, rfl⟩
abbrev main_call0_v1 : Ref sig .tc := ⟨.hbm, 782, rfl⟩
abbrev main_call0_v2 : Ref sig .tc := ⟨.hbm, 783, rfl⟩
abbrev main_v582 : Ref sig .tc := ⟨.hbm, 784, rfl⟩
abbrev main_cst_186 : Ref sig .tc := ⟨.hbm, 785, rfl⟩
abbrev main_v583 : Ref sig .tc := ⟨.hbm, 786, rfl⟩
abbrev main_v584 : Ref sig .tc := ⟨.hbm, 787, rfl⟩
abbrev main_v585 : Ref sig .tc := ⟨.hbm, 788, rfl⟩
abbrev main_v586 : Ref sig .tc := ⟨.hbm, 789, rfl⟩
abbrev main_call1_v0 : Ref sig .tc := ⟨.hbm, 790, rfl⟩
abbrev main_call1_cst : Ref sig .tc := ⟨.hbm, 791, rfl⟩
abbrev main_call1_v1 : Ref sig .tc := ⟨.hbm, 792, rfl⟩
abbrev main_call1_v2 : Ref sig .tc := ⟨.hbm, 793, rfl⟩
abbrev main_v587 : Ref sig .tc := ⟨.hbm, 794, rfl⟩
abbrev main_cst_187 : Ref sig .tc := ⟨.hbm, 795, rfl⟩
abbrev main_v588 : Ref sig .tc := ⟨.hbm, 796, rfl⟩
abbrev main_v589 : Ref sig .tc := ⟨.hbm, 797, rfl⟩
abbrev main_v590 : Ref sig .tc := ⟨.hbm, 798, rfl⟩
abbrev main_v591 : Ref sig .tc := ⟨.hbm, 799, rfl⟩
abbrev main_call2_v0 : Ref sig .tc := ⟨.hbm, 800, rfl⟩
abbrev main_call2_cst : Ref sig .tc := ⟨.hbm, 801, rfl⟩
abbrev main_call2_v1 : Ref sig .tc := ⟨.hbm, 802, rfl⟩
abbrev main_call2_v2 : Ref sig .tc := ⟨.hbm, 803, rfl⟩
abbrev main_v592 : Ref sig .tc := ⟨.hbm, 804, rfl⟩
abbrev main_cst_188 : Ref sig .tc := ⟨.hbm, 805, rfl⟩
abbrev main_v593 : Ref sig .tc := ⟨.hbm, 806, rfl⟩
abbrev main_v594 : Ref sig .tc := ⟨.hbm, 807, rfl⟩
abbrev main_v595 : Ref sig .tc := ⟨.hbm, 808, rfl⟩
abbrev main_v596 : Ref sig .tc := ⟨.hbm, 809, rfl⟩
abbrev main_call3_v0 : Ref sig .tc := ⟨.hbm, 810, rfl⟩
abbrev main_call3_cst : Ref sig .tc := ⟨.hbm, 811, rfl⟩
abbrev main_call3_v1 : Ref sig .tc := ⟨.hbm, 812, rfl⟩
abbrev main_call3_v2 : Ref sig .tc := ⟨.hbm, 813, rfl⟩
abbrev main_v597 : Ref sig .tc := ⟨.hbm, 814, rfl⟩
abbrev main_cst_189 : Ref sig .tc := ⟨.hbm, 815, rfl⟩
abbrev main_v598 : Ref sig .tc := ⟨.hbm, 816, rfl⟩
abbrev main_v599 : Ref sig .tc := ⟨.hbm, 817, rfl⟩
abbrev main_v600 : Ref sig .tc := ⟨.hbm, 818, rfl⟩
abbrev main_v601 : Ref sig .tc := ⟨.hbm, 819, rfl⟩
abbrev main_v602 : Ref sig .tc := ⟨.hbm, 820, rfl⟩
abbrev main_v603 : Ref sig .tc := ⟨.hbm, 821, rfl⟩
abbrev main_v604 : Ref sig .tc := ⟨.hbm, 822, rfl⟩
abbrev main_v605 : Ref sig .tc := ⟨.hbm, 823, rfl⟩
abbrev main_v606 : Ref sig .tc := ⟨.hbm, 824, rfl⟩
abbrev main_v607 : Ref sig .tc := ⟨.hbm, 825, rfl⟩
abbrev main_cst_190 : Ref sig .tc := ⟨.hbm, 826, rfl⟩
abbrev main_v608 : Ref sig .tc := ⟨.hbm, 827, rfl⟩
abbrev main_v609 : Ref sig .tc := ⟨.hbm, 828, rfl⟩
abbrev main_v610 : Ref sig .tc := ⟨.hbm, 829, rfl⟩
abbrev main_v611 : Ref sig .tc := ⟨.hbm, 830, rfl⟩
abbrev main_v612 : Ref sig .tc := ⟨.hbm, 831, rfl⟩
abbrev main_v613 : Ref sig .tc := ⟨.hbm, 832, rfl⟩
abbrev main_v614 : Ref sig .tc := ⟨.hbm, 833, rfl⟩
abbrev main_v615 : Ref sig .tc := ⟨.hbm, 834, rfl⟩
abbrev main_v616 : Ref sig .tc := ⟨.hbm, 835, rfl⟩
abbrev main_cst_191 : Ref sig .tc := ⟨.hbm, 836, rfl⟩
abbrev main_v617 : Ref sig .tc := ⟨.hbm, 837, rfl⟩
abbrev main_v618 : Ref sig .tc := ⟨.hbm, 838, rfl⟩
abbrev main_v619 : Ref sig .tc := ⟨.hbm, 839, rfl⟩
abbrev main_v620 : Ref sig .tc := ⟨.hbm, 840, rfl⟩
abbrev main_v621 : Ref sig .tc := ⟨.hbm, 841, rfl⟩
abbrev main_call4_v0 : Ref sig .tc := ⟨.hbm, 842, rfl⟩
abbrev main_call4_cst : Ref sig .tc := ⟨.hbm, 843, rfl⟩
abbrev main_call4_v1 : Ref sig .tc := ⟨.hbm, 844, rfl⟩
abbrev main_call4_v2 : Ref sig .tc := ⟨.hbm, 845, rfl⟩
abbrev main_v622 : Ref sig .tc := ⟨.hbm, 846, rfl⟩
abbrev main_cst_192 : Ref sig .tc := ⟨.hbm, 847, rfl⟩
abbrev main_v623 : Ref sig .tc := ⟨.hbm, 848, rfl⟩
abbrev main_v624 : Ref sig .tc := ⟨.hbm, 849, rfl⟩
abbrev main_v625 : Ref sig .tc := ⟨.hbm, 850, rfl⟩
abbrev main_v626 : Ref sig .tc := ⟨.hbm, 851, rfl⟩
abbrev main_call5_v0 : Ref sig .tc := ⟨.hbm, 852, rfl⟩
abbrev main_call5_cst : Ref sig .tc := ⟨.hbm, 853, rfl⟩
abbrev main_call5_v1 : Ref sig .tc := ⟨.hbm, 854, rfl⟩
abbrev main_call5_v2 : Ref sig .tc := ⟨.hbm, 855, rfl⟩
abbrev main_v627 : Ref sig .tc := ⟨.hbm, 856, rfl⟩
abbrev main_cst_193 : Ref sig .tc := ⟨.hbm, 857, rfl⟩
abbrev main_v628 : Ref sig .tc := ⟨.hbm, 858, rfl⟩
abbrev main_v629 : Ref sig .tc := ⟨.hbm, 859, rfl⟩
abbrev main_v630 : Ref sig .tc := ⟨.hbm, 860, rfl⟩
abbrev main_v631 : Ref sig .tc := ⟨.hbm, 861, rfl⟩
abbrev main_call6_v0 : Ref sig .tc := ⟨.hbm, 862, rfl⟩
abbrev main_call6_cst : Ref sig .tc := ⟨.hbm, 863, rfl⟩
abbrev main_call6_v1 : Ref sig .tc := ⟨.hbm, 864, rfl⟩
abbrev main_call6_v2 : Ref sig .tc := ⟨.hbm, 865, rfl⟩
abbrev main_v632 : Ref sig .tc := ⟨.hbm, 866, rfl⟩
abbrev main_cst_194 : Ref sig .tc := ⟨.hbm, 867, rfl⟩
abbrev main_v633 : Ref sig .tc := ⟨.hbm, 868, rfl⟩
abbrev main_v634 : Ref sig .tc := ⟨.hbm, 869, rfl⟩
abbrev main_v635 : Ref sig .tc := ⟨.hbm, 870, rfl⟩
abbrev main_v636 : Ref sig .tc := ⟨.hbm, 871, rfl⟩
abbrev main_call7_v0 : Ref sig .tc := ⟨.hbm, 872, rfl⟩
abbrev main_call7_cst : Ref sig .tc := ⟨.hbm, 873, rfl⟩
abbrev main_call7_v1 : Ref sig .tc := ⟨.hbm, 874, rfl⟩
abbrev main_call7_v2 : Ref sig .tc := ⟨.hbm, 875, rfl⟩
abbrev main_v637 : Ref sig .tc := ⟨.hbm, 876, rfl⟩
abbrev main_cst_195 : Ref sig .tc := ⟨.hbm, 877, rfl⟩
abbrev main_v638 : Ref sig .tc := ⟨.hbm, 878, rfl⟩
abbrev main_v639 : Ref sig .tc := ⟨.hbm, 879, rfl⟩
abbrev main_v640 : Ref sig .tc := ⟨.hbm, 880, rfl⟩
abbrev main_v641 : Ref sig .tc := ⟨.hbm, 881, rfl⟩
abbrev main_v642 : Ref sig .tc := ⟨.hbm, 882, rfl⟩
abbrev main_v643 : Ref sig .tc := ⟨.hbm, 883, rfl⟩
abbrev main_v644 : Ref sig .tc := ⟨.hbm, 884, rfl⟩
abbrev main_v645 : Ref sig .tc := ⟨.hbm, 885, rfl⟩
abbrev main_v646 : Ref sig .tc := ⟨.hbm, 886, rfl⟩
abbrev main_v647 : Ref sig .tc := ⟨.hbm, 887, rfl⟩
abbrev main_cst_196 : Ref sig .tc := ⟨.hbm, 888, rfl⟩
abbrev main_v648 : Ref sig .tc := ⟨.hbm, 889, rfl⟩
abbrev main_v649 : Ref sig .tc := ⟨.hbm, 890, rfl⟩
abbrev main_v650 : Ref sig .tc := ⟨.hbm, 891, rfl⟩
abbrev main_v651 : Ref sig .tc := ⟨.hbm, 892, rfl⟩
abbrev main_v652 : Ref sig .tc := ⟨.hbm, 893, rfl⟩
abbrev main_v653 : Ref sig .tc := ⟨.hbm, 894, rfl⟩
abbrev main_v654 : Ref sig .tc := ⟨.hbm, 895, rfl⟩
abbrev main_v655 : Ref sig .tc := ⟨.hbm, 896, rfl⟩
abbrev main_v656 : Ref sig .tc := ⟨.hbm, 897, rfl⟩
abbrev main_cst_197 : Ref sig .tc := ⟨.hbm, 898, rfl⟩
abbrev main_v657 : Ref sig .tc := ⟨.hbm, 899, rfl⟩
abbrev main_v658 : Ref sig .tc := ⟨.hbm, 900, rfl⟩
abbrev main_v659 : Ref sig .tc := ⟨.hbm, 901, rfl⟩
abbrev main_v660 : Ref sig .tc := ⟨.hbm, 902, rfl⟩
abbrev main_v661 : Ref sig .tc := ⟨.hbm, 903, rfl⟩
abbrev main_call8_v0 : Ref sig .tc := ⟨.hbm, 904, rfl⟩
abbrev main_call8_cst : Ref sig .tc := ⟨.hbm, 905, rfl⟩
abbrev main_call8_v1 : Ref sig .tc := ⟨.hbm, 906, rfl⟩
abbrev main_call8_v2 : Ref sig .tc := ⟨.hbm, 907, rfl⟩
abbrev main_v662 : Ref sig .tc := ⟨.hbm, 908, rfl⟩
abbrev main_cst_198 : Ref sig .tc := ⟨.hbm, 909, rfl⟩
abbrev main_v663 : Ref sig .tc := ⟨.hbm, 910, rfl⟩
abbrev main_v664 : Ref sig .tc := ⟨.hbm, 911, rfl⟩
abbrev main_v665 : Ref sig .tc := ⟨.hbm, 912, rfl⟩
abbrev main_v666 : Ref sig .tc := ⟨.hbm, 913, rfl⟩
abbrev main_call9_v0 : Ref sig .tc := ⟨.hbm, 914, rfl⟩
abbrev main_call9_cst : Ref sig .tc := ⟨.hbm, 915, rfl⟩
abbrev main_call9_v1 : Ref sig .tc := ⟨.hbm, 916, rfl⟩
abbrev main_call9_v2 : Ref sig .tc := ⟨.hbm, 917, rfl⟩
abbrev main_v667 : Ref sig .tc := ⟨.hbm, 918, rfl⟩
abbrev main_cst_199 : Ref sig .tc := ⟨.hbm, 919, rfl⟩
abbrev main_v668 : Ref sig .tc := ⟨.hbm, 920, rfl⟩
abbrev main_v669 : Ref sig .tc := ⟨.hbm, 921, rfl⟩
abbrev main_v670 : Ref sig .tc := ⟨.hbm, 922, rfl⟩
abbrev main_v671 : Ref sig .tc := ⟨.hbm, 923, rfl⟩
abbrev main_call10_v0 : Ref sig .tc := ⟨.hbm, 924, rfl⟩
abbrev main_call10_cst : Ref sig .tc := ⟨.hbm, 925, rfl⟩
abbrev main_call10_v1 : Ref sig .tc := ⟨.hbm, 926, rfl⟩
abbrev main_call10_v2 : Ref sig .tc := ⟨.hbm, 927, rfl⟩
abbrev main_v672 : Ref sig .tc := ⟨.hbm, 928, rfl⟩
abbrev main_cst_200 : Ref sig .tc := ⟨.hbm, 929, rfl⟩
abbrev main_v673 : Ref sig .tc := ⟨.hbm, 930, rfl⟩
abbrev main_v674 : Ref sig .tc := ⟨.hbm, 931, rfl⟩
abbrev main_v675 : Ref sig .tc := ⟨.hbm, 932, rfl⟩
abbrev main_v676 : Ref sig .tc := ⟨.hbm, 933, rfl⟩
abbrev main_call11_v0 : Ref sig .tc := ⟨.hbm, 934, rfl⟩
abbrev main_call11_cst : Ref sig .tc := ⟨.hbm, 935, rfl⟩
abbrev main_call11_v1 : Ref sig .tc := ⟨.hbm, 936, rfl⟩
abbrev main_call11_v2 : Ref sig .tc := ⟨.hbm, 937, rfl⟩
abbrev main_v677 : Ref sig .tc := ⟨.hbm, 938, rfl⟩
abbrev main_cst_201 : Ref sig .tc := ⟨.hbm, 939, rfl⟩
abbrev main_v678 : Ref sig .tc := ⟨.hbm, 940, rfl⟩
abbrev main_v679 : Ref sig .tc := ⟨.hbm, 941, rfl⟩
abbrev main_v680 : Ref sig .tc := ⟨.hbm, 942, rfl⟩
abbrev main_v681 : Ref sig .tc := ⟨.hbm, 943, rfl⟩
abbrev main_v682 : Ref sig .tc := ⟨.hbm, 944, rfl⟩
abbrev main_v683 : Ref sig .tc := ⟨.hbm, 945, rfl⟩
abbrev main_v684 : Ref sig .tc := ⟨.hbm, 946, rfl⟩
abbrev main_v685 : Ref sig .tc := ⟨.hbm, 947, rfl⟩
abbrev main_v686 : Ref sig .tc := ⟨.hbm, 948, rfl⟩
abbrev main_v687 : Ref sig .tc := ⟨.hbm, 949, rfl⟩
abbrev main_cst_202 : Ref sig .tc := ⟨.hbm, 950, rfl⟩
abbrev main_v688 : Ref sig .tc := ⟨.hbm, 951, rfl⟩
abbrev main_v689 : Ref sig .tc := ⟨.hbm, 952, rfl⟩
abbrev main_v690 : Ref sig .tc := ⟨.hbm, 953, rfl⟩
abbrev main_v691 : Ref sig .tc := ⟨.hbm, 954, rfl⟩
abbrev main_v692 : Ref sig .tc := ⟨.hbm, 955, rfl⟩
abbrev main_v693 : Ref sig .tc := ⟨.hbm, 956, rfl⟩
abbrev main_v694 : Ref sig .tc := ⟨.hbm, 957, rfl⟩
abbrev main_v695 : Ref sig .tc := ⟨.hbm, 958, rfl⟩
abbrev main_v696 : Ref sig .tc := ⟨.hbm, 959, rfl⟩
abbrev main_cst_203 : Ref sig .tc := ⟨.hbm, 960, rfl⟩
abbrev main_v697 : Ref sig .tc := ⟨.hbm, 961, rfl⟩
abbrev main_v698 : Ref sig .tc := ⟨.hbm, 962, rfl⟩
abbrev main_v699 : Ref sig .tc := ⟨.hbm, 963, rfl⟩
abbrev main_v700 : Ref sig .tc := ⟨.hbm, 964, rfl⟩
abbrev main_v701 : Ref sig .tc := ⟨.hbm, 965, rfl⟩
abbrev main_call12_v0 : Ref sig .tc := ⟨.hbm, 966, rfl⟩
abbrev main_call12_cst : Ref sig .tc := ⟨.hbm, 967, rfl⟩
abbrev main_call12_v1 : Ref sig .tc := ⟨.hbm, 968, rfl⟩
abbrev main_call12_v2 : Ref sig .tc := ⟨.hbm, 969, rfl⟩
abbrev main_v702 : Ref sig .tc := ⟨.hbm, 970, rfl⟩
abbrev main_cst_204 : Ref sig .tc := ⟨.hbm, 971, rfl⟩
abbrev main_v703 : Ref sig .tc := ⟨.hbm, 972, rfl⟩
abbrev main_v704 : Ref sig .tc := ⟨.hbm, 973, rfl⟩
abbrev main_v705 : Ref sig .tc := ⟨.hbm, 974, rfl⟩
abbrev main_v706 : Ref sig .tc := ⟨.hbm, 975, rfl⟩
abbrev main_call13_v0 : Ref sig .tc := ⟨.hbm, 976, rfl⟩
abbrev main_call13_cst : Ref sig .tc := ⟨.hbm, 977, rfl⟩
abbrev main_call13_v1 : Ref sig .tc := ⟨.hbm, 978, rfl⟩
abbrev main_call13_v2 : Ref sig .tc := ⟨.hbm, 979, rfl⟩
abbrev main_v707 : Ref sig .tc := ⟨.hbm, 980, rfl⟩
abbrev main_cst_205 : Ref sig .tc := ⟨.hbm, 981, rfl⟩
abbrev main_v708 : Ref sig .tc := ⟨.hbm, 982, rfl⟩
abbrev main_v709 : Ref sig .tc := ⟨.hbm, 983, rfl⟩
abbrev main_v710 : Ref sig .tc := ⟨.hbm, 984, rfl⟩
abbrev main_v711 : Ref sig .tc := ⟨.hbm, 985, rfl⟩
abbrev main_call14_v0 : Ref sig .tc := ⟨.hbm, 986, rfl⟩
abbrev main_call14_cst : Ref sig .tc := ⟨.hbm, 987, rfl⟩
abbrev main_call14_v1 : Ref sig .tc := ⟨.hbm, 988, rfl⟩
abbrev main_call14_v2 : Ref sig .tc := ⟨.hbm, 989, rfl⟩
abbrev main_v712 : Ref sig .tc := ⟨.hbm, 990, rfl⟩
abbrev main_cst_206 : Ref sig .tc := ⟨.hbm, 991, rfl⟩
abbrev main_v713 : Ref sig .tc := ⟨.hbm, 992, rfl⟩
abbrev main_v714 : Ref sig .tc := ⟨.hbm, 993, rfl⟩
abbrev main_v715 : Ref sig .tc := ⟨.hbm, 994, rfl⟩
abbrev main_v716 : Ref sig .tc := ⟨.hbm, 995, rfl⟩
abbrev main_call15_v0 : Ref sig .tc := ⟨.hbm, 996, rfl⟩
abbrev main_call15_cst : Ref sig .tc := ⟨.hbm, 997, rfl⟩
abbrev main_call15_v1 : Ref sig .tc := ⟨.hbm, 998, rfl⟩
abbrev main_call15_v2 : Ref sig .tc := ⟨.hbm, 999, rfl⟩
abbrev main_v717 : Ref sig .tc := ⟨.hbm, 1000, rfl⟩
abbrev main_cst_207 : Ref sig .tc := ⟨.hbm, 1001, rfl⟩
abbrev main_v718 : Ref sig .tc := ⟨.hbm, 1002, rfl⟩
abbrev main_v719 : Ref sig .tc := ⟨.hbm, 1003, rfl⟩
abbrev main_v720 : Ref sig .tc := ⟨.hbm, 1004, rfl⟩
abbrev main_v721 : Ref sig .tc := ⟨.hbm, 1005, rfl⟩
abbrev main_v722 : Ref sig .tc := ⟨.hbm, 1006, rfl⟩
abbrev main_v723 : Ref sig .tc := ⟨.hbm, 1007, rfl⟩

abbrev nD : Nat := 1
abbrev τ : Topo := Topo.v7x

variable {F : FTy → Type} [FloatOps F]

class Facts₀ : Prop where
  slices_S4x64_S1x64_0_0 : S4x64.Slices ![0, 0] S1x64
  shapeCasts_S1x64_S64 : S1x64.ShapeCasts S64
  slices_S4x64_S1x64_1_0 : S4x64.Slices ![1, 0] S1x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S64_d0 : S64x64.ReducesTo [0] S64
  h_S_ : 0 < S_.numel
  bcast_S_S1x64 : S_.BroadcastsInDim S1x64 (![] : Fin 0 → Fin S1x64.rank)
  reducesTo_S64x64_S64_d1 : S64x64.ReducesTo [1] S64
  bcast_S_S64x1 : S_.BroadcastsInDim S64x1 (![] : Fin 0 → Fin S64x1.rank)
  reducesTo_S64x64_S_d0_1 : S64x64.ReducesTo [0, 1] S_
  slices_S4x64_S1x64_2_0 : S4x64.Slices ![2, 0] S1x64
  slices_S4x64_S1x64_3_0 : S4x64.Slices ![3, 0] S1x64
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bcast_S4x64_S1x4x64_1_2 : S4x64.BroadcastsInDim S1x4x64 (![1, 2] : Fin 2 → Fin S1x4x64.rank)
  bcast_S8192x4_S8192x4x1_0_1 : S8192x4.BroadcastsInDim S8192x4x1 (![0, 1] : Fin 2 → Fin S8192x4x1.rank)
  bcast_S1x4x64_S8192x4x64_0_1_2 : S1x4x64.BroadcastsInDim S8192x4x64 (![0, 1, 2] : Fin 3 → Fin S8192x4x64.rank)
  bcast_S8192x4x1_S8192x4x64_0_1_2 : S8192x4x1.BroadcastsInDim S8192x4x64 (![0, 1, 2] : Fin 3 → Fin S8192x4x64.rank)
  reducesTo_S8192x4x64_S8192x64_d1 : S8192x4x64.ReducesTo [1] S8192x64
  concatenates_S8192x64_S8192x64_S8192x64_S8192x64_S8192x64_S8192x64_S8192x64_S8192x64_S8192x512_d1 : Shape.Concatenates [S8192x64, S8192x64, S8192x64, S8192x64, S8192x64, S8192x64, S8192x64, S8192x64] S8192x512 1
  dot_S8192x8192_S8192x64_S8192x64_1_0_0_1_n_n_wf : DotDims.WF S8192x8192 S8192x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KI.R0Body.lean ====
/-
  Region 0 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first0 (i : grid0.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last0 (i : grid0.Coords) : Prop := k0_cond2 i = 1#1

/-- Points are numbered row by row, eight to a row: the first condition holds at the multiples of 8, -/
theorem first0_iff : ∀ t : Fin cfg0.N, first0 (grid0.coords t) ↔ t.val % 8 = 0 :=
  (by decide +kernel : ∀ t : Fin grid0.N, first0 (grid0.coords t) ↔ t.val % 8 = 0)
/-- and the second at the points one short of a multiple of 8. -/
theorem last0_iff : ∀ t : Fin cfg0.N, last0 (grid0.coords t) ↔ t.val % 8 = 7 :=
  (by decide +kernel : ∀ t : Fin grid0.N, last0 (grid0.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst0 (c : Dev nD) (i : grid0.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first0 i) (hc1 : ¬ last0 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc0__matvec_kernel i arg2 harg2 arg3 harg3 arg4 harg4 arg5 harg5) K } := by
  refine ⟨?_, fun y E K => ?run⟩
  case run =>
    simp only [cc0__matvec_kernel_eq_skeleton]; unfold cc0__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid0 (c : Dev nD) (i : grid0.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first0 i) (hc1 : ¬ last0 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc0__matvec_kernel i arg2 harg2 arg3 harg3 arg4 harg4 arg5 harg5) K } := by
  refine ⟨?_, fun y E K => ?run⟩
  case run =>
    simp only [cc0__matvec_kernel_eq_skeleton]; unfold cc0__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast0 (c : Dev nD) (i : grid0.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first0 i) (hc1 : last0 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__matvec_kernel i arg2 harg2 arg3 harg3 arg4 harg4 arg5 harg5) K } := by
  refine ⟨⟨?_, ?_⟩, fun E K => ?run⟩
  case run =>
    simp only [cc0__matvec_kernel_eq_skeleton]; unfold cc0__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R0Dat.lean ====
/-
  Region 0: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
/-- The accumulator's scratch buffer, whole. -/
abbrev sc0 : Memref sig .tc .vmem S2048x64 .f32 := Memref.whole cc0_scratch0
abbrev hsc0 : (sc0).IsWhole := Memref.isWhole_whole _
/-- The view through which a 2048 × 64 buffer's contents are stated (any whole buffer of the shape serves). -/
abbrev VS0 : View sig .tc .vmem S2048x64 .f32 := (sc0).view

/-! ## What each case leaves: the pieces cover the buffer, so the contents are the pieces read back -/

section Cases

variable (c : Dev nD) (i : grid0.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst0 (hc0 : first0 i) (hc1 : ¬ last0 i) (y : S2048x64.Idx) :
    ∃ pc ∈ (runFirst0 c i arg2 harg2 arg3 harg3 arg4 harg4 arg5 harg5 hc0 hc1 x0 x1).1, y ∈ pc.1.set :=
  View.cover_of_tiledL (runFirst0 c i arg2 harg2 arg3 harg3 arg4 harg4 arg5 harg5 hc0 hc1 x0 x1).1 S2048x64.size (by sl_kernel_rfl) y
/-- The accumulator after a first point. -/
def accFirst0 (hc0 : first0 i) (hc1 : ¬ last0 i) : Vec F S2048x64 .f32 :=
  VS0.read (Elt F) (VS0.writes (Elt F) VS0.junk (runFirst0 c i arg2 harg2 arg3 harg3 arg4 harg4 arg5 harg5 hc0 hc1 x0 x1).1)

theorem coverMid0 (hc0 : ¬ first0 i) (hc1 : ¬ last0 i) (y : S2048x64.Idx) :
    ∃ pc ∈ (runMid0 c i arg2 harg2 arg3 harg3 arg4 harg4 arg5 harg5 hc0 hc1 x0 x1 s).1, y ∈ pc.1.set :=
  View.cover_of_tiledL (runMid0 c i arg2 harg2 arg3 harg3 arg4 harg4 arg5 harg5 hc0 hc1 x0 x1 s).1 S2048x64.size (by sl_kernel_rfl) y
/-- The accumulator after a middle point that found it at `s`. -/
def accMid0 (hc0 : ¬ first0 i) (hc1 : ¬ last0 i) : Vec F S2048x64 .f32 :=
  VS0.read (Elt F) (VS0.writes (Elt F) VS0.junk (runMid0 c i arg2 harg2 arg3 harg3 arg4 harg4 arg5 harg5 hc0 hc1 x0 x1 s).1)

theorem coverLastOut0 (hc0 : ¬ first0 i) (hc1 : last0 i) (y : S2048x64.Idx) :
    ∃ pc ∈ (runLast0 c i arg2 harg2 arg3 harg3 arg4 harg4 arg5 harg5 hc0 hc1 x0 x1 s).1.1, y ∈ pc.1.set :=
  View.cover_of_tiledL (runLast0 c i arg2 harg2 arg3 harg3 arg4 harg4 arg5 harg5 hc0 hc1 x0 x1 s).1.1 S2048x64.size (by sl_kernel_rfl) y
theorem coverLastAcc0 (hc0 : ¬ first0 i) (hc1 : last0 i) (y : S2048x64.Idx) :
    ∃ pc ∈ (runLast0 c i arg2 harg2 arg3 harg3 arg4 harg4 arg5 harg5 hc0 hc1 x0 x1 s).1.2, y ∈ pc.1.set :=
  View.cover_of_tiledL (runLast0 c i arg2 harg2 arg3 harg3 arg4 harg4 arg5 harg5 hc0 hc1 x0 x1 s).1.2 S2048x64.size (by sl_kernel_rfl) y
/-- The output tile after a last point that found the accumulator at `s`, -/
def outLast0 (hc0 : ¬ first0 i) (hc1 : last0 i) : Vec F S2048x64 .f32 :=
  VS0.read (Elt F) (VS0.writes (Elt F) VS0.junk (runLast0 c i arg2 harg2 arg3 harg3 arg4 harg4 arg5 harg5 hc0 hc1 x0 x1 s).1.1)
/-- and the accumulator. -/
def accLast0 (hc0 : ¬ first0 i) (hc1 : last0 i) : Vec F S2048x64 .f32 :=
  VS0.read (Elt F) (VS0.writes (Elt F) VS0.junk (runLast0 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem not_last_of_first0 {n : ℕ} (h0 : n % 8 = 0) : ¬ n % 8 = 7 := by omega

/-- THE ACCUMULATION: the accumulator after the body at position `n`, by the case the point is in — a first point
    of a row starts afresh, the others continue from what the point before left. -/
def accAt0 (c : Dev nD) : (n : ℕ) → n < cfg0.N → Vec F S2048x64 .f32
  | 0, hn => accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) sc0 hsc0 (iblk0 V c 0 ⟨0, hn⟩) (iblk0 V c 1 ⟨0, hn⟩)
      ((first0_iff ⟨0, hn⟩).mpr (Nat.zero_mod _)) (fun h => not_last_of_first0 (Nat.zero_mod 8) ((last0_iff ⟨0, hn⟩).mp h))
  | n + 1, hn =>
    if h0 : (n + 1) % 8 = 0 then
      accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) sc0 hsc0 (iblk0 V c 0 ⟨n + 1, hn⟩) (iblk0 V c 1 ⟨n + 1, hn⟩)
        ((first0_iff ⟨n + 1, hn⟩).mpr h0) (fun h => not_last_of_first0 h0 ((last0_iff ⟨n + 1, hn⟩).mp h))
    else if h1 : (n + 1) % 8 = 7 then
      accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) sc0 hsc0 (iblk0 V c 0 ⟨n + 1, hn⟩) (iblk0 V c 1 ⟨n + 1, hn⟩) (accAt0 c n (Nat.lt_of_succ_lt hn))
        (fun h => h0 ((first0_iff ⟨n + 1, hn⟩).mp h)) ((last0_iff ⟨n + 1, hn⟩).mpr h1)
    else
      accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) sc0 hsc0 (iblk0 V c 0 ⟨n + 1, hn⟩) (iblk0 V c 1 ⟨n + 1, hn⟩) (accAt0 c n (Nat.lt_of_succ_lt hn))
        (fun h => h0 ((first0_iff ⟨n + 1, hn⟩).mp h)) (fun h => h1 ((last0_iff ⟨n + 1, hn⟩).mp h))

theorem accAt0_first (c : Dev nD) (t : Fin cfg0.N) (h0 : t.val % 8 = 0) :
    accAt0 V c t.val t.isLt = accFirst0 c (grid0.coords t) (ms0_0 t) (hs0_0 t) (ms0_1 t) (hs0_1 t) (ms0_2 t) (hs0_2 t) sc0 hsc0 (iblk0 V c 0 t) (iblk0 V c 1 t)
      ((first0_iff t).mpr h0) (fun h => not_last_of_first0 h0 ((last0_iff t).mp h)) := by
  obtain ⟨n, hn⟩ := t
  cases n with
  | zero => exact rfl
  | succ n => exact (dif_pos h0).trans rfl

theorem accAt0_last (c : Dev nD) (t : Fin cfg0.N) (h0 : ¬ t.val % 8 = 0) (h1 : t.val % 8 = 7) :
    accAt0 V c t.val t.isLt = accLast0 c (grid0.coords t) (ms0_0 t) (hs0_0 t) (ms0_1 t) (hs0_1 t) (ms0_2 t) (hs0_2 t) sc0 hsc0 (iblk0 V c 0 t) (iblk0 V c 1 t) (accAt0 V c (t.val - 1) (Nat.lt_of_le_of_lt (Nat.sub_le _ _) t.isLt))
      (fun h => h0 ((first0_iff t).mp h)) ((last0_iff t).mpr h1) := by
  obtain ⟨n, hn⟩ := t
  cases n with
  | zero => exact absurd (Nat.zero_mod _) h0
  | succ n => exact (dif_neg h0).trans ((dif_pos h1).trans rfl)

theorem accAt0_mid (c : Dev nD) (t : Fin cfg0.N) (h0 : ¬ t.val % 8 = 0) (h1 : ¬ t.val % 8 = 7) :
    accAt0 V c t.val t.isLt = accMid0 c (grid0.coords t) (ms0_0 t) (hs0_0 t) (ms0_1 t) (hs0_1 t) (ms0_2 t) (hs0_2 t) sc0 hsc0 (iblk0 V c 0 t) (iblk0 V c 1 t) (accAt0 V c (t.val - 1) (Nat.lt_of_le_of_lt (Nat.sub_le _ _) t.isLt))
      (fun h => h0 ((first0_iff t).mp h)) (fun h => h1 ((last0_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt0 (c : Dev nD) (t : Fin cfg0.N) : Vec F S2048x64 .f32 :=
  if h : ¬ t.val % 8 = 0 ∧ t.val % 8 = 7 then
    outLast0 c (grid0.coords t) (ms0_0 t) (hs0_0 t) (ms0_1 t) (hs0_1 t) (ms0_2 t) (hs0_2 t) sc0 hsc0 (iblk0 V c 0 t) (iblk0 V c 1 t) (accAt0 V c (t.val - 1) (Nat.lt_of_le_of_lt (Nat.sub_le _ _) t.isLt))
      (fun h' => h.1 ((first0_iff t).mp h')) ((last0_iff t).mpr h.2)
  else accAt0 V c t.val t.isLt

/-! ## The pipeline's proof data -/

/-- The invariant before point `j` (after point `j - 1`): the accumulator at what the point before left — at
    anything before the first point —, and the scoped buffers of the other kernels untouched. -/
def Φ0 (c : Dev nD) (j : Fin (cfg0.N + 1)) : sProp 𝕄 :=
  iprop((∃ s : Vec F S2048x64 .f32, ⌜∀ (n : ℕ) (hn : n < cfg0.N), j.val = n + 1 → s = accAt0 V c n hn⌝ ∗ owns (c : Thread nD τ) sc0 fullShare s)
    ∗ Pipeline.scopedRestBut (Ix := Unit) (Name := ℕ) (U := UR sig nD τ) (Lvl := ℕ) (Val := Elt F) spec0 c [cc0_scratch0])

/-- The proof data on core `c`: the arrays as the region finds them; after the body at point `t` each input's
    buffer at its block and the output tile's at what a last point writes; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ j := Φ0 V c j
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

/-- Each input's current staging buffer holds its block at every point: both are fetched at every point. -/
theorem before0_0 (c : Dev nD) (t : Fin cfg0.N) (d) : (dat0 V c).before 0 t d = iblk0 V c 0 t := by
  unfold Dat.before; rw [if_pos (fetch0_0 t)]; unfold Dat.fetched Dat.blockOf iblk0; rw [A_eq0]; try rfl
theorem before0_1 (c : Dev nD) (t : Fin cfg0.N) (d) : (dat0 V c).before 1 t d = iblk0 V c 1 t := by
  unfold Dat.before; rw [if_pos (fetch0_1 t)]; unfold Dat.fetched Dat.blockOf iblk0; rw [A_eq0]; try rfl

end Cert.KernelIdeal.Hand

end
-- ==== Proof.KI.R1Body.lean ====
/-
  Region 1 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first1 (i : grid1.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last1 (i : grid1.Coords) : Prop := k1_cond2 i = 1#1

/-- Points are numbered row by row, eight to a row: the first condition holds at the multiples of 8, -/
theorem first1_iff : ∀ t : Fin cfg1.N, first1 (grid1.coords t) ↔ t.val % 8 = 0 :=
  (by decide +kernel : ∀ t : Fin grid1.N, first1 (grid1.coords t) ↔ t.val % 8 = 0)
/-- and the second at the points one short of a multiple of 8. -/
theorem last1_iff : ∀ t : Fin cfg1.N, last1 (grid1.coords t) ↔ t.val % 8 = 7 :=
  (by decide +kernel : ∀ t : Fin grid1.N, last1 (grid1.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst1 (c : Dev nD) (i : grid1.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first1 i) (hc1 : ¬ last1 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc1__matvec_kernel i arg2 harg2 arg3 harg3 arg4 harg4 arg5 harg5) K } := by
  refine ⟨?_, fun y E K => ?run⟩
  case run =>
    simp only [cc1__matvec_kernel_eq_skeleton]; unfold cc1__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid1 (c : Dev nD) (i : grid1.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first1 i) (hc1 : ¬ last1 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc1__matvec_kernel i arg2 harg2 arg3 harg3 arg4 harg4 arg5 harg5) K } := by
  refine ⟨?_, fun y E K => ?run⟩
  case run =>
    simp only [cc1__matvec_kernel_eq_skeleton]; unfold cc1__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast1 (c : Dev nD) (i : grid1.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first1 i) (hc1 : last1 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__matvec_kernel i arg2 harg2 arg3 harg3 arg4 harg4 arg5 harg5) K } := by
  refine ⟨⟨?_, ?_⟩, fun E K => ?run⟩
  case run =>
    simp only [cc1__matvec_kernel_eq_skeleton]; unfold cc1__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R1Dat.lean ====
/-
  Region 1: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The accumulator's scratch buffer, whole. -/
abbrev sc1 : Memref sig .tc .vmem S2048x64 .f32 := Memref.whole cc1_scratch0
abbrev hsc1 : (sc1).IsWhole := Memref.isWhole_whole _
/-- The view through which a 2048 × 64 buffer's contents are stated (any whole buffer of the shape serves). -/
abbrev VS1 : View sig .tc .vmem S2048x64 .f32 := (sc1).view

/-! ## What each case leaves: the pieces cover the buffer, so the contents are the pieces read back -/

section Cases

variable (c : Dev nD) (i : grid1.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst1 (hc0 : first1 i) (hc1 : ¬ last1 i) (y : S2048x64.Idx) :
    ∃ pc ∈ (runFirst1 c i arg2 harg2 arg3 harg3 arg4 harg4 arg5 harg5 hc0 hc1 x0 x1).1, y ∈ pc.1.set :=
  View.cover_of_tiledL (runFirst1 c i arg2 harg2 arg3 harg3 arg4 harg4 arg5 harg5 hc0 hc1 x0 x1).1 S2048x64.size (by sl_kernel_rfl) y
/-- The accumulator after a first point. -/
def accFirst1 (hc0 : first1 i) (hc1 : ¬ last1 i) : Vec F S2048x64 .f32 :=
  VS1.read (Elt F) (VS1.writes (Elt F) VS1.junk (runFirst1 c i arg2 harg2 arg3 harg3 arg4 harg4 arg5 harg5 hc0 hc1 x0 x1).1)

theorem coverMid1 (hc0 : ¬ first1 i) (hc1 : ¬ last1 i) (y : S2048x64.Idx) :
    ∃ pc ∈ (runMid1 c i arg2 harg2 arg3 harg3 arg4 harg4 arg5 harg5 hc0 hc1 x0 x1 s).1, y ∈ pc.1.set :=
  View.cover_of_tiledL (runMid1 c i arg2 harg2 arg3 harg3 arg4 harg4 arg5 harg5 hc0 hc1 x0 x1 s).1 S2048x64.size (by sl_kernel_rfl) y
/-- The accumulator after a middle point that found it at `s`. -/
def accMid1 (hc0 : ¬ first1 i) (hc1 : ¬ last1 i) : Vec F S2048x64 .f32 :=
  VS1.read (Elt F) (VS1.writes (Elt F) VS1.junk (runMid1 c i arg2 harg2 arg3 harg3 arg4 harg4 arg5 harg5 hc0 hc1 x0 x1 s).1)

theorem coverLastOut1 (hc0 : ¬ first1 i) (hc1 : last1 i) (y : S2048x64.Idx) :
    ∃ pc ∈ (runLast1 c i arg2 harg2 arg3 harg3 arg4 harg4 arg5 harg5 hc0 hc1 x0 x1 s).1.1, y ∈ pc.1.set :=
  View.cover_of_tiledL (runLast1 c i arg2 harg2 arg3 harg3 arg4 harg4 arg5 harg5 hc0 hc1 x0 x1 s).1.1 S2048x64.size (by sl_kernel_rfl) y
theorem coverLastAcc1 (hc0 : ¬ first1 i) (hc1 : last1 i) (y : S2048x64.Idx) :
    ∃ pc ∈ (runLast1 c i arg2 harg2 arg3 harg3 arg4 harg4 arg5 harg5 hc0 hc1 x0 x1 s).1.2, y ∈ pc.1.set :=
  View.cover_of_tiledL (runLast1 c i arg2 harg2 arg3 harg3 arg4 harg4 arg5 harg5 hc0 hc1 x0 x1 s).1.2 S2048x64.size (by sl_kernel_rfl) y
/-- The output tile after a last point that found the accumulator at `s`, -/
def outLast1 (hc0 : ¬ first1 i) (hc1 : last1 i) : Vec F S2048x64 .f32 :=
  VS1.read (Elt F) (VS1.writes (Elt F) VS1.junk (runLast1 c i arg2 harg2 arg3 harg3 arg4 harg4 arg5 harg5 hc0 hc1 x0 x1 s).1.1)
/-- and the accumulator. -/
def accLast1 (hc0 : ¬ first1 i) (hc1 : last1 i) : Vec F S2048x64 .f32 :=
  VS1.read (Elt F) (VS1.writes (Elt F) VS1.junk (runLast1 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem not_last_of_first1 {n : ℕ} (h0 : n % 8 = 0) : ¬ n % 8 = 7 := by omega

/-- THE ACCUMULATION: the accumulator after the body at position `n`, by the case the point is in — a first point
    of a row starts afresh, the others continue from what the point before left. -/
def accAt1 (c : Dev nD) : (n : ℕ) → n < cfg1.N → Vec F S2048x64 .f32
  | 0, hn => accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) sc1 hsc1 (iblk1 V c 0 ⟨0, hn⟩) (iblk1 V c 1 ⟨0, hn⟩)
      ((first1_iff ⟨0, hn⟩).mpr (Nat.zero_mod _)) (fun h => not_last_of_first1 (Nat.zero_mod 8) ((last1_iff ⟨0, hn⟩).mp h))
  | n + 1, hn =>
    if h0 : (n + 1) % 8 = 0 then
      accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) sc1 hsc1 (iblk1 V c 0 ⟨n + 1, hn⟩) (iblk1 V c 1 ⟨n + 1, hn⟩)
        ((first1_iff ⟨n + 1, hn⟩).mpr h0) (fun h => not_last_of_first1 h0 ((last1_iff ⟨n + 1, hn⟩).mp h))
    else if h1 : (n + 1) % 8 = 7 then
      accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) sc1 hsc1 (iblk1 V c 0 ⟨n + 1, hn⟩) (iblk1 V c 1 ⟨n + 1, hn⟩) (accAt1 c n (Nat.lt_of_succ_lt hn))
        (fun h => h0 ((first1_iff ⟨n + 1, hn⟩).mp h)) ((last1_iff ⟨n + 1, hn⟩).mpr h1)
    else
      accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) sc1 hsc1 (iblk1 V c 0 ⟨n + 1, hn⟩) (iblk1 V c 1 ⟨n + 1, hn⟩) (accAt1 c n (Nat.lt_of_succ_lt hn))
        (fun h => h0 ((first1_iff ⟨n + 1, hn⟩).mp h)) (fun h => h1 ((last1_iff ⟨n + 1, hn⟩).mp h))

theorem accAt1_first (c : Dev nD) (t : Fin cfg1.N) (h0 : t.val % 8 = 0) :
    accAt1 V c t.val t.isLt = accFirst1 c (grid1.coords t) (ms1_0 t) (hs1_0 t) (ms1_1 t) (hs1_1 t) (ms1_2 t) (hs1_2 t) sc1 hsc1 (iblk1 V c 0 t) (iblk1 V c 1 t)
      ((first1_iff t).mpr h0) (fun h => not_last_of_first1 h0 ((last1_iff t).mp h)) := by
  obtain ⟨n, hn⟩ := t
  cases n with
  | zero => exact rfl
  | succ n => exact (dif_pos h0).trans rfl

theorem accAt1_last (c : Dev nD) (t : Fin cfg1.N) (h0 : ¬ t.val % 8 = 0) (h1 : t.val % 8 = 7) :
    accAt1 V c t.val t.isLt = accLast1 c (grid1.coords t) (ms1_0 t) (hs1_0 t) (ms1_1 t) (hs1_1 t) (ms1_2 t) (hs1_2 t) sc1 hsc1 (iblk1 V c 0 t) (iblk1 V c 1 t) (accAt1 V c (t.val - 1) (Nat.lt_of_le_of_lt (Nat.sub_le _ _) t.isLt))
      (fun h => h0 ((first1_iff t).mp h)) ((last1_iff t).mpr h1) := by
  obtain ⟨n, hn⟩ := t
  cases n with
  | zero => exact absurd (Nat.zero_mod _) h0
  | succ n => exact (dif_neg h0).trans ((dif_pos h1).trans rfl)

theorem accAt1_mid (c : Dev nD) (t : Fin cfg1.N) (h0 : ¬ t.val % 8 = 0) (h1 : ¬ t.val % 8 = 7) :
    accAt1 V c t.val t.isLt = accMid1 c (grid1.coords t) (ms1_0 t) (hs1_0 t) (ms1_1 t) (hs1_1 t) (ms1_2 t) (hs1_2 t) sc1 hsc1 (iblk1 V c 0 t) (iblk1 V c 1 t) (accAt1 V c (t.val - 1) (Nat.lt_of_le_of_lt (Nat.sub_le _ _) t.isLt))
      (fun h => h0 ((first1_iff t).mp h)) (fun h => h1 ((last1_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt1 (c : Dev nD) (t : Fin cfg1.N) : Vec F S2048x64 .f32 :=
  if h : ¬ t.val % 8 = 0 ∧ t.val % 8 = 7 then
    outLast1 c (grid1.coords t) (ms1_0 t) (hs1_0 t) (ms1_1 t) (hs1_1 t) (ms1_2 t) (hs1_2 t) sc1 hsc1 (iblk1 V c 0 t) (iblk1 V c 1 t) (accAt1 V c (t.val - 1) (Nat.lt_of_le_of_lt (Nat.sub_le _ _) t.isLt))
      (fun h' => h.1 ((first1_iff t).mp h')) ((last1_iff t).mpr h.2)
  else accAt1 V c t.val t.isLt

/-! ## The pipeline's proof data -/

/-- The invariant before point `j` (after point `j - 1`): the accumulator at what the point before left — at
    anything before the first point —, and the scoped buffers of the other kernels untouched. -/
def Φ1 (c : Dev nD) (j : Fin (cfg1.N + 1)) : sProp 𝕄 :=
  iprop((∃ s : Vec F S2048x64 .f32, ⌜∀ (n : ℕ) (hn : n < cfg1.N), j.val = n + 1 → s = accAt1 V c n hn⌝ ∗ owns (c : Thread nD τ) sc1 fullShare s)
    ∗ Pipeline.scopedRestBut (Ix := Unit) (Name := ℕ) (U := UR sig nD τ) (Lvl := ℕ) (Val := Elt F) spec1 c [cc1_scratch0])

/-- The proof data on core `c`: the arrays as the region finds them; after the body at point `t` each input's
    buffer at its block and the output tile's at what a last point writes; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ j := Φ1 V c j
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

/-- Each input's current staging buffer holds its block at every point: both are fetched at every point. -/
theorem before1_0 (c : Dev nD) (t : Fin cfg1.N) (d) : (dat1 V c).before 0 t d = iblk1 V c 0 t := by
  unfold Dat.before; rw [if_pos (fetch1_0 t)]; unfold Dat.fetched Dat.blockOf iblk1; rw [A_eq1]; try rfl
theorem before1_1 (c : Dev nD) (t : Fin cfg1.N) (d) : (dat1 V c).before 1 t d = iblk1 V c 1 t := by
  unfold Dat.before; rw [if_pos (fetch1_1 t)]; unfold Dat.fetched Dat.blockOf iblk1; rw [A_eq1]; try rfl

end Cert.KernelIdeal.Hand

end
-- ==== Proof.KI.R2Body.lean ====
/-
  Region 2 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first2 (i : grid2.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last2 (i : grid2.Coords) : Prop := k2_cond2 i = 1#1

/-- Points are numbered row by row, eight to a row: the first condition holds at the multiples of 8, -/
theorem first2_iff : ∀ t : Fin cfg2.N, first2 (grid2.coords t) ↔ t.val % 8 = 0 :=
  (by decide +kernel : ∀ t : Fin grid2.N, first2 (grid2.coords t) ↔ t.val % 8 = 0)
/-- and the second at the points one short of a multiple of 8. -/
theorem last2_iff : ∀ t : Fin cfg2.N, last2 (grid2.coords t) ↔ t.val % 8 = 7 :=
  (by decide +kernel : ∀ t : Fin grid2.N, last2 (grid2.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst2 (c : Dev nD) (i : grid2.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first2 i) (hc1 : ¬ last2 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc2__matvec_kernel i arg2 harg2 arg3 harg3 arg4 harg4 arg5 harg5) K } := by
  refine ⟨?_, fun y E K => ?run⟩
  case run =>
    simp only [cc2__matvec_kernel_eq_skeleton]; unfold cc2__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid2 (c : Dev nD) (i : grid2.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first2 i) (hc1 : ¬ last2 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc2__matvec_kernel i arg2 harg2 arg3 harg3 arg4 harg4 arg5 harg5) K } := by
  refine ⟨?_, fun y E K => ?run⟩
  case run =>
    simp only [cc2__matvec_kernel_eq_skeleton]; unfold cc2__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast2 (c : Dev nD) (i : grid2.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first2 i) (hc1 : last2 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc2__matvec_kernel i arg2 harg2 arg3 harg3 arg4 harg4 arg5 harg5) K } := by
  refine ⟨⟨?_, ?_⟩, fun E K => ?run⟩
  case run =>
    simp only [cc2__matvec_kernel_eq_skeleton]; unfold cc2__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R2Dat.lean ====
/-
  Region 2: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
/-- The accumulator's scratch buffer, whole. -/
abbrev sc2 : Memref sig .tc .vmem S2048x64 .f32 := Memref.whole cc2_scratch0
abbrev hsc2 : (sc2).IsWhole := Memref.isWhole_whole _
/-- The view through which a 2048 × 64 buffer's contents are stated (any whole buffer of the shape serves). -/
abbrev VS2 : View sig .tc .vmem S2048x64 .f32 := (sc2).view

/-! ## What each case leaves: the pieces cover the buffer, so the contents are the pieces read back -/

section Cases

variable (c : Dev nD) (i : grid2.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst2 (hc0 : first2 i) (hc1 : ¬ last2 i) (y : S2048x64.Idx) :
    ∃ pc ∈ (runFirst2 c i arg2 harg2 arg3 harg3 arg4 harg4 arg5 harg5 hc0 hc1 x0 x1).1, y ∈ pc.1.set :=
  View.cover_of_tiledL (runFirst2 c i arg2 harg2 arg3 harg3 arg4 harg4 arg5 harg5 hc0 hc1 x0 x1).1 S2048x64.size (by sl_kernel_rfl) y
/-- The accumulator after a first point. -/
def accFirst2 (hc0 : first2 i) (hc1 : ¬ last2 i) : Vec F S2048x64 .f32 :=
  VS2.read (Elt F) (VS2.writes (Elt F) VS2.junk (runFirst2 c i arg2 harg2 arg3 harg3 arg4 harg4 arg5 harg5 hc0 hc1 x0 x1).1)

theorem coverMid2 (hc0 : ¬ first2 i) (hc1 : ¬ last2 i) (y : S2048x64.Idx) :
    ∃ pc ∈ (runMid2 c i arg2 harg2 arg3 harg3 arg4 harg4 arg5 harg5 hc0 hc1 x0 x1 s).1, y ∈ pc.1.set :=
  View.cover_of_tiledL (runMid2 c i arg2 harg2 arg3 harg3 arg4 harg4 arg5 harg5 hc0 hc1 x0 x1 s).1 S2048x64.size (by sl_kernel_rfl) y
/-- The accumulator after a middle point that found it at `s`. -/
def accMid2 (hc0 : ¬ first2 i) (hc1 : ¬ last2 i) : Vec F S2048x64 .f32 :=
  VS2.read (Elt F) (VS2.writes (Elt F) VS2.junk (runMid2 c i arg2 harg2 arg3 harg3 arg4 harg4 arg5 harg5 hc0 hc1 x0 x1 s).1)

theorem coverLastOut2 (hc0 : ¬ first2 i) (hc1 : last2 i) (y : S2048x64.Idx) :
    ∃ pc ∈ (runLast2 c i arg2 harg2 arg3 harg3 arg4 harg4 arg5 harg5 hc0 hc1 x0 x1 s).1.1, y ∈ pc.1.set :=
  View.cover_of_tiledL (runLast2 c i arg2 harg2 arg3 harg3 arg4 harg4 arg5 harg5 hc0 hc1 x0 x1 s).1.1 S2048x64.size (by sl_kernel_rfl) y
theorem coverLastAcc2 (hc0 : ¬ first2 i) (hc1 : last2 i) (y : S2048x64.Idx) :
    ∃ pc ∈ (runLast2 c i arg2 harg2 arg3 harg3 arg4 harg4 arg5 harg5 hc0 hc1 x0 x1 s).1.2, y ∈ pc.1.set :=
  View.cover_of_tiledL (runLast2 c i arg2 harg2 arg3 harg3 arg4 harg4 arg5 harg5 hc0 hc1 x0 x1 s).1.2 S2048x64.size (by sl_kernel_rfl) y
/-- The output tile after a last point that found the accumulator at `s`, -/
def outLast2 (hc0 : ¬ first2 i) (hc1 : last2 i) : Vec F S2048x64 .f32 :=
  VS2.read (Elt F) (VS2.writes (Elt F) VS2.junk (runLast2 c i arg2 harg2 arg3 harg3 arg4 harg4 arg5 harg5 hc0 hc1 x0 x1 s).1.1)
/-- and the accumulator. -/
def accLast2 (hc0 : ¬ first2 i) (hc1 : last2 i) : Vec F S2048x64 .f32 :=
  VS2.read (Elt F) (VS2.writes (Elt F) VS2.junk (runLast2 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem not_last_of_first2 {n : ℕ} (h0 : n % 8 = 0) : ¬ n % 8 = 7 := by omega

/-- THE ACCUMULATION: the accumulator after the body at position `n`, by the case the point is in — a first point
    of a row starts afresh, the others continue from what the point before left. -/
def accAt2 (c : Dev nD) : (n : ℕ) → n < cfg2.N → Vec F S2048x64 .f32
  | 0, hn => accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) sc2 hsc2 (iblk2 V c 0 ⟨0, hn⟩) (iblk2 V c 1 ⟨0, hn⟩)
      ((first2_iff ⟨0, hn⟩).mpr (Nat.zero_mod _)) (fun h => not_last_of_first2 (Nat.zero_mod 8) ((last2_iff ⟨0, hn⟩).mp h))
  | n + 1, hn =>
    if h0 : (n + 1) % 8 = 0 then
      accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) sc2 hsc2 (iblk2 V c 0 ⟨n + 1, hn⟩) (iblk2 V c 1 ⟨n + 1, hn⟩)
        ((first2_iff ⟨n + 1, hn⟩).mpr h0) (fun h => not_last_of_first2 h0 ((last2_iff ⟨n + 1, hn⟩).mp h))
    else if h1 : (n + 1) % 8 = 7 then
      accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) sc2 hsc2 (iblk2 V c 0 ⟨n + 1, hn⟩) (iblk2 V c 1 ⟨n + 1, hn⟩) (accAt2 c n (Nat.lt_of_succ_lt hn))
        (fun h => h0 ((first2_iff ⟨n + 1, hn⟩).mp h)) ((last2_iff ⟨n + 1, hn⟩).mpr h1)
    else
      accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) sc2 hsc2 (iblk2 V c 0 ⟨n + 1, hn⟩) (iblk2 V c 1 ⟨n + 1, hn⟩) (accAt2 c n (Nat.lt_of_succ_lt hn))
        (fun h => h0 ((first2_iff ⟨n + 1, hn⟩).mp h)) (fun h => h1 ((last2_iff ⟨n + 1, hn⟩).mp h))

theorem accAt2_first (c : Dev nD) (t : Fin cfg2.N) (h0 : t.val % 8 = 0) :
    accAt2 V c t.val t.isLt = accFirst2 c (grid2.coords t) (ms2_0 t) (hs2_0 t) (ms2_1 t) (hs2_1 t) (ms2_2 t) (hs2_2 t) sc2 hsc2 (iblk2 V c 0 t) (iblk2 V c 1 t)
      ((first2_iff t).mpr h0) (fun h => not_last_of_first2 h0 ((last2_iff t).mp h)) := by
  obtain ⟨n, hn⟩ := t
  cases n with
  | zero => exact rfl
  | succ n => exact (dif_pos h0).trans rfl

theorem accAt2_last (c : Dev nD) (t : Fin cfg2.N) (h0 : ¬ t.val % 8 = 0) (h1 : t.val % 8 = 7) :
    accAt2 V c t.val t.isLt = accLast2 c (grid2.coords t) (ms2_0 t) (hs2_0 t) (ms2_1 t) (hs2_1 t) (ms2_2 t) (hs2_2 t) sc2 hsc2 (iblk2 V c 0 t) (iblk2 V c 1 t) (accAt2 V c (t.val - 1) (Nat.lt_of_le_of_lt (Nat.sub_le _ _) t.isLt))
      (fun h => h0 ((first2_iff t).mp h)) ((last2_iff t).mpr h1) := by
  obtain ⟨n, hn⟩ := t
  cases n with
  | zero => exact absurd (Nat.zero_mod _) h0
  | succ n => exact (dif_neg h0).trans ((dif_pos h1).trans rfl)

theorem accAt2_mid (c : Dev nD) (t : Fin cfg2.N) (h0 : ¬ t.val % 8 = 0) (h1 : ¬ t.val % 8 = 7) :
    accAt2 V c t.val t.isLt = accMid2 c (grid2.coords t) (ms2_0 t) (hs2_0 t) (ms2_1 t) (hs2_1 t) (ms2_2 t) (hs2_2 t) sc2 hsc2 (iblk2 V c 0 t) (iblk2 V c 1 t) (accAt2 V c (t.val - 1) (Nat.lt_of_le_of_lt (Nat.sub_le _ _) t.isLt))
      (fun h => h0 ((first2_iff t).mp h)) (fun h => h1 ((last2_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt2 (c : Dev nD) (t : Fin cfg2.N) : Vec F S2048x64 .f32 :=
  if h : ¬ t.val % 8 = 0 ∧ t.val % 8 = 7 then
    outLast2 c (grid2.coords t) (ms2_0 t) (hs2_0 t) (ms2_1 t) (hs2_1 t) (ms2_2 t) (hs2_2 t) sc2 hsc2 (iblk2 V c 0 t) (iblk2 V c 1 t) (accAt2 V c (t.val - 1) (Nat.lt_of_le_of_lt (Nat.sub_le _ _) t.isLt))
      (fun h' => h.1 ((first2_iff t).mp h')) ((last2_iff t).mpr h.2)
  else accAt2 V c t.val t.isLt

/-! ## The pipeline's proof data -/

/-- The invariant before point `j` (after point `j - 1`): the accumulator at what the point before left — at
    anything before the first point —, and the scoped buffers of the other kernels untouched. -/
def Φ2 (c : Dev nD) (j : Fin (cfg2.N + 1)) : sProp 𝕄 :=
  iprop((∃ s : Vec F S2048x64 .f32, ⌜∀ (n : ℕ) (hn : n < cfg2.N), j.val = n + 1 → s = accAt2 V c n hn⌝ ∗ owns (c : Thread nD τ) sc2 fullShare s)
    ∗ Pipeline.scopedRestBut (Ix := Unit) (Name := ℕ) (U := UR sig nD τ) (Lvl := ℕ) (Val := Elt F) spec2 c [cc2_scratch0])

/-- The proof data on core `c`: the arrays as the region finds them; after the body at point `t` each input's
    buffer at its block and the output tile's at what a last point writes; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ j := Φ2 V c j
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]

/-- Each input's current staging buffer holds its block at every point: both are fetched at every point. -/
theorem before2_0 (c : Dev nD) (t : Fin cfg2.N) (d) : (dat2 V c).before 0 t d = iblk2 V c 0 t := by
  unfold Dat.before; rw [if_pos (fetch2_0 t)]; unfold Dat.fetched Dat.blockOf iblk2; rw [A_eq2]; try rfl
theorem before2_1 (c : Dev nD) (t : Fin cfg2.N) (d) : (dat2 V c).before 1 t d = iblk2 V c 1 t := by
  unfold Dat.before; rw [if_pos (fetch2_1 t)]; unfold Dat.fetched Dat.blockOf iblk2; rw [A_eq2]; try rfl

end Cert.KernelIdeal.Hand

end
-- ==== Proof.KI.R3Body.lean ====
/-
  Region 3 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first3 (i : grid3.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last3 (i : grid3.Coords) : Prop := k3_cond2 i = 1#1

/-- Points are numbered row by row, eight to a row: the first condition holds at the multiples of 8, -/
theorem first3_iff : ∀ t : Fin cfg3.N, first3 (grid3.coords t) ↔ t.val % 8 = 0 :=
  (by decide +kernel : ∀ t : Fin grid3.N, first3 (grid3.coords t) ↔ t.val % 8 = 0)
/-- and the second at the points one short of a multiple of 8. -/
theorem last3_iff : ∀ t : Fin cfg3.N, last3 (grid3.coords t) ↔ t.val % 8 = 7 :=
  (by decide +kernel : ∀ t : Fin grid3.N, last3 (grid3.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst3 (c : Dev nD) (i : grid3.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first3 i) (hc1 : ¬ last3 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc3__matvec_kernel i arg2 harg2 arg3 harg3 arg4 harg4 arg5 harg5) K } := by
  refine ⟨?_, fun y E K => ?run⟩
  case run =>
    simp only [cc3__matvec_kernel_eq_skeleton]; unfold cc3__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid3 (c : Dev nD) (i : grid3.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first3 i) (hc1 : ¬ last3 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc3__matvec_kernel i arg2 harg2 arg3 harg3 arg4 harg4 arg5 harg5) K } := by
  refine ⟨?_, fun y E K => ?run⟩
  case run =>
    simp only [cc3__matvec_kernel_eq_skeleton]; unfold cc3__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast3 (c : Dev nD) (i : grid3.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first3 i) (hc1 : last3 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc3__matvec_kernel i arg2 harg2 arg3 harg3 arg4 harg4 arg5 harg5) K } := by
  refine ⟨⟨?_, ?_⟩, fun E K => ?run⟩
  case run =>
    simp only [cc3__matvec_kernel_eq_skeleton]; unfold cc3__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R3Dat.lean ====
/-
  Region 3: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
/-- The accumulator's scratch buffer, whole. -/
abbrev sc3 : Memref sig .tc .vmem S2048x64 .f32 := Memref.whole cc3_scratch0
abbrev hsc3 : (sc3).IsWhole := Memref.isWhole_whole _
/-- The view through which a 2048 × 64 buffer's contents are stated (any whole buffer of the shape serves). -/
abbrev VS3 : View sig .tc .vmem S2048x64 .f32 := (sc3).view

/-! ## What each case leaves: the pieces cover the buffer, so the contents are the pieces read back -/

section Cases

variable (c : Dev nD) (i : grid3.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst3 (hc0 : first3 i) (hc1 : ¬ last3 i) (y : S2048x64.Idx) :
    ∃ pc ∈ (runFirst3 c i arg2 harg2 arg3 harg3 arg4 harg4 arg5 harg5 hc0 hc1 x0 x1).1, y ∈ pc.1.set :=
  View.cover_of_tiledL (runFirst3 c i arg2 harg2 arg3 harg3 arg4 harg4 arg5 harg5 hc0 hc1 x0 x1).1 S2048x64.size (by sl_kernel_rfl) y
/-- The accumulator after a first point. -/
def accFirst3 (hc0 : first3 i) (hc1 : ¬ last3 i) : Vec F S2048x64 .f32 :=
  VS3.read (Elt F) (VS3.writes (Elt F) VS3.junk (runFirst3 c i arg2 harg2 arg3 harg3 arg4 harg4 arg5 harg5 hc0 hc1 x0 x1).1)

theorem coverMid3 (hc0 : ¬ first3 i) (hc1 : ¬ last3 i) (y : S2048x64.Idx) :
    ∃ pc ∈ (runMid3 c i arg2 harg2 arg3 harg3 arg4 harg4 arg5 harg5 hc0 hc1 x0 x1 s).1, y ∈ pc.1.set :=
  View.cover_of_tiledL (runMid3 c i arg2 harg2 arg3 harg3 arg4 harg4 arg5 harg5 hc0 hc1 x0 x1 s).1 S2048x64.size (by sl_kernel_rfl) y
/-- The accumulator after a middle point that found it at `s`. -/
def accMid3 (hc0 : ¬ first3 i) (hc1 : ¬ last3 i) : Vec F S2048x64 .f32 :=
  VS3.read (Elt F) (VS3.writes (Elt F) VS3.junk (runMid3 c i arg2 harg2 arg3 harg3 arg4 harg4 arg5 harg5 hc0 hc1 x0 x1 s).1)

theorem coverLastOut3 (hc0 : ¬ first3 i) (hc1 : last3 i) (y : S2048x64.Idx) :
    ∃ pc ∈ (runLast3 c i arg2 harg2 arg3 harg3 arg4 harg4 arg5 harg5 hc0 hc1 x0 x1 s).1.1, y ∈ pc.1.set :=
  View.cover_of_tiledL (runLast3 c i arg2 harg2 arg3 harg3 arg4 harg4 arg5 harg5 hc0 hc1 x0 x1 s).1.1 S2048x64.size (by sl_kernel_rfl) y
theorem coverLastAcc3 (hc0 : ¬ first3 i) (hc1 : last3 i) (y : S2048x64.Idx) :
    ∃ pc ∈ (runLast3 c i arg2 harg2 arg3 harg3 arg4 harg4 arg5 harg5 hc0 hc1 x0 x1 s).1.2, y ∈ pc.1.set :=
  View.cover_of_tiledL (runLast3 c i arg2 harg2 arg3 harg3 arg4 harg4 arg5 harg5 hc0 hc1 x0 x1 s).1.2 S2048x64.size (by sl_kernel_rfl) y
/-- The output tile after a last point that found the accumulator at `s`, -/
def outLast3 (hc0 : ¬ first3 i) (hc1 : last3 i) : Vec F S2048x64 .f32 :=
  VS3.read (Elt F) (VS3.writes (Elt F) VS3.junk (runLast3 c i arg2 harg2 arg3 harg3 arg4 harg4 arg5 harg5 hc0 hc1 x0 x1 s).1.1)
/-- and the accumulator. -/
def accLast3 (hc0 : ¬ first3 i) (hc1 : last3 i) : Vec F S2048x64 .f32 :=
  VS3.read (Elt F) (VS3.writes (Elt F) VS3.junk (runLast3 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem not_last_of_first3 {n : ℕ} (h0 : n % 8 = 0) : ¬ n % 8 = 7 := by omega

/-- THE ACCUMULATION: the accumulator after the body at position `n`, by the case the point is in — a first point
    of a row starts afresh, the others continue from what the point before left. -/
def accAt3 (c : Dev nD) : (n : ℕ) → n < cfg3.N → Vec F S2048x64 .f32
  | 0, hn => accFirst3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) sc3 hsc3 (iblk3 V c 0 ⟨0, hn⟩) (iblk3 V c 1 ⟨0, hn⟩)
      ((first3_iff ⟨0, hn⟩).mpr (Nat.zero_mod _)) (fun h => not_last_of_first3 (Nat.zero_mod 8) ((last3_iff ⟨0, hn⟩).mp h))
  | n + 1, hn =>
    if h0 : (n + 1) % 8 = 0 then
      accFirst3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) sc3 hsc3 (iblk3 V c 0 ⟨n + 1, hn⟩) (iblk3 V c 1 ⟨n + 1, hn⟩)
        ((first3_iff ⟨n + 1, hn⟩).mpr h0) (fun h => not_last_of_first3 h0 ((last3_iff ⟨n + 1, hn⟩).mp h))
    else if h1 : (n + 1) % 8 = 7 then
      accLast3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) sc3 hsc3 (iblk3 V c 0 ⟨n + 1, hn⟩) (iblk3 V c 1 ⟨n + 1, hn⟩) (accAt3 c n (Nat.lt_of_succ_lt hn))
        (fun h => h0 ((first3_iff ⟨n + 1, hn⟩).mp h)) ((last3_iff ⟨n + 1, hn⟩).mpr h1)
    else
      accMid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) sc3 hsc3 (iblk3 V c 0 ⟨n + 1, hn⟩) (iblk3 V c 1 ⟨n + 1, hn⟩) (accAt3 c n (Nat.lt_of_succ_lt hn))
        (fun h => h0 ((first3_iff ⟨n + 1, hn⟩).mp h)) (fun h => h1 ((last3_iff ⟨n + 1, hn⟩).mp h))

theorem accAt3_first (c : Dev nD) (t : Fin cfg3.N) (h0 : t.val % 8 = 0) :
    accAt3 V c t.val t.isLt = accFirst3 c (grid3.coords t) (ms3_0 t) (hs3_0 t) (ms3_1 t) (hs3_1 t) (ms3_2 t) (hs3_2 t) sc3 hsc3 (iblk3 V c 0 t) (iblk3 V c 1 t)
      ((first3_iff t).mpr h0) (fun h => not_last_of_first3 h0 ((last3_iff t).mp h)) := by
  obtain ⟨n, hn⟩ := t
  cases n with
  | zero => exact rfl
  | succ n => exact (dif_pos h0).trans rfl

theorem accAt3_last (c : Dev nD) (t : Fin cfg3.N) (h0 : ¬ t.val % 8 = 0) (h1 : t.val % 8 = 7) :
    accAt3 V c t.val t.isLt = accLast3 c (grid3.coords t) (ms3_0 t) (hs3_0 t) (ms3_1 t) (hs3_1 t) (ms3_2 t) (hs3_2 t) sc3 hsc3 (iblk3 V c 0 t) (iblk3 V c 1 t) (accAt3 V c (t.val - 1) (Nat.lt_of_le_of_lt (Nat.sub_le _ _) t.isLt))
      (fun h => h0 ((first3_iff t).mp h)) ((last3_iff t).mpr h1) := by
  obtain ⟨n, hn⟩ := t
  cases n with
  | zero => exact absurd (Nat.zero_mod _) h0
  | succ n => exact (dif_neg h0).trans ((dif_pos h1).trans rfl)

theorem accAt3_mid (c : Dev nD) (t : Fin cfg3.N) (h0 : ¬ t.val % 8 = 0) (h1 : ¬ t.val % 8 = 7) :
    accAt3 V c t.val t.isLt = accMid3 c (grid3.coords t) (ms3_0 t) (hs3_0 t) (ms3_1 t) (hs3_1 t) (ms3_2 t) (hs3_2 t) sc3 hsc3 (iblk3 V c 0 t) (iblk3 V c 1 t) (accAt3 V c (t.val - 1) (Nat.lt_of_le_of_lt (Nat.sub_le _ _) t.isLt))
      (fun h => h0 ((first3_iff t).mp h)) (fun h => h1 ((last3_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt3 (c : Dev nD) (t : Fin cfg3.N) : Vec F S2048x64 .f32 :=
  if h : ¬ t.val % 8 = 0 ∧ t.val % 8 = 7 then
    outLast3 c (grid3.coords t) (ms3_0 t) (hs3_0 t) (ms3_1 t) (hs3_1 t) (ms3_2 t) (hs3_2 t) sc3 hsc3 (iblk3 V c 0 t) (iblk3 V c 1 t) (accAt3 V c (t.val - 1) (Nat.lt_of_le_of_lt (Nat.sub_le _ _) t.isLt))
      (fun h' => h.1 ((first3_iff t).mp h')) ((last3_iff t).mpr h.2)
  else accAt3 V c t.val t.isLt

/-! ## The pipeline's proof data -/

/-- The invariant before point `j` (after point `j - 1`): the accumulator at what the point before left — at
    anything before the first point —, and the scoped buffers of the other kernels untouched. -/
def Φ3 (c : Dev nD) (j : Fin (cfg3.N + 1)) : sProp 𝕄 :=
  iprop((∃ s : Vec F S2048x64 .f32, ⌜∀ (n : ℕ) (hn : n < cfg3.N), j.val = n + 1 → s = accAt3 V c n hn⌝ ∗ owns (c : Thread nD τ) sc3 fullShare s)
    ∗ Pipeline.scopedRestBut (Ix := Unit) (Name := ℕ) (U := UR sig nD τ) (Lvl := ℕ) (Val := Elt F) spec3 c [cc3_scratch0])

/-- The proof data on core `c`: the arrays as the region finds them; after the body at point `t` each input's
    buffer at its block and the output tile's at what a last point writes; the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t
  Φ j := Φ3 V c j
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3 V c t := by dsimp only [dat3]

/-- Each input's current staging buffer holds its block at every point: both are fetched at every point. -/
theorem before3_0 (c : Dev nD) (t : Fin cfg3.N) (d) : (dat3 V c).before 0 t d = iblk3 V c 0 t := by
  unfold Dat.before; rw [if_pos (fetch3_0 t)]; unfold Dat.fetched Dat.blockOf iblk3; rw [A_eq3]; try rfl
theorem before3_1 (c : Dev nD) (t : Fin cfg3.N) (d) : (dat3 V c).before 1 t d = iblk3 V c 1 t := by
  unfold Dat.before; rw [if_pos (fetch3_1 t)]; unfold Dat.fetched Dat.blockOf iblk3; rw [A_eq3]; try rfl

end Cert.KernelIdeal.Hand

end
-- ==== Proof.KI.R4Body.lean ====
/-
  Region 4 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first4 (i : grid4.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last4 (i : grid4.Coords) : Prop := k4_cond2 i = 1#1

/-- Points are numbered row by row, eight to a row: the first condition holds at the multiples of 8, -/
theorem first4_iff : ∀ t : Fin cfg4.N, first4 (grid4.coords t) ↔ t.val % 8 = 0 :=
  (by decide +kernel : ∀ t : Fin grid4.N, first4 (grid4.coords t) ↔ t.val % 8 = 0)
/-- and the second at the points one short of a multiple of 8. -/
theorem last4_iff : ∀ t : Fin cfg4.N, last4 (grid4.coords t) ↔ t.val % 8 = 7 :=
  (by decide +kernel : ∀ t : Fin grid4.N, last4 (grid4.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst4 (c : Dev nD) (i : grid4.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first4 i) (hc1 : ¬ last4 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc4__matvec_kernel i arg2 harg2 arg3 harg3 arg4 harg4 arg5 harg5) K } := by
  refine ⟨?_, fun y E K => ?run⟩
  case run =>
    simp only [cc4__matvec_kernel_eq_skeleton]; unfold cc4__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid4 (c : Dev nD) (i : grid4.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first4 i) (hc1 : ¬ last4 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc4__matvec_kernel i arg2 harg2 arg3 harg3 arg4 harg4 arg5 harg5) K } := by
  refine ⟨?_, fun y E K => ?run⟩
  case run =>
    simp only [cc4__matvec_kernel_eq_skeleton]; unfold cc4__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast4 (c : Dev nD) (i : grid4.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first4 i) (hc1 : last4 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc4__matvec_kernel i arg2 harg2 arg3 harg3 arg4 harg4 arg5 harg5) K } := by
  refine ⟨⟨?_, ?_⟩, fun E K => ?run⟩
  case run =>
    simp only [cc4__matvec_kernel_eq_skeleton]; unfold cc4__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R4Dat.lean ====
/-
  Region 4: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R4Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
/-- The accumulator's scratch buffer, whole. -/
abbrev sc4 : Memref sig .tc .vmem S2048x64 .f32 := Memref.whole cc4_scratch0
abbrev hsc4 : (sc4).IsWhole := Memref.isWhole_whole _
/-- The view through which a 2048 × 64 buffer's contents are stated (any whole buffer of the shape serves). -/
abbrev VS4 : View sig .tc .vmem S2048x64 .f32 := (sc4).view

/-! ## What each case leaves: the pieces cover the buffer, so the contents are the pieces read back -/

section Cases

variable (c : Dev nD) (i : grid4.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst4 (hc0 : first4 i) (hc1 : ¬ last4 i) (y : S2048x64.Idx) :
    ∃ pc ∈ (runFirst4 c i arg2 harg2 arg3 harg3 arg4 harg4 arg5 harg5 hc0 hc1 x0 x1).1, y ∈ pc.1.set :=
  View.cover_of_tiledL (runFirst4 c i arg2 harg2 arg3 harg3 arg4 harg4 arg5 harg5 hc0 hc1 x0 x1).1 S2048x64.size (by sl_kernel_rfl) y
/-- The accumulator after a first point. -/
def accFirst4 (hc0 : first4 i) (hc1 : ¬ last4 i) : Vec F S2048x64 .f32 :=
  VS4.read (Elt F) (VS4.writes (Elt F) VS4.junk (runFirst4 c i arg2 harg2 arg3 harg3 arg4 harg4 arg5 harg5 hc0 hc1 x0 x1).1)

theorem coverMid4 (hc0 : ¬ first4 i) (hc1 : ¬ last4 i) (y : S2048x64.Idx) :
    ∃ pc ∈ (runMid4 c i arg2 harg2 arg3 harg3 arg4 harg4 arg5 harg5 hc0 hc1 x0 x1 s).1, y ∈ pc.1.set :=
  View.cover_of_tiledL (runMid4 c i arg2 harg2 arg3 harg3 arg4 harg4 arg5 harg5 hc0 hc1 x0 x1 s).1 S2048x64.size (by sl_kernel_rfl) y
/-- The accumulator after a middle point that found it at `s`. -/
def accMid4 (hc0 : ¬ first4 i) (hc1 : ¬ last4 i) : Vec F S2048x64 .f32 :=
  VS4.read (Elt F) (VS4.writes (Elt F) VS4.junk (runMid4 c i arg2 harg2 arg3 harg3 arg4 harg4 arg5 harg5 hc0 hc1 x0 x1 s).1)

theorem coverLastOut4 (hc0 : ¬ first4 i) (hc1 : last4 i) (y : S2048x64.Idx) :
    ∃ pc ∈ (runLast4 c i arg2 harg2 arg3 harg3 arg4 harg4 arg5 harg5 hc0 hc1 x0 x1 s).1.1, y ∈ pc.1.set :=
  View.cover_of_tiledL (runLast4 c i arg2 harg2 arg3 harg3 arg4 harg4 arg5 harg5 hc0 hc1 x0 x1 s).1.1 S2048x64.size (by sl_kernel_rfl) y
theorem coverLastAcc4 (hc0 : ¬ first4 i) (hc1 : last4 i) (y : S2048x64.Idx) :
    ∃ pc ∈ (runLast4 c i arg2 harg2 arg3 harg3 arg4 harg4 arg5 harg5 hc0 hc1 x0 x1 s).1.2, y ∈ pc.1.set :=
  View.cover_of_tiledL (runLast4 c i arg2 harg2 arg3 harg3 arg4 harg4 arg5 harg5 hc0 hc1 x0 x1 s).1.2 S2048x64.size (by sl_kernel_rfl) y
/-- The output tile after a last point that found the accumulator at `s`, -/
def outLast4 (hc0 : ¬ first4 i) (hc1 : last4 i) : Vec F S2048x64 .f32 :=
  VS4.read (Elt F) (VS4.writes (Elt F) VS4.junk (runLast4 c i arg2 harg2 arg3 harg3 arg4 harg4 arg5 harg5 hc0 hc1 x0 x1 s).1.1)
/-- and the accumulator. -/
def accLast4 (hc0 : ¬ first4 i) (hc1 : last4 i) : Vec F S2048x64 .f32 :=
  VS4.read (Elt F) (VS4.writes (Elt F) VS4.junk (runLast4 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem not_last_of_first4 {n : ℕ} (h0 : n % 8 = 0) : ¬ n % 8 = 7 := by omega

/-- THE ACCUMULATION: the accumulator after the body at position `n`, by the case the point is in — a first point
    of a row starts afresh, the others continue from what the point before left. -/
def accAt4 (c : Dev nD) : (n : ℕ) → n < cfg4.N → Vec F S2048x64 .f32
  | 0, hn => accFirst4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) sc4 hsc4 (iblk4 V c 0 ⟨0, hn⟩) (iblk4 V c 1 ⟨0, hn⟩)
      ((first4_iff ⟨0, hn⟩).mpr (Nat.zero_mod _)) (fun h => not_last_of_first4 (Nat.zero_mod 8) ((last4_iff ⟨0, hn⟩).mp h))
  | n + 1, hn =>
    if h0 : (n + 1) % 8 = 0 then
      accFirst4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) sc4 hsc4 (iblk4 V c 0 ⟨n + 1, hn⟩) (iblk4 V c 1 ⟨n + 1, hn⟩)
        ((first4_iff ⟨n + 1, hn⟩).mpr h0) (fun h => not_last_of_first4 h0 ((last4_iff ⟨n + 1, hn⟩).mp h))
    else if h1 : (n + 1) % 8 = 7 then
      accLast4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) sc4 hsc4 (iblk4 V c 0 ⟨n + 1, hn⟩) (iblk4 V c 1 ⟨n + 1, hn⟩) (accAt4 c n (Nat.lt_of_succ_lt hn))
        (fun h => h0 ((first4_iff ⟨n + 1, hn⟩).mp h)) ((last4_iff ⟨n + 1, hn⟩).mpr h1)
    else
      accMid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) sc4 hsc4 (iblk4 V c 0 ⟨n + 1, hn⟩) (iblk4 V c 1 ⟨n + 1, hn⟩) (accAt4 c n (Nat.lt_of_succ_lt hn))
        (fun h => h0 ((first4_iff ⟨n + 1, hn⟩).mp h)) (fun h => h1 ((last4_iff ⟨n + 1, hn⟩).mp h))

theorem accAt4_first (c : Dev nD) (t : Fin cfg4.N) (h0 : t.val % 8 = 0) :
    accAt4 V c t.val t.isLt = accFirst4 c (grid4.coords t) (ms4_0 t) (hs4_0 t) (ms4_1 t) (hs4_1 t) (ms4_2 t) (hs4_2 t) sc4 hsc4 (iblk4 V c 0 t) (iblk4 V c 1 t)
      ((first4_iff t).mpr h0) (fun h => not_last_of_first4 h0 ((last4_iff t).mp h)) := by
  obtain ⟨n, hn⟩ := t
  cases n with
  | zero => exact rfl
  | succ n => exact (dif_pos h0).trans rfl

theorem accAt4_last (c : Dev nD) (t : Fin cfg4.N) (h0 : ¬ t.val % 8 = 0) (h1 : t.val % 8 = 7) :
    accAt4 V c t.val t.isLt = accLast4 c (grid4.coords t) (ms4_0 t) (hs4_0 t) (ms4_1 t) (hs4_1 t) (ms4_2 t) (hs4_2 t) sc4 hsc4 (iblk4 V c 0 t) (iblk4 V c 1 t) (accAt4 V c (t.val - 1) (Nat.lt_of_le_of_lt (Nat.sub_le _ _) t.isLt))
      (fun h => h0 ((first4_iff t).mp h)) ((last4_iff t).mpr h1) := by
  obtain ⟨n, hn⟩ := t
  cases n with
  | zero => exact absurd (Nat.zero_mod _) h0
  | succ n => exact (dif_neg h0).trans ((dif_pos h1).trans rfl)

theorem accAt4_mid (c : Dev nD) (t : Fin cfg4.N) (h0 : ¬ t.val % 8 = 0) (h1 : ¬ t.val % 8 = 7) :
    accAt4 V c t.val t.isLt = accMid4 c (grid4.coords t) (ms4_0 t) (hs4_0 t) (ms4_1 t) (hs4_1 t) (ms4_2 t) (hs4_2 t) sc4 hsc4 (iblk4 V c 0 t) (iblk4 V c 1 t) (accAt4 V c (t.val - 1) (Nat.lt_of_le_of_lt (Nat.sub_le _ _) t.isLt))
      (fun h => h0 ((first4_iff t).mp h)) (fun h => h1 ((last4_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt4 (c : Dev nD) (t : Fin cfg4.N) : Vec F S2048x64 .f32 :=
  if h : ¬ t.val % 8 = 0 ∧ t.val % 8 = 7 then
    outLast4 c (grid4.coords t) (ms4_0 t) (hs4_0 t) (ms4_1 t) (hs4_1 t) (ms4_2 t) (hs4_2 t) sc4 hsc4 (iblk4 V c 0 t) (iblk4 V c 1 t) (accAt4 V c (t.val - 1) (Nat.lt_of_le_of_lt (Nat.sub_le _ _) t.isLt))
      (fun h' => h.1 ((first4_iff t).mp h')) ((last4_iff t).mpr h.2)
  else accAt4 V c t.val t.isLt

/-! ## The pipeline's proof data -/

/-- The invariant before point `j` (after point `j - 1`): the accumulator at what the point before left — at
    anything before the first point —, and the scoped buffers of the other kernels untouched. -/
def Φ4 (c : Dev nD) (j : Fin (cfg4.N + 1)) : sProp 𝕄 :=
  iprop((∃ s : Vec F S2048x64 .f32, ⌜∀ (n : ℕ) (hn : n < cfg4.N), j.val = n + 1 → s = accAt4 V c n hn⌝ ∗ owns (c : Thread nD τ) sc4 fullShare s)
    ∗ Pipeline.scopedRestBut (Ix := Unit) (Name := ℕ) (U := UR sig nD τ) (Lvl := ℕ) (Val := Elt F) spec4 c [cc4_scratch0])

/-- The proof data on core `c`: the arrays as the region finds them; after the body at point `t` each input's
    buffer at its block and the output tile's at what a last point writes; the invariant above; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t
  Φ j := Φ4 V c j
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t := by dsimp only [dat4]

/-- Each input's current staging buffer holds its block at every point: both are fetched at every point. -/
theorem before4_0 (c : Dev nD) (t : Fin cfg4.N) (d) : (dat4 V c).before 0 t d = iblk4 V c 0 t := by
  unfold Dat.before; rw [if_pos (fetch4_0 t)]; unfold Dat.fetched Dat.blockOf iblk4; rw [A_eq4]; try rfl
theorem before4_1 (c : Dev nD) (t : Fin cfg4.N) (d) : (dat4 V c).before 1 t d = iblk4 V c 1 t := by
  unfold Dat.before; rw [if_pos (fetch4_1 t)]; unfold Dat.fetched Dat.blockOf iblk4; rw [A_eq4]; try rfl

end Cert.KernelIdeal.Hand

end
-- ==== Proof.KI.R5Body.lean ====
/-
  Region 5 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first5 (i : grid5.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last5 (i : grid5.Coords) : Prop := k5_cond2 i = 1#1

/-- Points are numbered row by row, eight to a row: the first condition holds at the multiples of 8, -/
theorem first5_iff : ∀ t : Fin cfg5.N, first5 (grid5.coords t) ↔ t.val % 8 = 0 :=
  (by decide +kernel : ∀ t : Fin grid5.N, first5 (grid5.coords t) ↔ t.val % 8 = 0)
/-- and the second at the points one short of a multiple of 8. -/
theorem last5_iff : ∀ t : Fin cfg5.N, last5 (grid5.coords t) ↔ t.val % 8 = 7 :=
  (by decide +kernel : ∀ t : Fin grid5.N, last5 (grid5.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst5 (c : Dev nD) (i : grid5.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first5 i) (hc1 : ¬ last5 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc5__matvec_kernel i arg2 harg2 arg3 harg3 arg4 harg4 arg5 harg5) K } := by
  refine ⟨?_, fun y E K => ?run⟩
  case run =>
    simp only [cc5__matvec_kernel_eq_skeleton]; unfold cc5__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid5 (c : Dev nD) (i : grid5.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first5 i) (hc1 : ¬ last5 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc5__matvec_kernel i arg2 harg2 arg3 harg3 arg4 harg4 arg5 harg5) K } := by
  refine ⟨?_, fun y E K => ?run⟩
  case run =>
    simp only [cc5__matvec_kernel_eq_skeleton]; unfold cc5__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast5 (c : Dev nD) (i : grid5.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first5 i) (hc1 : last5 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc5__matvec_kernel i arg2 harg2 arg3 harg3 arg4 harg4 arg5 harg5) K } := by
  refine ⟨⟨?_, ?_⟩, fun E K => ?run⟩
  case run =>
    simp only [cc5__matvec_kernel_eq_skeleton]; unfold cc5__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R5Dat.lean ====
/-
  Region 5: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R5Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms5_0 (t : Fin cfg5.N) : Memref sig .tc .vmem S2048x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x64 .f32 := win5_2.stage (cfg5.slots t 2)
abbrev hs5_2 (t : Fin cfg5.N) : (ms5_2 t).IsWhole := hstage5_2 ((cfg5.slots t 2).cast nbuf5_2)
/-- The accumulator's scratch buffer, whole. -/
abbrev sc5 : Memref sig .tc .vmem S2048x64 .f32 := Memref.whole cc5_scratch0
abbrev hsc5 : (sc5).IsWhole := Memref.isWhole_whole _
/-- The view through which a 2048 × 64 buffer's contents are stated (any whole buffer of the shape serves). -/
abbrev VS5 : View sig .tc .vmem S2048x64 .f32 := (sc5).view

/-! ## What each case leaves: the pieces cover the buffer, so the contents are the pieces read back -/

section Cases

variable (c : Dev nD) (i : grid5.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst5 (hc0 : first5 i) (hc1 : ¬ last5 i) (y : S2048x64.Idx) :
    ∃ pc ∈ (runFirst5 c i arg2 harg2 arg3 harg3 arg4 harg4 arg5 harg5 hc0 hc1 x0 x1).1, y ∈ pc.1.set :=
  View.cover_of_tiledL (runFirst5 c i arg2 harg2 arg3 harg3 arg4 harg4 arg5 harg5 hc0 hc1 x0 x1).1 S2048x64.size (by sl_kernel_rfl) y
/-- The accumulator after a first point. -/
def accFirst5 (hc0 : first5 i) (hc1 : ¬ last5 i) : Vec F S2048x64 .f32 :=
  VS5.read (Elt F) (VS5.writes (Elt F) VS5.junk (runFirst5 c i arg2 harg2 arg3 harg3 arg4 harg4 arg5 harg5 hc0 hc1 x0 x1).1)

theorem coverMid5 (hc0 : ¬ first5 i) (hc1 : ¬ last5 i) (y : S2048x64.Idx) :
    ∃ pc ∈ (runMid5 c i arg2 harg2 arg3 harg3 arg4 harg4 arg5 harg5 hc0 hc1 x0 x1 s).1, y ∈ pc.1.set :=
  View.cover_of_tiledL (runMid5 c i arg2 harg2 arg3 harg3 arg4 harg4 arg5 harg5 hc0 hc1 x0 x1 s).1 S2048x64.size (by sl_kernel_rfl) y
/-- The accumulator after a middle point that found it at `s`. -/
def accMid5 (hc0 : ¬ first5 i) (hc1 : ¬ last5 i) : Vec F S2048x64 .f32 :=
  VS5.read (Elt F) (VS5.writes (Elt F) VS5.junk (runMid5 c i arg2 harg2 arg3 harg3 arg4 harg4 arg5 harg5 hc0 hc1 x0 x1 s).1)

theorem coverLastOut5 (hc0 : ¬ first5 i) (hc1 : last5 i) (y : S2048x64.Idx) :
    ∃ pc ∈ (runLast5 c i arg2 harg2 arg3 harg3 arg4 harg4 arg5 harg5 hc0 hc1 x0 x1 s).1.1, y ∈ pc.1.set :=
  View.cover_of_tiledL (runLast5 c i arg2 harg2 arg3 harg3 arg4 harg4 arg5 harg5 hc0 hc1 x0 x1 s).1.1 S2048x64.size (by sl_kernel_rfl) y
theorem coverLastAcc5 (hc0 : ¬ first5 i) (hc1 : last5 i) (y : S2048x64.Idx) :
    ∃ pc ∈ (runLast5 c i arg2 harg2 arg3 harg3 arg4 harg4 arg5 harg5 hc0 hc1 x0 x1 s).1.2, y ∈ pc.1.set :=
  View.cover_of_tiledL (runLast5 c i arg2 harg2 arg3 harg3 arg4 harg4 arg5 harg5 hc0 hc1 x0 x1 s).1.2 S2048x64.size (by sl_kernel_rfl) y
/-- The output tile after a last point that found the accumulator at `s`, -/
def outLast5 (hc0 : ¬ first5 i) (hc1 : last5 i) : Vec F S2048x64 .f32 :=
  VS5.read (Elt F) (VS5.writes (Elt F) VS5.junk (runLast5 c i arg2 harg2 arg3 harg3 arg4 harg4 arg5 harg5 hc0 hc1 x0 x1 s).1.1)
/-- and the accumulator. -/
def accLast5 (hc0 : ¬ first5 i) (hc1 : last5 i) : Vec F S2048x64 .f32 :=
  VS5.read (Elt F) (VS5.writes (Elt F) VS5.junk (runLast5 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem not_last_of_first5 {n : ℕ} (h0 : n % 8 = 0) : ¬ n % 8 = 7 := by omega

/-- THE ACCUMULATION: the accumulator after the body at position `n`, by the case the point is in — a first point
    of a row starts afresh, the others continue from what the point before left. -/
def accAt5 (c : Dev nD) : (n : ℕ) → n < cfg5.N → Vec F S2048x64 .f32
  | 0, hn => accFirst5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) sc5 hsc5 (iblk5 V c 0 ⟨0, hn⟩) (iblk5 V c 1 ⟨0, hn⟩)
      ((first5_iff ⟨0, hn⟩).mpr (Nat.zero_mod _)) (fun h => not_last_of_first5 (Nat.zero_mod 8) ((last5_iff ⟨0, hn⟩).mp h))
  | n + 1, hn =>
    if h0 : (n + 1) % 8 = 0 then
      accFirst5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) sc5 hsc5 (iblk5 V c 0 ⟨n + 1, hn⟩) (iblk5 V c 1 ⟨n + 1, hn⟩)
        ((first5_iff ⟨n + 1, hn⟩).mpr h0) (fun h => not_last_of_first5 h0 ((last5_iff ⟨n + 1, hn⟩).mp h))
    else if h1 : (n + 1) % 8 = 7 then
      accLast5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) sc5 hsc5 (iblk5 V c 0 ⟨n + 1, hn⟩) (iblk5 V c 1 ⟨n + 1, hn⟩) (accAt5 c n (Nat.lt_of_succ_lt hn))
        (fun h => h0 ((first5_iff ⟨n + 1, hn⟩).mp h)) ((last5_iff ⟨n + 1, hn⟩).mpr h1)
    else
      accMid5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) sc5 hsc5 (iblk5 V c 0 ⟨n + 1, hn⟩) (iblk5 V c 1 ⟨n + 1, hn⟩) (accAt5 c n (Nat.lt_of_succ_lt hn))
        (fun h => h0 ((first5_iff ⟨n + 1, hn⟩).mp h)) (fun h => h1 ((last5_iff ⟨n + 1, hn⟩).mp h))

theorem accAt5_first (c : Dev nD) (t : Fin cfg5.N) (h0 : t.val % 8 = 0) :
    accAt5 V c t.val t.isLt = accFirst5 c (grid5.coords t) (ms5_0 t) (hs5_0 t) (ms5_1 t) (hs5_1 t) (ms5_2 t) (hs5_2 t) sc5 hsc5 (iblk5 V c 0 t) (iblk5 V c 1 t)
      ((first5_iff t).mpr h0) (fun h => not_last_of_first5 h0 ((last5_iff t).mp h)) := by
  obtain ⟨n, hn⟩ := t
  cases n with
  | zero => exact rfl
  | succ n => exact (dif_pos h0).trans rfl

theorem accAt5_last (c : Dev nD) (t : Fin cfg5.N) (h0 : ¬ t.val % 8 = 0) (h1 : t.val % 8 = 7) :
    accAt5 V c t.val t.isLt = accLast5 c (grid5.coords t) (ms5_0 t) (hs5_0 t) (ms5_1 t) (hs5_1 t) (ms5_2 t) (hs5_2 t) sc5 hsc5 (iblk5 V c 0 t) (iblk5 V c 1 t) (accAt5 V c (t.val - 1) (Nat.lt_of_le_of_lt (Nat.sub_le _ _) t.isLt))
      (fun h => h0 ((first5_iff t).mp h)) ((last5_iff t).mpr h1) := by
  obtain ⟨n, hn⟩ := t
  cases n with
  | zero => exact absurd (Nat.zero_mod _) h0
  | succ n => exact (dif_neg h0).trans ((dif_pos h1).trans rfl)

theorem accAt5_mid (c : Dev nD) (t : Fin cfg5.N) (h0 : ¬ t.val % 8 = 0) (h1 : ¬ t.val % 8 = 7) :
    accAt5 V c t.val t.isLt = accMid5 c (grid5.coords t) (ms5_0 t) (hs5_0 t) (ms5_1 t) (hs5_1 t) (ms5_2 t) (hs5_2 t) sc5 hsc5 (iblk5 V c 0 t) (iblk5 V c 1 t) (accAt5 V c (t.val - 1) (Nat.lt_of_le_of_lt (Nat.sub_le _ _) t.isLt))
      (fun h => h0 ((first5_iff t).mp h)) (fun h => h1 ((last5_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt5 (c : Dev nD) (t : Fin cfg5.N) : Vec F S2048x64 .f32 :=
  if h : ¬ t.val % 8 = 0 ∧ t.val % 8 = 7 then
    outLast5 c (grid5.coords t) (ms5_0 t) (hs5_0 t) (ms5_1 t) (hs5_1 t) (ms5_2 t) (hs5_2 t) sc5 hsc5 (iblk5 V c 0 t) (iblk5 V c 1 t) (accAt5 V c (t.val - 1) (Nat.lt_of_le_of_lt (Nat.sub_le _ _) t.isLt))
      (fun h' => h.1 ((first5_iff t).mp h')) ((last5_iff t).mpr h.2)
  else accAt5 V c t.val t.isLt

/-! ## The pipeline's proof data -/

/-- The invariant before point `j` (after point `j - 1`): the accumulator at what the point before left — at
    anything before the first point —, and the scoped buffers of the other kernels untouched. -/
def Φ5 (c : Dev nD) (j : Fin (cfg5.N + 1)) : sProp 𝕄 :=
  iprop((∃ s : Vec F S2048x64 .f32, ⌜∀ (n : ℕ) (hn : n < cfg5.N), j.val = n + 1 → s = accAt5 V c n hn⌝ ∗ owns (c : Thread nD τ) sc5 fullShare s)
    ∗ Pipeline.scopedRestBut (Ix := Unit) (Name := ℕ) (U := UR sig nD τ) (Lvl := ℕ) (Val := Elt F) spec5 c [cc5_scratch0])

/-- The proof data on core `c`: the arrays as the region finds them; after the body at point `t` each input's
    buffer at its block and the output tile's at what a last point writes; the invariant above; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => outAt5 V c t
  Φ j := Φ5 V c j
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = outAt5 V c t := by dsimp only [dat5]

/-- Each input's current staging buffer holds its block at every point: both are fetched at every point. -/
theorem before5_0 (c : Dev nD) (t : Fin cfg5.N) (d) : (dat5 V c).before 0 t d = iblk5 V c 0 t := by
  unfold Dat.before; rw [if_pos (fetch5_0 t)]; unfold Dat.fetched Dat.blockOf iblk5; rw [A_eq5]; try rfl
theorem before5_1 (c : Dev nD) (t : Fin cfg5.N) (d) : (dat5 V c).before 1 t d = iblk5 V c 1 t := by
  unfold Dat.before; rw [if_pos (fetch5_1 t)]; unfold Dat.fetched Dat.blockOf iblk5; rw [A_eq5]; try rfl

end Cert.KernelIdeal.Hand

end
-- ==== Proof.KI.R6Body.lean ====
/-
  Region 6 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first6 (i : grid6.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last6 (i : grid6.Coords) : Prop := k6_cond2 i = 1#1

/-- Points are numbered row by row, eight to a row: the first condition holds at the multiples of 8, -/
theorem first6_iff : ∀ t : Fin cfg6.N, first6 (grid6.coords t) ↔ t.val % 8 = 0 :=
  (by decide +kernel : ∀ t : Fin grid6.N, first6 (grid6.coords t) ↔ t.val % 8 = 0)
/-- and the second at the points one short of a multiple of 8. -/
theorem last6_iff : ∀ t : Fin cfg6.N, last6 (grid6.coords t) ↔ t.val % 8 = 7 :=
  (by decide +kernel : ∀ t : Fin grid6.N, last6 (grid6.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst6 (c : Dev nD) (i : grid6.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first6 i) (hc1 : ¬ last6 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc6__matvec_kernel i arg2 harg2 arg3 harg3 arg4 harg4 arg5 harg5) K } := by
  refine ⟨?_, fun y E K => ?run⟩
  case run =>
    simp only [cc6__matvec_kernel_eq_skeleton]; unfold cc6__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid6 (c : Dev nD) (i : grid6.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first6 i) (hc1 : ¬ last6 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc6__matvec_kernel i arg2 harg2 arg3 harg3 arg4 harg4 arg5 harg5) K } := by
  refine ⟨?_, fun y E K => ?run⟩
  case run =>
    simp only [cc6__matvec_kernel_eq_skeleton]; unfold cc6__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast6 (c : Dev nD) (i : grid6.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first6 i) (hc1 : last6 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc6__matvec_kernel i arg2 harg2 arg3 harg3 arg4 harg4 arg5 harg5) K } := by
  refine ⟨⟨?_, ?_⟩, fun E K => ?run⟩
  case run =>
    simp only [cc6__matvec_kernel_eq_skeleton]; unfold cc6__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R6Dat.lean ====
/-
  Region 6: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R6Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms6_0 (t : Fin cfg6.N) : Memref sig .tc .vmem S2048x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x64 .f32 := win6_2.stage (cfg6.slots t 2)
abbrev hs6_2 (t : Fin cfg6.N) : (ms6_2 t).IsWhole := hstage6_2 ((cfg6.slots t 2).cast nbuf6_2)
/-- The accumulator's scratch buffer, whole. -/
abbrev sc6 : Memref sig .tc .vmem S2048x64 .f32 := Memref.whole cc6_scratch0
abbrev hsc6 : (sc6).IsWhole := Memref.isWhole_whole _
/-- The view through which a 2048 × 64 buffer's contents are stated (any whole buffer of the shape serves). -/
abbrev VS6 : View sig .tc .vmem S2048x64 .f32 := (sc6).view

/-! ## What each case leaves: the pieces cover the buffer, so the contents are the pieces read back -/

section Cases

variable (c : Dev nD) (i : grid6.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst6 (hc0 : first6 i) (hc1 : ¬ last6 i) (y : S2048x64.Idx) :
    ∃ pc ∈ (runFirst6 c i arg2 harg2 arg3 harg3 arg4 harg4 arg5 harg5 hc0 hc1 x0 x1).1, y ∈ pc.1.set :=
  View.cover_of_tiledL (runFirst6 c i arg2 harg2 arg3 harg3 arg4 harg4 arg5 harg5 hc0 hc1 x0 x1).1 S2048x64.size (by sl_kernel_rfl) y
/-- The accumulator after a first point. -/
def accFirst6 (hc0 : first6 i) (hc1 : ¬ last6 i) : Vec F S2048x64 .f32 :=
  VS6.read (Elt F) (VS6.writes (Elt F) VS6.junk (runFirst6 c i arg2 harg2 arg3 harg3 arg4 harg4 arg5 harg5 hc0 hc1 x0 x1).1)

theorem coverMid6 (hc0 : ¬ first6 i) (hc1 : ¬ last6 i) (y : S2048x64.Idx) :
    ∃ pc ∈ (runMid6 c i arg2 harg2 arg3 harg3 arg4 harg4 arg5 harg5 hc0 hc1 x0 x1 s).1, y ∈ pc.1.set :=
  View.cover_of_tiledL (runMid6 c i arg2 harg2 arg3 harg3 arg4 harg4 arg5 harg5 hc0 hc1 x0 x1 s).1 S2048x64.size (by sl_kernel_rfl) y
/-- The accumulator after a middle point that found it at `s`. -/
def accMid6 (hc0 : ¬ first6 i) (hc1 : ¬ last6 i) : Vec F S2048x64 .f32 :=
  VS6.read (Elt F) (VS6.writes (Elt F) VS6.junk (runMid6 c i arg2 harg2 arg3 harg3 arg4 harg4 arg5 harg5 hc0 hc1 x0 x1 s).1)

theorem coverLastOut6 (hc0 : ¬ first6 i) (hc1 : last6 i) (y : S2048x64.Idx) :
    ∃ pc ∈ (runLast6 c i arg2 harg2 arg3 harg3 arg4 harg4 arg5 harg5 hc0 hc1 x0 x1 s).1.1, y ∈ pc.1.set :=
  View.cover_of_tiledL (runLast6 c i arg2 harg2 arg3 harg3 arg4 harg4 arg5 harg5 hc0 hc1 x0 x1 s).1.1 S2048x64.size (by sl_kernel_rfl) y
theorem coverLastAcc6 (hc0 : ¬ first6 i) (hc1 : last6 i) (y : S2048x64.Idx) :
    ∃ pc ∈ (runLast6 c i arg2 harg2 arg3 harg3 arg4 harg4 arg5 harg5 hc0 hc1 x0 x1 s).1.2, y ∈ pc.1.set :=
  View.cover_of_tiledL (runLast6 c i arg2 harg2 arg3 harg3 arg4 harg4 arg5 harg5 hc0 hc1 x0 x1 s).1.2 S2048x64.size (by sl_kernel_rfl) y
/-- The output tile after a last point that found the accumulator at `s`, -/
def outLast6 (hc0 : ¬ first6 i) (hc1 : last6 i) : Vec F S2048x64 .f32 :=
  VS6.read (Elt F) (VS6.writes (Elt F) VS6.junk (runLast6 c i arg2 harg2 arg3 harg3 arg4 harg4 arg5 harg5 hc0 hc1 x0 x1 s).1.1)
/-- and the accumulator. -/
def accLast6 (hc0 : ¬ first6 i) (hc1 : last6 i) : Vec F S2048x64 .f32 :=
  VS6.read (Elt F) (VS6.writes (Elt F) VS6.junk (runLast6 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem not_last_of_first6 {n : ℕ} (h0 : n % 8 = 0) : ¬ n % 8 = 7 := by omega

/-- THE ACCUMULATION: the accumulator after the body at position `n`, by the case the point is in — a first point
    of a row starts afresh, the others continue from what the point before left. -/
def accAt6 (c : Dev nD) : (n : ℕ) → n < cfg6.N → Vec F S2048x64 .f32
  | 0, hn => accFirst6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) sc6 hsc6 (iblk6 V c 0 ⟨0, hn⟩) (iblk6 V c 1 ⟨0, hn⟩)
      ((first6_iff ⟨0, hn⟩).mpr (Nat.zero_mod _)) (fun h => not_last_of_first6 (Nat.zero_mod 8) ((last6_iff ⟨0, hn⟩).mp h))
  | n + 1, hn =>
    if h0 : (n + 1) % 8 = 0 then
      accFirst6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) sc6 hsc6 (iblk6 V c 0 ⟨n + 1, hn⟩) (iblk6 V c 1 ⟨n + 1, hn⟩)
        ((first6_iff ⟨n + 1, hn⟩).mpr h0) (fun h => not_last_of_first6 h0 ((last6_iff ⟨n + 1, hn⟩).mp h))
    else if h1 : (n + 1) % 8 = 7 then
      accLast6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) sc6 hsc6 (iblk6 V c 0 ⟨n + 1, hn⟩) (iblk6 V c 1 ⟨n + 1, hn⟩) (accAt6 c n (Nat.lt_of_succ_lt hn))
        (fun h => h0 ((first6_iff ⟨n + 1, hn⟩).mp h)) ((last6_iff ⟨n + 1, hn⟩).mpr h1)
    else
      accMid6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) sc6 hsc6 (iblk6 V c 0 ⟨n + 1, hn⟩) (iblk6 V c 1 ⟨n + 1, hn⟩) (accAt6 c n (Nat.lt_of_succ_lt hn))
        (fun h => h0 ((first6_iff ⟨n + 1, hn⟩).mp h)) (fun h => h1 ((last6_iff ⟨n + 1, hn⟩).mp h))

theorem accAt6_first (c : Dev nD) (t : Fin cfg6.N) (h0 : t.val % 8 = 0) :
    accAt6 V c t.val t.isLt = accFirst6 c (grid6.coords t) (ms6_0 t) (hs6_0 t) (ms6_1 t) (hs6_1 t) (ms6_2 t) (hs6_2 t) sc6 hsc6 (iblk6 V c 0 t) (iblk6 V c 1 t)
      ((first6_iff t).mpr h0) (fun h => not_last_of_first6 h0 ((last6_iff t).mp h)) := by
  obtain ⟨n, hn⟩ := t
  cases n with
  | zero => exact rfl
  | succ n => exact (dif_pos h0).trans rfl

theorem accAt6_last (c : Dev nD) (t : Fin cfg6.N) (h0 : ¬ t.val % 8 = 0) (h1 : t.val % 8 = 7) :
    accAt6 V c t.val t.isLt = accLast6 c (grid6.coords t) (ms6_0 t) (hs6_0 t) (ms6_1 t) (hs6_1 t) (ms6_2 t) (hs6_2 t) sc6 hsc6 (iblk6 V c 0 t) (iblk6 V c 1 t) (accAt6 V c (t.val - 1) (Nat.lt_of_le_of_lt (Nat.sub_le _ _) t.isLt))
      (fun h => h0 ((first6_iff t).mp h)) ((last6_iff t).mpr h1) := by
  obtain ⟨n, hn⟩ := t
  cases n with
  | zero => exact absurd (Nat.zero_mod _) h0
  | succ n => exact (dif_neg h0).trans ((dif_pos h1).trans rfl)

theorem accAt6_mid (c : Dev nD) (t : Fin cfg6.N) (h0 : ¬ t.val % 8 = 0) (h1 : ¬ t.val % 8 = 7) :
    accAt6 V c t.val t.isLt = accMid6 c (grid6.coords t) (ms6_0 t) (hs6_0 t) (ms6_1 t) (hs6_1 t) (ms6_2 t) (hs6_2 t) sc6 hsc6 (iblk6 V c 0 t) (iblk6 V c 1 t) (accAt6 V c (t.val - 1) (Nat.lt_of_le_of_lt (Nat.sub_le _ _) t.isLt))
      (fun h => h0 ((first6_iff t).mp h)) (fun h => h1 ((last6_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt6 (c : Dev nD) (t : Fin cfg6.N) : Vec F S2048x64 .f32 :=
  if h : ¬ t.val % 8 = 0 ∧ t.val % 8 = 7 then
    outLast6 c (grid6.coords t) (ms6_0 t) (hs6_0 t) (ms6_1 t) (hs6_1 t) (ms6_2 t) (hs6_2 t) sc6 hsc6 (iblk6 V c 0 t) (iblk6 V c 1 t) (accAt6 V c (t.val - 1) (Nat.lt_of_le_of_lt (Nat.sub_le _ _) t.isLt))
      (fun h' => h.1 ((first6_iff t).mp h')) ((last6_iff t).mpr h.2)
  else accAt6 V c t.val t.isLt

/-! ## The pipeline's proof data -/

/-- The invariant before point `j` (after point `j - 1`): the accumulator at what the point before left — at
    anything before the first point —, and the scoped buffers of the other kernels untouched. -/
def Φ6 (c : Dev nD) (j : Fin (cfg6.N + 1)) : sProp 𝕄 :=
  iprop((∃ s : Vec F S2048x64 .f32, ⌜∀ (n : ℕ) (hn : n < cfg6.N), j.val = n + 1 → s = accAt6 V c n hn⌝ ∗ owns (c : Thread nD τ) sc6 fullShare s)
    ∗ Pipeline.scopedRestBut (Ix := Unit) (Name := ℕ) (U := UR sig nD τ) (Lvl := ℕ) (Val := Elt F) spec6 c [cc6_scratch0])

/-- The proof data on core `c`: the arrays as the region finds them; after the body at point `t` each input's
    buffer at its block and the output tile's at what a last point writes; the invariant above; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => outAt6 V c t
  Φ j := Φ6 V c j
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = outAt6 V c t := by dsimp only [dat6]

/-- Each input's current staging buffer holds its block at every point: both are fetched at every point. -/
theorem before6_0 (c : Dev nD) (t : Fin cfg6.N) (d) : (dat6 V c).before 0 t d = iblk6 V c 0 t := by
  unfold Dat.before; rw [if_pos (fetch6_0 t)]; unfold Dat.fetched Dat.blockOf iblk6; rw [A_eq6]; try rfl
theorem before6_1 (c : Dev nD) (t : Fin cfg6.N) (d) : (dat6 V c).before 1 t d = iblk6 V c 1 t := by
  unfold Dat.before; rw [if_pos (fetch6_1 t)]; unfold Dat.fetched Dat.blockOf iblk6; rw [A_eq6]; try rfl

end Cert.KernelIdeal.Hand

end
-- ==== Proof.KI.R7Body.lean ====
/-
  Region 7 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first7 (i : grid7.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last7 (i : grid7.Coords) : Prop := k7_cond2 i = 1#1

/-- Points are numbered row by row, eight to a row: the first condition holds at the multiples of 8, -/
theorem first7_iff : ∀ t : Fin cfg7.N, first7 (grid7.coords t) ↔ t.val % 8 = 0 :=
  (by decide +kernel : ∀ t : Fin grid7.N, first7 (grid7.coords t) ↔ t.val % 8 = 0)
/-- and the second at the points one short of a multiple of 8. -/
theorem last7_iff : ∀ t : Fin cfg7.N, last7 (grid7.coords t) ↔ t.val % 8 = 7 :=
  (by decide +kernel : ∀ t : Fin grid7.N, last7 (grid7.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst7 (c : Dev nD) (i : grid7.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first7 i) (hc1 : ¬ last7 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc7__matvec_kernel i arg2 harg2 arg3 harg3 arg4 harg4 arg5 harg5) K } := by
  refine ⟨?_, fun y E K => ?run⟩
  case run =>
    simp only [cc7__matvec_kernel_eq_skeleton]; unfold cc7__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid7 (c : Dev nD) (i : grid7.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first7 i) (hc1 : ¬ last7 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc7__matvec_kernel i arg2 harg2 arg3 harg3 arg4 harg4 arg5 harg5) K } := by
  refine ⟨?_, fun y E K => ?run⟩
  case run =>
    simp only [cc7__matvec_kernel_eq_skeleton]; unfold cc7__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast7 (c : Dev nD) (i : grid7.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first7 i) (hc1 : last7 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc7__matvec_kernel i arg2 harg2 arg3 harg3 arg4 harg4 arg5 harg5) K } := by
  refine ⟨⟨?_, ?_⟩, fun E K => ?run⟩
  case run =>
    simp only [cc7__matvec_kernel_eq_skeleton]; unfold cc7__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R7Dat.lean ====
/-
  Region 7: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R7Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms7_0 (t : Fin cfg7.N) : Memref sig .tc .vmem S2048x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x64 .f32 := win7_2.stage (cfg7.slots t 2)
abbrev hs7_2 (t : Fin cfg7.N) : (ms7_2 t).IsWhole := hstage7_2 ((cfg7.slots t 2).cast nbuf7_2)
/-- The accumulator's scratch buffer, whole. -/
abbrev sc7 : Memref sig .tc .vmem S2048x64 .f32 := Memref.whole cc7_scratch0
abbrev hsc7 : (sc7).IsWhole := Memref.isWhole_whole _
/-- The view through which a 2048 × 64 buffer's contents are stated (any whole buffer of the shape serves). -/
abbrev VS7 : View sig .tc .vmem S2048x64 .f32 := (sc7).view

/-! ## What each case leaves: the pieces cover the buffer, so the contents are the pieces read back -/

section Cases

variable (c : Dev nD) (i : grid7.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst7 (hc0 : first7 i) (hc1 : ¬ last7 i) (y : S2048x64.Idx) :
    ∃ pc ∈ (runFirst7 c i arg2 harg2 arg3 harg3 arg4 harg4 arg5 harg5 hc0 hc1 x0 x1).1, y ∈ pc.1.set :=
  View.cover_of_tiledL (runFirst7 c i arg2 harg2 arg3 harg3 arg4 harg4 arg5 harg5 hc0 hc1 x0 x1).1 S2048x64.size (by sl_kernel_rfl) y
/-- The accumulator after a first point. -/
def accFirst7 (hc0 : first7 i) (hc1 : ¬ last7 i) : Vec F S2048x64 .f32 :=
  VS7.read (Elt F) (VS7.writes (Elt F) VS7.junk (runFirst7 c i arg2 harg2 arg3 harg3 arg4 harg4 arg5 harg5 hc0 hc1 x0 x1).1)

theorem coverMid7 (hc0 : ¬ first7 i) (hc1 : ¬ last7 i) (y : S2048x64.Idx) :
    ∃ pc ∈ (runMid7 c i arg2 harg2 arg3 harg3 arg4 harg4 arg5 harg5 hc0 hc1 x0 x1 s).1, y ∈ pc.1.set :=
  View.cover_of_tiledL (runMid7 c i arg2 harg2 arg3 harg3 arg4 harg4 arg5 harg5 hc0 hc1 x0 x1 s).1 S2048x64.size (by sl_kernel_rfl) y
/-- The accumulator after a middle point that found it at `s`. -/
def accMid7 (hc0 : ¬ first7 i) (hc1 : ¬ last7 i) : Vec F S2048x64 .f32 :=
  VS7.read (Elt F) (VS7.writes (Elt F) VS7.junk (runMid7 c i arg2 harg2 arg3 harg3 arg4 harg4 arg5 harg5 hc0 hc1 x0 x1 s).1)

theorem coverLastOut7 (hc0 : ¬ first7 i) (hc1 : last7 i) (y : S2048x64.Idx) :
    ∃ pc ∈ (runLast7 c i arg2 harg2 arg3 harg3 arg4 harg4 arg5 harg5 hc0 hc1 x0 x1 s).1.1, y ∈ pc.1.set :=
  View.cover_of_tiledL (runLast7 c i arg2 harg2 arg3 harg3 arg4 harg4 arg5 harg5 hc0 hc1 x0 x1 s).1.1 S2048x64.size (by sl_kernel_rfl) y
theorem coverLastAcc7 (hc0 : ¬ first7 i) (hc1 : last7 i) (y : S2048x64.Idx) :
    ∃ pc ∈ (runLast7 c i arg2 harg2 arg3 harg3 arg4 harg4 arg5 harg5 hc0 hc1 x0 x1 s).1.2, y ∈ pc.1.set :=
  View.cover_of_tiledL (runLast7 c i arg2 harg2 arg3 harg3 arg4 harg4 arg5 harg5 hc0 hc1 x0 x1 s).1.2 S2048x64.size (by sl_kernel_rfl) y
/-- The output tile after a last point that found the accumulator at `s`, -/
def outLast7 (hc0 : ¬ first7 i) (hc1 : last7 i) : Vec F S2048x64 .f32 :=
  VS7.read (Elt F) (VS7.writes (Elt F) VS7.junk (runLast7 c i arg2 harg2 arg3 harg3 arg4 harg4 arg5 harg5 hc0 hc1 x0 x1 s).1.1)
/-- and the accumulator. -/
def accLast7 (hc0 : ¬ first7 i) (hc1 : last7 i) : Vec F S2048x64 .f32 :=
  VS7.read (Elt F) (VS7.writes (Elt F) VS7.junk (runLast7 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem not_last_of_first7 {n : ℕ} (h0 : n % 8 = 0) : ¬ n % 8 = 7 := by omega

/-- THE ACCUMULATION: the accumulator after the body at position `n`, by the case the point is in — a first point
    of a row starts afresh, the others continue from what the point before left. -/
def accAt7 (c : Dev nD) : (n : ℕ) → n < cfg7.N → Vec F S2048x64 .f32
  | 0, hn => accFirst7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) sc7 hsc7 (iblk7 V c 0 ⟨0, hn⟩) (iblk7 V c 1 ⟨0, hn⟩)
      ((first7_iff ⟨0, hn⟩).mpr (Nat.zero_mod _)) (fun h => not_last_of_first7 (Nat.zero_mod 8) ((last7_iff ⟨0, hn⟩).mp h))
  | n + 1, hn =>
    if h0 : (n + 1) % 8 = 0 then
      accFirst7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) sc7 hsc7 (iblk7 V c 0 ⟨n + 1, hn⟩) (iblk7 V c 1 ⟨n + 1, hn⟩)
        ((first7_iff ⟨n + 1, hn⟩).mpr h0) (fun h => not_last_of_first7 h0 ((last7_iff ⟨n + 1, hn⟩).mp h))
    else if h1 : (n + 1) % 8 = 7 then
      accLast7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) sc7 hsc7 (iblk7 V c 0 ⟨n + 1, hn⟩) (iblk7 V c 1 ⟨n + 1, hn⟩) (accAt7 c n (Nat.lt_of_succ_lt hn))
        (fun h => h0 ((first7_iff ⟨n + 1, hn⟩).mp h)) ((last7_iff ⟨n + 1, hn⟩).mpr h1)
    else
      accMid7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) sc7 hsc7 (iblk7 V c 0 ⟨n + 1, hn⟩) (iblk7 V c 1 ⟨n + 1, hn⟩) (accAt7 c n (Nat.lt_of_succ_lt hn))
        (fun h => h0 ((first7_iff ⟨n + 1, hn⟩).mp h)) (fun h => h1 ((last7_iff ⟨n + 1, hn⟩).mp h))

theorem accAt7_first (c : Dev nD) (t : Fin cfg7.N) (h0 : t.val % 8 = 0) :
    accAt7 V c t.val t.isLt = accFirst7 c (grid7.coords t) (ms7_0 t) (hs7_0 t) (ms7_1 t) (hs7_1 t) (ms7_2 t) (hs7_2 t) sc7 hsc7 (iblk7 V c 0 t) (iblk7 V c 1 t)
      ((first7_iff t).mpr h0) (fun h => not_last_of_first7 h0 ((last7_iff t).mp h)) := by
  obtain ⟨n, hn⟩ := t
  cases n with
  | zero => exact rfl
  | succ n => exact (dif_pos h0).trans rfl

theorem accAt7_last (c : Dev nD) (t : Fin cfg7.N) (h0 : ¬ t.val % 8 = 0) (h1 : t.val % 8 = 7) :
    accAt7 V c t.val t.isLt = accLast7 c (grid7.coords t) (ms7_0 t) (hs7_0 t) (ms7_1 t) (hs7_1 t) (ms7_2 t) (hs7_2 t) sc7 hsc7 (iblk7 V c 0 t) (iblk7 V c 1 t) (accAt7 V c (t.val - 1) (Nat.lt_of_le_of_lt (Nat.sub_le _ _) t.isLt))
      (fun h => h0 ((first7_iff t).mp h)) ((last7_iff t).mpr h1) := by
  obtain ⟨n, hn⟩ := t
  cases n with
  | zero => exact absurd (Nat.zero_mod _) h0
  | succ n => exact (dif_neg h0).trans ((dif_pos h1).trans rfl)

theorem accAt7_mid (c : Dev nD) (t : Fin cfg7.N) (h0 : ¬ t.val % 8 = 0) (h1 : ¬ t.val % 8 = 7) :
    accAt7 V c t.val t.isLt = accMid7 c (grid7.coords t) (ms7_0 t) (hs7_0 t) (ms7_1 t) (hs7_1 t) (ms7_2 t) (hs7_2 t) sc7 hsc7 (iblk7 V c 0 t) (iblk7 V c 1 t) (accAt7 V c (t.val - 1) (Nat.lt_of_le_of_lt (Nat.sub_le _ _) t.isLt))
      (fun h => h0 ((first7_iff t).mp h)) (fun h => h1 ((last7_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt7 (c : Dev nD) (t : Fin cfg7.N) : Vec F S2048x64 .f32 :=
  if h : ¬ t.val % 8 = 0 ∧ t.val % 8 = 7 then
    outLast7 c (grid7.coords t) (ms7_0 t) (hs7_0 t) (ms7_1 t) (hs7_1 t) (ms7_2 t) (hs7_2 t) sc7 hsc7 (iblk7 V c 0 t) (iblk7 V c 1 t) (accAt7 V c (t.val - 1) (Nat.lt_of_le_of_lt (Nat.sub_le _ _) t.isLt))
      (fun h' => h.1 ((first7_iff t).mp h')) ((last7_iff t).mpr h.2)
  else accAt7 V c t.val t.isLt

/-! ## The pipeline's proof data -/

/-- The invariant before point `j` (after point `j - 1`): the accumulator at what the point before left — at
    anything before the first point —, and the scoped buffers of the other kernels untouched. -/
def Φ7 (c : Dev nD) (j : Fin (cfg7.N + 1)) : sProp 𝕄 :=
  iprop((∃ s : Vec F S2048x64 .f32, ⌜∀ (n : ℕ) (hn : n < cfg7.N), j.val = n + 1 → s = accAt7 V c n hn⌝ ∗ owns (c : Thread nD τ) sc7 fullShare s)
    ∗ Pipeline.scopedRestBut (Ix := Unit) (Name := ℕ) (U := UR sig nD τ) (Lvl := ℕ) (Val := Elt F) spec7 c [cc7_scratch0])

/-- The proof data on core `c`: the arrays as the region finds them; after the body at point `t` each input's
    buffer at its block and the output tile's at what a last point writes; the invariant above; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outAt7 V c t
  Φ j := Φ7 V c j
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outAt7 V c t := by dsimp only [dat7]

/-- Each input's current staging buffer holds its block at every point: both are fetched at every point. -/
theorem before7_0 (c : Dev nD) (t : Fin cfg7.N) (d) : (dat7 V c).before 0 t d = iblk7 V c 0 t := by
  unfold Dat.before; rw [if_pos (fetch7_0 t)]; unfold Dat.fetched Dat.blockOf iblk7; rw [A_eq7]; try rfl
theorem before7_1 (c : Dev nD) (t : Fin cfg7.N) (d) : (dat7 V c).before 1 t d = iblk7 V c 1 t := by
  unfold Dat.before; rw [if_pos (fetch7_1 t)]; unfold Dat.fetched Dat.blockOf iblk7; rw [A_eq7]; try rfl

end Cert.KernelIdeal.Hand

end
-- ==== Proof.KI.R8Body.lean ====
/-
  Region 8 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first8 (i : grid8.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last8 (i : grid8.Coords) : Prop := k8_cond2 i = 1#1

/-- Points are numbered row by row, eight to a row: the first condition holds at the multiples of 8, -/
theorem first8_iff : ∀ t : Fin cfg8.N, first8 (grid8.coords t) ↔ t.val % 8 = 0 :=
  (by decide +kernel : ∀ t : Fin grid8.N, first8 (grid8.coords t) ↔ t.val % 8 = 0)
/-- and the second at the points one short of a multiple of 8. -/
theorem last8_iff : ∀ t : Fin cfg8.N, last8 (grid8.coords t) ↔ t.val % 8 = 7 :=
  (by decide +kernel : ∀ t : Fin grid8.N, last8 (grid8.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst8 (c : Dev nD) (i : grid8.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first8 i) (hc1 : ¬ last8 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc8__matvec_kernel i arg2 harg2 arg3 harg3 arg4 harg4 arg5 harg5) K } := by
  refine ⟨?_, fun y E K => ?run⟩
  case run =>
    simp only [cc8__matvec_kernel_eq_skeleton]; unfold cc8__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid8 (c : Dev nD) (i : grid8.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first8 i) (hc1 : ¬ last8 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc8__matvec_kernel i arg2 harg2 arg3 harg3 arg4 harg4 arg5 harg5) K } := by
  refine ⟨?_, fun y E K => ?run⟩
  case run =>
    simp only [cc8__matvec_kernel_eq_skeleton]; unfold cc8__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast8 (c : Dev nD) (i : grid8.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first8 i) (hc1 : last8 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc8__matvec_kernel i arg2 harg2 arg3 harg3 arg4 harg4 arg5 harg5) K } := by
  refine ⟨⟨?_, ?_⟩, fun E K => ?run⟩
  case run =>
    simp only [cc8__matvec_kernel_eq_skeleton]; unfold cc8__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R8Dat.lean ====
/-
  Region 8: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R8Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms8_0 (t : Fin cfg8.N) : Memref sig .tc .vmem S2048x1024 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
/-- The accumulator's scratch buffer, whole. -/
abbrev sc8 : Memref sig .tc .vmem S2048x64 .f32 := Memref.whole cc8_scratch0
abbrev hsc8 : (sc8).IsWhole := Memref.isWhole_whole _
/-- The view through which a 2048 × 64 buffer's contents are stated (any whole buffer of the shape serves). -/
abbrev VS8 : View sig .tc .vmem S2048x64 .f32 := (sc8).view

/-! ## What each case leaves: the pieces cover the buffer, so the contents are the pieces read back -/

section Cases

variable (c : Dev nD) (i : grid8.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst8 (hc0 : first8 i) (hc1 : ¬ last8 i) (y : S2048x64.Idx) :
    ∃ pc ∈ (runFirst8 c i arg2 harg2 arg3 harg3 arg4 harg4 arg5 harg5 hc0 hc1 x0 x1).1, y ∈ pc.1.set :=
  View.cover_of_tiledL (runFirst8 c i arg2 harg2 arg3 harg3 arg4 harg4 arg5 harg5 hc0 hc1 x0 x1).1 S2048x64.size (by sl_kernel_rfl) y
/-- The accumulator after a first point. -/
def accFirst8 (hc0 : first8 i) (hc1 : ¬ last8 i) : Vec F S2048x64 .f32 :=
  VS8.read (Elt F) (VS8.writes (Elt F) VS8.junk (runFirst8 c i arg2 harg2 arg3 harg3 arg4 harg4 arg5 harg5 hc0 hc1 x0 x1).1)

theorem coverMid8 (hc0 : ¬ first8 i) (hc1 : ¬ last8 i) (y : S2048x64.Idx) :
    ∃ pc ∈ (runMid8 c i arg2 harg2 arg3 harg3 arg4 harg4 arg5 harg5 hc0 hc1 x0 x1 s).1, y ∈ pc.1.set :=
  View.cover_of_tiledL (runMid8 c i arg2 harg2 arg3 harg3 arg4 harg4 arg5 harg5 hc0 hc1 x0 x1 s).1 S2048x64.size (by sl_kernel_rfl) y
/-- The accumulator after a middle point that found it at `s`. -/
def accMid8 (hc0 : ¬ first8 i) (hc1 : ¬ last8 i) : Vec F S2048x64 .f32 :=
  VS8.read (Elt F) (VS8.writes (Elt F) VS8.junk (runMid8 c i arg2 harg2 arg3 harg3 arg4 harg4 arg5 harg5 hc0 hc1 x0 x1 s).1)

theorem coverLastOut8 (hc0 : ¬ first8 i) (hc1 : last8 i) (y : S2048x64.Idx) :
    ∃ pc ∈ (runLast8 c i arg2 harg2 arg3 harg3 arg4 harg4 arg5 harg5 hc0 hc1 x0 x1 s).1.1, y ∈ pc.1.set :=
  View.cover_of_tiledL (runLast8 c i arg2 harg2 arg3 harg3 arg4 harg4 arg5 harg5 hc0 hc1 x0 x1 s).1.1 S2048x64.size (by sl_kernel_rfl) y
theorem coverLastAcc8 (hc0 : ¬ first8 i) (hc1 : last8 i) (y : S2048x64.Idx) :
    ∃ pc ∈ (runLast8 c i arg2 harg2 arg3 harg3 arg4 harg4 arg5 harg5 hc0 hc1 x0 x1 s).1.2, y ∈ pc.1.set :=
  View.cover_of_tiledL (runLast8 c i arg2 harg2 arg3 harg3 arg4 harg4 arg5 harg5 hc0 hc1 x0 x1 s).1.2 S2048x64.size (by sl_kernel_rfl) y
/-- The output tile after a last point that found the accumulator at `s`, -/
def outLast8 (hc0 : ¬ first8 i) (hc1 : last8 i) : Vec F S2048x64 .f32 :=
  VS8.read (Elt F) (VS8.writes (Elt F) VS8.junk (runLast8 c i arg2 harg2 arg3 harg3 arg4 harg4 arg5 harg5 hc0 hc1 x0 x1 s).1.1)
/-- and the accumulator. -/
def accLast8 (hc0 : ¬ first8 i) (hc1 : last8 i) : Vec F S2048x64 .f32 :=
  VS8.read (Elt F) (VS8.writes (Elt F) VS8.junk (runLast8 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem not_last_of_first8 {n : ℕ} (h0 : n % 8 = 0) : ¬ n % 8 = 7 := by omega

/-- THE ACCUMULATION: the accumulator after the body at position `n`, by the case the point is in — a first point
    of a row starts afresh, the others continue from what the point before left. -/
def accAt8 (c : Dev nD) : (n : ℕ) → n < cfg8.N → Vec F S2048x64 .f32
  | 0, hn => accFirst8 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) sc8 hsc8 (iblk8 V c 0 ⟨0, hn⟩) (iblk8 V c 1 ⟨0, hn⟩)
      ((first8_iff ⟨0, hn⟩).mpr (Nat.zero_mod _)) (fun h => not_last_of_first8 (Nat.zero_mod 8) ((last8_iff ⟨0, hn⟩).mp h))
  | n + 1, hn =>
    if h0 : (n + 1) % 8 = 0 then
      accFirst8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) sc8 hsc8 (iblk8 V c 0 ⟨n + 1, hn⟩) (iblk8 V c 1 ⟨n + 1, hn⟩)
        ((first8_iff ⟨n + 1, hn⟩).mpr h0) (fun h => not_last_of_first8 h0 ((last8_iff ⟨n + 1, hn⟩).mp h))
    else if h1 : (n + 1) % 8 = 7 then
      accLast8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) sc8 hsc8 (iblk8 V c 0 ⟨n + 1, hn⟩) (iblk8 V c 1 ⟨n + 1, hn⟩) (accAt8 c n (Nat.lt_of_succ_lt hn))
        (fun h => h0 ((first8_iff ⟨n + 1, hn⟩).mp h)) ((last8_iff ⟨n + 1, hn⟩).mpr h1)
    else
      accMid8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) sc8 hsc8 (iblk8 V c 0 ⟨n + 1, hn⟩) (iblk8 V c 1 ⟨n + 1, hn⟩) (accAt8 c n (Nat.lt_of_succ_lt hn))
        (fun h => h0 ((first8_iff ⟨n + 1, hn⟩).mp h)) (fun h => h1 ((last8_iff ⟨n + 1, hn⟩).mp h))

theorem accAt8_first (c : Dev nD) (t : Fin cfg8.N) (h0 : t.val % 8 = 0) :
    accAt8 V c t.val t.isLt = accFirst8 c (grid8.coords t) (ms8_0 t) (hs8_0 t) (ms8_1 t) (hs8_1 t) (ms8_2 t) (hs8_2 t) sc8 hsc8 (iblk8 V c 0 t) (iblk8 V c 1 t)
      ((first8_iff t).mpr h0) (fun h => not_last_of_first8 h0 ((last8_iff t).mp h)) := by
  obtain ⟨n, hn⟩ := t
  cases n with
  | zero => exact rfl
  | succ n => exact (dif_pos h0).trans rfl

theorem accAt8_last (c : Dev nD) (t : Fin cfg8.N) (h0 : ¬ t.val % 8 = 0) (h1 : t.val % 8 = 7) :
    accAt8 V c t.val t.isLt = accLast8 c (grid8.coords t) (ms8_0 t) (hs8_0 t) (ms8_1 t) (hs8_1 t) (ms8_2 t) (hs8_2 t) sc8 hsc8 (iblk8 V c 0 t) (iblk8 V c 1 t) (accAt8 V c (t.val - 1) (Nat.lt_of_le_of_lt (Nat.sub_le _ _) t.isLt))
      (fun h => h0 ((first8_iff t).mp h)) ((last8_iff t).mpr h1) := by
  obtain ⟨n, hn⟩ := t
  cases n with
  | zero => exact absurd (Nat.zero_mod _) h0
  | succ n => exact (dif_neg h0).trans ((dif_pos h1).trans rfl)

theorem accAt8_mid (c : Dev nD) (t : Fin cfg8.N) (h0 : ¬ t.val % 8 = 0) (h1 : ¬ t.val % 8 = 7) :
    accAt8 V c t.val t.isLt = accMid8 c (grid8.coords t) (ms8_0 t) (hs8_0 t) (ms8_1 t) (hs8_1 t) (ms8_2 t) (hs8_2 t) sc8 hsc8 (iblk8 V c 0 t) (iblk8 V c 1 t) (accAt8 V c (t.val - 1) (Nat.lt_of_le_of_lt (Nat.sub_le _ _) t.isLt))
      (fun h => h0 ((first8_iff t).mp h)) (fun h => h1 ((last8_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt8 (c : Dev nD) (t : Fin cfg8.N) : Vec F S2048x64 .f32 :=
  if h : ¬ t.val % 8 = 0 ∧ t.val % 8 = 7 then
    outLast8 c (grid8.coords t) (ms8_0 t) (hs8_0 t) (ms8_1 t) (hs8_1 t) (ms8_2 t) (hs8_2 t) sc8 hsc8 (iblk8 V c 0 t) (iblk8 V c 1 t) (accAt8 V c (t.val - 1) (Nat.lt_of_le_of_lt (Nat.sub_le _ _) t.isLt))
      (fun h' => h.1 ((first8_iff t).mp h')) ((last8_iff t).mpr h.2)
  else accAt8 V c t.val t.isLt

/-! ## The pipeline's proof data -/

/-- The invariant before point `j` (after point `j - 1`): the accumulator at what the point before left — at
    anything before the first point —, and the scoped buffers of the other kernels untouched. -/
def Φ8 (c : Dev nD) (j : Fin (cfg8.N + 1)) : sProp 𝕄 :=
  iprop((∃ s : Vec F S2048x64 .f32, ⌜∀ (n : ℕ) (hn : n < cfg8.N), j.val = n + 1 → s = accAt8 V c n hn⌝ ∗ owns (c : Thread nD τ) sc8 fullShare s)
    ∗ Pipeline.scopedRestBut (Ix := Unit) (Name := ℕ) (U := UR sig nD τ) (Lvl := ℕ) (Val := Elt F) spec8 c [cc8_scratch0])

/-- The proof data on core `c`: the arrays as the region finds them; after the body at point `t` each input's
    buffer at its block and the output tile's at what a last point writes; the invariant above; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => outAt8 V c t
  Φ j := Φ8 V c j
  q _ := fullShare
  owed _ := 0

theorem A_eq8 (c : Dev nD) (w : Fin cfg8.W) : (dat8 V c).A w = V c (Pipeline.arrRef spec8 w) := by dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = outAt8 V c t := by dsimp only [dat8]

/-- Each input's current staging buffer holds its block at every point: both are fetched at every point. -/
theorem before8_0 (c : Dev nD) (t : Fin cfg8.N) (d) : (dat8 V c).before 0 t d = iblk8 V c 0 t := by
  unfold Dat.before; rw [if_pos (fetch8_0 t)]; unfold Dat.fetched Dat.blockOf iblk8; rw [A_eq8]; try rfl
theorem before8_1 (c : Dev nD) (t : Fin cfg8.N) (d) : (dat8 V c).before 1 t d = iblk8 V c 1 t := by
  unfold Dat.before; rw [if_pos (fetch8_1 t)]; unfold Dat.fetched Dat.blockOf iblk8; rw [A_eq8]; try rfl

end Cert.KernelIdeal.Hand

end
-- ==== Proof.KI.R9Body.lean ====
/-
  Region 9 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first9 (i : grid9.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last9 (i : grid9.Coords) : Prop := k9_cond2 i = 1#1

/-- Points are numbered row by row, eight to a row: the first condition holds at the multiples of 8, -/
theorem first9_iff : ∀ t : Fin cfg9.N, first9 (grid9.coords t) ↔ t.val % 8 = 0 :=
  (by decide +kernel : ∀ t : Fin grid9.N, first9 (grid9.coords t) ↔ t.val % 8 = 0)
/-- and the second at the points one short of a multiple of 8. -/
theorem last9_iff : ∀ t : Fin cfg9.N, last9 (grid9.coords t) ↔ t.val % 8 = 7 :=
  (by decide +kernel : ∀ t : Fin grid9.N, last9 (grid9.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst9 (c : Dev nD) (i : grid9.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first9 i) (hc1 : ¬ last9 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc9__matvec_kernel i arg2 harg2 arg3 harg3 arg4 harg4 arg5 harg5) K } := by
  refine ⟨?_, fun y E K => ?run⟩
  case run =>
    simp only [cc9__matvec_kernel_eq_skeleton]; unfold cc9__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid9 (c : Dev nD) (i : grid9.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first9 i) (hc1 : ¬ last9 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc9__matvec_kernel i arg2 harg2 arg3 harg3 arg4 harg4 arg5 harg5) K } := by
  refine ⟨?_, fun y E K => ?run⟩
  case run =>
    simp only [cc9__matvec_kernel_eq_skeleton]; unfold cc9__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast9 (c : Dev nD) (i : grid9.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first9 i) (hc1 : last9 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc9__matvec_kernel i arg2 harg2 arg3 harg3 arg4 harg4 arg5 harg5) K } := by
  refine ⟨⟨?_, ?_⟩, fun E K => ?run⟩
  case run =>
    simp only [cc9__matvec_kernel_eq_skeleton]; unfold cc9__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R9Dat.lean ====
/-
  Region 9: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R9Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms9_0 (t : Fin cfg9.N) : Memref sig .tc .vmem S2048x1024 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x64 .f32 := win9_2.stage (cfg9.slots t 2)
abbrev hs9_2 (t : Fin cfg9.N) : (ms9_2 t).IsWhole := hstage9_2 ((cfg9.slots t 2).cast nbuf9_2)
/-- The accumulator's scratch buffer, whole. -/
abbrev sc9 : Memref sig .tc .vmem S2048x64 .f32 := Memref.whole cc9_scratch0
abbrev hsc9 : (sc9).IsWhole := Memref.isWhole_whole _
/-- The view through which a 2048 × 64 buffer's contents are stated (any whole buffer of the shape serves). -/
abbrev VS9 : View sig .tc .vmem S2048x64 .f32 := (sc9).view

/-! ## What each case leaves: the pieces cover the buffer, so the contents are the pieces read back -/

section Cases

variable (c : Dev nD) (i : grid9.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst9 (hc0 : first9 i) (hc1 : ¬ last9 i) (y : S2048x64.Idx) :
    ∃ pc ∈ (runFirst9 c i arg2 harg2 arg3 harg3 arg4 harg4 arg5 harg5 hc0 hc1 x0 x1).1, y ∈ pc.1.set :=
  View.cover_of_tiledL (runFirst9 c i arg2 harg2 arg3 harg3 arg4 harg4 arg5 harg5 hc0 hc1 x0 x1).1 S2048x64.size (by sl_kernel_rfl) y
/-- The accumulator after a first point. -/
def accFirst9 (hc0 : first9 i) (hc1 : ¬ last9 i) : Vec F S2048x64 .f32 :=
  VS9.read (Elt F) (VS9.writes (Elt F) VS9.junk (runFirst9 c i arg2 harg2 arg3 harg3 arg4 harg4 arg5 harg5 hc0 hc1 x0 x1).1)

theorem coverMid9 (hc0 : ¬ first9 i) (hc1 : ¬ last9 i) (y : S2048x64.Idx) :
    ∃ pc ∈ (runMid9 c i arg2 harg2 arg3 harg3 arg4 harg4 arg5 harg5 hc0 hc1 x0 x1 s).1, y ∈ pc.1.set :=
  View.cover_of_tiledL (runMid9 c i arg2 harg2 arg3 harg3 arg4 harg4 arg5 harg5 hc0 hc1 x0 x1 s).1 S2048x64.size (by sl_kernel_rfl) y
/-- The accumulator after a middle point that found it at `s`. -/
def accMid9 (hc0 : ¬ first9 i) (hc1 : ¬ last9 i) : Vec F S2048x64 .f32 :=
  VS9.read (Elt F) (VS9.writes (Elt F) VS9.junk (runMid9 c i arg2 harg2 arg3 harg3 arg4 harg4 arg5 harg5 hc0 hc1 x0 x1 s).1)

theorem coverLastOut9 (hc0 : ¬ first9 i) (hc1 : last9 i) (y : S2048x64.Idx) :
    ∃ pc ∈ (runLast9 c i arg2 harg2 arg3 harg3 arg4 harg4 arg5 harg5 hc0 hc1 x0 x1 s).1.1, y ∈ pc.1.set :=
  View.cover_of_tiledL (runLast9 c i arg2 harg2 arg3 harg3 arg4 harg4 arg5 harg5 hc0 hc1 x0 x1 s).1.1 S2048x64.size (by sl_kernel_rfl) y
theorem coverLastAcc9 (hc0 : ¬ first9 i) (hc1 : last9 i) (y : S2048x64.Idx) :
    ∃ pc ∈ (runLast9 c i arg2 harg2 arg3 harg3 arg4 harg4 arg5 harg5 hc0 hc1 x0 x1 s).1.2, y ∈ pc.1.set :=
  View.cover_of_tiledL (runLast9 c i arg2 harg2 arg3 harg3 arg4 harg4 arg5 harg5 hc0 hc1 x0 x1 s).1.2 S2048x64.size (by sl_kernel_rfl) y
/-- The output tile after a last point that found the accumulator at `s`, -/
def outLast9 (hc0 : ¬ first9 i) (hc1 : last9 i) : Vec F S2048x64 .f32 :=
  VS9.read (Elt F) (VS9.writes (Elt F) VS9.junk (runLast9 c i arg2 harg2 arg3 harg3 arg4 harg4 arg5 harg5 hc0 hc1 x0 x1 s).1.1)
/-- and the accumulator. -/
def accLast9 (hc0 : ¬ first9 i) (hc1 : last9 i) : Vec F S2048x64 .f32 :=
  VS9.read (Elt F) (VS9.writes (Elt F) VS9.junk (runLast9 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem not_last_of_first9 {n : ℕ} (h0 : n % 8 = 0) : ¬ n % 8 = 7 := by omega

/-- THE ACCUMULATION: the accumulator after the body at position `n`, by the case the point is in — a first point
    of a row starts afresh, the others continue from what the point before left. -/
def accAt9 (c : Dev nD) : (n : ℕ) → n < cfg9.N → Vec F S2048x64 .f32
  | 0, hn => accFirst9 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) sc9 hsc9 (iblk9 V c 0 ⟨0, hn⟩) (iblk9 V c 1 ⟨0, hn⟩)
      ((first9_iff ⟨0, hn⟩).mpr (Nat.zero_mod _)) (fun h => not_last_of_first9 (Nat.zero_mod 8) ((last9_iff ⟨0, hn⟩).mp h))
  | n + 1, hn =>
    if h0 : (n + 1) % 8 = 0 then
      accFirst9 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) sc9 hsc9 (iblk9 V c 0 ⟨n + 1, hn⟩) (iblk9 V c 1 ⟨n + 1, hn⟩)
        ((first9_iff ⟨n + 1, hn⟩).mpr h0) (fun h => not_last_of_first9 h0 ((last9_iff ⟨n + 1, hn⟩).mp h))
    else if h1 : (n + 1) % 8 = 7 then
      accLast9 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) sc9 hsc9 (iblk9 V c 0 ⟨n + 1, hn⟩) (iblk9 V c 1 ⟨n + 1, hn⟩) (accAt9 c n (Nat.lt_of_succ_lt hn))
        (fun h => h0 ((first9_iff ⟨n + 1, hn⟩).mp h)) ((last9_iff ⟨n + 1, hn⟩).mpr h1)
    else
      accMid9 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) sc9 hsc9 (iblk9 V c 0 ⟨n + 1, hn⟩) (iblk9 V c 1 ⟨n + 1, hn⟩) (accAt9 c n (Nat.lt_of_succ_lt hn))
        (fun h => h0 ((first9_iff ⟨n + 1, hn⟩).mp h)) (fun h => h1 ((last9_iff ⟨n + 1, hn⟩).mp h))

theorem accAt9_first (c : Dev nD) (t : Fin cfg9.N) (h0 : t.val % 8 = 0) :
    accAt9 V c t.val t.isLt = accFirst9 c (grid9.coords t) (ms9_0 t) (hs9_0 t) (ms9_1 t) (hs9_1 t) (ms9_2 t) (hs9_2 t) sc9 hsc9 (iblk9 V c 0 t) (iblk9 V c 1 t)
      ((first9_iff t).mpr h0) (fun h => not_last_of_first9 h0 ((last9_iff t).mp h)) := by
  obtain ⟨n, hn⟩ := t
  cases n with
  | zero => exact rfl
  | succ n => exact (dif_pos h0).trans rfl

theorem accAt9_last (c : Dev nD) (t : Fin cfg9.N) (h0 : ¬ t.val % 8 = 0) (h1 : t.val % 8 = 7) :
    accAt9 V c t.val t.isLt = accLast9 c (grid9.coords t) (ms9_0 t) (hs9_0 t) (ms9_1 t) (hs9_1 t) (ms9_2 t) (hs9_2 t) sc9 hsc9 (iblk9 V c 0 t) (iblk9 V c 1 t) (accAt9 V c (t.val - 1) (Nat.lt_of_le_of_lt (Nat.sub_le _ _) t.isLt))
      (fun h => h0 ((first9_iff t).mp h)) ((last9_iff t).mpr h1) := by
  obtain ⟨n, hn⟩ := t
  cases n with
  | zero => exact absurd (Nat.zero_mod _) h0
  | succ n => exact (dif_neg h0).trans ((dif_pos h1).trans rfl)

theorem accAt9_mid (c : Dev nD) (t : Fin cfg9.N) (h0 : ¬ t.val % 8 = 0) (h1 : ¬ t.val % 8 = 7) :
    accAt9 V c t.val t.isLt = accMid9 c (grid9.coords t) (ms9_0 t) (hs9_0 t) (ms9_1 t) (hs9_1 t) (ms9_2 t) (hs9_2 t) sc9 hsc9 (iblk9 V c 0 t) (iblk9 V c 1 t) (accAt9 V c (t.val - 1) (Nat.lt_of_le_of_lt (Nat.sub_le _ _) t.isLt))
      (fun h => h0 ((first9_iff t).mp h)) (fun h => h1 ((last9_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt9 (c : Dev nD) (t : Fin cfg9.N) : Vec F S2048x64 .f32 :=
  if h : ¬ t.val % 8 = 0 ∧ t.val % 8 = 7 then
    outLast9 c (grid9.coords t) (ms9_0 t) (hs9_0 t) (ms9_1 t) (hs9_1 t) (ms9_2 t) (hs9_2 t) sc9 hsc9 (iblk9 V c 0 t) (iblk9 V c 1 t) (accAt9 V c (t.val - 1) (Nat.lt_of_le_of_lt (Nat.sub_le _ _) t.isLt))
      (fun h' => h.1 ((first9_iff t).mp h')) ((last9_iff t).mpr h.2)
  else accAt9 V c t.val t.isLt

/-! ## The pipeline's proof data -/

/-- The invariant before point `j` (after point `j - 1`): the accumulator at what the point before left — at
    anything before the first point —, and the scoped buffers of the other kernels untouched. -/
def Φ9 (c : Dev nD) (j : Fin (cfg9.N + 1)) : sProp 𝕄 :=
  iprop((∃ s : Vec F S2048x64 .f32, ⌜∀ (n : ℕ) (hn : n < cfg9.N), j.val = n + 1 → s = accAt9 V c n hn⌝ ∗ owns (c : Thread nD τ) sc9 fullShare s)
    ∗ Pipeline.scopedRestBut (Ix := Unit) (Name := ℕ) (U := UR sig nD τ) (Lvl := ℕ) (Val := Elt F) spec9 c [cc9_scratch0])

/-- The proof data on core `c`: the arrays as the region finds them; after the body at point `t` each input's
    buffer at its block and the output tile's at what a last point writes; the invariant above; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => outAt9 V c t
  Φ j := Φ9 V c j
  q _ := fullShare
  owed _ := 0

theorem A_eq9 (c : Dev nD) (w : Fin cfg9.W) : (dat9 V c).A w = V c (Pipeline.arrRef spec9 w) := by dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = outAt9 V c t := by dsimp only [dat9]

/-- Each input's current staging buffer holds its block at every point: both are fetched at every point. -/
theorem before9_0 (c : Dev nD) (t : Fin cfg9.N) (d) : (dat9 V c).before 0 t d = iblk9 V c 0 t := by
  unfold Dat.before; rw [if_pos (fetch9_0 t)]; unfold Dat.fetched Dat.blockOf iblk9; rw [A_eq9]; try rfl
theorem before9_1 (c : Dev nD) (t : Fin cfg9.N) (d) : (dat9 V c).before 1 t d = iblk9 V c 1 t := by
  unfold Dat.before; rw [if_pos (fetch9_1 t)]; unfold Dat.fetched Dat.blockOf iblk9; rw [A_eq9]; try rfl

end Cert.KernelIdeal.Hand

end
-- ==== Proof.KI.R10Body.lean ====
/-
  Region 10 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first10 (i : grid10.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last10 (i : grid10.Coords) : Prop := k10_cond2 i = 1#1

/-- Points are numbered row by row, eight to a row: the first condition holds at the multiples of 8, -/
theorem first10_iff : ∀ t : Fin cfg10.N, first10 (grid10.coords t) ↔ t.val % 8 = 0 :=
  (by decide +kernel : ∀ t : Fin grid10.N, first10 (grid10.coords t) ↔ t.val % 8 = 0)
/-- and the second at the points one short of a multiple of 8. -/
theorem last10_iff : ∀ t : Fin cfg10.N, last10 (grid10.coords t) ↔ t.val % 8 = 7 :=
  (by decide +kernel : ∀ t : Fin grid10.N, last10 (grid10.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst10 (c : Dev nD) (i : grid10.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first10 i) (hc1 : ¬ last10 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc10__matvec_kernel i arg2 harg2 arg3 harg3 arg4 harg4 arg5 harg5) K } := by
  refine ⟨?_, fun y E K => ?run⟩
  case run =>
    simp only [cc10__matvec_kernel_eq_skeleton]; unfold cc10__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid10 (c : Dev nD) (i : grid10.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first10 i) (hc1 : ¬ last10 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc10__matvec_kernel i arg2 harg2 arg3 harg3 arg4 harg4 arg5 harg5) K } := by
  refine ⟨?_, fun y E K => ?run⟩
  case run =>
    simp only [cc10__matvec_kernel_eq_skeleton]; unfold cc10__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast10 (c : Dev nD) (i : grid10.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first10 i) (hc1 : last10 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc10__matvec_kernel i arg2 harg2 arg3 harg3 arg4 harg4 arg5 harg5) K } := by
  refine ⟨⟨?_, ?_⟩, fun E K => ?run⟩
  case run =>
    simp only [cc10__matvec_kernel_eq_skeleton]; unfold cc10__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R10Dat.lean ====
/-
  Region 10: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R10Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms10_0 (t : Fin cfg10.N) : Memref sig .tc .vmem S2048x1024 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2048x64 .f32 := win10_2.stage (cfg10.slots t 2)
abbrev hs10_2 (t : Fin cfg10.N) : (ms10_2 t).IsWhole := hstage10_2 ((cfg10.slots t 2).cast nbuf10_2)
/-- The accumulator's scratch buffer, whole. -/
abbrev sc10 : Memref sig .tc .vmem S2048x64 .f32 := Memref.whole cc10_scratch0
abbrev hsc10 : (sc10).IsWhole := Memref.isWhole_whole _
/-- The view through which a 2048 × 64 buffer's contents are stated (any whole buffer of the shape serves). -/
abbrev VS10 : View sig .tc .vmem S2048x64 .f32 := (sc10).view

/-! ## What each case leaves: the pieces cover the buffer, so the contents are the pieces read back -/

section Cases

variable (c : Dev nD) (i : grid10.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst10 (hc0 : first10 i) (hc1 : ¬ last10 i) (y : S2048x64.Idx) :
    ∃ pc ∈ (runFirst10 c i arg2 harg2 arg3 harg3 arg4 harg4 arg5 harg5 hc0 hc1 x0 x1).1, y ∈ pc.1.set :=
  View.cover_of_tiledL (runFirst10 c i arg2 harg2 arg3 harg3 arg4 harg4 arg5 harg5 hc0 hc1 x0 x1).1 S2048x64.size (by sl_kernel_rfl) y
/-- The accumulator after a first point. -/
def accFirst10 (hc0 : first10 i) (hc1 : ¬ last10 i) : Vec F S2048x64 .f32 :=
  VS10.read (Elt F) (VS10.writes (Elt F) VS10.junk (runFirst10 c i arg2 harg2 arg3 harg3 arg4 harg4 arg5 harg5 hc0 hc1 x0 x1).1)

theorem coverMid10 (hc0 : ¬ first10 i) (hc1 : ¬ last10 i) (y : S2048x64.Idx) :
    ∃ pc ∈ (runMid10 c i arg2 harg2 arg3 harg3 arg4 harg4 arg5 harg5 hc0 hc1 x0 x1 s).1, y ∈ pc.1.set :=
  View.cover_of_tiledL (runMid10 c i arg2 harg2 arg3 harg3 arg4 harg4 arg5 harg5 hc0 hc1 x0 x1 s).1 S2048x64.size (by sl_kernel_rfl) y
/-- The accumulator after a middle point that found it at `s`. -/
def accMid10 (hc0 : ¬ first10 i) (hc1 : ¬ last10 i) : Vec F S2048x64 .f32 :=
  VS10.read (Elt F) (VS10.writes (Elt F) VS10.junk (runMid10 c i arg2 harg2 arg3 harg3 arg4 harg4 arg5 harg5 hc0 hc1 x0 x1 s).1)

theorem coverLastOut10 (hc0 : ¬ first10 i) (hc1 : last10 i) (y : S2048x64.Idx) :
    ∃ pc ∈ (runLast10 c i arg2 harg2 arg3 harg3 arg4 harg4 arg5 harg5 hc0 hc1 x0 x1 s).1.1, y ∈ pc.1.set :=
  View.cover_of_tiledL (runLast10 c i arg2 harg2 arg3 harg3 arg4 harg4 arg5 harg5 hc0 hc1 x0 x1 s).1.1 S2048x64.size (by sl_kernel_rfl) y
theorem coverLastAcc10 (hc0 : ¬ first10 i) (hc1 : last10 i) (y : S2048x64.Idx) :
    ∃ pc ∈ (runLast10 c i arg2 harg2 arg3 harg3 arg4 harg4 arg5 harg5 hc0 hc1 x0 x1 s).1.2, y ∈ pc.1.set :=
  View.cover_of_tiledL (runLast10 c i arg2 harg2 arg3 harg3 arg4 harg4 arg5 harg5 hc0 hc1 x0 x1 s).1.2 S2048x64.size (by sl_kernel_rfl) y
/-- The output tile after a last point that found the accumulator at `s`, -/
def outLast10 (hc0 : ¬ first10 i) (hc1 : last10 i) : Vec F S2048x64 .f32 :=
  VS10.read (Elt F) (VS10.writes (Elt F) VS10.junk (runLast10 c i arg2 harg2 arg3 harg3 arg4 harg4 arg5 harg5 hc0 hc1 x0 x1 s).1.1)
/-- and the accumulator. -/
def accLast10 (hc0 : ¬ first10 i) (hc1 : last10 i) : Vec F S2048x64 .f32 :=
  VS10.read (Elt F) (VS10.writes (Elt F) VS10.junk (runLast10 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem not_last_of_first10 {n : ℕ} (h0 : n % 8 = 0) : ¬ n % 8 = 7 := by omega

/-- THE ACCUMULATION: the accumulator after the body at position `n`, by the case the point is in — a first point
    of a row starts afresh, the others continue from what the point before left. -/
def accAt10 (c : Dev nD) : (n : ℕ) → n < cfg10.N → Vec F S2048x64 .f32
  | 0, hn => accFirst10 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) sc10 hsc10 (iblk10 V c 0 ⟨0, hn⟩) (iblk10 V c 1 ⟨0, hn⟩)
      ((first10_iff ⟨0, hn⟩).mpr (Nat.zero_mod _)) (fun h => not_last_of_first10 (Nat.zero_mod 8) ((last10_iff ⟨0, hn⟩).mp h))
  | n + 1, hn =>
    if h0 : (n + 1) % 8 = 0 then
      accFirst10 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) sc10 hsc10 (iblk10 V c 0 ⟨n + 1, hn⟩) (iblk10 V c 1 ⟨n + 1, hn⟩)
        ((first10_iff ⟨n + 1, hn⟩).mpr h0) (fun h => not_last_of_first10 h0 ((last10_iff ⟨n + 1, hn⟩).mp h))
    else if h1 : (n + 1) % 8 = 7 then
      accLast10 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) sc10 hsc10 (iblk10 V c 0 ⟨n + 1, hn⟩) (iblk10 V c 1 ⟨n + 1, hn⟩) (accAt10 c n (Nat.lt_of_succ_lt hn))
        (fun h => h0 ((first10_iff ⟨n + 1, hn⟩).mp h)) ((last10_iff ⟨n + 1, hn⟩).mpr h1)
    else
      accMid10 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) sc10 hsc10 (iblk10 V c 0 ⟨n + 1, hn⟩) (iblk10 V c 1 ⟨n + 1, hn⟩) (accAt10 c n (Nat.lt_of_succ_lt hn))
        (fun h => h0 ((first10_iff ⟨n + 1, hn⟩).mp h)) (fun h => h1 ((last10_iff ⟨n + 1, hn⟩).mp h))

theorem accAt10_first (c : Dev nD) (t : Fin cfg10.N) (h0 : t.val % 8 = 0) :
    accAt10 V c t.val t.isLt = accFirst10 c (grid10.coords t) (ms10_0 t) (hs10_0 t) (ms10_1 t) (hs10_1 t) (ms10_2 t) (hs10_2 t) sc10 hsc10 (iblk10 V c 0 t) (iblk10 V c 1 t)
      ((first10_iff t).mpr h0) (fun h => not_last_of_first10 h0 ((last10_iff t).mp h)) := by
  obtain ⟨n, hn⟩ := t
  cases n with
  | zero => exact rfl
  | succ n => exact (dif_pos h0).trans rfl

theorem accAt10_last (c : Dev nD) (t : Fin cfg10.N) (h0 : ¬ t.val % 8 = 0) (h1 : t.val % 8 = 7) :
    accAt10 V c t.val t.isLt = accLast10 c (grid10.coords t) (ms10_0 t) (hs10_0 t) (ms10_1 t) (hs10_1 t) (ms10_2 t) (hs10_2 t) sc10 hsc10 (iblk10 V c 0 t) (iblk10 V c 1 t) (accAt10 V c (t.val - 1) (Nat.lt_of_le_of_lt (Nat.sub_le _ _) t.isLt))
      (fun h => h0 ((first10_iff t).mp h)) ((last10_iff t).mpr h1) := by
  obtain ⟨n, hn⟩ := t
  cases n with
  | zero => exact absurd (Nat.zero_mod _) h0
  | succ n => exact (dif_neg h0).trans ((dif_pos h1).trans rfl)

theorem accAt10_mid (c : Dev nD) (t : Fin cfg10.N) (h0 : ¬ t.val % 8 = 0) (h1 : ¬ t.val % 8 = 7) :
    accAt10 V c t.val t.isLt = accMid10 c (grid10.coords t) (ms10_0 t) (hs10_0 t) (ms10_1 t) (hs10_1 t) (ms10_2 t) (hs10_2 t) sc10 hsc10 (iblk10 V c 0 t) (iblk10 V c 1 t) (accAt10 V c (t.val - 1) (Nat.lt_of_le_of_lt (Nat.sub_le _ _) t.isLt))
      (fun h => h0 ((first10_iff t).mp h)) (fun h => h1 ((last10_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt10 (c : Dev nD) (t : Fin cfg10.N) : Vec F S2048x64 .f32 :=
  if h : ¬ t.val % 8 = 0 ∧ t.val % 8 = 7 then
    outLast10 c (grid10.coords t) (ms10_0 t) (hs10_0 t) (ms10_1 t) (hs10_1 t) (ms10_2 t) (hs10_2 t) sc10 hsc10 (iblk10 V c 0 t) (iblk10 V c 1 t) (accAt10 V c (t.val - 1) (Nat.lt_of_le_of_lt (Nat.sub_le _ _) t.isLt))
      (fun h' => h.1 ((first10_iff t).mp h')) ((last10_iff t).mpr h.2)
  else accAt10 V c t.val t.isLt

/-! ## The pipeline's proof data -/

/-- The invariant before point `j` (after point `j - 1`): the accumulator at what the point before left — at
    anything before the first point —, and the scoped buffers of the other kernels untouched. -/
def Φ10 (c : Dev nD) (j : Fin (cfg10.N + 1)) : sProp 𝕄 :=
  iprop((∃ s : Vec F S2048x64 .f32, ⌜∀ (n : ℕ) (hn : n < cfg10.N), j.val = n + 1 → s = accAt10 V c n hn⌝ ∗ owns (c : Thread nD τ) sc10 fullShare s)
    ∗ Pipeline.scopedRestBut (Ix := Unit) (Name := ℕ) (U := UR sig nD τ) (Lvl := ℕ) (Val := Elt F) spec10 c [cc10_scratch0])

/-- The proof data on core `c`: the arrays as the region finds them; after the body at point `t` each input's
    buffer at its block and the output tile's at what a last point writes; the invariant above; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => outAt10 V c t
  Φ j := Φ10 V c j
  q _ := fullShare
  owed _ := 0

theorem A_eq10 (c : Dev nD) (w : Fin cfg10.W) : (dat10 V c).A w = V c (Pipeline.arrRef spec10 w) := by dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = outAt10 V c t := by dsimp only [dat10]

/-- Each input's current staging buffer holds its block at every point: both are fetched at every point. -/
theorem before10_0 (c : Dev nD) (t : Fin cfg10.N) (d) : (dat10 V c).before 0 t d = iblk10 V c 0 t := by
  unfold Dat.before; rw [if_pos (fetch10_0 t)]; unfold Dat.fetched Dat.blockOf iblk10; rw [A_eq10]; try rfl
theorem before10_1 (c : Dev nD) (t : Fin cfg10.N) (d) : (dat10 V c).before 1 t d = iblk10 V c 1 t := by
  unfold Dat.before; rw [if_pos (fetch10_1 t)]; unfold Dat.fetched Dat.blockOf iblk10; rw [A_eq10]; try rfl

end Cert.KernelIdeal.Hand

end
-- ==== Proof.KI.R11Body.lean ====
/-
  Region 11 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.KernelIdeal.Launch
import proofs.«158997_j77232101916990_1_alg».proof.Proof.Gen.KernelIdeal.Skeleton
import proofs.«158997_j77232101916990_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first11 (i : grid11.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last11 (i : grid11.Coords) : Prop := k11_cond2 i = 1#1

/-- Points are numbered row by row, eight to a row: the first condition holds at the multiples of 8, -/
theorem first11_iff : ∀ t : Fin cfg11.N, first11 (grid11.coords t) ↔ t.val % 8 = 0 :=
  (by decide +kernel : ∀ t : Fin grid11.N, first11 (grid11.coords t) ↔ t.val % 8 = 0)
/-- and the second at the points one short of a multiple of 8. -/
theorem last11_iff : ∀ t : Fin cfg11.N, last11 (grid11.coords t) ↔ t.val % 8 = 7 :=
  (by decide +kernel : ∀ t : Fin grid11.N, last11 (grid11.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst11 (c : Dev nD) (i : grid11.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first11 i) (hc1 : ¬ last11 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc11__matvec_kernel i arg2 harg2 arg3 harg3 arg4 harg4 arg5 harg5) K } := by
  refine ⟨?_, fun y E K => ?run⟩
  case run =>
    simp only [cc11__matvec_kernel_eq_skeleton]; unfold cc11__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid11 (c : Dev nD) (i : grid11.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first11 i) (hc1 : ¬ last11 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc11__matvec_kernel i arg2 harg2 arg3 harg3 arg4 harg4 arg5 harg5) K } := by
  refine ⟨?_, fun y E K => ?run⟩
  case run =>
    simp only [cc11__matvec_kernel_eq_skeleton]; unfold cc11__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast11 (c : Dev nD) (i : grid11.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first11 i) (hc1 : last11 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc11__matvec_kernel i arg2 harg2 arg3 harg3 arg4 harg4 arg5 harg5) K } := by
  refine ⟨⟨?_, ?_⟩, fun E K => ?run⟩
  case run =>
    simp only [cc11__matvec_kernel_eq_skeleton]; unfold cc11__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Hand

end
-- ==== Proof.KI.R11Dat.lean ====
/-
  Region 11: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KI.R11Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms11_0 (t : Fin cfg11.N) : Memref sig .tc .vmem S2048x1024 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x64 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S2048x64 .f32 := win11_2.stage (cfg11.slots t 2)
abbrev hs11_2 (t : Fin cfg11.N) : (ms11_2 t).IsWhole := hstage11_2 ((cfg11.slots t 2).cast nbuf11_2)
/-- The accumulator's scratch buffer, whole. -/
abbrev sc11 : Memref sig .tc .vmem S2048x64 .f32 := Memref.whole cc11_scratch0
abbrev hsc11 : (sc11).IsWhole := Memref.isWhole_whole _
/-- The view through which a 2048 × 64 buffer's contents are stated (any whole buffer of the shape serves). -/
abbrev VS11 : View sig .tc .vmem S2048x64 .f32 := (sc11).view

/-! ## What each case leaves: the pieces cover the buffer, so the contents are the pieces read back -/

section Cases

variable (c : Dev nD) (i : grid11.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst11 (hc0 : first11 i) (hc1 : ¬ last11 i) (y : S2048x64.Idx) :
    ∃ pc ∈ (runFirst11 c i arg2 harg2 arg3 harg3 arg4 harg4 arg5 harg5 hc0 hc1 x0 x1).1, y ∈ pc.1.set :=
  View.cover_of_tiledL (runFirst11 c i arg2 harg2 arg3 harg3 arg4 harg4 arg5 harg5 hc0 hc1 x0 x1).1 S2048x64.size (by sl_kernel_rfl) y
/-- The accumulator after a first point. -/
def accFirst11 (hc0 : first11 i) (hc1 : ¬ last11 i) : Vec F S2048x64 .f32 :=
  VS11.read (Elt F) (VS11.writes (Elt F) VS11.junk (runFirst11 c i arg2 harg2 arg3 harg3 arg4 harg4 arg5 harg5 hc0 hc1 x0 x1).1)

theorem coverMid11 (hc0 : ¬ first11 i) (hc1 : ¬ last11 i) (y : S2048x64.Idx) :
    ∃ pc ∈ (runMid11 c i arg2 harg2 arg3 harg3 arg4 harg4 arg5 harg5 hc0 hc1 x0 x1 s).1, y ∈ pc.1.set :=
  View.cover_of_tiledL (runMid11 c i arg2 harg2 arg3 harg3 arg4 harg4 arg5 harg5 hc0 hc1 x0 x1 s).1 S2048x64.size (by sl_kernel_rfl) y
/-- The accumulator after a middle point that found it at `s`. -/
def accMid11 (hc0 : ¬ first11 i) (hc1 : ¬ last11 i) : Vec F S2048x64 .f32 :=
  VS11.read (Elt F) (VS11.writes (Elt F) VS11.junk (runMid11 c i arg2 harg2 arg3 harg3 arg4 harg4 arg5 harg5 hc0 hc1 x0 x1 s).1)

theorem coverLastOut11 (hc0 : ¬ first11 i) (hc1 : last11 i) (y : S2048x64.Idx) :
    ∃ pc ∈ (runLast11 c i arg2 harg2 arg3 harg3 arg4 harg4 arg5 harg5 hc0 hc1 x0 x1 s).1.1, y ∈ pc.1.set :=
  View.cover_of_tiledL (runLast11 c i arg2 harg2 arg3 harg3 arg4 harg4 arg5 harg5 hc0 hc1 x0 x1 s).1.1 S2048x64.size (by sl_kernel_rfl) y
theorem coverLastAcc11 (hc0 : ¬ first11 i) (hc1 : last11 i) (y : S2048x64.Idx) :
    ∃ pc ∈ (runLast11 c i arg2 harg2 arg3 harg3 arg4 harg4 arg5 harg5 hc0 hc1 x0 x1 s).1.2, y ∈ pc.1.set :=
  View.cover_of_tiledL (runLast11 c i arg2 harg2 arg3 harg3 arg4 harg4 arg5 harg5 hc0 hc1 x0 x1 s).1.2 S2048x64.size (by sl_kernel_rfl) y
/-- The output tile after a last point that found the accumulator at `s`, -/
def outLast11 (hc0 : ¬ first11 i) (hc1 : last11 i) : Vec F S2048x64 .f32 :=
  VS11.read (Elt F) (VS11.writes (Elt F) VS11.junk (runLast11 c i arg2 harg2 arg3 harg3 arg4 harg4 arg5 harg5 hc0 hc1 x0 x1 s).1.1)
/-- and the accumulator. -/
def accLast11 (hc0 : ¬ first11 i) (hc1 : last11 i) : Vec F S2048x64 .f32 :=
  VS11.read (Elt F) (VS11.writes (Elt F) VS11.junk (runLast11 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem not_last_of_first11 {n : ℕ} (h0 : n % 8 = 0) : ¬ n % 8 = 7 := by omega

/-- THE ACCUMULATION: the accumulator after the body at position `n`, by the case the point is in — a first point
    of a row starts afresh, the others continue from what the point before left. -/
def accAt11 (c : Dev nD) : (n : ℕ) → n < cfg11.N → Vec F S2048x64 .f32
  | 0, hn => accFirst11 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) sc11 hsc11 (iblk11 V c 0 ⟨0, hn⟩) (iblk11 V c 1 ⟨0, hn⟩)
      ((first11_iff ⟨0, hn⟩).mpr (Nat.zero_mod _)) (fun h => not_last_of_first11 (Nat.zero_mod 8) ((last11_iff ⟨0, hn⟩).mp h))
  | n + 1, hn =>
    if h0 : (n + 1) % 8 = 0 then
      accFirst11 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) sc11 hsc11 (iblk11 V c 0 ⟨n + 1, hn⟩) (iblk11 V c 1 ⟨n + 1, hn⟩)
        ((first11_iff ⟨n + 1, hn⟩).mpr h0) (fun h => not_last_of_first11 h0 ((last11_iff ⟨n + 1, hn⟩).mp h))
    else if h1 : (n + 1) % 8 = 7 then
      accLast11 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) sc11 hsc11 (iblk11 V c 0 ⟨n + 1, hn⟩) (iblk11 V c 1 ⟨n + 1, hn⟩) (accAt11 c n (Nat.lt_of_succ_lt hn))
        (fun h => h0 ((first11_iff ⟨n + 1, hn⟩).mp h)) ((last11_iff ⟨n + 1, hn⟩).mpr h1)
    else
      accMid11 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) sc11 hsc11 (iblk11 V c 0 ⟨n + 1, hn⟩) (iblk11 V c 1 ⟨n + 1, hn⟩) (accAt11 c n (Nat.lt_of_succ_lt hn))
        (fun h => h0 ((first11_iff ⟨n + 1, hn⟩).mp h)) (fun h => h1 ((last11_iff ⟨n + 1, hn⟩).mp h))

theorem accAt11_first (c : Dev nD) (t : Fin cfg11.N) (h0 : t.val % 8 = 0) :
    accAt11 V c t.val t.isLt = accFirst11 c (grid11.coords t) (ms11_0 t) (hs11_0 t) (ms11_1 t) (hs11_1 t) (ms11_2 t) (hs11_2 t) sc11 hsc11 (iblk11 V c 0 t) (iblk11 V c 1 t)
      ((first11_iff t).mpr h0) (fun h => not_last_of_first11 h0 ((last11_iff t).mp h)) := by
  obtain ⟨n, hn⟩ := t
  cases n with
  | zero => exact rfl
  | succ n => exact (dif_pos h0).trans rfl

theorem accAt11_last (c : Dev nD) (t : Fin cfg11.N) (h0 : ¬ t.val % 8 = 0) (h1 : t.val % 8 = 7) :
    accAt11 V c t.val t.isLt = accLast11 c (grid11.coords t) (ms11_0 t) (hs11_0 t) (ms11_1 t) (hs11_1 t) (ms11_2 t) (hs11_2 t) sc11 hsc11 (iblk11 V c 0 t) (iblk11 V c 1 t) (accAt11 V c (t.val - 1) (Nat.lt_of_le_of_lt (Nat.sub_le _ _) t.isLt))
      (fun h => h0 ((first11_iff t).mp h)) ((last11_iff t).mpr h1) := by
  obtain ⟨n, hn⟩ := t
  cases n with
  | zero => exact absurd (Nat.zero_mod _) h0
  | succ n => exact (dif_neg h0).trans ((dif_pos h1).trans rfl)

theorem accAt11_mid (c : Dev nD) (t : Fin cfg11.N) (h0 : ¬ t.val % 8 = 0) (h1 : ¬ t.val % 8 = 7) :
    accAt11 V c t.val t.isLt = accMid11 c (grid11.coords t) (ms11_0 t) (hs11_0 t) (ms11_1 t) (hs11_1 t) (ms11_2 t) (hs11_2 t) sc11 hsc11 (iblk11 V c 0 t) (iblk11 V c 1 t) (accAt11 V c (t.val - 1) (Nat.lt_of_le_of_lt (Nat.sub_le _ _) t.isLt))
      (fun h => h0 ((first11_iff t).mp h)) (fun h => h1 ((last11_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt11 (c : Dev nD) (t : Fin cfg11.N) : Vec F S2048x64 .f32 :=
  if h : ¬ t.val % 8 = 0 ∧ t.val % 8 = 7 then
    outLast11 c (grid11.coords t) (ms11_0 t) (hs11_0 t) (ms11_1 t) (hs11_1 t) (ms11_2 t) (hs11_2 t) sc11 hsc11 (iblk11 V c 0 t) (iblk11 V c 1 t) (accAt11 V c (t.val - 1) (Nat.lt_of_le_of_lt (Nat.sub_le _ _) t.isLt))
      (fun h' => h.1 ((first11_iff t).mp h')) ((last11_iff t).mpr h.2)
  else accAt11 V c t.val t.isLt

/-! ## The pipeline's proof data -/

/-- The invariant before point `j` (after point `j - 1`): the accumulator at what the point before left — at
    anything before the first point —, and the scoped buffers of the other kernels untouched. -/
def Φ11 (c : Dev nD) (j : Fin (cfg11.N + 1)) : sProp 𝕄 :=
  iprop((∃ s : Vec F S2048x64 .f32, ⌜∀ (n : ℕ) (hn : n < cfg11.N), j.val = n + 1 → s = accAt11 V c n hn⌝ ∗ owns (c : Thread nD τ) sc11 fullShare s)
    ∗ Pipeline.scopedRestBut (Ix := Unit) (Name := ℕ) (U := UR sig nD τ) (Lvl := ℕ) (Val := Elt F) spec11 c [cc11_scratch0])

/-- The proof data on core `c`: the arrays as the region finds them; after the body at point `t` each input's
    buffer at its block and the output tile's at what a last point writes; the invariant above; nothing owed. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => outAt11 V c t
  Φ j := Φ11 V c j
  q _ := fullShare
  owed _ := 0

theorem A_eq11 (c : Dev nD) (w : Fin cfg11.W) : (dat11 V c).A w = V c (Pipeline.arrRef spec11 w) := by dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = outAt11 V c t := by dsimp only [dat11]

/-- Each input's current staging buffer holds its block at every point: both are fetched at every point. -/
theorem before11_0 (c : Dev nD) (t : Fin cfg11.N) (d) : (dat11 V c).before 0 t d = iblk11 V c 0 t := by
  unfold Dat.before; rw [if_pos (fetch11_0 t)]; unfold Dat.fetched Dat.blockOf iblk11; rw [A_eq11]; try rfl
theorem before11_1 (c : Dev nD) (t : Fin cfg11.N) (d) : (dat11 V c).before 1 t d = iblk11 V c 1 t := by
  unfold Dat.before; rw [if_pos (fetch11_1 t)]; unfold Dat.fetched Dat.blockOf iblk11; rw [A_eq11]; try rfl

end Cert.KernelIdeal.Hand

end
-- ==== Proof.KI.Fold.lean ====
/-
  The contents of every TensorCore buffer at each boundary between the items of @main — host stretches and the twelve
  blocked products — as a fold from the launch memory: a host stretch rewrites the buffers its operations write, a
  region leaves its output array at what the pipeline wrote back (the tiles the last point of each row flushed) and
  every other buffer as it found it. The proof data of region r is region r's, at the contents the region is entered
  with.
-/
import proofs.«158997_j77232101916990_1_alg».proof.Proof.KI.R0Dat
import proofs.«158997_j77232101916990_1_alg».proof.Proof.KI.R1Dat
import proofs.«158997_j77232101916990_1_alg».proof.Proof.KI.R2Dat
import proofs.«158997_j77232101916990_1_alg».proof.Proof.KI.R3Dat
import proofs.«158997_j77232101916990_1_alg».proof.Proof.KI.R4Dat
import proofs.«158997_j77232101916990_1_alg».proof.Proof.KI.R5Dat
import proofs.«158997_j77232101916990_1_alg».proof.Proof.KI.R6Dat
import proofs.«158997_j77232101916990_1_alg».proof.Proof.KI.R7Dat
import proofs.«158997_j77232101916990_1_alg».proof.Proof.KI.R8Dat
import proofs.«158997_j77232101916990_1_alg».proof.Proof.KI.R9Dat
import proofs.«158997_j77232101916990_1_alg».proof.Proof.KI.R10Dat
import proofs.«158997_j77232101916990_1_alg».proof.Proof.KI.R11Dat
import Idealize.ShloMosaic.Lib.Pipeline.Regions
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After item 0 (a host stretch). -/
abbrev W1 : Dev nD → Valuation τ sig (Elt F) := fun c => StableHlo.after (main_part0_ops0 (F := F)) (W0 m ρ c)
/-- After item 1 (a host stretch). -/
abbrev W2 : Dev nD → Valuation τ sig (Elt F) := fun c => StableHlo.after (main_part1_ops0 (F := F)) (W1 m ρ c)
/-- After item 2 (a host stretch). -/
abbrev W3 : Dev nD → Valuation τ sig (Elt F) := fun c => StableHlo.after (main_part2_ops0 (F := F)) (W2 m ρ c)
/-- After item 3 (a host stretch). -/
abbrev W4 : Dev nD → Valuation τ sig (Elt F) := fun c => StableHlo.after (main_part3_ops0 (F := F)) (W3 m ρ c)
/-- After item 4 (a host stretch). -/
abbrev W5 : Dev nD → Valuation τ sig (Elt F) := fun c => StableHlo.after (main_part4_ops0 (F := F)) (W4 m ρ c)
/-- After item 5 (a host stretch). -/
abbrev W6 : Dev nD → Valuation τ sig (Elt F) := fun c => StableHlo.after (main_part5_ops0 (F := F)) (W5 m ρ c)
/-- After item 6 (a host stretch). -/
abbrev W7 : Dev nD → Valuation τ sig (Elt F) := fun c => StableHlo.after (main_part6_ops0 (F := F)) (W6 m ρ c)
/-- After item 7 (a host stretch). -/
abbrev W8 : Dev nD → Valuation τ sig (Elt F) := fun c => StableHlo.after (main_part7_ops0 (F := F)) (W7 m ρ c)
/-- After item 8 (a host stretch). -/
abbrev W9 : Dev nD → Valuation τ sig (Elt F) := fun c => StableHlo.after (main_part8_ops0 (F := F)) (W8 m ρ c)
/-- After item 9 (a host stretch). -/
abbrev W10 : Dev nD → Valuation τ sig (Elt F) := fun c => StableHlo.after (main_part9_ops0 (F := F)) (W9 m ρ c)
/-- After item 10 (a host stretch). -/
abbrev W11 : Dev nD → Valuation τ sig (Elt F) := fun c => StableHlo.after (main_part10_ops0 (F := F)) (W10 m ρ c)
/-- After item 11 (a host stretch). -/
abbrev W12 : Dev nD → Valuation τ sig (Elt F) := fun c => StableHlo.after (main_part11_ops0 (F := F)) (W11 m ρ c)
/-- After item 12 (a host stretch). -/
abbrev W13 : Dev nD → Valuation τ sig (Elt F) := fun c => StableHlo.after (main_part12_ops0 (F := F)) (W12 m ρ c)
/-- After item 13 (a host stretch). -/
abbrev W14 : Dev nD → Valuation τ sig (Elt F) := fun c => StableHlo.after (main_part12_ops1 (F := F)) (W13 m ρ c)
/-- After item 14 (a host stretch). -/
abbrev W15 : Dev nD → Valuation τ sig (Elt F) := fun c => StableHlo.after (main_part12_ops2 (F := F)) (W14 m ρ c)
/-- After item 15 (a host stretch). -/
abbrev W16 : Dev nD → Valuation τ sig (Elt F) := fun c => StableHlo.after (main_part12_ops3 (F := F)) (W15 m ρ c)
/-- After item 16 (a host stretch). -/
abbrev W17 : Dev nD → Valuation τ sig (Elt F) := fun c => StableHlo.after (main_part12_ops4 (F := F)) (W16 m ρ c)
/-- After item 17 (a host stretch). -/
abbrev W18 : Dev nD → Valuation τ sig (Elt F) := fun c => StableHlo.after (main_part13_ops0 (F := F)) (W17 m ρ c)
/-- After item 18 (a host stretch). -/
abbrev W19 : Dev nD → Valuation τ sig (Elt F) := fun c => StableHlo.after (main_part13_ops1 (F := F)) (W18 m ρ c)
/-- After item 19 (a host stretch). -/
abbrev W20 : Dev nD → Valuation τ sig (Elt F) := fun c => StableHlo.after (main_part13_ops2 (F := F)) (W19 m ρ c)
/-- After item 20 (a host stretch). -/
abbrev W21 : Dev nD → Valuation τ sig (Elt F) := fun c => StableHlo.after (main_part13_ops3 (F := F)) (W20 m ρ c)
/-- After item 21 (a host stretch). -/
abbrev W22 : Dev nD → Valuation τ sig (Elt F) := fun c => StableHlo.after (main_part13_ops4 (F := F)) (W21 m ρ c)
/-- The same read at the TensorCore's references: what region 0 is entered with. -/
abbrev V22 : (c : Dev nD) → (b : Ref sig .tc) → Buf (Elt F) ((c : Thread nD τ).loc b) := fun c b => W22 m ρ c b
/-- After item 22 (region 0): its arrays at what the pipeline leaves, every other buffer as entered. -/
def W23 (c : Dev nD) : Valuation τ sig (Elt F) :=
  Pipeline.withArrays spec0 c (W22 m ρ c) fun w => (dat0 (V22 m ρ) c).arrAt w cfg0.N
theorem W23_arr (c : Dev nD) (w : Fin cfg0.W) :
    W23 m ρ c (Proc.devRef .tc (Pipeline.arrRef spec0 w)) = (dat0 (V22 m ρ) c).arrAt w cfg0.N := by
  unfold W23; exact Pipeline.withArrays_arr spec0 launch0.win.arr_inj c _ _ w
theorem W23_of_ne (c : Dev nD) (b : Ref sig .tc) (hb : ∀ w, Pipeline.arrRef spec0 w ≠ b) :
    W23 m ρ c (Proc.devRef .tc b) = W22 m ρ c (Proc.devRef .tc b) := by
  unfold W23; exact Pipeline.withArrays_of_ne spec0 c _ _ b hb
abbrev V23 : (c : Dev nD) → (b : Ref sig .tc) → Buf (Elt F) ((c : Thread nD τ).loc b) := fun c b => W23 m ρ c b
theorem hF0 (c : Dev nD) (w : Fin cfg0.W) : (dat0 (V22 m ρ) c).arrAt w cfg0.N = V23 m ρ c (Pipeline.arrRef spec0 w) :=
  (W23_arr m ρ c w).symm
theorem hrest0 (c : Dev nD) : ∀ b, b ∉ Finset.univ.image (Pipeline.arrRef spec0) → V23 m ρ c b = V22 m ρ c b :=
  fun b hb => W23_of_ne m ρ c b fun w e => hb (Finset.mem_image.mpr ⟨w, Finset.mem_univ _, e⟩)
/-- After item 23 (a host stretch). -/
abbrev W24 : Dev nD → Valuation τ sig (Elt F) := fun c => StableHlo.after (main_part13_ops5 (F := F)) (W23 m ρ c)
/-- The same read at the TensorCore's references: what region 1 is entered with. -/
abbrev V24 : (c : Dev nD) → (b : Ref sig .tc) → Buf (Elt F) ((c : Thread nD τ).loc b) := fun c b => W24 m ρ c b
/-- After item 24 (region 1): its arrays at what the pipeline leaves, every other buffer as entered. -/
def W25 (c : Dev nD) : Valuation τ sig (Elt F) :=
  Pipeline.withArrays spec1 c (W24 m ρ c) fun w => (dat1 (V24 m ρ) c).arrAt w cfg1.N
theorem W25_arr (c : Dev nD) (w : Fin cfg1.W) :
    W25 m ρ c (Proc.devRef .tc (Pipeline.arrRef spec1 w)) = (dat1 (V24 m ρ) c).arrAt w cfg1.N := by
  unfold W25; exact Pipeline.withArrays_arr spec1 launch1.win.arr_inj c _ _ w
theorem W25_of_ne (c : Dev nD) (b : Ref sig .tc) (hb : ∀ w, Pipeline.arrRef spec1 w ≠ b) :
    W25 m ρ c (Proc.devRef .tc b) = W24 m ρ c (Proc.devRef .tc b) := by
  unfold W25; exact Pipeline.withArrays_of_ne spec1 c _ _ b hb
abbrev V25 : (c : Dev nD) → (b : Ref sig .tc) → Buf (Elt F) ((c : Thread nD τ).loc b) := fun c b => W25 m ρ c b
theorem hF1 (c : Dev nD) (w : Fin cfg1.W) : (dat1 (V24 m ρ) c).arrAt w cfg1.N = V25 m ρ c (Pipeline.arrRef spec1 w) :=
  (W25_arr m ρ c w).symm
theorem hrest1 (c : Dev nD) : ∀ b, b ∉ Finset.univ.image (Pipeline.arrRef spec1) → V25 m ρ c b = V24 m ρ c b :=
  fun b hb => W25_of_ne m ρ c b fun w e => hb (Finset.mem_image.mpr ⟨w, Finset.mem_univ _, e⟩)
/-- After item 25 (a host stretch). -/
abbrev W26 : Dev nD → Valuation τ sig (Elt F) := fun c => StableHlo.after (main_part13_ops6 (F := F)) (W25 m ρ c)
/-- The same read at the TensorCore's references: what region 2 is entered with. -/
abbrev V26 : (c : Dev nD) → (b : Ref sig .tc) → Buf (Elt F) ((c : Thread nD τ).loc b) := fun c b => W26 m ρ c b
/-- After item 26 (region 2): its arrays at what the pipeline leaves, every other buffer as entered. -/
def W27 (c : Dev nD) : Valuation τ sig (Elt F) :=
  Pipeline.withArrays spec2 c (W26 m ρ c) fun w => (dat2 (V26 m ρ) c).arrAt w cfg2.N
theorem W27_arr (c : Dev nD) (w : Fin cfg2.W) :
    W27 m ρ c (Proc.devRef .tc (Pipeline.arrRef spec2 w)) = (dat2 (V26 m ρ) c).arrAt w cfg2.N := by
  unfold W27; exact Pipeline.withArrays_arr spec2 launch2.win.arr_inj c _ _ w
theorem W27_of_ne (c : Dev nD) (b : Ref sig .tc) (hb : ∀ w, Pipeline.arrRef spec2 w ≠ b) :
    W27 m ρ c (Proc.devRef .tc b) = W26 m ρ c (Proc.devRef .tc b) := by
  unfold W27; exact Pipeline.withArrays_of_ne spec2 c _ _ b hb
abbrev V27 : (c : Dev nD) → (b : Ref sig .tc) → Buf (Elt F) ((c : Thread nD τ).loc b) := fun c b => W27 m ρ c b
theorem hF2 (c : Dev nD) (w : Fin cfg2.W) : (dat2 (V26 m ρ) c).arrAt w cfg2.N = V27 m ρ c (Pipeline.arrRef spec2 w) :=
  (W27_arr m ρ c w).symm
theorem hrest2 (c : Dev nD) : ∀ b, b ∉ Finset.univ.image (Pipeline.arrRef spec2) → V27 m ρ c b = V26 m ρ c b :=
  fun b hb => W27_of_ne m ρ c b fun w e => hb (Finset.mem_image.mpr ⟨w, Finset.mem_univ _, e⟩)
/-- After item 27 (region 3): its arrays at what the pipeline leaves, every other buffer as entered. -/
def W28 (c : Dev nD) : Valuation τ sig (Elt F) :=
  Pipeline.withArrays spec3 c (W27 m ρ c) fun w => (dat3 (V27 m ρ) c).arrAt w cfg3.N
theorem W28_arr (c : Dev nD) (w : Fin cfg3.W) :
    W28 m ρ c (Proc.devRef .tc (Pipeline.arrRef spec3 w)) = (dat3 (V27 m ρ) c).arrAt w cfg3.N := by
  unfold W28; exact Pipeline.withArrays_arr spec3 launch3.win.arr_inj c _ _ w
theorem W28_of_ne (c : Dev nD) (b : Ref sig .tc) (hb : ∀ w, Pipeline.arrRef spec3 w ≠ b) :
    W28 m ρ c (Proc.devRef .tc b) = W27 m ρ c (Proc.devRef .tc b) := by
  unfold W28; exact Pipeline.withArrays_of_ne spec3 c _ _ b hb
abbrev V28 : (c : Dev nD) → (b : Ref sig .tc) → Buf (Elt F) ((c : Thread nD τ).loc b) := fun c b => W28 m ρ c b
theorem hF3 (c : Dev nD) (w : Fin cfg3.W) : (dat3 (V27 m ρ) c).arrAt w cfg3.N = V28 m ρ c (Pipeline.arrRef spec3 w) :=
  (W28_arr m ρ c w).symm
theorem hrest3 (c : Dev nD) : ∀ b, b ∉ Finset.univ.image (Pipeline.arrRef spec3) → V28 m ρ c b = V27 m ρ c b :=
  fun b hb => W28_of_ne m ρ c b fun w e => hb (Finset.mem_image.mpr ⟨w, Finset.mem_univ _, e⟩)
/-- After item 28 (a host stretch). -/
abbrev W29 : Dev nD → Valuation τ sig (Elt F) := fun c => StableHlo.after (main_part13_ops7 (F := F)) (W28 m ρ c)
/-- After item 29 (a host stretch). -/
abbrev W30 : Dev nD → Valuation τ sig (Elt F) := fun c => StableHlo.after (main_part13_ops8 (F := F)) (W29 m ρ c)
/-- After item 30 (a host stretch). -/
abbrev W31 : Dev nD → Valuation τ sig (Elt F) := fun c => StableHlo.after (main_part13_ops9 (F := F)) (W30 m ρ c)
/-- After item 31 (a host stretch). -/
abbrev W32 : Dev nD → Valuation τ sig (Elt F) := fun c => StableHlo.after (main_part13_ops10 (F := F)) (W31 m ρ c)
/-- After item 32 (a host stretch). -/
abbrev W33 : Dev nD → Valuation τ sig (Elt F) := fun c => StableHlo.after (main_part13_ops11 (F := F)) (W32 m ρ c)
/-- After item 33 (a host stretch). -/
abbrev W34 : Dev nD → Valuation τ sig (Elt F) := fun c => StableHlo.after (main_part13_ops12 (F := F)) (W33 m ρ c)
/-- After item 34 (a host stretch). -/
abbrev W35 : Dev nD → Valuation τ sig (Elt F) := fun c => StableHlo.after (main_part13_ops13 (F := F)) (W34 m ρ c)
/-- After item 35 (a host stretch). -/
abbrev W36 : Dev nD → Valuation τ sig (Elt F) := fun c => StableHlo.after (main_part13_ops14 (F := F)) (W35 m ρ c)
/-- The same read at the TensorCore's references: what region 4 is entered with. -/
abbrev V36 : (c : Dev nD) → (b : Ref sig .tc) → Buf (Elt F) ((c : Thread nD τ).loc b) := fun c b => W36 m ρ c b
/-- After item 36 (region 4): its arrays at what the pipeline leaves, every other buffer as entered. -/
def W37 (c : Dev nD) : Valuation τ sig (Elt F) :=
  Pipeline.withArrays spec4 c (W36 m ρ c) fun w => (dat4 (V36 m ρ) c).arrAt w cfg4.N
theorem W37_arr (c : Dev nD) (w : Fin cfg4.W) :
    W37 m ρ c (Proc.devRef .tc (Pipeline.arrRef spec4 w)) = (dat4 (V36 m ρ) c).arrAt w cfg4.N := by
  unfold W37; exact Pipeline.withArrays_arr spec4 launch4.win.arr_inj c _ _ w
theorem W37_of_ne (c : Dev nD) (b : Ref sig .tc) (hb : ∀ w, Pipeline.arrRef spec4 w ≠ b) :
    W37 m ρ c (Proc.devRef .tc b) = W36 m ρ c (Proc.devRef .tc b) := by
  unfold W37; exact Pipeline.withArrays_of_ne spec4 c _ _ b hb
abbrev V37 : (c : Dev nD) → (b : Ref sig .tc) → Buf (Elt F) ((c : Thread nD τ).loc b) := fun c b => W37 m ρ c b
theorem hF4 (c : Dev nD) (w : Fin cfg4.W) : (dat4 (V36 m ρ) c).arrAt w cfg4.N = V37 m ρ c (Pipeline.arrRef spec4 w) :=
  (W37_arr m ρ c w).symm
theorem hrest4 (c : Dev nD) : ∀ b, b ∉ Finset.univ.image (Pipeline.arrRef spec4) → V37 m ρ c b = V36 m ρ c b :=
  fun b hb => W37_of_ne m ρ c b fun w e => hb (Finset.mem_image.mpr ⟨w, Finset.mem_univ _, e⟩)
/-- After item 37 (a host stretch). -/
abbrev W38 : Dev nD → Valuation τ sig (Elt F) := fun c => StableHlo.after (main_part13_ops15 (F := F)) (W37 m ρ c)
/-- The same read at the TensorCore's references: what region 5 is entered with. -/
abbrev V38 : (c : Dev nD) → (b : Ref sig .tc) → Buf (Elt F) ((c : Thread nD τ).loc b) := fun c b => W38 m ρ c b
/-- After item 38 (region 5): its arrays at what the pipeline leaves, every other buffer as entered. -/
def W39 (c : Dev nD) : Valuation τ sig (Elt F) :=
  Pipeline.withArrays spec5 c (W38 m ρ c) fun w => (dat5 (V38 m ρ) c).arrAt w cfg5.N
theorem W39_arr (c : Dev nD) (w : Fin cfg5.W) :
    W39 m ρ c (Proc.devRef .tc (Pipeline.arrRef spec5 w)) = (dat5 (V38 m ρ) c).arrAt w cfg5.N := by
  unfold W39; exact Pipeline.withArrays_arr spec5 launch5.win.arr_inj c _ _ w
theorem W39_of_ne (c : Dev nD) (b : Ref sig .tc) (hb : ∀ w, Pipeline.arrRef spec5 w ≠ b) :
    W39 m ρ c (Proc.devRef .tc b) = W38 m ρ c (Proc.devRef .tc b) := by
  unfold W39; exact Pipeline.withArrays_of_ne spec5 c _ _ b hb
abbrev V39 : (c : Dev nD) → (b : Ref sig .tc) → Buf (Elt F) ((c : Thread nD τ).loc b) := fun c b => W39 m ρ c b
theorem hF5 (c : Dev nD) (w : Fin cfg5.W) : (dat5 (V38 m ρ) c).arrAt w cfg5.N = V39 m ρ c (Pipeline.arrRef spec5 w) :=
  (W39_arr m ρ c w).symm
theorem hrest5 (c : Dev nD) : ∀ b, b ∉ Finset.univ.image (Pipeline.arrRef spec5) → V39 m ρ c b = V38 m ρ c b :=
  fun b hb => W39_of_ne m ρ c b fun w e => hb (Finset.mem_image.mpr ⟨w, Finset.mem_univ _, e⟩)
/-- After item 39 (a host stretch). -/
abbrev W40 : Dev nD → Valuation τ sig (Elt F) := fun c => StableHlo.after (main_part13_ops16 (F := F)) (W39 m ρ c)
/-- The same read at the TensorCore's references: what region 6 is entered with. -/
abbrev V40 : (c : Dev nD) → (b : Ref sig .tc) → Buf (Elt F) ((c : Thread nD τ).loc b) := fun c b => W40 m ρ c b
/-- After item 40 (region 6): its arrays at what the pipeline leaves, every other buffer as entered. -/
def W41 (c : Dev nD) : Valuation τ sig (Elt F) :=
  Pipeline.withArrays spec6 c (W40 m ρ c) fun w => (dat6 (V40 m ρ) c).arrAt w cfg6.N
theorem W41_arr (c : Dev nD) (w : Fin cfg6.W) :
    W41 m ρ c (Proc.devRef .tc (Pipeline.arrRef spec6 w)) = (dat6 (V40 m ρ) c).arrAt w cfg6.N := by
  unfold W41; exact Pipeline.withArrays_arr spec6 launch6.win.arr_inj c _ _ w
theorem W41_of_ne (c : Dev nD) (b : Ref sig .tc) (hb : ∀ w, Pipeline.arrRef spec6 w ≠ b) :
    W41 m ρ c (Proc.devRef .tc b) = W40 m ρ c (Proc.devRef .tc b) := by
  unfold W41; exact Pipeline.withArrays_of_ne spec6 c _ _ b hb
abbrev V41 : (c : Dev nD) → (b : Ref sig .tc) → Buf (Elt F) ((c : Thread nD τ).loc b) := fun c b => W41 m ρ c b
theorem hF6 (c : Dev nD) (w : Fin cfg6.W) : (dat6 (V40 m ρ) c).arrAt w cfg6.N = V41 m ρ c (Pipeline.arrRef spec6 w) :=
  (W41_arr m ρ c w).symm
theorem hrest6 (c : Dev nD) : ∀ b, b ∉ Finset.univ.image (Pipeline.arrRef spec6) → V41 m ρ c b = V40 m ρ c b :=
  fun b hb => W41_of_ne m ρ c b fun w e => hb (Finset.mem_image.mpr ⟨w, Finset.mem_univ _, e⟩)
/-- After item 41 (region 7): its arrays at what the pipeline leaves, every other buffer as entered. -/
def W42 (c : Dev nD) : Valuation τ sig (Elt F) :=
  Pipeline.withArrays spec7 c (W41 m ρ c) fun w => (dat7 (V41 m ρ) c).arrAt w cfg7.N
theorem W42_arr (c : Dev nD) (w : Fin cfg7.W) :
    W42 m ρ c (Proc.devRef .tc (Pipeline.arrRef spec7 w)) = (dat7 (V41 m ρ) c).arrAt w cfg7.N := by
  unfold W42; exact Pipeline.withArrays_arr spec7 launch7.win.arr_inj c _ _ w
theorem W42_of_ne (c : Dev nD) (b : Ref sig .tc) (hb : ∀ w, Pipeline.arrRef spec7 w ≠ b) :
    W42 m ρ c (Proc.devRef .tc b) = W41 m ρ c (Proc.devRef .tc b) := by
  unfold W42; exact Pipeline.withArrays_of_ne spec7 c _ _ b hb
abbrev V42 : (c : Dev nD) → (b : Ref sig .tc) → Buf (Elt F) ((c : Thread nD τ).loc b) := fun c b => W42 m ρ c b
theorem hF7 (c : Dev nD) (w : Fin cfg7.W) : (dat7 (V41 m ρ) c).arrAt w cfg7.N = V42 m ρ c (Pipeline.arrRef spec7 w) :=
  (W42_arr m ρ c w).symm
theorem hrest7 (c : Dev nD) : ∀ b, b ∉ Finset.univ.image (Pipeline.arrRef spec7) → V42 m ρ c b = V41 m ρ c b :=
  fun b hb => W42_of_ne m ρ c b fun w e => hb (Finset.mem_image.mpr ⟨w, Finset.mem_univ _, e⟩)
/-- After item 42 (a host stretch). -/
abbrev W43 : Dev nD → Valuation τ sig (Elt F) := fun c => StableHlo.after (main_part13_ops17 (F := F)) (W42 m ρ c)
/-- After item 43 (a host stretch). -/
abbrev W44 : Dev nD → Valuation τ sig (Elt F) := fun c => StableHlo.after (main_part13_ops18 (F := F)) (W43 m ρ c)
/-- After item 44 (a host stretch). -/
abbrev W45 : Dev nD → Valuation τ sig (Elt F) := fun c => StableHlo.after (main_part14_ops0 (F := F)) (W44 m ρ c)
/-- After item 45 (a host stretch). -/
abbrev W46 : Dev nD → Valuation τ sig (Elt F) := fun c => StableHlo.after (main_part14_ops1 (F := F)) (W45 m ρ c)
/-- After item 46 (a host stretch). -/
abbrev W47 : Dev nD → Valuation τ sig (Elt F) := fun c => StableHlo.after (main_part14_ops2 (F := F)) (W46 m ρ c)
/-- After item 47 (a host stretch). -/
abbrev W48 : Dev nD → Valuation τ sig (Elt F) := fun c => StableHlo.after (main_part14_ops3 (F := F)) (W47 m ρ c)
/-- After item 48 (a host stretch). -/
abbrev W49 : Dev nD → Valuation τ sig (Elt F) := fun c => StableHlo.after (main_part14_ops4 (F := F)) (W48 m ρ c)
/-- After item 49 (a host stretch). -/
abbrev W50 : Dev nD → Valuation τ sig (Elt F) := fun c => StableHlo.after (main_part14_ops5 (F := F)) (W49 m ρ c)
/-- After item 50 (a host stretch). -/
abbrev W51 : Dev nD → Valuation τ sig (Elt F) := fun c => StableHlo.after (main_part14_ops6 (F := F)) (W50 m ρ c)
/-- The same read at the TensorCore's references: what region 8 is entered with. -/
abbrev V51 : (c : Dev nD) → (b : Ref sig .tc) → Buf (Elt F) ((c : Thread nD τ).loc b) := fun c b => W51 m ρ c b
/-- After item 51 (region 8): its arrays at what the pipeline leaves, every other buffer as entered. -/
def W52 (c : Dev nD) : Valuation τ sig (Elt F) :=
  Pipeline.withArrays spec8 c (W51 m ρ c) fun w => (dat8 (V51 m ρ) c).arrAt w cfg8.N
theorem W52_arr (c : Dev nD) (w : Fin cfg8.W) :
    W52 m ρ c (Proc.devRef .tc (Pipeline.arrRef spec8 w)) = (dat8 (V51 m ρ) c).arrAt w cfg8.N := by
  unfold W52; exact Pipeline.withArrays_arr spec8 launch8.win.arr_inj c _ _ w
theorem W52_of_ne (c : Dev nD) (b : Ref sig .tc) (hb : ∀ w, Pipeline.arrRef spec8 w ≠ b) :
    W52 m ρ c (Proc.devRef .tc b) = W51 m ρ c (Proc.devRef .tc b) := by
  unfold W52; exact Pipeline.withArrays_of_ne spec8 c _ _ b hb
abbrev V52 : (c : Dev nD) → (b : Ref sig .tc) → Buf (Elt F) ((c : Thread nD τ).loc b) := fun c b => W52 m ρ c b
theorem hF8 (c : Dev nD) (w : Fin cfg8.W) : (dat8 (V51 m ρ) c).arrAt w cfg8.N = V52 m ρ c (Pipeline.arrRef spec8 w) :=
  (W52_arr m ρ c w).symm
theorem hrest8 (c : Dev nD) : ∀ b, b ∉ Finset.univ.image (Pipeline.arrRef spec8) → V52 m ρ c b = V51 m ρ c b :=
  fun b hb => W52_of_ne m ρ c b fun w e => hb (Finset.mem_image.mpr ⟨w, Finset.mem_univ _, e⟩)
/-- After item 52 (a host stretch). -/
abbrev W53 : Dev nD → Valuation τ sig (Elt F) := fun c => StableHlo.after (main_part14_ops7 (F := F)) (W52 m ρ c)
/-- The same read at the TensorCore's references: what region 9 is entered with. -/
abbrev V53 : (c : Dev nD) → (b : Ref sig .tc) → Buf (Elt F) ((c : Thread nD τ).loc b) := fun c b => W53 m ρ c b
/-- After item 53 (region 9): its arrays at what the pipeline leaves, every other buffer as entered. -/
def W54 (c : Dev nD) : Valuation τ sig (Elt F) :=
  Pipeline.withArrays spec9 c (W53 m ρ c) fun w => (dat9 (V53 m ρ) c).arrAt w cfg9.N
theorem W54_arr (c : Dev nD) (w : Fin cfg9.W) :
    W54 m ρ c (Proc.devRef .tc (Pipeline.arrRef spec9 w)) = (dat9 (V53 m ρ) c).arrAt w cfg9.N := by
  unfold W54; exact Pipeline.withArrays_arr spec9 launch9.win.arr_inj c _ _ w
theorem W54_of_ne (c : Dev nD) (b : Ref sig .tc) (hb : ∀ w, Pipeline.arrRef spec9 w ≠ b) :
    W54 m ρ c (Proc.devRef .tc b) = W53 m ρ c (Proc.devRef .tc b) := by
  unfold W54; exact Pipeline.withArrays_of_ne spec9 c _ _ b hb
abbrev V54 : (c : Dev nD) → (b : Ref sig .tc) → Buf (Elt F) ((c : Thread nD τ).loc b) := fun c b => W54 m ρ c b
theorem hF9 (c : Dev nD) (w : Fin cfg9.W) : (dat9 (V53 m ρ) c).arrAt w cfg9.N = V54 m ρ c (Pipeline.arrRef spec9 w) :=
  (W54_arr m ρ c w).symm
theorem hrest9 (c : Dev nD) : ∀ b, b ∉ Finset.univ.image (Pipeline.arrRef spec9) → V54 m ρ c b = V53 m ρ c b :=
  fun b hb => W54_of_ne m ρ c b fun w e => hb (Finset.mem_image.mpr ⟨w, Finset.mem_univ _, e⟩)
/-- After item 54 (a host stretch). -/
abbrev W55 : Dev nD → Valuation τ sig (Elt F) := fun c => StableHlo.after (main_part14_ops8 (F := F)) (W54 m ρ c)
/-- The same read at the TensorCore's references: what region 10 is entered with. -/
abbrev V55 : (c : Dev nD) → (b : Ref sig .tc) → Buf (Elt F) ((c : Thread nD τ).loc b) := fun c b => W55 m ρ c b
/-- After item 55 (region 10): its arrays at what the pipeline leaves, every other buffer as entered. -/
def W56 (c : Dev nD) : Valuation τ sig (Elt F) :=
  Pipeline.withArrays spec10 c (W55 m ρ c) fun w => (dat10 (V55 m ρ) c).arrAt w cfg10.N
theorem W56_arr (c : Dev nD) (w : Fin cfg10.W) :
    W56 m ρ c (Proc.devRef .tc (Pipeline.arrRef spec10 w)) = (dat10 (V55 m ρ) c).arrAt w cfg10.N := by
  unfold W56; exact Pipeline.withArrays_arr spec10 launch10.win.arr_inj c _ _ w
theorem W56_of_ne (c : Dev nD) (b : Ref sig .tc) (hb : ∀ w, Pipeline.arrRef spec10 w ≠ b) :
    W56 m ρ c (Proc.devRef .tc b) = W55 m ρ c (Proc.devRef .tc b) := by
  unfold W56; exact Pipeline.withArrays_of_ne spec10 c _ _ b hb
abbrev V56 : (c : Dev nD) → (b : Ref sig .tc) → Buf (Elt F) ((c : Thread nD τ).loc b) := fun c b => W56 m ρ c b
theorem hF10 (c : Dev nD) (w : Fin cfg10.W) : (dat10 (V55 m ρ) c).arrAt w cfg10.N = V56 m ρ c (Pipeline.arrRef spec10 w) :=
  (W56_arr m ρ c w).symm
theorem hrest10 (c : Dev nD) : ∀ b, b ∉ Finset.univ.image (Pipeline.arrRef spec10) → V56 m ρ c b = V55 m ρ c b :=
  fun b hb => W56_of_ne m ρ c b fun w e => hb (Finset.mem_image.mpr ⟨w, Finset.mem_univ _, e⟩)
/-- After item 56 (region 11): its arrays at what the pipeline leaves, every other buffer as entered. -/
def W57 (c : Dev nD) : Valuation τ sig (Elt F) :=
  Pipeline.withArrays spec11 c (W56 m ρ c) fun w => (dat11 (V56 m ρ) c).arrAt w cfg11.N
theorem W57_arr (c : Dev nD) (w : Fin cfg11.W) :
    W57 m ρ c (Proc.devRef .tc (Pipeline.arrRef spec11 w)) = (dat11 (V56 m ρ) c).arrAt w cfg11.N := by
  unfold W57; exact Pipeline.withArrays_arr spec11 launch11.win.arr_inj c _ _ w
theorem W57_of_ne (c : Dev nD) (b : Ref sig .tc) (hb : ∀ w, Pipeline.arrRef spec11 w ≠ b) :
    W57 m ρ c (Proc.devRef .tc b) = W56 m ρ c (Proc.devRef .tc b) := by
  unfold W57; exact Pipeline.withArrays_of_ne spec11 c _ _ b hb
abbrev V57 : (c : Dev nD) → (b : Ref sig .tc) → Buf (Elt F) ((c : Thread nD τ).loc b) := fun c b => W57 m ρ c b
theorem hF11 (c : Dev nD) (w : Fin cfg11.W) : (dat11 (V56 m ρ) c).arrAt w cfg11.N = V57 m ρ c (Pipeline.arrRef spec11 w) :=
  (W57_arr m ρ c w).symm
theorem hrest11 (c : Dev nD) : ∀ b, b ∉ Finset.univ.image (Pipeline.arrRef spec11) → V57 m ρ c b = V56 m ρ c b :=
  fun b hb => W57_of_ne m ρ c b fun w e => hb (Finset.mem_image.mpr ⟨w, Finset.mem_univ _, e⟩)
/-- After item 57 (a host stretch). -/
abbrev W58 : Dev nD → Valuation τ sig (Elt F) := fun c => StableHlo.after (main_part14_ops9 (F := F)) (W57 m ρ c)
/-- After item 58 (a host stretch). -/
abbrev W59 : Dev nD → Valuation τ sig (Elt F) := fun c => StableHlo.after (main_part14_ops10 (F := F)) (W58 m ρ c)
/-- After item 59 (a host stretch). -/
abbrev W60 : Dev nD → Valuation τ sig (Elt F) := fun c => StableHlo.after (main_part14_ops11 (F := F)) (W59 m ρ c)
/-- After item 60 (a host stretch). -/
abbrev W61 : Dev nD → Valuation τ sig (Elt F) := fun c => StableHlo.after (main_part14_ops12 (F := F)) (W60 m ρ c)
/-- After item 61 (a host stretch). -/
abbrev W62 : Dev nD → Valuation τ sig (Elt F) := fun c => StableHlo.after (main_part14_ops13 (F := F)) (W61 m ρ c)
/-- After item 62 (a host stretch). -/
abbrev W63 : Dev nD → Valuation τ sig (Elt F) := fun c => StableHlo.after (main_part14_ops14 (F := F)) (W62 m ρ c)
/-- After item 63 (a host stretch). -/
abbrev W64 : Dev nD → Valuation τ sig (Elt F) := fun c => StableHlo.after (main_part14_ops15 (F := F)) (W63 m ρ c)
/-- After item 64 (a host stretch). -/
abbrev W65 : Dev nD → Valuation τ sig (Elt F) := fun c => StableHlo.after (main_part14_ops16 (F := F)) (W64 m ρ c)

/-! ## The launch's parameters and the proof data of the twelve pipelines -/

/-- No prefetched table anywhere. -/
abbrev adm : (p : Fin 12) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's owes, at nothing. -/
abbrev R (c : Dev nD) : sProp 𝕄 := iprop(∃ W, owes (c : Thread nD τ) (0 : CellTallies nD τ sig Unit) W)

def pdats : (p : Fin 12) → (c : Dev nD) → Dat τ (Elt F) Unit ℕ (UR sig nD τ) ℕ (Pipeline.pin (pcfgs (F := F)) adm p) c
  | ⟨0, _⟩ => fun c => dat0 (V22 m ρ) c
  | ⟨1, _⟩ => fun c => dat1 (V24 m ρ) c
  | ⟨2, _⟩ => fun c => dat2 (V26 m ρ) c
  | ⟨3, _⟩ => fun c => dat3 (V27 m ρ) c
  | ⟨4, _⟩ => fun c => dat4 (V36 m ρ) c
  | ⟨5, _⟩ => fun c => dat5 (V38 m ρ) c
  | ⟨6, _⟩ => fun c => dat6 (V40 m ρ) c
  | ⟨7, _⟩ => fun c => dat7 (V41 m ρ) c
  | ⟨8, _⟩ => fun c => dat8 (V51 m ρ) c
  | ⟨9, _⟩ => fun c => dat9 (V53 m ρ) c
  | ⟨10, _⟩ => fun c => dat10 (V55 m ρ) c
  | ⟨11, _⟩ => fun c => dat11 (V56 m ρ) c

end Cert.KernelIdeal.Hand

end
-- ==== Proof.KI.R0Obl.lean ====
/-
  Region 0: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle0_of_not_last (t : Fin cfg0.N) (h1 : ¬ t.val % 8 = 7) : idle0 2 (grid0.coords t) = true := by
  have h : ¬ last0 (grid0.coords t) := fun h => h1 ((last0_iff t).mp h)
  show (!(k0_cond2 (grid0.coords t) == 1#1)) = true
  simp only [Bool.not_eq_true', beq_eq_false_iff_ne, ne_eq]; exact h
theorem idle0_of_last (t : Fin cfg0.N) (h1 : t.val % 8 = 7) : idle0 2 (grid0.coords t) = false := by
  have h : last0 (grid0.coords t) := (last0_iff t).mpr h1
  show (!(k0_cond2 (grid0.coords t) == 1#1)) = false
  simp only [Bool.not_eq_false', beq_iff_eq]; exact h
/-- and is written back only at the last ones. -/
theorem flush0_of_not_last (t : Fin cfg0.N) (h1 : ¬ t.val % 8 = 7) : (win0 2).flush t = false :=
  Bool.eq_false_iff.mpr fun h => h1 ((flush0_2 t).mp h)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns: the output tile's buffer as found where the window is idle, else at what the point writes. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ (match cfg0.idle 2 (cfg0.grid.coords t) with
        | true =>
          (match (cfg0.win 2).flush t with
            | false => iprop(∃ d, owns (c : Thread nD τ) (ms0_2 t) fullShare ((dat0 V c).before 2 t d))
            | true => owns (c : Thread nD τ) (ms0_2 t) fullShare ((dat0 V c).after 2 t))
        | false => owns (c : Thread nD τ) (ms0_2 t) fullShare ((dat0 V c).after 2 t)))

theorem succ_inv0 (c : Dev nD) (t : Fin cfg0.N) :
    ∀ (n : ℕ) (hn : n < cfg0.N), t.succ.val = n + 1 → accAt0 V c t.val t.isLt = accAt0 V c n hn := by
  intro n hn hj
  have hn' : n = t.val := by rw [Fin.val_succ] at hj; omega
  subst hn'; rfl

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, after0_0, after0_1,
    show (dat0 V c).Φ t.castSucc = Φ0 V c t.castSucc from rfl, show (dat0 V c).Φ t.succ = Φ0 V c t.succ from rfl]
  unfold Φ0
  by_cases h0 : t.val % 8 = 0
  · have h1 : ¬ t.val % 8 = 7 := not_last_of_first0 h0
    rw [idle0_of_not_last t h1, flush0_of_not_last t h1]; dsimp only
    iintro ⟨⟨⟨%s, -, Hs⟩, Hrest⟩, Ho, ⟨%d0, H0⟩, ⟨%d1, H1⟩, ⟨%d2, H2⟩⟩
    iapply ((runFirst0 c (grid0.coords t) (ms0_0 t) (hs0_0 t) (ms0_1 t) (hs0_1 t) (ms0_2 t) (hs0_2 t) sc0 hsc0
      ((first0_iff t).mpr h0) (fun h => h1 ((last0_iff t).mp h)) (iblk0 V c 0 t) (iblk0 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt0 V c t.val t.isLt); isplitr
        · ipureintro; exact succ_inv0 V c t
        · rw [accAt0_first V c t h0]; unfold accFirst0 owns; iexists _; isplitr
          swap; · iexact Hs
          ipureintro; exact View.read_writes_of_cover _ _ _ _ _ (coverFirst0 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle0_of_last t h1]; dsimp only
      rw [after0_2, show outAt0 V c t = outLast0 c (grid0.coords t) (ms0_0 t) (hs0_0 t) (ms0_1 t) (hs0_1 t) (ms0_2 t) (hs0_2 t) sc0 hsc0
          (iblk0 V c 0 t) (iblk0 V c 1 t) (accAt0 V c (t.val - 1) (Nat.lt_of_le_of_lt (Nat.sub_le _ _) t.isLt))
          (fun h' => h0 ((first0_iff t).mp h')) ((last0_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt0 V c (t.val - 1) (Nat.lt_of_le_of_lt (Nat.sub_le _ _) t.isLt) :=
        hs (t.val - 1) _ (by rw [Fin.coe_castSucc]; omega)
      iapply ((runLast0 c (grid0.coords t) (ms0_0 t) (hs0_0 t) (ms0_1 t) (hs0_1 t) (ms0_2 t) (hs0_2 t) sc0 hsc0
        (fun h => h0 ((first0_iff t).mp h)) ((last0_iff t).mpr h1) (iblk0 V c 0 t) (iblk0 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt0 V c t.val t.isLt); isplitr
          · ipureintro; exact succ_inv0 V c t
          · rw [accAt0_last V c t h0 h1]; unfold accLast0 owns; iexists _; isplitr
            swap; · iexact Hs
            ipureintro; exact View.read_writes_of_cover _ _ _ _ _ (coverLastAcc0 c _ _ _ _ _ _ _ _ _ _ _ _ _ _)
        · iexact Hrest
      isplitl [Ho]; · iexact Ho
      isplitl [H0]; · iexact H0
      isplitl [H1]; · iexact H1
      unfold outLast0 owns; iexists _; isplitr
      swap; · iexact H2
      ipureintro; exact View.read_writes_of_cover _ _ _ _ _ (coverLastOut0 c _ _ _ _ _ _ _ _ _ _ _ _ _ _)
    · rw [idle0_of_not_last t h1, flush0_of_not_last t h1]; dsimp only
      iintro ⟨⟨⟨%s, %hs, Hs⟩, Hrest⟩, Ho, ⟨%d0, H0⟩, ⟨%d1, H1⟩, ⟨%d2, H2⟩⟩
      obtain rfl : s = accAt0 V c (t.val - 1) (Nat.lt_of_le_of_lt (Nat.sub_le _ _) t.isLt) :=
        hs (t.val - 1) _ (by rw [Fin.coe_castSucc]; omega)
      iapply ((runMid0 c (grid0.coords t) (ms0_0 t) (hs0_0 t) (ms0_1 t) (hs0_1 t) (ms0_2 t) (hs0_2 t) sc0 hsc0
        (fun h => h0 ((first0_iff t).mp h)) (fun h => h1 ((last0_iff t).mp h)) (iblk0 V c 0 t) (iblk0 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt0 V c t.val t.isLt); isplitr
          · ipureintro; exact succ_inv0 V c t
          · rw [accAt0_mid V c t h0 h1]; unfold accMid0 owns; iexists _; isplitr
            swap; · iexact Hs
            ipureintro; exact View.read_writes_of_cover _ _ _ _ _ (coverMid0 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  Region 0 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R0Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V22 m ρ) c).loose
  hwaits := Pipeline.hwaits_of_owed_zero _ _ _ _ L lv 0 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X _ := BI.emp
  Y _ := BI.emp
  Z c := Pipeline.unscopedRest (Ix := Unit) (Name := ℕ) (U := UR sig nD τ) (Lvl := ℕ) spec0 c (V22 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V22 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0 = Φ0 (V22 m ρ) c 0 from rfl, show (Pipeline.scopedRest (Ix := Unit) (Name := ℕ) (U := UR sig nD τ) (Lvl := ℕ) (Val := Elt F) (Pipeline.pin (pcfgs (F := F)) adm 0).spec c : sProp 𝕄) = _ from scopedRest0_split c]; unfold Φ0
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 0 c).Φ (Fin.last _) = Φ0 (V22 m ρ) c (Fin.last _) from rfl, show (Pipeline.scopedRest (Ix := Unit) (Name := ℕ) (U := UR sig nD τ) (Lvl := ℕ) (Val := Elt F) (Pipeline.pin (pcfgs (F := F)) adm 0).spec c : sProp 𝕄) = _ from scopedRest0_split c]; unfold Φ0
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V22 m ρ c) (V23 m ρ c) ((pdats m ρ 0 c).arrAt · cfg0.N) (hF0 m ρ c) (hrest0 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R1Obl.lean ====
/-
  Region 1: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle1_of_not_last (t : Fin cfg1.N) (h1 : ¬ t.val % 8 = 7) : idle1 2 (grid1.coords t) = true := by
  have h : ¬ last1 (grid1.coords t) := fun h => h1 ((last1_iff t).mp h)
  show (!(k1_cond2 (grid1.coords t) == 1#1)) = true
  simp only [Bool.not_eq_true', beq_eq_false_iff_ne, ne_eq]; exact h
theorem idle1_of_last (t : Fin cfg1.N) (h1 : t.val % 8 = 7) : idle1 2 (grid1.coords t) = false := by
  have h : last1 (grid1.coords t) := (last1_iff t).mpr h1
  show (!(k1_cond2 (grid1.coords t) == 1#1)) = false
  simp only [Bool.not_eq_false', beq_iff_eq]; exact h
/-- and is written back only at the last ones. -/
theorem flush1_of_not_last (t : Fin cfg1.N) (h1 : ¬ t.val % 8 = 7) : (win1 2).flush t = false :=
  Bool.eq_false_iff.mpr fun h => h1 ((flush1_2 t).mp h)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns: the output tile's buffer as found where the window is idle, else at what the point writes. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ (match cfg1.idle 2 (cfg1.grid.coords t) with
        | true =>
          (match (cfg1.win 2).flush t with
            | false => iprop(∃ d, owns (c : Thread nD τ) (ms1_2 t) fullShare ((dat1 V c).before 2 t d))
            | true => owns (c : Thread nD τ) (ms1_2 t) fullShare ((dat1 V c).after 2 t))
        | false => owns (c : Thread nD τ) (ms1_2 t) fullShare ((dat1 V c).after 2 t)))

theorem succ_inv1 (c : Dev nD) (t : Fin cfg1.N) :
    ∀ (n : ℕ) (hn : n < cfg1.N), t.succ.val = n + 1 → accAt1 V c t.val t.isLt = accAt1 V c n hn := by
  intro n hn hj
  have hn' : n = t.val := by rw [Fin.val_succ] at hj; omega
  subst hn'; rfl

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, after1_0, after1_1,
    show (dat1 V c).Φ t.castSucc = Φ1 V c t.castSucc from rfl, show (dat1 V c).Φ t.succ = Φ1 V c t.succ from rfl]
  unfold Φ1
  by_cases h0 : t.val % 8 = 0
  · have h1 : ¬ t.val % 8 = 7 := not_last_of_first1 h0
    rw [idle1_of_not_last t h1, flush1_of_not_last t h1]; dsimp only
    iintro ⟨⟨⟨%s, -, Hs⟩, Hrest⟩, Ho, ⟨%d0, H0⟩, ⟨%d1, H1⟩, ⟨%d2, H2⟩⟩
    iapply ((runFirst1 c (grid1.coords t) (ms1_0 t) (hs1_0 t) (ms1_1 t) (hs1_1 t) (ms1_2 t) (hs1_2 t) sc1 hsc1
      ((first1_iff t).mpr h0) (fun h => h1 ((last1_iff t).mp h)) (iblk1 V c 0 t) (iblk1 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt1 V c t.val t.isLt); isplitr
        · ipureintro; exact succ_inv1 V c t
        · rw [accAt1_first V c t h0]; unfold accFirst1 owns; iexists _; isplitr
          swap; · iexact Hs
          ipureintro; exact View.read_writes_of_cover _ _ _ _ _ (coverFirst1 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle1_of_last t h1]; dsimp only
      rw [after1_2, show outAt1 V c t = outLast1 c (grid1.coords t) (ms1_0 t) (hs1_0 t) (ms1_1 t) (hs1_1 t) (ms1_2 t) (hs1_2 t) sc1 hsc1
          (iblk1 V c 0 t) (iblk1 V c 1 t) (accAt1 V c (t.val - 1) (Nat.lt_of_le_of_lt (Nat.sub_le _ _) t.isLt))
          (fun h' => h0 ((first1_iff t).mp h')) ((last1_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt1 V c (t.val - 1) (Nat.lt_of_le_of_lt (Nat.sub_le _ _) t.isLt) :=
        hs (t.val - 1) _ (by rw [Fin.coe_castSucc]; omega)
      iapply ((runLast1 c (grid1.coords t) (ms1_0 t) (hs1_0 t) (ms1_1 t) (hs1_1 t) (ms1_2 t) (hs1_2 t) sc1 hsc1
        (fun h => h0 ((first1_iff t).mp h)) ((last1_iff t).mpr h1) (iblk1 V c 0 t) (iblk1 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt1 V c t.val t.isLt); isplitr
          · ipureintro; exact succ_inv1 V c t
          · rw [accAt1_last V c t h0 h1]; unfold accLast1 owns; iexists _; isplitr
            swap; · iexact Hs
            ipureintro; exact View.read_writes_of_cover _ _ _ _ _ (coverLastAcc1 c _ _ _ _ _ _ _ _ _ _ _ _ _ _)
        · iexact Hrest
      isplitl [Ho]; · iexact Ho
      isplitl [H0]; · iexact H0
      isplitl [H1]; · iexact H1
      unfold outLast1 owns; iexists _; isplitr
      swap; · iexact H2
      ipureintro; exact View.read_writes_of_cover _ _ _ _ _ (coverLastOut1 c _ _ _ _ _ _ _ _ _ _ _ _ _ _)
    · rw [idle1_of_not_last t h1, flush1_of_not_last t h1]; dsimp only
      iintro ⟨⟨⟨%s, %hs, Hs⟩, Hrest⟩, Ho, ⟨%d0, H0⟩, ⟨%d1, H1⟩, ⟨%d2, H2⟩⟩
      obtain rfl : s = accAt1 V c (t.val - 1) (Nat.lt_of_le_of_lt (Nat.sub_le _ _) t.isLt) :=
        hs (t.val - 1) _ (by rw [Fin.coe_castSucc]; omega)
      iapply ((runMid1 c (grid1.coords t) (ms1_0 t) (hs1_0 t) (ms1_1 t) (hs1_1 t) (ms1_2 t) (hs1_2 t) sc1 hsc1
        (fun h => h0 ((first1_iff t).mp h)) (fun h => h1 ((last1_iff t).mp h)) (iblk1 V c 0 t) (iblk1 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt1 V c t.val t.isLt); isplitr
          · ipureintro; exact succ_inv1 V c t
          · rw [accAt1_mid V c t h0 h1]; unfold accMid1 owns; iexists _; isplitr
            swap; · iexact Hs
            ipureintro; exact View.read_writes_of_cover _ _ _ _ _ (coverMid1 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
/-
  Region 1 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R1Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V24 m ρ) c).loose
  hwaits := Pipeline.hwaits_of_owed_zero _ _ _ _ L lv 1 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X _ := BI.emp
  Y _ := BI.emp
  Z c := Pipeline.unscopedRest (Ix := Unit) (Name := ℕ) (U := UR sig nD τ) (Lvl := ℕ) spec1 c (V24 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V24 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 1 c).Φ 0 = Φ1 (V24 m ρ) c 0 from rfl, show (Pipeline.scopedRest (Ix := Unit) (Name := ℕ) (U := UR sig nD τ) (Lvl := ℕ) (Val := Elt F) (Pipeline.pin (pcfgs (F := F)) adm 1).spec c : sProp 𝕄) = _ from scopedRest1_split c]; unfold Φ1
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 1 c).Φ (Fin.last _) = Φ1 (V24 m ρ) c (Fin.last _) from rfl, show (Pipeline.scopedRest (Ix := Unit) (Name := ℕ) (U := UR sig nD τ) (Lvl := ℕ) (Val := Elt F) (Pipeline.pin (pcfgs (F := F)) adm 1).spec c : sProp 𝕄) = _ from scopedRest1_split c]; unfold Φ1
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V24 m ρ c) (V25 m ρ c) ((pdats m ρ 1 c).arrAt · cfg1.N) (hF1 m ρ c) (hrest1 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R2Obl.lean ====
/-
  Region 2: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle2_of_not_last (t : Fin cfg2.N) (h1 : ¬ t.val % 8 = 7) : idle2 2 (grid2.coords t) = true := by
  have h : ¬ last2 (grid2.coords t) := fun h => h1 ((last2_iff t).mp h)
  show (!(k2_cond2 (grid2.coords t) == 1#1)) = true
  simp only [Bool.not_eq_true', beq_eq_false_iff_ne, ne_eq]; exact h
theorem idle2_of_last (t : Fin cfg2.N) (h1 : t.val % 8 = 7) : idle2 2 (grid2.coords t) = false := by
  have h : last2 (grid2.coords t) := (last2_iff t).mpr h1
  show (!(k2_cond2 (grid2.coords t) == 1#1)) = false
  simp only [Bool.not_eq_false', beq_iff_eq]; exact h
/-- and is written back only at the last ones. -/
theorem flush2_of_not_last (t : Fin cfg2.N) (h1 : ¬ t.val % 8 = 7) : (win2 2).flush t = false :=
  Bool.eq_false_iff.mpr fun h => h1 ((flush2_2 t).mp h)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns: the output tile's buffer as found where the window is idle, else at what the point writes. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ (match cfg2.idle 2 (cfg2.grid.coords t) with
        | true =>
          (match (cfg2.win 2).flush t with
            | false => iprop(∃ d, owns (c : Thread nD τ) (ms2_2 t) fullShare ((dat2 V c).before 2 t d))
            | true => owns (c : Thread nD τ) (ms2_2 t) fullShare ((dat2 V c).after 2 t))
        | false => owns (c : Thread nD τ) (ms2_2 t) fullShare ((dat2 V c).after 2 t)))

theorem succ_inv2 (c : Dev nD) (t : Fin cfg2.N) :
    ∀ (n : ℕ) (hn : n < cfg2.N), t.succ.val = n + 1 → accAt2 V c t.val t.isLt = accAt2 V c n hn := by
  intro n hn hj
  have hn' : n = t.val := by rw [Fin.val_succ] at hj; omega
  subst hn'; rfl

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl, after2_0, after2_1,
    show (dat2 V c).Φ t.castSucc = Φ2 V c t.castSucc from rfl, show (dat2 V c).Φ t.succ = Φ2 V c t.succ from rfl]
  unfold Φ2
  by_cases h0 : t.val % 8 = 0
  · have h1 : ¬ t.val % 8 = 7 := not_last_of_first2 h0
    rw [idle2_of_not_last t h1, flush2_of_not_last t h1]; dsimp only
    iintro ⟨⟨⟨%s, -, Hs⟩, Hrest⟩, Ho, ⟨%d0, H0⟩, ⟨%d1, H1⟩, ⟨%d2, H2⟩⟩
    iapply ((runFirst2 c (grid2.coords t) (ms2_0 t) (hs2_0 t) (ms2_1 t) (hs2_1 t) (ms2_2 t) (hs2_2 t) sc2 hsc2
      ((first2_iff t).mpr h0) (fun h => h1 ((last2_iff t).mp h)) (iblk2 V c 0 t) (iblk2 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt2 V c t.val t.isLt); isplitr
        · ipureintro; exact succ_inv2 V c t
        · rw [accAt2_first V c t h0]; unfold accFirst2 owns; iexists _; isplitr
          swap; · iexact Hs
          ipureintro; exact View.read_writes_of_cover _ _ _ _ _ (coverFirst2 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle2_of_last t h1]; dsimp only
      rw [after2_2, show outAt2 V c t = outLast2 c (grid2.coords t) (ms2_0 t) (hs2_0 t) (ms2_1 t) (hs2_1 t) (ms2_2 t) (hs2_2 t) sc2 hsc2
          (iblk2 V c 0 t) (iblk2 V c 1 t) (accAt2 V c (t.val - 1) (Nat.lt_of_le_of_lt (Nat.sub_le _ _) t.isLt))
          (fun h' => h0 ((first2_iff t).mp h')) ((last2_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt2 V c (t.val - 1) (Nat.lt_of_le_of_lt (Nat.sub_le _ _) t.isLt) :=
        hs (t.val - 1) _ (by rw [Fin.coe_castSucc]; omega)
      iapply ((runLast2 c (grid2.coords t) (ms2_0 t) (hs2_0 t) (ms2_1 t) (hs2_1 t) (ms2_2 t) (hs2_2 t) sc2 hsc2
        (fun h => h0 ((first2_iff t).mp h)) ((last2_iff t).mpr h1) (iblk2 V c 0 t) (iblk2 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt2 V c t.val t.isLt); isplitr
          · ipureintro; exact succ_inv2 V c t
          · rw [accAt2_last V c t h0 h1]; unfold accLast2 owns; iexists _; isplitr
            swap; · iexact Hs
            ipureintro; exact View.read_writes_of_cover _ _ _ _ _ (coverLastAcc2 c _ _ _ _ _ _ _ _ _ _ _ _ _ _)
        · iexact Hrest
      isplitl [Ho]; · iexact Ho
      isplitl [H0]; · iexact H0
      isplitl [H1]; · iexact H1
      unfold outLast2 owns; iexists _; isplitr
      swap; · iexact H2
      ipureintro; exact View.read_writes_of_cover _ _ _ _ _ (coverLastOut2 c _ _ _ _ _ _ _ _ _ _ _ _ _ _)
    · rw [idle2_of_not_last t h1, flush2_of_not_last t h1]; dsimp only
      iintro ⟨⟨⟨%s, %hs, Hs⟩, Hrest⟩, Ho, ⟨%d0, H0⟩, ⟨%d1, H1⟩, ⟨%d2, H2⟩⟩
      obtain rfl : s = accAt2 V c (t.val - 1) (Nat.lt_of_le_of_lt (Nat.sub_le _ _) t.isLt) :=
        hs (t.val - 1) _ (by rw [Fin.coe_castSucc]; omega)
      iapply ((runMid2 c (grid2.coords t) (ms2_0 t) (hs2_0 t) (ms2_1 t) (hs2_1 t) (ms2_2 t) (hs2_2 t) sc2 hsc2
        (fun h => h0 ((first2_iff t).mp h)) (fun h => h1 ((last2_iff t).mp h)) (iblk2 V c 0 t) (iblk2 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt2 V c t.val t.isLt); isplitr
          · ipureintro; exact succ_inv2 V c t
          · rw [accAt2_mid V c t h0 h1]; unfold accMid2 owns; iexists _; isplitr
            swap; · iexact Hs
            ipureintro; exact View.read_writes_of_cover _ _ _ _ _ (coverMid2 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg2.lean ====
/-
  Region 2 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R2Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V26 m ρ) c).loose
  hwaits := Pipeline.hwaits_of_owed_zero _ _ _ _ L lv 2 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X _ := BI.emp
  Y _ := BI.emp
  Z c := Pipeline.unscopedRest (Ix := Unit) (Name := ℕ) (U := UR sig nD τ) (Lvl := ℕ) spec2 c (V26 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V26 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 2 c).Φ 0 = Φ2 (V26 m ρ) c 0 from rfl, show (Pipeline.scopedRest (Ix := Unit) (Name := ℕ) (U := UR sig nD τ) (Lvl := ℕ) (Val := Elt F) (Pipeline.pin (pcfgs (F := F)) adm 2).spec c : sProp 𝕄) = _ from scopedRest2_split c]; unfold Φ2
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 2 c).Φ (Fin.last _) = Φ2 (V26 m ρ) c (Fin.last _) from rfl, show (Pipeline.scopedRest (Ix := Unit) (Name := ℕ) (U := UR sig nD τ) (Lvl := ℕ) (Val := Elt F) (Pipeline.pin (pcfgs (F := F)) adm 2).spec c : sProp 𝕄) = _ from scopedRest2_split c]; unfold Φ2
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V26 m ρ c) (V27 m ρ c) ((pdats m ρ 2 c).arrAt · cfg2.N) (hF2 m ρ c) (hrest2 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R3Obl.lean ====
/-
  Region 3: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R3Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle3_of_not_last (t : Fin cfg3.N) (h1 : ¬ t.val % 8 = 7) : idle3 2 (grid3.coords t) = true := by
  have h : ¬ last3 (grid3.coords t) := fun h => h1 ((last3_iff t).mp h)
  show (!(k3_cond2 (grid3.coords t) == 1#1)) = true
  simp only [Bool.not_eq_true', beq_eq_false_iff_ne, ne_eq]; exact h
theorem idle3_of_last (t : Fin cfg3.N) (h1 : t.val % 8 = 7) : idle3 2 (grid3.coords t) = false := by
  have h : last3 (grid3.coords t) := (last3_iff t).mpr h1
  show (!(k3_cond2 (grid3.coords t) == 1#1)) = false
  simp only [Bool.not_eq_false', beq_iff_eq]; exact h
/-- and is written back only at the last ones. -/
theorem flush3_of_not_last (t : Fin cfg3.N) (h1 : ¬ t.val % 8 = 7) : (win3 2).flush t = false :=
  Bool.eq_false_iff.mpr fun h => h1 ((flush3_2 t).mp h)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns: the output tile's buffer as found where the window is idle, else at what the point writes. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ (match cfg3.idle 2 (cfg3.grid.coords t) with
        | true =>
          (match (cfg3.win 2).flush t with
            | false => iprop(∃ d, owns (c : Thread nD τ) (ms3_2 t) fullShare ((dat3 V c).before 2 t d))
            | true => owns (c : Thread nD τ) (ms3_2 t) fullShare ((dat3 V c).after 2 t))
        | false => owns (c : Thread nD τ) (ms3_2 t) fullShare ((dat3 V c).after 2 t)))

theorem succ_inv3 (c : Dev nD) (t : Fin cfg3.N) :
    ∀ (n : ℕ) (hn : n < cfg3.N), t.succ.val = n + 1 → accAt3 V c t.val t.isLt = accAt3 V c n hn := by
  intro n hn hj
  have hn' : n = t.val := by rw [Fin.val_succ] at hj; omega
  subst hn'; rfl

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl, after3_0, after3_1,
    show (dat3 V c).Φ t.castSucc = Φ3 V c t.castSucc from rfl, show (dat3 V c).Φ t.succ = Φ3 V c t.succ from rfl]
  unfold Φ3
  by_cases h0 : t.val % 8 = 0
  · have h1 : ¬ t.val % 8 = 7 := not_last_of_first3 h0
    rw [idle3_of_not_last t h1, flush3_of_not_last t h1]; dsimp only
    iintro ⟨⟨⟨%s, -, Hs⟩, Hrest⟩, Ho, ⟨%d0, H0⟩, ⟨%d1, H1⟩, ⟨%d2, H2⟩⟩
    iapply ((runFirst3 c (grid3.coords t) (ms3_0 t) (hs3_0 t) (ms3_1 t) (hs3_1 t) (ms3_2 t) (hs3_2 t) sc3 hsc3
      ((first3_iff t).mpr h0) (fun h => h1 ((last3_iff t).mp h)) (iblk3 V c 0 t) (iblk3 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt3 V c t.val t.isLt); isplitr
        · ipureintro; exact succ_inv3 V c t
        · rw [accAt3_first V c t h0]; unfold accFirst3 owns; iexists _; isplitr
          swap; · iexact Hs
          ipureintro; exact View.read_writes_of_cover _ _ _ _ _ (coverFirst3 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle3_of_last t h1]; dsimp only
      rw [after3_2, show outAt3 V c t = outLast3 c (grid3.coords t) (ms3_0 t) (hs3_0 t) (ms3_1 t) (hs3_1 t) (ms3_2 t) (hs3_2 t) sc3 hsc3
          (iblk3 V c 0 t) (iblk3 V c 1 t) (accAt3 V c (t.val - 1) (Nat.lt_of_le_of_lt (Nat.sub_le _ _) t.isLt))
          (fun h' => h0 ((first3_iff t).mp h')) ((last3_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt3 V c (t.val - 1) (Nat.lt_of_le_of_lt (Nat.sub_le _ _) t.isLt) :=
        hs (t.val - 1) _ (by rw [Fin.coe_castSucc]; omega)
      iapply ((runLast3 c (grid3.coords t) (ms3_0 t) (hs3_0 t) (ms3_1 t) (hs3_1 t) (ms3_2 t) (hs3_2 t) sc3 hsc3
        (fun h => h0 ((first3_iff t).mp h)) ((last3_iff t).mpr h1) (iblk3 V c 0 t) (iblk3 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt3 V c t.val t.isLt); isplitr
          · ipureintro; exact succ_inv3 V c t
          · rw [accAt3_last V c t h0 h1]; unfold accLast3 owns; iexists _; isplitr
            swap; · iexact Hs
            ipureintro; exact View.read_writes_of_cover _ _ _ _ _ (coverLastAcc3 c _ _ _ _ _ _ _ _ _ _ _ _ _ _)
        · iexact Hrest
      isplitl [Ho]; · iexact Ho
      isplitl [H0]; · iexact H0
      isplitl [H1]; · iexact H1
      unfold outLast3 owns; iexists _; isplitr
      swap; · iexact H2
      ipureintro; exact View.read_writes_of_cover _ _ _ _ _ (coverLastOut3 c _ _ _ _ _ _ _ _ _ _ _ _ _ _)
    · rw [idle3_of_not_last t h1, flush3_of_not_last t h1]; dsimp only
      iintro ⟨⟨⟨%s, %hs, Hs⟩, Hrest⟩, Ho, ⟨%d0, H0⟩, ⟨%d1, H1⟩, ⟨%d2, H2⟩⟩
      obtain rfl : s = accAt3 V c (t.val - 1) (Nat.lt_of_le_of_lt (Nat.sub_le _ _) t.isLt) :=
        hs (t.val - 1) _ (by rw [Fin.coe_castSucc]; omega)
      iapply ((runMid3 c (grid3.coords t) (ms3_0 t) (hs3_0 t) (ms3_1 t) (hs3_1 t) (ms3_2 t) (hs3_2 t) sc3 hsc3
        (fun h => h0 ((first3_iff t).mp h)) (fun h => h1 ((last3_iff t).mp h)) (iblk3 V c 0 t) (iblk3 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt3 V c t.val t.isLt); isplitr
          · ipureintro; exact succ_inv3 V c t
          · rw [accAt3_mid V c t h0 h1]; unfold accMid3 owns; iexists _; isplitr
            swap; · iexact Hs
            ipureintro; exact View.read_writes_of_cover _ _ _ _ _ (coverMid3 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg3.lean ====
/-
  Region 3 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R3Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V27 m ρ) c).loose
  hwaits := Pipeline.hwaits_of_owed_zero _ _ _ _ L lv 3 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X _ := BI.emp
  Y _ := BI.emp
  Z c := Pipeline.unscopedRest (Ix := Unit) (Name := ℕ) (U := UR sig nD τ) (Lvl := ℕ) spec3 c (V27 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V27 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 3 c).Φ 0 = Φ3 (V27 m ρ) c 0 from rfl, show (Pipeline.scopedRest (Ix := Unit) (Name := ℕ) (U := UR sig nD τ) (Lvl := ℕ) (Val := Elt F) (Pipeline.pin (pcfgs (F := F)) adm 3).spec c : sProp 𝕄) = _ from scopedRest3_split c]; unfold Φ3
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 3 c).Φ (Fin.last _) = Φ3 (V27 m ρ) c (Fin.last _) from rfl, show (Pipeline.scopedRest (Ix := Unit) (Name := ℕ) (U := UR sig nD τ) (Lvl := ℕ) (Val := Elt F) (Pipeline.pin (pcfgs (F := F)) adm 3).spec c : sProp 𝕄) = _ from scopedRest3_split c]; unfold Φ3
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V27 m ρ c) (V28 m ρ c) ((pdats m ρ 3 c).arrAt · cfg3.N) (hF3 m ρ c) (hrest3 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R4Obl.lean ====
/-
  Region 4: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R4Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle4_of_not_last (t : Fin cfg4.N) (h1 : ¬ t.val % 8 = 7) : idle4 2 (grid4.coords t) = true := by
  have h : ¬ last4 (grid4.coords t) := fun h => h1 ((last4_iff t).mp h)
  show (!(k4_cond2 (grid4.coords t) == 1#1)) = true
  simp only [Bool.not_eq_true', beq_eq_false_iff_ne, ne_eq]; exact h
theorem idle4_of_last (t : Fin cfg4.N) (h1 : t.val % 8 = 7) : idle4 2 (grid4.coords t) = false := by
  have h : last4 (grid4.coords t) := (last4_iff t).mpr h1
  show (!(k4_cond2 (grid4.coords t) == 1#1)) = false
  simp only [Bool.not_eq_false', beq_iff_eq]; exact h
/-- and is written back only at the last ones. -/
theorem flush4_of_not_last (t : Fin cfg4.N) (h1 : ¬ t.val % 8 = 7) : (win4 2).flush t = false :=
  Bool.eq_false_iff.mpr fun h => h1 ((flush4_2 t).mp h)

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns: the output tile's buffer as found where the window is idle, else at what the point writes. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ (match cfg4.idle 2 (cfg4.grid.coords t) with
        | true =>
          (match (cfg4.win 2).flush t with
            | false => iprop(∃ d, owns (c : Thread nD τ) (ms4_2 t) fullShare ((dat4 V c).before 2 t d))
            | true => owns (c : Thread nD τ) (ms4_2 t) fullShare ((dat4 V c).after 2 t))
        | false => owns (c : Thread nD τ) (ms4_2 t) fullShare ((dat4 V c).after 2 t)))

theorem succ_inv4 (c : Dev nD) (t : Fin cfg4.N) :
    ∀ (n : ℕ) (hn : n < cfg4.N), t.succ.val = n + 1 → accAt4 V c t.val t.isLt = accAt4 V c n hn := by
  intro n hn hj
  have hn' : n = t.val := by rw [Fin.val_succ] at hj; omega
  subst hn'; rfl

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl, after4_0, after4_1,
    show (dat4 V c).Φ t.castSucc = Φ4 V c t.castSucc from rfl, show (dat4 V c).Φ t.succ = Φ4 V c t.succ from rfl]
  unfold Φ4
  by_cases h0 : t.val % 8 = 0
  · have h1 : ¬ t.val % 8 = 7 := not_last_of_first4 h0
    rw [idle4_of_not_last t h1, flush4_of_not_last t h1]; dsimp only
    iintro ⟨⟨⟨%s, -, Hs⟩, Hrest⟩, Ho, ⟨%d0, H0⟩, ⟨%d1, H1⟩, ⟨%d2, H2⟩⟩
    iapply ((runFirst4 c (grid4.coords t) (ms4_0 t) (hs4_0 t) (ms4_1 t) (hs4_1 t) (ms4_2 t) (hs4_2 t) sc4 hsc4
      ((first4_iff t).mpr h0) (fun h => h1 ((last4_iff t).mp h)) (iblk4 V c 0 t) (iblk4 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt4 V c t.val t.isLt); isplitr
        · ipureintro; exact succ_inv4 V c t
        · rw [accAt4_first V c t h0]; unfold accFirst4 owns; iexists _; isplitr
          swap; · iexact Hs
          ipureintro; exact View.read_writes_of_cover _ _ _ _ _ (coverFirst4 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle4_of_last t h1]; dsimp only
      rw [after4_2, show outAt4 V c t = outLast4 c (grid4.coords t) (ms4_0 t) (hs4_0 t) (ms4_1 t) (hs4_1 t) (ms4_2 t) (hs4_2 t) sc4 hsc4
          (iblk4 V c 0 t) (iblk4 V c 1 t) (accAt4 V c (t.val - 1) (Nat.lt_of_le_of_lt (Nat.sub_le _ _) t.isLt))
          (fun h' => h0 ((first4_iff t).mp h')) ((last4_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt4 V c (t.val - 1) (Nat.lt_of_le_of_lt (Nat.sub_le _ _) t.isLt) :=
        hs (t.val - 1) _ (by rw [Fin.coe_castSucc]; omega)
      iapply ((runLast4 c (grid4.coords t) (ms4_0 t) (hs4_0 t) (ms4_1 t) (hs4_1 t) (ms4_2 t) (hs4_2 t) sc4 hsc4
        (fun h => h0 ((first4_iff t).mp h)) ((last4_iff t).mpr h1) (iblk4 V c 0 t) (iblk4 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt4 V c t.val t.isLt); isplitr
          · ipureintro; exact succ_inv4 V c t
          · rw [accAt4_last V c t h0 h1]; unfold accLast4 owns; iexists _; isplitr
            swap; · iexact Hs
            ipureintro; exact View.read_writes_of_cover _ _ _ _ _ (coverLastAcc4 c _ _ _ _ _ _ _ _ _ _ _ _ _ _)
        · iexact Hrest
      isplitl [Ho]; · iexact Ho
      isplitl [H0]; · iexact H0
      isplitl [H1]; · iexact H1
      unfold outLast4 owns; iexists _; isplitr
      swap; · iexact H2
      ipureintro; exact View.read_writes_of_cover _ _ _ _ _ (coverLastOut4 c _ _ _ _ _ _ _ _ _ _ _ _ _ _)
    · rw [idle4_of_not_last t h1, flush4_of_not_last t h1]; dsimp only
      iintro ⟨⟨⟨%s, %hs, Hs⟩, Hrest⟩, Ho, ⟨%d0, H0⟩, ⟨%d1, H1⟩, ⟨%d2, H2⟩⟩
      obtain rfl : s = accAt4 V c (t.val - 1) (Nat.lt_of_le_of_lt (Nat.sub_le _ _) t.isLt) :=
        hs (t.val - 1) _ (by rw [Fin.coe_castSucc]; omega)
      iapply ((runMid4 c (grid4.coords t) (ms4_0 t) (hs4_0 t) (ms4_1 t) (hs4_1 t) (ms4_2 t) (hs4_2 t) sc4 hsc4
        (fun h => h0 ((first4_iff t).mp h)) (fun h => h1 ((last4_iff t).mp h)) (iblk4 V c 0 t) (iblk4 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt4 V c t.val t.isLt); isplitr
          · ipureintro; exact succ_inv4 V c t
          · rw [accAt4_mid V c t h0 h1]; unfold accMid4 owns; iexists _; isplitr
            swap; · iexact Hs
            ipureintro; exact View.read_writes_of_cover _ _ _ _ _ (coverMid4 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg4.lean ====
/-
  Region 4 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R4Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V36 m ρ) c).loose
  hwaits := Pipeline.hwaits_of_owed_zero _ _ _ _ L lv 4 fun _ _ => rfl
  pre c := iprop(StableHlo.held (c : Thread nD τ) (Pipeline.ucRefs τ sig) (W36 m ρ c) ∗ R c)
  post c := iprop(StableHlo.held (c : Thread nD τ) (Pipeline.ucRefs τ sig) (W37 m ρ c) ∗ R c)
  X _ := BI.emp
  Y _ := BI.emp
  Z c := Pipeline.unscopedRest (Ix := Unit) (Name := ℕ) (U := UR sig nD τ) (Lvl := ℕ) spec4 c (V36 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V36 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 4 c).Φ 0 = Φ4 (V36 m ρ) c 0 from rfl, show (Pipeline.scopedRest (Ix := Unit) (Name := ℕ) (U := UR sig nD τ) (Lvl := ℕ) (Val := Elt F) (Pipeline.pin (pcfgs (F := F)) adm 4).spec c : sProp 𝕄) = _ from scopedRest4_split c]; unfold Φ4
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 4 c).Φ (Fin.last _) = Φ4 (V36 m ρ) c (Fin.last _) from rfl, show (Pipeline.scopedRest (Ix := Unit) (Name := ℕ) (U := UR sig nD τ) (Lvl := ℕ) (Val := Elt F) (Pipeline.pin (pcfgs (F := F)) adm 4).spec c : sProp 𝕄) = _ from scopedRest4_split c]; unfold Φ4
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V36 m ρ c) (V37 m ρ c) ((pdats m ρ 4 c).arrAt · cfg4.N) (hF4 m ρ c) (hrest4 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R5Obl.lean ====
/-
  Region 5: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R5Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle5_of_not_last (t : Fin cfg5.N) (h1 : ¬ t.val % 8 = 7) : idle5 2 (grid5.coords t) = true := by
  have h : ¬ last5 (grid5.coords t) := fun h => h1 ((last5_iff t).mp h)
  show (!(k5_cond2 (grid5.coords t) == 1#1)) = true
  simp only [Bool.not_eq_true', beq_eq_false_iff_ne, ne_eq]; exact h
theorem idle5_of_last (t : Fin cfg5.N) (h1 : t.val % 8 = 7) : idle5 2 (grid5.coords t) = false := by
  have h : last5 (grid5.coords t) := (last5_iff t).mpr h1
  show (!(k5_cond2 (grid5.coords t) == 1#1)) = false
  simp only [Bool.not_eq_false', beq_iff_eq]; exact h
/-- and is written back only at the last ones. -/
theorem flush5_of_not_last (t : Fin cfg5.N) (h1 : ¬ t.val % 8 = 7) : (win5 2).flush t = false :=
  Bool.eq_false_iff.mpr fun h => h1 ((flush5_2 t).mp h)

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns: the output tile's buffer as found where the window is idle, else at what the point writes. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ (match cfg5.idle 2 (cfg5.grid.coords t) with
        | true =>
          (match (cfg5.win 2).flush t with
            | false => iprop(∃ d, owns (c : Thread nD τ) (ms5_2 t) fullShare ((dat5 V c).before 2 t d))
            | true => owns (c : Thread nD τ) (ms5_2 t) fullShare ((dat5 V c).after 2 t))
        | false => owns (c : Thread nD τ) (ms5_2 t) fullShare ((dat5 V c).after 2 t)))

theorem succ_inv5 (c : Dev nD) (t : Fin cfg5.N) :
    ∀ (n : ℕ) (hn : n < cfg5.N), t.succ.val = n + 1 → accAt5 V c t.val t.isLt = accAt5 V c n hn := by
  intro n hn hj
  have hn' : n = t.val := by rw [Fin.val_succ] at hj; omega
  subst hn'; rfl

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl, after5_0, after5_1,
    show (dat5 V c).Φ t.castSucc = Φ5 V c t.castSucc from rfl, show (dat5 V c).Φ t.succ = Φ5 V c t.succ from rfl]
  unfold Φ5
  by_cases h0 : t.val % 8 = 0
  · have h1 : ¬ t.val % 8 = 7 := not_last_of_first5 h0
    rw [idle5_of_not_last t h1, flush5_of_not_last t h1]; dsimp only
    iintro ⟨⟨⟨%s, -, Hs⟩, Hrest⟩, Ho, ⟨%d0, H0⟩, ⟨%d1, H1⟩, ⟨%d2, H2⟩⟩
    iapply ((runFirst5 c (grid5.coords t) (ms5_0 t) (hs5_0 t) (ms5_1 t) (hs5_1 t) (ms5_2 t) (hs5_2 t) sc5 hsc5
      ((first5_iff t).mpr h0) (fun h => h1 ((last5_iff t).mp h)) (iblk5 V c 0 t) (iblk5 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt5 V c t.val t.isLt); isplitr
        · ipureintro; exact succ_inv5 V c t
        · rw [accAt5_first V c t h0]; unfold accFirst5 owns; iexists _; isplitr
          swap; · iexact Hs
          ipureintro; exact View.read_writes_of_cover _ _ _ _ _ (coverFirst5 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle5_of_last t h1]; dsimp only
      rw [after5_2, show outAt5 V c t = outLast5 c (grid5.coords t) (ms5_0 t) (hs5_0 t) (ms5_1 t) (hs5_1 t) (ms5_2 t) (hs5_2 t) sc5 hsc5
          (iblk5 V c 0 t) (iblk5 V c 1 t) (accAt5 V c (t.val - 1) (Nat.lt_of_le_of_lt (Nat.sub_le _ _) t.isLt))
          (fun h' => h0 ((first5_iff t).mp h')) ((last5_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt5 V c (t.val - 1) (Nat.lt_of_le_of_lt (Nat.sub_le _ _) t.isLt) :=
        hs (t.val - 1) _ (by rw [Fin.coe_castSucc]; omega)
      iapply ((runLast5 c (grid5.coords t) (ms5_0 t) (hs5_0 t) (ms5_1 t) (hs5_1 t) (ms5_2 t) (hs5_2 t) sc5 hsc5
        (fun h => h0 ((first5_iff t).mp h)) ((last5_iff t).mpr h1) (iblk5 V c 0 t) (iblk5 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt5 V c t.val t.isLt); isplitr
          · ipureintro; exact succ_inv5 V c t
          · rw [accAt5_last V c t h0 h1]; unfold accLast5 owns; iexists _; isplitr
            swap; · iexact Hs
            ipureintro; exact View.read_writes_of_cover _ _ _ _ _ (coverLastAcc5 c _ _ _ _ _ _ _ _ _ _ _ _ _ _)
        · iexact Hrest
      isplitl [Ho]; · iexact Ho
      isplitl [H0]; · iexact H0
      isplitl [H1]; · iexact H1
      unfold outLast5 owns; iexists _; isplitr
      swap; · iexact H2
      ipureintro; exact View.read_writes_of_cover _ _ _ _ _ (coverLastOut5 c _ _ _ _ _ _ _ _ _ _ _ _ _ _)
    · rw [idle5_of_not_last t h1, flush5_of_not_last t h1]; dsimp only
      iintro ⟨⟨⟨%s, %hs, Hs⟩, Hrest⟩, Ho, ⟨%d0, H0⟩, ⟨%d1, H1⟩, ⟨%d2, H2⟩⟩
      obtain rfl : s = accAt5 V c (t.val - 1) (Nat.lt_of_le_of_lt (Nat.sub_le _ _) t.isLt) :=
        hs (t.val - 1) _ (by rw [Fin.coe_castSucc]; omega)
      iapply ((runMid5 c (grid5.coords t) (ms5_0 t) (hs5_0 t) (ms5_1 t) (hs5_1 t) (ms5_2 t) (hs5_2 t) sc5 hsc5
        (fun h => h0 ((first5_iff t).mp h)) (fun h => h1 ((last5_iff t).mp h)) (iblk5 V c 0 t) (iblk5 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt5 V c t.val t.isLt); isplitr
          · ipureintro; exact succ_inv5 V c t
          · rw [accAt5_mid V c t h0 h1]; unfold accMid5 owns; iexists _; isplitr
            swap; · iexact Hs
            ipureintro; exact View.read_writes_of_cover _ _ _ _ _ (coverMid5 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg5.lean ====
/-
  Region 5 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R5Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V38 m ρ) c).loose
  hwaits := Pipeline.hwaits_of_owed_zero _ _ _ _ L lv 5 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X _ := BI.emp
  Y _ := BI.emp
  Z c := Pipeline.unscopedRest (Ix := Unit) (Name := ℕ) (U := UR sig nD τ) (Lvl := ℕ) spec5 c (V38 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V38 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 5 c).Φ 0 = Φ5 (V38 m ρ) c 0 from rfl, show (Pipeline.scopedRest (Ix := Unit) (Name := ℕ) (U := UR sig nD τ) (Lvl := ℕ) (Val := Elt F) (Pipeline.pin (pcfgs (F := F)) adm 5).spec c : sProp 𝕄) = _ from scopedRest5_split c]; unfold Φ5
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 5 c).Φ (Fin.last _) = Φ5 (V38 m ρ) c (Fin.last _) from rfl, show (Pipeline.scopedRest (Ix := Unit) (Name := ℕ) (U := UR sig nD τ) (Lvl := ℕ) (Val := Elt F) (Pipeline.pin (pcfgs (F := F)) adm 5).spec c : sProp 𝕄) = _ from scopedRest5_split c]; unfold Φ5
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V38 m ρ c) (V39 m ρ c) ((pdats m ρ 5 c).arrAt · cfg5.N) (hF5 m ρ c) (hrest5 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R6Obl.lean ====
/-
  Region 6: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R6Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle6_of_not_last (t : Fin cfg6.N) (h1 : ¬ t.val % 8 = 7) : idle6 2 (grid6.coords t) = true := by
  have h : ¬ last6 (grid6.coords t) := fun h => h1 ((last6_iff t).mp h)
  show (!(k6_cond2 (grid6.coords t) == 1#1)) = true
  simp only [Bool.not_eq_true', beq_eq_false_iff_ne, ne_eq]; exact h
theorem idle6_of_last (t : Fin cfg6.N) (h1 : t.val % 8 = 7) : idle6 2 (grid6.coords t) = false := by
  have h : last6 (grid6.coords t) := (last6_iff t).mpr h1
  show (!(k6_cond2 (grid6.coords t) == 1#1)) = false
  simp only [Bool.not_eq_false', beq_iff_eq]; exact h
/-- and is written back only at the last ones. -/
theorem flush6_of_not_last (t : Fin cfg6.N) (h1 : ¬ t.val % 8 = 7) : (win6 2).flush t = false :=
  Bool.eq_false_iff.mpr fun h => h1 ((flush6_2 t).mp h)

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns: the output tile's buffer as found where the window is idle, else at what the point writes. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ (match cfg6.idle 2 (cfg6.grid.coords t) with
        | true =>
          (match (cfg6.win 2).flush t with
            | false => iprop(∃ d, owns (c : Thread nD τ) (ms6_2 t) fullShare ((dat6 V c).before 2 t d))
            | true => owns (c : Thread nD τ) (ms6_2 t) fullShare ((dat6 V c).after 2 t))
        | false => owns (c : Thread nD τ) (ms6_2 t) fullShare ((dat6 V c).after 2 t)))

theorem succ_inv6 (c : Dev nD) (t : Fin cfg6.N) :
    ∀ (n : ℕ) (hn : n < cfg6.N), t.succ.val = n + 1 → accAt6 V c t.val t.isLt = accAt6 V c n hn := by
  intro n hn hj
  have hn' : n = t.val := by rw [Fin.val_succ] at hj; omega
  subst hn'; rfl

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl, after6_0, after6_1,
    show (dat6 V c).Φ t.castSucc = Φ6 V c t.castSucc from rfl, show (dat6 V c).Φ t.succ = Φ6 V c t.succ from rfl]
  unfold Φ6
  by_cases h0 : t.val % 8 = 0
  · have h1 : ¬ t.val % 8 = 7 := not_last_of_first6 h0
    rw [idle6_of_not_last t h1, flush6_of_not_last t h1]; dsimp only
    iintro ⟨⟨⟨%s, -, Hs⟩, Hrest⟩, Ho, ⟨%d0, H0⟩, ⟨%d1, H1⟩, ⟨%d2, H2⟩⟩
    iapply ((runFirst6 c (grid6.coords t) (ms6_0 t) (hs6_0 t) (ms6_1 t) (hs6_1 t) (ms6_2 t) (hs6_2 t) sc6 hsc6
      ((first6_iff t).mpr h0) (fun h => h1 ((last6_iff t).mp h)) (iblk6 V c 0 t) (iblk6 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt6 V c t.val t.isLt); isplitr
        · ipureintro; exact succ_inv6 V c t
        · rw [accAt6_first V c t h0]; unfold accFirst6 owns; iexists _; isplitr
          swap; · iexact Hs
          ipureintro; exact View.read_writes_of_cover _ _ _ _ _ (coverFirst6 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle6_of_last t h1]; dsimp only
      rw [after6_2, show outAt6 V c t = outLast6 c (grid6.coords t) (ms6_0 t) (hs6_0 t) (ms6_1 t) (hs6_1 t) (ms6_2 t) (hs6_2 t) sc6 hsc6
          (iblk6 V c 0 t) (iblk6 V c 1 t) (accAt6 V c (t.val - 1) (Nat.lt_of_le_of_lt (Nat.sub_le _ _) t.isLt))
          (fun h' => h0 ((first6_iff t).mp h')) ((last6_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt6 V c (t.val - 1) (Nat.lt_of_le_of_lt (Nat.sub_le _ _) t.isLt) :=
        hs (t.val - 1) _ (by rw [Fin.coe_castSucc]; omega)
      iapply ((runLast6 c (grid6.coords t) (ms6_0 t) (hs6_0 t) (ms6_1 t) (hs6_1 t) (ms6_2 t) (hs6_2 t) sc6 hsc6
        (fun h => h0 ((first6_iff t).mp h)) ((last6_iff t).mpr h1) (iblk6 V c 0 t) (iblk6 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt6 V c t.val t.isLt); isplitr
          · ipureintro; exact succ_inv6 V c t
          · rw [accAt6_last V c t h0 h1]; unfold accLast6 owns; iexists _; isplitr
            swap; · iexact Hs
            ipureintro; exact View.read_writes_of_cover _ _ _ _ _ (coverLastAcc6 c _ _ _ _ _ _ _ _ _ _ _ _ _ _)
        · iexact Hrest
      isplitl [Ho]; · iexact Ho
      isplitl [H0]; · iexact H0
      isplitl [H1]; · iexact H1
      unfold outLast6 owns; iexists _; isplitr
      swap; · iexact H2
      ipureintro; exact View.read_writes_of_cover _ _ _ _ _ (coverLastOut6 c _ _ _ _ _ _ _ _ _ _ _ _ _ _)
    · rw [idle6_of_not_last t h1, flush6_of_not_last t h1]; dsimp only
      iintro ⟨⟨⟨%s, %hs, Hs⟩, Hrest⟩, Ho, ⟨%d0, H0⟩, ⟨%d1, H1⟩, ⟨%d2, H2⟩⟩
      obtain rfl : s = accAt6 V c (t.val - 1) (Nat.lt_of_le_of_lt (Nat.sub_le _ _) t.isLt) :=
        hs (t.val - 1) _ (by rw [Fin.coe_castSucc]; omega)
      iapply ((runMid6 c (grid6.coords t) (ms6_0 t) (hs6_0 t) (ms6_1 t) (hs6_1 t) (ms6_2 t) (hs6_2 t) sc6 hsc6
        (fun h => h0 ((first6_iff t).mp h)) (fun h => h1 ((last6_iff t).mp h)) (iblk6 V c 0 t) (iblk6 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt6 V c t.val t.isLt); isplitr
          · ipureintro; exact succ_inv6 V c t
          · rw [accAt6_mid V c t h0 h1]; unfold accMid6 owns; iexists _; isplitr
            swap; · iexact Hs
            ipureintro; exact View.read_writes_of_cover _ _ _ _ _ (coverMid6 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg6.lean ====
/-
  Region 6 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R6Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V40 m ρ) c).loose
  hwaits := Pipeline.hwaits_of_owed_zero _ _ _ _ L lv 6 fun _ _ => rfl
  pre c := iprop(StableHlo.held (c : Thread nD τ) (Pipeline.ucRefs τ sig) (W40 m ρ c) ∗ R c)
  post c := iprop(StableHlo.held (c : Thread nD τ) (Pipeline.ucRefs τ sig) (W41 m ρ c) ∗ R c)
  X _ := BI.emp
  Y _ := BI.emp
  Z c := Pipeline.unscopedRest (Ix := Unit) (Name := ℕ) (U := UR sig nD τ) (Lvl := ℕ) spec6 c (V40 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V40 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 6 c).Φ 0 = Φ6 (V40 m ρ) c 0 from rfl, show (Pipeline.scopedRest (Ix := Unit) (Name := ℕ) (U := UR sig nD τ) (Lvl := ℕ) (Val := Elt F) (Pipeline.pin (pcfgs (F := F)) adm 6).spec c : sProp 𝕄) = _ from scopedRest6_split c]; unfold Φ6
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 6 c).Φ (Fin.last _) = Φ6 (V40 m ρ) c (Fin.last _) from rfl, show (Pipeline.scopedRest (Ix := Unit) (Name := ℕ) (U := UR sig nD τ) (Lvl := ℕ) (Val := Elt F) (Pipeline.pin (pcfgs (F := F)) adm 6).spec c : sProp 𝕄) = _ from scopedRest6_split c]; unfold Φ6
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V40 m ρ c) (V41 m ρ c) ((pdats m ρ 6 c).arrAt · cfg6.N) (hF6 m ρ c) (hrest6 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R7Obl.lean ====
/-
  Region 7: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R7Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle7_of_not_last (t : Fin cfg7.N) (h1 : ¬ t.val % 8 = 7) : idle7 2 (grid7.coords t) = true := by
  have h : ¬ last7 (grid7.coords t) := fun h => h1 ((last7_iff t).mp h)
  show (!(k7_cond2 (grid7.coords t) == 1#1)) = true
  simp only [Bool.not_eq_true', beq_eq_false_iff_ne, ne_eq]; exact h
theorem idle7_of_last (t : Fin cfg7.N) (h1 : t.val % 8 = 7) : idle7 2 (grid7.coords t) = false := by
  have h : last7 (grid7.coords t) := (last7_iff t).mpr h1
  show (!(k7_cond2 (grid7.coords t) == 1#1)) = false
  simp only [Bool.not_eq_false', beq_iff_eq]; exact h
/-- and is written back only at the last ones. -/
theorem flush7_of_not_last (t : Fin cfg7.N) (h1 : ¬ t.val % 8 = 7) : (win7 2).flush t = false :=
  Bool.eq_false_iff.mpr fun h => h1 ((flush7_2 t).mp h)

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns: the output tile's buffer as found where the window is idle, else at what the point writes. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ (match cfg7.idle 2 (cfg7.grid.coords t) with
        | true =>
          (match (cfg7.win 2).flush t with
            | false => iprop(∃ d, owns (c : Thread nD τ) (ms7_2 t) fullShare ((dat7 V c).before 2 t d))
            | true => owns (c : Thread nD τ) (ms7_2 t) fullShare ((dat7 V c).after 2 t))
        | false => owns (c : Thread nD τ) (ms7_2 t) fullShare ((dat7 V c).after 2 t)))

theorem succ_inv7 (c : Dev nD) (t : Fin cfg7.N) :
    ∀ (n : ℕ) (hn : n < cfg7.N), t.succ.val = n + 1 → accAt7 V c t.val t.isLt = accAt7 V c n hn := by
  intro n hn hj
  have hn' : n = t.val := by rw [Fin.val_succ] at hj; omega
  subst hn'; rfl

set_option maxHeartbeats 1600000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl, after7_0, after7_1,
    show (dat7 V c).Φ t.castSucc = Φ7 V c t.castSucc from rfl, show (dat7 V c).Φ t.succ = Φ7 V c t.succ from rfl]
  unfold Φ7
  by_cases h0 : t.val % 8 = 0
  · have h1 : ¬ t.val % 8 = 7 := not_last_of_first7 h0
    rw [idle7_of_not_last t h1, flush7_of_not_last t h1]; dsimp only
    iintro ⟨⟨⟨%s, -, Hs⟩, Hrest⟩, Ho, ⟨%d0, H0⟩, ⟨%d1, H1⟩, ⟨%d2, H2⟩⟩
    iapply ((runFirst7 c (grid7.coords t) (ms7_0 t) (hs7_0 t) (ms7_1 t) (hs7_1 t) (ms7_2 t) (hs7_2 t) sc7 hsc7
      ((first7_iff t).mpr h0) (fun h => h1 ((last7_iff t).mp h)) (iblk7 V c 0 t) (iblk7 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt7 V c t.val t.isLt); isplitr
        · ipureintro; exact succ_inv7 V c t
        · rw [accAt7_first V c t h0]; unfold accFirst7 owns; iexists _; isplitr
          swap; · iexact Hs
          ipureintro; exact View.read_writes_of_cover _ _ _ _ _ (coverFirst7 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle7_of_last t h1]; dsimp only
      rw [after7_2, show outAt7 V c t = outLast7 c (grid7.coords t) (ms7_0 t) (hs7_0 t) (ms7_1 t) (hs7_1 t) (ms7_2 t) (hs7_2 t) sc7 hsc7
          (iblk7 V c 0 t) (iblk7 V c 1 t) (accAt7 V c (t.val - 1) (Nat.lt_of_le_of_lt (Nat.sub_le _ _) t.isLt))
          (fun h' => h0 ((first7_iff t).mp h')) ((last7_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt7 V c (t.val - 1) (Nat.lt_of_le_of_lt (Nat.sub_le _ _) t.isLt) :=
        hs (t.val - 1) _ (by rw [Fin.coe_castSucc]; omega)
      iapply ((runLast7 c (grid7.coords t) (ms7_0 t) (hs7_0 t) (ms7_1 t) (hs7_1 t) (ms7_2 t) (hs7_2 t) sc7 hsc7
        (fun h => h0 ((first7_iff t).mp h)) ((last7_iff t).mpr h1) (iblk7 V c 0 t) (iblk7 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt7 V c t.val t.isLt); isplitr
          · ipureintro; exact succ_inv7 V c t
          · rw [accAt7_last V c t h0 h1]; unfold accLast7 owns; iexists _; isplitr
            swap; · iexact Hs
            ipureintro; exact View.read_writes_of_cover _ _ _ _ _ (coverLastAcc7 c _ _ _ _ _ _ _ _ _ _ _ _ _ _)
        · iexact Hrest
      isplitl [Ho]; · iexact Ho
      isplitl [H0]; · iexact H0
      isplitl [H1]; · iexact H1
      unfold outLast7 owns; iexists _; isplitr
      swap; · iexact H2
      ipureintro; exact View.read_writes_of_cover _ _ _ _ _ (coverLastOut7 c _ _ _ _ _ _ _ _ _ _ _ _ _ _)
    · rw [idle7_of_not_last t h1, flush7_of_not_last t h1]; dsimp only
      iintro ⟨⟨⟨%s, %hs, Hs⟩, Hrest⟩, Ho, ⟨%d0, H0⟩, ⟨%d1, H1⟩, ⟨%d2, H2⟩⟩
      obtain rfl : s = accAt7 V c (t.val - 1) (Nat.lt_of_le_of_lt (Nat.sub_le _ _) t.isLt) :=
        hs (t.val - 1) _ (by rw [Fin.coe_castSucc]; omega)
      iapply ((runMid7 c (grid7.coords t) (ms7_0 t) (hs7_0 t) (ms7_1 t) (hs7_1 t) (ms7_2 t) (hs7_2 t) sc7 hsc7
        (fun h => h0 ((first7_iff t).mp h)) (fun h => h1 ((last7_iff t).mp h)) (iblk7 V c 0 t) (iblk7 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt7 V c t.val t.isLt); isplitr
          · ipureintro; exact succ_inv7 V c t
          · rw [accAt7_mid V c t h0 h1]; unfold accMid7 owns; iexists _; isplitr
            swap; · iexact Hs
            ipureintro; exact View.read_writes_of_cover _ _ _ _ _ (coverMid7 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg7.lean ====
/-
  Region 7 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R7Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V41 m ρ) c).loose
  hwaits := Pipeline.hwaits_of_owed_zero _ _ _ _ L lv 7 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X _ := BI.emp
  Y _ := BI.emp
  Z c := Pipeline.unscopedRest (Ix := Unit) (Name := ℕ) (U := UR sig nD τ) (Lvl := ℕ) spec7 c (V41 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V41 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 7 c).Φ 0 = Φ7 (V41 m ρ) c 0 from rfl, show (Pipeline.scopedRest (Ix := Unit) (Name := ℕ) (U := UR sig nD τ) (Lvl := ℕ) (Val := Elt F) (Pipeline.pin (pcfgs (F := F)) adm 7).spec c : sProp 𝕄) = _ from scopedRest7_split c]; unfold Φ7
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 7 c).Φ (Fin.last _) = Φ7 (V41 m ρ) c (Fin.last _) from rfl, show (Pipeline.scopedRest (Ix := Unit) (Name := ℕ) (U := UR sig nD τ) (Lvl := ℕ) (Val := Elt F) (Pipeline.pin (pcfgs (F := F)) adm 7).spec c : sProp 𝕄) = _ from scopedRest7_split c]; unfold Φ7
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V41 m ρ c) (V42 m ρ c) ((pdats m ρ 7 c).arrAt · cfg7.N) (hF7 m ρ c) (hrest7 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R8Obl.lean ====
/-
  Region 8: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R8Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle8_of_not_last (t : Fin cfg8.N) (h1 : ¬ t.val % 8 = 7) : idle8 2 (grid8.coords t) = true := by
  have h : ¬ last8 (grid8.coords t) := fun h => h1 ((last8_iff t).mp h)
  show (!(k8_cond2 (grid8.coords t) == 1#1)) = true
  simp only [Bool.not_eq_true', beq_eq_false_iff_ne, ne_eq]; exact h
theorem idle8_of_last (t : Fin cfg8.N) (h1 : t.val % 8 = 7) : idle8 2 (grid8.coords t) = false := by
  have h : last8 (grid8.coords t) := (last8_iff t).mpr h1
  show (!(k8_cond2 (grid8.coords t) == 1#1)) = false
  simp only [Bool.not_eq_false', beq_iff_eq]; exact h
/-- and is written back only at the last ones. -/
theorem flush8_of_not_last (t : Fin cfg8.N) (h1 : ¬ t.val % 8 = 7) : (win8 2).flush t = false :=
  Bool.eq_false_iff.mpr fun h => h1 ((flush8_2 t).mp h)

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns: the output tile's buffer as found where the window is idle, else at what the point writes. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ (match cfg8.idle 2 (cfg8.grid.coords t) with
        | true =>
          (match (cfg8.win 2).flush t with
            | false => iprop(∃ d, owns (c : Thread nD τ) (ms8_2 t) fullShare ((dat8 V c).before 2 t d))
            | true => owns (c : Thread nD τ) (ms8_2 t) fullShare ((dat8 V c).after 2 t))
        | false => owns (c : Thread nD τ) (ms8_2 t) fullShare ((dat8 V c).after 2 t)))

theorem succ_inv8 (c : Dev nD) (t : Fin cfg8.N) :
    ∀ (n : ℕ) (hn : n < cfg8.N), t.succ.val = n + 1 → accAt8 V c t.val t.isLt = accAt8 V c n hn := by
  intro n hn hj
  have hn' : n = t.val := by rw [Fin.val_succ] at hj; omega
  subst hn'; rfl

set_option maxHeartbeats 1600000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl, after8_0, after8_1,
    show (dat8 V c).Φ t.castSucc = Φ8 V c t.castSucc from rfl, show (dat8 V c).Φ t.succ = Φ8 V c t.succ from rfl]
  unfold Φ8
  by_cases h0 : t.val % 8 = 0
  · have h1 : ¬ t.val % 8 = 7 := not_last_of_first8 h0
    rw [idle8_of_not_last t h1, flush8_of_not_last t h1]; dsimp only
    iintro ⟨⟨⟨%s, -, Hs⟩, Hrest⟩, Ho, ⟨%d0, H0⟩, ⟨%d1, H1⟩, ⟨%d2, H2⟩⟩
    iapply ((runFirst8 c (grid8.coords t) (ms8_0 t) (hs8_0 t) (ms8_1 t) (hs8_1 t) (ms8_2 t) (hs8_2 t) sc8 hsc8
      ((first8_iff t).mpr h0) (fun h => h1 ((last8_iff t).mp h)) (iblk8 V c 0 t) (iblk8 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt8 V c t.val t.isLt); isplitr
        · ipureintro; exact succ_inv8 V c t
        · rw [accAt8_first V c t h0]; unfold accFirst8 owns; iexists _; isplitr
          swap; · iexact Hs
          ipureintro; exact View.read_writes_of_cover _ _ _ _ _ (coverFirst8 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle8_of_last t h1]; dsimp only
      rw [after8_2, show outAt8 V c t = outLast8 c (grid8.coords t) (ms8_0 t) (hs8_0 t) (ms8_1 t) (hs8_1 t) (ms8_2 t) (hs8_2 t) sc8 hsc8
          (iblk8 V c 0 t) (iblk8 V c 1 t) (accAt8 V c (t.val - 1) (Nat.lt_of_le_of_lt (Nat.sub_le _ _) t.isLt))
          (fun h' => h0 ((first8_iff t).mp h')) ((last8_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt8 V c (t.val - 1) (Nat.lt_of_le_of_lt (Nat.sub_le _ _) t.isLt) :=
        hs (t.val - 1) _ (by rw [Fin.coe_castSucc]; omega)
      iapply ((runLast8 c (grid8.coords t) (ms8_0 t) (hs8_0 t) (ms8_1 t) (hs8_1 t) (ms8_2 t) (hs8_2 t) sc8 hsc8
        (fun h => h0 ((first8_iff t).mp h)) ((last8_iff t).mpr h1) (iblk8 V c 0 t) (iblk8 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt8 V c t.val t.isLt); isplitr
          · ipureintro; exact succ_inv8 V c t
          · rw [accAt8_last V c t h0 h1]; unfold accLast8 owns; iexists _; isplitr
            swap; · iexact Hs
            ipureintro; exact View.read_writes_of_cover _ _ _ _ _ (coverLastAcc8 c _ _ _ _ _ _ _ _ _ _ _ _ _ _)
        · iexact Hrest
      isplitl [Ho]; · iexact Ho
      isplitl [H0]; · iexact H0
      isplitl [H1]; · iexact H1
      unfold outLast8 owns; iexists _; isplitr
      swap; · iexact H2
      ipureintro; exact View.read_writes_of_cover _ _ _ _ _ (coverLastOut8 c _ _ _ _ _ _ _ _ _ _ _ _ _ _)
    · rw [idle8_of_not_last t h1, flush8_of_not_last t h1]; dsimp only
      iintro ⟨⟨⟨%s, %hs, Hs⟩, Hrest⟩, Ho, ⟨%d0, H0⟩, ⟨%d1, H1⟩, ⟨%d2, H2⟩⟩
      obtain rfl : s = accAt8 V c (t.val - 1) (Nat.lt_of_le_of_lt (Nat.sub_le _ _) t.isLt) :=
        hs (t.val - 1) _ (by rw [Fin.coe_castSucc]; omega)
      iapply ((runMid8 c (grid8.coords t) (ms8_0 t) (hs8_0 t) (ms8_1 t) (hs8_1 t) (ms8_2 t) (hs8_2 t) sc8 hsc8
        (fun h => h0 ((first8_iff t).mp h)) (fun h => h1 ((last8_iff t).mp h)) (iblk8 V c 0 t) (iblk8 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt8 V c t.val t.isLt); isplitr
          · ipureintro; exact succ_inv8 V c t
          · rw [accAt8_mid V c t h0 h1]; unfold accMid8 owns; iexists _; isplitr
            swap; · iexact Hs
            ipureintro; exact View.read_writes_of_cover _ _ _ _ _ (coverMid8 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg8.lean ====
/-
  Region 8 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R8Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V51 m ρ) c).loose
  hwaits := Pipeline.hwaits_of_owed_zero _ _ _ _ L lv 8 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X _ := BI.emp
  Y _ := BI.emp
  Z c := Pipeline.unscopedRest (Ix := Unit) (Name := ℕ) (U := UR sig nD τ) (Lvl := ℕ) spec8 c (V51 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V51 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 8 c).Φ 0 = Φ8 (V51 m ρ) c 0 from rfl, show (Pipeline.scopedRest (Ix := Unit) (Name := ℕ) (U := UR sig nD τ) (Lvl := ℕ) (Val := Elt F) (Pipeline.pin (pcfgs (F := F)) adm 8).spec c : sProp 𝕄) = _ from scopedRest8_split c]; unfold Φ8
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 8 c).Φ (Fin.last _) = Φ8 (V51 m ρ) c (Fin.last _) from rfl, show (Pipeline.scopedRest (Ix := Unit) (Name := ℕ) (U := UR sig nD τ) (Lvl := ℕ) (Val := Elt F) (Pipeline.pin (pcfgs (F := F)) adm 8).spec c : sProp 𝕄) = _ from scopedRest8_split c]; unfold Φ8
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V51 m ρ c) (V52 m ρ c) ((pdats m ρ 8 c).arrAt · cfg8.N) (hF8 m ρ c) (hrest8 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R9Obl.lean ====
/-
  Region 9: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R9Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle9_of_not_last (t : Fin cfg9.N) (h1 : ¬ t.val % 8 = 7) : idle9 2 (grid9.coords t) = true := by
  have h : ¬ last9 (grid9.coords t) := fun h => h1 ((last9_iff t).mp h)
  show (!(k9_cond2 (grid9.coords t) == 1#1)) = true
  simp only [Bool.not_eq_true', beq_eq_false_iff_ne, ne_eq]; exact h
theorem idle9_of_last (t : Fin cfg9.N) (h1 : t.val % 8 = 7) : idle9 2 (grid9.coords t) = false := by
  have h : last9 (grid9.coords t) := (last9_iff t).mpr h1
  show (!(k9_cond2 (grid9.coords t) == 1#1)) = false
  simp only [Bool.not_eq_false', beq_iff_eq]; exact h
/-- and is written back only at the last ones. -/
theorem flush9_of_not_last (t : Fin cfg9.N) (h1 : ¬ t.val % 8 = 7) : (win9 2).flush t = false :=
  Bool.eq_false_iff.mpr fun h => h1 ((flush9_2 t).mp h)

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

/-- and what it returns: the output tile's buffer as found where the window is idle, else at what the point writes. -/
def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ (match cfg9.idle 2 (cfg9.grid.coords t) with
        | true =>
          (match (cfg9.win 2).flush t with
            | false => iprop(∃ d, owns (c : Thread nD τ) (ms9_2 t) fullShare ((dat9 V c).before 2 t d))
            | true => owns (c : Thread nD τ) (ms9_2 t) fullShare ((dat9 V c).after 2 t))
        | false => owns (c : Thread nD τ) (ms9_2 t) fullShare ((dat9 V c).after 2 t)))

theorem succ_inv9 (c : Dev nD) (t : Fin cfg9.N) :
    ∀ (n : ℕ) (hn : n < cfg9.N), t.succ.val = n + 1 → accAt9 V c t.val t.isLt = accAt9 V c n hn := by
  intro n hn hj
  have hn' : n = t.val := by rw [Fin.val_succ] at hj; omega
  subst hn'; rfl

set_option maxHeartbeats 1600000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl, after9_0, after9_1,
    show (dat9 V c).Φ t.castSucc = Φ9 V c t.castSucc from rfl, show (dat9 V c).Φ t.succ = Φ9 V c t.succ from rfl]
  unfold Φ9
  by_cases h0 : t.val % 8 = 0
  · have h1 : ¬ t.val % 8 = 7 := not_last_of_first9 h0
    rw [idle9_of_not_last t h1, flush9_of_not_last t h1]; dsimp only
    iintro ⟨⟨⟨%s, -, Hs⟩, Hrest⟩, Ho, ⟨%d0, H0⟩, ⟨%d1, H1⟩, ⟨%d2, H2⟩⟩
    iapply ((runFirst9 c (grid9.coords t) (ms9_0 t) (hs9_0 t) (ms9_1 t) (hs9_1 t) (ms9_2 t) (hs9_2 t) sc9 hsc9
      ((first9_iff t).mpr h0) (fun h => h1 ((last9_iff t).mp h)) (iblk9 V c 0 t) (iblk9 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt9 V c t.val t.isLt); isplitr
        · ipureintro; exact succ_inv9 V c t
        · rw [accAt9_first V c t h0]; unfold accFirst9 owns; iexists _; isplitr
          swap; · iexact Hs
          ipureintro; exact View.read_writes_of_cover _ _ _ _ _ (coverFirst9 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle9_of_last t h1]; dsimp only
      rw [after9_2, show outAt9 V c t = outLast9 c (grid9.coords t) (ms9_0 t) (hs9_0 t) (ms9_1 t) (hs9_1 t) (ms9_2 t) (hs9_2 t) sc9 hsc9
          (iblk9 V c 0 t) (iblk9 V c 1 t) (accAt9 V c (t.val - 1) (Nat.lt_of_le_of_lt (Nat.sub_le _ _) t.isLt))
          (fun h' => h0 ((first9_iff t).mp h')) ((last9_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt9 V c (t.val - 1) (Nat.lt_of_le_of_lt (Nat.sub_le _ _) t.isLt) :=
        hs (t.val - 1) _ (by rw [Fin.coe_castSucc]; omega)
      iapply ((runLast9 c (grid9.coords t) (ms9_0 t) (hs9_0 t) (ms9_1 t) (hs9_1 t) (ms9_2 t) (hs9_2 t) sc9 hsc9
        (fun h => h0 ((first9_iff t).mp h)) ((last9_iff t).mpr h1) (iblk9 V c 0 t) (iblk9 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt9 V c t.val t.isLt); isplitr
          · ipureintro; exact succ_inv9 V c t
          · rw [accAt9_last V c t h0 h1]; unfold accLast9 owns; iexists _; isplitr
            swap; · iexact Hs
            ipureintro; exact View.read_writes_of_cover _ _ _ _ _ (coverLastAcc9 c _ _ _ _ _ _ _ _ _ _ _ _ _ _)
        · iexact Hrest
      isplitl [Ho]; · iexact Ho
      isplitl [H0]; · iexact H0
      isplitl [H1]; · iexact H1
      unfold outLast9 owns; iexists _; isplitr
      swap; · iexact H2
      ipureintro; exact View.read_writes_of_cover _ _ _ _ _ (coverLastOut9 c _ _ _ _ _ _ _ _ _ _ _ _ _ _)
    · rw [idle9_of_not_last t h1, flush9_of_not_last t h1]; dsimp only
      iintro ⟨⟨⟨%s, %hs, Hs⟩, Hrest⟩, Ho, ⟨%d0, H0⟩, ⟨%d1, H1⟩, ⟨%d2, H2⟩⟩
      obtain rfl : s = accAt9 V c (t.val - 1) (Nat.lt_of_le_of_lt (Nat.sub_le _ _) t.isLt) :=
        hs (t.val - 1) _ (by rw [Fin.coe_castSucc]; omega)
      iapply ((runMid9 c (grid9.coords t) (ms9_0 t) (hs9_0 t) (ms9_1 t) (hs9_1 t) (ms9_2 t) (hs9_2 t) sc9 hsc9
        (fun h => h0 ((first9_iff t).mp h)) (fun h => h1 ((last9_iff t).mp h)) (iblk9 V c 0 t) (iblk9 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt9 V c t.val t.isLt); isplitr
          · ipureintro; exact succ_inv9 V c t
          · rw [accAt9_mid V c t h0 h1]; unfold accMid9 owns; iexists _; isplitr
            swap; · iexact Hs
            ipureintro; exact View.read_writes_of_cover _ _ _ _ _ (coverMid9 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg9.lean ====
/-
  Region 9 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R9Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V53 m ρ) c).loose
  hwaits := Pipeline.hwaits_of_owed_zero _ _ _ _ L lv 9 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X _ := BI.emp
  Y _ := BI.emp
  Z c := Pipeline.unscopedRest (Ix := Unit) (Name := ℕ) (U := UR sig nD τ) (Lvl := ℕ) spec9 c (V53 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V53 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 9 c).Φ 0 = Φ9 (V53 m ρ) c 0 from rfl, show (Pipeline.scopedRest (Ix := Unit) (Name := ℕ) (U := UR sig nD τ) (Lvl := ℕ) (Val := Elt F) (Pipeline.pin (pcfgs (F := F)) adm 9).spec c : sProp 𝕄) = _ from scopedRest9_split c]; unfold Φ9
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 9 c).Φ (Fin.last _) = Φ9 (V53 m ρ) c (Fin.last _) from rfl, show (Pipeline.scopedRest (Ix := Unit) (Name := ℕ) (U := UR sig nD τ) (Lvl := ℕ) (Val := Elt F) (Pipeline.pin (pcfgs (F := F)) adm 9).spec c : sProp 𝕄) = _ from scopedRest9_split c]; unfold Φ9
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V53 m ρ c) (V54 m ρ c) ((pdats m ρ 9 c).arrAt · cfg9.N) (hF9 m ρ c) (hrest9 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R10Obl.lean ====
/-
  Region 10: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R10Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle10_of_not_last (t : Fin cfg10.N) (h1 : ¬ t.val % 8 = 7) : idle10 2 (grid10.coords t) = true := by
  have h : ¬ last10 (grid10.coords t) := fun h => h1 ((last10_iff t).mp h)
  show (!(k10_cond2 (grid10.coords t) == 1#1)) = true
  simp only [Bool.not_eq_true', beq_eq_false_iff_ne, ne_eq]; exact h
theorem idle10_of_last (t : Fin cfg10.N) (h1 : t.val % 8 = 7) : idle10 2 (grid10.coords t) = false := by
  have h : last10 (grid10.coords t) := (last10_iff t).mpr h1
  show (!(k10_cond2 (grid10.coords t) == 1#1)) = false
  simp only [Bool.not_eq_false', beq_iff_eq]; exact h
/-- and is written back only at the last ones. -/
theorem flush10_of_not_last (t : Fin cfg10.N) (h1 : ¬ t.val % 8 = 7) : (win10 2).flush t = false :=
  Bool.eq_false_iff.mpr fun h => h1 ((flush10_2 t).mp h)

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns: the output tile's buffer as found where the window is idle, else at what the point writes. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ (match cfg10.idle 2 (cfg10.grid.coords t) with
        | true =>
          (match (cfg10.win 2).flush t with
            | false => iprop(∃ d, owns (c : Thread nD τ) (ms10_2 t) fullShare ((dat10 V c).before 2 t d))
            | true => owns (c : Thread nD τ) (ms10_2 t) fullShare ((dat10 V c).after 2 t))
        | false => owns (c : Thread nD τ) (ms10_2 t) fullShare ((dat10 V c).after 2 t)))

theorem succ_inv10 (c : Dev nD) (t : Fin cfg10.N) :
    ∀ (n : ℕ) (hn : n < cfg10.N), t.succ.val = n + 1 → accAt10 V c t.val t.isLt = accAt10 V c n hn := by
  intro n hn hj
  have hn' : n = t.val := by rw [Fin.val_succ] at hj; omega
  subst hn'; rfl

set_option maxHeartbeats 1600000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl, after10_0, after10_1,
    show (dat10 V c).Φ t.castSucc = Φ10 V c t.castSucc from rfl, show (dat10 V c).Φ t.succ = Φ10 V c t.succ from rfl]
  unfold Φ10
  by_cases h0 : t.val % 8 = 0
  · have h1 : ¬ t.val % 8 = 7 := not_last_of_first10 h0
    rw [idle10_of_not_last t h1, flush10_of_not_last t h1]; dsimp only
    iintro ⟨⟨⟨%s, -, Hs⟩, Hrest⟩, Ho, ⟨%d0, H0⟩, ⟨%d1, H1⟩, ⟨%d2, H2⟩⟩
    iapply ((runFirst10 c (grid10.coords t) (ms10_0 t) (hs10_0 t) (ms10_1 t) (hs10_1 t) (ms10_2 t) (hs10_2 t) sc10 hsc10
      ((first10_iff t).mpr h0) (fun h => h1 ((last10_iff t).mp h)) (iblk10 V c 0 t) (iblk10 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt10 V c t.val t.isLt); isplitr
        · ipureintro; exact succ_inv10 V c t
        · rw [accAt10_first V c t h0]; unfold accFirst10 owns; iexists _; isplitr
          swap; · iexact Hs
          ipureintro; exact View.read_writes_of_cover _ _ _ _ _ (coverFirst10 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle10_of_last t h1]; dsimp only
      rw [after10_2, show outAt10 V c t = outLast10 c (grid10.coords t) (ms10_0 t) (hs10_0 t) (ms10_1 t) (hs10_1 t) (ms10_2 t) (hs10_2 t) sc10 hsc10
          (iblk10 V c 0 t) (iblk10 V c 1 t) (accAt10 V c (t.val - 1) (Nat.lt_of_le_of_lt (Nat.sub_le _ _) t.isLt))
          (fun h' => h0 ((first10_iff t).mp h')) ((last10_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt10 V c (t.val - 1) (Nat.lt_of_le_of_lt (Nat.sub_le _ _) t.isLt) :=
        hs (t.val - 1) _ (by rw [Fin.coe_castSucc]; omega)
      iapply ((runLast10 c (grid10.coords t) (ms10_0 t) (hs10_0 t) (ms10_1 t) (hs10_1 t) (ms10_2 t) (hs10_2 t) sc10 hsc10
        (fun h => h0 ((first10_iff t).mp h)) ((last10_iff t).mpr h1) (iblk10 V c 0 t) (iblk10 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt10 V c t.val t.isLt); isplitr
          · ipureintro; exact succ_inv10 V c t
          · rw [accAt10_last V c t h0 h1]; unfold accLast10 owns; iexists _; isplitr
            swap; · iexact Hs
            ipureintro; exact View.read_writes_of_cover _ _ _ _ _ (coverLastAcc10 c _ _ _ _ _ _ _ _ _ _ _ _ _ _)
        · iexact Hrest
      isplitl [Ho]; · iexact Ho
      isplitl [H0]; · iexact H0
      isplitl [H1]; · iexact H1
      unfold outLast10 owns; iexists _; isplitr
      swap; · iexact H2
      ipureintro; exact View.read_writes_of_cover _ _ _ _ _ (coverLastOut10 c _ _ _ _ _ _ _ _ _ _ _ _ _ _)
    · rw [idle10_of_not_last t h1, flush10_of_not_last t h1]; dsimp only
      iintro ⟨⟨⟨%s, %hs, Hs⟩, Hrest⟩, Ho, ⟨%d0, H0⟩, ⟨%d1, H1⟩, ⟨%d2, H2⟩⟩
      obtain rfl : s = accAt10 V c (t.val - 1) (Nat.lt_of_le_of_lt (Nat.sub_le _ _) t.isLt) :=
        hs (t.val - 1) _ (by rw [Fin.coe_castSucc]; omega)
      iapply ((runMid10 c (grid10.coords t) (ms10_0 t) (hs10_0 t) (ms10_1 t) (hs10_1 t) (ms10_2 t) (hs10_2 t) sc10 hsc10
        (fun h => h0 ((first10_iff t).mp h)) (fun h => h1 ((last10_iff t).mp h)) (iblk10 V c 0 t) (iblk10 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt10 V c t.val t.isLt); isplitr
          · ipureintro; exact succ_inv10 V c t
          · rw [accAt10_mid V c t h0 h1]; unfold accMid10 owns; iexists _; isplitr
            swap; · iexact Hs
            ipureintro; exact View.read_writes_of_cover _ _ _ _ _ (coverMid10 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Reg10.lean ====
/-
  Region 10 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R10Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V55 m ρ) c).loose
  hwaits := Pipeline.hwaits_of_owed_zero _ _ _ _ L lv 10 fun _ _ => rfl
  pre c := iprop(StableHlo.held (c : Thread nD τ) (Pipeline.ucRefs τ sig) (W55 m ρ c) ∗ R c)
  post c := iprop(StableHlo.held (c : Thread nD τ) (Pipeline.ucRefs τ sig) (W56 m ρ c) ∗ R c)
  X _ := BI.emp
  Y _ := BI.emp
  Z c := Pipeline.unscopedRest (Ix := Unit) (Name := ℕ) (U := UR sig nD τ) (Lvl := ℕ) spec10 c (V55 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V55 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 10 c).Φ 0 = Φ10 (V55 m ρ) c 0 from rfl, show (Pipeline.scopedRest (Ix := Unit) (Name := ℕ) (U := UR sig nD τ) (Lvl := ℕ) (Val := Elt F) (Pipeline.pin (pcfgs (F := F)) adm 10).spec c : sProp 𝕄) = _ from scopedRest10_split c]; unfold Φ10
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 10 c).Φ (Fin.last _) = Φ10 (V55 m ρ) c (Fin.last _) from rfl, show (Pipeline.scopedRest (Ix := Unit) (Name := ℕ) (U := UR sig nD τ) (Lvl := ℕ) (Val := Elt F) (Pipeline.pin (pcfgs (F := F)) adm 10).spec c : sProp 𝕄) = _ from scopedRest10_split c]; unfold Φ10
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V55 m ρ c) (V56 m ρ c) ((pdats m ρ 10 c).arrAt · cfg10.N) (hF10 m ρ c) (hrest10 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.R11Obl.lean ====
/-
  Region 11: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KI.R11Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle11_of_not_last (t : Fin cfg11.N) (h1 : ¬ t.val % 8 = 7) : idle11 2 (grid11.coords t) = true := by
  have h : ¬ last11 (grid11.coords t) := fun h => h1 ((last11_iff t).mp h)
  show (!(k11_cond2 (grid11.coords t) == 1#1)) = true
  simp only [Bool.not_eq_true', beq_eq_false_iff_ne, ne_eq]; exact h
theorem idle11_of_last (t : Fin cfg11.N) (h1 : t.val % 8 = 7) : idle11 2 (grid11.coords t) = false := by
  have h : last11 (grid11.coords t) := (last11_iff t).mpr h1
  show (!(k11_cond2 (grid11.coords t) == 1#1)) = false
  simp only [Bool.not_eq_false', beq_iff_eq]; exact h
/-- and is written back only at the last ones. -/
theorem flush11_of_not_last (t : Fin cfg11.N) (h1 : ¬ t.val % 8 = 7) : (win11 2).flush t = false :=
  Bool.eq_false_iff.mpr fun h => h1 ((flush11_2 t).mp h)

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

/-- and what it returns: the output tile's buffer as found where the window is idle, else at what the point writes. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ (match cfg11.idle 2 (cfg11.grid.coords t) with
        | true =>
          (match (cfg11.win 2).flush t with
            | false => iprop(∃ d, owns (c : Thread nD τ) (ms11_2 t) fullShare ((dat11 V c).before 2 t d))
            | true => owns (c : Thread nD τ) (ms11_2 t) fullShare ((dat11 V c).after 2 t))
        | false => owns (c : Thread nD τ) (ms11_2 t) fullShare ((dat11 V c).after 2 t)))

theorem succ_inv11 (c : Dev nD) (t : Fin cfg11.N) :
    ∀ (n : ℕ) (hn : n < cfg11.N), t.succ.val = n + 1 → accAt11 V c t.val t.isLt = accAt11 V c n hn := by
  intro n hn hj
  have hn' : n = t.val := by rw [Fin.val_succ] at hj; omega
  subst hn'; rfl

set_option maxHeartbeats 1600000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl, after11_0, after11_1,
    show (dat11 V c).Φ t.castSucc = Φ11 V c t.castSucc from rfl, show (dat11 V c).Φ t.succ = Φ11 V c t.succ from rfl]
  unfold Φ11
  by_cases h0 : t.val % 8 = 0
  · have h1 : ¬ t.val % 8 = 7 := not_last_of_first11 h0
    rw [idle11_of_not_last t h1, flush11_of_not_last t h1]; dsimp only
    iintro ⟨⟨⟨%s, -, Hs⟩, Hrest⟩, Ho, ⟨%d0, H0⟩, ⟨%d1, H1⟩, ⟨%d2, H2⟩⟩
    iapply ((runFirst11 c (grid11.coords t) (ms11_0 t) (hs11_0 t) (ms11_1 t) (hs11_1 t) (ms11_2 t) (hs11_2 t) sc11 hsc11
      ((first11_iff t).mpr h0) (fun h => h1 ((last11_iff t).mp h)) (iblk11 V c 0 t) (iblk11 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt11 V c t.val t.isLt); isplitr
        · ipureintro; exact succ_inv11 V c t
        · rw [accAt11_first V c t h0]; unfold accFirst11 owns; iexists _; isplitr
          swap; · iexact Hs
          ipureintro; exact View.read_writes_of_cover _ _ _ _ _ (coverFirst11 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle11_of_last t h1]; dsimp only
      rw [after11_2, show outAt11 V c t = outLast11 c (grid11.coords t) (ms11_0 t) (hs11_0 t) (ms11_1 t) (hs11_1 t) (ms11_2 t) (hs11_2 t) sc11 hsc11
          (iblk11 V c 0 t) (iblk11 V c 1 t) (accAt11 V c (t.val - 1) (Nat.lt_of_le_of_lt (Nat.sub_le _ _) t.isLt))
          (fun h' => h0 ((first11_iff t).mp h')) ((last11_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt11 V c (t.val - 1) (Nat.lt_of_le_of_lt (Nat.sub_le _ _) t.isLt) :=
        hs (t.val - 1) _ (by rw [Fin.coe_castSucc]; omega)
      iapply ((runLast11 c (grid11.coords t) (ms11_0 t) (hs11_0 t) (ms11_1 t) (hs11_1 t) (ms11_2 t) (hs11_2 t) sc11 hsc11
        (fun h => h0 ((first11_iff t).mp h)) ((last11_iff t).mpr h1) (iblk11 V c 0 t) (iblk11 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt11 V c t.val t.isLt); isplitr
          · ipureintro; exact succ_inv11 V c t
          · rw [accAt11_last V c t h0 h1]; unfold accLast11 owns; iexists _; isplitr
            swap; · iexact Hs
            ipureintro; exact View.read_writes_of_cover _ _ _ _ _ (coverLastAcc11 c _ _ _ _ _ _ _ _ _ _ _ _ _ _)
        · iexact Hrest
      isplitl [Ho]; · iexact Ho
      isplitl [H0]; · iexact H0
      isplitl [H1]; · iexact H1
      unfold outLast11 owns; iexists _; isplitr
      swap; · iexact H2
      ipureintro; exact View.read_writes_of_cover _ _ _ _ _ (coverLastOut11 c _ _ _ _ _ _ _ _ _ _ _ _ _ _)
    · rw [idle11_of_not_last t h1, flush11_of_not_last t h1]; dsimp only
      iintro ⟨⟨⟨%s, %hs, Hs⟩, Hrest⟩, Ho, ⟨%d0, H0⟩, ⟨%d1, H1⟩, ⟨%d2, H2⟩⟩
      obtain rfl : s = accAt11 V c (t.val - 1) (Nat.lt_of_le_of_lt (Nat.sub_le _ _) t.isLt) :=
        hs (t.val - 1) _ (by rw [Fin.coe_castSucc]; omega)
      iapply ((runMid11 c (grid11.coords t) (ms11_0 t) (hs11_0 t) (ms11_1 t) (hs11_1 t) (ms11_2 t) (hs11_2 t) sc11 hsc11
        (fun h => h0 ((first11_iff t).mp h)) (fun h => h1 ((last11_iff t).mp h)) (iblk11 V c 0 t) (iblk11 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt11 V c t.val t.isLt); isplitr
          · ipureintro; exact succ_inv11 V c t
          · rw [accAt11_mid V c t h0 h1]; unfold accMid11 owns; iexists _; isplitr
            swap; · iexact Hs
            ipureintro; exact View.read_writes_of_cover _ _ _ _ _ (coverMid11 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg11.lean ====
/-
  Region 11 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KI.Fold
import proofs.«158997_j77232101916990_1_alg».proof.Proof.KI.R11Obl
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V56 m ρ) c).loose
  hwaits := Pipeline.hwaits_of_owed_zero _ _ _ _ L lv 11 fun _ _ => rfl
  pre c := iprop(StableHlo.held (c : Thread nD τ) (Pipeline.ucRefs τ sig) (W56 m ρ c) ∗ R c)
  post c := iprop(StableHlo.held (c : Thread nD τ) (Pipeline.ucRefs τ sig) (W57 m ρ c) ∗ R c)
  X _ := BI.emp
  Y _ := BI.emp
  Z c := Pipeline.unscopedRest (Ix := Unit) (Name := ℕ) (U := UR sig nD τ) (Lvl := ℕ) spec11 c (V56 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V56 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 11 c).Φ 0 = Φ11 (V56 m ρ) c 0 from rfl, show (Pipeline.scopedRest (Ix := Unit) (Name := ℕ) (U := UR sig nD τ) (Lvl := ℕ) (Val := Elt F) (Pipeline.pin (pcfgs (F := F)) adm 11).spec c : sProp 𝕄) = _ from scopedRest11_split c]; unfold Φ11
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 11 c).Φ (Fin.last _) = Φ11 (V56 m ρ) c (Fin.last _) from rfl, show (Pipeline.scopedRest (Ix := Unit) (Name := ℕ) (U := UR sig nD τ) (Lvl := ℕ) (Val := Elt F) (Pipeline.pin (pcfgs (F := F)) adm 11).spec c : sProp 𝕄) = _ from scopedRest11_split c]; unfold Φ11
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V56 m ρ c) (V57 m ρ c) ((pdats m ρ 11 c).arrAt · cfg11.N) (hF11 m ρ c) (hrest11 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.KI.Run.lean ====
/-
  @main of the idealized kernel program as its 65 segments in order — a host segment per stretch of host operations
  from its boundary's contents, a region per blocked product — and the launch over them: from any memory with zero
  counters every weakly fair execution on the TensorCores terminates, nothing faulting, and every unscoped buffer
  ends at the last boundary's contents.
-/
import proofs.«158997_j77232101916990_1_alg».proof.Proof.KI.Reg0
import proofs.«158997_j77232101916990_1_alg».proof.Proof.KI.Reg1
import proofs.«158997_j77232101916990_1_alg».proof.Proof.KI.Reg2
import proofs.«158997_j77232101916990_1_alg».proof.Proof.KI.Reg3
import proofs.«158997_j77232101916990_1_alg».proof.Proof.KI.Reg4
import proofs.«158997_j77232101916990_1_alg».proof.Proof.KI.Reg5
import proofs.«158997_j77232101916990_1_alg».proof.Proof.KI.Reg6
import proofs.«158997_j77232101916990_1_alg».proof.Proof.KI.Reg7
import proofs.«158997_j77232101916990_1_alg».proof.Proof.KI.Reg8
import proofs.«158997_j77232101916990_1_alg».proof.Proof.KI.Reg9
import proofs.«158997_j77232101916990_1_alg».proof.Proof.KI.Reg10
import proofs.«158997_j77232101916990_1_alg».proof.Proof.KI.Reg11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents W, the core's owes riding along; it
    leaves those references at the stretch's fold over W: the next boundary's contents by name. -/
abbrev hseg (ops : List (HloOp τ sig (Elt F))) (hsub : ops.Forall fun op => op.bufs ⊆ StableHlo.tcRefs τ sig)
    (hfresh : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W R

theorem fresh0 : ∀ op ∈ (main_part0_ops0 : List (HloOp τ sig (Elt F))), op.fresh = ∅ := by
  intro _ h; (repeat (cases h with | head => rfl | tail _ h => ?_)); exact nomatch h
theorem fresh1 : ∀ op ∈ (main_part1_ops0 : List (HloOp τ sig (Elt F))), op.fresh = ∅ := by
  intro _ h; (repeat (cases h with | head => rfl | tail _ h => ?_)); exact nomatch h
theorem fresh2 : ∀ op ∈ (main_part2_ops0 : List (HloOp τ sig (Elt F))), op.fresh = ∅ := by
  intro _ h; (repeat (cases h with | head => rfl | tail _ h => ?_)); exact nomatch h
theorem fresh3 : ∀ op ∈ (main_part3_ops0 : List (HloOp τ sig (Elt F))), op.fresh = ∅ := by
  intro _ h; (repeat (cases h with | head => rfl | tail _ h => ?_)); exact nomatch h
theorem fresh4 : ∀ op ∈ (main_part4_ops0 : List (HloOp τ sig (Elt F))), op.fresh = ∅ := by
  intro _ h; (repeat (cases h with | head => rfl | tail _ h => ?_)); exact nomatch h
theorem fresh5 : ∀ op ∈ (main_part5_ops0 : List (HloOp τ sig (Elt F))), op.fresh = ∅ := by
  intro _ h; (repeat (cases h with | head => rfl | tail _ h => ?_)); exact nomatch h
theorem fresh6 : ∀ op ∈ (main_part6_ops0 : List (HloOp τ sig (Elt F))), op.fresh = ∅ := by
  intro _ h; (repeat (cases h with | head => rfl | tail _ h => ?_)); exact nomatch h
theorem fresh7 : ∀ op ∈ (main_part7_ops0 : List (HloOp τ sig (Elt F))), op.fresh = ∅ := by
  intro _ h; (repeat (cases h with | head => rfl | tail _ h => ?_)); exact nomatch h
theorem fresh8 : ∀ op ∈ (main_part8_ops0 : List (HloOp τ sig (Elt F))), op.fresh = ∅ := by
  intro _ h; (repeat (cases h with | head => rfl | tail _ h => ?_)); exact nomatch h
theorem fresh9 : ∀ op ∈ (main_part9_ops0 : List (HloOp τ sig (Elt F))), op.fresh = ∅ := by
  intro _ h; (repeat (cases h with | head => rfl | tail _ h => ?_)); exact nomatch h
theorem fresh10 : ∀ op ∈ (main_part10_ops0 : List (HloOp τ sig (Elt F))), op.fresh = ∅ := by
  intro _ h; (repeat (cases h with | head => rfl | tail _ h => ?_)); exact nomatch h
theorem fresh11 : ∀ op ∈ (main_part11_ops0 : List (HloOp τ sig (Elt F))), op.fresh = ∅ := by
  intro _ h; (repeat (cases h with | head => rfl | tail _ h => ?_)); exact nomatch h
theorem fresh12 : ∀ op ∈ (main_part12_ops0 : List (HloOp τ sig (Elt F))), op.fresh = ∅ := by
  intro _ h; (repeat (cases h with | head => rfl | tail _ h => ?_)); exact nomatch h
theorem fresh13 : ∀ op ∈ (main_part12_ops1 : List (HloOp τ sig (Elt F))), op.fresh = ∅ := by
  intro _ h; (repeat (cases h with | head => rfl | tail _ h => ?_)); exact nomatch h
theorem fresh14 : ∀ op ∈ (main_part12_ops2 : List (HloOp τ sig (Elt F))), op.fresh = ∅ := by
  intro _ h; (repeat (cases h with | head => rfl | tail _ h => ?_)); exact nomatch h
theorem fresh15 : ∀ op ∈ (main_part12_ops3 : List (HloOp τ sig (Elt F))), op.fresh = ∅ := by
  intro _ h; (repeat (cases h with | head => rfl | tail _ h => ?_)); exact nomatch h
theorem fresh16 : ∀ op ∈ (main_part12_ops4 : List (HloOp τ sig (Elt F))), op.fresh = ∅ := by
  intro _ h; (repeat (cases h with | head => rfl | tail _ h => ?_)); exact nomatch h
theorem fresh17 : ∀ op ∈ (main_part13_ops0 : List (HloOp τ sig (Elt F))), op.fresh = ∅ := by
  intro _ h; (repeat (cases h with | head => rfl | tail _ h => ?_)); exact nomatch h
theorem fresh18 : ∀ op ∈ (main_part13_ops1 : List (HloOp τ sig (Elt F))), op.fresh = ∅ := by
  intro _ h; (repeat (cases h with | head => rfl | tail _ h => ?_)); exact nomatch h
theorem fresh19 : ∀ op ∈ (main_part13_ops2 : List (HloOp τ sig (Elt F))), op.fresh = ∅ := by
  intro _ h; (repeat (cases h with | head => rfl | tail _ h => ?_)); exact nomatch h
theorem fresh20 : ∀ op ∈ (main_part13_ops3 : List (HloOp τ sig (Elt F))), op.fresh = ∅ := by
  intro _ h; (repeat (cases h with | head => rfl | tail _ h => ?_)); exact nomatch h
theorem fresh21 : ∀ op ∈ (main_part13_ops4 : List (HloOp τ sig (Elt F))), op.fresh = ∅ := by
  intro _ h; (repeat (cases h with | head => rfl | tail _ h => ?_)); exact nomatch h
theorem fresh23 : ∀ op ∈ (main_part13_ops5 : List (HloOp τ sig (Elt F))), op.fresh = ∅ := by
  intro _ h; (repeat (cases h with | head => rfl | tail _ h => ?_)); exact nomatch h
theorem fresh25 : ∀ op ∈ (main_part13_ops6 : List (HloOp τ sig (Elt F))), op.fresh = ∅ := by
  intro _ h; (repeat (cases h with | head => rfl | tail _ h => ?_)); exact nomatch h
theorem fresh28 : ∀ op ∈ (main_part13_ops7 : List (HloOp τ sig (Elt F))), op.fresh = ∅ := by
  intro _ h; (repeat (cases h with | head => rfl | tail _ h => ?_)); exact nomatch h
theorem fresh29 : ∀ op ∈ (main_part13_ops8 : List (HloOp τ sig (Elt F))), op.fresh = ∅ := by
  intro _ h; (repeat (cases h with | head => rfl | tail _ h => ?_)); exact nomatch h
theorem fresh30 : ∀ op ∈ (main_part13_ops9 : List (HloOp τ sig (Elt F))), op.fresh = ∅ := by
  intro _ h; (repeat (cases h with | head => rfl | tail _ h => ?_)); exact nomatch h
theorem fresh31 : ∀ op ∈ (main_part13_ops10 : List (HloOp τ sig (Elt F))), op.fresh = ∅ := by
  intro _ h; (repeat (cases h with | head => rfl | tail _ h => ?_)); exact nomatch h
theorem fresh32 : ∀ op ∈ (main_part13_ops11 : List (HloOp τ sig (Elt F))), op.fresh = ∅ := by
  intro _ h; (repeat (cases h with | head => rfl | tail _ h => ?_)); exact nomatch h
theorem fresh33 : ∀ op ∈ (main_part13_ops12 : List (HloOp τ sig (Elt F))), op.fresh = ∅ := by
  intro _ h; (repeat (cases h with | head => rfl | tail _ h => ?_)); exact nomatch h
theorem fresh34 : ∀ op ∈ (main_part13_ops13 : List (HloOp τ sig (Elt F))), op.fresh = ∅ := by
  intro _ h; (repeat (cases h with | head => rfl | tail _ h => ?_)); exact nomatch h
theorem fresh35 : ∀ op ∈ (main_part13_ops14 : List (HloOp τ sig (Elt F))), op.fresh = ∅ := by
  intro _ h; (repeat (cases h with | head => rfl | tail _ h => ?_)); exact nomatch h
theorem fresh37 : ∀ op ∈ (main_part13_ops15 : List (HloOp τ sig (Elt F))), op.fresh = ∅ := by
  intro _ h; (repeat (cases h with | head => rfl | tail _ h => ?_)); exact nomatch h
theorem fresh39 : ∀ op ∈ (main_part13_ops16 : List (HloOp τ sig (Elt F))), op.fresh = ∅ := by
  intro _ h; (repeat (cases h with | head => rfl | tail _ h => ?_)); exact nomatch h
theorem fresh42 : ∀ op ∈ (main_part13_ops17 : List (HloOp τ sig (Elt F))), op.fresh = ∅ := by
  intro _ h; (repeat (cases h with | head => rfl | tail _ h => ?_)); exact nomatch h
theorem fresh43 : ∀ op ∈ (main_part13_ops18 : List (HloOp τ sig (Elt F))), op.fresh = ∅ := by
  intro _ h; (repeat (cases h with | head => rfl | tail _ h => ?_)); exact nomatch h
theorem fresh44 : ∀ op ∈ (main_part14_ops0 : List (HloOp τ sig (Elt F))), op.fresh = ∅ := by
  intro _ h; (repeat (cases h with | head => rfl | tail _ h => ?_)); exact nomatch h
theorem fresh45 : ∀ op ∈ (main_part14_ops1 : List (HloOp τ sig (Elt F))), op.fresh = ∅ := by
  intro _ h; (repeat (cases h with | head => rfl | tail _ h => ?_)); exact nomatch h
theorem fresh46 : ∀ op ∈ (main_part14_ops2 : List (HloOp τ sig (Elt F))), op.fresh = ∅ := by
  intro _ h; (repeat (cases h with | head => rfl | tail _ h => ?_)); exact nomatch h
theorem fresh47 : ∀ op ∈ (main_part14_ops3 : List (HloOp τ sig (Elt F))), op.fresh = ∅ := by
  intro _ h; (repeat (cases h with | head => rfl | tail _ h => ?_)); exact nomatch h
theorem fresh48 : ∀ op ∈ (main_part14_ops4 : List (HloOp τ sig (Elt F))), op.fresh = ∅ := by
  intro _ h; (repeat (cases h with | head => rfl | tail _ h => ?_)); exact nomatch h
theorem fresh49 : ∀ op ∈ (main_part14_ops5 : List (HloOp τ sig (Elt F))), op.fresh = ∅ := by
  intro _ h; (repeat (cases h with | head => rfl | tail _ h => ?_)); exact nomatch h
theorem fresh50 : ∀ op ∈ (main_part14_ops6 : List (HloOp τ sig (Elt F))), op.fresh = ∅ := by
  intro _ h; (repeat (cases h with | head => rfl | tail _ h => ?_)); exact nomatch h
theorem fresh52 : ∀ op ∈ (main_part14_ops7 : List (HloOp τ sig (Elt F))), op.fresh = ∅ := by
  intro _ h; (repeat (cases h with | head => rfl | tail _ h => ?_)); exact nomatch h
theorem fresh54 : ∀ op ∈ (main_part14_ops8 : List (HloOp τ sig (Elt F))), op.fresh = ∅ := by
  intro _ h; (repeat (cases h with | head => rfl | tail _ h => ?_)); exact nomatch h
theorem fresh57 : ∀ op ∈ (main_part14_ops9 : List (HloOp τ sig (Elt F))), op.fresh = ∅ := by
  intro _ h; (repeat (cases h with | head => rfl | tail _ h => ?_)); exact nomatch h
theorem fresh58 : ∀ op ∈ (main_part14_ops10 : List (HloOp τ sig (Elt F))), op.fresh = ∅ := by
  intro _ h; (repeat (cases h with | head => rfl | tail _ h => ?_)); exact nomatch h
theorem fresh59 : ∀ op ∈ (main_part14_ops11 : List (HloOp τ sig (Elt F))), op.fresh = ∅ := by
  intro _ h; (repeat (cases h with | head => rfl | tail _ h => ?_)); exact nomatch h
theorem fresh60 : ∀ op ∈ (main_part14_ops12 : List (HloOp τ sig (Elt F))), op.fresh = ∅ := by
  intro _ h; (repeat (cases h with | head => rfl | tail _ h => ?_)); exact nomatch h
theorem fresh61 : ∀ op ∈ (main_part14_ops13 : List (HloOp τ sig (Elt F))), op.fresh = ∅ := by
  intro _ h; (repeat (cases h with | head => rfl | tail _ h => ?_)); exact nomatch h
theorem fresh62 : ∀ op ∈ (main_part14_ops14 : List (HloOp τ sig (Elt F))), op.fresh = ∅ := by
  intro _ h; (repeat (cases h with | head => rfl | tail _ h => ?_)); exact nomatch h
theorem fresh63 : ∀ op ∈ (main_part14_ops15 : List (HloOp τ sig (Elt F))), op.fresh = ∅ := by
  intro _ h; (repeat (cases h with | head => rfl | tail _ h => ?_)); exact nomatch h
theorem fresh64 : ∀ op ∈ (main_part14_ops16 : List (HloOp τ sig (Elt F))), op.fresh = ∅ := by
  intro _ h; (repeat (cases h with | head => rfl | tail _ h => ?_)); exact nomatch h

/-- @main's segments in order. -/
abbrev segs : List (Pipeline.Seg (pcfgs (F := F)) adm (pdats m ρ) () defs₀ 𝒱₀ L lv) :=
  [ .host (hseg main_part0_ops0 main_part0_ops0_sub fresh0 (W0 m ρ)),
    .host (hseg main_part1_ops0 main_part1_ops0_sub fresh1 (W1 m ρ)),
    .host (hseg main_part2_ops0 main_part2_ops0_sub fresh2 (W2 m ρ)),
    .host (hseg main_part3_ops0 main_part3_ops0_sub fresh3 (W3 m ρ)),
    .host (hseg main_part4_ops0 main_part4_ops0_sub fresh4 (W4 m ρ)),
    .host (hseg main_part5_ops0 main_part5_ops0_sub fresh5 (W5 m ρ)),
    .host (hseg main_part6_ops0 main_part6_ops0_sub fresh6 (W6 m ρ)),
    .host (hseg main_part7_ops0 main_part7_ops0_sub fresh7 (W7 m ρ)),
    .host (hseg main_part8_ops0 main_part8_ops0_sub fresh8 (W8 m ρ)),
    .host (hseg main_part9_ops0 main_part9_ops0_sub fresh9 (W9 m ρ)),
    .host (hseg main_part10_ops0 main_part10_ops0_sub fresh10 (W10 m ρ)),
    .host (hseg main_part11_ops0 main_part11_ops0_sub fresh11 (W11 m ρ)),
    .host (hseg main_part12_ops0 main_part12_ops0_sub fresh12 (W12 m ρ)),
    .host (hseg main_part12_ops1 main_part12_ops1_sub fresh13 (W13 m ρ)),
    .host (hseg main_part12_ops2 main_part12_ops2_sub fresh14 (W14 m ρ)),
    .host (hseg main_part12_ops3 main_part12_ops3_sub fresh15 (W15 m ρ)),
    .host (hseg main_part12_ops4 main_part12_ops4_sub fresh16 (W16 m ρ)),
    .host (hseg main_part13_ops0 main_part13_ops0_sub fresh17 (W17 m ρ)),
    .host (hseg main_part13_ops1 main_part13_ops1_sub fresh18 (W18 m ρ)),
    .host (hseg main_part13_ops2 main_part13_ops2_sub fresh19 (W19 m ρ)),
    .host (hseg main_part13_ops3 main_part13_ops3_sub fresh20 (W20 m ρ)),
    .host (hseg main_part13_ops4 main_part13_ops4_sub fresh21 (W21 m ρ)),
    .region (reg0 m ρ),
    .host (hseg main_part13_ops5 main_part13_ops5_sub fresh23 (W23 m ρ)),
    .region (reg1 m ρ),
    .host (hseg main_part13_ops6 main_part13_ops6_sub fresh25 (W25 m ρ)),
    .region (reg2 m ρ),
    .region (reg3 m ρ),
    .host (hseg main_part13_ops7 main_part13_ops7_sub fresh28 (W28 m ρ)),
    .host (hseg main_part13_ops8 main_part13_ops8_sub fresh29 (W29 m ρ)),
    .host (hseg main_part13_ops9 main_part13_ops9_sub fresh30 (W30 m ρ)),
    .host (hseg main_part13_ops10 main_part13_ops10_sub fresh31 (W31 m ρ)),
    .host (hseg main_part13_ops11 main_part13_ops11_sub fresh32 (W32 m ρ)),
    .host (hseg main_part13_ops12 main_part13_ops12_sub fresh33 (W33 m ρ)),
    .host (hseg main_part13_ops13 main_part13_ops13_sub fresh34 (W34 m ρ)),
    .host (hseg main_part13_ops14 main_part13_ops14_sub fresh35 (W35 m ρ)),
    .region (reg4 m ρ),
    .host (hseg main_part13_ops15 main_part13_ops15_sub fresh37 (W37 m ρ)),
    .region (reg5 m ρ),
    .host (hseg main_part13_ops16 main_part13_ops16_sub fresh39 (W39 m ρ)),
    .region (reg6 m ρ),
    .region (reg7 m ρ),
    .host (hseg main_part13_ops17 main_part13_ops17_sub fresh42 (W42 m ρ)),
    .host (hseg main_part13_ops18 main_part13_ops18_sub fresh43 (W43 m ρ)),
    .host (hseg main_part14_ops0 main_part14_ops0_sub fresh44 (W44 m ρ)),
    .host (hseg main_part14_ops1 main_part14_ops1_sub fresh45 (W45 m ρ)),
    .host (hseg main_part14_ops2 main_part14_ops2_sub fresh46 (W46 m ρ)),
    .host (hseg main_part14_ops3 main_part14_ops3_sub fresh47 (W47 m ρ)),
    .host (hseg main_part14_ops4 main_part14_ops4_sub fresh48 (W48 m ρ)),
    .host (hseg main_part14_ops5 main_part14_ops5_sub fresh49 (W49 m ρ)),
    .host (hseg main_part14_ops6 main_part14_ops6_sub fresh50 (W50 m ρ)),
    .region (reg8 m ρ),
    .host (hseg main_part14_ops7 main_part14_ops7_sub fresh52 (W52 m ρ)),
    .region (reg9 m ρ),
    .host (hseg main_part14_ops8 main_part14_ops8_sub fresh54 (W54 m ρ)),
    .region (reg10 m ρ),
    .region (reg11 m ρ),
    .host (hseg main_part14_ops9 main_part14_ops9_sub fresh57 (W57 m ρ)),
    .host (hseg main_part14_ops10 main_part14_ops10_sub fresh58 (W58 m ρ)),
    .host (hseg main_part14_ops11 main_part14_ops11_sub fresh59 (W59 m ρ)),
    .host (hseg main_part14_ops12 main_part14_ops12_sub fresh60 (W60 m ρ)),
    .host (hseg main_part14_ops13 main_part14_ops13_sub fresh61 (W61 m ρ)),
    .host (hseg main_part14_ops14 main_part14_ops14_sub fresh62 (W62 m ρ)),
    .host (hseg main_part14_ops15 main_part14_ops15_sub fresh63 (W63 m ρ)),
    .host (hseg main_part14_ops16 main_part14_ops16_sub fresh64 (W64 m ρ)) ]

set_option maxRecDepth 100000 in
/-- @main IS the run of the segments: its chain of items, and the segments' run against that chain. -/
theorem main_run (c : Dev nD) : main (F := F) c = Pipeline.Seg.run (segs m ρ) := by
  rw [main_chain_windows c, Pipeline.Seg.run_eq_chain]; rfl

/-- The last thread state without the owes: every unscoped buffer at the last boundary's contents. -/
abbrev Tₙ (c : Dev nD) : sProp 𝕄 := StableHlo.held (c : Thread nD τ) (Pipeline.ucRefs τ sig) (W65 m ρ c)

set_option backward.isDefEq.respectTransparency.types false in
set_option maxRecDepth 100000 in
theorem run_main : θ_run defs (onTc (τ := τ) (main (F := F))) ⟨m, fun _ => 0, ρ⟩ (fun r => ∀ c : Dev nD,
      ∀ b ∈ Pipeline.ucRefs τ sig, r.2.mem (((c : Thread nD τ)).1, b) = W65 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W65 m ρ c b)
    (hfin := fun c s' => by
      unfold Tₙ StableHlo.held
      iintro ⟨Hh, HSI⟩
      imodintro
      iapply (pointsTo_read_all (Pipeline.ucRefs τ sig) (fun b => (((c : Thread nD τ)).1, b)) (W65 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Keep.lean ====
/-
  What each item of @main leaves alone. The program is in single-assignment form: a host operation writes one buffer,
  its result, so a stretch of host operations rewrites exactly the results of its operations and leaves every other
  buffer at what it held; a blocked product writes back its output array only, its two input arrays are never written
  back (an input window flushes nothing), and every buffer that is none of its three arrays bypasses it. Hence a
  buffer holds, at every later boundary, what it held after the item that wrote it, and an argument array, which no
  item writes, holds its launch contents to the end.
  Which buffers an item leaves is stated twice: against the list of the references it writes (keep), and against
  their indices (keepLt): the buffers are numbered in program order, item j writing the indices from lo j on and
  every later item higher ones, so a buffer numbered below lo j is written by no item from j on. The second form
  turns each step of a walk into one comparison of numerals; tail k walks from the last boundary back to boundary
  k, launch k from boundary k back to the launch.
-/
import proofs.«158997_j77232101916990_1_alg».proof.Proof.KI.Fold
import Mathlib.Data.List.Basic
import Mathlib.Data.Finset.Dedup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A line's written buffers, listed -/

/-- The empty line writes nothing. -/
theorem writes_nil {τ₁ : Topo} {σ : RefSig} {Val : EltTy → Type} (W : List (Ref σ .tc)) :
    ([] : List (HloOp τ₁ σ Val)).Forall fun op => op.writes ⊆ (W.map (Proc.devRef (τ := τ₁) .tc)).toFinset := trivial

/-- A line whose first operation writes the one buffer y and whose other operations write among W writes among
    y :: W. -/
theorem writes_cons {τ₁ : Topo} {σ : RefSig} {Val : EltTy → Type} {y : Ref σ .tc} {W : List (Ref σ .tc)}
    {op : HloOp τ₁ σ Val} {ops : List (HloOp τ₁ σ Val)} (hw : op.writes = {Proc.devRef .tc y})
    (h : ops.Forall fun op => op.writes ⊆ (W.map (Proc.devRef (τ := τ₁) .tc)).toFinset) :
    (op :: ops).Forall fun op => op.writes ⊆ ((y :: W).map (Proc.devRef (τ := τ₁) .tc)).toFinset := by
  rw [List.forall_cons]
  refine ⟨?_, List.forall_iff_forall_mem.mpr fun o ho b hb => ?_⟩
  · rw [hw, Finset.singleton_subset_iff, List.mem_toFinset]; exact List.mem_map.mpr ⟨y, List.mem_cons_self, rfl⟩
  · have := (List.forall_iff_forall_mem.mp h) o ho hb
    rw [List.mem_toFinset] at this ⊢; rw [List.map_cons]; exact List.mem_cons_of_mem _ this

/-! ## Item by item: the buffers a host stretch writes are its operations' results; a region writes its output array -/

/-- The buffers item 0 (60 host operations) writes: its operations' results, in order. -/
noncomputable def wr0 : List (Ref sig .tc) :=
  [main_v0, main_v1, main_v2, main_v3, main_v4, main_v5, main_v6, main_v7, main_v8, main_v9, main_v10, main_cst,
   main_v11, main_v12, main_v13, main_v14, main_v15, main_v16, main_v17, main_cst_0, main_v18, main_v19, main_v20,
   main_v21, main_v22, main_v23, main_v24, main_v25, main_cst_1, main_v26, main_v27, main_cst_2, main_v28, main_v29,
   main_v30, main_v31, main_v32, main_v33, main_v34, main_v35, main_v36, main_cst_3, main_v37, main_v38, main_cst_4,
   main_v39, main_v40, main_v41, main_cst_5, main_v42, main_v43, main_cst_6, main_v44, main_v45, main_v46, main_v47,
   main_cst_7, main_v48, main_v49, main_cst_8]
theorem hW0 : (main_part0_ops0 : List (HloOp τ sig (Elt F))).Forall fun op => op.writes ⊆ ((wr0).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 0 leaves every buffer that is no result of its operations as it found it. -/
theorem keep0 (c : Dev nD) (r : Ref sig .tc) (h : r ∉ wr0) :
    W1 m ρ c (Proc.devRef .tc r) = W0 m ρ c (Proc.devRef .tc r) :=
  StableHlo.after_of_writes_sub _ _ hW0 h
/-- Its results' indices start at 11. -/
theorem lo0_le : ∀ r ∈ wr0, 11 ≤ r.idx.val := fun r hr =>
  of_decide_eq_true (List.all_eq_true.mp (by decide : wr0.all (fun r => decide (11 ≤ r.idx.val)) = true) r hr)
theorem keepLt0 (c : Dev nD) (r : Ref sig .tc) (h : r.idx.val < 11) :
    W1 m ρ c (Proc.devRef .tc r) = W0 m ρ c (Proc.devRef .tc r) :=
  keep0 m ρ c r fun hr => Nat.not_le.mpr h (lo0_le r hr)

/-- The buffers item 1 (60 host operations) writes: its operations' results, in order. -/
noncomputable def wr1 : List (Ref sig .tc) :=
  [main_v50, main_v51, main_v52, main_v53, main_cst_9, main_v54, main_cst_10, main_v55, main_v56, main_v57,
   main_cst_11, main_v58, main_v59, main_cst_12, main_v60, main_v61, main_v62, main_v63, main_cst_13, main_v64,
   main_v65, main_cst_14, main_v66, main_v67, main_v68, main_v69, main_cst_15, main_v70, main_cst_16, main_v71,
   main_v72, main_v73, main_v74, main_cst_17, main_v75, main_cst_18, main_v76, main_cst_19, main_v77, main_cst_20,
   main_v78, main_v79, main_v80, main_cst_21, main_v81, main_cst_22, main_v82, main_cst_23, main_v83, main_cst_24,
   main_v84, main_v85, main_v86, main_cst_25, main_v87, main_cst_26, main_v88, main_cst_27, main_v89, main_cst_28]
theorem hW1 : (main_part1_ops0 : List (HloOp τ sig (Elt F))).Forall fun op => op.writes ⊆ ((wr1).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 1 leaves every buffer that is no result of its operations as it found it. -/
theorem keep1 (c : Dev nD) (r : Ref sig .tc) (h : r ∉ wr1) :
    W2 m ρ c (Proc.devRef .tc r) = W1 m ρ c (Proc.devRef .tc r) :=
  StableHlo.after_of_writes_sub _ _ hW1 h
/-- Its results' indices start at 71. -/
theorem lo1_le : ∀ r ∈ wr1, 71 ≤ r.idx.val := fun r hr =>
  of_decide_eq_true (List.all_eq_true.mp (by decide : wr1.all (fun r => decide (71 ≤ r.idx.val)) = true) r hr)
theorem keepLt1 (c : Dev nD) (r : Ref sig .tc) (h : r.idx.val < 71) :
    W2 m ρ c (Proc.devRef .tc r) = W1 m ρ c (Proc.devRef .tc r) :=
  keep1 m ρ c r fun hr => Nat.not_le.mpr h (lo1_le r hr)

/-- The buffers item 2 (60 host operations) writes: its operations' results, in order. -/
noncomputable def wr2 : List (Ref sig .tc) :=
  [main_v90, main_v91, main_v92, main_cst_29, main_v93, main_v94, main_v95, main_cst_30, main_v96, main_v97, main_v98,
   main_v99, main_v100, main_v101, main_v102, main_v103, main_v104, main_v105, main_v106, main_v107, main_cst_31,
   main_v108, main_v109, main_v110, main_v111, main_v112, main_v113, main_v114, main_cst_32, main_v115, main_v116,
   main_v117, main_v118, main_v119, main_v120, main_v121, main_v122, main_cst_33, main_v123, main_v124, main_cst_34,
   main_v125, main_v126, main_v127, main_v128, main_v129, main_v130, main_v131, main_v132, main_v133, main_cst_35,
   main_v134, main_v135, main_cst_36, main_v136, main_v137, main_v138, main_cst_37, main_v139, main_v140]
theorem hW2 : (main_part2_ops0 : List (HloOp τ sig (Elt F))).Forall fun op => op.writes ⊆ ((wr2).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 2 leaves every buffer that is no result of its operations as it found it. -/
theorem keep2 (c : Dev nD) (r : Ref sig .tc) (h : r ∉ wr2) :
    W3 m ρ c (Proc.devRef .tc r) = W2 m ρ c (Proc.devRef .tc r) :=
  StableHlo.after_of_writes_sub _ _ hW2 h
/-- Its results' indices start at 131. -/
theorem lo2_le : ∀ r ∈ wr2, 131 ≤ r.idx.val := fun r hr =>
  of_decide_eq_true (List.all_eq_true.mp (by decide : wr2.all (fun r => decide (131 ≤ r.idx.val)) = true) r hr)
theorem keepLt2 (c : Dev nD) (r : Ref sig .tc) (h : r.idx.val < 131) :
    W3 m ρ c (Proc.devRef .tc r) = W2 m ρ c (Proc.devRef .tc r) :=
  keep2 m ρ c r fun hr => Nat.not_le.mpr h (lo2_le r hr)

/-- The buffers item 3 (60 host operations) writes: its operations' results, in order. -/
noncomputable def wr3 : List (Ref sig .tc) :=
  [main_cst_38, main_v141, main_v142, main_v143, main_v144, main_cst_39, main_v145, main_v146, main_cst_40, main_v147,
   main_v148, main_v149, main_v150, main_cst_41, main_v151, main_cst_42, main_v152, main_v153, main_v154, main_cst_43,
   main_v155, main_v156, main_cst_44, main_v157, main_v158, main_v159, main_v160, main_cst_45, main_v161, main_v162,
   main_cst_46, main_v163, main_v164, main_v165, main_v166, main_cst_47, main_v167, main_cst_48, main_v168, main_v169,
   main_v170, main_v171, main_cst_49, main_v172, main_cst_50, main_v173, main_cst_51, main_v174, main_cst_52,
   main_v175, main_v176, main_v177, main_cst_53, main_v178, main_cst_54, main_v179, main_cst_55, main_v180,
   main_cst_56, main_v181]
theorem hW3 : (main_part3_ops0 : List (HloOp τ sig (Elt F))).Forall fun op => op.writes ⊆ ((wr3).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 3 leaves every buffer that is no result of its operations as it found it. -/
theorem keep3 (c : Dev nD) (r : Ref sig .tc) (h : r ∉ wr3) :
    W4 m ρ c (Proc.devRef .tc r) = W3 m ρ c (Proc.devRef .tc r) :=
  StableHlo.after_of_writes_sub _ _ hW3 h
/-- Its results' indices start at 191. -/
theorem lo3_le : ∀ r ∈ wr3, 191 ≤ r.idx.val := fun r hr =>
  of_decide_eq_true (List.all_eq_true.mp (by decide : wr3.all (fun r => decide (191 ≤ r.idx.val)) = true) r hr)
theorem keepLt3 (c : Dev nD) (r : Ref sig .tc) (h : r.idx.val < 191) :
    W4 m ρ c (Proc.devRef .tc r) = W3 m ρ c (Proc.devRef .tc r) :=
  keep3 m ρ c r fun hr => Nat.not_le.mpr h (lo3_le r hr)

/-- The buffers item 4 (60 host operations) writes: its operations' results, in order. -/
noncomputable def wr4 : List (Ref sig .tc) :=
  [main_v182, main_v183, main_cst_57, main_v184, main_cst_58, main_v185, main_cst_59, main_v186, main_cst_60,
   main_v187, main_v188, main_v189, main_cst_61, main_v190, main_v191, main_v192, main_v193, main_v194, main_v195,
   main_v196, main_v197, main_v198, main_v199, main_v200, main_v201, main_v202, main_v203, main_v204, main_cst_62,
   main_v205, main_v206, main_v207, main_v208, main_v209, main_v210, main_v211, main_cst_63, main_v212, main_v213,
   main_v214, main_v215, main_v216, main_v217, main_v218, main_v219, main_cst_64, main_v220, main_v221, main_cst_65,
   main_v222, main_v223, main_v224, main_v225, main_v226, main_v227, main_v228, main_v229, main_v230, main_cst_66,
   main_v231]
theorem hW4 : (main_part4_ops0 : List (HloOp τ sig (Elt F))).Forall fun op => op.writes ⊆ ((wr4).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 4 leaves every buffer that is no result of its operations as it found it. -/
theorem keep4 (c : Dev nD) (r : Ref sig .tc) (h : r ∉ wr4) :
    W5 m ρ c (Proc.devRef .tc r) = W4 m ρ c (Proc.devRef .tc r) :=
  StableHlo.after_of_writes_sub _ _ hW4 h
/-- Its results' indices start at 251. -/
theorem lo4_le : ∀ r ∈ wr4, 251 ≤ r.idx.val := fun r hr =>
  of_decide_eq_true (List.all_eq_true.mp (by decide : wr4.all (fun r => decide (251 ≤ r.idx.val)) = true) r hr)
theorem keepLt4 (c : Dev nD) (r : Ref sig .tc) (h : r.idx.val < 251) :
    W5 m ρ c (Proc.devRef .tc r) = W4 m ρ c (Proc.devRef .tc r) :=
  keep4 m ρ c r fun hr => Nat.not_le.mpr h (lo4_le r hr)

/-- The buffers item 5 (60 host operations) writes: its operations' results, in order. -/
noncomputable def wr5 : List (Ref sig .tc) :=
  [main_v232, main_cst_67, main_v233, main_v234, main_v235, main_cst_68, main_v236, main_v237, main_cst_69, main_v238,
   main_v239, main_v240, main_v241, main_cst_70, main_v242, main_v243, main_cst_71, main_v244, main_v245, main_v246,
   main_v247, main_cst_72, main_v248, main_cst_73, main_v249, main_v250, main_v251, main_cst_74, main_v252, main_v253,
   main_cst_75, main_v254, main_v255, main_v256, main_v257, main_cst_76, main_v258, main_v259, main_cst_77, main_v260,
   main_v261, main_v262, main_v263, main_cst_78, main_v264, main_cst_79, main_v265, main_v266, main_v267, main_v268,
   main_cst_80, main_v269, main_cst_81, main_v270, main_cst_82, main_v271, main_cst_83, main_v272, main_v273, main_v274]
theorem hW5 : (main_part5_ops0 : List (HloOp τ sig (Elt F))).Forall fun op => op.writes ⊆ ((wr5).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 5 leaves every buffer that is no result of its operations as it found it. -/
theorem keep5 (c : Dev nD) (r : Ref sig .tc) (h : r ∉ wr5) :
    W6 m ρ c (Proc.devRef .tc r) = W5 m ρ c (Proc.devRef .tc r) :=
  StableHlo.after_of_writes_sub _ _ hW5 h
/-- Its results' indices start at 311. -/
theorem lo5_le : ∀ r ∈ wr5, 311 ≤ r.idx.val := fun r hr =>
  of_decide_eq_true (List.all_eq_true.mp (by decide : wr5.all (fun r => decide (311 ≤ r.idx.val)) = true) r hr)
theorem keepLt5 (c : Dev nD) (r : Ref sig .tc) (h : r.idx.val < 311) :
    W6 m ρ c (Proc.devRef .tc r) = W5 m ρ c (Proc.devRef .tc r) :=
  keep5 m ρ c r fun hr => Nat.not_le.mpr h (lo5_le r hr)

/-- The buffers item 6 (60 host operations) writes: its operations' results, in order. -/
noncomputable def wr6 : List (Ref sig .tc) :=
  [main_cst_84, main_v275, main_cst_85, main_v276, main_cst_86, main_v277, main_cst_87, main_v278, main_v279,
   main_v280, main_cst_88, main_v281, main_cst_89, main_v282, main_cst_90, main_v283, main_cst_91, main_v284,
   main_v285, main_v286, main_cst_92, main_v287, main_v288, main_v289, main_v290, main_v291, main_v292, main_v293,
   main_v294, main_v295, main_v296, main_v297, main_v298, main_v299, main_v300, main_v301, main_cst_93, main_v302,
   main_v303, main_v304, main_v305, main_v306, main_v307, main_v308, main_cst_94, main_v309, main_v310, main_v311,
   main_v312, main_v313, main_v314, main_v315, main_v316, main_cst_95, main_v317, main_v318, main_cst_96, main_v319,
   main_v320, main_v321]
theorem hW6 : (main_part6_ops0 : List (HloOp τ sig (Elt F))).Forall fun op => op.writes ⊆ ((wr6).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 6 leaves every buffer that is no result of its operations as it found it. -/
theorem keep6 (c : Dev nD) (r : Ref sig .tc) (h : r ∉ wr6) :
    W7 m ρ c (Proc.devRef .tc r) = W6 m ρ c (Proc.devRef .tc r) :=
  StableHlo.after_of_writes_sub _ _ hW6 h
/-- Its results' indices start at 371. -/
theorem lo6_le : ∀ r ∈ wr6, 371 ≤ r.idx.val := fun r hr =>
  of_decide_eq_true (List.all_eq_true.mp (by decide : wr6.all (fun r => decide (371 ≤ r.idx.val)) = true) r hr)
theorem keepLt6 (c : Dev nD) (r : Ref sig .tc) (h : r.idx.val < 371) :
    W7 m ρ c (Proc.devRef .tc r) = W6 m ρ c (Proc.devRef .tc r) :=
  keep6 m ρ c r fun hr => Nat.not_le.mpr h (lo6_le r hr)

/-- The buffers item 7 (60 host operations) writes: its operations' results, in order. -/
noncomputable def wr7 : List (Ref sig .tc) :=
  [main_v322, main_v323, main_v324, main_v325, main_v326, main_v327, main_cst_97, main_v328, main_v329, main_cst_98,
   main_v330, main_v331, main_v332, main_cst_99, main_v333, main_v334, main_cst_100, main_v335, main_v336, main_v337,
   main_v338, main_cst_101, main_v339, main_v340, main_cst_102, main_v341, main_v342, main_v343, main_v344,
   main_cst_103, main_v345, main_cst_104, main_v346, main_v347, main_v348, main_cst_105, main_v349, main_v350,
   main_cst_106, main_v351, main_v352, main_v353, main_v354, main_cst_107, main_v355, main_v356, main_cst_108,
   main_v357, main_v358, main_v359, main_v360, main_cst_109, main_v361, main_cst_110, main_v362, main_v363, main_v364,
   main_v365, main_cst_111, main_v366]
theorem hW7 : (main_part7_ops0 : List (HloOp τ sig (Elt F))).Forall fun op => op.writes ⊆ ((wr7).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 7 leaves every buffer that is no result of its operations as it found it. -/
theorem keep7 (c : Dev nD) (r : Ref sig .tc) (h : r ∉ wr7) :
    W8 m ρ c (Proc.devRef .tc r) = W7 m ρ c (Proc.devRef .tc r) :=
  StableHlo.after_of_writes_sub _ _ hW7 h
/-- Its results' indices start at 431. -/
theorem lo7_le : ∀ r ∈ wr7, 431 ≤ r.idx.val := fun r hr =>
  of_decide_eq_true (List.all_eq_true.mp (by decide : wr7.all (fun r => decide (431 ≤ r.idx.val)) = true) r hr)
theorem keepLt7 (c : Dev nD) (r : Ref sig .tc) (h : r.idx.val < 431) :
    W8 m ρ c (Proc.devRef .tc r) = W7 m ρ c (Proc.devRef .tc r) :=
  keep7 m ρ c r fun hr => Nat.not_le.mpr h (lo7_le r hr)

/-- The buffers item 8 (60 host operations) writes: its operations' results, in order. -/
noncomputable def wr8 : List (Ref sig .tc) :=
  [main_cst_112, main_v367, main_cst_113, main_v368, main_cst_114, main_v369, main_v370, main_v371, main_cst_115,
   main_v372, main_cst_116, main_v373, main_cst_117, main_v374, main_cst_118, main_v375, main_v376, main_v377,
   main_cst_119, main_v378, main_cst_120, main_v379, main_cst_121, main_v380, main_cst_122, main_v381, main_v382,
   main_v383, main_cst_123, main_v384, main_v385, main_v386, main_v387, main_v388, main_v389, main_v390, main_v391,
   main_v392, main_v393, main_v394, main_v395, main_v396, main_v397, main_v398, main_cst_124, main_v399, main_v400,
   main_v401, main_v402, main_v403, main_v404, main_v405, main_cst_125, main_v406, main_v407, main_v408, main_v409,
   main_v410, main_v411, main_v412]
theorem hW8 : (main_part8_ops0 : List (HloOp τ sig (Elt F))).Forall fun op => op.writes ⊆ ((wr8).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 8 leaves every buffer that is no result of its operations as it found it. -/
theorem keep8 (c : Dev nD) (r : Ref sig .tc) (h : r ∉ wr8) :
    W9 m ρ c (Proc.devRef .tc r) = W8 m ρ c (Proc.devRef .tc r) :=
  StableHlo.after_of_writes_sub _ _ hW8 h
/-- Its results' indices start at 491. -/
theorem lo8_le : ∀ r ∈ wr8, 491 ≤ r.idx.val := fun r hr =>
  of_decide_eq_true (List.all_eq_true.mp (by decide : wr8.all (fun r => decide (491 ≤ r.idx.val)) = true) r hr)
theorem keepLt8 (c : Dev nD) (r : Ref sig .tc) (h : r.idx.val < 491) :
    W9 m ρ c (Proc.devRef .tc r) = W8 m ρ c (Proc.devRef .tc r) :=
  keep8 m ρ c r fun hr => Nat.not_le.mpr h (lo8_le r hr)

/-- The buffers item 9 (60 host operations) writes: its operations' results, in order. -/
noncomputable def wr9 : List (Ref sig .tc) :=
  [main_v413, main_cst_126, main_v414, main_v415, main_cst_127, main_v416, main_v417, main_v418, main_v419, main_v420,
   main_v421, main_v422, main_v423, main_v424, main_cst_128, main_v425, main_v426, main_cst_129, main_v427, main_v428,
   main_v429, main_cst_130, main_v430, main_v431, main_cst_131, main_v432, main_v433, main_v434, main_v435,
   main_cst_132, main_v436, main_v437, main_cst_133, main_v438, main_v439, main_v440, main_v441, main_cst_134,
   main_v442, main_cst_135, main_v443, main_v444, main_v445, main_cst_136, main_v446, main_v447, main_cst_137,
   main_v448, main_v449, main_v450, main_v451, main_cst_138, main_v452, main_v453, main_cst_139, main_v454, main_v455,
   main_v456, main_v457, main_cst_140]
theorem hW9 : (main_part9_ops0 : List (HloOp τ sig (Elt F))).Forall fun op => op.writes ⊆ ((wr9).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 9 leaves every buffer that is no result of its operations as it found it. -/
theorem keep9 (c : Dev nD) (r : Ref sig .tc) (h : r ∉ wr9) :
    W10 m ρ c (Proc.devRef .tc r) = W9 m ρ c (Proc.devRef .tc r) :=
  StableHlo.after_of_writes_sub _ _ hW9 h
/-- Its results' indices start at 551. -/
theorem lo9_le : ∀ r ∈ wr9, 551 ≤ r.idx.val := fun r hr =>
  of_decide_eq_true (List.all_eq_true.mp (by decide : wr9.all (fun r => decide (551 ≤ r.idx.val)) = true) r hr)
theorem keepLt9 (c : Dev nD) (r : Ref sig .tc) (h : r.idx.val < 551) :
    W10 m ρ c (Proc.devRef .tc r) = W9 m ρ c (Proc.devRef .tc r) :=
  keep9 m ρ c r fun hr => Nat.not_le.mpr h (lo9_le r hr)

/-- The buffers item 10 (60 host operations) writes: its operations' results, in order. -/
noncomputable def wr10 : List (Ref sig .tc) :=
  [main_v458, main_cst_141, main_v459, main_v460, main_v461, main_v462, main_cst_142, main_v463, main_cst_143,
   main_v464, main_cst_144, main_v465, main_cst_145, main_v466, main_v467, main_v468, main_cst_146, main_v469,
   main_cst_147, main_v470, main_cst_148, main_v471, main_cst_149, main_v472, main_v473, main_v474, main_cst_150,
   main_v475, main_cst_151, main_v476, main_cst_152, main_v477, main_cst_153, main_v478, main_v479, main_v480,
   main_cst_154, main_v481, main_v482, main_v483, main_v484, main_v485, main_v486, main_v487, main_v488, main_v489,
   main_v490, main_v491, main_v492, main_v493, main_v494, main_v495, main_cst_155, main_v496, main_v497, main_v498,
   main_v499, main_v500, main_v501, main_v502]
theorem hW10 : (main_part10_ops0 : List (HloOp τ sig (Elt F))).Forall fun op => op.writes ⊆ ((wr10).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 10 leaves every buffer that is no result of its operations as it found it. -/
theorem keep10 (c : Dev nD) (r : Ref sig .tc) (h : r ∉ wr10) :
    W11 m ρ c (Proc.devRef .tc r) = W10 m ρ c (Proc.devRef .tc r) :=
  StableHlo.after_of_writes_sub _ _ hW10 h
/-- Its results' indices start at 611. -/
theorem lo10_le : ∀ r ∈ wr10, 611 ≤ r.idx.val := fun r hr =>
  of_decide_eq_true (List.all_eq_true.mp (by decide : wr10.all (fun r => decide (611 ≤ r.idx.val)) = true) r hr)
theorem keepLt10 (c : Dev nD) (r : Ref sig .tc) (h : r.idx.val < 611) :
    W11 m ρ c (Proc.devRef .tc r) = W10 m ρ c (Proc.devRef .tc r) :=
  keep10 m ρ c r fun hr => Nat.not_le.mpr h (lo10_le r hr)

/-- The buffers item 11 (60 host operations) writes: its operations' results, in order. -/
noncomputable def wr11 : List (Ref sig .tc) :=
  [main_cst_156, main_v503, main_v504, main_v505, main_v506, main_v507, main_v508, main_v509, main_v510, main_cst_157,
   main_v511, main_v512, main_cst_158, main_v513, main_v514, main_v515, main_v516, main_v517, main_v518, main_v519,
   main_v520, main_v521, main_cst_159, main_v522, main_v523, main_cst_160, main_v524, main_v525, main_v526,
   main_cst_161, main_v527, main_v528, main_cst_162, main_v529, main_v530, main_v531, main_v532, main_cst_163,
   main_v533, main_v534, main_cst_164, main_v535, main_v536, main_v537, main_v538, main_cst_165, main_v539,
   main_cst_166, main_v540, main_v541, main_v542, main_cst_167, main_v543, main_v544, main_cst_168, main_v545,
   main_v546, main_v547, main_v548, main_cst_169]
theorem hW11 : (main_part11_ops0 : List (HloOp τ sig (Elt F))).Forall fun op => op.writes ⊆ ((wr11).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 11 leaves every buffer that is no result of its operations as it found it. -/
theorem keep11 (c : Dev nD) (r : Ref sig .tc) (h : r ∉ wr11) :
    W12 m ρ c (Proc.devRef .tc r) = W11 m ρ c (Proc.devRef .tc r) :=
  StableHlo.after_of_writes_sub _ _ hW11 h
/-- Its results' indices start at 671. -/
theorem lo11_le : ∀ r ∈ wr11, 671 ≤ r.idx.val := fun r hr =>
  of_decide_eq_true (List.all_eq_true.mp (by decide : wr11.all (fun r => decide (671 ≤ r.idx.val)) = true) r hr)
theorem keepLt11 (c : Dev nD) (r : Ref sig .tc) (h : r.idx.val < 671) :
    W12 m ρ c (Proc.devRef .tc r) = W11 m ρ c (Proc.devRef .tc r) :=
  keep11 m ρ c r fun hr => Nat.not_le.mpr h (lo11_le r hr)

/-- The buffers item 12 (49 host operations) writes: its operations' results, in order. -/
noncomputable def wr12 : List (Ref sig .tc) :=
  [main_v549, main_v550, main_cst_170, main_v551, main_v552, main_v553, main_v554, main_cst_171, main_v555,
   main_cst_172, main_v556, main_v557, main_v558, main_v559, main_cst_173, main_v560, main_cst_174, main_v561,
   main_cst_175, main_v562, main_cst_176, main_v563, main_v564, main_v565, main_cst_177, main_v566, main_cst_178,
   main_v567, main_cst_179, main_v568, main_cst_180, main_v569, main_v570, main_v571, main_cst_181, main_v572,
   main_cst_182, main_v573, main_cst_183, main_v574, main_cst_184, main_v575, main_v576, main_v577, main_cst_185,
   main_v578, main_v579, main_v580, main_v581]
theorem hW12 : (main_part12_ops0 : List (HloOp τ sig (Elt F))).Forall fun op => op.writes ⊆ ((wr12).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_nil _
/-- Item 12 leaves every buffer that is no result of its operations as it found it. -/
theorem keep12 (c : Dev nD) (r : Ref sig .tc) (h : r ∉ wr12) :
    W13 m ρ c (Proc.devRef .tc r) = W12 m ρ c (Proc.devRef .tc r) :=
  StableHlo.after_of_writes_sub _ _ hW12 h
/-- Its results' indices start at 731. -/
theorem lo12_le : ∀ r ∈ wr12, 731 ≤ r.idx.val := fun r hr =>
  of_decide_eq_true (List.all_eq_true.mp (by decide : wr12.all (fun r => decide (731 ≤ r.idx.val)) = true) r hr)
theorem keepLt12 (c : Dev nD) (r : Ref sig .tc) (h : r.idx.val < 731) :
    W13 m ρ c (Proc.devRef .tc r) = W12 m ρ c (Proc.devRef .tc r) :=
  keep12 m ρ c r fun hr => Nat.not_le.mpr h (lo12_le r hr)

/-- The buffers item 13 (5 host operations) writes: its operations' results, in order. -/
noncomputable def wr13 : List (Ref sig .tc) :=
  [main_call0_v0, main_call0_cst, main_call0_v1, main_call0_v2, main_v582]
theorem hW13 : (main_part12_ops1 : List (HloOp τ sig (Elt F))).Forall fun op => op.writes ⊆ ((wr13).map (Proc.devRef (τ := τ) .tc)).toFinset :=
  writes_cons rfl <| writes_cons rfl <| writes_cons rfl <| writes_cons rfl <| writes_cons rfl <| writes_nil _
/-- Item 13 leaves every buffer that is no result of its operations as it found it. -/
theorem keep13 (c : Dev nD) (r : Ref sig .tc) (h : r ∉ wr13) :
    W14 m ρ c (Proc.devRef .tc r) = W13 m ρ c (Proc.devRef .tc r) :=
  StableHlo.after_of_writes_sub _ _ hW13 h
/-- Its results' indices start at 780. -/
theorem lo13_le : ∀ r ∈ wr13, 780 ≤ r.idx.val := fun r hr =>
  of_decide_eq_true (List.all_eq_true.mp (by decide : wr13.all (fun r => decide (780 ≤ r.idx.val)) = true) r hr)
theorem keepLt13 (c : Dev nD) (r : Ref sig .tc) (h : r.idx.val < 780) :
    W14 m ρ c (Proc.devRef .tc r) = W13 m ρ c (Proc.devRef .tc r) :=
  keep13 m ρ c r fun hr => Nat.not_le.mpr h (lo13_le r hr)

/-- The buffers item 14 (5 host operations) writes: its operations' results, in order. -/
noncomputable def wr14 : List (Ref sig .tc) :=
  [main_cst_186, main_v583, main_v584, main_v585, main_v586]
theorem hW14 : (main_part12_ops2 : List (HloOp τ sig (Elt F))).Forall fun op => op.writes ⊆ ((wr14).map (Proc.devRef (τ := τ) .tc)).toFinset :=
  writes_cons rfl <| writes_cons rfl <| writes_cons rfl <| writes_cons rfl <| writes_cons rfl <| writes_nil _
/-- Item 14 leaves every buffer that is no result of its operations as it found it. -/
theorem keep14 (c : Dev nD) (r : Ref sig .tc) (h : r ∉ wr14) :
    W15 m ρ c (Proc.devRef .tc r) = W14 m ρ c (Proc.devRef .tc r) :=
  StableHlo.after_of_writes_sub _ _ hW14 h
/-- Its results' indices start at 785. -/
theorem lo14_le : ∀ r ∈ wr14, 785 ≤ r.idx.val := fun r hr =>
  of_decide_eq_true (List.all_eq_true.mp (by decide : wr14.all (fun r => decide (785 ≤ r.idx.val)) = true) r hr)
theorem keepLt14 (c : Dev nD) (r : Ref sig .tc) (h : r.idx.val < 785) :
    W15 m ρ c (Proc.devRef .tc r) = W14 m ρ c (Proc.devRef .tc r) :=
  keep14 m ρ c r fun hr => Nat.not_le.mpr h (lo14_le r hr)

/-- The buffers item 15 (5 host operations) writes: its operations' results, in order. -/
noncomputable def wr15 : List (Ref sig .tc) :=
  [main_call1_v0, main_call1_cst, main_call1_v1, main_call1_v2, main_v587]
theorem hW15 : (main_part12_ops3 : List (HloOp τ sig (Elt F))).Forall fun op => op.writes ⊆ ((wr15).map (Proc.devRef (τ := τ) .tc)).toFinset :=
  writes_cons rfl <| writes_cons rfl <| writes_cons rfl <| writes_cons rfl <| writes_cons rfl <| writes_nil _
/-- Item 15 leaves every buffer that is no result of its operations as it found it. -/
theorem keep15 (c : Dev nD) (r : Ref sig .tc) (h : r ∉ wr15) :
    W16 m ρ c (Proc.devRef .tc r) = W15 m ρ c (Proc.devRef .tc r) :=
  StableHlo.after_of_writes_sub _ _ hW15 h
/-- Its results' indices start at 790. -/
theorem lo15_le : ∀ r ∈ wr15, 790 ≤ r.idx.val := fun r hr =>
  of_decide_eq_true (List.all_eq_true.mp (by decide : wr15.all (fun r => decide (790 ≤ r.idx.val)) = true) r hr)
theorem keepLt15 (c : Dev nD) (r : Ref sig .tc) (h : r.idx.val < 790) :
    W16 m ρ c (Proc.devRef .tc r) = W15 m ρ c (Proc.devRef .tc r) :=
  keep15 m ρ c r fun hr => Nat.not_le.mpr h (lo15_le r hr)

/-- The buffers item 16 (4 host operations) writes: its operations' results, in order. -/
noncomputable def wr16 : List (Ref sig .tc) :=
  [main_cst_187, main_v588, main_v589, main_v590]
theorem hW16 : (main_part12_ops4 : List (HloOp τ sig (Elt F))).Forall fun op => op.writes ⊆ ((wr16).map (Proc.devRef (τ := τ) .tc)).toFinset :=
  writes_cons rfl <| writes_cons rfl <| writes_cons rfl <| writes_cons rfl <| writes_nil _
/-- Item 16 leaves every buffer that is no result of its operations as it found it. -/
theorem keep16 (c : Dev nD) (r : Ref sig .tc) (h : r ∉ wr16) :
    W17 m ρ c (Proc.devRef .tc r) = W16 m ρ c (Proc.devRef .tc r) :=
  StableHlo.after_of_writes_sub _ _ hW16 h
/-- Its results' indices start at 795. -/
theorem lo16_le : ∀ r ∈ wr16, 795 ≤ r.idx.val := fun r hr =>
  of_decide_eq_true (List.all_eq_true.mp (by decide : wr16.all (fun r => decide (795 ≤ r.idx.val)) = true) r hr)
theorem keepLt16 (c : Dev nD) (r : Ref sig .tc) (h : r.idx.val < 795) :
    W17 m ρ c (Proc.devRef .tc r) = W16 m ρ c (Proc.devRef .tc r) :=
  keep16 m ρ c r fun hr => Nat.not_le.mpr h (lo16_le r hr)

/-- The buffers item 17 (1 host operation) writes: its operations' results, in order. -/
noncomputable def wr17 : List (Ref sig .tc) :=
  [main_v591]
theorem hW17 : (main_part13_ops0 : List (HloOp τ sig (Elt F))).Forall fun op => op.writes ⊆ ((wr17).map (Proc.devRef (τ := τ) .tc)).toFinset :=
  writes_cons rfl <| writes_nil _
/-- Item 17 leaves every buffer that is no result of its operations as it found it. -/
theorem keep17 (c : Dev nD) (r : Ref sig .tc) (h : r ∉ wr17) :
    W18 m ρ c (Proc.devRef .tc r) = W17 m ρ c (Proc.devRef .tc r) :=
  StableHlo.after_of_writes_sub _ _ hW17 h
/-- Its results' indices start at 799. -/
theorem lo17_le : ∀ r ∈ wr17, 799 ≤ r.idx.val := fun r hr =>
  of_decide_eq_true (List.all_eq_true.mp (by decide : wr17.all (fun r => decide (799 ≤ r.idx.val)) = true) r hr)
theorem keepLt17 (c : Dev nD) (r : Ref sig .tc) (h : r.idx.val < 799) :
    W18 m ρ c (Proc.devRef .tc r) = W17 m ρ c (Proc.devRef .tc r) :=
  keep17 m ρ c r fun hr => Nat.not_le.mpr h (lo17_le r hr)

/-- The buffers item 18 (5 host operations) writes: its operations' results, in order. -/
noncomputable def wr18 : List (Ref sig .tc) :=
  [main_call2_v0, main_call2_cst, main_call2_v1, main_call2_v2, main_v592]
theorem hW18 : (main_part13_ops1 : List (HloOp τ sig (Elt F))).Forall fun op => op.writes ⊆ ((wr18).map (Proc.devRef (τ := τ) .tc)).toFinset :=
  writes_cons rfl <| writes_cons rfl <| writes_cons rfl <| writes_cons rfl <| writes_cons rfl <| writes_nil _
/-- Item 18 leaves every buffer that is no result of its operations as it found it. -/
theorem keep18 (c : Dev nD) (r : Ref sig .tc) (h : r ∉ wr18) :
    W19 m ρ c (Proc.devRef .tc r) = W18 m ρ c (Proc.devRef .tc r) :=
  StableHlo.after_of_writes_sub _ _ hW18 h
/-- Its results' indices start at 800. -/
theorem lo18_le : ∀ r ∈ wr18, 800 ≤ r.idx.val := fun r hr =>
  of_decide_eq_true (List.all_eq_true.mp (by decide : wr18.all (fun r => decide (800 ≤ r.idx.val)) = true) r hr)
theorem keepLt18 (c : Dev nD) (r : Ref sig .tc) (h : r.idx.val < 800) :
    W19 m ρ c (Proc.devRef .tc r) = W18 m ρ c (Proc.devRef .tc r) :=
  keep18 m ρ c r fun hr => Nat.not_le.mpr h (lo18_le r hr)

/-- The buffers item 19 (5 host operations) writes: its operations' results, in order. -/
noncomputable def wr19 : List (Ref sig .tc) :=
  [main_cst_188, main_v593, main_v594, main_v595, main_v596]
theorem hW19 : (main_part13_ops2 : List (HloOp τ sig (Elt F))).Forall fun op => op.writes ⊆ ((wr19).map (Proc.devRef (τ := τ) .tc)).toFinset :=
  writes_cons rfl <| writes_cons rfl <| writes_cons rfl <| writes_cons rfl <| writes_cons rfl <| writes_nil _
/-- Item 19 leaves every buffer that is no result of its operations as it found it. -/
theorem keep19 (c : Dev nD) (r : Ref sig .tc) (h : r ∉ wr19) :
    W20 m ρ c (Proc.devRef .tc r) = W19 m ρ c (Proc.devRef .tc r) :=
  StableHlo.after_of_writes_sub _ _ hW19 h
/-- Its results' indices start at 805. -/
theorem lo19_le : ∀ r ∈ wr19, 805 ≤ r.idx.val := fun r hr =>
  of_decide_eq_true (List.all_eq_true.mp (by decide : wr19.all (fun r => decide (805 ≤ r.idx.val)) = true) r hr)
theorem keepLt19 (c : Dev nD) (r : Ref sig .tc) (h : r.idx.val < 805) :
    W20 m ρ c (Proc.devRef .tc r) = W19 m ρ c (Proc.devRef .tc r) :=
  keep19 m ρ c r fun hr => Nat.not_le.mpr h (lo19_le r hr)

/-- The buffers item 20 (5 host operations) writes: its operations' results, in order. -/
noncomputable def wr20 : List (Ref sig .tc) :=
  [main_call3_v0, main_call3_cst, main_call3_v1, main_call3_v2, main_v597]
theorem hW20 : (main_part13_ops3 : List (HloOp τ sig (Elt F))).Forall fun op => op.writes ⊆ ((wr20).map (Proc.devRef (τ := τ) .tc)).toFinset :=
  writes_cons rfl <| writes_cons rfl <| writes_cons rfl <| writes_cons rfl <| writes_cons rfl <| writes_nil _
/-- Item 20 leaves every buffer that is no result of its operations as it found it. -/
theorem keep20 (c : Dev nD) (r : Ref sig .tc) (h : r ∉ wr20) :
    W21 m ρ c (Proc.devRef .tc r) = W20 m ρ c (Proc.devRef .tc r) :=
  StableHlo.after_of_writes_sub _ _ hW20 h
/-- Its results' indices start at 810. -/
theorem lo20_le : ∀ r ∈ wr20, 810 ≤ r.idx.val := fun r hr =>
  of_decide_eq_true (List.all_eq_true.mp (by decide : wr20.all (fun r => decide (810 ≤ r.idx.val)) = true) r hr)
theorem keepLt20 (c : Dev nD) (r : Ref sig .tc) (h : r.idx.val < 810) :
    W21 m ρ c (Proc.devRef .tc r) = W20 m ρ c (Proc.devRef .tc r) :=
  keep20 m ρ c r fun hr => Nat.not_le.mpr h (lo20_le r hr)

/-- The buffers item 21 (5 host operations) writes: its operations' results, in order. -/
noncomputable def wr21 : List (Ref sig .tc) :=
  [main_cst_189, main_v598, main_v599, main_v600, main_v601]
theorem hW21 : (main_part13_ops4 : List (HloOp τ sig (Elt F))).Forall fun op => op.writes ⊆ ((wr21).map (Proc.devRef (τ := τ) .tc)).toFinset :=
  writes_cons rfl <| writes_cons rfl <| writes_cons rfl <| writes_cons rfl <| writes_cons rfl <| writes_nil _
/-- Item 21 leaves every buffer that is no result of its operations as it found it. -/
theorem keep21 (c : Dev nD) (r : Ref sig .tc) (h : r ∉ wr21) :
    W22 m ρ c (Proc.devRef .tc r) = W21 m ρ c (Proc.devRef .tc r) :=
  StableHlo.after_of_writes_sub _ _ hW21 h
/-- Its results' indices start at 815. -/
theorem lo21_le : ∀ r ∈ wr21, 815 ≤ r.idx.val := fun r hr =>
  of_decide_eq_true (List.all_eq_true.mp (by decide : wr21.all (fun r => decide (815 ≤ r.idx.val)) = true) r hr)
theorem keepLt21 (c : Dev nD) (r : Ref sig .tc) (h : r.idx.val < 815) :
    W22 m ρ c (Proc.devRef .tc r) = W21 m ρ c (Proc.devRef .tc r) :=
  keep21 m ρ c r fun hr => Nat.not_le.mpr h (lo21_le r hr)

/-- Item 22 (region 0) leaves every buffer but its output array main_v602 as it found it: its two input arrays are
    never written back, and a buffer that is none of its three arrays bypasses it. -/
theorem keep22 (c : Dev nD) (r : Ref sig .tc) (h : r ≠ main_v602) :
    W23 m ρ c (Proc.devRef .tc r) = W22 m ρ c (Proc.devRef .tc r) := by
  by_cases h0 : r = Pipeline.arrRef spec0 0
  · subst h0; exact (W23_arr m ρ c 0).trans (((dat0 (V22 m ρ) c).arrAt_in 0 rfl _).trans (A_eq0 (V22 m ρ) c 0))
  by_cases h1 : r = Pipeline.arrRef spec0 1
  · subst h1; exact (W23_arr m ρ c 1).trans (((dat0 (V22 m ρ) c).arrAt_in 1 rfl _).trans (A_eq0 (V22 m ρ) c 1))
  exact W23_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 820. -/
theorem keepLt22 (c : Dev nD) (r : Ref sig .tc) (h : r.idx.val < 820) :
    W23 m ρ c (Proc.devRef .tc r) = W22 m ρ c (Proc.devRef .tc r) :=
  keep22 m ρ c r (by rintro rfl; exact absurd h (by decide))

/-- The buffers item 23 (3 host operations) writes: its operations' results, in order. -/
noncomputable def wr23 : List (Ref sig .tc) :=
  [main_v603, main_v604, main_v605]
theorem hW23 : (main_part13_ops5 : List (HloOp τ sig (Elt F))).Forall fun op => op.writes ⊆ ((wr23).map (Proc.devRef (τ := τ) .tc)).toFinset :=
  writes_cons rfl <| writes_cons rfl <| writes_cons rfl <| writes_nil _
/-- Item 23 leaves every buffer that is no result of its operations as it found it. -/
theorem keep23 (c : Dev nD) (r : Ref sig .tc) (h : r ∉ wr23) :
    W24 m ρ c (Proc.devRef .tc r) = W23 m ρ c (Proc.devRef .tc r) :=
  StableHlo.after_of_writes_sub _ _ hW23 h
/-- Its results' indices start at 821. -/
theorem lo23_le : ∀ r ∈ wr23, 821 ≤ r.idx.val := fun r hr =>
  of_decide_eq_true (List.all_eq_true.mp (by decide : wr23.all (fun r => decide (821 ≤ r.idx.val)) = true) r hr)
theorem keepLt23 (c : Dev nD) (r : Ref sig .tc) (h : r.idx.val < 821) :
    W24 m ρ c (Proc.devRef .tc r) = W23 m ρ c (Proc.devRef .tc r) :=
  keep23 m ρ c r fun hr => Nat.not_le.mpr h (lo23_le r hr)

/-- Item 24 (region 1) leaves every buffer but its output array main_v606 as it found it: its two input arrays are
    never written back, and a buffer that is none of its three arrays bypasses it. -/
theorem keep24 (c : Dev nD) (r : Ref sig .tc) (h : r ≠ main_v606) :
    W25 m ρ c (Proc.devRef .tc r) = W24 m ρ c (Proc.devRef .tc r) := by
  by_cases h0 : r = Pipeline.arrRef spec1 0
  · subst h0; exact (W25_arr m ρ c 0).trans (((dat1 (V24 m ρ) c).arrAt_in 0 rfl _).trans (A_eq1 (V24 m ρ) c 0))
  by_cases h1 : r = Pipeline.arrRef spec1 1
  · subst h1; exact (W25_arr m ρ c 1).trans (((dat1 (V24 m ρ) c).arrAt_in 1 rfl _).trans (A_eq1 (V24 m ρ) c 1))
  exact W25_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 824. -/
theorem keepLt24 (c : Dev nD) (r : Ref sig .tc) (h : r.idx.val < 824) :
    W25 m ρ c (Proc.devRef .tc r) = W24 m ρ c (Proc.devRef .tc r) :=
  keep24 m ρ c r (by rintro rfl; exact absurd h (by decide))

/-- The buffers item 25 (3 host operations) writes: its operations' results, in order. -/
noncomputable def wr25 : List (Ref sig .tc) :=
  [main_v607, main_v608, main_v609]
theorem hW25 : (main_part13_ops6 : List (HloOp τ sig (Elt F))).Forall fun op => op.writes ⊆ ((wr25).map (Proc.devRef (τ := τ) .tc)).toFinset :=
  writes_cons rfl <| writes_cons rfl <| writes_cons rfl <| writes_nil _
/-- Item 25 leaves every buffer that is no result of its operations as it found it. -/
theorem keep25 (c : Dev nD) (r : Ref sig .tc) (h : r ∉ wr25) :
    W26 m ρ c (Proc.devRef .tc r) = W25 m ρ c (Proc.devRef .tc r) :=
  StableHlo.after_of_writes_sub _ _ hW25 h
/-- Its results' indices start at 825. -/
theorem lo25_le : ∀ r ∈ wr25, 825 ≤ r.idx.val := fun r hr =>
  of_decide_eq_true (List.all_eq_true.mp (by decide : wr25.all (fun r => decide (825 ≤ r.idx.val)) = true) r hr)
theorem keepLt25 (c : Dev nD) (r : Ref sig .tc) (h : r.idx.val < 825) :
    W26 m ρ c (Proc.devRef .tc r) = W25 m ρ c (Proc.devRef .tc r) :=
  keep25 m ρ c r fun hr => Nat.not_le.mpr h (lo25_le r hr)

/-- Item 26 (region 2) leaves every buffer but its output array main_v610 as it found it: its two input arrays are
    never written back, and a buffer that is none of its three arrays bypasses it. -/
theorem keep26 (c : Dev nD) (r : Ref sig .tc) (h : r ≠ main_v610) :
    W27 m ρ c (Proc.devRef .tc r) = W26 m ρ c (Proc.devRef .tc r) := by
  by_cases h0 : r = Pipeline.arrRef spec2 0
  · subst h0; exact (W27_arr m ρ c 0).trans (((dat2 (V26 m ρ) c).arrAt_in 0 rfl _).trans (A_eq2 (V26 m ρ) c 0))
  by_cases h1 : r = Pipeline.arrRef spec2 1
  · subst h1; exact (W27_arr m ρ c 1).trans (((dat2 (V26 m ρ) c).arrAt_in 1 rfl _).trans (A_eq2 (V26 m ρ) c 1))
  exact W27_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 828. -/
theorem keepLt26 (c : Dev nD) (r : Ref sig .tc) (h : r.idx.val < 828) :
    W27 m ρ c (Proc.devRef .tc r) = W26 m ρ c (Proc.devRef .tc r) :=
  keep26 m ρ c r (by rintro rfl; exact absurd h (by decide))

/-- Item 27 (region 3) leaves every buffer but its output array main_v611 as it found it: its two input arrays are
    never written back, and a buffer that is none of its three arrays bypasses it. -/
theorem keep27 (c : Dev nD) (r : Ref sig .tc) (h : r ≠ main_v611) :
    W28 m ρ c (Proc.devRef .tc r) = W27 m ρ c (Proc.devRef .tc r) := by
  by_cases h0 : r = Pipeline.arrRef spec3 0
  · subst h0; exact (W28_arr m ρ c 0).trans (((dat3 (V27 m ρ) c).arrAt_in 0 rfl _).trans (A_eq3 (V27 m ρ) c 0))
  by_cases h1 : r = Pipeline.arrRef spec3 1
  · subst h1; exact (W28_arr m ρ c 1).trans (((dat3 (V27 m ρ) c).arrAt_in 1 rfl _).trans (A_eq3 (V27 m ρ) c 1))
  exact W28_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 829. -/
theorem keepLt27 (c : Dev nD) (r : Ref sig .tc) (h : r.idx.val < 829) :
    W28 m ρ c (Proc.devRef .tc r) = W27 m ρ c (Proc.devRef .tc r) :=
  keep27 m ρ c r (by rintro rfl; exact absurd h (by decide))

/-- The buffers item 28 (5 host operations) writes: its operations' results, in order. -/
noncomputable def wr28 : List (Ref sig .tc) :=
  [main_call4_v0, main_call4_cst, main_call4_v1, main_call4_v2, main_v612]
theorem hW28 : (main_part13_ops7 : List (HloOp τ sig (Elt F))).Forall fun op => op.writes ⊆ ((wr28).map (Proc.devRef (τ := τ) .tc)).toFinset :=
  writes_cons rfl <| writes_cons rfl <| writes_cons rfl <| writes_cons rfl <| writes_cons rfl <| writes_nil _
/-- Item 28 leaves every buffer that is no result of its operations as it found it. -/
theorem keep28 (c : Dev nD) (r : Ref sig .tc) (h : r ∉ wr28) :
    W29 m ρ c (Proc.devRef .tc r) = W28 m ρ c (Proc.devRef .tc r) :=
  StableHlo.after_of_writes_sub _ _ hW28 h
/-- Its results' indices start at 830. -/
theorem lo28_le : ∀ r ∈ wr28, 830 ≤ r.idx.val := fun r hr =>
  of_decide_eq_true (List.all_eq_true.mp (by decide : wr28.all (fun r => decide (830 ≤ r.idx.val)) = true) r hr)
theorem keepLt28 (c : Dev nD) (r : Ref sig .tc) (h : r.idx.val < 830) :
    W29 m ρ c (Proc.devRef .tc r) = W28 m ρ c (Proc.devRef .tc r) :=
  keep28 m ρ c r fun hr => Nat.not_le.mpr h (lo28_le r hr)

/-- The buffers item 29 (5 host operations) writes: its operations' results, in order. -/
noncomputable def wr29 : List (Ref sig .tc) :=
  [main_cst_190, main_v613, main_v614, main_v615, main_v616]
theorem hW29 : (main_part13_ops8 : List (HloOp τ sig (Elt F))).Forall fun op => op.writes ⊆ ((wr29).map (Proc.devRef (τ := τ) .tc)).toFinset :=
  writes_cons rfl <| writes_cons rfl <| writes_cons rfl <| writes_cons rfl <| writes_cons rfl <| writes_nil _
/-- Item 29 leaves every buffer that is no result of its operations as it found it. -/
theorem keep29 (c : Dev nD) (r : Ref sig .tc) (h : r ∉ wr29) :
    W30 m ρ c (Proc.devRef .tc r) = W29 m ρ c (Proc.devRef .tc r) :=
  StableHlo.after_of_writes_sub _ _ hW29 h
/-- Its results' indices start at 835. -/
theorem lo29_le : ∀ r ∈ wr29, 835 ≤ r.idx.val := fun r hr =>
  of_decide_eq_true (List.all_eq_true.mp (by decide : wr29.all (fun r => decide (835 ≤ r.idx.val)) = true) r hr)
theorem keepLt29 (c : Dev nD) (r : Ref sig .tc) (h : r.idx.val < 835) :
    W30 m ρ c (Proc.devRef .tc r) = W29 m ρ c (Proc.devRef .tc r) :=
  keep29 m ρ c r fun hr => Nat.not_le.mpr h (lo29_le r hr)

/-- The buffers item 30 (5 host operations) writes: its operations' results, in order. -/
noncomputable def wr30 : List (Ref sig .tc) :=
  [main_call5_v0, main_call5_cst, main_call5_v1, main_call5_v2, main_v617]
theorem hW30 : (main_part13_ops9 : List (HloOp τ sig (Elt F))).Forall fun op => op.writes ⊆ ((wr30).map (Proc.devRef (τ := τ) .tc)).toFinset :=
  writes_cons rfl <| writes_cons rfl <| writes_cons rfl <| writes_cons rfl <| writes_cons rfl <| writes_nil _
/-- Item 30 leaves every buffer that is no result of its operations as it found it. -/
theorem keep30 (c : Dev nD) (r : Ref sig .tc) (h : r ∉ wr30) :
    W31 m ρ c (Proc.devRef .tc r) = W30 m ρ c (Proc.devRef .tc r) :=
  StableHlo.after_of_writes_sub _ _ hW30 h
/-- Its results' indices start at 840. -/
theorem lo30_le : ∀ r ∈ wr30, 840 ≤ r.idx.val := fun r hr =>
  of_decide_eq_true (List.all_eq_true.mp (by decide : wr30.all (fun r => decide (840 ≤ r.idx.val)) = true) r hr)
theorem keepLt30 (c : Dev nD) (r : Ref sig .tc) (h : r.idx.val < 840) :
    W31 m ρ c (Proc.devRef .tc r) = W30 m ρ c (Proc.devRef .tc r) :=
  keep30 m ρ c r fun hr => Nat.not_le.mpr h (lo30_le r hr)

/-- The buffers item 31 (5 host operations) writes: its operations' results, in order. -/
noncomputable def wr31 : List (Ref sig .tc) :=
  [main_cst_191, main_v618, main_v619, main_v620, main_v621]
theorem hW31 : (main_part13_ops10 : List (HloOp τ sig (Elt F))).Forall fun op => op.writes ⊆ ((wr31).map (Proc.devRef (τ := τ) .tc)).toFinset :=
  writes_cons rfl <| writes_cons rfl <| writes_cons rfl <| writes_cons rfl <| writes_cons rfl <| writes_nil _
/-- Item 31 leaves every buffer that is no result of its operations as it found it. -/
theorem keep31 (c : Dev nD) (r : Ref sig .tc) (h : r ∉ wr31) :
    W32 m ρ c (Proc.devRef .tc r) = W31 m ρ c (Proc.devRef .tc r) :=
  StableHlo.after_of_writes_sub _ _ hW31 h
/-- Its results' indices start at 845. -/
theorem lo31_le : ∀ r ∈ wr31, 845 ≤ r.idx.val := fun r hr =>
  of_decide_eq_true (List.all_eq_true.mp (by decide : wr31.all (fun r => decide (845 ≤ r.idx.val)) = true) r hr)
theorem keepLt31 (c : Dev nD) (r : Ref sig .tc) (h : r.idx.val < 845) :
    W32 m ρ c (Proc.devRef .tc r) = W31 m ρ c (Proc.devRef .tc r) :=
  keep31 m ρ c r fun hr => Nat.not_le.mpr h (lo31_le r hr)

/-- The buffers item 32 (5 host operations) writes: its operations' results, in order. -/
noncomputable def wr32 : List (Ref sig .tc) :=
  [main_call6_v0, main_call6_cst, main_call6_v1, main_call6_v2, main_v622]
theorem hW32 : (main_part13_ops11 : List (HloOp τ sig (Elt F))).Forall fun op => op.writes ⊆ ((wr32).map (Proc.devRef (τ := τ) .tc)).toFinset :=
  writes_cons rfl <| writes_cons rfl <| writes_cons rfl <| writes_cons rfl <| writes_cons rfl <| writes_nil _
/-- Item 32 leaves every buffer that is no result of its operations as it found it. -/
theorem keep32 (c : Dev nD) (r : Ref sig .tc) (h : r ∉ wr32) :
    W33 m ρ c (Proc.devRef .tc r) = W32 m ρ c (Proc.devRef .tc r) :=
  StableHlo.after_of_writes_sub _ _ hW32 h
/-- Its results' indices start at 850. -/
theorem lo32_le : ∀ r ∈ wr32, 850 ≤ r.idx.val := fun r hr =>
  of_decide_eq_true (List.all_eq_true.mp (by decide : wr32.all (fun r => decide (850 ≤ r.idx.val)) = true) r hr)
theorem keepLt32 (c : Dev nD) (r : Ref sig .tc) (h : r.idx.val < 850) :
    W33 m ρ c (Proc.devRef .tc r) = W32 m ρ c (Proc.devRef .tc r) :=
  keep32 m ρ c r fun hr => Nat.not_le.mpr h (lo32_le r hr)

/-- The buffers item 33 (5 host operations) writes: its operations' results, in order. -/
noncomputable def wr33 : List (Ref sig .tc) :=
  [main_cst_192, main_v623, main_v624, main_v625, main_v626]
theorem hW33 : (main_part13_ops12 : List (HloOp τ sig (Elt F))).Forall fun op => op.writes ⊆ ((wr33).map (Proc.devRef (τ := τ) .tc)).toFinset :=
  writes_cons rfl <| writes_cons rfl <| writes_cons rfl <| writes_cons rfl <| writes_cons rfl <| writes_nil _
/-- Item 33 leaves every buffer that is no result of its operations as it found it. -/
theorem keep33 (c : Dev nD) (r : Ref sig .tc) (h : r ∉ wr33) :
    W34 m ρ c (Proc.devRef .tc r) = W33 m ρ c (Proc.devRef .tc r) :=
  StableHlo.after_of_writes_sub _ _ hW33 h
/-- Its results' indices start at 855. -/
theorem lo33_le : ∀ r ∈ wr33, 855 ≤ r.idx.val := fun r hr =>
  of_decide_eq_true (List.all_eq_true.mp (by decide : wr33.all (fun r => decide (855 ≤ r.idx.val)) = true) r hr)
theorem keepLt33 (c : Dev nD) (r : Ref sig .tc) (h : r.idx.val < 855) :
    W34 m ρ c (Proc.devRef .tc r) = W33 m ρ c (Proc.devRef .tc r) :=
  keep33 m ρ c r fun hr => Nat.not_le.mpr h (lo33_le r hr)

/-- The buffers item 34 (5 host operations) writes: its operations' results, in order. -/
noncomputable def wr34 : List (Ref sig .tc) :=
  [main_call7_v0, main_call7_cst, main_call7_v1, main_call7_v2, main_v627]
theorem hW34 : (main_part13_ops13 : List (HloOp τ sig (Elt F))).Forall fun op => op.writes ⊆ ((wr34).map (Proc.devRef (τ := τ) .tc)).toFinset :=
  writes_cons rfl <| writes_cons rfl <| writes_cons rfl <| writes_cons rfl <| writes_cons rfl <| writes_nil _
/-- Item 34 leaves every buffer that is no result of its operations as it found it. -/
theorem keep34 (c : Dev nD) (r : Ref sig .tc) (h : r ∉ wr34) :
    W35 m ρ c (Proc.devRef .tc r) = W34 m ρ c (Proc.devRef .tc r) :=
  StableHlo.after_of_writes_sub _ _ hW34 h
/-- Its results' indices start at 860. -/
theorem lo34_le : ∀ r ∈ wr34, 860 ≤ r.idx.val := fun r hr =>
  of_decide_eq_true (List.all_eq_true.mp (by decide : wr34.all (fun r => decide (860 ≤ r.idx.val)) = true) r hr)
theorem keepLt34 (c : Dev nD) (r : Ref sig .tc) (h : r.idx.val < 860) :
    W35 m ρ c (Proc.devRef .tc r) = W34 m ρ c (Proc.devRef .tc r) :=
  keep34 m ρ c r fun hr => Nat.not_le.mpr h (lo34_le r hr)

/-- The buffers item 35 (5 host operations) writes: its operations' results, in order. -/
noncomputable def wr35 : List (Ref sig .tc) :=
  [main_cst_193, main_v628, main_v629, main_v630, main_v631]
theorem hW35 : (main_part13_ops14 : List (HloOp τ sig (Elt F))).Forall fun op => op.writes ⊆ ((wr35).map (Proc.devRef (τ := τ) .tc)).toFinset :=
  writes_cons rfl <| writes_cons rfl <| writes_cons rfl <| writes_cons rfl <| writes_cons rfl <| writes_nil _
/-- Item 35 leaves every buffer that is no result of its operations as it found it. -/
theorem keep35 (c : Dev nD) (r : Ref sig .tc) (h : r ∉ wr35) :
    W36 m ρ c (Proc.devRef .tc r) = W35 m ρ c (Proc.devRef .tc r) :=
  StableHlo.after_of_writes_sub _ _ hW35 h
/-- Its results' indices start at 865. -/
theorem lo35_le : ∀ r ∈ wr35, 865 ≤ r.idx.val := fun r hr =>
  of_decide_eq_true (List.all_eq_true.mp (by decide : wr35.all (fun r => decide (865 ≤ r.idx.val)) = true) r hr)
theorem keepLt35 (c : Dev nD) (r : Ref sig .tc) (h : r.idx.val < 865) :
    W36 m ρ c (Proc.devRef .tc r) = W35 m ρ c (Proc.devRef .tc r) :=
  keep35 m ρ c r fun hr => Nat.not_le.mpr h (lo35_le r hr)

/-- Item 36 (region 4) leaves every buffer but its output array main_v632 as it found it: its two input arrays are
    never written back, and a buffer that is none of its three arrays bypasses it. -/
theorem keep36 (c : Dev nD) (r : Ref sig .tc) (h : r ≠ main_v632) :
    W37 m ρ c (Proc.devRef .tc r) = W36 m ρ c (Proc.devRef .tc r) := by
  by_cases h0 : r = Pipeline.arrRef spec4 0
  · subst h0; exact (W37_arr m ρ c 0).trans (((dat4 (V36 m ρ) c).arrAt_in 0 rfl _).trans (A_eq4 (V36 m ρ) c 0))
  by_cases h1 : r = Pipeline.arrRef spec4 1
  · subst h1; exact (W37_arr m ρ c 1).trans (((dat4 (V36 m ρ) c).arrAt_in 1 rfl _).trans (A_eq4 (V36 m ρ) c 1))
  exact W37_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 870. -/
theorem keepLt36 (c : Dev nD) (r : Ref sig .tc) (h : r.idx.val < 870) :
    W37 m ρ c (Proc.devRef .tc r) = W36 m ρ c (Proc.devRef .tc r) :=
  keep36 m ρ c r (by rintro rfl; exact absurd h (by decide))

/-- The buffers item 37 (3 host operations) writes: its operations' results, in order. -/
noncomputable def wr37 : List (Ref sig .tc) :=
  [main_v633, main_v634, main_v635]
theorem hW37 : (main_part13_ops15 : List (HloOp τ sig (Elt F))).Forall fun op => op.writes ⊆ ((wr37).map (Proc.devRef (τ := τ) .tc)).toFinset :=
  writes_cons rfl <| writes_cons rfl <| writes_cons rfl <| writes_nil _
/-- Item 37 leaves every buffer that is no result of its operations as it found it. -/
theorem keep37 (c : Dev nD) (r : Ref sig .tc) (h : r ∉ wr37) :
    W38 m ρ c (Proc.devRef .tc r) = W37 m ρ c (Proc.devRef .tc r) :=
  StableHlo.after_of_writes_sub _ _ hW37 h
/-- Its results' indices start at 871. -/
theorem lo37_le : ∀ r ∈ wr37, 871 ≤ r.idx.val := fun r hr =>
  of_decide_eq_true (List.all_eq_true.mp (by decide : wr37.all (fun r => decide (871 ≤ r.idx.val)) = true) r hr)
theorem keepLt37 (c : Dev nD) (r : Ref sig .tc) (h : r.idx.val < 871) :
    W38 m ρ c (Proc.devRef .tc r) = W37 m ρ c (Proc.devRef .tc r) :=
  keep37 m ρ c r fun hr => Nat.not_le.mpr h (lo37_le r hr)

/-- Item 38 (region 5) leaves every buffer but its output array main_v636 as it found it: its two input arrays are
    never written back, and a buffer that is none of its three arrays bypasses it. -/
theorem keep38 (c : Dev nD) (r : Ref sig .tc) (h : r ≠ main_v636) :
    W39 m ρ c (Proc.devRef .tc r) = W38 m ρ c (Proc.devRef .tc r) := by
  by_cases h0 : r = Pipeline.arrRef spec5 0
  · subst h0; exact (W39_arr m ρ c 0).trans (((dat5 (V38 m ρ) c).arrAt_in 0 rfl _).trans (A_eq5 (V38 m ρ) c 0))
  by_cases h1 : r = Pipeline.arrRef spec5 1
  · subst h1; exact (W39_arr m ρ c 1).trans (((dat5 (V38 m ρ) c).arrAt_in 1 rfl _).trans (A_eq5 (V38 m ρ) c 1))
  exact W39_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 874. -/
theorem keepLt38 (c : Dev nD) (r : Ref sig .tc) (h : r.idx.val < 874) :
    W39 m ρ c (Proc.devRef .tc r) = W38 m ρ c (Proc.devRef .tc r) :=
  keep38 m ρ c r (by rintro rfl; exact absurd h (by decide))

/-- The buffers item 39 (3 host operations) writes: its operations' results, in order. -/
noncomputable def wr39 : List (Ref sig .tc) :=
  [main_v637, main_v638, main_v639]
theorem hW39 : (main_part13_ops16 : List (HloOp τ sig (Elt F))).Forall fun op => op.writes ⊆ ((wr39).map (Proc.devRef (τ := τ) .tc)).toFinset :=
  writes_cons rfl <| writes_cons rfl <| writes_cons rfl <| writes_nil _
/-- Item 39 leaves every buffer that is no result of its operations as it found it. -/
theorem keep39 (c : Dev nD) (r : Ref sig .tc) (h : r ∉ wr39) :
    W40 m ρ c (Proc.devRef .tc r) = W39 m ρ c (Proc.devRef .tc r) :=
  StableHlo.after_of_writes_sub _ _ hW39 h
/-- Its results' indices start at 875. -/
theorem lo39_le : ∀ r ∈ wr39, 875 ≤ r.idx.val := fun r hr =>
  of_decide_eq_true (List.all_eq_true.mp (by decide : wr39.all (fun r => decide (875 ≤ r.idx.val)) = true) r hr)
theorem keepLt39 (c : Dev nD) (r : Ref sig .tc) (h : r.idx.val < 875) :
    W40 m ρ c (Proc.devRef .tc r) = W39 m ρ c (Proc.devRef .tc r) :=
  keep39 m ρ c r fun hr => Nat.not_le.mpr h (lo39_le r hr)

/-- Item 40 (region 6) leaves every buffer but its output array main_v640 as it found it: its two input arrays are
    never written back, and a buffer that is none of its three arrays bypasses it. -/
theorem keep40 (c : Dev nD) (r : Ref sig .tc) (h : r ≠ main_v640) :
    W41 m ρ c (Proc.devRef .tc r) = W40 m ρ c (Proc.devRef .tc r) := by
  by_cases h0 : r = Pipeline.arrRef spec6 0
  · subst h0; exact (W41_arr m ρ c 0).trans (((dat6 (V40 m ρ) c).arrAt_in 0 rfl _).trans (A_eq6 (V40 m ρ) c 0))
  by_cases h1 : r = Pipeline.arrRef spec6 1
  · subst h1; exact (W41_arr m ρ c 1).trans (((dat6 (V40 m ρ) c).arrAt_in 1 rfl _).trans (A_eq6 (V40 m ρ) c 1))
  exact W41_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 878. -/
theorem keepLt40 (c : Dev nD) (r : Ref sig .tc) (h : r.idx.val < 878) :
    W41 m ρ c (Proc.devRef .tc r) = W40 m ρ c (Proc.devRef .tc r) :=
  keep40 m ρ c r (by rintro rfl; exact absurd h (by decide))

/-- Item 41 (region 7) leaves every buffer but its output array main_v641 as it found it: its two input arrays are
    never written back, and a buffer that is none of its three arrays bypasses it. -/
theorem keep41 (c : Dev nD) (r : Ref sig .tc) (h : r ≠ main_v641) :
    W42 m ρ c (Proc.devRef .tc r) = W41 m ρ c (Proc.devRef .tc r) := by
  by_cases h0 : r = Pipeline.arrRef spec7 0
  · subst h0; exact (W42_arr m ρ c 0).trans (((dat7 (V41 m ρ) c).arrAt_in 0 rfl _).trans (A_eq7 (V41 m ρ) c 0))
  by_cases h1 : r = Pipeline.arrRef spec7 1
  · subst h1; exact (W42_arr m ρ c 1).trans (((dat7 (V41 m ρ) c).arrAt_in 1 rfl _).trans (A_eq7 (V41 m ρ) c 1))
  exact W42_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 879. -/
theorem keepLt41 (c : Dev nD) (r : Ref sig .tc) (h : r.idx.val < 879) :
    W42 m ρ c (Proc.devRef .tc r) = W41 m ρ c (Proc.devRef .tc r) :=
  keep41 m ρ c r (by rintro rfl; exact absurd h (by decide))

/-- The buffers item 42 (5 host operations) writes: its operations' results, in order. -/
noncomputable def wr42 : List (Ref sig .tc) :=
  [main_call8_v0, main_call8_cst, main_call8_v1, main_call8_v2, main_v642]
theorem hW42 : (main_part13_ops17 : List (HloOp τ sig (Elt F))).Forall fun op => op.writes ⊆ ((wr42).map (Proc.devRef (τ := τ) .tc)).toFinset :=
  writes_cons rfl <| writes_cons rfl <| writes_cons rfl <| writes_cons rfl <| writes_cons rfl <| writes_nil _
/-- Item 42 leaves every buffer that is no result of its operations as it found it. -/
theorem keep42 (c : Dev nD) (r : Ref sig .tc) (h : r ∉ wr42) :
    W43 m ρ c (Proc.devRef .tc r) = W42 m ρ c (Proc.devRef .tc r) :=
  StableHlo.after_of_writes_sub _ _ hW42 h
/-- Its results' indices start at 880. -/
theorem lo42_le : ∀ r ∈ wr42, 880 ≤ r.idx.val := fun r hr =>
  of_decide_eq_true (List.all_eq_true.mp (by decide : wr42.all (fun r => decide (880 ≤ r.idx.val)) = true) r hr)
theorem keepLt42 (c : Dev nD) (r : Ref sig .tc) (h : r.idx.val < 880) :
    W43 m ρ c (Proc.devRef .tc r) = W42 m ρ c (Proc.devRef .tc r) :=
  keep42 m ρ c r fun hr => Nat.not_le.mpr h (lo42_le r hr)

/-- The buffers item 43 (2 host operations) writes: its operations' results, in order. -/
noncomputable def wr43 : List (Ref sig .tc) :=
  [main_cst_194, main_v643]
theorem hW43 : (main_part13_ops18 : List (HloOp τ sig (Elt F))).Forall fun op => op.writes ⊆ ((wr43).map (Proc.devRef (τ := τ) .tc)).toFinset :=
  writes_cons rfl <| writes_cons rfl <| writes_nil _
/-- Item 43 leaves every buffer that is no result of its operations as it found it. -/
theorem keep43 (c : Dev nD) (r : Ref sig .tc) (h : r ∉ wr43) :
    W44 m ρ c (Proc.devRef .tc r) = W43 m ρ c (Proc.devRef .tc r) :=
  StableHlo.after_of_writes_sub _ _ hW43 h
/-- Its results' indices start at 885. -/
theorem lo43_le : ∀ r ∈ wr43, 885 ≤ r.idx.val := fun r hr =>
  of_decide_eq_true (List.all_eq_true.mp (by decide : wr43.all (fun r => decide (885 ≤ r.idx.val)) = true) r hr)
theorem keepLt43 (c : Dev nD) (r : Ref sig .tc) (h : r.idx.val < 885) :
    W44 m ρ c (Proc.devRef .tc r) = W43 m ρ c (Proc.devRef .tc r) :=
  keep43 m ρ c r fun hr => Nat.not_le.mpr h (lo43_le r hr)

/-- The buffers item 44 (3 host operations) writes: its operations' results, in order. -/
noncomputable def wr44 : List (Ref sig .tc) :=
  [main_v644, main_v645, main_v646]
theorem hW44 : (main_part14_ops0 : List (HloOp τ sig (Elt F))).Forall fun op => op.writes ⊆ ((wr44).map (Proc.devRef (τ := τ) .tc)).toFinset :=
  writes_cons rfl <| writes_cons rfl <| writes_cons rfl <| writes_nil _
/-- Item 44 leaves every buffer that is no result of its operations as it found it. -/
theorem keep44 (c : Dev nD) (r : Ref sig .tc) (h : r ∉ wr44) :
    W45 m ρ c (Proc.devRef .tc r) = W44 m ρ c (Proc.devRef .tc r) :=
  StableHlo.after_of_writes_sub _ _ hW44 h
/-- Its results' indices start at 887. -/
theorem lo44_le : ∀ r ∈ wr44, 887 ≤ r.idx.val := fun r hr =>
  of_decide_eq_true (List.all_eq_true.mp (by decide : wr44.all (fun r => decide (887 ≤ r.idx.val)) = true) r hr)
theorem keepLt44 (c : Dev nD) (r : Ref sig .tc) (h : r.idx.val < 887) :
    W45 m ρ c (Proc.devRef .tc r) = W44 m ρ c (Proc.devRef .tc r) :=
  keep44 m ρ c r fun hr => Nat.not_le.mpr h (lo44_le r hr)

/-- The buffers item 45 (5 host operations) writes: its operations' results, in order. -/
noncomputable def wr45 : List (Ref sig .tc) :=
  [main_call9_v0, main_call9_cst, main_call9_v1, main_call9_v2, main_v647]
theorem hW45 : (main_part14_ops1 : List (HloOp τ sig (Elt F))).Forall fun op => op.writes ⊆ ((wr45).map (Proc.devRef (τ := τ) .tc)).toFinset :=
  writes_cons rfl <| writes_cons rfl <| writes_cons rfl <| writes_cons rfl <| writes_cons rfl <| writes_nil _
/-- Item 45 leaves every buffer that is no result of its operations as it found it. -/
theorem keep45 (c : Dev nD) (r : Ref sig .tc) (h : r ∉ wr45) :
    W46 m ρ c (Proc.devRef .tc r) = W45 m ρ c (Proc.devRef .tc r) :=
  StableHlo.after_of_writes_sub _ _ hW45 h
/-- Its results' indices start at 890. -/
theorem lo45_le : ∀ r ∈ wr45, 890 ≤ r.idx.val := fun r hr =>
  of_decide_eq_true (List.all_eq_true.mp (by decide : wr45.all (fun r => decide (890 ≤ r.idx.val)) = true) r hr)
theorem keepLt45 (c : Dev nD) (r : Ref sig .tc) (h : r.idx.val < 890) :
    W46 m ρ c (Proc.devRef .tc r) = W45 m ρ c (Proc.devRef .tc r) :=
  keep45 m ρ c r fun hr => Nat.not_le.mpr h (lo45_le r hr)

/-- The buffers item 46 (5 host operations) writes: its operations' results, in order. -/
noncomputable def wr46 : List (Ref sig .tc) :=
  [main_cst_195, main_v648, main_v649, main_v650, main_v651]
theorem hW46 : (main_part14_ops2 : List (HloOp τ sig (Elt F))).Forall fun op => op.writes ⊆ ((wr46).map (Proc.devRef (τ := τ) .tc)).toFinset :=
  writes_cons rfl <| writes_cons rfl <| writes_cons rfl <| writes_cons rfl <| writes_cons rfl <| writes_nil _
/-- Item 46 leaves every buffer that is no result of its operations as it found it. -/
theorem keep46 (c : Dev nD) (r : Ref sig .tc) (h : r ∉ wr46) :
    W47 m ρ c (Proc.devRef .tc r) = W46 m ρ c (Proc.devRef .tc r) :=
  StableHlo.after_of_writes_sub _ _ hW46 h
/-- Its results' indices start at 895. -/
theorem lo46_le : ∀ r ∈ wr46, 895 ≤ r.idx.val := fun r hr =>
  of_decide_eq_true (List.all_eq_true.mp (by decide : wr46.all (fun r => decide (895 ≤ r.idx.val)) = true) r hr)
theorem keepLt46 (c : Dev nD) (r : Ref sig .tc) (h : r.idx.val < 895) :
    W47 m ρ c (Proc.devRef .tc r) = W46 m ρ c (Proc.devRef .tc r) :=
  keep46 m ρ c r fun hr => Nat.not_le.mpr h (lo46_le r hr)

/-- The buffers item 47 (5 host operations) writes: its operations' results, in order. -/
noncomputable def wr47 : List (Ref sig .tc) :=
  [main_call10_v0, main_call10_cst, main_call10_v1, main_call10_v2, main_v652]
theorem hW47 : (main_part14_ops3 : List (HloOp τ sig (Elt F))).Forall fun op => op.writes ⊆ ((wr47).map (Proc.devRef (τ := τ) .tc)).toFinset :=
  writes_cons rfl <| writes_cons rfl <| writes_cons rfl <| writes_cons rfl <| writes_cons rfl <| writes_nil _
/-- Item 47 leaves every buffer that is no result of its operations as it found it. -/
theorem keep47 (c : Dev nD) (r : Ref sig .tc) (h : r ∉ wr47) :
    W48 m ρ c (Proc.devRef .tc r) = W47 m ρ c (Proc.devRef .tc r) :=
  StableHlo.after_of_writes_sub _ _ hW47 h
/-- Its results' indices start at 900. -/
theorem lo47_le : ∀ r ∈ wr47, 900 ≤ r.idx.val := fun r hr =>
  of_decide_eq_true (List.all_eq_true.mp (by decide : wr47.all (fun r => decide (900 ≤ r.idx.val)) = true) r hr)
theorem keepLt47 (c : Dev nD) (r : Ref sig .tc) (h : r.idx.val < 900) :
    W48 m ρ c (Proc.devRef .tc r) = W47 m ρ c (Proc.devRef .tc r) :=
  keep47 m ρ c r fun hr => Nat.not_le.mpr h (lo47_le r hr)

/-- The buffers item 48 (5 host operations) writes: its operations' results, in order. -/
noncomputable def wr48 : List (Ref sig .tc) :=
  [main_cst_196, main_v653, main_v654, main_v655, main_v656]
theorem hW48 : (main_part14_ops4 : List (HloOp τ sig (Elt F))).Forall fun op => op.writes ⊆ ((wr48).map (Proc.devRef (τ := τ) .tc)).toFinset :=
  writes_cons rfl <| writes_cons rfl <| writes_cons rfl <| writes_cons rfl <| writes_cons rfl <| writes_nil _
/-- Item 48 leaves every buffer that is no result of its operations as it found it. -/
theorem keep48 (c : Dev nD) (r : Ref sig .tc) (h : r ∉ wr48) :
    W49 m ρ c (Proc.devRef .tc r) = W48 m ρ c (Proc.devRef .tc r) :=
  StableHlo.after_of_writes_sub _ _ hW48 h
/-- Its results' indices start at 905. -/
theorem lo48_le : ∀ r ∈ wr48, 905 ≤ r.idx.val := fun r hr =>
  of_decide_eq_true (List.all_eq_true.mp (by decide : wr48.all (fun r => decide (905 ≤ r.idx.val)) = true) r hr)
theorem keepLt48 (c : Dev nD) (r : Ref sig .tc) (h : r.idx.val < 905) :
    W49 m ρ c (Proc.devRef .tc r) = W48 m ρ c (Proc.devRef .tc r) :=
  keep48 m ρ c r fun hr => Nat.not_le.mpr h (lo48_le r hr)

/-- The buffers item 49 (5 host operations) writes: its operations' results, in order. -/
noncomputable def wr49 : List (Ref sig .tc) :=
  [main_call11_v0, main_call11_cst, main_call11_v1, main_call11_v2, main_v657]
theorem hW49 : (main_part14_ops5 : List (HloOp τ sig (Elt F))).Forall fun op => op.writes ⊆ ((wr49).map (Proc.devRef (τ := τ) .tc)).toFinset :=
  writes_cons rfl <| writes_cons rfl <| writes_cons rfl <| writes_cons rfl <| writes_cons rfl <| writes_nil _
/-- Item 49 leaves every buffer that is no result of its operations as it found it. -/
theorem keep49 (c : Dev nD) (r : Ref sig .tc) (h : r ∉ wr49) :
    W50 m ρ c (Proc.devRef .tc r) = W49 m ρ c (Proc.devRef .tc r) :=
  StableHlo.after_of_writes_sub _ _ hW49 h
/-- Its results' indices start at 910. -/
theorem lo49_le : ∀ r ∈ wr49, 910 ≤ r.idx.val := fun r hr =>
  of_decide_eq_true (List.all_eq_true.mp (by decide : wr49.all (fun r => decide (910 ≤ r.idx.val)) = true) r hr)
theorem keepLt49 (c : Dev nD) (r : Ref sig .tc) (h : r.idx.val < 910) :
    W50 m ρ c (Proc.devRef .tc r) = W49 m ρ c (Proc.devRef .tc r) :=
  keep49 m ρ c r fun hr => Nat.not_le.mpr h (lo49_le r hr)

/-- The buffers item 50 (5 host operations) writes: its operations' results, in order. -/
noncomputable def wr50 : List (Ref sig .tc) :=
  [main_cst_197, main_v658, main_v659, main_v660, main_v661]
theorem hW50 : (main_part14_ops6 : List (HloOp τ sig (Elt F))).Forall fun op => op.writes ⊆ ((wr50).map (Proc.devRef (τ := τ) .tc)).toFinset :=
  writes_cons rfl <| writes_cons rfl <| writes_cons rfl <| writes_cons rfl <| writes_cons rfl <| writes_nil _
/-- Item 50 leaves every buffer that is no result of its operations as it found it. -/
theorem keep50 (c : Dev nD) (r : Ref sig .tc) (h : r ∉ wr50) :
    W51 m ρ c (Proc.devRef .tc r) = W50 m ρ c (Proc.devRef .tc r) :=
  StableHlo.after_of_writes_sub _ _ hW50 h
/-- Its results' indices start at 915. -/
theorem lo50_le : ∀ r ∈ wr50, 915 ≤ r.idx.val := fun r hr =>
  of_decide_eq_true (List.all_eq_true.mp (by decide : wr50.all (fun r => decide (915 ≤ r.idx.val)) = true) r hr)
theorem keepLt50 (c : Dev nD) (r : Ref sig .tc) (h : r.idx.val < 915) :
    W51 m ρ c (Proc.devRef .tc r) = W50 m ρ c (Proc.devRef .tc r) :=
  keep50 m ρ c r fun hr => Nat.not_le.mpr h (lo50_le r hr)

/-- Item 51 (region 8) leaves every buffer but its output array main_v662 as it found it: its two input arrays are
    never written back, and a buffer that is none of its three arrays bypasses it. -/
theorem keep51 (c : Dev nD) (r : Ref sig .tc) (h : r ≠ main_v662) :
    W52 m ρ c (Proc.devRef .tc r) = W51 m ρ c (Proc.devRef .tc r) := by
  by_cases h0 : r = Pipeline.arrRef spec8 0
  · subst h0; exact (W52_arr m ρ c 0).trans (((dat8 (V51 m ρ) c).arrAt_in 0 rfl _).trans (A_eq8 (V51 m ρ) c 0))
  by_cases h1 : r = Pipeline.arrRef spec8 1
  · subst h1; exact (W52_arr m ρ c 1).trans (((dat8 (V51 m ρ) c).arrAt_in 1 rfl _).trans (A_eq8 (V51 m ρ) c 1))
  exact W52_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 920. -/
theorem keepLt51 (c : Dev nD) (r : Ref sig .tc) (h : r.idx.val < 920) :
    W52 m ρ c (Proc.devRef .tc r) = W51 m ρ c (Proc.devRef .tc r) :=
  keep51 m ρ c r (by rintro rfl; exact absurd h (by decide))

/-- The buffers item 52 (3 host operations) writes: its operations' results, in order. -/
noncomputable def wr52 : List (Ref sig .tc) :=
  [main_v663, main_v664, main_v665]
theorem hW52 : (main_part14_ops7 : List (HloOp τ sig (Elt F))).Forall fun op => op.writes ⊆ ((wr52).map (Proc.devRef (τ := τ) .tc)).toFinset :=
  writes_cons rfl <| writes_cons rfl <| writes_cons rfl <| writes_nil _
/-- Item 52 leaves every buffer that is no result of its operations as it found it. -/
theorem keep52 (c : Dev nD) (r : Ref sig .tc) (h : r ∉ wr52) :
    W53 m ρ c (Proc.devRef .tc r) = W52 m ρ c (Proc.devRef .tc r) :=
  StableHlo.after_of_writes_sub _ _ hW52 h
/-- Its results' indices start at 921. -/
theorem lo52_le : ∀ r ∈ wr52, 921 ≤ r.idx.val := fun r hr =>
  of_decide_eq_true (List.all_eq_true.mp (by decide : wr52.all (fun r => decide (921 ≤ r.idx.val)) = true) r hr)
theorem keepLt52 (c : Dev nD) (r : Ref sig .tc) (h : r.idx.val < 921) :
    W53 m ρ c (Proc.devRef .tc r) = W52 m ρ c (Proc.devRef .tc r) :=
  keep52 m ρ c r fun hr => Nat.not_le.mpr h (lo52_le r hr)

/-- Item 53 (region 9) leaves every buffer but its output array main_v666 as it found it: its two input arrays are
    never written back, and a buffer that is none of its three arrays bypasses it. -/
theorem keep53 (c : Dev nD) (r : Ref sig .tc) (h : r ≠ main_v666) :
    W54 m ρ c (Proc.devRef .tc r) = W53 m ρ c (Proc.devRef .tc r) := by
  by_cases h0 : r = Pipeline.arrRef spec9 0
  · subst h0; exact (W54_arr m ρ c 0).trans (((dat9 (V53 m ρ) c).arrAt_in 0 rfl _).trans (A_eq9 (V53 m ρ) c 0))
  by_cases h1 : r = Pipeline.arrRef spec9 1
  · subst h1; exact (W54_arr m ρ c 1).trans (((dat9 (V53 m ρ) c).arrAt_in 1 rfl _).trans (A_eq9 (V53 m ρ) c 1))
  exact W54_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 924. -/
theorem keepLt53 (c : Dev nD) (r : Ref sig .tc) (h : r.idx.val < 924) :
    W54 m ρ c (Proc.devRef .tc r) = W53 m ρ c (Proc.devRef .tc r) :=
  keep53 m ρ c r (by rintro rfl; exact absurd h (by decide))

/-- The buffers item 54 (3 host operations) writes: its operations' results, in order. -/
noncomputable def wr54 : List (Ref sig .tc) :=
  [main_v667, main_v668, main_v669]
theorem hW54 : (main_part14_ops8 : List (HloOp τ sig (Elt F))).Forall fun op => op.writes ⊆ ((wr54).map (Proc.devRef (τ := τ) .tc)).toFinset :=
  writes_cons rfl <| writes_cons rfl <| writes_cons rfl <| writes_nil _
/-- Item 54 leaves every buffer that is no result of its operations as it found it. -/
theorem keep54 (c : Dev nD) (r : Ref sig .tc) (h : r ∉ wr54) :
    W55 m ρ c (Proc.devRef .tc r) = W54 m ρ c (Proc.devRef .tc r) :=
  StableHlo.after_of_writes_sub _ _ hW54 h
/-- Its results' indices start at 925. -/
theorem lo54_le : ∀ r ∈ wr54, 925 ≤ r.idx.val := fun r hr =>
  of_decide_eq_true (List.all_eq_true.mp (by decide : wr54.all (fun r => decide (925 ≤ r.idx.val)) = true) r hr)
theorem keepLt54 (c : Dev nD) (r : Ref sig .tc) (h : r.idx.val < 925) :
    W55 m ρ c (Proc.devRef .tc r) = W54 m ρ c (Proc.devRef .tc r) :=
  keep54 m ρ c r fun hr => Nat.not_le.mpr h (lo54_le r hr)

/-- Item 55 (region 10) leaves every buffer but its output array main_v670 as it found it: its two input arrays are
    never written back, and a buffer that is none of its three arrays bypasses it. -/
theorem keep55 (c : Dev nD) (r : Ref sig .tc) (h : r ≠ main_v670) :
    W56 m ρ c (Proc.devRef .tc r) = W55 m ρ c (Proc.devRef .tc r) := by
  by_cases h0 : r = Pipeline.arrRef spec10 0
  · subst h0; exact (W56_arr m ρ c 0).trans (((dat10 (V55 m ρ) c).arrAt_in 0 rfl _).trans (A_eq10 (V55 m ρ) c 0))
  by_cases h1 : r = Pipeline.arrRef spec10 1
  · subst h1; exact (W56_arr m ρ c 1).trans (((dat10 (V55 m ρ) c).arrAt_in 1 rfl _).trans (A_eq10 (V55 m ρ) c 1))
  exact W56_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 928. -/
theorem keepLt55 (c : Dev nD) (r : Ref sig .tc) (h : r.idx.val < 928) :
    W56 m ρ c (Proc.devRef .tc r) = W55 m ρ c (Proc.devRef .tc r) :=
  keep55 m ρ c r (by rintro rfl; exact absurd h (by decide))

/-- Item 56 (region 11) leaves every buffer but its output array main_v671 as it found it: its two input arrays are
    never written back, and a buffer that is none of its three arrays bypasses it. -/
theorem keep56 (c : Dev nD) (r : Ref sig .tc) (h : r ≠ main_v671) :
    W57 m ρ c (Proc.devRef .tc r) = W56 m ρ c (Proc.devRef .tc r) := by
  by_cases h0 : r = Pipeline.arrRef spec11 0
  · subst h0; exact (W57_arr m ρ c 0).trans (((dat11 (V56 m ρ) c).arrAt_in 0 rfl _).trans (A_eq11 (V56 m ρ) c 0))
  by_cases h1 : r = Pipeline.arrRef spec11 1
  · subst h1; exact (W57_arr m ρ c 1).trans (((dat11 (V56 m ρ) c).arrAt_in 1 rfl _).trans (A_eq11 (V56 m ρ) c 1))
  exact W57_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 929. -/
theorem keepLt56 (c : Dev nD) (r : Ref sig .tc) (h : r.idx.val < 929) :
    W57 m ρ c (Proc.devRef .tc r) = W56 m ρ c (Proc.devRef .tc r) :=
  keep56 m ρ c r (by rintro rfl; exact absurd h (by decide))

/-- The buffers item 57 (5 host operations) writes: its operations' results, in order. -/
noncomputable def wr57 : List (Ref sig .tc) :=
  [main_call12_v0, main_call12_cst, main_call12_v1, main_call12_v2, main_v672]
theorem hW57 : (main_part14_ops9 : List (HloOp τ sig (Elt F))).Forall fun op => op.writes ⊆ ((wr57).map (Proc.devRef (τ := τ) .tc)).toFinset :=
  writes_cons rfl <| writes_cons rfl <| writes_cons rfl <| writes_cons rfl <| writes_cons rfl <| writes_nil _
/-- Item 57 leaves every buffer that is no result of its operations as it found it. -/
theorem keep57 (c : Dev nD) (r : Ref sig .tc) (h : r ∉ wr57) :
    W58 m ρ c (Proc.devRef .tc r) = W57 m ρ c (Proc.devRef .tc r) :=
  StableHlo.after_of_writes_sub _ _ hW57 h
/-- Its results' indices start at 930. -/
theorem lo57_le : ∀ r ∈ wr57, 930 ≤ r.idx.val := fun r hr =>
  of_decide_eq_true (List.all_eq_true.mp (by decide : wr57.all (fun r => decide (930 ≤ r.idx.val)) = true) r hr)
theorem keepLt57 (c : Dev nD) (r : Ref sig .tc) (h : r.idx.val < 930) :
    W58 m ρ c (Proc.devRef .tc r) = W57 m ρ c (Proc.devRef .tc r) :=
  keep57 m ρ c r fun hr => Nat.not_le.mpr h (lo57_le r hr)

/-- The buffers item 58 (5 host operations) writes: its operations' results, in order. -/
noncomputable def wr58 : List (Ref sig .tc) :=
  [main_cst_198, main_v673, main_v674, main_v675, main_v676]
theorem hW58 : (main_part14_ops10 : List (HloOp τ sig (Elt F))).Forall fun op => op.writes ⊆ ((wr58).map (Proc.devRef (τ := τ) .tc)).toFinset :=
  writes_cons rfl <| writes_cons rfl <| writes_cons rfl <| writes_cons rfl <| writes_cons rfl <| writes_nil _
/-- Item 58 leaves every buffer that is no result of its operations as it found it. -/
theorem keep58 (c : Dev nD) (r : Ref sig .tc) (h : r ∉ wr58) :
    W59 m ρ c (Proc.devRef .tc r) = W58 m ρ c (Proc.devRef .tc r) :=
  StableHlo.after_of_writes_sub _ _ hW58 h
/-- Its results' indices start at 935. -/
theorem lo58_le : ∀ r ∈ wr58, 935 ≤ r.idx.val := fun r hr =>
  of_decide_eq_true (List.all_eq_true.mp (by decide : wr58.all (fun r => decide (935 ≤ r.idx.val)) = true) r hr)
theorem keepLt58 (c : Dev nD) (r : Ref sig .tc) (h : r.idx.val < 935) :
    W59 m ρ c (Proc.devRef .tc r) = W58 m ρ c (Proc.devRef .tc r) :=
  keep58 m ρ c r fun hr => Nat.not_le.mpr h (lo58_le r hr)

/-- The buffers item 59 (5 host operations) writes: its operations' results, in order. -/
noncomputable def wr59 : List (Ref sig .tc) :=
  [main_call13_v0, main_call13_cst, main_call13_v1, main_call13_v2, main_v677]
theorem hW59 : (main_part14_ops11 : List (HloOp τ sig (Elt F))).Forall fun op => op.writes ⊆ ((wr59).map (Proc.devRef (τ := τ) .tc)).toFinset :=
  writes_cons rfl <| writes_cons rfl <| writes_cons rfl <| writes_cons rfl <| writes_cons rfl <| writes_nil _
/-- Item 59 leaves every buffer that is no result of its operations as it found it. -/
theorem keep59 (c : Dev nD) (r : Ref sig .tc) (h : r ∉ wr59) :
    W60 m ρ c (Proc.devRef .tc r) = W59 m ρ c (Proc.devRef .tc r) :=
  StableHlo.after_of_writes_sub _ _ hW59 h
/-- Its results' indices start at 940. -/
theorem lo59_le : ∀ r ∈ wr59, 940 ≤ r.idx.val := fun r hr =>
  of_decide_eq_true (List.all_eq_true.mp (by decide : wr59.all (fun r => decide (940 ≤ r.idx.val)) = true) r hr)
theorem keepLt59 (c : Dev nD) (r : Ref sig .tc) (h : r.idx.val < 940) :
    W60 m ρ c (Proc.devRef .tc r) = W59 m ρ c (Proc.devRef .tc r) :=
  keep59 m ρ c r fun hr => Nat.not_le.mpr h (lo59_le r hr)

/-- The buffers item 60 (5 host operations) writes: its operations' results, in order. -/
noncomputable def wr60 : List (Ref sig .tc) :=
  [main_cst_199, main_v678, main_v679, main_v680, main_v681]
theorem hW60 : (main_part14_ops12 : List (HloOp τ sig (Elt F))).Forall fun op => op.writes ⊆ ((wr60).map (Proc.devRef (τ := τ) .tc)).toFinset :=
  writes_cons rfl <| writes_cons rfl <| writes_cons rfl <| writes_cons rfl <| writes_cons rfl <| writes_nil _
/-- Item 60 leaves every buffer that is no result of its operations as it found it. -/
theorem keep60 (c : Dev nD) (r : Ref sig .tc) (h : r ∉ wr60) :
    W61 m ρ c (Proc.devRef .tc r) = W60 m ρ c (Proc.devRef .tc r) :=
  StableHlo.after_of_writes_sub _ _ hW60 h
/-- Its results' indices start at 945. -/
theorem lo60_le : ∀ r ∈ wr60, 945 ≤ r.idx.val := fun r hr =>
  of_decide_eq_true (List.all_eq_true.mp (by decide : wr60.all (fun r => decide (945 ≤ r.idx.val)) = true) r hr)
theorem keepLt60 (c : Dev nD) (r : Ref sig .tc) (h : r.idx.val < 945) :
    W61 m ρ c (Proc.devRef .tc r) = W60 m ρ c (Proc.devRef .tc r) :=
  keep60 m ρ c r fun hr => Nat.not_le.mpr h (lo60_le r hr)

/-- The buffers item 61 (5 host operations) writes: its operations' results, in order. -/
noncomputable def wr61 : List (Ref sig .tc) :=
  [main_call14_v0, main_call14_cst, main_call14_v1, main_call14_v2, main_v682]
theorem hW61 : (main_part14_ops13 : List (HloOp τ sig (Elt F))).Forall fun op => op.writes ⊆ ((wr61).map (Proc.devRef (τ := τ) .tc)).toFinset :=
  writes_cons rfl <| writes_cons rfl <| writes_cons rfl <| writes_cons rfl <| writes_cons rfl <| writes_nil _
/-- Item 61 leaves every buffer that is no result of its operations as it found it. -/
theorem keep61 (c : Dev nD) (r : Ref sig .tc) (h : r ∉ wr61) :
    W62 m ρ c (Proc.devRef .tc r) = W61 m ρ c (Proc.devRef .tc r) :=
  StableHlo.after_of_writes_sub _ _ hW61 h
/-- Its results' indices start at 950. -/
theorem lo61_le : ∀ r ∈ wr61, 950 ≤ r.idx.val := fun r hr =>
  of_decide_eq_true (List.all_eq_true.mp (by decide : wr61.all (fun r => decide (950 ≤ r.idx.val)) = true) r hr)
theorem keepLt61 (c : Dev nD) (r : Ref sig .tc) (h : r.idx.val < 950) :
    W62 m ρ c (Proc.devRef .tc r) = W61 m ρ c (Proc.devRef .tc r) :=
  keep61 m ρ c r fun hr => Nat.not_le.mpr h (lo61_le r hr)

/-- The buffers item 62 (5 host operations) writes: its operations' results, in order. -/
noncomputable def wr62 : List (Ref sig .tc) :=
  [main_cst_200, main_v683, main_v684, main_v685, main_v686]
theorem hW62 : (main_part14_ops14 : List (HloOp τ sig (Elt F))).Forall fun op => op.writes ⊆ ((wr62).map (Proc.devRef (τ := τ) .tc)).toFinset :=
  writes_cons rfl <| writes_cons rfl <| writes_cons rfl <| writes_cons rfl <| writes_cons rfl <| writes_nil _
/-- Item 62 leaves every buffer that is no result of its operations as it found it. -/
theorem keep62 (c : Dev nD) (r : Ref sig .tc) (h : r ∉ wr62) :
    W63 m ρ c (Proc.devRef .tc r) = W62 m ρ c (Proc.devRef .tc r) :=
  StableHlo.after_of_writes_sub _ _ hW62 h
/-- Its results' indices start at 955. -/
theorem lo62_le : ∀ r ∈ wr62, 955 ≤ r.idx.val := fun r hr =>
  of_decide_eq_true (List.all_eq_true.mp (by decide : wr62.all (fun r => decide (955 ≤ r.idx.val)) = true) r hr)
theorem keepLt62 (c : Dev nD) (r : Ref sig .tc) (h : r.idx.val < 955) :
    W63 m ρ c (Proc.devRef .tc r) = W62 m ρ c (Proc.devRef .tc r) :=
  keep62 m ρ c r fun hr => Nat.not_le.mpr h (lo62_le r hr)

/-- The buffers item 63 (5 host operations) writes: its operations' results, in order. -/
noncomputable def wr63 : List (Ref sig .tc) :=
  [main_call15_v0, main_call15_cst, main_call15_v1, main_call15_v2, main_v687]
theorem hW63 : (main_part14_ops15 : List (HloOp τ sig (Elt F))).Forall fun op => op.writes ⊆ ((wr63).map (Proc.devRef (τ := τ) .tc)).toFinset :=
  writes_cons rfl <| writes_cons rfl <| writes_cons rfl <| writes_cons rfl <| writes_cons rfl <| writes_nil _
/-- Item 63 leaves every buffer that is no result of its operations as it found it. -/
theorem keep63 (c : Dev nD) (r : Ref sig .tc) (h : r ∉ wr63) :
    W64 m ρ c (Proc.devRef .tc r) = W63 m ρ c (Proc.devRef .tc r) :=
  StableHlo.after_of_writes_sub _ _ hW63 h
/-- Its results' indices start at 960. -/
theorem lo63_le : ∀ r ∈ wr63, 960 ≤ r.idx.val := fun r hr =>
  of_decide_eq_true (List.all_eq_true.mp (by decide : wr63.all (fun r => decide (960 ≤ r.idx.val)) = true) r hr)
theorem keepLt63 (c : Dev nD) (r : Ref sig .tc) (h : r.idx.val < 960) :
    W64 m ρ c (Proc.devRef .tc r) = W63 m ρ c (Proc.devRef .tc r) :=
  keep63 m ρ c r fun hr => Nat.not_le.mpr h (lo63_le r hr)

/-- The buffers item 64 (7 host operations) writes: its operations' results, in order. -/
noncomputable def wr64 : List (Ref sig .tc) :=
  [main_cst_201, main_v688, main_v689, main_v690, main_v691, main_v692, main_v693]
theorem hW64 : (main_part14_ops16 : List (HloOp τ sig (Elt F))).Forall fun op => op.writes ⊆ ((wr64).map (Proc.devRef (τ := τ) .tc)).toFinset :=
  writes_cons rfl <| writes_cons rfl <| writes_cons rfl <| writes_cons rfl <| writes_cons rfl <| writes_cons rfl <|
  writes_cons rfl <| writes_nil _
/-- Item 64 leaves every buffer that is no result of its operations as it found it. -/
theorem keep64 (c : Dev nD) (r : Ref sig .tc) (h : r ∉ wr64) :
    W65 m ρ c (Proc.devRef .tc r) = W64 m ρ c (Proc.devRef .tc r) :=
  StableHlo.after_of_writes_sub _ _ hW64 h
/-- Its results' indices start at 965. -/
theorem lo64_le : ∀ r ∈ wr64, 965 ≤ r.idx.val := fun r hr =>
  of_decide_eq_true (List.all_eq_true.mp (by decide : wr64.all (fun r => decide (965 ≤ r.idx.val)) = true) r hr)
theorem keepLt64 (c : Dev nD) (r : Ref sig .tc) (h : r.idx.val < 965) :
    W65 m ρ c (Proc.devRef .tc r) = W64 m ρ c (Proc.devRef .tc r) :=
  keep64 m ρ c r fun hr => Nat.not_le.mpr h (lo64_le r hr)

/-! ## From the last boundary back: a buffer whose index is below every index the items from k on write holds at the
     last boundary what it held at boundary k -/

theorem tail64 (c : Dev nD) (r : Ref sig .tc) (h : r.idx.val < 965) :
    W65 m ρ c (Proc.devRef .tc r) = W64 m ρ c (Proc.devRef .tc r) :=
  keepLt64 m ρ c r h

theorem tail63 (c : Dev nD) (r : Ref sig .tc) (h : r.idx.val < 960) :
    W65 m ρ c (Proc.devRef .tc r) = W63 m ρ c (Proc.devRef .tc r) :=
  (tail64 m ρ c r (Nat.lt_of_lt_of_le h (by decide))).trans (keepLt63 m ρ c r h)

theorem tail62 (c : Dev nD) (r : Ref sig .tc) (h : r.idx.val < 955) :
    W65 m ρ c (Proc.devRef .tc r) = W62 m ρ c (Proc.devRef .tc r) :=
  (tail63 m ρ c r (Nat.lt_of_lt_of_le h (by decide))).trans (keepLt62 m ρ c r h)

theorem tail61 (c : Dev nD) (r : Ref sig .tc) (h : r.idx.val < 950) :
    W65 m ρ c (Proc.devRef .tc r) = W61 m ρ c (Proc.devRef .tc r) :=
  (tail62 m ρ c r (Nat.lt_of_lt_of_le h (by decide))).trans (keepLt61 m ρ c r h)

theorem tail60 (c : Dev nD) (r : Ref sig .tc) (h : r.idx.val < 945) :
    W65 m ρ c (Proc.devRef .tc r) = W60 m ρ c (Proc.devRef .tc r) :=
  (tail61 m ρ c r (Nat.lt_of_lt_of_le h (by decide))).trans (keepLt60 m ρ c r h)

theorem tail59 (c : Dev nD) (r : Ref sig .tc) (h : r.idx.val < 940) :
    W65 m ρ c (Proc.devRef .tc r) = W59 m ρ c (Proc.devRef .tc r) :=
  (tail60 m ρ c r (Nat.lt_of_lt_of_le h (by decide))).trans (keepLt59 m ρ c r h)

theorem tail58 (c : Dev nD) (r : Ref sig .tc) (h : r.idx.val < 935) :
    W65 m ρ c (Proc.devRef .tc r) = W58 m ρ c (Proc.devRef .tc r) :=
  (tail59 m ρ c r (Nat.lt_of_lt_of_le h (by decide))).trans (keepLt58 m ρ c r h)

theorem tail57 (c : Dev nD) (r : Ref sig .tc) (h : r.idx.val < 930) :
    W65 m ρ c (Proc.devRef .tc r) = W57 m ρ c (Proc.devRef .tc r) :=
  (tail58 m ρ c r (Nat.lt_of_lt_of_le h (by decide))).trans (keepLt57 m ρ c r h)

theorem tail56 (c : Dev nD) (r : Ref sig .tc) (h : r.idx.val < 929) :
    W65 m ρ c (Proc.devRef .tc r) = W56 m ρ c (Proc.devRef .tc r) :=
  (tail57 m ρ c r (Nat.lt_of_lt_of_le h (by decide))).trans (keepLt56 m ρ c r h)

theorem tail55 (c : Dev nD) (r : Ref sig .tc) (h : r.idx.val < 928) :
    W65 m ρ c (Proc.devRef .tc r) = W55 m ρ c (Proc.devRef .tc r) :=
  (tail56 m ρ c r (Nat.lt_of_lt_of_le h (by decide))).trans (keepLt55 m ρ c r h)

theorem tail54 (c : Dev nD) (r : Ref sig .tc) (h : r.idx.val < 925) :
    W65 m ρ c (Proc.devRef .tc r) = W54 m ρ c (Proc.devRef .tc r) :=
  (tail55 m ρ c r (Nat.lt_of_lt_of_le h (by decide))).trans (keepLt54 m ρ c r h)

theorem tail53 (c : Dev nD) (r : Ref sig .tc) (h : r.idx.val < 924) :
    W65 m ρ c (Proc.devRef .tc r) = W53 m ρ c (Proc.devRef .tc r) :=
  (tail54 m ρ c r (Nat.lt_of_lt_of_le h (by decide))).trans (keepLt53 m ρ c r h)

theorem tail52 (c : Dev nD) (r : Ref sig .tc) (h : r.idx.val < 921) :
    W65 m ρ c (Proc.devRef .tc r) = W52 m ρ c (Proc.devRef .tc r) :=
  (tail53 m ρ c r (Nat.lt_of_lt_of_le h (by decide))).trans (keepLt52 m ρ c r h)

theorem tail51 (c : Dev nD) (r : Ref sig .tc) (h : r.idx.val < 920) :
    W65 m ρ c (Proc.devRef .tc r) = W51 m ρ c (Proc.devRef .tc r) :=
  (tail52 m ρ c r (Nat.lt_of_lt_of_le h (by decide))).trans (keepLt51 m ρ c r h)

theorem tail50 (c : Dev nD) (r : Ref sig .tc) (h : r.idx.val < 915) :
    W65 m ρ c (Proc.devRef .tc r) = W50 m ρ c (Proc.devRef .tc r) :=
  (tail51 m ρ c r (Nat.lt_of_lt_of_le h (by decide))).trans (keepLt50 m ρ c r h)

theorem tail49 (c : Dev nD) (r : Ref sig .tc) (h : r.idx.val < 910) :
    W65 m ρ c (Proc.devRef .tc r) = W49 m ρ c (Proc.devRef .tc r) :=
  (tail50 m ρ c r (Nat.lt_of_lt_of_le h (by decide))).trans (keepLt49 m ρ c r h)

theorem tail48 (c : Dev nD) (r : Ref sig .tc) (h : r.idx.val < 905) :
    W65 m ρ c (Proc.devRef .tc r) = W48 m ρ c (Proc.devRef .tc r) :=
  (tail49 m ρ c r (Nat.lt_of_lt_of_le h (by decide))).trans (keepLt48 m ρ c r h)

theorem tail47 (c : Dev nD) (r : Ref sig .tc) (h : r.idx.val < 900) :
    W65 m ρ c (Proc.devRef .tc r) = W47 m ρ c (Proc.devRef .tc r) :=
  (tail48 m ρ c r (Nat.lt_of_lt_of_le h (by decide))).trans (keepLt47 m ρ c r h)

theorem tail46 (c : Dev nD) (r : Ref sig .tc) (h : r.idx.val < 895) :
    W65 m ρ c (Proc.devRef .tc r) = W46 m ρ c (Proc.devRef .tc r) :=
  (tail47 m ρ c r (Nat.lt_of_lt_of_le h (by decide))).trans (keepLt46 m ρ c r h)

theorem tail45 (c : Dev nD) (r : Ref sig .tc) (h : r.idx.val < 890) :
    W65 m ρ c (Proc.devRef .tc r) = W45 m ρ c (Proc.devRef .tc r) :=
  (tail46 m ρ c r (Nat.lt_of_lt_of_le h (by decide))).trans (keepLt45 m ρ c r h)

theorem tail44 (c : Dev nD) (r : Ref sig .tc) (h : r.idx.val < 887) :
    W65 m ρ c (Proc.devRef .tc r) = W44 m ρ c (Proc.devRef .tc r) :=
  (tail45 m ρ c r (Nat.lt_of_lt_of_le h (by decide))).trans (keepLt44 m ρ c r h)

theorem tail43 (c : Dev nD) (r : Ref sig .tc) (h : r.idx.val < 885) :
    W65 m ρ c (Proc.devRef .tc r) = W43 m ρ c (Proc.devRef .tc r) :=
  (tail44 m ρ c r (Nat.lt_of_lt_of_le h (by decide))).trans (keepLt43 m ρ c r h)

theorem tail42 (c : Dev nD) (r : Ref sig .tc) (h : r.idx.val < 880) :
    W65 m ρ c (Proc.devRef .tc r) = W42 m ρ c (Proc.devRef .tc r) :=
  (tail43 m ρ c r (Nat.lt_of_lt_of_le h (by decide))).trans (keepLt42 m ρ c r h)

theorem tail41 (c : Dev nD) (r : Ref sig .tc) (h : r.idx.val < 879) :
    W65 m ρ c (Proc.devRef .tc r) = W41 m ρ c (Proc.devRef .tc r) :=
  (tail42 m ρ c r (Nat.lt_of_lt_of_le h (by decide))).trans (keepLt41 m ρ c r h)

theorem tail40 (c : Dev nD) (r : Ref sig .tc) (h : r.idx.val < 878) :
    W65 m ρ c (Proc.devRef .tc r) = W40 m ρ c (Proc.devRef .tc r) :=
  (tail41 m ρ c r (Nat.lt_of_lt_of_le h (by decide))).trans (keepLt40 m ρ c r h)

theorem tail39 (c : Dev nD) (r : Ref sig .tc) (h : r.idx.val < 875) :
    W65 m ρ c (Proc.devRef .tc r) = W39 m ρ c (Proc.devRef .tc r) :=
  (tail40 m ρ c r (Nat.lt_of_lt_of_le h (by decide))).trans (keepLt39 m ρ c r h)

theorem tail38 (c : Dev nD) (r : Ref sig .tc) (h : r.idx.val < 874) :
    W65 m ρ c (Proc.devRef .tc r) = W38 m ρ c (Proc.devRef .tc r) :=
  (tail39 m ρ c r (Nat.lt_of_lt_of_le h (by decide))).trans (keepLt38 m ρ c r h)

theorem tail37 (c : Dev nD) (r : Ref sig .tc) (h : r.idx.val < 871) :
    W65 m ρ c (Proc.devRef .tc r) = W37 m ρ c (Proc.devRef .tc r) :=
  (tail38 m ρ c r (Nat.lt_of_lt_of_le h (by decide))).trans (keepLt37 m ρ c r h)

theorem tail36 (c : Dev nD) (r : Ref sig .tc) (h : r.idx.val < 870) :
    W65 m ρ c (Proc.devRef .tc r) = W36 m ρ c (Proc.devRef .tc r) :=
  (tail37 m ρ c r (Nat.lt_of_lt_of_le h (by decide))).trans (keepLt36 m ρ c r h)

theorem tail35 (c : Dev nD) (r : Ref sig .tc) (h : r.idx.val < 865) :
    W65 m ρ c (Proc.devRef .tc r) = W35 m ρ c (Proc.devRef .tc r) :=
  (tail36 m ρ c r (Nat.lt_of_lt_of_le h (by decide))).trans (keepLt35 m ρ c r h)

theorem tail34 (c : Dev nD) (r : Ref sig .tc) (h : r.idx.val < 860) :
    W65 m ρ c (Proc.devRef .tc r) = W34 m ρ c (Proc.devRef .tc r) :=
  (tail35 m ρ c r (Nat.lt_of_lt_of_le h (by decide))).trans (keepLt34 m ρ c r h)

theorem tail33 (c : Dev nD) (r : Ref sig .tc) (h : r.idx.val < 855) :
    W65 m ρ c (Proc.devRef .tc r) = W33 m ρ c (Proc.devRef .tc r) :=
  (tail34 m ρ c r (Nat.lt_of_lt_of_le h (by decide))).trans (keepLt33 m ρ c r h)

theorem tail32 (c : Dev nD) (r : Ref sig .tc) (h : r.idx.val < 850) :
    W65 m ρ c (Proc.devRef .tc r) = W32 m ρ c (Proc.devRef .tc r) :=
  (tail33 m ρ c r (Nat.lt_of_lt_of_le h (by decide))).trans (keepLt32 m ρ c r h)

theorem tail31 (c : Dev nD) (r : Ref sig .tc) (h : r.idx.val < 845) :
    W65 m ρ c (Proc.devRef .tc r) = W31 m ρ c (Proc.devRef .tc r) :=
  (tail32 m ρ c r (Nat.lt_of_lt_of_le h (by decide))).trans (keepLt31 m ρ c r h)

theorem tail30 (c : Dev nD) (r : Ref sig .tc) (h : r.idx.val < 840) :
    W65 m ρ c (Proc.devRef .tc r) = W30 m ρ c (Proc.devRef .tc r) :=
  (tail31 m ρ c r (Nat.lt_of_lt_of_le h (by decide))).trans (keepLt30 m ρ c r h)

theorem tail29 (c : Dev nD) (r : Ref sig .tc) (h : r.idx.val < 835) :
    W65 m ρ c (Proc.devRef .tc r) = W29 m ρ c (Proc.devRef .tc r) :=
  (tail30 m ρ c r (Nat.lt_of_lt_of_le h (by decide))).trans (keepLt29 m ρ c r h)

theorem tail28 (c : Dev nD) (r : Ref sig .tc) (h : r.idx.val < 830) :
    W65 m ρ c (Proc.devRef .tc r) = W28 m ρ c (Proc.devRef .tc r) :=
  (tail29 m ρ c r (Nat.lt_of_lt_of_le h (by decide))).trans (keepLt28 m ρ c r h)

theorem tail27 (c : Dev nD) (r : Ref sig .tc) (h : r.idx.val < 829) :
    W65 m ρ c (Proc.devRef .tc r) = W27 m ρ c (Proc.devRef .tc r) :=
  (tail28 m ρ c r (Nat.lt_of_lt_of_le h (by decide))).trans (keepLt27 m ρ c r h)

theorem tail26 (c : Dev nD) (r : Ref sig .tc) (h : r.idx.val < 828) :
    W65 m ρ c (Proc.devRef .tc r) = W26 m ρ c (Proc.devRef .tc r) :=
  (tail27 m ρ c r (Nat.lt_of_lt_of_le h (by decide))).trans (keepLt26 m ρ c r h)

theorem tail25 (c : Dev nD) (r : Ref sig .tc) (h : r.idx.val < 825) :
    W65 m ρ c (Proc.devRef .tc r) = W25 m ρ c (Proc.devRef .tc r) :=
  (tail26 m ρ c r (Nat.lt_of_lt_of_le h (by decide))).trans (keepLt25 m ρ c r h)

theorem tail24 (c : Dev nD) (r : Ref sig .tc) (h : r.idx.val < 824) :
    W65 m ρ c (Proc.devRef .tc r) = W24 m ρ c (Proc.devRef .tc r) :=
  (tail25 m ρ c r (Nat.lt_of_lt_of_le h (by decide))).trans (keepLt24 m ρ c r h)

theorem tail23 (c : Dev nD) (r : Ref sig .tc) (h : r.idx.val < 821) :
    W65 m ρ c (Proc.devRef .tc r) = W23 m ρ c (Proc.devRef .tc r) :=
  (tail24 m ρ c r (Nat.lt_of_lt_of_le h (by decide))).trans (keepLt23 m ρ c r h)

theorem tail22 (c : Dev nD) (r : Ref sig .tc) (h : r.idx.val < 820) :
    W65 m ρ c (Proc.devRef .tc r) = W22 m ρ c (Proc.devRef .tc r) :=
  (tail23 m ρ c r (Nat.lt_of_lt_of_le h (by decide))).trans (keepLt22 m ρ c r h)

theorem tail21 (c : Dev nD) (r : Ref sig .tc) (h : r.idx.val < 815) :
    W65 m ρ c (Proc.devRef .tc r) = W21 m ρ c (Proc.devRef .tc r) :=
  (tail22 m ρ c r (Nat.lt_of_lt_of_le h (by decide))).trans (keepLt21 m ρ c r h)

theorem tail20 (c : Dev nD) (r : Ref sig .tc) (h : r.idx.val < 810) :
    W65 m ρ c (Proc.devRef .tc r) = W20 m ρ c (Proc.devRef .tc r) :=
  (tail21 m ρ c r (Nat.lt_of_lt_of_le h (by decide))).trans (keepLt20 m ρ c r h)

theorem tail19 (c : Dev nD) (r : Ref sig .tc) (h : r.idx.val < 805) :
    W65 m ρ c (Proc.devRef .tc r) = W19 m ρ c (Proc.devRef .tc r) :=
  (tail20 m ρ c r (Nat.lt_of_lt_of_le h (by decide))).trans (keepLt19 m ρ c r h)

theorem tail18 (c : Dev nD) (r : Ref sig .tc) (h : r.idx.val < 800) :
    W65 m ρ c (Proc.devRef .tc r) = W18 m ρ c (Proc.devRef .tc r) :=
  (tail19 m ρ c r (Nat.lt_of_lt_of_le h (by decide))).trans (keepLt18 m ρ c r h)

theorem tail17 (c : Dev nD) (r : Ref sig .tc) (h : r.idx.val < 799) :
    W65 m ρ c (Proc.devRef .tc r) = W17 m ρ c (Proc.devRef .tc r) :=
  (tail18 m ρ c r (Nat.lt_of_lt_of_le h (by decide))).trans (keepLt17 m ρ c r h)

theorem tail16 (c : Dev nD) (r : Ref sig .tc) (h : r.idx.val < 795) :
    W65 m ρ c (Proc.devRef .tc r) = W16 m ρ c (Proc.devRef .tc r) :=
  (tail17 m ρ c r (Nat.lt_of_lt_of_le h (by decide))).trans (keepLt16 m ρ c r h)

theorem tail15 (c : Dev nD) (r : Ref sig .tc) (h : r.idx.val < 790) :
    W65 m ρ c (Proc.devRef .tc r) = W15 m ρ c (Proc.devRef .tc r) :=
  (tail16 m ρ c r (Nat.lt_of_lt_of_le h (by decide))).trans (keepLt15 m ρ c r h)

theorem tail14 (c : Dev nD) (r : Ref sig .tc) (h : r.idx.val < 785) :
    W65 m ρ c (Proc.devRef .tc r) = W14 m ρ c (Proc.devRef .tc r) :=
  (tail15 m ρ c r (Nat.lt_of_lt_of_le h (by decide))).trans (keepLt14 m ρ c r h)

theorem tail13 (c : Dev nD) (r : Ref sig .tc) (h : r.idx.val < 780) :
    W65 m ρ c (Proc.devRef .tc r) = W13 m ρ c (Proc.devRef .tc r) :=
  (tail14 m ρ c r (Nat.lt_of_lt_of_le h (by decide))).trans (keepLt13 m ρ c r h)

theorem tail12 (c : Dev nD) (r : Ref sig .tc) (h : r.idx.val < 731) :
    W65 m ρ c (Proc.devRef .tc r) = W12 m ρ c (Proc.devRef .tc r) :=
  (tail13 m ρ c r (Nat.lt_of_lt_of_le h (by decide))).trans (keepLt12 m ρ c r h)

theorem tail11 (c : Dev nD) (r : Ref sig .tc) (h : r.idx.val < 671) :
    W65 m ρ c (Proc.devRef .tc r) = W11 m ρ c (Proc.devRef .tc r) :=
  (tail12 m ρ c r (Nat.lt_of_lt_of_le h (by decide))).trans (keepLt11 m ρ c r h)

theorem tail10 (c : Dev nD) (r : Ref sig .tc) (h : r.idx.val < 611) :
    W65 m ρ c (Proc.devRef .tc r) = W10 m ρ c (Proc.devRef .tc r) :=
  (tail11 m ρ c r (Nat.lt_of_lt_of_le h (by decide))).trans (keepLt10 m ρ c r h)

theorem tail9 (c : Dev nD) (r : Ref sig .tc) (h : r.idx.val < 551) :
    W65 m ρ c (Proc.devRef .tc r) = W9 m ρ c (Proc.devRef .tc r) :=
  (tail10 m ρ c r (Nat.lt_of_lt_of_le h (by decide))).trans (keepLt9 m ρ c r h)

theorem tail8 (c : Dev nD) (r : Ref sig .tc) (h : r.idx.val < 491) :
    W65 m ρ c (Proc.devRef .tc r) = W8 m ρ c (Proc.devRef .tc r) :=
  (tail9 m ρ c r (Nat.lt_of_lt_of_le h (by decide))).trans (keepLt8 m ρ c r h)

theorem tail7 (c : Dev nD) (r : Ref sig .tc) (h : r.idx.val < 431) :
    W65 m ρ c (Proc.devRef .tc r) = W7 m ρ c (Proc.devRef .tc r) :=
  (tail8 m ρ c r (Nat.lt_of_lt_of_le h (by decide))).trans (keepLt7 m ρ c r h)

theorem tail6 (c : Dev nD) (r : Ref sig .tc) (h : r.idx.val < 371) :
    W65 m ρ c (Proc.devRef .tc r) = W6 m ρ c (Proc.devRef .tc r) :=
  (tail7 m ρ c r (Nat.lt_of_lt_of_le h (by decide))).trans (keepLt6 m ρ c r h)

theorem tail5 (c : Dev nD) (r : Ref sig .tc) (h : r.idx.val < 311) :
    W65 m ρ c (Proc.devRef .tc r) = W5 m ρ c (Proc.devRef .tc r) :=
  (tail6 m ρ c r (Nat.lt_of_lt_of_le h (by decide))).trans (keepLt5 m ρ c r h)

theorem tail4 (c : Dev nD) (r : Ref sig .tc) (h : r.idx.val < 251) :
    W65 m ρ c (Proc.devRef .tc r) = W4 m ρ c (Proc.devRef .tc r) :=
  (tail5 m ρ c r (Nat.lt_of_lt_of_le h (by decide))).trans (keepLt4 m ρ c r h)

theorem tail3 (c : Dev nD) (r : Ref sig .tc) (h : r.idx.val < 191) :
    W65 m ρ c (Proc.devRef .tc r) = W3 m ρ c (Proc.devRef .tc r) :=
  (tail4 m ρ c r (Nat.lt_of_lt_of_le h (by decide))).trans (keepLt3 m ρ c r h)

theorem tail2 (c : Dev nD) (r : Ref sig .tc) (h : r.idx.val < 131) :
    W65 m ρ c (Proc.devRef .tc r) = W2 m ρ c (Proc.devRef .tc r) :=
  (tail3 m ρ c r (Nat.lt_of_lt_of_le h (by decide))).trans (keepLt2 m ρ c r h)

theorem tail1 (c : Dev nD) (r : Ref sig .tc) (h : r.idx.val < 71) :
    W65 m ρ c (Proc.devRef .tc r) = W1 m ρ c (Proc.devRef .tc r) :=
  (tail2 m ρ c r (Nat.lt_of_lt_of_le h (by decide))).trans (keepLt1 m ρ c r h)

theorem tail0 (c : Dev nD) (r : Ref sig .tc) (h : r.idx.val < 11) :
    W65 m ρ c (Proc.devRef .tc r) = W0 m ρ c (Proc.devRef .tc r) :=
  (tail1 m ρ c r (Nat.lt_of_lt_of_le h (by decide))).trans (keepLt0 m ρ c r h)

/-! ## From the launch on: a buffer whose index is below every written one (an argument array) holds its launch contents
     at every boundary -/

theorem launch1 (c : Dev nD) (r : Ref sig .tc) (h : r.idx.val < 11) :
    W1 m ρ c (Proc.devRef .tc r) = m ((c : Thread nD τ).loc r) :=
  (keepLt0 m ρ c r h).trans rfl

theorem launch2 (c : Dev nD) (r : Ref sig .tc) (h : r.idx.val < 11) :
    W2 m ρ c (Proc.devRef .tc r) = m ((c : Thread nD τ).loc r) :=
  (keepLt1 m ρ c r (Nat.lt_of_lt_of_le h (by decide))).trans (launch1 m ρ c r h)

theorem launch3 (c : Dev nD) (r : Ref sig .tc) (h : r.idx.val < 11) :
    W3 m ρ c (Proc.devRef .tc r) = m ((c : Thread nD τ).loc r) :=
  (keepLt2 m ρ c r (Nat.lt_of_lt_of_le h (by decide))).trans (launch2 m ρ c r h)

theorem launch4 (c : Dev nD) (r : Ref sig .tc) (h : r.idx.val < 11) :
    W4 m ρ c (Proc.devRef .tc r) = m ((c : Thread nD τ).loc r) :=
  (keepLt3 m ρ c r (Nat.lt_of_lt_of_le h (by decide))).trans (launch3 m ρ c r h)

theorem launch5 (c : Dev nD) (r : Ref sig .tc) (h : r.idx.val < 11) :
    W5 m ρ c (Proc.devRef .tc r) = m ((c : Thread nD τ).loc r) :=
  (keepLt4 m ρ c r (Nat.lt_of_lt_of_le h (by decide))).trans (launch4 m ρ c r h)

theorem launch6 (c : Dev nD) (r : Ref sig .tc) (h : r.idx.val < 11) :
    W6 m ρ c (Proc.devRef .tc r) = m ((c : Thread nD τ).loc r) :=
  (keepLt5 m ρ c r (Nat.lt_of_lt_of_le h (by decide))).trans (launch5 m ρ c r h)

theorem launch7 (c : Dev nD) (r : Ref sig .tc) (h : r.idx.val < 11) :
    W7 m ρ c (Proc.devRef .tc r) = m ((c : Thread nD τ).loc r) :=
  (keepLt6 m ρ c r (Nat.lt_of_lt_of_le h (by decide))).trans (launch6 m ρ c r h)

theorem launch8 (c : Dev nD) (r : Ref sig .tc) (h : r.idx.val < 11) :
    W8 m ρ c (Proc.devRef .tc r) = m ((c : Thread nD τ).loc r) :=
  (keepLt7 m ρ c r (Nat.lt_of_lt_of_le h (by decide))).trans (launch7 m ρ c r h)

theorem launch9 (c : Dev nD) (r : Ref sig .tc) (h : r.idx.val < 11) :
    W9 m ρ c (Proc.devRef .tc r) = m ((c : Thread nD τ).loc r) :=
  (keepLt8 m ρ c r (Nat.lt_of_lt_of_le h (by decide))).trans (launch8 m ρ c r h)

theorem launch10 (c : Dev nD) (r : Ref sig .tc) (h : r.idx.val < 11) :
    W10 m ρ c (Proc.devRef .tc r) = m ((c : Thread nD τ).loc r) :=
  (keepLt9 m ρ c r (Nat.lt_of_lt_of_le h (by decide))).trans (launch9 m ρ c r h)

theorem launch11 (c : Dev nD) (r : Ref sig .tc) (h : r.idx.val < 11) :
    W11 m ρ c (Proc.devRef .tc r) = m ((c : Thread nD τ).loc r) :=
  (keepLt10 m ρ c r (Nat.lt_of_lt_of_le h (by decide))).trans (launch10 m ρ c r h)

theorem launch12 (c : Dev nD) (r : Ref sig .tc) (h : r.idx.val < 11) :
    W12 m ρ c (Proc.devRef .tc r) = m ((c : Thread nD τ).loc r) :=
  (keepLt11 m ρ c r (Nat.lt_of_lt_of_le h (by decide))).trans (launch11 m ρ c r h)

theorem launch13 (c : Dev nD) (r : Ref sig .tc) (h : r.idx.val < 11) :
    W13 m ρ c (Proc.devRef .tc r) = m ((c : Thread nD τ).loc r) :=
  (keepLt12 m ρ c r (Nat.lt_of_lt_of_le h (by decide))).trans (launch12 m ρ c r h)

theorem launch14 (c : Dev nD) (r : Ref sig .tc) (h : r.idx.val < 11) :
    W14 m ρ c (Proc.devRef .tc r) = m ((c : Thread nD τ).loc r) :=
  (keepLt13 m ρ c r (Nat.lt_of_lt_of_le h (by decide))).trans (launch13 m ρ c r h)

theorem launch15 (c : Dev nD) (r : Ref sig .tc) (h : r.idx.val < 11) :
    W15 m ρ c (Proc.devRef .tc r) = m ((c : Thread nD τ).loc r) :=
  (keepLt14 m ρ c r (Nat.lt_of_lt_of_le h (by decide))).trans (launch14 m ρ c r h)

theorem launch16 (c : Dev nD) (r : Ref sig .tc) (h : r.idx.val < 11) :
    W16 m ρ c (Proc.devRef .tc r) = m ((c : Thread nD τ).loc r) :=
  (keepLt15 m ρ c r (Nat.lt_of_lt_of_le h (by decide))).trans (launch15 m ρ c r h)

theorem launch17 (c : Dev nD) (r : Ref sig .tc) (h : r.idx.val < 11) :
    W17 m ρ c (Proc.devRef .tc r) = m ((c : Thread nD τ).loc r) :=
  (keepLt16 m ρ c r (Nat.lt_of_lt_of_le h (by decide))).trans (launch16 m ρ c r h)

theorem launch18 (c : Dev nD) (r : Ref sig .tc) (h : r.idx.val < 11) :
    W18 m ρ c (Proc.devRef .tc r) = m ((c : Thread nD τ).loc r) :=
  (keepLt17 m ρ c r (Nat.lt_of_lt_of_le h (by decide))).trans (launch17 m ρ c r h)

theorem launch19 (c : Dev nD) (r : Ref sig .tc) (h : r.idx.val < 11) :
    W19 m ρ c (Proc.devRef .tc r) = m ((c : Thread nD τ).loc r) :=
  (keepLt18 m ρ c r (Nat.lt_of_lt_of_le h (by decide))).trans (launch18 m ρ c r h)

theorem launch20 (c : Dev nD) (r : Ref sig .tc) (h : r.idx.val < 11) :
    W20 m ρ c (Proc.devRef .tc r) = m ((c : Thread nD τ).loc r) :=
  (keepLt19 m ρ c r (Nat.lt_of_lt_of_le h (by decide))).trans (launch19 m ρ c r h)

theorem launch21 (c : Dev nD) (r : Ref sig .tc) (h : r.idx.val < 11) :
    W21 m ρ c (Proc.devRef .tc r) = m ((c : Thread nD τ).loc r) :=
  (keepLt20 m ρ c r (Nat.lt_of_lt_of_le h (by decide))).trans (launch20 m ρ c r h)

theorem launch22 (c : Dev nD) (r : Ref sig .tc) (h : r.idx.val < 11) :
    W22 m ρ c (Proc.devRef .tc r) = m ((c : Thread nD τ).loc r) :=
  (keepLt21 m ρ c r (Nat.lt_of_lt_of_le h (by decide))).trans (launch21 m ρ c r h)

theorem launch23 (c : Dev nD) (r : Ref sig .tc) (h : r.idx.val < 11) :
    W23 m ρ c (Proc.devRef .tc r) = m ((c : Thread nD τ).loc r) :=
  (keepLt22 m ρ c r (Nat.lt_of_lt_of_le h (by decide))).trans (launch22 m ρ c r h)

theorem launch24 (c : Dev nD) (r : Ref sig .tc) (h : r.idx.val < 11) :
    W24 m ρ c (Proc.devRef .tc r) = m ((c : Thread nD τ).loc r) :=
  (keepLt23 m ρ c r (Nat.lt_of_lt_of_le h (by decide))).trans (launch23 m ρ c r h)

theorem launch25 (c : Dev nD) (r : Ref sig .tc) (h : r.idx.val < 11) :
    W25 m ρ c (Proc.devRef .tc r) = m ((c : Thread nD τ).loc r) :=
  (keepLt24 m ρ c r (Nat.lt_of_lt_of_le h (by decide))).trans (launch24 m ρ c r h)

theorem launch26 (c : Dev nD) (r : Ref sig .tc) (h : r.idx.val < 11) :
    W26 m ρ c (Proc.devRef .tc r) = m ((c : Thread nD τ).loc r) :=
  (keepLt25 m ρ c r (Nat.lt_of_lt_of_le h (by decide))).trans (launch25 m ρ c r h)

theorem launch27 (c : Dev nD) (r : Ref sig .tc) (h : r.idx.val < 11) :
    W27 m ρ c (Proc.devRef .tc r) = m ((c : Thread nD τ).loc r) :=
  (keepLt26 m ρ c r (Nat.lt_of_lt_of_le h (by decide))).trans (launch26 m ρ c r h)

theorem launch28 (c : Dev nD) (r : Ref sig .tc) (h : r.idx.val < 11) :
    W28 m ρ c (Proc.devRef .tc r) = m ((c : Thread nD τ).loc r) :=
  (keepLt27 m ρ c r (Nat.lt_of_lt_of_le h (by decide))).trans (launch27 m ρ c r h)

theorem launch29 (c : Dev nD) (r : Ref sig .tc) (h : r.idx.val < 11) :
    W29 m ρ c (Proc.devRef .tc r) = m ((c : Thread nD τ).loc r) :=
  (keepLt28 m ρ c r (Nat.lt_of_lt_of_le h (by decide))).trans (launch28 m ρ c r h)

theorem launch30 (c : Dev nD) (r : Ref sig .tc) (h : r.idx.val < 11) :
    W30 m ρ c (Proc.devRef .tc r) = m ((c : Thread nD τ).loc r) :=
  (keepLt29 m ρ c r (Nat.lt_of_lt_of_le h (by decide))).trans (launch29 m ρ c r h)

theorem launch31 (c : Dev nD) (r : Ref sig .tc) (h : r.idx.val < 11) :
    W31 m ρ c (Proc.devRef .tc r) = m ((c : Thread nD τ).loc r) :=
  (keepLt30 m ρ c r (Nat.lt_of_lt_of_le h (by decide))).trans (launch30 m ρ c r h)

theorem launch32 (c : Dev nD) (r : Ref sig .tc) (h : r.idx.val < 11) :
    W32 m ρ c (Proc.devRef .tc r) = m ((c : Thread nD τ).loc r) :=
  (keepLt31 m ρ c r (Nat.lt_of_lt_of_le h (by decide))).trans (launch31 m ρ c r h)

theorem launch33 (c : Dev nD) (r : Ref sig .tc) (h : r.idx.val < 11) :
    W33 m ρ c (Proc.devRef .tc r) = m ((c : Thread nD τ).loc r) :=
  (keepLt32 m ρ c r (Nat.lt_of_lt_of_le h (by decide))).trans (launch32 m ρ c r h)

theorem launch34 (c : Dev nD) (r : Ref sig .tc) (h : r.idx.val < 11) :
    W34 m ρ c (Proc.devRef .tc r) = m ((c : Thread nD τ).loc r) :=
  (keepLt33 m ρ c r (Nat.lt_of_lt_of_le h (by decide))).trans (launch33 m ρ c r h)

theorem launch35 (c : Dev nD) (r : Ref sig .tc) (h : r.idx.val < 11) :
    W35 m ρ c (Proc.devRef .tc r) = m ((c : Thread nD τ).loc r) :=
  (keepLt34 m ρ c r (Nat.lt_of_lt_of_le h (by decide))).trans (launch34 m ρ c r h)

theorem launch36 (c : Dev nD) (r : Ref sig .tc) (h : r.idx.val < 11) :
    W36 m ρ c (Proc.devRef .tc r) = m ((c : Thread nD τ).loc r) :=
  (keepLt35 m ρ c r (Nat.lt_of_lt_of_le h (by decide))).trans (launch35 m ρ c r h)

theorem launch37 (c : Dev nD) (r : Ref sig .tc) (h : r.idx.val < 11) :
    W37 m ρ c (Proc.devRef .tc r) = m ((c : Thread nD τ).loc r) :=
  (keepLt36 m ρ c r (Nat.lt_of_lt_of_le h (by decide))).trans (launch36 m ρ c r h)

theorem launch38 (c : Dev nD) (r : Ref sig .tc) (h : r.idx.val < 11) :
    W38 m ρ c (Proc.devRef .tc r) = m ((c : Thread nD τ).loc r) :=
  (keepLt37 m ρ c r (Nat.lt_of_lt_of_le h (by decide))).trans (launch37 m ρ c r h)

theorem launch39 (c : Dev nD) (r : Ref sig .tc) (h : r.idx.val < 11) :
    W39 m ρ c (Proc.devRef .tc r) = m ((c : Thread nD τ).loc r) :=
  (keepLt38 m ρ c r (Nat.lt_of_lt_of_le h (by decide))).trans (launch38 m ρ c r h)

theorem launch40 (c : Dev nD) (r : Ref sig .tc) (h : r.idx.val < 11) :
    W40 m ρ c (Proc.devRef .tc r) = m ((c : Thread nD τ).loc r) :=
  (keepLt39 m ρ c r (Nat.lt_of_lt_of_le h (by decide))).trans (launch39 m ρ c r h)

theorem launch41 (c : Dev nD) (r : Ref sig .tc) (h : r.idx.val < 11) :
    W41 m ρ c (Proc.devRef .tc r) = m ((c : Thread nD τ).loc r) :=
  (keepLt40 m ρ c r (Nat.lt_of_lt_of_le h (by decide))).trans (launch40 m ρ c r h)

theorem launch42 (c : Dev nD) (r : Ref sig .tc) (h : r.idx.val < 11) :
    W42 m ρ c (Proc.devRef .tc r) = m ((c : Thread nD τ).loc r) :=
  (keepLt41 m ρ c r (Nat.lt_of_lt_of_le h (by decide))).trans (launch41 m ρ c r h)

theorem launch43 (c : Dev nD) (r : Ref sig .tc) (h : r.idx.val < 11) :
    W43 m ρ c (Proc.devRef .tc r) = m ((c : Thread nD τ).loc r) :=
  (keepLt42 m ρ c r (Nat.lt_of_lt_of_le h (by decide))).trans (launch42 m ρ c r h)

theorem launch44 (c : Dev nD) (r : Ref sig .tc) (h : r.idx.val < 11) :
    W44 m ρ c (Proc.devRef .tc r) = m ((c : Thread nD τ).loc r) :=
  (keepLt43 m ρ c r (Nat.lt_of_lt_of_le h (by decide))).trans (launch43 m ρ c r h)

theorem launch45 (c : Dev nD) (r : Ref sig .tc) (h : r.idx.val < 11) :
    W45 m ρ c (Proc.devRef .tc r) = m ((c : Thread nD τ).loc r) :=
  (keepLt44 m ρ c r (Nat.lt_of_lt_of_le h (by decide))).trans (launch44 m ρ c r h)

theorem launch46 (c : Dev nD) (r : Ref sig .tc) (h : r.idx.val < 11) :
    W46 m ρ c (Proc.devRef .tc r) = m ((c : Thread nD τ).loc r) :=
  (keepLt45 m ρ c r (Nat.lt_of_lt_of_le h (by decide))).trans (launch45 m ρ c r h)

theorem launch47 (c : Dev nD) (r : Ref sig .tc) (h : r.idx.val < 11) :
    W47 m ρ c (Proc.devRef .tc r) = m ((c : Thread nD τ).loc r) :=
  (keepLt46 m ρ c r (Nat.lt_of_lt_of_le h (by decide))).trans (launch46 m ρ c r h)

theorem launch48 (c : Dev nD) (r : Ref sig .tc) (h : r.idx.val < 11) :
    W48 m ρ c (Proc.devRef .tc r) = m ((c : Thread nD τ).loc r) :=
  (keepLt47 m ρ c r (Nat.lt_of_lt_of_le h (by decide))).trans (launch47 m ρ c r h)

theorem launch49 (c : Dev nD) (r : Ref sig .tc) (h : r.idx.val < 11) :
    W49 m ρ c (Proc.devRef .tc r) = m ((c : Thread nD τ).loc r) :=
  (keepLt48 m ρ c r (Nat.lt_of_lt_of_le h (by decide))).trans (launch48 m ρ c r h)

theorem launch50 (c : Dev nD) (r : Ref sig .tc) (h : r.idx.val < 11) :
    W50 m ρ c (Proc.devRef .tc r) = m ((c : Thread nD τ).loc r) :=
  (keepLt49 m ρ c r (Nat.lt_of_lt_of_le h (by decide))).trans (launch49 m ρ c r h)

theorem launch51 (c : Dev nD) (r : Ref sig .tc) (h : r.idx.val < 11) :
    W51 m ρ c (Proc.devRef .tc r) = m ((c : Thread nD τ).loc r) :=
  (keepLt50 m ρ c r (Nat.lt_of_lt_of_le h (by decide))).trans (launch50 m ρ c r h)

theorem launch52 (c : Dev nD) (r : Ref sig .tc) (h : r.idx.val < 11) :
    W52 m ρ c (Proc.devRef .tc r) = m ((c : Thread nD τ).loc r) :=
  (keepLt51 m ρ c r (Nat.lt_of_lt_of_le h (by decide))).trans (launch51 m ρ c r h)

theorem launch53 (c : Dev nD) (r : Ref sig .tc) (h : r.idx.val < 11) :
    W53 m ρ c (Proc.devRef .tc r) = m ((c : Thread nD τ).loc r) :=
  (keepLt52 m ρ c r (Nat.lt_of_lt_of_le h (by decide))).trans (launch52 m ρ c r h)

theorem launch54 (c : Dev nD) (r : Ref sig .tc) (h : r.idx.val < 11) :
    W54 m ρ c (Proc.devRef .tc r) = m ((c : Thread nD τ).loc r) :=
  (keepLt53 m ρ c r (Nat.lt_of_lt_of_le h (by decide))).trans (launch53 m ρ c r h)

theorem launch55 (c : Dev nD) (r : Ref sig .tc) (h : r.idx.val < 11) :
    W55 m ρ c (Proc.devRef .tc r) = m ((c : Thread nD τ).loc r) :=
  (keepLt54 m ρ c r (Nat.lt_of_lt_of_le h (by decide))).trans (launch54 m ρ c r h)

theorem launch56 (c : Dev nD) (r : Ref sig .tc) (h : r.idx.val < 11) :
    W56 m ρ c (Proc.devRef .tc r) = m ((c : Thread nD τ).loc r) :=
  (keepLt55 m ρ c r (Nat.lt_of_lt_of_le h (by decide))).trans (launch55 m ρ c r h)

theorem launch57 (c : Dev nD) (r : Ref sig .tc) (h : r.idx.val < 11) :
    W57 m ρ c (Proc.devRef .tc r) = m ((c : Thread nD τ).loc r) :=
  (keepLt56 m ρ c r (Nat.lt_of_lt_of_le h (by decide))).trans (launch56 m ρ c r h)

theorem launch58 (c : Dev nD) (r : Ref sig .tc) (h : r.idx.val < 11) :
    W58 m ρ c (Proc.devRef .tc r) = m ((c : Thread nD τ).loc r) :=
  (keepLt57 m ρ c r (Nat.lt_of_lt_of_le h (by decide))).trans (launch57 m ρ c r h)

theorem launch59 (c : Dev nD) (r : Ref sig .tc) (h : r.idx.val < 11) :
    W59 m ρ c (Proc.devRef .tc r) = m ((c : Thread nD τ).loc r) :=
  (keepLt58 m ρ c r (Nat.lt_of_lt_of_le h (by decide))).trans (launch58 m ρ c r h)

theorem launch60 (c : Dev nD) (r : Ref sig .tc) (h : r.idx.val < 11) :
    W60 m ρ c (Proc.devRef .tc r) = m ((c : Thread nD τ).loc r) :=
  (keepLt59 m ρ c r (Nat.lt_of_lt_of_le h (by decide))).trans (launch59 m ρ c r h)

theorem launch61 (c : Dev nD) (r : Ref sig .tc) (h : r.idx.val < 11) :
    W61 m ρ c (Proc.devRef .tc r) = m ((c : Thread nD τ).loc r) :=
  (keepLt60 m ρ c r (Nat.lt_of_lt_of_le h (by decide))).trans (launch60 m ρ c r h)

theorem launch62 (c : Dev nD) (r : Ref sig .tc) (h : r.idx.val < 11) :
    W62 m ρ c (Proc.devRef .tc r) = m ((c : Thread nD τ).loc r) :=
  (keepLt61 m ρ c r (Nat.lt_of_lt_of_le h (by decide))).trans (launch61 m ρ c r h)

theorem launch63 (c : Dev nD) (r : Ref sig .tc) (h : r.idx.val < 11) :
    W63 m ρ c (Proc.devRef .tc r) = m ((c : Thread nD τ).loc r) :=
  (keepLt62 m ρ c r (Nat.lt_of_lt_of_le h (by decide))).trans (launch62 m ρ c r h)

theorem launch64 (c : Dev nD) (r : Ref sig .tc) (h : r.idx.val < 11) :
    W64 m ρ c (Proc.devRef .tc r) = m ((c : Thread nD τ).loc r) :=
  (keepLt63 m ρ c r (Nat.lt_of_lt_of_le h (by decide))).trans (launch63 m ρ c r h)

theorem launch65 (c : Dev nD) (r : Ref sig .tc) (h : r.idx.val < 11) :
    W65 m ρ c (Proc.devRef .tc r) = m ((c : Thread nD τ).loc r) :=
  (keepLt64 m ρ c r (Nat.lt_of_lt_of_le h (by decide))).trans (launch64 m ρ c r h)

/-! ## The argument arrays at the last boundary -/

theorem W65_main_arg0 (c : Dev nD) : W65 m ρ c (Proc.devRef .tc main_arg0) = m ((c : Thread nD τ).loc main_arg0) :=
  launch65 m ρ c main_arg0 (by decide)

theorem W65_main_arg1 (c : Dev nD) : W65 m ρ c (Proc.devRef .tc main_arg1) = m ((c : Thread nD τ).loc main_arg1) :=
  launch65 m ρ c main_arg1 (by decide)

theorem W65_main_arg2 (c : Dev nD) : W65 m ρ c (Proc.devRef .tc main_arg2) = m ((c : Thread nD τ).loc main_arg2) :=
  launch65 m ρ c main_arg2 (by decide)

theorem W65_main_arg3 (c : Dev nD) : W65 m ρ c (Proc.devRef .tc main_arg3) = m ((c : Thread nD τ).loc main_arg3) :=
  launch65 m ρ c main_arg3 (by decide)

theorem W65_main_arg4 (c : Dev nD) : W65 m ρ c (Proc.devRef .tc main_arg4) = m ((c : Thread nD τ).loc main_arg4) :=
  launch65 m ρ c main_arg4 (by decide)

theorem W65_main_arg5 (c : Dev nD) : W65 m ρ c (Proc.devRef .tc main_arg5) = m ((c : Thread nD τ).loc main_arg5) :=
  launch65 m ρ c main_arg5 (by decide)

theorem W65_main_arg6 (c : Dev nD) : W65 m ρ c (Proc.devRef .tc main_arg6) = m ((c : Thread nD τ).loc main_arg6) :=
  launch65 m ρ c main_arg6 (by decide)

theorem W65_main_arg7 (c : Dev nD) : W65 m ρ c (Proc.devRef .tc main_arg7) = m ((c : Thread nD τ).loc main_arg7) :=
  launch65 m ρ c main_arg7 (by decide)

theorem W65_main_arg8 (c : Dev nD) : W65 m ρ c (Proc.devRef .tc main_arg8) = m ((c : Thread nD τ).loc main_arg8) :=
  launch65 m ρ c main_arg8 (by decide)

theorem W65_main_arg9 (c : Dev nD) : W65 m ρ c (Proc.devRef .tc main_arg9) = m ((c : Thread nD τ).loc main_arg9) :=
  launch65 m ρ c main_arg9 (by decide)

theorem W65_main_arg10 (c : Dev nD) : W65 m ρ c (Proc.devRef .tc main_arg10) = m ((c : Thread nD τ).loc main_arg10) :=
  launch65 m ρ c main_arg10 (by decide)

/-! ## The buffers the last stretch reads: each holds at the last boundary what the item that wrote it left -/

/-- main_v581 (index 779) is written by item 12. -/
theorem W65_main_v581 (c : Dev nD) : W65 m ρ c (Proc.devRef .tc main_v581) = W13 m ρ c (Proc.devRef .tc main_v581) :=
  tail13 m ρ c main_v581 (by decide)

/-- main_v586 (index 789) is written by item 14. -/
theorem W65_main_v586 (c : Dev nD) : W65 m ρ c (Proc.devRef .tc main_v586) = W15 m ρ c (Proc.devRef .tc main_v586) :=
  tail15 m ρ c main_v586 (by decide)

/-- main_v591 (index 799) is written by item 17. -/
theorem W65_main_v591 (c : Dev nD) : W65 m ρ c (Proc.devRef .tc main_v591) = W18 m ρ c (Proc.devRef .tc main_v591) :=
  tail18 m ρ c main_v591 (by decide)

/-- main_v596 (index 809) is written by item 19. -/
theorem W65_main_v596 (c : Dev nD) : W65 m ρ c (Proc.devRef .tc main_v596) = W20 m ρ c (Proc.devRef .tc main_v596) :=
  tail20 m ρ c main_v596 (by decide)

/-- main_v601 (index 819) is written by item 21. -/
theorem W65_main_v601 (c : Dev nD) : W65 m ρ c (Proc.devRef .tc main_v601) = W22 m ρ c (Proc.devRef .tc main_v601) :=
  tail22 m ρ c main_v601 (by decide)

/-- main_v616 (index 839) is written by item 29. -/
theorem W65_main_v616 (c : Dev nD) : W65 m ρ c (Proc.devRef .tc main_v616) = W30 m ρ c (Proc.devRef .tc main_v616) :=
  tail30 m ρ c main_v616 (by decide)

/-- main_v621 (index 849) is written by item 31. -/
theorem W65_main_v621 (c : Dev nD) : W65 m ρ c (Proc.devRef .tc main_v621) = W32 m ρ c (Proc.devRef .tc main_v621) :=
  tail32 m ρ c main_v621 (by decide)

/-- main_v626 (index 859) is written by item 33. -/
theorem W65_main_v626 (c : Dev nD) : W65 m ρ c (Proc.devRef .tc main_v626) = W34 m ρ c (Proc.devRef .tc main_v626) :=
  tail34 m ρ c main_v626 (by decide)

/-- main_v631 (index 869) is written by item 35. -/
theorem W65_main_v631 (c : Dev nD) : W65 m ρ c (Proc.devRef .tc main_v631) = W36 m ρ c (Proc.devRef .tc main_v631) :=
  tail36 m ρ c main_v631 (by decide)

/-- main_v646 (index 889) is written by item 44. -/
theorem W65_main_v646 (c : Dev nD) : W65 m ρ c (Proc.devRef .tc main_v646) = W45 m ρ c (Proc.devRef .tc main_v646) :=
  tail45 m ρ c main_v646 (by decide)

/-- main_v651 (index 899) is written by item 46. -/
theorem W65_main_v651 (c : Dev nD) : W65 m ρ c (Proc.devRef .tc main_v651) = W47 m ρ c (Proc.devRef .tc main_v651) :=
  tail47 m ρ c main_v651 (by decide)

/-- main_v656 (index 909) is written by item 48. -/
theorem W65_main_v656 (c : Dev nD) : W65 m ρ c (Proc.devRef .tc main_v656) = W49 m ρ c (Proc.devRef .tc main_v656) :=
  tail49 m ρ c main_v656 (by decide)

/-- main_v661 (index 919) is written by item 50. -/
theorem W65_main_v661 (c : Dev nD) : W65 m ρ c (Proc.devRef .tc main_v661) = W51 m ρ c (Proc.devRef .tc main_v661) :=
  tail51 m ρ c main_v661 (by decide)

/-- main_v676 (index 939) is written by item 58. -/
theorem W65_main_v676 (c : Dev nD) : W65 m ρ c (Proc.devRef .tc main_v676) = W59 m ρ c (Proc.devRef .tc main_v676) :=
  tail59 m ρ c main_v676 (by decide)

/-- main_v681 (index 949) is written by item 60. -/
theorem W65_main_v681 (c : Dev nD) : W65 m ρ c (Proc.devRef .tc main_v681) = W61 m ρ c (Proc.devRef .tc main_v681) :=
  tail61 m ρ c main_v681 (by decide)

/-- main_v686 (index 959) is written by item 62. -/
theorem W65_main_v686 (c : Dev nD) : W65 m ρ c (Proc.devRef .tc main_v686) = W63 m ρ c (Proc.devRef .tc main_v686) :=
  tail63 m ρ c main_v686 (by decide)

/-- main_v691 (index 969) is written by item 64. -/
theorem W65_main_v691 (c : Dev nD) : W65 m ρ c (Proc.devRef .tc main_v691) = W65 m ρ c (Proc.devRef .tc main_v691) :=
  rfl

end Cert.KernelIdeal.Hand

end
-- ==== Proof.KI.Frame.lean ====
/-
  The frame of the kernel's program, at any float instance: from any memory with zero counters every weakly fair
  execution of @main on the TensorCores terminates, nothing faulting, and the eleven argument arrays end as launched —
  the run over @main's segments read at the arguments, none of which any host operation or region writes.
-/
import proofs.«158997_j77232101916990_1_alg».proof.Proof.KI.Run
import proofs.«158997_j77232101916990_1_alg».proof.Proof.KI.Keep

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W65_main_arg0 m ρ c),
     (h c _ (mem_uc main_arg1 (by decide))).trans (W65_main_arg1 m ρ c),
     (h c _ (mem_uc main_arg2 (by decide))).trans (W65_main_arg2 m ρ c),
     (h c _ (mem_uc main_arg3 (by decide))).trans (W65_main_arg3 m ρ c),
     (h c _ (mem_uc main_arg4 (by decide))).trans (W65_main_arg4 m ρ c),
     (h c _ (mem_uc main_arg5 (by decide))).trans (W65_main_arg5 m ρ c),
     (h c _ (mem_uc main_arg6 (by decide))).trans (W65_main_arg6 m ρ c),
     (h c _ (mem_uc main_arg7 (by decide))).trans (W65_main_arg7 m ρ c),
     (h c _ (mem_uc main_arg8 (by decide))).trans (W65_main_arg8 m ρ c),
     (h c _ (mem_uc main_arg9 (by decide))).trans (W65_main_arg9 m ρ c),
     (h c _ (mem_uc main_arg10 (by decide))).trans (W65_main_arg10 m ρ c)⟩)
    (run_main m ρ)

end Cert.KernelIdeal.Hand

end
-- ==== Proof.KB.R0Body.lean ====
/-
  Region 0 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first0 (i : grid0.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last0 (i : grid0.Coords) : Prop := k0_cond2 i = 1#1

/-- Points are numbered row by row, eight to a row: the first condition holds at the multiples of 8, -/
theorem first0_iff : ∀ t : Fin cfg0.N, first0 (grid0.coords t) ↔ t.val % 8 = 0 :=
  (by decide +kernel : ∀ t : Fin grid0.N, first0 (grid0.coords t) ↔ t.val % 8 = 0)
/-- and the second at the points one short of a multiple of 8. -/
theorem last0_iff : ∀ t : Fin cfg0.N, last0 (grid0.coords t) ↔ t.val % 8 = 7 :=
  (by decide +kernel : ∀ t : Fin grid0.N, last0 (grid0.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst0 (c : Dev nD) (i : grid0.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first0 i) (hc1 : ¬ last0 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc0__matvec_kernel i arg2 harg2 arg3 harg3 arg4 harg4 arg5 harg5) K } := by
  refine ⟨?_, fun y E K => ?run⟩
  case run =>
    simp only [cc0__matvec_kernel_eq_skeleton]; unfold cc0__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid0 (c : Dev nD) (i : grid0.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first0 i) (hc1 : ¬ last0 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc0__matvec_kernel i arg2 harg2 arg3 harg3 arg4 harg4 arg5 harg5) K } := by
  refine ⟨?_, fun y E K => ?run⟩
  case run =>
    simp only [cc0__matvec_kernel_eq_skeleton]; unfold cc0__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast0 (c : Dev nD) (i : grid0.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first0 i) (hc1 : last0 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__matvec_kernel i arg2 harg2 arg3 harg3 arg4 harg4 arg5 harg5) K } := by
  refine ⟨⟨?_, ?_⟩, fun E K => ?run⟩
  case run =>
    simp only [cc0__matvec_kernel_eq_skeleton]; unfold cc0__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R0Dat.lean ====
/-
  Region 0: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
/-- The accumulator's scratch buffer, whole. -/
abbrev sc0 : Memref sig .tc .vmem S2048x64 .f32 := Memref.whole cc0_scratch0
abbrev hsc0 : (sc0).IsWhole := Memref.isWhole_whole _
/-- The view through which a 2048 × 64 buffer's contents are stated (any whole buffer of the shape serves). -/
abbrev VS0 : View sig .tc .vmem S2048x64 .f32 := (sc0).view

/-! ## What each case leaves: the pieces cover the buffer, so the contents are the pieces read back -/

section Cases

variable (c : Dev nD) (i : grid0.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst0 (hc0 : first0 i) (hc1 : ¬ last0 i) (y : S2048x64.Idx) :
    ∃ pc ∈ (runFirst0 c i arg2 harg2 arg3 harg3 arg4 harg4 arg5 harg5 hc0 hc1 x0 x1).1, y ∈ pc.1.set :=
  View.cover_of_tiledL (runFirst0 c i arg2 harg2 arg3 harg3 arg4 harg4 arg5 harg5 hc0 hc1 x0 x1).1 S2048x64.size (by sl_kernel_rfl) y
/-- The accumulator after a first point. -/
def accFirst0 (hc0 : first0 i) (hc1 : ¬ last0 i) : Vec F S2048x64 .f32 :=
  VS0.read (Elt F) (VS0.writes (Elt F) VS0.junk (runFirst0 c i arg2 harg2 arg3 harg3 arg4 harg4 arg5 harg5 hc0 hc1 x0 x1).1)

theorem coverMid0 (hc0 : ¬ first0 i) (hc1 : ¬ last0 i) (y : S2048x64.Idx) :
    ∃ pc ∈ (runMid0 c i arg2 harg2 arg3 harg3 arg4 harg4 arg5 harg5 hc0 hc1 x0 x1 s).1, y ∈ pc.1.set :=
  View.cover_of_tiledL (runMid0 c i arg2 harg2 arg3 harg3 arg4 harg4 arg5 harg5 hc0 hc1 x0 x1 s).1 S2048x64.size (by sl_kernel_rfl) y
/-- The accumulator after a middle point that found it at `s`. -/
def accMid0 (hc0 : ¬ first0 i) (hc1 : ¬ last0 i) : Vec F S2048x64 .f32 :=
  VS0.read (Elt F) (VS0.writes (Elt F) VS0.junk (runMid0 c i arg2 harg2 arg3 harg3 arg4 harg4 arg5 harg5 hc0 hc1 x0 x1 s).1)

theorem coverLastOut0 (hc0 : ¬ first0 i) (hc1 : last0 i) (y : S2048x64.Idx) :
    ∃ pc ∈ (runLast0 c i arg2 harg2 arg3 harg3 arg4 harg4 arg5 harg5 hc0 hc1 x0 x1 s).1.1, y ∈ pc.1.set :=
  View.cover_of_tiledL (runLast0 c i arg2 harg2 arg3 harg3 arg4 harg4 arg5 harg5 hc0 hc1 x0 x1 s).1.1 S2048x64.size (by sl_kernel_rfl) y
theorem coverLastAcc0 (hc0 : ¬ first0 i) (hc1 : last0 i) (y : S2048x64.Idx) :
    ∃ pc ∈ (runLast0 c i arg2 harg2 arg3 harg3 arg4 harg4 arg5 harg5 hc0 hc1 x0 x1 s).1.2, y ∈ pc.1.set :=
  View.cover_of_tiledL (runLast0 c i arg2 harg2 arg3 harg3 arg4 harg4 arg5 harg5 hc0 hc1 x0 x1 s).1.2 S2048x64.size (by sl_kernel_rfl) y
/-- The output tile after a last point that found the accumulator at `s`, -/
def outLast0 (hc0 : ¬ first0 i) (hc1 : last0 i) : Vec F S2048x64 .f32 :=
  VS0.read (Elt F) (VS0.writes (Elt F) VS0.junk (runLast0 c i arg2 harg2 arg3 harg3 arg4 harg4 arg5 harg5 hc0 hc1 x0 x1 s).1.1)
/-- and the accumulator. -/
def accLast0 (hc0 : ¬ first0 i) (hc1 : last0 i) : Vec F S2048x64 .f32 :=
  VS0.read (Elt F) (VS0.writes (Elt F) VS0.junk (runLast0 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem not_last_of_first0 {n : ℕ} (h0 : n % 8 = 0) : ¬ n % 8 = 7 := by omega

/-- THE ACCUMULATION: the accumulator after the body at position `n`, by the case the point is in — a first point
    of a row starts afresh, the others continue from what the point before left. -/
def accAt0 (c : Dev nD) : (n : ℕ) → n < cfg0.N → Vec F S2048x64 .f32
  | 0, hn => accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) sc0 hsc0 (iblk0 V c 0 ⟨0, hn⟩) (iblk0 V c 1 ⟨0, hn⟩)
      ((first0_iff ⟨0, hn⟩).mpr (Nat.zero_mod _)) (fun h => not_last_of_first0 (Nat.zero_mod 8) ((last0_iff ⟨0, hn⟩).mp h))
  | n + 1, hn =>
    if h0 : (n + 1) % 8 = 0 then
      accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) sc0 hsc0 (iblk0 V c 0 ⟨n + 1, hn⟩) (iblk0 V c 1 ⟨n + 1, hn⟩)
        ((first0_iff ⟨n + 1, hn⟩).mpr h0) (fun h => not_last_of_first0 h0 ((last0_iff ⟨n + 1, hn⟩).mp h))
    else if h1 : (n + 1) % 8 = 7 then
      accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) sc0 hsc0 (iblk0 V c 0 ⟨n + 1, hn⟩) (iblk0 V c 1 ⟨n + 1, hn⟩) (accAt0 c n (Nat.lt_of_succ_lt hn))
        (fun h => h0 ((first0_iff ⟨n + 1, hn⟩).mp h)) ((last0_iff ⟨n + 1, hn⟩).mpr h1)
    else
      accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) sc0 hsc0 (iblk0 V c 0 ⟨n + 1, hn⟩) (iblk0 V c 1 ⟨n + 1, hn⟩) (accAt0 c n (Nat.lt_of_succ_lt hn))
        (fun h => h0 ((first0_iff ⟨n + 1, hn⟩).mp h)) (fun h => h1 ((last0_iff ⟨n + 1, hn⟩).mp h))

theorem accAt0_first (c : Dev nD) (t : Fin cfg0.N) (h0 : t.val % 8 = 0) :
    accAt0 V c t.val t.isLt = accFirst0 c (grid0.coords t) (ms0_0 t) (hs0_0 t) (ms0_1 t) (hs0_1 t) (ms0_2 t) (hs0_2 t) sc0 hsc0 (iblk0 V c 0 t) (iblk0 V c 1 t)
      ((first0_iff t).mpr h0) (fun h => not_last_of_first0 h0 ((last0_iff t).mp h)) := by
  obtain ⟨n, hn⟩ := t
  cases n with
  | zero => exact rfl
  | succ n => exact (dif_pos h0).trans rfl

theorem accAt0_last (c : Dev nD) (t : Fin cfg0.N) (h0 : ¬ t.val % 8 = 0) (h1 : t.val % 8 = 7) :
    accAt0 V c t.val t.isLt = accLast0 c (grid0.coords t) (ms0_0 t) (hs0_0 t) (ms0_1 t) (hs0_1 t) (ms0_2 t) (hs0_2 t) sc0 hsc0 (iblk0 V c 0 t) (iblk0 V c 1 t) (accAt0 V c (t.val - 1) (Nat.lt_of_le_of_lt (Nat.sub_le _ _) t.isLt))
      (fun h => h0 ((first0_iff t).mp h)) ((last0_iff t).mpr h1) := by
  obtain ⟨n, hn⟩ := t
  cases n with
  | zero => exact absurd (Nat.zero_mod _) h0
  | succ n => exact (dif_neg h0).trans ((dif_pos h1).trans rfl)

theorem accAt0_mid (c : Dev nD) (t : Fin cfg0.N) (h0 : ¬ t.val % 8 = 0) (h1 : ¬ t.val % 8 = 7) :
    accAt0 V c t.val t.isLt = accMid0 c (grid0.coords t) (ms0_0 t) (hs0_0 t) (ms0_1 t) (hs0_1 t) (ms0_2 t) (hs0_2 t) sc0 hsc0 (iblk0 V c 0 t) (iblk0 V c 1 t) (accAt0 V c (t.val - 1) (Nat.lt_of_le_of_lt (Nat.sub_le _ _) t.isLt))
      (fun h => h0 ((first0_iff t).mp h)) (fun h => h1 ((last0_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt0 (c : Dev nD) (t : Fin cfg0.N) : Vec F S2048x64 .f32 :=
  if h : ¬ t.val % 8 = 0 ∧ t.val % 8 = 7 then
    outLast0 c (grid0.coords t) (ms0_0 t) (hs0_0 t) (ms0_1 t) (hs0_1 t) (ms0_2 t) (hs0_2 t) sc0 hsc0 (iblk0 V c 0 t) (iblk0 V c 1 t) (accAt0 V c (t.val - 1) (Nat.lt_of_le_of_lt (Nat.sub_le _ _) t.isLt))
      (fun h' => h.1 ((first0_iff t).mp h')) ((last0_iff t).mpr h.2)
  else accAt0 V c t.val t.isLt

/-! ## The pipeline's proof data -/

/-- The invariant before point `j` (after point `j - 1`): the accumulator at what the point before left — at
    anything before the first point —, and the scoped buffers of the other kernels untouched. -/
def Φ0 (c : Dev nD) (j : Fin (cfg0.N + 1)) : sProp 𝕄 :=
  iprop((∃ s : Vec F S2048x64 .f32, ⌜∀ (n : ℕ) (hn : n < cfg0.N), j.val = n + 1 → s = accAt0 V c n hn⌝ ∗ owns (c : Thread nD τ) sc0 fullShare s)
    ∗ Pipeline.scopedRestBut (Ix := Unit) (Name := ℕ) (U := UR sig nD τ) (Lvl := ℕ) (Val := Elt F) spec0 c [cc0_scratch0])

/-- The proof data on core `c`: the arrays as the region finds them; after the body at point `t` each input's
    buffer at its block and the output tile's at what a last point writes; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ j := Φ0 V c j
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

/-- Each input's current staging buffer holds its block at every point: both are fetched at every point. -/
theorem before0_0 (c : Dev nD) (t : Fin cfg0.N) (d) : (dat0 V c).before 0 t d = iblk0 V c 0 t := by
  unfold Dat.before; rw [if_pos (fetch0_0 t)]; unfold Dat.fetched Dat.blockOf iblk0; rw [A_eq0]; try rfl
theorem before0_1 (c : Dev nD) (t : Fin cfg0.N) (d) : (dat0 V c).before 1 t d = iblk0 V c 1 t := by
  unfold Dat.before; rw [if_pos (fetch0_1 t)]; unfold Dat.fetched Dat.blockOf iblk0; rw [A_eq0]; try rfl

end Cert.Kernel.Hand

end
-- ==== Proof.KB.R1Body.lean ====
/-
  Region 1 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first1 (i : grid1.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last1 (i : grid1.Coords) : Prop := k1_cond2 i = 1#1

/-- Points are numbered row by row, eight to a row: the first condition holds at the multiples of 8, -/
theorem first1_iff : ∀ t : Fin cfg1.N, first1 (grid1.coords t) ↔ t.val % 8 = 0 :=
  (by decide +kernel : ∀ t : Fin grid1.N, first1 (grid1.coords t) ↔ t.val % 8 = 0)
/-- and the second at the points one short of a multiple of 8. -/
theorem last1_iff : ∀ t : Fin cfg1.N, last1 (grid1.coords t) ↔ t.val % 8 = 7 :=
  (by decide +kernel : ∀ t : Fin grid1.N, last1 (grid1.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst1 (c : Dev nD) (i : grid1.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first1 i) (hc1 : ¬ last1 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc1__matvec_kernel i arg2 harg2 arg3 harg3 arg4 harg4 arg5 harg5) K } := by
  refine ⟨?_, fun y E K => ?run⟩
  case run =>
    simp only [cc1__matvec_kernel_eq_skeleton]; unfold cc1__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid1 (c : Dev nD) (i : grid1.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first1 i) (hc1 : ¬ last1 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc1__matvec_kernel i arg2 harg2 arg3 harg3 arg4 harg4 arg5 harg5) K } := by
  refine ⟨?_, fun y E K => ?run⟩
  case run =>
    simp only [cc1__matvec_kernel_eq_skeleton]; unfold cc1__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast1 (c : Dev nD) (i : grid1.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first1 i) (hc1 : last1 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__matvec_kernel i arg2 harg2 arg3 harg3 arg4 harg4 arg5 harg5) K } := by
  refine ⟨⟨?_, ?_⟩, fun E K => ?run⟩
  case run =>
    simp only [cc1__matvec_kernel_eq_skeleton]; unfold cc1__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R1Dat.lean ====
/-
  Region 1: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The accumulator's scratch buffer, whole. -/
abbrev sc1 : Memref sig .tc .vmem S2048x64 .f32 := Memref.whole cc1_scratch0
abbrev hsc1 : (sc1).IsWhole := Memref.isWhole_whole _
/-- The view through which a 2048 × 64 buffer's contents are stated (any whole buffer of the shape serves). -/
abbrev VS1 : View sig .tc .vmem S2048x64 .f32 := (sc1).view

/-! ## What each case leaves: the pieces cover the buffer, so the contents are the pieces read back -/

section Cases

variable (c : Dev nD) (i : grid1.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst1 (hc0 : first1 i) (hc1 : ¬ last1 i) (y : S2048x64.Idx) :
    ∃ pc ∈ (runFirst1 c i arg2 harg2 arg3 harg3 arg4 harg4 arg5 harg5 hc0 hc1 x0 x1).1, y ∈ pc.1.set :=
  View.cover_of_tiledL (runFirst1 c i arg2 harg2 arg3 harg3 arg4 harg4 arg5 harg5 hc0 hc1 x0 x1).1 S2048x64.size (by sl_kernel_rfl) y
/-- The accumulator after a first point. -/
def accFirst1 (hc0 : first1 i) (hc1 : ¬ last1 i) : Vec F S2048x64 .f32 :=
  VS1.read (Elt F) (VS1.writes (Elt F) VS1.junk (runFirst1 c i arg2 harg2 arg3 harg3 arg4 harg4 arg5 harg5 hc0 hc1 x0 x1).1)

theorem coverMid1 (hc0 : ¬ first1 i) (hc1 : ¬ last1 i) (y : S2048x64.Idx) :
    ∃ pc ∈ (runMid1 c i arg2 harg2 arg3 harg3 arg4 harg4 arg5 harg5 hc0 hc1 x0 x1 s).1, y ∈ pc.1.set :=
  View.cover_of_tiledL (runMid1 c i arg2 harg2 arg3 harg3 arg4 harg4 arg5 harg5 hc0 hc1 x0 x1 s).1 S2048x64.size (by sl_kernel_rfl) y
/-- The accumulator after a middle point that found it at `s`. -/
def accMid1 (hc0 : ¬ first1 i) (hc1 : ¬ last1 i) : Vec F S2048x64 .f32 :=
  VS1.read (Elt F) (VS1.writes (Elt F) VS1.junk (runMid1 c i arg2 harg2 arg3 harg3 arg4 harg4 arg5 harg5 hc0 hc1 x0 x1 s).1)

theorem coverLastOut1 (hc0 : ¬ first1 i) (hc1 : last1 i) (y : S2048x64.Idx) :
    ∃ pc ∈ (runLast1 c i arg2 harg2 arg3 harg3 arg4 harg4 arg5 harg5 hc0 hc1 x0 x1 s).1.1, y ∈ pc.1.set :=
  View.cover_of_tiledL (runLast1 c i arg2 harg2 arg3 harg3 arg4 harg4 arg5 harg5 hc0 hc1 x0 x1 s).1.1 S2048x64.size (by sl_kernel_rfl) y
theorem coverLastAcc1 (hc0 : ¬ first1 i) (hc1 : last1 i) (y : S2048x64.Idx) :
    ∃ pc ∈ (runLast1 c i arg2 harg2 arg3 harg3 arg4 harg4 arg5 harg5 hc0 hc1 x0 x1 s).1.2, y ∈ pc.1.set :=
  View.cover_of_tiledL (runLast1 c i arg2 harg2 arg3 harg3 arg4 harg4 arg5 harg5 hc0 hc1 x0 x1 s).1.2 S2048x64.size (by sl_kernel_rfl) y
/-- The output tile after a last point that found the accumulator at `s`, -/
def outLast1 (hc0 : ¬ first1 i) (hc1 : last1 i) : Vec F S2048x64 .f32 :=
  VS1.read (Elt F) (VS1.writes (Elt F) VS1.junk (runLast1 c i arg2 harg2 arg3 harg3 arg4 harg4 arg5 harg5 hc0 hc1 x0 x1 s).1.1)
/-- and the accumulator. -/
def accLast1 (hc0 : ¬ first1 i) (hc1 : last1 i) : Vec F S2048x64 .f32 :=
  VS1.read (Elt F) (VS1.writes (Elt F) VS1.junk (runLast1 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem not_last_of_first1 {n : ℕ} (h0 : n % 8 = 0) : ¬ n % 8 = 7 := by omega

/-- THE ACCUMULATION: the accumulator after the body at position `n`, by the case the point is in — a first point
    of a row starts afresh, the others continue from what the point before left. -/
def accAt1 (c : Dev nD) : (n : ℕ) → n < cfg1.N → Vec F S2048x64 .f32
  | 0, hn => accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) sc1 hsc1 (iblk1 V c 0 ⟨0, hn⟩) (iblk1 V c 1 ⟨0, hn⟩)
      ((first1_iff ⟨0, hn⟩).mpr (Nat.zero_mod _)) (fun h => not_last_of_first1 (Nat.zero_mod 8) ((last1_iff ⟨0, hn⟩).mp h))
  | n + 1, hn =>
    if h0 : (n + 1) % 8 = 0 then
      accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) sc1 hsc1 (iblk1 V c 0 ⟨n + 1, hn⟩) (iblk1 V c 1 ⟨n + 1, hn⟩)
        ((first1_iff ⟨n + 1, hn⟩).mpr h0) (fun h => not_last_of_first1 h0 ((last1_iff ⟨n + 1, hn⟩).mp h))
    else if h1 : (n + 1) % 8 = 7 then
      accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) sc1 hsc1 (iblk1 V c 0 ⟨n + 1, hn⟩) (iblk1 V c 1 ⟨n + 1, hn⟩) (accAt1 c n (Nat.lt_of_succ_lt hn))
        (fun h => h0 ((first1_iff ⟨n + 1, hn⟩).mp h)) ((last1_iff ⟨n + 1, hn⟩).mpr h1)
    else
      accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) sc1 hsc1 (iblk1 V c 0 ⟨n + 1, hn⟩) (iblk1 V c 1 ⟨n + 1, hn⟩) (accAt1 c n (Nat.lt_of_succ_lt hn))
        (fun h => h0 ((first1_iff ⟨n + 1, hn⟩).mp h)) (fun h => h1 ((last1_iff ⟨n + 1, hn⟩).mp h))

theorem accAt1_first (c : Dev nD) (t : Fin cfg1.N) (h0 : t.val % 8 = 0) :
    accAt1 V c t.val t.isLt = accFirst1 c (grid1.coords t) (ms1_0 t) (hs1_0 t) (ms1_1 t) (hs1_1 t) (ms1_2 t) (hs1_2 t) sc1 hsc1 (iblk1 V c 0 t) (iblk1 V c 1 t)
      ((first1_iff t).mpr h0) (fun h => not_last_of_first1 h0 ((last1_iff t).mp h)) := by
  obtain ⟨n, hn⟩ := t
  cases n with
  | zero => exact rfl
  | succ n => exact (dif_pos h0).trans rfl

theorem accAt1_last (c : Dev nD) (t : Fin cfg1.N) (h0 : ¬ t.val % 8 = 0) (h1 : t.val % 8 = 7) :
    accAt1 V c t.val t.isLt = accLast1 c (grid1.coords t) (ms1_0 t) (hs1_0 t) (ms1_1 t) (hs1_1 t) (ms1_2 t) (hs1_2 t) sc1 hsc1 (iblk1 V c 0 t) (iblk1 V c 1 t) (accAt1 V c (t.val - 1) (Nat.lt_of_le_of_lt (Nat.sub_le _ _) t.isLt))
      (fun h => h0 ((first1_iff t).mp h)) ((last1_iff t).mpr h1) := by
  obtain ⟨n, hn⟩ := t
  cases n with
  | zero => exact absurd (Nat.zero_mod _) h0
  | succ n => exact (dif_neg h0).trans ((dif_pos h1).trans rfl)

theorem accAt1_mid (c : Dev nD) (t : Fin cfg1.N) (h0 : ¬ t.val % 8 = 0) (h1 : ¬ t.val % 8 = 7) :
    accAt1 V c t.val t.isLt = accMid1 c (grid1.coords t) (ms1_0 t) (hs1_0 t) (ms1_1 t) (hs1_1 t) (ms1_2 t) (hs1_2 t) sc1 hsc1 (iblk1 V c 0 t) (iblk1 V c 1 t) (accAt1 V c (t.val - 1) (Nat.lt_of_le_of_lt (Nat.sub_le _ _) t.isLt))
      (fun h => h0 ((first1_iff t).mp h)) (fun h => h1 ((last1_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt1 (c : Dev nD) (t : Fin cfg1.N) : Vec F S2048x64 .f32 :=
  if h : ¬ t.val % 8 = 0 ∧ t.val % 8 = 7 then
    outLast1 c (grid1.coords t) (ms1_0 t) (hs1_0 t) (ms1_1 t) (hs1_1 t) (ms1_2 t) (hs1_2 t) sc1 hsc1 (iblk1 V c 0 t) (iblk1 V c 1 t) (accAt1 V c (t.val - 1) (Nat.lt_of_le_of_lt (Nat.sub_le _ _) t.isLt))
      (fun h' => h.1 ((first1_iff t).mp h')) ((last1_iff t).mpr h.2)
  else accAt1 V c t.val t.isLt

/-! ## The pipeline's proof data -/

/-- The invariant before point `j` (after point `j - 1`): the accumulator at what the point before left — at
    anything before the first point —, and the scoped buffers of the other kernels untouched. -/
def Φ1 (c : Dev nD) (j : Fin (cfg1.N + 1)) : sProp 𝕄 :=
  iprop((∃ s : Vec F S2048x64 .f32, ⌜∀ (n : ℕ) (hn : n < cfg1.N), j.val = n + 1 → s = accAt1 V c n hn⌝ ∗ owns (c : Thread nD τ) sc1 fullShare s)
    ∗ Pipeline.scopedRestBut (Ix := Unit) (Name := ℕ) (U := UR sig nD τ) (Lvl := ℕ) (Val := Elt F) spec1 c [cc1_scratch0])

/-- The proof data on core `c`: the arrays as the region finds them; after the body at point `t` each input's
    buffer at its block and the output tile's at what a last point writes; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ j := Φ1 V c j
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

/-- Each input's current staging buffer holds its block at every point: both are fetched at every point. -/
theorem before1_0 (c : Dev nD) (t : Fin cfg1.N) (d) : (dat1 V c).before 0 t d = iblk1 V c 0 t := by
  unfold Dat.before; rw [if_pos (fetch1_0 t)]; unfold Dat.fetched Dat.blockOf iblk1; rw [A_eq1]; try rfl
theorem before1_1 (c : Dev nD) (t : Fin cfg1.N) (d) : (dat1 V c).before 1 t d = iblk1 V c 1 t := by
  unfold Dat.before; rw [if_pos (fetch1_1 t)]; unfold Dat.fetched Dat.blockOf iblk1; rw [A_eq1]; try rfl

end Cert.Kernel.Hand

end
-- ==== Proof.KB.R2Body.lean ====
/-
  Region 2 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first2 (i : grid2.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last2 (i : grid2.Coords) : Prop := k2_cond2 i = 1#1

/-- Points are numbered row by row, eight to a row: the first condition holds at the multiples of 8, -/
theorem first2_iff : ∀ t : Fin cfg2.N, first2 (grid2.coords t) ↔ t.val % 8 = 0 :=
  (by decide +kernel : ∀ t : Fin grid2.N, first2 (grid2.coords t) ↔ t.val % 8 = 0)
/-- and the second at the points one short of a multiple of 8. -/
theorem last2_iff : ∀ t : Fin cfg2.N, last2 (grid2.coords t) ↔ t.val % 8 = 7 :=
  (by decide +kernel : ∀ t : Fin grid2.N, last2 (grid2.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst2 (c : Dev nD) (i : grid2.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first2 i) (hc1 : ¬ last2 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc2__matvec_kernel i arg2 harg2 arg3 harg3 arg4 harg4 arg5 harg5) K } := by
  refine ⟨?_, fun y E K => ?run⟩
  case run =>
    simp only [cc2__matvec_kernel_eq_skeleton]; unfold cc2__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid2 (c : Dev nD) (i : grid2.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first2 i) (hc1 : ¬ last2 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc2__matvec_kernel i arg2 harg2 arg3 harg3 arg4 harg4 arg5 harg5) K } := by
  refine ⟨?_, fun y E K => ?run⟩
  case run =>
    simp only [cc2__matvec_kernel_eq_skeleton]; unfold cc2__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast2 (c : Dev nD) (i : grid2.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first2 i) (hc1 : last2 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc2__matvec_kernel i arg2 harg2 arg3 harg3 arg4 harg4 arg5 harg5) K } := by
  refine ⟨⟨?_, ?_⟩, fun E K => ?run⟩
  case run =>
    simp only [cc2__matvec_kernel_eq_skeleton]; unfold cc2__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R2Dat.lean ====
/-
  Region 2: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
/-- The accumulator's scratch buffer, whole. -/
abbrev sc2 : Memref sig .tc .vmem S2048x64 .f32 := Memref.whole cc2_scratch0
abbrev hsc2 : (sc2).IsWhole := Memref.isWhole_whole _
/-- The view through which a 2048 × 64 buffer's contents are stated (any whole buffer of the shape serves). -/
abbrev VS2 : View sig .tc .vmem S2048x64 .f32 := (sc2).view

/-! ## What each case leaves: the pieces cover the buffer, so the contents are the pieces read back -/

section Cases

variable (c : Dev nD) (i : grid2.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst2 (hc0 : first2 i) (hc1 : ¬ last2 i) (y : S2048x64.Idx) :
    ∃ pc ∈ (runFirst2 c i arg2 harg2 arg3 harg3 arg4 harg4 arg5 harg5 hc0 hc1 x0 x1).1, y ∈ pc.1.set :=
  View.cover_of_tiledL (runFirst2 c i arg2 harg2 arg3 harg3 arg4 harg4 arg5 harg5 hc0 hc1 x0 x1).1 S2048x64.size (by sl_kernel_rfl) y
/-- The accumulator after a first point. -/
def accFirst2 (hc0 : first2 i) (hc1 : ¬ last2 i) : Vec F S2048x64 .f32 :=
  VS2.read (Elt F) (VS2.writes (Elt F) VS2.junk (runFirst2 c i arg2 harg2 arg3 harg3 arg4 harg4 arg5 harg5 hc0 hc1 x0 x1).1)

theorem coverMid2 (hc0 : ¬ first2 i) (hc1 : ¬ last2 i) (y : S2048x64.Idx) :
    ∃ pc ∈ (runMid2 c i arg2 harg2 arg3 harg3 arg4 harg4 arg5 harg5 hc0 hc1 x0 x1 s).1, y ∈ pc.1.set :=
  View.cover_of_tiledL (runMid2 c i arg2 harg2 arg3 harg3 arg4 harg4 arg5 harg5 hc0 hc1 x0 x1 s).1 S2048x64.size (by sl_kernel_rfl) y
/-- The accumulator after a middle point that found it at `s`. -/
def accMid2 (hc0 : ¬ first2 i) (hc1 : ¬ last2 i) : Vec F S2048x64 .f32 :=
  VS2.read (Elt F) (VS2.writes (Elt F) VS2.junk (runMid2 c i arg2 harg2 arg3 harg3 arg4 harg4 arg5 harg5 hc0 hc1 x0 x1 s).1)

theorem coverLastOut2 (hc0 : ¬ first2 i) (hc1 : last2 i) (y : S2048x64.Idx) :
    ∃ pc ∈ (runLast2 c i arg2 harg2 arg3 harg3 arg4 harg4 arg5 harg5 hc0 hc1 x0 x1 s).1.1, y ∈ pc.1.set :=
  View.cover_of_tiledL (runLast2 c i arg2 harg2 arg3 harg3 arg4 harg4 arg5 harg5 hc0 hc1 x0 x1 s).1.1 S2048x64.size (by sl_kernel_rfl) y
theorem coverLastAcc2 (hc0 : ¬ first2 i) (hc1 : last2 i) (y : S2048x64.Idx) :
    ∃ pc ∈ (runLast2 c i arg2 harg2 arg3 harg3 arg4 harg4 arg5 harg5 hc0 hc1 x0 x1 s).1.2, y ∈ pc.1.set :=
  View.cover_of_tiledL (runLast2 c i arg2 harg2 arg3 harg3 arg4 harg4 arg5 harg5 hc0 hc1 x0 x1 s).1.2 S2048x64.size (by sl_kernel_rfl) y
/-- The output tile after a last point that found the accumulator at `s`, -/
def outLast2 (hc0 : ¬ first2 i) (hc1 : last2 i) : Vec F S2048x64 .f32 :=
  VS2.read (Elt F) (VS2.writes (Elt F) VS2.junk (runLast2 c i arg2 harg2 arg3 harg3 arg4 harg4 arg5 harg5 hc0 hc1 x0 x1 s).1.1)
/-- and the accumulator. -/
def accLast2 (hc0 : ¬ first2 i) (hc1 : last2 i) : Vec F S2048x64 .f32 :=
  VS2.read (Elt F) (VS2.writes (Elt F) VS2.junk (runLast2 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem not_last_of_first2 {n : ℕ} (h0 : n % 8 = 0) : ¬ n % 8 = 7 := by omega

/-- THE ACCUMULATION: the accumulator after the body at position `n`, by the case the point is in — a first point
    of a row starts afresh, the others continue from what the point before left. -/
def accAt2 (c : Dev nD) : (n : ℕ) → n < cfg2.N → Vec F S2048x64 .f32
  | 0, hn => accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) sc2 hsc2 (iblk2 V c 0 ⟨0, hn⟩) (iblk2 V c 1 ⟨0, hn⟩)
      ((first2_iff ⟨0, hn⟩).mpr (Nat.zero_mod _)) (fun h => not_last_of_first2 (Nat.zero_mod 8) ((last2_iff ⟨0, hn⟩).mp h))
  | n + 1, hn =>
    if h0 : (n + 1) % 8 = 0 then
      accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) sc2 hsc2 (iblk2 V c 0 ⟨n + 1, hn⟩) (iblk2 V c 1 ⟨n + 1, hn⟩)
        ((first2_iff ⟨n + 1, hn⟩).mpr h0) (fun h => not_last_of_first2 h0 ((last2_iff ⟨n + 1, hn⟩).mp h))
    else if h1 : (n + 1) % 8 = 7 then
      accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) sc2 hsc2 (iblk2 V c 0 ⟨n + 1, hn⟩) (iblk2 V c 1 ⟨n + 1, hn⟩) (accAt2 c n (Nat.lt_of_succ_lt hn))
        (fun h => h0 ((first2_iff ⟨n + 1, hn⟩).mp h)) ((last2_iff ⟨n + 1, hn⟩).mpr h1)
    else
      accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) sc2 hsc2 (iblk2 V c 0 ⟨n + 1, hn⟩) (iblk2 V c 1 ⟨n + 1, hn⟩) (accAt2 c n (Nat.lt_of_succ_lt hn))
        (fun h => h0 ((first2_iff ⟨n + 1, hn⟩).mp h)) (fun h => h1 ((last2_iff ⟨n + 1, hn⟩).mp h))

theorem accAt2_first (c : Dev nD) (t : Fin cfg2.N) (h0 : t.val % 8 = 0) :
    accAt2 V c t.val t.isLt = accFirst2 c (grid2.coords t) (ms2_0 t) (hs2_0 t) (ms2_1 t) (hs2_1 t) (ms2_2 t) (hs2_2 t) sc2 hsc2 (iblk2 V c 0 t) (iblk2 V c 1 t)
      ((first2_iff t).mpr h0) (fun h => not_last_of_first2 h0 ((last2_iff t).mp h)) := by
  obtain ⟨n, hn⟩ := t
  cases n with
  | zero => exact rfl
  | succ n => exact (dif_pos h0).trans rfl

theorem accAt2_last (c : Dev nD) (t : Fin cfg2.N) (h0 : ¬ t.val % 8 = 0) (h1 : t.val % 8 = 7) :
    accAt2 V c t.val t.isLt = accLast2 c (grid2.coords t) (ms2_0 t) (hs2_0 t) (ms2_1 t) (hs2_1 t) (ms2_2 t) (hs2_2 t) sc2 hsc2 (iblk2 V c 0 t) (iblk2 V c 1 t) (accAt2 V c (t.val - 1) (Nat.lt_of_le_of_lt (Nat.sub_le _ _) t.isLt))
      (fun h => h0 ((first2_iff t).mp h)) ((last2_iff t).mpr h1) := by
  obtain ⟨n, hn⟩ := t
  cases n with
  | zero => exact absurd (Nat.zero_mod _) h0
  | succ n => exact (dif_neg h0).trans ((dif_pos h1).trans rfl)

theorem accAt2_mid (c : Dev nD) (t : Fin cfg2.N) (h0 : ¬ t.val % 8 = 0) (h1 : ¬ t.val % 8 = 7) :
    accAt2 V c t.val t.isLt = accMid2 c (grid2.coords t) (ms2_0 t) (hs2_0 t) (ms2_1 t) (hs2_1 t) (ms2_2 t) (hs2_2 t) sc2 hsc2 (iblk2 V c 0 t) (iblk2 V c 1 t) (accAt2 V c (t.val - 1) (Nat.lt_of_le_of_lt (Nat.sub_le _ _) t.isLt))
      (fun h => h0 ((first2_iff t).mp h)) (fun h => h1 ((last2_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt2 (c : Dev nD) (t : Fin cfg2.N) : Vec F S2048x64 .f32 :=
  if h : ¬ t.val % 8 = 0 ∧ t.val % 8 = 7 then
    outLast2 c (grid2.coords t) (ms2_0 t) (hs2_0 t) (ms2_1 t) (hs2_1 t) (ms2_2 t) (hs2_2 t) sc2 hsc2 (iblk2 V c 0 t) (iblk2 V c 1 t) (accAt2 V c (t.val - 1) (Nat.lt_of_le_of_lt (Nat.sub_le _ _) t.isLt))
      (fun h' => h.1 ((first2_iff t).mp h')) ((last2_iff t).mpr h.2)
  else accAt2 V c t.val t.isLt

/-! ## The pipeline's proof data -/

/-- The invariant before point `j` (after point `j - 1`): the accumulator at what the point before left — at
    anything before the first point —, and the scoped buffers of the other kernels untouched. -/
def Φ2 (c : Dev nD) (j : Fin (cfg2.N + 1)) : sProp 𝕄 :=
  iprop((∃ s : Vec F S2048x64 .f32, ⌜∀ (n : ℕ) (hn : n < cfg2.N), j.val = n + 1 → s = accAt2 V c n hn⌝ ∗ owns (c : Thread nD τ) sc2 fullShare s)
    ∗ Pipeline.scopedRestBut (Ix := Unit) (Name := ℕ) (U := UR sig nD τ) (Lvl := ℕ) (Val := Elt F) spec2 c [cc2_scratch0])

/-- The proof data on core `c`: the arrays as the region finds them; after the body at point `t` each input's
    buffer at its block and the output tile's at what a last point writes; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ j := Φ2 V c j
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]

/-- Each input's current staging buffer holds its block at every point: both are fetched at every point. -/
theorem before2_0 (c : Dev nD) (t : Fin cfg2.N) (d) : (dat2 V c).before 0 t d = iblk2 V c 0 t := by
  unfold Dat.before; rw [if_pos (fetch2_0 t)]; unfold Dat.fetched Dat.blockOf iblk2; rw [A_eq2]; try rfl
theorem before2_1 (c : Dev nD) (t : Fin cfg2.N) (d) : (dat2 V c).before 1 t d = iblk2 V c 1 t := by
  unfold Dat.before; rw [if_pos (fetch2_1 t)]; unfold Dat.fetched Dat.blockOf iblk2; rw [A_eq2]; try rfl

end Cert.Kernel.Hand

end
-- ==== Proof.KB.R3Body.lean ====
/-
  Region 3 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first3 (i : grid3.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last3 (i : grid3.Coords) : Prop := k3_cond2 i = 1#1

/-- Points are numbered row by row, eight to a row: the first condition holds at the multiples of 8, -/
theorem first3_iff : ∀ t : Fin cfg3.N, first3 (grid3.coords t) ↔ t.val % 8 = 0 :=
  (by decide +kernel : ∀ t : Fin grid3.N, first3 (grid3.coords t) ↔ t.val % 8 = 0)
/-- and the second at the points one short of a multiple of 8. -/
theorem last3_iff : ∀ t : Fin cfg3.N, last3 (grid3.coords t) ↔ t.val % 8 = 7 :=
  (by decide +kernel : ∀ t : Fin grid3.N, last3 (grid3.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst3 (c : Dev nD) (i : grid3.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first3 i) (hc1 : ¬ last3 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc3__matvec_kernel i arg2 harg2 arg3 harg3 arg4 harg4 arg5 harg5) K } := by
  refine ⟨?_, fun y E K => ?run⟩
  case run =>
    simp only [cc3__matvec_kernel_eq_skeleton]; unfold cc3__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid3 (c : Dev nD) (i : grid3.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first3 i) (hc1 : ¬ last3 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc3__matvec_kernel i arg2 harg2 arg3 harg3 arg4 harg4 arg5 harg5) K } := by
  refine ⟨?_, fun y E K => ?run⟩
  case run =>
    simp only [cc3__matvec_kernel_eq_skeleton]; unfold cc3__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast3 (c : Dev nD) (i : grid3.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first3 i) (hc1 : last3 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc3__matvec_kernel i arg2 harg2 arg3 harg3 arg4 harg4 arg5 harg5) K } := by
  refine ⟨⟨?_, ?_⟩, fun E K => ?run⟩
  case run =>
    simp only [cc3__matvec_kernel_eq_skeleton]; unfold cc3__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R3Dat.lean ====
/-
  Region 3: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms3_0 (t : Fin cfg3.N) : Memref sig .tc .vmem S2048x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
/-- The accumulator's scratch buffer, whole. -/
abbrev sc3 : Memref sig .tc .vmem S2048x64 .f32 := Memref.whole cc3_scratch0
abbrev hsc3 : (sc3).IsWhole := Memref.isWhole_whole _
/-- The view through which a 2048 × 64 buffer's contents are stated (any whole buffer of the shape serves). -/
abbrev VS3 : View sig .tc .vmem S2048x64 .f32 := (sc3).view

/-! ## What each case leaves: the pieces cover the buffer, so the contents are the pieces read back -/

section Cases

variable (c : Dev nD) (i : grid3.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst3 (hc0 : first3 i) (hc1 : ¬ last3 i) (y : S2048x64.Idx) :
    ∃ pc ∈ (runFirst3 c i arg2 harg2 arg3 harg3 arg4 harg4 arg5 harg5 hc0 hc1 x0 x1).1, y ∈ pc.1.set :=
  View.cover_of_tiledL (runFirst3 c i arg2 harg2 arg3 harg3 arg4 harg4 arg5 harg5 hc0 hc1 x0 x1).1 S2048x64.size (by sl_kernel_rfl) y
/-- The accumulator after a first point. -/
def accFirst3 (hc0 : first3 i) (hc1 : ¬ last3 i) : Vec F S2048x64 .f32 :=
  VS3.read (Elt F) (VS3.writes (Elt F) VS3.junk (runFirst3 c i arg2 harg2 arg3 harg3 arg4 harg4 arg5 harg5 hc0 hc1 x0 x1).1)

theorem coverMid3 (hc0 : ¬ first3 i) (hc1 : ¬ last3 i) (y : S2048x64.Idx) :
    ∃ pc ∈ (runMid3 c i arg2 harg2 arg3 harg3 arg4 harg4 arg5 harg5 hc0 hc1 x0 x1 s).1, y ∈ pc.1.set :=
  View.cover_of_tiledL (runMid3 c i arg2 harg2 arg3 harg3 arg4 harg4 arg5 harg5 hc0 hc1 x0 x1 s).1 S2048x64.size (by sl_kernel_rfl) y
/-- The accumulator after a middle point that found it at `s`. -/
def accMid3 (hc0 : ¬ first3 i) (hc1 : ¬ last3 i) : Vec F S2048x64 .f32 :=
  VS3.read (Elt F) (VS3.writes (Elt F) VS3.junk (runMid3 c i arg2 harg2 arg3 harg3 arg4 harg4 arg5 harg5 hc0 hc1 x0 x1 s).1)

theorem coverLastOut3 (hc0 : ¬ first3 i) (hc1 : last3 i) (y : S2048x64.Idx) :
    ∃ pc ∈ (runLast3 c i arg2 harg2 arg3 harg3 arg4 harg4 arg5 harg5 hc0 hc1 x0 x1 s).1.1, y ∈ pc.1.set :=
  View.cover_of_tiledL (runLast3 c i arg2 harg2 arg3 harg3 arg4 harg4 arg5 harg5 hc0 hc1 x0 x1 s).1.1 S2048x64.size (by sl_kernel_rfl) y
theorem coverLastAcc3 (hc0 : ¬ first3 i) (hc1 : last3 i) (y : S2048x64.Idx) :
    ∃ pc ∈ (runLast3 c i arg2 harg2 arg3 harg3 arg4 harg4 arg5 harg5 hc0 hc1 x0 x1 s).1.2, y ∈ pc.1.set :=
  View.cover_of_tiledL (runLast3 c i arg2 harg2 arg3 harg3 arg4 harg4 arg5 harg5 hc0 hc1 x0 x1 s).1.2 S2048x64.size (by sl_kernel_rfl) y
/-- The output tile after a last point that found the accumulator at `s`, -/
def outLast3 (hc0 : ¬ first3 i) (hc1 : last3 i) : Vec F S2048x64 .f32 :=
  VS3.read (Elt F) (VS3.writes (Elt F) VS3.junk (runLast3 c i arg2 harg2 arg3 harg3 arg4 harg4 arg5 harg5 hc0 hc1 x0 x1 s).1.1)
/-- and the accumulator. -/
def accLast3 (hc0 : ¬ first3 i) (hc1 : last3 i) : Vec F S2048x64 .f32 :=
  VS3.read (Elt F) (VS3.writes (Elt F) VS3.junk (runLast3 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem not_last_of_first3 {n : ℕ} (h0 : n % 8 = 0) : ¬ n % 8 = 7 := by omega

/-- THE ACCUMULATION: the accumulator after the body at position `n`, by the case the point is in — a first point
    of a row starts afresh, the others continue from what the point before left. -/
def accAt3 (c : Dev nD) : (n : ℕ) → n < cfg3.N → Vec F S2048x64 .f32
  | 0, hn => accFirst3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) sc3 hsc3 (iblk3 V c 0 ⟨0, hn⟩) (iblk3 V c 1 ⟨0, hn⟩)
      ((first3_iff ⟨0, hn⟩).mpr (Nat.zero_mod _)) (fun h => not_last_of_first3 (Nat.zero_mod 8) ((last3_iff ⟨0, hn⟩).mp h))
  | n + 1, hn =>
    if h0 : (n + 1) % 8 = 0 then
      accFirst3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) sc3 hsc3 (iblk3 V c 0 ⟨n + 1, hn⟩) (iblk3 V c 1 ⟨n + 1, hn⟩)
        ((first3_iff ⟨n + 1, hn⟩).mpr h0) (fun h => not_last_of_first3 h0 ((last3_iff ⟨n + 1, hn⟩).mp h))
    else if h1 : (n + 1) % 8 = 7 then
      accLast3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) sc3 hsc3 (iblk3 V c 0 ⟨n + 1, hn⟩) (iblk3 V c 1 ⟨n + 1, hn⟩) (accAt3 c n (Nat.lt_of_succ_lt hn))
        (fun h => h0 ((first3_iff ⟨n + 1, hn⟩).mp h)) ((last3_iff ⟨n + 1, hn⟩).mpr h1)
    else
      accMid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) sc3 hsc3 (iblk3 V c 0 ⟨n + 1, hn⟩) (iblk3 V c 1 ⟨n + 1, hn⟩) (accAt3 c n (Nat.lt_of_succ_lt hn))
        (fun h => h0 ((first3_iff ⟨n + 1, hn⟩).mp h)) (fun h => h1 ((last3_iff ⟨n + 1, hn⟩).mp h))

theorem accAt3_first (c : Dev nD) (t : Fin cfg3.N) (h0 : t.val % 8 = 0) :
    accAt3 V c t.val t.isLt = accFirst3 c (grid3.coords t) (ms3_0 t) (hs3_0 t) (ms3_1 t) (hs3_1 t) (ms3_2 t) (hs3_2 t) sc3 hsc3 (iblk3 V c 0 t) (iblk3 V c 1 t)
      ((first3_iff t).mpr h0) (fun h => not_last_of_first3 h0 ((last3_iff t).mp h)) := by
  obtain ⟨n, hn⟩ := t
  cases n with
  | zero => exact rfl
  | succ n => exact (dif_pos h0).trans rfl

theorem accAt3_last (c : Dev nD) (t : Fin cfg3.N) (h0 : ¬ t.val % 8 = 0) (h1 : t.val % 8 = 7) :
    accAt3 V c t.val t.isLt = accLast3 c (grid3.coords t) (ms3_0 t) (hs3_0 t) (ms3_1 t) (hs3_1 t) (ms3_2 t) (hs3_2 t) sc3 hsc3 (iblk3 V c 0 t) (iblk3 V c 1 t) (accAt3 V c (t.val - 1) (Nat.lt_of_le_of_lt (Nat.sub_le _ _) t.isLt))
      (fun h => h0 ((first3_iff t).mp h)) ((last3_iff t).mpr h1) := by
  obtain ⟨n, hn⟩ := t
  cases n with
  | zero => exact absurd (Nat.zero_mod _) h0
  | succ n => exact (dif_neg h0).trans ((dif_pos h1).trans rfl)

theorem accAt3_mid (c : Dev nD) (t : Fin cfg3.N) (h0 : ¬ t.val % 8 = 0) (h1 : ¬ t.val % 8 = 7) :
    accAt3 V c t.val t.isLt = accMid3 c (grid3.coords t) (ms3_0 t) (hs3_0 t) (ms3_1 t) (hs3_1 t) (ms3_2 t) (hs3_2 t) sc3 hsc3 (iblk3 V c 0 t) (iblk3 V c 1 t) (accAt3 V c (t.val - 1) (Nat.lt_of_le_of_lt (Nat.sub_le _ _) t.isLt))
      (fun h => h0 ((first3_iff t).mp h)) (fun h => h1 ((last3_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt3 (c : Dev nD) (t : Fin cfg3.N) : Vec F S2048x64 .f32 :=
  if h : ¬ t.val % 8 = 0 ∧ t.val % 8 = 7 then
    outLast3 c (grid3.coords t) (ms3_0 t) (hs3_0 t) (ms3_1 t) (hs3_1 t) (ms3_2 t) (hs3_2 t) sc3 hsc3 (iblk3 V c 0 t) (iblk3 V c 1 t) (accAt3 V c (t.val - 1) (Nat.lt_of_le_of_lt (Nat.sub_le _ _) t.isLt))
      (fun h' => h.1 ((first3_iff t).mp h')) ((last3_iff t).mpr h.2)
  else accAt3 V c t.val t.isLt

/-! ## The pipeline's proof data -/

/-- The invariant before point `j` (after point `j - 1`): the accumulator at what the point before left — at
    anything before the first point —, and the scoped buffers of the other kernels untouched. -/
def Φ3 (c : Dev nD) (j : Fin (cfg3.N + 1)) : sProp 𝕄 :=
  iprop((∃ s : Vec F S2048x64 .f32, ⌜∀ (n : ℕ) (hn : n < cfg3.N), j.val = n + 1 → s = accAt3 V c n hn⌝ ∗ owns (c : Thread nD τ) sc3 fullShare s)
    ∗ Pipeline.scopedRestBut (Ix := Unit) (Name := ℕ) (U := UR sig nD τ) (Lvl := ℕ) (Val := Elt F) spec3 c [cc3_scratch0])

/-- The proof data on core `c`: the arrays as the region finds them; after the body at point `t` each input's
    buffer at its block and the output tile's at what a last point writes; the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t
  Φ j := Φ3 V c j
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3 V c t := by dsimp only [dat3]

/-- Each input's current staging buffer holds its block at every point: both are fetched at every point. -/
theorem before3_0 (c : Dev nD) (t : Fin cfg3.N) (d) : (dat3 V c).before 0 t d = iblk3 V c 0 t := by
  unfold Dat.before; rw [if_pos (fetch3_0 t)]; unfold Dat.fetched Dat.blockOf iblk3; rw [A_eq3]; try rfl
theorem before3_1 (c : Dev nD) (t : Fin cfg3.N) (d) : (dat3 V c).before 1 t d = iblk3 V c 1 t := by
  unfold Dat.before; rw [if_pos (fetch3_1 t)]; unfold Dat.fetched Dat.blockOf iblk3; rw [A_eq3]; try rfl

end Cert.Kernel.Hand

end
-- ==== Proof.KB.R4Body.lean ====
/-
  Region 4 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first4 (i : grid4.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last4 (i : grid4.Coords) : Prop := k4_cond2 i = 1#1

/-- Points are numbered row by row, eight to a row: the first condition holds at the multiples of 8, -/
theorem first4_iff : ∀ t : Fin cfg4.N, first4 (grid4.coords t) ↔ t.val % 8 = 0 :=
  (by decide +kernel : ∀ t : Fin grid4.N, first4 (grid4.coords t) ↔ t.val % 8 = 0)
/-- and the second at the points one short of a multiple of 8. -/
theorem last4_iff : ∀ t : Fin cfg4.N, last4 (grid4.coords t) ↔ t.val % 8 = 7 :=
  (by decide +kernel : ∀ t : Fin grid4.N, last4 (grid4.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst4 (c : Dev nD) (i : grid4.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first4 i) (hc1 : ¬ last4 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc4__matvec_kernel i arg2 harg2 arg3 harg3 arg4 harg4 arg5 harg5) K } := by
  refine ⟨?_, fun y E K => ?run⟩
  case run =>
    simp only [cc4__matvec_kernel_eq_skeleton]; unfold cc4__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid4 (c : Dev nD) (i : grid4.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first4 i) (hc1 : ¬ last4 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc4__matvec_kernel i arg2 harg2 arg3 harg3 arg4 harg4 arg5 harg5) K } := by
  refine ⟨?_, fun y E K => ?run⟩
  case run =>
    simp only [cc4__matvec_kernel_eq_skeleton]; unfold cc4__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast4 (c : Dev nD) (i : grid4.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first4 i) (hc1 : last4 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc4__matvec_kernel i arg2 harg2 arg3 harg3 arg4 harg4 arg5 harg5) K } := by
  refine ⟨⟨?_, ?_⟩, fun E K => ?run⟩
  case run =>
    simp only [cc4__matvec_kernel_eq_skeleton]; unfold cc4__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R4Dat.lean ====
/-
  Region 4: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R4Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
/-- The accumulator's scratch buffer, whole. -/
abbrev sc4 : Memref sig .tc .vmem S2048x64 .f32 := Memref.whole cc4_scratch0
abbrev hsc4 : (sc4).IsWhole := Memref.isWhole_whole _
/-- The view through which a 2048 × 64 buffer's contents are stated (any whole buffer of the shape serves). -/
abbrev VS4 : View sig .tc .vmem S2048x64 .f32 := (sc4).view

/-! ## What each case leaves: the pieces cover the buffer, so the contents are the pieces read back -/

section Cases

variable (c : Dev nD) (i : grid4.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst4 (hc0 : first4 i) (hc1 : ¬ last4 i) (y : S2048x64.Idx) :
    ∃ pc ∈ (runFirst4 c i arg2 harg2 arg3 harg3 arg4 harg4 arg5 harg5 hc0 hc1 x0 x1).1, y ∈ pc.1.set :=
  View.cover_of_tiledL (runFirst4 c i arg2 harg2 arg3 harg3 arg4 harg4 arg5 harg5 hc0 hc1 x0 x1).1 S2048x64.size (by sl_kernel_rfl) y
/-- The accumulator after a first point. -/
def accFirst4 (hc0 : first4 i) (hc1 : ¬ last4 i) : Vec F S2048x64 .f32 :=
  VS4.read (Elt F) (VS4.writes (Elt F) VS4.junk (runFirst4 c i arg2 harg2 arg3 harg3 arg4 harg4 arg5 harg5 hc0 hc1 x0 x1).1)

theorem coverMid4 (hc0 : ¬ first4 i) (hc1 : ¬ last4 i) (y : S2048x64.Idx) :
    ∃ pc ∈ (runMid4 c i arg2 harg2 arg3 harg3 arg4 harg4 arg5 harg5 hc0 hc1 x0 x1 s).1, y ∈ pc.1.set :=
  View.cover_of_tiledL (runMid4 c i arg2 harg2 arg3 harg3 arg4 harg4 arg5 harg5 hc0 hc1 x0 x1 s).1 S2048x64.size (by sl_kernel_rfl) y
/-- The accumulator after a middle point that found it at `s`. -/
def accMid4 (hc0 : ¬ first4 i) (hc1 : ¬ last4 i) : Vec F S2048x64 .f32 :=
  VS4.read (Elt F) (VS4.writes (Elt F) VS4.junk (runMid4 c i arg2 harg2 arg3 harg3 arg4 harg4 arg5 harg5 hc0 hc1 x0 x1 s).1)

theorem coverLastOut4 (hc0 : ¬ first4 i) (hc1 : last4 i) (y : S2048x64.Idx) :
    ∃ pc ∈ (runLast4 c i arg2 harg2 arg3 harg3 arg4 harg4 arg5 harg5 hc0 hc1 x0 x1 s).1.1, y ∈ pc.1.set :=
  View.cover_of_tiledL (runLast4 c i arg2 harg2 arg3 harg3 arg4 harg4 arg5 harg5 hc0 hc1 x0 x1 s).1.1 S2048x64.size (by sl_kernel_rfl) y
theorem coverLastAcc4 (hc0 : ¬ first4 i) (hc1 : last4 i) (y : S2048x64.Idx) :
    ∃ pc ∈ (runLast4 c i arg2 harg2 arg3 harg3 arg4 harg4 arg5 harg5 hc0 hc1 x0 x1 s).1.2, y ∈ pc.1.set :=
  View.cover_of_tiledL (runLast4 c i arg2 harg2 arg3 harg3 arg4 harg4 arg5 harg5 hc0 hc1 x0 x1 s).1.2 S2048x64.size (by sl_kernel_rfl) y
/-- The output tile after a last point that found the accumulator at `s`, -/
def outLast4 (hc0 : ¬ first4 i) (hc1 : last4 i) : Vec F S2048x64 .f32 :=
  VS4.read (Elt F) (VS4.writes (Elt F) VS4.junk (runLast4 c i arg2 harg2 arg3 harg3 arg4 harg4 arg5 harg5 hc0 hc1 x0 x1 s).1.1)
/-- and the accumulator. -/
def accLast4 (hc0 : ¬ first4 i) (hc1 : last4 i) : Vec F S2048x64 .f32 :=
  VS4.read (Elt F) (VS4.writes (Elt F) VS4.junk (runLast4 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem not_last_of_first4 {n : ℕ} (h0 : n % 8 = 0) : ¬ n % 8 = 7 := by omega

/-- THE ACCUMULATION: the accumulator after the body at position `n`, by the case the point is in — a first point
    of a row starts afresh, the others continue from what the point before left. -/
def accAt4 (c : Dev nD) : (n : ℕ) → n < cfg4.N → Vec F S2048x64 .f32
  | 0, hn => accFirst4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) sc4 hsc4 (iblk4 V c 0 ⟨0, hn⟩) (iblk4 V c 1 ⟨0, hn⟩)
      ((first4_iff ⟨0, hn⟩).mpr (Nat.zero_mod _)) (fun h => not_last_of_first4 (Nat.zero_mod 8) ((last4_iff ⟨0, hn⟩).mp h))
  | n + 1, hn =>
    if h0 : (n + 1) % 8 = 0 then
      accFirst4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) sc4 hsc4 (iblk4 V c 0 ⟨n + 1, hn⟩) (iblk4 V c 1 ⟨n + 1, hn⟩)
        ((first4_iff ⟨n + 1, hn⟩).mpr h0) (fun h => not_last_of_first4 h0 ((last4_iff ⟨n + 1, hn⟩).mp h))
    else if h1 : (n + 1) % 8 = 7 then
      accLast4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) sc4 hsc4 (iblk4 V c 0 ⟨n + 1, hn⟩) (iblk4 V c 1 ⟨n + 1, hn⟩) (accAt4 c n (Nat.lt_of_succ_lt hn))
        (fun h => h0 ((first4_iff ⟨n + 1, hn⟩).mp h)) ((last4_iff ⟨n + 1, hn⟩).mpr h1)
    else
      accMid4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) sc4 hsc4 (iblk4 V c 0 ⟨n + 1, hn⟩) (iblk4 V c 1 ⟨n + 1, hn⟩) (accAt4 c n (Nat.lt_of_succ_lt hn))
        (fun h => h0 ((first4_iff ⟨n + 1, hn⟩).mp h)) (fun h => h1 ((last4_iff ⟨n + 1, hn⟩).mp h))

theorem accAt4_first (c : Dev nD) (t : Fin cfg4.N) (h0 : t.val % 8 = 0) :
    accAt4 V c t.val t.isLt = accFirst4 c (grid4.coords t) (ms4_0 t) (hs4_0 t) (ms4_1 t) (hs4_1 t) (ms4_2 t) (hs4_2 t) sc4 hsc4 (iblk4 V c 0 t) (iblk4 V c 1 t)
      ((first4_iff t).mpr h0) (fun h => not_last_of_first4 h0 ((last4_iff t).mp h)) := by
  obtain ⟨n, hn⟩ := t
  cases n with
  | zero => exact rfl
  | succ n => exact (dif_pos h0).trans rfl

theorem accAt4_last (c : Dev nD) (t : Fin cfg4.N) (h0 : ¬ t.val % 8 = 0) (h1 : t.val % 8 = 7) :
    accAt4 V c t.val t.isLt = accLast4 c (grid4.coords t) (ms4_0 t) (hs4_0 t) (ms4_1 t) (hs4_1 t) (ms4_2 t) (hs4_2 t) sc4 hsc4 (iblk4 V c 0 t) (iblk4 V c 1 t) (accAt4 V c (t.val - 1) (Nat.lt_of_le_of_lt (Nat.sub_le _ _) t.isLt))
      (fun h => h0 ((first4_iff t).mp h)) ((last4_iff t).mpr h1) := by
  obtain ⟨n, hn⟩ := t
  cases n with
  | zero => exact absurd (Nat.zero_mod _) h0
  | succ n => exact (dif_neg h0).trans ((dif_pos h1).trans rfl)

theorem accAt4_mid (c : Dev nD) (t : Fin cfg4.N) (h0 : ¬ t.val % 8 = 0) (h1 : ¬ t.val % 8 = 7) :
    accAt4 V c t.val t.isLt = accMid4 c (grid4.coords t) (ms4_0 t) (hs4_0 t) (ms4_1 t) (hs4_1 t) (ms4_2 t) (hs4_2 t) sc4 hsc4 (iblk4 V c 0 t) (iblk4 V c 1 t) (accAt4 V c (t.val - 1) (Nat.lt_of_le_of_lt (Nat.sub_le _ _) t.isLt))
      (fun h => h0 ((first4_iff t).mp h)) (fun h => h1 ((last4_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt4 (c : Dev nD) (t : Fin cfg4.N) : Vec F S2048x64 .f32 :=
  if h : ¬ t.val % 8 = 0 ∧ t.val % 8 = 7 then
    outLast4 c (grid4.coords t) (ms4_0 t) (hs4_0 t) (ms4_1 t) (hs4_1 t) (ms4_2 t) (hs4_2 t) sc4 hsc4 (iblk4 V c 0 t) (iblk4 V c 1 t) (accAt4 V c (t.val - 1) (Nat.lt_of_le_of_lt (Nat.sub_le _ _) t.isLt))
      (fun h' => h.1 ((first4_iff t).mp h')) ((last4_iff t).mpr h.2)
  else accAt4 V c t.val t.isLt

/-! ## The pipeline's proof data -/

/-- The invariant before point `j` (after point `j - 1`): the accumulator at what the point before left — at
    anything before the first point —, and the scoped buffers of the other kernels untouched. -/
def Φ4 (c : Dev nD) (j : Fin (cfg4.N + 1)) : sProp 𝕄 :=
  iprop((∃ s : Vec F S2048x64 .f32, ⌜∀ (n : ℕ) (hn : n < cfg4.N), j.val = n + 1 → s = accAt4 V c n hn⌝ ∗ owns (c : Thread nD τ) sc4 fullShare s)
    ∗ Pipeline.scopedRestBut (Ix := Unit) (Name := ℕ) (U := UR sig nD τ) (Lvl := ℕ) (Val := Elt F) spec4 c [cc4_scratch0])

/-- The proof data on core `c`: the arrays as the region finds them; after the body at point `t` each input's
    buffer at its block and the output tile's at what a last point writes; the invariant above; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t
  Φ j := Φ4 V c j
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t := by dsimp only [dat4]

/-- Each input's current staging buffer holds its block at every point: both are fetched at every point. -/
theorem before4_0 (c : Dev nD) (t : Fin cfg4.N) (d) : (dat4 V c).before 0 t d = iblk4 V c 0 t := by
  unfold Dat.before; rw [if_pos (fetch4_0 t)]; unfold Dat.fetched Dat.blockOf iblk4; rw [A_eq4]; try rfl
theorem before4_1 (c : Dev nD) (t : Fin cfg4.N) (d) : (dat4 V c).before 1 t d = iblk4 V c 1 t := by
  unfold Dat.before; rw [if_pos (fetch4_1 t)]; unfold Dat.fetched Dat.blockOf iblk4; rw [A_eq4]; try rfl

end Cert.Kernel.Hand

end
-- ==== Proof.KB.R5Body.lean ====
/-
  Region 5 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first5 (i : grid5.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last5 (i : grid5.Coords) : Prop := k5_cond2 i = 1#1

/-- Points are numbered row by row, eight to a row: the first condition holds at the multiples of 8, -/
theorem first5_iff : ∀ t : Fin cfg5.N, first5 (grid5.coords t) ↔ t.val % 8 = 0 :=
  (by decide +kernel : ∀ t : Fin grid5.N, first5 (grid5.coords t) ↔ t.val % 8 = 0)
/-- and the second at the points one short of a multiple of 8. -/
theorem last5_iff : ∀ t : Fin cfg5.N, last5 (grid5.coords t) ↔ t.val % 8 = 7 :=
  (by decide +kernel : ∀ t : Fin grid5.N, last5 (grid5.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst5 (c : Dev nD) (i : grid5.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first5 i) (hc1 : ¬ last5 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc5__matvec_kernel i arg2 harg2 arg3 harg3 arg4 harg4 arg5 harg5) K } := by
  refine ⟨?_, fun y E K => ?run⟩
  case run =>
    simp only [cc5__matvec_kernel_eq_skeleton]; unfold cc5__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid5 (c : Dev nD) (i : grid5.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first5 i) (hc1 : ¬ last5 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc5__matvec_kernel i arg2 harg2 arg3 harg3 arg4 harg4 arg5 harg5) K } := by
  refine ⟨?_, fun y E K => ?run⟩
  case run =>
    simp only [cc5__matvec_kernel_eq_skeleton]; unfold cc5__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast5 (c : Dev nD) (i : grid5.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first5 i) (hc1 : last5 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc5__matvec_kernel i arg2 harg2 arg3 harg3 arg4 harg4 arg5 harg5) K } := by
  refine ⟨⟨?_, ?_⟩, fun E K => ?run⟩
  case run =>
    simp only [cc5__matvec_kernel_eq_skeleton]; unfold cc5__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R5Dat.lean ====
/-
  Region 5: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R5Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms5_0 (t : Fin cfg5.N) : Memref sig .tc .vmem S2048x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x64 .f32 := win5_2.stage (cfg5.slots t 2)
abbrev hs5_2 (t : Fin cfg5.N) : (ms5_2 t).IsWhole := hstage5_2 ((cfg5.slots t 2).cast nbuf5_2)
/-- The accumulator's scratch buffer, whole. -/
abbrev sc5 : Memref sig .tc .vmem S2048x64 .f32 := Memref.whole cc5_scratch0
abbrev hsc5 : (sc5).IsWhole := Memref.isWhole_whole _
/-- The view through which a 2048 × 64 buffer's contents are stated (any whole buffer of the shape serves). -/
abbrev VS5 : View sig .tc .vmem S2048x64 .f32 := (sc5).view

/-! ## What each case leaves: the pieces cover the buffer, so the contents are the pieces read back -/

section Cases

variable (c : Dev nD) (i : grid5.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst5 (hc0 : first5 i) (hc1 : ¬ last5 i) (y : S2048x64.Idx) :
    ∃ pc ∈ (runFirst5 c i arg2 harg2 arg3 harg3 arg4 harg4 arg5 harg5 hc0 hc1 x0 x1).1, y ∈ pc.1.set :=
  View.cover_of_tiledL (runFirst5 c i arg2 harg2 arg3 harg3 arg4 harg4 arg5 harg5 hc0 hc1 x0 x1).1 S2048x64.size (by sl_kernel_rfl) y
/-- The accumulator after a first point. -/
def accFirst5 (hc0 : first5 i) (hc1 : ¬ last5 i) : Vec F S2048x64 .f32 :=
  VS5.read (Elt F) (VS5.writes (Elt F) VS5.junk (runFirst5 c i arg2 harg2 arg3 harg3 arg4 harg4 arg5 harg5 hc0 hc1 x0 x1).1)

theorem coverMid5 (hc0 : ¬ first5 i) (hc1 : ¬ last5 i) (y : S2048x64.Idx) :
    ∃ pc ∈ (runMid5 c i arg2 harg2 arg3 harg3 arg4 harg4 arg5 harg5 hc0 hc1 x0 x1 s).1, y ∈ pc.1.set :=
  View.cover_of_tiledL (runMid5 c i arg2 harg2 arg3 harg3 arg4 harg4 arg5 harg5 hc0 hc1 x0 x1 s).1 S2048x64.size (by sl_kernel_rfl) y
/-- The accumulator after a middle point that found it at `s`. -/
def accMid5 (hc0 : ¬ first5 i) (hc1 : ¬ last5 i) : Vec F S2048x64 .f32 :=
  VS5.read (Elt F) (VS5.writes (Elt F) VS5.junk (runMid5 c i arg2 harg2 arg3 harg3 arg4 harg4 arg5 harg5 hc0 hc1 x0 x1 s).1)

theorem coverLastOut5 (hc0 : ¬ first5 i) (hc1 : last5 i) (y : S2048x64.Idx) :
    ∃ pc ∈ (runLast5 c i arg2 harg2 arg3 harg3 arg4 harg4 arg5 harg5 hc0 hc1 x0 x1 s).1.1, y ∈ pc.1.set :=
  View.cover_of_tiledL (runLast5 c i arg2 harg2 arg3 harg3 arg4 harg4 arg5 harg5 hc0 hc1 x0 x1 s).1.1 S2048x64.size (by sl_kernel_rfl) y
theorem coverLastAcc5 (hc0 : ¬ first5 i) (hc1 : last5 i) (y : S2048x64.Idx) :
    ∃ pc ∈ (runLast5 c i arg2 harg2 arg3 harg3 arg4 harg4 arg5 harg5 hc0 hc1 x0 x1 s).1.2, y ∈ pc.1.set :=
  View.cover_of_tiledL (runLast5 c i arg2 harg2 arg3 harg3 arg4 harg4 arg5 harg5 hc0 hc1 x0 x1 s).1.2 S2048x64.size (by sl_kernel_rfl) y
/-- The output tile after a last point that found the accumulator at `s`, -/
def outLast5 (hc0 : ¬ first5 i) (hc1 : last5 i) : Vec F S2048x64 .f32 :=
  VS5.read (Elt F) (VS5.writes (Elt F) VS5.junk (runLast5 c i arg2 harg2 arg3 harg3 arg4 harg4 arg5 harg5 hc0 hc1 x0 x1 s).1.1)
/-- and the accumulator. -/
def accLast5 (hc0 : ¬ first5 i) (hc1 : last5 i) : Vec F S2048x64 .f32 :=
  VS5.read (Elt F) (VS5.writes (Elt F) VS5.junk (runLast5 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem not_last_of_first5 {n : ℕ} (h0 : n % 8 = 0) : ¬ n % 8 = 7 := by omega

/-- THE ACCUMULATION: the accumulator after the body at position `n`, by the case the point is in — a first point
    of a row starts afresh, the others continue from what the point before left. -/
def accAt5 (c : Dev nD) : (n : ℕ) → n < cfg5.N → Vec F S2048x64 .f32
  | 0, hn => accFirst5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) sc5 hsc5 (iblk5 V c 0 ⟨0, hn⟩) (iblk5 V c 1 ⟨0, hn⟩)
      ((first5_iff ⟨0, hn⟩).mpr (Nat.zero_mod _)) (fun h => not_last_of_first5 (Nat.zero_mod 8) ((last5_iff ⟨0, hn⟩).mp h))
  | n + 1, hn =>
    if h0 : (n + 1) % 8 = 0 then
      accFirst5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) sc5 hsc5 (iblk5 V c 0 ⟨n + 1, hn⟩) (iblk5 V c 1 ⟨n + 1, hn⟩)
        ((first5_iff ⟨n + 1, hn⟩).mpr h0) (fun h => not_last_of_first5 h0 ((last5_iff ⟨n + 1, hn⟩).mp h))
    else if h1 : (n + 1) % 8 = 7 then
      accLast5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) sc5 hsc5 (iblk5 V c 0 ⟨n + 1, hn⟩) (iblk5 V c 1 ⟨n + 1, hn⟩) (accAt5 c n (Nat.lt_of_succ_lt hn))
        (fun h => h0 ((first5_iff ⟨n + 1, hn⟩).mp h)) ((last5_iff ⟨n + 1, hn⟩).mpr h1)
    else
      accMid5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) sc5 hsc5 (iblk5 V c 0 ⟨n + 1, hn⟩) (iblk5 V c 1 ⟨n + 1, hn⟩) (accAt5 c n (Nat.lt_of_succ_lt hn))
        (fun h => h0 ((first5_iff ⟨n + 1, hn⟩).mp h)) (fun h => h1 ((last5_iff ⟨n + 1, hn⟩).mp h))

theorem accAt5_first (c : Dev nD) (t : Fin cfg5.N) (h0 : t.val % 8 = 0) :
    accAt5 V c t.val t.isLt = accFirst5 c (grid5.coords t) (ms5_0 t) (hs5_0 t) (ms5_1 t) (hs5_1 t) (ms5_2 t) (hs5_2 t) sc5 hsc5 (iblk5 V c 0 t) (iblk5 V c 1 t)
      ((first5_iff t).mpr h0) (fun h => not_last_of_first5 h0 ((last5_iff t).mp h)) := by
  obtain ⟨n, hn⟩ := t
  cases n with
  | zero => exact rfl
  | succ n => exact (dif_pos h0).trans rfl

theorem accAt5_last (c : Dev nD) (t : Fin cfg5.N) (h0 : ¬ t.val % 8 = 0) (h1 : t.val % 8 = 7) :
    accAt5 V c t.val t.isLt = accLast5 c (grid5.coords t) (ms5_0 t) (hs5_0 t) (ms5_1 t) (hs5_1 t) (ms5_2 t) (hs5_2 t) sc5 hsc5 (iblk5 V c 0 t) (iblk5 V c 1 t) (accAt5 V c (t.val - 1) (Nat.lt_of_le_of_lt (Nat.sub_le _ _) t.isLt))
      (fun h => h0 ((first5_iff t).mp h)) ((last5_iff t).mpr h1) := by
  obtain ⟨n, hn⟩ := t
  cases n with
  | zero => exact absurd (Nat.zero_mod _) h0
  | succ n => exact (dif_neg h0).trans ((dif_pos h1).trans rfl)

theorem accAt5_mid (c : Dev nD) (t : Fin cfg5.N) (h0 : ¬ t.val % 8 = 0) (h1 : ¬ t.val % 8 = 7) :
    accAt5 V c t.val t.isLt = accMid5 c (grid5.coords t) (ms5_0 t) (hs5_0 t) (ms5_1 t) (hs5_1 t) (ms5_2 t) (hs5_2 t) sc5 hsc5 (iblk5 V c 0 t) (iblk5 V c 1 t) (accAt5 V c (t.val - 1) (Nat.lt_of_le_of_lt (Nat.sub_le _ _) t.isLt))
      (fun h => h0 ((first5_iff t).mp h)) (fun h => h1 ((last5_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt5 (c : Dev nD) (t : Fin cfg5.N) : Vec F S2048x64 .f32 :=
  if h : ¬ t.val % 8 = 0 ∧ t.val % 8 = 7 then
    outLast5 c (grid5.coords t) (ms5_0 t) (hs5_0 t) (ms5_1 t) (hs5_1 t) (ms5_2 t) (hs5_2 t) sc5 hsc5 (iblk5 V c 0 t) (iblk5 V c 1 t) (accAt5 V c (t.val - 1) (Nat.lt_of_le_of_lt (Nat.sub_le _ _) t.isLt))
      (fun h' => h.1 ((first5_iff t).mp h')) ((last5_iff t).mpr h.2)
  else accAt5 V c t.val t.isLt

/-! ## The pipeline's proof data -/

/-- The invariant before point `j` (after point `j - 1`): the accumulator at what the point before left — at
    anything before the first point —, and the scoped buffers of the other kernels untouched. -/
def Φ5 (c : Dev nD) (j : Fin (cfg5.N + 1)) : sProp 𝕄 :=
  iprop((∃ s : Vec F S2048x64 .f32, ⌜∀ (n : ℕ) (hn : n < cfg5.N), j.val = n + 1 → s = accAt5 V c n hn⌝ ∗ owns (c : Thread nD τ) sc5 fullShare s)
    ∗ Pipeline.scopedRestBut (Ix := Unit) (Name := ℕ) (U := UR sig nD τ) (Lvl := ℕ) (Val := Elt F) spec5 c [cc5_scratch0])

/-- The proof data on core `c`: the arrays as the region finds them; after the body at point `t` each input's
    buffer at its block and the output tile's at what a last point writes; the invariant above; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => outAt5 V c t
  Φ j := Φ5 V c j
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = outAt5 V c t := by dsimp only [dat5]

/-- Each input's current staging buffer holds its block at every point: both are fetched at every point. -/
theorem before5_0 (c : Dev nD) (t : Fin cfg5.N) (d) : (dat5 V c).before 0 t d = iblk5 V c 0 t := by
  unfold Dat.before; rw [if_pos (fetch5_0 t)]; unfold Dat.fetched Dat.blockOf iblk5; rw [A_eq5]; try rfl
theorem before5_1 (c : Dev nD) (t : Fin cfg5.N) (d) : (dat5 V c).before 1 t d = iblk5 V c 1 t := by
  unfold Dat.before; rw [if_pos (fetch5_1 t)]; unfold Dat.fetched Dat.blockOf iblk5; rw [A_eq5]; try rfl

end Cert.Kernel.Hand

end
-- ==== Proof.KB.R6Body.lean ====
/-
  Region 6 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first6 (i : grid6.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last6 (i : grid6.Coords) : Prop := k6_cond2 i = 1#1

/-- Points are numbered row by row, eight to a row: the first condition holds at the multiples of 8, -/
theorem first6_iff : ∀ t : Fin cfg6.N, first6 (grid6.coords t) ↔ t.val % 8 = 0 :=
  (by decide +kernel : ∀ t : Fin grid6.N, first6 (grid6.coords t) ↔ t.val % 8 = 0)
/-- and the second at the points one short of a multiple of 8. -/
theorem last6_iff : ∀ t : Fin cfg6.N, last6 (grid6.coords t) ↔ t.val % 8 = 7 :=
  (by decide +kernel : ∀ t : Fin grid6.N, last6 (grid6.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst6 (c : Dev nD) (i : grid6.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first6 i) (hc1 : ¬ last6 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc6__matvec_kernel i arg2 harg2 arg3 harg3 arg4 harg4 arg5 harg5) K } := by
  refine ⟨?_, fun y E K => ?run⟩
  case run =>
    simp only [cc6__matvec_kernel_eq_skeleton]; unfold cc6__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid6 (c : Dev nD) (i : grid6.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first6 i) (hc1 : ¬ last6 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc6__matvec_kernel i arg2 harg2 arg3 harg3 arg4 harg4 arg5 harg5) K } := by
  refine ⟨?_, fun y E K => ?run⟩
  case run =>
    simp only [cc6__matvec_kernel_eq_skeleton]; unfold cc6__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast6 (c : Dev nD) (i : grid6.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first6 i) (hc1 : last6 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc6__matvec_kernel i arg2 harg2 arg3 harg3 arg4 harg4 arg5 harg5) K } := by
  refine ⟨⟨?_, ?_⟩, fun E K => ?run⟩
  case run =>
    simp only [cc6__matvec_kernel_eq_skeleton]; unfold cc6__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R6Dat.lean ====
/-
  Region 6: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R6Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms6_0 (t : Fin cfg6.N) : Memref sig .tc .vmem S2048x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x64 .f32 := win6_2.stage (cfg6.slots t 2)
abbrev hs6_2 (t : Fin cfg6.N) : (ms6_2 t).IsWhole := hstage6_2 ((cfg6.slots t 2).cast nbuf6_2)
/-- The accumulator's scratch buffer, whole. -/
abbrev sc6 : Memref sig .tc .vmem S2048x64 .f32 := Memref.whole cc6_scratch0
abbrev hsc6 : (sc6).IsWhole := Memref.isWhole_whole _
/-- The view through which a 2048 × 64 buffer's contents are stated (any whole buffer of the shape serves). -/
abbrev VS6 : View sig .tc .vmem S2048x64 .f32 := (sc6).view

/-! ## What each case leaves: the pieces cover the buffer, so the contents are the pieces read back -/

section Cases

variable (c : Dev nD) (i : grid6.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst6 (hc0 : first6 i) (hc1 : ¬ last6 i) (y : S2048x64.Idx) :
    ∃ pc ∈ (runFirst6 c i arg2 harg2 arg3 harg3 arg4 harg4 arg5 harg5 hc0 hc1 x0 x1).1, y ∈ pc.1.set :=
  View.cover_of_tiledL (runFirst6 c i arg2 harg2 arg3 harg3 arg4 harg4 arg5 harg5 hc0 hc1 x0 x1).1 S2048x64.size (by sl_kernel_rfl) y
/-- The accumulator after a first point. -/
def accFirst6 (hc0 : first6 i) (hc1 : ¬ last6 i) : Vec F S2048x64 .f32 :=
  VS6.read (Elt F) (VS6.writes (Elt F) VS6.junk (runFirst6 c i arg2 harg2 arg3 harg3 arg4 harg4 arg5 harg5 hc0 hc1 x0 x1).1)

theorem coverMid6 (hc0 : ¬ first6 i) (hc1 : ¬ last6 i) (y : S2048x64.Idx) :
    ∃ pc ∈ (runMid6 c i arg2 harg2 arg3 harg3 arg4 harg4 arg5 harg5 hc0 hc1 x0 x1 s).1, y ∈ pc.1.set :=
  View.cover_of_tiledL (runMid6 c i arg2 harg2 arg3 harg3 arg4 harg4 arg5 harg5 hc0 hc1 x0 x1 s).1 S2048x64.size (by sl_kernel_rfl) y
/-- The accumulator after a middle point that found it at `s`. -/
def accMid6 (hc0 : ¬ first6 i) (hc1 : ¬ last6 i) : Vec F S2048x64 .f32 :=
  VS6.read (Elt F) (VS6.writes (Elt F) VS6.junk (runMid6 c i arg2 harg2 arg3 harg3 arg4 harg4 arg5 harg5 hc0 hc1 x0 x1 s).1)

theorem coverLastOut6 (hc0 : ¬ first6 i) (hc1 : last6 i) (y : S2048x64.Idx) :
    ∃ pc ∈ (runLast6 c i arg2 harg2 arg3 harg3 arg4 harg4 arg5 harg5 hc0 hc1 x0 x1 s).1.1, y ∈ pc.1.set :=
  View.cover_of_tiledL (runLast6 c i arg2 harg2 arg3 harg3 arg4 harg4 arg5 harg5 hc0 hc1 x0 x1 s).1.1 S2048x64.size (by sl_kernel_rfl) y
theorem coverLastAcc6 (hc0 : ¬ first6 i) (hc1 : last6 i) (y : S2048x64.Idx) :
    ∃ pc ∈ (runLast6 c i arg2 harg2 arg3 harg3 arg4 harg4 arg5 harg5 hc0 hc1 x0 x1 s).1.2, y ∈ pc.1.set :=
  View.cover_of_tiledL (runLast6 c i arg2 harg2 arg3 harg3 arg4 harg4 arg5 harg5 hc0 hc1 x0 x1 s).1.2 S2048x64.size (by sl_kernel_rfl) y
/-- The output tile after a last point that found the accumulator at `s`, -/
def outLast6 (hc0 : ¬ first6 i) (hc1 : last6 i) : Vec F S2048x64 .f32 :=
  VS6.read (Elt F) (VS6.writes (Elt F) VS6.junk (runLast6 c i arg2 harg2 arg3 harg3 arg4 harg4 arg5 harg5 hc0 hc1 x0 x1 s).1.1)
/-- and the accumulator. -/
def accLast6 (hc0 : ¬ first6 i) (hc1 : last6 i) : Vec F S2048x64 .f32 :=
  VS6.read (Elt F) (VS6.writes (Elt F) VS6.junk (runLast6 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem not_last_of_first6 {n : ℕ} (h0 : n % 8 = 0) : ¬ n % 8 = 7 := by omega

/-- THE ACCUMULATION: the accumulator after the body at position `n`, by the case the point is in — a first point
    of a row starts afresh, the others continue from what the point before left. -/
def accAt6 (c : Dev nD) : (n : ℕ) → n < cfg6.N → Vec F S2048x64 .f32
  | 0, hn => accFirst6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) sc6 hsc6 (iblk6 V c 0 ⟨0, hn⟩) (iblk6 V c 1 ⟨0, hn⟩)
      ((first6_iff ⟨0, hn⟩).mpr (Nat.zero_mod _)) (fun h => not_last_of_first6 (Nat.zero_mod 8) ((last6_iff ⟨0, hn⟩).mp h))
  | n + 1, hn =>
    if h0 : (n + 1) % 8 = 0 then
      accFirst6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) sc6 hsc6 (iblk6 V c 0 ⟨n + 1, hn⟩) (iblk6 V c 1 ⟨n + 1, hn⟩)
        ((first6_iff ⟨n + 1, hn⟩).mpr h0) (fun h => not_last_of_first6 h0 ((last6_iff ⟨n + 1, hn⟩).mp h))
    else if h1 : (n + 1) % 8 = 7 then
      accLast6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) sc6 hsc6 (iblk6 V c 0 ⟨n + 1, hn⟩) (iblk6 V c 1 ⟨n + 1, hn⟩) (accAt6 c n (Nat.lt_of_succ_lt hn))
        (fun h => h0 ((first6_iff ⟨n + 1, hn⟩).mp h)) ((last6_iff ⟨n + 1, hn⟩).mpr h1)
    else
      accMid6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) sc6 hsc6 (iblk6 V c 0 ⟨n + 1, hn⟩) (iblk6 V c 1 ⟨n + 1, hn⟩) (accAt6 c n (Nat.lt_of_succ_lt hn))
        (fun h => h0 ((first6_iff ⟨n + 1, hn⟩).mp h)) (fun h => h1 ((last6_iff ⟨n + 1, hn⟩).mp h))

theorem accAt6_first (c : Dev nD) (t : Fin cfg6.N) (h0 : t.val % 8 = 0) :
    accAt6 V c t.val t.isLt = accFirst6 c (grid6.coords t) (ms6_0 t) (hs6_0 t) (ms6_1 t) (hs6_1 t) (ms6_2 t) (hs6_2 t) sc6 hsc6 (iblk6 V c 0 t) (iblk6 V c 1 t)
      ((first6_iff t).mpr h0) (fun h => not_last_of_first6 h0 ((last6_iff t).mp h)) := by
  obtain ⟨n, hn⟩ := t
  cases n with
  | zero => exact rfl
  | succ n => exact (dif_pos h0).trans rfl

theorem accAt6_last (c : Dev nD) (t : Fin cfg6.N) (h0 : ¬ t.val % 8 = 0) (h1 : t.val % 8 = 7) :
    accAt6 V c t.val t.isLt = accLast6 c (grid6.coords t) (ms6_0 t) (hs6_0 t) (ms6_1 t) (hs6_1 t) (ms6_2 t) (hs6_2 t) sc6 hsc6 (iblk6 V c 0 t) (iblk6 V c 1 t) (accAt6 V c (t.val - 1) (Nat.lt_of_le_of_lt (Nat.sub_le _ _) t.isLt))
      (fun h => h0 ((first6_iff t).mp h)) ((last6_iff t).mpr h1) := by
  obtain ⟨n, hn⟩ := t
  cases n with
  | zero => exact absurd (Nat.zero_mod _) h0
  | succ n => exact (dif_neg h0).trans ((dif_pos h1).trans rfl)

theorem accAt6_mid (c : Dev nD) (t : Fin cfg6.N) (h0 : ¬ t.val % 8 = 0) (h1 : ¬ t.val % 8 = 7) :
    accAt6 V c t.val t.isLt = accMid6 c (grid6.coords t) (ms6_0 t) (hs6_0 t) (ms6_1 t) (hs6_1 t) (ms6_2 t) (hs6_2 t) sc6 hsc6 (iblk6 V c 0 t) (iblk6 V c 1 t) (accAt6 V c (t.val - 1) (Nat.lt_of_le_of_lt (Nat.sub_le _ _) t.isLt))
      (fun h => h0 ((first6_iff t).mp h)) (fun h => h1 ((last6_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt6 (c : Dev nD) (t : Fin cfg6.N) : Vec F S2048x64 .f32 :=
  if h : ¬ t.val % 8 = 0 ∧ t.val % 8 = 7 then
    outLast6 c (grid6.coords t) (ms6_0 t) (hs6_0 t) (ms6_1 t) (hs6_1 t) (ms6_2 t) (hs6_2 t) sc6 hsc6 (iblk6 V c 0 t) (iblk6 V c 1 t) (accAt6 V c (t.val - 1) (Nat.lt_of_le_of_lt (Nat.sub_le _ _) t.isLt))
      (fun h' => h.1 ((first6_iff t).mp h')) ((last6_iff t).mpr h.2)
  else accAt6 V c t.val t.isLt

/-! ## The pipeline's proof data -/

/-- The invariant before point `j` (after point `j - 1`): the accumulator at what the point before left — at
    anything before the first point —, and the scoped buffers of the other kernels untouched. -/
def Φ6 (c : Dev nD) (j : Fin (cfg6.N + 1)) : sProp 𝕄 :=
  iprop((∃ s : Vec F S2048x64 .f32, ⌜∀ (n : ℕ) (hn : n < cfg6.N), j.val = n + 1 → s = accAt6 V c n hn⌝ ∗ owns (c : Thread nD τ) sc6 fullShare s)
    ∗ Pipeline.scopedRestBut (Ix := Unit) (Name := ℕ) (U := UR sig nD τ) (Lvl := ℕ) (Val := Elt F) spec6 c [cc6_scratch0])

/-- The proof data on core `c`: the arrays as the region finds them; after the body at point `t` each input's
    buffer at its block and the output tile's at what a last point writes; the invariant above; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => outAt6 V c t
  Φ j := Φ6 V c j
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = outAt6 V c t := by dsimp only [dat6]

/-- Each input's current staging buffer holds its block at every point: both are fetched at every point. -/
theorem before6_0 (c : Dev nD) (t : Fin cfg6.N) (d) : (dat6 V c).before 0 t d = iblk6 V c 0 t := by
  unfold Dat.before; rw [if_pos (fetch6_0 t)]; unfold Dat.fetched Dat.blockOf iblk6; rw [A_eq6]; try rfl
theorem before6_1 (c : Dev nD) (t : Fin cfg6.N) (d) : (dat6 V c).before 1 t d = iblk6 V c 1 t := by
  unfold Dat.before; rw [if_pos (fetch6_1 t)]; unfold Dat.fetched Dat.blockOf iblk6; rw [A_eq6]; try rfl

end Cert.Kernel.Hand

end
-- ==== Proof.KB.R7Body.lean ====
/-
  Region 7 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first7 (i : grid7.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last7 (i : grid7.Coords) : Prop := k7_cond2 i = 1#1

/-- Points are numbered row by row, eight to a row: the first condition holds at the multiples of 8, -/
theorem first7_iff : ∀ t : Fin cfg7.N, first7 (grid7.coords t) ↔ t.val % 8 = 0 :=
  (by decide +kernel : ∀ t : Fin grid7.N, first7 (grid7.coords t) ↔ t.val % 8 = 0)
/-- and the second at the points one short of a multiple of 8. -/
theorem last7_iff : ∀ t : Fin cfg7.N, last7 (grid7.coords t) ↔ t.val % 8 = 7 :=
  (by decide +kernel : ∀ t : Fin grid7.N, last7 (grid7.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst7 (c : Dev nD) (i : grid7.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first7 i) (hc1 : ¬ last7 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc7__matvec_kernel i arg2 harg2 arg3 harg3 arg4 harg4 arg5 harg5) K } := by
  refine ⟨?_, fun y E K => ?run⟩
  case run =>
    simp only [cc7__matvec_kernel_eq_skeleton]; unfold cc7__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid7 (c : Dev nD) (i : grid7.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first7 i) (hc1 : ¬ last7 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc7__matvec_kernel i arg2 harg2 arg3 harg3 arg4 harg4 arg5 harg5) K } := by
  refine ⟨?_, fun y E K => ?run⟩
  case run =>
    simp only [cc7__matvec_kernel_eq_skeleton]; unfold cc7__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast7 (c : Dev nD) (i : grid7.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first7 i) (hc1 : last7 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc7__matvec_kernel i arg2 harg2 arg3 harg3 arg4 harg4 arg5 harg5) K } := by
  refine ⟨⟨?_, ?_⟩, fun E K => ?run⟩
  case run =>
    simp only [cc7__matvec_kernel_eq_skeleton]; unfold cc7__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R7Dat.lean ====
/-
  Region 7: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R7Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms7_0 (t : Fin cfg7.N) : Memref sig .tc .vmem S2048x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2048x64 .f32 := win7_2.stage (cfg7.slots t 2)
abbrev hs7_2 (t : Fin cfg7.N) : (ms7_2 t).IsWhole := hstage7_2 ((cfg7.slots t 2).cast nbuf7_2)
/-- The accumulator's scratch buffer, whole. -/
abbrev sc7 : Memref sig .tc .vmem S2048x64 .f32 := Memref.whole cc7_scratch0
abbrev hsc7 : (sc7).IsWhole := Memref.isWhole_whole _
/-- The view through which a 2048 × 64 buffer's contents are stated (any whole buffer of the shape serves). -/
abbrev VS7 : View sig .tc .vmem S2048x64 .f32 := (sc7).view

/-! ## What each case leaves: the pieces cover the buffer, so the contents are the pieces read back -/

section Cases

variable (c : Dev nD) (i : grid7.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst7 (hc0 : first7 i) (hc1 : ¬ last7 i) (y : S2048x64.Idx) :
    ∃ pc ∈ (runFirst7 c i arg2 harg2 arg3 harg3 arg4 harg4 arg5 harg5 hc0 hc1 x0 x1).1, y ∈ pc.1.set :=
  View.cover_of_tiledL (runFirst7 c i arg2 harg2 arg3 harg3 arg4 harg4 arg5 harg5 hc0 hc1 x0 x1).1 S2048x64.size (by sl_kernel_rfl) y
/-- The accumulator after a first point. -/
def accFirst7 (hc0 : first7 i) (hc1 : ¬ last7 i) : Vec F S2048x64 .f32 :=
  VS7.read (Elt F) (VS7.writes (Elt F) VS7.junk (runFirst7 c i arg2 harg2 arg3 harg3 arg4 harg4 arg5 harg5 hc0 hc1 x0 x1).1)

theorem coverMid7 (hc0 : ¬ first7 i) (hc1 : ¬ last7 i) (y : S2048x64.Idx) :
    ∃ pc ∈ (runMid7 c i arg2 harg2 arg3 harg3 arg4 harg4 arg5 harg5 hc0 hc1 x0 x1 s).1, y ∈ pc.1.set :=
  View.cover_of_tiledL (runMid7 c i arg2 harg2 arg3 harg3 arg4 harg4 arg5 harg5 hc0 hc1 x0 x1 s).1 S2048x64.size (by sl_kernel_rfl) y
/-- The accumulator after a middle point that found it at `s`. -/
def accMid7 (hc0 : ¬ first7 i) (hc1 : ¬ last7 i) : Vec F S2048x64 .f32 :=
  VS7.read (Elt F) (VS7.writes (Elt F) VS7.junk (runMid7 c i arg2 harg2 arg3 harg3 arg4 harg4 arg5 harg5 hc0 hc1 x0 x1 s).1)

theorem coverLastOut7 (hc0 : ¬ first7 i) (hc1 : last7 i) (y : S2048x64.Idx) :
    ∃ pc ∈ (runLast7 c i arg2 harg2 arg3 harg3 arg4 harg4 arg5 harg5 hc0 hc1 x0 x1 s).1.1, y ∈ pc.1.set :=
  View.cover_of_tiledL (runLast7 c i arg2 harg2 arg3 harg3 arg4 harg4 arg5 harg5 hc0 hc1 x0 x1 s).1.1 S2048x64.size (by sl_kernel_rfl) y
theorem coverLastAcc7 (hc0 : ¬ first7 i) (hc1 : last7 i) (y : S2048x64.Idx) :
    ∃ pc ∈ (runLast7 c i arg2 harg2 arg3 harg3 arg4 harg4 arg5 harg5 hc0 hc1 x0 x1 s).1.2, y ∈ pc.1.set :=
  View.cover_of_tiledL (runLast7 c i arg2 harg2 arg3 harg3 arg4 harg4 arg5 harg5 hc0 hc1 x0 x1 s).1.2 S2048x64.size (by sl_kernel_rfl) y
/-- The output tile after a last point that found the accumulator at `s`, -/
def outLast7 (hc0 : ¬ first7 i) (hc1 : last7 i) : Vec F S2048x64 .f32 :=
  VS7.read (Elt F) (VS7.writes (Elt F) VS7.junk (runLast7 c i arg2 harg2 arg3 harg3 arg4 harg4 arg5 harg5 hc0 hc1 x0 x1 s).1.1)
/-- and the accumulator. -/
def accLast7 (hc0 : ¬ first7 i) (hc1 : last7 i) : Vec F S2048x64 .f32 :=
  VS7.read (Elt F) (VS7.writes (Elt F) VS7.junk (runLast7 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem not_last_of_first7 {n : ℕ} (h0 : n % 8 = 0) : ¬ n % 8 = 7 := by omega

/-- THE ACCUMULATION: the accumulator after the body at position `n`, by the case the point is in — a first point
    of a row starts afresh, the others continue from what the point before left. -/
def accAt7 (c : Dev nD) : (n : ℕ) → n < cfg7.N → Vec F S2048x64 .f32
  | 0, hn => accFirst7 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) sc7 hsc7 (iblk7 V c 0 ⟨0, hn⟩) (iblk7 V c 1 ⟨0, hn⟩)
      ((first7_iff ⟨0, hn⟩).mpr (Nat.zero_mod _)) (fun h => not_last_of_first7 (Nat.zero_mod 8) ((last7_iff ⟨0, hn⟩).mp h))
  | n + 1, hn =>
    if h0 : (n + 1) % 8 = 0 then
      accFirst7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) sc7 hsc7 (iblk7 V c 0 ⟨n + 1, hn⟩) (iblk7 V c 1 ⟨n + 1, hn⟩)
        ((first7_iff ⟨n + 1, hn⟩).mpr h0) (fun h => not_last_of_first7 h0 ((last7_iff ⟨n + 1, hn⟩).mp h))
    else if h1 : (n + 1) % 8 = 7 then
      accLast7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) sc7 hsc7 (iblk7 V c 0 ⟨n + 1, hn⟩) (iblk7 V c 1 ⟨n + 1, hn⟩) (accAt7 c n (Nat.lt_of_succ_lt hn))
        (fun h => h0 ((first7_iff ⟨n + 1, hn⟩).mp h)) ((last7_iff ⟨n + 1, hn⟩).mpr h1)
    else
      accMid7 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) sc7 hsc7 (iblk7 V c 0 ⟨n + 1, hn⟩) (iblk7 V c 1 ⟨n + 1, hn⟩) (accAt7 c n (Nat.lt_of_succ_lt hn))
        (fun h => h0 ((first7_iff ⟨n + 1, hn⟩).mp h)) (fun h => h1 ((last7_iff ⟨n + 1, hn⟩).mp h))

theorem accAt7_first (c : Dev nD) (t : Fin cfg7.N) (h0 : t.val % 8 = 0) :
    accAt7 V c t.val t.isLt = accFirst7 c (grid7.coords t) (ms7_0 t) (hs7_0 t) (ms7_1 t) (hs7_1 t) (ms7_2 t) (hs7_2 t) sc7 hsc7 (iblk7 V c 0 t) (iblk7 V c 1 t)
      ((first7_iff t).mpr h0) (fun h => not_last_of_first7 h0 ((last7_iff t).mp h)) := by
  obtain ⟨n, hn⟩ := t
  cases n with
  | zero => exact rfl
  | succ n => exact (dif_pos h0).trans rfl

theorem accAt7_last (c : Dev nD) (t : Fin cfg7.N) (h0 : ¬ t.val % 8 = 0) (h1 : t.val % 8 = 7) :
    accAt7 V c t.val t.isLt = accLast7 c (grid7.coords t) (ms7_0 t) (hs7_0 t) (ms7_1 t) (hs7_1 t) (ms7_2 t) (hs7_2 t) sc7 hsc7 (iblk7 V c 0 t) (iblk7 V c 1 t) (accAt7 V c (t.val - 1) (Nat.lt_of_le_of_lt (Nat.sub_le _ _) t.isLt))
      (fun h => h0 ((first7_iff t).mp h)) ((last7_iff t).mpr h1) := by
  obtain ⟨n, hn⟩ := t
  cases n with
  | zero => exact absurd (Nat.zero_mod _) h0
  | succ n => exact (dif_neg h0).trans ((dif_pos h1).trans rfl)

theorem accAt7_mid (c : Dev nD) (t : Fin cfg7.N) (h0 : ¬ t.val % 8 = 0) (h1 : ¬ t.val % 8 = 7) :
    accAt7 V c t.val t.isLt = accMid7 c (grid7.coords t) (ms7_0 t) (hs7_0 t) (ms7_1 t) (hs7_1 t) (ms7_2 t) (hs7_2 t) sc7 hsc7 (iblk7 V c 0 t) (iblk7 V c 1 t) (accAt7 V c (t.val - 1) (Nat.lt_of_le_of_lt (Nat.sub_le _ _) t.isLt))
      (fun h => h0 ((first7_iff t).mp h)) (fun h => h1 ((last7_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt7 (c : Dev nD) (t : Fin cfg7.N) : Vec F S2048x64 .f32 :=
  if h : ¬ t.val % 8 = 0 ∧ t.val % 8 = 7 then
    outLast7 c (grid7.coords t) (ms7_0 t) (hs7_0 t) (ms7_1 t) (hs7_1 t) (ms7_2 t) (hs7_2 t) sc7 hsc7 (iblk7 V c 0 t) (iblk7 V c 1 t) (accAt7 V c (t.val - 1) (Nat.lt_of_le_of_lt (Nat.sub_le _ _) t.isLt))
      (fun h' => h.1 ((first7_iff t).mp h')) ((last7_iff t).mpr h.2)
  else accAt7 V c t.val t.isLt

/-! ## The pipeline's proof data -/

/-- The invariant before point `j` (after point `j - 1`): the accumulator at what the point before left — at
    anything before the first point —, and the scoped buffers of the other kernels untouched. -/
def Φ7 (c : Dev nD) (j : Fin (cfg7.N + 1)) : sProp 𝕄 :=
  iprop((∃ s : Vec F S2048x64 .f32, ⌜∀ (n : ℕ) (hn : n < cfg7.N), j.val = n + 1 → s = accAt7 V c n hn⌝ ∗ owns (c : Thread nD τ) sc7 fullShare s)
    ∗ Pipeline.scopedRestBut (Ix := Unit) (Name := ℕ) (U := UR sig nD τ) (Lvl := ℕ) (Val := Elt F) spec7 c [cc7_scratch0])

/-- The proof data on core `c`: the arrays as the region finds them; after the body at point `t` each input's
    buffer at its block and the output tile's at what a last point writes; the invariant above; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outAt7 V c t
  Φ j := Φ7 V c j
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outAt7 V c t := by dsimp only [dat7]

/-- Each input's current staging buffer holds its block at every point: both are fetched at every point. -/
theorem before7_0 (c : Dev nD) (t : Fin cfg7.N) (d) : (dat7 V c).before 0 t d = iblk7 V c 0 t := by
  unfold Dat.before; rw [if_pos (fetch7_0 t)]; unfold Dat.fetched Dat.blockOf iblk7; rw [A_eq7]; try rfl
theorem before7_1 (c : Dev nD) (t : Fin cfg7.N) (d) : (dat7 V c).before 1 t d = iblk7 V c 1 t := by
  unfold Dat.before; rw [if_pos (fetch7_1 t)]; unfold Dat.fetched Dat.blockOf iblk7; rw [A_eq7]; try rfl

end Cert.Kernel.Hand

end
-- ==== Proof.KB.R8Body.lean ====
/-
  Region 8 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first8 (i : grid8.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last8 (i : grid8.Coords) : Prop := k8_cond2 i = 1#1

/-- Points are numbered row by row, eight to a row: the first condition holds at the multiples of 8, -/
theorem first8_iff : ∀ t : Fin cfg8.N, first8 (grid8.coords t) ↔ t.val % 8 = 0 :=
  (by decide +kernel : ∀ t : Fin grid8.N, first8 (grid8.coords t) ↔ t.val % 8 = 0)
/-- and the second at the points one short of a multiple of 8. -/
theorem last8_iff : ∀ t : Fin cfg8.N, last8 (grid8.coords t) ↔ t.val % 8 = 7 :=
  (by decide +kernel : ∀ t : Fin grid8.N, last8 (grid8.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst8 (c : Dev nD) (i : grid8.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first8 i) (hc1 : ¬ last8 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc8__matvec_kernel i arg2 harg2 arg3 harg3 arg4 harg4 arg5 harg5) K } := by
  refine ⟨?_, fun y E K => ?run⟩
  case run =>
    simp only [cc8__matvec_kernel_eq_skeleton]; unfold cc8__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid8 (c : Dev nD) (i : grid8.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first8 i) (hc1 : ¬ last8 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc8__matvec_kernel i arg2 harg2 arg3 harg3 arg4 harg4 arg5 harg5) K } := by
  refine ⟨?_, fun y E K => ?run⟩
  case run =>
    simp only [cc8__matvec_kernel_eq_skeleton]; unfold cc8__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast8 (c : Dev nD) (i : grid8.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first8 i) (hc1 : last8 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc8__matvec_kernel i arg2 harg2 arg3 harg3 arg4 harg4 arg5 harg5) K } := by
  refine ⟨⟨?_, ?_⟩, fun E K => ?run⟩
  case run =>
    simp only [cc8__matvec_kernel_eq_skeleton]; unfold cc8__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R8Dat.lean ====
/-
  Region 8: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R8Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms8_0 (t : Fin cfg8.N) : Memref sig .tc .vmem S2048x1024 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x64 .f32 := win8_2.stage (cfg8.slots t 2)
abbrev hs8_2 (t : Fin cfg8.N) : (ms8_2 t).IsWhole := hstage8_2 ((cfg8.slots t 2).cast nbuf8_2)
/-- The accumulator's scratch buffer, whole. -/
abbrev sc8 : Memref sig .tc .vmem S2048x64 .f32 := Memref.whole cc8_scratch0
abbrev hsc8 : (sc8).IsWhole := Memref.isWhole_whole _
/-- The view through which a 2048 × 64 buffer's contents are stated (any whole buffer of the shape serves). -/
abbrev VS8 : View sig .tc .vmem S2048x64 .f32 := (sc8).view

/-! ## What each case leaves: the pieces cover the buffer, so the contents are the pieces read back -/

section Cases

variable (c : Dev nD) (i : grid8.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst8 (hc0 : first8 i) (hc1 : ¬ last8 i) (y : S2048x64.Idx) :
    ∃ pc ∈ (runFirst8 c i arg2 harg2 arg3 harg3 arg4 harg4 arg5 harg5 hc0 hc1 x0 x1).1, y ∈ pc.1.set :=
  View.cover_of_tiledL (runFirst8 c i arg2 harg2 arg3 harg3 arg4 harg4 arg5 harg5 hc0 hc1 x0 x1).1 S2048x64.size (by sl_kernel_rfl) y
/-- The accumulator after a first point. -/
def accFirst8 (hc0 : first8 i) (hc1 : ¬ last8 i) : Vec F S2048x64 .f32 :=
  VS8.read (Elt F) (VS8.writes (Elt F) VS8.junk (runFirst8 c i arg2 harg2 arg3 harg3 arg4 harg4 arg5 harg5 hc0 hc1 x0 x1).1)

theorem coverMid8 (hc0 : ¬ first8 i) (hc1 : ¬ last8 i) (y : S2048x64.Idx) :
    ∃ pc ∈ (runMid8 c i arg2 harg2 arg3 harg3 arg4 harg4 arg5 harg5 hc0 hc1 x0 x1 s).1, y ∈ pc.1.set :=
  View.cover_of_tiledL (runMid8 c i arg2 harg2 arg3 harg3 arg4 harg4 arg5 harg5 hc0 hc1 x0 x1 s).1 S2048x64.size (by sl_kernel_rfl) y
/-- The accumulator after a middle point that found it at `s`. -/
def accMid8 (hc0 : ¬ first8 i) (hc1 : ¬ last8 i) : Vec F S2048x64 .f32 :=
  VS8.read (Elt F) (VS8.writes (Elt F) VS8.junk (runMid8 c i arg2 harg2 arg3 harg3 arg4 harg4 arg5 harg5 hc0 hc1 x0 x1 s).1)

theorem coverLastOut8 (hc0 : ¬ first8 i) (hc1 : last8 i) (y : S2048x64.Idx) :
    ∃ pc ∈ (runLast8 c i arg2 harg2 arg3 harg3 arg4 harg4 arg5 harg5 hc0 hc1 x0 x1 s).1.1, y ∈ pc.1.set :=
  View.cover_of_tiledL (runLast8 c i arg2 harg2 arg3 harg3 arg4 harg4 arg5 harg5 hc0 hc1 x0 x1 s).1.1 S2048x64.size (by sl_kernel_rfl) y
theorem coverLastAcc8 (hc0 : ¬ first8 i) (hc1 : last8 i) (y : S2048x64.Idx) :
    ∃ pc ∈ (runLast8 c i arg2 harg2 arg3 harg3 arg4 harg4 arg5 harg5 hc0 hc1 x0 x1 s).1.2, y ∈ pc.1.set :=
  View.cover_of_tiledL (runLast8 c i arg2 harg2 arg3 harg3 arg4 harg4 arg5 harg5 hc0 hc1 x0 x1 s).1.2 S2048x64.size (by sl_kernel_rfl) y
/-- The output tile after a last point that found the accumulator at `s`, -/
def outLast8 (hc0 : ¬ first8 i) (hc1 : last8 i) : Vec F S2048x64 .f32 :=
  VS8.read (Elt F) (VS8.writes (Elt F) VS8.junk (runLast8 c i arg2 harg2 arg3 harg3 arg4 harg4 arg5 harg5 hc0 hc1 x0 x1 s).1.1)
/-- and the accumulator. -/
def accLast8 (hc0 : ¬ first8 i) (hc1 : last8 i) : Vec F S2048x64 .f32 :=
  VS8.read (Elt F) (VS8.writes (Elt F) VS8.junk (runLast8 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem not_last_of_first8 {n : ℕ} (h0 : n % 8 = 0) : ¬ n % 8 = 7 := by omega

/-- THE ACCUMULATION: the accumulator after the body at position `n`, by the case the point is in — a first point
    of a row starts afresh, the others continue from what the point before left. -/
def accAt8 (c : Dev nD) : (n : ℕ) → n < cfg8.N → Vec F S2048x64 .f32
  | 0, hn => accFirst8 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) sc8 hsc8 (iblk8 V c 0 ⟨0, hn⟩) (iblk8 V c 1 ⟨0, hn⟩)
      ((first8_iff ⟨0, hn⟩).mpr (Nat.zero_mod _)) (fun h => not_last_of_first8 (Nat.zero_mod 8) ((last8_iff ⟨0, hn⟩).mp h))
  | n + 1, hn =>
    if h0 : (n + 1) % 8 = 0 then
      accFirst8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) sc8 hsc8 (iblk8 V c 0 ⟨n + 1, hn⟩) (iblk8 V c 1 ⟨n + 1, hn⟩)
        ((first8_iff ⟨n + 1, hn⟩).mpr h0) (fun h => not_last_of_first8 h0 ((last8_iff ⟨n + 1, hn⟩).mp h))
    else if h1 : (n + 1) % 8 = 7 then
      accLast8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) sc8 hsc8 (iblk8 V c 0 ⟨n + 1, hn⟩) (iblk8 V c 1 ⟨n + 1, hn⟩) (accAt8 c n (Nat.lt_of_succ_lt hn))
        (fun h => h0 ((first8_iff ⟨n + 1, hn⟩).mp h)) ((last8_iff ⟨n + 1, hn⟩).mpr h1)
    else
      accMid8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) sc8 hsc8 (iblk8 V c 0 ⟨n + 1, hn⟩) (iblk8 V c 1 ⟨n + 1, hn⟩) (accAt8 c n (Nat.lt_of_succ_lt hn))
        (fun h => h0 ((first8_iff ⟨n + 1, hn⟩).mp h)) (fun h => h1 ((last8_iff ⟨n + 1, hn⟩).mp h))

theorem accAt8_first (c : Dev nD) (t : Fin cfg8.N) (h0 : t.val % 8 = 0) :
    accAt8 V c t.val t.isLt = accFirst8 c (grid8.coords t) (ms8_0 t) (hs8_0 t) (ms8_1 t) (hs8_1 t) (ms8_2 t) (hs8_2 t) sc8 hsc8 (iblk8 V c 0 t) (iblk8 V c 1 t)
      ((first8_iff t).mpr h0) (fun h => not_last_of_first8 h0 ((last8_iff t).mp h)) := by
  obtain ⟨n, hn⟩ := t
  cases n with
  | zero => exact rfl
  | succ n => exact (dif_pos h0).trans rfl

theorem accAt8_last (c : Dev nD) (t : Fin cfg8.N) (h0 : ¬ t.val % 8 = 0) (h1 : t.val % 8 = 7) :
    accAt8 V c t.val t.isLt = accLast8 c (grid8.coords t) (ms8_0 t) (hs8_0 t) (ms8_1 t) (hs8_1 t) (ms8_2 t) (hs8_2 t) sc8 hsc8 (iblk8 V c 0 t) (iblk8 V c 1 t) (accAt8 V c (t.val - 1) (Nat.lt_of_le_of_lt (Nat.sub_le _ _) t.isLt))
      (fun h => h0 ((first8_iff t).mp h)) ((last8_iff t).mpr h1) := by
  obtain ⟨n, hn⟩ := t
  cases n with
  | zero => exact absurd (Nat.zero_mod _) h0
  | succ n => exact (dif_neg h0).trans ((dif_pos h1).trans rfl)

theorem accAt8_mid (c : Dev nD) (t : Fin cfg8.N) (h0 : ¬ t.val % 8 = 0) (h1 : ¬ t.val % 8 = 7) :
    accAt8 V c t.val t.isLt = accMid8 c (grid8.coords t) (ms8_0 t) (hs8_0 t) (ms8_1 t) (hs8_1 t) (ms8_2 t) (hs8_2 t) sc8 hsc8 (iblk8 V c 0 t) (iblk8 V c 1 t) (accAt8 V c (t.val - 1) (Nat.lt_of_le_of_lt (Nat.sub_le _ _) t.isLt))
      (fun h => h0 ((first8_iff t).mp h)) (fun h => h1 ((last8_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt8 (c : Dev nD) (t : Fin cfg8.N) : Vec F S2048x64 .f32 :=
  if h : ¬ t.val % 8 = 0 ∧ t.val % 8 = 7 then
    outLast8 c (grid8.coords t) (ms8_0 t) (hs8_0 t) (ms8_1 t) (hs8_1 t) (ms8_2 t) (hs8_2 t) sc8 hsc8 (iblk8 V c 0 t) (iblk8 V c 1 t) (accAt8 V c (t.val - 1) (Nat.lt_of_le_of_lt (Nat.sub_le _ _) t.isLt))
      (fun h' => h.1 ((first8_iff t).mp h')) ((last8_iff t).mpr h.2)
  else accAt8 V c t.val t.isLt

/-! ## The pipeline's proof data -/

/-- The invariant before point `j` (after point `j - 1`): the accumulator at what the point before left — at
    anything before the first point —, and the scoped buffers of the other kernels untouched. -/
def Φ8 (c : Dev nD) (j : Fin (cfg8.N + 1)) : sProp 𝕄 :=
  iprop((∃ s : Vec F S2048x64 .f32, ⌜∀ (n : ℕ) (hn : n < cfg8.N), j.val = n + 1 → s = accAt8 V c n hn⌝ ∗ owns (c : Thread nD τ) sc8 fullShare s)
    ∗ Pipeline.scopedRestBut (Ix := Unit) (Name := ℕ) (U := UR sig nD τ) (Lvl := ℕ) (Val := Elt F) spec8 c [cc8_scratch0])

/-- The proof data on core `c`: the arrays as the region finds them; after the body at point `t` each input's
    buffer at its block and the output tile's at what a last point writes; the invariant above; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => outAt8 V c t
  Φ j := Φ8 V c j
  q _ := fullShare
  owed _ := 0

theorem A_eq8 (c : Dev nD) (w : Fin cfg8.W) : (dat8 V c).A w = V c (Pipeline.arrRef spec8 w) := by dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = outAt8 V c t := by dsimp only [dat8]

/-- Each input's current staging buffer holds its block at every point: both are fetched at every point. -/
theorem before8_0 (c : Dev nD) (t : Fin cfg8.N) (d) : (dat8 V c).before 0 t d = iblk8 V c 0 t := by
  unfold Dat.before; rw [if_pos (fetch8_0 t)]; unfold Dat.fetched Dat.blockOf iblk8; rw [A_eq8]; try rfl
theorem before8_1 (c : Dev nD) (t : Fin cfg8.N) (d) : (dat8 V c).before 1 t d = iblk8 V c 1 t := by
  unfold Dat.before; rw [if_pos (fetch8_1 t)]; unfold Dat.fetched Dat.blockOf iblk8; rw [A_eq8]; try rfl

end Cert.Kernel.Hand

end
-- ==== Proof.KB.R9Body.lean ====
/-
  Region 9 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first9 (i : grid9.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last9 (i : grid9.Coords) : Prop := k9_cond2 i = 1#1

/-- Points are numbered row by row, eight to a row: the first condition holds at the multiples of 8, -/
theorem first9_iff : ∀ t : Fin cfg9.N, first9 (grid9.coords t) ↔ t.val % 8 = 0 :=
  (by decide +kernel : ∀ t : Fin grid9.N, first9 (grid9.coords t) ↔ t.val % 8 = 0)
/-- and the second at the points one short of a multiple of 8. -/
theorem last9_iff : ∀ t : Fin cfg9.N, last9 (grid9.coords t) ↔ t.val % 8 = 7 :=
  (by decide +kernel : ∀ t : Fin grid9.N, last9 (grid9.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst9 (c : Dev nD) (i : grid9.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first9 i) (hc1 : ¬ last9 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc9__matvec_kernel i arg2 harg2 arg3 harg3 arg4 harg4 arg5 harg5) K } := by
  refine ⟨?_, fun y E K => ?run⟩
  case run =>
    simp only [cc9__matvec_kernel_eq_skeleton]; unfold cc9__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid9 (c : Dev nD) (i : grid9.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first9 i) (hc1 : ¬ last9 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc9__matvec_kernel i arg2 harg2 arg3 harg3 arg4 harg4 arg5 harg5) K } := by
  refine ⟨?_, fun y E K => ?run⟩
  case run =>
    simp only [cc9__matvec_kernel_eq_skeleton]; unfold cc9__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast9 (c : Dev nD) (i : grid9.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first9 i) (hc1 : last9 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc9__matvec_kernel i arg2 harg2 arg3 harg3 arg4 harg4 arg5 harg5) K } := by
  refine ⟨⟨?_, ?_⟩, fun E K => ?run⟩
  case run =>
    simp only [cc9__matvec_kernel_eq_skeleton]; unfold cc9__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R9Dat.lean ====
/-
  Region 9: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R9Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms9_0 (t : Fin cfg9.N) : Memref sig .tc .vmem S2048x1024 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2048x64 .f32 := win9_2.stage (cfg9.slots t 2)
abbrev hs9_2 (t : Fin cfg9.N) : (ms9_2 t).IsWhole := hstage9_2 ((cfg9.slots t 2).cast nbuf9_2)
/-- The accumulator's scratch buffer, whole. -/
abbrev sc9 : Memref sig .tc .vmem S2048x64 .f32 := Memref.whole cc9_scratch0
abbrev hsc9 : (sc9).IsWhole := Memref.isWhole_whole _
/-- The view through which a 2048 × 64 buffer's contents are stated (any whole buffer of the shape serves). -/
abbrev VS9 : View sig .tc .vmem S2048x64 .f32 := (sc9).view

/-! ## What each case leaves: the pieces cover the buffer, so the contents are the pieces read back -/

section Cases

variable (c : Dev nD) (i : grid9.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst9 (hc0 : first9 i) (hc1 : ¬ last9 i) (y : S2048x64.Idx) :
    ∃ pc ∈ (runFirst9 c i arg2 harg2 arg3 harg3 arg4 harg4 arg5 harg5 hc0 hc1 x0 x1).1, y ∈ pc.1.set :=
  View.cover_of_tiledL (runFirst9 c i arg2 harg2 arg3 harg3 arg4 harg4 arg5 harg5 hc0 hc1 x0 x1).1 S2048x64.size (by sl_kernel_rfl) y
/-- The accumulator after a first point. -/
def accFirst9 (hc0 : first9 i) (hc1 : ¬ last9 i) : Vec F S2048x64 .f32 :=
  VS9.read (Elt F) (VS9.writes (Elt F) VS9.junk (runFirst9 c i arg2 harg2 arg3 harg3 arg4 harg4 arg5 harg5 hc0 hc1 x0 x1).1)

theorem coverMid9 (hc0 : ¬ first9 i) (hc1 : ¬ last9 i) (y : S2048x64.Idx) :
    ∃ pc ∈ (runMid9 c i arg2 harg2 arg3 harg3 arg4 harg4 arg5 harg5 hc0 hc1 x0 x1 s).1, y ∈ pc.1.set :=
  View.cover_of_tiledL (runMid9 c i arg2 harg2 arg3 harg3 arg4 harg4 arg5 harg5 hc0 hc1 x0 x1 s).1 S2048x64.size (by sl_kernel_rfl) y
/-- The accumulator after a middle point that found it at `s`. -/
def accMid9 (hc0 : ¬ first9 i) (hc1 : ¬ last9 i) : Vec F S2048x64 .f32 :=
  VS9.read (Elt F) (VS9.writes (Elt F) VS9.junk (runMid9 c i arg2 harg2 arg3 harg3 arg4 harg4 arg5 harg5 hc0 hc1 x0 x1 s).1)

theorem coverLastOut9 (hc0 : ¬ first9 i) (hc1 : last9 i) (y : S2048x64.Idx) :
    ∃ pc ∈ (runLast9 c i arg2 harg2 arg3 harg3 arg4 harg4 arg5 harg5 hc0 hc1 x0 x1 s).1.1, y ∈ pc.1.set :=
  View.cover_of_tiledL (runLast9 c i arg2 harg2 arg3 harg3 arg4 harg4 arg5 harg5 hc0 hc1 x0 x1 s).1.1 S2048x64.size (by sl_kernel_rfl) y
theorem coverLastAcc9 (hc0 : ¬ first9 i) (hc1 : last9 i) (y : S2048x64.Idx) :
    ∃ pc ∈ (runLast9 c i arg2 harg2 arg3 harg3 arg4 harg4 arg5 harg5 hc0 hc1 x0 x1 s).1.2, y ∈ pc.1.set :=
  View.cover_of_tiledL (runLast9 c i arg2 harg2 arg3 harg3 arg4 harg4 arg5 harg5 hc0 hc1 x0 x1 s).1.2 S2048x64.size (by sl_kernel_rfl) y
/-- The output tile after a last point that found the accumulator at `s`, -/
def outLast9 (hc0 : ¬ first9 i) (hc1 : last9 i) : Vec F S2048x64 .f32 :=
  VS9.read (Elt F) (VS9.writes (Elt F) VS9.junk (runLast9 c i arg2 harg2 arg3 harg3 arg4 harg4 arg5 harg5 hc0 hc1 x0 x1 s).1.1)
/-- and the accumulator. -/
def accLast9 (hc0 : ¬ first9 i) (hc1 : last9 i) : Vec F S2048x64 .f32 :=
  VS9.read (Elt F) (VS9.writes (Elt F) VS9.junk (runLast9 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem not_last_of_first9 {n : ℕ} (h0 : n % 8 = 0) : ¬ n % 8 = 7 := by omega

/-- THE ACCUMULATION: the accumulator after the body at position `n`, by the case the point is in — a first point
    of a row starts afresh, the others continue from what the point before left. -/
def accAt9 (c : Dev nD) : (n : ℕ) → n < cfg9.N → Vec F S2048x64 .f32
  | 0, hn => accFirst9 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) sc9 hsc9 (iblk9 V c 0 ⟨0, hn⟩) (iblk9 V c 1 ⟨0, hn⟩)
      ((first9_iff ⟨0, hn⟩).mpr (Nat.zero_mod _)) (fun h => not_last_of_first9 (Nat.zero_mod 8) ((last9_iff ⟨0, hn⟩).mp h))
  | n + 1, hn =>
    if h0 : (n + 1) % 8 = 0 then
      accFirst9 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) sc9 hsc9 (iblk9 V c 0 ⟨n + 1, hn⟩) (iblk9 V c 1 ⟨n + 1, hn⟩)
        ((first9_iff ⟨n + 1, hn⟩).mpr h0) (fun h => not_last_of_first9 h0 ((last9_iff ⟨n + 1, hn⟩).mp h))
    else if h1 : (n + 1) % 8 = 7 then
      accLast9 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) sc9 hsc9 (iblk9 V c 0 ⟨n + 1, hn⟩) (iblk9 V c 1 ⟨n + 1, hn⟩) (accAt9 c n (Nat.lt_of_succ_lt hn))
        (fun h => h0 ((first9_iff ⟨n + 1, hn⟩).mp h)) ((last9_iff ⟨n + 1, hn⟩).mpr h1)
    else
      accMid9 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) sc9 hsc9 (iblk9 V c 0 ⟨n + 1, hn⟩) (iblk9 V c 1 ⟨n + 1, hn⟩) (accAt9 c n (Nat.lt_of_succ_lt hn))
        (fun h => h0 ((first9_iff ⟨n + 1, hn⟩).mp h)) (fun h => h1 ((last9_iff ⟨n + 1, hn⟩).mp h))

theorem accAt9_first (c : Dev nD) (t : Fin cfg9.N) (h0 : t.val % 8 = 0) :
    accAt9 V c t.val t.isLt = accFirst9 c (grid9.coords t) (ms9_0 t) (hs9_0 t) (ms9_1 t) (hs9_1 t) (ms9_2 t) (hs9_2 t) sc9 hsc9 (iblk9 V c 0 t) (iblk9 V c 1 t)
      ((first9_iff t).mpr h0) (fun h => not_last_of_first9 h0 ((last9_iff t).mp h)) := by
  obtain ⟨n, hn⟩ := t
  cases n with
  | zero => exact rfl
  | succ n => exact (dif_pos h0).trans rfl

theorem accAt9_last (c : Dev nD) (t : Fin cfg9.N) (h0 : ¬ t.val % 8 = 0) (h1 : t.val % 8 = 7) :
    accAt9 V c t.val t.isLt = accLast9 c (grid9.coords t) (ms9_0 t) (hs9_0 t) (ms9_1 t) (hs9_1 t) (ms9_2 t) (hs9_2 t) sc9 hsc9 (iblk9 V c 0 t) (iblk9 V c 1 t) (accAt9 V c (t.val - 1) (Nat.lt_of_le_of_lt (Nat.sub_le _ _) t.isLt))
      (fun h => h0 ((first9_iff t).mp h)) ((last9_iff t).mpr h1) := by
  obtain ⟨n, hn⟩ := t
  cases n with
  | zero => exact absurd (Nat.zero_mod _) h0
  | succ n => exact (dif_neg h0).trans ((dif_pos h1).trans rfl)

theorem accAt9_mid (c : Dev nD) (t : Fin cfg9.N) (h0 : ¬ t.val % 8 = 0) (h1 : ¬ t.val % 8 = 7) :
    accAt9 V c t.val t.isLt = accMid9 c (grid9.coords t) (ms9_0 t) (hs9_0 t) (ms9_1 t) (hs9_1 t) (ms9_2 t) (hs9_2 t) sc9 hsc9 (iblk9 V c 0 t) (iblk9 V c 1 t) (accAt9 V c (t.val - 1) (Nat.lt_of_le_of_lt (Nat.sub_le _ _) t.isLt))
      (fun h => h0 ((first9_iff t).mp h)) (fun h => h1 ((last9_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt9 (c : Dev nD) (t : Fin cfg9.N) : Vec F S2048x64 .f32 :=
  if h : ¬ t.val % 8 = 0 ∧ t.val % 8 = 7 then
    outLast9 c (grid9.coords t) (ms9_0 t) (hs9_0 t) (ms9_1 t) (hs9_1 t) (ms9_2 t) (hs9_2 t) sc9 hsc9 (iblk9 V c 0 t) (iblk9 V c 1 t) (accAt9 V c (t.val - 1) (Nat.lt_of_le_of_lt (Nat.sub_le _ _) t.isLt))
      (fun h' => h.1 ((first9_iff t).mp h')) ((last9_iff t).mpr h.2)
  else accAt9 V c t.val t.isLt

/-! ## The pipeline's proof data -/

/-- The invariant before point `j` (after point `j - 1`): the accumulator at what the point before left — at
    anything before the first point —, and the scoped buffers of the other kernels untouched. -/
def Φ9 (c : Dev nD) (j : Fin (cfg9.N + 1)) : sProp 𝕄 :=
  iprop((∃ s : Vec F S2048x64 .f32, ⌜∀ (n : ℕ) (hn : n < cfg9.N), j.val = n + 1 → s = accAt9 V c n hn⌝ ∗ owns (c : Thread nD τ) sc9 fullShare s)
    ∗ Pipeline.scopedRestBut (Ix := Unit) (Name := ℕ) (U := UR sig nD τ) (Lvl := ℕ) (Val := Elt F) spec9 c [cc9_scratch0])

/-- The proof data on core `c`: the arrays as the region finds them; after the body at point `t` each input's
    buffer at its block and the output tile's at what a last point writes; the invariant above; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => outAt9 V c t
  Φ j := Φ9 V c j
  q _ := fullShare
  owed _ := 0

theorem A_eq9 (c : Dev nD) (w : Fin cfg9.W) : (dat9 V c).A w = V c (Pipeline.arrRef spec9 w) := by dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = outAt9 V c t := by dsimp only [dat9]

/-- Each input's current staging buffer holds its block at every point: both are fetched at every point. -/
theorem before9_0 (c : Dev nD) (t : Fin cfg9.N) (d) : (dat9 V c).before 0 t d = iblk9 V c 0 t := by
  unfold Dat.before; rw [if_pos (fetch9_0 t)]; unfold Dat.fetched Dat.blockOf iblk9; rw [A_eq9]; try rfl
theorem before9_1 (c : Dev nD) (t : Fin cfg9.N) (d) : (dat9 V c).before 1 t d = iblk9 V c 1 t := by
  unfold Dat.before; rw [if_pos (fetch9_1 t)]; unfold Dat.fetched Dat.blockOf iblk9; rw [A_eq9]; try rfl

end Cert.Kernel.Hand

end
-- ==== Proof.KB.R10Body.lean ====
/-
  Region 10 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first10 (i : grid10.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last10 (i : grid10.Coords) : Prop := k10_cond2 i = 1#1

/-- Points are numbered row by row, eight to a row: the first condition holds at the multiples of 8, -/
theorem first10_iff : ∀ t : Fin cfg10.N, first10 (grid10.coords t) ↔ t.val % 8 = 0 :=
  (by decide +kernel : ∀ t : Fin grid10.N, first10 (grid10.coords t) ↔ t.val % 8 = 0)
/-- and the second at the points one short of a multiple of 8. -/
theorem last10_iff : ∀ t : Fin cfg10.N, last10 (grid10.coords t) ↔ t.val % 8 = 7 :=
  (by decide +kernel : ∀ t : Fin grid10.N, last10 (grid10.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst10 (c : Dev nD) (i : grid10.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first10 i) (hc1 : ¬ last10 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc10__matvec_kernel i arg2 harg2 arg3 harg3 arg4 harg4 arg5 harg5) K } := by
  refine ⟨?_, fun y E K => ?run⟩
  case run =>
    simp only [cc10__matvec_kernel_eq_skeleton]; unfold cc10__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid10 (c : Dev nD) (i : grid10.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first10 i) (hc1 : ¬ last10 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc10__matvec_kernel i arg2 harg2 arg3 harg3 arg4 harg4 arg5 harg5) K } := by
  refine ⟨?_, fun y E K => ?run⟩
  case run =>
    simp only [cc10__matvec_kernel_eq_skeleton]; unfold cc10__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast10 (c : Dev nD) (i : grid10.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first10 i) (hc1 : last10 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc10__matvec_kernel i arg2 harg2 arg3 harg3 arg4 harg4 arg5 harg5) K } := by
  refine ⟨⟨?_, ?_⟩, fun E K => ?run⟩
  case run =>
    simp only [cc10__matvec_kernel_eq_skeleton]; unfold cc10__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R10Dat.lean ====
/-
  Region 10: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R10Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms10_0 (t : Fin cfg10.N) : Memref sig .tc .vmem S2048x1024 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2048x64 .f32 := win10_2.stage (cfg10.slots t 2)
abbrev hs10_2 (t : Fin cfg10.N) : (ms10_2 t).IsWhole := hstage10_2 ((cfg10.slots t 2).cast nbuf10_2)
/-- The accumulator's scratch buffer, whole. -/
abbrev sc10 : Memref sig .tc .vmem S2048x64 .f32 := Memref.whole cc10_scratch0
abbrev hsc10 : (sc10).IsWhole := Memref.isWhole_whole _
/-- The view through which a 2048 × 64 buffer's contents are stated (any whole buffer of the shape serves). -/
abbrev VS10 : View sig .tc .vmem S2048x64 .f32 := (sc10).view

/-! ## What each case leaves: the pieces cover the buffer, so the contents are the pieces read back -/

section Cases

variable (c : Dev nD) (i : grid10.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst10 (hc0 : first10 i) (hc1 : ¬ last10 i) (y : S2048x64.Idx) :
    ∃ pc ∈ (runFirst10 c i arg2 harg2 arg3 harg3 arg4 harg4 arg5 harg5 hc0 hc1 x0 x1).1, y ∈ pc.1.set :=
  View.cover_of_tiledL (runFirst10 c i arg2 harg2 arg3 harg3 arg4 harg4 arg5 harg5 hc0 hc1 x0 x1).1 S2048x64.size (by sl_kernel_rfl) y
/-- The accumulator after a first point. -/
def accFirst10 (hc0 : first10 i) (hc1 : ¬ last10 i) : Vec F S2048x64 .f32 :=
  VS10.read (Elt F) (VS10.writes (Elt F) VS10.junk (runFirst10 c i arg2 harg2 arg3 harg3 arg4 harg4 arg5 harg5 hc0 hc1 x0 x1).1)

theorem coverMid10 (hc0 : ¬ first10 i) (hc1 : ¬ last10 i) (y : S2048x64.Idx) :
    ∃ pc ∈ (runMid10 c i arg2 harg2 arg3 harg3 arg4 harg4 arg5 harg5 hc0 hc1 x0 x1 s).1, y ∈ pc.1.set :=
  View.cover_of_tiledL (runMid10 c i arg2 harg2 arg3 harg3 arg4 harg4 arg5 harg5 hc0 hc1 x0 x1 s).1 S2048x64.size (by sl_kernel_rfl) y
/-- The accumulator after a middle point that found it at `s`. -/
def accMid10 (hc0 : ¬ first10 i) (hc1 : ¬ last10 i) : Vec F S2048x64 .f32 :=
  VS10.read (Elt F) (VS10.writes (Elt F) VS10.junk (runMid10 c i arg2 harg2 arg3 harg3 arg4 harg4 arg5 harg5 hc0 hc1 x0 x1 s).1)

theorem coverLastOut10 (hc0 : ¬ first10 i) (hc1 : last10 i) (y : S2048x64.Idx) :
    ∃ pc ∈ (runLast10 c i arg2 harg2 arg3 harg3 arg4 harg4 arg5 harg5 hc0 hc1 x0 x1 s).1.1, y ∈ pc.1.set :=
  View.cover_of_tiledL (runLast10 c i arg2 harg2 arg3 harg3 arg4 harg4 arg5 harg5 hc0 hc1 x0 x1 s).1.1 S2048x64.size (by sl_kernel_rfl) y
theorem coverLastAcc10 (hc0 : ¬ first10 i) (hc1 : last10 i) (y : S2048x64.Idx) :
    ∃ pc ∈ (runLast10 c i arg2 harg2 arg3 harg3 arg4 harg4 arg5 harg5 hc0 hc1 x0 x1 s).1.2, y ∈ pc.1.set :=
  View.cover_of_tiledL (runLast10 c i arg2 harg2 arg3 harg3 arg4 harg4 arg5 harg5 hc0 hc1 x0 x1 s).1.2 S2048x64.size (by sl_kernel_rfl) y
/-- The output tile after a last point that found the accumulator at `s`, -/
def outLast10 (hc0 : ¬ first10 i) (hc1 : last10 i) : Vec F S2048x64 .f32 :=
  VS10.read (Elt F) (VS10.writes (Elt F) VS10.junk (runLast10 c i arg2 harg2 arg3 harg3 arg4 harg4 arg5 harg5 hc0 hc1 x0 x1 s).1.1)
/-- and the accumulator. -/
def accLast10 (hc0 : ¬ first10 i) (hc1 : last10 i) : Vec F S2048x64 .f32 :=
  VS10.read (Elt F) (VS10.writes (Elt F) VS10.junk (runLast10 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem not_last_of_first10 {n : ℕ} (h0 : n % 8 = 0) : ¬ n % 8 = 7 := by omega

/-- THE ACCUMULATION: the accumulator after the body at position `n`, by the case the point is in — a first point
    of a row starts afresh, the others continue from what the point before left. -/
def accAt10 (c : Dev nD) : (n : ℕ) → n < cfg10.N → Vec F S2048x64 .f32
  | 0, hn => accFirst10 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) sc10 hsc10 (iblk10 V c 0 ⟨0, hn⟩) (iblk10 V c 1 ⟨0, hn⟩)
      ((first10_iff ⟨0, hn⟩).mpr (Nat.zero_mod _)) (fun h => not_last_of_first10 (Nat.zero_mod 8) ((last10_iff ⟨0, hn⟩).mp h))
  | n + 1, hn =>
    if h0 : (n + 1) % 8 = 0 then
      accFirst10 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) sc10 hsc10 (iblk10 V c 0 ⟨n + 1, hn⟩) (iblk10 V c 1 ⟨n + 1, hn⟩)
        ((first10_iff ⟨n + 1, hn⟩).mpr h0) (fun h => not_last_of_first10 h0 ((last10_iff ⟨n + 1, hn⟩).mp h))
    else if h1 : (n + 1) % 8 = 7 then
      accLast10 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) sc10 hsc10 (iblk10 V c 0 ⟨n + 1, hn⟩) (iblk10 V c 1 ⟨n + 1, hn⟩) (accAt10 c n (Nat.lt_of_succ_lt hn))
        (fun h => h0 ((first10_iff ⟨n + 1, hn⟩).mp h)) ((last10_iff ⟨n + 1, hn⟩).mpr h1)
    else
      accMid10 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) sc10 hsc10 (iblk10 V c 0 ⟨n + 1, hn⟩) (iblk10 V c 1 ⟨n + 1, hn⟩) (accAt10 c n (Nat.lt_of_succ_lt hn))
        (fun h => h0 ((first10_iff ⟨n + 1, hn⟩).mp h)) (fun h => h1 ((last10_iff ⟨n + 1, hn⟩).mp h))

theorem accAt10_first (c : Dev nD) (t : Fin cfg10.N) (h0 : t.val % 8 = 0) :
    accAt10 V c t.val t.isLt = accFirst10 c (grid10.coords t) (ms10_0 t) (hs10_0 t) (ms10_1 t) (hs10_1 t) (ms10_2 t) (hs10_2 t) sc10 hsc10 (iblk10 V c 0 t) (iblk10 V c 1 t)
      ((first10_iff t).mpr h0) (fun h => not_last_of_first10 h0 ((last10_iff t).mp h)) := by
  obtain ⟨n, hn⟩ := t
  cases n with
  | zero => exact rfl
  | succ n => exact (dif_pos h0).trans rfl

theorem accAt10_last (c : Dev nD) (t : Fin cfg10.N) (h0 : ¬ t.val % 8 = 0) (h1 : t.val % 8 = 7) :
    accAt10 V c t.val t.isLt = accLast10 c (grid10.coords t) (ms10_0 t) (hs10_0 t) (ms10_1 t) (hs10_1 t) (ms10_2 t) (hs10_2 t) sc10 hsc10 (iblk10 V c 0 t) (iblk10 V c 1 t) (accAt10 V c (t.val - 1) (Nat.lt_of_le_of_lt (Nat.sub_le _ _) t.isLt))
      (fun h => h0 ((first10_iff t).mp h)) ((last10_iff t).mpr h1) := by
  obtain ⟨n, hn⟩ := t
  cases n with
  | zero => exact absurd (Nat.zero_mod _) h0
  | succ n => exact (dif_neg h0).trans ((dif_pos h1).trans rfl)

theorem accAt10_mid (c : Dev nD) (t : Fin cfg10.N) (h0 : ¬ t.val % 8 = 0) (h1 : ¬ t.val % 8 = 7) :
    accAt10 V c t.val t.isLt = accMid10 c (grid10.coords t) (ms10_0 t) (hs10_0 t) (ms10_1 t) (hs10_1 t) (ms10_2 t) (hs10_2 t) sc10 hsc10 (iblk10 V c 0 t) (iblk10 V c 1 t) (accAt10 V c (t.val - 1) (Nat.lt_of_le_of_lt (Nat.sub_le _ _) t.isLt))
      (fun h => h0 ((first10_iff t).mp h)) (fun h => h1 ((last10_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt10 (c : Dev nD) (t : Fin cfg10.N) : Vec F S2048x64 .f32 :=
  if h : ¬ t.val % 8 = 0 ∧ t.val % 8 = 7 then
    outLast10 c (grid10.coords t) (ms10_0 t) (hs10_0 t) (ms10_1 t) (hs10_1 t) (ms10_2 t) (hs10_2 t) sc10 hsc10 (iblk10 V c 0 t) (iblk10 V c 1 t) (accAt10 V c (t.val - 1) (Nat.lt_of_le_of_lt (Nat.sub_le _ _) t.isLt))
      (fun h' => h.1 ((first10_iff t).mp h')) ((last10_iff t).mpr h.2)
  else accAt10 V c t.val t.isLt

/-! ## The pipeline's proof data -/

/-- The invariant before point `j` (after point `j - 1`): the accumulator at what the point before left — at
    anything before the first point —, and the scoped buffers of the other kernels untouched. -/
def Φ10 (c : Dev nD) (j : Fin (cfg10.N + 1)) : sProp 𝕄 :=
  iprop((∃ s : Vec F S2048x64 .f32, ⌜∀ (n : ℕ) (hn : n < cfg10.N), j.val = n + 1 → s = accAt10 V c n hn⌝ ∗ owns (c : Thread nD τ) sc10 fullShare s)
    ∗ Pipeline.scopedRestBut (Ix := Unit) (Name := ℕ) (U := UR sig nD τ) (Lvl := ℕ) (Val := Elt F) spec10 c [cc10_scratch0])

/-- The proof data on core `c`: the arrays as the region finds them; after the body at point `t` each input's
    buffer at its block and the output tile's at what a last point writes; the invariant above; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => outAt10 V c t
  Φ j := Φ10 V c j
  q _ := fullShare
  owed _ := 0

theorem A_eq10 (c : Dev nD) (w : Fin cfg10.W) : (dat10 V c).A w = V c (Pipeline.arrRef spec10 w) := by dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = outAt10 V c t := by dsimp only [dat10]

/-- Each input's current staging buffer holds its block at every point: both are fetched at every point. -/
theorem before10_0 (c : Dev nD) (t : Fin cfg10.N) (d) : (dat10 V c).before 0 t d = iblk10 V c 0 t := by
  unfold Dat.before; rw [if_pos (fetch10_0 t)]; unfold Dat.fetched Dat.blockOf iblk10; rw [A_eq10]; try rfl
theorem before10_1 (c : Dev nD) (t : Fin cfg10.N) (d) : (dat10 V c).before 1 t d = iblk10 V c 1 t := by
  unfold Dat.before; rw [if_pos (fetch10_1 t)]; unfold Dat.fetched Dat.blockOf iblk10; rw [A_eq10]; try rfl

end Cert.Kernel.Hand

end
-- ==== Proof.KB.R11Body.lean ====
/-
  Region 11 — the blocked product A · x with A : [8192, 8192] read in 2048 × 1024 tiles and x : [8192, 64] in
  1024 × 64 tiles, on a 4 × 8 grid — : the kernel body at one grid point, in each of its three control cases.
  The body keeps a 2048 × 64 accumulator in a scratch buffer across the eight points of one row of tiles: at the
  first point of the row (column index 0) it first overwrites the accumulator with zeros, at every point it adds
  the tile product to the accumulator, and at the last point of the row (column index 7) it copies the
  accumulator into the output tile.
-/
import proofs.«158997_j77232101916990_1_alg».proof.Proof.Gen.Kernel.Launch
import proofs.«158997_j77232101916990_1_alg».proof.Proof.Gen.Kernel.Skeleton
import proofs.«158997_j77232101916990_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, and where on the grid they hold -/

/-- The point is the first of its row of tiles: the column index is 0 (the body's first branch condition, its
    scalar chain over the grid coordinates written out). -/
abbrev first11 (i : grid11.Coords) : Prop :=
  (Scalar.cmpi .ne (Scalar.extui (Scalar.cmpi .eq (BitVec.ofNat 32 (i 1).val) 0#32)) 0#32) = 1#1
/-- The point is the last of its row of tiles: the column index is 7 (the body's second branch condition). -/
abbrev last11 (i : grid11.Coords) : Prop := k11_cond2 i = 1#1

/-- Points are numbered row by row, eight to a row: the first condition holds at the multiples of 8, -/
theorem first11_iff : ∀ t : Fin cfg11.N, first11 (grid11.coords t) ↔ t.val % 8 = 0 :=
  (by decide +kernel : ∀ t : Fin grid11.N, first11 (grid11.coords t) ↔ t.val % 8 = 0)
/-- and the second at the points one short of a multiple of 8. -/
theorem last11_iff : ∀ t : Fin cfg11.N, last11 (grid11.coords t) ↔ t.val % 8 = 7 :=
  (by decide +kernel : ∀ t : Fin grid11.N, last11 (grid11.coords t) ↔ t.val % 8 = 7)

/-! ## The body on any whole staging memrefs, case by case -/

set_option maxHeartbeats 1000000 in
/-- FIRST point of a row: from the two input tiles at `x0`, `x1`, the output tile's buffer at `y` and the
    accumulator at anything, the body runs to its end leaving the inputs and the output tile's buffer as they
    were and the accumulator rewritten by the pieces the run finds (zeros, then zeros plus the tile product). -/
noncomputable def runFirst11 (c : Dev nD) (i : grid11.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : first11 i) (hc1 : ¬ last11 i)
    (x0 : Vec F S2048x1024 .f32) (x1 : Vec F S1024x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ (∃ d, owns (c : Thread nD τ) arg5 fullShare d)
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc11__matvec_kernel i arg2 harg2 arg3 harg3 arg4 harg4 arg5 harg5) K } := by
  refine ⟨?_, fun y E K => ?run⟩
  case run =>
    simp only [cc11__matvec_kernel_eq_skeleton]; unfold cc11__matvec_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- MIDDLE point of a row (neither first nor last): as above with the accumulator found at `s`; the pieces the
    run finds are `s` plus the tile product. -/
noncomputable def runMid11 (c : Dev nD) (i : grid11.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first11 i) (hc1 : ¬ last11 i)
    (x0 : Vec F S2048x1024 .f32) (x1 : Vec F S1024x64 .f32) (s : Vec F S2048x64 .f32) :
    { L5 : List (View.Piece (Elt F) S2048x64 .f32) //
      ∀ (y : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare y
            ∗ owns (c : Thread nD τ) arg5 fullShare s
            ∗ (iprop(owns (c : Thread nD τ) arg2 fullShare x0 ∗ owns (c : Thread nD τ) arg3 fullShare x1 ∗ owns (c : Thread nD τ) arg4 fullShare y
                ∗ (∃ f, arg5.view.loc (c : Thread nD τ) ↦[arg5.view.set]{fullShare} arg5.view.writes (Elt F) f L5)) -∗ K ⟨⟩))
          ⊢ wp frame (wpE (defs₀ (F := F)) Variants.none c none) E (cc11__matvec_kernel i arg2 harg2 arg3 harg3 arg4 harg4 arg5 harg5) K } := by
  refine ⟨?_, fun y E K => ?run⟩
  case run =>
    simp only [cc11__matvec_kernel_eq_skeleton]; unfold cc11__matvec_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; iexact H5

set_option maxHeartbeats 1000000 in
/-- LAST point of a row: the accumulator found at `s` takes the tile product and is then copied into the output
    tile's buffer, found at anything; the run finds the pieces of both (the output tile's first). -/
noncomputable def runLast11 (c : Dev nD) (i : grid11.Coords) (arg2 : Memref sig .tc .vmem S2048x1024 .f32) (harg2 : arg2.IsWhole)
    (arg3 : Memref sig .tc .vmem S1024x64 .f32) (harg3 : arg3.IsWhole) (arg4 : Memref sig .tc .vmem S2048x64 .f32) (harg4 : arg4.IsWhole)
    (arg5 : Memref sig .tc .vmem S2048x64 .f32) (harg5 : arg5.IsWhole) (hc0 : ¬ first11 i) (hc1 : last11 i)
    (x0 : Vec F S2048x1024 .f32) (x1 : Vec F S1024x64 .f32) (s : Vec F S2048x64 .f32) :
    { L : List (View.Piece (Elt F) S2048x64 .f32) × List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare s
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc11__matvec_kernel i arg2 harg2 arg3 harg3 arg4 harg4 arg5 harg5) K } := by
  refine ⟨⟨?_, ?_⟩, fun E K => ?run⟩
  case run =>
    simp only [cc11__matvec_kernel_eq_skeleton]; unfold cc11__matvec_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Hand

end
-- ==== Proof.KB.R11Dat.lean ====
/-
  Region 11: what the accumulator holds after each grid point, the proof data of the pipeline, and the body
  obligation. After point n the scratch accumulator holds, in the row of tiles n lies in, the sum of the tile
  products of the row's points up to n (the first point of a row starts from zeros); the output tile receives the
  accumulator at the last point of a row and is left alone at the others. The invariant between points is the
  accumulator at exactly that value (at any value before the first point), beside the other scoped buffers.
-/
import proofs.«158997_j77232101916990_1_alg».proof.Proof.KB.R11Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each window's current staging memref at point `t`, and that it is a whole buffer. -/
abbrev ms11_0 (t : Fin cfg11.N) : Memref sig .tc .vmem S2048x1024 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x64 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S2048x64 .f32 := win11_2.stage (cfg11.slots t 2)
abbrev hs11_2 (t : Fin cfg11.N) : (ms11_2 t).IsWhole := hstage11_2 ((cfg11.slots t 2).cast nbuf11_2)
/-- The accumulator's scratch buffer, whole. -/
abbrev sc11 : Memref sig .tc .vmem S2048x64 .f32 := Memref.whole cc11_scratch0
abbrev hsc11 : (sc11).IsWhole := Memref.isWhole_whole _
/-- The view through which a 2048 × 64 buffer's contents are stated (any whole buffer of the shape serves). -/
abbrev VS11 : View sig .tc .vmem S2048x64 .f32 := (sc11).view

/-! ## What each case leaves: the pieces cover the buffer, so the contents are the pieces read back -/

section Cases

variable (c : Dev nD) (i : grid11.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

theorem coverFirst11 (hc0 : first11 i) (hc1 : ¬ last11 i) (y : S2048x64.Idx) :
    ∃ pc ∈ (runFirst11 c i arg2 harg2 arg3 harg3 arg4 harg4 arg5 harg5 hc0 hc1 x0 x1).1, y ∈ pc.1.set :=
  View.cover_of_tiledL (runFirst11 c i arg2 harg2 arg3 harg3 arg4 harg4 arg5 harg5 hc0 hc1 x0 x1).1 S2048x64.size (by sl_kernel_rfl) y
/-- The accumulator after a first point. -/
def accFirst11 (hc0 : first11 i) (hc1 : ¬ last11 i) : Vec F S2048x64 .f32 :=
  VS11.read (Elt F) (VS11.writes (Elt F) VS11.junk (runFirst11 c i arg2 harg2 arg3 harg3 arg4 harg4 arg5 harg5 hc0 hc1 x0 x1).1)

theorem coverMid11 (hc0 : ¬ first11 i) (hc1 : ¬ last11 i) (y : S2048x64.Idx) :
    ∃ pc ∈ (runMid11 c i arg2 harg2 arg3 harg3 arg4 harg4 arg5 harg5 hc0 hc1 x0 x1 s).1, y ∈ pc.1.set :=
  View.cover_of_tiledL (runMid11 c i arg2 harg2 arg3 harg3 arg4 harg4 arg5 harg5 hc0 hc1 x0 x1 s).1 S2048x64.size (by sl_kernel_rfl) y
/-- The accumulator after a middle point that found it at `s`. -/
def accMid11 (hc0 : ¬ first11 i) (hc1 : ¬ last11 i) : Vec F S2048x64 .f32 :=
  VS11.read (Elt F) (VS11.writes (Elt F) VS11.junk (runMid11 c i arg2 harg2 arg3 harg3 arg4 harg4 arg5 harg5 hc0 hc1 x0 x1 s).1)

theorem coverLastOut11 (hc0 : ¬ first11 i) (hc1 : last11 i) (y : S2048x64.Idx) :
    ∃ pc ∈ (runLast11 c i arg2 harg2 arg3 harg3 arg4 harg4 arg5 harg5 hc0 hc1 x0 x1 s).1.1, y ∈ pc.1.set :=
  View.cover_of_tiledL (runLast11 c i arg2 harg2 arg3 harg3 arg4 harg4 arg5 harg5 hc0 hc1 x0 x1 s).1.1 S2048x64.size (by sl_kernel_rfl) y
theorem coverLastAcc11 (hc0 : ¬ first11 i) (hc1 : last11 i) (y : S2048x64.Idx) :
    ∃ pc ∈ (runLast11 c i arg2 harg2 arg3 harg3 arg4 harg4 arg5 harg5 hc0 hc1 x0 x1 s).1.2, y ∈ pc.1.set :=
  View.cover_of_tiledL (runLast11 c i arg2 harg2 arg3 harg3 arg4 harg4 arg5 harg5 hc0 hc1 x0 x1 s).1.2 S2048x64.size (by sl_kernel_rfl) y
/-- The output tile after a last point that found the accumulator at `s`, -/
def outLast11 (hc0 : ¬ first11 i) (hc1 : last11 i) : Vec F S2048x64 .f32 :=
  VS11.read (Elt F) (VS11.writes (Elt F) VS11.junk (runLast11 c i arg2 harg2 arg3 harg3 arg4 harg4 arg5 harg5 hc0 hc1 x0 x1 s).1.1)
/-- and the accumulator. -/
def accLast11 (hc0 : ¬ first11 i) (hc1 : last11 i) : Vec F S2048x64 .f32 :=
  VS11.read (Elt F) (VS11.writes (Elt F) VS11.junk (runLast11 c i arg2 harg2 arg3 harg3 arg4 harg4 arg5 harg5 hc0 hc1 x0 x1 s).1.2)

end Cases

/-! ## The contents after each point -/

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem not_last_of_first11 {n : ℕ} (h0 : n % 8 = 0) : ¬ n % 8 = 7 := by omega

/-- THE ACCUMULATION: the accumulator after the body at position `n`, by the case the point is in — a first point
    of a row starts afresh, the others continue from what the point before left. -/
def accAt11 (c : Dev nD) : (n : ℕ) → n < cfg11.N → Vec F S2048x64 .f32
  | 0, hn => accFirst11 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) sc11 hsc11 (iblk11 V c 0 ⟨0, hn⟩) (iblk11 V c 1 ⟨0, hn⟩)
      ((first11_iff ⟨0, hn⟩).mpr (Nat.zero_mod _)) (fun h => not_last_of_first11 (Nat.zero_mod 8) ((last11_iff ⟨0, hn⟩).mp h))
  | n + 1, hn =>
    if h0 : (n + 1) % 8 = 0 then
      accFirst11 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) sc11 hsc11 (iblk11 V c 0 ⟨n + 1, hn⟩) (iblk11 V c 1 ⟨n + 1, hn⟩)
        ((first11_iff ⟨n + 1, hn⟩).mpr h0) (fun h => not_last_of_first11 h0 ((last11_iff ⟨n + 1, hn⟩).mp h))
    else if h1 : (n + 1) % 8 = 7 then
      accLast11 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) sc11 hsc11 (iblk11 V c 0 ⟨n + 1, hn⟩) (iblk11 V c 1 ⟨n + 1, hn⟩) (accAt11 c n (Nat.lt_of_succ_lt hn))
        (fun h => h0 ((first11_iff ⟨n + 1, hn⟩).mp h)) ((last11_iff ⟨n + 1, hn⟩).mpr h1)
    else
      accMid11 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) sc11 hsc11 (iblk11 V c 0 ⟨n + 1, hn⟩) (iblk11 V c 1 ⟨n + 1, hn⟩) (accAt11 c n (Nat.lt_of_succ_lt hn))
        (fun h => h0 ((first11_iff ⟨n + 1, hn⟩).mp h)) (fun h => h1 ((last11_iff ⟨n + 1, hn⟩).mp h))

theorem accAt11_first (c : Dev nD) (t : Fin cfg11.N) (h0 : t.val % 8 = 0) :
    accAt11 V c t.val t.isLt = accFirst11 c (grid11.coords t) (ms11_0 t) (hs11_0 t) (ms11_1 t) (hs11_1 t) (ms11_2 t) (hs11_2 t) sc11 hsc11 (iblk11 V c 0 t) (iblk11 V c 1 t)
      ((first11_iff t).mpr h0) (fun h => not_last_of_first11 h0 ((last11_iff t).mp h)) := by
  obtain ⟨n, hn⟩ := t
  cases n with
  | zero => exact rfl
  | succ n => exact (dif_pos h0).trans rfl

theorem accAt11_last (c : Dev nD) (t : Fin cfg11.N) (h0 : ¬ t.val % 8 = 0) (h1 : t.val % 8 = 7) :
    accAt11 V c t.val t.isLt = accLast11 c (grid11.coords t) (ms11_0 t) (hs11_0 t) (ms11_1 t) (hs11_1 t) (ms11_2 t) (hs11_2 t) sc11 hsc11 (iblk11 V c 0 t) (iblk11 V c 1 t) (accAt11 V c (t.val - 1) (Nat.lt_of_le_of_lt (Nat.sub_le _ _) t.isLt))
      (fun h => h0 ((first11_iff t).mp h)) ((last11_iff t).mpr h1) := by
  obtain ⟨n, hn⟩ := t
  cases n with
  | zero => exact absurd (Nat.zero_mod _) h0
  | succ n => exact (dif_neg h0).trans ((dif_pos h1).trans rfl)

theorem accAt11_mid (c : Dev nD) (t : Fin cfg11.N) (h0 : ¬ t.val % 8 = 0) (h1 : ¬ t.val % 8 = 7) :
    accAt11 V c t.val t.isLt = accMid11 c (grid11.coords t) (ms11_0 t) (hs11_0 t) (ms11_1 t) (hs11_1 t) (ms11_2 t) (hs11_2 t) sc11 hsc11 (iblk11 V c 0 t) (iblk11 V c 1 t) (accAt11 V c (t.val - 1) (Nat.lt_of_le_of_lt (Nat.sub_le _ _) t.isLt))
      (fun h => h0 ((first11_iff t).mp h)) (fun h => h1 ((last11_iff t).mp h)) := by
  obtain ⟨n, hn⟩ := t
  cases n with
  | zero => exact absurd (Nat.zero_mod _) h0
  | succ n => exact (dif_neg h0).trans ((dif_neg h1).trans rfl)

/-- What a last point of a row writes into the output tile: the accumulator as that point leaves it. -/
def outAt11 (c : Dev nD) (t : Fin cfg11.N) : Vec F S2048x64 .f32 :=
  if h : ¬ t.val % 8 = 0 ∧ t.val % 8 = 7 then
    outLast11 c (grid11.coords t) (ms11_0 t) (hs11_0 t) (ms11_1 t) (hs11_1 t) (ms11_2 t) (hs11_2 t) sc11 hsc11 (iblk11 V c 0 t) (iblk11 V c 1 t) (accAt11 V c (t.val - 1) (Nat.lt_of_le_of_lt (Nat.sub_le _ _) t.isLt))
      (fun h' => h.1 ((first11_iff t).mp h')) ((last11_iff t).mpr h.2)
  else accAt11 V c t.val t.isLt

/-! ## The pipeline's proof data -/

/-- The invariant before point `j` (after point `j - 1`): the accumulator at what the point before left — at
    anything before the first point —, and the scoped buffers of the other kernels untouched. -/
def Φ11 (c : Dev nD) (j : Fin (cfg11.N + 1)) : sProp 𝕄 :=
  iprop((∃ s : Vec F S2048x64 .f32, ⌜∀ (n : ℕ) (hn : n < cfg11.N), j.val = n + 1 → s = accAt11 V c n hn⌝ ∗ owns (c : Thread nD τ) sc11 fullShare s)
    ∗ Pipeline.scopedRestBut (Ix := Unit) (Name := ℕ) (U := UR sig nD τ) (Lvl := ℕ) (Val := Elt F) spec11 c [cc11_scratch0])

/-- The proof data on core `c`: the arrays as the region finds them; after the body at point `t` each input's
    buffer at its block and the output tile's at what a last point writes; the invariant above; nothing owed. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => outAt11 V c t
  Φ j := Φ11 V c j
  q _ := fullShare
  owed _ := 0

theorem A_eq11 (c : Dev nD) (w : Fin cfg11.W) : (dat11 V c).A w = V c (Pipeline.arrRef spec11 w) := by dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = outAt11 V c t := by dsimp only [dat11]

/-- Each input's current staging buffer holds its block at every point: both are fetched at every point. -/
theorem before11_0 (c : Dev nD) (t : Fin cfg11.N) (d) : (dat11 V c).before 0 t d = iblk11 V c 0 t := by
  unfold Dat.before; rw [if_pos (fetch11_0 t)]; unfold Dat.fetched Dat.blockOf iblk11; rw [A_eq11]; try rfl
theorem before11_1 (c : Dev nD) (t : Fin cfg11.N) (d) : (dat11 V c).before 1 t d = iblk11 V c 1 t := by
  unfold Dat.before; rw [if_pos (fetch11_1 t)]; unfold Dat.fetched Dat.blockOf iblk11; rw [A_eq11]; try rfl

end Cert.Kernel.Hand

end
-- ==== Proof.KB.Fold.lean ====
/-
  The contents of every TensorCore buffer at each boundary between the items of @main — host stretches and the twelve
  blocked products — as a fold from the launch memory: a host stretch rewrites the buffers its operations write, a
  region leaves its output array at what the pipeline wrote back (the tiles the last point of each row flushed) and
  every other buffer as it found it. The proof data of region r is region r's, at the contents the region is entered
  with.
-/
import proofs.«158997_j77232101916990_1_alg».proof.Proof.KB.R0Dat
import proofs.«158997_j77232101916990_1_alg».proof.Proof.KB.R1Dat
import proofs.«158997_j77232101916990_1_alg».proof.Proof.KB.R2Dat
import proofs.«158997_j77232101916990_1_alg».proof.Proof.KB.R3Dat
import proofs.«158997_j77232101916990_1_alg».proof.Proof.KB.R4Dat
import proofs.«158997_j77232101916990_1_alg».proof.Proof.KB.R5Dat
import proofs.«158997_j77232101916990_1_alg».proof.Proof.KB.R6Dat
import proofs.«158997_j77232101916990_1_alg».proof.Proof.KB.R7Dat
import proofs.«158997_j77232101916990_1_alg».proof.Proof.KB.R8Dat
import proofs.«158997_j77232101916990_1_alg».proof.Proof.KB.R9Dat
import proofs.«158997_j77232101916990_1_alg».proof.Proof.KB.R10Dat
import proofs.«158997_j77232101916990_1_alg».proof.Proof.KB.R11Dat
import Idealize.ShloMosaic.Lib.Pipeline.Regions
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After item 0 (a host stretch). -/
abbrev W1 : Dev nD → Valuation τ sig (Elt F) := fun c => StableHlo.after (main_part0_ops0 (F := F)) (W0 m ρ c)
/-- After item 1 (a host stretch). -/
abbrev W2 : Dev nD → Valuation τ sig (Elt F) := fun c => StableHlo.after (main_part1_ops0 (F := F)) (W1 m ρ c)
/-- After item 2 (a host stretch). -/
abbrev W3 : Dev nD → Valuation τ sig (Elt F) := fun c => StableHlo.after (main_part2_ops0 (F := F)) (W2 m ρ c)
/-- After item 3 (a host stretch). -/
abbrev W4 : Dev nD → Valuation τ sig (Elt F) := fun c => StableHlo.after (main_part3_ops0 (F := F)) (W3 m ρ c)
/-- After item 4 (a host stretch). -/
abbrev W5 : Dev nD → Valuation τ sig (Elt F) := fun c => StableHlo.after (main_part4_ops0 (F := F)) (W4 m ρ c)
/-- After item 5 (a host stretch). -/
abbrev W6 : Dev nD → Valuation τ sig (Elt F) := fun c => StableHlo.after (main_part5_ops0 (F := F)) (W5 m ρ c)
/-- After item 6 (a host stretch). -/
abbrev W7 : Dev nD → Valuation τ sig (Elt F) := fun c => StableHlo.after (main_part6_ops0 (F := F)) (W6 m ρ c)
/-- After item 7 (a host stretch). -/
abbrev W8 : Dev nD → Valuation τ sig (Elt F) := fun c => StableHlo.after (main_part7_ops0 (F := F)) (W7 m ρ c)
/-- After item 8 (a host stretch). -/
abbrev W9 : Dev nD → Valuation τ sig (Elt F) := fun c => StableHlo.after (main_part8_ops0 (F := F)) (W8 m ρ c)
/-- After item 9 (a host stretch). -/
abbrev W10 : Dev nD → Valuation τ sig (Elt F) := fun c => StableHlo.after (main_part9_ops0 (F := F)) (W9 m ρ c)
/-- After item 10 (a host stretch). -/
abbrev W11 : Dev nD → Valuation τ sig (Elt F) := fun c => StableHlo.after (main_part10_ops0 (F := F)) (W10 m ρ c)
/-- After item 11 (a host stretch). -/
abbrev W12 : Dev nD → Valuation τ sig (Elt F) := fun c => StableHlo.after (main_part11_ops0 (F := F)) (W11 m ρ c)
/-- After item 12 (a host stretch). -/
abbrev W13 : Dev nD → Valuation τ sig (Elt F) := fun c => StableHlo.after (main_part12_ops0 (F := F)) (W12 m ρ c)
/-- After item 13 (a host stretch). -/
abbrev W14 : Dev nD → Valuation τ sig (Elt F) := fun c => StableHlo.after (main_part12_ops1 (F := F)) (W13 m ρ c)
/-- After item 14 (a host stretch). -/
abbrev W15 : Dev nD → Valuation τ sig (Elt F) := fun c => StableHlo.after (main_part12_ops2 (F := F)) (W14 m ρ c)
/-- After item 15 (a host stretch). -/
abbrev W16 : Dev nD → Valuation τ sig (Elt F) := fun c => StableHlo.after (main_part12_ops3 (F := F)) (W15 m ρ c)
/-- After item 16 (a host stretch). -/
abbrev W17 : Dev nD → Valuation τ sig (Elt F) := fun c => StableHlo.after (main_part12_ops4 (F := F)) (W16 m ρ c)
/-- After item 17 (a host stretch). -/
abbrev W18 : Dev nD → Valuation τ sig (Elt F) := fun c => StableHlo.after (main_part13_ops0 (F := F)) (W17 m ρ c)
/-- After item 18 (a host stretch). -/
abbrev W19 : Dev nD → Valuation τ sig (Elt F) := fun c => StableHlo.after (main_part13_ops1 (F := F)) (W18 m ρ c)
/-- After item 19 (a host stretch). -/
abbrev W20 : Dev nD → Valuation τ sig (Elt F) := fun c => StableHlo.after (main_part13_ops2 (F := F)) (W19 m ρ c)
/-- After item 20 (a host stretch). -/
abbrev W21 : Dev nD → Valuation τ sig (Elt F) := fun c => StableHlo.after (main_part13_ops3 (F := F)) (W20 m ρ c)
/-- After item 21 (a host stretch). -/
abbrev W22 : Dev nD → Valuation τ sig (Elt F) := fun c => StableHlo.after (main_part13_ops4 (F := F)) (W21 m ρ c)
/-- The same read at the TensorCore's references: what region 0 is entered with. -/
abbrev V22 : (c : Dev nD) → (b : Ref sig .tc) → Buf (Elt F) ((c : Thread nD τ).loc b) := fun c b => W22 m ρ c b
/-- After item 22 (region 0): its arrays at what the pipeline leaves, every other buffer as entered. -/
def W23 (c : Dev nD) : Valuation τ sig (Elt F) :=
  Pipeline.withArrays spec0 c (W22 m ρ c) fun w => (dat0 (V22 m ρ) c).arrAt w cfg0.N
theorem W23_arr (c : Dev nD) (w : Fin cfg0.W) :
    W23 m ρ c (Proc.devRef .tc (Pipeline.arrRef spec0 w)) = (dat0 (V22 m ρ) c).arrAt w cfg0.N := by
  unfold W23; exact Pipeline.withArrays_arr spec0 launch0.win.arr_inj c _ _ w
theorem W23_of_ne (c : Dev nD) (b : Ref sig .tc) (hb : ∀ w, Pipeline.arrRef spec0 w ≠ b) :
    W23 m ρ c (Proc.devRef .tc b) = W22 m ρ c (Proc.devRef .tc b) := by
  unfold W23; exact Pipeline.withArrays_of_ne spec0 c _ _ b hb
abbrev V23 : (c : Dev nD) → (b : Ref sig .tc) → Buf (Elt F) ((c : Thread nD τ).loc b) := fun c b => W23 m ρ c b
theorem hF0 (c : Dev nD) (w : Fin cfg0.W) : (dat0 (V22 m ρ) c).arrAt w cfg0.N = V23 m ρ c (Pipeline.arrRef spec0 w) :=
  (W23_arr m ρ c w).symm
theorem hrest0 (c : Dev nD) : ∀ b, b ∉ Finset.univ.image (Pipeline.arrRef spec0) → V23 m ρ c b = V22 m ρ c b :=
  fun b hb => W23_of_ne m ρ c b fun w e => hb (Finset.mem_image.mpr ⟨w, Finset.mem_univ _, e⟩)
/-- After item 23 (a host stretch). -/
abbrev W24 : Dev nD → Valuation τ sig (Elt F) := fun c => StableHlo.after (main_part13_ops5 (F := F)) (W23 m ρ c)
/-- The same read at the TensorCore's references: what region 1 is entered with. -/
abbrev V24 : (c : Dev nD) → (b : Ref sig .tc) → Buf (Elt F) ((c : Thread nD τ).loc b) := fun c b => W24 m ρ c b
/-- After item 24 (region 1): its arrays at what the pipeline leaves, every other buffer as entered. -/
def W25 (c : Dev nD) : Valuation τ sig (Elt F) :=
  Pipeline.withArrays spec1 c (W24 m ρ c) fun w => (dat1 (V24 m ρ) c).arrAt w cfg1.N
theorem W25_arr (c : Dev nD) (w : Fin cfg1.W) :
    W25 m ρ c (Proc.devRef .tc (Pipeline.arrRef spec1 w)) = (dat1 (V24 m ρ) c).arrAt w cfg1.N := by
  unfold W25; exact Pipeline.withArrays_arr spec1 launch1.win.arr_inj c _ _ w
theorem W25_of_ne (c : Dev nD) (b : Ref sig .tc) (hb : ∀ w, Pipeline.arrRef spec1 w ≠ b) :
    W25 m ρ c (Proc.devRef .tc b) = W24 m ρ c (Proc.devRef .tc b) := by
  unfold W25; exact Pipeline.withArrays_of_ne spec1 c _ _ b hb
abbrev V25 : (c : Dev nD) → (b : Ref sig .tc) → Buf (Elt F) ((c : Thread nD τ).loc b) := fun c b => W25 m ρ c b
theorem hF1 (c : Dev nD) (w : Fin cfg1.W) : (dat1 (V24 m ρ) c).arrAt w cfg1.N = V25 m ρ c (Pipeline.arrRef spec1 w) :=
  (W25_arr m ρ c w).symm
theorem hrest1 (c : Dev nD) : ∀ b, b ∉ Finset.univ.image (Pipeline.arrRef spec1) → V25 m ρ c b = V24 m ρ c b :=
  fun b hb => W25_of_ne m ρ c b fun w e => hb (Finset.mem_image.mpr ⟨w, Finset.mem_univ _, e⟩)
/-- After item 25 (a host stretch). -/
abbrev W26 : Dev nD → Valuation τ sig (Elt F) := fun c => StableHlo.after (main_part13_ops6 (F := F)) (W25 m ρ c)
/-- The same read at the TensorCore's references: what region 2 is entered with. -/
abbrev V26 : (c : Dev nD) → (b : Ref sig .tc) → Buf (Elt F) ((c : Thread nD τ).loc b) := fun c b => W26 m ρ c b
/-- After item 26 (region 2): its arrays at what the pipeline leaves, every other buffer as entered. -/
def W27 (c : Dev nD) : Valuation τ sig (Elt F) :=
  Pipeline.withArrays spec2 c (W26 m ρ c) fun w => (dat2 (V26 m ρ) c).arrAt w cfg2.N
theorem W27_arr (c : Dev nD) (w : Fin cfg2.W) :
    W27 m ρ c (Proc.devRef .tc (Pipeline.arrRef spec2 w)) = (dat2 (V26 m ρ) c).arrAt w cfg2.N := by
  unfold W27; exact Pipeline.withArrays_arr spec2 launch2.win.arr_inj c _ _ w
theorem W27_of_ne (c : Dev nD) (b : Ref sig .tc) (hb : ∀ w, Pipeline.arrRef spec2 w ≠ b) :
    W27 m ρ c (Proc.devRef .tc b) = W26 m ρ c (Proc.devRef .tc b) := by
  unfold W27; exact Pipeline.withArrays_of_ne spec2 c _ _ b hb
abbrev V27 : (c : Dev nD) → (b : Ref sig .tc) → Buf (Elt F) ((c : Thread nD τ).loc b) := fun c b => W27 m ρ c b
theorem hF2 (c : Dev nD) (w : Fin cfg2.W) : (dat2 (V26 m ρ) c).arrAt w cfg2.N = V27 m ρ c (Pipeline.arrRef spec2 w) :=
  (W27_arr m ρ c w).symm
theorem hrest2 (c : Dev nD) : ∀ b, b ∉ Finset.univ.image (Pipeline.arrRef spec2) → V27 m ρ c b = V26 m ρ c b :=
  fun b hb => W27_of_ne m ρ c b fun w e => hb (Finset.mem_image.mpr ⟨w, Finset.mem_univ _, e⟩)
/-- After item 27 (region 3): its arrays at what the pipeline leaves, every other buffer as entered. -/
def W28 (c : Dev nD) : Valuation τ sig (Elt F) :=
  Pipeline.withArrays spec3 c (W27 m ρ c) fun w => (dat3 (V27 m ρ) c).arrAt w cfg3.N
theorem W28_arr (c : Dev nD) (w : Fin cfg3.W) :
    W28 m ρ c (Proc.devRef .tc (Pipeline.arrRef spec3 w)) = (dat3 (V27 m ρ) c).arrAt w cfg3.N := by
  unfold W28; exact Pipeline.withArrays_arr spec3 launch3.win.arr_inj c _ _ w
theorem W28_of_ne (c : Dev nD) (b : Ref sig .tc) (hb : ∀ w, Pipeline.arrRef spec3 w ≠ b) :
    W28 m ρ c (Proc.devRef .tc b) = W27 m ρ c (Proc.devRef .tc b) := by
  unfold W28; exact Pipeline.withArrays_of_ne spec3 c _ _ b hb
abbrev V28 : (c : Dev nD) → (b : Ref sig .tc) → Buf (Elt F) ((c : Thread nD τ).loc b) := fun c b => W28 m ρ c b
theorem hF3 (c : Dev nD) (w : Fin cfg3.W) : (dat3 (V27 m ρ) c).arrAt w cfg3.N = V28 m ρ c (Pipeline.arrRef spec3 w) :=
  (W28_arr m ρ c w).symm
theorem hrest3 (c : Dev nD) : ∀ b, b ∉ Finset.univ.image (Pipeline.arrRef spec3) → V28 m ρ c b = V27 m ρ c b :=
  fun b hb => W28_of_ne m ρ c b fun w e => hb (Finset.mem_image.mpr ⟨w, Finset.mem_univ _, e⟩)
/-- After item 28 (a host stretch). -/
abbrev W29 : Dev nD → Valuation τ sig (Elt F) := fun c => StableHlo.after (main_part13_ops7 (F := F)) (W28 m ρ c)
/-- After item 29 (a host stretch). -/
abbrev W30 : Dev nD → Valuation τ sig (Elt F) := fun c => StableHlo.after (main_part13_ops8 (F := F)) (W29 m ρ c)
/-- After item 30 (a host stretch). -/
abbrev W31 : Dev nD → Valuation τ sig (Elt F) := fun c => StableHlo.after (main_part13_ops9 (F := F)) (W30 m ρ c)
/-- After item 31 (a host stretch). -/
abbrev W32 : Dev nD → Valuation τ sig (Elt F) := fun c => StableHlo.after (main_part13_ops10 (F := F)) (W31 m ρ c)
/-- After item 32 (a host stretch). -/
abbrev W33 : Dev nD → Valuation τ sig (Elt F) := fun c => StableHlo.after (main_part13_ops11 (F := F)) (W32 m ρ c)
/-- After item 33 (a host stretch). -/
abbrev W34 : Dev nD → Valuation τ sig (Elt F) := fun c => StableHlo.after (main_part13_ops12 (F := F)) (W33 m ρ c)
/-- After item 34 (a host stretch). -/
abbrev W35 : Dev nD → Valuation τ sig (Elt F) := fun c => StableHlo.after (main_part13_ops13 (F := F)) (W34 m ρ c)
/-- After item 35 (a host stretch). -/
abbrev W36 : Dev nD → Valuation τ sig (Elt F) := fun c => StableHlo.after (main_part13_ops14 (F := F)) (W35 m ρ c)
/-- The same read at the TensorCore's references: what region 4 is entered with. -/
abbrev V36 : (c : Dev nD) → (b : Ref sig .tc) → Buf (Elt F) ((c : Thread nD τ).loc b) := fun c b => W36 m ρ c b
/-- After item 36 (region 4): its arrays at what the pipeline leaves, every other buffer as entered. -/
def W37 (c : Dev nD) : Valuation τ sig (Elt F) :=
  Pipeline.withArrays spec4 c (W36 m ρ c) fun w => (dat4 (V36 m ρ) c).arrAt w cfg4.N
theorem W37_arr (c : Dev nD) (w : Fin cfg4.W) :
    W37 m ρ c (Proc.devRef .tc (Pipeline.arrRef spec4 w)) = (dat4 (V36 m ρ) c).arrAt w cfg4.N := by
  unfold W37; exact Pipeline.withArrays_arr spec4 launch4.win.arr_inj c _ _ w
theorem W37_of_ne (c : Dev nD) (b : Ref sig .tc) (hb : ∀ w, Pipeline.arrRef spec4 w ≠ b) :
    W37 m ρ c (Proc.devRef .tc b) = W36 m ρ c (Proc.devRef .tc b) := by
  unfold W37; exact Pipeline.withArrays_of_ne spec4 c _ _ b hb
abbrev V37 : (c : Dev nD) → (b : Ref sig .tc) → Buf (Elt F) ((c : Thread nD τ).loc b) := fun c b => W37 m ρ c b
theorem hF4 (c : Dev nD) (w : Fin cfg4.W) : (dat4 (V36 m ρ) c).arrAt w cfg4.N = V37 m ρ c (Pipeline.arrRef spec4 w) :=
  (W37_arr m ρ c w).symm
theorem hrest4 (c : Dev nD) : ∀ b, b ∉ Finset.univ.image (Pipeline.arrRef spec4) → V37 m ρ c b = V36 m ρ c b :=
  fun b hb => W37_of_ne m ρ c b fun w e => hb (Finset.mem_image.mpr ⟨w, Finset.mem_univ _, e⟩)
/-- After item 37 (a host stretch). -/
abbrev W38 : Dev nD → Valuation τ sig (Elt F) := fun c => StableHlo.after (main_part13_ops15 (F := F)) (W37 m ρ c)
/-- The same read at the TensorCore's references: what region 5 is entered with. -/
abbrev V38 : (c : Dev nD) → (b : Ref sig .tc) → Buf (Elt F) ((c : Thread nD τ).loc b) := fun c b => W38 m ρ c b
/-- After item 38 (region 5): its arrays at what the pipeline leaves, every other buffer as entered. -/
def W39 (c : Dev nD) : Valuation τ sig (Elt F) :=
  Pipeline.withArrays spec5 c (W38 m ρ c) fun w => (dat5 (V38 m ρ) c).arrAt w cfg5.N
theorem W39_arr (c : Dev nD) (w : Fin cfg5.W) :
    W39 m ρ c (Proc.devRef .tc (Pipeline.arrRef spec5 w)) = (dat5 (V38 m ρ) c).arrAt w cfg5.N := by
  unfold W39; exact Pipeline.withArrays_arr spec5 launch5.win.arr_inj c _ _ w
theorem W39_of_ne (c : Dev nD) (b : Ref sig .tc) (hb : ∀ w, Pipeline.arrRef spec5 w ≠ b) :
    W39 m ρ c (Proc.devRef .tc b) = W38 m ρ c (Proc.devRef .tc b) := by
  unfold W39; exact Pipeline.withArrays_of_ne spec5 c _ _ b hb
abbrev V39 : (c : Dev nD) → (b : Ref sig .tc) → Buf (Elt F) ((c : Thread nD τ).loc b) := fun c b => W39 m ρ c b
theorem hF5 (c : Dev nD) (w : Fin cfg5.W) : (dat5 (V38 m ρ) c).arrAt w cfg5.N = V39 m ρ c (Pipeline.arrRef spec5 w) :=
  (W39_arr m ρ c w).symm
theorem hrest5 (c : Dev nD) : ∀ b, b ∉ Finset.univ.image (Pipeline.arrRef spec5) → V39 m ρ c b = V38 m ρ c b :=
  fun b hb => W39_of_ne m ρ c b fun w e => hb (Finset.mem_image.mpr ⟨w, Finset.mem_univ _, e⟩)
/-- After item 39 (a host stretch). -/
abbrev W40 : Dev nD → Valuation τ sig (Elt F) := fun c => StableHlo.after (main_part13_ops16 (F := F)) (W39 m ρ c)
/-- The same read at the TensorCore's references: what region 6 is entered with. -/
abbrev V40 : (c : Dev nD) → (b : Ref sig .tc) → Buf (Elt F) ((c : Thread nD τ).loc b) := fun c b => W40 m ρ c b
/-- After item 40 (region 6): its arrays at what the pipeline leaves, every other buffer as entered. -/
def W41 (c : Dev nD) : Valuation τ sig (Elt F) :=
  Pipeline.withArrays spec6 c (W40 m ρ c) fun w => (dat6 (V40 m ρ) c).arrAt w cfg6.N
theorem W41_arr (c : Dev nD) (w : Fin cfg6.W) :
    W41 m ρ c (Proc.devRef .tc (Pipeline.arrRef spec6 w)) = (dat6 (V40 m ρ) c).arrAt w cfg6.N := by
  unfold W41; exact Pipeline.withArrays_arr spec6 launch6.win.arr_inj c _ _ w
theorem W41_of_ne (c : Dev nD) (b : Ref sig .tc) (hb : ∀ w, Pipeline.arrRef spec6 w ≠ b) :
    W41 m ρ c (Proc.devRef .tc b) = W40 m ρ c (Proc.devRef .tc b) := by
  unfold W41; exact Pipeline.withArrays_of_ne spec6 c _ _ b hb
abbrev V41 : (c : Dev nD) → (b : Ref sig .tc) → Buf (Elt F) ((c : Thread nD τ).loc b) := fun c b => W41 m ρ c b
theorem hF6 (c : Dev nD) (w : Fin cfg6.W) : (dat6 (V40 m ρ) c).arrAt w cfg6.N = V41 m ρ c (Pipeline.arrRef spec6 w) :=
  (W41_arr m ρ c w).symm
theorem hrest6 (c : Dev nD) : ∀ b, b ∉ Finset.univ.image (Pipeline.arrRef spec6) → V41 m ρ c b = V40 m ρ c b :=
  fun b hb => W41_of_ne m ρ c b fun w e => hb (Finset.mem_image.mpr ⟨w, Finset.mem_univ _, e⟩)
/-- After item 41 (region 7): its arrays at what the pipeline leaves, every other buffer as entered. -/
def W42 (c : Dev nD) : Valuation τ sig (Elt F) :=
  Pipeline.withArrays spec7 c (W41 m ρ c) fun w => (dat7 (V41 m ρ) c).arrAt w cfg7.N
theorem W42_arr (c : Dev nD) (w : Fin cfg7.W) :
    W42 m ρ c (Proc.devRef .tc (Pipeline.arrRef spec7 w)) = (dat7 (V41 m ρ) c).arrAt w cfg7.N := by
  unfold W42; exact Pipeline.withArrays_arr spec7 launch7.win.arr_inj c _ _ w
theorem W42_of_ne (c : Dev nD) (b : Ref sig .tc) (hb : ∀ w, Pipeline.arrRef spec7 w ≠ b) :
    W42 m ρ c (Proc.devRef .tc b) = W41 m ρ c (Proc.devRef .tc b) := by
  unfold W42; exact Pipeline.withArrays_of_ne spec7 c _ _ b hb
abbrev V42 : (c : Dev nD) → (b : Ref sig .tc) → Buf (Elt F) ((c : Thread nD τ).loc b) := fun c b => W42 m ρ c b
theorem hF7 (c : Dev nD) (w : Fin cfg7.W) : (dat7 (V41 m ρ) c).arrAt w cfg7.N = V42 m ρ c (Pipeline.arrRef spec7 w) :=
  (W42_arr m ρ c w).symm
theorem hrest7 (c : Dev nD) : ∀ b, b ∉ Finset.univ.image (Pipeline.arrRef spec7) → V42 m ρ c b = V41 m ρ c b :=
  fun b hb => W42_of_ne m ρ c b fun w e => hb (Finset.mem_image.mpr ⟨w, Finset.mem_univ _, e⟩)
/-- After item 42 (a host stretch). -/
abbrev W43 : Dev nD → Valuation τ sig (Elt F) := fun c => StableHlo.after (main_part13_ops17 (F := F)) (W42 m ρ c)
/-- After item 43 (a host stretch). -/
abbrev W44 : Dev nD → Valuation τ sig (Elt F) := fun c => StableHlo.after (main_part13_ops18 (F := F)) (W43 m ρ c)
/-- After item 44 (a host stretch). -/
abbrev W45 : Dev nD → Valuation τ sig (Elt F) := fun c => StableHlo.after (main_part14_ops0 (F := F)) (W44 m ρ c)
/-- After item 45 (a host stretch). -/
abbrev W46 : Dev nD → Valuation τ sig (Elt F) := fun c => StableHlo.after (main_part14_ops1 (F := F)) (W45 m ρ c)
/-- After item 46 (a host stretch). -/
abbrev W47 : Dev nD → Valuation τ sig (Elt F) := fun c => StableHlo.after (main_part14_ops2 (F := F)) (W46 m ρ c)
/-- After item 47 (a host stretch). -/
abbrev W48 : Dev nD → Valuation τ sig (Elt F) := fun c => StableHlo.after (main_part14_ops3 (F := F)) (W47 m ρ c)
/-- After item 48 (a host stretch). -/
abbrev W49 : Dev nD → Valuation τ sig (Elt F) := fun c => StableHlo.after (main_part14_ops4 (F := F)) (W48 m ρ c)
/-- After item 49 (a host stretch). -/
abbrev W50 : Dev nD → Valuation τ sig (Elt F) := fun c => StableHlo.after (main_part14_ops5 (F := F)) (W49 m ρ c)
/-- After item 50 (a host stretch). -/
abbrev W51 : Dev nD → Valuation τ sig (Elt F) := fun c => StableHlo.after (main_part14_ops6 (F := F)) (W50 m ρ c)
/-- The same read at the TensorCore's references: what region 8 is entered with. -/
abbrev V51 : (c : Dev nD) → (b : Ref sig .tc) → Buf (Elt F) ((c : Thread nD τ).loc b) := fun c b => W51 m ρ c b
/-- After item 51 (region 8): its arrays at what the pipeline leaves, every other buffer as entered. -/
def W52 (c : Dev nD) : Valuation τ sig (Elt F) :=
  Pipeline.withArrays spec8 c (W51 m ρ c) fun w => (dat8 (V51 m ρ) c).arrAt w cfg8.N
theorem W52_arr (c : Dev nD) (w : Fin cfg8.W) :
    W52 m ρ c (Proc.devRef .tc (Pipeline.arrRef spec8 w)) = (dat8 (V51 m ρ) c).arrAt w cfg8.N := by
  unfold W52; exact Pipeline.withArrays_arr spec8 launch8.win.arr_inj c _ _ w
theorem W52_of_ne (c : Dev nD) (b : Ref sig .tc) (hb : ∀ w, Pipeline.arrRef spec8 w ≠ b) :
    W52 m ρ c (Proc.devRef .tc b) = W51 m ρ c (Proc.devRef .tc b) := by
  unfold W52; exact Pipeline.withArrays_of_ne spec8 c _ _ b hb
abbrev V52 : (c : Dev nD) → (b : Ref sig .tc) → Buf (Elt F) ((c : Thread nD τ).loc b) := fun c b => W52 m ρ c b
theorem hF8 (c : Dev nD) (w : Fin cfg8.W) : (dat8 (V51 m ρ) c).arrAt w cfg8.N = V52 m ρ c (Pipeline.arrRef spec8 w) :=
  (W52_arr m ρ c w).symm
theorem hrest8 (c : Dev nD) : ∀ b, b ∉ Finset.univ.image (Pipeline.arrRef spec8) → V52 m ρ c b = V51 m ρ c b :=
  fun b hb => W52_of_ne m ρ c b fun w e => hb (Finset.mem_image.mpr ⟨w, Finset.mem_univ _, e⟩)
/-- After item 52 (a host stretch). -/
abbrev W53 : Dev nD → Valuation τ sig (Elt F) := fun c => StableHlo.after (main_part14_ops7 (F := F)) (W52 m ρ c)
/-- The same read at the TensorCore's references: what region 9 is entered with. -/
abbrev V53 : (c : Dev nD) → (b : Ref sig .tc) → Buf (Elt F) ((c : Thread nD τ).loc b) := fun c b => W53 m ρ c b
/-- After item 53 (region 9): its arrays at what the pipeline leaves, every other buffer as entered. -/
def W54 (c : Dev nD) : Valuation τ sig (Elt F) :=
  Pipeline.withArrays spec9 c (W53 m ρ c) fun w => (dat9 (V53 m ρ) c).arrAt w cfg9.N
theorem W54_arr (c : Dev nD) (w : Fin cfg9.W) :
    W54 m ρ c (Proc.devRef .tc (Pipeline.arrRef spec9 w)) = (dat9 (V53 m ρ) c).arrAt w cfg9.N := by
  unfold W54; exact Pipeline.withArrays_arr spec9 launch9.win.arr_inj c _ _ w
theorem W54_of_ne (c : Dev nD) (b : Ref sig .tc) (hb : ∀ w, Pipeline.arrRef spec9 w ≠ b) :
    W54 m ρ c (Proc.devRef .tc b) = W53 m ρ c (Proc.devRef .tc b) := by
  unfold W54; exact Pipeline.withArrays_of_ne spec9 c _ _ b hb
abbrev V54 : (c : Dev nD) → (b : Ref sig .tc) → Buf (Elt F) ((c : Thread nD τ).loc b) := fun c b => W54 m ρ c b
theorem hF9 (c : Dev nD) (w : Fin cfg9.W) : (dat9 (V53 m ρ) c).arrAt w cfg9.N = V54 m ρ c (Pipeline.arrRef spec9 w) :=
  (W54_arr m ρ c w).symm
theorem hrest9 (c : Dev nD) : ∀ b, b ∉ Finset.univ.image (Pipeline.arrRef spec9) → V54 m ρ c b = V53 m ρ c b :=
  fun b hb => W54_of_ne m ρ c b fun w e => hb (Finset.mem_image.mpr ⟨w, Finset.mem_univ _, e⟩)
/-- After item 54 (a host stretch). -/
abbrev W55 : Dev nD → Valuation τ sig (Elt F) := fun c => StableHlo.after (main_part14_ops8 (F := F)) (W54 m ρ c)
/-- The same read at the TensorCore's references: what region 10 is entered with. -/
abbrev V55 : (c : Dev nD) → (b : Ref sig .tc) → Buf (Elt F) ((c : Thread nD τ).loc b) := fun c b => W55 m ρ c b
/-- After item 55 (region 10): its arrays at what the pipeline leaves, every other buffer as entered. -/
def W56 (c : Dev nD) : Valuation τ sig (Elt F) :=
  Pipeline.withArrays spec10 c (W55 m ρ c) fun w => (dat10 (V55 m ρ) c).arrAt w cfg10.N
theorem W56_arr (c : Dev nD) (w : Fin cfg10.W) :
    W56 m ρ c (Proc.devRef .tc (Pipeline.arrRef spec10 w)) = (dat10 (V55 m ρ) c).arrAt w cfg10.N := by
  unfold W56; exact Pipeline.withArrays_arr spec10 launch10.win.arr_inj c _ _ w
theorem W56_of_ne (c : Dev nD) (b : Ref sig .tc) (hb : ∀ w, Pipeline.arrRef spec10 w ≠ b) :
    W56 m ρ c (Proc.devRef .tc b) = W55 m ρ c (Proc.devRef .tc b) := by
  unfold W56; exact Pipeline.withArrays_of_ne spec10 c _ _ b hb
abbrev V56 : (c : Dev nD) → (b : Ref sig .tc) → Buf (Elt F) ((c : Thread nD τ).loc b) := fun c b => W56 m ρ c b
theorem hF10 (c : Dev nD) (w : Fin cfg10.W) : (dat10 (V55 m ρ) c).arrAt w cfg10.N = V56 m ρ c (Pipeline.arrRef spec10 w) :=
  (W56_arr m ρ c w).symm
theorem hrest10 (c : Dev nD) : ∀ b, b ∉ Finset.univ.image (Pipeline.arrRef spec10) → V56 m ρ c b = V55 m ρ c b :=
  fun b hb => W56_of_ne m ρ c b fun w e => hb (Finset.mem_image.mpr ⟨w, Finset.mem_univ _, e⟩)
/-- After item 56 (region 11): its arrays at what the pipeline leaves, every other buffer as entered. -/
def W57 (c : Dev nD) : Valuation τ sig (Elt F) :=
  Pipeline.withArrays spec11 c (W56 m ρ c) fun w => (dat11 (V56 m ρ) c).arrAt w cfg11.N
theorem W57_arr (c : Dev nD) (w : Fin cfg11.W) :
    W57 m ρ c (Proc.devRef .tc (Pipeline.arrRef spec11 w)) = (dat11 (V56 m ρ) c).arrAt w cfg11.N := by
  unfold W57; exact Pipeline.withArrays_arr spec11 launch11.win.arr_inj c _ _ w
theorem W57_of_ne (c : Dev nD) (b : Ref sig .tc) (hb : ∀ w, Pipeline.arrRef spec11 w ≠ b) :
    W57 m ρ c (Proc.devRef .tc b) = W56 m ρ c (Proc.devRef .tc b) := by
  unfold W57; exact Pipeline.withArrays_of_ne spec11 c _ _ b hb
abbrev V57 : (c : Dev nD) → (b : Ref sig .tc) → Buf (Elt F) ((c : Thread nD τ).loc b) := fun c b => W57 m ρ c b
theorem hF11 (c : Dev nD) (w : Fin cfg11.W) : (dat11 (V56 m ρ) c).arrAt w cfg11.N = V57 m ρ c (Pipeline.arrRef spec11 w) :=
  (W57_arr m ρ c w).symm
theorem hrest11 (c : Dev nD) : ∀ b, b ∉ Finset.univ.image (Pipeline.arrRef spec11) → V57 m ρ c b = V56 m ρ c b :=
  fun b hb => W57_of_ne m ρ c b fun w e => hb (Finset.mem_image.mpr ⟨w, Finset.mem_univ _, e⟩)
/-- After item 57 (a host stretch). -/
abbrev W58 : Dev nD → Valuation τ sig (Elt F) := fun c => StableHlo.after (main_part14_ops9 (F := F)) (W57 m ρ c)
/-- After item 58 (a host stretch). -/
abbrev W59 : Dev nD → Valuation τ sig (Elt F) := fun c => StableHlo.after (main_part14_ops10 (F := F)) (W58 m ρ c)
/-- After item 59 (a host stretch). -/
abbrev W60 : Dev nD → Valuation τ sig (Elt F) := fun c => StableHlo.after (main_part14_ops11 (F := F)) (W59 m ρ c)
/-- After item 60 (a host stretch). -/
abbrev W61 : Dev nD → Valuation τ sig (Elt F) := fun c => StableHlo.after (main_part14_ops12 (F := F)) (W60 m ρ c)
/-- After item 61 (a host stretch). -/
abbrev W62 : Dev nD → Valuation τ sig (Elt F) := fun c => StableHlo.after (main_part14_ops13 (F := F)) (W61 m ρ c)
/-- After item 62 (a host stretch). -/
abbrev W63 : Dev nD → Valuation τ sig (Elt F) := fun c => StableHlo.after (main_part14_ops14 (F := F)) (W62 m ρ c)
/-- After item 63 (a host stretch). -/
abbrev W64 : Dev nD → Valuation τ sig (Elt F) := fun c => StableHlo.after (main_part14_ops15 (F := F)) (W63 m ρ c)
/-- After item 64 (a host stretch). -/
abbrev W65 : Dev nD → Valuation τ sig (Elt F) := fun c => StableHlo.after (main_part14_ops16 (F := F)) (W64 m ρ c)

/-! ## The launch's parameters and the proof data of the twelve pipelines -/

/-- No prefetched table anywhere. -/
abbrev adm : (p : Fin 12) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's owes, at nothing. -/
abbrev R (c : Dev nD) : sProp 𝕄 := iprop(∃ W, owes (c : Thread nD τ) (0 : CellTallies nD τ sig Unit) W)

def pdats : (p : Fin 12) → (c : Dev nD) → Dat τ (Elt F) Unit ℕ (UR sig nD τ) ℕ (Pipeline.pin (pcfgs (F := F)) adm p) c
  | ⟨0, _⟩ => fun c => dat0 (V22 m ρ) c
  | ⟨1, _⟩ => fun c => dat1 (V24 m ρ) c
  | ⟨2, _⟩ => fun c => dat2 (V26 m ρ) c
  | ⟨3, _⟩ => fun c => dat3 (V27 m ρ) c
  | ⟨4, _⟩ => fun c => dat4 (V36 m ρ) c
  | ⟨5, _⟩ => fun c => dat5 (V38 m ρ) c
  | ⟨6, _⟩ => fun c => dat6 (V40 m ρ) c
  | ⟨7, _⟩ => fun c => dat7 (V41 m ρ) c
  | ⟨8, _⟩ => fun c => dat8 (V51 m ρ) c
  | ⟨9, _⟩ => fun c => dat9 (V53 m ρ) c
  | ⟨10, _⟩ => fun c => dat10 (V55 m ρ) c
  | ⟨11, _⟩ => fun c => dat11 (V56 m ρ) c

end Cert.Kernel.Hand

end
-- ==== Proof.KB.R0Obl.lean ====
/-
  Region 0: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle0_of_not_last (t : Fin cfg0.N) (h1 : ¬ t.val % 8 = 7) : idle0 2 (grid0.coords t) = true := by
  have h : ¬ last0 (grid0.coords t) := fun h => h1 ((last0_iff t).mp h)
  show (!(k0_cond2 (grid0.coords t) == 1#1)) = true
  simp only [Bool.not_eq_true', beq_eq_false_iff_ne, ne_eq]; exact h
theorem idle0_of_last (t : Fin cfg0.N) (h1 : t.val % 8 = 7) : idle0 2 (grid0.coords t) = false := by
  have h : last0 (grid0.coords t) := (last0_iff t).mpr h1
  show (!(k0_cond2 (grid0.coords t) == 1#1)) = false
  simp only [Bool.not_eq_false', beq_iff_eq]; exact h
/-- and is written back only at the last ones. -/
theorem flush0_of_not_last (t : Fin cfg0.N) (h1 : ¬ t.val % 8 = 7) : (win0 2).flush t = false :=
  Bool.eq_false_iff.mpr fun h => h1 ((flush0_2 t).mp h)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns: the output tile's buffer as found where the window is idle, else at what the point writes. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ (match cfg0.idle 2 (cfg0.grid.coords t) with
        | true =>
          (match (cfg0.win 2).flush t with
            | false => iprop(∃ d, owns (c : Thread nD τ) (ms0_2 t) fullShare ((dat0 V c).before 2 t d))
            | true => owns (c : Thread nD τ) (ms0_2 t) fullShare ((dat0 V c).after 2 t))
        | false => owns (c : Thread nD τ) (ms0_2 t) fullShare ((dat0 V c).after 2 t)))

theorem succ_inv0 (c : Dev nD) (t : Fin cfg0.N) :
    ∀ (n : ℕ) (hn : n < cfg0.N), t.succ.val = n + 1 → accAt0 V c t.val t.isLt = accAt0 V c n hn := by
  intro n hn hj
  have hn' : n = t.val := by rw [Fin.val_succ] at hj; omega
  subst hn'; rfl

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, after0_0, after0_1,
    show (dat0 V c).Φ t.castSucc = Φ0 V c t.castSucc from rfl, show (dat0 V c).Φ t.succ = Φ0 V c t.succ from rfl]
  unfold Φ0
  by_cases h0 : t.val % 8 = 0
  · have h1 : ¬ t.val % 8 = 7 := not_last_of_first0 h0
    rw [idle0_of_not_last t h1, flush0_of_not_last t h1]; dsimp only
    iintro ⟨⟨⟨%s, -, Hs⟩, Hrest⟩, Ho, ⟨%d0, H0⟩, ⟨%d1, H1⟩, ⟨%d2, H2⟩⟩
    iapply ((runFirst0 c (grid0.coords t) (ms0_0 t) (hs0_0 t) (ms0_1 t) (hs0_1 t) (ms0_2 t) (hs0_2 t) sc0 hsc0
      ((first0_iff t).mpr h0) (fun h => h1 ((last0_iff t).mp h)) (iblk0 V c 0 t) (iblk0 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt0 V c t.val t.isLt); isplitr
        · ipureintro; exact succ_inv0 V c t
        · rw [accAt0_first V c t h0]; unfold accFirst0 owns; iexists _; isplitr
          swap; · iexact Hs
          ipureintro; exact View.read_writes_of_cover _ _ _ _ _ (coverFirst0 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle0_of_last t h1]; dsimp only
      rw [after0_2, show outAt0 V c t = outLast0 c (grid0.coords t) (ms0_0 t) (hs0_0 t) (ms0_1 t) (hs0_1 t) (ms0_2 t) (hs0_2 t) sc0 hsc0
          (iblk0 V c 0 t) (iblk0 V c 1 t) (accAt0 V c (t.val - 1) (Nat.lt_of_le_of_lt (Nat.sub_le _ _) t.isLt))
          (fun h' => h0 ((first0_iff t).mp h')) ((last0_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt0 V c (t.val - 1) (Nat.lt_of_le_of_lt (Nat.sub_le _ _) t.isLt) :=
        hs (t.val - 1) _ (by rw [Fin.coe_castSucc]; omega)
      iapply ((runLast0 c (grid0.coords t) (ms0_0 t) (hs0_0 t) (ms0_1 t) (hs0_1 t) (ms0_2 t) (hs0_2 t) sc0 hsc0
        (fun h => h0 ((first0_iff t).mp h)) ((last0_iff t).mpr h1) (iblk0 V c 0 t) (iblk0 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt0 V c t.val t.isLt); isplitr
          · ipureintro; exact succ_inv0 V c t
          · rw [accAt0_last V c t h0 h1]; unfold accLast0 owns; iexists _; isplitr
            swap; · iexact Hs
            ipureintro; exact View.read_writes_of_cover _ _ _ _ _ (coverLastAcc0 c _ _ _ _ _ _ _ _ _ _ _ _ _ _)
        · iexact Hrest
      isplitl [Ho]; · iexact Ho
      isplitl [H0]; · iexact H0
      isplitl [H1]; · iexact H1
      unfold outLast0 owns; iexists _; isplitr
      swap; · iexact H2
      ipureintro; exact View.read_writes_of_cover _ _ _ _ _ (coverLastOut0 c _ _ _ _ _ _ _ _ _ _ _ _ _ _)
    · rw [idle0_of_not_last t h1, flush0_of_not_last t h1]; dsimp only
      iintro ⟨⟨⟨%s, %hs, Hs⟩, Hrest⟩, Ho, ⟨%d0, H0⟩, ⟨%d1, H1⟩, ⟨%d2, H2⟩⟩
      obtain rfl : s = accAt0 V c (t.val - 1) (Nat.lt_of_le_of_lt (Nat.sub_le _ _) t.isLt) :=
        hs (t.val - 1) _ (by rw [Fin.coe_castSucc]; omega)
      iapply ((runMid0 c (grid0.coords t) (ms0_0 t) (hs0_0 t) (ms0_1 t) (hs0_1 t) (ms0_2 t) (hs0_2 t) sc0 hsc0
        (fun h => h0 ((first0_iff t).mp h)) (fun h => h1 ((last0_iff t).mp h)) (iblk0 V c 0 t) (iblk0 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt0 V c t.val t.isLt); isplitr
          · ipureintro; exact succ_inv0 V c t
          · rw [accAt0_mid V c t h0 h1]; unfold accMid0 owns; iexists _; isplitr
            swap; · iexact Hs
            ipureintro; exact View.read_writes_of_cover _ _ _ _ _ (coverMid0 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg0.lean ====
/-
  Region 0 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R0Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V22 m ρ) c).loose
  hwaits := Pipeline.hwaits_of_owed_zero _ _ _ _ L lv 0 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X _ := BI.emp
  Y _ := BI.emp
  Z c := Pipeline.unscopedRest (Ix := Unit) (Name := ℕ) (U := UR sig nD τ) (Lvl := ℕ) spec0 c (V22 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V22 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0 = Φ0 (V22 m ρ) c 0 from rfl, show (Pipeline.scopedRest (Ix := Unit) (Name := ℕ) (U := UR sig nD τ) (Lvl := ℕ) (Val := Elt F) (Pipeline.pin (pcfgs (F := F)) adm 0).spec c : sProp 𝕄) = _ from scopedRest0_split c]; unfold Φ0
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 0 c).Φ (Fin.last _) = Φ0 (V22 m ρ) c (Fin.last _) from rfl, show (Pipeline.scopedRest (Ix := Unit) (Name := ℕ) (U := UR sig nD τ) (Lvl := ℕ) (Val := Elt F) (Pipeline.pin (pcfgs (F := F)) adm 0).spec c : sProp 𝕄) = _ from scopedRest0_split c]; unfold Φ0
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V22 m ρ c) (V23 m ρ c) ((pdats m ρ 0 c).arrAt · cfg0.N) (hF0 m ρ c) (hrest0 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R1Obl.lean ====
/-
  Region 1: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle1_of_not_last (t : Fin cfg1.N) (h1 : ¬ t.val % 8 = 7) : idle1 2 (grid1.coords t) = true := by
  have h : ¬ last1 (grid1.coords t) := fun h => h1 ((last1_iff t).mp h)
  show (!(k1_cond2 (grid1.coords t) == 1#1)) = true
  simp only [Bool.not_eq_true', beq_eq_false_iff_ne, ne_eq]; exact h
theorem idle1_of_last (t : Fin cfg1.N) (h1 : t.val % 8 = 7) : idle1 2 (grid1.coords t) = false := by
  have h : last1 (grid1.coords t) := (last1_iff t).mpr h1
  show (!(k1_cond2 (grid1.coords t) == 1#1)) = false
  simp only [Bool.not_eq_false', beq_iff_eq]; exact h
/-- and is written back only at the last ones. -/
theorem flush1_of_not_last (t : Fin cfg1.N) (h1 : ¬ t.val % 8 = 7) : (win1 2).flush t = false :=
  Bool.eq_false_iff.mpr fun h => h1 ((flush1_2 t).mp h)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns: the output tile's buffer as found where the window is idle, else at what the point writes. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ (match cfg1.idle 2 (cfg1.grid.coords t) with
        | true =>
          (match (cfg1.win 2).flush t with
            | false => iprop(∃ d, owns (c : Thread nD τ) (ms1_2 t) fullShare ((dat1 V c).before 2 t d))
            | true => owns (c : Thread nD τ) (ms1_2 t) fullShare ((dat1 V c).after 2 t))
        | false => owns (c : Thread nD τ) (ms1_2 t) fullShare ((dat1 V c).after 2 t)))

theorem succ_inv1 (c : Dev nD) (t : Fin cfg1.N) :
    ∀ (n : ℕ) (hn : n < cfg1.N), t.succ.val = n + 1 → accAt1 V c t.val t.isLt = accAt1 V c n hn := by
  intro n hn hj
  have hn' : n = t.val := by rw [Fin.val_succ] at hj; omega
  subst hn'; rfl

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, after1_0, after1_1,
    show (dat1 V c).Φ t.castSucc = Φ1 V c t.castSucc from rfl, show (dat1 V c).Φ t.succ = Φ1 V c t.succ from rfl]
  unfold Φ1
  by_cases h0 : t.val % 8 = 0
  · have h1 : ¬ t.val % 8 = 7 := not_last_of_first1 h0
    rw [idle1_of_not_last t h1, flush1_of_not_last t h1]; dsimp only
    iintro ⟨⟨⟨%s, -, Hs⟩, Hrest⟩, Ho, ⟨%d0, H0⟩, ⟨%d1, H1⟩, ⟨%d2, H2⟩⟩
    iapply ((runFirst1 c (grid1.coords t) (ms1_0 t) (hs1_0 t) (ms1_1 t) (hs1_1 t) (ms1_2 t) (hs1_2 t) sc1 hsc1
      ((first1_iff t).mpr h0) (fun h => h1 ((last1_iff t).mp h)) (iblk1 V c 0 t) (iblk1 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt1 V c t.val t.isLt); isplitr
        · ipureintro; exact succ_inv1 V c t
        · rw [accAt1_first V c t h0]; unfold accFirst1 owns; iexists _; isplitr
          swap; · iexact Hs
          ipureintro; exact View.read_writes_of_cover _ _ _ _ _ (coverFirst1 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle1_of_last t h1]; dsimp only
      rw [after1_2, show outAt1 V c t = outLast1 c (grid1.coords t) (ms1_0 t) (hs1_0 t) (ms1_1 t) (hs1_1 t) (ms1_2 t) (hs1_2 t) sc1 hsc1
          (iblk1 V c 0 t) (iblk1 V c 1 t) (accAt1 V c (t.val - 1) (Nat.lt_of_le_of_lt (Nat.sub_le _ _) t.isLt))
          (fun h' => h0 ((first1_iff t).mp h')) ((last1_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt1 V c (t.val - 1) (Nat.lt_of_le_of_lt (Nat.sub_le _ _) t.isLt) :=
        hs (t.val - 1) _ (by rw [Fin.coe_castSucc]; omega)
      iapply ((runLast1 c (grid1.coords t) (ms1_0 t) (hs1_0 t) (ms1_1 t) (hs1_1 t) (ms1_2 t) (hs1_2 t) sc1 hsc1
        (fun h => h0 ((first1_iff t).mp h)) ((last1_iff t).mpr h1) (iblk1 V c 0 t) (iblk1 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt1 V c t.val t.isLt); isplitr
          · ipureintro; exact succ_inv1 V c t
          · rw [accAt1_last V c t h0 h1]; unfold accLast1 owns; iexists _; isplitr
            swap; · iexact Hs
            ipureintro; exact View.read_writes_of_cover _ _ _ _ _ (coverLastAcc1 c _ _ _ _ _ _ _ _ _ _ _ _ _ _)
        · iexact Hrest
      isplitl [Ho]; · iexact Ho
      isplitl [H0]; · iexact H0
      isplitl [H1]; · iexact H1
      unfold outLast1 owns; iexists _; isplitr
      swap; · iexact H2
      ipureintro; exact View.read_writes_of_cover _ _ _ _ _ (coverLastOut1 c _ _ _ _ _ _ _ _ _ _ _ _ _ _)
    · rw [idle1_of_not_last t h1, flush1_of_not_last t h1]; dsimp only
      iintro ⟨⟨⟨%s, %hs, Hs⟩, Hrest⟩, Ho, ⟨%d0, H0⟩, ⟨%d1, H1⟩, ⟨%d2, H2⟩⟩
      obtain rfl : s = accAt1 V c (t.val - 1) (Nat.lt_of_le_of_lt (Nat.sub_le _ _) t.isLt) :=
        hs (t.val - 1) _ (by rw [Fin.coe_castSucc]; omega)
      iapply ((runMid1 c (grid1.coords t) (ms1_0 t) (hs1_0 t) (ms1_1 t) (hs1_1 t) (ms1_2 t) (hs1_2 t) sc1 hsc1
        (fun h => h0 ((first1_iff t).mp h)) (fun h => h1 ((last1_iff t).mp h)) (iblk1 V c 0 t) (iblk1 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt1 V c t.val t.isLt); isplitr
          · ipureintro; exact succ_inv1 V c t
          · rw [accAt1_mid V c t h0 h1]; unfold accMid1 owns; iexists _; isplitr
            swap; · iexact Hs
            ipureintro; exact View.read_writes_of_cover _ _ _ _ _ (coverMid1 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg1.lean ====
/-
  Region 1 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R1Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V24 m ρ) c).loose
  hwaits := Pipeline.hwaits_of_owed_zero _ _ _ _ L lv 1 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X _ := BI.emp
  Y _ := BI.emp
  Z c := Pipeline.unscopedRest (Ix := Unit) (Name := ℕ) (U := UR sig nD τ) (Lvl := ℕ) spec1 c (V24 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V24 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 1 c).Φ 0 = Φ1 (V24 m ρ) c 0 from rfl, show (Pipeline.scopedRest (Ix := Unit) (Name := ℕ) (U := UR sig nD τ) (Lvl := ℕ) (Val := Elt F) (Pipeline.pin (pcfgs (F := F)) adm 1).spec c : sProp 𝕄) = _ from scopedRest1_split c]; unfold Φ1
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 1 c).Φ (Fin.last _) = Φ1 (V24 m ρ) c (Fin.last _) from rfl, show (Pipeline.scopedRest (Ix := Unit) (Name := ℕ) (U := UR sig nD τ) (Lvl := ℕ) (Val := Elt F) (Pipeline.pin (pcfgs (F := F)) adm 1).spec c : sProp 𝕄) = _ from scopedRest1_split c]; unfold Φ1
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V24 m ρ c) (V25 m ρ c) ((pdats m ρ 1 c).arrAt · cfg1.N) (hF1 m ρ c) (hrest1 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R2Obl.lean ====
/-
  Region 2: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R2Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle2_of_not_last (t : Fin cfg2.N) (h1 : ¬ t.val % 8 = 7) : idle2 2 (grid2.coords t) = true := by
  have h : ¬ last2 (grid2.coords t) := fun h => h1 ((last2_iff t).mp h)
  show (!(k2_cond2 (grid2.coords t) == 1#1)) = true
  simp only [Bool.not_eq_true', beq_eq_false_iff_ne, ne_eq]; exact h
theorem idle2_of_last (t : Fin cfg2.N) (h1 : t.val % 8 = 7) : idle2 2 (grid2.coords t) = false := by
  have h : last2 (grid2.coords t) := (last2_iff t).mpr h1
  show (!(k2_cond2 (grid2.coords t) == 1#1)) = false
  simp only [Bool.not_eq_false', beq_iff_eq]; exact h
/-- and is written back only at the last ones. -/
theorem flush2_of_not_last (t : Fin cfg2.N) (h1 : ¬ t.val % 8 = 7) : (win2 2).flush t = false :=
  Bool.eq_false_iff.mpr fun h => h1 ((flush2_2 t).mp h)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns: the output tile's buffer as found where the window is idle, else at what the point writes. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ (match cfg2.idle 2 (cfg2.grid.coords t) with
        | true =>
          (match (cfg2.win 2).flush t with
            | false => iprop(∃ d, owns (c : Thread nD τ) (ms2_2 t) fullShare ((dat2 V c).before 2 t d))
            | true => owns (c : Thread nD τ) (ms2_2 t) fullShare ((dat2 V c).after 2 t))
        | false => owns (c : Thread nD τ) (ms2_2 t) fullShare ((dat2 V c).after 2 t)))

theorem succ_inv2 (c : Dev nD) (t : Fin cfg2.N) :
    ∀ (n : ℕ) (hn : n < cfg2.N), t.succ.val = n + 1 → accAt2 V c t.val t.isLt = accAt2 V c n hn := by
  intro n hn hj
  have hn' : n = t.val := by rw [Fin.val_succ] at hj; omega
  subst hn'; rfl

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl, after2_0, after2_1,
    show (dat2 V c).Φ t.castSucc = Φ2 V c t.castSucc from rfl, show (dat2 V c).Φ t.succ = Φ2 V c t.succ from rfl]
  unfold Φ2
  by_cases h0 : t.val % 8 = 0
  · have h1 : ¬ t.val % 8 = 7 := not_last_of_first2 h0
    rw [idle2_of_not_last t h1, flush2_of_not_last t h1]; dsimp only
    iintro ⟨⟨⟨%s, -, Hs⟩, Hrest⟩, Ho, ⟨%d0, H0⟩, ⟨%d1, H1⟩, ⟨%d2, H2⟩⟩
    iapply ((runFirst2 c (grid2.coords t) (ms2_0 t) (hs2_0 t) (ms2_1 t) (hs2_1 t) (ms2_2 t) (hs2_2 t) sc2 hsc2
      ((first2_iff t).mpr h0) (fun h => h1 ((last2_iff t).mp h)) (iblk2 V c 0 t) (iblk2 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt2 V c t.val t.isLt); isplitr
        · ipureintro; exact succ_inv2 V c t
        · rw [accAt2_first V c t h0]; unfold accFirst2 owns; iexists _; isplitr
          swap; · iexact Hs
          ipureintro; exact View.read_writes_of_cover _ _ _ _ _ (coverFirst2 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle2_of_last t h1]; dsimp only
      rw [after2_2, show outAt2 V c t = outLast2 c (grid2.coords t) (ms2_0 t) (hs2_0 t) (ms2_1 t) (hs2_1 t) (ms2_2 t) (hs2_2 t) sc2 hsc2
          (iblk2 V c 0 t) (iblk2 V c 1 t) (accAt2 V c (t.val - 1) (Nat.lt_of_le_of_lt (Nat.sub_le _ _) t.isLt))
          (fun h' => h0 ((first2_iff t).mp h')) ((last2_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt2 V c (t.val - 1) (Nat.lt_of_le_of_lt (Nat.sub_le _ _) t.isLt) :=
        hs (t.val - 1) _ (by rw [Fin.coe_castSucc]; omega)
      iapply ((runLast2 c (grid2.coords t) (ms2_0 t) (hs2_0 t) (ms2_1 t) (hs2_1 t) (ms2_2 t) (hs2_2 t) sc2 hsc2
        (fun h => h0 ((first2_iff t).mp h)) ((last2_iff t).mpr h1) (iblk2 V c 0 t) (iblk2 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt2 V c t.val t.isLt); isplitr
          · ipureintro; exact succ_inv2 V c t
          · rw [accAt2_last V c t h0 h1]; unfold accLast2 owns; iexists _; isplitr
            swap; · iexact Hs
            ipureintro; exact View.read_writes_of_cover _ _ _ _ _ (coverLastAcc2 c _ _ _ _ _ _ _ _ _ _ _ _ _ _)
        · iexact Hrest
      isplitl [Ho]; · iexact Ho
      isplitl [H0]; · iexact H0
      isplitl [H1]; · iexact H1
      unfold outLast2 owns; iexists _; isplitr
      swap; · iexact H2
      ipureintro; exact View.read_writes_of_cover _ _ _ _ _ (coverLastOut2 c _ _ _ _ _ _ _ _ _ _ _ _ _ _)
    · rw [idle2_of_not_last t h1, flush2_of_not_last t h1]; dsimp only
      iintro ⟨⟨⟨%s, %hs, Hs⟩, Hrest⟩, Ho, ⟨%d0, H0⟩, ⟨%d1, H1⟩, ⟨%d2, H2⟩⟩
      obtain rfl : s = accAt2 V c (t.val - 1) (Nat.lt_of_le_of_lt (Nat.sub_le _ _) t.isLt) :=
        hs (t.val - 1) _ (by rw [Fin.coe_castSucc]; omega)
      iapply ((runMid2 c (grid2.coords t) (ms2_0 t) (hs2_0 t) (ms2_1 t) (hs2_1 t) (ms2_2 t) (hs2_2 t) sc2 hsc2
        (fun h => h0 ((first2_iff t).mp h)) (fun h => h1 ((last2_iff t).mp h)) (iblk2 V c 0 t) (iblk2 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt2 V c t.val t.isLt); isplitr
          · ipureintro; exact succ_inv2 V c t
          · rw [accAt2_mid V c t h0 h1]; unfold accMid2 owns; iexists _; isplitr
            swap; · iexact Hs
            ipureintro; exact View.read_writes_of_cover _ _ _ _ _ (coverMid2 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg2.lean ====
/-
  Region 2 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R2Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V26 m ρ) c).loose
  hwaits := Pipeline.hwaits_of_owed_zero _ _ _ _ L lv 2 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X _ := BI.emp
  Y _ := BI.emp
  Z c := Pipeline.unscopedRest (Ix := Unit) (Name := ℕ) (U := UR sig nD τ) (Lvl := ℕ) spec2 c (V26 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V26 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 2 c).Φ 0 = Φ2 (V26 m ρ) c 0 from rfl, show (Pipeline.scopedRest (Ix := Unit) (Name := ℕ) (U := UR sig nD τ) (Lvl := ℕ) (Val := Elt F) (Pipeline.pin (pcfgs (F := F)) adm 2).spec c : sProp 𝕄) = _ from scopedRest2_split c]; unfold Φ2
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 2 c).Φ (Fin.last _) = Φ2 (V26 m ρ) c (Fin.last _) from rfl, show (Pipeline.scopedRest (Ix := Unit) (Name := ℕ) (U := UR sig nD τ) (Lvl := ℕ) (Val := Elt F) (Pipeline.pin (pcfgs (F := F)) adm 2).spec c : sProp 𝕄) = _ from scopedRest2_split c]; unfold Φ2
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V26 m ρ c) (V27 m ρ c) ((pdats m ρ 2 c).arrAt · cfg2.N) (hF2 m ρ c) (hrest2 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R3Obl.lean ====
/-
  Region 3: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R3Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle3_of_not_last (t : Fin cfg3.N) (h1 : ¬ t.val % 8 = 7) : idle3 2 (grid3.coords t) = true := by
  have h : ¬ last3 (grid3.coords t) := fun h => h1 ((last3_iff t).mp h)
  show (!(k3_cond2 (grid3.coords t) == 1#1)) = true
  simp only [Bool.not_eq_true', beq_eq_false_iff_ne, ne_eq]; exact h
theorem idle3_of_last (t : Fin cfg3.N) (h1 : t.val % 8 = 7) : idle3 2 (grid3.coords t) = false := by
  have h : last3 (grid3.coords t) := (last3_iff t).mpr h1
  show (!(k3_cond2 (grid3.coords t) == 1#1)) = false
  simp only [Bool.not_eq_false', beq_iff_eq]; exact h
/-- and is written back only at the last ones. -/
theorem flush3_of_not_last (t : Fin cfg3.N) (h1 : ¬ t.val % 8 = 7) : (win3 2).flush t = false :=
  Bool.eq_false_iff.mpr fun h => h1 ((flush3_2 t).mp h)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns: the output tile's buffer as found where the window is idle, else at what the point writes. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ (match cfg3.idle 2 (cfg3.grid.coords t) with
        | true =>
          (match (cfg3.win 2).flush t with
            | false => iprop(∃ d, owns (c : Thread nD τ) (ms3_2 t) fullShare ((dat3 V c).before 2 t d))
            | true => owns (c : Thread nD τ) (ms3_2 t) fullShare ((dat3 V c).after 2 t))
        | false => owns (c : Thread nD τ) (ms3_2 t) fullShare ((dat3 V c).after 2 t)))

theorem succ_inv3 (c : Dev nD) (t : Fin cfg3.N) :
    ∀ (n : ℕ) (hn : n < cfg3.N), t.succ.val = n + 1 → accAt3 V c t.val t.isLt = accAt3 V c n hn := by
  intro n hn hj
  have hn' : n = t.val := by rw [Fin.val_succ] at hj; omega
  subst hn'; rfl

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl, after3_0, after3_1,
    show (dat3 V c).Φ t.castSucc = Φ3 V c t.castSucc from rfl, show (dat3 V c).Φ t.succ = Φ3 V c t.succ from rfl]
  unfold Φ3
  by_cases h0 : t.val % 8 = 0
  · have h1 : ¬ t.val % 8 = 7 := not_last_of_first3 h0
    rw [idle3_of_not_last t h1, flush3_of_not_last t h1]; dsimp only
    iintro ⟨⟨⟨%s, -, Hs⟩, Hrest⟩, Ho, ⟨%d0, H0⟩, ⟨%d1, H1⟩, ⟨%d2, H2⟩⟩
    iapply ((runFirst3 c (grid3.coords t) (ms3_0 t) (hs3_0 t) (ms3_1 t) (hs3_1 t) (ms3_2 t) (hs3_2 t) sc3 hsc3
      ((first3_iff t).mpr h0) (fun h => h1 ((last3_iff t).mp h)) (iblk3 V c 0 t) (iblk3 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt3 V c t.val t.isLt); isplitr
        · ipureintro; exact succ_inv3 V c t
        · rw [accAt3_first V c t h0]; unfold accFirst3 owns; iexists _; isplitr
          swap; · iexact Hs
          ipureintro; exact View.read_writes_of_cover _ _ _ _ _ (coverFirst3 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle3_of_last t h1]; dsimp only
      rw [after3_2, show outAt3 V c t = outLast3 c (grid3.coords t) (ms3_0 t) (hs3_0 t) (ms3_1 t) (hs3_1 t) (ms3_2 t) (hs3_2 t) sc3 hsc3
          (iblk3 V c 0 t) (iblk3 V c 1 t) (accAt3 V c (t.val - 1) (Nat.lt_of_le_of_lt (Nat.sub_le _ _) t.isLt))
          (fun h' => h0 ((first3_iff t).mp h')) ((last3_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt3 V c (t.val - 1) (Nat.lt_of_le_of_lt (Nat.sub_le _ _) t.isLt) :=
        hs (t.val - 1) _ (by rw [Fin.coe_castSucc]; omega)
      iapply ((runLast3 c (grid3.coords t) (ms3_0 t) (hs3_0 t) (ms3_1 t) (hs3_1 t) (ms3_2 t) (hs3_2 t) sc3 hsc3
        (fun h => h0 ((first3_iff t).mp h)) ((last3_iff t).mpr h1) (iblk3 V c 0 t) (iblk3 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt3 V c t.val t.isLt); isplitr
          · ipureintro; exact succ_inv3 V c t
          · rw [accAt3_last V c t h0 h1]; unfold accLast3 owns; iexists _; isplitr
            swap; · iexact Hs
            ipureintro; exact View.read_writes_of_cover _ _ _ _ _ (coverLastAcc3 c _ _ _ _ _ _ _ _ _ _ _ _ _ _)
        · iexact Hrest
      isplitl [Ho]; · iexact Ho
      isplitl [H0]; · iexact H0
      isplitl [H1]; · iexact H1
      unfold outLast3 owns; iexists _; isplitr
      swap; · iexact H2
      ipureintro; exact View.read_writes_of_cover _ _ _ _ _ (coverLastOut3 c _ _ _ _ _ _ _ _ _ _ _ _ _ _)
    · rw [idle3_of_not_last t h1, flush3_of_not_last t h1]; dsimp only
      iintro ⟨⟨⟨%s, %hs, Hs⟩, Hrest⟩, Ho, ⟨%d0, H0⟩, ⟨%d1, H1⟩, ⟨%d2, H2⟩⟩
      obtain rfl : s = accAt3 V c (t.val - 1) (Nat.lt_of_le_of_lt (Nat.sub_le _ _) t.isLt) :=
        hs (t.val - 1) _ (by rw [Fin.coe_castSucc]; omega)
      iapply ((runMid3 c (grid3.coords t) (ms3_0 t) (hs3_0 t) (ms3_1 t) (hs3_1 t) (ms3_2 t) (hs3_2 t) sc3 hsc3
        (fun h => h0 ((first3_iff t).mp h)) (fun h => h1 ((last3_iff t).mp h)) (iblk3 V c 0 t) (iblk3 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt3 V c t.val t.isLt); isplitr
          · ipureintro; exact succ_inv3 V c t
          · rw [accAt3_mid V c t h0 h1]; unfold accMid3 owns; iexists _; isplitr
            swap; · iexact Hs
            ipureintro; exact View.read_writes_of_cover _ _ _ _ _ (coverMid3 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg3.lean ====
/-
  Region 3 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R3Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V27 m ρ) c).loose
  hwaits := Pipeline.hwaits_of_owed_zero _ _ _ _ L lv 3 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X _ := BI.emp
  Y _ := BI.emp
  Z c := Pipeline.unscopedRest (Ix := Unit) (Name := ℕ) (U := UR sig nD τ) (Lvl := ℕ) spec3 c (V27 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V27 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 3 c).Φ 0 = Φ3 (V27 m ρ) c 0 from rfl, show (Pipeline.scopedRest (Ix := Unit) (Name := ℕ) (U := UR sig nD τ) (Lvl := ℕ) (Val := Elt F) (Pipeline.pin (pcfgs (F := F)) adm 3).spec c : sProp 𝕄) = _ from scopedRest3_split c]; unfold Φ3
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 3 c).Φ (Fin.last _) = Φ3 (V27 m ρ) c (Fin.last _) from rfl, show (Pipeline.scopedRest (Ix := Unit) (Name := ℕ) (U := UR sig nD τ) (Lvl := ℕ) (Val := Elt F) (Pipeline.pin (pcfgs (F := F)) adm 3).spec c : sProp 𝕄) = _ from scopedRest3_split c]; unfold Φ3
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V27 m ρ c) (V28 m ρ c) ((pdats m ρ 3 c).arrAt · cfg3.N) (hF3 m ρ c) (hrest3 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R4Obl.lean ====
/-
  Region 4: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R4Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle4_of_not_last (t : Fin cfg4.N) (h1 : ¬ t.val % 8 = 7) : idle4 2 (grid4.coords t) = true := by
  have h : ¬ last4 (grid4.coords t) := fun h => h1 ((last4_iff t).mp h)
  show (!(k4_cond2 (grid4.coords t) == 1#1)) = true
  simp only [Bool.not_eq_true', beq_eq_false_iff_ne, ne_eq]; exact h
theorem idle4_of_last (t : Fin cfg4.N) (h1 : t.val % 8 = 7) : idle4 2 (grid4.coords t) = false := by
  have h : last4 (grid4.coords t) := (last4_iff t).mpr h1
  show (!(k4_cond2 (grid4.coords t) == 1#1)) = false
  simp only [Bool.not_eq_false', beq_iff_eq]; exact h
/-- and is written back only at the last ones. -/
theorem flush4_of_not_last (t : Fin cfg4.N) (h1 : ¬ t.val % 8 = 7) : (win4 2).flush t = false :=
  Bool.eq_false_iff.mpr fun h => h1 ((flush4_2 t).mp h)

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns: the output tile's buffer as found where the window is idle, else at what the point writes. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ (match cfg4.idle 2 (cfg4.grid.coords t) with
        | true =>
          (match (cfg4.win 2).flush t with
            | false => iprop(∃ d, owns (c : Thread nD τ) (ms4_2 t) fullShare ((dat4 V c).before 2 t d))
            | true => owns (c : Thread nD τ) (ms4_2 t) fullShare ((dat4 V c).after 2 t))
        | false => owns (c : Thread nD τ) (ms4_2 t) fullShare ((dat4 V c).after 2 t)))

theorem succ_inv4 (c : Dev nD) (t : Fin cfg4.N) :
    ∀ (n : ℕ) (hn : n < cfg4.N), t.succ.val = n + 1 → accAt4 V c t.val t.isLt = accAt4 V c n hn := by
  intro n hn hj
  have hn' : n = t.val := by rw [Fin.val_succ] at hj; omega
  subst hn'; rfl

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl, after4_0, after4_1,
    show (dat4 V c).Φ t.castSucc = Φ4 V c t.castSucc from rfl, show (dat4 V c).Φ t.succ = Φ4 V c t.succ from rfl]
  unfold Φ4
  by_cases h0 : t.val % 8 = 0
  · have h1 : ¬ t.val % 8 = 7 := not_last_of_first4 h0
    rw [idle4_of_not_last t h1, flush4_of_not_last t h1]; dsimp only
    iintro ⟨⟨⟨%s, -, Hs⟩, Hrest⟩, Ho, ⟨%d0, H0⟩, ⟨%d1, H1⟩, ⟨%d2, H2⟩⟩
    iapply ((runFirst4 c (grid4.coords t) (ms4_0 t) (hs4_0 t) (ms4_1 t) (hs4_1 t) (ms4_2 t) (hs4_2 t) sc4 hsc4
      ((first4_iff t).mpr h0) (fun h => h1 ((last4_iff t).mp h)) (iblk4 V c 0 t) (iblk4 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt4 V c t.val t.isLt); isplitr
        · ipureintro; exact succ_inv4 V c t
        · rw [accAt4_first V c t h0]; unfold accFirst4 owns; iexists _; isplitr
          swap; · iexact Hs
          ipureintro; exact View.read_writes_of_cover _ _ _ _ _ (coverFirst4 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle4_of_last t h1]; dsimp only
      rw [after4_2, show outAt4 V c t = outLast4 c (grid4.coords t) (ms4_0 t) (hs4_0 t) (ms4_1 t) (hs4_1 t) (ms4_2 t) (hs4_2 t) sc4 hsc4
          (iblk4 V c 0 t) (iblk4 V c 1 t) (accAt4 V c (t.val - 1) (Nat.lt_of_le_of_lt (Nat.sub_le _ _) t.isLt))
          (fun h' => h0 ((first4_iff t).mp h')) ((last4_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt4 V c (t.val - 1) (Nat.lt_of_le_of_lt (Nat.sub_le _ _) t.isLt) :=
        hs (t.val - 1) _ (by rw [Fin.coe_castSucc]; omega)
      iapply ((runLast4 c (grid4.coords t) (ms4_0 t) (hs4_0 t) (ms4_1 t) (hs4_1 t) (ms4_2 t) (hs4_2 t) sc4 hsc4
        (fun h => h0 ((first4_iff t).mp h)) ((last4_iff t).mpr h1) (iblk4 V c 0 t) (iblk4 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt4 V c t.val t.isLt); isplitr
          · ipureintro; exact succ_inv4 V c t
          · rw [accAt4_last V c t h0 h1]; unfold accLast4 owns; iexists _; isplitr
            swap; · iexact Hs
            ipureintro; exact View.read_writes_of_cover _ _ _ _ _ (coverLastAcc4 c _ _ _ _ _ _ _ _ _ _ _ _ _ _)
        · iexact Hrest
      isplitl [Ho]; · iexact Ho
      isplitl [H0]; · iexact H0
      isplitl [H1]; · iexact H1
      unfold outLast4 owns; iexists _; isplitr
      swap; · iexact H2
      ipureintro; exact View.read_writes_of_cover _ _ _ _ _ (coverLastOut4 c _ _ _ _ _ _ _ _ _ _ _ _ _ _)
    · rw [idle4_of_not_last t h1, flush4_of_not_last t h1]; dsimp only
      iintro ⟨⟨⟨%s, %hs, Hs⟩, Hrest⟩, Ho, ⟨%d0, H0⟩, ⟨%d1, H1⟩, ⟨%d2, H2⟩⟩
      obtain rfl : s = accAt4 V c (t.val - 1) (Nat.lt_of_le_of_lt (Nat.sub_le _ _) t.isLt) :=
        hs (t.val - 1) _ (by rw [Fin.coe_castSucc]; omega)
      iapply ((runMid4 c (grid4.coords t) (ms4_0 t) (hs4_0 t) (ms4_1 t) (hs4_1 t) (ms4_2 t) (hs4_2 t) sc4 hsc4
        (fun h => h0 ((first4_iff t).mp h)) (fun h => h1 ((last4_iff t).mp h)) (iblk4 V c 0 t) (iblk4 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt4 V c t.val t.isLt); isplitr
          · ipureintro; exact succ_inv4 V c t
          · rw [accAt4_mid V c t h0 h1]; unfold accMid4 owns; iexists _; isplitr
            swap; · iexact Hs
            ipureintro; exact View.read_writes_of_cover _ _ _ _ _ (coverMid4 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg4.lean ====
/-
  Region 4 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R4Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V36 m ρ) c).loose
  hwaits := Pipeline.hwaits_of_owed_zero _ _ _ _ L lv 4 fun _ _ => rfl
  pre c := iprop(StableHlo.held (c : Thread nD τ) (Pipeline.ucRefs τ sig) (W36 m ρ c) ∗ R c)
  post c := iprop(StableHlo.held (c : Thread nD τ) (Pipeline.ucRefs τ sig) (W37 m ρ c) ∗ R c)
  X _ := BI.emp
  Y _ := BI.emp
  Z c := Pipeline.unscopedRest (Ix := Unit) (Name := ℕ) (U := UR sig nD τ) (Lvl := ℕ) spec4 c (V36 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V36 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 4 c).Φ 0 = Φ4 (V36 m ρ) c 0 from rfl, show (Pipeline.scopedRest (Ix := Unit) (Name := ℕ) (U := UR sig nD τ) (Lvl := ℕ) (Val := Elt F) (Pipeline.pin (pcfgs (F := F)) adm 4).spec c : sProp 𝕄) = _ from scopedRest4_split c]; unfold Φ4
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 4 c).Φ (Fin.last _) = Φ4 (V36 m ρ) c (Fin.last _) from rfl, show (Pipeline.scopedRest (Ix := Unit) (Name := ℕ) (U := UR sig nD τ) (Lvl := ℕ) (Val := Elt F) (Pipeline.pin (pcfgs (F := F)) adm 4).spec c : sProp 𝕄) = _ from scopedRest4_split c]; unfold Φ4
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V36 m ρ c) (V37 m ρ c) ((pdats m ρ 4 c).arrAt · cfg4.N) (hF4 m ρ c) (hrest4 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R5Obl.lean ====
/-
  Region 5: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R5Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle5_of_not_last (t : Fin cfg5.N) (h1 : ¬ t.val % 8 = 7) : idle5 2 (grid5.coords t) = true := by
  have h : ¬ last5 (grid5.coords t) := fun h => h1 ((last5_iff t).mp h)
  show (!(k5_cond2 (grid5.coords t) == 1#1)) = true
  simp only [Bool.not_eq_true', beq_eq_false_iff_ne, ne_eq]; exact h
theorem idle5_of_last (t : Fin cfg5.N) (h1 : t.val % 8 = 7) : idle5 2 (grid5.coords t) = false := by
  have h : last5 (grid5.coords t) := (last5_iff t).mpr h1
  show (!(k5_cond2 (grid5.coords t) == 1#1)) = false
  simp only [Bool.not_eq_false', beq_iff_eq]; exact h
/-- and is written back only at the last ones. -/
theorem flush5_of_not_last (t : Fin cfg5.N) (h1 : ¬ t.val % 8 = 7) : (win5 2).flush t = false :=
  Bool.eq_false_iff.mpr fun h => h1 ((flush5_2 t).mp h)

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns: the output tile's buffer as found where the window is idle, else at what the point writes. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ (match cfg5.idle 2 (cfg5.grid.coords t) with
        | true =>
          (match (cfg5.win 2).flush t with
            | false => iprop(∃ d, owns (c : Thread nD τ) (ms5_2 t) fullShare ((dat5 V c).before 2 t d))
            | true => owns (c : Thread nD τ) (ms5_2 t) fullShare ((dat5 V c).after 2 t))
        | false => owns (c : Thread nD τ) (ms5_2 t) fullShare ((dat5 V c).after 2 t)))

theorem succ_inv5 (c : Dev nD) (t : Fin cfg5.N) :
    ∀ (n : ℕ) (hn : n < cfg5.N), t.succ.val = n + 1 → accAt5 V c t.val t.isLt = accAt5 V c n hn := by
  intro n hn hj
  have hn' : n = t.val := by rw [Fin.val_succ] at hj; omega
  subst hn'; rfl

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl, after5_0, after5_1,
    show (dat5 V c).Φ t.castSucc = Φ5 V c t.castSucc from rfl, show (dat5 V c).Φ t.succ = Φ5 V c t.succ from rfl]
  unfold Φ5
  by_cases h0 : t.val % 8 = 0
  · have h1 : ¬ t.val % 8 = 7 := not_last_of_first5 h0
    rw [idle5_of_not_last t h1, flush5_of_not_last t h1]; dsimp only
    iintro ⟨⟨⟨%s, -, Hs⟩, Hrest⟩, Ho, ⟨%d0, H0⟩, ⟨%d1, H1⟩, ⟨%d2, H2⟩⟩
    iapply ((runFirst5 c (grid5.coords t) (ms5_0 t) (hs5_0 t) (ms5_1 t) (hs5_1 t) (ms5_2 t) (hs5_2 t) sc5 hsc5
      ((first5_iff t).mpr h0) (fun h => h1 ((last5_iff t).mp h)) (iblk5 V c 0 t) (iblk5 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt5 V c t.val t.isLt); isplitr
        · ipureintro; exact succ_inv5 V c t
        · rw [accAt5_first V c t h0]; unfold accFirst5 owns; iexists _; isplitr
          swap; · iexact Hs
          ipureintro; exact View.read_writes_of_cover _ _ _ _ _ (coverFirst5 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle5_of_last t h1]; dsimp only
      rw [after5_2, show outAt5 V c t = outLast5 c (grid5.coords t) (ms5_0 t) (hs5_0 t) (ms5_1 t) (hs5_1 t) (ms5_2 t) (hs5_2 t) sc5 hsc5
          (iblk5 V c 0 t) (iblk5 V c 1 t) (accAt5 V c (t.val - 1) (Nat.lt_of_le_of_lt (Nat.sub_le _ _) t.isLt))
          (fun h' => h0 ((first5_iff t).mp h')) ((last5_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt5 V c (t.val - 1) (Nat.lt_of_le_of_lt (Nat.sub_le _ _) t.isLt) :=
        hs (t.val - 1) _ (by rw [Fin.coe_castSucc]; omega)
      iapply ((runLast5 c (grid5.coords t) (ms5_0 t) (hs5_0 t) (ms5_1 t) (hs5_1 t) (ms5_2 t) (hs5_2 t) sc5 hsc5
        (fun h => h0 ((first5_iff t).mp h)) ((last5_iff t).mpr h1) (iblk5 V c 0 t) (iblk5 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt5 V c t.val t.isLt); isplitr
          · ipureintro; exact succ_inv5 V c t
          · rw [accAt5_last V c t h0 h1]; unfold accLast5 owns; iexists _; isplitr
            swap; · iexact Hs
            ipureintro; exact View.read_writes_of_cover _ _ _ _ _ (coverLastAcc5 c _ _ _ _ _ _ _ _ _ _ _ _ _ _)
        · iexact Hrest
      isplitl [Ho]; · iexact Ho
      isplitl [H0]; · iexact H0
      isplitl [H1]; · iexact H1
      unfold outLast5 owns; iexists _; isplitr
      swap; · iexact H2
      ipureintro; exact View.read_writes_of_cover _ _ _ _ _ (coverLastOut5 c _ _ _ _ _ _ _ _ _ _ _ _ _ _)
    · rw [idle5_of_not_last t h1, flush5_of_not_last t h1]; dsimp only
      iintro ⟨⟨⟨%s, %hs, Hs⟩, Hrest⟩, Ho, ⟨%d0, H0⟩, ⟨%d1, H1⟩, ⟨%d2, H2⟩⟩
      obtain rfl : s = accAt5 V c (t.val - 1) (Nat.lt_of_le_of_lt (Nat.sub_le _ _) t.isLt) :=
        hs (t.val - 1) _ (by rw [Fin.coe_castSucc]; omega)
      iapply ((runMid5 c (grid5.coords t) (ms5_0 t) (hs5_0 t) (ms5_1 t) (hs5_1 t) (ms5_2 t) (hs5_2 t) sc5 hsc5
        (fun h => h0 ((first5_iff t).mp h)) (fun h => h1 ((last5_iff t).mp h)) (iblk5 V c 0 t) (iblk5 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt5 V c t.val t.isLt); isplitr
          · ipureintro; exact succ_inv5 V c t
          · rw [accAt5_mid V c t h0 h1]; unfold accMid5 owns; iexists _; isplitr
            swap; · iexact Hs
            ipureintro; exact View.read_writes_of_cover _ _ _ _ _ (coverMid5 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg5.lean ====
/-
  Region 5 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R5Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V38 m ρ) c).loose
  hwaits := Pipeline.hwaits_of_owed_zero _ _ _ _ L lv 5 fun _ _ => rfl
  pre c := iprop(StableHlo.held (c : Thread nD τ) (Pipeline.ucRefs τ sig) (W38 m ρ c) ∗ R c)
  post c := iprop(StableHlo.held (c : Thread nD τ) (Pipeline.ucRefs τ sig) (W39 m ρ c) ∗ R c)
  X _ := BI.emp
  Y _ := BI.emp
  Z c := Pipeline.unscopedRest (Ix := Unit) (Name := ℕ) (U := UR sig nD τ) (Lvl := ℕ) spec5 c (V38 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V38 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 5 c).Φ 0 = Φ5 (V38 m ρ) c 0 from rfl, show (Pipeline.scopedRest (Ix := Unit) (Name := ℕ) (U := UR sig nD τ) (Lvl := ℕ) (Val := Elt F) (Pipeline.pin (pcfgs (F := F)) adm 5).spec c : sProp 𝕄) = _ from scopedRest5_split c]; unfold Φ5
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 5 c).Φ (Fin.last _) = Φ5 (V38 m ρ) c (Fin.last _) from rfl, show (Pipeline.scopedRest (Ix := Unit) (Name := ℕ) (U := UR sig nD τ) (Lvl := ℕ) (Val := Elt F) (Pipeline.pin (pcfgs (F := F)) adm 5).spec c : sProp 𝕄) = _ from scopedRest5_split c]; unfold Φ5
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V38 m ρ c) (V39 m ρ c) ((pdats m ρ 5 c).arrAt · cfg5.N) (hF5 m ρ c) (hrest5 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R6Obl.lean ====
/-
  Region 6: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R6Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle6_of_not_last (t : Fin cfg6.N) (h1 : ¬ t.val % 8 = 7) : idle6 2 (grid6.coords t) = true := by
  have h : ¬ last6 (grid6.coords t) := fun h => h1 ((last6_iff t).mp h)
  show (!(k6_cond2 (grid6.coords t) == 1#1)) = true
  simp only [Bool.not_eq_true', beq_eq_false_iff_ne, ne_eq]; exact h
theorem idle6_of_last (t : Fin cfg6.N) (h1 : t.val % 8 = 7) : idle6 2 (grid6.coords t) = false := by
  have h : last6 (grid6.coords t) := (last6_iff t).mpr h1
  show (!(k6_cond2 (grid6.coords t) == 1#1)) = false
  simp only [Bool.not_eq_false', beq_iff_eq]; exact h
/-- and is written back only at the last ones. -/
theorem flush6_of_not_last (t : Fin cfg6.N) (h1 : ¬ t.val % 8 = 7) : (win6 2).flush t = false :=
  Bool.eq_false_iff.mpr fun h => h1 ((flush6_2 t).mp h)

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns: the output tile's buffer as found where the window is idle, else at what the point writes. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ (match cfg6.idle 2 (cfg6.grid.coords t) with
        | true =>
          (match (cfg6.win 2).flush t with
            | false => iprop(∃ d, owns (c : Thread nD τ) (ms6_2 t) fullShare ((dat6 V c).before 2 t d))
            | true => owns (c : Thread nD τ) (ms6_2 t) fullShare ((dat6 V c).after 2 t))
        | false => owns (c : Thread nD τ) (ms6_2 t) fullShare ((dat6 V c).after 2 t)))

theorem succ_inv6 (c : Dev nD) (t : Fin cfg6.N) :
    ∀ (n : ℕ) (hn : n < cfg6.N), t.succ.val = n + 1 → accAt6 V c t.val t.isLt = accAt6 V c n hn := by
  intro n hn hj
  have hn' : n = t.val := by rw [Fin.val_succ] at hj; omega
  subst hn'; rfl

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl, after6_0, after6_1,
    show (dat6 V c).Φ t.castSucc = Φ6 V c t.castSucc from rfl, show (dat6 V c).Φ t.succ = Φ6 V c t.succ from rfl]
  unfold Φ6
  by_cases h0 : t.val % 8 = 0
  · have h1 : ¬ t.val % 8 = 7 := not_last_of_first6 h0
    rw [idle6_of_not_last t h1, flush6_of_not_last t h1]; dsimp only
    iintro ⟨⟨⟨%s, -, Hs⟩, Hrest⟩, Ho, ⟨%d0, H0⟩, ⟨%d1, H1⟩, ⟨%d2, H2⟩⟩
    iapply ((runFirst6 c (grid6.coords t) (ms6_0 t) (hs6_0 t) (ms6_1 t) (hs6_1 t) (ms6_2 t) (hs6_2 t) sc6 hsc6
      ((first6_iff t).mpr h0) (fun h => h1 ((last6_iff t).mp h)) (iblk6 V c 0 t) (iblk6 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt6 V c t.val t.isLt); isplitr
        · ipureintro; exact succ_inv6 V c t
        · rw [accAt6_first V c t h0]; unfold accFirst6 owns; iexists _; isplitr
          swap; · iexact Hs
          ipureintro; exact View.read_writes_of_cover _ _ _ _ _ (coverFirst6 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle6_of_last t h1]; dsimp only
      rw [after6_2, show outAt6 V c t = outLast6 c (grid6.coords t) (ms6_0 t) (hs6_0 t) (ms6_1 t) (hs6_1 t) (ms6_2 t) (hs6_2 t) sc6 hsc6
          (iblk6 V c 0 t) (iblk6 V c 1 t) (accAt6 V c (t.val - 1) (Nat.lt_of_le_of_lt (Nat.sub_le _ _) t.isLt))
          (fun h' => h0 ((first6_iff t).mp h')) ((last6_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt6 V c (t.val - 1) (Nat.lt_of_le_of_lt (Nat.sub_le _ _) t.isLt) :=
        hs (t.val - 1) _ (by rw [Fin.coe_castSucc]; omega)
      iapply ((runLast6 c (grid6.coords t) (ms6_0 t) (hs6_0 t) (ms6_1 t) (hs6_1 t) (ms6_2 t) (hs6_2 t) sc6 hsc6
        (fun h => h0 ((first6_iff t).mp h)) ((last6_iff t).mpr h1) (iblk6 V c 0 t) (iblk6 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt6 V c t.val t.isLt); isplitr
          · ipureintro; exact succ_inv6 V c t
          · rw [accAt6_last V c t h0 h1]; unfold accLast6 owns; iexists _; isplitr
            swap; · iexact Hs
            ipureintro; exact View.read_writes_of_cover _ _ _ _ _ (coverLastAcc6 c _ _ _ _ _ _ _ _ _ _ _ _ _ _)
        · iexact Hrest
      isplitl [Ho]; · iexact Ho
      isplitl [H0]; · iexact H0
      isplitl [H1]; · iexact H1
      unfold outLast6 owns; iexists _; isplitr
      swap; · iexact H2
      ipureintro; exact View.read_writes_of_cover _ _ _ _ _ (coverLastOut6 c _ _ _ _ _ _ _ _ _ _ _ _ _ _)
    · rw [idle6_of_not_last t h1, flush6_of_not_last t h1]; dsimp only
      iintro ⟨⟨⟨%s, %hs, Hs⟩, Hrest⟩, Ho, ⟨%d0, H0⟩, ⟨%d1, H1⟩, ⟨%d2, H2⟩⟩
      obtain rfl : s = accAt6 V c (t.val - 1) (Nat.lt_of_le_of_lt (Nat.sub_le _ _) t.isLt) :=
        hs (t.val - 1) _ (by rw [Fin.coe_castSucc]; omega)
      iapply ((runMid6 c (grid6.coords t) (ms6_0 t) (hs6_0 t) (ms6_1 t) (hs6_1 t) (ms6_2 t) (hs6_2 t) sc6 hsc6
        (fun h => h0 ((first6_iff t).mp h)) (fun h => h1 ((last6_iff t).mp h)) (iblk6 V c 0 t) (iblk6 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt6 V c t.val t.isLt); isplitr
          · ipureintro; exact succ_inv6 V c t
          · rw [accAt6_mid V c t h0 h1]; unfold accMid6 owns; iexists _; isplitr
            swap; · iexact Hs
            ipureintro; exact View.read_writes_of_cover _ _ _ _ _ (coverMid6 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg6.lean ====
/-
  Region 6 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R6Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V40 m ρ) c).loose
  hwaits := Pipeline.hwaits_of_owed_zero _ _ _ _ L lv 6 fun _ _ => rfl
  pre c := iprop(StableHlo.held (c : Thread nD τ) (Pipeline.ucRefs τ sig) (W40 m ρ c) ∗ R c)
  post c := iprop(StableHlo.held (c : Thread nD τ) (Pipeline.ucRefs τ sig) (W41 m ρ c) ∗ R c)
  X _ := BI.emp
  Y _ := BI.emp
  Z c := Pipeline.unscopedRest (Ix := Unit) (Name := ℕ) (U := UR sig nD τ) (Lvl := ℕ) spec6 c (V40 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V40 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 6 c).Φ 0 = Φ6 (V40 m ρ) c 0 from rfl, show (Pipeline.scopedRest (Ix := Unit) (Name := ℕ) (U := UR sig nD τ) (Lvl := ℕ) (Val := Elt F) (Pipeline.pin (pcfgs (F := F)) adm 6).spec c : sProp 𝕄) = _ from scopedRest6_split c]; unfold Φ6
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 6 c).Φ (Fin.last _) = Φ6 (V40 m ρ) c (Fin.last _) from rfl, show (Pipeline.scopedRest (Ix := Unit) (Name := ℕ) (U := UR sig nD τ) (Lvl := ℕ) (Val := Elt F) (Pipeline.pin (pcfgs (F := F)) adm 6).spec c : sProp 𝕄) = _ from scopedRest6_split c]; unfold Φ6
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V40 m ρ c) (V41 m ρ c) ((pdats m ρ 6 c).arrAt · cfg6.N) (hF6 m ρ c) (hrest6 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R7Obl.lean ====
/-
  Region 7: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R7Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle7_of_not_last (t : Fin cfg7.N) (h1 : ¬ t.val % 8 = 7) : idle7 2 (grid7.coords t) = true := by
  have h : ¬ last7 (grid7.coords t) := fun h => h1 ((last7_iff t).mp h)
  show (!(k7_cond2 (grid7.coords t) == 1#1)) = true
  simp only [Bool.not_eq_true', beq_eq_false_iff_ne, ne_eq]; exact h
theorem idle7_of_last (t : Fin cfg7.N) (h1 : t.val % 8 = 7) : idle7 2 (grid7.coords t) = false := by
  have h : last7 (grid7.coords t) := (last7_iff t).mpr h1
  show (!(k7_cond2 (grid7.coords t) == 1#1)) = false
  simp only [Bool.not_eq_false', beq_iff_eq]; exact h
/-- and is written back only at the last ones. -/
theorem flush7_of_not_last (t : Fin cfg7.N) (h1 : ¬ t.val % 8 = 7) : (win7 2).flush t = false :=
  Bool.eq_false_iff.mpr fun h => h1 ((flush7_2 t).mp h)

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns: the output tile's buffer as found where the window is idle, else at what the point writes. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ (match cfg7.idle 2 (cfg7.grid.coords t) with
        | true =>
          (match (cfg7.win 2).flush t with
            | false => iprop(∃ d, owns (c : Thread nD τ) (ms7_2 t) fullShare ((dat7 V c).before 2 t d))
            | true => owns (c : Thread nD τ) (ms7_2 t) fullShare ((dat7 V c).after 2 t))
        | false => owns (c : Thread nD τ) (ms7_2 t) fullShare ((dat7 V c).after 2 t)))

theorem succ_inv7 (c : Dev nD) (t : Fin cfg7.N) :
    ∀ (n : ℕ) (hn : n < cfg7.N), t.succ.val = n + 1 → accAt7 V c t.val t.isLt = accAt7 V c n hn := by
  intro n hn hj
  have hn' : n = t.val := by rw [Fin.val_succ] at hj; omega
  subst hn'; rfl

set_option maxHeartbeats 1600000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl, after7_0, after7_1,
    show (dat7 V c).Φ t.castSucc = Φ7 V c t.castSucc from rfl, show (dat7 V c).Φ t.succ = Φ7 V c t.succ from rfl]
  unfold Φ7
  by_cases h0 : t.val % 8 = 0
  · have h1 : ¬ t.val % 8 = 7 := not_last_of_first7 h0
    rw [idle7_of_not_last t h1, flush7_of_not_last t h1]; dsimp only
    iintro ⟨⟨⟨%s, -, Hs⟩, Hrest⟩, Ho, ⟨%d0, H0⟩, ⟨%d1, H1⟩, ⟨%d2, H2⟩⟩
    iapply ((runFirst7 c (grid7.coords t) (ms7_0 t) (hs7_0 t) (ms7_1 t) (hs7_1 t) (ms7_2 t) (hs7_2 t) sc7 hsc7
      ((first7_iff t).mpr h0) (fun h => h1 ((last7_iff t).mp h)) (iblk7 V c 0 t) (iblk7 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt7 V c t.val t.isLt); isplitr
        · ipureintro; exact succ_inv7 V c t
        · rw [accAt7_first V c t h0]; unfold accFirst7 owns; iexists _; isplitr
          swap; · iexact Hs
          ipureintro; exact View.read_writes_of_cover _ _ _ _ _ (coverFirst7 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle7_of_last t h1]; dsimp only
      rw [after7_2, show outAt7 V c t = outLast7 c (grid7.coords t) (ms7_0 t) (hs7_0 t) (ms7_1 t) (hs7_1 t) (ms7_2 t) (hs7_2 t) sc7 hsc7
          (iblk7 V c 0 t) (iblk7 V c 1 t) (accAt7 V c (t.val - 1) (Nat.lt_of_le_of_lt (Nat.sub_le _ _) t.isLt))
          (fun h' => h0 ((first7_iff t).mp h')) ((last7_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt7 V c (t.val - 1) (Nat.lt_of_le_of_lt (Nat.sub_le _ _) t.isLt) :=
        hs (t.val - 1) _ (by rw [Fin.coe_castSucc]; omega)
      iapply ((runLast7 c (grid7.coords t) (ms7_0 t) (hs7_0 t) (ms7_1 t) (hs7_1 t) (ms7_2 t) (hs7_2 t) sc7 hsc7
        (fun h => h0 ((first7_iff t).mp h)) ((last7_iff t).mpr h1) (iblk7 V c 0 t) (iblk7 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt7 V c t.val t.isLt); isplitr
          · ipureintro; exact succ_inv7 V c t
          · rw [accAt7_last V c t h0 h1]; unfold accLast7 owns; iexists _; isplitr
            swap; · iexact Hs
            ipureintro; exact View.read_writes_of_cover _ _ _ _ _ (coverLastAcc7 c _ _ _ _ _ _ _ _ _ _ _ _ _ _)
        · iexact Hrest
      isplitl [Ho]; · iexact Ho
      isplitl [H0]; · iexact H0
      isplitl [H1]; · iexact H1
      unfold outLast7 owns; iexists _; isplitr
      swap; · iexact H2
      ipureintro; exact View.read_writes_of_cover _ _ _ _ _ (coverLastOut7 c _ _ _ _ _ _ _ _ _ _ _ _ _ _)
    · rw [idle7_of_not_last t h1, flush7_of_not_last t h1]; dsimp only
      iintro ⟨⟨⟨%s, %hs, Hs⟩, Hrest⟩, Ho, ⟨%d0, H0⟩, ⟨%d1, H1⟩, ⟨%d2, H2⟩⟩
      obtain rfl : s = accAt7 V c (t.val - 1) (Nat.lt_of_le_of_lt (Nat.sub_le _ _) t.isLt) :=
        hs (t.val - 1) _ (by rw [Fin.coe_castSucc]; omega)
      iapply ((runMid7 c (grid7.coords t) (ms7_0 t) (hs7_0 t) (ms7_1 t) (hs7_1 t) (ms7_2 t) (hs7_2 t) sc7 hsc7
        (fun h => h0 ((first7_iff t).mp h)) (fun h => h1 ((last7_iff t).mp h)) (iblk7 V c 0 t) (iblk7 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt7 V c t.val t.isLt); isplitr
          · ipureintro; exact succ_inv7 V c t
          · rw [accAt7_mid V c t h0 h1]; unfold accMid7 owns; iexists _; isplitr
            swap; · iexact Hs
            ipureintro; exact View.read_writes_of_cover _ _ _ _ _ (coverMid7 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg7.lean ====
/-
  Region 7 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R7Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V41 m ρ) c).loose
  hwaits := Pipeline.hwaits_of_owed_zero _ _ _ _ L lv 7 fun _ _ => rfl
  pre c := iprop(StableHlo.held (c : Thread nD τ) (Pipeline.ucRefs τ sig) (W41 m ρ c) ∗ R c)
  post c := iprop(StableHlo.held (c : Thread nD τ) (Pipeline.ucRefs τ sig) (W42 m ρ c) ∗ R c)
  X _ := BI.emp
  Y _ := BI.emp
  Z c := Pipeline.unscopedRest (Ix := Unit) (Name := ℕ) (U := UR sig nD τ) (Lvl := ℕ) spec7 c (V41 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V41 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 7 c).Φ 0 = Φ7 (V41 m ρ) c 0 from rfl, show (Pipeline.scopedRest (Ix := Unit) (Name := ℕ) (U := UR sig nD τ) (Lvl := ℕ) (Val := Elt F) (Pipeline.pin (pcfgs (F := F)) adm 7).spec c : sProp 𝕄) = _ from scopedRest7_split c]; unfold Φ7
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 7 c).Φ (Fin.last _) = Φ7 (V41 m ρ) c (Fin.last _) from rfl, show (Pipeline.scopedRest (Ix := Unit) (Name := ℕ) (U := UR sig nD τ) (Lvl := ℕ) (Val := Elt F) (Pipeline.pin (pcfgs (F := F)) adm 7).spec c : sProp 𝕄) = _ from scopedRest7_split c]; unfold Φ7
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V41 m ρ c) (V42 m ρ c) ((pdats m ρ 7 c).arrAt · cfg7.N) (hF7 m ρ c) (hrest7 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R8Obl.lean ====
/-
  Region 8: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R8Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle8_of_not_last (t : Fin cfg8.N) (h1 : ¬ t.val % 8 = 7) : idle8 2 (grid8.coords t) = true := by
  have h : ¬ last8 (grid8.coords t) := fun h => h1 ((last8_iff t).mp h)
  show (!(k8_cond2 (grid8.coords t) == 1#1)) = true
  simp only [Bool.not_eq_true', beq_eq_false_iff_ne, ne_eq]; exact h
theorem idle8_of_last (t : Fin cfg8.N) (h1 : t.val % 8 = 7) : idle8 2 (grid8.coords t) = false := by
  have h : last8 (grid8.coords t) := (last8_iff t).mpr h1
  show (!(k8_cond2 (grid8.coords t) == 1#1)) = false
  simp only [Bool.not_eq_false', beq_iff_eq]; exact h
/-- and is written back only at the last ones. -/
theorem flush8_of_not_last (t : Fin cfg8.N) (h1 : ¬ t.val % 8 = 7) : (win8 2).flush t = false :=
  Bool.eq_false_iff.mpr fun h => h1 ((flush8_2 t).mp h)

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

/-- and what it returns: the output tile's buffer as found where the window is idle, else at what the point writes. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ (match cfg8.idle 2 (cfg8.grid.coords t) with
        | true =>
          (match (cfg8.win 2).flush t with
            | false => iprop(∃ d, owns (c : Thread nD τ) (ms8_2 t) fullShare ((dat8 V c).before 2 t d))
            | true => owns (c : Thread nD τ) (ms8_2 t) fullShare ((dat8 V c).after 2 t))
        | false => owns (c : Thread nD τ) (ms8_2 t) fullShare ((dat8 V c).after 2 t)))

theorem succ_inv8 (c : Dev nD) (t : Fin cfg8.N) :
    ∀ (n : ℕ) (hn : n < cfg8.N), t.succ.val = n + 1 → accAt8 V c t.val t.isLt = accAt8 V c n hn := by
  intro n hn hj
  have hn' : n = t.val := by rw [Fin.val_succ] at hj; omega
  subst hn'; rfl

set_option maxHeartbeats 1600000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl, after8_0, after8_1,
    show (dat8 V c).Φ t.castSucc = Φ8 V c t.castSucc from rfl, show (dat8 V c).Φ t.succ = Φ8 V c t.succ from rfl]
  unfold Φ8
  by_cases h0 : t.val % 8 = 0
  · have h1 : ¬ t.val % 8 = 7 := not_last_of_first8 h0
    rw [idle8_of_not_last t h1, flush8_of_not_last t h1]; dsimp only
    iintro ⟨⟨⟨%s, -, Hs⟩, Hrest⟩, Ho, ⟨%d0, H0⟩, ⟨%d1, H1⟩, ⟨%d2, H2⟩⟩
    iapply ((runFirst8 c (grid8.coords t) (ms8_0 t) (hs8_0 t) (ms8_1 t) (hs8_1 t) (ms8_2 t) (hs8_2 t) sc8 hsc8
      ((first8_iff t).mpr h0) (fun h => h1 ((last8_iff t).mp h)) (iblk8 V c 0 t) (iblk8 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt8 V c t.val t.isLt); isplitr
        · ipureintro; exact succ_inv8 V c t
        · rw [accAt8_first V c t h0]; unfold accFirst8 owns; iexists _; isplitr
          swap; · iexact Hs
          ipureintro; exact View.read_writes_of_cover _ _ _ _ _ (coverFirst8 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle8_of_last t h1]; dsimp only
      rw [after8_2, show outAt8 V c t = outLast8 c (grid8.coords t) (ms8_0 t) (hs8_0 t) (ms8_1 t) (hs8_1 t) (ms8_2 t) (hs8_2 t) sc8 hsc8
          (iblk8 V c 0 t) (iblk8 V c 1 t) (accAt8 V c (t.val - 1) (Nat.lt_of_le_of_lt (Nat.sub_le _ _) t.isLt))
          (fun h' => h0 ((first8_iff t).mp h')) ((last8_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt8 V c (t.val - 1) (Nat.lt_of_le_of_lt (Nat.sub_le _ _) t.isLt) :=
        hs (t.val - 1) _ (by rw [Fin.coe_castSucc]; omega)
      iapply ((runLast8 c (grid8.coords t) (ms8_0 t) (hs8_0 t) (ms8_1 t) (hs8_1 t) (ms8_2 t) (hs8_2 t) sc8 hsc8
        (fun h => h0 ((first8_iff t).mp h)) ((last8_iff t).mpr h1) (iblk8 V c 0 t) (iblk8 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt8 V c t.val t.isLt); isplitr
          · ipureintro; exact succ_inv8 V c t
          · rw [accAt8_last V c t h0 h1]; unfold accLast8 owns; iexists _; isplitr
            swap; · iexact Hs
            ipureintro; exact View.read_writes_of_cover _ _ _ _ _ (coverLastAcc8 c _ _ _ _ _ _ _ _ _ _ _ _ _ _)
        · iexact Hrest
      isplitl [Ho]; · iexact Ho
      isplitl [H0]; · iexact H0
      isplitl [H1]; · iexact H1
      unfold outLast8 owns; iexists _; isplitr
      swap; · iexact H2
      ipureintro; exact View.read_writes_of_cover _ _ _ _ _ (coverLastOut8 c _ _ _ _ _ _ _ _ _ _ _ _ _ _)
    · rw [idle8_of_not_last t h1, flush8_of_not_last t h1]; dsimp only
      iintro ⟨⟨⟨%s, %hs, Hs⟩, Hrest⟩, Ho, ⟨%d0, H0⟩, ⟨%d1, H1⟩, ⟨%d2, H2⟩⟩
      obtain rfl : s = accAt8 V c (t.val - 1) (Nat.lt_of_le_of_lt (Nat.sub_le _ _) t.isLt) :=
        hs (t.val - 1) _ (by rw [Fin.coe_castSucc]; omega)
      iapply ((runMid8 c (grid8.coords t) (ms8_0 t) (hs8_0 t) (ms8_1 t) (hs8_1 t) (ms8_2 t) (hs8_2 t) sc8 hsc8
        (fun h => h0 ((first8_iff t).mp h)) (fun h => h1 ((last8_iff t).mp h)) (iblk8 V c 0 t) (iblk8 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt8 V c t.val t.isLt); isplitr
          · ipureintro; exact succ_inv8 V c t
          · rw [accAt8_mid V c t h0 h1]; unfold accMid8 owns; iexists _; isplitr
            swap; · iexact Hs
            ipureintro; exact View.read_writes_of_cover _ _ _ _ _ (coverMid8 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Reg8.lean ====
/-
  Region 8 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R8Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V51 m ρ) c).loose
  hwaits := Pipeline.hwaits_of_owed_zero _ _ _ _ L lv 8 fun _ _ => rfl
  pre c := iprop(StableHlo.held (c : Thread nD τ) (Pipeline.ucRefs τ sig) (W51 m ρ c) ∗ R c)
  post c := iprop(StableHlo.held (c : Thread nD τ) (Pipeline.ucRefs τ sig) (W52 m ρ c) ∗ R c)
  X _ := BI.emp
  Y _ := BI.emp
  Z c := Pipeline.unscopedRest (Ix := Unit) (Name := ℕ) (U := UR sig nD τ) (Lvl := ℕ) spec8 c (V51 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V51 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 8 c).Φ 0 = Φ8 (V51 m ρ) c 0 from rfl, show (Pipeline.scopedRest (Ix := Unit) (Name := ℕ) (U := UR sig nD τ) (Lvl := ℕ) (Val := Elt F) (Pipeline.pin (pcfgs (F := F)) adm 8).spec c : sProp 𝕄) = _ from scopedRest8_split c]; unfold Φ8
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 8 c).Φ (Fin.last _) = Φ8 (V51 m ρ) c (Fin.last _) from rfl, show (Pipeline.scopedRest (Ix := Unit) (Name := ℕ) (U := UR sig nD τ) (Lvl := ℕ) (Val := Elt F) (Pipeline.pin (pcfgs (F := F)) adm 8).spec c : sProp 𝕄) = _ from scopedRest8_split c]; unfold Φ8
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V51 m ρ c) (V52 m ρ c) ((pdats m ρ 8 c).arrAt · cfg8.N) (hF8 m ρ c) (hrest8 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R9Obl.lean ====
/-
  Region 9: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R9Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle9_of_not_last (t : Fin cfg9.N) (h1 : ¬ t.val % 8 = 7) : idle9 2 (grid9.coords t) = true := by
  have h : ¬ last9 (grid9.coords t) := fun h => h1 ((last9_iff t).mp h)
  show (!(k9_cond2 (grid9.coords t) == 1#1)) = true
  simp only [Bool.not_eq_true', beq_eq_false_iff_ne, ne_eq]; exact h
theorem idle9_of_last (t : Fin cfg9.N) (h1 : t.val % 8 = 7) : idle9 2 (grid9.coords t) = false := by
  have h : last9 (grid9.coords t) := (last9_iff t).mpr h1
  show (!(k9_cond2 (grid9.coords t) == 1#1)) = false
  simp only [Bool.not_eq_false', beq_iff_eq]; exact h
/-- and is written back only at the last ones. -/
theorem flush9_of_not_last (t : Fin cfg9.N) (h1 : ¬ t.val % 8 = 7) : (win9 2).flush t = false :=
  Bool.eq_false_iff.mpr fun h => h1 ((flush9_2 t).mp h)

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

/-- and what it returns: the output tile's buffer as found where the window is idle, else at what the point writes. -/
def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ (match cfg9.idle 2 (cfg9.grid.coords t) with
        | true =>
          (match (cfg9.win 2).flush t with
            | false => iprop(∃ d, owns (c : Thread nD τ) (ms9_2 t) fullShare ((dat9 V c).before 2 t d))
            | true => owns (c : Thread nD τ) (ms9_2 t) fullShare ((dat9 V c).after 2 t))
        | false => owns (c : Thread nD τ) (ms9_2 t) fullShare ((dat9 V c).after 2 t)))

theorem succ_inv9 (c : Dev nD) (t : Fin cfg9.N) :
    ∀ (n : ℕ) (hn : n < cfg9.N), t.succ.val = n + 1 → accAt9 V c t.val t.isLt = accAt9 V c n hn := by
  intro n hn hj
  have hn' : n = t.val := by rw [Fin.val_succ] at hj; omega
  subst hn'; rfl

set_option maxHeartbeats 1600000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl, after9_0, after9_1,
    show (dat9 V c).Φ t.castSucc = Φ9 V c t.castSucc from rfl, show (dat9 V c).Φ t.succ = Φ9 V c t.succ from rfl]
  unfold Φ9
  by_cases h0 : t.val % 8 = 0
  · have h1 : ¬ t.val % 8 = 7 := not_last_of_first9 h0
    rw [idle9_of_not_last t h1, flush9_of_not_last t h1]; dsimp only
    iintro ⟨⟨⟨%s, -, Hs⟩, Hrest⟩, Ho, ⟨%d0, H0⟩, ⟨%d1, H1⟩, ⟨%d2, H2⟩⟩
    iapply ((runFirst9 c (grid9.coords t) (ms9_0 t) (hs9_0 t) (ms9_1 t) (hs9_1 t) (ms9_2 t) (hs9_2 t) sc9 hsc9
      ((first9_iff t).mpr h0) (fun h => h1 ((last9_iff t).mp h)) (iblk9 V c 0 t) (iblk9 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt9 V c t.val t.isLt); isplitr
        · ipureintro; exact succ_inv9 V c t
        · rw [accAt9_first V c t h0]; unfold accFirst9 owns; iexists _; isplitr
          swap; · iexact Hs
          ipureintro; exact View.read_writes_of_cover _ _ _ _ _ (coverFirst9 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle9_of_last t h1]; dsimp only
      rw [after9_2, show outAt9 V c t = outLast9 c (grid9.coords t) (ms9_0 t) (hs9_0 t) (ms9_1 t) (hs9_1 t) (ms9_2 t) (hs9_2 t) sc9 hsc9
          (iblk9 V c 0 t) (iblk9 V c 1 t) (accAt9 V c (t.val - 1) (Nat.lt_of_le_of_lt (Nat.sub_le _ _) t.isLt))
          (fun h' => h0 ((first9_iff t).mp h')) ((last9_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt9 V c (t.val - 1) (Nat.lt_of_le_of_lt (Nat.sub_le _ _) t.isLt) :=
        hs (t.val - 1) _ (by rw [Fin.coe_castSucc]; omega)
      iapply ((runLast9 c (grid9.coords t) (ms9_0 t) (hs9_0 t) (ms9_1 t) (hs9_1 t) (ms9_2 t) (hs9_2 t) sc9 hsc9
        (fun h => h0 ((first9_iff t).mp h)) ((last9_iff t).mpr h1) (iblk9 V c 0 t) (iblk9 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt9 V c t.val t.isLt); isplitr
          · ipureintro; exact succ_inv9 V c t
          · rw [accAt9_last V c t h0 h1]; unfold accLast9 owns; iexists _; isplitr
            swap; · iexact Hs
            ipureintro; exact View.read_writes_of_cover _ _ _ _ _ (coverLastAcc9 c _ _ _ _ _ _ _ _ _ _ _ _ _ _)
        · iexact Hrest
      isplitl [Ho]; · iexact Ho
      isplitl [H0]; · iexact H0
      isplitl [H1]; · iexact H1
      unfold outLast9 owns; iexists _; isplitr
      swap; · iexact H2
      ipureintro; exact View.read_writes_of_cover _ _ _ _ _ (coverLastOut9 c _ _ _ _ _ _ _ _ _ _ _ _ _ _)
    · rw [idle9_of_not_last t h1, flush9_of_not_last t h1]; dsimp only
      iintro ⟨⟨⟨%s, %hs, Hs⟩, Hrest⟩, Ho, ⟨%d0, H0⟩, ⟨%d1, H1⟩, ⟨%d2, H2⟩⟩
      obtain rfl : s = accAt9 V c (t.val - 1) (Nat.lt_of_le_of_lt (Nat.sub_le _ _) t.isLt) :=
        hs (t.val - 1) _ (by rw [Fin.coe_castSucc]; omega)
      iapply ((runMid9 c (grid9.coords t) (ms9_0 t) (hs9_0 t) (ms9_1 t) (hs9_1 t) (ms9_2 t) (hs9_2 t) sc9 hsc9
        (fun h => h0 ((first9_iff t).mp h)) (fun h => h1 ((last9_iff t).mp h)) (iblk9 V c 0 t) (iblk9 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt9 V c t.val t.isLt); isplitr
          · ipureintro; exact succ_inv9 V c t
          · rw [accAt9_mid V c t h0 h1]; unfold accMid9 owns; iexists _; isplitr
            swap; · iexact Hs
            ipureintro; exact View.read_writes_of_cover _ _ _ _ _ (coverMid9 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KB.Reg9.lean ====
/-
  Region 9 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R9Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V53 m ρ) c).loose
  hwaits := Pipeline.hwaits_of_owed_zero _ _ _ _ L lv 9 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X _ := BI.emp
  Y _ := BI.emp
  Z c := Pipeline.unscopedRest (Ix := Unit) (Name := ℕ) (U := UR sig nD τ) (Lvl := ℕ) spec9 c (V53 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V53 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 9 c).Φ 0 = Φ9 (V53 m ρ) c 0 from rfl, show (Pipeline.scopedRest (Ix := Unit) (Name := ℕ) (U := UR sig nD τ) (Lvl := ℕ) (Val := Elt F) (Pipeline.pin (pcfgs (F := F)) adm 9).spec c : sProp 𝕄) = _ from scopedRest9_split c]; unfold Φ9
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 9 c).Φ (Fin.last _) = Φ9 (V53 m ρ) c (Fin.last _) from rfl, show (Pipeline.scopedRest (Ix := Unit) (Name := ℕ) (U := UR sig nD τ) (Lvl := ℕ) (Val := Elt F) (Pipeline.pin (pcfgs (F := F)) adm 9).spec c : sProp 𝕄) = _ from scopedRest9_split c]; unfold Φ9
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V53 m ρ c) (V54 m ρ c) ((pdats m ρ 9 c).arrAt · cfg9.N) (hF9 m ρ c) (hrest9 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R10Obl.lean ====
/-
  Region 10: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R10Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle10_of_not_last (t : Fin cfg10.N) (h1 : ¬ t.val % 8 = 7) : idle10 2 (grid10.coords t) = true := by
  have h : ¬ last10 (grid10.coords t) := fun h => h1 ((last10_iff t).mp h)
  show (!(k10_cond2 (grid10.coords t) == 1#1)) = true
  simp only [Bool.not_eq_true', beq_eq_false_iff_ne, ne_eq]; exact h
theorem idle10_of_last (t : Fin cfg10.N) (h1 : t.val % 8 = 7) : idle10 2 (grid10.coords t) = false := by
  have h : last10 (grid10.coords t) := (last10_iff t).mpr h1
  show (!(k10_cond2 (grid10.coords t) == 1#1)) = false
  simp only [Bool.not_eq_false', beq_iff_eq]; exact h
/-- and is written back only at the last ones. -/
theorem flush10_of_not_last (t : Fin cfg10.N) (h1 : ¬ t.val % 8 = 7) : (win10 2).flush t = false :=
  Bool.eq_false_iff.mpr fun h => h1 ((flush10_2 t).mp h)

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns: the output tile's buffer as found where the window is idle, else at what the point writes. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ (match cfg10.idle 2 (cfg10.grid.coords t) with
        | true =>
          (match (cfg10.win 2).flush t with
            | false => iprop(∃ d, owns (c : Thread nD τ) (ms10_2 t) fullShare ((dat10 V c).before 2 t d))
            | true => owns (c : Thread nD τ) (ms10_2 t) fullShare ((dat10 V c).after 2 t))
        | false => owns (c : Thread nD τ) (ms10_2 t) fullShare ((dat10 V c).after 2 t)))

theorem succ_inv10 (c : Dev nD) (t : Fin cfg10.N) :
    ∀ (n : ℕ) (hn : n < cfg10.N), t.succ.val = n + 1 → accAt10 V c t.val t.isLt = accAt10 V c n hn := by
  intro n hn hj
  have hn' : n = t.val := by rw [Fin.val_succ] at hj; omega
  subst hn'; rfl

set_option maxHeartbeats 1600000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl, after10_0, after10_1,
    show (dat10 V c).Φ t.castSucc = Φ10 V c t.castSucc from rfl, show (dat10 V c).Φ t.succ = Φ10 V c t.succ from rfl]
  unfold Φ10
  by_cases h0 : t.val % 8 = 0
  · have h1 : ¬ t.val % 8 = 7 := not_last_of_first10 h0
    rw [idle10_of_not_last t h1, flush10_of_not_last t h1]; dsimp only
    iintro ⟨⟨⟨%s, -, Hs⟩, Hrest⟩, Ho, ⟨%d0, H0⟩, ⟨%d1, H1⟩, ⟨%d2, H2⟩⟩
    iapply ((runFirst10 c (grid10.coords t) (ms10_0 t) (hs10_0 t) (ms10_1 t) (hs10_1 t) (ms10_2 t) (hs10_2 t) sc10 hsc10
      ((first10_iff t).mpr h0) (fun h => h1 ((last10_iff t).mp h)) (iblk10 V c 0 t) (iblk10 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt10 V c t.val t.isLt); isplitr
        · ipureintro; exact succ_inv10 V c t
        · rw [accAt10_first V c t h0]; unfold accFirst10 owns; iexists _; isplitr
          swap; · iexact Hs
          ipureintro; exact View.read_writes_of_cover _ _ _ _ _ (coverFirst10 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle10_of_last t h1]; dsimp only
      rw [after10_2, show outAt10 V c t = outLast10 c (grid10.coords t) (ms10_0 t) (hs10_0 t) (ms10_1 t) (hs10_1 t) (ms10_2 t) (hs10_2 t) sc10 hsc10
          (iblk10 V c 0 t) (iblk10 V c 1 t) (accAt10 V c (t.val - 1) (Nat.lt_of_le_of_lt (Nat.sub_le _ _) t.isLt))
          (fun h' => h0 ((first10_iff t).mp h')) ((last10_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt10 V c (t.val - 1) (Nat.lt_of_le_of_lt (Nat.sub_le _ _) t.isLt) :=
        hs (t.val - 1) _ (by rw [Fin.coe_castSucc]; omega)
      iapply ((runLast10 c (grid10.coords t) (ms10_0 t) (hs10_0 t) (ms10_1 t) (hs10_1 t) (ms10_2 t) (hs10_2 t) sc10 hsc10
        (fun h => h0 ((first10_iff t).mp h)) ((last10_iff t).mpr h1) (iblk10 V c 0 t) (iblk10 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt10 V c t.val t.isLt); isplitr
          · ipureintro; exact succ_inv10 V c t
          · rw [accAt10_last V c t h0 h1]; unfold accLast10 owns; iexists _; isplitr
            swap; · iexact Hs
            ipureintro; exact View.read_writes_of_cover _ _ _ _ _ (coverLastAcc10 c _ _ _ _ _ _ _ _ _ _ _ _ _ _)
        · iexact Hrest
      isplitl [Ho]; · iexact Ho
      isplitl [H0]; · iexact H0
      isplitl [H1]; · iexact H1
      unfold outLast10 owns; iexists _; isplitr
      swap; · iexact H2
      ipureintro; exact View.read_writes_of_cover _ _ _ _ _ (coverLastOut10 c _ _ _ _ _ _ _ _ _ _ _ _ _ _)
    · rw [idle10_of_not_last t h1, flush10_of_not_last t h1]; dsimp only
      iintro ⟨⟨⟨%s, %hs, Hs⟩, Hrest⟩, Ho, ⟨%d0, H0⟩, ⟨%d1, H1⟩, ⟨%d2, H2⟩⟩
      obtain rfl : s = accAt10 V c (t.val - 1) (Nat.lt_of_le_of_lt (Nat.sub_le _ _) t.isLt) :=
        hs (t.val - 1) _ (by rw [Fin.coe_castSucc]; omega)
      iapply ((runMid10 c (grid10.coords t) (ms10_0 t) (hs10_0 t) (ms10_1 t) (hs10_1 t) (ms10_2 t) (hs10_2 t) sc10 hsc10
        (fun h => h0 ((first10_iff t).mp h)) (fun h => h1 ((last10_iff t).mp h)) (iblk10 V c 0 t) (iblk10 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt10 V c t.val t.isLt); isplitr
          · ipureintro; exact succ_inv10 V c t
          · rw [accAt10_mid V c t h0 h1]; unfold accMid10 owns; iexists _; isplitr
            swap; · iexact Hs
            ipureintro; exact View.read_writes_of_cover _ _ _ _ _ (coverMid10 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.KB.Reg10.lean ====
/-
  Region 10 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R10Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V55 m ρ) c).loose
  hwaits := Pipeline.hwaits_of_owed_zero _ _ _ _ L lv 10 fun _ _ => rfl
  pre c := iprop(StableHlo.held (c : Thread nD τ) (Pipeline.ucRefs τ sig) (W55 m ρ c) ∗ R c)
  post c := iprop(StableHlo.held (c : Thread nD τ) (Pipeline.ucRefs τ sig) (W56 m ρ c) ∗ R c)
  X _ := BI.emp
  Y _ := BI.emp
  Z c := Pipeline.unscopedRest (Ix := Unit) (Name := ℕ) (U := UR sig nD τ) (Lvl := ℕ) spec10 c (V55 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V55 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 10 c).Φ 0 = Φ10 (V55 m ρ) c 0 from rfl, show (Pipeline.scopedRest (Ix := Unit) (Name := ℕ) (U := UR sig nD τ) (Lvl := ℕ) (Val := Elt F) (Pipeline.pin (pcfgs (F := F)) adm 10).spec c : sProp 𝕄) = _ from scopedRest10_split c]; unfold Φ10
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 10 c).Φ (Fin.last _) = Φ10 (V55 m ρ) c (Fin.last _) from rfl, show (Pipeline.scopedRest (Ix := Unit) (Name := ℕ) (U := UR sig nD τ) (Lvl := ℕ) (Val := Elt F) (Pipeline.pin (pcfgs (F := F)) adm 10).spec c : sProp 𝕄) = _ from scopedRest10_split c]; unfold Φ10
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V55 m ρ c) (V56 m ρ c) ((pdats m ρ 10 c).arrAt · cfg10.N) (hF10 m ρ c) (hrest10 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.R11Obl.lean ====
/-
  Region 11: the body obligation. At a point the body is called with the invariant (the accumulator at what the
  point before left), the two input tiles at their blocks and the output tile's buffer at whatever it holds; the
  point's position in its row of eight says which of the three cases runs. A first point ignores what it finds in
  the accumulator; a middle point adds to it; a last point adds to it and writes the output tile, which every
  other point hands back as it found it.
-/
import proofs.«158997_j77232101916990_1_alg».proof.Proof.KB.R11Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is idle exactly at the points that are not the last of their row, -/
theorem idle11_of_not_last (t : Fin cfg11.N) (h1 : ¬ t.val % 8 = 7) : idle11 2 (grid11.coords t) = true := by
  have h : ¬ last11 (grid11.coords t) := fun h => h1 ((last11_iff t).mp h)
  show (!(k11_cond2 (grid11.coords t) == 1#1)) = true
  simp only [Bool.not_eq_true', beq_eq_false_iff_ne, ne_eq]; exact h
theorem idle11_of_last (t : Fin cfg11.N) (h1 : t.val % 8 = 7) : idle11 2 (grid11.coords t) = false := by
  have h : last11 (grid11.coords t) := (last11_iff t).mpr h1
  show (!(k11_cond2 (grid11.coords t) == 1#1)) = false
  simp only [Bool.not_eq_false', beq_iff_eq]; exact h
/-- and is written back only at the last ones. -/
theorem flush11_of_not_last (t : Fin cfg11.N) (h1 : ¬ t.val % 8 = 7) : (win11 2).flush t = false :=
  Bool.eq_false_iff.mpr fun h => h1 ((flush11_2 t).mp h)

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

/-- and what it returns: the output tile's buffer as found where the window is idle, else at what the point writes. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ (match cfg11.idle 2 (cfg11.grid.coords t) with
        | true =>
          (match (cfg11.win 2).flush t with
            | false => iprop(∃ d, owns (c : Thread nD τ) (ms11_2 t) fullShare ((dat11 V c).before 2 t d))
            | true => owns (c : Thread nD τ) (ms11_2 t) fullShare ((dat11 V c).after 2 t))
        | false => owns (c : Thread nD τ) (ms11_2 t) fullShare ((dat11 V c).after 2 t)))

theorem succ_inv11 (c : Dev nD) (t : Fin cfg11.N) :
    ∀ (n : ℕ) (hn : n < cfg11.N), t.succ.val = n + 1 → accAt11 V c t.val t.isLt = accAt11 V c n hn := by
  intro n hn hj
  have hn' : n = t.val := by rw [Fin.val_succ] at hj; omega
  subst hn'; rfl

set_option maxHeartbeats 1600000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl, after11_0, after11_1,
    show (dat11 V c).Φ t.castSucc = Φ11 V c t.castSucc from rfl, show (dat11 V c).Φ t.succ = Φ11 V c t.succ from rfl]
  unfold Φ11
  by_cases h0 : t.val % 8 = 0
  · have h1 : ¬ t.val % 8 = 7 := not_last_of_first11 h0
    rw [idle11_of_not_last t h1, flush11_of_not_last t h1]; dsimp only
    iintro ⟨⟨⟨%s, -, Hs⟩, Hrest⟩, Ho, ⟨%d0, H0⟩, ⟨%d1, H1⟩, ⟨%d2, H2⟩⟩
    iapply ((runFirst11 c (grid11.coords t) (ms11_0 t) (hs11_0 t) (ms11_1 t) (hs11_1 t) (ms11_2 t) (hs11_2 t) sc11 hsc11
      ((first11_iff t).mpr h0) (fun h => h1 ((last11_iff t).mp h)) (iblk11 V c 0 t) (iblk11 V c 1 t)).2 _ Set.univ _)
    isplitl [H0]; · iexact H0
    isplitl [H1]; · iexact H1
    isplitl [H2]; · iexact H2
    isplitl [Hs]; · iexists _; iexact Hs
    iintro ⟨H0, H1, H2, ⟨%e, Hs⟩⟩
    isplitl [Hs Hrest]
    · isplitl [Hs]
      · iexists (accAt11 V c t.val t.isLt); isplitr
        · ipureintro; exact succ_inv11 V c t
        · rw [accAt11_first V c t h0]; unfold accFirst11 owns; iexists _; isplitr
          swap; · iexact Hs
          ipureintro; exact View.read_writes_of_cover _ _ _ _ _ (coverFirst11 c _ _ _ _ _ _ _ _ _ _ _ _ _)
      · iexact Hrest
    isplitl [Ho]; · iexact Ho
    isplitl [H0]; · iexact H0
    isplitl [H1]; · iexact H1
    iexists _; iexact H2
  · have hpos : 0 < t.val := Nat.pos_of_ne_zero fun h => h0 (by rw [h])
    by_cases h1 : t.val % 8 = 7
    · rw [idle11_of_last t h1]; dsimp only
      rw [after11_2, show outAt11 V c t = outLast11 c (grid11.coords t) (ms11_0 t) (hs11_0 t) (ms11_1 t) (hs11_1 t) (ms11_2 t) (hs11_2 t) sc11 hsc11
          (iblk11 V c 0 t) (iblk11 V c 1 t) (accAt11 V c (t.val - 1) (Nat.lt_of_le_of_lt (Nat.sub_le _ _) t.isLt))
          (fun h' => h0 ((first11_iff t).mp h')) ((last11_iff t).mpr h1) from dif_pos ⟨h0, h1⟩]
      iintro ⟨⟨⟨%s, %hs, Hs⟩, Hrest⟩, Ho, ⟨%d0, H0⟩, ⟨%d1, H1⟩, ⟨%d2, H2⟩⟩
      obtain rfl : s = accAt11 V c (t.val - 1) (Nat.lt_of_le_of_lt (Nat.sub_le _ _) t.isLt) :=
        hs (t.val - 1) _ (by rw [Fin.coe_castSucc]; omega)
      iapply ((runLast11 c (grid11.coords t) (ms11_0 t) (hs11_0 t) (ms11_1 t) (hs11_1 t) (ms11_2 t) (hs11_2 t) sc11 hsc11
        (fun h => h0 ((first11_iff t).mp h)) ((last11_iff t).mpr h1) (iblk11 V c 0 t) (iblk11 V c 1 t) _).2 Set.univ _)
      isplitl [H0]; · iexact H0
      isplitl [H1]; · iexact H1
      isplitl [H2]; · iexists _; iexact H2
      isplitl [Hs]; · iexact Hs
      iintro ⟨H0, H1, ⟨%e2, H2⟩, ⟨%e, Hs⟩⟩
      isplitl [Hs Hrest]
      · isplitl [Hs]
        · iexists (accAt11 V c t.val t.isLt); isplitr
          · ipureintro; exact succ_inv11 V c t
          · rw [accAt11_last V c t h0 h1]; unfold accLast11 owns; iexists _; isplitr
            swap; · iexact Hs
            ipureintro; exact View.read_writes_of_cover _ _ _ _ _ (coverLastAcc11 c _ _ _ _ _ _ _ _ _ _ _ _ _ _)
        · iexact Hrest
      isplitl [Ho]; · iexact Ho
      isplitl [H0]; · iexact H0
      isplitl [H1]; · iexact H1
      unfold outLast11 owns; iexists _; isplitr
      swap; · iexact H2
      ipureintro; exact View.read_writes_of_cover _ _ _ _ _ (coverLastOut11 c _ _ _ _ _ _ _ _ _ _ _ _ _ _)
    · rw [idle11_of_not_last t h1, flush11_of_not_last t h1]; dsimp only
      iintro ⟨⟨⟨%s, %hs, Hs⟩, Hrest⟩, Ho, ⟨%d0, H0⟩, ⟨%d1, H1⟩, ⟨%d2, H2⟩⟩
      obtain rfl : s = accAt11 V c (t.val - 1) (Nat.lt_of_le_of_lt (Nat.sub_le _ _) t.isLt) :=
        hs (t.val - 1) _ (by rw [Fin.coe_castSucc]; omega)
      iapply ((runMid11 c (grid11.coords t) (ms11_0 t) (hs11_0 t) (ms11_1 t) (hs11_1 t) (ms11_2 t) (hs11_2 t) sc11 hsc11
        (fun h => h0 ((first11_iff t).mp h)) (fun h => h1 ((last11_iff t).mp h)) (iblk11 V c 0 t) (iblk11 V c 1 t) _).2 _ Set.univ _)
      isplitl [H0]; · iexact H0
      isplitl [H1]; · iexact H1
      isplitl [H2]; · iexact H2
      isplitl [Hs]; · iexact Hs
      iintro ⟨H0, H1, H2, ⟨%e, Hs⟩⟩
      isplitl [Hs Hrest]
      · isplitl [Hs]
        · iexists (accAt11 V c t.val t.isLt); isplitr
          · ipureintro; exact succ_inv11 V c t
          · rw [accAt11_mid V c t h0 h1]; unfold accMid11 owns; iexists _; isplitr
            swap; · iexact Hs
            ipureintro; exact View.read_writes_of_cover _ _ _ _ _ (coverMid11 c _ _ _ _ _ _ _ _ _ _ _ _ _ _)
        · iexact Hrest
      isplitl [Ho]; · iexact Ho
      isplitl [H0]; · iexact H0
      isplitl [H1]; · iexact H1
      iexists _; iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.KB.Reg11.lean ====
/-
  Region 11 as a segment of @main over the thread state "every unscoped buffer at the boundary's contents, and the
  core owing nothing": entered by splitting its three arrays out of the unscoped buffers, the rest bypassing; the
  accumulator's scratch buffer taken out of the scoped buffers into the invariant (at whatever it holds) and given
  back at the end; left with the arrays put back at the exit contents. The kernel has no semaphore of its own.
-/
import proofs.«158997_j77232101916990_1_alg».proof.Proof.KB.Fold
import proofs.«158997_j77232101916990_1_alg».proof.Proof.KB.R11Obl
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unification with a library lemma stated over the pinned configuration has to unfold plain definitions in a
-- metavariable's type
set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V56 m ρ) c).loose
  hwaits := Pipeline.hwaits_of_owed_zero _ _ _ _ L lv 11 fun _ _ => rfl
  pre c := iprop(StableHlo.held (c : Thread nD τ) (Pipeline.ucRefs τ sig) (W56 m ρ c) ∗ R c)
  post c := iprop(StableHlo.held (c : Thread nD τ) (Pipeline.ucRefs τ sig) (W57 m ρ c) ∗ R c)
  X _ := BI.emp
  Y _ := BI.emp
  Z c := Pipeline.unscopedRest (Ix := Unit) (Name := ℕ) (U := UR sig nD τ) (Lvl := ℕ) spec11 c (V56 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V56 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 11 c).Φ 0 = Φ11 (V56 m ρ) c 0 from rfl, show (Pipeline.scopedRest (Ix := Unit) (Name := ℕ) (U := UR sig nD τ) (Lvl := ℕ) (Val := Elt F) (Pipeline.pin (pcfgs (F := F)) adm 11).spec c : sProp 𝕄) = _ from scopedRest11_split c]; unfold Φ11
    simp only [owns_whole]
    iintro ⟨-, -, ⟨%f, Hf⟩, Hr⟩
    isplitl [Hf]
    · iexists f; isplitr
      · ipureintro; intro n hn h; exact absurd (h.symm.trans (Fin.val_zero _)) (Nat.succ_ne_zero n)
      · iexact Hf
    · iexact Hr
  hout c := by
    rw [Pipeline.ownSems0_none, show (pdats m ρ 11 c).Φ (Fin.last _) = Φ11 (V56 m ρ) c (Fin.last _) from rfl, show (Pipeline.scopedRest (Ix := Unit) (Name := ℕ) (U := UR sig nD τ) (Lvl := ℕ) (Val := Elt F) (Pipeline.pin (pcfgs (F := F)) adm 11).spec c : sProp 𝕄) = _ from scopedRest11_split c]; unfold Φ11
    simp only [owns_whole]
    iintro ⟨⟨%s, -, Hs⟩, Hr⟩
    isplitr; · iempintro
    isplitr; · iempintro
    isplitl [Hs]; · iexists s; iexact Hs
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V56 m ρ c) (V57 m ρ c) ((pdats m ρ 11 c).arrAt · cfg11.N) (hF11 m ρ c) (hrest11 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.KB.Run.lean ====
/-
  @main of the idealized kernel program as its 65 segments in order — a host segment per stretch of host operations
  from its boundary's contents, a region per blocked product — and the launch over them: from any memory with zero
  counters every weakly fair execution on the TensorCores terminates, nothing faulting, and every unscoped buffer
  ends at the last boundary's contents.
-/
import proofs.«158997_j77232101916990_1_alg».proof.Proof.KB.Reg0
import proofs.«158997_j77232101916990_1_alg».proof.Proof.KB.Reg1
import proofs.«158997_j77232101916990_1_alg».proof.Proof.KB.Reg2
import proofs.«158997_j77232101916990_1_alg».proof.Proof.KB.Reg3
import proofs.«158997_j77232101916990_1_alg».proof.Proof.KB.Reg4
import proofs.«158997_j77232101916990_1_alg».proof.Proof.KB.Reg5
import proofs.«158997_j77232101916990_1_alg».proof.Proof.KB.Reg6
import proofs.«158997_j77232101916990_1_alg».proof.Proof.KB.Reg7
import proofs.«158997_j77232101916990_1_alg».proof.Proof.KB.Reg8
import proofs.«158997_j77232101916990_1_alg».proof.Proof.KB.Reg9
import proofs.«158997_j77232101916990_1_alg».proof.Proof.KB.Reg10
import proofs.«158997_j77232101916990_1_alg».proof.Proof.KB.Reg11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents W, the core's owes riding along; it
    leaves those references at the stretch's fold over W: the next boundary's contents by name. -/
abbrev hseg (ops : List (HloOp τ sig (Elt F))) (hsub : ops.Forall fun op => op.bufs ⊆ StableHlo.tcRefs τ sig)
    (hfresh : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hfresh W R

theorem fresh0 : ∀ op ∈ (main_part0_ops0 : List (HloOp τ sig (Elt F))), op.fresh = ∅ := by
  intro _ h; (repeat (cases h with | head => rfl | tail _ h => ?_)); exact nomatch h
theorem fresh1 : ∀ op ∈ (main_part1_ops0 : List (HloOp τ sig (Elt F))), op.fresh = ∅ := by
  intro _ h; (repeat (cases h with | head => rfl | tail _ h => ?_)); exact nomatch h
theorem fresh2 : ∀ op ∈ (main_part2_ops0 : List (HloOp τ sig (Elt F))), op.fresh = ∅ := by
  intro _ h; (repeat (cases h with | head => rfl | tail _ h => ?_)); exact nomatch h
theorem fresh3 : ∀ op ∈ (main_part3_ops0 : List (HloOp τ sig (Elt F))), op.fresh = ∅ := by
  intro _ h; (repeat (cases h with | head => rfl | tail _ h => ?_)); exact nomatch h
theorem fresh4 : ∀ op ∈ (main_part4_ops0 : List (HloOp τ sig (Elt F))), op.fresh = ∅ := by
  intro _ h; (repeat (cases h with | head => rfl | tail _ h => ?_)); exact nomatch h
theorem fresh5 : ∀ op ∈ (main_part5_ops0 : List (HloOp τ sig (Elt F))), op.fresh = ∅ := by
  intro _ h; (repeat (cases h with | head => rfl | tail _ h => ?_)); exact nomatch h
theorem fresh6 : ∀ op ∈ (main_part6_ops0 : List (HloOp τ sig (Elt F))), op.fresh = ∅ := by
  intro _ h; (repeat (cases h with | head => rfl | tail _ h => ?_)); exact nomatch h
theorem fresh7 : ∀ op ∈ (main_part7_ops0 : List (HloOp τ sig (Elt F))), op.fresh = ∅ := by
  intro _ h; (repeat (cases h with | head => rfl | tail _ h => ?_)); exact nomatch h
theorem fresh8 : ∀ op ∈ (main_part8_ops0 : List (HloOp τ sig (Elt F))), op.fresh = ∅ := by
  intro _ h; (repeat (cases h with | head => rfl | tail _ h => ?_)); exact nomatch h
theorem fresh9 : ∀ op ∈ (main_part9_ops0 : List (HloOp τ sig (Elt F))), op.fresh = ∅ := by
  intro _ h; (repeat (cases h with | head => rfl | tail _ h => ?_)); exact nomatch h
theorem fresh10 : ∀ op ∈ (main_part10_ops0 : List (HloOp τ sig (Elt F))), op.fresh = ∅ := by
  intro _ h; (repeat (cases h with | head => rfl | tail _ h => ?_)); exact nomatch h
theorem fresh11 : ∀ op ∈ (main_part11_ops0 : List (HloOp τ sig (Elt F))), op.fresh = ∅ := by
  intro _ h; (repeat (cases h with | head => rfl | tail _ h => ?_)); exact nomatch h
theorem fresh12 : ∀ op ∈ (main_part12_ops0 : List (HloOp τ sig (Elt F))), op.fresh = ∅ := by
  intro _ h; (repeat (cases h with | head => rfl | tail _ h => ?_)); exact nomatch h
theorem fresh13 : ∀ op ∈ (main_part12_ops1 : List (HloOp τ sig (Elt F))), op.fresh = ∅ := by
  intro _ h; (repeat (cases h with | head => rfl | tail _ h => ?_)); exact nomatch h
theorem fresh14 : ∀ op ∈ (main_part12_ops2 : List (HloOp τ sig (Elt F))), op.fresh = ∅ := by
  intro _ h; (repeat (cases h with | head => rfl | tail _ h => ?_)); exact nomatch h
theorem fresh15 : ∀ op ∈ (main_part12_ops3 : List (HloOp τ sig (Elt F))), op.fresh = ∅ := by
  intro _ h; (repeat (cases h with | head => rfl | tail _ h => ?_)); exact nomatch h
theorem fresh16 : ∀ op ∈ (main_part12_ops4 : List (HloOp τ sig (Elt F))), op.fresh = ∅ := by
  intro _ h; (repeat (cases h with | head => rfl | tail _ h => ?_)); exact nomatch h
theorem fresh17 : ∀ op ∈ (main_part13_ops0 : List (HloOp τ sig (Elt F))), op.fresh = ∅ := by
  intro _ h; (repeat (cases h with | head => rfl | tail _ h => ?_)); exact nomatch h
theorem fresh18 : ∀ op ∈ (main_part13_ops1 : List (HloOp τ sig (Elt F))), op.fresh = ∅ := by
  intro _ h; (repeat (cases h with | head => rfl | tail _ h => ?_)); exact nomatch h
theorem fresh19 : ∀ op ∈ (main_part13_ops2 : List (HloOp τ sig (Elt F))), op.fresh = ∅ := by
  intro _ h; (repeat (cases h with | head => rfl | tail _ h => ?_)); exact nomatch h
theorem fresh20 : ∀ op ∈ (main_part13_ops3 : List (HloOp τ sig (Elt F))), op.fresh = ∅ := by
  intro _ h; (repeat (cases h with | head => rfl | tail _ h => ?_)); exact nomatch h
theorem fresh21 : ∀ op ∈ (main_part13_ops4 : List (HloOp τ sig (Elt F))), op.fresh = ∅ := by
  intro _ h; (repeat (cases h with | head => rfl | tail _ h => ?_)); exact nomatch h
theorem fresh23 : ∀ op ∈ (main_part13_ops5 : List (HloOp τ sig (Elt F))), op.fresh = ∅ := by
  intro _ h; (repeat (cases h with | head => rfl | tail _ h => ?_)); exact nomatch h
theorem fresh25 : ∀ op ∈ (main_part13_ops6 : List (HloOp τ sig (Elt F))), op.fresh = ∅ := by
  intro _ h; (repeat (cases h with | head => rfl | tail _ h => ?_)); exact nomatch h
theorem fresh28 : ∀ op ∈ (main_part13_ops7 : List (HloOp τ sig (Elt F))), op.fresh = ∅ := by
  intro _ h; (repeat (cases h with | head => rfl | tail _ h => ?_)); exact nomatch h
theorem fresh29 : ∀ op ∈ (main_part13_ops8 : List (HloOp τ sig (Elt F))), op.fresh = ∅ := by
  intro _ h; (repeat (cases h with | head => rfl | tail _ h => ?_)); exact nomatch h
theorem fresh30 : ∀ op ∈ (main_part13_ops9 : List (HloOp τ sig (Elt F))), op.fresh = ∅ := by
  intro _ h; (repeat (cases h with | head => rfl | tail _ h => ?_)); exact nomatch h
theorem fresh31 : ∀ op ∈ (main_part13_ops10 : List (HloOp τ sig (Elt F))), op.fresh = ∅ := by
  intro _ h; (repeat (cases h with | head => rfl | tail _ h => ?_)); exact nomatch h
theorem fresh32 : ∀ op ∈ (main_part13_ops11 : List (HloOp τ sig (Elt F))), op.fresh = ∅ := by
  intro _ h; (repeat (cases h with | head => rfl | tail _ h => ?_)); exact nomatch h
theorem fresh33 : ∀ op ∈ (main_part13_ops12 : List (HloOp τ sig (Elt F))), op.fresh = ∅ := by
  intro _ h; (repeat (cases h with | head => rfl | tail _ h => ?_)); exact nomatch h
theorem fresh34 : ∀ op ∈ (main_part13_ops13 : List (HloOp τ sig (Elt F))), op.fresh = ∅ := by
  intro _ h; (repeat (cases h with | head => rfl | tail _ h => ?_)); exact nomatch h
theorem fresh35 : ∀ op ∈ (main_part13_ops14 : List (HloOp τ sig (Elt F))), op.fresh = ∅ := by
  intro _ h; (repeat (cases h with | head => rfl | tail _ h => ?_)); exact nomatch h
theorem fresh37 : ∀ op ∈ (main_part13_ops15 : List (HloOp τ sig (Elt F))), op.fresh = ∅ := by
  intro _ h; (repeat (cases h with | head => rfl | tail _ h => ?_)); exact nomatch h
theorem fresh39 : ∀ op ∈ (main_part13_ops16 : List (HloOp τ sig (Elt F))), op.fresh = ∅ := by
  intro _ h; (repeat (cases h with | head => rfl | tail _ h => ?_)); exact nomatch h
theorem fresh42 : ∀ op ∈ (main_part13_ops17 : List (HloOp τ sig (Elt F))), op.fresh = ∅ := by
  intro _ h; (repeat (cases h with | head => rfl | tail _ h => ?_)); exact nomatch h
theorem fresh43 : ∀ op ∈ (main_part13_ops18 : List (HloOp τ sig (Elt F))), op.fresh = ∅ := by
  intro _ h; (repeat (cases h with | head => rfl | tail _ h => ?_)); exact nomatch h
theorem fresh44 : ∀ op ∈ (main_part14_ops0 : List (HloOp τ sig (Elt F))), op.fresh = ∅ := by
  intro _ h; (repeat (cases h with | head => rfl | tail _ h => ?_)); exact nomatch h
theorem fresh45 : ∀ op ∈ (main_part14_ops1 : List (HloOp τ sig (Elt F))), op.fresh = ∅ := by
  intro _ h; (repeat (cases h with | head => rfl | tail _ h => ?_)); exact nomatch h
theorem fresh46 : ∀ op ∈ (main_part14_ops2 : List (HloOp τ sig (Elt F))), op.fresh = ∅ := by
  intro _ h; (repeat (cases h with | head => rfl | tail _ h => ?_)); exact nomatch h
theorem fresh47 : ∀ op ∈ (main_part14_ops3 : List (HloOp τ sig (Elt F))), op.fresh = ∅ := by
  intro _ h; (repeat (cases h with | head => rfl | tail _ h => ?_)); exact nomatch h
theorem fresh48 : ∀ op ∈ (main_part14_ops4 : List (HloOp τ sig (Elt F))), op.fresh = ∅ := by
  intro _ h; (repeat (cases h with | head => rfl | tail _ h => ?_)); exact nomatch h
theorem fresh49 : ∀ op ∈ (main_part14_ops5 : List (HloOp τ sig (Elt F))), op.fresh = ∅ := by
  intro _ h; (repeat (cases h with | head => rfl | tail _ h => ?_)); exact nomatch h
theorem fresh50 : ∀ op ∈ (main_part14_ops6 : List (HloOp τ sig (Elt F))), op.fresh = ∅ := by
  intro _ h; (repeat (cases h with | head => rfl | tail _ h => ?_)); exact nomatch h
theorem fresh52 : ∀ op ∈ (main_part14_ops7 : List (HloOp τ sig (Elt F))), op.fresh = ∅ := by
  intro _ h; (repeat (cases h with | head => rfl | tail _ h => ?_)); exact nomatch h
theorem fresh54 : ∀ op ∈ (main_part14_ops8 : List (HloOp τ sig (Elt F))), op.fresh = ∅ := by
  intro _ h; (repeat (cases h with | head => rfl | tail _ h => ?_)); exact nomatch h
theorem fresh57 : ∀ op ∈ (main_part14_ops9 : List (HloOp τ sig (Elt F))), op.fresh = ∅ := by
  intro _ h; (repeat (cases h with | head => rfl | tail _ h => ?_)); exact nomatch h
theorem fresh58 : ∀ op ∈ (main_part14_ops10 : List (HloOp τ sig (Elt F))), op.fresh = ∅ := by
  intro _ h; (repeat (cases h with | head => rfl | tail _ h => ?_)); exact nomatch h
theorem fresh59 : ∀ op ∈ (main_part14_ops11 : List (HloOp τ sig (Elt F))), op.fresh = ∅ := by
  intro _ h; (repeat (cases h with | head => rfl | tail _ h => ?_)); exact nomatch h
theorem fresh60 : ∀ op ∈ (main_part14_ops12 : List (HloOp τ sig (Elt F))), op.fresh = ∅ := by
  intro _ h; (repeat (cases h with | head => rfl | tail _ h => ?_)); exact nomatch h
theorem fresh61 : ∀ op ∈ (main_part14_ops13 : List (HloOp τ sig (Elt F))), op.fresh = ∅ := by
  intro _ h; (repeat (cases h with | head => rfl | tail _ h => ?_)); exact nomatch h
theorem fresh62 : ∀ op ∈ (main_part14_ops14 : List (HloOp τ sig (Elt F))), op.fresh = ∅ := by
  intro _ h; (repeat (cases h with | head => rfl | tail _ h => ?_)); exact nomatch h
theorem fresh63 : ∀ op ∈ (main_part14_ops15 : List (HloOp τ sig (Elt F))), op.fresh = ∅ := by
  intro _ h; (repeat (cases h with | head => rfl | tail _ h => ?_)); exact nomatch h
theorem fresh64 : ∀ op ∈ (main_part14_ops16 : List (HloOp τ sig (Elt F))), op.fresh = ∅ := by
  intro _ h; (repeat (cases h with | head => rfl | tail _ h => ?_)); exact nomatch h

/-- @main's segments in order. -/
abbrev segs : List (Pipeline.Seg (pcfgs (F := F)) adm (pdats m ρ) () defs₀ 𝒱₀ L lv) :=
  [ .host (hseg main_part0_ops0 main_part0_ops0_sub fresh0 (W0 m ρ)),
    .host (hseg main_part1_ops0 main_part1_ops0_sub fresh1 (W1 m ρ)),
    .host (hseg main_part2_ops0 main_part2_ops0_sub fresh2 (W2 m ρ)),
    .host (hseg main_part3_ops0 main_part3_ops0_sub fresh3 (W3 m ρ)),
    .host (hseg main_part4_ops0 main_part4_ops0_sub fresh4 (W4 m ρ)),
    .host (hseg main_part5_ops0 main_part5_ops0_sub fresh5 (W5 m ρ)),
    .host (hseg main_part6_ops0 main_part6_ops0_sub fresh6 (W6 m ρ)),
    .host (hseg main_part7_ops0 main_part7_ops0_sub fresh7 (W7 m ρ)),
    .host (hseg main_part8_ops0 main_part8_ops0_sub fresh8 (W8 m ρ)),
    .host (hseg main_part9_ops0 main_part9_ops0_sub fresh9 (W9 m ρ)),
    .host (hseg main_part10_ops0 main_part10_ops0_sub fresh10 (W10 m ρ)),
    .host (hseg main_part11_ops0 main_part11_ops0_sub fresh11 (W11 m ρ)),
    .host (hseg main_part12_ops0 main_part12_ops0_sub fresh12 (W12 m ρ)),
    .host (hseg main_part12_ops1 main_part12_ops1_sub fresh13 (W13 m ρ)),
    .host (hseg main_part12_ops2 main_part12_ops2_sub fresh14 (W14 m ρ)),
    .host (hseg main_part12_ops3 main_part12_ops3_sub fresh15 (W15 m ρ)),
    .host (hseg main_part12_ops4 main_part12_ops4_sub fresh16 (W16 m ρ)),
    .host (hseg main_part13_ops0 main_part13_ops0_sub fresh17 (W17 m ρ)),
    .host (hseg main_part13_ops1 main_part13_ops1_sub fresh18 (W18 m ρ)),
    .host (hseg main_part13_ops2 main_part13_ops2_sub fresh19 (W19 m ρ)),
    .host (hseg main_part13_ops3 main_part13_ops3_sub fresh20 (W20 m ρ)),
    .host (hseg main_part13_ops4 main_part13_ops4_sub fresh21 (W21 m ρ)),
    .region (reg0 m ρ),
    .host (hseg main_part13_ops5 main_part13_ops5_sub fresh23 (W23 m ρ)),
    .region (reg1 m ρ),
    .host (hseg main_part13_ops6 main_part13_ops6_sub fresh25 (W25 m ρ)),
    .region (reg2 m ρ),
    .region (reg3 m ρ),
    .host (hseg main_part13_ops7 main_part13_ops7_sub fresh28 (W28 m ρ)),
    .host (hseg main_part13_ops8 main_part13_ops8_sub fresh29 (W29 m ρ)),
    .host (hseg main_part13_ops9 main_part13_ops9_sub fresh30 (W30 m ρ)),
    .host (hseg main_part13_ops10 main_part13_ops10_sub fresh31 (W31 m ρ)),
    .host (hseg main_part13_ops11 main_part13_ops11_sub fresh32 (W32 m ρ)),
    .host (hseg main_part13_ops12 main_part13_ops12_sub fresh33 (W33 m ρ)),
    .host (hseg main_part13_ops13 main_part13_ops13_sub fresh34 (W34 m ρ)),
    .host (hseg main_part13_ops14 main_part13_ops14_sub fresh35 (W35 m ρ)),
    .region (reg4 m ρ),
    .host (hseg main_part13_ops15 main_part13_ops15_sub fresh37 (W37 m ρ)),
    .region (reg5 m ρ),
    .host (hseg main_part13_ops16 main_part13_ops16_sub fresh39 (W39 m ρ)),
    .region (reg6 m ρ),
    .region (reg7 m ρ),
    .host (hseg main_part13_ops17 main_part13_ops17_sub fresh42 (W42 m ρ)),
    .host (hseg main_part13_ops18 main_part13_ops18_sub fresh43 (W43 m ρ)),
    .host (hseg main_part14_ops0 main_part14_ops0_sub fresh44 (W44 m ρ)),
    .host (hseg main_part14_ops1 main_part14_ops1_sub fresh45 (W45 m ρ)),
    .host (hseg main_part14_ops2 main_part14_ops2_sub fresh46 (W46 m ρ)),
    .host (hseg main_part14_ops3 main_part14_ops3_sub fresh47 (W47 m ρ)),
    .host (hseg main_part14_ops4 main_part14_ops4_sub fresh48 (W48 m ρ)),
    .host (hseg main_part14_ops5 main_part14_ops5_sub fresh49 (W49 m ρ)),
    .host (hseg main_part14_ops6 main_part14_ops6_sub fresh50 (W50 m ρ)),
    .region (reg8 m ρ),
    .host (hseg main_part14_ops7 main_part14_ops7_sub fresh52 (W52 m ρ)),
    .region (reg9 m ρ),
    .host (hseg main_part14_ops8 main_part14_ops8_sub fresh54 (W54 m ρ)),
    .region (reg10 m ρ),
    .region (reg11 m ρ),
    .host (hseg main_part14_ops9 main_part14_ops9_sub fresh57 (W57 m ρ)),
    .host (hseg main_part14_ops10 main_part14_ops10_sub fresh58 (W58 m ρ)),
    .host (hseg main_part14_ops11 main_part14_ops11_sub fresh59 (W59 m ρ)),
    .host (hseg main_part14_ops12 main_part14_ops12_sub fresh60 (W60 m ρ)),
    .host (hseg main_part14_ops13 main_part14_ops13_sub fresh61 (W61 m ρ)),
    .host (hseg main_part14_ops14 main_part14_ops14_sub fresh62 (W62 m ρ)),
    .host (hseg main_part14_ops15 main_part14_ops15_sub fresh63 (W63 m ρ)),
    .host (hseg main_part14_ops16 main_part14_ops16_sub fresh64 (W64 m ρ)) ]

set_option maxRecDepth 100000 in
/-- @main IS the run of the segments: its chain of items, and the segments' run against that chain. -/
theorem main_run (c : Dev nD) : main (F := F) c = Pipeline.Seg.run (segs m ρ) := by
  rw [main_chain_windows c, Pipeline.Seg.run_eq_chain]; rfl

/-- The last thread state without the owes: every unscoped buffer at the last boundary's contents. -/
abbrev Tₙ (c : Dev nD) : sProp 𝕄 := StableHlo.held (c : Thread nD τ) (Pipeline.ucRefs τ sig) (W65 m ρ c)

set_option backward.isDefEq.respectTransparency.types false in
set_option maxRecDepth 100000 in
theorem run_main : θ_run defs (onTc (τ := τ) (main (F := F))) ⟨m, fun _ => 0, ρ⟩ (fun r => ∀ c : Dev nD,
      ∀ b ∈ Pipeline.ucRefs τ sig, r.2.mem (((c : Thread nD τ)).1, b) = W65 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W65 m ρ c b)
    (hfin := fun c s' => by
      unfold Tₙ StableHlo.held
      iintro ⟨Hh, HSI⟩
      imodintro
      iapply (pointsTo_read_all (Pipeline.ucRefs τ sig) (fun b => (((c : Thread nD τ)).1, b)) (W65 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KB.Keep.lean ====
/-
  What each item of @main leaves alone. The program is in single-assignment form: a host operation writes one buffer,
  its result, so a stretch of host operations rewrites exactly the results of its operations and leaves every other
  buffer at what it held; a blocked product writes back its output array only, its two input arrays are never written
  back (an input window flushes nothing), and every buffer that is none of its three arrays bypasses it. Hence a
  buffer holds, at every later boundary, what it held after the item that wrote it, and an argument array, which no
  item writes, holds its launch contents to the end.
  Which buffers an item leaves is stated twice: against the list of the references it writes (keep), and against
  their indices (keepLt): the buffers are numbered in program order, item j writing the indices from lo j on and
  every later item higher ones, so a buffer numbered below lo j is written by no item from j on. The second form
  turns each step of a walk into one comparison of numerals; tail k walks from the last boundary back to boundary
  k, launch k from boundary k back to the launch.
-/
import proofs.«158997_j77232101916990_1_alg».proof.Proof.KB.Fold
import Mathlib.Data.List.Basic
import Mathlib.Data.Finset.Dedup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A line's written buffers, listed -/

/-- The empty line writes nothing. -/
theorem writes_nil {τ₁ : Topo} {σ : RefSig} {Val : EltTy → Type} (W : List (Ref σ .tc)) :
    ([] : List (HloOp τ₁ σ Val)).Forall fun op => op.writes ⊆ (W.map (Proc.devRef (τ := τ₁) .tc)).toFinset := trivial

/-- A line whose first operation writes the one buffer y and whose other operations write among W writes among
    y :: W. -/
theorem writes_cons {τ₁ : Topo} {σ : RefSig} {Val : EltTy → Type} {y : Ref σ .tc} {W : List (Ref σ .tc)}
    {op : HloOp τ₁ σ Val} {ops : List (HloOp τ₁ σ Val)} (hw : op.writes = {Proc.devRef .tc y})
    (h : ops.Forall fun op => op.writes ⊆ (W.map (Proc.devRef (τ := τ₁) .tc)).toFinset) :
    (op :: ops).Forall fun op => op.writes ⊆ ((y :: W).map (Proc.devRef (τ := τ₁) .tc)).toFinset := by
  rw [List.forall_cons]
  refine ⟨?_, List.forall_iff_forall_mem.mpr fun o ho b hb => ?_⟩
  · rw [hw, Finset.singleton_subset_iff, List.mem_toFinset]; exact List.mem_map.mpr ⟨y, List.mem_cons_self, rfl⟩
  · have := (List.forall_iff_forall_mem.mp h) o ho hb
    rw [List.mem_toFinset] at this ⊢; rw [List.map_cons]; exact List.mem_cons_of_mem _ this

/-! ## Item by item: the buffers a host stretch writes are its operations' results; a region writes its output array -/

/-- The buffers item 0 (60 host operations) writes: its operations' results, in order. -/
noncomputable def wr0 : List (Ref sig .tc) :=
  [main_v0, main_v1, main_v2, main_v3, main_v4, main_v5, main_v6, main_v7, main_v8, main_v9, main_v10, main_cst,
   main_v11, main_v12, main_v13, main_v14, main_v15, main_v16, main_v17, main_cst_0, main_v18, main_v19, main_v20,
   main_v21, main_v22, main_v23, main_v24, main_v25, main_cst_1, main_v26, main_v27, main_cst_2, main_v28, main_v29,
   main_v30, main_v31, main_v32, main_v33, main_v34, main_v35, main_v36, main_cst_3, main_v37, main_v38, main_cst_4,
   main_v39, main_v40, main_v41, main_cst_5, main_v42, main_v43, main_cst_6, main_v44, main_v45, main_v46, main_v47,
   main_cst_7, main_v48, main_v49, main_cst_8]
theorem hW0 : (main_part0_ops0 : List (HloOp τ sig (Elt F))).Forall fun op => op.writes ⊆ ((wr0).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 0 leaves every buffer that is no result of its operations as it found it. -/
theorem keep0 (c : Dev nD) (r : Ref sig .tc) (h : r ∉ wr0) :
    W1 m ρ c (Proc.devRef .tc r) = W0 m ρ c (Proc.devRef .tc r) :=
  StableHlo.after_of_writes_sub _ _ hW0 h
/-- Its results' indices start at 11. -/
theorem lo0_le : ∀ r ∈ wr0, 11 ≤ r.idx.val := fun r hr =>
  of_decide_eq_true (List.all_eq_true.mp (by decide : wr0.all (fun r => decide (11 ≤ r.idx.val)) = true) r hr)
theorem keepLt0 (c : Dev nD) (r : Ref sig .tc) (h : r.idx.val < 11) :
    W1 m ρ c (Proc.devRef .tc r) = W0 m ρ c (Proc.devRef .tc r) :=
  keep0 m ρ c r fun hr => Nat.not_le.mpr h (lo0_le r hr)

/-- The buffers item 1 (60 host operations) writes: its operations' results, in order. -/
noncomputable def wr1 : List (Ref sig .tc) :=
  [main_v50, main_v51, main_v52, main_v53, main_cst_9, main_v54, main_cst_10, main_v55, main_v56, main_v57,
   main_cst_11, main_v58, main_v59, main_cst_12, main_v60, main_v61, main_v62, main_v63, main_cst_13, main_v64,
   main_v65, main_cst_14, main_v66, main_v67, main_v68, main_v69, main_cst_15, main_v70, main_cst_16, main_v71,
   main_v72, main_v73, main_v74, main_cst_17, main_v75, main_cst_18, main_v76, main_cst_19, main_v77, main_cst_20,
   main_v78, main_v79, main_v80, main_cst_21, main_v81, main_cst_22, main_v82, main_cst_23, main_v83, main_cst_24,
   main_v84, main_v85, main_v86, main_cst_25, main_v87, main_cst_26, main_v88, main_cst_27, main_v89, main_cst_28]
theorem hW1 : (main_part1_ops0 : List (HloOp τ sig (Elt F))).Forall fun op => op.writes ⊆ ((wr1).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 1 leaves every buffer that is no result of its operations as it found it. -/
theorem keep1 (c : Dev nD) (r : Ref sig .tc) (h : r ∉ wr1) :
    W2 m ρ c (Proc.devRef .tc r) = W1 m ρ c (Proc.devRef .tc r) :=
  StableHlo.after_of_writes_sub _ _ hW1 h
/-- Its results' indices start at 71. -/
theorem lo1_le : ∀ r ∈ wr1, 71 ≤ r.idx.val := fun r hr =>
  of_decide_eq_true (List.all_eq_true.mp (by decide : wr1.all (fun r => decide (71 ≤ r.idx.val)) = true) r hr)
theorem keepLt1 (c : Dev nD) (r : Ref sig .tc) (h : r.idx.val < 71) :
    W2 m ρ c (Proc.devRef .tc r) = W1 m ρ c (Proc.devRef .tc r) :=
  keep1 m ρ c r fun hr => Nat.not_le.mpr h (lo1_le r hr)

/-- The buffers item 2 (60 host operations) writes: its operations' results, in order. -/
noncomputable def wr2 : List (Ref sig .tc) :=
  [main_v90, main_v91, main_v92, main_cst_29, main_v93, main_v94, main_v95, main_cst_30, main_v96, main_v97, main_v98,
   main_v99, main_v100, main_v101, main_v102, main_v103, main_v104, main_v105, main_v106, main_v107, main_cst_31,
   main_v108, main_v109, main_v110, main_v111, main_v112, main_v113, main_v114, main_cst_32, main_v115, main_v116,
   main_v117, main_v118, main_v119, main_v120, main_v121, main_v122, main_cst_33, main_v123, main_v124, main_cst_34,
   main_v125, main_v126, main_v127, main_v128, main_v129, main_v130, main_v131, main_v132, main_v133, main_cst_35,
   main_v134, main_v135, main_cst_36, main_v136, main_v137, main_v138, main_cst_37, main_v139, main_v140]
theorem hW2 : (main_part2_ops0 : List (HloOp τ sig (Elt F))).Forall fun op => op.writes ⊆ ((wr2).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 2 leaves every buffer that is no result of its operations as it found it. -/
theorem keep2 (c : Dev nD) (r : Ref sig .tc) (h : r ∉ wr2) :
    W3 m ρ c (Proc.devRef .tc r) = W2 m ρ c (Proc.devRef .tc r) :=
  StableHlo.after_of_writes_sub _ _ hW2 h
/-- Its results' indices start at 131. -/
theorem lo2_le : ∀ r ∈ wr2, 131 ≤ r.idx.val := fun r hr =>
  of_decide_eq_true (List.all_eq_true.mp (by decide : wr2.all (fun r => decide (131 ≤ r.idx.val)) = true) r hr)
theorem keepLt2 (c : Dev nD) (r : Ref sig .tc) (h : r.idx.val < 131) :
    W3 m ρ c (Proc.devRef .tc r) = W2 m ρ c (Proc.devRef .tc r) :=
  keep2 m ρ c r fun hr => Nat.not_le.mpr h (lo2_le r hr)

/-- The buffers item 3 (60 host operations) writes: its operations' results, in order. -/
noncomputable def wr3 : List (Ref sig .tc) :=
  [main_cst_38, main_v141, main_v142, main_v143, main_v144, main_cst_39, main_v145, main_v146, main_cst_40, main_v147,
   main_v148, main_v149, main_v150, main_cst_41, main_v151, main_cst_42, main_v152, main_v153, main_v154, main_cst_43,
   main_v155, main_v156, main_cst_44, main_v157, main_v158, main_v159, main_v160, main_cst_45, main_v161, main_v162,
   main_cst_46, main_v163, main_v164, main_v165, main_v166, main_cst_47, main_v167, main_cst_48, main_v168, main_v169,
   main_v170, main_v171, main_cst_49, main_v172, main_cst_50, main_v173, main_cst_51, main_v174, main_cst_52,
   main_v175, main_v176, main_v177, main_cst_53, main_v178, main_cst_54, main_v179, main_cst_55, main_v180,
   main_cst_56, main_v181]
theorem hW3 : (main_part3_ops0 : List (HloOp τ sig (Elt F))).Forall fun op => op.writes ⊆ ((wr3).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 3 leaves every buffer that is no result of its operations as it found it. -/
theorem keep3 (c : Dev nD) (r : Ref sig .tc) (h : r ∉ wr3) :
    W4 m ρ c (Proc.devRef .tc r) = W3 m ρ c (Proc.devRef .tc r) :=
  StableHlo.after_of_writes_sub _ _ hW3 h
/-- Its results' indices start at 191. -/
theorem lo3_le : ∀ r ∈ wr3, 191 ≤ r.idx.val := fun r hr =>
  of_decide_eq_true (List.all_eq_true.mp (by decide : wr3.all (fun r => decide (191 ≤ r.idx.val)) = true) r hr)
theorem keepLt3 (c : Dev nD) (r : Ref sig .tc) (h : r.idx.val < 191) :
    W4 m ρ c (Proc.devRef .tc r) = W3 m ρ c (Proc.devRef .tc r) :=
  keep3 m ρ c r fun hr => Nat.not_le.mpr h (lo3_le r hr)

/-- The buffers item 4 (60 host operations) writes: its operations' results, in order. -/
noncomputable def wr4 : List (Ref sig .tc) :=
  [main_v182, main_v183, main_cst_57, main_v184, main_cst_58, main_v185, main_cst_59, main_v186, main_cst_60,
   main_v187, main_v188, main_v189, main_cst_61, main_v190, main_v191, main_v192, main_v193, main_v194, main_v195,
   main_v196, main_v197, main_v198, main_v199, main_v200, main_v201, main_v202, main_v203, main_v204, main_cst_62,
   main_v205, main_v206, main_v207, main_v208, main_v209, main_v210, main_v211, main_cst_63, main_v212, main_v213,
   main_v214, main_v215, main_v216, main_v217, main_v218, main_v219, main_cst_64, main_v220, main_v221, main_cst_65,
   main_v222, main_v223, main_v224, main_v225, main_v226, main_v227, main_v228, main_v229, main_v230, main_cst_66,
   main_v231]
theorem hW4 : (main_part4_ops0 : List (HloOp τ sig (Elt F))).Forall fun op => op.writes ⊆ ((wr4).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 4 leaves every buffer that is no result of its operations as it found it. -/
theorem keep4 (c : Dev nD) (r : Ref sig .tc) (h : r ∉ wr4) :
    W5 m ρ c (Proc.devRef .tc r) = W4 m ρ c (Proc.devRef .tc r) :=
  StableHlo.after_of_writes_sub _ _ hW4 h
/-- Its results' indices start at 251. -/
theorem lo4_le : ∀ r ∈ wr4, 251 ≤ r.idx.val := fun r hr =>
  of_decide_eq_true (List.all_eq_true.mp (by decide : wr4.all (fun r => decide (251 ≤ r.idx.val)) = true) r hr)
theorem keepLt4 (c : Dev nD) (r : Ref sig .tc) (h : r.idx.val < 251) :
    W5 m ρ c (Proc.devRef .tc r) = W4 m ρ c (Proc.devRef .tc r) :=
  keep4 m ρ c r fun hr => Nat.not_le.mpr h (lo4_le r hr)

/-- The buffers item 5 (60 host operations) writes: its operations' results, in order. -/
noncomputable def wr5 : List (Ref sig .tc) :=
  [main_v232, main_cst_67, main_v233, main_v234, main_v235, main_cst_68, main_v236, main_v237, main_cst_69, main_v238,
   main_v239, main_v240, main_v241, main_cst_70, main_v242, main_v243, main_cst_71, main_v244, main_v245, main_v246,
   main_v247, main_cst_72, main_v248, main_cst_73, main_v249, main_v250, main_v251, main_cst_74, main_v252, main_v253,
   main_cst_75, main_v254, main_v255, main_v256, main_v257, main_cst_76, main_v258, main_v259, main_cst_77, main_v260,
   main_v261, main_v262, main_v263, main_cst_78, main_v264, main_cst_79, main_v265, main_v266, main_v267, main_v268,
   main_cst_80, main_v269, main_cst_81, main_v270, main_cst_82, main_v271, main_cst_83, main_v272, main_v273, main_v274]
theorem hW5 : (main_part5_ops0 : List (HloOp τ sig (Elt F))).Forall fun op => op.writes ⊆ ((wr5).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 5 leaves every buffer that is no result of its operations as it found it. -/
theorem keep5 (c : Dev nD) (r : Ref sig .tc) (h : r ∉ wr5) :
    W6 m ρ c (Proc.devRef .tc r) = W5 m ρ c (Proc.devRef .tc r) :=
  StableHlo.after_of_writes_sub _ _ hW5 h
/-- Its results' indices start at 311. -/
theorem lo5_le : ∀ r ∈ wr5, 311 ≤ r.idx.val := fun r hr =>
  of_decide_eq_true (List.all_eq_true.mp (by decide : wr5.all (fun r => decide (311 ≤ r.idx.val)) = true) r hr)
theorem keepLt5 (c : Dev nD) (r : Ref sig .tc) (h : r.idx.val < 311) :
    W6 m ρ c (Proc.devRef .tc r) = W5 m ρ c (Proc.devRef .tc r) :=
  keep5 m ρ c r fun hr => Nat.not_le.mpr h (lo5_le r hr)

/-- The buffers item 6 (60 host operations) writes: its operations' results, in order. -/
noncomputable def wr6 : List (Ref sig .tc) :=
  [main_cst_84, main_v275, main_cst_85, main_v276, main_cst_86, main_v277, main_cst_87, main_v278, main_v279,
   main_v280, main_cst_88, main_v281, main_cst_89, main_v282, main_cst_90, main_v283, main_cst_91, main_v284,
   main_v285, main_v286, main_cst_92, main_v287, main_v288, main_v289, main_v290, main_v291, main_v292, main_v293,
   main_v294, main_v295, main_v296, main_v297, main_v298, main_v299, main_v300, main_v301, main_cst_93, main_v302,
   main_v303, main_v304, main_v305, main_v306, main_v307, main_v308, main_cst_94, main_v309, main_v310, main_v311,
   main_v312, main_v313, main_v314, main_v315, main_v316, main_cst_95, main_v317, main_v318, main_cst_96, main_v319,
   main_v320, main_v321]
theorem hW6 : (main_part6_ops0 : List (HloOp τ sig (Elt F))).Forall fun op => op.writes ⊆ ((wr6).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 6 leaves every buffer that is no result of its operations as it found it. -/
theorem keep6 (c : Dev nD) (r : Ref sig .tc) (h : r ∉ wr6) :
    W7 m ρ c (Proc.devRef .tc r) = W6 m ρ c (Proc.devRef .tc r) :=
  StableHlo.after_of_writes_sub _ _ hW6 h
/-- Its results' indices start at 371. -/
theorem lo6_le : ∀ r ∈ wr6, 371 ≤ r.idx.val := fun r hr =>
  of_decide_eq_true (List.all_eq_true.mp (by decide : wr6.all (fun r => decide (371 ≤ r.idx.val)) = true) r hr)
theorem keepLt6 (c : Dev nD) (r : Ref sig .tc) (h : r.idx.val < 371) :
    W7 m ρ c (Proc.devRef .tc r) = W6 m ρ c (Proc.devRef .tc r) :=
  keep6 m ρ c r fun hr => Nat.not_le.mpr h (lo6_le r hr)

/-- The buffers item 7 (60 host operations) writes: its operations' results, in order. -/
noncomputable def wr7 : List (Ref sig .tc) :=
  [main_v322, main_v323, main_v324, main_v325, main_v326, main_v327, main_cst_97, main_v328, main_v329, main_cst_98,
   main_v330, main_v331, main_v332, main_cst_99, main_v333, main_v334, main_cst_100, main_v335, main_v336, main_v337,
   main_v338, main_cst_101, main_v339, main_v340, main_cst_102, main_v341, main_v342, main_v343, main_v344,
   main_cst_103, main_v345, main_cst_104, main_v346, main_v347, main_v348, main_cst_105, main_v349, main_v350,
   main_cst_106, main_v351, main_v352, main_v353, main_v354, main_cst_107, main_v355, main_v356, main_cst_108,
   main_v357, main_v358, main_v359, main_v360, main_cst_109, main_v361, main_cst_110, main_v362, main_v363, main_v364,
   main_v365, main_cst_111, main_v366]
theorem hW7 : (main_part7_ops0 : List (HloOp τ sig (Elt F))).Forall fun op => op.writes ⊆ ((wr7).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 7 leaves every buffer that is no result of its operations as it found it. -/
theorem keep7 (c : Dev nD) (r : Ref sig .tc) (h : r ∉ wr7) :
    W8 m ρ c (Proc.devRef .tc r) = W7 m ρ c (Proc.devRef .tc r) :=
  StableHlo.after_of_writes_sub _ _ hW7 h
/-- Its results' indices start at 431. -/
theorem lo7_le : ∀ r ∈ wr7, 431 ≤ r.idx.val := fun r hr =>
  of_decide_eq_true (List.all_eq_true.mp (by decide : wr7.all (fun r => decide (431 ≤ r.idx.val)) = true) r hr)
theorem keepLt7 (c : Dev nD) (r : Ref sig .tc) (h : r.idx.val < 431) :
    W8 m ρ c (Proc.devRef .tc r) = W7 m ρ c (Proc.devRef .tc r) :=
  keep7 m ρ c r fun hr => Nat.not_le.mpr h (lo7_le r hr)

/-- The buffers item 8 (60 host operations) writes: its operations' results, in order. -/
noncomputable def wr8 : List (Ref sig .tc) :=
  [main_cst_112, main_v367, main_cst_113, main_v368, main_cst_114, main_v369, main_v370, main_v371, main_cst_115,
   main_v372, main_cst_116, main_v373, main_cst_117, main_v374, main_cst_118, main_v375, main_v376, main_v377,
   main_cst_119, main_v378, main_cst_120, main_v379, main_cst_121, main_v380, main_cst_122, main_v381, main_v382,
   main_v383, main_cst_123, main_v384, main_v385, main_v386, main_v387, main_v388, main_v389, main_v390, main_v391,
   main_v392, main_v393, main_v394, main_v395, main_v396, main_v397, main_v398, main_cst_124, main_v399, main_v400,
   main_v401, main_v402, main_v403, main_v404, main_v405, main_cst_125, main_v406, main_v407, main_v408, main_v409,
   main_v410, main_v411, main_v412]
theorem hW8 : (main_part8_ops0 : List (HloOp τ sig (Elt F))).Forall fun op => op.writes ⊆ ((wr8).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 8 leaves every buffer that is no result of its operations as it found it. -/
theorem keep8 (c : Dev nD) (r : Ref sig .tc) (h : r ∉ wr8) :
    W9 m ρ c (Proc.devRef .tc r) = W8 m ρ c (Proc.devRef .tc r) :=
  StableHlo.after_of_writes_sub _ _ hW8 h
/-- Its results' indices start at 491. -/
theorem lo8_le : ∀ r ∈ wr8, 491 ≤ r.idx.val := fun r hr =>
  of_decide_eq_true (List.all_eq_true.mp (by decide : wr8.all (fun r => decide (491 ≤ r.idx.val)) = true) r hr)
theorem keepLt8 (c : Dev nD) (r : Ref sig .tc) (h : r.idx.val < 491) :
    W9 m ρ c (Proc.devRef .tc r) = W8 m ρ c (Proc.devRef .tc r) :=
  keep8 m ρ c r fun hr => Nat.not_le.mpr h (lo8_le r hr)

/-- The buffers item 9 (60 host operations) writes: its operations' results, in order. -/
noncomputable def wr9 : List (Ref sig .tc) :=
  [main_v413, main_cst_126, main_v414, main_v415, main_cst_127, main_v416, main_v417, main_v418, main_v419, main_v420,
   main_v421, main_v422, main_v423, main_v424, main_cst_128, main_v425, main_v426, main_cst_129, main_v427, main_v428,
   main_v429, main_cst_130, main_v430, main_v431, main_cst_131, main_v432, main_v433, main_v434, main_v435,
   main_cst_132, main_v436, main_v437, main_cst_133, main_v438, main_v439, main_v440, main_v441, main_cst_134,
   main_v442, main_cst_135, main_v443, main_v444, main_v445, main_cst_136, main_v446, main_v447, main_cst_137,
   main_v448, main_v449, main_v450, main_v451, main_cst_138, main_v452, main_v453, main_cst_139, main_v454, main_v455,
   main_v456, main_v457, main_cst_140]
theorem hW9 : (main_part9_ops0 : List (HloOp τ sig (Elt F))).Forall fun op => op.writes ⊆ ((wr9).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 9 leaves every buffer that is no result of its operations as it found it. -/
theorem keep9 (c : Dev nD) (r : Ref sig .tc) (h : r ∉ wr9) :
    W10 m ρ c (Proc.devRef .tc r) = W9 m ρ c (Proc.devRef .tc r) :=
  StableHlo.after_of_writes_sub _ _ hW9 h
/-- Its results' indices start at 551. -/
theorem lo9_le : ∀ r ∈ wr9, 551 ≤ r.idx.val := fun r hr =>
  of_decide_eq_true (List.all_eq_true.mp (by decide : wr9.all (fun r => decide (551 ≤ r.idx.val)) = true) r hr)
theorem keepLt9 (c : Dev nD) (r : Ref sig .tc) (h : r.idx.val < 551) :
    W10 m ρ c (Proc.devRef .tc r) = W9 m ρ c (Proc.devRef .tc r) :=
  keep9 m ρ c r fun hr => Nat.not_le.mpr h (lo9_le r hr)

/-- The buffers item 10 (60 host operations) writes: its operations' results, in order. -/
noncomputable def wr10 : List (Ref sig .tc) :=
  [main_v458, main_cst_141, main_v459, main_v460, main_v461, main_v462, main_cst_142, main_v463, main_cst_143,
   main_v464, main_cst_144, main_v465, main_cst_145, main_v466, main_v467, main_v468, main_cst_146, main_v469,
   main_cst_147, main_v470, main_cst_148, main_v471, main_cst_149, main_v472, main_v473, main_v474, main_cst_150,
   main_v475, main_cst_151, main_v476, main_cst_152, main_v477, main_cst_153, main_v478, main_v479, main_v480,
   main_cst_154, main_v481, main_v482, main_v483, main_v484, main_v485, main_v486, main_v487, main_v488, main_v489,
   main_v490, main_v491, main_v492, main_v493, main_v494, main_v495, main_cst_155, main_v496, main_v497, main_v498,
   main_v499, main_v500, main_v501, main_v502]
theorem hW10 : (main_part10_ops0 : List (HloOp τ sig (Elt F))).Forall fun op => op.writes ⊆ ((wr10).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 10 leaves every buffer that is no result of its operations as it found it. -/
theorem keep10 (c : Dev nD) (r : Ref sig .tc) (h : r ∉ wr10) :
    W11 m ρ c (Proc.devRef .tc r) = W10 m ρ c (Proc.devRef .tc r) :=
  StableHlo.after_of_writes_sub _ _ hW10 h
/-- Its results' indices start at 611. -/
theorem lo10_le : ∀ r ∈ wr10, 611 ≤ r.idx.val := fun r hr =>
  of_decide_eq_true (List.all_eq_true.mp (by decide : wr10.all (fun r => decide (611 ≤ r.idx.val)) = true) r hr)
theorem keepLt10 (c : Dev nD) (r : Ref sig .tc) (h : r.idx.val < 611) :
    W11 m ρ c (Proc.devRef .tc r) = W10 m ρ c (Proc.devRef .tc r) :=
  keep10 m ρ c r fun hr => Nat.not_le.mpr h (lo10_le r hr)

/-- The buffers item 11 (60 host operations) writes: its operations' results, in order. -/
noncomputable def wr11 : List (Ref sig .tc) :=
  [main_cst_156, main_v503, main_v504, main_v505, main_v506, main_v507, main_v508, main_v509, main_v510, main_cst_157,
   main_v511, main_v512, main_cst_158, main_v513, main_v514, main_v515, main_v516, main_v517, main_v518, main_v519,
   main_v520, main_v521, main_cst_159, main_v522, main_v523, main_cst_160, main_v524, main_v525, main_v526,
   main_cst_161, main_v527, main_v528, main_cst_162, main_v529, main_v530, main_v531, main_v532, main_cst_163,
   main_v533, main_v534, main_cst_164, main_v535, main_v536, main_v537, main_v538, main_cst_165, main_v539,
   main_cst_166, main_v540, main_v541, main_v542, main_cst_167, main_v543, main_v544, main_cst_168, main_v545,
   main_v546, main_v547, main_v548, main_cst_169]
theorem hW11 : (main_part11_ops0 : List (HloOp τ sig (Elt F))).Forall fun op => op.writes ⊆ ((wr11).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <| writes_nil _
/-- Item 11 leaves every buffer that is no result of its operations as it found it. -/
theorem keep11 (c : Dev nD) (r : Ref sig .tc) (h : r ∉ wr11) :
    W12 m ρ c (Proc.devRef .tc r) = W11 m ρ c (Proc.devRef .tc r) :=
  StableHlo.after_of_writes_sub _ _ hW11 h
/-- Its results' indices start at 671. -/
theorem lo11_le : ∀ r ∈ wr11, 671 ≤ r.idx.val := fun r hr =>
  of_decide_eq_true (List.all_eq_true.mp (by decide : wr11.all (fun r => decide (671 ≤ r.idx.val)) = true) r hr)
theorem keepLt11 (c : Dev nD) (r : Ref sig .tc) (h : r.idx.val < 671) :
    W12 m ρ c (Proc.devRef .tc r) = W11 m ρ c (Proc.devRef .tc r) :=
  keep11 m ρ c r fun hr => Nat.not_le.mpr h (lo11_le r hr)

/-- The buffers item 12 (49 host operations) writes: its operations' results, in order. -/
noncomputable def wr12 : List (Ref sig .tc) :=
  [main_v549, main_v550, main_cst_170, main_v551, main_v552, main_v553, main_v554, main_cst_171, main_v555,
   main_cst_172, main_v556, main_v557, main_v558, main_v559, main_cst_173, main_v560, main_cst_174, main_v561,
   main_cst_175, main_v562, main_cst_176, main_v563, main_v564, main_v565, main_cst_177, main_v566, main_cst_178,
   main_v567, main_cst_179, main_v568, main_cst_180, main_v569, main_v570, main_v571, main_cst_181, main_v572,
   main_cst_182, main_v573, main_cst_183, main_v574, main_cst_184, main_v575, main_v576, main_v577, main_cst_185,
   main_v578, main_v579, main_v580, main_v581]
theorem hW12 : (main_part12_ops0 : List (HloOp τ sig (Elt F))).Forall fun op => op.writes ⊆ ((wr12).map (Proc.devRef (τ := τ) .tc)).toFinset :=
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_cons rfl <| writes_cons rfl <| writes_cons rfl <| writes_cons rfl <| writes_cons rfl <|
  writes_cons rfl <| writes_nil _
/-- Item 12 leaves every buffer that is no result of its operations as it found it. -/
theorem keep12 (c : Dev nD) (r : Ref sig .tc) (h : r ∉ wr12) :
    W13 m ρ c (Proc.devRef .tc r) = W12 m ρ c (Proc.devRef .tc r) :=
  StableHlo.after_of_writes_sub _ _ hW12 h
/-- Its results' indices start at 731. -/
theorem lo12_le : ∀ r ∈ wr12, 731 ≤ r.idx.val := fun r hr =>
  of_decide_eq_true (List.all_eq_true.mp (by decide : wr12.all (fun r => decide (731 ≤ r.idx.val)) = true) r hr)
theorem keepLt12 (c : Dev nD) (r : Ref sig .tc) (h : r.idx.val < 731) :
    W13 m ρ c (Proc.devRef .tc r) = W12 m ρ c (Proc.devRef .tc r) :=
  keep12 m ρ c r fun hr => Nat.not_le.mpr h (lo12_le r hr)

/-- The buffers item 13 (5 host operations) writes: its operations' results, in order. -/
noncomputable def wr13 : List (Ref sig .tc) :=
  [main_call0_v0, main_call0_cst, main_call0_v1, main_call0_v2, main_v582]
theorem hW13 : (main_part12_ops1 : List (HloOp τ sig (Elt F))).Forall fun op => op.writes ⊆ ((wr13).map (Proc.devRef (τ := τ) .tc)).toFinset :=
  writes_cons rfl <| writes_cons rfl <| writes_cons rfl <| writes_cons rfl <| writes_cons rfl <| writes_nil _
/-- Item 13 leaves every buffer that is no result of its operations as it found it. -/
theorem keep13 (c : Dev nD) (r : Ref sig .tc) (h : r ∉ wr13) :
    W14 m ρ c (Proc.devRef .tc r) = W13 m ρ c (Proc.devRef .tc r) :=
  StableHlo.after_of_writes_sub _ _ hW13 h
/-- Its results' indices start at 780. -/
theorem lo13_le : ∀ r ∈ wr13, 780 ≤ r.idx.val := fun r hr =>
  of_decide_eq_true (List.all_eq_true.mp (by decide : wr13.all (fun r => decide (780 ≤ r.idx.val)) = true) r hr)
theorem keepLt13 (c : Dev nD) (r : Ref sig .tc) (h : r.idx.val < 780) :
    W14 m ρ c (Proc.devRef .tc r) = W13 m ρ c (Proc.devRef .tc r) :=
  keep13 m ρ c r fun hr => Nat.not_le.mpr h (lo13_le r hr)

/-- The buffers item 14 (5 host operations) writes: its operations' results, in order. -/
noncomputable def wr14 : List (Ref sig .tc) :=
  [main_cst_186, main_v583, main_v584, main_v585, main_v586]
theorem hW14 : (main_part12_ops2 : List (HloOp τ sig (Elt F))).Forall fun op => op.writes ⊆ ((wr14).map (Proc.devRef (τ := τ) .tc)).toFinset :=
  writes_cons rfl <| writes_cons rfl <| writes_cons rfl <| writes_cons rfl <| writes_cons rfl <| writes_nil _
/-- Item 14 leaves every buffer that is no result of its operations as it found it. -/
theorem keep14 (c : Dev nD) (r : Ref sig .tc) (h : r ∉ wr14) :
    W15 m ρ c (Proc.devRef .tc r) = W14 m ρ c (Proc.devRef .tc r) :=
  StableHlo.after_of_writes_sub _ _ hW14 h
/-- Its results' indices start at 785. -/
theorem lo14_le : ∀ r ∈ wr14, 785 ≤ r.idx.val := fun r hr =>
  of_decide_eq_true (List.all_eq_true.mp (by decide : wr14.all (fun r => decide (785 ≤ r.idx.val)) = true) r hr)
theorem keepLt14 (c : Dev nD) (r : Ref sig .tc) (h : r.idx.val < 785) :
    W15 m ρ c (Proc.devRef .tc r) = W14 m ρ c (Proc.devRef .tc r) :=
  keep14 m ρ c r fun hr => Nat.not_le.mpr h (lo14_le r hr)

/-- The buffers item 15 (5 host operations) writes: its operations' results, in order. -/
noncomputable def wr15 : List (Ref sig .tc) :=
  [main_call1_v0, main_call1_cst, main_call1_v1, main_call1_v2, main_v587]
theorem hW15 : (main_part12_ops3 : List (HloOp τ sig (Elt F))).Forall fun op => op.writes ⊆ ((wr15).map (Proc.devRef (τ := τ) .tc)).toFinset :=
  writes_cons rfl <| writes_cons rfl <| writes_cons rfl <| writes_cons rfl <| writes_cons rfl <| writes_nil _
/-- Item 15 leaves every buffer that is no result of its operations as it found it. -/
theorem keep15 (c : Dev nD) (r : Ref sig .tc) (h : r ∉ wr15) :
    W16 m ρ c (Proc.devRef .tc r) = W15 m ρ c (Proc.devRef .tc r) :=
  StableHlo.after_of_writes_sub _ _ hW15 h
/-- Its results' indices start at 790. -/
theorem lo15_le : ∀ r ∈ wr15, 790 ≤ r.idx.val := fun r hr =>
  of_decide_eq_true (List.all_eq_true.mp (by decide : wr15.all (fun r => decide (790 ≤ r.idx.val)) = true) r hr)
theorem keepLt15 (c : Dev nD) (r : Ref sig .tc) (h : r.idx.val < 790) :
    W16 m ρ c (Proc.devRef .tc r) = W15 m ρ c (Proc.devRef .tc r) :=
  keep15 m ρ c r fun hr => Nat.not_le.mpr h (lo15_le r hr)

/-- The buffers item 16 (4 host operations) writes: its operations' results, in order. -/
noncomputable def wr16 : List (Ref sig .tc) :=
  [main_cst_187, main_v588, main_v589, main_v590]
theorem hW16 : (main_part12_ops4 : List (HloOp τ sig (Elt F))).Forall fun op => op.writes ⊆ ((wr16).map (Proc.devRef (τ := τ) .tc)).toFinset :=
  writes_cons rfl <| writes_cons rfl <| writes_cons rfl <| writes_cons rfl <| writes_nil _
/-- Item 16 leaves every buffer that is no result of its operations as it found it. -/
theorem keep16 (c : Dev nD) (r : Ref sig .tc) (h : r ∉ wr16) :
    W17 m ρ c (Proc.devRef .tc r) = W16 m ρ c (Proc.devRef .tc r) :=
  StableHlo.after_of_writes_sub _ _ hW16 h
/-- Its results' indices start at 795. -/
theorem lo16_le : ∀ r ∈ wr16, 795 ≤ r.idx.val := fun r hr =>
  of_decide_eq_true (List.all_eq_true.mp (by decide : wr16.all (fun r => decide (795 ≤ r.idx.val)) = true) r hr)
theorem keepLt16 (c : Dev nD) (r : Ref sig .tc) (h : r.idx.val < 795) :
    W17 m ρ c (Proc.devRef .tc r) = W16 m ρ c (Proc.devRef .tc r) :=
  keep16 m ρ c r fun hr => Nat.not_le.mpr h (lo16_le r hr)

/-- The buffers item 17 (1 host operation) writes: its operations' results, in order. -/
noncomputable def wr17 : List (Ref sig .tc) :=
  [main_v591]
theorem hW17 : (main_part13_ops0 : List (HloOp τ sig (Elt F))).Forall fun op => op.writes ⊆ ((wr17).map (Proc.devRef (τ := τ) .tc)).toFinset :=
  writes_cons rfl <| writes_nil _
/-- Item 17 leaves every buffer that is no result of its operations as it found it. -/
theorem keep17 (c : Dev nD) (r : Ref sig .tc) (h : r ∉ wr17) :
    W18 m ρ c (Proc.devRef .tc r) = W17 m ρ c (Proc.devRef .tc r) :=
  StableHlo.after_of_writes_sub _ _ hW17 h
/-- Its results' indices start at 799. -/
theorem lo17_le : ∀ r ∈ wr17, 799 ≤ r.idx.val := fun r hr =>
  of_decide_eq_true (List.all_eq_true.mp (by decide : wr17.all (fun r => decide (799 ≤ r.idx.val)) = true) r hr)
theorem keepLt17 (c : Dev nD) (r : Ref sig .tc) (h : r.idx.val < 799) :
    W18 m ρ c (Proc.devRef .tc r) = W17 m ρ c (Proc.devRef .tc r) :=
  keep17 m ρ c r fun hr => Nat.not_le.mpr h (lo17_le r hr)

/-- The buffers item 18 (5 host operations) writes: its operations' results, in order. -/
noncomputable def wr18 : List (Ref sig .tc) :=
  [main_call2_v0, main_call2_cst, main_call2_v1, main_call2_v2, main_v592]
theorem hW18 : (main_part13_ops1 : List (HloOp τ sig (Elt F))).Forall fun op => op.writes ⊆ ((wr18).map (Proc.devRef (τ := τ) .tc)).toFinset :=
  writes_cons rfl <| writes_cons rfl <| writes_cons rfl <| writes_cons rfl <| writes_cons rfl <| writes_nil _
/-- Item 18 leaves every buffer that is no result of its operations as it found it. -/
theorem keep18 (c : Dev nD) (r : Ref sig .tc) (h : r ∉ wr18) :
    W19 m ρ c (Proc.devRef .tc r) = W18 m ρ c (Proc.devRef .tc r) :=
  StableHlo.after_of_writes_sub _ _ hW18 h
/-- Its results' indices start at 800. -/
theorem lo18_le : ∀ r ∈ wr18, 800 ≤ r.idx.val := fun r hr =>
  of_decide_eq_true (List.all_eq_true.mp (by decide : wr18.all (fun r => decide (800 ≤ r.idx.val)) = true) r hr)
theorem keepLt18 (c : Dev nD) (r : Ref sig .tc) (h : r.idx.val < 800) :
    W19 m ρ c (Proc.devRef .tc r) = W18 m ρ c (Proc.devRef .tc r) :=
  keep18 m ρ c r fun hr => Nat.not_le.mpr h (lo18_le r hr)

/-- The buffers item 19 (5 host operations) writes: its operations' results, in order. -/
noncomputable def wr19 : List (Ref sig .tc) :=
  [main_cst_188, main_v593, main_v594, main_v595, main_v596]
theorem hW19 : (main_part13_ops2 : List (HloOp τ sig (Elt F))).Forall fun op => op.writes ⊆ ((wr19).map (Proc.devRef (τ := τ) .tc)).toFinset :=
  writes_cons rfl <| writes_cons rfl <| writes_cons rfl <| writes_cons rfl <| writes_cons rfl <| writes_nil _
/-- Item 19 leaves every buffer that is no result of its operations as it found it. -/
theorem keep19 (c : Dev nD) (r : Ref sig .tc) (h : r ∉ wr19) :
    W20 m ρ c (Proc.devRef .tc r) = W19 m ρ c (Proc.devRef .tc r) :=
  StableHlo.after_of_writes_sub _ _ hW19 h
/-- Its results' indices start at 805. -/
theorem lo19_le : ∀ r ∈ wr19, 805 ≤ r.idx.val := fun r hr =>
  of_decide_eq_true (List.all_eq_true.mp (by decide : wr19.all (fun r => decide (805 ≤ r.idx.val)) = true) r hr)
theorem keepLt19 (c : Dev nD) (r : Ref sig .tc) (h : r.idx.val < 805) :
    W20 m ρ c (Proc.devRef .tc r) = W19 m ρ c (Proc.devRef .tc r) :=
  keep19 m ρ c r fun hr => Nat.not_le.mpr h (lo19_le r hr)

/-- The buffers item 20 (5 host operations) writes: its operations' results, in order. -/
noncomputable def wr20 : List (Ref sig .tc) :=
  [main_call3_v0, main_call3_cst, main_call3_v1, main_call3_v2, main_v597]
theorem hW20 : (main_part13_ops3 : List (HloOp τ sig (Elt F))).Forall fun op => op.writes ⊆ ((wr20).map (Proc.devRef (τ := τ) .tc)).toFinset :=
  writes_cons rfl <| writes_cons rfl <| writes_cons rfl <| writes_cons rfl <| writes_cons rfl <| writes_nil _
/-- Item 20 leaves every buffer that is no result of its operations as it found it. -/
theorem keep20 (c : Dev nD) (r : Ref sig .tc) (h : r ∉ wr20) :
    W21 m ρ c (Proc.devRef .tc r) = W20 m ρ c (Proc.devRef .tc r) :=
  StableHlo.after_of_writes_sub _ _ hW20 h
/-- Its results' indices start at 810. -/
theorem lo20_le : ∀ r ∈ wr20, 810 ≤ r.idx.val := fun r hr =>
  of_decide_eq_true (List.all_eq_true.mp (by decide : wr20.all (fun r => decide (810 ≤ r.idx.val)) = true) r hr)
theorem keepLt20 (c : Dev nD) (r : Ref sig .tc) (h : r.idx.val < 810) :
    W21 m ρ c (Proc.devRef .tc r) = W20 m ρ c (Proc.devRef .tc r) :=
  keep20 m ρ c r fun hr => Nat.not_le.mpr h (lo20_le r hr)

/-- The buffers item 21 (5 host operations) writes: its operations' results, in order. -/
noncomputable def wr21 : List (Ref sig .tc) :=
  [main_cst_189, main_v598, main_v599, main_v600, main_v601]
theorem hW21 : (main_part13_ops4 : List (HloOp τ sig (Elt F))).Forall fun op => op.writes ⊆ ((wr21).map (Proc.devRef (τ := τ) .tc)).toFinset :=
  writes_cons rfl <| writes_cons rfl <| writes_cons rfl <| writes_cons rfl <| writes_cons rfl <| writes_nil _
/-- Item 21 leaves every buffer that is no result of its operations as it found it. -/
theorem keep21 (c : Dev nD) (r : Ref sig .tc) (h : r ∉ wr21) :
    W22 m ρ c (Proc.devRef .tc r) = W21 m ρ c (Proc.devRef .tc r) :=
  StableHlo.after_of_writes_sub _ _ hW21 h
/-- Its results' indices start at 815. -/
theorem lo21_le : ∀ r ∈ wr21, 815 ≤ r.idx.val := fun r hr =>
  of_decide_eq_true (List.all_eq_true.mp (by decide : wr21.all (fun r => decide (815 ≤ r.idx.val)) = true) r hr)
theorem keepLt21 (c : Dev nD) (r : Ref sig .tc) (h : r.idx.val < 815) :
    W22 m ρ c (Proc.devRef .tc r) = W21 m ρ c (Proc.devRef .tc r) :=
  keep21 m ρ c r fun hr => Nat.not_le.mpr h (lo21_le r hr)

/-- Item 22 (region 0) leaves every buffer but its output array main_v602 as it found it: its two input arrays are
    never written back, and a buffer that is none of its three arrays bypasses it. -/
theorem keep22 (c : Dev nD) (r : Ref sig .tc) (h : r ≠ main_v602) :
    W23 m ρ c (Proc.devRef .tc r) = W22 m ρ c (Proc.devRef .tc r) := by
  by_cases h0 : r = Pipeline.arrRef spec0 0
  · subst h0; exact (W23_arr m ρ c 0).trans (((dat0 (V22 m ρ) c).arrAt_in 0 rfl _).trans (A_eq0 (V22 m ρ) c 0))
  by_cases h1 : r = Pipeline.arrRef spec0 1
  · subst h1; exact (W23_arr m ρ c 1).trans (((dat0 (V22 m ρ) c).arrAt_in 1 rfl _).trans (A_eq0 (V22 m ρ) c 1))
  exact W23_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 820. -/
theorem keepLt22 (c : Dev nD) (r : Ref sig .tc) (h : r.idx.val < 820) :
    W23 m ρ c (Proc.devRef .tc r) = W22 m ρ c (Proc.devRef .tc r) :=
  keep22 m ρ c r (by rintro rfl; exact absurd h (by decide))

/-- The buffers item 23 (3 host operations) writes: its operations' results, in order. -/
noncomputable def wr23 : List (Ref sig .tc) :=
  [main_v603, main_v604, main_v605]
theorem hW23 : (main_part13_ops5 : List (HloOp τ sig (Elt F))).Forall fun op => op.writes ⊆ ((wr23).map (Proc.devRef (τ := τ) .tc)).toFinset :=
  writes_cons rfl <| writes_cons rfl <| writes_cons rfl <| writes_nil _
/-- Item 23 leaves every buffer that is no result of its operations as it found it. -/
theorem keep23 (c : Dev nD) (r : Ref sig .tc) (h : r ∉ wr23) :
    W24 m ρ c (Proc.devRef .tc r) = W23 m ρ c (Proc.devRef .tc r) :=
  StableHlo.after_of_writes_sub _ _ hW23 h
/-- Its results' indices start at 821. -/
theorem lo23_le : ∀ r ∈ wr23, 821 ≤ r.idx.val := fun r hr =>
  of_decide_eq_true (List.all_eq_true.mp (by decide : wr23.all (fun r => decide (821 ≤ r.idx.val)) = true) r hr)
theorem keepLt23 (c : Dev nD) (r : Ref sig .tc) (h : r.idx.val < 821) :
    W24 m ρ c (Proc.devRef .tc r) = W23 m ρ c (Proc.devRef .tc r) :=
  keep23 m ρ c r fun hr => Nat.not_le.mpr h (lo23_le r hr)

/-- Item 24 (region 1) leaves every buffer but its output array main_v606 as it found it: its two input arrays are
    never written back, and a buffer that is none of its three arrays bypasses it. -/
theorem keep24 (c : Dev nD) (r : Ref sig .tc) (h : r ≠ main_v606) :
    W25 m ρ c (Proc.devRef .tc r) = W24 m ρ c (Proc.devRef .tc r) := by
  by_cases h0 : r = Pipeline.arrRef spec1 0
  · subst h0; exact (W25_arr m ρ c 0).trans (((dat1 (V24 m ρ) c).arrAt_in 0 rfl _).trans (A_eq1 (V24 m ρ) c 0))
  by_cases h1 : r = Pipeline.arrRef spec1 1
  · subst h1; exact (W25_arr m ρ c 1).trans (((dat1 (V24 m ρ) c).arrAt_in 1 rfl _).trans (A_eq1 (V24 m ρ) c 1))
  exact W25_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 824. -/
theorem keepLt24 (c : Dev nD) (r : Ref sig .tc) (h : r.idx.val < 824) :
    W25 m ρ c (Proc.devRef .tc r) = W24 m ρ c (Proc.devRef .tc r) :=
  keep24 m ρ c r (by rintro rfl; exact absurd h (by decide))

/-- The buffers item 25 (3 host operations) writes: its operations' results, in order. -/
noncomputable def wr25 : List (Ref sig .tc) :=
  [main_v607, main_v608, main_v609]
theorem hW25 : (main_part13_ops6 : List (HloOp τ sig (Elt F))).Forall fun op => op.writes ⊆ ((wr25).map (Proc.devRef (τ := τ) .tc)).toFinset :=
  writes_cons rfl <| writes_cons rfl <| writes_cons rfl <| writes_nil _
/-- Item 25 leaves every buffer that is no result of its operations as it found it. -/
theorem keep25 (c : Dev nD) (r : Ref sig .tc) (h : r ∉ wr25) :
    W26 m ρ c (Proc.devRef .tc r) = W25 m ρ c (Proc.devRef .tc r) :=
  StableHlo.after_of_writes_sub _ _ hW25 h
/-- Its results' indices start at 825. -/
theorem lo25_le : ∀ r ∈ wr25, 825 ≤ r.idx.val := fun r hr =>
  of_decide_eq_true (List.all_eq_true.mp (by decide : wr25.all (fun r => decide (825 ≤ r.idx.val)) = true) r hr)
theorem keepLt25 (c : Dev nD) (r : Ref sig .tc) (h : r.idx.val < 825) :
    W26 m ρ c (Proc.devRef .tc r) = W25 m ρ c (Proc.devRef .tc r) :=
  keep25 m ρ c r fun hr => Nat.not_le.mpr h (lo25_le r hr)

/-- Item 26 (region 2) leaves every buffer but its output array main_v610 as it found it: its two input arrays are
    never written back, and a buffer that is none of its three arrays bypasses it. -/
theorem keep26 (c : Dev nD) (r : Ref sig .tc) (h : r ≠ main_v610) :
    W27 m ρ c (Proc.devRef .tc r) = W26 m ρ c (Proc.devRef .tc r) := by
  by_cases h0 : r = Pipeline.arrRef spec2 0
  · subst h0; exact (W27_arr m ρ c 0).trans (((dat2 (V26 m ρ) c).arrAt_in 0 rfl _).trans (A_eq2 (V26 m ρ) c 0))
  by_cases h1 : r = Pipeline.arrRef spec2 1
  · subst h1; exact (W27_arr m ρ c 1).trans (((dat2 (V26 m ρ) c).arrAt_in 1 rfl _).trans (A_eq2 (V26 m ρ) c 1))
  exact W27_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 828. -/
theorem keepLt26 (c : Dev nD) (r : Ref sig .tc) (h : r.idx.val < 828) :
    W27 m ρ c (Proc.devRef .tc r) = W26 m ρ c (Proc.devRef .tc r) :=
  keep26 m ρ c r (by rintro rfl; exact absurd h (by decide))

/-- Item 27 (region 3) leaves every buffer but its output array main_v611 as it found it: its two input arrays are
    never written back, and a buffer that is none of its three arrays bypasses it. -/
theorem keep27 (c : Dev nD) (r : Ref sig .tc) (h : r ≠ main_v611) :
    W28 m ρ c (Proc.devRef .tc r) = W27 m ρ c (Proc.devRef .tc r) := by
  by_cases h0 : r = Pipeline.arrRef spec3 0
  · subst h0; exact (W28_arr m ρ c 0).trans (((dat3 (V27 m ρ) c).arrAt_in 0 rfl _).trans (A_eq3 (V27 m ρ) c 0))
  by_cases h1 : r = Pipeline.arrRef spec3 1
  · subst h1; exact (W28_arr m ρ c 1).trans (((dat3 (V27 m ρ) c).arrAt_in 1 rfl _).trans (A_eq3 (V27 m ρ) c 1))
  exact W28_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 829. -/
theorem keepLt27 (c : Dev nD) (r : Ref sig .tc) (h : r.idx.val < 829) :
    W28 m ρ c (Proc.devRef .tc r) = W27 m ρ c (Proc.devRef .tc r) :=
  keep27 m ρ c r (by rintro rfl; exact absurd h (by decide))

/-- The buffers item 28 (5 host operations) writes: its operations' results, in order. -/
noncomputable def wr28 : List (Ref sig .tc) :=
  [main_call4_v0, main_call4_cst, main_call4_v1, main_call4_v2, main_v612]
theorem hW28 : (main_part13_ops7 : List (HloOp τ sig (Elt F))).Forall fun op => op.writes ⊆ ((wr28).map (Proc.devRef (τ := τ) .tc)).toFinset :=
  writes_cons rfl <| writes_cons rfl <| writes_cons rfl <| writes_cons rfl <| writes_cons rfl <| writes_nil _
/-- Item 28 leaves every buffer that is no result of its operations as it found it. -/
theorem keep28 (c : Dev nD) (r : Ref sig .tc) (h : r ∉ wr28) :
    W29 m ρ c (Proc.devRef .tc r) = W28 m ρ c (Proc.devRef .tc r) :=
  StableHlo.after_of_writes_sub _ _ hW28 h
/-- Its results' indices start at 830. -/
theorem lo28_le : ∀ r ∈ wr28, 830 ≤ r.idx.val := fun r hr =>
  of_decide_eq_true (List.all_eq_true.mp (by decide : wr28.all (fun r => decide (830 ≤ r.idx.val)) = true) r hr)
theorem keepLt28 (c : Dev nD) (r : Ref sig .tc) (h : r.idx.val < 830) :
    W29 m ρ c (Proc.devRef .tc r) = W28 m ρ c (Proc.devRef .tc r) :=
  keep28 m ρ c r fun hr => Nat.not_le.mpr h (lo28_le r hr)

/-- The buffers item 29 (5 host operations) writes: its operations' results, in order. -/
noncomputable def wr29 : List (Ref sig .tc) :=
  [main_cst_190, main_v613, main_v614, main_v615, main_v616]
theorem hW29 : (main_part13_ops8 : List (HloOp τ sig (Elt F))).Forall fun op => op.writes ⊆ ((wr29).map (Proc.devRef (τ := τ) .tc)).toFinset :=
  writes_cons rfl <| writes_cons rfl <| writes_cons rfl <| writes_cons rfl <| writes_cons rfl <| writes_nil _
/-- Item 29 leaves every buffer that is no result of its operations as it found it. -/
theorem keep29 (c : Dev nD) (r : Ref sig .tc) (h : r ∉ wr29) :
    W30 m ρ c (Proc.devRef .tc r) = W29 m ρ c (Proc.devRef .tc r) :=
  StableHlo.after_of_writes_sub _ _ hW29 h
/-- Its results' indices start at 835. -/
theorem lo29_le : ∀ r ∈ wr29, 835 ≤ r.idx.val := fun r hr =>
  of_decide_eq_true (List.all_eq_true.mp (by decide : wr29.all (fun r => decide (835 ≤ r.idx.val)) = true) r hr)
theorem keepLt29 (c : Dev nD) (r : Ref sig .tc) (h : r.idx.val < 835) :
    W30 m ρ c (Proc.devRef .tc r) = W29 m ρ c (Proc.devRef .tc r) :=
  keep29 m ρ c r fun hr => Nat.not_le.mpr h (lo29_le r hr)

/-- The buffers item 30 (5 host operations) writes: its operations' results, in order. -/
noncomputable def wr30 : List (Ref sig .tc) :=
  [main_call5_v0, main_call5_cst, main_call5_v1, main_call5_v2, main_v617]
theorem hW30 : (main_part13_ops9 : List (HloOp τ sig (Elt F))).Forall fun op => op.writes ⊆ ((wr30).map (Proc.devRef (τ := τ) .tc)).toFinset :=
  writes_cons rfl <| writes_cons rfl <| writes_cons rfl <| writes_cons rfl <| writes_cons rfl <| writes_nil _
/-- Item 30 leaves every buffer that is no result of its operations as it found it. -/
theorem keep30 (c : Dev nD) (r : Ref sig .tc) (h : r ∉ wr30) :
    W31 m ρ c (Proc.devRef .tc r) = W30 m ρ c (Proc.devRef .tc r) :=
  StableHlo.after_of_writes_sub _ _ hW30 h
/-- Its results' indices start at 840. -/
theorem lo30_le : ∀ r ∈ wr30, 840 ≤ r.idx.val := fun r hr =>
  of_decide_eq_true (List.all_eq_true.mp (by decide : wr30.all (fun r => decide (840 ≤ r.idx.val)) = true) r hr)
theorem keepLt30 (c : Dev nD) (r : Ref sig .tc) (h : r.idx.val < 840) :
    W31 m ρ c (Proc.devRef .tc r) = W30 m ρ c (Proc.devRef .tc r) :=
  keep30 m ρ c r fun hr => Nat.not_le.mpr h (lo30_le r hr)

/-- The buffers item 31 (5 host operations) writes: its operations' results, in order. -/
noncomputable def wr31 : List (Ref sig .tc) :=
  [main_cst_191, main_v618, main_v619, main_v620, main_v621]
theorem hW31 : (main_part13_ops10 : List (HloOp τ sig (Elt F))).Forall fun op => op.writes ⊆ ((wr31).map (Proc.devRef (τ := τ) .tc)).toFinset :=
  writes_cons rfl <| writes_cons rfl <| writes_cons rfl <| writes_cons rfl <| writes_cons rfl <| writes_nil _
/-- Item 31 leaves every buffer that is no result of its operations as it found it. -/
theorem keep31 (c : Dev nD) (r : Ref sig .tc) (h : r ∉ wr31) :
    W32 m ρ c (Proc.devRef .tc r) = W31 m ρ c (Proc.devRef .tc r) :=
  StableHlo.after_of_writes_sub _ _ hW31 h
/-- Its results' indices start at 845. -/
theorem lo31_le : ∀ r ∈ wr31, 845 ≤ r.idx.val := fun r hr =>
  of_decide_eq_true (List.all_eq_true.mp (by decide : wr31.all (fun r => decide (845 ≤ r.idx.val)) = true) r hr)
theorem keepLt31 (c : Dev nD) (r : Ref sig .tc) (h : r.idx.val < 845) :
    W32 m ρ c (Proc.devRef .tc r) = W31 m ρ c (Proc.devRef .tc r) :=
  keep31 m ρ c r fun hr => Nat.not_le.mpr h (lo31_le r hr)

/-- The buffers item 32 (5 host operations) writes: its operations' results, in order. -/
noncomputable def wr32 : List (Ref sig .tc) :=
  [main_call6_v0, main_call6_cst, main_call6_v1, main_call6_v2, main_v622]
theorem hW32 : (main_part13_ops11 : List (HloOp τ sig (Elt F))).Forall fun op => op.writes ⊆ ((wr32).map (Proc.devRef (τ := τ) .tc)).toFinset :=
  writes_cons rfl <| writes_cons rfl <| writes_cons rfl <| writes_cons rfl <| writes_cons rfl <| writes_nil _
/-- Item 32 leaves every buffer that is no result of its operations as it found it. -/
theorem keep32 (c : Dev nD) (r : Ref sig .tc) (h : r ∉ wr32) :
    W33 m ρ c (Proc.devRef .tc r) = W32 m ρ c (Proc.devRef .tc r) :=
  StableHlo.after_of_writes_sub _ _ hW32 h
/-- Its results' indices start at 850. -/
theorem lo32_le : ∀ r ∈ wr32, 850 ≤ r.idx.val := fun r hr =>
  of_decide_eq_true (List.all_eq_true.mp (by decide : wr32.all (fun r => decide (850 ≤ r.idx.val)) = true) r hr)
theorem keepLt32 (c : Dev nD) (r : Ref sig .tc) (h : r.idx.val < 850) :
    W33 m ρ c (Proc.devRef .tc r) = W32 m ρ c (Proc.devRef .tc r) :=
  keep32 m ρ c r fun hr => Nat.not_le.mpr h (lo32_le r hr)

/-- The buffers item 33 (5 host operations) writes: its operations' results, in order. -/
noncomputable def wr33 : List (Ref sig .tc) :=
  [main_cst_192, main_v623, main_v624, main_v625, main_v626]
theorem hW33 : (main_part13_ops12 : List (HloOp τ sig (Elt F))).Forall fun op => op.writes ⊆ ((wr33).map (Proc.devRef (τ := τ) .tc)).toFinset :=
  writes_cons rfl <| writes_cons rfl <| writes_cons rfl <| writes_cons rfl <| writes_cons rfl <| writes_nil _
/-- Item 33 leaves every buffer that is no result of its operations as it found it. -/
theorem keep33 (c : Dev nD) (r : Ref sig .tc) (h : r ∉ wr33) :
    W34 m ρ c (Proc.devRef .tc r) = W33 m ρ c (Proc.devRef .tc r) :=
  StableHlo.after_of_writes_sub _ _ hW33 h
/-- Its results' indices start at 855. -/
theorem lo33_le : ∀ r ∈ wr33, 855 ≤ r.idx.val := fun r hr =>
  of_decide_eq_true (List.all_eq_true.mp (by decide : wr33.all (fun r => decide (855 ≤ r.idx.val)) = true) r hr)
theorem keepLt33 (c : Dev nD) (r : Ref sig .tc) (h : r.idx.val < 855) :
    W34 m ρ c (Proc.devRef .tc r) = W33 m ρ c (Proc.devRef .tc r) :=
  keep33 m ρ c r fun hr => Nat.not_le.mpr h (lo33_le r hr)

/-- The buffers item 34 (5 host operations) writes: its operations' results, in order. -/
noncomputable def wr34 : List (Ref sig .tc) :=
  [main_call7_v0, main_call7_cst, main_call7_v1, main_call7_v2, main_v627]
theorem hW34 : (main_part13_ops13 : List (HloOp τ sig (Elt F))).Forall fun op => op.writes ⊆ ((wr34).map (Proc.devRef (τ := τ) .tc)).toFinset :=
  writes_cons rfl <| writes_cons rfl <| writes_cons rfl <| writes_cons rfl <| writes_cons rfl <| writes_nil _
/-- Item 34 leaves every buffer that is no result of its operations as it found it. -/
theorem keep34 (c : Dev nD) (r : Ref sig .tc) (h : r ∉ wr34) :
    W35 m ρ c (Proc.devRef .tc r) = W34 m ρ c (Proc.devRef .tc r) :=
  StableHlo.after_of_writes_sub _ _ hW34 h
/-- Its results' indices start at 860. -/
theorem lo34_le : ∀ r ∈ wr34, 860 ≤ r.idx.val := fun r hr =>
  of_decide_eq_true (List.all_eq_true.mp (by decide : wr34.all (fun r => decide (860 ≤ r.idx.val)) = true) r hr)
theorem keepLt34 (c : Dev nD) (r : Ref sig .tc) (h : r.idx.val < 860) :
    W35 m ρ c (Proc.devRef .tc r) = W34 m ρ c (Proc.devRef .tc r) :=
  keep34 m ρ c r fun hr => Nat.not_le.mpr h (lo34_le r hr)

/-- The buffers item 35 (5 host operations) writes: its operations' results, in order. -/
noncomputable def wr35 : List (Ref sig .tc) :=
  [main_cst_193, main_v628, main_v629, main_v630, main_v631]
theorem hW35 : (main_part13_ops14 : List (HloOp τ sig (Elt F))).Forall fun op => op.writes ⊆ ((wr35).map (Proc.devRef (τ := τ) .tc)).toFinset :=
  writes_cons rfl <| writes_cons rfl <| writes_cons rfl <| writes_cons rfl <| writes_cons rfl <| writes_nil _
/-- Item 35 leaves every buffer that is no result of its operations as it found it. -/
theorem keep35 (c : Dev nD) (r : Ref sig .tc) (h : r ∉ wr35) :
    W36 m ρ c (Proc.devRef .tc r) = W35 m ρ c (Proc.devRef .tc r) :=
  StableHlo.after_of_writes_sub _ _ hW35 h
/-- Its results' indices start at 865. -/
theorem lo35_le : ∀ r ∈ wr35, 865 ≤ r.idx.val := fun r hr =>
  of_decide_eq_true (List.all_eq_true.mp (by decide : wr35.all (fun r => decide (865 ≤ r.idx.val)) = true) r hr)
theorem keepLt35 (c : Dev nD) (r : Ref sig .tc) (h : r.idx.val < 865) :
    W36 m ρ c (Proc.devRef .tc r) = W35 m ρ c (Proc.devRef .tc r) :=
  keep35 m ρ c r fun hr => Nat.not_le.mpr h (lo35_le r hr)

/-- Item 36 (region 4) leaves every buffer but its output array main_v632 as it found it: its two input arrays are
    never written back, and a buffer that is none of its three arrays bypasses it. -/
theorem keep36 (c : Dev nD) (r : Ref sig .tc) (h : r ≠ main_v632) :
    W37 m ρ c (Proc.devRef .tc r) = W36 m ρ c (Proc.devRef .tc r) := by
  by_cases h0 : r = Pipeline.arrRef spec4 0
  · subst h0; exact (W37_arr m ρ c 0).trans (((dat4 (V36 m ρ) c).arrAt_in 0 rfl _).trans (A_eq4 (V36 m ρ) c 0))
  by_cases h1 : r = Pipeline.arrRef spec4 1
  · subst h1; exact (W37_arr m ρ c 1).trans (((dat4 (V36 m ρ) c).arrAt_in 1 rfl _).trans (A_eq4 (V36 m ρ) c 1))
  exact W37_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 870. -/
theorem keepLt36 (c : Dev nD) (r : Ref sig .tc) (h : r.idx.val < 870) :
    W37 m ρ c (Proc.devRef .tc r) = W36 m ρ c (Proc.devRef .tc r) :=
  keep36 m ρ c r (by rintro rfl; exact absurd h (by decide))

/-- The buffers item 37 (3 host operations) writes: its operations' results, in order. -/
noncomputable def wr37 : List (Ref sig .tc) :=
  [main_v633, main_v634, main_v635]
theorem hW37 : (main_part13_ops15 : List (HloOp τ sig (Elt F))).Forall fun op => op.writes ⊆ ((wr37).map (Proc.devRef (τ := τ) .tc)).toFinset :=
  writes_cons rfl <| writes_cons rfl <| writes_cons rfl <| writes_nil _
/-- Item 37 leaves every buffer that is no result of its operations as it found it. -/
theorem keep37 (c : Dev nD) (r : Ref sig .tc) (h : r ∉ wr37) :
    W38 m ρ c (Proc.devRef .tc r) = W37 m ρ c (Proc.devRef .tc r) :=
  StableHlo.after_of_writes_sub _ _ hW37 h
/-- Its results' indices start at 871. -/
theorem lo37_le : ∀ r ∈ wr37, 871 ≤ r.idx.val := fun r hr =>
  of_decide_eq_true (List.all_eq_true.mp (by decide : wr37.all (fun r => decide (871 ≤ r.idx.val)) = true) r hr)
theorem keepLt37 (c : Dev nD) (r : Ref sig .tc) (h : r.idx.val < 871) :
    W38 m ρ c (Proc.devRef .tc r) = W37 m ρ c (Proc.devRef .tc r) :=
  keep37 m ρ c r fun hr => Nat.not_le.mpr h (lo37_le r hr)

/-- Item 38 (region 5) leaves every buffer but its output array main_v636 as it found it: its two input arrays are
    never written back, and a buffer that is none of its three arrays bypasses it. -/
theorem keep38 (c : Dev nD) (r : Ref sig .tc) (h : r ≠ main_v636) :
    W39 m ρ c (Proc.devRef .tc r) = W38 m ρ c (Proc.devRef .tc r) := by
  by_cases h0 : r = Pipeline.arrRef spec5 0
  · subst h0; exact (W39_arr m ρ c 0).trans (((dat5 (V38 m ρ) c).arrAt_in 0 rfl _).trans (A_eq5 (V38 m ρ) c 0))
  by_cases h1 : r = Pipeline.arrRef spec5 1
  · subst h1; exact (W39_arr m ρ c 1).trans (((dat5 (V38 m ρ) c).arrAt_in 1 rfl _).trans (A_eq5 (V38 m ρ) c 1))
  exact W39_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 874. -/
theorem keepLt38 (c : Dev nD) (r : Ref sig .tc) (h : r.idx.val < 874) :
    W39 m ρ c (Proc.devRef .tc r) = W38 m ρ c (Proc.devRef .tc r) :=
  keep38 m ρ c r (by rintro rfl; exact absurd h (by decide))

/-- The buffers item 39 (3 host operations) writes: its operations' results, in order. -/
noncomputable def wr39 : List (Ref sig .tc) :=
  [main_v637, main_v638, main_v639]
theorem hW39 : (main_part13_ops16 : List (HloOp τ sig (Elt F))).Forall fun op => op.writes ⊆ ((wr39).map (Proc.devRef (τ := τ) .tc)).toFinset :=
  writes_cons rfl <| writes_cons rfl <| writes_cons rfl <| writes_nil _
/-- Item 39 leaves every buffer that is no result of its operations as it found it. -/
theorem keep39 (c : Dev nD) (r : Ref sig .tc) (h : r ∉ wr39) :
    W40 m ρ c (Proc.devRef .tc r) = W39 m ρ c (Proc.devRef .tc r) :=
  StableHlo.after_of_writes_sub _ _ hW39 h
/-- Its results' indices start at 875. -/
theorem lo39_le : ∀ r ∈ wr39, 875 ≤ r.idx.val := fun r hr =>
  of_decide_eq_true (List.all_eq_true.mp (by decide : wr39.all (fun r => decide (875 ≤ r.idx.val)) = true) r hr)
theorem keepLt39 (c : Dev nD) (r : Ref sig .tc) (h : r.idx.val < 875) :
    W40 m ρ c (Proc.devRef .tc r) = W39 m ρ c (Proc.devRef .tc r) :=
  keep39 m ρ c r fun hr => Nat.not_le.mpr h (lo39_le r hr)

/-- Item 40 (region 6) leaves every buffer but its output array main_v640 as it found it: its two input arrays are
    never written back, and a buffer that is none of its three arrays bypasses it. -/
theorem keep40 (c : Dev nD) (r : Ref sig .tc) (h : r ≠ main_v640) :
    W41 m ρ c (Proc.devRef .tc r) = W40 m ρ c (Proc.devRef .tc r) := by
  by_cases h0 : r = Pipeline.arrRef spec6 0
  · subst h0; exact (W41_arr m ρ c 0).trans (((dat6 (V40 m ρ) c).arrAt_in 0 rfl _).trans (A_eq6 (V40 m ρ) c 0))
  by_cases h1 : r = Pipeline.arrRef spec6 1
  · subst h1; exact (W41_arr m ρ c 1).trans (((dat6 (V40 m ρ) c).arrAt_in 1 rfl _).trans (A_eq6 (V40 m ρ) c 1))
  exact W41_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 878. -/
theorem keepLt40 (c : Dev nD) (r : Ref sig .tc) (h : r.idx.val < 878) :
    W41 m ρ c (Proc.devRef .tc r) = W40 m ρ c (Proc.devRef .tc r) :=
  keep40 m ρ c r (by rintro rfl; exact absurd h (by decide))

/-- Item 41 (region 7) leaves every buffer but its output array main_v641 as it found it: its two input arrays are
    never written back, and a buffer that is none of its three arrays bypasses it. -/
theorem keep41 (c : Dev nD) (r : Ref sig .tc) (h : r ≠ main_v641) :
    W42 m ρ c (Proc.devRef .tc r) = W41 m ρ c (Proc.devRef .tc r) := by
  by_cases h0 : r = Pipeline.arrRef spec7 0
  · subst h0; exact (W42_arr m ρ c 0).trans (((dat7 (V41 m ρ) c).arrAt_in 0 rfl _).trans (A_eq7 (V41 m ρ) c 0))
  by_cases h1 : r = Pipeline.arrRef spec7 1
  · subst h1; exact (W42_arr m ρ c 1).trans (((dat7 (V41 m ρ) c).arrAt_in 1 rfl _).trans (A_eq7 (V41 m ρ) c 1))
  exact W42_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 879. -/
theorem keepLt41 (c : Dev nD) (r : Ref sig .tc) (h : r.idx.val < 879) :
    W42 m ρ c (Proc.devRef .tc r) = W41 m ρ c (Proc.devRef .tc r) :=
  keep41 m ρ c r (by rintro rfl; exact absurd h (by decide))

/-- The buffers item 42 (5 host operations) writes: its operations' results, in order. -/
noncomputable def wr42 : List (Ref sig .tc) :=
  [main_call8_v0, main_call8_cst, main_call8_v1, main_call8_v2, main_v642]
theorem hW42 : (main_part13_ops17 : List (HloOp τ sig (Elt F))).Forall fun op => op.writes ⊆ ((wr42).map (Proc.devRef (τ := τ) .tc)).toFinset :=
  writes_cons rfl <| writes_cons rfl <| writes_cons rfl <| writes_cons rfl <| writes_cons rfl <| writes_nil _
/-- Item 42 leaves every buffer that is no result of its operations as it found it. -/
theorem keep42 (c : Dev nD) (r : Ref sig .tc) (h : r ∉ wr42) :
    W43 m ρ c (Proc.devRef .tc r) = W42 m ρ c (Proc.devRef .tc r) :=
  StableHlo.after_of_writes_sub _ _ hW42 h
/-- Its results' indices start at 880. -/
theorem lo42_le : ∀ r ∈ wr42, 880 ≤ r.idx.val := fun r hr =>
  of_decide_eq_true (List.all_eq_true.mp (by decide : wr42.all (fun r => decide (880 ≤ r.idx.val)) = true) r hr)
theorem keepLt42 (c : Dev nD) (r : Ref sig .tc) (h : r.idx.val < 880) :
    W43 m ρ c (Proc.devRef .tc r) = W42 m ρ c (Proc.devRef .tc r) :=
  keep42 m ρ c r fun hr => Nat.not_le.mpr h (lo42_le r hr)

/-- The buffers item 43 (2 host operations) writes: its operations' results, in order. -/
noncomputable def wr43 : List (Ref sig .tc) :=
  [main_cst_194, main_v643]
theorem hW43 : (main_part13_ops18 : List (HloOp τ sig (Elt F))).Forall fun op => op.writes ⊆ ((wr43).map (Proc.devRef (τ := τ) .tc)).toFinset :=
  writes_cons rfl <| writes_cons rfl <| writes_nil _
/-- Item 43 leaves every buffer that is no result of its operations as it found it. -/
theorem keep43 (c : Dev nD) (r : Ref sig .tc) (h : r ∉ wr43) :
    W44 m ρ c (Proc.devRef .tc r) = W43 m ρ c (Proc.devRef .tc r) :=
  StableHlo.after_of_writes_sub _ _ hW43 h
/-- Its results' indices start at 885. -/
theorem lo43_le : ∀ r ∈ wr43, 885 ≤ r.idx.val := fun r hr =>
  of_decide_eq_true (List.all_eq_true.mp (by decide : wr43.all (fun r => decide (885 ≤ r.idx.val)) = true) r hr)
theorem keepLt43 (c : Dev nD) (r : Ref sig .tc) (h : r.idx.val < 885) :
    W44 m ρ c (Proc.devRef .tc r) = W43 m ρ c (Proc.devRef .tc r) :=
  keep43 m ρ c r fun hr => Nat.not_le.mpr h (lo43_le r hr)

/-- The buffers item 44 (3 host operations) writes: its operations' results, in order. -/
noncomputable def wr44 : List (Ref sig .tc) :=
  [main_v644, main_v645, main_v646]
theorem hW44 : (main_part14_ops0 : List (HloOp τ sig (Elt F))).Forall fun op => op.writes ⊆ ((wr44).map (Proc.devRef (τ := τ) .tc)).toFinset :=
  writes_cons rfl <| writes_cons rfl <| writes_cons rfl <| writes_nil _
/-- Item 44 leaves every buffer that is no result of its operations as it found it. -/
theorem keep44 (c : Dev nD) (r : Ref sig .tc) (h : r ∉ wr44) :
    W45 m ρ c (Proc.devRef .tc r) = W44 m ρ c (Proc.devRef .tc r) :=
  StableHlo.after_of_writes_sub _ _ hW44 h
/-- Its results' indices start at 887. -/
theorem lo44_le : ∀ r ∈ wr44, 887 ≤ r.idx.val := fun r hr =>
  of_decide_eq_true (List.all_eq_true.mp (by decide : wr44.all (fun r => decide (887 ≤ r.idx.val)) = true) r hr)
theorem keepLt44 (c : Dev nD) (r : Ref sig .tc) (h : r.idx.val < 887) :
    W45 m ρ c (Proc.devRef .tc r) = W44 m ρ c (Proc.devRef .tc r) :=
  keep44 m ρ c r fun hr => Nat.not_le.mpr h (lo44_le r hr)

/-- The buffers item 45 (5 host operations) writes: its operations' results, in order. -/
noncomputable def wr45 : List (Ref sig .tc) :=
  [main_call9_v0, main_call9_cst, main_call9_v1, main_call9_v2, main_v647]
theorem hW45 : (main_part14_ops1 : List (HloOp τ sig (Elt F))).Forall fun op => op.writes ⊆ ((wr45).map (Proc.devRef (τ := τ) .tc)).toFinset :=
  writes_cons rfl <| writes_cons rfl <| writes_cons rfl <| writes_cons rfl <| writes_cons rfl <| writes_nil _
/-- Item 45 leaves every buffer that is no result of its operations as it found it. -/
theorem keep45 (c : Dev nD) (r : Ref sig .tc) (h : r ∉ wr45) :
    W46 m ρ c (Proc.devRef .tc r) = W45 m ρ c (Proc.devRef .tc r) :=
  StableHlo.after_of_writes_sub _ _ hW45 h
/-- Its results' indices start at 890. -/
theorem lo45_le : ∀ r ∈ wr45, 890 ≤ r.idx.val := fun r hr =>
  of_decide_eq_true (List.all_eq_true.mp (by decide : wr45.all (fun r => decide (890 ≤ r.idx.val)) = true) r hr)
theorem keepLt45 (c : Dev nD) (r : Ref sig .tc) (h : r.idx.val < 890) :
    W46 m ρ c (Proc.devRef .tc r) = W45 m ρ c (Proc.devRef .tc r) :=
  keep45 m ρ c r fun hr => Nat.not_le.mpr h (lo45_le r hr)

/-- The buffers item 46 (5 host operations) writes: its operations' results, in order. -/
noncomputable def wr46 : List (Ref sig .tc) :=
  [main_cst_195, main_v648, main_v649, main_v650, main_v651]
theorem hW46 : (main_part14_ops2 : List (HloOp τ sig (Elt F))).Forall fun op => op.writes ⊆ ((wr46).map (Proc.devRef (τ := τ) .tc)).toFinset :=
  writes_cons rfl <| writes_cons rfl <| writes_cons rfl <| writes_cons rfl <| writes_cons rfl <| writes_nil _
/-- Item 46 leaves every buffer that is no result of its operations as it found it. -/
theorem keep46 (c : Dev nD) (r : Ref sig .tc) (h : r ∉ wr46) :
    W47 m ρ c (Proc.devRef .tc r) = W46 m ρ c (Proc.devRef .tc r) :=
  StableHlo.after_of_writes_sub _ _ hW46 h
/-- Its results' indices start at 895. -/
theorem lo46_le : ∀ r ∈ wr46, 895 ≤ r.idx.val := fun r hr =>
  of_decide_eq_true (List.all_eq_true.mp (by decide : wr46.all (fun r => decide (895 ≤ r.idx.val)) = true) r hr)
theorem keepLt46 (c : Dev nD) (r : Ref sig .tc) (h : r.idx.val < 895) :
    W47 m ρ c (Proc.devRef .tc r) = W46 m ρ c (Proc.devRef .tc r) :=
  keep46 m ρ c r fun hr => Nat.not_le.mpr h (lo46_le r hr)

/-- The buffers item 47 (5 host operations) writes: its operations' results, in order. -/
noncomputable def wr47 : List (Ref sig .tc) :=
  [main_call10_v0, main_call10_cst, main_call10_v1, main_call10_v2, main_v652]
theorem hW47 : (main_part14_ops3 : List (HloOp τ sig (Elt F))).Forall fun op => op.writes ⊆ ((wr47).map (Proc.devRef (τ := τ) .tc)).toFinset :=
  writes_cons rfl <| writes_cons rfl <| writes_cons rfl <| writes_cons rfl <| writes_cons rfl <| writes_nil _
/-- Item 47 leaves every buffer that is no result of its operations as it found it. -/
theorem keep47 (c : Dev nD) (r : Ref sig .tc) (h : r ∉ wr47) :
    W48 m ρ c (Proc.devRef .tc r) = W47 m ρ c (Proc.devRef .tc r) :=
  StableHlo.after_of_writes_sub _ _ hW47 h
/-- Its results' indices start at 900. -/
theorem lo47_le : ∀ r ∈ wr47, 900 ≤ r.idx.val := fun r hr =>
  of_decide_eq_true (List.all_eq_true.mp (by decide : wr47.all (fun r => decide (900 ≤ r.idx.val)) = true) r hr)
theorem keepLt47 (c : Dev nD) (r : Ref sig .tc) (h : r.idx.val < 900) :
    W48 m ρ c (Proc.devRef .tc r) = W47 m ρ c (Proc.devRef .tc r) :=
  keep47 m ρ c r fun hr => Nat.not_le.mpr h (lo47_le r hr)

/-- The buffers item 48 (5 host operations) writes: its operations' results, in order. -/
noncomputable def wr48 : List (Ref sig .tc) :=
  [main_cst_196, main_v653, main_v654, main_v655, main_v656]
theorem hW48 : (main_part14_ops4 : List (HloOp τ sig (Elt F))).Forall fun op => op.writes ⊆ ((wr48).map (Proc.devRef (τ := τ) .tc)).toFinset :=
  writes_cons rfl <| writes_cons rfl <| writes_cons rfl <| writes_cons rfl <| writes_cons rfl <| writes_nil _
/-- Item 48 leaves every buffer that is no result of its operations as it found it. -/
theorem keep48 (c : Dev nD) (r : Ref sig .tc) (h : r ∉ wr48) :
    W49 m ρ c (Proc.devRef .tc r) = W48 m ρ c (Proc.devRef .tc r) :=
  StableHlo.after_of_writes_sub _ _ hW48 h
/-- Its results' indices start at 905. -/
theorem lo48_le : ∀ r ∈ wr48, 905 ≤ r.idx.val := fun r hr =>
  of_decide_eq_true (List.all_eq_true.mp (by decide : wr48.all (fun r => decide (905 ≤ r.idx.val)) = true) r hr)
theorem keepLt48 (c : Dev nD) (r : Ref sig .tc) (h : r.idx.val < 905) :
    W49 m ρ c (Proc.devRef .tc r) = W48 m ρ c (Proc.devRef .tc r) :=
  keep48 m ρ c r fun hr => Nat.not_le.mpr h (lo48_le r hr)

/-- The buffers item 49 (5 host operations) writes: its operations' results, in order. -/
noncomputable def wr49 : List (Ref sig .tc) :=
  [main_call11_v0, main_call11_cst, main_call11_v1, main_call11_v2, main_v657]
theorem hW49 : (main_part14_ops5 : List (HloOp τ sig (Elt F))).Forall fun op => op.writes ⊆ ((wr49).map (Proc.devRef (τ := τ) .tc)).toFinset :=
  writes_cons rfl <| writes_cons rfl <| writes_cons rfl <| writes_cons rfl <| writes_cons rfl <| writes_nil _
/-- Item 49 leaves every buffer that is no result of its operations as it found it. -/
theorem keep49 (c : Dev nD) (r : Ref sig .tc) (h : r ∉ wr49) :
    W50 m ρ c (Proc.devRef .tc r) = W49 m ρ c (Proc.devRef .tc r) :=
  StableHlo.after_of_writes_sub _ _ hW49 h
/-- Its results' indices start at 910. -/
theorem lo49_le : ∀ r ∈ wr49, 910 ≤ r.idx.val := fun r hr =>
  of_decide_eq_true (List.all_eq_true.mp (by decide : wr49.all (fun r => decide (910 ≤ r.idx.val)) = true) r hr)
theorem keepLt49 (c : Dev nD) (r : Ref sig .tc) (h : r.idx.val < 910) :
    W50 m ρ c (Proc.devRef .tc r) = W49 m ρ c (Proc.devRef .tc r) :=
  keep49 m ρ c r fun hr => Nat.not_le.mpr h (lo49_le r hr)

/-- The buffers item 50 (5 host operations) writes: its operations' results, in order. -/
noncomputable def wr50 : List (Ref sig .tc) :=
  [main_cst_197, main_v658, main_v659, main_v660, main_v661]
theorem hW50 : (main_part14_ops6 : List (HloOp τ sig (Elt F))).Forall fun op => op.writes ⊆ ((wr50).map (Proc.devRef (τ := τ) .tc)).toFinset :=
  writes_cons rfl <| writes_cons rfl <| writes_cons rfl <| writes_cons rfl <| writes_cons rfl <| writes_nil _
/-- Item 50 leaves every buffer that is no result of its operations as it found it. -/
theorem keep50 (c : Dev nD) (r : Ref sig .tc) (h : r ∉ wr50) :
    W51 m ρ c (Proc.devRef .tc r) = W50 m ρ c (Proc.devRef .tc r) :=
  StableHlo.after_of_writes_sub _ _ hW50 h
/-- Its results' indices start at 915. -/
theorem lo50_le : ∀ r ∈ wr50, 915 ≤ r.idx.val := fun r hr =>
  of_decide_eq_true (List.all_eq_true.mp (by decide : wr50.all (fun r => decide (915 ≤ r.idx.val)) = true) r hr)
theorem keepLt50 (c : Dev nD) (r : Ref sig .tc) (h : r.idx.val < 915) :
    W51 m ρ c (Proc.devRef .tc r) = W50 m ρ c (Proc.devRef .tc r) :=
  keep50 m ρ c r fun hr => Nat.not_le.mpr h (lo50_le r hr)

/-- Item 51 (region 8) leaves every buffer but its output array main_v662 as it found it: its two input arrays are
    never written back, and a buffer that is none of its three arrays bypasses it. -/
theorem keep51 (c : Dev nD) (r : Ref sig .tc) (h : r ≠ main_v662) :
    W52 m ρ c (Proc.devRef .tc r) = W51 m ρ c (Proc.devRef .tc r) := by
  by_cases h0 : r = Pipeline.arrRef spec8 0
  · subst h0; exact (W52_arr m ρ c 0).trans (((dat8 (V51 m ρ) c).arrAt_in 0 rfl _).trans (A_eq8 (V51 m ρ) c 0))
  by_cases h1 : r = Pipeline.arrRef spec8 1
  · subst h1; exact (W52_arr m ρ c 1).trans (((dat8 (V51 m ρ) c).arrAt_in 1 rfl _).trans (A_eq8 (V51 m ρ) c 1))
  exact W52_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 920. -/
theorem keepLt51 (c : Dev nD) (r : Ref sig .tc) (h : r.idx.val < 920) :
    W52 m ρ c (Proc.devRef .tc r) = W51 m ρ c (Proc.devRef .tc r) :=
  keep51 m ρ c r (by rintro rfl; exact absurd h (by decide))

/-- The buffers item 52 (3 host operations) writes: its operations' results, in order. -/
noncomputable def wr52 : List (Ref sig .tc) :=
  [main_v663, main_v664, main_v665]
theorem hW52 : (main_part14_ops7 : List (HloOp τ sig (Elt F))).Forall fun op => op.writes ⊆ ((wr52).map (Proc.devRef (τ := τ) .tc)).toFinset :=
  writes_cons rfl <| writes_cons rfl <| writes_cons rfl <| writes_nil _
/-- Item 52 leaves every buffer that is no result of its operations as it found it. -/
theorem keep52 (c : Dev nD) (r : Ref sig .tc) (h : r ∉ wr52) :
    W53 m ρ c (Proc.devRef .tc r) = W52 m ρ c (Proc.devRef .tc r) :=
  StableHlo.after_of_writes_sub _ _ hW52 h
/-- Its results' indices start at 921. -/
theorem lo52_le : ∀ r ∈ wr52, 921 ≤ r.idx.val := fun r hr =>
  of_decide_eq_true (List.all_eq_true.mp (by decide : wr52.all (fun r => decide (921 ≤ r.idx.val)) = true) r hr)
theorem keepLt52 (c : Dev nD) (r : Ref sig .tc) (h : r.idx.val < 921) :
    W53 m ρ c (Proc.devRef .tc r) = W52 m ρ c (Proc.devRef .tc r) :=
  keep52 m ρ c r fun hr => Nat.not_le.mpr h (lo52_le r hr)

/-- Item 53 (region 9) leaves every buffer but its output array main_v666 as it found it: its two input arrays are
    never written back, and a buffer that is none of its three arrays bypasses it. -/
theorem keep53 (c : Dev nD) (r : Ref sig .tc) (h : r ≠ main_v666) :
    W54 m ρ c (Proc.devRef .tc r) = W53 m ρ c (Proc.devRef .tc r) := by
  by_cases h0 : r = Pipeline.arrRef spec9 0
  · subst h0; exact (W54_arr m ρ c 0).trans (((dat9 (V53 m ρ) c).arrAt_in 0 rfl _).trans (A_eq9 (V53 m ρ) c 0))
  by_cases h1 : r = Pipeline.arrRef spec9 1
  · subst h1; exact (W54_arr m ρ c 1).trans (((dat9 (V53 m ρ) c).arrAt_in 1 rfl _).trans (A_eq9 (V53 m ρ) c 1))
  exact W54_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 924. -/
theorem keepLt53 (c : Dev nD) (r : Ref sig .tc) (h : r.idx.val < 924) :
    W54 m ρ c (Proc.devRef .tc r) = W53 m ρ c (Proc.devRef .tc r) :=
  keep53 m ρ c r (by rintro rfl; exact absurd h (by decide))

/-- The buffers item 54 (3 host operations) writes: its operations' results, in order. -/
noncomputable def wr54 : List (Ref sig .tc) :=
  [main_v667, main_v668, main_v669]
theorem hW54 : (main_part14_ops8 : List (HloOp τ sig (Elt F))).Forall fun op => op.writes ⊆ ((wr54).map (Proc.devRef (τ := τ) .tc)).toFinset :=
  writes_cons rfl <| writes_cons rfl <| writes_cons rfl <| writes_nil _
/-- Item 54 leaves every buffer that is no result of its operations as it found it. -/
theorem keep54 (c : Dev nD) (r : Ref sig .tc) (h : r ∉ wr54) :
    W55 m ρ c (Proc.devRef .tc r) = W54 m ρ c (Proc.devRef .tc r) :=
  StableHlo.after_of_writes_sub _ _ hW54 h
/-- Its results' indices start at 925. -/
theorem lo54_le : ∀ r ∈ wr54, 925 ≤ r.idx.val := fun r hr =>
  of_decide_eq_true (List.all_eq_true.mp (by decide : wr54.all (fun r => decide (925 ≤ r.idx.val)) = true) r hr)
theorem keepLt54 (c : Dev nD) (r : Ref sig .tc) (h : r.idx.val < 925) :
    W55 m ρ c (Proc.devRef .tc r) = W54 m ρ c (Proc.devRef .tc r) :=
  keep54 m ρ c r fun hr => Nat.not_le.mpr h (lo54_le r hr)

/-- Item 55 (region 10) leaves every buffer but its output array main_v670 as it found it: its two input arrays are
    never written back, and a buffer that is none of its three arrays bypasses it. -/
theorem keep55 (c : Dev nD) (r : Ref sig .tc) (h : r ≠ main_v670) :
    W56 m ρ c (Proc.devRef .tc r) = W55 m ρ c (Proc.devRef .tc r) := by
  by_cases h0 : r = Pipeline.arrRef spec10 0
  · subst h0; exact (W56_arr m ρ c 0).trans (((dat10 (V55 m ρ) c).arrAt_in 0 rfl _).trans (A_eq10 (V55 m ρ) c 0))
  by_cases h1 : r = Pipeline.arrRef spec10 1
  · subst h1; exact (W56_arr m ρ c 1).trans (((dat10 (V55 m ρ) c).arrAt_in 1 rfl _).trans (A_eq10 (V55 m ρ) c 1))
  exact W56_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 928. -/
theorem keepLt55 (c : Dev nD) (r : Ref sig .tc) (h : r.idx.val < 928) :
    W56 m ρ c (Proc.devRef .tc r) = W55 m ρ c (Proc.devRef .tc r) :=
  keep55 m ρ c r (by rintro rfl; exact absurd h (by decide))

/-- Item 56 (region 11) leaves every buffer but its output array main_v671 as it found it: its two input arrays are
    never written back, and a buffer that is none of its three arrays bypasses it. -/
theorem keep56 (c : Dev nD) (r : Ref sig .tc) (h : r ≠ main_v671) :
    W57 m ρ c (Proc.devRef .tc r) = W56 m ρ c (Proc.devRef .tc r) := by
  by_cases h0 : r = Pipeline.arrRef spec11 0
  · subst h0; exact (W57_arr m ρ c 0).trans (((dat11 (V56 m ρ) c).arrAt_in 0 rfl _).trans (A_eq11 (V56 m ρ) c 0))
  by_cases h1 : r = Pipeline.arrRef spec11 1
  · subst h1; exact (W57_arr m ρ c 1).trans (((dat11 (V56 m ρ) c).arrAt_in 1 rfl _).trans (A_eq11 (V56 m ρ) c 1))
  exact W57_of_ne m ρ c r fun
    | 0 => fun e => h0 e.symm
    | 1 => fun e => h1 e.symm
    | 2 => fun e => h e.symm
    | ⟨_ + 3, hw⟩ => absurd hw (Nat.not_lt.2 (Nat.le_add_left _ _))
/-- Its output array's index is 929. -/
theorem keepLt56 (c : Dev nD) (r : Ref sig .tc) (h : r.idx.val < 929) :
    W57 m ρ c (Proc.devRef .tc r) = W56 m ρ c (Proc.devRef .tc r) :=
  keep56 m ρ c r (by rintro rfl; exact absurd h (by decide))

/-- The buffers item 57 (5 host operations) writes: its operations' results, in order. -/
noncomputable def wr57 : List (Ref sig .tc) :=
  [main_call12_v0, main_call12_cst, main_call12_v1, main_call12_v2, main_v672]
theorem hW57 : (main_part14_ops9 : List (HloOp τ sig (Elt F))).Forall fun op => op.writes ⊆ ((wr57).map (Proc.devRef (τ := τ) .tc)).toFinset :=
  writes_cons rfl <| writes_cons rfl <| writes_cons rfl <| writes_cons rfl <| writes_cons rfl <| writes_nil _
/-- Item 57 leaves every buffer that is no result of its operations as it found it. -/
theorem keep57 (c : Dev nD) (r : Ref sig .tc) (h : r ∉ wr57) :
    W58 m ρ c (Proc.devRef .tc r) = W57 m ρ c (Proc.devRef .tc r) :=
  StableHlo.after_of_writes_sub _ _ hW57 h
/-- Its results' indices start at 930. -/
theorem lo57_le : ∀ r ∈ wr57, 930 ≤ r.idx.val := fun r hr =>
  of_decide_eq_true (List.all_eq_true.mp (by decide : wr57.all (fun r => decide (930 ≤ r.idx.val)) = true) r hr)
theorem keepLt57 (c : Dev nD) (r : Ref sig .tc) (h : r.idx.val < 930) :
    W58 m ρ c (Proc.devRef .tc r) = W57 m ρ c (Proc.devRef .tc r) :=
  keep57 m ρ c r fun hr => Nat.not_le.mpr h (lo57_le r hr)

/-- The buffers item 58 (5 host operations) writes: its operations' results, in order. -/
noncomputable def wr58 : List (Ref sig .tc) :=
  [main_cst_198, main_v673, main_v674, main_v675, main_v676]
theorem hW58 : (main_part14_ops10 : List (HloOp τ sig (Elt F))).Forall fun op => op.writes ⊆ ((wr58).map (Proc.devRef (τ := τ) .tc)).toFinset :=
  writes_cons rfl <| writes_cons rfl <| writes_cons rfl <| writes_cons rfl <| writes_cons rfl <| writes_nil _
/-- Item 58 leaves every buffer that is no result of its operations as it found it. -/
theorem keep58 (c : Dev nD) (r : Ref sig .tc) (h : r ∉ wr58) :
    W59 m ρ c (Proc.devRef .tc r) = W58 m ρ c (Proc.devRef .tc r) :=
  StableHlo.after_of_writes_sub _ _ hW58 h
/-- Its results' indices start at 935. -/
theorem lo58_le : ∀ r ∈ wr58, 935 ≤ r.idx.val := fun r hr =>
  of_decide_eq_true (List.all_eq_true.mp (by decide : wr58.all (fun r => decide (935 ≤ r.idx.val)) = true) r hr)
theorem keepLt58 (c : Dev nD) (r : Ref sig .tc) (h : r.idx.val < 935) :
    W59 m ρ c (Proc.devRef .tc r) = W58 m ρ c (Proc.devRef .tc r) :=
  keep58 m ρ c r fun hr => Nat.not_le.mpr h (lo58_le r hr)

/-- The buffers item 59 (5 host operations) writes: its operations' results, in order. -/
noncomputable def wr59 : List (Ref sig .tc) :=
  [main_call13_v0, main_call13_cst, main_call13_v1, main_call13_v2, main_v677]
theorem hW59 : (main_part14_ops11 : List (HloOp τ sig (Elt F))).Forall fun op => op.writes ⊆ ((wr59).map (Proc.devRef (τ := τ) .tc)).toFinset :=
  writes_cons rfl <| writes_cons rfl <| writes_cons rfl <| writes_cons rfl <| writes_cons rfl <| writes_nil _
/-- Item 59 leaves every buffer that is no result of its operations as it found it. -/
theorem keep59 (c : Dev nD) (r : Ref sig .tc) (h : r ∉ wr59) :
    W60 m ρ c (Proc.devRef .tc r) = W59 m ρ c (Proc.devRef .tc r) :=
  StableHlo.after_of_writes_sub _ _ hW59 h
/-- Its results' indices start at 940. -/
theorem lo59_le : ∀ r ∈ wr59, 940 ≤ r.idx.val := fun r hr =>
  of_decide_eq_true (List.all_eq_true.mp (by decide : wr59.all (fun r => decide (940 ≤ r.idx.val)) = true) r hr)
theorem keepLt59 (c : Dev nD) (r : Ref sig .tc) (h : r.idx.val < 940) :
    W60 m ρ c (Proc.devRef .tc r) = W59 m ρ c (Proc.devRef .tc r) :=
  keep59 m ρ c r fun hr => Nat.not_le.mpr h (lo59_le r hr)

/-- The buffers item 60 (5 host operations) writes: its operations' results, in order. -/
noncomputable def wr60 : List (Ref sig .tc) :=
  [main_cst_199, main_v678, main_v679, main_v680, main_v681]
theorem hW60 : (main_part14_ops12 : List (HloOp τ sig (Elt F))).Forall fun op => op.writes ⊆ ((wr60).map (Proc.devRef (τ := τ) .tc)).toFinset :=
  writes_cons rfl <| writes_cons rfl <| writes_cons rfl <| writes_cons rfl <| writes_cons rfl <| writes_nil _
/-- Item 60 leaves every buffer that is no result of its operations as it found it. -/
theorem keep60 (c : Dev nD) (r : Ref sig .tc) (h : r ∉ wr60) :
    W61 m ρ c (Proc.devRef .tc r) = W60 m ρ c (Proc.devRef .tc r) :=
  StableHlo.after_of_writes_sub _ _ hW60 h
/-- Its results' indices start at 945. -/
theorem lo60_le : ∀ r ∈ wr60, 945 ≤ r.idx.val := fun r hr =>
  of_decide_eq_true (List.all_eq_true.mp (by decide : wr60.all (fun r => decide (945 ≤ r.idx.val)) = true) r hr)
theorem keepLt60 (c : Dev nD) (r : Ref sig .tc) (h : r.idx.val < 945) :
    W61 m ρ c (Proc.devRef .tc r) = W60 m ρ c (Proc.devRef .tc r) :=
  keep60 m ρ c r fun hr => Nat.not_le.mpr h (lo60_le r hr)

/-- The buffers item 61 (5 host operations) writes: its operations' results, in order. -/
noncomputable def wr61 : List (Ref sig .tc) :=
  [main_call14_v0, main_call14_cst, main_call14_v1, main_call14_v2, main_v682]
theorem hW61 : (main_part14_ops13 : List (HloOp τ sig (Elt F))).Forall fun op => op.writes ⊆ ((wr61).map (Proc.devRef (τ := τ) .tc)).toFinset :=
  writes_cons rfl <| writes_cons rfl <| writes_cons rfl <| writes_cons rfl <| writes_cons rfl <| writes_nil _
/-- Item 61 leaves every buffer that is no result of its operations as it found it. -/
theorem keep61 (c : Dev nD) (r : Ref sig .tc) (h : r ∉ wr61) :
    W62 m ρ c (Proc.devRef .tc r) = W61 m ρ c (Proc.devRef .tc r) :=
  StableHlo.after_of_writes_sub _ _ hW61 h
/-- Its results' indices start at 950. -/
theorem lo61_le : ∀ r ∈ wr61, 950 ≤ r.idx.val := fun r hr =>
  of_decide_eq_true (List.all_eq_true.mp (by decide : wr61.all (fun r => decide (950 ≤ r.idx.val)) = true) r hr)
theorem keepLt61 (c : Dev nD) (r : Ref sig .tc) (h : r.idx.val < 950) :
    W62 m ρ c (Proc.devRef .tc r) = W61 m ρ c (Proc.devRef .tc r) :=
  keep61 m ρ c r fun hr => Nat.not_le.mpr h (lo61_le r hr)

/-- The buffers item 62 (5 host operations) writes: its operations' results, in order. -/
noncomputable def wr62 : List (Ref sig .tc) :=
  [main_cst_200, main_v683, main_v684, main_v685, main_v686]
theorem hW62 : (main_part14_ops14 : List (HloOp τ sig (Elt F))).Forall fun op => op.writes ⊆ ((wr62).map (Proc.devRef (τ := τ) .tc)).toFinset :=
  writes_cons rfl <| writes_cons rfl <| writes_cons rfl <| writes_cons rfl <| writes_cons rfl <| writes_nil _
/-- Item 62 leaves every buffer that is no result of its operations as it found it. -/
theorem keep62 (c : Dev nD) (r : Ref sig .tc) (h : r ∉ wr62) :
    W63 m ρ c (Proc.devRef .tc r) = W62 m ρ c (Proc.devRef .tc r) :=
  StableHlo.after_of_writes_sub _ _ hW62 h
/-- Its results' indices start at 955. -/
theorem lo62_le : ∀ r ∈ wr62, 955 ≤ r.idx.val := fun r hr =>
  of_decide_eq_true (List.all_eq_true.mp (by decide : wr62.all (fun r => decide (955 ≤ r.idx.val)) = true) r hr)
theorem keepLt62 (c : Dev nD) (r : Ref sig .tc) (h : r.idx.val < 955) :
    W63 m ρ c (Proc.devRef .tc r) = W62 m ρ c (Proc.devRef .tc r) :=
  keep62 m ρ c r fun hr => Nat.not_le.mpr h (lo62_le r hr)

/-- The buffers item 63 (5 host operations) writes: its operations' results, in order. -/
noncomputable def wr63 : List (Ref sig .tc) :=
  [main_call15_v0, main_call15_cst, main_call15_v1, main_call15_v2, main_v687]
theorem hW63 : (main_part14_ops15 : List (HloOp τ sig (Elt F))).Forall fun op => op.writes ⊆ ((wr63).map (Proc.devRef (τ := τ) .tc)).toFinset :=
  writes_cons rfl <| writes_cons rfl <| writes_cons rfl <| writes_cons rfl <| writes_cons rfl <| writes_nil _
/-- Item 63 leaves every buffer that is no result of its operations as it found it. -/
theorem keep63 (c : Dev nD) (r : Ref sig .tc) (h : r ∉ wr63) :
    W64 m ρ c (Proc.devRef .tc r) = W63 m ρ c (Proc.devRef .tc r) :=
  StableHlo.after_of_writes_sub _ _ hW63 h
/-- Its results' indices start at 960. -/
theorem lo63_le : ∀ r ∈ wr63, 960 ≤ r.idx.val := fun r hr =>
  of_decide_eq_true (List.all_eq_true.mp (by decide : wr63.all (fun r => decide (960 ≤ r.idx.val)) = true) r hr)
theorem keepLt63 (c : Dev nD) (r : Ref sig .tc) (h : r.idx.val < 960) :
    W64 m ρ c (Proc.devRef .tc r) = W63 m ρ c (Proc.devRef .tc r) :=
  keep63 m ρ c r fun hr => Nat.not_le.mpr h (lo63_le r hr)

/-- The buffers item 64 (7 host operations) writes: its operations' results, in order. -/
noncomputable def wr64 : List (Ref sig .tc) :=
  [main_cst_201, main_v688, main_v689, main_v690, main_v691, main_v692, main_v693]
theorem hW64 : (main_part14_ops16 : List (HloOp τ sig (Elt F))).Forall fun op => op.writes ⊆ ((wr64).map (Proc.devRef (τ := τ) .tc)).toFinset :=
  writes_cons rfl <| writes_cons rfl <| writes_cons rfl <| writes_cons rfl <| writes_cons rfl <| writes_cons rfl <|
  writes_cons rfl <| writes_nil _
/-- Item 64 leaves every buffer that is no result of its operations as it found it. -/
theorem keep64 (c : Dev nD) (r : Ref sig .tc) (h : r ∉ wr64) :
    W65 m ρ c (Proc.devRef .tc r) = W64 m ρ c (Proc.devRef .tc r) :=
  StableHlo.after_of_writes_sub _ _ hW64 h
/-- Its results' indices start at 965. -/
theorem lo64_le : ∀ r ∈ wr64, 965 ≤ r.idx.val := fun r hr =>
  of_decide_eq_true (List.all_eq_true.mp (by decide : wr64.all (fun r => decide (965 ≤ r.idx.val)) = true) r hr)
theorem keepLt64 (c : Dev nD) (r : Ref sig .tc) (h : r.idx.val < 965) :
    W65 m ρ c (Proc.devRef .tc r) = W64 m ρ c (Proc.devRef .tc r) :=
  keep64 m ρ c r fun hr => Nat.not_le.mpr h (lo64_le r hr)

/-! ## From the last boundary back: a buffer whose index is below every index the items from k on write holds at the
     last boundary what it held at boundary k -/

theorem tail64 (c : Dev nD) (r : Ref sig .tc) (h : r.idx.val < 965) :
    W65 m ρ c (Proc.devRef .tc r) = W64 m ρ c (Proc.devRef .tc r) :=
  keepLt64 m ρ c r h

theorem tail63 (c : Dev nD) (r : Ref sig .tc) (h : r.idx.val < 960) :
    W65 m ρ c (Proc.devRef .tc r) = W63 m ρ c (Proc.devRef .tc r) :=
  (tail64 m ρ c r (Nat.lt_of_lt_of_le h (by decide))).trans (keepLt63 m ρ c r h)

theorem tail62 (c : Dev nD) (r : Ref sig .tc) (h : r.idx.val < 955) :
    W65 m ρ c (Proc.devRef .tc r) = W62 m ρ c (Proc.devRef .tc r) :=
  (tail63 m ρ c r (Nat.lt_of_lt_of_le h (by decide))).trans (keepLt62 m ρ c r h)

theorem tail61 (c : Dev nD) (r : Ref sig .tc) (h : r.idx.val < 950) :
    W65 m ρ c (Proc.devRef .tc r) = W61 m ρ c (Proc.devRef .tc r) :=
  (tail62 m ρ c r (Nat.lt_of_lt_of_le h (by decide))).trans (keepLt61 m ρ c r h)

theorem tail60 (c : Dev nD) (r : Ref sig .tc) (h : r.idx.val < 945) :
    W65 m ρ c (Proc.devRef .tc r) = W60 m ρ c (Proc.devRef .tc r) :=
  (tail61 m ρ c r (Nat.lt_of_lt_of_le h (by decide))).trans (keepLt60 m ρ c r h)

theorem tail59 (c : Dev nD) (r : Ref sig .tc) (h : r.idx.val < 940) :
    W65 m ρ c (Proc.devRef .tc r) = W59 m ρ c (Proc.devRef .tc r) :=
  (tail60 m ρ c r (Nat.lt_of_lt_of_le h (by decide))).trans (keepLt59 m ρ c r h)

theorem tail58 (c : Dev nD) (r : Ref sig .tc) (h : r.idx.val < 935) :
    W65 m ρ c (Proc.devRef .tc r) = W58 m ρ c (Proc.devRef .tc r) :=
  (tail59 m ρ c r (Nat.lt_of_lt_of_le h (by decide))).trans (keepLt58 m ρ c r h)

theorem tail57 (c : Dev nD) (r : Ref sig .tc) (h : r.idx.val < 930) :
    W65 m ρ c (Proc.devRef .tc r) = W57 m ρ c (Proc.devRef .tc r) :=
  (tail58 m ρ c r (Nat.lt_of_lt_of_le h (by decide))).trans (keepLt57 m ρ c r h)

theorem tail56 (c : Dev nD) (r : Ref sig .tc) (h : r.idx.val < 929) :
    W65 m ρ c (Proc.devRef .tc r) = W56 m ρ c (Proc.devRef .tc r) :=
  (tail57 m ρ c r (Nat.lt_of_lt_of_le h (by decide))).trans (keepLt56 m ρ c r h)

theorem tail55 (c : Dev nD) (r : Ref sig .tc) (h : r.idx.val < 928) :
    W65 m ρ c (Proc.devRef .tc r) = W55 m ρ c (Proc.devRef .tc r) :=
  (tail56 m ρ c r (Nat.lt_of_lt_of_le h (by decide))).trans (keepLt55 m ρ c r h)

theorem tail54 (c : Dev nD) (r : Ref sig .tc) (h : r.idx.val < 925) :
    W65 m ρ c (Proc.devRef .tc r) = W54 m ρ c (Proc.devRef .tc r) :=
  (tail55 m ρ c r (Nat.lt_of_lt_of_le h (by decide))).trans (keepLt54 m ρ c r h)

theorem tail53 (c : Dev nD) (r : Ref sig .tc) (h : r.idx.val < 924) :
    W65 m ρ c (Proc.devRef .tc r) = W53 m ρ c (Proc.devRef .tc r) :=
  (tail54 m ρ c r (Nat.lt_of_lt_of_le h (by decide))).trans (keepLt53 m ρ c r h)

theorem tail52 (c : Dev nD) (r : Ref sig .tc) (h : r.idx.val < 921) :
    W65 m ρ c (Proc.devRef .tc r) = W52 m ρ c (Proc.devRef .tc r) :=
  (tail53 m ρ c r (Nat.lt_of_lt_of_le h (by decide))).trans (keepLt52 m ρ c r h)

theorem tail51 (c : Dev nD) (r : Ref sig .tc) (h : r.idx.val < 920) :
    W65 m ρ c (Proc.devRef .tc r) = W51 m ρ c (Proc.devRef .tc r) :=
  (tail52 m ρ c r (Nat.lt_of_lt_of_le h (by decide))).trans (keepLt51 m ρ c r h)

theorem tail50 (c : Dev nD) (r : Ref sig .tc) (h : r.idx.val < 915) :
    W65 m ρ c (Proc.devRef .tc r) = W50 m ρ c (Proc.devRef .tc r) :=
  (tail51 m ρ c r (Nat.lt_of_lt_of_le h (by decide))).trans (keepLt50 m ρ c r h)

theorem tail49 (c : Dev nD) (r : Ref sig .tc) (h : r.idx.val < 910) :
    W65 m ρ c (Proc.devRef .tc r) = W49 m ρ c (Proc.devRef .tc r) :=
  (tail50 m ρ c r (Nat.lt_of_lt_of_le h (by decide))).trans (keepLt49 m ρ c r h)

theorem tail48 (c : Dev nD) (r : Ref sig .tc) (h : r.idx.val < 905) :
    W65 m ρ c (Proc.devRef .tc r) = W48 m ρ c (Proc.devRef .tc r) :=
  (tail49 m ρ c r (Nat.lt_of_lt_of_le h (by decide))).trans (keepLt48 m ρ c r h)

theorem tail47 (c : Dev nD) (r : Ref sig .tc) (h : r.idx.val < 900) :
    W65 m ρ c (Proc.devRef .tc r) = W47 m ρ c (Proc.devRef .tc r) :=
  (tail48 m ρ c r (Nat.lt_of_lt_of_le h (by decide))).trans (keepLt47 m ρ c r h)

theorem tail46 (c : Dev nD) (r : Ref sig .tc) (h : r.idx.val < 895) :
    W65 m ρ c (Proc.devRef .tc r) = W46 m ρ c (Proc.devRef .tc r) :=
  (tail47 m ρ c r (Nat.lt_of_lt_of_le h (by decide))).trans (keepLt46 m ρ c r h)

theorem tail45 (c : Dev nD) (r : Ref sig .tc) (h : r.idx.val < 890) :
    W65 m ρ c (Proc.devRef .tc r) = W45 m ρ c (Proc.devRef .tc r) :=
  (tail46 m ρ c r (Nat.lt_of_lt_of_le h (by decide))).trans (keepLt45 m ρ c r h)

theorem tail44 (c : Dev nD) (r : Ref sig .tc) (h : r.idx.val < 887) :
    W65 m ρ c (Proc.devRef .tc r) = W44 m ρ c (Proc.devRef .tc r) :=
  (tail45 m ρ c r (Nat.lt_of_lt_of_le h (by decide))).trans (keepLt44 m ρ c r h)

theorem tail43 (c : Dev nD) (r : Ref sig .tc) (h : r.idx.val < 885) :
    W65 m ρ c (Proc.devRef .tc r) = W43 m ρ c (Proc.devRef .tc r) :=
  (tail44 m ρ c r (Nat.lt_of_lt_of_le h (by decide))).trans (keepLt43 m ρ c r h)

theorem tail42 (c : Dev nD) (r : Ref sig .tc) (h : r.idx.val < 880) :
    W65 m ρ c (Proc.devRef .tc r) = W42 m ρ c (Proc.devRef .tc r) :=
  (tail43 m ρ c r (Nat.lt_of_lt_of_le h (by decide))).trans (keepLt42 m ρ c r h)

theorem tail41 (c : Dev nD) (r : Ref sig .tc) (h : r.idx.val < 879) :
    W65 m ρ c (Proc.devRef .tc r) = W41 m ρ c (Proc.devRef .tc r) :=
  (tail42 m ρ c r (Nat.lt_of_lt_of_le h (by decide))).trans (keepLt41 m ρ c r h)

theorem tail40 (c : Dev nD) (r : Ref sig .tc) (h : r.idx.val < 878) :
    W65 m ρ c (Proc.devRef .tc r) = W40 m ρ c (Proc.devRef .tc r) :=
  (tail41 m ρ c r (Nat.lt_of_lt_of_le h (by decide))).trans (keepLt40 m ρ c r h)

theorem tail39 (c : Dev nD) (r : Ref sig .tc) (h : r.idx.val < 875) :
    W65 m ρ c (Proc.devRef .tc r) = W39 m ρ c (Proc.devRef .tc r) :=
  (tail40 m ρ c r (Nat.lt_of_lt_of_le h (by decide))).trans (keepLt39 m ρ c r h)

theorem tail38 (c : Dev nD) (r : Ref sig .tc) (h : r.idx.val < 874) :
    W65 m ρ c (Proc.devRef .tc r) = W38 m ρ c (Proc.devRef .tc r) :=
  (tail39 m ρ c r (Nat.lt_of_lt_of_le h (by decide))).trans (keepLt38 m ρ c r h)

theorem tail37 (c : Dev nD) (r : Ref sig .tc) (h : r.idx.val < 871) :
    W65 m ρ c (Proc.devRef .tc r) = W37 m ρ c (Proc.devRef .tc r) :=
  (tail38 m ρ c r (Nat.lt_of_lt_of_le h (by decide))).trans (keepLt37 m ρ c r h)

theorem tail36 (c : Dev nD) (r : Ref sig .tc) (h : r.idx.val < 870) :
    W65 m ρ c (Proc.devRef .tc r) = W36 m ρ c (Proc.devRef .tc r) :=
  (tail37 m ρ c r (Nat.lt_of_lt_of_le h (by decide))).trans (keepLt36 m ρ c r h)

theorem tail35 (c : Dev nD) (r : Ref sig .tc) (h : r.idx.val < 865) :
    W65 m ρ c (Proc.devRef .tc r) = W35 m ρ c (Proc.devRef .tc r) :=
  (tail36 m ρ c r (Nat.lt_of_lt_of_le h (by decide))).trans (keepLt35 m ρ c r h)

theorem tail34 (c : Dev nD) (r : Ref sig .tc) (h : r.idx.val < 860) :
    W65 m ρ c (Proc.devRef .tc r) = W34 m ρ c (Proc.devRef .tc r) :=
  (tail35 m ρ c r (Nat.lt_of_lt_of_le h (by decide))).trans (keepLt34 m ρ c r h)

theorem tail33 (c : Dev nD) (r : Ref sig .tc) (h : r.idx.val < 855) :
    W65 m ρ c (Proc.devRef .tc r) = W33 m ρ c (Proc.devRef .tc r) :=
  (tail34 m ρ c r (Nat.lt_of_lt_of_le h (by decide))).trans (keepLt33 m ρ c r h)

theorem tail32 (c : Dev nD) (r : Ref sig .tc) (h : r.idx.val < 850) :
    W65 m ρ c (Proc.devRef .tc r) = W32 m ρ c (Proc.devRef .tc r) :=
  (tail33 m ρ c r (Nat.lt_of_lt_of_le h (by decide))).trans (keepLt32 m ρ c r h)

theorem tail31 (c : Dev nD) (r : Ref sig .tc) (h : r.idx.val < 845) :
    W65 m ρ c (Proc.devRef .tc r) = W31 m ρ c (Proc.devRef .tc r) :=
  (tail32 m ρ c r (Nat.lt_of_lt_of_le h (by decide))).trans (keepLt31 m ρ c r h)

theorem tail30 (c : Dev nD) (r : Ref sig .tc) (h : r.idx.val < 840) :
    W65 m ρ c (Proc.devRef .tc r) = W30 m ρ c (Proc.devRef .tc r) :=
  (tail31 m ρ c r (Nat.lt_of_lt_of_le h (by decide))).trans (keepLt30 m ρ c r h)

theorem tail29 (c : Dev nD) (r : Ref sig .tc) (h : r.idx.val < 835) :
    W65 m ρ c (Proc.devRef .tc r) = W29 m ρ c (Proc.devRef .tc r) :=
  (tail30 m ρ c r (Nat.lt_of_lt_of_le h (by decide))).trans (keepLt29 m ρ c r h)

theorem tail28 (c : Dev nD) (r : Ref sig .tc) (h : r.idx.val < 830) :
    W65 m ρ c (Proc.devRef .tc r) = W28 m ρ c (Proc.devRef .tc r) :=
  (tail29 m ρ c r (Nat.lt_of_lt_of_le h (by decide))).trans (keepLt28 m ρ c r h)

theorem tail27 (c : Dev nD) (r : Ref sig .tc) (h : r.idx.val < 829) :
    W65 m ρ c (Proc.devRef .tc r) = W27 m ρ c (Proc.devRef .tc r) :=
  (tail28 m ρ c r (Nat.lt_of_lt_of_le h (by decide))).trans (keepLt27 m ρ c r h)

theorem tail26 (c : Dev nD) (r : Ref sig .tc) (h : r.idx.val < 828) :
    W65 m ρ c (Proc.devRef .tc r) = W26 m ρ c (Proc.devRef .tc r) :=
  (tail27 m ρ c r (Nat.lt_of_lt_of_le h (by decide))).trans (keepLt26 m ρ c r h)

theorem tail25 (c : Dev nD) (r : Ref sig .tc) (h : r.idx.val < 825) :
    W65 m ρ c (Proc.devRef .tc r) = W25 m ρ c (Proc.devRef .tc r) :=
  (tail26 m ρ c r (Nat.lt_of_lt_of_le h (by decide))).trans (keepLt25 m ρ c r h)

theorem tail24 (c : Dev nD) (r : Ref sig .tc) (h : r.idx.val < 824) :
    W65 m ρ c (Proc.devRef .tc r) = W24 m ρ c (Proc.devRef .tc r) :=
  (tail25 m ρ c r (Nat.lt_of_lt_of_le h (by decide))).trans (keepLt24 m ρ c r h)

theorem tail23 (c : Dev nD) (r : Ref sig .tc) (h : r.idx.val < 821) :
    W65 m ρ c (Proc.devRef .tc r) = W23 m ρ c (Proc.devRef .tc r) :=
  (tail24 m ρ c r (Nat.lt_of_lt_of_le h (by decide))).trans (keepLt23 m ρ c r h)

theorem tail22 (c : Dev nD) (r : Ref sig .tc) (h : r.idx.val < 820) :
    W65 m ρ c (Proc.devRef .tc r) = W22 m ρ c (Proc.devRef .tc r) :=
  (tail23 m ρ c r (Nat.lt_of_lt_of_le h (by decide))).trans (keepLt22 m ρ c r h)

theorem tail21 (c : Dev nD) (r : Ref sig .tc) (h : r.idx.val < 815) :
    W65 m ρ c (Proc.devRef .tc r) = W21 m ρ c (Proc.devRef .tc r) :=
  (tail22 m ρ c r (Nat.lt_of_lt_of_le h (by decide))).trans (keepLt21 m ρ c r h)

theorem tail20 (c : Dev nD) (r : Ref sig .tc) (h : r.idx.val < 810) :
    W65 m ρ c (Proc.devRef .tc r) = W20 m ρ c (Proc.devRef .tc r) :=
  (tail21 m ρ c r (Nat.lt_of_lt_of_le h (by decide))).trans (keepLt20 m ρ c r h)

theorem tail19 (c : Dev nD) (r : Ref sig .tc) (h : r.idx.val < 805) :
    W65 m ρ c (Proc.devRef .tc r) = W19 m ρ c (Proc.devRef .tc r) :=
  (tail20 m ρ c r (Nat.lt_of_lt_of_le h (by decide))).trans (keepLt19 m ρ c r h)

theorem tail18 (c : Dev nD) (r : Ref sig .tc) (h : r.idx.val < 800) :
    W65 m ρ c (Proc.devRef .tc r) = W18 m ρ c (Proc.devRef .tc r) :=
  (tail19 m ρ c r (Nat.lt_of_lt_of_le h (by decide))).trans (keepLt18 m ρ c r h)

theorem tail17 (c : Dev nD) (r : Ref sig .tc) (h : r.idx.val < 799) :
    W65 m ρ c (Proc.devRef .tc r) = W17 m ρ c (Proc.devRef .tc r) :=
  (tail18 m ρ c r (Nat.lt_of_lt_of_le h (by decide))).trans (keepLt17 m ρ c r h)

theorem tail16 (c : Dev nD) (r : Ref sig .tc) (h : r.idx.val < 795) :
    W65 m ρ c (Proc.devRef .tc r) = W16 m ρ c (Proc.devRef .tc r) :=
  (tail17 m ρ c r (Nat.lt_of_lt_of_le h (by decide))).trans (keepLt16 m ρ c r h)

theorem tail15 (c : Dev nD) (r : Ref sig .tc) (h : r.idx.val < 790) :
    W65 m ρ c (Proc.devRef .tc r) = W15 m ρ c (Proc.devRef .tc r) :=
  (tail16 m ρ c r (Nat.lt_of_lt_of_le h (by decide))).trans (keepLt15 m ρ c r h)

theorem tail14 (c : Dev nD) (r : Ref sig .tc) (h : r.idx.val < 785) :
    W65 m ρ c (Proc.devRef .tc r) = W14 m ρ c (Proc.devRef .tc r) :=
  (tail15 m ρ c r (Nat.lt_of_lt_of_le h (by decide))).trans (keepLt14 m ρ c r h)

theorem tail13 (c : Dev nD) (r : Ref sig .tc) (h : r.idx.val < 780) :
    W65 m ρ c (Proc.devRef .tc r) = W13 m ρ c (Proc.devRef .tc r) :=
  (tail14 m ρ c r (Nat.lt_of_lt_of_le h (by decide))).trans (keepLt13 m ρ c r h)

theorem tail12 (c : Dev nD) (r : Ref sig .tc) (h : r.idx.val < 731) :
    W65 m ρ c (Proc.devRef .tc r) = W12 m ρ c (Proc.devRef .tc r) :=
  (tail13 m ρ c r (Nat.lt_of_lt_of_le h (by decide))).trans (keepLt12 m ρ c r h)

theorem tail11 (c : Dev nD) (r : Ref sig .tc) (h : r.idx.val < 671) :
    W65 m ρ c (Proc.devRef .tc r) = W11 m ρ c (Proc.devRef .tc r) :=
  (tail12 m ρ c r (Nat.lt_of_lt_of_le h (by decide))).trans (keepLt11 m ρ c r h)

theorem tail10 (c : Dev nD) (r : Ref sig .tc) (h : r.idx.val < 611) :
    W65 m ρ c (Proc.devRef .tc r) = W10 m ρ c (Proc.devRef .tc r) :=
  (tail11 m ρ c r (Nat.lt_of_lt_of_le h (by decide))).trans (keepLt10 m ρ c r h)

theorem tail9 (c : Dev nD) (r : Ref sig .tc) (h : r.idx.val < 551) :
    W65 m ρ c (Proc.devRef .tc r) = W9 m ρ c (Proc.devRef .tc r) :=
  (tail10 m ρ c r (Nat.lt_of_lt_of_le h (by decide))).trans (keepLt9 m ρ c r h)

theorem tail8 (c : Dev nD) (r : Ref sig .tc) (h : r.idx.val < 491) :
    W65 m ρ c (Proc.devRef .tc r) = W8 m ρ c (Proc.devRef .tc r) :=
  (tail9 m ρ c r (Nat.lt_of_lt_of_le h (by decide))).trans (keepLt8 m ρ c r h)

theorem tail7 (c : Dev nD) (r : Ref sig .tc) (h : r.idx.val < 431) :
    W65 m ρ c (Proc.devRef .tc r) = W7 m ρ c (Proc.devRef .tc r) :=
  (tail8 m ρ c r (Nat.lt_of_lt_of_le h (by decide))).trans (keepLt7 m ρ c r h)

theorem tail6 (c : Dev nD) (r : Ref sig .tc) (h : r.idx.val < 371) :
    W65 m ρ c (Proc.devRef .tc r) = W6 m ρ c (Proc.devRef .tc r) :=
  (tail7 m ρ c r (Nat.lt_of_lt_of_le h (by decide))).trans (keepLt6 m ρ c r h)

theorem tail5 (c : Dev nD) (r : Ref sig .tc) (h : r.idx.val < 311) :
    W65 m ρ c (Proc.devRef .tc r) = W5 m ρ c (Proc.devRef .tc r) :=
  (tail6 m ρ c r (Nat.lt_of_lt_of_le h (by decide))).trans (keepLt5 m ρ c r h)

theorem tail4 (c : Dev nD) (r : Ref sig .tc) (h : r.idx.val < 251) :
    W65 m ρ c (Proc.devRef .tc r) = W4 m ρ c (Proc.devRef .tc r) :=
  (tail5 m ρ c r (Nat.lt_of_lt_of_le h (by decide))).trans (keepLt4 m ρ c r h)

theorem tail3 (c : Dev nD) (r : Ref sig .tc) (h : r.idx.val < 191) :
    W65 m ρ c (Proc.devRef .tc r) = W3 m ρ c (Proc.devRef .tc r) :=
  (tail4 m ρ c r (Nat.lt_of_lt_of_le h (by decide))).trans (keepLt3 m ρ c r h)

theorem tail2 (c : Dev nD) (r : Ref sig .tc) (h : r.idx.val < 131) :
    W65 m ρ c (Proc.devRef .tc r) = W2 m ρ c (Proc.devRef .tc r) :=
  (tail3 m ρ c r (Nat.lt_of_lt_of_le h (by decide))).trans (keepLt2 m ρ c r h)

theorem tail1 (c : Dev nD) (r : Ref sig .tc) (h : r.idx.val < 71) :
    W65 m ρ c (Proc.devRef .tc r) = W1 m ρ c (Proc.devRef .tc r) :=
  (tail2 m ρ c r (Nat.lt_of_lt_of_le h (by decide))).trans (keepLt1 m ρ c r h)

theorem tail0 (c : Dev nD) (r : Ref sig .tc) (h : r.idx.val < 11) :
    W65 m ρ c (Proc.devRef .tc r) = W0 m ρ c (Proc.devRef .tc r) :=
  (tail1 m ρ c r (Nat.lt_of_lt_of_le h (by decide))).trans (keepLt0 m ρ c r h)

/-! ## From the launch on: a buffer whose index is below every written one (an argument array) holds its launch contents
     at every boundary -/

theorem launch1 (c : Dev nD) (r : Ref sig .tc) (h : r.idx.val < 11) :
    W1 m ρ c (Proc.devRef .tc r) = m ((c : Thread nD τ).loc r) :=
  (keepLt0 m ρ c r h).trans rfl

theorem launch2 (c : Dev nD) (r : Ref sig .tc) (h : r.idx.val < 11) :
    W2 m ρ c (Proc.devRef .tc r) = m ((c : Thread nD τ).loc r) :=
  (keepLt1 m ρ c r (Nat.lt_of_lt_of_le h (by decide))).trans (launch1 m ρ c r h)

theorem launch3 (c : Dev nD) (r : Ref sig .tc) (h : r.idx.val < 11) :
    W3 m ρ c (Proc.devRef .tc r) = m ((c : Thread nD τ).loc r) :=
  (keepLt2 m ρ c r (Nat.lt_of_lt_of_le h (by decide))).trans (launch2 m ρ c r h)

theorem launch4 (c : Dev nD) (r : Ref sig .tc) (h : r.idx.val < 11) :
    W4 m ρ c (Proc.devRef .tc r) = m ((c : Thread nD τ).loc r) :=
  (keepLt3 m ρ c r (Nat.lt_of_lt_of_le h (by decide))).trans (launch3 m ρ c r h)

theorem launch5 (c : Dev nD) (r : Ref sig .tc) (h : r.idx.val < 11) :
    W5 m ρ c (Proc.devRef .tc r) = m ((c : Thread nD τ).loc r) :=
  (keepLt4 m ρ c r (Nat.lt_of_lt_of_le h (by decide))).trans (launch4 m ρ c r h)

theorem launch6 (c : Dev nD) (r : Ref sig .tc) (h : r.idx.val < 11) :
    W6 m ρ c (Proc.devRef .tc r) = m ((c : Thread nD τ).loc r) :=
  (keepLt5 m ρ c r (Nat.lt_of_lt_of_le h (by decide))).trans (launch5 m ρ c r h)

theorem launch7 (c : Dev nD) (r : Ref sig .tc) (h : r.idx.val < 11) :
    W7 m ρ c (Proc.devRef .tc r) = m ((c : Thread nD τ).loc r) :=
  (keepLt6 m ρ c r (Nat.lt_of_lt_of_le h (by decide))).trans (launch6 m ρ c r h)

theorem launch8 (c : Dev nD) (r : Ref sig .tc) (h : r.idx.val < 11) :
    W8 m ρ c (Proc.devRef .tc r) = m ((c : Thread nD τ).loc r) :=
  (keepLt7 m ρ c r (Nat.lt_of_lt_of_le h (by decide))).trans (launch7 m ρ c r h)

theorem launch9 (c : Dev nD) (r : Ref sig .tc) (h : r.idx.val < 11) :
    W9 m ρ c (Proc.devRef .tc r) = m ((c : Thread nD τ).loc r) :=
  (keepLt8 m ρ c r (Nat.lt_of_lt_of_le h (by decide))).trans (launch8 m ρ c r h)

theorem launch10 (c : Dev nD) (r : Ref sig .tc) (h : r.idx.val < 11) :
    W10 m ρ c (Proc.devRef .tc r) = m ((c : Thread nD τ).loc r) :=
  (keepLt9 m ρ c r (Nat.lt_of_lt_of_le h (by decide))).trans (launch9 m ρ c r h)

theorem launch11 (c : Dev nD) (r : Ref sig .tc) (h : r.idx.val < 11) :
    W11 m ρ c (Proc.devRef .tc r) = m ((c : Thread nD τ).loc r) :=
  (keepLt10 m ρ c r (Nat.lt_of_lt_of_le h (by decide))).trans (launch10 m ρ c r h)

theorem launch12 (c : Dev nD) (r : Ref sig .tc) (h : r.idx.val < 11) :
    W12 m ρ c (Proc.devRef .tc r) = m ((c : Thread nD τ).loc r) :=
  (keepLt11 m ρ c r (Nat.lt_of_lt_of_le h (by decide))).trans (launch11 m ρ c r h)

theorem launch13 (c : Dev nD) (r : Ref sig .tc) (h : r.idx.val < 11) :
    W13 m ρ c (Proc.devRef .tc r) = m ((c : Thread nD τ).loc r) :=
  (keepLt12 m ρ c r (Nat.lt_of_lt_of_le h (by decide))).trans (launch12 m ρ c r h)

theorem launch14 (c : Dev nD) (r : Ref sig .tc) (h : r.idx.val < 11) :
    W14 m ρ c (Proc.devRef .tc r) = m ((c : Thread nD τ).loc r) :=
  (keepLt13 m ρ c r (Nat.lt_of_lt_of_le h (by decide))).trans (launch13 m ρ c r h)

theorem launch15 (c : Dev nD) (r : Ref sig .tc) (h : r.idx.val < 11) :
    W15 m ρ c (Proc.devRef .tc r) = m ((c : Thread nD τ).loc r) :=
  (keepLt14 m ρ c r (Nat.lt_of_lt_of_le h (by decide))).trans (launch14 m ρ c r h)

theorem launch16 (c : Dev nD) (r : Ref sig .tc) (h : r.idx.val < 11) :
    W16 m ρ c (Proc.devRef .tc r) = m ((c : Thread nD τ).loc r) :=
  (keepLt15 m ρ c r (Nat.lt_of_lt_of_le h (by decide))).trans (launch15 m ρ c r h)

theorem launch17 (c : Dev nD) (r : Ref sig .tc) (h : r.idx.val < 11) :
    W17 m ρ c (Proc.devRef .tc r) = m ((c : Thread nD τ).loc r) :=
  (keepLt16 m ρ c r (Nat.lt_of_lt_of_le h (by decide))).trans (launch16 m ρ c r h)

theorem launch18 (c : Dev nD) (r : Ref sig .tc) (h : r.idx.val < 11) :
    W18 m ρ c (Proc.devRef .tc r) = m ((c : Thread nD τ).loc r) :=
  (keepLt17 m ρ c r (Nat.lt_of_lt_of_le h (by decide))).trans (launch17 m ρ c r h)

theorem launch19 (c : Dev nD) (r : Ref sig .tc) (h : r.idx.val < 11) :
    W19 m ρ c (Proc.devRef .tc r) = m ((c : Thread nD τ).loc r) :=
  (keepLt18 m ρ c r (Nat.lt_of_lt_of_le h (by decide))).trans (launch18 m ρ c r h)

theorem launch20 (c : Dev nD) (r : Ref sig .tc) (h : r.idx.val < 11) :
    W20 m ρ c (Proc.devRef .tc r) = m ((c : Thread nD τ).loc r) :=
  (keepLt19 m ρ c r (Nat.lt_of_lt_of_le h (by decide))).trans (launch19 m ρ c r h)

theorem launch21 (c : Dev nD) (r : Ref sig .tc) (h : r.idx.val < 11) :
    W21 m ρ c (Proc.devRef .tc r) = m ((c : Thread nD τ).loc r) :=
  (keepLt20 m ρ c r (Nat.lt_of_lt_of_le h (by decide))).trans (launch20 m ρ c r h)

theorem launch22 (c : Dev nD) (r : Ref sig .tc) (h : r.idx.val < 11) :
    W22 m ρ c (Proc.devRef .tc r) = m ((c : Thread nD τ).loc r) :=
  (keepLt21 m ρ c r (Nat.lt_of_lt_of_le h (by decide))).trans (launch21 m ρ c r h)

theorem launch23 (c : Dev nD) (r : Ref sig .tc) (h : r.idx.val < 11) :
    W23 m ρ c (Proc.devRef .tc r) = m ((c : Thread nD τ).loc r) :=
  (keepLt22 m ρ c r (Nat.lt_of_lt_of_le h (by decide))).trans (launch22 m ρ c r h)

theorem launch24 (c : Dev nD) (r : Ref sig .tc) (h : r.idx.val < 11) :
    W24 m ρ c (Proc.devRef .tc r) = m ((c : Thread nD τ).loc r) :=
  (keepLt23 m ρ c r (Nat.lt_of_lt_of_le h (by decide))).trans (launch23 m ρ c r h)

theorem launch25 (c : Dev nD) (r : Ref sig .tc) (h : r.idx.val < 11) :
    W25 m ρ c (Proc.devRef .tc r) = m ((c : Thread nD τ).loc r) :=
  (keepLt24 m ρ c r (Nat.lt_of_lt_of_le h (by decide))).trans (launch24 m ρ c r h)

theorem launch26 (c : Dev nD) (r : Ref sig .tc) (h : r.idx.val < 11) :
    W26 m ρ c (Proc.devRef .tc r) = m ((c : Thread nD τ).loc r) :=
  (keepLt25 m ρ c r (Nat.lt_of_lt_of_le h (by decide))).trans (launch25 m ρ c r h)

theorem launch27 (c : Dev nD) (r : Ref sig .tc) (h : r.idx.val < 11) :
    W27 m ρ c (Proc.devRef .tc r) = m ((c : Thread nD τ).loc r) :=
  (keepLt26 m ρ c r (Nat.lt_of_lt_of_le h (by decide))).trans (launch26 m ρ c r h)

theorem launch28 (c : Dev nD) (r : Ref sig .tc) (h : r.idx.val < 11) :
    W28 m ρ c (Proc.devRef .tc r) = m ((c : Thread nD τ).loc r) :=
  (keepLt27 m ρ c r (Nat.lt_of_lt_of_le h (by decide))).trans (launch27 m ρ c r h)

theorem launch29 (c : Dev nD) (r : Ref sig .tc) (h : r.idx.val < 11) :
    W29 m ρ c (Proc.devRef .tc r) = m ((c : Thread nD τ).loc r) :=
  (keepLt28 m ρ c r (Nat.lt_of_lt_of_le h (by decide))).trans (launch28 m ρ c r h)

theorem launch30 (c : Dev nD) (r : Ref sig .tc) (h : r.idx.val < 11) :
    W30 m ρ c (Proc.devRef .tc r) = m ((c : Thread nD τ).loc r) :=
  (keepLt29 m ρ c r (Nat.lt_of_lt_of_le h (by decide))).trans (launch29 m ρ c r h)

theorem launch31 (c : Dev nD) (r : Ref sig .tc) (h : r.idx.val < 11) :
    W31 m ρ c (Proc.devRef .tc r) = m ((c : Thread nD τ).loc r) :=
  (keepLt30 m ρ c r (Nat.lt_of_lt_of_le h (by decide))).trans (launch30 m ρ c r h)

theorem launch32 (c : Dev nD) (r : Ref sig .tc) (h : r.idx.val < 11) :
    W32 m ρ c (Proc.devRef .tc r) = m ((c : Thread nD τ).loc r) :=
  (keepLt31 m ρ c r (Nat.lt_of_lt_of_le h (by decide))).trans (launch31 m ρ c r h)

theorem launch33 (c : Dev nD) (r : Ref sig .tc) (h : r.idx.val < 11) :
    W33 m ρ c (Proc.devRef .tc r) = m ((c : Thread nD τ).loc r) :=
  (keepLt32 m ρ c r (Nat.lt_of_lt_of_le h (by decide))).trans (launch32 m ρ c r h)

theorem launch34 (c : Dev nD) (r : Ref sig .tc) (h : r.idx.val < 11) :
    W34 m ρ c (Proc.devRef .tc r) = m ((c : Thread nD τ).loc r) :=
  (keepLt33 m ρ c r (Nat.lt_of_lt_of_le h (by decide))).trans (launch33 m ρ c r h)

theorem launch35 (c : Dev nD) (r : Ref sig .tc) (h : r.idx.val < 11) :
    W35 m ρ c (Proc.devRef .tc r) = m ((c : Thread nD τ).loc r) :=
  (keepLt34 m ρ c r (Nat.lt_of_lt_of_le h (by decide))).trans (launch34 m ρ c r h)

theorem launch36 (c : Dev nD) (r : Ref sig .tc) (h : r.idx.val < 11) :
    W36 m ρ c (Proc.devRef .tc r) = m ((c : Thread nD τ).loc r) :=
  (keepLt35 m ρ c r (Nat.lt_of_lt_of_le h (by decide))).trans (launch35 m ρ c r h)

theorem launch37 (c : Dev nD) (r : Ref sig .tc) (h : r.idx.val < 11) :
    W37 m ρ c (Proc.devRef .tc r) = m ((c : Thread nD τ).loc r) :=
  (keepLt36 m ρ c r (Nat.lt_of_lt_of_le h (by decide))).trans (launch36 m ρ c r h)

theorem launch38 (c : Dev nD) (r : Ref sig .tc) (h : r.idx.val < 11) :
    W38 m ρ c (Proc.devRef .tc r) = m ((c : Thread nD τ).loc r) :=
  (keepLt37 m ρ c r (Nat.lt_of_lt_of_le h (by decide))).trans (launch37 m ρ c r h)

theorem launch39 (c : Dev nD) (r : Ref sig .tc) (h : r.idx.val < 11) :
    W39 m ρ c (Proc.devRef .tc r) = m ((c : Thread nD τ).loc r) :=
  (keepLt38 m ρ c r (Nat.lt_of_lt_of_le h (by decide))).trans (launch38 m ρ c r h)

theorem launch40 (c : Dev nD) (r : Ref sig .tc) (h : r.idx.val < 11) :
    W40 m ρ c (Proc.devRef .tc r) = m ((c : Thread nD τ).loc r) :=
  (keepLt39 m ρ c r (Nat.lt_of_lt_of_le h (by decide))).trans (launch39 m ρ c r h)

theorem launch41 (c : Dev nD) (r : Ref sig .tc) (h : r.idx.val < 11) :
    W41 m ρ c (Proc.devRef .tc r) = m ((c : Thread nD τ).loc r) :=
  (keepLt40 m ρ c r (Nat.lt_of_lt_of_le h (by decide))).trans (launch40 m ρ c r h)

theorem launch42 (c : Dev nD) (r : Ref sig .tc) (h : r.idx.val < 11) :
    W42 m ρ c (Proc.devRef .tc r) = m ((c : Thread nD τ).loc r) :=
  (keepLt41 m ρ c r (Nat.lt_of_lt_of_le h (by decide))).trans (launch41 m ρ c r h)

theorem launch43 (c : Dev nD) (r : Ref sig .tc) (h : r.idx.val < 11) :
    W43 m ρ c (Proc.devRef .tc r) = m ((c : Thread nD τ).loc r) :=
  (keepLt42 m ρ c r (Nat.lt_of_lt_of_le h (by decide))).trans (launch42 m ρ c r h)

theorem launch44 (c : Dev nD) (r : Ref sig .tc) (h : r.idx.val < 11) :
    W44 m ρ c (Proc.devRef .tc r) = m ((c : Thread nD τ).loc r) :=
  (keepLt43 m ρ c r (Nat.lt_of_lt_of_le h (by decide))).trans (launch43 m ρ c r h)

theorem launch45 (c : Dev nD) (r : Ref sig .tc) (h : r.idx.val < 11) :
    W45 m ρ c (Proc.devRef .tc r) = m ((c : Thread nD τ).loc r) :=
  (keepLt44 m ρ c r (Nat.lt_of_lt_of_le h (by decide))).trans (launch44 m ρ c r h)

theorem launch46 (c : Dev nD) (r : Ref sig .tc) (h : r.idx.val < 11) :
    W46 m ρ c (Proc.devRef .tc r) = m ((c : Thread nD τ).loc r) :=
  (keepLt45 m ρ c r (Nat.lt_of_lt_of_le h (by decide))).trans (launch45 m ρ c r h)

theorem launch47 (c : Dev nD) (r : Ref sig .tc) (h : r.idx.val < 11) :
    W47 m ρ c (Proc.devRef .tc r) = m ((c : Thread nD τ).loc r) :=
  (keepLt46 m ρ c r (Nat.lt_of_lt_of_le h (by decide))).trans (launch46 m ρ c r h)

theorem launch48 (c : Dev nD) (r : Ref sig .tc) (h : r.idx.val < 11) :
    W48 m ρ c (Proc.devRef .tc r) = m ((c : Thread nD τ).loc r) :=
  (keepLt47 m ρ c r (Nat.lt_of_lt_of_le h (by decide))).trans (launch47 m ρ c r h)

theorem launch49 (c : Dev nD) (r : Ref sig .tc) (h : r.idx.val < 11) :
    W49 m ρ c (Proc.devRef .tc r) = m ((c : Thread nD τ).loc r) :=
  (keepLt48 m ρ c r (Nat.lt_of_lt_of_le h (by decide))).trans (launch48 m ρ c r h)

theorem launch50 (c : Dev nD) (r : Ref sig .tc) (h : r.idx.val < 11) :
    W50 m ρ c (Proc.devRef .tc r) = m ((c : Thread nD τ).loc r) :=
  (keepLt49 m ρ c r (Nat.lt_of_lt_of_le h (by decide))).trans (launch49 m ρ c r h)

theorem launch51 (c : Dev nD) (r : Ref sig .tc) (h : r.idx.val < 11) :
    W51 m ρ c (Proc.devRef .tc r) = m ((c : Thread nD τ).loc r) :=
  (keepLt50 m ρ c r (Nat.lt_of_lt_of_le h (by decide))).trans (launch50 m ρ c r h)

theorem launch52 (c : Dev nD) (r : Ref sig .tc) (h : r.idx.val < 11) :
    W52 m ρ c (Proc.devRef .tc r) = m ((c : Thread nD τ).loc r) :=
  (keepLt51 m ρ c r (Nat.lt_of_lt_of_le h (by decide))).trans (launch51 m ρ c r h)

theorem launch53 (c : Dev nD) (r : Ref sig .tc) (h : r.idx.val < 11) :
    W53 m ρ c (Proc.devRef .tc r) = m ((c : Thread nD τ).loc r) :=
  (keepLt52 m ρ c r (Nat.lt_of_lt_of_le h (by decide))).trans (launch52 m ρ c r h)

theorem launch54 (c : Dev nD) (r : Ref sig .tc) (h : r.idx.val < 11) :
    W54 m ρ c (Proc.devRef .tc r) = m ((c : Thread nD τ).loc r) :=
  (keepLt53 m ρ c r (Nat.lt_of_lt_of_le h (by decide))).trans (launch53 m ρ c r h)

theorem launch55 (c : Dev nD) (r : Ref sig .tc) (h : r.idx.val < 11) :
    W55 m ρ c (Proc.devRef .tc r) = m ((c : Thread nD τ).loc r) :=
  (keepLt54 m ρ c r (Nat.lt_of_lt_of_le h (by decide))).trans (launch54 m ρ c r h)

theorem launch56 (c : Dev nD) (r : Ref sig .tc) (h : r.idx.val < 11) :
    W56 m ρ c (Proc.devRef .tc r) = m ((c : Thread nD τ).loc r) :=
  (keepLt55 m ρ c r (Nat.lt_of_lt_of_le h (by decide))).trans (launch55 m ρ c r h)

theorem launch57 (c : Dev nD) (r : Ref sig .tc) (h : r.idx.val < 11) :
    W57 m ρ c (Proc.devRef .tc r) = m ((c : Thread nD τ).loc r) :=
  (keepLt56 m ρ c r (Nat.lt_of_lt_of_le h (by decide))).trans (launch56 m ρ c r h)

theorem launch58 (c : Dev nD) (r : Ref sig .tc) (h : r.idx.val < 11) :
    W58 m ρ c (Proc.devRef .tc r) = m ((c : Thread nD τ).loc r) :=
  (keepLt57 m ρ c r (Nat.lt_of_lt_of_le h (by decide))).trans (launch57 m ρ c r h)

theorem launch59 (c : Dev nD) (r : Ref sig .tc) (h : r.idx.val < 11) :
    W59 m ρ c (Proc.devRef .tc r) = m ((c : Thread nD τ).loc r) :=
  (keepLt58 m ρ c r (Nat.lt_of_lt_of_le h (by decide))).trans (launch58 m ρ c r h)

theorem launch60 (c : Dev nD) (r : Ref sig .tc) (h : r.idx.val < 11) :
    W60 m ρ c (Proc.devRef .tc r) = m ((c : Thread nD τ).loc r) :=
  (keepLt59 m ρ c r (Nat.lt_of_lt_of_le h (by decide))).trans (launch59 m ρ c r h)

theorem launch61 (c : Dev nD) (r : Ref sig .tc) (h : r.idx.val < 11) :
    W61 m ρ c (Proc.devRef .tc r) = m ((c : Thread nD τ).loc r) :=
  (keepLt60 m ρ c r (Nat.lt_of_lt_of_le h (by decide))).trans (launch60 m ρ c r h)

theorem launch62 (c : Dev nD) (r : Ref sig .tc) (h : r.idx.val < 11) :
    W62 m ρ c (Proc.devRef .tc r) = m ((c : Thread nD τ).loc r) :=
  (keepLt61 m ρ c r (Nat.lt_of_lt_of_le h (by decide))).trans (launch61 m ρ c r h)

theorem launch63 (c : Dev nD) (r : Ref sig .tc) (h : r.idx.val < 11) :
    W63 m ρ c (Proc.devRef .tc r) = m ((c : Thread nD τ).loc r) :=
  (keepLt62 m ρ c r (Nat.lt_of_lt_of_le h (by decide))).trans (launch62 m ρ c r h)

theorem launch64 (c : Dev nD) (r : Ref sig .tc) (h : r.idx.val < 11) :
    W64 m ρ c (Proc.devRef .tc r) = m ((c : Thread nD τ).loc r) :=
  (keepLt63 m ρ c r (Nat.lt_of_lt_of_le h (by decide))).trans (launch63 m ρ c r h)

theorem launch65 (c : Dev nD) (r : Ref sig .tc) (h : r.idx.val < 11) :
    W65 m ρ c (Proc.devRef .tc r) = m ((c : Thread nD τ).loc r) :=
  (keepLt64 m ρ c r (Nat.lt_of_lt_of_le h (by decide))).trans (launch64 m ρ c r h)

/-! ## The argument arrays at the last boundary -/

theorem W65_main_arg0 (c : Dev nD) : W65 m ρ c (Proc.devRef .tc main_arg0) = m ((c : Thread nD τ).loc main_arg0) :=
  launch65 m ρ c main_arg0 (by decide)

theorem W65_main_arg1 (c : Dev nD) : W65 m ρ c (Proc.devRef .tc main_arg1) = m ((c : Thread nD τ).loc main_arg1) :=
  launch65 m ρ c main_arg1 (by decide)

theorem W65_main_arg2 (c : Dev nD) : W65 m ρ c (Proc.devRef .tc main_arg2) = m ((c : Thread nD τ).loc main_arg2) :=
  launch65 m ρ c main_arg2 (by decide)

theorem W65_main_arg3 (c : Dev nD) : W65 m ρ c (Proc.devRef .tc main_arg3) = m ((c : Thread nD τ).loc main_arg3) :=
  launch65 m ρ c main_arg3 (by decide)

theorem W65_main_arg4 (c : Dev nD) : W65 m ρ c (Proc.devRef .tc main_arg4) = m ((c : Thread nD τ).loc main_arg4) :=
  launch65 m ρ c main_arg4 (by decide)

theorem W65_main_arg5 (c : Dev nD) : W65 m ρ c (Proc.devRef .tc main_arg5) = m ((c : Thread nD τ).loc main_arg5) :=
  launch65 m ρ c main_arg5 (by decide)

theorem W65_main_arg6 (c : Dev nD) : W65 m ρ c (Proc.devRef .tc main_arg6) = m ((c : Thread nD τ).loc main_arg6) :=
  launch65 m ρ c main_arg6 (by decide)

theorem W65_main_arg7 (c : Dev nD) : W65 m ρ c (Proc.devRef .tc main_arg7) = m ((c : Thread nD τ).loc main_arg7) :=
  launch65 m ρ c main_arg7 (by decide)

theorem W65_main_arg8 (c : Dev nD) : W65 m ρ c (Proc.devRef .tc main_arg8) = m ((c : Thread nD τ).loc main_arg8) :=
  launch65 m ρ c main_arg8 (by decide)

theorem W65_main_arg9 (c : Dev nD) : W65 m ρ c (Proc.devRef .tc main_arg9) = m ((c : Thread nD τ).loc main_arg9) :=
  launch65 m ρ c main_arg9 (by decide)

theorem W65_main_arg10 (c : Dev nD) : W65 m ρ c (Proc.devRef .tc main_arg10) = m ((c : Thread nD τ).loc main_arg10) :=
  launch65 m ρ c main_arg10 (by decide)

/-! ## The buffers the last stretch reads: each holds at the last boundary what the item that wrote it left -/

/-- main_v581 (index 779) is written by item 12. -/
theorem W65_main_v581 (c : Dev nD) : W65 m ρ c (Proc.devRef .tc main_v581) = W13 m ρ c (Proc.devRef .tc main_v581) :=
  tail13 m ρ c main_v581 (by decide)

/-- main_v586 (index 789) is written by item 14. -/
theorem W65_main_v586 (c : Dev nD) : W65 m ρ c (Proc.devRef .tc main_v586) = W15 m ρ c (Proc.devRef .tc main_v586) :=
  tail15 m ρ c main_v586 (by decide)

/-- main_v591 (index 799) is written by item 17. -/
theorem W65_main_v591 (c : Dev nD) : W65 m ρ c (Proc.devRef .tc main_v591) = W18 m ρ c (Proc.devRef .tc main_v591) :=
  tail18 m ρ c main_v591 (by decide)

/-- main_v596 (index 809) is written by item 19. -/
theorem W65_main_v596 (c : Dev nD) : W65 m ρ c (Proc.devRef .tc main_v596) = W20 m ρ c (Proc.devRef .tc main_v596) :=
  tail20 m ρ c main_v596 (by decide)

/-- main_v601 (index 819) is written by item 21. -/
theorem W65_main_v601 (c : Dev nD) : W65 m ρ c (Proc.devRef .tc main_v601) = W22 m ρ c (Proc.devRef .tc main_v601) :=
  tail22 m ρ c main_v601 (by decide)

/-- main_v616 (index 839) is written by item 29. -/
theorem W65_main_v616 (c : Dev nD) : W65 m ρ c (Proc.devRef .tc main_v616) = W30 m ρ c (Proc.devRef .tc main_v616) :=
  tail30 m ρ c main_v616 (by decide)

/-- main_v621 (index 849) is written by item 31. -/
theorem W65_main_v621 (c : Dev nD) : W65 m ρ c (Proc.devRef .tc main_v621) = W32 m ρ c (Proc.devRef .tc main_v621) :=
  tail32 m ρ c main_v621 (by decide)

/-- main_v626 (index 859) is written by item 33. -/
theorem W65_main_v626 (c : Dev nD) : W65 m ρ c (Proc.devRef .tc main_v626) = W34 m ρ c (Proc.devRef .tc main_v626) :=
  tail34 m ρ c main_v626 (by decide)

/-- main_v631 (index 869) is written by item 35. -/
theorem W65_main_v631 (c : Dev nD) : W65 m ρ c (Proc.devRef .tc main_v631) = W36 m ρ c (Proc.devRef .tc main_v631) :=
  tail36 m ρ c main_v631 (by decide)

/-- main_v646 (index 889) is written by item 44. -/
theorem W65_main_v646 (c : Dev nD) : W65 m ρ c (Proc.devRef .tc main_v646) = W45 m ρ c (Proc.devRef .tc main_v646) :=
  tail45 m ρ c main_v646 (by decide)

/-- main_v651 (index 899) is written by item 46. -/
theorem W65_main_v651 (c : Dev nD) : W65 m ρ c (Proc.devRef .tc main_v651) = W47 m ρ c (Proc.devRef .tc main_v651) :=
  tail47 m ρ c main_v651 (by decide)

/-- main_v656 (index 909) is written by item 48. -/
theorem W65_main_v656 (c : Dev nD) : W65 m ρ c (Proc.devRef .tc main_v656) = W49 m ρ c (Proc.devRef .tc main_v656) :=
  tail49 m ρ c main_v656 (by decide)

/-- main_v661 (index 919) is written by item 50. -/
theorem W65_main_v661 (c : Dev nD) : W65 m ρ c (Proc.devRef .tc main_v661) = W51 m ρ c (Proc.devRef .tc main_v661) :=
  tail51 m ρ c main_v661 (by decide)

/-- main_v676 (index 939) is written by item 58. -/
theorem W65_main_v676 (c : Dev nD) : W65 m ρ c (Proc.devRef .tc main_v676) = W59 m ρ c (Proc.devRef .tc main_v676) :=
  tail59 m ρ c main_v676 (by decide)

/-- main_v681 (index 949) is written by item 60. -/
theorem W65_main_v681 (c : Dev nD) : W65 m ρ c (Proc.devRef .tc main_v681) = W61 m ρ c (Proc.devRef .tc main_v681) :=
  tail61 m ρ c main_v681 (by decide)

/-- main_v686 (index 959) is written by item 62. -/
theorem W65_main_v686 (c : Dev nD) : W65 m ρ c (Proc.devRef .tc main_v686) = W63 m ρ c (Proc.devRef .tc main_v686) :=
  tail63 m ρ c main_v686 (by decide)

/-- main_v691 (index 969) is written by item 64. -/
theorem W65_main_v691 (c : Dev nD) : W65 m ρ c (Proc.devRef .tc main_v691) = W65 m ρ c (Proc.devRef .tc main_v691) :=
  rfl

end Cert.Kernel.Hand

end
-- ==== Proof.KB.Frame.lean ====
/-
  The frame of the kernel's program, at any float instance: from any memory with zero counters every weakly fair
  execution of @main on the TensorCores terminates, nothing faulting, and the eleven argument arrays end as launched —
  the run over @main's segments read at the arguments, none of which any host operation or region writes.
-/
import proofs.«158997_j77232101916990_1_alg».proof.Proof.KB.Run
import proofs.«158997_j77232101916990_1_alg».proof.Proof.KB.Keep

noncomputable section

namespace Cert.Kernel.Hand

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W65_main_arg0 m ρ c),
     (h c _ (mem_uc main_arg1 (by decide))).trans (W65_main_arg1 m ρ c),
     (h c _ (mem_uc main_arg2 (by decide))).trans (W65_main_arg2 m ρ c),
     (h c _ (mem_uc main_arg3 (by decide))).trans (W65_main_arg3 m ρ c),
     (h c _ (mem_uc main_arg4 (by decide))).trans (W65_main_arg4 m ρ c),
     (h c _ (mem_uc main_arg5 (by decide))).trans (W65_main_arg5 m ρ c),
     (h c _ (mem_uc main_arg6 (by decide))).trans (W65_main_arg6 m ρ c),
     (h c _ (mem_uc main_arg7 (by decide))).trans (W65_main_arg7 m ρ c),
     (h c _ (mem_uc main_arg8 (by decide))).trans (W65_main_arg8 m ρ c),
     (h c _ (mem_uc main_arg9 (by decide))).trans (W65_main_arg9 m ρ c),
     (h c _ (mem_uc main_arg10 (by decide))).trans (W65_main_arg10 m ρ c)⟩)
    (run_main m ρ)

end Cert.Kernel.Hand

end
-- ==== Proof.Ref.Ops00.lean ====
/-
  Window 0 of the reference program's @main: its statements are the operations 1 … 60 of the
  program's 997 host operations (a call of a module-local function is its callee's operations, in the call's place).

  A host program is a straight line of operations, each writing one result buffer from the contents of its operand
  buffers. The window IS the line of its operations (`main_part0_eq`: the two sides unfold to the same sequence of
  steps). Of each operation the run of the whole program asks three things, each read off the operation's builder:
  every buffer it touches is one of the TensorCore's references (`rops0_sub`); it determines its result, leaving no
  buffer at contents not chosen (`rops0_fresh`); and the one buffer it writes is in the list `rops0_W`
  (`rops0_writes`) — so a buffer not in that list keeps its contents through the window (`rops0_keep`), and no argument
  of @main is in it (`rops0_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0's operations, in order: @main's operations 1 … 60 of 997. -/
abbrev rops0 : List (HloOp τ sig (Elt F)) :=
  [ unary main_arg2 main_v0 ((extractStridedSlice S1x64 ![0, 0] · slices_S4x64_S1x64_0_0) : (⟨S4x64, .f32⟩ : BufTy).Contents (Elt F) → (⟨S1x64, .f32⟩ : BufTy).Contents (Elt F)),
    reshape main_v0 main_v1 rfl shapeCasts_S1x64_S64,
    unary main_arg2 main_v2 ((extractStridedSlice S1x64 ![1, 0] · slices_S4x64_S1x64_1_0) : (⟨S4x64, .f32⟩ : BufTy).Contents (Elt F) → (⟨S1x64, .f32⟩ : BufTy).Contents (Elt F)),
    reshape main_v2 main_v3 rfl shapeCasts_S1x64_S64,
    binary main_v1 main_v1 main_v4 (mulf : (⟨S64, .f32⟩ : BufTy).Contents (Elt F) → (⟨S64, .f32⟩ : BufTy).Contents (Elt F) → (⟨S64, .f32⟩ : BufTy).Contents (Elt F)),
    binary main_v3 main_v3 main_v5 (mulf : (⟨S64, .f32⟩ : BufTy).Contents (Elt F) → (⟨S64, .f32⟩ : BufTy).Contents (Elt F) → (⟨S64, .f32⟩ : BufTy).Contents (Elt F)),
    unary main_v1 main_v6 (broadcastInDim S64x1 ![0] bcast_S64_S64x1_0 : (⟨S64, .f32⟩ : BufTy).Contents (Elt F) → (⟨S64x1, .f32⟩ : BufTy).Contents (Elt F)),
    unary main_v1 main_v7 (broadcastInDim S1x64 ![1] bcast_S64_S1x64_1 : (⟨S64, .f32⟩ : BufTy).Contents (Elt F) → (⟨S1x64, .f32⟩ : BufTy).Contents (Elt F)),
    unary main_v6 main_v8 (broadcastInDim S64x64 ![0, 1] bcast_S64x1_S64x64_0_1 : (⟨S64x1, .f32⟩ : BufTy).Contents (Elt F) → (⟨S64x64, .f32⟩ : BufTy).Contents (Elt F)),
    unary main_v7 main_v9 (broadcastInDim S64x64 ![0, 1] bcast_S1x64_S64x64_0_1 : (⟨S1x64, .f32⟩ : BufTy).Contents (Elt F) → (⟨S64x64, .f32⟩ : BufTy).Contents (Elt F)),
    binary main_v8 main_v9 main_v10 (mulf : (⟨S64x64, .f32⟩ : BufTy).Contents (Elt F) → (⟨S64x64, .f32⟩ : BufTy).Contents (Elt F) → (⟨S64x64, .f32⟩ : BufTy).Contents (Elt F)),
    nullary main_cst (constant S_ .f32 0x40000000#32),
    unary main_cst main_v11 (broadcastInDim S64x64 ![] bcast_S_S64x64 : (⟨S_, .f32⟩ : BufTy).Contents (Elt F) → (⟨S64x64, .f32⟩ : BufTy).Contents (Elt F)),
    binary main_v11 main_v10 main_v12 (mulf : (⟨S64x64, .f32⟩ : BufTy).Contents (Elt F) → (⟨S64x64, .f32⟩ : BufTy).Contents (Elt F) → (⟨S64x64, .f32⟩ : BufTy).Contents (Elt F)),
    unary main_v3 main_v13 (broadcastInDim S64x1 ![0] bcast_S64_S64x1_0 : (⟨S64, .f32⟩ : BufTy).Contents (Elt F) → (⟨S64x1, .f32⟩ : BufTy).Contents (Elt F)),
    unary main_v3 main_v14 (broadcastInDim S1x64 ![1] bcast_S64_S1x64_1 : (⟨S64, .f32⟩ : BufTy).Contents (Elt F) → (⟨S1x64, .f32⟩ : BufTy).Contents (Elt F)),
    unary main_v13 main_v15 (broadcastInDim S64x64 ![0, 1] bcast_S64x1_S64x64_0_1 : (⟨S64x1, .f32⟩ : BufTy).Contents (Elt F) → (⟨S64x64, .f32⟩ : BufTy).Contents (Elt F)),
    unary main_v14 main_v16 (broadcastInDim S64x64 ![0, 1] bcast_S1x64_S64x64_0_1 : (⟨S1x64, .f32⟩ : BufTy).Contents (Elt F) → (⟨S64x64, .f32⟩ : BufTy).Contents (Elt F)),
    binary main_v15 main_v16 main_v17 (mulf : (⟨S64x64, .f32⟩ : BufTy).Contents (Elt F) → (⟨S64x64, .f32⟩ : BufTy).Contents (Elt F) → (⟨S64x64, .f32⟩ : BufTy).Contents (Elt F)),
    nullary main_cst_0 (constant S_ .f32 0x40000000#32),
    unary main_cst_0 main_v18 (broadcastInDim S64x64 ![] bcast_S_S64x64 : (⟨S_, .f32⟩ : BufTy).Contents (Elt F) → (⟨S64x64, .f32⟩ : BufTy).Contents (Elt F)),
    binary main_v18 main_v17 main_v19 (mulf : (⟨S64x64, .f32⟩ : BufTy).Contents (Elt F) → (⟨S64x64, .f32⟩ : BufTy).Contents (Elt F) → (⟨S64x64, .f32⟩ : BufTy).Contents (Elt F)),
    unary main_v4 main_v20 (broadcastInDim S64x1 ![0] bcast_S64_S64x1_0 : (⟨S64, .f32⟩ : BufTy).Contents (Elt F) → (⟨S64x1, .f32⟩ : BufTy).Contents (Elt F)),
    unary main_v20 main_v21 (broadcastInDim S64x64 ![0, 1] bcast_S64x1_S64x64_0_1 : (⟨S64x1, .f32⟩ : BufTy).Contents (Elt F) → (⟨S64x64, .f32⟩ : BufTy).Contents (Elt F)),
    binary main_v21 main_v12 main_v22 (subf : (⟨S64x64, .f32⟩ : BufTy).Contents (Elt F) → (⟨S64x64, .f32⟩ : BufTy).Contents (Elt F) → (⟨S64x64, .f32⟩ : BufTy).Contents (Elt F)),
    unary main_v4 main_v23 (broadcastInDim S1x64 ![1] bcast_S64_S1x64_1 : (⟨S64, .f32⟩ : BufTy).Contents (Elt F) → (⟨S1x64, .f32⟩ : BufTy).Contents (Elt F)),
    unary main_v23 main_v24 (broadcastInDim S64x64 ![0, 1] bcast_S1x64_S64x64_0_1 : (⟨S1x64, .f32⟩ : BufTy).Contents (Elt F) → (⟨S64x64, .f32⟩ : BufTy).Contents (Elt F)),
    binary main_v22 main_v24 main_v25 (addf : (⟨S64x64, .f32⟩ : BufTy).Contents (Elt F) → (⟨S64x64, .f32⟩ : BufTy).Contents (Elt F) → (⟨S64x64, .f32⟩ : BufTy).Contents (Elt F)),
    nullary main_cst_1 (constant S_ .f32 0x00000000#32),
    unary main_cst_1 main_v26 (broadcastInDim S64x64 ![] bcast_S_S64x64 : (⟨S_, .f32⟩ : BufTy).Contents (Elt F) → (⟨S64x64, .f32⟩ : BufTy).Contents (Elt F)),
    binary main_v25 main_v26 main_v27 (maximumf : (⟨S64x64, .f32⟩ : BufTy).Contents (Elt F) → (⟨S64x64, .f32⟩ : BufTy).Contents (Elt F) → (⟨S64x64, .f32⟩ : BufTy).Contents (Elt F)),
    nullary main_cst_2 (constant S_ .f32 0x322BCC77#32),
    unary main_cst_2 main_v28 (broadcastInDim S64x64 ![] bcast_S_S64x64 : (⟨S_, .f32⟩ : BufTy).Contents (Elt F) → (⟨S64x64, .f32⟩ : BufTy).Contents (Elt F)),
    binary main_v27 main_v28 main_v29 (addf : (⟨S64x64, .f32⟩ : BufTy).Contents (Elt F) → (⟨S64x64, .f32⟩ : BufTy).Contents (Elt F) → (⟨S64x64, .f32⟩ : BufTy).Contents (Elt F)),
    unary main_v29 main_v30 (Host.sqrt : (⟨S64x64, .f32⟩ : BufTy).Contents (Elt F) → (⟨S64x64, .f32⟩ : BufTy).Contents (Elt F)),
    unary main_v5 main_v31 (broadcastInDim S64x1 ![0] bcast_S64_S64x1_0 : (⟨S64, .f32⟩ : BufTy).Contents (Elt F) → (⟨S64x1, .f32⟩ : BufTy).Contents (Elt F)),
    unary main_v31 main_v32 (broadcastInDim S64x64 ![0, 1] bcast_S64x1_S64x64_0_1 : (⟨S64x1, .f32⟩ : BufTy).Contents (Elt F) → (⟨S64x64, .f32⟩ : BufTy).Contents (Elt F)),
    binary main_v32 main_v19 main_v33 (subf : (⟨S64x64, .f32⟩ : BufTy).Contents (Elt F) → (⟨S64x64, .f32⟩ : BufTy).Contents (Elt F) → (⟨S64x64, .f32⟩ : BufTy).Contents (Elt F)),
    unary main_v5 main_v34 (broadcastInDim S1x64 ![1] bcast_S64_S1x64_1 : (⟨S64, .f32⟩ : BufTy).Contents (Elt F) → (⟨S1x64, .f32⟩ : BufTy).Contents (Elt F)),
    unary main_v34 main_v35 (broadcastInDim S64x64 ![0, 1] bcast_S1x64_S64x64_0_1 : (⟨S1x64, .f32⟩ : BufTy).Contents (Elt F) → (⟨S64x64, .f32⟩ : BufTy).Contents (Elt F)),
    binary main_v33 main_v35 main_v36 (addf : (⟨S64x64, .f32⟩ : BufTy).Contents (Elt F) → (⟨S64x64, .f32⟩ : BufTy).Contents (Elt F) → (⟨S64x64, .f32⟩ : BufTy).Contents (Elt F)),
    nullary main_cst_3 (constant S_ .f32 0x00000000#32),
    unary main_cst_3 main_v37 (broadcastInDim S64x64 ![] bcast_S_S64x64 : (⟨S_, .f32⟩ : BufTy).Contents (Elt F) → (⟨S64x64, .f32⟩ : BufTy).Contents (Elt F)),
    binary main_v36 main_v37 main_v38 (maximumf : (⟨S64x64, .f32⟩ : BufTy).Contents (Elt F) → (⟨S64x64, .f32⟩ : BufTy).Contents (Elt F) → (⟨S64x64, .f32⟩ : BufTy).Contents (Elt F)),
    nullary main_cst_4 (constant S_ .f32 0x322BCC77#32),
    unary main_cst_4 main_v39 (broadcastInDim S64x64 ![] bcast_S_S64x64 : (⟨S_, .f32⟩ : BufTy).Contents (Elt F) → (⟨S64x64, .f32⟩ : BufTy).Contents (Elt F)),
    binary main_v38 main_v39 main_v40 (addf : (⟨S64x64, .f32⟩ : BufTy).Contents (Elt F) → (⟨S64x64, .f32⟩ : BufTy).Contents (Elt F) → (⟨S64x64, .f32⟩ : BufTy).Contents (Elt F)),
    unary main_v40 main_v41 (Host.sqrt : (⟨S64x64, .f32⟩ : BufTy).Contents (Elt F) → (⟨S64x64, .f32⟩ : BufTy).Contents (Elt F)),
    nullary main_cst_5 (constant S_ .f32 0x00000000#32),
    binary main_v30 main_cst_5 main_v42 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v42 main_v43 (broadcastInDim S1x64 ![1] bcast_S64_S1x64_1 : (⟨S64, .f32⟩ : BufTy).Contents (Elt F) → (⟨S1x64, .f32⟩ : BufTy).Contents (Elt F)),
    nullary main_cst_6 (constant S_ .f32 0x42800000#32),
    unary main_cst_6 main_v44 (broadcastInDim S1x64 ![] bcast_S_S1x64 : (⟨S_, .f32⟩ : BufTy).Contents (Elt F) → (⟨S1x64, .f32⟩ : BufTy).Contents (Elt F)),
    binary main_v43 main_v44 main_v45 (Host.divf : (⟨S1x64, .f32⟩ : BufTy).Contents (Elt F) → (⟨S1x64, .f32⟩ : BufTy).Contents (Elt F) → (⟨S1x64, .f32⟩ : BufTy).Contents (Elt F)),
    unary main_v45 main_v46 (broadcastInDim S64x64 ![0, 1] bcast_S1x64_S64x64_0_1 : (⟨S1x64, .f32⟩ : BufTy).Contents (Elt F) → (⟨S64x64, .f32⟩ : BufTy).Contents (Elt F)),
    binary main_v30 main_v46 main_v47 (subf : (⟨S64x64, .f32⟩ : BufTy).Contents (Elt F) → (⟨S64x64, .f32⟩ : BufTy).Contents (Elt F) → (⟨S64x64, .f32⟩ : BufTy).Contents (Elt F)),
    nullary main_cst_7 (constant S_ .f32 0x00000000#32),
    binary main_v30 main_cst_7 main_v48 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v48 main_v49 (broadcastInDim S64x1 ![0] bcast_S64_S64x1_0 : (⟨S64, .f32⟩ : BufTy).Contents (Elt F) → (⟨S64x1, .f32⟩ : BufTy).Contents (Elt F)),
    nullary main_cst_8 (constant S_ .f32 0x42800000#32) ]

set_option maxRecDepth 8192 in
set_option maxHeartbeats 4000000 in
/-- The window is the line of its operations. -/
theorem main_part0_eq (c : Dev nD) : main_part0 (F := F) c = seq rops0 := rfl

set_option maxRecDepth 8192 in
/-- Every buffer an operation of the window touches is a TensorCore reference. -/
theorem rops0_sub : (rops0 : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub ..⟩

set_option maxRecDepth 8192 in
/-- Every operation of the window determines its result. -/
theorem rops0_fresh : ∀ op ∈ (rops0 : List (HloOp τ sig (Elt F))), op.fresh = ∅ :=
  List.forall_iff_forall_mem.mp (show (rops0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops0_W : List (Ref sig .tc) := [main_v0, main_v1, main_v2, main_v3, main_v4, main_v5, main_v6, main_v7, main_v8, main_v9, main_v10, main_cst, main_v11, main_v12, main_v13, main_v14, main_v15, main_v16, main_v17, main_cst_0, main_v18, main_v19, main_v20, main_v21, main_v22, main_v23, main_v24, main_v25, main_cst_1, main_v26, main_v27, main_cst_2, main_v28, main_v29, main_v30, main_v31, main_v32, main_v33, main_v34, main_v35, main_v36, main_cst_3, main_v37, main_v38, main_cst_4, main_v39, main_v40, main_v41, main_cst_5, main_v42, main_v43, main_cst_6, main_v44, main_v45, main_v46, main_v47, main_cst_7, main_v48, main_v49, main_cst_8]

set_option maxRecDepth 8192 in
/-- Each operation of the window writes its own entry of `rops0_W` and nothing else. -/
theorem rops0_writes : (rops0 : List (HloOp τ sig (Elt F))).Forall fun op =>
    op.writes ⊆ (rops0_W.map (Proc.devRef (τ := τ) .tc)).toFinset := by
  simp only [List.Forall]
  exact
    ⟨by rw [unary_writes, Finset.singleton_subset_iff, List.mem_toFinset]; exact List.mem_map_of_mem (by decide),
     by rw [reshape_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide)⟩

/-- A buffer the window does not write keeps its contents through it. -/
theorem rops0_keep (V : Valuation τ sig (Elt F)) {r : Ref sig .tc} (h : r ∉ rops0_W) :
    after rops0 V (Proc.devRef .tc r) = V (Proc.devRef .tc r) :=
  after_of_writes_sub rops0 V rops0_writes h

set_option maxRecDepth 8192 in
/-- The window writes none of @main's eleven arguments. -/
theorem rops0_W_args : ∀ r ∈ ([main_arg0, main_arg1, main_arg2, main_arg3, main_arg4, main_arg5, main_arg6, main_arg7, main_arg8, main_arg9, main_arg10] : List (Ref sig .tc)), r ∉ rops0_W := by decide

end Cert.ReferenceIdeal.Hand

end
-- ==== Proof.Ref.Ops01.lean ====
/-
  Window 1 of the reference program's @main: its statements are the operations 61 … 120 of the
  program's 997 host operations (a call of a module-local function is its callee's operations, in the call's place).

  A host program is a straight line of operations, each writing one result buffer from the contents of its operand
  buffers. The window IS the line of its operations (`main_part1_eq`: the two sides unfold to the same sequence of
  steps). Of each operation the run of the whole program asks three things, each read off the operation's builder:
  every buffer it touches is one of the TensorCore's references (`rops1_sub`); it determines its result, leaving no
  buffer at contents not chosen (`rops1_fresh`); and the one buffer it writes is in the list `rops1_W`
  (`rops1_writes`) — so a buffer not in that list keeps its contents through the window (`rops1_keep`), and no argument
  of @main is in it (`rops1_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 1's operations, in order: @main's operations 61 … 120 of 997. -/
abbrev rops1 : List (HloOp τ sig (Elt F)) :=
  [ unary main_cst_8 main_v50 (broadcastInDim S64x1 ![] bcast_S_S64x1 : (⟨S_, .f32⟩ : BufTy).Contents (Elt F) → (⟨S64x1, .f32⟩ : BufTy).Contents (Elt F)),
    binary main_v49 main_v50 main_v51 (Host.divf : (⟨S64x1, .f32⟩ : BufTy).Contents (Elt F) → (⟨S64x1, .f32⟩ : BufTy).Contents (Elt F) → (⟨S64x1, .f32⟩ : BufTy).Contents (Elt F)),
    unary main_v51 main_v52 (broadcastInDim S64x64 ![0, 1] bcast_S64x1_S64x64_0_1 : (⟨S64x1, .f32⟩ : BufTy).Contents (Elt F) → (⟨S64x64, .f32⟩ : BufTy).Contents (Elt F)),
    binary main_v47 main_v52 main_v53 (subf : (⟨S64x64, .f32⟩ : BufTy).Contents (Elt F) → (⟨S64x64, .f32⟩ : BufTy).Contents (Elt F) → (⟨S64x64, .f32⟩ : BufTy).Contents (Elt F)),
    nullary main_cst_9 (constant S_ .f32 0x00000000#32),
    binary main_v30 main_cst_9 main_v54 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_10 (constant S_ .f32 0x45800000#32),
    binary main_v54 main_cst_10 main_v55 (Host.divf : (⟨S_, .f32⟩ : BufTy).Contents (Elt F) → (⟨S_, .f32⟩ : BufTy).Contents (Elt F) → (⟨S_, .f32⟩ : BufTy).Contents (Elt F)),
    unary main_v55 main_v56 (broadcastInDim S64x64 ![] bcast_S_S64x64 : (⟨S_, .f32⟩ : BufTy).Contents (Elt F) → (⟨S64x64, .f32⟩ : BufTy).Contents (Elt F)),
    binary main_v53 main_v56 main_v57 (addf : (⟨S64x64, .f32⟩ : BufTy).Contents (Elt F) → (⟨S64x64, .f32⟩ : BufTy).Contents (Elt F) → (⟨S64x64, .f32⟩ : BufTy).Contents (Elt F)),
    nullary main_cst_11 (constant S_ .f32 0x00000000#32),
    binary main_v41 main_cst_11 main_v58 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v58 main_v59 (broadcastInDim S1x64 ![1] bcast_S64_S1x64_1 : (⟨S64, .f32⟩ : BufTy).Contents (Elt F) → (⟨S1x64, .f32⟩ : BufTy).Contents (Elt F)),
    nullary main_cst_12 (constant S_ .f32 0x42800000#32),
    unary main_cst_12 main_v60 (broadcastInDim S1x64 ![] bcast_S_S1x64 : (⟨S_, .f32⟩ : BufTy).Contents (Elt F) → (⟨S1x64, .f32⟩ : BufTy).Contents (Elt F)),
    binary main_v59 main_v60 main_v61 (Host.divf : (⟨S1x64, .f32⟩ : BufTy).Contents (Elt F) → (⟨S1x64, .f32⟩ : BufTy).Contents (Elt F) → (⟨S1x64, .f32⟩ : BufTy).Contents (Elt F)),
    unary main_v61 main_v62 (broadcastInDim S64x64 ![0, 1] bcast_S1x64_S64x64_0_1 : (⟨S1x64, .f32⟩ : BufTy).Contents (Elt F) → (⟨S64x64, .f32⟩ : BufTy).Contents (Elt F)),
    binary main_v41 main_v62 main_v63 (subf : (⟨S64x64, .f32⟩ : BufTy).Contents (Elt F) → (⟨S64x64, .f32⟩ : BufTy).Contents (Elt F) → (⟨S64x64, .f32⟩ : BufTy).Contents (Elt F)),
    nullary main_cst_13 (constant S_ .f32 0x00000000#32),
    binary main_v41 main_cst_13 main_v64 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v64 main_v65 (broadcastInDim S64x1 ![0] bcast_S64_S64x1_0 : (⟨S64, .f32⟩ : BufTy).Contents (Elt F) → (⟨S64x1, .f32⟩ : BufTy).Contents (Elt F)),
    nullary main_cst_14 (constant S_ .f32 0x42800000#32),
    unary main_cst_14 main_v66 (broadcastInDim S64x1 ![] bcast_S_S64x1 : (⟨S_, .f32⟩ : BufTy).Contents (Elt F) → (⟨S64x1, .f32⟩ : BufTy).Contents (Elt F)),
    binary main_v65 main_v66 main_v67 (Host.divf : (⟨S64x1, .f32⟩ : BufTy).Contents (Elt F) → (⟨S64x1, .f32⟩ : BufTy).Contents (Elt F) → (⟨S64x1, .f32⟩ : BufTy).Contents (Elt F)),
    unary main_v67 main_v68 (broadcastInDim S64x64 ![0, 1] bcast_S64x1_S64x64_0_1 : (⟨S64x1, .f32⟩ : BufTy).Contents (Elt F) → (⟨S64x64, .f32⟩ : BufTy).Contents (Elt F)),
    binary main_v63 main_v68 main_v69 (subf : (⟨S64x64, .f32⟩ : BufTy).Contents (Elt F) → (⟨S64x64, .f32⟩ : BufTy).Contents (Elt F) → (⟨S64x64, .f32⟩ : BufTy).Contents (Elt F)),
    nullary main_cst_15 (constant S_ .f32 0x00000000#32),
    binary main_v41 main_cst_15 main_v70 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_16 (constant S_ .f32 0x45800000#32),
    binary main_v70 main_cst_16 main_v71 (Host.divf : (⟨S_, .f32⟩ : BufTy).Contents (Elt F) → (⟨S_, .f32⟩ : BufTy).Contents (Elt F) → (⟨S_, .f32⟩ : BufTy).Contents (Elt F)),
    unary main_v71 main_v72 (broadcastInDim S64x64 ![] bcast_S_S64x64 : (⟨S_, .f32⟩ : BufTy).Contents (Elt F) → (⟨S64x64, .f32⟩ : BufTy).Contents (Elt F)),
    binary main_v69 main_v72 main_v73 (addf : (⟨S64x64, .f32⟩ : BufTy).Contents (Elt F) → (⟨S64x64, .f32⟩ : BufTy).Contents (Elt F) → (⟨S64x64, .f32⟩ : BufTy).Contents (Elt F)),
    binary main_v57 main_v73 main_v74 (mulf : (⟨S64x64, .f32⟩ : BufTy).Contents (Elt F) → (⟨S64x64, .f32⟩ : BufTy).Contents (Elt F) → (⟨S64x64, .f32⟩ : BufTy).Contents (Elt F)),
    nullary main_cst_17 (constant S_ .f32 0x00000000#32),
    binary main_v74 main_cst_17 main_v75 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_18 (constant S_ .f32 0x39800000#32),
    binary main_v75 main_cst_18 main_v76 (mulf : (⟨S_, .f32⟩ : BufTy).Contents (Elt F) → (⟨S_, .f32⟩ : BufTy).Contents (Elt F) → (⟨S_, .f32⟩ : BufTy).Contents (Elt F)),
    nullary main_cst_19 (constant S_ .f32 0x00000000#32),
    binary main_v76 main_cst_19 main_v77 (maximumf : (⟨S_, .f32⟩ : BufTy).Contents (Elt F) → (⟨S_, .f32⟩ : BufTy).Contents (Elt F) → (⟨S_, .f32⟩ : BufTy).Contents (Elt F)),
    nullary main_cst_20 (constant S_ .f32 0x322BCC77#32),
    binary main_v77 main_cst_20 main_v78 (addf : (⟨S_, .f32⟩ : BufTy).Contents (Elt F) → (⟨S_, .f32⟩ : BufTy).Contents (Elt F) → (⟨S_, .f32⟩ : BufTy).Contents (Elt F)),
    unary main_v78 main_v79 (Host.sqrt : (⟨S_, .f32⟩ : BufTy).Contents (Elt F) → (⟨S_, .f32⟩ : BufTy).Contents (Elt F)),
    binary main_v57 main_v57 main_v80 (mulf : (⟨S64x64, .f32⟩ : BufTy).Contents (Elt F) → (⟨S64x64, .f32⟩ : BufTy).Contents (Elt F) → (⟨S64x64, .f32⟩ : BufTy).Contents (Elt F)),
    nullary main_cst_21 (constant S_ .f32 0x00000000#32),
    binary main_v80 main_cst_21 main_v81 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_22 (constant S_ .f32 0x39800000#32),
    binary main_v81 main_cst_22 main_v82 (mulf : (⟨S_, .f32⟩ : BufTy).Contents (Elt F) → (⟨S_, .f32⟩ : BufTy).Contents (Elt F) → (⟨S_, .f32⟩ : BufTy).Contents (Elt F)),
    nullary main_cst_23 (constant S_ .f32 0x00000000#32),
    binary main_v82 main_cst_23 main_v83 (maximumf : (⟨S_, .f32⟩ : BufTy).Contents (Elt F) → (⟨S_, .f32⟩ : BufTy).Contents (Elt F) → (⟨S_, .f32⟩ : BufTy).Contents (Elt F)),
    nullary main_cst_24 (constant S_ .f32 0x322BCC77#32),
    binary main_v83 main_cst_24 main_v84 (addf : (⟨S_, .f32⟩ : BufTy).Contents (Elt F) → (⟨S_, .f32⟩ : BufTy).Contents (Elt F) → (⟨S_, .f32⟩ : BufTy).Contents (Elt F)),
    unary main_v84 main_v85 (Host.sqrt : (⟨S_, .f32⟩ : BufTy).Contents (Elt F) → (⟨S_, .f32⟩ : BufTy).Contents (Elt F)),
    binary main_v73 main_v73 main_v86 (mulf : (⟨S64x64, .f32⟩ : BufTy).Contents (Elt F) → (⟨S64x64, .f32⟩ : BufTy).Contents (Elt F) → (⟨S64x64, .f32⟩ : BufTy).Contents (Elt F)),
    nullary main_cst_25 (constant S_ .f32 0x00000000#32),
    binary main_v86 main_cst_25 main_v87 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_26 (constant S_ .f32 0x39800000#32),
    binary main_v87 main_cst_26 main_v88 (mulf : (⟨S_, .f32⟩ : BufTy).Contents (Elt F) → (⟨S_, .f32⟩ : BufTy).Contents (Elt F) → (⟨S_, .f32⟩ : BufTy).Contents (Elt F)),
    nullary main_cst_27 (constant S_ .f32 0x00000000#32),
    binary main_v88 main_cst_27 main_v89 (maximumf : (⟨S_, .f32⟩ : BufTy).Contents (Elt F) → (⟨S_, .f32⟩ : BufTy).Contents (Elt F) → (⟨S_, .f32⟩ : BufTy).Contents (Elt F)),
    nullary main_cst_28 (constant S_ .f32 0x322BCC77#32) ]

set_option maxRecDepth 8192 in
set_option maxHeartbeats 4000000 in
/-- The window is the line of its operations. -/
theorem main_part1_eq (c : Dev nD) : main_part1 (F := F) c = seq rops1 := rfl

set_option maxRecDepth 8192 in
/-- Every buffer an operation of the window touches is a TensorCore reference. -/
theorem rops1_sub : (rops1 : List (HloOp τ sig (Elt F))).Forall fun op => op.bufs ⊆ tcRefs τ sig :=
  ⟨unary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub ..⟩

set_option maxRecDepth 8192 in
/-- Every operation of the window determines its result. -/
theorem rops1_fresh : ∀ op ∈ (rops1 : List (HloOp τ sig (Elt F))), op.fresh = ∅ :=
  List.forall_iff_forall_mem.mp (show (rops1 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops1_W : List (Ref sig .tc) := [main_v50, main_v51, main_v52, main_v53, main_cst_9, main_v54, main_cst_10, main_v55, main_v56, main_v57, main_cst_11, main_v58, main_v59, main_cst_12, main_v60, main_v61, main_v62, main_v63, main_cst_13, main_v64, main_v65, main_cst_14, main_v66, main_v67, main_v68, main_v69, main_cst_15, main_v70, main_cst_16, main_v71, main_v72, main_v73, main_v74, main_cst_17, main_v75, main_cst_18, main_v76, main_cst_19, main_v77, main_cst_20, main_v78, main_v79, main_v80, main_cst_21, main_v81, main_cst_22, main_v82, main_cst_23, main_v83, main_cst_24, main_v84, main_v85, main_v86, main_cst_25, main_v87, main_cst_26, main_v88, main_cst_27, main_v89, main_cst_28]

set_option maxRecDepth 8192 in
/-- Each operation of the window writes its own entry of `rops1_W` and nothing else. -/
theorem rops1_writes : (rops1 : List (HloOp τ sig (Elt F))).Forall fun op =>
    op.writes ⊆ (rops1_W.map (Proc.devRef (τ := τ) .tc)).toFinset := by
  simp only [List.Forall]
  exact
    ⟨by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide)⟩

/-- A buffer the window does not write keeps its contents through it. -/
theorem rops1_keep (V : Valuation τ sig (Elt F)) {r : Ref sig .tc} (h : r ∉ rops1_W) :
    after rops1 V (Proc.devRef .tc r) = V (Proc.devRef .tc r) :=
  after_of_writes_sub rops1 V rops1_writes h

set_option maxRecDepth 8192 in
/-- The window writes none of @main's eleven arguments. -/
theorem rops1_W_args : ∀ r ∈ ([main_arg0, main_arg1, main_arg2, main_arg3, main_arg4, main_arg5, main_arg6, main_arg7, main_arg8, main_arg9, main_arg10] : List (Ref sig .tc)), r ∉ rops1_W := by decide

end Cert.ReferenceIdeal.Hand

end
-- ==== Proof.Ref.Ops02.lean ====
/-
  Window 2 of the reference program's @main: its statements are the operations 121 … 180 of the
  program's 997 host operations (a call of a module-local function is its callee's operations, in the call's place).

  A host program is a straight line of operations, each writing one result buffer from the contents of its operand
  buffers. The window IS the line of its operations (`main_part2_eq`: the two sides unfold to the same sequence of
  steps). Of each operation the run of the whole program asks three things, each read off the operation's builder:
  every buffer it touches is one of the TensorCore's references (`rops2_sub`); it determines its result, leaving no
  buffer at contents not chosen (`rops2_fresh`); and the one buffer it writes is in the list `rops2_W`
  (`rops2_writes`) — so a buffer not in that list keeps its contents through the window (`rops2_keep`), and no argument
  of @main is in it (`rops2_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 2's operations, in order: @main's operations 121 … 180 of 997. -/
abbrev rops2 : List (HloOp τ sig (Elt F)) :=
  [ binary main_v89 main_cst_28 main_v90 (addf : (⟨S_, .f32⟩ : BufTy).Contents (Elt F) → (⟨S_, .f32⟩ : BufTy).Contents (Elt F) → (⟨S_, .f32⟩ : BufTy).Contents (Elt F)),
    unary main_v90 main_v91 (Host.sqrt : (⟨S_, .f32⟩ : BufTy).Contents (Elt F) → (⟨S_, .f32⟩ : BufTy).Contents (Elt F)),
    binary main_v85 main_v91 main_v92 (mulf : (⟨S_, .f32⟩ : BufTy).Contents (Elt F) → (⟨S_, .f32⟩ : BufTy).Contents (Elt F) → (⟨S_, .f32⟩ : BufTy).Contents (Elt F)),
    nullary main_cst_29 (constant S_ .f32 0x322BCC77#32),
    binary main_v92 main_cst_29 main_v93 (addf : (⟨S_, .f32⟩ : BufTy).Contents (Elt F) → (⟨S_, .f32⟩ : BufTy).Contents (Elt F) → (⟨S_, .f32⟩ : BufTy).Contents (Elt F)),
    unary main_v93 main_v94 (Host.sqrt : (⟨S_, .f32⟩ : BufTy).Contents (Elt F) → (⟨S_, .f32⟩ : BufTy).Contents (Elt F)),
    binary main_v79 main_v94 main_v95 (Host.divf : (⟨S_, .f32⟩ : BufTy).Contents (Elt F) → (⟨S_, .f32⟩ : BufTy).Contents (Elt F) → (⟨S_, .f32⟩ : BufTy).Contents (Elt F)),
    nullary main_cst_30 (constant S_ .f32 0x00000000#32),
    binary main_cst_30 main_v95 main_v96 (addf : (⟨S_, .f32⟩ : BufTy).Contents (Elt F) → (⟨S_, .f32⟩ : BufTy).Contents (Elt F) → (⟨S_, .f32⟩ : BufTy).Contents (Elt F)),
    unary main_arg2 main_v97 ((extractStridedSlice S1x64 ![0, 0] · slices_S4x64_S1x64_0_0) : (⟨S4x64, .f32⟩ : BufTy).Contents (Elt F) → (⟨S1x64, .f32⟩ : BufTy).Contents (Elt F)),
    reshape main_v97 main_v98 rfl shapeCasts_S1x64_S64,
    unary main_arg2 main_v99 ((extractStridedSlice S1x64 ![2, 0] · slices_S4x64_S1x64_2_0) : (⟨S4x64, .f32⟩ : BufTy).Contents (Elt F) → (⟨S1x64, .f32⟩ : BufTy).Contents (Elt F)),
    reshape main_v99 main_v100 rfl shapeCasts_S1x64_S64,
    binary main_v98 main_v98 main_v101 (mulf : (⟨S64, .f32⟩ : BufTy).Contents (Elt F) → (⟨S64, .f32⟩ : BufTy).Contents (Elt F) → (⟨S64, .f32⟩ : BufTy).Contents (Elt F)),
    binary main_v100 main_v100 main_v102 (mulf : (⟨S64, .f32⟩ : BufTy).Contents (Elt F) → (⟨S64, .f32⟩ : BufTy).Contents (Elt F) → (⟨S64, .f32⟩ : BufTy).Contents (Elt F)),
    unary main_v98 main_v103 (broadcastInDim S64x1 ![0] bcast_S64_S64x1_0 : (⟨S64, .f32⟩ : BufTy).Contents (Elt F) → (⟨S64x1, .f32⟩ : BufTy).Contents (Elt F)),
    unary main_v98 main_v104 (broadcastInDim S1x64 ![1] bcast_S64_S1x64_1 : (⟨S64, .f32⟩ : BufTy).Contents (Elt F) → (⟨S1x64, .f32⟩ : BufTy).Contents (Elt F)),
    unary main_v103 main_v105 (broadcastInDim S64x64 ![0, 1] bcast_S64x1_S64x64_0_1 : (⟨S64x1, .f32⟩ : BufTy).Contents (Elt F) → (⟨S64x64, .f32⟩ : BufTy).Contents (Elt F)),
    unary main_v104 main_v106 (broadcastInDim S64x64 ![0, 1] bcast_S1x64_S64x64_0_1 : (⟨S1x64, .f32⟩ : BufTy).Contents (Elt F) → (⟨S64x64, .f32⟩ : BufTy).Contents (Elt F)),
    binary main_v105 main_v106 main_v107 (mulf : (⟨S64x64, .f32⟩ : BufTy).Contents (Elt F) → (⟨S64x64, .f32⟩ : BufTy).Contents (Elt F) → (⟨S64x64, .f32⟩ : BufTy).Contents (Elt F)),
    nullary main_cst_31 (constant S_ .f32 0x40000000#32),
    unary main_cst_31 main_v108 (broadcastInDim S64x64 ![] bcast_S_S64x64 : (⟨S_, .f32⟩ : BufTy).Contents (Elt F) → (⟨S64x64, .f32⟩ : BufTy).Contents (Elt F)),
    binary main_v108 main_v107 main_v109 (mulf : (⟨S64x64, .f32⟩ : BufTy).Contents (Elt F) → (⟨S64x64, .f32⟩ : BufTy).Contents (Elt F) → (⟨S64x64, .f32⟩ : BufTy).Contents (Elt F)),
    unary main_v100 main_v110 (broadcastInDim S64x1 ![0] bcast_S64_S64x1_0 : (⟨S64, .f32⟩ : BufTy).Contents (Elt F) → (⟨S64x1, .f32⟩ : BufTy).Contents (Elt F)),
    unary main_v100 main_v111 (broadcastInDim S1x64 ![1] bcast_S64_S1x64_1 : (⟨S64, .f32⟩ : BufTy).Contents (Elt F) → (⟨S1x64, .f32⟩ : BufTy).Contents (Elt F)),
    unary main_v110 main_v112 (broadcastInDim S64x64 ![0, 1] bcast_S64x1_S64x64_0_1 : (⟨S64x1, .f32⟩ : BufTy).Contents (Elt F) → (⟨S64x64, .f32⟩ : BufTy).Contents (Elt F)),
    unary main_v111 main_v113 (broadcastInDim S64x64 ![0, 1] bcast_S1x64_S64x64_0_1 : (⟨S1x64, .f32⟩ : BufTy).Contents (Elt F) → (⟨S64x64, .f32⟩ : BufTy).Contents (Elt F)),
    binary main_v112 main_v113 main_v114 (mulf : (⟨S64x64, .f32⟩ : BufTy).Contents (Elt F) → (⟨S64x64, .f32⟩ : BufTy).Contents (Elt F) → (⟨S64x64, .f32⟩ : BufTy).Contents (Elt F)),
    nullary main_cst_32 (constant S_ .f32 0x40000000#32),
    unary main_cst_32 main_v115 (broadcastInDim S64x64 ![] bcast_S_S64x64 : (⟨S_, .f32⟩ : BufTy).Contents (Elt F) → (⟨S64x64, .f32⟩ : BufTy).Contents (Elt F)),
    binary main_v115 main_v114 main_v116 (mulf : (⟨S64x64, .f32⟩ : BufTy).Contents (Elt F) → (⟨S64x64, .f32⟩ : BufTy).Contents (Elt F) → (⟨S64x64, .f32⟩ : BufTy).Contents (Elt F)),
    unary main_v101 main_v117 (broadcastInDim S64x1 ![0] bcast_S64_S64x1_0 : (⟨S64, .f32⟩ : BufTy).Contents (Elt F) → (⟨S64x1, .f32⟩ : BufTy).Contents (Elt F)),
    unary main_v117 main_v118 (broadcastInDim S64x64 ![0, 1] bcast_S64x1_S64x64_0_1 : (⟨S64x1, .f32⟩ : BufTy).Contents (Elt F) → (⟨S64x64, .f32⟩ : BufTy).Contents (Elt F)),
    binary main_v118 main_v109 main_v119 (subf : (⟨S64x64, .f32⟩ : BufTy).Contents (Elt F) → (⟨S64x64, .f32⟩ : BufTy).Contents (Elt F) → (⟨S64x64, .f32⟩ : BufTy).Contents (Elt F)),
    unary main_v101 main_v120 (broadcastInDim S1x64 ![1] bcast_S64_S1x64_1 : (⟨S64, .f32⟩ : BufTy).Contents (Elt F) → (⟨S1x64, .f32⟩ : BufTy).Contents (Elt F)),
    unary main_v120 main_v121 (broadcastInDim S64x64 ![0, 1] bcast_S1x64_S64x64_0_1 : (⟨S1x64, .f32⟩ : BufTy).Contents (Elt F) → (⟨S64x64, .f32⟩ : BufTy).Contents (Elt F)),
    binary main_v119 main_v121 main_v122 (addf : (⟨S64x64, .f32⟩ : BufTy).Contents (Elt F) → (⟨S64x64, .f32⟩ : BufTy).Contents (Elt F) → (⟨S64x64, .f32⟩ : BufTy).Contents (Elt F)),
    nullary main_cst_33 (constant S_ .f32 0x00000000#32),
    unary main_cst_33 main_v123 (broadcastInDim S64x64 ![] bcast_S_S64x64 : (⟨S_, .f32⟩ : BufTy).Contents (Elt F) → (⟨S64x64, .f32⟩ : BufTy).Contents (Elt F)),
    binary main_v122 main_v123 main_v124 (maximumf : (⟨S64x64, .f32⟩ : BufTy).Contents (Elt F) → (⟨S64x64, .f32⟩ : BufTy).Contents (Elt F) → (⟨S64x64, .f32⟩ : BufTy).Contents (Elt F)),
    nullary main_cst_34 (constant S_ .f32 0x322BCC77#32),
    unary main_cst_34 main_v125 (broadcastInDim S64x64 ![] bcast_S_S64x64 : (⟨S_, .f32⟩ : BufTy).Contents (Elt F) → (⟨S64x64, .f32⟩ : BufTy).Contents (Elt F)),
    binary main_v124 main_v125 main_v126 (addf : (⟨S64x64, .f32⟩ : BufTy).Contents (Elt F) → (⟨S64x64, .f32⟩ : BufTy).Contents (Elt F) → (⟨S64x64, .f32⟩ : BufTy).Contents (Elt F)),
    unary main_v126 main_v127 (Host.sqrt : (⟨S64x64, .f32⟩ : BufTy).Contents (Elt F) → (⟨S64x64, .f32⟩ : BufTy).Contents (Elt F)),
    unary main_v102 main_v128 (broadcastInDim S64x1 ![0] bcast_S64_S64x1_0 : (⟨S64, .f32⟩ : BufTy).Contents (Elt F) → (⟨S64x1, .f32⟩ : BufTy).Contents (Elt F)),
    unary main_v128 main_v129 (broadcastInDim S64x64 ![0, 1] bcast_S64x1_S64x64_0_1 : (⟨S64x1, .f32⟩ : BufTy).Contents (Elt F) → (⟨S64x64, .f32⟩ : BufTy).Contents (Elt F)),
    binary main_v129 main_v116 main_v130 (subf : (⟨S64x64, .f32⟩ : BufTy).Contents (Elt F) → (⟨S64x64, .f32⟩ : BufTy).Contents (Elt F) → (⟨S64x64, .f32⟩ : BufTy).Contents (Elt F)),
    unary main_v102 main_v131 (broadcastInDim S1x64 ![1] bcast_S64_S1x64_1 : (⟨S64, .f32⟩ : BufTy).Contents (Elt F) → (⟨S1x64, .f32⟩ : BufTy).Contents (Elt F)),
    unary main_v131 main_v132 (broadcastInDim S64x64 ![0, 1] bcast_S1x64_S64x64_0_1 : (⟨S1x64, .f32⟩ : BufTy).Contents (Elt F) → (⟨S64x64, .f32⟩ : BufTy).Contents (Elt F)),
    binary main_v130 main_v132 main_v133 (addf : (⟨S64x64, .f32⟩ : BufTy).Contents (Elt F) → (⟨S64x64, .f32⟩ : BufTy).Contents (Elt F) → (⟨S64x64, .f32⟩ : BufTy).Contents (Elt F)),
    nullary main_cst_35 (constant S_ .f32 0x00000000#32),
    unary main_cst_35 main_v134 (broadcastInDim S64x64 ![] bcast_S_S64x64 : (⟨S_, .f32⟩ : BufTy).Contents (Elt F) → (⟨S64x64, .f32⟩ : BufTy).Contents (Elt F)),
    binary main_v133 main_v134 main_v135 (maximumf : (⟨S64x64, .f32⟩ : BufTy).Contents (Elt F) → (⟨S64x64, .f32⟩ : BufTy).Contents (Elt F) → (⟨S64x64, .f32⟩ : BufTy).Contents (Elt F)),
    nullary main_cst_36 (constant S_ .f32 0x322BCC77#32),
    unary main_cst_36 main_v136 (broadcastInDim S64x64 ![] bcast_S_S64x64 : (⟨S_, .f32⟩ : BufTy).Contents (Elt F) → (⟨S64x64, .f32⟩ : BufTy).Contents (Elt F)),
    binary main_v135 main_v136 main_v137 (addf : (⟨S64x64, .f32⟩ : BufTy).Contents (Elt F) → (⟨S64x64, .f32⟩ : BufTy).Contents (Elt F) → (⟨S64x64, .f32⟩ : BufTy).Contents (Elt F)),
    unary main_v137 main_v138 (Host.sqrt : (⟨S64x64, .f32⟩ : BufTy).Contents (Elt F) → (⟨S64x64, .f32⟩ : BufTy).Contents (Elt F)),
    nullary main_cst_37 (constant S_ .f32 0x00000000#32),
    binary main_v127 main_cst_37 main_v139 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v139 main_v140 (broadcastInDim S1x64 ![1] bcast_S64_S1x64_1 : (⟨S64, .f32⟩ : BufTy).Contents (Elt F) → (⟨S1x64, .f32⟩ : BufTy).Contents (Elt F)) ]

set_option maxRecDepth 8192 in
set_option maxHeartbeats 4000000 in
/-- The window is the line of its operations. -/
theorem main_part2_eq (c : Dev nD) : main_part2 (F := F) c = seq rops2 := rfl

set_option maxRecDepth 8192 in
/-- Every buffer an operation of the window touches is a TensorCore reference. -/
theorem rops2_sub : (rops2 : List (HloOp τ sig (Elt F))).Forall fun op => op.bufs ⊆ tcRefs τ sig :=
  ⟨binary_bufs_sub .., unary_bufs_sub .., binary_bufs_sub .., nullary_bufs_sub .., binary_bufs_sub .., unary_bufs_sub .., binary_bufs_sub .., nullary_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub ..⟩

set_option maxRecDepth 8192 in
/-- Every operation of the window determines its result. -/
theorem rops2_fresh : ∀ op ∈ (rops2 : List (HloOp τ sig (Elt F))), op.fresh = ∅ :=
  List.forall_iff_forall_mem.mp (show (rops2 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops2_W : List (Ref sig .tc) := [main_v90, main_v91, main_v92, main_cst_29, main_v93, main_v94, main_v95, main_cst_30, main_v96, main_v97, main_v98, main_v99, main_v100, main_v101, main_v102, main_v103, main_v104, main_v105, main_v106, main_v107, main_cst_31, main_v108, main_v109, main_v110, main_v111, main_v112, main_v113, main_v114, main_cst_32, main_v115, main_v116, main_v117, main_v118, main_v119, main_v120, main_v121, main_v122, main_cst_33, main_v123, main_v124, main_cst_34, main_v125, main_v126, main_v127, main_v128, main_v129, main_v130, main_v131, main_v132, main_v133, main_cst_35, main_v134, main_v135, main_cst_36, main_v136, main_v137, main_v138, main_cst_37, main_v139, main_v140]

set_option maxRecDepth 8192 in
/-- Each operation of the window writes its own entry of `rops2_W` and nothing else. -/
theorem rops2_writes : (rops2 : List (HloOp τ sig (Elt F))).Forall fun op =>
    op.writes ⊆ (rops2_W.map (Proc.devRef (τ := τ) .tc)).toFinset := by
  simp only [List.Forall]
  exact
    ⟨by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide)⟩

/-- A buffer the window does not write keeps its contents through it. -/
theorem rops2_keep (V : Valuation τ sig (Elt F)) {r : Ref sig .tc} (h : r ∉ rops2_W) :
    after rops2 V (Proc.devRef .tc r) = V (Proc.devRef .tc r) :=
  after_of_writes_sub rops2 V rops2_writes h

set_option maxRecDepth 8192 in
/-- The window writes none of @main's eleven arguments. -/
theorem rops2_W_args : ∀ r ∈ ([main_arg0, main_arg1, main_arg2, main_arg3, main_arg4, main_arg5, main_arg6, main_arg7, main_arg8, main_arg9, main_arg10] : List (Ref sig .tc)), r ∉ rops2_W := by decide

end Cert.ReferenceIdeal.Hand

end
-- ==== Proof.Ref.Ops03.lean ====
/-
  Window 3 of the reference program's @main: its statements are the operations 181 … 240 of the
  program's 997 host operations (a call of a module-local function is its callee's operations, in the call's place).

  A host program is a straight line of operations, each writing one result buffer from the contents of its operand
  buffers. The window IS the line of its operations (`main_part3_eq`: the two sides unfold to the same sequence of
  steps). Of each operation the run of the whole program asks three things, each read off the operation's builder:
  every buffer it touches is one of the TensorCore's references (`rops3_sub`); it determines its result, leaving no
  buffer at contents not chosen (`rops3_fresh`); and the one buffer it writes is in the list `rops3_W`
  (`rops3_writes`) — so a buffer not in that list keeps its contents through the window (`rops3_keep`), and no argument
  of @main is in it (`rops3_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 3's operations, in order: @main's operations 181 … 240 of 997. -/
abbrev rops3 : List (HloOp τ sig (Elt F)) :=
  [ nullary main_cst_38 (constant S_ .f32 0x42800000#32),
    unary main_cst_38 main_v141 (broadcastInDim S1x64 ![] bcast_S_S1x64 : (⟨S_, .f32⟩ : BufTy).Contents (Elt F) → (⟨S1x64, .f32⟩ : BufTy).Contents (Elt F)),
    binary main_v140 main_v141 main_v142 (Host.divf : (⟨S1x64, .f32⟩ : BufTy).Contents (Elt F) → (⟨S1x64, .f32⟩ : BufTy).Contents (Elt F) → (⟨S1x64, .f32⟩ : BufTy).Contents (Elt F)),
    unary main_v142 main_v143 (broadcastInDim S64x64 ![0, 1] bcast_S1x64_S64x64_0_1 : (⟨S1x64, .f32⟩ : BufTy).Contents (Elt F) → (⟨S64x64, .f32⟩ : BufTy).Contents (Elt F)),
    binary main_v127 main_v143 main_v144 (subf : (⟨S64x64, .f32⟩ : BufTy).Contents (Elt F) → (⟨S64x64, .f32⟩ : BufTy).Contents (Elt F) → (⟨S64x64, .f32⟩ : BufTy).Contents (Elt F)),
    nullary main_cst_39 (constant S_ .f32 0x00000000#32),
    binary main_v127 main_cst_39 main_v145 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v145 main_v146 (broadcastInDim S64x1 ![0] bcast_S64_S64x1_0 : (⟨S64, .f32⟩ : BufTy).Contents (Elt F) → (⟨S64x1, .f32⟩ : BufTy).Contents (Elt F)),
    nullary main_cst_40 (constant S_ .f32 0x42800000#32),
    unary main_cst_40 main_v147 (broadcastInDim S64x1 ![] bcast_S_S64x1 : (⟨S_, .f32⟩ : BufTy).Contents (Elt F) → (⟨S64x1, .f32⟩ : BufTy).Contents (Elt F)),
    binary main_v146 main_v147 main_v148 (Host.divf : (⟨S64x1, .f32⟩ : BufTy).Contents (Elt F) → (⟨S64x1, .f32⟩ : BufTy).Contents (Elt F) → (⟨S64x1, .f32⟩ : BufTy).Contents (Elt F)),
    unary main_v148 main_v149 (broadcastInDim S64x64 ![0, 1] bcast_S64x1_S64x64_0_1 : (⟨S64x1, .f32⟩ : BufTy).Contents (Elt F) → (⟨S64x64, .f32⟩ : BufTy).Contents (Elt F)),
    binary main_v144 main_v149 main_v150 (subf : (⟨S64x64, .f32⟩ : BufTy).Contents (Elt F) → (⟨S64x64, .f32⟩ : BufTy).Contents (Elt F) → (⟨S64x64, .f32⟩ : BufTy).Contents (Elt F)),
    nullary main_cst_41 (constant S_ .f32 0x00000000#32),
    binary main_v127 main_cst_41 main_v151 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_42 (constant S_ .f32 0x45800000#32),
    binary main_v151 main_cst_42 main_v152 (Host.divf : (⟨S_, .f32⟩ : BufTy).Contents (Elt F) → (⟨S_, .f32⟩ : BufTy).Contents (Elt F) → (⟨S_, .f32⟩ : BufTy).Contents (Elt F)),
    unary main_v152 main_v153 (broadcastInDim S64x64 ![] bcast_S_S64x64 : (⟨S_, .f32⟩ : BufTy).Contents (Elt F) → (⟨S64x64, .f32⟩ : BufTy).Contents (Elt F)),
    binary main_v150 main_v153 main_v154 (addf : (⟨S64x64, .f32⟩ : BufTy).Contents (Elt F) → (⟨S64x64, .f32⟩ : BufTy).Contents (Elt F) → (⟨S64x64, .f32⟩ : BufTy).Contents (Elt F)),
    nullary main_cst_43 (constant S_ .f32 0x00000000#32),
    binary main_v138 main_cst_43 main_v155 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v155 main_v156 (broadcastInDim S1x64 ![1] bcast_S64_S1x64_1 : (⟨S64, .f32⟩ : BufTy).Contents (Elt F) → (⟨S1x64, .f32⟩ : BufTy).Contents (Elt F)),
    nullary main_cst_44 (constant S_ .f32 0x42800000#32),
    unary main_cst_44 main_v157 (broadcastInDim S1x64 ![] bcast_S_S1x64 : (⟨S_, .f32⟩ : BufTy).Contents (Elt F) → (⟨S1x64, .f32⟩ : BufTy).Contents (Elt F)),
    binary main_v156 main_v157 main_v158 (Host.divf : (⟨S1x64, .f32⟩ : BufTy).Contents (Elt F) → (⟨S1x64, .f32⟩ : BufTy).Contents (Elt F) → (⟨S1x64, .f32⟩ : BufTy).Contents (Elt F)),
    unary main_v158 main_v159 (broadcastInDim S64x64 ![0, 1] bcast_S1x64_S64x64_0_1 : (⟨S1x64, .f32⟩ : BufTy).Contents (Elt F) → (⟨S64x64, .f32⟩ : BufTy).Contents (Elt F)),
    binary main_v138 main_v159 main_v160 (subf : (⟨S64x64, .f32⟩ : BufTy).Contents (Elt F) → (⟨S64x64, .f32⟩ : BufTy).Contents (Elt F) → (⟨S64x64, .f32⟩ : BufTy).Contents (Elt F)),
    nullary main_cst_45 (constant S_ .f32 0x00000000#32),
    binary main_v138 main_cst_45 main_v161 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v161 main_v162 (broadcastInDim S64x1 ![0] bcast_S64_S64x1_0 : (⟨S64, .f32⟩ : BufTy).Contents (Elt F) → (⟨S64x1, .f32⟩ : BufTy).Contents (Elt F)),
    nullary main_cst_46 (constant S_ .f32 0x42800000#32),
    unary main_cst_46 main_v163 (broadcastInDim S64x1 ![] bcast_S_S64x1 : (⟨S_, .f32⟩ : BufTy).Contents (Elt F) → (⟨S64x1, .f32⟩ : BufTy).Contents (Elt F)),
    binary main_v162 main_v163 main_v164 (Host.divf : (⟨S64x1, .f32⟩ : BufTy).Contents (Elt F) → (⟨S64x1, .f32⟩ : BufTy).Contents (Elt F) → (⟨S64x1, .f32⟩ : BufTy).Contents (Elt F)),
    unary main_v164 main_v165 (broadcastInDim S64x64 ![0, 1] bcast_S64x1_S64x64_0_1 : (⟨S64x1, .f32⟩ : BufTy).Contents (Elt F) → (⟨S64x64, .f32⟩ : BufTy).Contents (Elt F)),
    binary main_v160 main_v165 main_v166 (subf : (⟨S64x64, .f32⟩ : BufTy).Contents (Elt F) → (⟨S64x64, .f32⟩ : BufTy).Contents (Elt F) → (⟨S64x64, .f32⟩ : BufTy).Contents (Elt F)),
    nullary main_cst_47 (constant S_ .f32 0x00000000#32),
    binary main_v138 main_cst_47 main_v167 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_48 (constant S_ .f32 0x45800000#32),
    binary main_v167 main_cst_48 main_v168 (Host.divf : (⟨S_, .f32⟩ : BufTy).Contents (Elt F) → (⟨S_, .f32⟩ : BufTy).Contents (Elt F) → (⟨S_, .f32⟩ : BufTy).Contents (Elt F)),
    unary main_v168 main_v169 (broadcastInDim S64x64 ![] bcast_S_S64x64 : (⟨S_, .f32⟩ : BufTy).Contents (Elt F) → (⟨S64x64, .f32⟩ : BufTy).Contents (Elt F)),
    binary main_v166 main_v169 main_v170 (addf : (⟨S64x64, .f32⟩ : BufTy).Contents (Elt F) → (⟨S64x64, .f32⟩ : BufTy).Contents (Elt F) → (⟨S64x64, .f32⟩ : BufTy).Contents (Elt F)),
    binary main_v154 main_v170 main_v171 (mulf : (⟨S64x64, .f32⟩ : BufTy).Contents (Elt F) → (⟨S64x64, .f32⟩ : BufTy).Contents (Elt F) → (⟨S64x64, .f32⟩ : BufTy).Contents (Elt F)),
    nullary main_cst_49 (constant S_ .f32 0x00000000#32),
    binary main_v171 main_cst_49 main_v172 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_50 (constant S_ .f32 0x39800000#32),
    binary main_v172 main_cst_50 main_v173 (mulf : (⟨S_, .f32⟩ : BufTy).Contents (Elt F) → (⟨S_, .f32⟩ : BufTy).Contents (Elt F) → (⟨S_, .f32⟩ : BufTy).Contents (Elt F)),
    nullary main_cst_51 (constant S_ .f32 0x00000000#32),
    binary main_v173 main_cst_51 main_v174 (maximumf : (⟨S_, .f32⟩ : BufTy).Contents (Elt F) → (⟨S_, .f32⟩ : BufTy).Contents (Elt F) → (⟨S_, .f32⟩ : BufTy).Contents (Elt F)),
    nullary main_cst_52 (constant S_ .f32 0x322BCC77#32),
    binary main_v174 main_cst_52 main_v175 (addf : (⟨S_, .f32⟩ : BufTy).Contents (Elt F) → (⟨S_, .f32⟩ : BufTy).Contents (Elt F) → (⟨S_, .f32⟩ : BufTy).Contents (Elt F)),
    unary main_v175 main_v176 (Host.sqrt : (⟨S_, .f32⟩ : BufTy).Contents (Elt F) → (⟨S_, .f32⟩ : BufTy).Contents (Elt F)),
    binary main_v154 main_v154 main_v177 (mulf : (⟨S64x64, .f32⟩ : BufTy).Contents (Elt F) → (⟨S64x64, .f32⟩ : BufTy).Contents (Elt F) → (⟨S64x64, .f32⟩ : BufTy).Contents (Elt F)),
    nullary main_cst_53 (constant S_ .f32 0x00000000#32),
    binary main_v177 main_cst_53 main_v178 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_54 (constant S_ .f32 0x39800000#32),
    binary main_v178 main_cst_54 main_v179 (mulf : (⟨S_, .f32⟩ : BufTy).Contents (Elt F) → (⟨S_, .f32⟩ : BufTy).Contents (Elt F) → (⟨S_, .f32⟩ : BufTy).Contents (Elt F)),
    nullary main_cst_55 (constant S_ .f32 0x00000000#32),
    binary main_v179 main_cst_55 main_v180 (maximumf : (⟨S_, .f32⟩ : BufTy).Contents (Elt F) → (⟨S_, .f32⟩ : BufTy).Contents (Elt F) → (⟨S_, .f32⟩ : BufTy).Contents (Elt F)),
    nullary main_cst_56 (constant S_ .f32 0x322BCC77#32),
    binary main_v180 main_cst_56 main_v181 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The window is the line of its operations. -/
theorem main_part3_eq (c : Dev nD) : main_part3 (F := F) c = seq rops3 := rfl

set_option maxRecDepth 8192 in
/-- Every buffer an operation of the window touches is a TensorCore reference. -/
theorem rops3_sub : (rops3 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub ..⟩

set_option maxRecDepth 8192 in
/-- Every operation of the window determines its result. -/
theorem rops3_fresh : ∀ op ∈ (rops3 : List (HloOp τ sig (Elt F))), op.fresh = ∅ :=
  List.forall_iff_forall_mem.mp (show (rops3 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops3_W : List (Ref sig .tc) := [main_cst_38, main_v141, main_v142, main_v143, main_v144, main_cst_39, main_v145, main_v146, main_cst_40, main_v147, main_v148, main_v149, main_v150, main_cst_41, main_v151, main_cst_42, main_v152, main_v153, main_v154, main_cst_43, main_v155, main_v156, main_cst_44, main_v157, main_v158, main_v159, main_v160, main_cst_45, main_v161, main_v162, main_cst_46, main_v163, main_v164, main_v165, main_v166, main_cst_47, main_v167, main_cst_48, main_v168, main_v169, main_v170, main_v171, main_cst_49, main_v172, main_cst_50, main_v173, main_cst_51, main_v174, main_cst_52, main_v175, main_v176, main_v177, main_cst_53, main_v178, main_cst_54, main_v179, main_cst_55, main_v180, main_cst_56, main_v181]

set_option maxRecDepth 8192 in
/-- Each operation of the window writes its own entry of `rops3_W` and nothing else. -/
theorem rops3_writes : (rops3 : List (HloOp τ sig (Elt F))).Forall fun op =>
    op.writes ⊆ (rops3_W.map (Proc.devRef (τ := τ) .tc)).toFinset := by
  simp only [List.Forall]
  exact
    ⟨by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide)⟩

/-- A buffer the window does not write keeps its contents through it. -/
theorem rops3_keep (V : Valuation τ sig (Elt F)) {r : Ref sig .tc} (h : r ∉ rops3_W) :
    after rops3 V (Proc.devRef .tc r) = V (Proc.devRef .tc r) :=
  after_of_writes_sub rops3 V rops3_writes h

set_option maxRecDepth 8192 in
/-- The window writes none of @main's eleven arguments. -/
theorem rops3_W_args : ∀ r ∈ ([main_arg0, main_arg1, main_arg2, main_arg3, main_arg4, main_arg5, main_arg6, main_arg7, main_arg8, main_arg9, main_arg10] : List (Ref sig .tc)), r ∉ rops3_W := by decide

end Cert.ReferenceIdeal.Hand

end
-- ==== Proof.Ref.Ops04.lean ====
/-
  Window 4 of the reference program's @main: its statements are the operations 241 … 300 of the
  program's 997 host operations (a call of a module-local function is its callee's operations, in the call's place).

  A host program is a straight line of operations, each writing one result buffer from the contents of its operand
  buffers. The window IS the line of its operations (`main_part4_eq`: the two sides unfold to the same sequence of
  steps). Of each operation the run of the whole program asks three things, each read off the operation's builder:
  every buffer it touches is one of the TensorCore's references (`rops4_sub`); it determines its result, leaving no
  buffer at contents not chosen (`rops4_fresh`); and the one buffer it writes is in the list `rops4_W`
  (`rops4_writes`) — so a buffer not in that list keeps its contents through the window (`rops4_keep`), and no argument
  of @main is in it (`rops4_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 4's operations, in order: @main's operations 241 … 300 of 997. -/
abbrev rops4 : List (HloOp τ sig (Elt F)) :=
  [ unary main_v181 main_v182 (Host.sqrt : (⟨S_, .f32⟩ : BufTy).Contents (Elt F) → (⟨S_, .f32⟩ : BufTy).Contents (Elt F)),
    binary main_v170 main_v170 main_v183 (mulf : (⟨S64x64, .f32⟩ : BufTy).Contents (Elt F) → (⟨S64x64, .f32⟩ : BufTy).Contents (Elt F) → (⟨S64x64, .f32⟩ : BufTy).Contents (Elt F)),
    nullary main_cst_57 (constant S_ .f32 0x00000000#32),
    binary main_v183 main_cst_57 main_v184 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_58 (constant S_ .f32 0x39800000#32),
    binary main_v184 main_cst_58 main_v185 (mulf : (⟨S_, .f32⟩ : BufTy).Contents (Elt F) → (⟨S_, .f32⟩ : BufTy).Contents (Elt F) → (⟨S_, .f32⟩ : BufTy).Contents (Elt F)),
    nullary main_cst_59 (constant S_ .f32 0x00000000#32),
    binary main_v185 main_cst_59 main_v186 (maximumf : (⟨S_, .f32⟩ : BufTy).Contents (Elt F) → (⟨S_, .f32⟩ : BufTy).Contents (Elt F) → (⟨S_, .f32⟩ : BufTy).Contents (Elt F)),
    nullary main_cst_60 (constant S_ .f32 0x322BCC77#32),
    binary main_v186 main_cst_60 main_v187 (addf : (⟨S_, .f32⟩ : BufTy).Contents (Elt F) → (⟨S_, .f32⟩ : BufTy).Contents (Elt F) → (⟨S_, .f32⟩ : BufTy).Contents (Elt F)),
    unary main_v187 main_v188 (Host.sqrt : (⟨S_, .f32⟩ : BufTy).Contents (Elt F) → (⟨S_, .f32⟩ : BufTy).Contents (Elt F)),
    binary main_v182 main_v188 main_v189 (mulf : (⟨S_, .f32⟩ : BufTy).Contents (Elt F) → (⟨S_, .f32⟩ : BufTy).Contents (Elt F) → (⟨S_, .f32⟩ : BufTy).Contents (Elt F)),
    nullary main_cst_61 (constant S_ .f32 0x322BCC77#32),
    binary main_v189 main_cst_61 main_v190 (addf : (⟨S_, .f32⟩ : BufTy).Contents (Elt F) → (⟨S_, .f32⟩ : BufTy).Contents (Elt F) → (⟨S_, .f32⟩ : BufTy).Contents (Elt F)),
    unary main_v190 main_v191 (Host.sqrt : (⟨S_, .f32⟩ : BufTy).Contents (Elt F) → (⟨S_, .f32⟩ : BufTy).Contents (Elt F)),
    binary main_v176 main_v191 main_v192 (Host.divf : (⟨S_, .f32⟩ : BufTy).Contents (Elt F) → (⟨S_, .f32⟩ : BufTy).Contents (Elt F) → (⟨S_, .f32⟩ : BufTy).Contents (Elt F)),
    binary main_v96 main_v192 main_v193 (addf : (⟨S_, .f32⟩ : BufTy).Contents (Elt F) → (⟨S_, .f32⟩ : BufTy).Contents (Elt F) → (⟨S_, .f32⟩ : BufTy).Contents (Elt F)),
    unary main_arg2 main_v194 ((extractStridedSlice S1x64 ![0, 0] · slices_S4x64_S1x64_0_0) : (⟨S4x64, .f32⟩ : BufTy).Contents (Elt F) → (⟨S1x64, .f32⟩ : BufTy).Contents (Elt F)),
    reshape main_v194 main_v195 rfl shapeCasts_S1x64_S64,
    unary main_arg2 main_v196 ((extractStridedSlice S1x64 ![3, 0] · slices_S4x64_S1x64_3_0) : (⟨S4x64, .f32⟩ : BufTy).Contents (Elt F) → (⟨S1x64, .f32⟩ : BufTy).Contents (Elt F)),
    reshape main_v196 main_v197 rfl shapeCasts_S1x64_S64,
    binary main_v195 main_v195 main_v198 (mulf : (⟨S64, .f32⟩ : BufTy).Contents (Elt F) → (⟨S64, .f32⟩ : BufTy).Contents (Elt F) → (⟨S64, .f32⟩ : BufTy).Contents (Elt F)),
    binary main_v197 main_v197 main_v199 (mulf : (⟨S64, .f32⟩ : BufTy).Contents (Elt F) → (⟨S64, .f32⟩ : BufTy).Contents (Elt F) → (⟨S64, .f32⟩ : BufTy).Contents (Elt F)),
    unary main_v195 main_v200 (broadcastInDim S64x1 ![0] bcast_S64_S64x1_0 : (⟨S64, .f32⟩ : BufTy).Contents (Elt F) → (⟨S64x1, .f32⟩ : BufTy).Contents (Elt F)),
    unary main_v195 main_v201 (broadcastInDim S1x64 ![1] bcast_S64_S1x64_1 : (⟨S64, .f32⟩ : BufTy).Contents (Elt F) → (⟨S1x64, .f32⟩ : BufTy).Contents (Elt F)),
    unary main_v200 main_v202 (broadcastInDim S64x64 ![0, 1] bcast_S64x1_S64x64_0_1 : (⟨S64x1, .f32⟩ : BufTy).Contents (Elt F) → (⟨S64x64, .f32⟩ : BufTy).Contents (Elt F)),
    unary main_v201 main_v203 (broadcastInDim S64x64 ![0, 1] bcast_S1x64_S64x64_0_1 : (⟨S1x64, .f32⟩ : BufTy).Contents (Elt F) → (⟨S64x64, .f32⟩ : BufTy).Contents (Elt F)),
    binary main_v202 main_v203 main_v204 (mulf : (⟨S64x64, .f32⟩ : BufTy).Contents (Elt F) → (⟨S64x64, .f32⟩ : BufTy).Contents (Elt F) → (⟨S64x64, .f32⟩ : BufTy).Contents (Elt F)),
    nullary main_cst_62 (constant S_ .f32 0x40000000#32),
    unary main_cst_62 main_v205 (broadcastInDim S64x64 ![] bcast_S_S64x64 : (⟨S_, .f32⟩ : BufTy).Contents (Elt F) → (⟨S64x64, .f32⟩ : BufTy).Contents (Elt F)),
    binary main_v205 main_v204 main_v206 (mulf : (⟨S64x64, .f32⟩ : BufTy).Contents (Elt F) → (⟨S64x64, .f32⟩ : BufTy).Contents (Elt F) → (⟨S64x64, .f32⟩ : BufTy).Contents (Elt F)),
    unary main_v197 main_v207 (broadcastInDim S64x1 ![0] bcast_S64_S64x1_0 : (⟨S64, .f32⟩ : BufTy).Contents (Elt F) → (⟨S64x1, .f32⟩ : BufTy).Contents (Elt F)),
    unary main_v197 main_v208 (broadcastInDim S1x64 ![1] bcast_S64_S1x64_1 : (⟨S64, .f32⟩ : BufTy).Contents (Elt F) → (⟨S1x64, .f32⟩ : BufTy).Contents (Elt F)),
    unary main_v207 main_v209 (broadcastInDim S64x64 ![0, 1] bcast_S64x1_S64x64_0_1 : (⟨S64x1, .f32⟩ : BufTy).Contents (Elt F) → (⟨S64x64, .f32⟩ : BufTy).Contents (Elt F)),
    unary main_v208 main_v210 (broadcastInDim S64x64 ![0, 1] bcast_S1x64_S64x64_0_1 : (⟨S1x64, .f32⟩ : BufTy).Contents (Elt F) → (⟨S64x64, .f32⟩ : BufTy).Contents (Elt F)),
    binary main_v209 main_v210 main_v211 (mulf : (⟨S64x64, .f32⟩ : BufTy).Contents (Elt F) → (⟨S64x64, .f32⟩ : BufTy).Contents (Elt F) → (⟨S64x64, .f32⟩ : BufTy).Contents (Elt F)),
    nullary main_cst_63 (constant S_ .f32 0x40000000#32),
    unary main_cst_63 main_v212 (broadcastInDim S64x64 ![] bcast_S_S64x64 : (⟨S_, .f32⟩ : BufTy).Contents (Elt F) → (⟨S64x64, .f32⟩ : BufTy).Contents (Elt F)),
    binary main_v212 main_v211 main_v213 (mulf : (⟨S64x64, .f32⟩ : BufTy).Contents (Elt F) → (⟨S64x64, .f32⟩ : BufTy).Contents (Elt F) → (⟨S64x64, .f32⟩ : BufTy).Contents (Elt F)),
    unary main_v198 main_v214 (broadcastInDim S64x1 ![0] bcast_S64_S64x1_0 : (⟨S64, .f32⟩ : BufTy).Contents (Elt F) → (⟨S64x1, .f32⟩ : BufTy).Contents (Elt F)),
    unary main_v214 main_v215 (broadcastInDim S64x64 ![0, 1] bcast_S64x1_S64x64_0_1 : (⟨S64x1, .f32⟩ : BufTy).Contents (Elt F) → (⟨S64x64, .f32⟩ : BufTy).Contents (Elt F)),
    binary main_v215 main_v206 main_v216 (subf : (⟨S64x64, .f32⟩ : BufTy).Contents (Elt F) → (⟨S64x64, .f32⟩ : BufTy).Contents (Elt F) → (⟨S64x64, .f32⟩ : BufTy).Contents (Elt F)),
    unary main_v198 main_v217 (broadcastInDim S1x64 ![1] bcast_S64_S1x64_1 : (⟨S64, .f32⟩ : BufTy).Contents (Elt F) → (⟨S1x64, .f32⟩ : BufTy).Contents (Elt F)),
    unary main_v217 main_v218 (broadcastInDim S64x64 ![0, 1] bcast_S1x64_S64x64_0_1 : (⟨S1x64, .f32⟩ : BufTy).Contents (Elt F) → (⟨S64x64, .f32⟩ : BufTy).Contents (Elt F)),
    binary main_v216 main_v218 main_v219 (addf : (⟨S64x64, .f32⟩ : BufTy).Contents (Elt F) → (⟨S64x64, .f32⟩ : BufTy).Contents (Elt F) → (⟨S64x64, .f32⟩ : BufTy).Contents (Elt F)),
    nullary main_cst_64 (constant S_ .f32 0x00000000#32),
    unary main_cst_64 main_v220 (broadcastInDim S64x64 ![] bcast_S_S64x64 : (⟨S_, .f32⟩ : BufTy).Contents (Elt F) → (⟨S64x64, .f32⟩ : BufTy).Contents (Elt F)),
    binary main_v219 main_v220 main_v221 (maximumf : (⟨S64x64, .f32⟩ : BufTy).Contents (Elt F) → (⟨S64x64, .f32⟩ : BufTy).Contents (Elt F) → (⟨S64x64, .f32⟩ : BufTy).Contents (Elt F)),
    nullary main_cst_65 (constant S_ .f32 0x322BCC77#32),
    unary main_cst_65 main_v222 (broadcastInDim S64x64 ![] bcast_S_S64x64 : (⟨S_, .f32⟩ : BufTy).Contents (Elt F) → (⟨S64x64, .f32⟩ : BufTy).Contents (Elt F)),
    binary main_v221 main_v222 main_v223 (addf : (⟨S64x64, .f32⟩ : BufTy).Contents (Elt F) → (⟨S64x64, .f32⟩ : BufTy).Contents (Elt F) → (⟨S64x64, .f32⟩ : BufTy).Contents (Elt F)),
    unary main_v223 main_v224 (Host.sqrt : (⟨S64x64, .f32⟩ : BufTy).Contents (Elt F) → (⟨S64x64, .f32⟩ : BufTy).Contents (Elt F)),
    unary main_v199 main_v225 (broadcastInDim S64x1 ![0] bcast_S64_S64x1_0 : (⟨S64, .f32⟩ : BufTy).Contents (Elt F) → (⟨S64x1, .f32⟩ : BufTy).Contents (Elt F)),
    unary main_v225 main_v226 (broadcastInDim S64x64 ![0, 1] bcast_S64x1_S64x64_0_1 : (⟨S64x1, .f32⟩ : BufTy).Contents (Elt F) → (⟨S64x64, .f32⟩ : BufTy).Contents (Elt F)),
    binary main_v226 main_v213 main_v227 (subf : (⟨S64x64, .f32⟩ : BufTy).Contents (Elt F) → (⟨S64x64, .f32⟩ : BufTy).Contents (Elt F) → (⟨S64x64, .f32⟩ : BufTy).Contents (Elt F)),
    unary main_v199 main_v228 (broadcastInDim S1x64 ![1] bcast_S64_S1x64_1 : (⟨S64, .f32⟩ : BufTy).Contents (Elt F) → (⟨S1x64, .f32⟩ : BufTy).Contents (Elt F)),
    unary main_v228 main_v229 (broadcastInDim S64x64 ![0, 1] bcast_S1x64_S64x64_0_1 : (⟨S1x64, .f32⟩ : BufTy).Contents (Elt F) → (⟨S64x64, .f32⟩ : BufTy).Contents (Elt F)),
    binary main_v227 main_v229 main_v230 (addf : (⟨S64x64, .f32⟩ : BufTy).Contents (Elt F) → (⟨S64x64, .f32⟩ : BufTy).Contents (Elt F) → (⟨S64x64, .f32⟩ : BufTy).Contents (Elt F)),
    nullary main_cst_66 (constant S_ .f32 0x00000000#32),
    unary main_cst_66 main_v231 (broadcastInDim S64x64 ![] bcast_S_S64x64 : (⟨S_, .f32⟩ : BufTy).Contents (Elt F) → (⟨S64x64, .f32⟩ : BufTy).Contents (Elt F)) ]

set_option maxRecDepth 8192 in
set_option maxHeartbeats 4000000 in
/-- The window is the line of its operations. -/
theorem main_part4_eq (c : Dev nD) : main_part4 (F := F) c = seq rops4 := rfl

set_option maxRecDepth 8192 in
/-- Every buffer an operation of the window touches is a TensorCore reference. -/
theorem rops4_sub : (rops4 : List (HloOp τ sig (Elt F))).Forall fun op => op.bufs ⊆ tcRefs τ sig :=
  ⟨unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub ..⟩

set_option maxRecDepth 8192 in
/-- Every operation of the window determines its result. -/
theorem rops4_fresh : ∀ op ∈ (rops4 : List (HloOp τ sig (Elt F))), op.fresh = ∅ :=
  List.forall_iff_forall_mem.mp (show (rops4 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops4_W : List (Ref sig .tc) := [main_v182, main_v183, main_cst_57, main_v184, main_cst_58, main_v185, main_cst_59, main_v186, main_cst_60, main_v187, main_v188, main_v189, main_cst_61, main_v190, main_v191, main_v192, main_v193, main_v194, main_v195, main_v196, main_v197, main_v198, main_v199, main_v200, main_v201, main_v202, main_v203, main_v204, main_cst_62, main_v205, main_v206, main_v207, main_v208, main_v209, main_v210, main_v211, main_cst_63, main_v212, main_v213, main_v214, main_v215, main_v216, main_v217, main_v218, main_v219, main_cst_64, main_v220, main_v221, main_cst_65, main_v222, main_v223, main_v224, main_v225, main_v226, main_v227, main_v228, main_v229, main_v230, main_cst_66, main_v231]

set_option maxRecDepth 8192 in
/-- Each operation of the window writes its own entry of `rops4_W` and nothing else. -/
theorem rops4_writes : (rops4 : List (HloOp τ sig (Elt F))).Forall fun op =>
    op.writes ⊆ (rops4_W.map (Proc.devRef (τ := τ) .tc)).toFinset := by
  simp only [List.Forall]
  exact
    ⟨by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide)⟩

/-- A buffer the window does not write keeps its contents through it. -/
theorem rops4_keep (V : Valuation τ sig (Elt F)) {r : Ref sig .tc} (h : r ∉ rops4_W) :
    after rops4 V (Proc.devRef .tc r) = V (Proc.devRef .tc r) :=
  after_of_writes_sub rops4 V rops4_writes h

set_option maxRecDepth 8192 in
/-- The window writes none of @main's eleven arguments. -/
theorem rops4_W_args : ∀ r ∈ ([main_arg0, main_arg1, main_arg2, main_arg3, main_arg4, main_arg5, main_arg6, main_arg7, main_arg8, main_arg9, main_arg10] : List (Ref sig .tc)), r ∉ rops4_W := by decide

end Cert.ReferenceIdeal.Hand

end
-- ==== Proof.Ref.Ops05.lean ====
/-
  Window 5 of the reference program's @main: its statements are the operations 301 … 360 of the
  program's 997 host operations (a call of a module-local function is its callee's operations, in the call's place).

  A host program is a straight line of operations, each writing one result buffer from the contents of its operand
  buffers. The window IS the line of its operations (`main_part5_eq`: the two sides unfold to the same sequence of
  steps). Of each operation the run of the whole program asks three things, each read off the operation's builder:
  every buffer it touches is one of the TensorCore's references (`rops5_sub`); it determines its result, leaving no
  buffer at contents not chosen (`rops5_fresh`); and the one buffer it writes is in the list `rops5_W`
  (`rops5_writes`) — so a buffer not in that list keeps its contents through the window (`rops5_keep`), and no argument
  of @main is in it (`rops5_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 5's operations, in order: @main's operations 301 … 360 of 997. -/
abbrev rops5 : List (HloOp τ sig (Elt F)) :=
  [ binary main_v230 main_v231 main_v232 (maximumf : (⟨S64x64, .f32⟩ : BufTy).Contents (Elt F) → (⟨S64x64, .f32⟩ : BufTy).Contents (Elt F) → (⟨S64x64, .f32⟩ : BufTy).Contents (Elt F)),
    nullary main_cst_67 (constant S_ .f32 0x322BCC77#32),
    unary main_cst_67 main_v233 (broadcastInDim S64x64 ![] bcast_S_S64x64 : (⟨S_, .f32⟩ : BufTy).Contents (Elt F) → (⟨S64x64, .f32⟩ : BufTy).Contents (Elt F)),
    binary main_v232 main_v233 main_v234 (addf : (⟨S64x64, .f32⟩ : BufTy).Contents (Elt F) → (⟨S64x64, .f32⟩ : BufTy).Contents (Elt F) → (⟨S64x64, .f32⟩ : BufTy).Contents (Elt F)),
    unary main_v234 main_v235 (Host.sqrt : (⟨S64x64, .f32⟩ : BufTy).Contents (Elt F) → (⟨S64x64, .f32⟩ : BufTy).Contents (Elt F)),
    nullary main_cst_68 (constant S_ .f32 0x00000000#32),
    binary main_v224 main_cst_68 main_v236 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v236 main_v237 (broadcastInDim S1x64 ![1] bcast_S64_S1x64_1 : (⟨S64, .f32⟩ : BufTy).Contents (Elt F) → (⟨S1x64, .f32⟩ : BufTy).Contents (Elt F)),
    nullary main_cst_69 (constant S_ .f32 0x42800000#32),
    unary main_cst_69 main_v238 (broadcastInDim S1x64 ![] bcast_S_S1x64 : (⟨S_, .f32⟩ : BufTy).Contents (Elt F) → (⟨S1x64, .f32⟩ : BufTy).Contents (Elt F)),
    binary main_v237 main_v238 main_v239 (Host.divf : (⟨S1x64, .f32⟩ : BufTy).Contents (Elt F) → (⟨S1x64, .f32⟩ : BufTy).Contents (Elt F) → (⟨S1x64, .f32⟩ : BufTy).Contents (Elt F)),
    unary main_v239 main_v240 (broadcastInDim S64x64 ![0, 1] bcast_S1x64_S64x64_0_1 : (⟨S1x64, .f32⟩ : BufTy).Contents (Elt F) → (⟨S64x64, .f32⟩ : BufTy).Contents (Elt F)),
    binary main_v224 main_v240 main_v241 (subf : (⟨S64x64, .f32⟩ : BufTy).Contents (Elt F) → (⟨S64x64, .f32⟩ : BufTy).Contents (Elt F) → (⟨S64x64, .f32⟩ : BufTy).Contents (Elt F)),
    nullary main_cst_70 (constant S_ .f32 0x00000000#32),
    binary main_v224 main_cst_70 main_v242 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v242 main_v243 (broadcastInDim S64x1 ![0] bcast_S64_S64x1_0 : (⟨S64, .f32⟩ : BufTy).Contents (Elt F) → (⟨S64x1, .f32⟩ : BufTy).Contents (Elt F)),
    nullary main_cst_71 (constant S_ .f32 0x42800000#32),
    unary main_cst_71 main_v244 (broadcastInDim S64x1 ![] bcast_S_S64x1 : (⟨S_, .f32⟩ : BufTy).Contents (Elt F) → (⟨S64x1, .f32⟩ : BufTy).Contents (Elt F)),
    binary main_v243 main_v244 main_v245 (Host.divf : (⟨S64x1, .f32⟩ : BufTy).Contents (Elt F) → (⟨S64x1, .f32⟩ : BufTy).Contents (Elt F) → (⟨S64x1, .f32⟩ : BufTy).Contents (Elt F)),
    unary main_v245 main_v246 (broadcastInDim S64x64 ![0, 1] bcast_S64x1_S64x64_0_1 : (⟨S64x1, .f32⟩ : BufTy).Contents (Elt F) → (⟨S64x64, .f32⟩ : BufTy).Contents (Elt F)),
    binary main_v241 main_v246 main_v247 (subf : (⟨S64x64, .f32⟩ : BufTy).Contents (Elt F) → (⟨S64x64, .f32⟩ : BufTy).Contents (Elt F) → (⟨S64x64, .f32⟩ : BufTy).Contents (Elt F)),
    nullary main_cst_72 (constant S_ .f32 0x00000000#32),
    binary main_v224 main_cst_72 main_v248 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_73 (constant S_ .f32 0x45800000#32),
    binary main_v248 main_cst_73 main_v249 (Host.divf : (⟨S_, .f32⟩ : BufTy).Contents (Elt F) → (⟨S_, .f32⟩ : BufTy).Contents (Elt F) → (⟨S_, .f32⟩ : BufTy).Contents (Elt F)),
    unary main_v249 main_v250 (broadcastInDim S64x64 ![] bcast_S_S64x64 : (⟨S_, .f32⟩ : BufTy).Contents (Elt F) → (⟨S64x64, .f32⟩ : BufTy).Contents (Elt F)),
    binary main_v247 main_v250 main_v251 (addf : (⟨S64x64, .f32⟩ : BufTy).Contents (Elt F) → (⟨S64x64, .f32⟩ : BufTy).Contents (Elt F) → (⟨S64x64, .f32⟩ : BufTy).Contents (Elt F)),
    nullary main_cst_74 (constant S_ .f32 0x00000000#32),
    binary main_v235 main_cst_74 main_v252 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v252 main_v253 (broadcastInDim S1x64 ![1] bcast_S64_S1x64_1 : (⟨S64, .f32⟩ : BufTy).Contents (Elt F) → (⟨S1x64, .f32⟩ : BufTy).Contents (Elt F)),
    nullary main_cst_75 (constant S_ .f32 0x42800000#32),
    unary main_cst_75 main_v254 (broadcastInDim S1x64 ![] bcast_S_S1x64 : (⟨S_, .f32⟩ : BufTy).Contents (Elt F) → (⟨S1x64, .f32⟩ : BufTy).Contents (Elt F)),
    binary main_v253 main_v254 main_v255 (Host.divf : (⟨S1x64, .f32⟩ : BufTy).Contents (Elt F) → (⟨S1x64, .f32⟩ : BufTy).Contents (Elt F) → (⟨S1x64, .f32⟩ : BufTy).Contents (Elt F)),
    unary main_v255 main_v256 (broadcastInDim S64x64 ![0, 1] bcast_S1x64_S64x64_0_1 : (⟨S1x64, .f32⟩ : BufTy).Contents (Elt F) → (⟨S64x64, .f32⟩ : BufTy).Contents (Elt F)),
    binary main_v235 main_v256 main_v257 (subf : (⟨S64x64, .f32⟩ : BufTy).Contents (Elt F) → (⟨S64x64, .f32⟩ : BufTy).Contents (Elt F) → (⟨S64x64, .f32⟩ : BufTy).Contents (Elt F)),
    nullary main_cst_76 (constant S_ .f32 0x00000000#32),
    binary main_v235 main_cst_76 main_v258 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v258 main_v259 (broadcastInDim S64x1 ![0] bcast_S64_S64x1_0 : (⟨S64, .f32⟩ : BufTy).Contents (Elt F) → (⟨S64x1, .f32⟩ : BufTy).Contents (Elt F)),
    nullary main_cst_77 (constant S_ .f32 0x42800000#32),
    unary main_cst_77 main_v260 (broadcastInDim S64x1 ![] bcast_S_S64x1 : (⟨S_, .f32⟩ : BufTy).Contents (Elt F) → (⟨S64x1, .f32⟩ : BufTy).Contents (Elt F)),
    binary main_v259 main_v260 main_v261 (Host.divf : (⟨S64x1, .f32⟩ : BufTy).Contents (Elt F) → (⟨S64x1, .f32⟩ : BufTy).Contents (Elt F) → (⟨S64x1, .f32⟩ : BufTy).Contents (Elt F)),
    unary main_v261 main_v262 (broadcastInDim S64x64 ![0, 1] bcast_S64x1_S64x64_0_1 : (⟨S64x1, .f32⟩ : BufTy).Contents (Elt F) → (⟨S64x64, .f32⟩ : BufTy).Contents (Elt F)),
    binary main_v257 main_v262 main_v263 (subf : (⟨S64x64, .f32⟩ : BufTy).Contents (Elt F) → (⟨S64x64, .f32⟩ : BufTy).Contents (Elt F) → (⟨S64x64, .f32⟩ : BufTy).Contents (Elt F)),
    nullary main_cst_78 (constant S_ .f32 0x00000000#32),
    binary main_v235 main_cst_78 main_v264 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_79 (constant S_ .f32 0x45800000#32),
    binary main_v264 main_cst_79 main_v265 (Host.divf : (⟨S_, .f32⟩ : BufTy).Contents (Elt F) → (⟨S_, .f32⟩ : BufTy).Contents (Elt F) → (⟨S_, .f32⟩ : BufTy).Contents (Elt F)),
    unary main_v265 main_v266 (broadcastInDim S64x64 ![] bcast_S_S64x64 : (⟨S_, .f32⟩ : BufTy).Contents (Elt F) → (⟨S64x64, .f32⟩ : BufTy).Contents (Elt F)),
    binary main_v263 main_v266 main_v267 (addf : (⟨S64x64, .f32⟩ : BufTy).Contents (Elt F) → (⟨S64x64, .f32⟩ : BufTy).Contents (Elt F) → (⟨S64x64, .f32⟩ : BufTy).Contents (Elt F)),
    binary main_v251 main_v267 main_v268 (mulf : (⟨S64x64, .f32⟩ : BufTy).Contents (Elt F) → (⟨S64x64, .f32⟩ : BufTy).Contents (Elt F) → (⟨S64x64, .f32⟩ : BufTy).Contents (Elt F)),
    nullary main_cst_80 (constant S_ .f32 0x00000000#32),
    binary main_v268 main_cst_80 main_v269 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_81 (constant S_ .f32 0x39800000#32),
    binary main_v269 main_cst_81 main_v270 (mulf : (⟨S_, .f32⟩ : BufTy).Contents (Elt F) → (⟨S_, .f32⟩ : BufTy).Contents (Elt F) → (⟨S_, .f32⟩ : BufTy).Contents (Elt F)),
    nullary main_cst_82 (constant S_ .f32 0x00000000#32),
    binary main_v270 main_cst_82 main_v271 (maximumf : (⟨S_, .f32⟩ : BufTy).Contents (Elt F) → (⟨S_, .f32⟩ : BufTy).Contents (Elt F) → (⟨S_, .f32⟩ : BufTy).Contents (Elt F)),
    nullary main_cst_83 (constant S_ .f32 0x322BCC77#32),
    binary main_v271 main_cst_83 main_v272 (addf : (⟨S_, .f32⟩ : BufTy).Contents (Elt F) → (⟨S_, .f32⟩ : BufTy).Contents (Elt F) → (⟨S_, .f32⟩ : BufTy).Contents (Elt F)),
    unary main_v272 main_v273 (Host.sqrt : (⟨S_, .f32⟩ : BufTy).Contents (Elt F) → (⟨S_, .f32⟩ : BufTy).Contents (Elt F)),
    binary main_v251 main_v251 main_v274 (mulf : (⟨S64x64, .f32⟩ : BufTy).Contents (Elt F) → (⟨S64x64, .f32⟩ : BufTy).Contents (Elt F) → (⟨S64x64, .f32⟩ : BufTy).Contents (Elt F)) ]

set_option maxRecDepth 8192 in
set_option maxHeartbeats 4000000 in
/-- The window is the line of its operations. -/
theorem main_part5_eq (c : Dev nD) : main_part5 (F := F) c = seq rops5 := rfl

set_option maxRecDepth 8192 in
/-- Every buffer an operation of the window touches is a TensorCore reference. -/
theorem rops5_sub : (rops5 : List (HloOp τ sig (Elt F))).Forall fun op => op.bufs ⊆ tcRefs τ sig :=
  ⟨binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub ..⟩

set_option maxRecDepth 8192 in
/-- Every operation of the window determines its result. -/
theorem rops5_fresh : ∀ op ∈ (rops5 : List (HloOp τ sig (Elt F))), op.fresh = ∅ :=
  List.forall_iff_forall_mem.mp (show (rops5 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops5_W : List (Ref sig .tc) := [main_v232, main_cst_67, main_v233, main_v234, main_v235, main_cst_68, main_v236, main_v237, main_cst_69, main_v238, main_v239, main_v240, main_v241, main_cst_70, main_v242, main_v243, main_cst_71, main_v244, main_v245, main_v246, main_v247, main_cst_72, main_v248, main_cst_73, main_v249, main_v250, main_v251, main_cst_74, main_v252, main_v253, main_cst_75, main_v254, main_v255, main_v256, main_v257, main_cst_76, main_v258, main_v259, main_cst_77, main_v260, main_v261, main_v262, main_v263, main_cst_78, main_v264, main_cst_79, main_v265, main_v266, main_v267, main_v268, main_cst_80, main_v269, main_cst_81, main_v270, main_cst_82, main_v271, main_cst_83, main_v272, main_v273, main_v274]

set_option maxRecDepth 8192 in
/-- Each operation of the window writes its own entry of `rops5_W` and nothing else. -/
theorem rops5_writes : (rops5 : List (HloOp τ sig (Elt F))).Forall fun op =>
    op.writes ⊆ (rops5_W.map (Proc.devRef (τ := τ) .tc)).toFinset := by
  simp only [List.Forall]
  exact
    ⟨by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide)⟩

/-- A buffer the window does not write keeps its contents through it. -/
theorem rops5_keep (V : Valuation τ sig (Elt F)) {r : Ref sig .tc} (h : r ∉ rops5_W) :
    after rops5 V (Proc.devRef .tc r) = V (Proc.devRef .tc r) :=
  after_of_writes_sub rops5 V rops5_writes h

set_option maxRecDepth 8192 in
/-- The window writes none of @main's eleven arguments. -/
theorem rops5_W_args : ∀ r ∈ ([main_arg0, main_arg1, main_arg2, main_arg3, main_arg4, main_arg5, main_arg6, main_arg7, main_arg8, main_arg9, main_arg10] : List (Ref sig .tc)), r ∉ rops5_W := by decide

end Cert.ReferenceIdeal.Hand

end
-- ==== Proof.Ref.Ops06.lean ====
/-
  Window 6 of the reference program's @main: its statements are the operations 361 … 420 of the
  program's 997 host operations (a call of a module-local function is its callee's operations, in the call's place).

  A host program is a straight line of operations, each writing one result buffer from the contents of its operand
  buffers. The window IS the line of its operations (`main_part6_eq`: the two sides unfold to the same sequence of
  steps). Of each operation the run of the whole program asks three things, each read off the operation's builder:
  every buffer it touches is one of the TensorCore's references (`rops6_sub`); it determines its result, leaving no
  buffer at contents not chosen (`rops6_fresh`); and the one buffer it writes is in the list `rops6_W`
  (`rops6_writes`) — so a buffer not in that list keeps its contents through the window (`rops6_keep`), and no argument
  of @main is in it (`rops6_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 6's operations, in order: @main's operations 361 … 420 of 997. -/
abbrev rops6 : List (HloOp τ sig (Elt F)) :=
  [ nullary main_cst_84 (constant S_ .f32 0x00000000#32),
    binary main_v274 main_cst_84 main_v275 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_85 (constant S_ .f32 0x39800000#32),
    binary main_v275 main_cst_85 main_v276 (mulf : (⟨S_, .f32⟩ : BufTy).Contents (Elt F) → (⟨S_, .f32⟩ : BufTy).Contents (Elt F) → (⟨S_, .f32⟩ : BufTy).Contents (Elt F)),
    nullary main_cst_86 (constant S_ .f32 0x00000000#32),
    binary main_v276 main_cst_86 main_v277 (maximumf : (⟨S_, .f32⟩ : BufTy).Contents (Elt F) → (⟨S_, .f32⟩ : BufTy).Contents (Elt F) → (⟨S_, .f32⟩ : BufTy).Contents (Elt F)),
    nullary main_cst_87 (constant S_ .f32 0x322BCC77#32),
    binary main_v277 main_cst_87 main_v278 (addf : (⟨S_, .f32⟩ : BufTy).Contents (Elt F) → (⟨S_, .f32⟩ : BufTy).Contents (Elt F) → (⟨S_, .f32⟩ : BufTy).Contents (Elt F)),
    unary main_v278 main_v279 (Host.sqrt : (⟨S_, .f32⟩ : BufTy).Contents (Elt F) → (⟨S_, .f32⟩ : BufTy).Contents (Elt F)),
    binary main_v267 main_v267 main_v280 (mulf : (⟨S64x64, .f32⟩ : BufTy).Contents (Elt F) → (⟨S64x64, .f32⟩ : BufTy).Contents (Elt F) → (⟨S64x64, .f32⟩ : BufTy).Contents (Elt F)),
    nullary main_cst_88 (constant S_ .f32 0x00000000#32),
    binary main_v280 main_cst_88 main_v281 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_89 (constant S_ .f32 0x39800000#32),
    binary main_v281 main_cst_89 main_v282 (mulf : (⟨S_, .f32⟩ : BufTy).Contents (Elt F) → (⟨S_, .f32⟩ : BufTy).Contents (Elt F) → (⟨S_, .f32⟩ : BufTy).Contents (Elt F)),
    nullary main_cst_90 (constant S_ .f32 0x00000000#32),
    binary main_v282 main_cst_90 main_v283 (maximumf : (⟨S_, .f32⟩ : BufTy).Contents (Elt F) → (⟨S_, .f32⟩ : BufTy).Contents (Elt F) → (⟨S_, .f32⟩ : BufTy).Contents (Elt F)),
    nullary main_cst_91 (constant S_ .f32 0x322BCC77#32),
    binary main_v283 main_cst_91 main_v284 (addf : (⟨S_, .f32⟩ : BufTy).Contents (Elt F) → (⟨S_, .f32⟩ : BufTy).Contents (Elt F) → (⟨S_, .f32⟩ : BufTy).Contents (Elt F)),
    unary main_v284 main_v285 (Host.sqrt : (⟨S_, .f32⟩ : BufTy).Contents (Elt F) → (⟨S_, .f32⟩ : BufTy).Contents (Elt F)),
    binary main_v279 main_v285 main_v286 (mulf : (⟨S_, .f32⟩ : BufTy).Contents (Elt F) → (⟨S_, .f32⟩ : BufTy).Contents (Elt F) → (⟨S_, .f32⟩ : BufTy).Contents (Elt F)),
    nullary main_cst_92 (constant S_ .f32 0x322BCC77#32),
    binary main_v286 main_cst_92 main_v287 (addf : (⟨S_, .f32⟩ : BufTy).Contents (Elt F) → (⟨S_, .f32⟩ : BufTy).Contents (Elt F) → (⟨S_, .f32⟩ : BufTy).Contents (Elt F)),
    unary main_v287 main_v288 (Host.sqrt : (⟨S_, .f32⟩ : BufTy).Contents (Elt F) → (⟨S_, .f32⟩ : BufTy).Contents (Elt F)),
    binary main_v273 main_v288 main_v289 (Host.divf : (⟨S_, .f32⟩ : BufTy).Contents (Elt F) → (⟨S_, .f32⟩ : BufTy).Contents (Elt F) → (⟨S_, .f32⟩ : BufTy).Contents (Elt F)),
    binary main_v193 main_v289 main_v290 (addf : (⟨S_, .f32⟩ : BufTy).Contents (Elt F) → (⟨S_, .f32⟩ : BufTy).Contents (Elt F) → (⟨S_, .f32⟩ : BufTy).Contents (Elt F)),
    unary main_arg2 main_v291 ((extractStridedSlice S1x64 ![1, 0] · slices_S4x64_S1x64_1_0) : (⟨S4x64, .f32⟩ : BufTy).Contents (Elt F) → (⟨S1x64, .f32⟩ : BufTy).Contents (Elt F)),
    reshape main_v291 main_v292 rfl shapeCasts_S1x64_S64,
    unary main_arg2 main_v293 ((extractStridedSlice S1x64 ![2, 0] · slices_S4x64_S1x64_2_0) : (⟨S4x64, .f32⟩ : BufTy).Contents (Elt F) → (⟨S1x64, .f32⟩ : BufTy).Contents (Elt F)),
    reshape main_v293 main_v294 rfl shapeCasts_S1x64_S64,
    binary main_v292 main_v292 main_v295 (mulf : (⟨S64, .f32⟩ : BufTy).Contents (Elt F) → (⟨S64, .f32⟩ : BufTy).Contents (Elt F) → (⟨S64, .f32⟩ : BufTy).Contents (Elt F)),
    binary main_v294 main_v294 main_v296 (mulf : (⟨S64, .f32⟩ : BufTy).Contents (Elt F) → (⟨S64, .f32⟩ : BufTy).Contents (Elt F) → (⟨S64, .f32⟩ : BufTy).Contents (Elt F)),
    unary main_v292 main_v297 (broadcastInDim S64x1 ![0] bcast_S64_S64x1_0 : (⟨S64, .f32⟩ : BufTy).Contents (Elt F) → (⟨S64x1, .f32⟩ : BufTy).Contents (Elt F)),
    unary main_v292 main_v298 (broadcastInDim S1x64 ![1] bcast_S64_S1x64_1 : (⟨S64, .f32⟩ : BufTy).Contents (Elt F) → (⟨S1x64, .f32⟩ : BufTy).Contents (Elt F)),
    unary main_v297 main_v299 (broadcastInDim S64x64 ![0, 1] bcast_S64x1_S64x64_0_1 : (⟨S64x1, .f32⟩ : BufTy).Contents (Elt F) → (⟨S64x64, .f32⟩ : BufTy).Contents (Elt F)),
    unary main_v298 main_v300 (broadcastInDim S64x64 ![0, 1] bcast_S1x64_S64x64_0_1 : (⟨S1x64, .f32⟩ : BufTy).Contents (Elt F) → (⟨S64x64, .f32⟩ : BufTy).Contents (Elt F)),
    binary main_v299 main_v300 main_v301 (mulf : (⟨S64x64, .f32⟩ : BufTy).Contents (Elt F) → (⟨S64x64, .f32⟩ : BufTy).Contents (Elt F) → (⟨S64x64, .f32⟩ : BufTy).Contents (Elt F)),
    nullary main_cst_93 (constant S_ .f32 0x40000000#32),
    unary main_cst_93 main_v302 (broadcastInDim S64x64 ![] bcast_S_S64x64 : (⟨S_, .f32⟩ : BufTy).Contents (Elt F) → (⟨S64x64, .f32⟩ : BufTy).Contents (Elt F)),
    binary main_v302 main_v301 main_v303 (mulf : (⟨S64x64, .f32⟩ : BufTy).Contents (Elt F) → (⟨S64x64, .f32⟩ : BufTy).Contents (Elt F) → (⟨S64x64, .f32⟩ : BufTy).Contents (Elt F)),
    unary main_v294 main_v304 (broadcastInDim S64x1 ![0] bcast_S64_S64x1_0 : (⟨S64, .f32⟩ : BufTy).Contents (Elt F) → (⟨S64x1, .f32⟩ : BufTy).Contents (Elt F)),
    unary main_v294 main_v305 (broadcastInDim S1x64 ![1] bcast_S64_S1x64_1 : (⟨S64, .f32⟩ : BufTy).Contents (Elt F) → (⟨S1x64, .f32⟩ : BufTy).Contents (Elt F)),
    unary main_v304 main_v306 (broadcastInDim S64x64 ![0, 1] bcast_S64x1_S64x64_0_1 : (⟨S64x1, .f32⟩ : BufTy).Contents (Elt F) → (⟨S64x64, .f32⟩ : BufTy).Contents (Elt F)),
    unary main_v305 main_v307 (broadcastInDim S64x64 ![0, 1] bcast_S1x64_S64x64_0_1 : (⟨S1x64, .f32⟩ : BufTy).Contents (Elt F) → (⟨S64x64, .f32⟩ : BufTy).Contents (Elt F)),
    binary main_v306 main_v307 main_v308 (mulf : (⟨S64x64, .f32⟩ : BufTy).Contents (Elt F) → (⟨S64x64, .f32⟩ : BufTy).Contents (Elt F) → (⟨S64x64, .f32⟩ : BufTy).Contents (Elt F)),
    nullary main_cst_94 (constant S_ .f32 0x40000000#32),
    unary main_cst_94 main_v309 (broadcastInDim S64x64 ![] bcast_S_S64x64 : (⟨S_, .f32⟩ : BufTy).Contents (Elt F) → (⟨S64x64, .f32⟩ : BufTy).Contents (Elt F)),
    binary main_v309 main_v308 main_v310 (mulf : (⟨S64x64, .f32⟩ : BufTy).Contents (Elt F) → (⟨S64x64, .f32⟩ : BufTy).Contents (Elt F) → (⟨S64x64, .f32⟩ : BufTy).Contents (Elt F)),
    unary main_v295 main_v311 (broadcastInDim S64x1 ![0] bcast_S64_S64x1_0 : (⟨S64, .f32⟩ : BufTy).Contents (Elt F) → (⟨S64x1, .f32⟩ : BufTy).Contents (Elt F)),
    unary main_v311 main_v312 (broadcastInDim S64x64 ![0, 1] bcast_S64x1_S64x64_0_1 : (⟨S64x1, .f32⟩ : BufTy).Contents (Elt F) → (⟨S64x64, .f32⟩ : BufTy).Contents (Elt F)),
    binary main_v312 main_v303 main_v313 (subf : (⟨S64x64, .f32⟩ : BufTy).Contents (Elt F) → (⟨S64x64, .f32⟩ : BufTy).Contents (Elt F) → (⟨S64x64, .f32⟩ : BufTy).Contents (Elt F)),
    unary main_v295 main_v314 (broadcastInDim S1x64 ![1] bcast_S64_S1x64_1 : (⟨S64, .f32⟩ : BufTy).Contents (Elt F) → (⟨S1x64, .f32⟩ : BufTy).Contents (Elt F)),
    unary main_v314 main_v315 (broadcastInDim S64x64 ![0, 1] bcast_S1x64_S64x64_0_1 : (⟨S1x64, .f32⟩ : BufTy).Contents (Elt F) → (⟨S64x64, .f32⟩ : BufTy).Contents (Elt F)),
    binary main_v313 main_v315 main_v316 (addf : (⟨S64x64, .f32⟩ : BufTy).Contents (Elt F) → (⟨S64x64, .f32⟩ : BufTy).Contents (Elt F) → (⟨S64x64, .f32⟩ : BufTy).Contents (Elt F)),
    nullary main_cst_95 (constant S_ .f32 0x00000000#32),
    unary main_cst_95 main_v317 (broadcastInDim S64x64 ![] bcast_S_S64x64 : (⟨S_, .f32⟩ : BufTy).Contents (Elt F) → (⟨S64x64, .f32⟩ : BufTy).Contents (Elt F)),
    binary main_v316 main_v317 main_v318 (maximumf : (⟨S64x64, .f32⟩ : BufTy).Contents (Elt F) → (⟨S64x64, .f32⟩ : BufTy).Contents (Elt F) → (⟨S64x64, .f32⟩ : BufTy).Contents (Elt F)),
    nullary main_cst_96 (constant S_ .f32 0x322BCC77#32),
    unary main_cst_96 main_v319 (broadcastInDim S64x64 ![] bcast_S_S64x64 : (⟨S_, .f32⟩ : BufTy).Contents (Elt F) → (⟨S64x64, .f32⟩ : BufTy).Contents (Elt F)),
    binary main_v318 main_v319 main_v320 (addf : (⟨S64x64, .f32⟩ : BufTy).Contents (Elt F) → (⟨S64x64, .f32⟩ : BufTy).Contents (Elt F) → (⟨S64x64, .f32⟩ : BufTy).Contents (Elt F)),
    unary main_v320 main_v321 (Host.sqrt : (⟨S64x64, .f32⟩ : BufTy).Contents (Elt F) → (⟨S64x64, .f32⟩ : BufTy).Contents (Elt F)) ]

set_option maxRecDepth 8192 in
set_option maxHeartbeats 4000000 in
/-- The window is the line of its operations. -/
theorem main_part6_eq (c : Dev nD) : main_part6 (F := F) c = seq rops6 := rfl

set_option maxRecDepth 8192 in
/-- Every buffer an operation of the window touches is a TensorCore reference. -/
theorem rops6_sub : (rops6 : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub ..⟩

set_option maxRecDepth 8192 in
/-- Every operation of the window determines its result. -/
theorem rops6_fresh : ∀ op ∈ (rops6 : List (HloOp τ sig (Elt F))), op.fresh = ∅ :=
  List.forall_iff_forall_mem.mp (show (rops6 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops6_W : List (Ref sig .tc) := [main_cst_84, main_v275, main_cst_85, main_v276, main_cst_86, main_v277, main_cst_87, main_v278, main_v279, main_v280, main_cst_88, main_v281, main_cst_89, main_v282, main_cst_90, main_v283, main_cst_91, main_v284, main_v285, main_v286, main_cst_92, main_v287, main_v288, main_v289, main_v290, main_v291, main_v292, main_v293, main_v294, main_v295, main_v296, main_v297, main_v298, main_v299, main_v300, main_v301, main_cst_93, main_v302, main_v303, main_v304, main_v305, main_v306, main_v307, main_v308, main_cst_94, main_v309, main_v310, main_v311, main_v312, main_v313, main_v314, main_v315, main_v316, main_cst_95, main_v317, main_v318, main_cst_96, main_v319, main_v320, main_v321]

set_option maxRecDepth 8192 in
/-- Each operation of the window writes its own entry of `rops6_W` and nothing else. -/
theorem rops6_writes : (rops6 : List (HloOp τ sig (Elt F))).Forall fun op =>
    op.writes ⊆ (rops6_W.map (Proc.devRef (τ := τ) .tc)).toFinset := by
  simp only [List.Forall]
  exact
    ⟨by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide)⟩

/-- A buffer the window does not write keeps its contents through it. -/
theorem rops6_keep (V : Valuation τ sig (Elt F)) {r : Ref sig .tc} (h : r ∉ rops6_W) :
    after rops6 V (Proc.devRef .tc r) = V (Proc.devRef .tc r) :=
  after_of_writes_sub rops6 V rops6_writes h

set_option maxRecDepth 8192 in
/-- The window writes none of @main's eleven arguments. -/
theorem rops6_W_args : ∀ r ∈ ([main_arg0, main_arg1, main_arg2, main_arg3, main_arg4, main_arg5, main_arg6, main_arg7, main_arg8, main_arg9, main_arg10] : List (Ref sig .tc)), r ∉ rops6_W := by decide

end Cert.ReferenceIdeal.Hand

end
-- ==== Proof.Ref.Ops07.lean ====
/-
  Window 7 of the reference program's @main: its statements are the operations 421 … 480 of the
  program's 997 host operations (a call of a module-local function is its callee's operations, in the call's place).

  A host program is a straight line of operations, each writing one result buffer from the contents of its operand
  buffers. The window IS the line of its operations (`main_part7_eq`: the two sides unfold to the same sequence of
  steps). Of each operation the run of the whole program asks three things, each read off the operation's builder:
  every buffer it touches is one of the TensorCore's references (`rops7_sub`); it determines its result, leaving no
  buffer at contents not chosen (`rops7_fresh`); and the one buffer it writes is in the list `rops7_W`
  (`rops7_writes`) — so a buffer not in that list keeps its contents through the window (`rops7_keep`), and no argument
  of @main is in it (`rops7_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 7's operations, in order: @main's operations 421 … 480 of 997. -/
abbrev rops7 : List (HloOp τ sig (Elt F)) :=
  [ unary main_v296 main_v322 (broadcastInDim S64x1 ![0] bcast_S64_S64x1_0 : (⟨S64, .f32⟩ : BufTy).Contents (Elt F) → (⟨S64x1, .f32⟩ : BufTy).Contents (Elt F)),
    unary main_v322 main_v323 (broadcastInDim S64x64 ![0, 1] bcast_S64x1_S64x64_0_1 : (⟨S64x1, .f32⟩ : BufTy).Contents (Elt F) → (⟨S64x64, .f32⟩ : BufTy).Contents (Elt F)),
    binary main_v323 main_v310 main_v324 (subf : (⟨S64x64, .f32⟩ : BufTy).Contents (Elt F) → (⟨S64x64, .f32⟩ : BufTy).Contents (Elt F) → (⟨S64x64, .f32⟩ : BufTy).Contents (Elt F)),
    unary main_v296 main_v325 (broadcastInDim S1x64 ![1] bcast_S64_S1x64_1 : (⟨S64, .f32⟩ : BufTy).Contents (Elt F) → (⟨S1x64, .f32⟩ : BufTy).Contents (Elt F)),
    unary main_v325 main_v326 (broadcastInDim S64x64 ![0, 1] bcast_S1x64_S64x64_0_1 : (⟨S1x64, .f32⟩ : BufTy).Contents (Elt F) → (⟨S64x64, .f32⟩ : BufTy).Contents (Elt F)),
    binary main_v324 main_v326 main_v327 (addf : (⟨S64x64, .f32⟩ : BufTy).Contents (Elt F) → (⟨S64x64, .f32⟩ : BufTy).Contents (Elt F) → (⟨S64x64, .f32⟩ : BufTy).Contents (Elt F)),
    nullary main_cst_97 (constant S_ .f32 0x00000000#32),
    unary main_cst_97 main_v328 (broadcastInDim S64x64 ![] bcast_S_S64x64 : (⟨S_, .f32⟩ : BufTy).Contents (Elt F) → (⟨S64x64, .f32⟩ : BufTy).Contents (Elt F)),
    binary main_v327 main_v328 main_v329 (maximumf : (⟨S64x64, .f32⟩ : BufTy).Contents (Elt F) → (⟨S64x64, .f32⟩ : BufTy).Contents (Elt F) → (⟨S64x64, .f32⟩ : BufTy).Contents (Elt F)),
    nullary main_cst_98 (constant S_ .f32 0x322BCC77#32),
    unary main_cst_98 main_v330 (broadcastInDim S64x64 ![] bcast_S_S64x64 : (⟨S_, .f32⟩ : BufTy).Contents (Elt F) → (⟨S64x64, .f32⟩ : BufTy).Contents (Elt F)),
    binary main_v329 main_v330 main_v331 (addf : (⟨S64x64, .f32⟩ : BufTy).Contents (Elt F) → (⟨S64x64, .f32⟩ : BufTy).Contents (Elt F) → (⟨S64x64, .f32⟩ : BufTy).Contents (Elt F)),
    unary main_v331 main_v332 (Host.sqrt : (⟨S64x64, .f32⟩ : BufTy).Contents (Elt F) → (⟨S64x64, .f32⟩ : BufTy).Contents (Elt F)),
    nullary main_cst_99 (constant S_ .f32 0x00000000#32),
    binary main_v321 main_cst_99 main_v333 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v333 main_v334 (broadcastInDim S1x64 ![1] bcast_S64_S1x64_1 : (⟨S64, .f32⟩ : BufTy).Contents (Elt F) → (⟨S1x64, .f32⟩ : BufTy).Contents (Elt F)),
    nullary main_cst_100 (constant S_ .f32 0x42800000#32),
    unary main_cst_100 main_v335 (broadcastInDim S1x64 ![] bcast_S_S1x64 : (⟨S_, .f32⟩ : BufTy).Contents (Elt F) → (⟨S1x64, .f32⟩ : BufTy).Contents (Elt F)),
    binary main_v334 main_v335 main_v336 (Host.divf : (⟨S1x64, .f32⟩ : BufTy).Contents (Elt F) → (⟨S1x64, .f32⟩ : BufTy).Contents (Elt F) → (⟨S1x64, .f32⟩ : BufTy).Contents (Elt F)),
    unary main_v336 main_v337 (broadcastInDim S64x64 ![0, 1] bcast_S1x64_S64x64_0_1 : (⟨S1x64, .f32⟩ : BufTy).Contents (Elt F) → (⟨S64x64, .f32⟩ : BufTy).Contents (Elt F)),
    binary main_v321 main_v337 main_v338 (subf : (⟨S64x64, .f32⟩ : BufTy).Contents (Elt F) → (⟨S64x64, .f32⟩ : BufTy).Contents (Elt F) → (⟨S64x64, .f32⟩ : BufTy).Contents (Elt F)),
    nullary main_cst_101 (constant S_ .f32 0x00000000#32),
    binary main_v321 main_cst_101 main_v339 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v339 main_v340 (broadcastInDim S64x1 ![0] bcast_S64_S64x1_0 : (⟨S64, .f32⟩ : BufTy).Contents (Elt F) → (⟨S64x1, .f32⟩ : BufTy).Contents (Elt F)),
    nullary main_cst_102 (constant S_ .f32 0x42800000#32),
    unary main_cst_102 main_v341 (broadcastInDim S64x1 ![] bcast_S_S64x1 : (⟨S_, .f32⟩ : BufTy).Contents (Elt F) → (⟨S64x1, .f32⟩ : BufTy).Contents (Elt F)),
    binary main_v340 main_v341 main_v342 (Host.divf : (⟨S64x1, .f32⟩ : BufTy).Contents (Elt F) → (⟨S64x1, .f32⟩ : BufTy).Contents (Elt F) → (⟨S64x1, .f32⟩ : BufTy).Contents (Elt F)),
    unary main_v342 main_v343 (broadcastInDim S64x64 ![0, 1] bcast_S64x1_S64x64_0_1 : (⟨S64x1, .f32⟩ : BufTy).Contents (Elt F) → (⟨S64x64, .f32⟩ : BufTy).Contents (Elt F)),
    binary main_v338 main_v343 main_v344 (subf : (⟨S64x64, .f32⟩ : BufTy).Contents (Elt F) → (⟨S64x64, .f32⟩ : BufTy).Contents (Elt F) → (⟨S64x64, .f32⟩ : BufTy).Contents (Elt F)),
    nullary main_cst_103 (constant S_ .f32 0x00000000#32),
    binary main_v321 main_cst_103 main_v345 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_104 (constant S_ .f32 0x45800000#32),
    binary main_v345 main_cst_104 main_v346 (Host.divf : (⟨S_, .f32⟩ : BufTy).Contents (Elt F) → (⟨S_, .f32⟩ : BufTy).Contents (Elt F) → (⟨S_, .f32⟩ : BufTy).Contents (Elt F)),
    unary main_v346 main_v347 (broadcastInDim S64x64 ![] bcast_S_S64x64 : (⟨S_, .f32⟩ : BufTy).Contents (Elt F) → (⟨S64x64, .f32⟩ : BufTy).Contents (Elt F)),
    binary main_v344 main_v347 main_v348 (addf : (⟨S64x64, .f32⟩ : BufTy).Contents (Elt F) → (⟨S64x64, .f32⟩ : BufTy).Contents (Elt F) → (⟨S64x64, .f32⟩ : BufTy).Contents (Elt F)),
    nullary main_cst_105 (constant S_ .f32 0x00000000#32),
    binary main_v332 main_cst_105 main_v349 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v349 main_v350 (broadcastInDim S1x64 ![1] bcast_S64_S1x64_1 : (⟨S64, .f32⟩ : BufTy).Contents (Elt F) → (⟨S1x64, .f32⟩ : BufTy).Contents (Elt F)),
    nullary main_cst_106 (constant S_ .f32 0x42800000#32),
    unary main_cst_106 main_v351 (broadcastInDim S1x64 ![] bcast_S_S1x64 : (⟨S_, .f32⟩ : BufTy).Contents (Elt F) → (⟨S1x64, .f32⟩ : BufTy).Contents (Elt F)),
    binary main_v350 main_v351 main_v352 (Host.divf : (⟨S1x64, .f32⟩ : BufTy).Contents (Elt F) → (⟨S1x64, .f32⟩ : BufTy).Contents (Elt F) → (⟨S1x64, .f32⟩ : BufTy).Contents (Elt F)),
    unary main_v352 main_v353 (broadcastInDim S64x64 ![0, 1] bcast_S1x64_S64x64_0_1 : (⟨S1x64, .f32⟩ : BufTy).Contents (Elt F) → (⟨S64x64, .f32⟩ : BufTy).Contents (Elt F)),
    binary main_v332 main_v353 main_v354 (subf : (⟨S64x64, .f32⟩ : BufTy).Contents (Elt F) → (⟨S64x64, .f32⟩ : BufTy).Contents (Elt F) → (⟨S64x64, .f32⟩ : BufTy).Contents (Elt F)),
    nullary main_cst_107 (constant S_ .f32 0x00000000#32),
    binary main_v332 main_cst_107 main_v355 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v355 main_v356 (broadcastInDim S64x1 ![0] bcast_S64_S64x1_0 : (⟨S64, .f32⟩ : BufTy).Contents (Elt F) → (⟨S64x1, .f32⟩ : BufTy).Contents (Elt F)),
    nullary main_cst_108 (constant S_ .f32 0x42800000#32),
    unary main_cst_108 main_v357 (broadcastInDim S64x1 ![] bcast_S_S64x1 : (⟨S_, .f32⟩ : BufTy).Contents (Elt F) → (⟨S64x1, .f32⟩ : BufTy).Contents (Elt F)),
    binary main_v356 main_v357 main_v358 (Host.divf : (⟨S64x1, .f32⟩ : BufTy).Contents (Elt F) → (⟨S64x1, .f32⟩ : BufTy).Contents (Elt F) → (⟨S64x1, .f32⟩ : BufTy).Contents (Elt F)),
    unary main_v358 main_v359 (broadcastInDim S64x64 ![0, 1] bcast_S64x1_S64x64_0_1 : (⟨S64x1, .f32⟩ : BufTy).Contents (Elt F) → (⟨S64x64, .f32⟩ : BufTy).Contents (Elt F)),
    binary main_v354 main_v359 main_v360 (subf : (⟨S64x64, .f32⟩ : BufTy).Contents (Elt F) → (⟨S64x64, .f32⟩ : BufTy).Contents (Elt F) → (⟨S64x64, .f32⟩ : BufTy).Contents (Elt F)),
    nullary main_cst_109 (constant S_ .f32 0x00000000#32),
    binary main_v332 main_cst_109 main_v361 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_110 (constant S_ .f32 0x45800000#32),
    binary main_v361 main_cst_110 main_v362 (Host.divf : (⟨S_, .f32⟩ : BufTy).Contents (Elt F) → (⟨S_, .f32⟩ : BufTy).Contents (Elt F) → (⟨S_, .f32⟩ : BufTy).Contents (Elt F)),
    unary main_v362 main_v363 (broadcastInDim S64x64 ![] bcast_S_S64x64 : (⟨S_, .f32⟩ : BufTy).Contents (Elt F) → (⟨S64x64, .f32⟩ : BufTy).Contents (Elt F)),
    binary main_v360 main_v363 main_v364 (addf : (⟨S64x64, .f32⟩ : BufTy).Contents (Elt F) → (⟨S64x64, .f32⟩ : BufTy).Contents (Elt F) → (⟨S64x64, .f32⟩ : BufTy).Contents (Elt F)),
    binary main_v348 main_v364 main_v365 (mulf : (⟨S64x64, .f32⟩ : BufTy).Contents (Elt F) → (⟨S64x64, .f32⟩ : BufTy).Contents (Elt F) → (⟨S64x64, .f32⟩ : BufTy).Contents (Elt F)),
    nullary main_cst_111 (constant S_ .f32 0x00000000#32),
    binary main_v365 main_cst_111 main_v366 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The window is the line of its operations. -/
theorem main_part7_eq (c : Dev nD) : main_part7 (F := F) c = seq rops7 := rfl

set_option maxRecDepth 8192 in
/-- Every buffer an operation of the window touches is a TensorCore reference. -/
theorem rops7_sub : (rops7 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub ..⟩

set_option maxRecDepth 8192 in
/-- Every operation of the window determines its result. -/
theorem rops7_fresh : ∀ op ∈ (rops7 : List (HloOp τ sig (Elt F))), op.fresh = ∅ :=
  List.forall_iff_forall_mem.mp (show (rops7 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops7_W : List (Ref sig .tc) := [main_v322, main_v323, main_v324, main_v325, main_v326, main_v327, main_cst_97, main_v328, main_v329, main_cst_98, main_v330, main_v331, main_v332, main_cst_99, main_v333, main_v334, main_cst_100, main_v335, main_v336, main_v337, main_v338, main_cst_101, main_v339, main_v340, main_cst_102, main_v341, main_v342, main_v343, main_v344, main_cst_103, main_v345, main_cst_104, main_v346, main_v347, main_v348, main_cst_105, main_v349, main_v350, main_cst_106, main_v351, main_v352, main_v353, main_v354, main_cst_107, main_v355, main_v356, main_cst_108, main_v357, main_v358, main_v359, main_v360, main_cst_109, main_v361, main_cst_110, main_v362, main_v363, main_v364, main_v365, main_cst_111, main_v366]

set_option maxRecDepth 8192 in
/-- Each operation of the window writes its own entry of `rops7_W` and nothing else. -/
theorem rops7_writes : (rops7 : List (HloOp τ sig (Elt F))).Forall fun op =>
    op.writes ⊆ (rops7_W.map (Proc.devRef (τ := τ) .tc)).toFinset := by
  simp only [List.Forall]
  exact
    ⟨by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide)⟩

/-- A buffer the window does not write keeps its contents through it. -/
theorem rops7_keep (V : Valuation τ sig (Elt F)) {r : Ref sig .tc} (h : r ∉ rops7_W) :
    after rops7 V (Proc.devRef .tc r) = V (Proc.devRef .tc r) :=
  after_of_writes_sub rops7 V rops7_writes h

set_option maxRecDepth 8192 in
/-- The window writes none of @main's eleven arguments. -/
theorem rops7_W_args : ∀ r ∈ ([main_arg0, main_arg1, main_arg2, main_arg3, main_arg4, main_arg5, main_arg6, main_arg7, main_arg8, main_arg9, main_arg10] : List (Ref sig .tc)), r ∉ rops7_W := by decide

end Cert.ReferenceIdeal.Hand

end
-- ==== Proof.Ref.Ops08.lean ====
/-
  Window 8 of the reference program's @main: its statements are the operations 481 … 540 of the
  program's 997 host operations (a call of a module-local function is its callee's operations, in the call's place).

  A host program is a straight line of operations, each writing one result buffer from the contents of its operand
  buffers. The window IS the line of its operations (`main_part8_eq`: the two sides unfold to the same sequence of
  steps). Of each operation the run of the whole program asks three things, each read off the operation's builder:
  every buffer it touches is one of the TensorCore's references (`rops8_sub`); it determines its result, leaving no
  buffer at contents not chosen (`rops8_fresh`); and the one buffer it writes is in the list `rops8_W`
  (`rops8_writes`) — so a buffer not in that list keeps its contents through the window (`rops8_keep`), and no argument
  of @main is in it (`rops8_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 8's operations, in order: @main's operations 481 … 540 of 997. -/
abbrev rops8 : List (HloOp τ sig (Elt F)) :=
  [ nullary main_cst_112 (constant S_ .f32 0x39800000#32),
    binary main_v366 main_cst_112 main_v367 (mulf : (⟨S_, .f32⟩ : BufTy).Contents (Elt F) → (⟨S_, .f32⟩ : BufTy).Contents (Elt F) → (⟨S_, .f32⟩ : BufTy).Contents (Elt F)),
    nullary main_cst_113 (constant S_ .f32 0x00000000#32),
    binary main_v367 main_cst_113 main_v368 (maximumf : (⟨S_, .f32⟩ : BufTy).Contents (Elt F) → (⟨S_, .f32⟩ : BufTy).Contents (Elt F) → (⟨S_, .f32⟩ : BufTy).Contents (Elt F)),
    nullary main_cst_114 (constant S_ .f32 0x322BCC77#32),
    binary main_v368 main_cst_114 main_v369 (addf : (⟨S_, .f32⟩ : BufTy).Contents (Elt F) → (⟨S_, .f32⟩ : BufTy).Contents (Elt F) → (⟨S_, .f32⟩ : BufTy).Contents (Elt F)),
    unary main_v369 main_v370 (Host.sqrt : (⟨S_, .f32⟩ : BufTy).Contents (Elt F) → (⟨S_, .f32⟩ : BufTy).Contents (Elt F)),
    binary main_v348 main_v348 main_v371 (mulf : (⟨S64x64, .f32⟩ : BufTy).Contents (Elt F) → (⟨S64x64, .f32⟩ : BufTy).Contents (Elt F) → (⟨S64x64, .f32⟩ : BufTy).Contents (Elt F)),
    nullary main_cst_115 (constant S_ .f32 0x00000000#32),
    binary main_v371 main_cst_115 main_v372 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_116 (constant S_ .f32 0x39800000#32),
    binary main_v372 main_cst_116 main_v373 (mulf : (⟨S_, .f32⟩ : BufTy).Contents (Elt F) → (⟨S_, .f32⟩ : BufTy).Contents (Elt F) → (⟨S_, .f32⟩ : BufTy).Contents (Elt F)),
    nullary main_cst_117 (constant S_ .f32 0x00000000#32),
    binary main_v373 main_cst_117 main_v374 (maximumf : (⟨S_, .f32⟩ : BufTy).Contents (Elt F) → (⟨S_, .f32⟩ : BufTy).Contents (Elt F) → (⟨S_, .f32⟩ : BufTy).Contents (Elt F)),
    nullary main_cst_118 (constant S_ .f32 0x322BCC77#32),
    binary main_v374 main_cst_118 main_v375 (addf : (⟨S_, .f32⟩ : BufTy).Contents (Elt F) → (⟨S_, .f32⟩ : BufTy).Contents (Elt F) → (⟨S_, .f32⟩ : BufTy).Contents (Elt F)),
    unary main_v375 main_v376 (Host.sqrt : (⟨S_, .f32⟩ : BufTy).Contents (Elt F) → (⟨S_, .f32⟩ : BufTy).Contents (Elt F)),
    binary main_v364 main_v364 main_v377 (mulf : (⟨S64x64, .f32⟩ : BufTy).Contents (Elt F) → (⟨S64x64, .f32⟩ : BufTy).Contents (Elt F) → (⟨S64x64, .f32⟩ : BufTy).Contents (Elt F)),
    nullary main_cst_119 (constant S_ .f32 0x00000000#32),
    binary main_v377 main_cst_119 main_v378 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_120 (constant S_ .f32 0x39800000#32),
    binary main_v378 main_cst_120 main_v379 (mulf : (⟨S_, .f32⟩ : BufTy).Contents (Elt F) → (⟨S_, .f32⟩ : BufTy).Contents (Elt F) → (⟨S_, .f32⟩ : BufTy).Contents (Elt F)),
    nullary main_cst_121 (constant S_ .f32 0x00000000#32),
    binary main_v379 main_cst_121 main_v380 (maximumf : (⟨S_, .f32⟩ : BufTy).Contents (Elt F) → (⟨S_, .f32⟩ : BufTy).Contents (Elt F) → (⟨S_, .f32⟩ : BufTy).Contents (Elt F)),
    nullary main_cst_122 (constant S_ .f32 0x322BCC77#32),
    binary main_v380 main_cst_122 main_v381 (addf : (⟨S_, .f32⟩ : BufTy).Contents (Elt F) → (⟨S_, .f32⟩ : BufTy).Contents (Elt F) → (⟨S_, .f32⟩ : BufTy).Contents (Elt F)),
    unary main_v381 main_v382 (Host.sqrt : (⟨S_, .f32⟩ : BufTy).Contents (Elt F) → (⟨S_, .f32⟩ : BufTy).Contents (Elt F)),
    binary main_v376 main_v382 main_v383 (mulf : (⟨S_, .f32⟩ : BufTy).Contents (Elt F) → (⟨S_, .f32⟩ : BufTy).Contents (Elt F) → (⟨S_, .f32⟩ : BufTy).Contents (Elt F)),
    nullary main_cst_123 (constant S_ .f32 0x322BCC77#32),
    binary main_v383 main_cst_123 main_v384 (addf : (⟨S_, .f32⟩ : BufTy).Contents (Elt F) → (⟨S_, .f32⟩ : BufTy).Contents (Elt F) → (⟨S_, .f32⟩ : BufTy).Contents (Elt F)),
    unary main_v384 main_v385 (Host.sqrt : (⟨S_, .f32⟩ : BufTy).Contents (Elt F) → (⟨S_, .f32⟩ : BufTy).Contents (Elt F)),
    binary main_v370 main_v385 main_v386 (Host.divf : (⟨S_, .f32⟩ : BufTy).Contents (Elt F) → (⟨S_, .f32⟩ : BufTy).Contents (Elt F) → (⟨S_, .f32⟩ : BufTy).Contents (Elt F)),
    binary main_v290 main_v386 main_v387 (addf : (⟨S_, .f32⟩ : BufTy).Contents (Elt F) → (⟨S_, .f32⟩ : BufTy).Contents (Elt F) → (⟨S_, .f32⟩ : BufTy).Contents (Elt F)),
    unary main_arg2 main_v388 ((extractStridedSlice S1x64 ![1, 0] · slices_S4x64_S1x64_1_0) : (⟨S4x64, .f32⟩ : BufTy).Contents (Elt F) → (⟨S1x64, .f32⟩ : BufTy).Contents (Elt F)),
    reshape main_v388 main_v389 rfl shapeCasts_S1x64_S64,
    unary main_arg2 main_v390 ((extractStridedSlice S1x64 ![3, 0] · slices_S4x64_S1x64_3_0) : (⟨S4x64, .f32⟩ : BufTy).Contents (Elt F) → (⟨S1x64, .f32⟩ : BufTy).Contents (Elt F)),
    reshape main_v390 main_v391 rfl shapeCasts_S1x64_S64,
    binary main_v389 main_v389 main_v392 (mulf : (⟨S64, .f32⟩ : BufTy).Contents (Elt F) → (⟨S64, .f32⟩ : BufTy).Contents (Elt F) → (⟨S64, .f32⟩ : BufTy).Contents (Elt F)),
    binary main_v391 main_v391 main_v393 (mulf : (⟨S64, .f32⟩ : BufTy).Contents (Elt F) → (⟨S64, .f32⟩ : BufTy).Contents (Elt F) → (⟨S64, .f32⟩ : BufTy).Contents (Elt F)),
    unary main_v389 main_v394 (broadcastInDim S64x1 ![0] bcast_S64_S64x1_0 : (⟨S64, .f32⟩ : BufTy).Contents (Elt F) → (⟨S64x1, .f32⟩ : BufTy).Contents (Elt F)),
    unary main_v389 main_v395 (broadcastInDim S1x64 ![1] bcast_S64_S1x64_1 : (⟨S64, .f32⟩ : BufTy).Contents (Elt F) → (⟨S1x64, .f32⟩ : BufTy).Contents (Elt F)),
    unary main_v394 main_v396 (broadcastInDim S64x64 ![0, 1] bcast_S64x1_S64x64_0_1 : (⟨S64x1, .f32⟩ : BufTy).Contents (Elt F) → (⟨S64x64, .f32⟩ : BufTy).Contents (Elt F)),
    unary main_v395 main_v397 (broadcastInDim S64x64 ![0, 1] bcast_S1x64_S64x64_0_1 : (⟨S1x64, .f32⟩ : BufTy).Contents (Elt F) → (⟨S64x64, .f32⟩ : BufTy).Contents (Elt F)),
    binary main_v396 main_v397 main_v398 (mulf : (⟨S64x64, .f32⟩ : BufTy).Contents (Elt F) → (⟨S64x64, .f32⟩ : BufTy).Contents (Elt F) → (⟨S64x64, .f32⟩ : BufTy).Contents (Elt F)),
    nullary main_cst_124 (constant S_ .f32 0x40000000#32),
    unary main_cst_124 main_v399 (broadcastInDim S64x64 ![] bcast_S_S64x64 : (⟨S_, .f32⟩ : BufTy).Contents (Elt F) → (⟨S64x64, .f32⟩ : BufTy).Contents (Elt F)),
    binary main_v399 main_v398 main_v400 (mulf : (⟨S64x64, .f32⟩ : BufTy).Contents (Elt F) → (⟨S64x64, .f32⟩ : BufTy).Contents (Elt F) → (⟨S64x64, .f32⟩ : BufTy).Contents (Elt F)),
    unary main_v391 main_v401 (broadcastInDim S64x1 ![0] bcast_S64_S64x1_0 : (⟨S64, .f32⟩ : BufTy).Contents (Elt F) → (⟨S64x1, .f32⟩ : BufTy).Contents (Elt F)),
    unary main_v391 main_v402 (broadcastInDim S1x64 ![1] bcast_S64_S1x64_1 : (⟨S64, .f32⟩ : BufTy).Contents (Elt F) → (⟨S1x64, .f32⟩ : BufTy).Contents (Elt F)),
    unary main_v401 main_v403 (broadcastInDim S64x64 ![0, 1] bcast_S64x1_S64x64_0_1 : (⟨S64x1, .f32⟩ : BufTy).Contents (Elt F) → (⟨S64x64, .f32⟩ : BufTy).Contents (Elt F)),
    unary main_v402 main_v404 (broadcastInDim S64x64 ![0, 1] bcast_S1x64_S64x64_0_1 : (⟨S1x64, .f32⟩ : BufTy).Contents (Elt F) → (⟨S64x64, .f32⟩ : BufTy).Contents (Elt F)),
    binary main_v403 main_v404 main_v405 (mulf : (⟨S64x64, .f32⟩ : BufTy).Contents (Elt F) → (⟨S64x64, .f32⟩ : BufTy).Contents (Elt F) → (⟨S64x64, .f32⟩ : BufTy).Contents (Elt F)),
    nullary main_cst_125 (constant S_ .f32 0x40000000#32),
    unary main_cst_125 main_v406 (broadcastInDim S64x64 ![] bcast_S_S64x64 : (⟨S_, .f32⟩ : BufTy).Contents (Elt F) → (⟨S64x64, .f32⟩ : BufTy).Contents (Elt F)),
    binary main_v406 main_v405 main_v407 (mulf : (⟨S64x64, .f32⟩ : BufTy).Contents (Elt F) → (⟨S64x64, .f32⟩ : BufTy).Contents (Elt F) → (⟨S64x64, .f32⟩ : BufTy).Contents (Elt F)),
    unary main_v392 main_v408 (broadcastInDim S64x1 ![0] bcast_S64_S64x1_0 : (⟨S64, .f32⟩ : BufTy).Contents (Elt F) → (⟨S64x1, .f32⟩ : BufTy).Contents (Elt F)),
    unary main_v408 main_v409 (broadcastInDim S64x64 ![0, 1] bcast_S64x1_S64x64_0_1 : (⟨S64x1, .f32⟩ : BufTy).Contents (Elt F) → (⟨S64x64, .f32⟩ : BufTy).Contents (Elt F)),
    binary main_v409 main_v400 main_v410 (subf : (⟨S64x64, .f32⟩ : BufTy).Contents (Elt F) → (⟨S64x64, .f32⟩ : BufTy).Contents (Elt F) → (⟨S64x64, .f32⟩ : BufTy).Contents (Elt F)),
    unary main_v392 main_v411 (broadcastInDim S1x64 ![1] bcast_S64_S1x64_1 : (⟨S64, .f32⟩ : BufTy).Contents (Elt F) → (⟨S1x64, .f32⟩ : BufTy).Contents (Elt F)),
    unary main_v411 main_v412 (broadcastInDim S64x64 ![0, 1] bcast_S1x64_S64x64_0_1 : (⟨S1x64, .f32⟩ : BufTy).Contents (Elt F) → (⟨S64x64, .f32⟩ : BufTy).Contents (Elt F)) ]

set_option maxRecDepth 8192 in
set_option maxHeartbeats 4000000 in
/-- The window is the line of its operations. -/
theorem main_part8_eq (c : Dev nD) : main_part8 (F := F) c = seq rops8 := rfl

set_option maxRecDepth 8192 in
/-- Every buffer an operation of the window touches is a TensorCore reference. -/
theorem rops8_sub : (rops8 : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

set_option maxRecDepth 8192 in
/-- Every operation of the window determines its result. -/
theorem rops8_fresh : ∀ op ∈ (rops8 : List (HloOp τ sig (Elt F))), op.fresh = ∅ :=
  List.forall_iff_forall_mem.mp (show (rops8 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops8_W : List (Ref sig .tc) := [main_cst_112, main_v367, main_cst_113, main_v368, main_cst_114, main_v369, main_v370, main_v371, main_cst_115, main_v372, main_cst_116, main_v373, main_cst_117, main_v374, main_cst_118, main_v375, main_v376, main_v377, main_cst_119, main_v378, main_cst_120, main_v379, main_cst_121, main_v380, main_cst_122, main_v381, main_v382, main_v383, main_cst_123, main_v384, main_v385, main_v386, main_v387, main_v388, main_v389, main_v390, main_v391, main_v392, main_v393, main_v394, main_v395, main_v396, main_v397, main_v398, main_cst_124, main_v399, main_v400, main_v401, main_v402, main_v403, main_v404, main_v405, main_cst_125, main_v406, main_v407, main_v408, main_v409, main_v410, main_v411, main_v412]

set_option maxRecDepth 8192 in
/-- Each operation of the window writes its own entry of `rops8_W` and nothing else. -/
theorem rops8_writes : (rops8 : List (HloOp τ sig (Elt F))).Forall fun op =>
    op.writes ⊆ (rops8_W.map (Proc.devRef (τ := τ) .tc)).toFinset := by
  simp only [List.Forall]
  exact
    ⟨by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide)⟩

/-- A buffer the window does not write keeps its contents through it. -/
theorem rops8_keep (V : Valuation τ sig (Elt F)) {r : Ref sig .tc} (h : r ∉ rops8_W) :
    after rops8 V (Proc.devRef .tc r) = V (Proc.devRef .tc r) :=
  after_of_writes_sub rops8 V rops8_writes h

set_option maxRecDepth 8192 in
/-- The window writes none of @main's eleven arguments. -/
theorem rops8_W_args : ∀ r ∈ ([main_arg0, main_arg1, main_arg2, main_arg3, main_arg4, main_arg5, main_arg6, main_arg7, main_arg8, main_arg9, main_arg10] : List (Ref sig .tc)), r ∉ rops8_W := by decide

end Cert.ReferenceIdeal.Hand

end
-- ==== Proof.Ref.Ops09.lean ====
/-
  Window 9 of the reference program's @main: its statements are the operations 541 … 600 of the
  program's 997 host operations (a call of a module-local function is its callee's operations, in the call's place).

  A host program is a straight line of operations, each writing one result buffer from the contents of its operand
  buffers. The window IS the line of its operations (`main_part9_eq`: the two sides unfold to the same sequence of
  steps). Of each operation the run of the whole program asks three things, each read off the operation's builder:
  every buffer it touches is one of the TensorCore's references (`rops9_sub`); it determines its result, leaving no
  buffer at contents not chosen (`rops9_fresh`); and the one buffer it writes is in the list `rops9_W`
  (`rops9_writes`) — so a buffer not in that list keeps its contents through the window (`rops9_keep`), and no argument
  of @main is in it (`rops9_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 9's operations, in order: @main's operations 541 … 600 of 997. -/
abbrev rops9 : List (HloOp τ sig (Elt F)) :=
  [ binary main_v410 main_v412 main_v413 (addf : (⟨S64x64, .f32⟩ : BufTy).Contents (Elt F) → (⟨S64x64, .f32⟩ : BufTy).Contents (Elt F) → (⟨S64x64, .f32⟩ : BufTy).Contents (Elt F)),
    nullary main_cst_126 (constant S_ .f32 0x00000000#32),
    unary main_cst_126 main_v414 (broadcastInDim S64x64 ![] bcast_S_S64x64 : (⟨S_, .f32⟩ : BufTy).Contents (Elt F) → (⟨S64x64, .f32⟩ : BufTy).Contents (Elt F)),
    binary main_v413 main_v414 main_v415 (maximumf : (⟨S64x64, .f32⟩ : BufTy).Contents (Elt F) → (⟨S64x64, .f32⟩ : BufTy).Contents (Elt F) → (⟨S64x64, .f32⟩ : BufTy).Contents (Elt F)),
    nullary main_cst_127 (constant S_ .f32 0x322BCC77#32),
    unary main_cst_127 main_v416 (broadcastInDim S64x64 ![] bcast_S_S64x64 : (⟨S_, .f32⟩ : BufTy).Contents (Elt F) → (⟨S64x64, .f32⟩ : BufTy).Contents (Elt F)),
    binary main_v415 main_v416 main_v417 (addf : (⟨S64x64, .f32⟩ : BufTy).Contents (Elt F) → (⟨S64x64, .f32⟩ : BufTy).Contents (Elt F) → (⟨S64x64, .f32⟩ : BufTy).Contents (Elt F)),
    unary main_v417 main_v418 (Host.sqrt : (⟨S64x64, .f32⟩ : BufTy).Contents (Elt F) → (⟨S64x64, .f32⟩ : BufTy).Contents (Elt F)),
    unary main_v393 main_v419 (broadcastInDim S64x1 ![0] bcast_S64_S64x1_0 : (⟨S64, .f32⟩ : BufTy).Contents (Elt F) → (⟨S64x1, .f32⟩ : BufTy).Contents (Elt F)),
    unary main_v419 main_v420 (broadcastInDim S64x64 ![0, 1] bcast_S64x1_S64x64_0_1 : (⟨S64x1, .f32⟩ : BufTy).Contents (Elt F) → (⟨S64x64, .f32⟩ : BufTy).Contents (Elt F)),
    binary main_v420 main_v407 main_v421 (subf : (⟨S64x64, .f32⟩ : BufTy).Contents (Elt F) → (⟨S64x64, .f32⟩ : BufTy).Contents (Elt F) → (⟨S64x64, .f32⟩ : BufTy).Contents (Elt F)),
    unary main_v393 main_v422 (broadcastInDim S1x64 ![1] bcast_S64_S1x64_1 : (⟨S64, .f32⟩ : BufTy).Contents (Elt F) → (⟨S1x64, .f32⟩ : BufTy).Contents (Elt F)),
    unary main_v422 main_v423 (broadcastInDim S64x64 ![0, 1] bcast_S1x64_S64x64_0_1 : (⟨S1x64, .f32⟩ : BufTy).Contents (Elt F) → (⟨S64x64, .f32⟩ : BufTy).Contents (Elt F)),
    binary main_v421 main_v423 main_v424 (addf : (⟨S64x64, .f32⟩ : BufTy).Contents (Elt F) → (⟨S64x64, .f32⟩ : BufTy).Contents (Elt F) → (⟨S64x64, .f32⟩ : BufTy).Contents (Elt F)),
    nullary main_cst_128 (constant S_ .f32 0x00000000#32),
    unary main_cst_128 main_v425 (broadcastInDim S64x64 ![] bcast_S_S64x64 : (⟨S_, .f32⟩ : BufTy).Contents (Elt F) → (⟨S64x64, .f32⟩ : BufTy).Contents (Elt F)),
    binary main_v424 main_v425 main_v426 (maximumf : (⟨S64x64, .f32⟩ : BufTy).Contents (Elt F) → (⟨S64x64, .f32⟩ : BufTy).Contents (Elt F) → (⟨S64x64, .f32⟩ : BufTy).Contents (Elt F)),
    nullary main_cst_129 (constant S_ .f32 0x322BCC77#32),
    unary main_cst_129 main_v427 (broadcastInDim S64x64 ![] bcast_S_S64x64 : (⟨S_, .f32⟩ : BufTy).Contents (Elt F) → (⟨S64x64, .f32⟩ : BufTy).Contents (Elt F)),
    binary main_v426 main_v427 main_v428 (addf : (⟨S64x64, .f32⟩ : BufTy).Contents (Elt F) → (⟨S64x64, .f32⟩ : BufTy).Contents (Elt F) → (⟨S64x64, .f32⟩ : BufTy).Contents (Elt F)),
    unary main_v428 main_v429 (Host.sqrt : (⟨S64x64, .f32⟩ : BufTy).Contents (Elt F) → (⟨S64x64, .f32⟩ : BufTy).Contents (Elt F)),
    nullary main_cst_130 (constant S_ .f32 0x00000000#32),
    binary main_v418 main_cst_130 main_v430 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v430 main_v431 (broadcastInDim S1x64 ![1] bcast_S64_S1x64_1 : (⟨S64, .f32⟩ : BufTy).Contents (Elt F) → (⟨S1x64, .f32⟩ : BufTy).Contents (Elt F)),
    nullary main_cst_131 (constant S_ .f32 0x42800000#32),
    unary main_cst_131 main_v432 (broadcastInDim S1x64 ![] bcast_S_S1x64 : (⟨S_, .f32⟩ : BufTy).Contents (Elt F) → (⟨S1x64, .f32⟩ : BufTy).Contents (Elt F)),
    binary main_v431 main_v432 main_v433 (Host.divf : (⟨S1x64, .f32⟩ : BufTy).Contents (Elt F) → (⟨S1x64, .f32⟩ : BufTy).Contents (Elt F) → (⟨S1x64, .f32⟩ : BufTy).Contents (Elt F)),
    unary main_v433 main_v434 (broadcastInDim S64x64 ![0, 1] bcast_S1x64_S64x64_0_1 : (⟨S1x64, .f32⟩ : BufTy).Contents (Elt F) → (⟨S64x64, .f32⟩ : BufTy).Contents (Elt F)),
    binary main_v418 main_v434 main_v435 (subf : (⟨S64x64, .f32⟩ : BufTy).Contents (Elt F) → (⟨S64x64, .f32⟩ : BufTy).Contents (Elt F) → (⟨S64x64, .f32⟩ : BufTy).Contents (Elt F)),
    nullary main_cst_132 (constant S_ .f32 0x00000000#32),
    binary main_v418 main_cst_132 main_v436 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v436 main_v437 (broadcastInDim S64x1 ![0] bcast_S64_S64x1_0 : (⟨S64, .f32⟩ : BufTy).Contents (Elt F) → (⟨S64x1, .f32⟩ : BufTy).Contents (Elt F)),
    nullary main_cst_133 (constant S_ .f32 0x42800000#32),
    unary main_cst_133 main_v438 (broadcastInDim S64x1 ![] bcast_S_S64x1 : (⟨S_, .f32⟩ : BufTy).Contents (Elt F) → (⟨S64x1, .f32⟩ : BufTy).Contents (Elt F)),
    binary main_v437 main_v438 main_v439 (Host.divf : (⟨S64x1, .f32⟩ : BufTy).Contents (Elt F) → (⟨S64x1, .f32⟩ : BufTy).Contents (Elt F) → (⟨S64x1, .f32⟩ : BufTy).Contents (Elt F)),
    unary main_v439 main_v440 (broadcastInDim S64x64 ![0, 1] bcast_S64x1_S64x64_0_1 : (⟨S64x1, .f32⟩ : BufTy).Contents (Elt F) → (⟨S64x64, .f32⟩ : BufTy).Contents (Elt F)),
    binary main_v435 main_v440 main_v441 (subf : (⟨S64x64, .f32⟩ : BufTy).Contents (Elt F) → (⟨S64x64, .f32⟩ : BufTy).Contents (Elt F) → (⟨S64x64, .f32⟩ : BufTy).Contents (Elt F)),
    nullary main_cst_134 (constant S_ .f32 0x00000000#32),
    binary main_v418 main_cst_134 main_v442 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_135 (constant S_ .f32 0x45800000#32),
    binary main_v442 main_cst_135 main_v443 (Host.divf : (⟨S_, .f32⟩ : BufTy).Contents (Elt F) → (⟨S_, .f32⟩ : BufTy).Contents (Elt F) → (⟨S_, .f32⟩ : BufTy).Contents (Elt F)),
    unary main_v443 main_v444 (broadcastInDim S64x64 ![] bcast_S_S64x64 : (⟨S_, .f32⟩ : BufTy).Contents (Elt F) → (⟨S64x64, .f32⟩ : BufTy).Contents (Elt F)),
    binary main_v441 main_v444 main_v445 (addf : (⟨S64x64, .f32⟩ : BufTy).Contents (Elt F) → (⟨S64x64, .f32⟩ : BufTy).Contents (Elt F) → (⟨S64x64, .f32⟩ : BufTy).Contents (Elt F)),
    nullary main_cst_136 (constant S_ .f32 0x00000000#32),
    binary main_v429 main_cst_136 main_v446 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v446 main_v447 (broadcastInDim S1x64 ![1] bcast_S64_S1x64_1 : (⟨S64, .f32⟩ : BufTy).Contents (Elt F) → (⟨S1x64, .f32⟩ : BufTy).Contents (Elt F)),
    nullary main_cst_137 (constant S_ .f32 0x42800000#32),
    unary main_cst_137 main_v448 (broadcastInDim S1x64 ![] bcast_S_S1x64 : (⟨S_, .f32⟩ : BufTy).Contents (Elt F) → (⟨S1x64, .f32⟩ : BufTy).Contents (Elt F)),
    binary main_v447 main_v448 main_v449 (Host.divf : (⟨S1x64, .f32⟩ : BufTy).Contents (Elt F) → (⟨S1x64, .f32⟩ : BufTy).Contents (Elt F) → (⟨S1x64, .f32⟩ : BufTy).Contents (Elt F)),
    unary main_v449 main_v450 (broadcastInDim S64x64 ![0, 1] bcast_S1x64_S64x64_0_1 : (⟨S1x64, .f32⟩ : BufTy).Contents (Elt F) → (⟨S64x64, .f32⟩ : BufTy).Contents (Elt F)),
    binary main_v429 main_v450 main_v451 (subf : (⟨S64x64, .f32⟩ : BufTy).Contents (Elt F) → (⟨S64x64, .f32⟩ : BufTy).Contents (Elt F) → (⟨S64x64, .f32⟩ : BufTy).Contents (Elt F)),
    nullary main_cst_138 (constant S_ .f32 0x00000000#32),
    binary main_v429 main_cst_138 main_v452 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v452 main_v453 (broadcastInDim S64x1 ![0] bcast_S64_S64x1_0 : (⟨S64, .f32⟩ : BufTy).Contents (Elt F) → (⟨S64x1, .f32⟩ : BufTy).Contents (Elt F)),
    nullary main_cst_139 (constant S_ .f32 0x42800000#32),
    unary main_cst_139 main_v454 (broadcastInDim S64x1 ![] bcast_S_S64x1 : (⟨S_, .f32⟩ : BufTy).Contents (Elt F) → (⟨S64x1, .f32⟩ : BufTy).Contents (Elt F)),
    binary main_v453 main_v454 main_v455 (Host.divf : (⟨S64x1, .f32⟩ : BufTy).Contents (Elt F) → (⟨S64x1, .f32⟩ : BufTy).Contents (Elt F) → (⟨S64x1, .f32⟩ : BufTy).Contents (Elt F)),
    unary main_v455 main_v456 (broadcastInDim S64x64 ![0, 1] bcast_S64x1_S64x64_0_1 : (⟨S64x1, .f32⟩ : BufTy).Contents (Elt F) → (⟨S64x64, .f32⟩ : BufTy).Contents (Elt F)),
    binary main_v451 main_v456 main_v457 (subf : (⟨S64x64, .f32⟩ : BufTy).Contents (Elt F) → (⟨S64x64, .f32⟩ : BufTy).Contents (Elt F) → (⟨S64x64, .f32⟩ : BufTy).Contents (Elt F)),
    nullary main_cst_140 (constant S_ .f32 0x00000000#32) ]

set_option maxRecDepth 8192 in
set_option maxHeartbeats 4000000 in
/-- The window is the line of its operations. -/
theorem main_part9_eq (c : Dev nD) : main_part9 (F := F) c = seq rops9 := rfl

set_option maxRecDepth 8192 in
/-- Every buffer an operation of the window touches is a TensorCore reference. -/
theorem rops9_sub : (rops9 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub ..⟩

set_option maxRecDepth 8192 in
/-- Every operation of the window determines its result. -/
theorem rops9_fresh : ∀ op ∈ (rops9 : List (HloOp τ sig (Elt F))), op.fresh = ∅ :=
  List.forall_iff_forall_mem.mp (show (rops9 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops9_W : List (Ref sig .tc) := [main_v413, main_cst_126, main_v414, main_v415, main_cst_127, main_v416, main_v417, main_v418, main_v419, main_v420, main_v421, main_v422, main_v423, main_v424, main_cst_128, main_v425, main_v426, main_cst_129, main_v427, main_v428, main_v429, main_cst_130, main_v430, main_v431, main_cst_131, main_v432, main_v433, main_v434, main_v435, main_cst_132, main_v436, main_v437, main_cst_133, main_v438, main_v439, main_v440, main_v441, main_cst_134, main_v442, main_cst_135, main_v443, main_v444, main_v445, main_cst_136, main_v446, main_v447, main_cst_137, main_v448, main_v449, main_v450, main_v451, main_cst_138, main_v452, main_v453, main_cst_139, main_v454, main_v455, main_v456, main_v457, main_cst_140]

set_option maxRecDepth 8192 in
/-- Each operation of the window writes its own entry of `rops9_W` and nothing else. -/
theorem rops9_writes : (rops9 : List (HloOp τ sig (Elt F))).Forall fun op =>
    op.writes ⊆ (rops9_W.map (Proc.devRef (τ := τ) .tc)).toFinset := by
  simp only [List.Forall]
  exact
    ⟨by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide)⟩

/-- A buffer the window does not write keeps its contents through it. -/
theorem rops9_keep (V : Valuation τ sig (Elt F)) {r : Ref sig .tc} (h : r ∉ rops9_W) :
    after rops9 V (Proc.devRef .tc r) = V (Proc.devRef .tc r) :=
  after_of_writes_sub rops9 V rops9_writes h

set_option maxRecDepth 8192 in
/-- The window writes none of @main's eleven arguments. -/
theorem rops9_W_args : ∀ r ∈ ([main_arg0, main_arg1, main_arg2, main_arg3, main_arg4, main_arg5, main_arg6, main_arg7, main_arg8, main_arg9, main_arg10] : List (Ref sig .tc)), r ∉ rops9_W := by decide

end Cert.ReferenceIdeal.Hand

end
-- ==== Proof.Ref.Ops10.lean ====
/-
  Window 10 of the reference program's @main: its statements are the operations 601 … 660 of the
  program's 997 host operations (a call of a module-local function is its callee's operations, in the call's place).

  A host program is a straight line of operations, each writing one result buffer from the contents of its operand
  buffers. The window IS the line of its operations (`main_part10_eq`: the two sides unfold to the same sequence of
  steps). Of each operation the run of the whole program asks three things, each read off the operation's builder:
  every buffer it touches is one of the TensorCore's references (`rops10_sub`); it determines its result, leaving no
  buffer at contents not chosen (`rops10_fresh`); and the one buffer it writes is in the list `rops10_W`
  (`rops10_writes`) — so a buffer not in that list keeps its contents through the window (`rops10_keep`), and no argument
  of @main is in it (`rops10_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 10's operations, in order: @main's operations 601 … 660 of 997. -/
abbrev rops10 : List (HloOp τ sig (Elt F)) :=
  [ binary main_v429 main_cst_140 main_v458 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_141 (constant S_ .f32 0x45800000#32),
    binary main_v458 main_cst_141 main_v459 (Host.divf : (⟨S_, .f32⟩ : BufTy).Contents (Elt F) → (⟨S_, .f32⟩ : BufTy).Contents (Elt F) → (⟨S_, .f32⟩ : BufTy).Contents (Elt F)),
    unary main_v459 main_v460 (broadcastInDim S64x64 ![] bcast_S_S64x64 : (⟨S_, .f32⟩ : BufTy).Contents (Elt F) → (⟨S64x64, .f32⟩ : BufTy).Contents (Elt F)),
    binary main_v457 main_v460 main_v461 (addf : (⟨S64x64, .f32⟩ : BufTy).Contents (Elt F) → (⟨S64x64, .f32⟩ : BufTy).Contents (Elt F) → (⟨S64x64, .f32⟩ : BufTy).Contents (Elt F)),
    binary main_v445 main_v461 main_v462 (mulf : (⟨S64x64, .f32⟩ : BufTy).Contents (Elt F) → (⟨S64x64, .f32⟩ : BufTy).Contents (Elt F) → (⟨S64x64, .f32⟩ : BufTy).Contents (Elt F)),
    nullary main_cst_142 (constant S_ .f32 0x00000000#32),
    binary main_v462 main_cst_142 main_v463 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_143 (constant S_ .f32 0x39800000#32),
    binary main_v463 main_cst_143 main_v464 (mulf : (⟨S_, .f32⟩ : BufTy).Contents (Elt F) → (⟨S_, .f32⟩ : BufTy).Contents (Elt F) → (⟨S_, .f32⟩ : BufTy).Contents (Elt F)),
    nullary main_cst_144 (constant S_ .f32 0x00000000#32),
    binary main_v464 main_cst_144 main_v465 (maximumf : (⟨S_, .f32⟩ : BufTy).Contents (Elt F) → (⟨S_, .f32⟩ : BufTy).Contents (Elt F) → (⟨S_, .f32⟩ : BufTy).Contents (Elt F)),
    nullary main_cst_145 (constant S_ .f32 0x322BCC77#32),
    binary main_v465 main_cst_145 main_v466 (addf : (⟨S_, .f32⟩ : BufTy).Contents (Elt F) → (⟨S_, .f32⟩ : BufTy).Contents (Elt F) → (⟨S_, .f32⟩ : BufTy).Contents (Elt F)),
    unary main_v466 main_v467 (Host.sqrt : (⟨S_, .f32⟩ : BufTy).Contents (Elt F) → (⟨S_, .f32⟩ : BufTy).Contents (Elt F)),
    binary main_v445 main_v445 main_v468 (mulf : (⟨S64x64, .f32⟩ : BufTy).Contents (Elt F) → (⟨S64x64, .f32⟩ : BufTy).Contents (Elt F) → (⟨S64x64, .f32⟩ : BufTy).Contents (Elt F)),
    nullary main_cst_146 (constant S_ .f32 0x00000000#32),
    binary main_v468 main_cst_146 main_v469 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_147 (constant S_ .f32 0x39800000#32),
    binary main_v469 main_cst_147 main_v470 (mulf : (⟨S_, .f32⟩ : BufTy).Contents (Elt F) → (⟨S_, .f32⟩ : BufTy).Contents (Elt F) → (⟨S_, .f32⟩ : BufTy).Contents (Elt F)),
    nullary main_cst_148 (constant S_ .f32 0x00000000#32),
    binary main_v470 main_cst_148 main_v471 (maximumf : (⟨S_, .f32⟩ : BufTy).Contents (Elt F) → (⟨S_, .f32⟩ : BufTy).Contents (Elt F) → (⟨S_, .f32⟩ : BufTy).Contents (Elt F)),
    nullary main_cst_149 (constant S_ .f32 0x322BCC77#32),
    binary main_v471 main_cst_149 main_v472 (addf : (⟨S_, .f32⟩ : BufTy).Contents (Elt F) → (⟨S_, .f32⟩ : BufTy).Contents (Elt F) → (⟨S_, .f32⟩ : BufTy).Contents (Elt F)),
    unary main_v472 main_v473 (Host.sqrt : (⟨S_, .f32⟩ : BufTy).Contents (Elt F) → (⟨S_, .f32⟩ : BufTy).Contents (Elt F)),
    binary main_v461 main_v461 main_v474 (mulf : (⟨S64x64, .f32⟩ : BufTy).Contents (Elt F) → (⟨S64x64, .f32⟩ : BufTy).Contents (Elt F) → (⟨S64x64, .f32⟩ : BufTy).Contents (Elt F)),
    nullary main_cst_150 (constant S_ .f32 0x00000000#32),
    binary main_v474 main_cst_150 main_v475 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_151 (constant S_ .f32 0x39800000#32),
    binary main_v475 main_cst_151 main_v476 (mulf : (⟨S_, .f32⟩ : BufTy).Contents (Elt F) → (⟨S_, .f32⟩ : BufTy).Contents (Elt F) → (⟨S_, .f32⟩ : BufTy).Contents (Elt F)),
    nullary main_cst_152 (constant S_ .f32 0x00000000#32),
    binary main_v476 main_cst_152 main_v477 (maximumf : (⟨S_, .f32⟩ : BufTy).Contents (Elt F) → (⟨S_, .f32⟩ : BufTy).Contents (Elt F) → (⟨S_, .f32⟩ : BufTy).Contents (Elt F)),
    nullary main_cst_153 (constant S_ .f32 0x322BCC77#32),
    binary main_v477 main_cst_153 main_v478 (addf : (⟨S_, .f32⟩ : BufTy).Contents (Elt F) → (⟨S_, .f32⟩ : BufTy).Contents (Elt F) → (⟨S_, .f32⟩ : BufTy).Contents (Elt F)),
    unary main_v478 main_v479 (Host.sqrt : (⟨S_, .f32⟩ : BufTy).Contents (Elt F) → (⟨S_, .f32⟩ : BufTy).Contents (Elt F)),
    binary main_v473 main_v479 main_v480 (mulf : (⟨S_, .f32⟩ : BufTy).Contents (Elt F) → (⟨S_, .f32⟩ : BufTy).Contents (Elt F) → (⟨S_, .f32⟩ : BufTy).Contents (Elt F)),
    nullary main_cst_154 (constant S_ .f32 0x322BCC77#32),
    binary main_v480 main_cst_154 main_v481 (addf : (⟨S_, .f32⟩ : BufTy).Contents (Elt F) → (⟨S_, .f32⟩ : BufTy).Contents (Elt F) → (⟨S_, .f32⟩ : BufTy).Contents (Elt F)),
    unary main_v481 main_v482 (Host.sqrt : (⟨S_, .f32⟩ : BufTy).Contents (Elt F) → (⟨S_, .f32⟩ : BufTy).Contents (Elt F)),
    binary main_v467 main_v482 main_v483 (Host.divf : (⟨S_, .f32⟩ : BufTy).Contents (Elt F) → (⟨S_, .f32⟩ : BufTy).Contents (Elt F) → (⟨S_, .f32⟩ : BufTy).Contents (Elt F)),
    binary main_v387 main_v483 main_v484 (addf : (⟨S_, .f32⟩ : BufTy).Contents (Elt F) → (⟨S_, .f32⟩ : BufTy).Contents (Elt F) → (⟨S_, .f32⟩ : BufTy).Contents (Elt F)),
    unary main_arg2 main_v485 ((extractStridedSlice S1x64 ![2, 0] · slices_S4x64_S1x64_2_0) : (⟨S4x64, .f32⟩ : BufTy).Contents (Elt F) → (⟨S1x64, .f32⟩ : BufTy).Contents (Elt F)),
    reshape main_v485 main_v486 rfl shapeCasts_S1x64_S64,
    unary main_arg2 main_v487 ((extractStridedSlice S1x64 ![3, 0] · slices_S4x64_S1x64_3_0) : (⟨S4x64, .f32⟩ : BufTy).Contents (Elt F) → (⟨S1x64, .f32⟩ : BufTy).Contents (Elt F)),
    reshape main_v487 main_v488 rfl shapeCasts_S1x64_S64,
    binary main_v486 main_v486 main_v489 (mulf : (⟨S64, .f32⟩ : BufTy).Contents (Elt F) → (⟨S64, .f32⟩ : BufTy).Contents (Elt F) → (⟨S64, .f32⟩ : BufTy).Contents (Elt F)),
    binary main_v488 main_v488 main_v490 (mulf : (⟨S64, .f32⟩ : BufTy).Contents (Elt F) → (⟨S64, .f32⟩ : BufTy).Contents (Elt F) → (⟨S64, .f32⟩ : BufTy).Contents (Elt F)),
    unary main_v486 main_v491 (broadcastInDim S64x1 ![0] bcast_S64_S64x1_0 : (⟨S64, .f32⟩ : BufTy).Contents (Elt F) → (⟨S64x1, .f32⟩ : BufTy).Contents (Elt F)),
    unary main_v486 main_v492 (broadcastInDim S1x64 ![1] bcast_S64_S1x64_1 : (⟨S64, .f32⟩ : BufTy).Contents (Elt F) → (⟨S1x64, .f32⟩ : BufTy).Contents (Elt F)),
    unary main_v491 main_v493 (broadcastInDim S64x64 ![0, 1] bcast_S64x1_S64x64_0_1 : (⟨S64x1, .f32⟩ : BufTy).Contents (Elt F) → (⟨S64x64, .f32⟩ : BufTy).Contents (Elt F)),
    unary main_v492 main_v494 (broadcastInDim S64x64 ![0, 1] bcast_S1x64_S64x64_0_1 : (⟨S1x64, .f32⟩ : BufTy).Contents (Elt F) → (⟨S64x64, .f32⟩ : BufTy).Contents (Elt F)),
    binary main_v493 main_v494 main_v495 (mulf : (⟨S64x64, .f32⟩ : BufTy).Contents (Elt F) → (⟨S64x64, .f32⟩ : BufTy).Contents (Elt F) → (⟨S64x64, .f32⟩ : BufTy).Contents (Elt F)),
    nullary main_cst_155 (constant S_ .f32 0x40000000#32),
    unary main_cst_155 main_v496 (broadcastInDim S64x64 ![] bcast_S_S64x64 : (⟨S_, .f32⟩ : BufTy).Contents (Elt F) → (⟨S64x64, .f32⟩ : BufTy).Contents (Elt F)),
    binary main_v496 main_v495 main_v497 (mulf : (⟨S64x64, .f32⟩ : BufTy).Contents (Elt F) → (⟨S64x64, .f32⟩ : BufTy).Contents (Elt F) → (⟨S64x64, .f32⟩ : BufTy).Contents (Elt F)),
    unary main_v488 main_v498 (broadcastInDim S64x1 ![0] bcast_S64_S64x1_0 : (⟨S64, .f32⟩ : BufTy).Contents (Elt F) → (⟨S64x1, .f32⟩ : BufTy).Contents (Elt F)),
    unary main_v488 main_v499 (broadcastInDim S1x64 ![1] bcast_S64_S1x64_1 : (⟨S64, .f32⟩ : BufTy).Contents (Elt F) → (⟨S1x64, .f32⟩ : BufTy).Contents (Elt F)),
    unary main_v498 main_v500 (broadcastInDim S64x64 ![0, 1] bcast_S64x1_S64x64_0_1 : (⟨S64x1, .f32⟩ : BufTy).Contents (Elt F) → (⟨S64x64, .f32⟩ : BufTy).Contents (Elt F)),
    unary main_v499 main_v501 (broadcastInDim S64x64 ![0, 1] bcast_S1x64_S64x64_0_1 : (⟨S1x64, .f32⟩ : BufTy).Contents (Elt F) → (⟨S64x64, .f32⟩ : BufTy).Contents (Elt F)),
    binary main_v500 main_v501 main_v502 (mulf : (⟨S64x64, .f32⟩ : BufTy).Contents (Elt F) → (⟨S64x64, .f32⟩ : BufTy).Contents (Elt F) → (⟨S64x64, .f32⟩ : BufTy).Contents (Elt F)) ]

set_option maxRecDepth 8192 in
set_option maxHeartbeats 4000000 in
/-- The window is the line of its operations. -/
theorem main_part10_eq (c : Dev nD) : main_part10 (F := F) c = seq rops10 := rfl

set_option maxRecDepth 8192 in
/-- Every buffer an operation of the window touches is a TensorCore reference. -/
theorem rops10_sub : (rops10 : List (HloOp τ sig (Elt F))).Forall fun op => op.bufs ⊆ tcRefs τ sig :=
  ⟨binary_bufs_sub .., nullary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub ..⟩

set_option maxRecDepth 8192 in
/-- Every operation of the window determines its result. -/
theorem rops10_fresh : ∀ op ∈ (rops10 : List (HloOp τ sig (Elt F))), op.fresh = ∅ :=
  List.forall_iff_forall_mem.mp (show (rops10 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops10_W : List (Ref sig .tc) := [main_v458, main_cst_141, main_v459, main_v460, main_v461, main_v462, main_cst_142, main_v463, main_cst_143, main_v464, main_cst_144, main_v465, main_cst_145, main_v466, main_v467, main_v468, main_cst_146, main_v469, main_cst_147, main_v470, main_cst_148, main_v471, main_cst_149, main_v472, main_v473, main_v474, main_cst_150, main_v475, main_cst_151, main_v476, main_cst_152, main_v477, main_cst_153, main_v478, main_v479, main_v480, main_cst_154, main_v481, main_v482, main_v483, main_v484, main_v485, main_v486, main_v487, main_v488, main_v489, main_v490, main_v491, main_v492, main_v493, main_v494, main_v495, main_cst_155, main_v496, main_v497, main_v498, main_v499, main_v500, main_v501, main_v502]

set_option maxRecDepth 8192 in
/-- Each operation of the window writes its own entry of `rops10_W` and nothing else. -/
theorem rops10_writes : (rops10 : List (HloOp τ sig (Elt F))).Forall fun op =>
    op.writes ⊆ (rops10_W.map (Proc.devRef (τ := τ) .tc)).toFinset := by
  simp only [List.Forall]
  exact
    ⟨by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [unary_writes, Finset.singleton_subset_iff, List.mem_toFinset]; exact List.mem_map_of_mem (by decide),
     by rw [reshape_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide)⟩

/-- A buffer the window does not write keeps its contents through it. -/
theorem rops10_keep (V : Valuation τ sig (Elt F)) {r : Ref sig .tc} (h : r ∉ rops10_W) :
    after rops10 V (Proc.devRef .tc r) = V (Proc.devRef .tc r) :=
  after_of_writes_sub rops10 V rops10_writes h

set_option maxRecDepth 8192 in
/-- The window writes none of @main's eleven arguments. -/
theorem rops10_W_args : ∀ r ∈ ([main_arg0, main_arg1, main_arg2, main_arg3, main_arg4, main_arg5, main_arg6, main_arg7, main_arg8, main_arg9, main_arg10] : List (Ref sig .tc)), r ∉ rops10_W := by decide

end Cert.ReferenceIdeal.Hand

end
-- ==== Proof.Ref.Ops11.lean ====
/-
  Window 11 of the reference program's @main: its statements are the operations 661 … 720 of the
  program's 997 host operations (a call of a module-local function is its callee's operations, in the call's place).

  A host program is a straight line of operations, each writing one result buffer from the contents of its operand
  buffers. The window IS the line of its operations (`main_part11_eq`: the two sides unfold to the same sequence of
  steps). Of each operation the run of the whole program asks three things, each read off the operation's builder:
  every buffer it touches is one of the TensorCore's references (`rops11_sub`); it determines its result, leaving no
  buffer at contents not chosen (`rops11_fresh`); and the one buffer it writes is in the list `rops11_W`
  (`rops11_writes`) — so a buffer not in that list keeps its contents through the window (`rops11_keep`), and no argument
  of @main is in it (`rops11_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 11's operations, in order: @main's operations 661 … 720 of 997. -/
abbrev rops11 : List (HloOp τ sig (Elt F)) :=
  [ nullary main_cst_156 (constant S_ .f32 0x40000000#32),
    unary main_cst_156 main_v503 (broadcastInDim S64x64 ![] bcast_S_S64x64 : (⟨S_, .f32⟩ : BufTy).Contents (Elt F) → (⟨S64x64, .f32⟩ : BufTy).Contents (Elt F)),
    binary main_v503 main_v502 main_v504 (mulf : (⟨S64x64, .f32⟩ : BufTy).Contents (Elt F) → (⟨S64x64, .f32⟩ : BufTy).Contents (Elt F) → (⟨S64x64, .f32⟩ : BufTy).Contents (Elt F)),
    unary main_v489 main_v505 (broadcastInDim S64x1 ![0] bcast_S64_S64x1_0 : (⟨S64, .f32⟩ : BufTy).Contents (Elt F) → (⟨S64x1, .f32⟩ : BufTy).Contents (Elt F)),
    unary main_v505 main_v506 (broadcastInDim S64x64 ![0, 1] bcast_S64x1_S64x64_0_1 : (⟨S64x1, .f32⟩ : BufTy).Contents (Elt F) → (⟨S64x64, .f32⟩ : BufTy).Contents (Elt F)),
    binary main_v506 main_v497 main_v507 (subf : (⟨S64x64, .f32⟩ : BufTy).Contents (Elt F) → (⟨S64x64, .f32⟩ : BufTy).Contents (Elt F) → (⟨S64x64, .f32⟩ : BufTy).Contents (Elt F)),
    unary main_v489 main_v508 (broadcastInDim S1x64 ![1] bcast_S64_S1x64_1 : (⟨S64, .f32⟩ : BufTy).Contents (Elt F) → (⟨S1x64, .f32⟩ : BufTy).Contents (Elt F)),
    unary main_v508 main_v509 (broadcastInDim S64x64 ![0, 1] bcast_S1x64_S64x64_0_1 : (⟨S1x64, .f32⟩ : BufTy).Contents (Elt F) → (⟨S64x64, .f32⟩ : BufTy).Contents (Elt F)),
    binary main_v507 main_v509 main_v510 (addf : (⟨S64x64, .f32⟩ : BufTy).Contents (Elt F) → (⟨S64x64, .f32⟩ : BufTy).Contents (Elt F) → (⟨S64x64, .f32⟩ : BufTy).Contents (Elt F)),
    nullary main_cst_157 (constant S_ .f32 0x00000000#32),
    unary main_cst_157 main_v511 (broadcastInDim S64x64 ![] bcast_S_S64x64 : (⟨S_, .f32⟩ : BufTy).Contents (Elt F) → (⟨S64x64, .f32⟩ : BufTy).Contents (Elt F)),
    binary main_v510 main_v511 main_v512 (maximumf : (⟨S64x64, .f32⟩ : BufTy).Contents (Elt F) → (⟨S64x64, .f32⟩ : BufTy).Contents (Elt F) → (⟨S64x64, .f32⟩ : BufTy).Contents (Elt F)),
    nullary main_cst_158 (constant S_ .f32 0x322BCC77#32),
    unary main_cst_158 main_v513 (broadcastInDim S64x64 ![] bcast_S_S64x64 : (⟨S_, .f32⟩ : BufTy).Contents (Elt F) → (⟨S64x64, .f32⟩ : BufTy).Contents (Elt F)),
    binary main_v512 main_v513 main_v514 (addf : (⟨S64x64, .f32⟩ : BufTy).Contents (Elt F) → (⟨S64x64, .f32⟩ : BufTy).Contents (Elt F) → (⟨S64x64, .f32⟩ : BufTy).Contents (Elt F)),
    unary main_v514 main_v515 (Host.sqrt : (⟨S64x64, .f32⟩ : BufTy).Contents (Elt F) → (⟨S64x64, .f32⟩ : BufTy).Contents (Elt F)),
    unary main_v490 main_v516 (broadcastInDim S64x1 ![0] bcast_S64_S64x1_0 : (⟨S64, .f32⟩ : BufTy).Contents (Elt F) → (⟨S64x1, .f32⟩ : BufTy).Contents (Elt F)),
    unary main_v516 main_v517 (broadcastInDim S64x64 ![0, 1] bcast_S64x1_S64x64_0_1 : (⟨S64x1, .f32⟩ : BufTy).Contents (Elt F) → (⟨S64x64, .f32⟩ : BufTy).Contents (Elt F)),
    binary main_v517 main_v504 main_v518 (subf : (⟨S64x64, .f32⟩ : BufTy).Contents (Elt F) → (⟨S64x64, .f32⟩ : BufTy).Contents (Elt F) → (⟨S64x64, .f32⟩ : BufTy).Contents (Elt F)),
    unary main_v490 main_v519 (broadcastInDim S1x64 ![1] bcast_S64_S1x64_1 : (⟨S64, .f32⟩ : BufTy).Contents (Elt F) → (⟨S1x64, .f32⟩ : BufTy).Contents (Elt F)),
    unary main_v519 main_v520 (broadcastInDim S64x64 ![0, 1] bcast_S1x64_S64x64_0_1 : (⟨S1x64, .f32⟩ : BufTy).Contents (Elt F) → (⟨S64x64, .f32⟩ : BufTy).Contents (Elt F)),
    binary main_v518 main_v520 main_v521 (addf : (⟨S64x64, .f32⟩ : BufTy).Contents (Elt F) → (⟨S64x64, .f32⟩ : BufTy).Contents (Elt F) → (⟨S64x64, .f32⟩ : BufTy).Contents (Elt F)),
    nullary main_cst_159 (constant S_ .f32 0x00000000#32),
    unary main_cst_159 main_v522 (broadcastInDim S64x64 ![] bcast_S_S64x64 : (⟨S_, .f32⟩ : BufTy).Contents (Elt F) → (⟨S64x64, .f32⟩ : BufTy).Contents (Elt F)),
    binary main_v521 main_v522 main_v523 (maximumf : (⟨S64x64, .f32⟩ : BufTy).Contents (Elt F) → (⟨S64x64, .f32⟩ : BufTy).Contents (Elt F) → (⟨S64x64, .f32⟩ : BufTy).Contents (Elt F)),
    nullary main_cst_160 (constant S_ .f32 0x322BCC77#32),
    unary main_cst_160 main_v524 (broadcastInDim S64x64 ![] bcast_S_S64x64 : (⟨S_, .f32⟩ : BufTy).Contents (Elt F) → (⟨S64x64, .f32⟩ : BufTy).Contents (Elt F)),
    binary main_v523 main_v524 main_v525 (addf : (⟨S64x64, .f32⟩ : BufTy).Contents (Elt F) → (⟨S64x64, .f32⟩ : BufTy).Contents (Elt F) → (⟨S64x64, .f32⟩ : BufTy).Contents (Elt F)),
    unary main_v525 main_v526 (Host.sqrt : (⟨S64x64, .f32⟩ : BufTy).Contents (Elt F) → (⟨S64x64, .f32⟩ : BufTy).Contents (Elt F)),
    nullary main_cst_161 (constant S_ .f32 0x00000000#32),
    binary main_v515 main_cst_161 main_v527 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v527 main_v528 (broadcastInDim S1x64 ![1] bcast_S64_S1x64_1 : (⟨S64, .f32⟩ : BufTy).Contents (Elt F) → (⟨S1x64, .f32⟩ : BufTy).Contents (Elt F)),
    nullary main_cst_162 (constant S_ .f32 0x42800000#32),
    unary main_cst_162 main_v529 (broadcastInDim S1x64 ![] bcast_S_S1x64 : (⟨S_, .f32⟩ : BufTy).Contents (Elt F) → (⟨S1x64, .f32⟩ : BufTy).Contents (Elt F)),
    binary main_v528 main_v529 main_v530 (Host.divf : (⟨S1x64, .f32⟩ : BufTy).Contents (Elt F) → (⟨S1x64, .f32⟩ : BufTy).Contents (Elt F) → (⟨S1x64, .f32⟩ : BufTy).Contents (Elt F)),
    unary main_v530 main_v531 (broadcastInDim S64x64 ![0, 1] bcast_S1x64_S64x64_0_1 : (⟨S1x64, .f32⟩ : BufTy).Contents (Elt F) → (⟨S64x64, .f32⟩ : BufTy).Contents (Elt F)),
    binary main_v515 main_v531 main_v532 (subf : (⟨S64x64, .f32⟩ : BufTy).Contents (Elt F) → (⟨S64x64, .f32⟩ : BufTy).Contents (Elt F) → (⟨S64x64, .f32⟩ : BufTy).Contents (Elt F)),
    nullary main_cst_163 (constant S_ .f32 0x00000000#32),
    binary main_v515 main_cst_163 main_v533 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v533 main_v534 (broadcastInDim S64x1 ![0] bcast_S64_S64x1_0 : (⟨S64, .f32⟩ : BufTy).Contents (Elt F) → (⟨S64x1, .f32⟩ : BufTy).Contents (Elt F)),
    nullary main_cst_164 (constant S_ .f32 0x42800000#32),
    unary main_cst_164 main_v535 (broadcastInDim S64x1 ![] bcast_S_S64x1 : (⟨S_, .f32⟩ : BufTy).Contents (Elt F) → (⟨S64x1, .f32⟩ : BufTy).Contents (Elt F)),
    binary main_v534 main_v535 main_v536 (Host.divf : (⟨S64x1, .f32⟩ : BufTy).Contents (Elt F) → (⟨S64x1, .f32⟩ : BufTy).Contents (Elt F) → (⟨S64x1, .f32⟩ : BufTy).Contents (Elt F)),
    unary main_v536 main_v537 (broadcastInDim S64x64 ![0, 1] bcast_S64x1_S64x64_0_1 : (⟨S64x1, .f32⟩ : BufTy).Contents (Elt F) → (⟨S64x64, .f32⟩ : BufTy).Contents (Elt F)),
    binary main_v532 main_v537 main_v538 (subf : (⟨S64x64, .f32⟩ : BufTy).Contents (Elt F) → (⟨S64x64, .f32⟩ : BufTy).Contents (Elt F) → (⟨S64x64, .f32⟩ : BufTy).Contents (Elt F)),
    nullary main_cst_165 (constant S_ .f32 0x00000000#32),
    binary main_v515 main_cst_165 main_v539 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_166 (constant S_ .f32 0x45800000#32),
    binary main_v539 main_cst_166 main_v540 (Host.divf : (⟨S_, .f32⟩ : BufTy).Contents (Elt F) → (⟨S_, .f32⟩ : BufTy).Contents (Elt F) → (⟨S_, .f32⟩ : BufTy).Contents (Elt F)),
    unary main_v540 main_v541 (broadcastInDim S64x64 ![] bcast_S_S64x64 : (⟨S_, .f32⟩ : BufTy).Contents (Elt F) → (⟨S64x64, .f32⟩ : BufTy).Contents (Elt F)),
    binary main_v538 main_v541 main_v542 (addf : (⟨S64x64, .f32⟩ : BufTy).Contents (Elt F) → (⟨S64x64, .f32⟩ : BufTy).Contents (Elt F) → (⟨S64x64, .f32⟩ : BufTy).Contents (Elt F)),
    nullary main_cst_167 (constant S_ .f32 0x00000000#32),
    binary main_v526 main_cst_167 main_v543 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v543 main_v544 (broadcastInDim S1x64 ![1] bcast_S64_S1x64_1 : (⟨S64, .f32⟩ : BufTy).Contents (Elt F) → (⟨S1x64, .f32⟩ : BufTy).Contents (Elt F)),
    nullary main_cst_168 (constant S_ .f32 0x42800000#32),
    unary main_cst_168 main_v545 (broadcastInDim S1x64 ![] bcast_S_S1x64 : (⟨S_, .f32⟩ : BufTy).Contents (Elt F) → (⟨S1x64, .f32⟩ : BufTy).Contents (Elt F)),
    binary main_v544 main_v545 main_v546 (Host.divf : (⟨S1x64, .f32⟩ : BufTy).Contents (Elt F) → (⟨S1x64, .f32⟩ : BufTy).Contents (Elt F) → (⟨S1x64, .f32⟩ : BufTy).Contents (Elt F)),
    unary main_v546 main_v547 (broadcastInDim S64x64 ![0, 1] bcast_S1x64_S64x64_0_1 : (⟨S1x64, .f32⟩ : BufTy).Contents (Elt F) → (⟨S64x64, .f32⟩ : BufTy).Contents (Elt F)),
    binary main_v526 main_v547 main_v548 (subf : (⟨S64x64, .f32⟩ : BufTy).Contents (Elt F) → (⟨S64x64, .f32⟩ : BufTy).Contents (Elt F) → (⟨S64x64, .f32⟩ : BufTy).Contents (Elt F)),
    nullary main_cst_169 (constant S_ .f32 0x00000000#32) ]

set_option maxRecDepth 8192 in
set_option maxHeartbeats 4000000 in
/-- The window is the line of its operations. -/
theorem main_part11_eq (c : Dev nD) : main_part11 (F := F) c = seq rops11 := rfl

set_option maxRecDepth 8192 in
/-- Every buffer an operation of the window touches is a TensorCore reference. -/
theorem rops11_sub : (rops11 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub ..⟩

set_option maxRecDepth 8192 in
/-- Every operation of the window determines its result. -/
theorem rops11_fresh : ∀ op ∈ (rops11 : List (HloOp τ sig (Elt F))), op.fresh = ∅ :=
  List.forall_iff_forall_mem.mp (show (rops11 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops11_W : List (Ref sig .tc) := [main_cst_156, main_v503, main_v504, main_v505, main_v506, main_v507, main_v508, main_v509, main_v510, main_cst_157, main_v511, main_v512, main_cst_158, main_v513, main_v514, main_v515, main_v516, main_v517, main_v518, main_v519, main_v520, main_v521, main_cst_159, main_v522, main_v523, main_cst_160, main_v524, main_v525, main_v526, main_cst_161, main_v527, main_v528, main_cst_162, main_v529, main_v530, main_v531, main_v532, main_cst_163, main_v533, main_v534, main_cst_164, main_v535, main_v536, main_v537, main_v538, main_cst_165, main_v539, main_cst_166, main_v540, main_v541, main_v542, main_cst_167, main_v543, main_v544, main_cst_168, main_v545, main_v546, main_v547, main_v548, main_cst_169]

set_option maxRecDepth 8192 in
/-- Each operation of the window writes its own entry of `rops11_W` and nothing else. -/
theorem rops11_writes : (rops11 : List (HloOp τ sig (Elt F))).Forall fun op =>
    op.writes ⊆ (rops11_W.map (Proc.devRef (τ := τ) .tc)).toFinset := by
  simp only [List.Forall]
  exact
    ⟨by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide)⟩

/-- A buffer the window does not write keeps its contents through it. -/
theorem rops11_keep (V : Valuation τ sig (Elt F)) {r : Ref sig .tc} (h : r ∉ rops11_W) :
    after rops11 V (Proc.devRef .tc r) = V (Proc.devRef .tc r) :=
  after_of_writes_sub rops11 V rops11_writes h

set_option maxRecDepth 8192 in
/-- The window writes none of @main's eleven arguments. -/
theorem rops11_W_args : ∀ r ∈ ([main_arg0, main_arg1, main_arg2, main_arg3, main_arg4, main_arg5, main_arg6, main_arg7, main_arg8, main_arg9, main_arg10] : List (Ref sig .tc)), r ∉ rops11_W := by decide

end Cert.ReferenceIdeal.Hand

end
-- ==== Proof.Ref.Ops12.lean ====
/-
  Window 12 of the reference program's @main: its statements are the operations 721 … 788 of the
  program's 997 host operations (a call of a module-local function is its callee's operations, in the call's place).

  A host program is a straight line of operations, each writing one result buffer from the contents of its operand
  buffers. The window IS the line of its operations (`main_part12_eq`: the two sides unfold to the same sequence of
  steps). Of each operation the run of the whole program asks three things, each read off the operation's builder:
  every buffer it touches is one of the TensorCore's references (`rops12_sub`); it determines its result, leaving no
  buffer at contents not chosen (`rops12_fresh`); and the one buffer it writes is in the list `rops12_W`
  (`rops12_writes`) — so a buffer not in that list keeps its contents through the window (`rops12_keep`), and no argument
  of @main is in it (`rops12_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 12's operations, in order: @main's operations 721 … 788 of 997. -/
abbrev rops12 : List (HloOp τ sig (Elt F)) :=
  [ binary main_v526 main_cst_169 main_v549 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v549 main_v550 (broadcastInDim S64x1 ![0] bcast_S64_S64x1_0 : (⟨S64, .f32⟩ : BufTy).Contents (Elt F) → (⟨S64x1, .f32⟩ : BufTy).Contents (Elt F)),
    nullary main_cst_170 (constant S_ .f32 0x42800000#32),
    unary main_cst_170 main_v551 (broadcastInDim S64x1 ![] bcast_S_S64x1 : (⟨S_, .f32⟩ : BufTy).Contents (Elt F) → (⟨S64x1, .f32⟩ : BufTy).Contents (Elt F)),
    binary main_v550 main_v551 main_v552 (Host.divf : (⟨S64x1, .f32⟩ : BufTy).Contents (Elt F) → (⟨S64x1, .f32⟩ : BufTy).Contents (Elt F) → (⟨S64x1, .f32⟩ : BufTy).Contents (Elt F)),
    unary main_v552 main_v553 (broadcastInDim S64x64 ![0, 1] bcast_S64x1_S64x64_0_1 : (⟨S64x1, .f32⟩ : BufTy).Contents (Elt F) → (⟨S64x64, .f32⟩ : BufTy).Contents (Elt F)),
    binary main_v548 main_v553 main_v554 (subf : (⟨S64x64, .f32⟩ : BufTy).Contents (Elt F) → (⟨S64x64, .f32⟩ : BufTy).Contents (Elt F) → (⟨S64x64, .f32⟩ : BufTy).Contents (Elt F)),
    nullary main_cst_171 (constant S_ .f32 0x00000000#32),
    binary main_v526 main_cst_171 main_v555 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_172 (constant S_ .f32 0x45800000#32),
    binary main_v555 main_cst_172 main_v556 (Host.divf : (⟨S_, .f32⟩ : BufTy).Contents (Elt F) → (⟨S_, .f32⟩ : BufTy).Contents (Elt F) → (⟨S_, .f32⟩ : BufTy).Contents (Elt F)),
    unary main_v556 main_v557 (broadcastInDim S64x64 ![] bcast_S_S64x64 : (⟨S_, .f32⟩ : BufTy).Contents (Elt F) → (⟨S64x64, .f32⟩ : BufTy).Contents (Elt F)),
    binary main_v554 main_v557 main_v558 (addf : (⟨S64x64, .f32⟩ : BufTy).Contents (Elt F) → (⟨S64x64, .f32⟩ : BufTy).Contents (Elt F) → (⟨S64x64, .f32⟩ : BufTy).Contents (Elt F)),
    binary main_v542 main_v558 main_v559 (mulf : (⟨S64x64, .f32⟩ : BufTy).Contents (Elt F) → (⟨S64x64, .f32⟩ : BufTy).Contents (Elt F) → (⟨S64x64, .f32⟩ : BufTy).Contents (Elt F)),
    nullary main_cst_173 (constant S_ .f32 0x00000000#32),
    binary main_v559 main_cst_173 main_v560 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_174 (constant S_ .f32 0x39800000#32),
    binary main_v560 main_cst_174 main_v561 (mulf : (⟨S_, .f32⟩ : BufTy).Contents (Elt F) → (⟨S_, .f32⟩ : BufTy).Contents (Elt F) → (⟨S_, .f32⟩ : BufTy).Contents (Elt F)),
    nullary main_cst_175 (constant S_ .f32 0x00000000#32),
    binary main_v561 main_cst_175 main_v562 (maximumf : (⟨S_, .f32⟩ : BufTy).Contents (Elt F) → (⟨S_, .f32⟩ : BufTy).Contents (Elt F) → (⟨S_, .f32⟩ : BufTy).Contents (Elt F)),
    nullary main_cst_176 (constant S_ .f32 0x322BCC77#32),
    binary main_v562 main_cst_176 main_v563 (addf : (⟨S_, .f32⟩ : BufTy).Contents (Elt F) → (⟨S_, .f32⟩ : BufTy).Contents (Elt F) → (⟨S_, .f32⟩ : BufTy).Contents (Elt F)),
    unary main_v563 main_v564 (Host.sqrt : (⟨S_, .f32⟩ : BufTy).Contents (Elt F) → (⟨S_, .f32⟩ : BufTy).Contents (Elt F)),
    binary main_v542 main_v542 main_v565 (mulf : (⟨S64x64, .f32⟩ : BufTy).Contents (Elt F) → (⟨S64x64, .f32⟩ : BufTy).Contents (Elt F) → (⟨S64x64, .f32⟩ : BufTy).Contents (Elt F)),
    nullary main_cst_177 (constant S_ .f32 0x00000000#32),
    binary main_v565 main_cst_177 main_v566 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_178 (constant S_ .f32 0x39800000#32),
    binary main_v566 main_cst_178 main_v567 (mulf : (⟨S_, .f32⟩ : BufTy).Contents (Elt F) → (⟨S_, .f32⟩ : BufTy).Contents (Elt F) → (⟨S_, .f32⟩ : BufTy).Contents (Elt F)),
    nullary main_cst_179 (constant S_ .f32 0x00000000#32),
    binary main_v567 main_cst_179 main_v568 (maximumf : (⟨S_, .f32⟩ : BufTy).Contents (Elt F) → (⟨S_, .f32⟩ : BufTy).Contents (Elt F) → (⟨S_, .f32⟩ : BufTy).Contents (Elt F)),
    nullary main_cst_180 (constant S_ .f32 0x322BCC77#32),
    binary main_v568 main_cst_180 main_v569 (addf : (⟨S_, .f32⟩ : BufTy).Contents (Elt F) → (⟨S_, .f32⟩ : BufTy).Contents (Elt F) → (⟨S_, .f32⟩ : BufTy).Contents (Elt F)),
    unary main_v569 main_v570 (Host.sqrt : (⟨S_, .f32⟩ : BufTy).Contents (Elt F) → (⟨S_, .f32⟩ : BufTy).Contents (Elt F)),
    binary main_v558 main_v558 main_v571 (mulf : (⟨S64x64, .f32⟩ : BufTy).Contents (Elt F) → (⟨S64x64, .f32⟩ : BufTy).Contents (Elt F) → (⟨S64x64, .f32⟩ : BufTy).Contents (Elt F)),
    nullary main_cst_181 (constant S_ .f32 0x00000000#32),
    binary main_v571 main_cst_181 main_v572 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    nullary main_cst_182 (constant S_ .f32 0x39800000#32),
    binary main_v572 main_cst_182 main_v573 (mulf : (⟨S_, .f32⟩ : BufTy).Contents (Elt F) → (⟨S_, .f32⟩ : BufTy).Contents (Elt F) → (⟨S_, .f32⟩ : BufTy).Contents (Elt F)),
    nullary main_cst_183 (constant S_ .f32 0x00000000#32),
    binary main_v573 main_cst_183 main_v574 (maximumf : (⟨S_, .f32⟩ : BufTy).Contents (Elt F) → (⟨S_, .f32⟩ : BufTy).Contents (Elt F) → (⟨S_, .f32⟩ : BufTy).Contents (Elt F)),
    nullary main_cst_184 (constant S_ .f32 0x322BCC77#32),
    binary main_v574 main_cst_184 main_v575 (addf : (⟨S_, .f32⟩ : BufTy).Contents (Elt F) → (⟨S_, .f32⟩ : BufTy).Contents (Elt F) → (⟨S_, .f32⟩ : BufTy).Contents (Elt F)),
    unary main_v575 main_v576 (Host.sqrt : (⟨S_, .f32⟩ : BufTy).Contents (Elt F) → (⟨S_, .f32⟩ : BufTy).Contents (Elt F)),
    binary main_v570 main_v576 main_v577 (mulf : (⟨S_, .f32⟩ : BufTy).Contents (Elt F) → (⟨S_, .f32⟩ : BufTy).Contents (Elt F) → (⟨S_, .f32⟩ : BufTy).Contents (Elt F)),
    nullary main_cst_185 (constant S_ .f32 0x322BCC77#32),
    binary main_v577 main_cst_185 main_v578 (addf : (⟨S_, .f32⟩ : BufTy).Contents (Elt F) → (⟨S_, .f32⟩ : BufTy).Contents (Elt F) → (⟨S_, .f32⟩ : BufTy).Contents (Elt F)),
    unary main_v578 main_v579 (Host.sqrt : (⟨S_, .f32⟩ : BufTy).Contents (Elt F) → (⟨S_, .f32⟩ : BufTy).Contents (Elt F)),
    binary main_v564 main_v579 main_v580 (Host.divf : (⟨S_, .f32⟩ : BufTy).Contents (Elt F) → (⟨S_, .f32⟩ : BufTy).Contents (Elt F) → (⟨S_, .f32⟩ : BufTy).Contents (Elt F)),
    binary main_v484 main_v580 main_v581 (addf : (⟨S_, .f32⟩ : BufTy).Contents (Elt F) → (⟨S_, .f32⟩ : BufTy).Contents (Elt F) → (⟨S_, .f32⟩ : BufTy).Contents (Elt F)),
    TRef.binary (TRef.of (T := ⟨S8192x64, .f32⟩) main_arg0) (TRef.of (T := ⟨S8192x64, .f32⟩) main_arg0) (TRef.of (T := ⟨S8192x64, .f32⟩) main_call0_v0) mulf,
    TRef.nullary (TRef.of (T := ⟨S_, .f32⟩) main_call0_cst) (constant S_ .f32 0x00000000#32),
    TRef.binary (TRef.of (T := ⟨S8192x64, .f32⟩) main_call0_v0) (TRef.of (T := ⟨S_, .f32⟩) main_call0_cst) (TRef.of (T := ⟨S8192, .f32⟩) main_call0_v1) (fun x v => Host.reduceAdd x v reducesTo_S8192x64_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v582) Host.sqrt,
    nullary main_cst_186 (constant S_ .f32 0x2B8CBCCC#32),
    unary main_cst_186 main_v583 (broadcastInDim S8192x1 ![] bcast_S_S8192x1 : (⟨S_, .f32⟩ : BufTy).Contents (Elt F) → (⟨S8192x1, .f32⟩ : BufTy).Contents (Elt F)),
    binary main_v582 main_v583 main_v584 (maximumf : (⟨S8192x1, .f32⟩ : BufTy).Contents (Elt F) → (⟨S8192x1, .f32⟩ : BufTy).Contents (Elt F) → (⟨S8192x1, .f32⟩ : BufTy).Contents (Elt F)),
    unary main_v584 main_v585 (broadcastInDim S8192x64 ![0, 1] bcast_S8192x1_S8192x64_0_1 : (⟨S8192x1, .f32⟩ : BufTy).Contents (Elt F) → (⟨S8192x64, .f32⟩ : BufTy).Contents (Elt F)),
    binary main_arg0 main_v585 main_v586 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_arg9) (TRef.of (T := ⟨S8192x64, .f32⟩) main_arg9) (TRef.of (T := ⟨S8192x64, .f32⟩) main_call1_v0) mulf,
    TRef.nullary (TRef.of (T := ⟨S_, .f32⟩) main_call1_cst) (constant S_ .f32 0x00000000#32),
    TRef.binary (TRef.of (T := ⟨S8192x64, .f32⟩) main_call1_v0) (TRef.of (T := ⟨S_, .f32⟩) main_call1_cst) (TRef.of (T := ⟨S8192, .f32⟩) main_call1_v1) (fun x v => Host.reduceAdd x v reducesTo_S8192x64_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v587) Host.sqrt,
    nullary main_cst_187 (constant S_ .f32 0x2B8CBCCC#32),
    unary main_cst_187 main_v588 (broadcastInDim S8192x1 ![] bcast_S_S8192x1 : (⟨S_, .f32⟩ : BufTy).Contents (Elt F) → (⟨S8192x1, .f32⟩ : BufTy).Contents (Elt F)),
    binary main_v587 main_v588 main_v589 (maximumf : (⟨S8192x1, .f32⟩ : BufTy).Contents (Elt F) → (⟨S8192x1, .f32⟩ : BufTy).Contents (Elt F) → (⟨S8192x1, .f32⟩ : BufTy).Contents (Elt F)),
    unary main_v589 main_v590 (broadcastInDim S8192x64 ![0, 1] bcast_S8192x1_S8192x64_0_1 : (⟨S8192x1, .f32⟩ : BufTy).Contents (Elt F) → (⟨S8192x64, .f32⟩ : BufTy).Contents (Elt F)) ]

set_option maxRecDepth 8192 in
set_option maxHeartbeats 4000000 in
/-- The window is the line of its operations. -/
theorem main_part12_eq (c : Dev nD) : main_part12 (F := F) c = seq rops12 := rfl

set_option maxRecDepth 8192 in
/-- Every buffer an operation of the window touches is a TensorCore reference. -/
theorem rops12_sub : (rops12 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub ..⟩

set_option maxRecDepth 8192 in
/-- Every operation of the window determines its result. -/
theorem rops12_fresh : ∀ op ∈ (rops12 : List (HloOp τ sig (Elt F))), op.fresh = ∅ :=
  List.forall_iff_forall_mem.mp (show (rops12 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops12_W : List (Ref sig .tc) := [main_v549, main_v550, main_cst_170, main_v551, main_v552, main_v553, main_v554, main_cst_171, main_v555, main_cst_172, main_v556, main_v557, main_v558, main_v559, main_cst_173, main_v560, main_cst_174, main_v561, main_cst_175, main_v562, main_cst_176, main_v563, main_v564, main_v565, main_cst_177, main_v566, main_cst_178, main_v567, main_cst_179, main_v568, main_cst_180, main_v569, main_v570, main_v571, main_cst_181, main_v572, main_cst_182, main_v573, main_cst_183, main_v574, main_cst_184, main_v575, main_v576, main_v577, main_cst_185, main_v578, main_v579, main_v580, main_v581, main_call0_v0, main_call0_cst, main_call0_v1, main_call0_v2, main_v582, main_cst_186, main_v583, main_v584, main_v585, main_v586, main_call1_v0, main_call1_cst, main_call1_v1, main_call1_v2, main_v587, main_cst_187, main_v588, main_v589, main_v590]

set_option maxRecDepth 8192 in
/-- Each operation of the window writes its own entry of `rops12_W` and nothing else. -/
theorem rops12_writes : (rops12 : List (HloOp τ sig (Elt F))).Forall fun op =>
    op.writes ⊆ (rops12_W.map (Proc.devRef (τ := τ) .tc)).toFinset := by
  simp only [List.Forall]
  exact
    ⟨by rw [binary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide)⟩

/-- A buffer the window does not write keeps its contents through it. -/
theorem rops12_keep (V : Valuation τ sig (Elt F)) {r : Ref sig .tc} (h : r ∉ rops12_W) :
    after rops12 V (Proc.devRef .tc r) = V (Proc.devRef .tc r) :=
  after_of_writes_sub rops12 V rops12_writes h

set_option maxRecDepth 8192 in
/-- The window writes none of @main's eleven arguments. -/
theorem rops12_W_args : ∀ r ∈ ([main_arg0, main_arg1, main_arg2, main_arg3, main_arg4, main_arg5, main_arg6, main_arg7, main_arg8, main_arg9, main_arg10] : List (Ref sig .tc)), r ∉ rops12_W := by decide

end Cert.ReferenceIdeal.Hand

end
-- ==== Proof.Ref.Ops13.lean ====
/-
  Window 13 of the reference program's @main: its statements are the operations 789 … 872 of the
  program's 997 host operations (a call of a module-local function is its callee's operations, in the call's place).

  A host program is a straight line of operations, each writing one result buffer from the contents of its operand
  buffers. The window IS the line of its operations (`main_part13_eq`: the two sides unfold to the same sequence of
  steps). Of each operation the run of the whole program asks three things, each read off the operation's builder:
  every buffer it touches is one of the TensorCore's references (`rops13_sub`); it determines its result, leaving no
  buffer at contents not chosen (`rops13_fresh`); and the one buffer it writes is in the list `rops13_W`
  (`rops13_writes`) — so a buffer not in that list keeps its contents through the window (`rops13_keep`), and no argument
  of @main is in it (`rops13_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 13's operations, in order: @main's operations 789 … 872 of 997. -/
abbrev rops13 : List (HloOp τ sig (Elt F)) :=
  [ binary main_arg9 main_v590 main_v591 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_arg1) (TRef.of (T := ⟨S8192x64, .f32⟩) main_arg1) (TRef.of (T := ⟨S8192x64, .f32⟩) main_call2_v0) mulf,
    TRef.nullary (TRef.of (T := ⟨S_, .f32⟩) main_call2_cst) (constant S_ .f32 0x00000000#32),
    TRef.binary (TRef.of (T := ⟨S8192x64, .f32⟩) main_call2_v0) (TRef.of (T := ⟨S_, .f32⟩) main_call2_cst) (TRef.of (T := ⟨S8192, .f32⟩) main_call2_v1) (fun x v => Host.reduceAdd x v reducesTo_S8192x64_S8192_d1 h_S_),
    TRef.unary (TRef.of (T := ⟨S8192, .f32⟩) main_call2_v1) (TRef.of (T := ⟨S8192x1, .f32⟩) main_call2_v2) (broadcastInDim S8192x1 ![0] bcast_S8192_S8192x1_0),
    TRef.unary (TRef.of (T := ⟨S8192x1, .f32⟩) main_call2_v2) (TRef.of (T := ⟨S8192x1, .f32⟩) main_v592) Host.sqrt,
    nullary main_cst_188 (constant S_ .f32 0x2B8CBCCC#32),
    unary main_cst_188 main_v593 (broadcastInDim S8192x1 ![] bcast_S_S8192x1 : (⟨S_, .f32⟩ : BufTy).Contents (Elt F) → (⟨S8192x1, .f32⟩ : BufTy).Contents (Elt F)),
    binary main_v592 main_v593 main_v594 (maximumf : (⟨S8192x1, .f32⟩ : BufTy).Contents (Elt F) → (⟨S8192x1, .f32⟩ : BufTy).Contents (Elt F) → (⟨S8192x1, .f32⟩ : BufTy).Contents (Elt F)),
    unary main_v594 main_v595 (broadcastInDim S8192x64 ![0, 1] bcast_S8192x1_S8192x64_0_1 : (⟨S8192x1, .f32⟩ : BufTy).Contents (Elt F) → (⟨S8192x64, .f32⟩ : BufTy).Contents (Elt F)),
    binary main_arg1 main_v595 main_v596 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_arg10) (TRef.of (T := ⟨S8192x64, .f32⟩) main_arg10) (TRef.of (T := ⟨S8192x64, .f32⟩) main_call3_v0) mulf,
    TRef.nullary (TRef.of (T := ⟨S_, .f32⟩) main_call3_cst) (constant S_ .f32 0x00000000#32),
    TRef.binary (TRef.of (T := ⟨S8192x64, .f32⟩) main_call3_v0) (TRef.of (T := ⟨S_, .f32⟩) main_call3_cst) (TRef.of (T := ⟨S8192, .f32⟩) main_call3_v1) (fun x v => Host.reduceAdd x v reducesTo_S8192x64_S8192_d1 h_S_),
    TRef.unary (TRef.of (T := ⟨S8192, .f32⟩) main_call3_v1) (TRef.of (T := ⟨S8192x1, .f32⟩) main_call3_v2) (broadcastInDim S8192x1 ![0] bcast_S8192_S8192x1_0),
    TRef.unary (TRef.of (T := ⟨S8192x1, .f32⟩) main_call3_v2) (TRef.of (T := ⟨S8192x1, .f32⟩) main_v597) Host.sqrt,
    nullary main_cst_189 (constant S_ .f32 0x2B8CBCCC#32),
    unary main_cst_189 main_v598 (broadcastInDim S8192x1 ![] bcast_S_S8192x1 : (⟨S_, .f32⟩ : BufTy).Contents (Elt F) → (⟨S8192x1, .f32⟩ : BufTy).Contents (Elt F)),
    binary main_v597 main_v598 main_v599 (maximumf : (⟨S8192x1, .f32⟩ : BufTy).Contents (Elt F) → (⟨S8192x1, .f32⟩ : BufTy).Contents (Elt F) → (⟨S8192x1, .f32⟩ : BufTy).Contents (Elt F)),
    unary main_v599 main_v600 (broadcastInDim S8192x64 ![0, 1] bcast_S8192x1_S8192x64_0_1 : (⟨S8192x1, .f32⟩ : BufTy).Contents (Elt F) → (⟨S8192x64, .f32⟩ : BufTy).Contents (Elt F)),
    binary main_arg10 main_v600 main_v601 (Host.divf : (⟨S8192x64, .f32⟩ : BufTy).Contents (Elt F) → (⟨S8192x64, .f32⟩ : BufTy).Contents (Elt F) → (⟨S8192x64, .f32⟩ : BufTy).Contents (Elt F)),
    binary main_arg5 main_arg1 main_v602 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg2 main_v603 (broadcastInDim S1x4x64 ![1, 2] bcast_S4x64_S1x4x64_1_2 : (⟨S4x64, .f32⟩ : BufTy).Contents (Elt F) → (⟨S1x4x64, .f32⟩ : BufTy).Contents (Elt F)),
    unary main_arg3 main_v604 (broadcastInDim S8192x4x1 ![0, 1] bcast_S8192x4_S8192x4x1_0_1 : (⟨S8192x4, .f32⟩ : BufTy).Contents (Elt F) → (⟨S8192x4x1, .f32⟩ : BufTy).Contents (Elt F)),
    unary main_v603 main_v605 (broadcastInDim S8192x4x64 ![0, 1, 2] bcast_S1x4x64_S8192x4x64_0_1_2 : (⟨S1x4x64, .f32⟩ : BufTy).Contents (Elt F) → (⟨S8192x4x64, .f32⟩ : BufTy).Contents (Elt F)),
    unary main_v604 main_v606 (broadcastInDim S8192x4x64 ![0, 1, 2] bcast_S8192x4x1_S8192x4x64_0_1_2 : (⟨S8192x4x1, .f32⟩ : BufTy).Contents (Elt F) → (⟨S8192x4x64, .f32⟩ : BufTy).Contents (Elt F)),
    binary main_v605 main_v606 main_v607 (mulf : (⟨S8192x4x64, .f32⟩ : BufTy).Contents (Elt F) → (⟨S8192x4x64, .f32⟩ : BufTy).Contents (Elt F) → (⟨S8192x4x64, .f32⟩ : BufTy).Contents (Elt F)),
    nullary main_cst_190 (constant S_ .f32 0x00000000#32),
    binary main_v607 main_cst_190 main_v608 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)),
    binary main_v602 main_v608 main_v609 (mulf : (⟨S8192x64, .f32⟩ : BufTy).Contents (Elt F) → (⟨S8192x64, .f32⟩ : BufTy).Contents (Elt F) → (⟨S8192x64, .f32⟩ : BufTy).Contents (Elt F)),
    binary main_v609 main_v602 main_v610 (addf : (⟨S8192x64, .f32⟩ : BufTy).Contents (Elt F) → (⟨S8192x64, .f32⟩ : BufTy).Contents (Elt F) → (⟨S8192x64, .f32⟩ : BufTy).Contents (Elt F)),
    binary main_arg6 main_arg0 main_v611 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg2 main_v612 (broadcastInDim S1x4x64 ![1, 2] bcast_S4x64_S1x4x64_1_2 : (⟨S4x64, .f32⟩ : BufTy).Contents (Elt F) → (⟨S1x4x64, .f32⟩ : BufTy).Contents (Elt F)),
    unary main_arg4 main_v613 (broadcastInDim S8192x4x1 ![0, 1] bcast_S8192x4_S8192x4x1_0_1 : (⟨S8192x4, .f32⟩ : BufTy).Contents (Elt F) → (⟨S8192x4x1, .f32⟩ : BufTy).Contents (Elt F)),
    unary main_v612 main_v614 (broadcastInDim S8192x4x64 ![0, 1, 2] bcast_S1x4x64_S8192x4x64_0_1_2 : (⟨S1x4x64, .f32⟩ : BufTy).Contents (Elt F) → (⟨S8192x4x64, .f32⟩ : BufTy).Contents (Elt F)),
    unary main_v613 main_v615 (broadcastInDim S8192x4x64 ![0, 1, 2] bcast_S8192x4x1_S8192x4x64_0_1_2 : (⟨S8192x4x1, .f32⟩ : BufTy).Contents (Elt F) → (⟨S8192x4x64, .f32⟩ : BufTy).Contents (Elt F)),
    binary main_v614 main_v615 main_v616 (mulf : (⟨S8192x4x64, .f32⟩ : BufTy).Contents (Elt F) → (⟨S8192x4x64, .f32⟩ : BufTy).Contents (Elt F) → (⟨S8192x4x64, .f32⟩ : BufTy).Contents (Elt F)),
    nullary main_cst_191 (constant S_ .f32 0x00000000#32),
    binary main_v616 main_cst_191 main_v617 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)),
    binary main_v611 main_v617 main_v618 (mulf : (⟨S8192x64, .f32⟩ : BufTy).Contents (Elt F) → (⟨S8192x64, .f32⟩ : BufTy).Contents (Elt F) → (⟨S8192x64, .f32⟩ : BufTy).Contents (Elt F)),
    binary main_v618 main_v611 main_v619 (addf : (⟨S8192x64, .f32⟩ : BufTy).Contents (Elt F) → (⟨S8192x64, .f32⟩ : BufTy).Contents (Elt F) → (⟨S8192x64, .f32⟩ : BufTy).Contents (Elt F)),
    binary main_arg8 main_arg9 main_v620 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_arg7 main_arg10 main_v621 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v610) (TRef.of (T := ⟨S8192x64, .f32⟩) main_v610) (TRef.of (T := ⟨S8192x64, .f32⟩) main_call4_v0) mulf,
    TRef.nullary (TRef.of (T := ⟨S_, .f32⟩) main_call4_cst) (constant S_ .f32 0x00000000#32),
    TRef.binary (TRef.of (T := ⟨S8192x64, .f32⟩) main_call4_v0) (TRef.of (T := ⟨S_, .f32⟩) main_call4_cst) (TRef.of (T := ⟨S8192, .f32⟩) main_call4_v1) (fun x v => Host.reduceAdd x v reducesTo_S8192x64_S8192_d1 h_S_),
    TRef.unary (TRef.of (T := ⟨S8192, .f32⟩) main_call4_v1) (TRef.of (T := ⟨S8192x1, .f32⟩) main_call4_v2) (broadcastInDim S8192x1 ![0] bcast_S8192_S8192x1_0),
    TRef.unary (TRef.of (T := ⟨S8192x1, .f32⟩) main_call4_v2) (TRef.of (T := ⟨S8192x1, .f32⟩) main_v622) Host.sqrt,
    nullary main_cst_192 (constant S_ .f32 0x2B8CBCCC#32),
    unary main_cst_192 main_v623 (broadcastInDim S8192x1 ![] bcast_S_S8192x1 : (⟨S_, .f32⟩ : BufTy).Contents (Elt F) → (⟨S8192x1, .f32⟩ : BufTy).Contents (Elt F)),
    binary main_v622 main_v623 main_v624 (maximumf : (⟨S8192x1, .f32⟩ : BufTy).Contents (Elt F) → (⟨S8192x1, .f32⟩ : BufTy).Contents (Elt F) → (⟨S8192x1, .f32⟩ : BufTy).Contents (Elt F)),
    unary main_v624 main_v625 (broadcastInDim S8192x64 ![0, 1] bcast_S8192x1_S8192x64_0_1 : (⟨S8192x1, .f32⟩ : BufTy).Contents (Elt F) → (⟨S8192x64, .f32⟩ : BufTy).Contents (Elt F)),
    binary main_v610 main_v625 main_v626 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v620) (TRef.of (T := ⟨S8192x64, .f32⟩) main_v620) (TRef.of (T := ⟨S8192x64, .f32⟩) main_call5_v0) mulf,
    TRef.nullary (TRef.of (T := ⟨S_, .f32⟩) main_call5_cst) (constant S_ .f32 0x00000000#32),
    TRef.binary (TRef.of (T := ⟨S8192x64, .f32⟩) main_call5_v0) (TRef.of (T := ⟨S_, .f32⟩) main_call5_cst) (TRef.of (T := ⟨S8192, .f32⟩) main_call5_v1) (fun x v => Host.reduceAdd x v reducesTo_S8192x64_S8192_d1 h_S_),
    TRef.unary (TRef.of (T := ⟨S8192, .f32⟩) main_call5_v1) (TRef.of (T := ⟨S8192x1, .f32⟩) main_call5_v2) (broadcastInDim S8192x1 ![0] bcast_S8192_S8192x1_0),
    TRef.unary (TRef.of (T := ⟨S8192x1, .f32⟩) main_call5_v2) (TRef.of (T := ⟨S8192x1, .f32⟩) main_v627) Host.sqrt,
    nullary main_cst_193 (constant S_ .f32 0x2B8CBCCC#32),
    unary main_cst_193 main_v628 (broadcastInDim S8192x1 ![] bcast_S_S8192x1 : (⟨S_, .f32⟩ : BufTy).Contents (Elt F) → (⟨S8192x1, .f32⟩ : BufTy).Contents (Elt F)),
    binary main_v627 main_v628 main_v629 (maximumf : (⟨S8192x1, .f32⟩ : BufTy).Contents (Elt F) → (⟨S8192x1, .f32⟩ : BufTy).Contents (Elt F) → (⟨S8192x1, .f32⟩ : BufTy).Contents (Elt F)),
    unary main_v629 main_v630 (broadcastInDim S8192x64 ![0, 1] bcast_S8192x1_S8192x64_0_1 : (⟨S8192x1, .f32⟩ : BufTy).Contents (Elt F) → (⟨S8192x64, .f32⟩ : BufTy).Contents (Elt F)),
    binary main_v620 main_v630 main_v631 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v619) (TRef.of (T := ⟨S8192x64, .f32⟩) main_v619) (TRef.of (T := ⟨S8192x64, .f32⟩) main_call6_v0) mulf,
    TRef.nullary (TRef.of (T := ⟨S_, .f32⟩) main_call6_cst) (constant S_ .f32 0x00000000#32),
    TRef.binary (TRef.of (T := ⟨S8192x64, .f32⟩) main_call6_v0) (TRef.of (T := ⟨S_, .f32⟩) main_call6_cst) (TRef.of (T := ⟨S8192, .f32⟩) main_call6_v1) (fun x v => Host.reduceAdd x v reducesTo_S8192x64_S8192_d1 h_S_),
    TRef.unary (TRef.of (T := ⟨S8192, .f32⟩) main_call6_v1) (TRef.of (T := ⟨S8192x1, .f32⟩) main_call6_v2) (broadcastInDim S8192x1 ![0] bcast_S8192_S8192x1_0),
    TRef.unary (TRef.of (T := ⟨S8192x1, .f32⟩) main_call6_v2) (TRef.of (T := ⟨S8192x1, .f32⟩) main_v632) Host.sqrt,
    nullary main_cst_194 (constant S_ .f32 0x2B8CBCCC#32),
    unary main_cst_194 main_v633 (broadcastInDim S8192x1 ![] bcast_S_S8192x1 : (⟨S_, .f32⟩ : BufTy).Contents (Elt F) → (⟨S8192x1, .f32⟩ : BufTy).Contents (Elt F)),
    binary main_v632 main_v633 main_v634 (maximumf : (⟨S8192x1, .f32⟩ : BufTy).Contents (Elt F) → (⟨S8192x1, .f32⟩ : BufTy).Contents (Elt F) → (⟨S8192x1, .f32⟩ : BufTy).Contents (Elt F)),
    unary main_v634 main_v635 (broadcastInDim S8192x64 ![0, 1] bcast_S8192x1_S8192x64_0_1 : (⟨S8192x1, .f32⟩ : BufTy).Contents (Elt F) → (⟨S8192x64, .f32⟩ : BufTy).Contents (Elt F)),
    binary main_v619 main_v635 main_v636 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v621) (TRef.of (T := ⟨S8192x64, .f32⟩) main_v621) (TRef.of (T := ⟨S8192x64, .f32⟩) main_call7_v0) mulf,
    TRef.nullary (TRef.of (T := ⟨S_, .f32⟩) main_call7_cst) (constant S_ .f32 0x00000000#32),
    TRef.binary (TRef.of (T := ⟨S8192x64, .f32⟩) main_call7_v0) (TRef.of (T := ⟨S_, .f32⟩) main_call7_cst) (TRef.of (T := ⟨S8192, .f32⟩) main_call7_v1) (fun x v => Host.reduceAdd x v reducesTo_S8192x64_S8192_d1 h_S_),
    TRef.unary (TRef.of (T := ⟨S8192, .f32⟩) main_call7_v1) (TRef.of (T := ⟨S8192x1, .f32⟩) main_call7_v2) (broadcastInDim S8192x1 ![0] bcast_S8192_S8192x1_0),
    TRef.unary (TRef.of (T := ⟨S8192x1, .f32⟩) main_call7_v2) (TRef.of (T := ⟨S8192x1, .f32⟩) main_v637) Host.sqrt,
    nullary main_cst_195 (constant S_ .f32 0x2B8CBCCC#32),
    unary main_cst_195 main_v638 (broadcastInDim S8192x1 ![] bcast_S_S8192x1 : (⟨S_, .f32⟩ : BufTy).Contents (Elt F) → (⟨S8192x1, .f32⟩ : BufTy).Contents (Elt F)),
    binary main_v637 main_v638 main_v639 (maximumf : (⟨S8192x1, .f32⟩ : BufTy).Contents (Elt F) → (⟨S8192x1, .f32⟩ : BufTy).Contents (Elt F) → (⟨S8192x1, .f32⟩ : BufTy).Contents (Elt F)),
    unary main_v639 main_v640 (broadcastInDim S8192x64 ![0, 1] bcast_S8192x1_S8192x64_0_1 : (⟨S8192x1, .f32⟩ : BufTy).Contents (Elt F) → (⟨S8192x64, .f32⟩ : BufTy).Contents (Elt F)),
    binary main_v621 main_v640 main_v641 (Host.divf : (⟨S8192x64, .f32⟩ : BufTy).Contents (Elt F) → (⟨S8192x64, .f32⟩ : BufTy).Contents (Elt F) → (⟨S8192x64, .f32⟩ : BufTy).Contents (Elt F)),
    binary main_arg5 main_v619 main_v642 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)) ]

set_option maxRecDepth 8192 in
set_option maxHeartbeats 4000000 in
/-- The window is the line of its operations. -/
theorem main_part13_eq (c : Dev nD) : main_part13 (F := F) c = seq rops13 := rfl

set_option maxRecDepth 8192 in
/-- Every buffer an operation of the window touches is a TensorCore reference. -/
theorem rops13_sub : (rops13 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., unary_bufs_sub .., unary_bufs_sub .., binary_bufs_sub .., nullary_bufs_sub .., binary_bufs_sub .., binary_bufs_sub .., binary_bufs_sub .., binary_bufs_sub .., unary_bufs_sub .., unary_bufs_sub .., unary_bufs_sub .., unary_bufs_sub .., binary_bufs_sub .., nullary_bufs_sub .., binary_bufs_sub .., binary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩

set_option maxRecDepth 8192 in
/-- Every operation of the window determines its result. -/
theorem rops13_fresh : ∀ op ∈ (rops13 : List (HloOp τ sig (Elt F))), op.fresh = ∅ :=
  List.forall_iff_forall_mem.mp (show (rops13 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops13_W : List (Ref sig .tc) := [main_v591, main_call2_v0, main_call2_cst, main_call2_v1, main_call2_v2, main_v592, main_cst_188, main_v593, main_v594, main_v595, main_v596, main_call3_v0, main_call3_cst, main_call3_v1, main_call3_v2, main_v597, main_cst_189, main_v598, main_v599, main_v600, main_v601, main_v602, main_v603, main_v604, main_v605, main_v606, main_v607, main_cst_190, main_v608, main_v609, main_v610, main_v611, main_v612, main_v613, main_v614, main_v615, main_v616, main_cst_191, main_v617, main_v618, main_v619, main_v620, main_v621, main_call4_v0, main_call4_cst, main_call4_v1, main_call4_v2, main_v622, main_cst_192, main_v623, main_v624, main_v625, main_v626, main_call5_v0, main_call5_cst, main_call5_v1, main_call5_v2, main_v627, main_cst_193, main_v628, main_v629, main_v630, main_v631, main_call6_v0, main_call6_cst, main_call6_v1, main_call6_v2, main_v632, main_cst_194, main_v633, main_v634, main_v635, main_v636, main_call7_v0, main_call7_cst, main_call7_v1, main_call7_v2, main_v637, main_cst_195, main_v638, main_v639, main_v640, main_v641, main_v642]

set_option maxRecDepth 8192 in
/-- Each operation of the window writes its own entry of `rops13_W` and nothing else. -/
theorem rops13_writes : (rops13 : List (HloOp τ sig (Elt F))).Forall fun op =>
    op.writes ⊆ (rops13_W.map (Proc.devRef (τ := τ) .tc)).toFinset := by
  simp only [List.Forall]
  exact
    ⟨by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide)⟩

/-- A buffer the window does not write keeps its contents through it. -/
theorem rops13_keep (V : Valuation τ sig (Elt F)) {r : Ref sig .tc} (h : r ∉ rops13_W) :
    after rops13 V (Proc.devRef .tc r) = V (Proc.devRef .tc r) :=
  after_of_writes_sub rops13 V rops13_writes h

set_option maxRecDepth 8192 in
/-- The window writes none of @main's eleven arguments. -/
theorem rops13_W_args : ∀ r ∈ ([main_arg0, main_arg1, main_arg2, main_arg3, main_arg4, main_arg5, main_arg6, main_arg7, main_arg8, main_arg9, main_arg10] : List (Ref sig .tc)), r ∉ rops13_W := by decide

end Cert.ReferenceIdeal.Hand

end
-- ==== Proof.Ref.Ops14.lean ====
/-
  Window 14 of the reference program's @main: its statements are the operations 873 … 948 of the
  program's 997 host operations (a call of a module-local function is its callee's operations, in the call's place).

  A host program is a straight line of operations, each writing one result buffer from the contents of its operand
  buffers. The window IS the line of its operations (`main_part14_eq`: the two sides unfold to the same sequence of
  steps). Of each operation the run of the whole program asks three things, each read off the operation's builder:
  every buffer it touches is one of the TensorCore's references (`rops14_sub`); it determines its result, leaving no
  buffer at contents not chosen (`rops14_fresh`); and the one buffer it writes is in the list `rops14_W`
  (`rops14_writes`) — so a buffer not in that list keeps its contents through the window (`rops14_keep`), and no argument
  of @main is in it (`rops14_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 14's operations, in order: @main's operations 873 … 948 of 997. -/
abbrev rops14 : List (HloOp τ sig (Elt F)) :=
  [ unary main_arg2 main_v643 (broadcastInDim S1x4x64 ![1, 2] bcast_S4x64_S1x4x64_1_2 : (⟨S4x64, .f32⟩ : BufTy).Contents (Elt F) → (⟨S1x4x64, .f32⟩ : BufTy).Contents (Elt F)),
    unary main_arg3 main_v644 (broadcastInDim S8192x4x1 ![0, 1] bcast_S8192x4_S8192x4x1_0_1 : (⟨S8192x4, .f32⟩ : BufTy).Contents (Elt F) → (⟨S8192x4x1, .f32⟩ : BufTy).Contents (Elt F)),
    unary main_v643 main_v645 (broadcastInDim S8192x4x64 ![0, 1, 2] bcast_S1x4x64_S8192x4x64_0_1_2 : (⟨S1x4x64, .f32⟩ : BufTy).Contents (Elt F) → (⟨S8192x4x64, .f32⟩ : BufTy).Contents (Elt F)),
    unary main_v644 main_v646 (broadcastInDim S8192x4x64 ![0, 1, 2] bcast_S8192x4x1_S8192x4x64_0_1_2 : (⟨S8192x4x1, .f32⟩ : BufTy).Contents (Elt F) → (⟨S8192x4x64, .f32⟩ : BufTy).Contents (Elt F)),
    binary main_v645 main_v646 main_v647 (mulf : (⟨S8192x4x64, .f32⟩ : BufTy).Contents (Elt F) → (⟨S8192x4x64, .f32⟩ : BufTy).Contents (Elt F) → (⟨S8192x4x64, .f32⟩ : BufTy).Contents (Elt F)),
    nullary main_cst_196 (constant S_ .f32 0x00000000#32),
    binary main_v647 main_cst_196 main_v648 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)),
    binary main_v642 main_v648 main_v649 (mulf : (⟨S8192x64, .f32⟩ : BufTy).Contents (Elt F) → (⟨S8192x64, .f32⟩ : BufTy).Contents (Elt F) → (⟨S8192x64, .f32⟩ : BufTy).Contents (Elt F)),
    binary main_v649 main_v642 main_v650 (addf : (⟨S8192x64, .f32⟩ : BufTy).Contents (Elt F) → (⟨S8192x64, .f32⟩ : BufTy).Contents (Elt F) → (⟨S8192x64, .f32⟩ : BufTy).Contents (Elt F)),
    binary main_arg6 main_v610 main_v651 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg2 main_v652 (broadcastInDim S1x4x64 ![1, 2] bcast_S4x64_S1x4x64_1_2 : (⟨S4x64, .f32⟩ : BufTy).Contents (Elt F) → (⟨S1x4x64, .f32⟩ : BufTy).Contents (Elt F)),
    unary main_arg4 main_v653 (broadcastInDim S8192x4x1 ![0, 1] bcast_S8192x4_S8192x4x1_0_1 : (⟨S8192x4, .f32⟩ : BufTy).Contents (Elt F) → (⟨S8192x4x1, .f32⟩ : BufTy).Contents (Elt F)),
    unary main_v652 main_v654 (broadcastInDim S8192x4x64 ![0, 1, 2] bcast_S1x4x64_S8192x4x64_0_1_2 : (⟨S1x4x64, .f32⟩ : BufTy).Contents (Elt F) → (⟨S8192x4x64, .f32⟩ : BufTy).Contents (Elt F)),
    unary main_v653 main_v655 (broadcastInDim S8192x4x64 ![0, 1, 2] bcast_S8192x4x1_S8192x4x64_0_1_2 : (⟨S8192x4x1, .f32⟩ : BufTy).Contents (Elt F) → (⟨S8192x4x64, .f32⟩ : BufTy).Contents (Elt F)),
    binary main_v654 main_v655 main_v656 (mulf : (⟨S8192x4x64, .f32⟩ : BufTy).Contents (Elt F) → (⟨S8192x4x64, .f32⟩ : BufTy).Contents (Elt F) → (⟨S8192x4x64, .f32⟩ : BufTy).Contents (Elt F)),
    nullary main_cst_197 (constant S_ .f32 0x00000000#32),
    binary main_v656 main_cst_197 main_v657 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)),
    binary main_v651 main_v657 main_v658 (mulf : (⟨S8192x64, .f32⟩ : BufTy).Contents (Elt F) → (⟨S8192x64, .f32⟩ : BufTy).Contents (Elt F) → (⟨S8192x64, .f32⟩ : BufTy).Contents (Elt F)),
    binary main_v658 main_v651 main_v659 (addf : (⟨S8192x64, .f32⟩ : BufTy).Contents (Elt F) → (⟨S8192x64, .f32⟩ : BufTy).Contents (Elt F) → (⟨S8192x64, .f32⟩ : BufTy).Contents (Elt F)),
    binary main_arg8 main_v620 main_v660 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_arg7 main_v621 main_v661 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v650) (TRef.of (T := ⟨S8192x64, .f32⟩) main_v650) (TRef.of (T := ⟨S8192x64, .f32⟩) main_call8_v0) mulf,
    TRef.nullary (TRef.of (T := ⟨S_, .f32⟩) main_call8_cst) (constant S_ .f32 0x00000000#32),
    TRef.binary (TRef.of (T := ⟨S8192x64, .f32⟩) main_call8_v0) (TRef.of (T := ⟨S_, .f32⟩) main_call8_cst) (TRef.of (T := ⟨S8192, .f32⟩) main_call8_v1) (fun x v => Host.reduceAdd x v reducesTo_S8192x64_S8192_d1 h_S_),
    TRef.unary (TRef.of (T := ⟨S8192, .f32⟩) main_call8_v1) (TRef.of (T := ⟨S8192x1, .f32⟩) main_call8_v2) (broadcastInDim S8192x1 ![0] bcast_S8192_S8192x1_0),
    TRef.unary (TRef.of (T := ⟨S8192x1, .f32⟩) main_call8_v2) (TRef.of (T := ⟨S8192x1, .f32⟩) main_v662) Host.sqrt,
    nullary main_cst_198 (constant S_ .f32 0x2B8CBCCC#32),
    unary main_cst_198 main_v663 (broadcastInDim S8192x1 ![] bcast_S_S8192x1 : (⟨S_, .f32⟩ : BufTy).Contents (Elt F) → (⟨S8192x1, .f32⟩ : BufTy).Contents (Elt F)),
    binary main_v662 main_v663 main_v664 (maximumf : (⟨S8192x1, .f32⟩ : BufTy).Contents (Elt F) → (⟨S8192x1, .f32⟩ : BufTy).Contents (Elt F) → (⟨S8192x1, .f32⟩ : BufTy).Contents (Elt F)),
    unary main_v664 main_v665 (broadcastInDim S8192x64 ![0, 1] bcast_S8192x1_S8192x64_0_1 : (⟨S8192x1, .f32⟩ : BufTy).Contents (Elt F) → (⟨S8192x64, .f32⟩ : BufTy).Contents (Elt F)),
    binary main_v650 main_v665 main_v666 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v660) (TRef.of (T := ⟨S8192x64, .f32⟩) main_v660) (TRef.of (T := ⟨S8192x64, .f32⟩) main_call9_v0) mulf,
    TRef.nullary (TRef.of (T := ⟨S_, .f32⟩) main_call9_cst) (constant S_ .f32 0x00000000#32),
    TRef.binary (TRef.of (T := ⟨S8192x64, .f32⟩) main_call9_v0) (TRef.of (T := ⟨S_, .f32⟩) main_call9_cst) (TRef.of (T := ⟨S8192, .f32⟩) main_call9_v1) (fun x v => Host.reduceAdd x v reducesTo_S8192x64_S8192_d1 h_S_),
    TRef.unary (TRef.of (T := ⟨S8192, .f32⟩) main_call9_v1) (TRef.of (T := ⟨S8192x1, .f32⟩) main_call9_v2) (broadcastInDim S8192x1 ![0] bcast_S8192_S8192x1_0),
    TRef.unary (TRef.of (T := ⟨S8192x1, .f32⟩) main_call9_v2) (TRef.of (T := ⟨S8192x1, .f32⟩) main_v667) Host.sqrt,
    nullary main_cst_199 (constant S_ .f32 0x2B8CBCCC#32),
    unary main_cst_199 main_v668 (broadcastInDim S8192x1 ![] bcast_S_S8192x1 : (⟨S_, .f32⟩ : BufTy).Contents (Elt F) → (⟨S8192x1, .f32⟩ : BufTy).Contents (Elt F)),
    binary main_v667 main_v668 main_v669 (maximumf : (⟨S8192x1, .f32⟩ : BufTy).Contents (Elt F) → (⟨S8192x1, .f32⟩ : BufTy).Contents (Elt F) → (⟨S8192x1, .f32⟩ : BufTy).Contents (Elt F)),
    unary main_v669 main_v670 (broadcastInDim S8192x64 ![0, 1] bcast_S8192x1_S8192x64_0_1 : (⟨S8192x1, .f32⟩ : BufTy).Contents (Elt F) → (⟨S8192x64, .f32⟩ : BufTy).Contents (Elt F)),
    binary main_v660 main_v670 main_v671 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v659) (TRef.of (T := ⟨S8192x64, .f32⟩) main_v659) (TRef.of (T := ⟨S8192x64, .f32⟩) main_call10_v0) mulf,
    TRef.nullary (TRef.of (T := ⟨S_, .f32⟩) main_call10_cst) (constant S_ .f32 0x00000000#32),
    TRef.binary (TRef.of (T := ⟨S8192x64, .f32⟩) main_call10_v0) (TRef.of (T := ⟨S_, .f32⟩) main_call10_cst) (TRef.of (T := ⟨S8192, .f32⟩) main_call10_v1) (fun x v => Host.reduceAdd x v reducesTo_S8192x64_S8192_d1 h_S_),
    TRef.unary (TRef.of (T := ⟨S8192, .f32⟩) main_call10_v1) (TRef.of (T := ⟨S8192x1, .f32⟩) main_call10_v2) (broadcastInDim S8192x1 ![0] bcast_S8192_S8192x1_0),
    TRef.unary (TRef.of (T := ⟨S8192x1, .f32⟩) main_call10_v2) (TRef.of (T := ⟨S8192x1, .f32⟩) main_v672) Host.sqrt,
    nullary main_cst_200 (constant S_ .f32 0x2B8CBCCC#32),
    unary main_cst_200 main_v673 (broadcastInDim S8192x1 ![] bcast_S_S8192x1 : (⟨S_, .f32⟩ : BufTy).Contents (Elt F) → (⟨S8192x1, .f32⟩ : BufTy).Contents (Elt F)),
    binary main_v672 main_v673 main_v674 (maximumf : (⟨S8192x1, .f32⟩ : BufTy).Contents (Elt F) → (⟨S8192x1, .f32⟩ : BufTy).Contents (Elt F) → (⟨S8192x1, .f32⟩ : BufTy).Contents (Elt F)),
    unary main_v674 main_v675 (broadcastInDim S8192x64 ![0, 1] bcast_S8192x1_S8192x64_0_1 : (⟨S8192x1, .f32⟩ : BufTy).Contents (Elt F) → (⟨S8192x64, .f32⟩ : BufTy).Contents (Elt F)),
    binary main_v659 main_v675 main_v676 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v661) (TRef.of (T := ⟨S8192x64, .f32⟩) main_v661) (TRef.of (T := ⟨S8192x64, .f32⟩) main_call11_v0) mulf,
    TRef.nullary (TRef.of (T := ⟨S_, .f32⟩) main_call11_cst) (constant S_ .f32 0x00000000#32),
    TRef.binary (TRef.of (T := ⟨S8192x64, .f32⟩) main_call11_v0) (TRef.of (T := ⟨S_, .f32⟩) main_call11_cst) (TRef.of (T := ⟨S8192, .f32⟩) main_call11_v1) (fun x v => Host.reduceAdd x v reducesTo_S8192x64_S8192_d1 h_S_),
    TRef.unary (TRef.of (T := ⟨S8192, .f32⟩) main_call11_v1) (TRef.of (T := ⟨S8192x1, .f32⟩) main_call11_v2) (broadcastInDim S8192x1 ![0] bcast_S8192_S8192x1_0),
    TRef.unary (TRef.of (T := ⟨S8192x1, .f32⟩) main_call11_v2) (TRef.of (T := ⟨S8192x1, .f32⟩) main_v677) Host.sqrt,
    nullary main_cst_201 (constant S_ .f32 0x2B8CBCCC#32),
    unary main_cst_201 main_v678 (broadcastInDim S8192x1 ![] bcast_S_S8192x1 : (⟨S_, .f32⟩ : BufTy).Contents (Elt F) → (⟨S8192x1, .f32⟩ : BufTy).Contents (Elt F)),
    binary main_v677 main_v678 main_v679 (maximumf : (⟨S8192x1, .f32⟩ : BufTy).Contents (Elt F) → (⟨S8192x1, .f32⟩ : BufTy).Contents (Elt F) → (⟨S8192x1, .f32⟩ : BufTy).Contents (Elt F)),
    unary main_v679 main_v680 (broadcastInDim S8192x64 ![0, 1] bcast_S8192x1_S8192x64_0_1 : (⟨S8192x1, .f32⟩ : BufTy).Contents (Elt F) → (⟨S8192x64, .f32⟩ : BufTy).Contents (Elt F)),
    binary main_v661 main_v680 main_v681 (Host.divf : (⟨S8192x64, .f32⟩ : BufTy).Contents (Elt F) → (⟨S8192x64, .f32⟩ : BufTy).Contents (Elt F) → (⟨S8192x64, .f32⟩ : BufTy).Contents (Elt F)),
    binary main_arg5 main_v659 main_v682 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg2 main_v683 (broadcastInDim S1x4x64 ![1, 2] bcast_S4x64_S1x4x64_1_2 : (⟨S4x64, .f32⟩ : BufTy).Contents (Elt F) → (⟨S1x4x64, .f32⟩ : BufTy).Contents (Elt F)),
    unary main_arg3 main_v684 (broadcastInDim S8192x4x1 ![0, 1] bcast_S8192x4_S8192x4x1_0_1 : (⟨S8192x4, .f32⟩ : BufTy).Contents (Elt F) → (⟨S8192x4x1, .f32⟩ : BufTy).Contents (Elt F)),
    unary main_v683 main_v685 (broadcastInDim S8192x4x64 ![0, 1, 2] bcast_S1x4x64_S8192x4x64_0_1_2 : (⟨S1x4x64, .f32⟩ : BufTy).Contents (Elt F) → (⟨S8192x4x64, .f32⟩ : BufTy).Contents (Elt F)),
    unary main_v684 main_v686 (broadcastInDim S8192x4x64 ![0, 1, 2] bcast_S8192x4x1_S8192x4x64_0_1_2 : (⟨S8192x4x1, .f32⟩ : BufTy).Contents (Elt F) → (⟨S8192x4x64, .f32⟩ : BufTy).Contents (Elt F)),
    binary main_v685 main_v686 main_v687 (mulf : (⟨S8192x4x64, .f32⟩ : BufTy).Contents (Elt F) → (⟨S8192x4x64, .f32⟩ : BufTy).Contents (Elt F) → (⟨S8192x4x64, .f32⟩ : BufTy).Contents (Elt F)),
    nullary main_cst_202 (constant S_ .f32 0x00000000#32),
    binary main_v687 main_cst_202 main_v688 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)),
    binary main_v682 main_v688 main_v689 (mulf : (⟨S8192x64, .f32⟩ : BufTy).Contents (Elt F) → (⟨S8192x64, .f32⟩ : BufTy).Contents (Elt F) → (⟨S8192x64, .f32⟩ : BufTy).Contents (Elt F)),
    binary main_v689 main_v682 main_v690 (addf : (⟨S8192x64, .f32⟩ : BufTy).Contents (Elt F) → (⟨S8192x64, .f32⟩ : BufTy).Contents (Elt F) → (⟨S8192x64, .f32⟩ : BufTy).Contents (Elt F)),
    binary main_arg6 main_v650 main_v691 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg2 main_v692 (broadcastInDim S1x4x64 ![1, 2] bcast_S4x64_S1x4x64_1_2 : (⟨S4x64, .f32⟩ : BufTy).Contents (Elt F) → (⟨S1x4x64, .f32⟩ : BufTy).Contents (Elt F)),
    unary main_arg4 main_v693 (broadcastInDim S8192x4x1 ![0, 1] bcast_S8192x4_S8192x4x1_0_1 : (⟨S8192x4, .f32⟩ : BufTy).Contents (Elt F) → (⟨S8192x4x1, .f32⟩ : BufTy).Contents (Elt F)),
    unary main_v692 main_v694 (broadcastInDim S8192x4x64 ![0, 1, 2] bcast_S1x4x64_S8192x4x64_0_1_2 : (⟨S1x4x64, .f32⟩ : BufTy).Contents (Elt F) → (⟨S8192x4x64, .f32⟩ : BufTy).Contents (Elt F)),
    unary main_v693 main_v695 (broadcastInDim S8192x4x64 ![0, 1, 2] bcast_S8192x4x1_S8192x4x64_0_1_2 : (⟨S8192x4x1, .f32⟩ : BufTy).Contents (Elt F) → (⟨S8192x4x64, .f32⟩ : BufTy).Contents (Elt F)) ]

set_option maxRecDepth 8192 in
set_option maxHeartbeats 4000000 in
/-- The window is the line of its operations. -/
theorem main_part14_eq (c : Dev nD) : main_part14 (F := F) c = seq rops14 := rfl

set_option maxRecDepth 8192 in
/-- Every buffer an operation of the window touches is a TensorCore reference. -/
theorem rops14_sub : (rops14 : List (HloOp τ sig (Elt F))).Forall fun op => op.bufs ⊆ tcRefs τ sig :=
  ⟨unary_bufs_sub .., unary_bufs_sub .., unary_bufs_sub .., unary_bufs_sub .., binary_bufs_sub .., nullary_bufs_sub .., binary_bufs_sub .., binary_bufs_sub .., binary_bufs_sub .., binary_bufs_sub .., unary_bufs_sub .., unary_bufs_sub .., unary_bufs_sub .., unary_bufs_sub .., binary_bufs_sub .., nullary_bufs_sub .., binary_bufs_sub .., binary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., unary_bufs_sub .., unary_bufs_sub .., binary_bufs_sub .., nullary_bufs_sub .., binary_bufs_sub .., binary_bufs_sub .., binary_bufs_sub .., binary_bufs_sub .., unary_bufs_sub .., unary_bufs_sub .., unary_bufs_sub .., unary_bufs_sub ..⟩

set_option maxRecDepth 8192 in
/-- Every operation of the window determines its result. -/
theorem rops14_fresh : ∀ op ∈ (rops14 : List (HloOp τ sig (Elt F))), op.fresh = ∅ :=
  List.forall_iff_forall_mem.mp (show (rops14 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops14_W : List (Ref sig .tc) := [main_v643, main_v644, main_v645, main_v646, main_v647, main_cst_196, main_v648, main_v649, main_v650, main_v651, main_v652, main_v653, main_v654, main_v655, main_v656, main_cst_197, main_v657, main_v658, main_v659, main_v660, main_v661, main_call8_v0, main_call8_cst, main_call8_v1, main_call8_v2, main_v662, main_cst_198, main_v663, main_v664, main_v665, main_v666, main_call9_v0, main_call9_cst, main_call9_v1, main_call9_v2, main_v667, main_cst_199, main_v668, main_v669, main_v670, main_v671, main_call10_v0, main_call10_cst, main_call10_v1, main_call10_v2, main_v672, main_cst_200, main_v673, main_v674, main_v675, main_v676, main_call11_v0, main_call11_cst, main_call11_v1, main_call11_v2, main_v677, main_cst_201, main_v678, main_v679, main_v680, main_v681, main_v682, main_v683, main_v684, main_v685, main_v686, main_v687, main_cst_202, main_v688, main_v689, main_v690, main_v691, main_v692, main_v693, main_v694, main_v695]

set_option maxRecDepth 8192 in
/-- Each operation of the window writes its own entry of `rops14_W` and nothing else. -/
theorem rops14_writes : (rops14 : List (HloOp τ sig (Elt F))).Forall fun op =>
    op.writes ⊆ (rops14_W.map (Proc.devRef (τ := τ) .tc)).toFinset := by
  simp only [List.Forall]
  exact
    ⟨by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide)⟩

/-- A buffer the window does not write keeps its contents through it. -/
theorem rops14_keep (V : Valuation τ sig (Elt F)) {r : Ref sig .tc} (h : r ∉ rops14_W) :
    after rops14 V (Proc.devRef .tc r) = V (Proc.devRef .tc r) :=
  after_of_writes_sub rops14 V rops14_writes h

set_option maxRecDepth 8192 in
/-- The window writes none of @main's eleven arguments. -/
theorem rops14_W_args : ∀ r ∈ ([main_arg0, main_arg1, main_arg2, main_arg3, main_arg4, main_arg5, main_arg6, main_arg7, main_arg8, main_arg9, main_arg10] : List (Ref sig .tc)), r ∉ rops14_W := by decide

end Cert.ReferenceIdeal.Hand

end
-- ==== Proof.Ref.Ops15.lean ====
/-
  Window 15 of the reference program's @main: its statements are the operations 949 … 997 of the
  program's 997 host operations (a call of a module-local function is its callee's operations, in the call's place).

  A host program is a straight line of operations, each writing one result buffer from the contents of its operand
  buffers. The window IS the line of its operations (`main_part15_eq`: the two sides unfold to the same sequence of
  steps). Of each operation the run of the whole program asks three things, each read off the operation's builder:
  every buffer it touches is one of the TensorCore's references (`rops15_sub`); it determines its result, leaving no
  buffer at contents not chosen (`rops15_fresh`); and the one buffer it writes is in the list `rops15_W`
  (`rops15_writes`) — so a buffer not in that list keeps its contents through the window (`rops15_keep`), and no argument
  of @main is in it (`rops15_W_args`: the arguments are read, never written).
-/
import proofs.«158997_j77232101916990_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 15's operations, in order: @main's operations 949 … 997 of 997. -/
abbrev rops15 : List (HloOp τ sig (Elt F)) :=
  [ binary main_v694 main_v695 main_v696 (mulf : (⟨S8192x4x64, .f32⟩ : BufTy).Contents (Elt F) → (⟨S8192x4x64, .f32⟩ : BufTy).Contents (Elt F) → (⟨S8192x4x64, .f32⟩ : BufTy).Contents (Elt F)),
    nullary main_cst_203 (constant S_ .f32 0x00000000#32),
    binary main_v696 main_cst_203 main_v697 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)),
    binary main_v691 main_v697 main_v698 (mulf : (⟨S8192x64, .f32⟩ : BufTy).Contents (Elt F) → (⟨S8192x64, .f32⟩ : BufTy).Contents (Elt F) → (⟨S8192x64, .f32⟩ : BufTy).Contents (Elt F)),
    binary main_v698 main_v691 main_v699 (addf : (⟨S8192x64, .f32⟩ : BufTy).Contents (Elt F) → (⟨S8192x64, .f32⟩ : BufTy).Contents (Elt F) → (⟨S8192x64, .f32⟩ : BufTy).Contents (Elt F)),
    binary main_arg8 main_v660 main_v700 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_arg7 main_v661 main_v701 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v690) (TRef.of (T := ⟨S8192x64, .f32⟩) main_v690) (TRef.of (T := ⟨S8192x64, .f32⟩) main_call12_v0) mulf,
    TRef.nullary (TRef.of (T := ⟨S_, .f32⟩) main_call12_cst) (constant S_ .f32 0x00000000#32),
    TRef.binary (TRef.of (T := ⟨S8192x64, .f32⟩) main_call12_v0) (TRef.of (T := ⟨S_, .f32⟩) main_call12_cst) (TRef.of (T := ⟨S8192, .f32⟩) main_call12_v1) (fun x v => Host.reduceAdd x v reducesTo_S8192x64_S8192_d1 h_S_),
    TRef.unary (TRef.of (T := ⟨S8192, .f32⟩) main_call12_v1) (TRef.of (T := ⟨S8192x1, .f32⟩) main_call12_v2) (broadcastInDim S8192x1 ![0] bcast_S8192_S8192x1_0),
    TRef.unary (TRef.of (T := ⟨S8192x1, .f32⟩) main_call12_v2) (TRef.of (T := ⟨S8192x1, .f32⟩) main_v702) Host.sqrt,
    nullary main_cst_204 (constant S_ .f32 0x2B8CBCCC#32),
    unary main_cst_204 main_v703 (broadcastInDim S8192x1 ![] bcast_S_S8192x1 : (⟨S_, .f32⟩ : BufTy).Contents (Elt F) → (⟨S8192x1, .f32⟩ : BufTy).Contents (Elt F)),
    binary main_v702 main_v703 main_v704 (maximumf : (⟨S8192x1, .f32⟩ : BufTy).Contents (Elt F) → (⟨S8192x1, .f32⟩ : BufTy).Contents (Elt F) → (⟨S8192x1, .f32⟩ : BufTy).Contents (Elt F)),
    unary main_v704 main_v705 (broadcastInDim S8192x64 ![0, 1] bcast_S8192x1_S8192x64_0_1 : (⟨S8192x1, .f32⟩ : BufTy).Contents (Elt F) → (⟨S8192x64, .f32⟩ : BufTy).Contents (Elt F)),
    binary main_v690 main_v705 main_v706 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v700) (TRef.of (T := ⟨S8192x64, .f32⟩) main_v700) (TRef.of (T := ⟨S8192x64, .f32⟩) main_call13_v0) mulf,
    TRef.nullary (TRef.of (T := ⟨S_, .f32⟩) main_call13_cst) (constant S_ .f32 0x00000000#32),
    TRef.binary (TRef.of (T := ⟨S8192x64, .f32⟩) main_call13_v0) (TRef.of (T := ⟨S_, .f32⟩) main_call13_cst) (TRef.of (T := ⟨S8192, .f32⟩) main_call13_v1) (fun x v => Host.reduceAdd x v reducesTo_S8192x64_S8192_d1 h_S_),
    TRef.unary (TRef.of (T := ⟨S8192, .f32⟩) main_call13_v1) (TRef.of (T := ⟨S8192x1, .f32⟩) main_call13_v2) (broadcastInDim S8192x1 ![0] bcast_S8192_S8192x1_0),
    TRef.unary (TRef.of (T := ⟨S8192x1, .f32⟩) main_call13_v2) (TRef.of (T := ⟨S8192x1, .f32⟩) main_v707) Host.sqrt,
    nullary main_cst_205 (constant S_ .f32 0x2B8CBCCC#32),
    unary main_cst_205 main_v708 (broadcastInDim S8192x1 ![] bcast_S_S8192x1 : (⟨S_, .f32⟩ : BufTy).Contents (Elt F) → (⟨S8192x1, .f32⟩ : BufTy).Contents (Elt F)),
    binary main_v707 main_v708 main_v709 (maximumf : (⟨S8192x1, .f32⟩ : BufTy).Contents (Elt F) → (⟨S8192x1, .f32⟩ : BufTy).Contents (Elt F) → (⟨S8192x1, .f32⟩ : BufTy).Contents (Elt F)),
    unary main_v709 main_v710 (broadcastInDim S8192x64 ![0, 1] bcast_S8192x1_S8192x64_0_1 : (⟨S8192x1, .f32⟩ : BufTy).Contents (Elt F) → (⟨S8192x64, .f32⟩ : BufTy).Contents (Elt F)),
    binary main_v700 main_v710 main_v711 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v699) (TRef.of (T := ⟨S8192x64, .f32⟩) main_v699) (TRef.of (T := ⟨S8192x64, .f32⟩) main_call14_v0) mulf,
    TRef.nullary (TRef.of (T := ⟨S_, .f32⟩) main_call14_cst) (constant S_ .f32 0x00000000#32),
    TRef.binary (TRef.of (T := ⟨S8192x64, .f32⟩) main_call14_v0) (TRef.of (T := ⟨S_, .f32⟩) main_call14_cst) (TRef.of (T := ⟨S8192, .f32⟩) main_call14_v1) (fun x v => Host.reduceAdd x v reducesTo_S8192x64_S8192_d1 h_S_),
    TRef.unary (TRef.of (T := ⟨S8192, .f32⟩) main_call14_v1) (TRef.of (T := ⟨S8192x1, .f32⟩) main_call14_v2) (broadcastInDim S8192x1 ![0] bcast_S8192_S8192x1_0),
    TRef.unary (TRef.of (T := ⟨S8192x1, .f32⟩) main_call14_v2) (TRef.of (T := ⟨S8192x1, .f32⟩) main_v712) Host.sqrt,
    nullary main_cst_206 (constant S_ .f32 0x2B8CBCCC#32),
    unary main_cst_206 main_v713 (broadcastInDim S8192x1 ![] bcast_S_S8192x1 : (⟨S_, .f32⟩ : BufTy).Contents (Elt F) → (⟨S8192x1, .f32⟩ : BufTy).Contents (Elt F)),
    binary main_v712 main_v713 main_v714 (maximumf : (⟨S8192x1, .f32⟩ : BufTy).Contents (Elt F) → (⟨S8192x1, .f32⟩ : BufTy).Contents (Elt F) → (⟨S8192x1, .f32⟩ : BufTy).Contents (Elt F)),
    unary main_v714 main_v715 (broadcastInDim S8192x64 ![0, 1] bcast_S8192x1_S8192x64_0_1 : (⟨S8192x1, .f32⟩ : BufTy).Contents (Elt F) → (⟨S8192x64, .f32⟩ : BufTy).Contents (Elt F)),
    binary main_v699 main_v715 main_v716 (Host.divf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v701) (TRef.of (T := ⟨S8192x64, .f32⟩) main_v701) (TRef.of (T := ⟨S8192x64, .f32⟩) main_call15_v0) mulf,
    TRef.nullary (TRef.of (T := ⟨S_, .f32⟩) main_call15_cst) (constant S_ .f32 0x00000000#32),
    TRef.binary (TRef.of (T := ⟨S8192x64, .f32⟩) main_call15_v0) (TRef.of (T := ⟨S_, .f32⟩) main_call15_cst) (TRef.of (T := ⟨S8192, .f32⟩) main_call15_v1) (fun x v => Host.reduceAdd x v reducesTo_S8192x64_S8192_d1 h_S_),
    TRef.unary (TRef.of (T := ⟨S8192, .f32⟩) main_call15_v1) (TRef.of (T := ⟨S8192x1, .f32⟩) main_call15_v2) (broadcastInDim S8192x1 ![0] bcast_S8192_S8192x1_0),
    TRef.unary (TRef.of (T := ⟨S8192x1, .f32⟩) main_call15_v2) (TRef.of (T := ⟨S8192x1, .f32⟩) main_v717) Host.sqrt,
    nullary main_cst_207 (constant S_ .f32 0x2B8CBCCC#32),
    unary main_cst_207 main_v718 (broadcastInDim S8192x1 ![] bcast_S_S8192x1 : (⟨S_, .f32⟩ : BufTy).Contents (Elt F) → (⟨S8192x1, .f32⟩ : BufTy).Contents (Elt F)),
    binary main_v717 main_v718 main_v719 (maximumf : (⟨S8192x1, .f32⟩ : BufTy).Contents (Elt F) → (⟨S8192x1, .f32⟩ : BufTy).Contents (Elt F) → (⟨S8192x1, .f32⟩ : BufTy).Contents (Elt F)),
    unary main_v719 main_v720 (broadcastInDim S8192x64 ![0, 1] bcast_S8192x1_S8192x64_0_1 : (⟨S8192x1, .f32⟩ : BufTy).Contents (Elt F) → (⟨S8192x64, .f32⟩ : BufTy).Contents (Elt F)),
    binary main_v701 main_v720 main_v721 (Host.divf : (⟨S8192x64, .f32⟩ : BufTy).Contents (Elt F) → (⟨S8192x64, .f32⟩ : BufTy).Contents (Elt F) → (⟨S8192x64, .f32⟩ : BufTy).Contents (Elt F)),
    nary ![main_v586, main_v591, main_v626, main_v631, main_v666, main_v671, main_v706, main_v711] main_v722 (fun u => concatenate S8192x512 1 [⟨S8192x64, u 0⟩, ⟨S8192x64, u 1⟩, ⟨S8192x64, u 2⟩, ⟨S8192x64, u 3⟩, ⟨S8192x64, u 4⟩, ⟨S8192x64, u 5⟩, ⟨S8192x64, u 6⟩, ⟨S8192x64, u 7⟩] concatenates_S8192x64_S8192x64_S8192x64_S8192x64_S8192x64_S8192x64_S8192x64_S8192x64_S8192x512_d1),
    nary ![main_v596, main_v601, main_v636, main_v641, main_v676, main_v681, main_v716, main_v721] main_v723 (fun u => concatenate S8192x512 1 [⟨S8192x64, u 0⟩, ⟨S8192x64, u 1⟩, ⟨S8192x64, u 2⟩, ⟨S8192x64, u 3⟩, ⟨S8192x64, u 4⟩, ⟨S8192x64, u 5⟩, ⟨S8192x64, u 6⟩, ⟨S8192x64, u 7⟩] concatenates_S8192x64_S8192x64_S8192x64_S8192x64_S8192x64_S8192x64_S8192x64_S8192x64_S8192x512_d1) ]

set_option maxRecDepth 8192 in
set_option maxHeartbeats 4000000 in
/-- The window is the line of its operations. -/
theorem main_part15_eq (c : Dev nD) : main_part15 (F := F) c = seq rops15 := rfl

set_option maxRecDepth 8192 in
/-- Every buffer an operation of the window touches is a TensorCore reference. -/
theorem rops15_sub : (rops15 : List (HloOp τ sig (Elt F))).Forall fun op => op.bufs ⊆ tcRefs τ sig :=
  ⟨binary_bufs_sub .., nullary_bufs_sub .., binary_bufs_sub .., binary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., nary_bufs_sub ..⟩

set_option maxRecDepth 8192 in
/-- Every operation of the window determines its result. -/
theorem rops15_fresh : ∀ op ∈ (rops15 : List (HloOp τ sig (Elt F))), op.fresh = ∅ :=
  List.forall_iff_forall_mem.mp (show (rops15 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev rops15_W : List (Ref sig .tc) := [main_v696, main_cst_203, main_v697, main_v698, main_v699, main_v700, main_v701, main_call12_v0, main_call12_cst, main_call12_v1, main_call12_v2, main_v702, main_cst_204, main_v703, main_v704, main_v705, main_v706, main_call13_v0, main_call13_cst, main_call13_v1, main_call13_v2, main_v707, main_cst_205, main_v708, main_v709, main_v710, main_v711, main_call14_v0, main_call14_cst, main_call14_v1, main_call14_v2, main_v712, main_cst_206, main_v713, main_v714, main_v715, main_v716, main_call15_v0, main_call15_cst, main_call15_v1, main_call15_v2, main_v717, main_cst_207, main_v718, main_v719, main_v720, main_v721, main_v722, main_v723]

set_option maxRecDepth 8192 in
/-- Each operation of the window writes its own entry of `rops15_W` and nothing else. -/
theorem rops15_writes : (rops15 : List (HloOp τ sig (Elt F))).Forall fun op =>
    op.writes ⊆ (rops15_W.map (Proc.devRef (τ := τ) .tc)).toFinset := by
  simp only [List.Forall]
  exact
    ⟨by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [binary_writes, Finset.singleton_subset_iff, List.mem_toFinset]; exact List.mem_map_of_mem (by decide),
     by rw [nullary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [unary_writes, Finset.singleton_subset_iff, List.mem_toFinset]; exact List.mem_map_of_mem (by decide),
     by rw [nullary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [unary_writes, Finset.singleton_subset_iff, List.mem_toFinset]; exact List.mem_map_of_mem (by decide),
     by rw [binary_writes, Finset.singleton_subset_iff, List.mem_toFinset]; exact List.mem_map_of_mem (by decide),
     by rw [nary_writes, Finset.singleton_subset_iff, List.mem_toFinset]; exact List.mem_map_of_mem (by decide),
     by rw [nary_writes, Finset.singleton_subset_iff, List.mem_toFinset]; exact List.mem_map_of_mem (by decide)⟩

/-- A buffer the window does not write keeps its contents through it. -/
theorem rops15_keep (V : Valuation τ sig (Elt F)) {r : Ref sig .tc} (h : r ∉ rops15_W) :
    after rops15 V (Proc.devRef .tc r) = V (Proc.devRef .tc r) :=
  after_of_writes_sub rops15 V rops15_writes h

set_option maxRecDepth 8192 in
/-- The window writes none of @main's eleven arguments. -/
theorem rops15_W_args : ∀ r ∈ ([main_arg0, main_arg1, main_arg2, main_arg3, main_arg4, main_arg5, main_arg6, main_arg7, main_arg8, main_arg9, main_arg10] : List (Ref sig .tc)), r ∉ rops15_W := by decide

end Cert.ReferenceIdeal.Hand

end
-- ==== Proof.Ref.Main.lean ====
/-
  The reference program's @main as ONE line of host operations, and its buffers' contents window by window.

  @main runs its sixteen windows in order and each window is the line of its own operations (`main_partJ_eq`). A line
  run after a line is the concatenated line (`seq_append`), so @main is the line of all 997 operations, the windows'
  lists appended in order (`main_eq`).

  What a device's buffers hold after a line, from contents `V`, is the fold `after ops V` of the operations' results
  over `V`, and the fold over an appended list is the fold over the second list from the fold over the first
  (`after_append`). So the fold over all of @main is sixteen nested folds: `WR0 m c` is device `c`'s launch contents,
  `WR(J+1) m c` the fold of window `J`'s operations from `WRJ m c`, and `after_rops` says the fold of the whole list
  from the launch contents is `WR16 m c`.

  A property asked of every operation of the whole list (the buffers it touches are TensorCore references: `rops_sub`;
  it determines its result: `rops_fresh`) holds because it holds window by window: a member of an appended list is a
  member of one of the two lists (`mem_app`).
-/
import proofs.«158997_j77232101916990_1_alg».proof.Proof.Ref.Ops00
import proofs.«158997_j77232101916990_1_alg».proof.Proof.Ref.Ops01
import proofs.«158997_j77232101916990_1_alg».proof.Proof.Ref.Ops02
import proofs.«158997_j77232101916990_1_alg».proof.Proof.Ref.Ops03
import proofs.«158997_j77232101916990_1_alg».proof.Proof.Ref.Ops04
import proofs.«158997_j77232101916990_1_alg».proof.Proof.Ref.Ops05
import proofs.«158997_j77232101916990_1_alg».proof.Proof.Ref.Ops06
import proofs.«158997_j77232101916990_1_alg».proof.Proof.Ref.Ops07
import proofs.«158997_j77232101916990_1_alg».proof.Proof.Ref.Ops08
import proofs.«158997_j77232101916990_1_alg».proof.Proof.Ref.Ops09
import proofs.«158997_j77232101916990_1_alg».proof.Proof.Ref.Ops10
import proofs.«158997_j77232101916990_1_alg».proof.Proof.Ref.Ops11
import proofs.«158997_j77232101916990_1_alg».proof.Proof.Ref.Ops12
import proofs.«158997_j77232101916990_1_alg».proof.Proof.Ref.Ops13
import proofs.«158997_j77232101916990_1_alg».proof.Proof.Ref.Ops14
import proofs.«158997_j77232101916990_1_alg».proof.Proof.Ref.Ops15
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main is the line of its 997 operations: its windows' lines one after the other. -/
theorem main_eq (c : Dev nD) :
    main (F := F) c = seq (rops0 ++ rops1 ++ rops2 ++ rops3 ++ rops4 ++ rops5 ++ rops6 ++ rops7 ++ rops8 ++ rops9 ++ rops10 ++ rops11 ++ rops12 ++ rops13 ++ rops14 ++ rops15) := by
  simp only [seq_append, bind_assoc, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c]
  rfl

/-- What holds of every member of two lists holds of every member of their concatenation. -/
theorem mem_app {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

/-- Every buffer an operation of @main touches is a TensorCore reference. -/
theorem rops_sub :
    (rops0 ++ rops1 ++ rops2 ++ rops3 ++ rops4 ++ rops5 ++ rops6 ++ rops7 ++ rops8 ++ rops9 ++ rops10 ++ rops11 ++ rops12 ++ rops13 ++ rops14 ++ rops15 : List (HloOp τ sig (Elt F))).Forall fun op => op.bufs ⊆ tcRefs τ sig :=
  List.forall_iff_forall_mem.mpr
    (mem_app (mem_app (mem_app (mem_app (mem_app (mem_app (mem_app (mem_app (mem_app (mem_app (mem_app (mem_app (mem_app (mem_app (mem_app (List.forall_iff_forall_mem.mp rops0_sub) (List.forall_iff_forall_mem.mp rops1_sub)) (List.forall_iff_forall_mem.mp rops2_sub)) (List.forall_iff_forall_mem.mp rops3_sub)) (List.forall_iff_forall_mem.mp rops4_sub)) (List.forall_iff_forall_mem.mp rops5_sub)) (List.forall_iff_forall_mem.mp rops6_sub)) (List.forall_iff_forall_mem.mp rops7_sub)) (List.forall_iff_forall_mem.mp rops8_sub)) (List.forall_iff_forall_mem.mp rops9_sub)) (List.forall_iff_forall_mem.mp rops10_sub)) (List.forall_iff_forall_mem.mp rops11_sub)) (List.forall_iff_forall_mem.mp rops12_sub)) (List.forall_iff_forall_mem.mp rops13_sub)) (List.forall_iff_forall_mem.mp rops14_sub)) (List.forall_iff_forall_mem.mp rops15_sub))

/-- Every operation of @main determines its result. -/
theorem rops_fresh :
    ∀ op ∈ (rops0 ++ rops1 ++ rops2 ++ rops3 ++ rops4 ++ rops5 ++ rops6 ++ rops7 ++ rops8 ++ rops9 ++ rops10 ++ rops11 ++ rops12 ++ rops13 ++ rops14 ++ rops15 : List (HloOp τ sig (Elt F))), op.fresh = ∅ :=
  mem_app (mem_app (mem_app (mem_app (mem_app (mem_app (mem_app (mem_app (mem_app (mem_app (mem_app (mem_app (mem_app (mem_app (mem_app (rops0_fresh) (rops1_fresh)) (rops2_fresh)) (rops3_fresh)) (rops4_fresh)) (rops5_fresh)) (rops6_fresh)) (rops7_fresh)) (rops8_fresh)) (rops9_fresh)) (rops10_fresh)) (rops11_fresh)) (rops12_fresh)) (rops13_fresh)) (rops14_fresh)) (rops15_fresh)

/-- Device `c`'s buffer contents at launch. -/
abbrev WR0 (m : (ℓ : Loc nD τ sig) → Buf (Elt F) ℓ) (c : Dev nD) : Valuation τ sig (Elt F) := launchContents m c
/-- Device `c`'s buffer contents after @main's window 0: the fold of window 0's operations over the contents before it. -/
abbrev WR1 (m : (ℓ : Loc nD τ sig) → Buf (Elt F) ℓ) (c : Dev nD) : Valuation τ sig (Elt F) := after rops0 (WR0 m c)
/-- Device `c`'s buffer contents after @main's windows 0 … 1: the fold of window 1's operations over the contents before it. -/
abbrev WR2 (m : (ℓ : Loc nD τ sig) → Buf (Elt F) ℓ) (c : Dev nD) : Valuation τ sig (Elt F) := after rops1 (WR1 m c)
/-- Device `c`'s buffer contents after @main's windows 0 … 2: the fold of window 2's operations over the contents before it. -/
abbrev WR3 (m : (ℓ : Loc nD τ sig) → Buf (Elt F) ℓ) (c : Dev nD) : Valuation τ sig (Elt F) := after rops2 (WR2 m c)
/-- Device `c`'s buffer contents after @main's windows 0 … 3: the fold of window 3's operations over the contents before it. -/
abbrev WR4 (m : (ℓ : Loc nD τ sig) → Buf (Elt F) ℓ) (c : Dev nD) : Valuation τ sig (Elt F) := after rops3 (WR3 m c)
/-- Device `c`'s buffer contents after @main's windows 0 … 4: the fold of window 4's operations over the contents before it. -/
abbrev WR5 (m : (ℓ : Loc nD τ sig) → Buf (Elt F) ℓ) (c : Dev nD) : Valuation τ sig (Elt F) := after rops4 (WR4 m c)
/-- Device `c`'s buffer contents after @main's windows 0 … 5: the fold of window 5's operations over the contents before it. -/
abbrev WR6 (m : (ℓ : Loc nD τ sig) → Buf (Elt F) ℓ) (c : Dev nD) : Valuation τ sig (Elt F) := after rops5 (WR5 m c)
/-- Device `c`'s buffer contents after @main's windows 0 … 6: the fold of window 6's operations over the contents before it. -/
abbrev WR7 (m : (ℓ : Loc nD τ sig) → Buf (Elt F) ℓ) (c : Dev nD) : Valuation τ sig (Elt F) := after rops6 (WR6 m c)
/-- Device `c`'s buffer contents after @main's windows 0 … 7: the fold of window 7's operations over the contents before it. -/
abbrev WR8 (m : (ℓ : Loc nD τ sig) → Buf (Elt F) ℓ) (c : Dev nD) : Valuation τ sig (Elt F) := after rops7 (WR7 m c)
/-- Device `c`'s buffer contents after @main's windows 0 … 8: the fold of window 8's operations over the contents before it. -/
abbrev WR9 (m : (ℓ : Loc nD τ sig) → Buf (Elt F) ℓ) (c : Dev nD) : Valuation τ sig (Elt F) := after rops8 (WR8 m c)
/-- Device `c`'s buffer contents after @main's windows 0 … 9: the fold of window 9's operations over the contents before it. -/
abbrev WR10 (m : (ℓ : Loc nD τ sig) → Buf (Elt F) ℓ) (c : Dev nD) : Valuation τ sig (Elt F) := after rops9 (WR9 m c)
/-- Device `c`'s buffer contents after @main's windows 0 … 10: the fold of window 10's operations over the contents before it. -/
abbrev WR11 (m : (ℓ : Loc nD τ sig) → Buf (Elt F) ℓ) (c : Dev nD) : Valuation τ sig (Elt F) := after rops10 (WR10 m c)
/-- Device `c`'s buffer contents after @main's windows 0 … 11: the fold of window 11's operations over the contents before it. -/
abbrev WR12 (m : (ℓ : Loc nD τ sig) → Buf (Elt F) ℓ) (c : Dev nD) : Valuation τ sig (Elt F) := after rops11 (WR11 m c)
/-- Device `c`'s buffer contents after @main's windows 0 … 12: the fold of window 12's operations over the contents before it. -/
abbrev WR13 (m : (ℓ : Loc nD τ sig) → Buf (Elt F) ℓ) (c : Dev nD) : Valuation τ sig (Elt F) := after rops12 (WR12 m c)
/-- Device `c`'s buffer contents after @main's windows 0 … 13: the fold of window 13's operations over the contents before it. -/
abbrev WR14 (m : (ℓ : Loc nD τ sig) → Buf (Elt F) ℓ) (c : Dev nD) : Valuation τ sig (Elt F) := after rops13 (WR13 m c)
/-- Device `c`'s buffer contents after @main's windows 0 … 14: the fold of window 14's operations over the contents before it. -/
abbrev WR15 (m : (ℓ : Loc nD τ sig) → Buf (Elt F) ℓ) (c : Dev nD) : Valuation τ sig (Elt F) := after rops14 (WR14 m c)
/-- Device `c`'s buffer contents after @main's windows 0 … 15: the fold of window 15's operations over the contents before it. -/
abbrev WR16 (m : (ℓ : Loc nD τ sig) → Buf (Elt F) ℓ) (c : Dev nD) : Valuation τ sig (Elt F) := after rops15 (WR15 m c)

/-- The fold of all of @main's operations over the launch contents is the sixteen windows' folds, nested. -/
theorem after_rops (m : (ℓ : Loc nD τ sig) → Buf (Elt F) ℓ) (c : Dev nD) :
    after (rops0 ++ rops1 ++ rops2 ++ rops3 ++ rops4 ++ rops5 ++ rops6 ++ rops7 ++ rops8 ++ rops9 ++ rops10 ++ rops11 ++ rops12 ++ rops13 ++ rops14 ++ rops15) (launchContents m c) = WR16 m c := by
  simp only [StableHlo.after_append]

end Cert.ReferenceIdeal.Hand

end
-- ==== Proof.Ref.Run.lean ====
/-
  The run of the reference program, and that it leaves its arguments as launched.

  The reference is a host program: a straight line of operations on the TensorCore, scoping no buffer and no semaphore.
  The run of such a line is the fold of its operations over the launch contents: from any memory with zero counters every
  weakly fair execution terminates, and every TensorCore buffer `b` of every device `c` ends at the fold's value at
  `b`. @main is the line of its 997 operations (`main_eq`) and the fold of all of them from the launch contents is the
  sixteen windows' nested folds `WR16 m c` (`after_rops`): that is `run`.

  No operation writes an argument of @main: each writes the one buffer of its own result, and window by window these are
  listed and none is an argument (`ropsJ_W_args`). A buffer a window does not write keeps its contents through it
  (`ropsJ_keep`), so through all sixteen windows an argument keeps its launch contents (`WR16_arg`, and one theorem
  an argument `WR16_main_argK`).
-/
import proofs.«158997_j77232101916990_1_alg».proof.Proof.Ref.Main

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program scopes no TensorCore buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- On every device, for any float values, from any memory with zero counters: every weakly fair execution of @main
    terminates with every TensorCore buffer at the sixteen windows' nested folds of the launch contents. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc, r.2.mem ((c.tc : Thread nD τ).loc b) = WR16 m c b :=
  (θ_run defs _ _).mono (fun _ h c b => (h c b).trans (congrFun (after_rops m c) _))
    (run_seq scopedRefs_eq scopedSems_eq defs main
      (fun _ => rops0 ++ rops1 ++ rops2 ++ rops3 ++ rops4 ++ rops5 ++ rops6 ++ rops7 ++ rops8 ++ rops9 ++ rops10 ++ rops11 ++ rops12 ++ rops13 ++ rops14 ++ rops15)
      main_eq (fun _ => rops_sub) m ρ (fun _ => rops_fresh))

/-- @main's eleven arguments. -/
abbrev mainArgs : List (Ref sig .tc) := [main_arg0, main_arg1, main_arg2, main_arg3, main_arg4, main_arg5, main_arg6, main_arg7, main_arg8, main_arg9, main_arg10]

/-- An argument of @main holds its launch contents after all sixteen windows: no window writes it. -/
theorem WR16_arg (m : (ℓ : Loc nD τ sig) → Buf (Elt F) ℓ) (c : Dev nD) {r : Ref sig .tc} (h : r ∈ mainArgs) :
    WR16 m c r = m ((c.tc : Thread nD τ).loc r) :=
  (rops15_keep (WR15 m c) (rops15_W_args r h)).trans <|
    (rops14_keep (WR14 m c) (rops14_W_args r h)).trans <|
    (rops13_keep (WR13 m c) (rops13_W_args r h)).trans <|
    (rops12_keep (WR12 m c) (rops12_W_args r h)).trans <|
    (rops11_keep (WR11 m c) (rops11_W_args r h)).trans <|
    (rops10_keep (WR10 m c) (rops10_W_args r h)).trans <|
    (rops9_keep (WR9 m c) (rops9_W_args r h)).trans <|
    (rops8_keep (WR8 m c) (rops8_W_args r h)).trans <|
    (rops7_keep (WR7 m c) (rops7_W_args r h)).trans <|
    (rops6_keep (WR6 m c) (rops6_W_args r h)).trans <|
    (rops5_keep (WR5 m c) (rops5_W_args r h)).trans <|
    (rops4_keep (WR4 m c) (rops4_W_args r h)).trans <|
    (rops3_keep (WR3 m c) (rops3_W_args r h)).trans <|
    (rops2_keep (WR2 m c) (rops2_W_args r h)).trans <|
    (rops1_keep (WR1 m c) (rops1_W_args r h)).trans <|
    (rops0_keep (WR0 m c) (rops0_W_args r h))

theorem WR16_main_arg0 (m : (ℓ : Loc nD τ sig) → Buf (Elt F) ℓ) (c : Dev nD) :
    WR16 m c main_arg0 = m ((c.tc : Thread nD τ).loc main_arg0) := WR16_arg m c (by decide)
theorem WR16_main_arg1 (m : (ℓ : Loc nD τ sig) → Buf (Elt F) ℓ) (c : Dev nD) :
    WR16 m c main_arg1 = m ((c.tc : Thread nD τ).loc main_arg1) := WR16_arg m c (by decide)
theorem WR16_main_arg2 (m : (ℓ : Loc nD τ sig) → Buf (Elt F) ℓ) (c : Dev nD) :
    WR16 m c main_arg2 = m ((c.tc : Thread nD τ).loc main_arg2) := WR16_arg m c (by decide)
theorem WR16_main_arg3 (m : (ℓ : Loc nD τ sig) → Buf (Elt F) ℓ) (c : Dev nD) :
    WR16 m c main_arg3 = m ((c.tc : Thread nD τ).loc main_arg3) := WR16_arg m c (by decide)
theorem WR16_main_arg4 (m : (ℓ : Loc nD τ sig) → Buf (Elt F) ℓ) (c : Dev nD) :
    WR16 m c main_arg4 = m ((c.tc : Thread nD τ).loc main_arg4) := WR16_arg m c (by decide)
theorem WR16_main_arg5 (m : (ℓ : Loc nD τ sig) → Buf (Elt F) ℓ) (c : Dev nD) :
    WR16 m c main_arg5 = m ((c.tc : Thread nD τ).loc main_arg5) := WR16_arg m c (by decide)
theorem WR16_main_arg6 (m : (ℓ : Loc nD τ sig) → Buf (Elt F) ℓ) (c : Dev nD) :
    WR16 m c main_arg6 = m ((c.tc : Thread nD τ).loc main_arg6) := WR16_arg m c (by decide)
theorem WR16_main_arg7 (m : (ℓ : Loc nD τ sig) → Buf (Elt F) ℓ) (c : Dev nD) :
    WR16 m c main_arg7 = m ((c.tc : Thread nD τ).loc main_arg7) := WR16_arg m c (by decide)
theorem WR16_main_arg8 (m : (ℓ : Loc nD τ sig) → Buf (Elt F) ℓ) (c : Dev nD) :
    WR16 m c main_arg8 = m ((c.tc : Thread nD τ).loc main_arg8) := WR16_arg m c (by decide)
theorem WR16_main_arg9 (m : (ℓ : Loc nD τ sig) → Buf (Elt F) ℓ) (c : Dev nD) :
    WR16 m c main_arg9 = m ((c.tc : Thread nD τ).loc main_arg9) := WR16_arg m c (by decide)
theorem WR16_main_arg10 (m : (ℓ : Loc nD τ sig) → Buf (Elt F) ℓ) (c : Dev nD) :
    WR16 m c main_arg10 = m ((c.tc : Thread nD τ).loc main_arg10) := WR16_arg m c (by decide)

end Cert.ReferenceIdeal.Hand

end
-- ==== Proof.Ref.Frame.lean ====
/-
  The reference program's frame claim: it runs, and its arguments end as launched.

  At the ideal float values, from any memory with zero counters, every weakly fair execution of @main terminates with
  every TensorCore buffer at the sixteen windows' nested folds of the launch contents (`run`); at an argument that
  fold is the launch contents (`WR16_main_argK`). The claim's precondition on the inputs is not used: a host program
  runs from any contents.
-/
import proofs.«158997_j77232101916990_1_alg».proof.Proof.Ref.Run
import proofs.«158997_j77232101916990_1_alg».proof.Proof.Gen.Pre_finite_inputs
import proofs.«158997_j77232101916990_1_alg».proof.Defs

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference runs (terminates, no fault) and its argument arrays end unchanged. -/
theorem frame_ri : Cert.frame_ReferenceIdeal := fun m g _ =>
  (θ_run _ _ _).mono
    (fun _ h c =>
      ⟨(h c main_arg0).trans (WR16_main_arg0 m c),
       (h c main_arg1).trans (WR16_main_arg1 m c),
       (h c main_arg2).trans (WR16_main_arg2 m c),
       (h c main_arg3).trans (WR16_main_arg3 m c),
       (h c main_arg4).trans (WR16_main_arg4 m c),
       (h c main_arg5).trans (WR16_main_arg5 m c),
       (h c main_arg6).trans (WR16_main_arg6 m c),
       (h c main_arg7).trans (WR16_main_arg7 m c),
       (h c main_arg8).trans (WR16_main_arg8 m c),
       (h c main_arg9).trans (WR16_main_arg9 m c),
       (h c main_arg10).trans (WR16_main_arg10 m c)⟩)
    (run (F := Ideal) m g)

end Cert.ReferenceIdeal.Hand

end
-- ==== Proof.Value.Spec.lean ====
/-
  What both programs compute, as functions of the argument arrays, in the reference's own spelling.

  l2n x is x with every row divided by the larger of the row's Euclidean norm and 1e-12. One hop sends an aggregate
  g and a mixing weight w to g · w + g. The mixing weight, in the reference's form, is the sum over k : Fin 4 of
  latent[k, d] · weight[n, k], written as a sum over the middle axis of a product of two broadcasts. There are four
  sequences of [8192, 64] arrays, advanced three times: d and r are coupled, d' = hop (A5 · r) wd and
  r' = hop (A6 · d) wr from d₀ = a0, r₀ = a1, while s' = A8 · s from s₀ = a9 and u' = A7 · u from u₀ = a10.
  The first result is l2n of d₀, s₀, d₁, s₁, d₂, s₂, d₃, s₃ side by side, the second l2n of r₀, u₀, r₁, u₁, r₂, u₂,
  r₃, u₃. The matrix product and the two mixing weights are parameters: the reference instantiates them with its host
  dot_general and its broadcast-multiply-sum, the kernel's program with its blocked products and its small host
  dot_general; at the exact instance those are equal arrays.
-/
import proofs.«158997_j77232101916990_1_alg».proof.ReferenceIdeal
import proofs.«158997_j77232101916990_1_alg».proof.Proof.Gen.ReferenceIdeal

noncomputable section

namespace Cert.Value

open Cert.ReferenceIdeal Cert.ReferenceIdeal.Gen Idealize.ShloMosaic

variable {F : FTy → Type} [FloatOps F]

/-- A row-normalised array: each row over the larger of its Euclidean norm and 1e-12. -/
def l2n (x : FVec F S8192x64 .f32) : FVec F S8192x64 .f32 :=
  Host.divf x (broadcastInDim S8192x64 ![0, 1] bcast_S8192x1_S8192x64_0_1
    (maximumf (Host.sqrt (broadcastInDim S8192x1 ![0] bcast_S8192_S8192x1_0
        (Host.reduceAdd (mulf x x) (constant S_ .f32 0x00000000#32) reducesTo_S8192x64_S8192_d1 h_S_)))
      (broadcastInDim S8192x1 ![] bcast_S_S8192x1 (constant S_ .f32 0x2B8CBCCC#32))))

/-- One hop's update of an aggregate g by a mixing weight w: g · w + g. -/
def hop (g w : FVec F S8192x64 .f32) : FVec F S8192x64 .f32 := addf (mulf g w) g

/-- The mixing weight in the reference's form: the sum over the latent factor k of latent[k, d] · weight[n, k]. -/
def mixR (w : FVec F S8192x4 .f32) (l : FVec F S4x64 .f32) : FVec F S8192x64 .f32 :=
  Host.reduceAdd
    (mulf (broadcastInDim S8192x4x64 ![0, 1, 2] bcast_S1x4x64_S8192x4x64_0_1_2 (broadcastInDim S1x4x64 ![1, 2] bcast_S4x64_S1x4x64_1_2 l))
          (broadcastInDim S8192x4x64 ![0, 1, 2] bcast_S8192x4x1_S8192x4x64_0_1_2 (broadcastInDim S8192x4x1 ![0, 1] bcast_S8192x4_S8192x4x1_0_1 w)))
    (constant S_ .f32 0x00000000#32) reducesTo_S8192x4x64_S8192x64_d1 h_S_

/-- The reference's matrix product of an [8192, 8192] array by an [8192, 64] array. -/
def mmR (A : FVec F S8192x8192 .f32) (x : FVec F S8192x64 .f32) : FVec F S8192x64 .f32 :=
  Host.dotGeneral dot_S8192x8192_S8192x64_S8192x64_1_0_0_1_n_n none A x

/-- Eight [8192, 64] arrays side by side. -/
def cat8 (p0 p1 p2 p3 p4 p5 p6 p7 : FVec F S8192x64 .f32) : FVec F S8192x512 .f32 :=
  concatenate S8192x512 1 [⟨S8192x64, p0⟩, ⟨S8192x64, p1⟩, ⟨S8192x64, p2⟩, ⟨S8192x64, p3⟩, ⟨S8192x64, p4⟩, ⟨S8192x64, p5⟩, ⟨S8192x64, p6⟩, ⟨S8192x64, p7⟩]
    concatenates_S8192x64_S8192x64_S8192x64_S8192x64_S8192x64_S8192x64_S8192x64_S8192x64_S8192x512_d1

section Hops

variable (mm : FVec F S8192x8192 .f32 → FVec F S8192x64 .f32 → FVec F S8192x64 .f32) (wd wr : FVec F S8192x64 .f32)
  (a0 a1 a9 a10 : FVec F S8192x64 .f32) (A5 A6 A7 A8 : FVec F S8192x8192 .f32)

/-- The four sequences after each of the three steps. -/
def d1 : FVec F S8192x64 .f32 := hop (mm A5 a1) wd
def r1 : FVec F S8192x64 .f32 := hop (mm A6 a0) wr
def s1 : FVec F S8192x64 .f32 := mm A8 a9
def u1 : FVec F S8192x64 .f32 := mm A7 a10
def d2 : FVec F S8192x64 .f32 := hop (mm A5 (r1 mm wr a0 A6)) wd
def r2 : FVec F S8192x64 .f32 := hop (mm A6 (d1 mm wd a1 A5)) wr
def s2 : FVec F S8192x64 .f32 := mm A8 (s1 mm a9 A8)
def u2 : FVec F S8192x64 .f32 := mm A7 (u1 mm a10 A7)
def d3 : FVec F S8192x64 .f32 := hop (mm A5 (r2 mm wd wr a1 A5 A6)) wd
def r3 : FVec F S8192x64 .f32 := hop (mm A6 (d2 mm wd wr a0 A5 A6)) wr
def s3 : FVec F S8192x64 .f32 := mm A8 (s2 mm a9 A8)
def u3 : FVec F S8192x64 .f32 := mm A7 (u2 mm a10 A7)

/-- The first result: d and s interleaved, each row-normalised. -/
def out0 : FVec F S8192x512 .f32 :=
  cat8 (l2n a0) (l2n a9) (l2n (d1 mm wd a1 A5)) (l2n (s1 mm a9 A8)) (l2n (d2 mm wd wr a0 A5 A6)) (l2n (s2 mm a9 A8))
    (l2n (d3 mm wd wr a1 A5 A6)) (l2n (s3 mm a9 A8))
/-- The second result: r and u interleaved, each row-normalised. -/
def out1 : FVec F S8192x512 .f32 :=
  cat8 (l2n a1) (l2n a10) (l2n (r1 mm wr a0 A6)) (l2n (u1 mm a10 A7)) (l2n (r2 mm wd wr a1 A5 A6)) (l2n (u2 mm a10 A7))
    (l2n (r3 mm wd wr a0 A5 A6)) (l2n (u3 mm a10 A7))

end Hops

end Cert.Value

end
-- ==== Proof.Value.KRead1.lean ====
/-
  The kernel program's host stages, each read as one function of the contents it starts from. A stage is a short
  run of @main's host operations: the ten operations of a row normalisation (x * x, its row sums, their square roots,
  the larger of each root and 1e-12, the division of x by it), the three of a hop (the mixing weight as a small matrix
  product, then g * w + g), the concatenation of eight arrays. From ANY contents V of the buffers, the contents of the
  stage's result buffer after the stage's operations are the stage's function — l2n, hop, cat8 — of V at the stage's
  input buffers: each operation rewrites its own result buffer only, so reading the result buffer back through the
  operations composes their functions, and the composite is the function's definition. Nothing here depends on what
  V is; the boundaries' contents are put in later.
-/
import proofs.«158997_j77232101916990_1_alg».proof.Proof.Gen.KernelIdeal.Launch
import proofs.«158997_j77232101916990_1_alg».proof.Proof.Value.Spec
import Idealize.ShloMosaic.Lib.StableHlo.Run

set_option maxRecDepth 16384

noncomputable section

namespace Cert.Value

open Cert.KernelIdeal Cert.KernelIdeal.Gen
open Idealize.ShloMosaic Idealize.ShloMosaic.TcCoe

variable {F : FTy → Type} [FloatOps F]

/-- The mixing weight in the kernel program's form: the [8192, 4] weights times the [4, 64] latent factors. -/
def mixK (w : FVec F Cert.KernelIdeal.S8192x4 .f32) (l : FVec F Cert.KernelIdeal.S4x64 .f32) : FVec F Cert.KernelIdeal.S8192x64 .f32 :=
  Host.dotGeneral Cert.KernelIdeal.dot_S8192x4_S4x64_S8192x64_1_0_0_1_n_n none w l

/-- Eight arrays side by side, of equal arrays, are equal. -/
theorem cat8_congr {p0 p1 p2 p3 p4 p5 p6 p7 q0 q1 q2 q3 q4 q5 q6 q7 : FVec F Cert.ReferenceIdeal.S8192x64 .f32}
    (h0 : p0 = q0) (h1 : p1 = q1) (h2 : p2 = q2) (h3 : p3 = q3) (h4 : p4 = q4) (h5 : p5 = q5) (h6 : p6 = q6) (h7 : p7 = q7) :
    cat8 p0 p1 p2 p3 p4 p5 p6 p7 = cat8 q0 q1 q2 q3 q4 q5 q6 q7 := by
  subst h0 h1 h2 h3 h4 h5 h6 h7; rfl

/-! ## The row normalisations -/

/-- Items 13, 14: v586 is arg0 row-normalised. -/
theorem l2_v586 (V : Valuation τ sig (Elt F)) :
    StableHlo.after (main_part12_ops2 (F := F)) (StableHlo.after (main_part12_ops1 (F := F)) V) (Proc.devRef .tc main_v586)
      = l2n (V (Proc.devRef .tc main_arg0)) := by
  after_results; rfl
/-- Items 15, 16, 17: v591 is arg9 row-normalised. -/
theorem l2_v591 (V : Valuation τ sig (Elt F)) :
    StableHlo.after (main_part13_ops0 (F := F)) (StableHlo.after (main_part12_ops4 (F := F)) (StableHlo.after (main_part12_ops3 (F := F)) V)) (Proc.devRef .tc main_v591)
      = l2n (V (Proc.devRef .tc main_arg9)) := by
  after_results; rfl
/-- Items 18, 19: v596 is arg1 row-normalised. -/
theorem l2_v596 (V : Valuation τ sig (Elt F)) :
    StableHlo.after (main_part13_ops2 (F := F)) (StableHlo.after (main_part13_ops1 (F := F)) V) (Proc.devRef .tc main_v596)
      = l2n (V (Proc.devRef .tc main_arg1)) := by
  after_results; rfl
/-- Items 20, 21: v601 is arg10 row-normalised. -/
theorem l2_v601 (V : Valuation τ sig (Elt F)) :
    StableHlo.after (main_part13_ops4 (F := F)) (StableHlo.after (main_part13_ops3 (F := F)) V) (Proc.devRef .tc main_v601)
      = l2n (V (Proc.devRef .tc main_arg10)) := by
  after_results; rfl
/-- Items 28, 29: v616 is v605 row-normalised. -/
theorem l2_v616 (V : Valuation τ sig (Elt F)) :
    StableHlo.after (main_part13_ops8 (F := F)) (StableHlo.after (main_part13_ops7 (F := F)) V) (Proc.devRef .tc main_v616)
      = l2n (V (Proc.devRef .tc main_v605)) := by
  after_results; rfl
/-- Items 30, 31: v621 is v610 row-normalised. -/
theorem l2_v621 (V : Valuation τ sig (Elt F)) :
    StableHlo.after (main_part13_ops10 (F := F)) (StableHlo.after (main_part13_ops9 (F := F)) V) (Proc.devRef .tc main_v621)
      = l2n (V (Proc.devRef .tc main_v610)) := by
  after_results; rfl
/-- Items 32, 33: v626 is v609 row-normalised. -/
theorem l2_v626 (V : Valuation τ sig (Elt F)) :
    StableHlo.after (main_part13_ops12 (F := F)) (StableHlo.after (main_part13_ops11 (F := F)) V) (Proc.devRef .tc main_v626)
      = l2n (V (Proc.devRef .tc main_v609)) := by
  after_results; rfl
/-- Items 34, 35: v631 is v611 row-normalised. -/
theorem l2_v631 (V : Valuation τ sig (Elt F)) :
    StableHlo.after (main_part13_ops14 (F := F)) (StableHlo.after (main_part13_ops13 (F := F)) V) (Proc.devRef .tc main_v631)
      = l2n (V (Proc.devRef .tc main_v611)) := by
  after_results; rfl
/-- Items 42, 43, 44: v646 is v635 row-normalised. -/
theorem l2_v646 (V : Valuation τ sig (Elt F)) :
    StableHlo.after (main_part14_ops0 (F := F)) (StableHlo.after (main_part13_ops18 (F := F)) (StableHlo.after (main_part13_ops17 (F := F)) V)) (Proc.devRef .tc main_v646)
      = l2n (V (Proc.devRef .tc main_v635)) := by
  after_results; rfl
/-- Items 45, 46: v651 is v640 row-normalised. -/
theorem l2_v651 (V : Valuation τ sig (Elt F)) :
    StableHlo.after (main_part14_ops2 (F := F)) (StableHlo.after (main_part14_ops1 (F := F)) V) (Proc.devRef .tc main_v651)
      = l2n (V (Proc.devRef .tc main_v640)) := by
  after_results; rfl
/-- Items 47, 48: v656 is v639 row-normalised. -/
theorem l2_v656 (V : Valuation τ sig (Elt F)) :
    StableHlo.after (main_part14_ops4 (F := F)) (StableHlo.after (main_part14_ops3 (F := F)) V) (Proc.devRef .tc main_v656)
      = l2n (V (Proc.devRef .tc main_v639)) := by
  after_results; rfl
/-- Items 49, 50: v661 is v641 row-normalised. -/
theorem l2_v661 (V : Valuation τ sig (Elt F)) :
    StableHlo.after (main_part14_ops6 (F := F)) (StableHlo.after (main_part14_ops5 (F := F)) V) (Proc.devRef .tc main_v661)
      = l2n (V (Proc.devRef .tc main_v641)) := by
  after_results; rfl
/-- Items 57, 58: v676 is v665 row-normalised. -/
theorem l2_v676 (V : Valuation τ sig (Elt F)) :
    StableHlo.after (main_part14_ops10 (F := F)) (StableHlo.after (main_part14_ops9 (F := F)) V) (Proc.devRef .tc main_v676)
      = l2n (V (Proc.devRef .tc main_v665)) := by
  after_results; rfl
/-- Items 59, 60: v681 is v670 row-normalised. -/
theorem l2_v681 (V : Valuation τ sig (Elt F)) :
    StableHlo.after (main_part14_ops12 (F := F)) (StableHlo.after (main_part14_ops11 (F := F)) V) (Proc.devRef .tc main_v681)
      = l2n (V (Proc.devRef .tc main_v670)) := by
  after_results; rfl
/-- Items 61, 62: v686 is v669 row-normalised. -/
theorem l2_v686 (V : Valuation τ sig (Elt F)) :
    StableHlo.after (main_part14_ops14 (F := F)) (StableHlo.after (main_part14_ops13 (F := F)) V) (Proc.devRef .tc main_v686)
      = l2n (V (Proc.devRef .tc main_v669)) := by
  after_results; rfl
/-- Items 63, 64: v691 is v671 row-normalised. -/
theorem l2_v691 (V : Valuation τ sig (Elt F)) :
    StableHlo.after (main_part14_ops16 (F := F)) (StableHlo.after (main_part14_ops15 (F := F)) V) (Proc.devRef .tc main_v691)
      = l2n (V (Proc.devRef .tc main_v671)) := by
  after_results; rfl

/-! ## The hops -/

/-- Item 23: v605 is the hop of the aggregate v602 by the mixing weight of arg3 and arg2. -/
theorem hop_v605 (V : Valuation τ sig (Elt F)) :
    StableHlo.after (main_part13_ops5 (F := F)) V (Proc.devRef .tc main_v605)
      = hop (V (Proc.devRef .tc main_v602)) (mixK (V (Proc.devRef .tc main_arg3)) (V (Proc.devRef .tc main_arg2))) := by
  after_results; rfl
/-- Item 25: v609 is the hop of the aggregate v606 by the mixing weight of arg4 and arg2. -/
theorem hop_v609 (V : Valuation τ sig (Elt F)) :
    StableHlo.after (main_part13_ops6 (F := F)) V (Proc.devRef .tc main_v609)
      = hop (V (Proc.devRef .tc main_v606)) (mixK (V (Proc.devRef .tc main_arg4)) (V (Proc.devRef .tc main_arg2))) := by
  after_results; rfl
/-- Item 37: v635 is the hop of the aggregate v632 by the mixing weight of arg3 and arg2. -/
theorem hop_v635 (V : Valuation τ sig (Elt F)) :
    StableHlo.after (main_part13_ops15 (F := F)) V (Proc.devRef .tc main_v635)
      = hop (V (Proc.devRef .tc main_v632)) (mixK (V (Proc.devRef .tc main_arg3)) (V (Proc.devRef .tc main_arg2))) := by
  after_results; rfl
/-- Item 39: v639 is the hop of the aggregate v636 by the mixing weight of arg4 and arg2. -/
theorem hop_v639 (V : Valuation τ sig (Elt F)) :
    StableHlo.after (main_part13_ops16 (F := F)) V (Proc.devRef .tc main_v639)
      = hop (V (Proc.devRef .tc main_v636)) (mixK (V (Proc.devRef .tc main_arg4)) (V (Proc.devRef .tc main_arg2))) := by
  after_results; rfl
/-- Item 52: v665 is the hop of the aggregate v662 by the mixing weight of arg3 and arg2. -/
theorem hop_v665 (V : Valuation τ sig (Elt F)) :
    StableHlo.after (main_part14_ops7 (F := F)) V (Proc.devRef .tc main_v665)
      = hop (V (Proc.devRef .tc main_v662)) (mixK (V (Proc.devRef .tc main_arg3)) (V (Proc.devRef .tc main_arg2))) := by
  after_results; rfl
/-- Item 54: v669 is the hop of the aggregate v666 by the mixing weight of arg4 and arg2. -/
theorem hop_v669 (V : Valuation τ sig (Elt F)) :
    StableHlo.after (main_part14_ops8 (F := F)) V (Proc.devRef .tc main_v669)
      = hop (V (Proc.devRef .tc main_v666)) (mixK (V (Proc.devRef .tc main_arg4)) (V (Proc.devRef .tc main_arg2))) := by
  after_results; rfl

/-! ## The two concatenations -/

/-- Item 64: v692 is its eight operands side by side. -/
theorem cat_v692 (V : Valuation τ sig (Elt F)) :
    StableHlo.after (main_part14_ops16 (F := F)) V (Proc.devRef .tc main_v692)
      = cat8 (V (Proc.devRef .tc main_v586)) (V (Proc.devRef .tc main_v591)) (V (Proc.devRef .tc main_v616)) (V (Proc.devRef .tc main_v621))
          (V (Proc.devRef .tc main_v646)) (V (Proc.devRef .tc main_v651)) (V (Proc.devRef .tc main_v676)) (V (Proc.devRef .tc main_v681)) := by
  after_results; rfl
/-- Item 64: v693 is its eight operands side by side (the last operand is written by this item itself). -/
theorem cat_v693 (V : Valuation τ sig (Elt F)) :
    StableHlo.after (main_part14_ops16 (F := F)) V (Proc.devRef .tc main_v693)
      = cat8 (V (Proc.devRef .tc main_v596)) (V (Proc.devRef .tc main_v601)) (V (Proc.devRef .tc main_v626)) (V (Proc.devRef .tc main_v631))
          (V (Proc.devRef .tc main_v656)) (V (Proc.devRef .tc main_v661)) (V (Proc.devRef .tc main_v686)) (StableHlo.after (main_part14_ops16 (F := F)) V (Proc.devRef .tc main_v691)) := by
  after_results; rfl

end Cert.Value

end
-- ==== Proof.KI.MMSpec.lean ====
/-
  A matrix product accumulated block by block, with no program in sight.

  For A : [m, k] and X : [k, n] over the extended reals, entry (r, q) of A · X is the sum over the k columns j of
  A[r, j] · X[j, q]. A kernel that walks the columns in consecutive blocks of B keeps the PARTIAL product, the sum
  over the first N columns only: it starts at zero, a block adds the B next terms, and after k / B blocks the partial
  product is the whole one. Nothing is used of the extended reals but that + is associative (a sum over the first
  N + B naturals is the sum over the first N plus the sum over the B after them), so no entry needs to be finite.

  To keep the column ranges free of bound proofs the arrays are read at NATURAL coordinates, zero outside the array
  (`ent`), and the partial product is a sum over `Finset.range N` (`dotUpTo`); `acc_step` is one block's step of the walk
  and `dotUpTo_all` its end.

  Second, what a matrix unit's product and the host's `dot_general` are at the ideal values when their dimension
  numbers are the plain ones (rows × contraction by contraction × columns, `DotDims.plain`): at (p, q) the sum over
  the contraction coordinate c of l[p, c] · r[c, q] (`plainDot_sum`, `matmul_plain_apply`, `dotGeneral_plain_apply`),
  and with it the tile update a blocked kernel performs: the old accumulator plus the product of two tiles rounded
  to bf16 on the way in, which at the ideal values is no rounding at all (`tile_apply`).
-/
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.ValueIdx

/-! ## Arrays at natural coordinates, and the partial product -/

/-- Entry (r, j) of an m × n array at natural coordinates: the array's entry inside it, zero outside. -/
def ent {m n : ℕ} (A : (⟨2, ![m, n]⟩ : Shape).Idx → EReal) (r j : ℕ) : EReal :=
  if h : r < m ∧ j < n then A (ix2 ⟨r, h.1⟩ ⟨j, h.2⟩) else 0

/-- Inside the array it is the array's entry. -/
theorem ent_ix2 {m n : ℕ} (A : (⟨2, ![m, n]⟩ : Shape).Idx → EReal) (r : Fin m) (j : Fin n) :
    ent A r.val j.val = A (ix2 r j) := dif_pos ⟨r.isLt, j.isLt⟩

/-- The same with the coordinates given as naturals and their bounds beside them. -/
theorem ent_of_lt {m n : ℕ} (A : (⟨2, ![m, n]⟩ : Shape).Idx → EReal) (r j : ℕ) (hr : r < m) (hj : j < n) :
    ent A r j = A (ix2 ⟨r, hr⟩ ⟨j, hj⟩) := dif_pos ⟨hr, hj⟩

/-- THE PARTIAL PRODUCT: row r of A against column q of X over the first N columns of the row. -/
def dotUpTo {m k n : ℕ} (A : (⟨2, ![m, k]⟩ : Shape).Idx → EReal) (X : (⟨2, ![k, n]⟩ : Shape).Idx → EReal) (r q N : ℕ) : EReal :=
  ∑ j ∈ Finset.range N, ent A r j * ent X j q

variable {m k n : ℕ} (A : (⟨2, ![m, k]⟩ : Shape).Idx → EReal) (X : (⟨2, ![k, n]⟩ : Shape).Idx → EReal)

/-- Over no columns it is zero. -/
theorem dotUpTo_zero (r q : ℕ) : dotUpTo A X r q 0 = 0 := Finset.sum_range_zero _

/-- A BLOCK OF B MORE COLUMNS: the partial product over N columns plus the B terms of the columns N, …, N + B − 1
    (given as any function `f` of the block's column that is those terms) is the partial product over N + B. -/
theorem dotUpTo_add_block (r q N B : ℕ) (f : Fin B → EReal)
    (hf : ∀ c : Fin B, f c = ent A r (N + c.val) * ent X (N + c.val) q) :
    dotUpTo A X r q N + ∑ c : Fin B, f c = dotUpTo A X r q (N + B) := by
  unfold dotUpTo
  rw [Finset.sum_range_add, Finset.sum_range (fun x => ent A r (N + x) * ent X (N + x) q)]
  exact congrArg (_ + ·) (Finset.sum_congr rfl fun c _ => hf c)

/-- The first block: from the zero accumulator. -/
theorem dotUpTo_first_block (r q B : ℕ) (z : EReal) (hz : z = 0) (f : Fin B → EReal)
    (hf : ∀ c : Fin B, f c = ent A r c.val * ent X c.val q) :
    z + ∑ c : Fin B, f c = dotUpTo A X r q B := by
  have h := dotUpTo_add_block A X r q 0 B f (fun c => by rw [Nat.zero_add]; exact hf c)
  rw [dotUpTo_zero, Nat.zero_add] at h
  rw [hz]; exact h

/-- ONE POINT OF THE WALK. The tiles `x0` (M × K) and `x1` (K × N) are the blocks of A at rows R0 …, columns C … and of
    X at rows C … (all its columns); the accumulator's entry `s` at (p, q) is the partial product of row R0 + p against
    column q over the first C columns. Then `s` plus the tiles' product at (p, q) is the partial product over the
    first C + K columns. -/
theorem acc_step {M K N : ℕ} (x0 : (⟨2, ![M, K]⟩ : Shape).Idx → EReal) (x1 : (⟨2, ![K, N]⟩ : Shape).Idx → EReal)
    (R0 C : ℕ)
    (h0 : ∀ (p : Fin M) (c : Fin K), x0 (ix2 p c) = ent A (R0 + p.val) (C + c.val))
    (h1 : ∀ (c : Fin K) (q : Fin N), x1 (ix2 c q) = ent X (C + c.val) q.val)
    (p : Fin M) (q : Fin N) (s : EReal) (hs : s = dotUpTo A X (R0 + p.val) q.val C) :
    s + ∑ c : Fin K, x0 (ix2 p c) * x1 (ix2 c q) = dotUpTo A X (R0 + p.val) q.val (C + K) := by
  rw [hs]
  exact dotUpTo_add_block A X _ _ C K _ (fun c => by rw [h0, h1])

/-- OVER ALL k COLUMNS the partial product is the entry of the product A · X. -/
theorem dotUpTo_all (r : Fin m) (q : Fin n) :
    dotUpTo A X r.val q.val k = ∑ j : Fin k, A (ix2 r j) * X (ix2 j q) := by
  unfold dotUpTo
  rw [Finset.sum_range (fun j => ent A r.val j * ent X j q.val)]
  exact Finset.sum_congr rfl fun j _ => by rw [ent_ix2, ent_ix2]

/-! ## The plain product's dimension numbers: both operand indices from the output's and the contraction's -/

section Plain

variable {M K N : ℕ}

theorem plain_lhs_0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c
theorem plain_rhs_0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c
theorem plain_rhs_1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum of a plain product at (p, q): over the contraction coordinate c, l[p, c] · r[c, q]. -/
theorem plainDot_sum (l : (⟨2, ![M, K]⟩ : Shape).Idx → EReal) (r : (⟨2, ![K, N]⟩ : Shape).Idx → EReal) (p : Fin M) (q : Fin N) :
    ∑ c : (DotDims.plain M K N).contr.Idx,
        l ((DotDims.plain M K N).lhsIdx (ix2 p q) c) * r ((DotDims.plain M K N).rhsIdx (ix2 p q) c)
      = ∑ c : Fin K, l (ix2 p c) * r (ix2 c q) := by
  rw [← Equiv.sum_comp (contrEquiv1 (DotDims.plain M K N) K rfl rfl).symm]
  refine Finset.sum_congr rfl fun c _ => ?_
  have hc := contrEquiv1_symm_val (DotDims.plain M K N) K rfl rfl c
  have el : (DotDims.plain M K N).lhsIdx (ix2 p q) ((contrEquiv1 (DotDims.plain M K N) K rfl rfl).symm c) = ix2 p c :=
    funext fun a => Fin.ext (by
      match a with
      | ⟨0, _⟩ => exact plain_lhs_0 _ _
      | ⟨1, _⟩ => exact (plain_lhs_1 _ _).trans hc)
  have er : (DotDims.plain M K N).rhsIdx (ix2 p q) ((contrEquiv1 (DotDims.plain M K N) K rfl rfl).symm c) = ix2 c q :=
    funext fun a => Fin.ext (by
      match a with
      | ⟨0, _⟩ => exact (plain_rhs_0 _ _).trans hc
      | ⟨1, _⟩ => exact plain_rhs_1 _ _)
  rw [el, er]

/-- A matrix unit's plain product into the zero accumulator, at the ideal values, at (p, q). -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ c : Fin K, l (ix2 p c) * r (ix2 c q) :=
  (Ideal.matmul_constant_zero_apply (DotDims.plain M K N) prec l r (ix2 p q)).trans (plainDot_sum l r p q)

/-- The host's plain `dot_general`, at the ideal values, at (p, q): the same sum. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ c : Fin K, l (ix2 p c) * r (ix2 c q) :=
  (Ideal.dotGeneral_apply (DotDims.plain M K N) prec sched l r (ix2 p q)).trans (plainDot_sum l r p q)

/-- THE TILE UPDATE at the ideal values: the accumulator `s` plus the plain product of two tiles, each rounded to bf16
    on its way into the matrix unit (no rounding at the ideal values) and accumulated there from zero, under a shape
    cast to the same shape: at (p, q) it is `s` there plus the sum over the tile's columns c of x0[p, c] · x1[c, q]. -/
theorem tile_apply (x0 : FVec Ideal ⟨2, ![M, K]⟩ .f32) (x1 : FVec Ideal ⟨2, ![K, N]⟩ .f32) (s : FVec Ideal ⟨2, ![M, N]⟩ .f32)
    (hb : FTy.bits .bf16 < FTy.bits .f32) (hs : (⟨2, ![M, N]⟩ : Shape).ShapeCasts ⟨2, ![M, N]⟩)
    (prec : Option ContractPrecision) (p : Fin M) (q : Fin N) :
    shapeCast (⟨2, ![M, N]⟩ : Shape) (addf s (matmul (DotDims.plain M K N) prec (truncf .bf16 x0 hb) (truncf .bf16 x1 hb)
        (constant (F := Ideal) ⟨2, ![M, N]⟩ .f32 0x00000000#32))) hs (ix2 p q)
      = s (ix2 p q) + ∑ c : Fin K, x0 (ix2 p c) * x1 (ix2 c q) := by
  rw [shapeCast_self]
  exact congrArg (s (ix2 p q) + ·) (matmul_plain_apply prec (truncf .bf16 x0 hb) (truncf .bf16 x1 hb) p q)

end Plain

end Cert.KernelIdeal.Hand

end
-- ==== Proof.KI.R0Val.lean ====
/-
  Region 0's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv0`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile0`); row r of the result lies in the tile written back at point 8 (r / 2048) + 7 (`cover0`); hence
  the array after the region is that `dot_general` (`mm0`).

  The steps: what each control case's stores read back to, as the body's pure terms (`accFirstPay0`, `accMidPay0`,
  `accLastPay0`, `outLastPay0`); those terms at an entry (`pay1_apply0`, `pay2_apply0`); each tile as entries of
  its array (`idx_facts0`, `ablkAt0`, `xblkAt0`); one point's update (`step0`); the invariant; the output tile, the
  cover, the array.
-/
import proofs.«158997_j77232101916990_1_alg».proof.Proof.KI.R0Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz0 : (![0, 0] : Fin 2 → Nat) = fun _ => 0 := funext fun a => by fin_cases a <;> rfl

section Pieces

variable {F : FTy → Type} [FloatOps F]
variable (c : Dev nD) (i : grid0.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay0 (hc0 : first0 i) (hc1 : ¬ last0 i) :
    accFirst0 c i arg2 harg2 arg3 harg3 arg4 harg4 arg5 harg5 x0 x1 hc0 hc1 = k0_pay2 x0 x1 (k0_pay1 (F := F)) := by
  unfold accFirst0
  rw [View.read_writes_eq_canon _ _ _ (coverFirst0 c i arg2 harg2 arg3 harg3 arg4 harg4 arg5 harg5 x0 x1 hc0 hc1)]
  unfold runFirst0
  dsimp only
  sl_unfold_words
  rw [View.canon_cons_unit_zero (S := S2048x64) hz0]
  simp only [View.readAt_eq_ld, harg2.read_unread, harg3.read_unread, View.readCov_unit_zero (S := S2048x64) _ hz0,
    View.ld_unit_zero (S := S2048x1024) hz0, View.ld_unit_zero (S := S1024x64) hz0, View.ld_unit_zero (S := S2048x64) hz0]

/-- A middle point leaves the tile update of what it found. -/
theorem accMidPay0 (hc0 : ¬ first0 i) (hc1 : ¬ last0 i) :
    accMid0 c i arg2 harg2 arg3 harg3 arg4 harg4 arg5 harg5 x0 x1 s hc0 hc1 = k0_pay2 x0 x1 s := by
  unfold accMid0
  rw [View.read_writes_eq_canon _ _ _ (coverMid0 c i arg2 harg2 arg3 harg3 arg4 harg4 arg5 harg5 x0 x1 s hc0 hc1)]
  unfold runMid0
  dsimp only
  sl_unfold_words
  rw [View.canon_unit_zero hz0]
  simp only [View.readAt_eq_ld, harg2.read_unread, harg3.read_unread, harg5.read_unread,
    View.ld_unit_zero (S := S2048x1024) hz0, View.ld_unit_zero (S := S1024x64) hz0, View.ld_unit_zero (S := S2048x64) hz0]

/-- A last point leaves the same in the accumulator, -/
theorem accLastPay0 (hc0 : ¬ first0 i) (hc1 : last0 i) :
    accLast0 c i arg2 harg2 arg3 harg3 arg4 harg4 arg5 harg5 x0 x1 s hc0 hc1 = k0_pay2 x0 x1 s := by
  unfold accLast0
  rw [View.read_writes_eq_canon _ _ _ (coverLastAcc0 c i arg2 harg2 arg3 harg3 arg4 harg4 arg5 harg5 x0 x1 s hc0 hc1)]
  unfold runLast0
  dsimp only
  sl_unfold_words
  rw [View.canon_unit_zero hz0]
  simp only [View.readAt_eq_ld, harg2.read_unread, harg3.read_unread, harg5.read_unread,
    View.ld_unit_zero (S := S2048x1024) hz0, View.ld_unit_zero (S := S1024x64) hz0, View.ld_unit_zero (S := S2048x64) hz0]

/-- and copies it into the output tile: the copy's load reads the update's store back. -/
theorem outLastPay0 (hc0 : ¬ first0 i) (hc1 : last0 i) :
    outLast0 c i arg2 harg2 arg3 harg3 arg4 harg4 arg5 harg5 x0 x1 s hc0 hc1 = k0_pay2 x0 x1 s := by
  unfold outLast0
  rw [View.read_writes_eq_canon _ _ _ (coverLastOut0 c i arg2 harg2 arg3 harg3 arg4 harg4 arg5 harg5 x0 x1 s hc0 hc1)]
  unfold runLast0
  dsimp only
  sl_unfold_words
  rw [View.canon_unit_zero hz0]
  simp only [View.readAt_eq_ld, harg2.read_unread, harg3.read_unread, harg5.read_unread, View.readCov_unit_zero (S := S2048x64) _ hz0,
    View.ld_unit_zero (S := S2048x1024) hz0, View.ld_unit_zero (S := S1024x64) hz0, View.ld_unit_zero (S := S2048x64) hz0]

end Pieces

/-! ## The two bodies at an entry, at the ideal values -/

/-- The reset's block is zero everywhere. -/
theorem pay1_apply0 (j : S2048x64.Idx) : k0_pay1 (F := Ideal) j = 0 := by
  unfold k0_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply0 (x0 : Vec Ideal S2048x1024 .f32) (x1 : Vec Ideal S1024x64 .f32) (s : Vec Ideal S2048x64 .f32)
    (p : Fin 2048) (q : Fin 64) :
    k0_pay2 (F := Ideal) x0 x1 s (ix2 p q) = s (ix2 p q) + ∑ c : Fin 1024, x0 (ix2 p c) * x1 (ix2 c q) := by
  unfold k0_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr0 (c : Dev nD) : Vec Ideal S8192x8192 .f32 := V c (Pipeline.arrRef spec0 0)
abbrev xarr0 (c : Dev nD) : Vec Ideal S8192x64 .f32 := V c (Pipeline.arrRef spec0 1)
abbrev ablk0 (c : Dev nD) (t : Fin cfg0.N) : Vec Ideal S2048x1024 .f32 := iblk0 V c 0 t
abbrev xblk0 (c : Dev nD) (t : Fin cfg0.N) : Vec Ideal S1024x64 .f32 := iblk0 V c 1 t

/-- The printed index maps over the grid: point t = 8 i + k reads tile (i, k) of A and tile (k, 0) of x, and its
    output tile is (i, 0). -/
theorem idx_facts0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (p, k) of A's tile at point t is A[2048 (t / 8) + p, 1024 (t % 8) + k]. -/
theorem ablkAt0 (c : Dev nD) (t : Fin cfg0.N) (p : Fin 2048) (k : Fin 1024) :
    ablk0 V c t (ix2 p k) = ent (m := 8192) (n := 8192) (aarr0 V c) (2048 * (t.val / 8) + p.val) (1024 * (t.val % 8) + k.val) := by
  have hN : cfg0.N = 32 := N_0
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts0 t
  unfold ablk0 iblk0
  rw [View.read_apply]
  show aarr0 V c _ = aarr0 V c _
  refine congrArg (aarr0 V c) (funext fun a => Fin.ext ?_)
  match a with
  | ⟨0, _⟩ => show win0_0.index t (0 : Fin 2) * 2048 + 1 * p.val = 2048 * (t.val / 8) + p.val; rw [e0]; omega
  | ⟨1, _⟩ => show win0_0.index t (1 : Fin 2) * 1024 + 1 * k.val = 1024 * (t.val % 8) + k.val; rw [e1]; omega

/-- Entry (k, q) of x's tile at point t is x[1024 (t % 8) + k, q]. -/
theorem xblkAt0 (c : Dev nD) (t : Fin cfg0.N) (k : Fin 1024) (q : Fin 64) :
    xblk0 V c t (ix2 k q) = ent (m := 8192) (n := 64) (xarr0 V c) (1024 * (t.val % 8) + k.val) q.val := by
  have hN : cfg0.N = 32 := N_0
  have ht := t.isLt
  have hk := k.isLt
  have hj : 1024 * (t.val % 8) + k.val < 8192 := by omega
  rw [ent_of_lt _ _ _ hj q.isLt]
  obtain ⟨-, -, e0, e1, -⟩ := idx_facts0 t
  unfold xblk0 iblk0
  rw [View.read_apply]
  show xarr0 V c _ = xarr0 V c _
  refine congrArg (xarr0 V c) (funext fun a => Fin.ext ?_)
  match a with
  | ⟨0, _⟩ => show win0_1.index t (0 : Fin 2) * 1024 + 1 * k.val = 1024 * (t.val % 8) + k.val; rw [e0]; omega
  | ⟨1, _⟩ => show win0_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step0 (c : Dev nD) (t : Fin cfg0.N) (p : Fin 2048) (q : Fin 64) (s : Vec Ideal S2048x64 .f32)
    (hs : s (ix2 p q) = dotUpTo (m := 8192) (k := 8192) (n := 64) (aarr0 V c) (xarr0 V c) (2048 * (t.val / 8) + p.val) q.val (1024 * (t.val % 8))) :
    k0_pay2 (F := Ideal) (ablk0 V c t) (xblk0 V c t) s (ix2 p q)
      = dotUpTo (m := 8192) (k := 8192) (n := 64) (aarr0 V c) (xarr0 V c) (2048 * (t.val / 8) + p.val) q.val (1024 * (t.val % 8) + 1024) :=
  (pay2_apply0 (ablk0 V c t) (xblk0 V c t) s p q).trans
    (acc_step (m := 8192) (k := 8192) (n := 64) (aarr0 V c) (xarr0 V c) (M := 2048) (K := 1024) (N := 64)
      (ablk0 V c t) (xblk0 V c t) (2048 * (t.val / 8)) (1024 * (t.val % 8))
      (fun p' c' => ablkAt0 V c t p' c') (fun c' q' => xblkAt0 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv0 (c : Dev nD) (n : ℕ) : ∀ (hn : n < cfg0.N) (p : Fin 2048) (q : Fin 64),
    accAt0 V c n hn (ix2 p q)
      = dotUpTo (m := 8192) (k := 8192) (n := 64) (aarr0 V c) (xarr0 V c) (2048 * (n / 8) + p.val) q.val (1024 * (n % 8) + 1024) := by
  induction n using Nat.strong_induction_on with
  | _ n ih =>
    intro hn p q
    have hN : cfg0.N = 32 := N_0
    by_cases h0 : n % 8 = 0
    · refine (congrFun (accAt0_first V c ⟨n, hn⟩ h0) (ix2 p q)).trans ?_
      refine (congrFun (accFirstPay0 (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) sc0 hsc0 (iblk0 V c 0 ⟨n, hn⟩) (iblk0 V c 1 ⟨n, hn⟩)
        ((first0_iff ⟨n, hn⟩).mpr h0) (fun h => not_last_of_first0 h0 ((last0_iff ⟨n, hn⟩).mp h))) (ix2 p q)).trans ?_
      exact step0 V c ⟨n, hn⟩ p q (k0_pay1 (F := Ideal)) (by show _ = dotUpTo _ _ _ _ (1024 * (n % 8)); rw [h0, Nat.mul_zero, dotUpTo_zero]; exact pay1_apply0 (ix2 p q))
    · have hn' : n - 1 < cfg0.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt0_last V c ⟨n, hn⟩ h0 h1) (ix2 p q)).trans ?_
        refine (congrFun (accLastPay0 (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) sc0 hsc0 (iblk0 V c 0 ⟨n, hn⟩) (iblk0 V c 1 ⟨n, hn⟩) (accAt0 V c (n - 1) hn')
          (fun h => h0 ((first0_iff ⟨n, hn⟩).mp h)) ((last0_iff ⟨n, hn⟩).mpr h1)) (ix2 p q)).trans ?_
        exact step0 V c ⟨n, hn⟩ p q (accAt0 V c (n - 1) hn') hprev
      · refine (congrFun (accAt0_mid V c ⟨n, hn⟩ h0 h1) (ix2 p q)).trans ?_
        refine (congrFun (accMidPay0 (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) sc0 hsc0 (iblk0 V c 0 ⟨n, hn⟩) (iblk0 V c 1 ⟨n, hn⟩) (accAt0 V c (n - 1) hn')
          (fun h => h0 ((first0_iff ⟨n, hn⟩).mp h)) (fun h => h1 ((last0_iff ⟨n, hn⟩).mp h))) (ix2 p q)).trans ?_
        exact step0 V c ⟨n, hn⟩ p q (accAt0 V c (n - 1) hn') hprev

/-! ## The output tile, the cover, the array -/

/-- THE PRODUCT of the two arrays as the reference takes it: the host's `dot_general`, contracting A's columns with
    x's rows. -/
abbrev prod0 (c : Dev nD) : Vec Ideal S8192x64 .f32 :=
  Host.dotGeneral (F := Ideal) (φ₁ := .f32) (φ₂ := .f32) Cert.ReferenceIdeal.dot_S8192x8192_S8192x64_S8192x64_1_0_0_1_n_n none (aarr0 V c) (xarr0 V c)

/-- At (r, q) it is the sum over all 8192 columns j of A[r, j] · x[j, q]. -/
theorem prodAt0 (c : Dev nD) (r : Fin 8192) (q : Fin 64) :
    prod0 V c (ix2 r q) = ∑ j : Fin 8192, aarr0 V c (ix2 r j) * xarr0 V c (ix2 j q) :=
  dotGeneral_plain_apply (M := 8192) (K := 8192) (N := 64) none .single (aarr0 V c) (xarr0 V c) r q

/-- What a point leaves for the output tile is the accumulator as it leaves it: a last point of a row copies it. -/
theorem outIsAcc0 (c : Dev nD) (t : Fin cfg0.N) : outAt0 V c t = accAt0 V c t.val t.isLt := by
  unfold outAt0
  split
  · rename_i h
    exact (outLastPay0 (F := Ideal) c (grid0.coords t) (ms0_0 t) (hs0_0 t) (ms0_1 t) (hs0_1 t) (ms0_2 t) (hs0_2 t) sc0 hsc0
        (iblk0 V c 0 t) (iblk0 V c 1 t) (accAt0 V c (t.val - 1) (Nat.lt_of_le_of_lt (Nat.sub_le _ _) t.isLt))
        (fun h' => h.1 ((first0_iff t).mp h')) ((last0_iff t).mpr h.2)).trans
      ((accLastPay0 (F := Ideal) c (grid0.coords t) (ms0_0 t) (hs0_0 t) (ms0_1 t) (hs0_1 t) (ms0_2 t) (hs0_2 t) sc0 hsc0
        (iblk0 V c 0 t) (iblk0 V c 1 t) (accAt0 V c (t.val - 1) (Nat.lt_of_le_of_lt (Nat.sub_le _ _) t.isLt))
        (fun h' => h.1 ((first0_iff t).mp h')) ((last0_iff t).mpr h.2)).symm.trans (accAt0_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile0 (c : Dev nD) (t : Fin cfg0.N) (hf : (cfg0.win 2).flush t = true) :
    (dat0 V c).flushed 2 t = ((cfg0.win 2).blk t).view.read (Elt Ideal) (prod0 V c) := by
  have hN : cfg0.N = 32 := N_0
  have ht := t.isLt
  have h7 : t.val % 8 = 7 := (flush0_2 t).mp hf
  obtain ⟨-, -, -, -, e0, e1⟩ := idx_facts0 t
  show (cfg0.win 2).cut (grid0.coords t) ((dat0 V c).after 2 t) = _
  rw [after0_2, outIsAcc0 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg0.win 2).blk t).view.emb (ix2 p q) = (ix2 (⟨2048 * (t.val / 8) + p.val, hr⟩ : Fin 8192) q : S8192x64.Idx) :=
    funext fun a => Fin.ext (by
      match a with
      | ⟨0, _⟩ => show win0_2.index t (0 : Fin 2) * 2048 + 1 * p.val = 2048 * (t.val / 8) + p.val; rw [e0]; omega
      | ⟨1, _⟩ => show win0_2.index t (1 : Fin 2) * 64 + 1 * q.val = q.val; rw [e1]; omega)
  rw [View.read_apply]
  show accAt0 V c t.val t.isLt (ix2 p q) = prod0 V c (((cfg0.win 2).blk t).view.emb (ix2 p q))
  rw [hemb, prodAt0 V c ⟨2048 * (t.val / 8) + p.val, hr⟩ q, accInv0 V c t.val t.isLt p q,
    ← dotUpTo_all (aarr0 V c) (xarr0 V c) ⟨2048 * (t.val / 8) + p.val, hr⟩ q,
    show 1024 * (t.val % 8) + 1024 = 8192 by omega]

/-- An entry of the output array is in point t's tile iff each coordinate is in the tile's range on its axis. -/
theorem mem_blk0 (t : Fin cfg0.N) (i : S8192x64.Idx) :
    i ∈ ((cfg0.win 2).blk t).view.set
      ↔ ∀ a : Fin 2, win0_2.index t a * S2048x64.size a ≤ (i a).val ∧ (i a).val < win0_2.index t a * S2048x64.size a + S2048x64.size a := by
  show i ∈ ((View.whole (Pipeline.arrRef spec0 2)).slice (win0_2.rect t)).set ↔ _
  rw [View.set_slice_whole, Rect.mem_set_unit]
  exact Iff.rfl

/-- THE COVER: row r of the output array lies in the tile written back at point 8 (r / 2048) + 7, the last of its row
    of tiles. -/
theorem cover0 (i : S8192x64.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 64 := (i 1).isLt
  have hlt : 8 * ((i 0).val / 2048) + 7 < cfg0.N := by omega
  obtain ⟨t, htv⟩ : ∃ t : Fin cfg0.N, t.val = 8 * ((i 0).val / 2048) + 7 := ⟨⟨_, hlt⟩, rfl⟩
  obtain ⟨-, -, -, -, e0, e1⟩ := idx_facts0 t
  refine ⟨t, (flush0_2 t).mpr (by omega), ?_⟩
  rw [mem_blk0]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 64 ≤ (i 1).val ∧ (i 1).val < win0_2.index t (1 : Fin 2) * 64 + 64
    rw [e1]; omega

/-- THE VALUE OF REGION 0: after the region the output array holds the product of the two input arrays as the
    region found them — every tile written back is a tile of the product, and the written tiles cover the array. -/
theorem mm0 (c : Dev nD) :
    (dat0 (F := Ideal) V c).arrAt 2 cfg0.N
      = Host.dotGeneral (F := Ideal) (φ₁ := .f32) (φ₂ := .f32) Cert.ReferenceIdeal.dot_S8192x8192_S8192x64_S8192x64_1_0_0_1_n_n none
          (V c (Pipeline.arrRef spec0 0)) (V c (Pipeline.arrRef spec0 1)) :=
  (dat0 V c).arrAt_eq_of_cover 2 (prod0 V c) (flushedTile0 V c) (fun i => cover0 i)

end Blocks

end Cert.KernelIdeal.Hand

end
-- ==== Proof.KI.R1Val.lean ====
/-
  Region 1's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv1`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile1`); row r of the result lies in the tile written back at point 8 (r / 2048) + 7 (`cover1`); hence
  the array after the region is that `dot_general` (`mm1`).

  The steps: what each control case's stores read back to, as the body's pure terms (`accFirstPay1`, `accMidPay1`,
  `accLastPay1`, `outLastPay1`); those terms at an entry (`pay1_apply1`, `pay2_apply1`); each tile as entries of
  its array (`idx_facts1`, `ablkAt1`, `xblkAt1`); one point's update (`step1`); the invariant; the output tile, the
  cover, the array.
-/
import proofs.«158997_j77232101916990_1_alg».proof.Proof.KI.R1Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz1 : (![0, 0] : Fin 2 → Nat) = fun _ => 0 := funext fun a => by fin_cases a <;> rfl

section Pieces

variable {F : FTy → Type} [FloatOps F]
variable (c : Dev nD) (i : grid1.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay1 (hc0 : first1 i) (hc1 : ¬ last1 i) :
    accFirst1 c i arg2 harg2 arg3 harg3 arg4 harg4 arg5 harg5 x0 x1 hc0 hc1 = k1_pay2 x0 x1 (k1_pay1 (F := F)) := by
  unfold accFirst1
  rw [View.read_writes_eq_canon _ _ _ (coverFirst1 c i arg2 harg2 arg3 harg3 arg4 harg4 arg5 harg5 x0 x1 hc0 hc1)]
  unfold runFirst1
  dsimp only
  sl_unfold_words
  rw [View.canon_cons_unit_zero (S := S2048x64) hz1]
  simp only [View.readAt_eq_ld, harg2.read_unread, harg3.read_unread, View.readCov_unit_zero (S := S2048x64) _ hz1,
    View.ld_unit_zero (S := S2048x1024) hz1, View.ld_unit_zero (S := S1024x64) hz1, View.ld_unit_zero (S := S2048x64) hz1]

/-- A middle point leaves the tile update of what it found. -/
theorem accMidPay1 (hc0 : ¬ first1 i) (hc1 : ¬ last1 i) :
    accMid1 c i arg2 harg2 arg3 harg3 arg4 harg4 arg5 harg5 x0 x1 s hc0 hc1 = k1_pay2 x0 x1 s := by
  unfold accMid1
  rw [View.read_writes_eq_canon _ _ _ (coverMid1 c i arg2 harg2 arg3 harg3 arg4 harg4 arg5 harg5 x0 x1 s hc0 hc1)]
  unfold runMid1
  dsimp only
  sl_unfold_words
  rw [View.canon_unit_zero hz1]
  simp only [View.readAt_eq_ld, harg2.read_unread, harg3.read_unread, harg5.read_unread,
    View.ld_unit_zero (S := S2048x1024) hz1, View.ld_unit_zero (S := S1024x64) hz1, View.ld_unit_zero (S := S2048x64) hz1]

/-- A last point leaves the same in the accumulator, -/
theorem accLastPay1 (hc0 : ¬ first1 i) (hc1 : last1 i) :
    accLast1 c i arg2 harg2 arg3 harg3 arg4 harg4 arg5 harg5 x0 x1 s hc0 hc1 = k1_pay2 x0 x1 s := by
  unfold accLast1
  rw [View.read_writes_eq_canon _ _ _ (coverLastAcc1 c i arg2 harg2 arg3 harg3 arg4 harg4 arg5 harg5 x0 x1 s hc0 hc1)]
  unfold runLast1
  dsimp only
  sl_unfold_words
  rw [View.canon_unit_zero hz1]
  simp only [View.readAt_eq_ld, harg2.read_unread, harg3.read_unread, harg5.read_unread,
    View.ld_unit_zero (S := S2048x1024) hz1, View.ld_unit_zero (S := S1024x64) hz1, View.ld_unit_zero (S := S2048x64) hz1]

/-- and copies it into the output tile: the copy's load reads the update's store back. -/
theorem outLastPay1 (hc0 : ¬ first1 i) (hc1 : last1 i) :
    outLast1 c i arg2 harg2 arg3 harg3 arg4 harg4 arg5 harg5 x0 x1 s hc0 hc1 = k1_pay2 x0 x1 s := by
  unfold outLast1
  rw [View.read_writes_eq_canon _ _ _ (coverLastOut1 c i arg2 harg2 arg3 harg3 arg4 harg4 arg5 harg5 x0 x1 s hc0 hc1)]
  unfold runLast1
  dsimp only
  sl_unfold_words
  rw [View.canon_unit_zero hz1]
  simp only [View.readAt_eq_ld, harg2.read_unread, harg3.read_unread, harg5.read_unread, View.readCov_unit_zero (S := S2048x64) _ hz1,
    View.ld_unit_zero (S := S2048x1024) hz1, View.ld_unit_zero (S := S1024x64) hz1, View.ld_unit_zero (S := S2048x64) hz1]

end Pieces

/-! ## The two bodies at an entry, at the ideal values -/

/-- The reset's block is zero everywhere. -/
theorem pay1_apply1 (j : S2048x64.Idx) : k1_pay1 (F := Ideal) j = 0 := by
  unfold k1_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply1 (x0 : Vec Ideal S2048x1024 .f32) (x1 : Vec Ideal S1024x64 .f32) (s : Vec Ideal S2048x64 .f32)
    (p : Fin 2048) (q : Fin 64) :
    k1_pay2 (F := Ideal) x0 x1 s (ix2 p q) = s (ix2 p q) + ∑ c : Fin 1024, x0 (ix2 p c) * x1 (ix2 c q) := by
  unfold k1_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr1 (c : Dev nD) : Vec Ideal S8192x8192 .f32 := V c (Pipeline.arrRef spec1 0)
abbrev xarr1 (c : Dev nD) : Vec Ideal S8192x64 .f32 := V c (Pipeline.arrRef spec1 1)
abbrev ablk1 (c : Dev nD) (t : Fin cfg1.N) : Vec Ideal S2048x1024 .f32 := iblk1 V c 0 t
abbrev xblk1 (c : Dev nD) (t : Fin cfg1.N) : Vec Ideal S1024x64 .f32 := iblk1 V c 1 t

/-- The printed index maps over the grid: point t = 8 i + k reads tile (i, k) of A and tile (k, 0) of x, and its
    output tile is (i, 0). -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry (p, k) of A's tile at point t is A[2048 (t / 8) + p, 1024 (t % 8) + k]. -/
theorem ablkAt1 (c : Dev nD) (t : Fin cfg1.N) (p : Fin 2048) (k : Fin 1024) :
    ablk1 V c t (ix2 p k) = ent (m := 8192) (n := 8192) (aarr1 V c) (2048 * (t.val / 8) + p.val) (1024 * (t.val % 8) + k.val) := by
  have hN : cfg1.N = 32 := N_1
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts1 t
  unfold ablk1 iblk1
  rw [View.read_apply]
  show aarr1 V c _ = aarr1 V c _
  refine congrArg (aarr1 V c) (funext fun a => Fin.ext ?_)
  match a with
  | ⟨0, _⟩ => show win1_0.index t (0 : Fin 2) * 2048 + 1 * p.val = 2048 * (t.val / 8) + p.val; rw [e0]; omega
  | ⟨1, _⟩ => show win1_0.index t (1 : Fin 2) * 1024 + 1 * k.val = 1024 * (t.val % 8) + k.val; rw [e1]; omega

/-- Entry (k, q) of x's tile at point t is x[1024 (t % 8) + k, q]. -/
theorem xblkAt1 (c : Dev nD) (t : Fin cfg1.N) (k : Fin 1024) (q : Fin 64) :
    xblk1 V c t (ix2 k q) = ent (m := 8192) (n := 64) (xarr1 V c) (1024 * (t.val % 8) + k.val) q.val := by
  have hN : cfg1.N = 32 := N_1
  have ht := t.isLt
  have hk := k.isLt
  have hj : 1024 * (t.val % 8) + k.val < 8192 := by omega
  rw [ent_of_lt _ _ _ hj q.isLt]
  obtain ⟨-, -, e0, e1, -⟩ := idx_facts1 t
  unfold xblk1 iblk1
  rw [View.read_apply]
  show xarr1 V c _ = xarr1 V c _
  refine congrArg (xarr1 V c) (funext fun a => Fin.ext ?_)
  match a with
  | ⟨0, _⟩ => show win1_1.index t (0 : Fin 2) * 1024 + 1 * k.val = 1024 * (t.val % 8) + k.val; rw [e0]; omega
  | ⟨1, _⟩ => show win1_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step1 (c : Dev nD) (t : Fin cfg1.N) (p : Fin 2048) (q : Fin 64) (s : Vec Ideal S2048x64 .f32)
    (hs : s (ix2 p q) = dotUpTo (m := 8192) (k := 8192) (n := 64) (aarr1 V c) (xarr1 V c) (2048 * (t.val / 8) + p.val) q.val (1024 * (t.val % 8))) :
    k1_pay2 (F := Ideal) (ablk1 V c t) (xblk1 V c t) s (ix2 p q)
      = dotUpTo (m := 8192) (k := 8192) (n := 64) (aarr1 V c) (xarr1 V c) (2048 * (t.val / 8) + p.val) q.val (1024 * (t.val % 8) + 1024) :=
  (pay2_apply1 (ablk1 V c t) (xblk1 V c t) s p q).trans
    (acc_step (m := 8192) (k := 8192) (n := 64) (aarr1 V c) (xarr1 V c) (M := 2048) (K := 1024) (N := 64)
      (ablk1 V c t) (xblk1 V c t) (2048 * (t.val / 8)) (1024 * (t.val % 8))
      (fun p' c' => ablkAt1 V c t p' c') (fun c' q' => xblkAt1 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv1 (c : Dev nD) (n : ℕ) : ∀ (hn : n < cfg1.N) (p : Fin 2048) (q : Fin 64),
    accAt1 V c n hn (ix2 p q)
      = dotUpTo (m := 8192) (k := 8192) (n := 64) (aarr1 V c) (xarr1 V c) (2048 * (n / 8) + p.val) q.val (1024 * (n % 8) + 1024) := by
  induction n using Nat.strong_induction_on with
  | _ n ih =>
    intro hn p q
    have hN : cfg1.N = 32 := N_1
    by_cases h0 : n % 8 = 0
    · refine (congrFun (accAt1_first V c ⟨n, hn⟩ h0) (ix2 p q)).trans ?_
      refine (congrFun (accFirstPay1 (F := Ideal) c (grid1.coords ⟨n, hn⟩) (ms1_0 ⟨n, hn⟩) (hs1_0 ⟨n, hn⟩) (ms1_1 ⟨n, hn⟩) (hs1_1 ⟨n, hn⟩)
        (ms1_2 ⟨n, hn⟩) (hs1_2 ⟨n, hn⟩) sc1 hsc1 (iblk1 V c 0 ⟨n, hn⟩) (iblk1 V c 1 ⟨n, hn⟩)
        ((first1_iff ⟨n, hn⟩).mpr h0) (fun h => not_last_of_first1 h0 ((last1_iff ⟨n, hn⟩).mp h))) (ix2 p q)).trans ?_
      exact step1 V c ⟨n, hn⟩ p q (k1_pay1 (F := Ideal)) (by show _ = dotUpTo _ _ _ _ (1024 * (n % 8)); rw [h0, Nat.mul_zero, dotUpTo_zero]; exact pay1_apply1 (ix2 p q))
    · have hn' : n - 1 < cfg1.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt1_last V c ⟨n, hn⟩ h0 h1) (ix2 p q)).trans ?_
        refine (congrFun (accLastPay1 (F := Ideal) c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) sc1 hsc1 (iblk1 V c 0 ⟨n, hn⟩) (iblk1 V c 1 ⟨n, hn⟩) (accAt1 V c (n - 1) hn')
          (fun h => h0 ((first1_iff ⟨n, hn⟩).mp h)) ((last1_iff ⟨n, hn⟩).mpr h1)) (ix2 p q)).trans ?_
        exact step1 V c ⟨n, hn⟩ p q (accAt1 V c (n - 1) hn') hprev
      · refine (congrFun (accAt1_mid V c ⟨n, hn⟩ h0 h1) (ix2 p q)).trans ?_
        refine (congrFun (accMidPay1 (F := Ideal) c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) sc1 hsc1 (iblk1 V c 0 ⟨n, hn⟩) (iblk1 V c 1 ⟨n, hn⟩) (accAt1 V c (n - 1) hn')
          (fun h => h0 ((first1_iff ⟨n, hn⟩).mp h)) (fun h => h1 ((last1_iff ⟨n, hn⟩).mp h))) (ix2 p q)).trans ?_
        exact step1 V c ⟨n, hn⟩ p q (accAt1 V c (n - 1) hn') hprev

/-! ## The output tile, the cover, the array -/

/-- THE PRODUCT of the two arrays as the reference takes it: the host's `dot_general`, contracting A's columns with
    x's rows. -/
abbrev prod1 (c : Dev nD) : Vec Ideal S8192x64 .f32 :=
  Host.dotGeneral (F := Ideal) (φ₁ := .f32) (φ₂ := .f32) Cert.ReferenceIdeal.dot_S8192x8192_S8192x64_S8192x64_1_0_0_1_n_n none (aarr1 V c) (xarr1 V c)

/-- At (r, q) it is the sum over all 8192 columns j of A[r, j] · x[j, q]. -/
theorem prodAt1 (c : Dev nD) (r : Fin 8192) (q : Fin 64) :
    prod1 V c (ix2 r q) = ∑ j : Fin 8192, aarr1 V c (ix2 r j) * xarr1 V c (ix2 j q) :=
  dotGeneral_plain_apply (M := 8192) (K := 8192) (N := 64) none .single (aarr1 V c) (xarr1 V c) r q

/-- What a point leaves for the output tile is the accumulator as it leaves it: a last point of a row copies it. -/
theorem outIsAcc1 (c : Dev nD) (t : Fin cfg1.N) : outAt1 V c t = accAt1 V c t.val t.isLt := by
  unfold outAt1
  split
  · rename_i h
    exact (outLastPay1 (F := Ideal) c (grid1.coords t) (ms1_0 t) (hs1_0 t) (ms1_1 t) (hs1_1 t) (ms1_2 t) (hs1_2 t) sc1 hsc1
        (iblk1 V c 0 t) (iblk1 V c 1 t) (accAt1 V c (t.val - 1) (Nat.lt_of_le_of_lt (Nat.sub_le _ _) t.isLt))
        (fun h' => h.1 ((first1_iff t).mp h')) ((last1_iff t).mpr h.2)).trans
      ((accLastPay1 (F := Ideal) c (grid1.coords t) (ms1_0 t) (hs1_0 t) (ms1_1 t) (hs1_1 t) (ms1_2 t) (hs1_2 t) sc1 hsc1
        (iblk1 V c 0 t) (iblk1 V c 1 t) (accAt1 V c (t.val - 1) (Nat.lt_of_le_of_lt (Nat.sub_le _ _) t.isLt))
        (fun h' => h.1 ((first1_iff t).mp h')) ((last1_iff t).mpr h.2)).symm.trans (accAt1_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile1 (c : Dev nD) (t : Fin cfg1.N) (hf : (cfg1.win 2).flush t = true) :
    (dat1 V c).flushed 2 t = ((cfg1.win 2).blk t).view.read (Elt Ideal) (prod1 V c) := by
  have hN : cfg1.N = 32 := N_1
  have ht := t.isLt
  have h7 : t.val % 8 = 7 := (flush1_2 t).mp hf
  obtain ⟨-, -, -, -, e0, e1⟩ := idx_facts1 t
  show (cfg1.win 2).cut (grid1.coords t) ((dat1 V c).after 2 t) = _
  rw [after1_2, outIsAcc1 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg1.win 2).blk t).view.emb (ix2 p q) = (ix2 (⟨2048 * (t.val / 8) + p.val, hr⟩ : Fin 8192) q : S8192x64.Idx) :=
    funext fun a => Fin.ext (by
      match a with
      | ⟨0, _⟩ => show win1_2.index t (0 : Fin 2) * 2048 + 1 * p.val = 2048 * (t.val / 8) + p.val; rw [e0]; omega
      | ⟨1, _⟩ => show win1_2.index t (1 : Fin 2) * 64 + 1 * q.val = q.val; rw [e1]; omega)
  rw [View.read_apply]
  show accAt1 V c t.val t.isLt (ix2 p q) = prod1 V c (((cfg1.win 2).blk t).view.emb (ix2 p q))
  rw [hemb, prodAt1 V c ⟨2048 * (t.val / 8) + p.val, hr⟩ q, accInv1 V c t.val t.isLt p q,
    ← dotUpTo_all (aarr1 V c) (xarr1 V c) ⟨2048 * (t.val / 8) + p.val, hr⟩ q,
    show 1024 * (t.val % 8) + 1024 = 8192 by omega]

/-- An entry of the output array is in point t's tile iff each coordinate is in the tile's range on its axis. -/
theorem mem_blk1 (t : Fin cfg1.N) (i : S8192x64.Idx) :
    i ∈ ((cfg1.win 2).blk t).view.set
      ↔ ∀ a : Fin 2, win1_2.index t a * S2048x64.size a ≤ (i a).val ∧ (i a).val < win1_2.index t a * S2048x64.size a + S2048x64.size a := by
  show i ∈ ((View.whole (Pipeline.arrRef spec1 2)).slice (win1_2.rect t)).set ↔ _
  rw [View.set_slice_whole, Rect.mem_set_unit]
  exact Iff.rfl

/-- THE COVER: row r of the output array lies in the tile written back at point 8 (r / 2048) + 7, the last of its row
    of tiles. -/
theorem cover1 (i : S8192x64.Idx) :
    ∃ t : Fin cfg1.N, (cfg1.win 2).flush t = true ∧ i ∈ ((cfg1.win 2).blk t).view.set := by
  have hN : cfg1.N = 32 := N_1
  have hi0 : (i 0).val < 8192 := (i 0).isLt
  have hi1 : (i 1).val < 64 := (i 1).isLt
  have hlt : 8 * ((i 0).val / 2048) + 7 < cfg1.N := by omega
  obtain ⟨t, htv⟩ : ∃ t : Fin cfg1.N, t.val = 8 * ((i 0).val / 2048) + 7 := ⟨⟨_, hlt⟩, rfl⟩
  obtain ⟨-, -, -, -, e0, e1⟩ := idx_facts1 t
  refine ⟨t, (flush1_2 t).mpr (by omega), ?_⟩
  rw [mem_blk1]
  intro a
  match a with
  | ⟨0, _⟩ =>
    show win1_2.index t (0 : Fin 2) * 2048 ≤ (i 0).val ∧ (i 0).val < win1_2.index t (0 : Fin 2) * 2048 + 2048
    rw [e0]; omega
  | ⟨1, _⟩ =>
    show win1_2.index t (1 : Fin 2) * 64 ≤ (i 1).val ∧ (i 1).val < win1_2.index t (1 : Fin 2) * 64 + 64
    rw [e1]; omega

/-- THE VALUE OF REGION 0: after the region the output array holds the product of the two input arrays as the
    region found them — every tile written back is a tile of the product, and the written tiles cover the array. -/
theorem mm1 (c : Dev nD) :
    (dat1 (F := Ideal) V c).arrAt 2 cfg1.N
      = Host.dotGeneral (F := Ideal) (φ₁ := .f32) (φ₂ := .f32) Cert.ReferenceIdeal.dot_S8192x8192_S8192x64_S8192x64_1_0_0_1_n_n none
          (V c (Pipeline.arrRef spec1 0)) (V c (Pipeline.arrRef spec1 1)) :=
  (dat1 V c).arrAt_eq_of_cover 2 (prod1 V c) (flushedTile1 V c) (fun i => cover1 i)

end Blocks

end Cert.KernelIdeal.Hand

end
-- ==== Proof.KI.R2Val.lean ====
/-
  Region 2's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv2`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile2`); row r of the result lies in the tile written back at point 8 (r / 2048) + 7 (`cover2`); hence
  the array after the region is that `dot_general` (`mm2`).

  The steps: what each control case's stores read back to, as the body's pure terms (`accFirstPay2`, `accMidPay2`,
  `accLastPay2`, `outLastPay2`); those terms at an entry (`pay1_apply2`, `pay2_apply2`); each tile as entries of
  its array (`idx_facts2`, `ablkAt2`, `xblkAt2`); one point's update (`step2`); the invariant; the output tile, the
  cover, the array.
-/
import proofs.«158997_j77232101916990_1_alg».proof.Proof.KI.R2Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz2 : (![0, 0] : Fin 2 → Nat) = fun _ => 0 := funext fun a => by fin_cases a <;> rfl

section Pieces

variable {F : FTy → Type} [FloatOps F]
variable (c : Dev nD) (i : grid2.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay2 (hc0 : first2 i) (hc1 : ¬ last2 i) :
    accFirst2 c i arg2 harg2 arg3 harg3 arg4 harg4 arg5 harg5 x0 x1 hc0 hc1 = k2_pay2 x0 x1 (k2_pay1 (F := F)) := by
  unfold accFirst2
  rw [View.read_writes_eq_canon _ _ _ (coverFirst2 c i arg2 harg2 arg3 harg3 arg4 harg4 arg5 harg5 x0 x1 hc0 hc1)]
  unfold runFirst2
  dsimp only
  sl_unfold_words
  rw [View.canon_cons_unit_zero (S := S2048x64) hz2]
  simp only [View.readAt_eq_ld, harg2.read_unread, harg3.read_unread, View.readCov_unit_zero (S := S2048x64) _ hz2,
    View.ld_unit_zero (S := S2048x1024) hz2, View.ld_unit_zero (S := S1024x64) hz2, View.ld_unit_zero (S := S2048x64) hz2]

/-- A middle point leaves the tile update of what it found. -/
theorem accMidPay2 (hc0 : ¬ first2 i) (hc1 : ¬ last2 i) :
    accMid2 c i arg2 harg2 arg3 harg3 arg4 harg4 arg5 harg5 x0 x1 s hc0 hc1 = k2_pay2 x0 x1 s := by
  unfold accMid2
  rw [View.read_writes_eq_canon _ _ _ (coverMid2 c i arg2 harg2 arg3 harg3 arg4 harg4 arg5 harg5 x0 x1 s hc0 hc1)]
  unfold runMid2
  dsimp only
  sl_unfold_words
  rw [View.canon_unit_zero hz2]
  simp only [View.readAt_eq_ld, harg2.read_unread, harg3.read_unread, harg5.read_unread,
    View.ld_unit_zero (S := S2048x1024) hz2, View.ld_unit_zero (S := S1024x64) hz2, View.ld_unit_zero (S := S2048x64) hz2]

/-- A last point leaves the same in the accumulator, -/
theorem accLastPay2 (hc0 : ¬ first2 i) (hc1 : last2 i) :
    accLast2 c i arg2 harg2 arg3 harg3 arg4 harg4 arg5 harg5 x0 x1 s hc0 hc1 = k2_pay2 x0 x1 s := by
  unfold accLast2
  rw [View.read_writes_eq_canon _ _ _ (coverLastAcc2 c i arg2 harg2 arg3 harg3 arg4 harg4 arg5 harg5 x0 x1 s hc0 hc1)]
  unfold runLast2
  dsimp only
  sl_unfold_words
  rw [View.canon_unit_zero hz2]
  simp only [View.readAt_eq_ld, harg2.read_unread, harg3.read_unread, harg5.read_unread,
    View.ld_unit_zero (S := S2048x1024) hz2, View.ld_unit_zero (S := S1024x64) hz2, View.ld_unit_zero (S := S2048x64) hz2]

/-- and copies it into the output tile: the copy's load reads the update's store back. -/
theorem outLastPay2 (hc0 : ¬ first2 i) (hc1 : last2 i) :
    outLast2 c i arg2 harg2 arg3 harg3 arg4 harg4 arg5 harg5 x0 x1 s hc0 hc1 = k2_pay2 x0 x1 s := by
  unfold outLast2
  rw [View.read_writes_eq_canon _ _ _ (coverLastOut2 c i arg2 harg2 arg3 harg3 arg4 harg4 arg5 harg5 x0 x1 s hc0 hc1)]
  unfold runLast2
  dsimp only
  sl_unfold_words
  rw [View.canon_unit_zero hz2]
  simp only [View.readAt_eq_ld, harg2.read_unread, harg3.read_unread, harg5.read_unread, View.readCov_unit_zero (S := S2048x64) _ hz2,
    View.ld_unit_zero (S := S2048x1024) hz2, View.ld_unit_zero (S := S1024x64) hz2, View.ld_unit_zero (S := S2048x64) hz2]

end Pieces

/-! ## The two bodies at an entry, at the ideal values -/

/-- The reset's block is zero everywhere. -/
theorem pay1_apply2 (j : S2048x64.Idx) : k2_pay1 (F := Ideal) j = 0 := by
  unfold k2_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply2 (x0 : Vec Ideal S2048x1024 .f32) (x1 : Vec Ideal S1024x64 .f32) (s : Vec Ideal S2048x64 .f32)
    (p : Fin 2048) (q : Fin 64) :
    k2_pay2 (F := Ideal) x0 x1 s (ix2 p q) = s (ix2 p q) + ∑ c : Fin 1024, x0 (ix2 p c) * x1 (ix2 c q) := by
  unfold k2_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr2 (c : Dev nD) : Vec Ideal S8192x8192 .f32 := V c (Pipeline.arrRef spec2 0)
abbrev xarr2 (c : Dev nD) : Vec Ideal S8192x64 .f32 := V c (Pipeline.arrRef spec2 1)
abbrev ablk2 (c : Dev nD) (t : Fin cfg2.N) : Vec Ideal S2048x1024 .f32 := iblk2 V c 0 t
abbrev xblk2 (c : Dev nD) (t : Fin cfg2.N) : Vec Ideal S1024x64 .f32 := iblk2 V c 1 t

/-- The printed index maps over the grid: point t = 8 i + k reads tile (i, k) of A and tile (k, 0) of x, and its
    output tile is (i, 0). -/
theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

/-- Entry (p, k) of A's tile at point t is A[2048 (t / 8) + p, 1024 (t % 8) + k]. -/
theorem ablkAt2 (c : Dev nD) (t : Fin cfg2.N) (p : Fin 2048) (k : Fin 1024) :
    ablk2 V c t (ix2 p k) = ent (m := 8192) (n := 8192) (aarr2 V c) (2048 * (t.val / 8) + p.val) (1024 * (t.val % 8) + k.val) := by
  have hN : cfg2.N = 32 := N_2
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts2 t
  unfold ablk2 iblk2
  rw [View.read_apply]
  show aarr2 V c _ = aarr2 V c _
  refine congrArg (aarr2 V c) (funext fun a => Fin.ext ?_)
  match a with
  | ⟨0, _⟩ => show win2_0.index t (0 : Fin 2) * 2048 + 1 * p.val = 2048 * (t.val / 8) + p.val; rw [e0]; omega
  | ⟨1, _⟩ => show win2_0.index t (1 : Fin 2) * 1024 + 1 * k.val = 1024 * (t.val % 8) + k.val; rw [e1]; omega

/-- Entry (k, q) of x's tile at point t is x[1024 (t % 8) + k, q]. -/
theorem xblkAt2 (c : Dev nD) (t : Fin cfg2.N) (k : Fin 1024) (q : Fin 64) :
    xblk2 V c t (ix2 k q) = ent (m := 8192) (n := 64) (xarr2 V c) (1024 * (t.val % 8) + k.val) q.val := by
  have hN : cfg2.N = 32 := N_2
  have ht := t.isLt
  have hk := k.isLt
  have hj : 1024 * (t.val % 8) + k.val < 8192 := by omega
  rw [ent_of_lt _ _ _ hj q.isLt]
  obtain ⟨-, -, e0, e1, -⟩ := idx_facts2 t
  unfold xblk2 iblk2
  rw [View.read_apply]
  show xarr2 V c _ = xarr2 V c _
  refine congrArg (xarr2 V c) (funext fun a => Fin.ext ?_)
  match a with
  | ⟨0, _⟩ => show win2_1.index t (0 : Fin 2) * 1024 + 1 * k.val = 1024 * (t.val % 8) + k.val; rw [e0]; omega
  | ⟨1, _⟩ => show win2_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step2 (c : Dev nD) (t : Fin cfg2.N) (p : Fin 2048) (q : Fin 64) (s : Vec Ideal S2048x64 .f32)
    (hs : s (ix2 p q) = dotUpTo (m := 8192) (k := 8192) (n := 64) (aarr2 V c) (xarr2 V c) (2048 * (t.val / 8) + p.val) q.val (1024 * (t.val % 8))) :
    k2_pay2 (F := Ideal) (ablk2 V c t) (xblk2 V c t) s (ix2 p q)
      = dotUpTo (m := 8192) (k := 8192) (n := 64) (aarr2 V c) (xarr2 V c) (2048 * (t.val / 8) + p.val) q.val (1024 * (t.val % 8) + 1024) :=
  (pay2_apply2 (ablk2 V c t) (xblk2 V c t) s p q).trans
    (acc_step (m := 8192) (k := 8192) (n := 64) (aarr2 V c) (xarr2 V c) (M := 2048) (K := 1024) (N := 64)
      (ablk2 V c t) (xblk2 V c t) (2048 * (t.val / 8)) (1024 * (t.val % 8))
      (fun p' c' => ablkAt2 V c t p' c') (fun c' q' => xblkAt2 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv2 (c : Dev nD) (n : ℕ) : ∀ (hn : n < cfg2.N) (p : Fin 2048) (q : Fin 64),
    accAt2 V c n hn (ix2 p q)
      = dotUpTo (m := 8192) (k := 8192) (n := 64) (aarr2 V c) (xarr2 V c) (2048 * (n / 8) + p.val) q.val (1024 * (n % 8) + 1024) := by
  induction n using Nat.strong_induction_on with
  | _ n ih =>
    intro hn p q
    have hN : cfg2.N = 32 := N_2
    by_cases h0 : n % 8 = 0
    · refine (congrFun (accAt2_first V c ⟨n, hn⟩ h0) (ix2 p q)).trans ?_
      refine (congrFun (accFirstPay2 (F := Ideal) c (grid2.coords ⟨n, hn⟩) (ms2_0 ⟨n, hn⟩) (hs2_0 ⟨n, hn⟩) (ms2_1 ⟨n, hn⟩) (hs2_1 ⟨n, hn⟩)
        (ms2_2 ⟨n, hn⟩) (hs2_2 ⟨n, hn⟩) sc2 hsc2 (iblk2 V c 0 ⟨n, hn⟩) (iblk2 V c 1 ⟨n, hn⟩)
        ((first2_iff ⟨n, hn⟩).mpr h0) (fun h => not_last_of_first2 h0 ((last2_iff ⟨n, hn⟩).mp h))) (ix2 p q)).trans ?_
      exact step2 V c ⟨n, hn⟩ p q (k2_pay1 (F := Ideal)) (by show _ = dotUpTo _ _ _ _ (1024 * (n % 8)); rw [h0, Nat.mul_zero, dotUpTo_zero]; exact pay1_apply2 (ix2 p q))
    · have hn' : n - 1 < cfg2.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt2_last V c ⟨n, hn⟩ h0 h1) (ix2 p q)).trans ?_
        refine (congrFun (accLastPay2 (F := Ideal) c (grid2.coords ⟨n, hn⟩) (ms2_0 ⟨n, hn⟩) (hs2_0 ⟨n, hn⟩) (ms2_1 ⟨n, hn⟩) (hs2_1 ⟨n, hn⟩)
          (ms2_2 ⟨n, hn⟩) (hs2_2 ⟨n, hn⟩) sc2 hsc2 (iblk2 V c 0 ⟨n, hn⟩) (iblk2 V c 1 ⟨n, hn⟩) (accAt2 V c (n - 1) hn')
          (fun h => h0 ((first2_iff ⟨n, hn⟩).mp h)) ((last2_iff ⟨n, hn⟩).mpr h1)) (ix2 p q)).trans ?_
        exact step2 V c ⟨n, hn⟩ p q (accAt2 V c (n - 1) hn') hprev
      · refine (congrFun (accAt2_mid V c ⟨n, hn⟩ h0 h1) (ix2 p q)).trans ?_
        refine (congrFun (accMidPay2 (F := Ideal) c (grid2.coords ⟨n, hn⟩) (ms2_0 ⟨n, hn⟩) (hs2_0 ⟨n, hn⟩) (ms2_1 ⟨n, hn⟩) (hs2_1 ⟨n, hn⟩)
          (ms2_2 ⟨n, hn⟩) (hs2_2 ⟨n, hn⟩) sc2 hsc2 (iblk2 V c 0 ⟨n, hn⟩) (iblk2 V c 1 ⟨n, hn⟩) (accAt2 V c (n - 1) hn')
          (fun h => h0 ((first2_iff ⟨n, hn⟩).mp h)) (fun h => h1 ((last2_iff ⟨n, hn⟩).mp h))) (ix2 p q)).trans ?_
        exact step2 V c ⟨n, hn⟩ p q (accAt2 V c (n - 1) hn') hprev

/-! ## The output tile, the cover, the array -/

/-- THE PRODUCT of the two arrays as the reference takes it: the host's `dot_general`, contracting A's columns with
    x's rows. -/
abbrev prod2 (c : Dev nD) : Vec Ideal S8192x64 .f32 :=
  Host.dotGeneral (F := Ideal) (φ₁ := .f32) (φ₂ := .f32) Cert.ReferenceIdeal.dot_S8192x8192_S8192x64_S8192x64_1_0_0_1_n_n none (aarr2 V c) (xarr2 V c)

/-- At (r, q) it is the sum over all 8192 columns j of A[r, j] · x[j, q]. -/
theorem prodAt2 (c : Dev nD) (r : Fin 8192) (q : Fin 64) :
    prod2 V c (ix2 r q) = ∑ j : Fin 8192, aarr2 V c (ix2 r j) * xarr2 V c (ix2 j q) :=
  dotGeneral_plain_apply (M := 8192) (K := 8192) (N := 64) none .single (aarr2 V c) (xarr2 V c) r q

/-- What a point leaves for the output tile is the accumulator as it leaves it: a last point of a row copies it. -/
theorem outIsAcc2 (c : Dev nD) (t : Fin cfg2.N) : outAt2 V c t = accAt2 V c t.val t.isLt := by
  unfold outAt2
  split
  · rename_i h
    exact (outLastPay2 (F := Ideal) c (grid2.coords t) (ms2_0 t) (hs2_0 t) (ms2_1 t) (hs2_1 t) (ms2_2 t) (hs2_2 t) sc2 hsc2
        (iblk2 V c 0 t) (iblk2 V c 1 t) (accAt2 V c (t.val - 1) (Nat.lt_of_le_of_lt (Nat.sub_le _ _) t.isLt))
        (fun h' => h.1 ((first2_iff t).mp h')) ((last2_iff t).mpr h.2)).trans
      ((accLastPay2 (F := Ideal) c (grid2.coords t) (ms2_0 t) (hs2_0 t) (ms2_1 t) (hs2_1 t) (ms2_2 t) (hs2_2 t) sc2 hsc2
        (iblk2 V c 0 t) (iblk2 V c 1 t) (accAt2 V c (t.val - 1) (Nat.lt_of_le_of_lt (Nat.sub_le _ _) t.isLt))
        (fun h' => h.1 ((first2_iff t).mp h')) ((last2_iff t).mpr h.2)).symm.trans (accAt2_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile2 (c : Dev nD) (t : Fin cfg2.N) (hf : (cfg2.win 2).flush t = true) :
    (dat2 V c).flushed 2 t = ((cfg2.win 2).blk t).view.read (Elt Ideal) (prod2 V c) := by
  have hN : cfg2.N = 32 := N_2
  have ht := t.isLt
  have h7 : t.val % 8 = 7 := (flush2_2 t).mp hf
  obtain ⟨-, -, -, -, e0, e1⟩ := idx_facts2 t
  show (cfg2.win 2).cut (grid2.coords t) ((dat2 V c).after 2 t) = _
  rw [after2_2, outIsAcc2 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg2.win 2).blk t).view.emb (ix2 p q) = (ix2 (⟨2048 * (t.val / 8) + p.val, hr⟩ : Fin 8192) q : S8192x64.Idx) :=
    funext fun a => Fin.ext (by
      match a with
      | ⟨0, _⟩ => show win2_2.index t (0 : Fin 2) * 2048 + 1 * p.val = 2048 * (t.val / 8) + p.val; rw [e0]; omega
      | ⟨1, _⟩ => show win2_2.index t (1 : Fin 2) * 64 + 1 * q.val = q.val; rw [e1]; omega)
  rw [View.read_apply]
  show accAt2 V c t.val t.isLt (ix2 p q) = prod2 V c (((cfg2.win 2).blk t).view.emb (ix2 p q))
  rw [hemb, prodAt2 V c ⟨2048 * (t.val / 8) + p.val, hr⟩ q, accInv2 V c t.val t.isLt p q,
    ← dotUpTo_all (aarr2 V c) (xarr2 V c) ⟨2048 * (t.val / 8) + p.val, hr⟩ q,
    show 1024 * (t.val % 8) + 1024 = 8192 by omega]

/-- An entry of the output array is in point t's tile iff each coordinate is in the tile's range on its axis. -/
theorem mem_blk2 (t : Fin cfg2.N) (i : S8192x64.Idx) :
    i ∈ ((cfg2.win 2).blk t).view.set
      ↔ ∀ a : Fin 2, win2_2.index t a * S2048x64.size a ≤ (i a).val ∧ (i a).val < win2_2.index t a * S2048x64.size a + S2048x64.size a := by
  show i ∈ ((View.whole (Pipeline.arrRef spec2 2)).slice (win2_2.rect t)).set ↔ _
  rw [View.set_slice_whole, Rect.mem_set_unit]
  exact Iff.rfl

/-- THE COVER: row r of the output array lies in the tile written back at point 8 (r / 2048) + 7, the last of its row
    of tiles. -/
theorem cover2 (i : S8192x64.Idx) :
    ∃ t : Fin cfg2.N, (cfg2.win 2).flush t = true ∧ i ∈ ((cfg2.win 2).blk t).view.set := by
  have hN : cfg2.N = 32 := N_2
  have hi0 : (i 0).val < 8192 := (i 0).isLt
  have hi1 : (i 1).val < 64 := (i 1).isLt
  have hlt : 8 * ((i 0).val / 2048) + 7 < cfg2.N := by omega
  obtain ⟨t, htv⟩ : ∃ t : Fin cfg2.N, t.val = 8 * ((i 0).val / 2048) + 7 := ⟨⟨_, hlt⟩, rfl⟩
  obtain ⟨-, -, -, -, e0, e1⟩ := idx_facts2 t
  refine ⟨t, (flush2_2 t).mpr (by omega), ?_⟩
  rw [mem_blk2]
  intro a
  match a with
  | ⟨0, _⟩ =>
    show win2_2.index t (0 : Fin 2) * 2048 ≤ (i 0).val ∧ (i 0).val < win2_2.index t (0 : Fin 2) * 2048 + 2048
    rw [e0]; omega
  | ⟨1, _⟩ =>
    show win2_2.index t (1 : Fin 2) * 64 ≤ (i 1).val ∧ (i 1).val < win2_2.index t (1 : Fin 2) * 64 + 64
    rw [e1]; omega

/-- THE VALUE OF REGION 0: after the region the output array holds the product of the two input arrays as the
    region found them — every tile written back is a tile of the product, and the written tiles cover the array. -/
theorem mm2 (c : Dev nD) :
    (dat2 (F := Ideal) V c).arrAt 2 cfg2.N
      = Host.dotGeneral (F := Ideal) (φ₁ := .f32) (φ₂ := .f32) Cert.ReferenceIdeal.dot_S8192x8192_S8192x64_S8192x64_1_0_0_1_n_n none
          (V c (Pipeline.arrRef spec2 0)) (V c (Pipeline.arrRef spec2 1)) :=
  (dat2 V c).arrAt_eq_of_cover 2 (prod2 V c) (flushedTile2 V c) (fun i => cover2 i)

end Blocks

end Cert.KernelIdeal.Hand

end
-- ==== Proof.KI.R3Val.lean ====
/-
  Region 3's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv3`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile3`); row r of the result lies in the tile written back at point 8 (r / 2048) + 7 (`cover3`); hence
  the array after the region is that `dot_general` (`mm3`).

  The steps: what each control case's stores read back to, as the body's pure terms (`accFirstPay3`, `accMidPay3`,
  `accLastPay3`, `outLastPay3`); those terms at an entry (`pay1_apply3`, `pay2_apply3`); each tile as entries of
  its array (`idx_facts3`, `ablkAt3`, `xblkAt3`); one point's update (`step3`); the invariant; the output tile, the
  cover, the array.
-/
import proofs.«158997_j77232101916990_1_alg».proof.Proof.KI.R3Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz3 : (![0, 0] : Fin 2 → Nat) = fun _ => 0 := funext fun a => by fin_cases a <;> rfl

section Pieces

variable {F : FTy → Type} [FloatOps F]
variable (c : Dev nD) (i : grid3.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay3 (hc0 : first3 i) (hc1 : ¬ last3 i) :
    accFirst3 c i arg2 harg2 arg3 harg3 arg4 harg4 arg5 harg5 x0 x1 hc0 hc1 = k3_pay2 x0 x1 (k3_pay1 (F := F)) := by
  unfold accFirst3
  rw [View.read_writes_eq_canon _ _ _ (coverFirst3 c i arg2 harg2 arg3 harg3 arg4 harg4 arg5 harg5 x0 x1 hc0 hc1)]
  unfold runFirst3
  dsimp only
  sl_unfold_words
  rw [View.canon_cons_unit_zero (S := S2048x64) hz3]
  simp only [View.readAt_eq_ld, harg2.read_unread, harg3.read_unread, View.readCov_unit_zero (S := S2048x64) _ hz3,
    View.ld_unit_zero (S := S2048x1024) hz3, View.ld_unit_zero (S := S1024x64) hz3, View.ld_unit_zero (S := S2048x64) hz3]

/-- A middle point leaves the tile update of what it found. -/
theorem accMidPay3 (hc0 : ¬ first3 i) (hc1 : ¬ last3 i) :
    accMid3 c i arg2 harg2 arg3 harg3 arg4 harg4 arg5 harg5 x0 x1 s hc0 hc1 = k3_pay2 x0 x1 s := by
  unfold accMid3
  rw [View.read_writes_eq_canon _ _ _ (coverMid3 c i arg2 harg2 arg3 harg3 arg4 harg4 arg5 harg5 x0 x1 s hc0 hc1)]
  unfold runMid3
  dsimp only
  sl_unfold_words
  rw [View.canon_unit_zero hz3]
  simp only [View.readAt_eq_ld, harg2.read_unread, harg3.read_unread, harg5.read_unread,
    View.ld_unit_zero (S := S2048x1024) hz3, View.ld_unit_zero (S := S1024x64) hz3, View.ld_unit_zero (S := S2048x64) hz3]

/-- A last point leaves the same in the accumulator, -/
theorem accLastPay3 (hc0 : ¬ first3 i) (hc1 : last3 i) :
    accLast3 c i arg2 harg2 arg3 harg3 arg4 harg4 arg5 harg5 x0 x1 s hc0 hc1 = k3_pay2 x0 x1 s := by
  unfold accLast3
  rw [View.read_writes_eq_canon _ _ _ (coverLastAcc3 c i arg2 harg2 arg3 harg3 arg4 harg4 arg5 harg5 x0 x1 s hc0 hc1)]
  unfold runLast3
  dsimp only
  sl_unfold_words
  rw [View.canon_unit_zero hz3]
  simp only [View.readAt_eq_ld, harg2.read_unread, harg3.read_unread, harg5.read_unread,
    View.ld_unit_zero (S := S2048x1024) hz3, View.ld_unit_zero (S := S1024x64) hz3, View.ld_unit_zero (S := S2048x64) hz3]

/-- and copies it into the output tile: the copy's load reads the update's store back. -/
theorem outLastPay3 (hc0 : ¬ first3 i) (hc1 : last3 i) :
    outLast3 c i arg2 harg2 arg3 harg3 arg4 harg4 arg5 harg5 x0 x1 s hc0 hc1 = k3_pay2 x0 x1 s := by
  unfold outLast3
  rw [View.read_writes_eq_canon _ _ _ (coverLastOut3 c i arg2 harg2 arg3 harg3 arg4 harg4 arg5 harg5 x0 x1 s hc0 hc1)]
  unfold runLast3
  dsimp only
  sl_unfold_words
  rw [View.canon_unit_zero hz3]
  simp only [View.readAt_eq_ld, harg2.read_unread, harg3.read_unread, harg5.read_unread, View.readCov_unit_zero (S := S2048x64) _ hz3,
    View.ld_unit_zero (S := S2048x1024) hz3, View.ld_unit_zero (S := S1024x64) hz3, View.ld_unit_zero (S := S2048x64) hz3]

end Pieces

/-! ## The two bodies at an entry, at the ideal values -/

/-- The reset's block is zero everywhere. -/
theorem pay1_apply3 (j : S2048x64.Idx) : k3_pay1 (F := Ideal) j = 0 := by
  unfold k3_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply3 (x0 : Vec Ideal S2048x1024 .f32) (x1 : Vec Ideal S1024x64 .f32) (s : Vec Ideal S2048x64 .f32)
    (p : Fin 2048) (q : Fin 64) :
    k3_pay2 (F := Ideal) x0 x1 s (ix2 p q) = s (ix2 p q) + ∑ c : Fin 1024, x0 (ix2 p c) * x1 (ix2 c q) := by
  unfold k3_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr3 (c : Dev nD) : Vec Ideal S8192x8192 .f32 := V c (Pipeline.arrRef spec3 0)
abbrev xarr3 (c : Dev nD) : Vec Ideal S8192x64 .f32 := V c (Pipeline.arrRef spec3 1)
abbrev ablk3 (c : Dev nD) (t : Fin cfg3.N) : Vec Ideal S2048x1024 .f32 := iblk3 V c 0 t
abbrev xblk3 (c : Dev nD) (t : Fin cfg3.N) : Vec Ideal S1024x64 .f32 := iblk3 V c 1 t

/-- The printed index maps over the grid: point t = 8 i + k reads tile (i, k) of A and tile (k, 0) of x, and its
    output tile is (i, 0). -/
theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

/-- Entry (p, k) of A's tile at point t is A[2048 (t / 8) + p, 1024 (t % 8) + k]. -/
theorem ablkAt3 (c : Dev nD) (t : Fin cfg3.N) (p : Fin 2048) (k : Fin 1024) :
    ablk3 V c t (ix2 p k) = ent (m := 8192) (n := 8192) (aarr3 V c) (2048 * (t.val / 8) + p.val) (1024 * (t.val % 8) + k.val) := by
  have hN : cfg3.N = 32 := N_3
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts3 t
  unfold ablk3 iblk3
  rw [View.read_apply]
  show aarr3 V c _ = aarr3 V c _
  refine congrArg (aarr3 V c) (funext fun a => Fin.ext ?_)
  match a with
  | ⟨0, _⟩ => show win3_0.index t (0 : Fin 2) * 2048 + 1 * p.val = 2048 * (t.val / 8) + p.val; rw [e0]; omega
  | ⟨1, _⟩ => show win3_0.index t (1 : Fin 2) * 1024 + 1 * k.val = 1024 * (t.val % 8) + k.val; rw [e1]; omega

/-- Entry (k, q) of x's tile at point t is x[1024 (t % 8) + k, q]. -/
theorem xblkAt3 (c : Dev nD) (t : Fin cfg3.N) (k : Fin 1024) (q : Fin 64) :
    xblk3 V c t (ix2 k q) = ent (m := 8192) (n := 64) (xarr3 V c) (1024 * (t.val % 8) + k.val) q.val := by
  have hN : cfg3.N = 32 := N_3
  have ht := t.isLt
  have hk := k.isLt
  have hj : 1024 * (t.val % 8) + k.val < 8192 := by omega
  rw [ent_of_lt _ _ _ hj q.isLt]
  obtain ⟨-, -, e0, e1, -⟩ := idx_facts3 t
  unfold xblk3 iblk3
  rw [View.read_apply]
  show xarr3 V c _ = xarr3 V c _
  refine congrArg (xarr3 V c) (funext fun a => Fin.ext ?_)
  match a with
  | ⟨0, _⟩ => show win3_1.index t (0 : Fin 2) * 1024 + 1 * k.val = 1024 * (t.val % 8) + k.val; rw [e0]; omega
  | ⟨1, _⟩ => show win3_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step3 (c : Dev nD) (t : Fin cfg3.N) (p : Fin 2048) (q : Fin 64) (s : Vec Ideal S2048x64 .f32)
    (hs : s (ix2 p q) = dotUpTo (m := 8192) (k := 8192) (n := 64) (aarr3 V c) (xarr3 V c) (2048 * (t.val / 8) + p.val) q.val (1024 * (t.val % 8))) :
    k3_pay2 (F := Ideal) (ablk3 V c t) (xblk3 V c t) s (ix2 p q)
      = dotUpTo (m := 8192) (k := 8192) (n := 64) (aarr3 V c) (xarr3 V c) (2048 * (t.val / 8) + p.val) q.val (1024 * (t.val % 8) + 1024) :=
  (pay2_apply3 (ablk3 V c t) (xblk3 V c t) s p q).trans
    (acc_step (m := 8192) (k := 8192) (n := 64) (aarr3 V c) (xarr3 V c) (M := 2048) (K := 1024) (N := 64)
      (ablk3 V c t) (xblk3 V c t) (2048 * (t.val / 8)) (1024 * (t.val % 8))
      (fun p' c' => ablkAt3 V c t p' c') (fun c' q' => xblkAt3 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv3 (c : Dev nD) (n : ℕ) : ∀ (hn : n < cfg3.N) (p : Fin 2048) (q : Fin 64),
    accAt3 V c n hn (ix2 p q)
      = dotUpTo (m := 8192) (k := 8192) (n := 64) (aarr3 V c) (xarr3 V c) (2048 * (n / 8) + p.val) q.val (1024 * (n % 8) + 1024) := by
  induction n using Nat.strong_induction_on with
  | _ n ih =>
    intro hn p q
    have hN : cfg3.N = 32 := N_3
    by_cases h0 : n % 8 = 0
    · refine (congrFun (accAt3_first V c ⟨n, hn⟩ h0) (ix2 p q)).trans ?_
      refine (congrFun (accFirstPay3 (F := Ideal) c (grid3.coords ⟨n, hn⟩) (ms3_0 ⟨n, hn⟩) (hs3_0 ⟨n, hn⟩) (ms3_1 ⟨n, hn⟩) (hs3_1 ⟨n, hn⟩)
        (ms3_2 ⟨n, hn⟩) (hs3_2 ⟨n, hn⟩) sc3 hsc3 (iblk3 V c 0 ⟨n, hn⟩) (iblk3 V c 1 ⟨n, hn⟩)
        ((first3_iff ⟨n, hn⟩).mpr h0) (fun h => not_last_of_first3 h0 ((last3_iff ⟨n, hn⟩).mp h))) (ix2 p q)).trans ?_
      exact step3 V c ⟨n, hn⟩ p q (k3_pay1 (F := Ideal)) (by show _ = dotUpTo _ _ _ _ (1024 * (n % 8)); rw [h0, Nat.mul_zero, dotUpTo_zero]; exact pay1_apply3 (ix2 p q))
    · have hn' : n - 1 < cfg3.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt3_last V c ⟨n, hn⟩ h0 h1) (ix2 p q)).trans ?_
        refine (congrFun (accLastPay3 (F := Ideal) c (grid3.coords ⟨n, hn⟩) (ms3_0 ⟨n, hn⟩) (hs3_0 ⟨n, hn⟩) (ms3_1 ⟨n, hn⟩) (hs3_1 ⟨n, hn⟩)
          (ms3_2 ⟨n, hn⟩) (hs3_2 ⟨n, hn⟩) sc3 hsc3 (iblk3 V c 0 ⟨n, hn⟩) (iblk3 V c 1 ⟨n, hn⟩) (accAt3 V c (n - 1) hn')
          (fun h => h0 ((first3_iff ⟨n, hn⟩).mp h)) ((last3_iff ⟨n, hn⟩).mpr h1)) (ix2 p q)).trans ?_
        exact step3 V c ⟨n, hn⟩ p q (accAt3 V c (n - 1) hn') hprev
      · refine (congrFun (accAt3_mid V c ⟨n, hn⟩ h0 h1) (ix2 p q)).trans ?_
        refine (congrFun (accMidPay3 (F := Ideal) c (grid3.coords ⟨n, hn⟩) (ms3_0 ⟨n, hn⟩) (hs3_0 ⟨n, hn⟩) (ms3_1 ⟨n, hn⟩) (hs3_1 ⟨n, hn⟩)
          (ms3_2 ⟨n, hn⟩) (hs3_2 ⟨n, hn⟩) sc3 hsc3 (iblk3 V c 0 ⟨n, hn⟩) (iblk3 V c 1 ⟨n, hn⟩) (accAt3 V c (n - 1) hn')
          (fun h => h0 ((first3_iff ⟨n, hn⟩).mp h)) (fun h => h1 ((last3_iff ⟨n, hn⟩).mp h))) (ix2 p q)).trans ?_
        exact step3 V c ⟨n, hn⟩ p q (accAt3 V c (n - 1) hn') hprev

/-! ## The output tile, the cover, the array -/

/-- THE PRODUCT of the two arrays as the reference takes it: the host's `dot_general`, contracting A's columns with
    x's rows. -/
abbrev prod3 (c : Dev nD) : Vec Ideal S8192x64 .f32 :=
  Host.dotGeneral (F := Ideal) (φ₁ := .f32) (φ₂ := .f32) Cert.ReferenceIdeal.dot_S8192x8192_S8192x64_S8192x64_1_0_0_1_n_n none (aarr3 V c) (xarr3 V c)

/-- At (r, q) it is the sum over all 8192 columns j of A[r, j] · x[j, q]. -/
theorem prodAt3 (c : Dev nD) (r : Fin 8192) (q : Fin 64) :
    prod3 V c (ix2 r q) = ∑ j : Fin 8192, aarr3 V c (ix2 r j) * xarr3 V c (ix2 j q) :=
  dotGeneral_plain_apply (M := 8192) (K := 8192) (N := 64) none .single (aarr3 V c) (xarr3 V c) r q

/-- What a point leaves for the output tile is the accumulator as it leaves it: a last point of a row copies it. -/
theorem outIsAcc3 (c : Dev nD) (t : Fin cfg3.N) : outAt3 V c t = accAt3 V c t.val t.isLt := by
  unfold outAt3
  split
  · rename_i h
    exact (outLastPay3 (F := Ideal) c (grid3.coords t) (ms3_0 t) (hs3_0 t) (ms3_1 t) (hs3_1 t) (ms3_2 t) (hs3_2 t) sc3 hsc3
        (iblk3 V c 0 t) (iblk3 V c 1 t) (accAt3 V c (t.val - 1) (Nat.lt_of_le_of_lt (Nat.sub_le _ _) t.isLt))
        (fun h' => h.1 ((first3_iff t).mp h')) ((last3_iff t).mpr h.2)).trans
      ((accLastPay3 (F := Ideal) c (grid3.coords t) (ms3_0 t) (hs3_0 t) (ms3_1 t) (hs3_1 t) (ms3_2 t) (hs3_2 t) sc3 hsc3
        (iblk3 V c 0 t) (iblk3 V c 1 t) (accAt3 V c (t.val - 1) (Nat.lt_of_le_of_lt (Nat.sub_le _ _) t.isLt))
        (fun h' => h.1 ((first3_iff t).mp h')) ((last3_iff t).mpr h.2)).symm.trans (accAt3_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile3 (c : Dev nD) (t : Fin cfg3.N) (hf : (cfg3.win 2).flush t = true) :
    (dat3 V c).flushed 2 t = ((cfg3.win 2).blk t).view.read (Elt Ideal) (prod3 V c) := by
  have hN : cfg3.N = 32 := N_3
  have ht := t.isLt
  have h7 : t.val % 8 = 7 := (flush3_2 t).mp hf
  obtain ⟨-, -, -, -, e0, e1⟩ := idx_facts3 t
  show (cfg3.win 2).cut (grid3.coords t) ((dat3 V c).after 2 t) = _
  rw [after3_2, outIsAcc3 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg3.win 2).blk t).view.emb (ix2 p q) = (ix2 (⟨2048 * (t.val / 8) + p.val, hr⟩ : Fin 8192) q : S8192x64.Idx) :=
    funext fun a => Fin.ext (by
      match a with
      | ⟨0, _⟩ => show win3_2.index t (0 : Fin 2) * 2048 + 1 * p.val = 2048 * (t.val / 8) + p.val; rw [e0]; omega
      | ⟨1, _⟩ => show win3_2.index t (1 : Fin 2) * 64 + 1 * q.val = q.val; rw [e1]; omega)
  rw [View.read_apply]
  show accAt3 V c t.val t.isLt (ix2 p q) = prod3 V c (((cfg3.win 2).blk t).view.emb (ix2 p q))
  rw [hemb, prodAt3 V c ⟨2048 * (t.val / 8) + p.val, hr⟩ q, accInv3 V c t.val t.isLt p q,
    ← dotUpTo_all (aarr3 V c) (xarr3 V c) ⟨2048 * (t.val / 8) + p.val, hr⟩ q,
    show 1024 * (t.val % 8) + 1024 = 8192 by omega]

/-- An entry of the output array is in point t's tile iff each coordinate is in the tile's range on its axis. -/
theorem mem_blk3 (t : Fin cfg3.N) (i : S8192x64.Idx) :
    i ∈ ((cfg3.win 2).blk t).view.set
      ↔ ∀ a : Fin 2, win3_2.index t a * S2048x64.size a ≤ (i a).val ∧ (i a).val < win3_2.index t a * S2048x64.size a + S2048x64.size a := by
  show i ∈ ((View.whole (Pipeline.arrRef spec3 2)).slice (win3_2.rect t)).set ↔ _
  rw [View.set_slice_whole, Rect.mem_set_unit]
  exact Iff.rfl

/-- THE COVER: row r of the output array lies in the tile written back at point 8 (r / 2048) + 7, the last of its row
    of tiles. -/
theorem cover3 (i : S8192x64.Idx) :
    ∃ t : Fin cfg3.N, (cfg3.win 2).flush t = true ∧ i ∈ ((cfg3.win 2).blk t).view.set := by
  have hN : cfg3.N = 32 := N_3
  have hi0 : (i 0).val < 8192 := (i 0).isLt
  have hi1 : (i 1).val < 64 := (i 1).isLt
  have hlt : 8 * ((i 0).val / 2048) + 7 < cfg3.N := by omega
  obtain ⟨t, htv⟩ : ∃ t : Fin cfg3.N, t.val = 8 * ((i 0).val / 2048) + 7 := ⟨⟨_, hlt⟩, rfl⟩
  obtain ⟨-, -, -, -, e0, e1⟩ := idx_facts3 t
  refine ⟨t, (flush3_2 t).mpr (by omega), ?_⟩
  rw [mem_blk3]
  intro a
  match a with
  | ⟨0, _⟩ =>
    show win3_2.index t (0 : Fin 2) * 2048 ≤ (i 0).val ∧ (i 0).val < win3_2.index t (0 : Fin 2) * 2048 + 2048
    rw [e0]; omega
  | ⟨1, _⟩ =>
    show win3_2.index t (1 : Fin 2) * 64 ≤ (i 1).val ∧ (i 1).val < win3_2.index t (1 : Fin 2) * 64 + 64
    rw [e1]; omega

/-- THE VALUE OF REGION 0: after the region the output array holds the product of the two input arrays as the
    region found them — every tile written back is a tile of the product, and the written tiles cover the array. -/
theorem mm3 (c : Dev nD) :
    (dat3 (F := Ideal) V c).arrAt 2 cfg3.N
      = Host.dotGeneral (F := Ideal) (φ₁ := .f32) (φ₂ := .f32) Cert.ReferenceIdeal.dot_S8192x8192_S8192x64_S8192x64_1_0_0_1_n_n none
          (V c (Pipeline.arrRef spec3 0)) (V c (Pipeline.arrRef spec3 1)) :=
  (dat3 V c).arrAt_eq_of_cover 2 (prod3 V c) (flushedTile3 V c) (fun i => cover3 i)

end Blocks

end Cert.KernelIdeal.Hand

end
-- ==== Proof.KI.R4Val.lean ====
/-
  Region 4's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv4`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile4`); row r of the result lies in the tile written back at point 8 (r / 2048) + 7 (`cover4`); hence
  the array after the region is that `dot_general` (`mm4`).

  The steps: what each control case's stores read back to, as the body's pure terms (`accFirstPay4`, `accMidPay4`,
  `accLastPay4`, `outLastPay4`); those terms at an entry (`pay1_apply4`, `pay2_apply4`); each tile as entries of
  its array (`idx_facts4`, `ablkAt4`, `xblkAt4`); one point's update (`step4`); the invariant; the output tile, the
  cover, the array.
-/
import proofs.«158997_j77232101916990_1_alg».proof.Proof.KI.R4Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz4 : (![0, 0] : Fin 2 → Nat) = fun _ => 0 := funext fun a => by fin_cases a <;> rfl

section Pieces

variable {F : FTy → Type} [FloatOps F]
variable (c : Dev nD) (i : grid4.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay4 (hc0 : first4 i) (hc1 : ¬ last4 i) :
    accFirst4 c i arg2 harg2 arg3 harg3 arg4 harg4 arg5 harg5 x0 x1 hc0 hc1 = k4_pay2 x0 x1 (k4_pay1 (F := F)) := by
  unfold accFirst4
  rw [View.read_writes_eq_canon _ _ _ (coverFirst4 c i arg2 harg2 arg3 harg3 arg4 harg4 arg5 harg5 x0 x1 hc0 hc1)]
  unfold runFirst4
  dsimp only
  sl_unfold_words
  rw [View.canon_cons_unit_zero (S := S2048x64) hz4]
  simp only [View.readAt_eq_ld, harg2.read_unread, harg3.read_unread, View.readCov_unit_zero (S := S2048x64) _ hz4,
    View.ld_unit_zero (S := S2048x1024) hz4, View.ld_unit_zero (S := S1024x64) hz4, View.ld_unit_zero (S := S2048x64) hz4]

/-- A middle point leaves the tile update of what it found. -/
theorem accMidPay4 (hc0 : ¬ first4 i) (hc1 : ¬ last4 i) :
    accMid4 c i arg2 harg2 arg3 harg3 arg4 harg4 arg5 harg5 x0 x1 s hc0 hc1 = k4_pay2 x0 x1 s := by
  unfold accMid4
  rw [View.read_writes_eq_canon _ _ _ (coverMid4 c i arg2 harg2 arg3 harg3 arg4 harg4 arg5 harg5 x0 x1 s hc0 hc1)]
  unfold runMid4
  dsimp only
  sl_unfold_words
  rw [View.canon_unit_zero hz4]
  simp only [View.readAt_eq_ld, harg2.read_unread, harg3.read_unread, harg5.read_unread,
    View.ld_unit_zero (S := S2048x1024) hz4, View.ld_unit_zero (S := S1024x64) hz4, View.ld_unit_zero (S := S2048x64) hz4]

/-- A last point leaves the same in the accumulator, -/
theorem accLastPay4 (hc0 : ¬ first4 i) (hc1 : last4 i) :
    accLast4 c i arg2 harg2 arg3 harg3 arg4 harg4 arg5 harg5 x0 x1 s hc0 hc1 = k4_pay2 x0 x1 s := by
  unfold accLast4
  rw [View.read_writes_eq_canon _ _ _ (coverLastAcc4 c i arg2 harg2 arg3 harg3 arg4 harg4 arg5 harg5 x0 x1 s hc0 hc1)]
  unfold runLast4
  dsimp only
  sl_unfold_words
  rw [View.canon_unit_zero hz4]
  simp only [View.readAt_eq_ld, harg2.read_unread, harg3.read_unread, harg5.read_unread,
    View.ld_unit_zero (S := S2048x1024) hz4, View.ld_unit_zero (S := S1024x64) hz4, View.ld_unit_zero (S := S2048x64) hz4]

/-- and copies it into the output tile: the copy's load reads the update's store back. -/
theorem outLastPay4 (hc0 : ¬ first4 i) (hc1 : last4 i) :
    outLast4 c i arg2 harg2 arg3 harg3 arg4 harg4 arg5 harg5 x0 x1 s hc0 hc1 = k4_pay2 x0 x1 s := by
  unfold outLast4
  rw [View.read_writes_eq_canon _ _ _ (coverLastOut4 c i arg2 harg2 arg3 harg3 arg4 harg4 arg5 harg5 x0 x1 s hc0 hc1)]
  unfold runLast4
  dsimp only
  sl_unfold_words
  rw [View.canon_unit_zero hz4]
  simp only [View.readAt_eq_ld, harg2.read_unread, harg3.read_unread, harg5.read_unread, View.readCov_unit_zero (S := S2048x64) _ hz4,
    View.ld_unit_zero (S := S2048x1024) hz4, View.ld_unit_zero (S := S1024x64) hz4, View.ld_unit_zero (S := S2048x64) hz4]

end Pieces

/-! ## The two bodies at an entry, at the ideal values -/

/-- The reset's block is zero everywhere. -/
theorem pay1_apply4 (j : S2048x64.Idx) : k4_pay1 (F := Ideal) j = 0 := by
  unfold k4_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply4 (x0 : Vec Ideal S2048x1024 .f32) (x1 : Vec Ideal S1024x64 .f32) (s : Vec Ideal S2048x64 .f32)
    (p : Fin 2048) (q : Fin 64) :
    k4_pay2 (F := Ideal) x0 x1 s (ix2 p q) = s (ix2 p q) + ∑ c : Fin 1024, x0 (ix2 p c) * x1 (ix2 c q) := by
  unfold k4_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr4 (c : Dev nD) : Vec Ideal S8192x8192 .f32 := V c (Pipeline.arrRef spec4 0)
abbrev xarr4 (c : Dev nD) : Vec Ideal S8192x64 .f32 := V c (Pipeline.arrRef spec4 1)
abbrev ablk4 (c : Dev nD) (t : Fin cfg4.N) : Vec Ideal S2048x1024 .f32 := iblk4 V c 0 t
abbrev xblk4 (c : Dev nD) (t : Fin cfg4.N) : Vec Ideal S1024x64 .f32 := iblk4 V c 1 t

/-- The printed index maps over the grid: point t = 8 i + k reads tile (i, k) of A and tile (k, 0) of x, and its
    output tile is (i, 0). -/
theorem idx_facts4 : ∀ t : Fin cfg4.N, win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0 :=
  (by decide +kernel : ∀ t : Fin grid4.N, _)

/-- Entry (p, k) of A's tile at point t is A[2048 (t / 8) + p, 1024 (t % 8) + k]. -/
theorem ablkAt4 (c : Dev nD) (t : Fin cfg4.N) (p : Fin 2048) (k : Fin 1024) :
    ablk4 V c t (ix2 p k) = ent (m := 8192) (n := 8192) (aarr4 V c) (2048 * (t.val / 8) + p.val) (1024 * (t.val % 8) + k.val) := by
  have hN : cfg4.N = 32 := N_4
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts4 t
  unfold ablk4 iblk4
  rw [View.read_apply]
  show aarr4 V c _ = aarr4 V c _
  refine congrArg (aarr4 V c) (funext fun a => Fin.ext ?_)
  match a with
  | ⟨0, _⟩ => show win4_0.index t (0 : Fin 2) * 2048 + 1 * p.val = 2048 * (t.val / 8) + p.val; rw [e0]; omega
  | ⟨1, _⟩ => show win4_0.index t (1 : Fin 2) * 1024 + 1 * k.val = 1024 * (t.val % 8) + k.val; rw [e1]; omega

/-- Entry (k, q) of x's tile at point t is x[1024 (t % 8) + k, q]. -/
theorem xblkAt4 (c : Dev nD) (t : Fin cfg4.N) (k : Fin 1024) (q : Fin 64) :
    xblk4 V c t (ix2 k q) = ent (m := 8192) (n := 64) (xarr4 V c) (1024 * (t.val % 8) + k.val) q.val := by
  have hN : cfg4.N = 32 := N_4
  have ht := t.isLt
  have hk := k.isLt
  have hj : 1024 * (t.val % 8) + k.val < 8192 := by omega
  rw [ent_of_lt _ _ _ hj q.isLt]
  obtain ⟨-, -, e0, e1, -⟩ := idx_facts4 t
  unfold xblk4 iblk4
  rw [View.read_apply]
  show xarr4 V c _ = xarr4 V c _
  refine congrArg (xarr4 V c) (funext fun a => Fin.ext ?_)
  match a with
  | ⟨0, _⟩ => show win4_1.index t (0 : Fin 2) * 1024 + 1 * k.val = 1024 * (t.val % 8) + k.val; rw [e0]; omega
  | ⟨1, _⟩ => show win4_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step4 (c : Dev nD) (t : Fin cfg4.N) (p : Fin 2048) (q : Fin 64) (s : Vec Ideal S2048x64 .f32)
    (hs : s (ix2 p q) = dotUpTo (m := 8192) (k := 8192) (n := 64) (aarr4 V c) (xarr4 V c) (2048 * (t.val / 8) + p.val) q.val (1024 * (t.val % 8))) :
    k4_pay2 (F := Ideal) (ablk4 V c t) (xblk4 V c t) s (ix2 p q)
      = dotUpTo (m := 8192) (k := 8192) (n := 64) (aarr4 V c) (xarr4 V c) (2048 * (t.val / 8) + p.val) q.val (1024 * (t.val % 8) + 1024) :=
  (pay2_apply4 (ablk4 V c t) (xblk4 V c t) s p q).trans
    (acc_step (m := 8192) (k := 8192) (n := 64) (aarr4 V c) (xarr4 V c) (M := 2048) (K := 1024) (N := 64)
      (ablk4 V c t) (xblk4 V c t) (2048 * (t.val / 8)) (1024 * (t.val % 8))
      (fun p' c' => ablkAt4 V c t p' c') (fun c' q' => xblkAt4 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv4 (c : Dev nD) (n : ℕ) : ∀ (hn : n < cfg4.N) (p : Fin 2048) (q : Fin 64),
    accAt4 V c n hn (ix2 p q)
      = dotUpTo (m := 8192) (k := 8192) (n := 64) (aarr4 V c) (xarr4 V c) (2048 * (n / 8) + p.val) q.val (1024 * (n % 8) + 1024) := by
  induction n using Nat.strong_induction_on with
  | _ n ih =>
    intro hn p q
    have hN : cfg4.N = 32 := N_4
    by_cases h0 : n % 8 = 0
    · refine (congrFun (accAt4_first V c ⟨n, hn⟩ h0) (ix2 p q)).trans ?_
      refine (congrFun (accFirstPay4 (F := Ideal) c (grid4.coords ⟨n, hn⟩) (ms4_0 ⟨n, hn⟩) (hs4_0 ⟨n, hn⟩) (ms4_1 ⟨n, hn⟩) (hs4_1 ⟨n, hn⟩)
        (ms4_2 ⟨n, hn⟩) (hs4_2 ⟨n, hn⟩) sc4 hsc4 (iblk4 V c 0 ⟨n, hn⟩) (iblk4 V c 1 ⟨n, hn⟩)
        ((first4_iff ⟨n, hn⟩).mpr h0) (fun h => not_last_of_first4 h0 ((last4_iff ⟨n, hn⟩).mp h))) (ix2 p q)).trans ?_
      exact step4 V c ⟨n, hn⟩ p q (k4_pay1 (F := Ideal)) (by show _ = dotUpTo _ _ _ _ (1024 * (n % 8)); rw [h0, Nat.mul_zero, dotUpTo_zero]; exact pay1_apply4 (ix2 p q))
    · have hn' : n - 1 < cfg4.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt4_last V c ⟨n, hn⟩ h0 h1) (ix2 p q)).trans ?_
        refine (congrFun (accLastPay4 (F := Ideal) c (grid4.coords ⟨n, hn⟩) (ms4_0 ⟨n, hn⟩) (hs4_0 ⟨n, hn⟩) (ms4_1 ⟨n, hn⟩) (hs4_1 ⟨n, hn⟩)
          (ms4_2 ⟨n, hn⟩) (hs4_2 ⟨n, hn⟩) sc4 hsc4 (iblk4 V c 0 ⟨n, hn⟩) (iblk4 V c 1 ⟨n, hn⟩) (accAt4 V c (n - 1) hn')
          (fun h => h0 ((first4_iff ⟨n, hn⟩).mp h)) ((last4_iff ⟨n, hn⟩).mpr h1)) (ix2 p q)).trans ?_
        exact step4 V c ⟨n, hn⟩ p q (accAt4 V c (n - 1) hn') hprev
      · refine (congrFun (accAt4_mid V c ⟨n, hn⟩ h0 h1) (ix2 p q)).trans ?_
        refine (congrFun (accMidPay4 (F := Ideal) c (grid4.coords ⟨n, hn⟩) (ms4_0 ⟨n, hn⟩) (hs4_0 ⟨n, hn⟩) (ms4_1 ⟨n, hn⟩) (hs4_1 ⟨n, hn⟩)
          (ms4_2 ⟨n, hn⟩) (hs4_2 ⟨n, hn⟩) sc4 hsc4 (iblk4 V c 0 ⟨n, hn⟩) (iblk4 V c 1 ⟨n, hn⟩) (accAt4 V c (n - 1) hn')
          (fun h => h0 ((first4_iff ⟨n, hn⟩).mp h)) (fun h => h1 ((last4_iff ⟨n, hn⟩).mp h))) (ix2 p q)).trans ?_
        exact step4 V c ⟨n, hn⟩ p q (accAt4 V c (n - 1) hn') hprev

/-! ## The output tile, the cover, the array -/

/-- THE PRODUCT of the two arrays as the reference takes it: the host's `dot_general`, contracting A's columns with
    x's rows. -/
abbrev prod4 (c : Dev nD) : Vec Ideal S8192x64 .f32 :=
  Host.dotGeneral (F := Ideal) (φ₁ := .f32) (φ₂ := .f32) Cert.ReferenceIdeal.dot_S8192x8192_S8192x64_S8192x64_1_0_0_1_n_n none (aarr4 V c) (xarr4 V c)

/-- At (r, q) it is the sum over all 8192 columns j of A[r, j] · x[j, q]. -/
theorem prodAt4 (c : Dev nD) (r : Fin 8192) (q : Fin 64) :
    prod4 V c (ix2 r q) = ∑ j : Fin 8192, aarr4 V c (ix2 r j) * xarr4 V c (ix2 j q) :=
  dotGeneral_plain_apply (M := 8192) (K := 8192) (N := 64) none .single (aarr4 V c) (xarr4 V c) r q

/-- What a point leaves for the output tile is the accumulator as it leaves it: a last point of a row copies it. -/
theorem outIsAcc4 (c : Dev nD) (t : Fin cfg4.N) : outAt4 V c t = accAt4 V c t.val t.isLt := by
  unfold outAt4
  split
  · rename_i h
    exact (outLastPay4 (F := Ideal) c (grid4.coords t) (ms4_0 t) (hs4_0 t) (ms4_1 t) (hs4_1 t) (ms4_2 t) (hs4_2 t) sc4 hsc4
        (iblk4 V c 0 t) (iblk4 V c 1 t) (accAt4 V c (t.val - 1) (Nat.lt_of_le_of_lt (Nat.sub_le _ _) t.isLt))
        (fun h' => h.1 ((first4_iff t).mp h')) ((last4_iff t).mpr h.2)).trans
      ((accLastPay4 (F := Ideal) c (grid4.coords t) (ms4_0 t) (hs4_0 t) (ms4_1 t) (hs4_1 t) (ms4_2 t) (hs4_2 t) sc4 hsc4
        (iblk4 V c 0 t) (iblk4 V c 1 t) (accAt4 V c (t.val - 1) (Nat.lt_of_le_of_lt (Nat.sub_le _ _) t.isLt))
        (fun h' => h.1 ((first4_iff t).mp h')) ((last4_iff t).mpr h.2)).symm.trans (accAt4_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile4 (c : Dev nD) (t : Fin cfg4.N) (hf : (cfg4.win 2).flush t = true) :
    (dat4 V c).flushed 2 t = ((cfg4.win 2).blk t).view.read (Elt Ideal) (prod4 V c) := by
  have hN : cfg4.N = 32 := N_4
  have ht := t.isLt
  have h7 : t.val % 8 = 7 := (flush4_2 t).mp hf
  obtain ⟨-, -, -, -, e0, e1⟩ := idx_facts4 t
  show (cfg4.win 2).cut (grid4.coords t) ((dat4 V c).after 2 t) = _
  rw [after4_2, outIsAcc4 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg4.win 2).blk t).view.emb (ix2 p q) = (ix2 (⟨2048 * (t.val / 8) + p.val, hr⟩ : Fin 8192) q : S8192x64.Idx) :=
    funext fun a => Fin.ext (by
      match a with
      | ⟨0, _⟩ => show win4_2.index t (0 : Fin 2) * 2048 + 1 * p.val = 2048 * (t.val / 8) + p.val; rw [e0]; omega
      | ⟨1, _⟩ => show win4_2.index t (1 : Fin 2) * 64 + 1 * q.val = q.val; rw [e1]; omega)
  rw [View.read_apply]
  show accAt4 V c t.val t.isLt (ix2 p q) = prod4 V c (((cfg4.win 2).blk t).view.emb (ix2 p q))
  rw [hemb, prodAt4 V c ⟨2048 * (t.val / 8) + p.val, hr⟩ q, accInv4 V c t.val t.isLt p q,
    ← dotUpTo_all (aarr4 V c) (xarr4 V c) ⟨2048 * (t.val / 8) + p.val, hr⟩ q,
    show 1024 * (t.val % 8) + 1024 = 8192 by omega]

/-- An entry of the output array is in point t's tile iff each coordinate is in the tile's range on its axis. -/
theorem mem_blk4 (t : Fin cfg4.N) (i : S8192x64.Idx) :
    i ∈ ((cfg4.win 2).blk t).view.set
      ↔ ∀ a : Fin 2, win4_2.index t a * S2048x64.size a ≤ (i a).val ∧ (i a).val < win4_2.index t a * S2048x64.size a + S2048x64.size a := by
  show i ∈ ((View.whole (Pipeline.arrRef spec4 2)).slice (win4_2.rect t)).set ↔ _
  rw [View.set_slice_whole, Rect.mem_set_unit]
  exact Iff.rfl

/-- THE COVER: row r of the output array lies in the tile written back at point 8 (r / 2048) + 7, the last of its row
    of tiles. -/
theorem cover4 (i : S8192x64.Idx) :
    ∃ t : Fin cfg4.N, (cfg4.win 2).flush t = true ∧ i ∈ ((cfg4.win 2).blk t).view.set := by
  have hN : cfg4.N = 32 := N_4
  have hi0 : (i 0).val < 8192 := (i 0).isLt
  have hi1 : (i 1).val < 64 := (i 1).isLt
  have hlt : 8 * ((i 0).val / 2048) + 7 < cfg4.N := by omega
  obtain ⟨t, htv⟩ : ∃ t : Fin cfg4.N, t.val = 8 * ((i 0).val / 2048) + 7 := ⟨⟨_, hlt⟩, rfl⟩
  obtain ⟨-, -, -, -, e0, e1⟩ := idx_facts4 t
  refine ⟨t, (flush4_2 t).mpr (by omega), ?_⟩
  rw [mem_blk4]
  intro a
  match a with
  | ⟨0, _⟩ =>
    show win4_2.index t (0 : Fin 2) * 2048 ≤ (i 0).val ∧ (i 0).val < win4_2.index t (0 : Fin 2) * 2048 + 2048
    rw [e0]; omega
  | ⟨1, _⟩ =>
    show win4_2.index t (1 : Fin 2) * 64 ≤ (i 1).val ∧ (i 1).val < win4_2.index t (1 : Fin 2) * 64 + 64
    rw [e1]; omega

/-- THE VALUE OF REGION 0: after the region the output array holds the product of the two input arrays as the
    region found them — every tile written back is a tile of the product, and the written tiles cover the array. -/
theorem mm4 (c : Dev nD) :
    (dat4 (F := Ideal) V c).arrAt 2 cfg4.N
      = Host.dotGeneral (F := Ideal) (φ₁ := .f32) (φ₂ := .f32) Cert.ReferenceIdeal.dot_S8192x8192_S8192x64_S8192x64_1_0_0_1_n_n none
          (V c (Pipeline.arrRef spec4 0)) (V c (Pipeline.arrRef spec4 1)) :=
  (dat4 V c).arrAt_eq_of_cover 2 (prod4 V c) (flushedTile4 V c) (fun i => cover4 i)

end Blocks

end Cert.KernelIdeal.Hand

end
-- ==== Proof.KI.R5Val.lean ====
/-
  Region 5's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv5`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile5`); row r of the result lies in the tile written back at point 8 (r / 2048) + 7 (`cover5`); hence
  the array after the region is that `dot_general` (`mm5`).

  The steps: what each control case's stores read back to, as the body's pure terms (`accFirstPay5`, `accMidPay5`,
  `accLastPay5`, `outLastPay5`); those terms at an entry (`pay1_apply5`, `pay2_apply5`); each tile as entries of
  its array (`idx_facts5`, `ablkAt5`, `xblkAt5`); one point's update (`step5`); the invariant; the output tile, the
  cover, the array.
-/
import proofs.«158997_j77232101916990_1_alg».proof.Proof.KI.R5Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz5 : (![0, 0] : Fin 2 → Nat) = fun _ => 0 := funext fun a => by fin_cases a <;> rfl

section Pieces

variable {F : FTy → Type} [FloatOps F]
variable (c : Dev nD) (i : grid5.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay5 (hc0 : first5 i) (hc1 : ¬ last5 i) :
    accFirst5 c i arg2 harg2 arg3 harg3 arg4 harg4 arg5 harg5 x0 x1 hc0 hc1 = k5_pay2 x0 x1 (k5_pay1 (F := F)) := by
  unfold accFirst5
  rw [View.read_writes_eq_canon _ _ _ (coverFirst5 c i arg2 harg2 arg3 harg3 arg4 harg4 arg5 harg5 x0 x1 hc0 hc1)]
  unfold runFirst5
  dsimp only
  sl_unfold_words
  rw [View.canon_cons_unit_zero (S := S2048x64) hz5]
  simp only [View.readAt_eq_ld, harg2.read_unread, harg3.read_unread, View.readCov_unit_zero (S := S2048x64) _ hz5,
    View.ld_unit_zero (S := S2048x1024) hz5, View.ld_unit_zero (S := S1024x64) hz5, View.ld_unit_zero (S := S2048x64) hz5]

/-- A middle point leaves the tile update of what it found. -/
theorem accMidPay5 (hc0 : ¬ first5 i) (hc1 : ¬ last5 i) :
    accMid5 c i arg2 harg2 arg3 harg3 arg4 harg4 arg5 harg5 x0 x1 s hc0 hc1 = k5_pay2 x0 x1 s := by
  unfold accMid5
  rw [View.read_writes_eq_canon _ _ _ (coverMid5 c i arg2 harg2 arg3 harg3 arg4 harg4 arg5 harg5 x0 x1 s hc0 hc1)]
  unfold runMid5
  dsimp only
  sl_unfold_words
  rw [View.canon_unit_zero hz5]
  simp only [View.readAt_eq_ld, harg2.read_unread, harg3.read_unread, harg5.read_unread,
    View.ld_unit_zero (S := S2048x1024) hz5, View.ld_unit_zero (S := S1024x64) hz5, View.ld_unit_zero (S := S2048x64) hz5]

/-- A last point leaves the same in the accumulator, -/
theorem accLastPay5 (hc0 : ¬ first5 i) (hc1 : last5 i) :
    accLast5 c i arg2 harg2 arg3 harg3 arg4 harg4 arg5 harg5 x0 x1 s hc0 hc1 = k5_pay2 x0 x1 s := by
  unfold accLast5
  rw [View.read_writes_eq_canon _ _ _ (coverLastAcc5 c i arg2 harg2 arg3 harg3 arg4 harg4 arg5 harg5 x0 x1 s hc0 hc1)]
  unfold runLast5
  dsimp only
  sl_unfold_words
  rw [View.canon_unit_zero hz5]
  simp only [View.readAt_eq_ld, harg2.read_unread, harg3.read_unread, harg5.read_unread,
    View.ld_unit_zero (S := S2048x1024) hz5, View.ld_unit_zero (S := S1024x64) hz5, View.ld_unit_zero (S := S2048x64) hz5]

/-- and copies it into the output tile: the copy's load reads the update's store back. -/
theorem outLastPay5 (hc0 : ¬ first5 i) (hc1 : last5 i) :
    outLast5 c i arg2 harg2 arg3 harg3 arg4 harg4 arg5 harg5 x0 x1 s hc0 hc1 = k5_pay2 x0 x1 s := by
  unfold outLast5
  rw [View.read_writes_eq_canon _ _ _ (coverLastOut5 c i arg2 harg2 arg3 harg3 arg4 harg4 arg5 harg5 x0 x1 s hc0 hc1)]
  unfold runLast5
  dsimp only
  sl_unfold_words
  rw [View.canon_unit_zero hz5]
  simp only [View.readAt_eq_ld, harg2.read_unread, harg3.read_unread, harg5.read_unread, View.readCov_unit_zero (S := S2048x64) _ hz5,
    View.ld_unit_zero (S := S2048x1024) hz5, View.ld_unit_zero (S := S1024x64) hz5, View.ld_unit_zero (S := S2048x64) hz5]

end Pieces

/-! ## The two bodies at an entry, at the ideal values -/

/-- The reset's block is zero everywhere. -/
theorem pay1_apply5 (j : S2048x64.Idx) : k5_pay1 (F := Ideal) j = 0 := by
  unfold k5_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply5 (x0 : Vec Ideal S2048x1024 .f32) (x1 : Vec Ideal S1024x64 .f32) (s : Vec Ideal S2048x64 .f32)
    (p : Fin 2048) (q : Fin 64) :
    k5_pay2 (F := Ideal) x0 x1 s (ix2 p q) = s (ix2 p q) + ∑ c : Fin 1024, x0 (ix2 p c) * x1 (ix2 c q) := by
  unfold k5_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr5 (c : Dev nD) : Vec Ideal S8192x8192 .f32 := V c (Pipeline.arrRef spec5 0)
abbrev xarr5 (c : Dev nD) : Vec Ideal S8192x64 .f32 := V c (Pipeline.arrRef spec5 1)
abbrev ablk5 (c : Dev nD) (t : Fin cfg5.N) : Vec Ideal S2048x1024 .f32 := iblk5 V c 0 t
abbrev xblk5 (c : Dev nD) (t : Fin cfg5.N) : Vec Ideal S1024x64 .f32 := iblk5 V c 1 t

/-- The printed index maps over the grid: point t = 8 i + k reads tile (i, k) of A and tile (k, 0) of x, and its
    output tile is (i, 0). -/
theorem idx_facts5 : ∀ t : Fin cfg5.N, win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = t.val / 8 ∧ win5_2.index t (1 : Fin 2) = 0 :=
  (by decide +kernel : ∀ t : Fin grid5.N, _)

/-- Entry (p, k) of A's tile at point t is A[2048 (t / 8) + p, 1024 (t % 8) + k]. -/
theorem ablkAt5 (c : Dev nD) (t : Fin cfg5.N) (p : Fin 2048) (k : Fin 1024) :
    ablk5 V c t (ix2 p k) = ent (m := 8192) (n := 8192) (aarr5 V c) (2048 * (t.val / 8) + p.val) (1024 * (t.val % 8) + k.val) := by
  have hN : cfg5.N = 32 := N_5
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts5 t
  unfold ablk5 iblk5
  rw [View.read_apply]
  show aarr5 V c _ = aarr5 V c _
  refine congrArg (aarr5 V c) (funext fun a => Fin.ext ?_)
  match a with
  | ⟨0, _⟩ => show win5_0.index t (0 : Fin 2) * 2048 + 1 * p.val = 2048 * (t.val / 8) + p.val; rw [e0]; omega
  | ⟨1, _⟩ => show win5_0.index t (1 : Fin 2) * 1024 + 1 * k.val = 1024 * (t.val % 8) + k.val; rw [e1]; omega

/-- Entry (k, q) of x's tile at point t is x[1024 (t % 8) + k, q]. -/
theorem xblkAt5 (c : Dev nD) (t : Fin cfg5.N) (k : Fin 1024) (q : Fin 64) :
    xblk5 V c t (ix2 k q) = ent (m := 8192) (n := 64) (xarr5 V c) (1024 * (t.val % 8) + k.val) q.val := by
  have hN : cfg5.N = 32 := N_5
  have ht := t.isLt
  have hk := k.isLt
  have hj : 1024 * (t.val % 8) + k.val < 8192 := by omega
  rw [ent_of_lt _ _ _ hj q.isLt]
  obtain ⟨-, -, e0, e1, -⟩ := idx_facts5 t
  unfold xblk5 iblk5
  rw [View.read_apply]
  show xarr5 V c _ = xarr5 V c _
  refine congrArg (xarr5 V c) (funext fun a => Fin.ext ?_)
  match a with
  | ⟨0, _⟩ => show win5_1.index t (0 : Fin 2) * 1024 + 1 * k.val = 1024 * (t.val % 8) + k.val; rw [e0]; omega
  | ⟨1, _⟩ => show win5_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step5 (c : Dev nD) (t : Fin cfg5.N) (p : Fin 2048) (q : Fin 64) (s : Vec Ideal S2048x64 .f32)
    (hs : s (ix2 p q) = dotUpTo (m := 8192) (k := 8192) (n := 64) (aarr5 V c) (xarr5 V c) (2048 * (t.val / 8) + p.val) q.val (1024 * (t.val % 8))) :
    k5_pay2 (F := Ideal) (ablk5 V c t) (xblk5 V c t) s (ix2 p q)
      = dotUpTo (m := 8192) (k := 8192) (n := 64) (aarr5 V c) (xarr5 V c) (2048 * (t.val / 8) + p.val) q.val (1024 * (t.val % 8) + 1024) :=
  (pay2_apply5 (ablk5 V c t) (xblk5 V c t) s p q).trans
    (acc_step (m := 8192) (k := 8192) (n := 64) (aarr5 V c) (xarr5 V c) (M := 2048) (K := 1024) (N := 64)
      (ablk5 V c t) (xblk5 V c t) (2048 * (t.val / 8)) (1024 * (t.val % 8))
      (fun p' c' => ablkAt5 V c t p' c') (fun c' q' => xblkAt5 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv5 (c : Dev nD) (n : ℕ) : ∀ (hn : n < cfg5.N) (p : Fin 2048) (q : Fin 64),
    accAt5 V c n hn (ix2 p q)
      = dotUpTo (m := 8192) (k := 8192) (n := 64) (aarr5 V c) (xarr5 V c) (2048 * (n / 8) + p.val) q.val (1024 * (n % 8) + 1024) := by
  induction n using Nat.strong_induction_on with
  | _ n ih =>
    intro hn p q
    have hN : cfg5.N = 32 := N_5
    by_cases h0 : n % 8 = 0
    · refine (congrFun (accAt5_first V c ⟨n, hn⟩ h0) (ix2 p q)).trans ?_
      refine (congrFun (accFirstPay5 (F := Ideal) c (grid5.coords ⟨n, hn⟩) (ms5_0 ⟨n, hn⟩) (hs5_0 ⟨n, hn⟩) (ms5_1 ⟨n, hn⟩) (hs5_1 ⟨n, hn⟩)
        (ms5_2 ⟨n, hn⟩) (hs5_2 ⟨n, hn⟩) sc5 hsc5 (iblk5 V c 0 ⟨n, hn⟩) (iblk5 V c 1 ⟨n, hn⟩)
        ((first5_iff ⟨n, hn⟩).mpr h0) (fun h => not_last_of_first5 h0 ((last5_iff ⟨n, hn⟩).mp h))) (ix2 p q)).trans ?_
      exact step5 V c ⟨n, hn⟩ p q (k5_pay1 (F := Ideal)) (by show _ = dotUpTo _ _ _ _ (1024 * (n % 8)); rw [h0, Nat.mul_zero, dotUpTo_zero]; exact pay1_apply5 (ix2 p q))
    · have hn' : n - 1 < cfg5.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt5_last V c ⟨n, hn⟩ h0 h1) (ix2 p q)).trans ?_
        refine (congrFun (accLastPay5 (F := Ideal) c (grid5.coords ⟨n, hn⟩) (ms5_0 ⟨n, hn⟩) (hs5_0 ⟨n, hn⟩) (ms5_1 ⟨n, hn⟩) (hs5_1 ⟨n, hn⟩)
          (ms5_2 ⟨n, hn⟩) (hs5_2 ⟨n, hn⟩) sc5 hsc5 (iblk5 V c 0 ⟨n, hn⟩) (iblk5 V c 1 ⟨n, hn⟩) (accAt5 V c (n - 1) hn')
          (fun h => h0 ((first5_iff ⟨n, hn⟩).mp h)) ((last5_iff ⟨n, hn⟩).mpr h1)) (ix2 p q)).trans ?_
        exact step5 V c ⟨n, hn⟩ p q (accAt5 V c (n - 1) hn') hprev
      · refine (congrFun (accAt5_mid V c ⟨n, hn⟩ h0 h1) (ix2 p q)).trans ?_
        refine (congrFun (accMidPay5 (F := Ideal) c (grid5.coords ⟨n, hn⟩) (ms5_0 ⟨n, hn⟩) (hs5_0 ⟨n, hn⟩) (ms5_1 ⟨n, hn⟩) (hs5_1 ⟨n, hn⟩)
          (ms5_2 ⟨n, hn⟩) (hs5_2 ⟨n, hn⟩) sc5 hsc5 (iblk5 V c 0 ⟨n, hn⟩) (iblk5 V c 1 ⟨n, hn⟩) (accAt5 V c (n - 1) hn')
          (fun h => h0 ((first5_iff ⟨n, hn⟩).mp h)) (fun h => h1 ((last5_iff ⟨n, hn⟩).mp h))) (ix2 p q)).trans ?_
        exact step5 V c ⟨n, hn⟩ p q (accAt5 V c (n - 1) hn') hprev

/-! ## The output tile, the cover, the array -/

/-- THE PRODUCT of the two arrays as the reference takes it: the host's `dot_general`, contracting A's columns with
    x's rows. -/
abbrev prod5 (c : Dev nD) : Vec Ideal S8192x64 .f32 :=
  Host.dotGeneral (F := Ideal) (φ₁ := .f32) (φ₂ := .f32) Cert.ReferenceIdeal.dot_S8192x8192_S8192x64_S8192x64_1_0_0_1_n_n none (aarr5 V c) (xarr5 V c)

/-- At (r, q) it is the sum over all 8192 columns j of A[r, j] · x[j, q]. -/
theorem prodAt5 (c : Dev nD) (r : Fin 8192) (q : Fin 64) :
    prod5 V c (ix2 r q) = ∑ j : Fin 8192, aarr5 V c (ix2 r j) * xarr5 V c (ix2 j q) :=
  dotGeneral_plain_apply (M := 8192) (K := 8192) (N := 64) none .single (aarr5 V c) (xarr5 V c) r q

/-- What a point leaves for the output tile is the accumulator as it leaves it: a last point of a row copies it. -/
theorem outIsAcc5 (c : Dev nD) (t : Fin cfg5.N) : outAt5 V c t = accAt5 V c t.val t.isLt := by
  unfold outAt5
  split
  · rename_i h
    exact (outLastPay5 (F := Ideal) c (grid5.coords t) (ms5_0 t) (hs5_0 t) (ms5_1 t) (hs5_1 t) (ms5_2 t) (hs5_2 t) sc5 hsc5
        (iblk5 V c 0 t) (iblk5 V c 1 t) (accAt5 V c (t.val - 1) (Nat.lt_of_le_of_lt (Nat.sub_le _ _) t.isLt))
        (fun h' => h.1 ((first5_iff t).mp h')) ((last5_iff t).mpr h.2)).trans
      ((accLastPay5 (F := Ideal) c (grid5.coords t) (ms5_0 t) (hs5_0 t) (ms5_1 t) (hs5_1 t) (ms5_2 t) (hs5_2 t) sc5 hsc5
        (iblk5 V c 0 t) (iblk5 V c 1 t) (accAt5 V c (t.val - 1) (Nat.lt_of_le_of_lt (Nat.sub_le _ _) t.isLt))
        (fun h' => h.1 ((first5_iff t).mp h')) ((last5_iff t).mpr h.2)).symm.trans (accAt5_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile5 (c : Dev nD) (t : Fin cfg5.N) (hf : (cfg5.win 2).flush t = true) :
    (dat5 V c).flushed 2 t = ((cfg5.win 2).blk t).view.read (Elt Ideal) (prod5 V c) := by
  have hN : cfg5.N = 32 := N_5
  have ht := t.isLt
  have h7 : t.val % 8 = 7 := (flush5_2 t).mp hf
  obtain ⟨-, -, -, -, e0, e1⟩ := idx_facts5 t
  show (cfg5.win 2).cut (grid5.coords t) ((dat5 V c).after 2 t) = _
  rw [after5_2, outIsAcc5 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg5.win 2).blk t).view.emb (ix2 p q) = (ix2 (⟨2048 * (t.val / 8) + p.val, hr⟩ : Fin 8192) q : S8192x64.Idx) :=
    funext fun a => Fin.ext (by
      match a with
      | ⟨0, _⟩ => show win5_2.index t (0 : Fin 2) * 2048 + 1 * p.val = 2048 * (t.val / 8) + p.val; rw [e0]; omega
      | ⟨1, _⟩ => show win5_2.index t (1 : Fin 2) * 64 + 1 * q.val = q.val; rw [e1]; omega)
  rw [View.read_apply]
  show accAt5 V c t.val t.isLt (ix2 p q) = prod5 V c (((cfg5.win 2).blk t).view.emb (ix2 p q))
  rw [hemb, prodAt5 V c ⟨2048 * (t.val / 8) + p.val, hr⟩ q, accInv5 V c t.val t.isLt p q,
    ← dotUpTo_all (aarr5 V c) (xarr5 V c) ⟨2048 * (t.val / 8) + p.val, hr⟩ q,
    show 1024 * (t.val % 8) + 1024 = 8192 by omega]

/-- An entry of the output array is in point t's tile iff each coordinate is in the tile's range on its axis. -/
theorem mem_blk5 (t : Fin cfg5.N) (i : S8192x64.Idx) :
    i ∈ ((cfg5.win 2).blk t).view.set
      ↔ ∀ a : Fin 2, win5_2.index t a * S2048x64.size a ≤ (i a).val ∧ (i a).val < win5_2.index t a * S2048x64.size a + S2048x64.size a := by
  show i ∈ ((View.whole (Pipeline.arrRef spec5 2)).slice (win5_2.rect t)).set ↔ _
  rw [View.set_slice_whole, Rect.mem_set_unit]
  exact Iff.rfl

/-- THE COVER: row r of the output array lies in the tile written back at point 8 (r / 2048) + 7, the last of its row
    of tiles. -/
theorem cover5 (i : S8192x64.Idx) :
    ∃ t : Fin cfg5.N, (cfg5.win 2).flush t = true ∧ i ∈ ((cfg5.win 2).blk t).view.set := by
  have hN : cfg5.N = 32 := N_5
  have hi0 : (i 0).val < 8192 := (i 0).isLt
  have hi1 : (i 1).val < 64 := (i 1).isLt
  have hlt : 8 * ((i 0).val / 2048) + 7 < cfg5.N := by omega
  obtain ⟨t, htv⟩ : ∃ t : Fin cfg5.N, t.val = 8 * ((i 0).val / 2048) + 7 := ⟨⟨_, hlt⟩, rfl⟩
  obtain ⟨-, -, -, -, e0, e1⟩ := idx_facts5 t
  refine ⟨t, (flush5_2 t).mpr (by omega), ?_⟩
  rw [mem_blk5]
  intro a
  match a with
  | ⟨0, _⟩ =>
    show win5_2.index t (0 : Fin 2) * 2048 ≤ (i 0).val ∧ (i 0).val < win5_2.index t (0 : Fin 2) * 2048 + 2048
    rw [e0]; omega
  | ⟨1, _⟩ =>
    show win5_2.index t (1 : Fin 2) * 64 ≤ (i 1).val ∧ (i 1).val < win5_2.index t (1 : Fin 2) * 64 + 64
    rw [e1]; omega

/-- THE VALUE OF REGION 0: after the region the output array holds the product of the two input arrays as the
    region found them — every tile written back is a tile of the product, and the written tiles cover the array. -/
theorem mm5 (c : Dev nD) :
    (dat5 (F := Ideal) V c).arrAt 2 cfg5.N
      = Host.dotGeneral (F := Ideal) (φ₁ := .f32) (φ₂ := .f32) Cert.ReferenceIdeal.dot_S8192x8192_S8192x64_S8192x64_1_0_0_1_n_n none
          (V c (Pipeline.arrRef spec5 0)) (V c (Pipeline.arrRef spec5 1)) :=
  (dat5 V c).arrAt_eq_of_cover 2 (prod5 V c) (flushedTile5 V c) (fun i => cover5 i)

end Blocks

end Cert.KernelIdeal.Hand

end
-- ==== Proof.KI.R6Val.lean ====
/-
  Region 6's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv6`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile6`); row r of the result lies in the tile written back at point 8 (r / 2048) + 7 (`cover6`); hence
  the array after the region is that `dot_general` (`mm6`).

  The steps: what each control case's stores read back to, as the body's pure terms (`accFirstPay6`, `accMidPay6`,
  `accLastPay6`, `outLastPay6`); those terms at an entry (`pay1_apply6`, `pay2_apply6`); each tile as entries of
  its array (`idx_facts6`, `ablkAt6`, `xblkAt6`); one point's update (`step6`); the invariant; the output tile, the
  cover, the array.
-/
import proofs.«158997_j77232101916990_1_alg».proof.Proof.KI.R6Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz6 : (![0, 0] : Fin 2 → Nat) = fun _ => 0 := funext fun a => by fin_cases a <;> rfl

section Pieces

variable {F : FTy → Type} [FloatOps F]
variable (c : Dev nD) (i : grid6.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay6 (hc0 : first6 i) (hc1 : ¬ last6 i) :
    accFirst6 c i arg2 harg2 arg3 harg3 arg4 harg4 arg5 harg5 x0 x1 hc0 hc1 = k6_pay2 x0 x1 (k6_pay1 (F := F)) := by
  unfold accFirst6
  rw [View.read_writes_eq_canon _ _ _ (coverFirst6 c i arg2 harg2 arg3 harg3 arg4 harg4 arg5 harg5 x0 x1 hc0 hc1)]
  unfold runFirst6
  dsimp only
  sl_unfold_words
  rw [View.canon_cons_unit_zero (S := S2048x64) hz6]
  simp only [View.readAt_eq_ld, harg2.read_unread, harg3.read_unread, View.readCov_unit_zero (S := S2048x64) _ hz6,
    View.ld_unit_zero (S := S2048x1024) hz6, View.ld_unit_zero (S := S1024x64) hz6, View.ld_unit_zero (S := S2048x64) hz6]

/-- A middle point leaves the tile update of what it found. -/
theorem accMidPay6 (hc0 : ¬ first6 i) (hc1 : ¬ last6 i) :
    accMid6 c i arg2 harg2 arg3 harg3 arg4 harg4 arg5 harg5 x0 x1 s hc0 hc1 = k6_pay2 x0 x1 s := by
  unfold accMid6
  rw [View.read_writes_eq_canon _ _ _ (coverMid6 c i arg2 harg2 arg3 harg3 arg4 harg4 arg5 harg5 x0 x1 s hc0 hc1)]
  unfold runMid6
  dsimp only
  sl_unfold_words
  rw [View.canon_unit_zero hz6]
  simp only [View.readAt_eq_ld, harg2.read_unread, harg3.read_unread, harg5.read_unread,
    View.ld_unit_zero (S := S2048x1024) hz6, View.ld_unit_zero (S := S1024x64) hz6, View.ld_unit_zero (S := S2048x64) hz6]

/-- A last point leaves the same in the accumulator, -/
theorem accLastPay6 (hc0 : ¬ first6 i) (hc1 : last6 i) :
    accLast6 c i arg2 harg2 arg3 harg3 arg4 harg4 arg5 harg5 x0 x1 s hc0 hc1 = k6_pay2 x0 x1 s := by
  unfold accLast6
  rw [View.read_writes_eq_canon _ _ _ (coverLastAcc6 c i arg2 harg2 arg3 harg3 arg4 harg4 arg5 harg5 x0 x1 s hc0 hc1)]
  unfold runLast6
  dsimp only
  sl_unfold_words
  rw [View.canon_unit_zero hz6]
  simp only [View.readAt_eq_ld, harg2.read_unread, harg3.read_unread, harg5.read_unread,
    View.ld_unit_zero (S := S2048x1024) hz6, View.ld_unit_zero (S := S1024x64) hz6, View.ld_unit_zero (S := S2048x64) hz6]

/-- and copies it into the output tile: the copy's load reads the update's store back. -/
theorem outLastPay6 (hc0 : ¬ first6 i) (hc1 : last6 i) :
    outLast6 c i arg2 harg2 arg3 harg3 arg4 harg4 arg5 harg5 x0 x1 s hc0 hc1 = k6_pay2 x0 x1 s := by
  unfold outLast6
  rw [View.read_writes_eq_canon _ _ _ (coverLastOut6 c i arg2 harg2 arg3 harg3 arg4 harg4 arg5 harg5 x0 x1 s hc0 hc1)]
  unfold runLast6
  dsimp only
  sl_unfold_words
  rw [View.canon_unit_zero hz6]
  simp only [View.readAt_eq_ld, harg2.read_unread, harg3.read_unread, harg5.read_unread, View.readCov_unit_zero (S := S2048x64) _ hz6,
    View.ld_unit_zero (S := S2048x1024) hz6, View.ld_unit_zero (S := S1024x64) hz6, View.ld_unit_zero (S := S2048x64) hz6]

end Pieces

/-! ## The two bodies at an entry, at the ideal values -/

/-- The reset's block is zero everywhere. -/
theorem pay1_apply6 (j : S2048x64.Idx) : k6_pay1 (F := Ideal) j = 0 := by
  unfold k6_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply6 (x0 : Vec Ideal S2048x1024 .f32) (x1 : Vec Ideal S1024x64 .f32) (s : Vec Ideal S2048x64 .f32)
    (p : Fin 2048) (q : Fin 64) :
    k6_pay2 (F := Ideal) x0 x1 s (ix2 p q) = s (ix2 p q) + ∑ c : Fin 1024, x0 (ix2 p c) * x1 (ix2 c q) := by
  unfold k6_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr6 (c : Dev nD) : Vec Ideal S8192x8192 .f32 := V c (Pipeline.arrRef spec6 0)
abbrev xarr6 (c : Dev nD) : Vec Ideal S8192x64 .f32 := V c (Pipeline.arrRef spec6 1)
abbrev ablk6 (c : Dev nD) (t : Fin cfg6.N) : Vec Ideal S2048x1024 .f32 := iblk6 V c 0 t
abbrev xblk6 (c : Dev nD) (t : Fin cfg6.N) : Vec Ideal S1024x64 .f32 := iblk6 V c 1 t

/-- The printed index maps over the grid: point t = 8 i + k reads tile (i, k) of A and tile (k, 0) of x, and its
    output tile is (i, 0). -/
theorem idx_facts6 : ∀ t : Fin cfg6.N, win6_0.index t (0 : Fin 2) = t.val / 8 ∧ win6_0.index t (1 : Fin 2) = t.val % 8
    ∧ win6_1.index t (0 : Fin 2) = t.val % 8 ∧ win6_1.index t (1 : Fin 2) = 0
    ∧ win6_2.index t (0 : Fin 2) = t.val / 8 ∧ win6_2.index t (1 : Fin 2) = 0 :=
  (by decide +kernel : ∀ t : Fin grid6.N, _)

/-- Entry (p, k) of A's tile at point t is A[2048 (t / 8) + p, 1024 (t % 8) + k]. -/
theorem ablkAt6 (c : Dev nD) (t : Fin cfg6.N) (p : Fin 2048) (k : Fin 1024) :
    ablk6 V c t (ix2 p k) = ent (m := 8192) (n := 8192) (aarr6 V c) (2048 * (t.val / 8) + p.val) (1024 * (t.val % 8) + k.val) := by
  have hN : cfg6.N = 32 := N_6
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts6 t
  unfold ablk6 iblk6
  rw [View.read_apply]
  show aarr6 V c _ = aarr6 V c _
  refine congrArg (aarr6 V c) (funext fun a => Fin.ext ?_)
  match a with
  | ⟨0, _⟩ => show win6_0.index t (0 : Fin 2) * 2048 + 1 * p.val = 2048 * (t.val / 8) + p.val; rw [e0]; omega
  | ⟨1, _⟩ => show win6_0.index t (1 : Fin 2) * 1024 + 1 * k.val = 1024 * (t.val % 8) + k.val; rw [e1]; omega

/-- Entry (k, q) of x's tile at point t is x[1024 (t % 8) + k, q]. -/
theorem xblkAt6 (c : Dev nD) (t : Fin cfg6.N) (k : Fin 1024) (q : Fin 64) :
    xblk6 V c t (ix2 k q) = ent (m := 8192) (n := 64) (xarr6 V c) (1024 * (t.val % 8) + k.val) q.val := by
  have hN : cfg6.N = 32 := N_6
  have ht := t.isLt
  have hk := k.isLt
  have hj : 1024 * (t.val % 8) + k.val < 8192 := by omega
  rw [ent_of_lt _ _ _ hj q.isLt]
  obtain ⟨-, -, e0, e1, -⟩ := idx_facts6 t
  unfold xblk6 iblk6
  rw [View.read_apply]
  show xarr6 V c _ = xarr6 V c _
  refine congrArg (xarr6 V c) (funext fun a => Fin.ext ?_)
  match a with
  | ⟨0, _⟩ => show win6_1.index t (0 : Fin 2) * 1024 + 1 * k.val = 1024 * (t.val % 8) + k.val; rw [e0]; omega
  | ⟨1, _⟩ => show win6_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step6 (c : Dev nD) (t : Fin cfg6.N) (p : Fin 2048) (q : Fin 64) (s : Vec Ideal S2048x64 .f32)
    (hs : s (ix2 p q) = dotUpTo (m := 8192) (k := 8192) (n := 64) (aarr6 V c) (xarr6 V c) (2048 * (t.val / 8) + p.val) q.val (1024 * (t.val % 8))) :
    k6_pay2 (F := Ideal) (ablk6 V c t) (xblk6 V c t) s (ix2 p q)
      = dotUpTo (m := 8192) (k := 8192) (n := 64) (aarr6 V c) (xarr6 V c) (2048 * (t.val / 8) + p.val) q.val (1024 * (t.val % 8) + 1024) :=
  (pay2_apply6 (ablk6 V c t) (xblk6 V c t) s p q).trans
    (acc_step (m := 8192) (k := 8192) (n := 64) (aarr6 V c) (xarr6 V c) (M := 2048) (K := 1024) (N := 64)
      (ablk6 V c t) (xblk6 V c t) (2048 * (t.val / 8)) (1024 * (t.val % 8))
      (fun p' c' => ablkAt6 V c t p' c') (fun c' q' => xblkAt6 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv6 (c : Dev nD) (n : ℕ) : ∀ (hn : n < cfg6.N) (p : Fin 2048) (q : Fin 64),
    accAt6 V c n hn (ix2 p q)
      = dotUpTo (m := 8192) (k := 8192) (n := 64) (aarr6 V c) (xarr6 V c) (2048 * (n / 8) + p.val) q.val (1024 * (n % 8) + 1024) := by
  induction n using Nat.strong_induction_on with
  | _ n ih =>
    intro hn p q
    have hN : cfg6.N = 32 := N_6
    by_cases h0 : n % 8 = 0
    · refine (congrFun (accAt6_first V c ⟨n, hn⟩ h0) (ix2 p q)).trans ?_
      refine (congrFun (accFirstPay6 (F := Ideal) c (grid6.coords ⟨n, hn⟩) (ms6_0 ⟨n, hn⟩) (hs6_0 ⟨n, hn⟩) (ms6_1 ⟨n, hn⟩) (hs6_1 ⟨n, hn⟩)
        (ms6_2 ⟨n, hn⟩) (hs6_2 ⟨n, hn⟩) sc6 hsc6 (iblk6 V c 0 ⟨n, hn⟩) (iblk6 V c 1 ⟨n, hn⟩)
        ((first6_iff ⟨n, hn⟩).mpr h0) (fun h => not_last_of_first6 h0 ((last6_iff ⟨n, hn⟩).mp h))) (ix2 p q)).trans ?_
      exact step6 V c ⟨n, hn⟩ p q (k6_pay1 (F := Ideal)) (by show _ = dotUpTo _ _ _ _ (1024 * (n % 8)); rw [h0, Nat.mul_zero, dotUpTo_zero]; exact pay1_apply6 (ix2 p q))
    · have hn' : n - 1 < cfg6.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt6_last V c ⟨n, hn⟩ h0 h1) (ix2 p q)).trans ?_
        refine (congrFun (accLastPay6 (F := Ideal) c (grid6.coords ⟨n, hn⟩) (ms6_0 ⟨n, hn⟩) (hs6_0 ⟨n, hn⟩) (ms6_1 ⟨n, hn⟩) (hs6_1 ⟨n, hn⟩)
          (ms6_2 ⟨n, hn⟩) (hs6_2 ⟨n, hn⟩) sc6 hsc6 (iblk6 V c 0 ⟨n, hn⟩) (iblk6 V c 1 ⟨n, hn⟩) (accAt6 V c (n - 1) hn')
          (fun h => h0 ((first6_iff ⟨n, hn⟩).mp h)) ((last6_iff ⟨n, hn⟩).mpr h1)) (ix2 p q)).trans ?_
        exact step6 V c ⟨n, hn⟩ p q (accAt6 V c (n - 1) hn') hprev
      · refine (congrFun (accAt6_mid V c ⟨n, hn⟩ h0 h1) (ix2 p q)).trans ?_
        refine (congrFun (accMidPay6 (F := Ideal) c (grid6.coords ⟨n, hn⟩) (ms6_0 ⟨n, hn⟩) (hs6_0 ⟨n, hn⟩) (ms6_1 ⟨n, hn⟩) (hs6_1 ⟨n, hn⟩)
          (ms6_2 ⟨n, hn⟩) (hs6_2 ⟨n, hn⟩) sc6 hsc6 (iblk6 V c 0 ⟨n, hn⟩) (iblk6 V c 1 ⟨n, hn⟩) (accAt6 V c (n - 1) hn')
          (fun h => h0 ((first6_iff ⟨n, hn⟩).mp h)) (fun h => h1 ((last6_iff ⟨n, hn⟩).mp h))) (ix2 p q)).trans ?_
        exact step6 V c ⟨n, hn⟩ p q (accAt6 V c (n - 1) hn') hprev

/-! ## The output tile, the cover, the array -/

/-- THE PRODUCT of the two arrays as the reference takes it: the host's `dot_general`, contracting A's columns with
    x's rows. -/
abbrev prod6 (c : Dev nD) : Vec Ideal S8192x64 .f32 :=
  Host.dotGeneral (F := Ideal) (φ₁ := .f32) (φ₂ := .f32) Cert.ReferenceIdeal.dot_S8192x8192_S8192x64_S8192x64_1_0_0_1_n_n none (aarr6 V c) (xarr6 V c)

/-- At (r, q) it is the sum over all 8192 columns j of A[r, j] · x[j, q]. -/
theorem prodAt6 (c : Dev nD) (r : Fin 8192) (q : Fin 64) :
    prod6 V c (ix2 r q) = ∑ j : Fin 8192, aarr6 V c (ix2 r j) * xarr6 V c (ix2 j q) :=
  dotGeneral_plain_apply (M := 8192) (K := 8192) (N := 64) none .single (aarr6 V c) (xarr6 V c) r q

/-- What a point leaves for the output tile is the accumulator as it leaves it: a last point of a row copies it. -/
theorem outIsAcc6 (c : Dev nD) (t : Fin cfg6.N) : outAt6 V c t = accAt6 V c t.val t.isLt := by
  unfold outAt6
  split
  · rename_i h
    exact (outLastPay6 (F := Ideal) c (grid6.coords t) (ms6_0 t) (hs6_0 t) (ms6_1 t) (hs6_1 t) (ms6_2 t) (hs6_2 t) sc6 hsc6
        (iblk6 V c 0 t) (iblk6 V c 1 t) (accAt6 V c (t.val - 1) (Nat.lt_of_le_of_lt (Nat.sub_le _ _) t.isLt))
        (fun h' => h.1 ((first6_iff t).mp h')) ((last6_iff t).mpr h.2)).trans
      ((accLastPay6 (F := Ideal) c (grid6.coords t) (ms6_0 t) (hs6_0 t) (ms6_1 t) (hs6_1 t) (ms6_2 t) (hs6_2 t) sc6 hsc6
        (iblk6 V c 0 t) (iblk6 V c 1 t) (accAt6 V c (t.val - 1) (Nat.lt_of_le_of_lt (Nat.sub_le _ _) t.isLt))
        (fun h' => h.1 ((first6_iff t).mp h')) ((last6_iff t).mpr h.2)).symm.trans (accAt6_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile6 (c : Dev nD) (t : Fin cfg6.N) (hf : (cfg6.win 2).flush t = true) :
    (dat6 V c).flushed 2 t = ((cfg6.win 2).blk t).view.read (Elt Ideal) (prod6 V c) := by
  have hN : cfg6.N = 32 := N_6
  have ht := t.isLt
  have h7 : t.val % 8 = 7 := (flush6_2 t).mp hf
  obtain ⟨-, -, -, -, e0, e1⟩ := idx_facts6 t
  show (cfg6.win 2).cut (grid6.coords t) ((dat6 V c).after 2 t) = _
  rw [after6_2, outIsAcc6 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg6.win 2).blk t).view.emb (ix2 p q) = (ix2 (⟨2048 * (t.val / 8) + p.val, hr⟩ : Fin 8192) q : S8192x64.Idx) :=
    funext fun a => Fin.ext (by
      match a with
      | ⟨0, _⟩ => show win6_2.index t (0 : Fin 2) * 2048 + 1 * p.val = 2048 * (t.val / 8) + p.val; rw [e0]; omega
      | ⟨1, _⟩ => show win6_2.index t (1 : Fin 2) * 64 + 1 * q.val = q.val; rw [e1]; omega)
  rw [View.read_apply]
  show accAt6 V c t.val t.isLt (ix2 p q) = prod6 V c (((cfg6.win 2).blk t).view.emb (ix2 p q))
  rw [hemb, prodAt6 V c ⟨2048 * (t.val / 8) + p.val, hr⟩ q, accInv6 V c t.val t.isLt p q,
    ← dotUpTo_all (aarr6 V c) (xarr6 V c) ⟨2048 * (t.val / 8) + p.val, hr⟩ q,
    show 1024 * (t.val % 8) + 1024 = 8192 by omega]

/-- An entry of the output array is in point t's tile iff each coordinate is in the tile's range on its axis. -/
theorem mem_blk6 (t : Fin cfg6.N) (i : S8192x64.Idx) :
    i ∈ ((cfg6.win 2).blk t).view.set
      ↔ ∀ a : Fin 2, win6_2.index t a * S2048x64.size a ≤ (i a).val ∧ (i a).val < win6_2.index t a * S2048x64.size a + S2048x64.size a := by
  show i ∈ ((View.whole (Pipeline.arrRef spec6 2)).slice (win6_2.rect t)).set ↔ _
  rw [View.set_slice_whole, Rect.mem_set_unit]
  exact Iff.rfl

/-- THE COVER: row r of the output array lies in the tile written back at point 8 (r / 2048) + 7, the last of its row
    of tiles. -/
theorem cover6 (i : S8192x64.Idx) :
    ∃ t : Fin cfg6.N, (cfg6.win 2).flush t = true ∧ i ∈ ((cfg6.win 2).blk t).view.set := by
  have hN : cfg6.N = 32 := N_6
  have hi0 : (i 0).val < 8192 := (i 0).isLt
  have hi1 : (i 1).val < 64 := (i 1).isLt
  have hlt : 8 * ((i 0).val / 2048) + 7 < cfg6.N := by omega
  obtain ⟨t, htv⟩ : ∃ t : Fin cfg6.N, t.val = 8 * ((i 0).val / 2048) + 7 := ⟨⟨_, hlt⟩, rfl⟩
  obtain ⟨-, -, -, -, e0, e1⟩ := idx_facts6 t
  refine ⟨t, (flush6_2 t).mpr (by omega), ?_⟩
  rw [mem_blk6]
  intro a
  match a with
  | ⟨0, _⟩ =>
    show win6_2.index t (0 : Fin 2) * 2048 ≤ (i 0).val ∧ (i 0).val < win6_2.index t (0 : Fin 2) * 2048 + 2048
    rw [e0]; omega
  | ⟨1, _⟩ =>
    show win6_2.index t (1 : Fin 2) * 64 ≤ (i 1).val ∧ (i 1).val < win6_2.index t (1 : Fin 2) * 64 + 64
    rw [e1]; omega

/-- THE VALUE OF REGION 0: after the region the output array holds the product of the two input arrays as the
    region found them — every tile written back is a tile of the product, and the written tiles cover the array. -/
theorem mm6 (c : Dev nD) :
    (dat6 (F := Ideal) V c).arrAt 2 cfg6.N
      = Host.dotGeneral (F := Ideal) (φ₁ := .f32) (φ₂ := .f32) Cert.ReferenceIdeal.dot_S8192x8192_S8192x64_S8192x64_1_0_0_1_n_n none
          (V c (Pipeline.arrRef spec6 0)) (V c (Pipeline.arrRef spec6 1)) :=
  (dat6 V c).arrAt_eq_of_cover 2 (prod6 V c) (flushedTile6 V c) (fun i => cover6 i)

end Blocks

end Cert.KernelIdeal.Hand

end
-- ==== Proof.KI.R7Val.lean ====
/-
  Region 7's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv7`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile7`); row r of the result lies in the tile written back at point 8 (r / 2048) + 7 (`cover7`); hence
  the array after the region is that `dot_general` (`mm7`).

  The steps: what each control case's stores read back to, as the body's pure terms (`accFirstPay7`, `accMidPay7`,
  `accLastPay7`, `outLastPay7`); those terms at an entry (`pay1_apply7`, `pay2_apply7`); each tile as entries of
  its array (`idx_facts7`, `ablkAt7`, `xblkAt7`); one point's update (`step7`); the invariant; the output tile, the
  cover, the array.
-/
import proofs.«158997_j77232101916990_1_alg».proof.Proof.KI.R7Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz7 : (![0, 0] : Fin 2 → Nat) = fun _ => 0 := funext fun a => by fin_cases a <;> rfl

section Pieces

variable {F : FTy → Type} [FloatOps F]
variable (c : Dev nD) (i : grid7.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay7 (hc0 : first7 i) (hc1 : ¬ last7 i) :
    accFirst7 c i arg2 harg2 arg3 harg3 arg4 harg4 arg5 harg5 x0 x1 hc0 hc1 = k7_pay2 x0 x1 (k7_pay1 (F := F)) := by
  unfold accFirst7
  rw [View.read_writes_eq_canon _ _ _ (coverFirst7 c i arg2 harg2 arg3 harg3 arg4 harg4 arg5 harg5 x0 x1 hc0 hc1)]
  unfold runFirst7
  dsimp only
  sl_unfold_words
  rw [View.canon_cons_unit_zero (S := S2048x64) hz7]
  simp only [View.readAt_eq_ld, harg2.read_unread, harg3.read_unread, View.readCov_unit_zero (S := S2048x64) _ hz7,
    View.ld_unit_zero (S := S2048x1024) hz7, View.ld_unit_zero (S := S1024x64) hz7, View.ld_unit_zero (S := S2048x64) hz7]

/-- A middle point leaves the tile update of what it found. -/
theorem accMidPay7 (hc0 : ¬ first7 i) (hc1 : ¬ last7 i) :
    accMid7 c i arg2 harg2 arg3 harg3 arg4 harg4 arg5 harg5 x0 x1 s hc0 hc1 = k7_pay2 x0 x1 s := by
  unfold accMid7
  rw [View.read_writes_eq_canon _ _ _ (coverMid7 c i arg2 harg2 arg3 harg3 arg4 harg4 arg5 harg5 x0 x1 s hc0 hc1)]
  unfold runMid7
  dsimp only
  sl_unfold_words
  rw [View.canon_unit_zero hz7]
  simp only [View.readAt_eq_ld, harg2.read_unread, harg3.read_unread, harg5.read_unread,
    View.ld_unit_zero (S := S2048x1024) hz7, View.ld_unit_zero (S := S1024x64) hz7, View.ld_unit_zero (S := S2048x64) hz7]

/-- A last point leaves the same in the accumulator, -/
theorem accLastPay7 (hc0 : ¬ first7 i) (hc1 : last7 i) :
    accLast7 c i arg2 harg2 arg3 harg3 arg4 harg4 arg5 harg5 x0 x1 s hc0 hc1 = k7_pay2 x0 x1 s := by
  unfold accLast7
  rw [View.read_writes_eq_canon _ _ _ (coverLastAcc7 c i arg2 harg2 arg3 harg3 arg4 harg4 arg5 harg5 x0 x1 s hc0 hc1)]
  unfold runLast7
  dsimp only
  sl_unfold_words
  rw [View.canon_unit_zero hz7]
  simp only [View.readAt_eq_ld, harg2.read_unread, harg3.read_unread, harg5.read_unread,
    View.ld_unit_zero (S := S2048x1024) hz7, View.ld_unit_zero (S := S1024x64) hz7, View.ld_unit_zero (S := S2048x64) hz7]

/-- and copies it into the output tile: the copy's load reads the update's store back. -/
theorem outLastPay7 (hc0 : ¬ first7 i) (hc1 : last7 i) :
    outLast7 c i arg2 harg2 arg3 harg3 arg4 harg4 arg5 harg5 x0 x1 s hc0 hc1 = k7_pay2 x0 x1 s := by
  unfold outLast7
  rw [View.read_writes_eq_canon _ _ _ (coverLastOut7 c i arg2 harg2 arg3 harg3 arg4 harg4 arg5 harg5 x0 x1 s hc0 hc1)]
  unfold runLast7
  dsimp only
  sl_unfold_words
  rw [View.canon_unit_zero hz7]
  simp only [View.readAt_eq_ld, harg2.read_unread, harg3.read_unread, harg5.read_unread, View.readCov_unit_zero (S := S2048x64) _ hz7,
    View.ld_unit_zero (S := S2048x1024) hz7, View.ld_unit_zero (S := S1024x64) hz7, View.ld_unit_zero (S := S2048x64) hz7]

end Pieces

/-! ## The two bodies at an entry, at the ideal values -/

/-- The reset's block is zero everywhere. -/
theorem pay1_apply7 (j : S2048x64.Idx) : k7_pay1 (F := Ideal) j = 0 := by
  unfold k7_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply7 (x0 : Vec Ideal S2048x1024 .f32) (x1 : Vec Ideal S1024x64 .f32) (s : Vec Ideal S2048x64 .f32)
    (p : Fin 2048) (q : Fin 64) :
    k7_pay2 (F := Ideal) x0 x1 s (ix2 p q) = s (ix2 p q) + ∑ c : Fin 1024, x0 (ix2 p c) * x1 (ix2 c q) := by
  unfold k7_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr7 (c : Dev nD) : Vec Ideal S8192x8192 .f32 := V c (Pipeline.arrRef spec7 0)
abbrev xarr7 (c : Dev nD) : Vec Ideal S8192x64 .f32 := V c (Pipeline.arrRef spec7 1)
abbrev ablk7 (c : Dev nD) (t : Fin cfg7.N) : Vec Ideal S2048x1024 .f32 := iblk7 V c 0 t
abbrev xblk7 (c : Dev nD) (t : Fin cfg7.N) : Vec Ideal S1024x64 .f32 := iblk7 V c 1 t

/-- The printed index maps over the grid: point t = 8 i + k reads tile (i, k) of A and tile (k, 0) of x, and its
    output tile is (i, 0). -/
theorem idx_facts7 : ∀ t : Fin cfg7.N, win7_0.index t (0 : Fin 2) = t.val / 8 ∧ win7_0.index t (1 : Fin 2) = t.val % 8
    ∧ win7_1.index t (0 : Fin 2) = t.val % 8 ∧ win7_1.index t (1 : Fin 2) = 0
    ∧ win7_2.index t (0 : Fin 2) = t.val / 8 ∧ win7_2.index t (1 : Fin 2) = 0 :=
  (by decide +kernel : ∀ t : Fin grid7.N, _)

/-- Entry (p, k) of A's tile at point t is A[2048 (t / 8) + p, 1024 (t % 8) + k]. -/
theorem ablkAt7 (c : Dev nD) (t : Fin cfg7.N) (p : Fin 2048) (k : Fin 1024) :
    ablk7 V c t (ix2 p k) = ent (m := 8192) (n := 8192) (aarr7 V c) (2048 * (t.val / 8) + p.val) (1024 * (t.val % 8) + k.val) := by
  have hN : cfg7.N = 32 := N_7
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts7 t
  unfold ablk7 iblk7
  rw [View.read_apply]
  show aarr7 V c _ = aarr7 V c _
  refine congrArg (aarr7 V c) (funext fun a => Fin.ext ?_)
  match a with
  | ⟨0, _⟩ => show win7_0.index t (0 : Fin 2) * 2048 + 1 * p.val = 2048 * (t.val / 8) + p.val; rw [e0]; omega
  | ⟨1, _⟩ => show win7_0.index t (1 : Fin 2) * 1024 + 1 * k.val = 1024 * (t.val % 8) + k.val; rw [e1]; omega

/-- Entry (k, q) of x's tile at point t is x[1024 (t % 8) + k, q]. -/
theorem xblkAt7 (c : Dev nD) (t : Fin cfg7.N) (k : Fin 1024) (q : Fin 64) :
    xblk7 V c t (ix2 k q) = ent (m := 8192) (n := 64) (xarr7 V c) (1024 * (t.val % 8) + k.val) q.val := by
  have hN : cfg7.N = 32 := N_7
  have ht := t.isLt
  have hk := k.isLt
  have hj : 1024 * (t.val % 8) + k.val < 8192 := by omega
  rw [ent_of_lt _ _ _ hj q.isLt]
  obtain ⟨-, -, e0, e1, -⟩ := idx_facts7 t
  unfold xblk7 iblk7
  rw [View.read_apply]
  show xarr7 V c _ = xarr7 V c _
  refine congrArg (xarr7 V c) (funext fun a => Fin.ext ?_)
  match a with
  | ⟨0, _⟩ => show win7_1.index t (0 : Fin 2) * 1024 + 1 * k.val = 1024 * (t.val % 8) + k.val; rw [e0]; omega
  | ⟨1, _⟩ => show win7_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step7 (c : Dev nD) (t : Fin cfg7.N) (p : Fin 2048) (q : Fin 64) (s : Vec Ideal S2048x64 .f32)
    (hs : s (ix2 p q) = dotUpTo (m := 8192) (k := 8192) (n := 64) (aarr7 V c) (xarr7 V c) (2048 * (t.val / 8) + p.val) q.val (1024 * (t.val % 8))) :
    k7_pay2 (F := Ideal) (ablk7 V c t) (xblk7 V c t) s (ix2 p q)
      = dotUpTo (m := 8192) (k := 8192) (n := 64) (aarr7 V c) (xarr7 V c) (2048 * (t.val / 8) + p.val) q.val (1024 * (t.val % 8) + 1024) :=
  (pay2_apply7 (ablk7 V c t) (xblk7 V c t) s p q).trans
    (acc_step (m := 8192) (k := 8192) (n := 64) (aarr7 V c) (xarr7 V c) (M := 2048) (K := 1024) (N := 64)
      (ablk7 V c t) (xblk7 V c t) (2048 * (t.val / 8)) (1024 * (t.val % 8))
      (fun p' c' => ablkAt7 V c t p' c') (fun c' q' => xblkAt7 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv7 (c : Dev nD) (n : ℕ) : ∀ (hn : n < cfg7.N) (p : Fin 2048) (q : Fin 64),
    accAt7 V c n hn (ix2 p q)
      = dotUpTo (m := 8192) (k := 8192) (n := 64) (aarr7 V c) (xarr7 V c) (2048 * (n / 8) + p.val) q.val (1024 * (n % 8) + 1024) := by
  induction n using Nat.strong_induction_on with
  | _ n ih =>
    intro hn p q
    have hN : cfg7.N = 32 := N_7
    by_cases h0 : n % 8 = 0
    · refine (congrFun (accAt7_first V c ⟨n, hn⟩ h0) (ix2 p q)).trans ?_
      refine (congrFun (accFirstPay7 (F := Ideal) c (grid7.coords ⟨n, hn⟩) (ms7_0 ⟨n, hn⟩) (hs7_0 ⟨n, hn⟩) (ms7_1 ⟨n, hn⟩) (hs7_1 ⟨n, hn⟩)
        (ms7_2 ⟨n, hn⟩) (hs7_2 ⟨n, hn⟩) sc7 hsc7 (iblk7 V c 0 ⟨n, hn⟩) (iblk7 V c 1 ⟨n, hn⟩)
        ((first7_iff ⟨n, hn⟩).mpr h0) (fun h => not_last_of_first7 h0 ((last7_iff ⟨n, hn⟩).mp h))) (ix2 p q)).trans ?_
      exact step7 V c ⟨n, hn⟩ p q (k7_pay1 (F := Ideal)) (by show _ = dotUpTo _ _ _ _ (1024 * (n % 8)); rw [h0, Nat.mul_zero, dotUpTo_zero]; exact pay1_apply7 (ix2 p q))
    · have hn' : n - 1 < cfg7.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt7_last V c ⟨n, hn⟩ h0 h1) (ix2 p q)).trans ?_
        refine (congrFun (accLastPay7 (F := Ideal) c (grid7.coords ⟨n, hn⟩) (ms7_0 ⟨n, hn⟩) (hs7_0 ⟨n, hn⟩) (ms7_1 ⟨n, hn⟩) (hs7_1 ⟨n, hn⟩)
          (ms7_2 ⟨n, hn⟩) (hs7_2 ⟨n, hn⟩) sc7 hsc7 (iblk7 V c 0 ⟨n, hn⟩) (iblk7 V c 1 ⟨n, hn⟩) (accAt7 V c (n - 1) hn')
          (fun h => h0 ((first7_iff ⟨n, hn⟩).mp h)) ((last7_iff ⟨n, hn⟩).mpr h1)) (ix2 p q)).trans ?_
        exact step7 V c ⟨n, hn⟩ p q (accAt7 V c (n - 1) hn') hprev
      · refine (congrFun (accAt7_mid V c ⟨n, hn⟩ h0 h1) (ix2 p q)).trans ?_
        refine (congrFun (accMidPay7 (F := Ideal) c (grid7.coords ⟨n, hn⟩) (ms7_0 ⟨n, hn⟩) (hs7_0 ⟨n, hn⟩) (ms7_1 ⟨n, hn⟩) (hs7_1 ⟨n, hn⟩)
          (ms7_2 ⟨n, hn⟩) (hs7_2 ⟨n, hn⟩) sc7 hsc7 (iblk7 V c 0 ⟨n, hn⟩) (iblk7 V c 1 ⟨n, hn⟩) (accAt7 V c (n - 1) hn')
          (fun h => h0 ((first7_iff ⟨n, hn⟩).mp h)) (fun h => h1 ((last7_iff ⟨n, hn⟩).mp h))) (ix2 p q)).trans ?_
        exact step7 V c ⟨n, hn⟩ p q (accAt7 V c (n - 1) hn') hprev

/-! ## The output tile, the cover, the array -/

/-- THE PRODUCT of the two arrays as the reference takes it: the host's `dot_general`, contracting A's columns with
    x's rows. -/
abbrev prod7 (c : Dev nD) : Vec Ideal S8192x64 .f32 :=
  Host.dotGeneral (F := Ideal) (φ₁ := .f32) (φ₂ := .f32) Cert.ReferenceIdeal.dot_S8192x8192_S8192x64_S8192x64_1_0_0_1_n_n none (aarr7 V c) (xarr7 V c)

/-- At (r, q) it is the sum over all 8192 columns j of A[r, j] · x[j, q]. -/
theorem prodAt7 (c : Dev nD) (r : Fin 8192) (q : Fin 64) :
    prod7 V c (ix2 r q) = ∑ j : Fin 8192, aarr7 V c (ix2 r j) * xarr7 V c (ix2 j q) :=
  dotGeneral_plain_apply (M := 8192) (K := 8192) (N := 64) none .single (aarr7 V c) (xarr7 V c) r q

/-- What a point leaves for the output tile is the accumulator as it leaves it: a last point of a row copies it. -/
theorem outIsAcc7 (c : Dev nD) (t : Fin cfg7.N) : outAt7 V c t = accAt7 V c t.val t.isLt := by
  unfold outAt7
  split
  · rename_i h
    exact (outLastPay7 (F := Ideal) c (grid7.coords t) (ms7_0 t) (hs7_0 t) (ms7_1 t) (hs7_1 t) (ms7_2 t) (hs7_2 t) sc7 hsc7
        (iblk7 V c 0 t) (iblk7 V c 1 t) (accAt7 V c (t.val - 1) (Nat.lt_of_le_of_lt (Nat.sub_le _ _) t.isLt))
        (fun h' => h.1 ((first7_iff t).mp h')) ((last7_iff t).mpr h.2)).trans
      ((accLastPay7 (F := Ideal) c (grid7.coords t) (ms7_0 t) (hs7_0 t) (ms7_1 t) (hs7_1 t) (ms7_2 t) (hs7_2 t) sc7 hsc7
        (iblk7 V c 0 t) (iblk7 V c 1 t) (accAt7 V c (t.val - 1) (Nat.lt_of_le_of_lt (Nat.sub_le _ _) t.isLt))
        (fun h' => h.1 ((first7_iff t).mp h')) ((last7_iff t).mpr h.2)).symm.trans (accAt7_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile7 (c : Dev nD) (t : Fin cfg7.N) (hf : (cfg7.win 2).flush t = true) :
    (dat7 V c).flushed 2 t = ((cfg7.win 2).blk t).view.read (Elt Ideal) (prod7 V c) := by
  have hN : cfg7.N = 32 := N_7
  have ht := t.isLt
  have h7 : t.val % 8 = 7 := (flush7_2 t).mp hf
  obtain ⟨-, -, -, -, e0, e1⟩ := idx_facts7 t
  show (cfg7.win 2).cut (grid7.coords t) ((dat7 V c).after 2 t) = _
  rw [after7_2, outIsAcc7 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg7.win 2).blk t).view.emb (ix2 p q) = (ix2 (⟨2048 * (t.val / 8) + p.val, hr⟩ : Fin 8192) q : S8192x64.Idx) :=
    funext fun a => Fin.ext (by
      match a with
      | ⟨0, _⟩ => show win7_2.index t (0 : Fin 2) * 2048 + 1 * p.val = 2048 * (t.val / 8) + p.val; rw [e0]; omega
      | ⟨1, _⟩ => show win7_2.index t (1 : Fin 2) * 64 + 1 * q.val = q.val; rw [e1]; omega)
  rw [View.read_apply]
  show accAt7 V c t.val t.isLt (ix2 p q) = prod7 V c (((cfg7.win 2).blk t).view.emb (ix2 p q))
  rw [hemb, prodAt7 V c ⟨2048 * (t.val / 8) + p.val, hr⟩ q, accInv7 V c t.val t.isLt p q,
    ← dotUpTo_all (aarr7 V c) (xarr7 V c) ⟨2048 * (t.val / 8) + p.val, hr⟩ q,
    show 1024 * (t.val % 8) + 1024 = 8192 by omega]

/-- An entry of the output array is in point t's tile iff each coordinate is in the tile's range on its axis. -/
theorem mem_blk7 (t : Fin cfg7.N) (i : S8192x64.Idx) :
    i ∈ ((cfg7.win 2).blk t).view.set
      ↔ ∀ a : Fin 2, win7_2.index t a * S2048x64.size a ≤ (i a).val ∧ (i a).val < win7_2.index t a * S2048x64.size a + S2048x64.size a := by
  show i ∈ ((View.whole (Pipeline.arrRef spec7 2)).slice (win7_2.rect t)).set ↔ _
  rw [View.set_slice_whole, Rect.mem_set_unit]
  exact Iff.rfl

/-- THE COVER: row r of the output array lies in the tile written back at point 8 (r / 2048) + 7, the last of its row
    of tiles. -/
theorem cover7 (i : S8192x64.Idx) :
    ∃ t : Fin cfg7.N, (cfg7.win 2).flush t = true ∧ i ∈ ((cfg7.win 2).blk t).view.set := by
  have hN : cfg7.N = 32 := N_7
  have hi0 : (i 0).val < 8192 := (i 0).isLt
  have hi1 : (i 1).val < 64 := (i 1).isLt
  have hlt : 8 * ((i 0).val / 2048) + 7 < cfg7.N := by omega
  obtain ⟨t, htv⟩ : ∃ t : Fin cfg7.N, t.val = 8 * ((i 0).val / 2048) + 7 := ⟨⟨_, hlt⟩, rfl⟩
  obtain ⟨-, -, -, -, e0, e1⟩ := idx_facts7 t
  refine ⟨t, (flush7_2 t).mpr (by omega), ?_⟩
  rw [mem_blk7]
  intro a
  match a with
  | ⟨0, _⟩ =>
    show win7_2.index t (0 : Fin 2) * 2048 ≤ (i 0).val ∧ (i 0).val < win7_2.index t (0 : Fin 2) * 2048 + 2048
    rw [e0]; omega
  | ⟨1, _⟩ =>
    show win7_2.index t (1 : Fin 2) * 64 ≤ (i 1).val ∧ (i 1).val < win7_2.index t (1 : Fin 2) * 64 + 64
    rw [e1]; omega

/-- THE VALUE OF REGION 0: after the region the output array holds the product of the two input arrays as the
    region found them — every tile written back is a tile of the product, and the written tiles cover the array. -/
theorem mm7 (c : Dev nD) :
    (dat7 (F := Ideal) V c).arrAt 2 cfg7.N
      = Host.dotGeneral (F := Ideal) (φ₁ := .f32) (φ₂ := .f32) Cert.ReferenceIdeal.dot_S8192x8192_S8192x64_S8192x64_1_0_0_1_n_n none
          (V c (Pipeline.arrRef spec7 0)) (V c (Pipeline.arrRef spec7 1)) :=
  (dat7 V c).arrAt_eq_of_cover 2 (prod7 V c) (flushedTile7 V c) (fun i => cover7 i)

end Blocks

end Cert.KernelIdeal.Hand

end
-- ==== Proof.KI.R8Val.lean ====
/-
  Region 8's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv8`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile8`); row r of the result lies in the tile written back at point 8 (r / 2048) + 7 (`cover8`); hence
  the array after the region is that `dot_general` (`mm8`).

  The steps: what each control case's stores read back to, as the body's pure terms (`accFirstPay8`, `accMidPay8`,
  `accLastPay8`, `outLastPay8`); those terms at an entry (`pay1_apply8`, `pay2_apply8`); each tile as entries of
  its array (`idx_facts8`, `ablkAt8`, `xblkAt8`); one point's update (`step8`); the invariant; the output tile, the
  cover, the array.
-/
import proofs.«158997_j77232101916990_1_alg».proof.Proof.KI.R8Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz8 : (![0, 0] : Fin 2 → Nat) = fun _ => 0 := funext fun a => by fin_cases a <;> rfl

section Pieces

variable {F : FTy → Type} [FloatOps F]
variable (c : Dev nD) (i : grid8.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay8 (hc0 : first8 i) (hc1 : ¬ last8 i) :
    accFirst8 c i arg2 harg2 arg3 harg3 arg4 harg4 arg5 harg5 x0 x1 hc0 hc1 = k8_pay2 x0 x1 (k8_pay1 (F := F)) := by
  unfold accFirst8
  rw [View.read_writes_eq_canon _ _ _ (coverFirst8 c i arg2 harg2 arg3 harg3 arg4 harg4 arg5 harg5 x0 x1 hc0 hc1)]
  unfold runFirst8
  dsimp only
  sl_unfold_words
  rw [View.canon_cons_unit_zero (S := S2048x64) hz8]
  simp only [View.readAt_eq_ld, harg2.read_unread, harg3.read_unread, View.readCov_unit_zero (S := S2048x64) _ hz8,
    View.ld_unit_zero (S := S2048x1024) hz8, View.ld_unit_zero (S := S1024x64) hz8, View.ld_unit_zero (S := S2048x64) hz8]

/-- A middle point leaves the tile update of what it found. -/
theorem accMidPay8 (hc0 : ¬ first8 i) (hc1 : ¬ last8 i) :
    accMid8 c i arg2 harg2 arg3 harg3 arg4 harg4 arg5 harg5 x0 x1 s hc0 hc1 = k8_pay2 x0 x1 s := by
  unfold accMid8
  rw [View.read_writes_eq_canon _ _ _ (coverMid8 c i arg2 harg2 arg3 harg3 arg4 harg4 arg5 harg5 x0 x1 s hc0 hc1)]
  unfold runMid8
  dsimp only
  sl_unfold_words
  rw [View.canon_unit_zero hz8]
  simp only [View.readAt_eq_ld, harg2.read_unread, harg3.read_unread, harg5.read_unread,
    View.ld_unit_zero (S := S2048x1024) hz8, View.ld_unit_zero (S := S1024x64) hz8, View.ld_unit_zero (S := S2048x64) hz8]

/-- A last point leaves the same in the accumulator, -/
theorem accLastPay8 (hc0 : ¬ first8 i) (hc1 : last8 i) :
    accLast8 c i arg2 harg2 arg3 harg3 arg4 harg4 arg5 harg5 x0 x1 s hc0 hc1 = k8_pay2 x0 x1 s := by
  unfold accLast8
  rw [View.read_writes_eq_canon _ _ _ (coverLastAcc8 c i arg2 harg2 arg3 harg3 arg4 harg4 arg5 harg5 x0 x1 s hc0 hc1)]
  unfold runLast8
  dsimp only
  sl_unfold_words
  rw [View.canon_unit_zero hz8]
  simp only [View.readAt_eq_ld, harg2.read_unread, harg3.read_unread, harg5.read_unread,
    View.ld_unit_zero (S := S2048x1024) hz8, View.ld_unit_zero (S := S1024x64) hz8, View.ld_unit_zero (S := S2048x64) hz8]

/-- and copies it into the output tile: the copy's load reads the update's store back. -/
theorem outLastPay8 (hc0 : ¬ first8 i) (hc1 : last8 i) :
    outLast8 c i arg2 harg2 arg3 harg3 arg4 harg4 arg5 harg5 x0 x1 s hc0 hc1 = k8_pay2 x0 x1 s := by
  unfold outLast8
  rw [View.read_writes_eq_canon _ _ _ (coverLastOut8 c i arg2 harg2 arg3 harg3 arg4 harg4 arg5 harg5 x0 x1 s hc0 hc1)]
  unfold runLast8
  dsimp only
  sl_unfold_words
  rw [View.canon_unit_zero hz8]
  simp only [View.readAt_eq_ld, harg2.read_unread, harg3.read_unread, harg5.read_unread, View.readCov_unit_zero (S := S2048x64) _ hz8,
    View.ld_unit_zero (S := S2048x1024) hz8, View.ld_unit_zero (S := S1024x64) hz8, View.ld_unit_zero (S := S2048x64) hz8]

end Pieces

/-! ## The two bodies at an entry, at the ideal values -/

/-- The reset's block is zero everywhere. -/
theorem pay1_apply8 (j : S2048x64.Idx) : k8_pay1 (F := Ideal) j = 0 := by
  unfold k8_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply8 (x0 : Vec Ideal S2048x1024 .f32) (x1 : Vec Ideal S1024x64 .f32) (s : Vec Ideal S2048x64 .f32)
    (p : Fin 2048) (q : Fin 64) :
    k8_pay2 (F := Ideal) x0 x1 s (ix2 p q) = s (ix2 p q) + ∑ c : Fin 1024, x0 (ix2 p c) * x1 (ix2 c q) := by
  unfold k8_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr8 (c : Dev nD) : Vec Ideal S8192x8192 .f32 := V c (Pipeline.arrRef spec8 0)
abbrev xarr8 (c : Dev nD) : Vec Ideal S8192x64 .f32 := V c (Pipeline.arrRef spec8 1)
abbrev ablk8 (c : Dev nD) (t : Fin cfg8.N) : Vec Ideal S2048x1024 .f32 := iblk8 V c 0 t
abbrev xblk8 (c : Dev nD) (t : Fin cfg8.N) : Vec Ideal S1024x64 .f32 := iblk8 V c 1 t

/-- The printed index maps over the grid: point t = 8 i + k reads tile (i, k) of A and tile (k, 0) of x, and its
    output tile is (i, 0). -/
theorem idx_facts8 : ∀ t : Fin cfg8.N, win8_0.index t (0 : Fin 2) = t.val / 8 ∧ win8_0.index t (1 : Fin 2) = t.val % 8
    ∧ win8_1.index t (0 : Fin 2) = t.val % 8 ∧ win8_1.index t (1 : Fin 2) = 0
    ∧ win8_2.index t (0 : Fin 2) = t.val / 8 ∧ win8_2.index t (1 : Fin 2) = 0 :=
  (by decide +kernel : ∀ t : Fin grid8.N, _)

/-- Entry (p, k) of A's tile at point t is A[2048 (t / 8) + p, 1024 (t % 8) + k]. -/
theorem ablkAt8 (c : Dev nD) (t : Fin cfg8.N) (p : Fin 2048) (k : Fin 1024) :
    ablk8 V c t (ix2 p k) = ent (m := 8192) (n := 8192) (aarr8 V c) (2048 * (t.val / 8) + p.val) (1024 * (t.val % 8) + k.val) := by
  have hN : cfg8.N = 32 := N_8
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts8 t
  unfold ablk8 iblk8
  rw [View.read_apply]
  show aarr8 V c _ = aarr8 V c _
  refine congrArg (aarr8 V c) (funext fun a => Fin.ext ?_)
  match a with
  | ⟨0, _⟩ => show win8_0.index t (0 : Fin 2) * 2048 + 1 * p.val = 2048 * (t.val / 8) + p.val; rw [e0]; omega
  | ⟨1, _⟩ => show win8_0.index t (1 : Fin 2) * 1024 + 1 * k.val = 1024 * (t.val % 8) + k.val; rw [e1]; omega

/-- Entry (k, q) of x's tile at point t is x[1024 (t % 8) + k, q]. -/
theorem xblkAt8 (c : Dev nD) (t : Fin cfg8.N) (k : Fin 1024) (q : Fin 64) :
    xblk8 V c t (ix2 k q) = ent (m := 8192) (n := 64) (xarr8 V c) (1024 * (t.val % 8) + k.val) q.val := by
  have hN : cfg8.N = 32 := N_8
  have ht := t.isLt
  have hk := k.isLt
  have hj : 1024 * (t.val % 8) + k.val < 8192 := by omega
  rw [ent_of_lt _ _ _ hj q.isLt]
  obtain ⟨-, -, e0, e1, -⟩ := idx_facts8 t
  unfold xblk8 iblk8
  rw [View.read_apply]
  show xarr8 V c _ = xarr8 V c _
  refine congrArg (xarr8 V c) (funext fun a => Fin.ext ?_)
  match a with
  | ⟨0, _⟩ => show win8_1.index t (0 : Fin 2) * 1024 + 1 * k.val = 1024 * (t.val % 8) + k.val; rw [e0]; omega
  | ⟨1, _⟩ => show win8_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step8 (c : Dev nD) (t : Fin cfg8.N) (p : Fin 2048) (q : Fin 64) (s : Vec Ideal S2048x64 .f32)
    (hs : s (ix2 p q) = dotUpTo (m := 8192) (k := 8192) (n := 64) (aarr8 V c) (xarr8 V c) (2048 * (t.val / 8) + p.val) q.val (1024 * (t.val % 8))) :
    k8_pay2 (F := Ideal) (ablk8 V c t) (xblk8 V c t) s (ix2 p q)
      = dotUpTo (m := 8192) (k := 8192) (n := 64) (aarr8 V c) (xarr8 V c) (2048 * (t.val / 8) + p.val) q.val (1024 * (t.val % 8) + 1024) :=
  (pay2_apply8 (ablk8 V c t) (xblk8 V c t) s p q).trans
    (acc_step (m := 8192) (k := 8192) (n := 64) (aarr8 V c) (xarr8 V c) (M := 2048) (K := 1024) (N := 64)
      (ablk8 V c t) (xblk8 V c t) (2048 * (t.val / 8)) (1024 * (t.val % 8))
      (fun p' c' => ablkAt8 V c t p' c') (fun c' q' => xblkAt8 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv8 (c : Dev nD) (n : ℕ) : ∀ (hn : n < cfg8.N) (p : Fin 2048) (q : Fin 64),
    accAt8 V c n hn (ix2 p q)
      = dotUpTo (m := 8192) (k := 8192) (n := 64) (aarr8 V c) (xarr8 V c) (2048 * (n / 8) + p.val) q.val (1024 * (n % 8) + 1024) := by
  induction n using Nat.strong_induction_on with
  | _ n ih =>
    intro hn p q
    have hN : cfg8.N = 32 := N_8
    by_cases h0 : n % 8 = 0
    · refine (congrFun (accAt8_first V c ⟨n, hn⟩ h0) (ix2 p q)).trans ?_
      refine (congrFun (accFirstPay8 (F := Ideal) c (grid8.coords ⟨n, hn⟩) (ms8_0 ⟨n, hn⟩) (hs8_0 ⟨n, hn⟩) (ms8_1 ⟨n, hn⟩) (hs8_1 ⟨n, hn⟩)
        (ms8_2 ⟨n, hn⟩) (hs8_2 ⟨n, hn⟩) sc8 hsc8 (iblk8 V c 0 ⟨n, hn⟩) (iblk8 V c 1 ⟨n, hn⟩)
        ((first8_iff ⟨n, hn⟩).mpr h0) (fun h => not_last_of_first8 h0 ((last8_iff ⟨n, hn⟩).mp h))) (ix2 p q)).trans ?_
      exact step8 V c ⟨n, hn⟩ p q (k8_pay1 (F := Ideal)) (by show _ = dotUpTo _ _ _ _ (1024 * (n % 8)); rw [h0, Nat.mul_zero, dotUpTo_zero]; exact pay1_apply8 (ix2 p q))
    · have hn' : n - 1 < cfg8.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt8_last V c ⟨n, hn⟩ h0 h1) (ix2 p q)).trans ?_
        refine (congrFun (accLastPay8 (F := Ideal) c (grid8.coords ⟨n, hn⟩) (ms8_0 ⟨n, hn⟩) (hs8_0 ⟨n, hn⟩) (ms8_1 ⟨n, hn⟩) (hs8_1 ⟨n, hn⟩)
          (ms8_2 ⟨n, hn⟩) (hs8_2 ⟨n, hn⟩) sc8 hsc8 (iblk8 V c 0 ⟨n, hn⟩) (iblk8 V c 1 ⟨n, hn⟩) (accAt8 V c (n - 1) hn')
          (fun h => h0 ((first8_iff ⟨n, hn⟩).mp h)) ((last8_iff ⟨n, hn⟩).mpr h1)) (ix2 p q)).trans ?_
        exact step8 V c ⟨n, hn⟩ p q (accAt8 V c (n - 1) hn') hprev
      · refine (congrFun (accAt8_mid V c ⟨n, hn⟩ h0 h1) (ix2 p q)).trans ?_
        refine (congrFun (accMidPay8 (F := Ideal) c (grid8.coords ⟨n, hn⟩) (ms8_0 ⟨n, hn⟩) (hs8_0 ⟨n, hn⟩) (ms8_1 ⟨n, hn⟩) (hs8_1 ⟨n, hn⟩)
          (ms8_2 ⟨n, hn⟩) (hs8_2 ⟨n, hn⟩) sc8 hsc8 (iblk8 V c 0 ⟨n, hn⟩) (iblk8 V c 1 ⟨n, hn⟩) (accAt8 V c (n - 1) hn')
          (fun h => h0 ((first8_iff ⟨n, hn⟩).mp h)) (fun h => h1 ((last8_iff ⟨n, hn⟩).mp h))) (ix2 p q)).trans ?_
        exact step8 V c ⟨n, hn⟩ p q (accAt8 V c (n - 1) hn') hprev

/-! ## The output tile, the cover, the array -/

/-- THE PRODUCT of the two arrays as the reference takes it: the host's `dot_general`, contracting A's columns with
    x's rows. -/
abbrev prod8 (c : Dev nD) : Vec Ideal S8192x64 .f32 :=
  Host.dotGeneral (F := Ideal) (φ₁ := .f32) (φ₂ := .f32) Cert.ReferenceIdeal.dot_S8192x8192_S8192x64_S8192x64_1_0_0_1_n_n none (aarr8 V c) (xarr8 V c)

/-- At (r, q) it is the sum over all 8192 columns j of A[r, j] · x[j, q]. -/
theorem prodAt8 (c : Dev nD) (r : Fin 8192) (q : Fin 64) :
    prod8 V c (ix2 r q) = ∑ j : Fin 8192, aarr8 V c (ix2 r j) * xarr8 V c (ix2 j q) :=
  dotGeneral_plain_apply (M := 8192) (K := 8192) (N := 64) none .single (aarr8 V c) (xarr8 V c) r q

/-- What a point leaves for the output tile is the accumulator as it leaves it: a last point of a row copies it. -/
theorem outIsAcc8 (c : Dev nD) (t : Fin cfg8.N) : outAt8 V c t = accAt8 V c t.val t.isLt := by
  unfold outAt8
  split
  · rename_i h
    exact (outLastPay8 (F := Ideal) c (grid8.coords t) (ms8_0 t) (hs8_0 t) (ms8_1 t) (hs8_1 t) (ms8_2 t) (hs8_2 t) sc8 hsc8
        (iblk8 V c 0 t) (iblk8 V c 1 t) (accAt8 V c (t.val - 1) (Nat.lt_of_le_of_lt (Nat.sub_le _ _) t.isLt))
        (fun h' => h.1 ((first8_iff t).mp h')) ((last8_iff t).mpr h.2)).trans
      ((accLastPay8 (F := Ideal) c (grid8.coords t) (ms8_0 t) (hs8_0 t) (ms8_1 t) (hs8_1 t) (ms8_2 t) (hs8_2 t) sc8 hsc8
        (iblk8 V c 0 t) (iblk8 V c 1 t) (accAt8 V c (t.val - 1) (Nat.lt_of_le_of_lt (Nat.sub_le _ _) t.isLt))
        (fun h' => h.1 ((first8_iff t).mp h')) ((last8_iff t).mpr h.2)).symm.trans (accAt8_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile8 (c : Dev nD) (t : Fin cfg8.N) (hf : (cfg8.win 2).flush t = true) :
    (dat8 V c).flushed 2 t = ((cfg8.win 2).blk t).view.read (Elt Ideal) (prod8 V c) := by
  have hN : cfg8.N = 32 := N_8
  have ht := t.isLt
  have h7 : t.val % 8 = 7 := (flush8_2 t).mp hf
  obtain ⟨-, -, -, -, e0, e1⟩ := idx_facts8 t
  show (cfg8.win 2).cut (grid8.coords t) ((dat8 V c).after 2 t) = _
  rw [after8_2, outIsAcc8 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg8.win 2).blk t).view.emb (ix2 p q) = (ix2 (⟨2048 * (t.val / 8) + p.val, hr⟩ : Fin 8192) q : S8192x64.Idx) :=
    funext fun a => Fin.ext (by
      match a with
      | ⟨0, _⟩ => show win8_2.index t (0 : Fin 2) * 2048 + 1 * p.val = 2048 * (t.val / 8) + p.val; rw [e0]; omega
      | ⟨1, _⟩ => show win8_2.index t (1 : Fin 2) * 64 + 1 * q.val = q.val; rw [e1]; omega)
  rw [View.read_apply]
  show accAt8 V c t.val t.isLt (ix2 p q) = prod8 V c (((cfg8.win 2).blk t).view.emb (ix2 p q))
  rw [hemb, prodAt8 V c ⟨2048 * (t.val / 8) + p.val, hr⟩ q, accInv8 V c t.val t.isLt p q,
    ← dotUpTo_all (aarr8 V c) (xarr8 V c) ⟨2048 * (t.val / 8) + p.val, hr⟩ q,
    show 1024 * (t.val % 8) + 1024 = 8192 by omega]

/-- An entry of the output array is in point t's tile iff each coordinate is in the tile's range on its axis. -/
theorem mem_blk8 (t : Fin cfg8.N) (i : S8192x64.Idx) :
    i ∈ ((cfg8.win 2).blk t).view.set
      ↔ ∀ a : Fin 2, win8_2.index t a * S2048x64.size a ≤ (i a).val ∧ (i a).val < win8_2.index t a * S2048x64.size a + S2048x64.size a := by
  show i ∈ ((View.whole (Pipeline.arrRef spec8 2)).slice (win8_2.rect t)).set ↔ _
  rw [View.set_slice_whole, Rect.mem_set_unit]
  exact Iff.rfl

/-- THE COVER: row r of the output array lies in the tile written back at point 8 (r / 2048) + 7, the last of its row
    of tiles. -/
theorem cover8 (i : S8192x64.Idx) :
    ∃ t : Fin cfg8.N, (cfg8.win 2).flush t = true ∧ i ∈ ((cfg8.win 2).blk t).view.set := by
  have hN : cfg8.N = 32 := N_8
  have hi0 : (i 0).val < 8192 := (i 0).isLt
  have hi1 : (i 1).val < 64 := (i 1).isLt
  have hlt : 8 * ((i 0).val / 2048) + 7 < cfg8.N := by omega
  obtain ⟨t, htv⟩ : ∃ t : Fin cfg8.N, t.val = 8 * ((i 0).val / 2048) + 7 := ⟨⟨_, hlt⟩, rfl⟩
  obtain ⟨-, -, -, -, e0, e1⟩ := idx_facts8 t
  refine ⟨t, (flush8_2 t).mpr (by omega), ?_⟩
  rw [mem_blk8]
  intro a
  match a with
  | ⟨0, _⟩ =>
    show win8_2.index t (0 : Fin 2) * 2048 ≤ (i 0).val ∧ (i 0).val < win8_2.index t (0 : Fin 2) * 2048 + 2048
    rw [e0]; omega
  | ⟨1, _⟩ =>
    show win8_2.index t (1 : Fin 2) * 64 ≤ (i 1).val ∧ (i 1).val < win8_2.index t (1 : Fin 2) * 64 + 64
    rw [e1]; omega

/-- THE VALUE OF REGION 0: after the region the output array holds the product of the two input arrays as the
    region found them — every tile written back is a tile of the product, and the written tiles cover the array. -/
theorem mm8 (c : Dev nD) :
    (dat8 (F := Ideal) V c).arrAt 2 cfg8.N
      = Host.dotGeneral (F := Ideal) (φ₁ := .f32) (φ₂ := .f32) Cert.ReferenceIdeal.dot_S8192x8192_S8192x64_S8192x64_1_0_0_1_n_n none
          (V c (Pipeline.arrRef spec8 0)) (V c (Pipeline.arrRef spec8 1)) :=
  (dat8 V c).arrAt_eq_of_cover 2 (prod8 V c) (flushedTile8 V c) (fun i => cover8 i)

end Blocks

end Cert.KernelIdeal.Hand

end
-- ==== Proof.KI.R9Val.lean ====
/-
  Region 9's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv9`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile9`); row r of the result lies in the tile written back at point 8 (r / 2048) + 7 (`cover9`); hence
  the array after the region is that `dot_general` (`mm9`).

  The steps: what each control case's stores read back to, as the body's pure terms (`accFirstPay9`, `accMidPay9`,
  `accLastPay9`, `outLastPay9`); those terms at an entry (`pay1_apply9`, `pay2_apply9`); each tile as entries of
  its array (`idx_facts9`, `ablkAt9`, `xblkAt9`); one point's update (`step9`); the invariant; the output tile, the
  cover, the array.
-/
import proofs.«158997_j77232101916990_1_alg».proof.Proof.KI.R9Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz9 : (![0, 0] : Fin 2 → Nat) = fun _ => 0 := funext fun a => by fin_cases a <;> rfl

section Pieces

variable {F : FTy → Type} [FloatOps F]
variable (c : Dev nD) (i : grid9.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay9 (hc0 : first9 i) (hc1 : ¬ last9 i) :
    accFirst9 c i arg2 harg2 arg3 harg3 arg4 harg4 arg5 harg5 x0 x1 hc0 hc1 = k9_pay2 x0 x1 (k9_pay1 (F := F)) := by
  unfold accFirst9
  rw [View.read_writes_eq_canon _ _ _ (coverFirst9 c i arg2 harg2 arg3 harg3 arg4 harg4 arg5 harg5 x0 x1 hc0 hc1)]
  unfold runFirst9
  dsimp only
  sl_unfold_words
  rw [View.canon_cons_unit_zero (S := S2048x64) hz9]
  simp only [View.readAt_eq_ld, harg2.read_unread, harg3.read_unread, View.readCov_unit_zero (S := S2048x64) _ hz9,
    View.ld_unit_zero (S := S2048x1024) hz9, View.ld_unit_zero (S := S1024x64) hz9, View.ld_unit_zero (S := S2048x64) hz9]

/-- A middle point leaves the tile update of what it found. -/
theorem accMidPay9 (hc0 : ¬ first9 i) (hc1 : ¬ last9 i) :
    accMid9 c i arg2 harg2 arg3 harg3 arg4 harg4 arg5 harg5 x0 x1 s hc0 hc1 = k9_pay2 x0 x1 s := by
  unfold accMid9
  rw [View.read_writes_eq_canon _ _ _ (coverMid9 c i arg2 harg2 arg3 harg3 arg4 harg4 arg5 harg5 x0 x1 s hc0 hc1)]
  unfold runMid9
  dsimp only
  sl_unfold_words
  rw [View.canon_unit_zero hz9]
  simp only [View.readAt_eq_ld, harg2.read_unread, harg3.read_unread, harg5.read_unread,
    View.ld_unit_zero (S := S2048x1024) hz9, View.ld_unit_zero (S := S1024x64) hz9, View.ld_unit_zero (S := S2048x64) hz9]

/-- A last point leaves the same in the accumulator, -/
theorem accLastPay9 (hc0 : ¬ first9 i) (hc1 : last9 i) :
    accLast9 c i arg2 harg2 arg3 harg3 arg4 harg4 arg5 harg5 x0 x1 s hc0 hc1 = k9_pay2 x0 x1 s := by
  unfold accLast9
  rw [View.read_writes_eq_canon _ _ _ (coverLastAcc9 c i arg2 harg2 arg3 harg3 arg4 harg4 arg5 harg5 x0 x1 s hc0 hc1)]
  unfold runLast9
  dsimp only
  sl_unfold_words
  rw [View.canon_unit_zero hz9]
  simp only [View.readAt_eq_ld, harg2.read_unread, harg3.read_unread, harg5.read_unread,
    View.ld_unit_zero (S := S2048x1024) hz9, View.ld_unit_zero (S := S1024x64) hz9, View.ld_unit_zero (S := S2048x64) hz9]

/-- and copies it into the output tile: the copy's load reads the update's store back. -/
theorem outLastPay9 (hc0 : ¬ first9 i) (hc1 : last9 i) :
    outLast9 c i arg2 harg2 arg3 harg3 arg4 harg4 arg5 harg5 x0 x1 s hc0 hc1 = k9_pay2 x0 x1 s := by
  unfold outLast9
  rw [View.read_writes_eq_canon _ _ _ (coverLastOut9 c i arg2 harg2 arg3 harg3 arg4 harg4 arg5 harg5 x0 x1 s hc0 hc1)]
  unfold runLast9
  dsimp only
  sl_unfold_words
  rw [View.canon_unit_zero hz9]
  simp only [View.readAt_eq_ld, harg2.read_unread, harg3.read_unread, harg5.read_unread, View.readCov_unit_zero (S := S2048x64) _ hz9,
    View.ld_unit_zero (S := S2048x1024) hz9, View.ld_unit_zero (S := S1024x64) hz9, View.ld_unit_zero (S := S2048x64) hz9]

end Pieces

/-! ## The two bodies at an entry, at the ideal values -/

/-- The reset's block is zero everywhere. -/
theorem pay1_apply9 (j : S2048x64.Idx) : k9_pay1 (F := Ideal) j = 0 := by
  unfold k9_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply9 (x0 : Vec Ideal S2048x1024 .f32) (x1 : Vec Ideal S1024x64 .f32) (s : Vec Ideal S2048x64 .f32)
    (p : Fin 2048) (q : Fin 64) :
    k9_pay2 (F := Ideal) x0 x1 s (ix2 p q) = s (ix2 p q) + ∑ c : Fin 1024, x0 (ix2 p c) * x1 (ix2 c q) := by
  unfold k9_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr9 (c : Dev nD) : Vec Ideal S8192x8192 .f32 := V c (Pipeline.arrRef spec9 0)
abbrev xarr9 (c : Dev nD) : Vec Ideal S8192x64 .f32 := V c (Pipeline.arrRef spec9 1)
abbrev ablk9 (c : Dev nD) (t : Fin cfg9.N) : Vec Ideal S2048x1024 .f32 := iblk9 V c 0 t
abbrev xblk9 (c : Dev nD) (t : Fin cfg9.N) : Vec Ideal S1024x64 .f32 := iblk9 V c 1 t

/-- The printed index maps over the grid: point t = 8 i + k reads tile (i, k) of A and tile (k, 0) of x, and its
    output tile is (i, 0). -/
theorem idx_facts9 : ∀ t : Fin cfg9.N, win9_0.index t (0 : Fin 2) = t.val / 8 ∧ win9_0.index t (1 : Fin 2) = t.val % 8
    ∧ win9_1.index t (0 : Fin 2) = t.val % 8 ∧ win9_1.index t (1 : Fin 2) = 0
    ∧ win9_2.index t (0 : Fin 2) = t.val / 8 ∧ win9_2.index t (1 : Fin 2) = 0 :=
  (by decide +kernel : ∀ t : Fin grid9.N, _)

/-- Entry (p, k) of A's tile at point t is A[2048 (t / 8) + p, 1024 (t % 8) + k]. -/
theorem ablkAt9 (c : Dev nD) (t : Fin cfg9.N) (p : Fin 2048) (k : Fin 1024) :
    ablk9 V c t (ix2 p k) = ent (m := 8192) (n := 8192) (aarr9 V c) (2048 * (t.val / 8) + p.val) (1024 * (t.val % 8) + k.val) := by
  have hN : cfg9.N = 32 := N_9
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts9 t
  unfold ablk9 iblk9
  rw [View.read_apply]
  show aarr9 V c _ = aarr9 V c _
  refine congrArg (aarr9 V c) (funext fun a => Fin.ext ?_)
  match a with
  | ⟨0, _⟩ => show win9_0.index t (0 : Fin 2) * 2048 + 1 * p.val = 2048 * (t.val / 8) + p.val; rw [e0]; omega
  | ⟨1, _⟩ => show win9_0.index t (1 : Fin 2) * 1024 + 1 * k.val = 1024 * (t.val % 8) + k.val; rw [e1]; omega

/-- Entry (k, q) of x's tile at point t is x[1024 (t % 8) + k, q]. -/
theorem xblkAt9 (c : Dev nD) (t : Fin cfg9.N) (k : Fin 1024) (q : Fin 64) :
    xblk9 V c t (ix2 k q) = ent (m := 8192) (n := 64) (xarr9 V c) (1024 * (t.val % 8) + k.val) q.val := by
  have hN : cfg9.N = 32 := N_9
  have ht := t.isLt
  have hk := k.isLt
  have hj : 1024 * (t.val % 8) + k.val < 8192 := by omega
  rw [ent_of_lt _ _ _ hj q.isLt]
  obtain ⟨-, -, e0, e1, -⟩ := idx_facts9 t
  unfold xblk9 iblk9
  rw [View.read_apply]
  show xarr9 V c _ = xarr9 V c _
  refine congrArg (xarr9 V c) (funext fun a => Fin.ext ?_)
  match a with
  | ⟨0, _⟩ => show win9_1.index t (0 : Fin 2) * 1024 + 1 * k.val = 1024 * (t.val % 8) + k.val; rw [e0]; omega
  | ⟨1, _⟩ => show win9_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step9 (c : Dev nD) (t : Fin cfg9.N) (p : Fin 2048) (q : Fin 64) (s : Vec Ideal S2048x64 .f32)
    (hs : s (ix2 p q) = dotUpTo (m := 8192) (k := 8192) (n := 64) (aarr9 V c) (xarr9 V c) (2048 * (t.val / 8) + p.val) q.val (1024 * (t.val % 8))) :
    k9_pay2 (F := Ideal) (ablk9 V c t) (xblk9 V c t) s (ix2 p q)
      = dotUpTo (m := 8192) (k := 8192) (n := 64) (aarr9 V c) (xarr9 V c) (2048 * (t.val / 8) + p.val) q.val (1024 * (t.val % 8) + 1024) :=
  (pay2_apply9 (ablk9 V c t) (xblk9 V c t) s p q).trans
    (acc_step (m := 8192) (k := 8192) (n := 64) (aarr9 V c) (xarr9 V c) (M := 2048) (K := 1024) (N := 64)
      (ablk9 V c t) (xblk9 V c t) (2048 * (t.val / 8)) (1024 * (t.val % 8))
      (fun p' c' => ablkAt9 V c t p' c') (fun c' q' => xblkAt9 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv9 (c : Dev nD) (n : ℕ) : ∀ (hn : n < cfg9.N) (p : Fin 2048) (q : Fin 64),
    accAt9 V c n hn (ix2 p q)
      = dotUpTo (m := 8192) (k := 8192) (n := 64) (aarr9 V c) (xarr9 V c) (2048 * (n / 8) + p.val) q.val (1024 * (n % 8) + 1024) := by
  induction n using Nat.strong_induction_on with
  | _ n ih =>
    intro hn p q
    have hN : cfg9.N = 32 := N_9
    by_cases h0 : n % 8 = 0
    · refine (congrFun (accAt9_first V c ⟨n, hn⟩ h0) (ix2 p q)).trans ?_
      refine (congrFun (accFirstPay9 (F := Ideal) c (grid9.coords ⟨n, hn⟩) (ms9_0 ⟨n, hn⟩) (hs9_0 ⟨n, hn⟩) (ms9_1 ⟨n, hn⟩) (hs9_1 ⟨n, hn⟩)
        (ms9_2 ⟨n, hn⟩) (hs9_2 ⟨n, hn⟩) sc9 hsc9 (iblk9 V c 0 ⟨n, hn⟩) (iblk9 V c 1 ⟨n, hn⟩)
        ((first9_iff ⟨n, hn⟩).mpr h0) (fun h => not_last_of_first9 h0 ((last9_iff ⟨n, hn⟩).mp h))) (ix2 p q)).trans ?_
      exact step9 V c ⟨n, hn⟩ p q (k9_pay1 (F := Ideal)) (by show _ = dotUpTo _ _ _ _ (1024 * (n % 8)); rw [h0, Nat.mul_zero, dotUpTo_zero]; exact pay1_apply9 (ix2 p q))
    · have hn' : n - 1 < cfg9.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt9_last V c ⟨n, hn⟩ h0 h1) (ix2 p q)).trans ?_
        refine (congrFun (accLastPay9 (F := Ideal) c (grid9.coords ⟨n, hn⟩) (ms9_0 ⟨n, hn⟩) (hs9_0 ⟨n, hn⟩) (ms9_1 ⟨n, hn⟩) (hs9_1 ⟨n, hn⟩)
          (ms9_2 ⟨n, hn⟩) (hs9_2 ⟨n, hn⟩) sc9 hsc9 (iblk9 V c 0 ⟨n, hn⟩) (iblk9 V c 1 ⟨n, hn⟩) (accAt9 V c (n - 1) hn')
          (fun h => h0 ((first9_iff ⟨n, hn⟩).mp h)) ((last9_iff ⟨n, hn⟩).mpr h1)) (ix2 p q)).trans ?_
        exact step9 V c ⟨n, hn⟩ p q (accAt9 V c (n - 1) hn') hprev
      · refine (congrFun (accAt9_mid V c ⟨n, hn⟩ h0 h1) (ix2 p q)).trans ?_
        refine (congrFun (accMidPay9 (F := Ideal) c (grid9.coords ⟨n, hn⟩) (ms9_0 ⟨n, hn⟩) (hs9_0 ⟨n, hn⟩) (ms9_1 ⟨n, hn⟩) (hs9_1 ⟨n, hn⟩)
          (ms9_2 ⟨n, hn⟩) (hs9_2 ⟨n, hn⟩) sc9 hsc9 (iblk9 V c 0 ⟨n, hn⟩) (iblk9 V c 1 ⟨n, hn⟩) (accAt9 V c (n - 1) hn')
          (fun h => h0 ((first9_iff ⟨n, hn⟩).mp h)) (fun h => h1 ((last9_iff ⟨n, hn⟩).mp h))) (ix2 p q)).trans ?_
        exact step9 V c ⟨n, hn⟩ p q (accAt9 V c (n - 1) hn') hprev

/-! ## The output tile, the cover, the array -/

/-- THE PRODUCT of the two arrays as the reference takes it: the host's `dot_general`, contracting A's columns with
    x's rows. -/
abbrev prod9 (c : Dev nD) : Vec Ideal S8192x64 .f32 :=
  Host.dotGeneral (F := Ideal) (φ₁ := .f32) (φ₂ := .f32) Cert.ReferenceIdeal.dot_S8192x8192_S8192x64_S8192x64_1_0_0_1_n_n none (aarr9 V c) (xarr9 V c)

/-- At (r, q) it is the sum over all 8192 columns j of A[r, j] · x[j, q]. -/
theorem prodAt9 (c : Dev nD) (r : Fin 8192) (q : Fin 64) :
    prod9 V c (ix2 r q) = ∑ j : Fin 8192, aarr9 V c (ix2 r j) * xarr9 V c (ix2 j q) :=
  dotGeneral_plain_apply (M := 8192) (K := 8192) (N := 64) none .single (aarr9 V c) (xarr9 V c) r q

/-- What a point leaves for the output tile is the accumulator as it leaves it: a last point of a row copies it. -/
theorem outIsAcc9 (c : Dev nD) (t : Fin cfg9.N) : outAt9 V c t = accAt9 V c t.val t.isLt := by
  unfold outAt9
  split
  · rename_i h
    exact (outLastPay9 (F := Ideal) c (grid9.coords t) (ms9_0 t) (hs9_0 t) (ms9_1 t) (hs9_1 t) (ms9_2 t) (hs9_2 t) sc9 hsc9
        (iblk9 V c 0 t) (iblk9 V c 1 t) (accAt9 V c (t.val - 1) (Nat.lt_of_le_of_lt (Nat.sub_le _ _) t.isLt))
        (fun h' => h.1 ((first9_iff t).mp h')) ((last9_iff t).mpr h.2)).trans
      ((accLastPay9 (F := Ideal) c (grid9.coords t) (ms9_0 t) (hs9_0 t) (ms9_1 t) (hs9_1 t) (ms9_2 t) (hs9_2 t) sc9 hsc9
        (iblk9 V c 0 t) (iblk9 V c 1 t) (accAt9 V c (t.val - 1) (Nat.lt_of_le_of_lt (Nat.sub_le _ _) t.isLt))
        (fun h' => h.1 ((first9_iff t).mp h')) ((last9_iff t).mpr h.2)).symm.trans (accAt9_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile9 (c : Dev nD) (t : Fin cfg9.N) (hf : (cfg9.win 2).flush t = true) :
    (dat9 V c).flushed 2 t = ((cfg9.win 2).blk t).view.read (Elt Ideal) (prod9 V c) := by
  have hN : cfg9.N = 32 := N_9
  have ht := t.isLt
  have h7 : t.val % 8 = 7 := (flush9_2 t).mp hf
  obtain ⟨-, -, -, -, e0, e1⟩ := idx_facts9 t
  show (cfg9.win 2).cut (grid9.coords t) ((dat9 V c).after 2 t) = _
  rw [after9_2, outIsAcc9 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg9.win 2).blk t).view.emb (ix2 p q) = (ix2 (⟨2048 * (t.val / 8) + p.val, hr⟩ : Fin 8192) q : S8192x64.Idx) :=
    funext fun a => Fin.ext (by
      match a with
      | ⟨0, _⟩ => show win9_2.index t (0 : Fin 2) * 2048 + 1 * p.val = 2048 * (t.val / 8) + p.val; rw [e0]; omega
      | ⟨1, _⟩ => show win9_2.index t (1 : Fin 2) * 64 + 1 * q.val = q.val; rw [e1]; omega)
  rw [View.read_apply]
  show accAt9 V c t.val t.isLt (ix2 p q) = prod9 V c (((cfg9.win 2).blk t).view.emb (ix2 p q))
  rw [hemb, prodAt9 V c ⟨2048 * (t.val / 8) + p.val, hr⟩ q, accInv9 V c t.val t.isLt p q,
    ← dotUpTo_all (aarr9 V c) (xarr9 V c) ⟨2048 * (t.val / 8) + p.val, hr⟩ q,
    show 1024 * (t.val % 8) + 1024 = 8192 by omega]

/-- An entry of the output array is in point t's tile iff each coordinate is in the tile's range on its axis. -/
theorem mem_blk9 (t : Fin cfg9.N) (i : S8192x64.Idx) :
    i ∈ ((cfg9.win 2).blk t).view.set
      ↔ ∀ a : Fin 2, win9_2.index t a * S2048x64.size a ≤ (i a).val ∧ (i a).val < win9_2.index t a * S2048x64.size a + S2048x64.size a := by
  show i ∈ ((View.whole (Pipeline.arrRef spec9 2)).slice (win9_2.rect t)).set ↔ _
  rw [View.set_slice_whole, Rect.mem_set_unit]
  exact Iff.rfl

/-- THE COVER: row r of the output array lies in the tile written back at point 8 (r / 2048) + 7, the last of its row
    of tiles. -/
theorem cover9 (i : S8192x64.Idx) :
    ∃ t : Fin cfg9.N, (cfg9.win 2).flush t = true ∧ i ∈ ((cfg9.win 2).blk t).view.set := by
  have hN : cfg9.N = 32 := N_9
  have hi0 : (i 0).val < 8192 := (i 0).isLt
  have hi1 : (i 1).val < 64 := (i 1).isLt
  have hlt : 8 * ((i 0).val / 2048) + 7 < cfg9.N := by omega
  obtain ⟨t, htv⟩ : ∃ t : Fin cfg9.N, t.val = 8 * ((i 0).val / 2048) + 7 := ⟨⟨_, hlt⟩, rfl⟩
  obtain ⟨-, -, -, -, e0, e1⟩ := idx_facts9 t
  refine ⟨t, (flush9_2 t).mpr (by omega), ?_⟩
  rw [mem_blk9]
  intro a
  match a with
  | ⟨0, _⟩ =>
    show win9_2.index t (0 : Fin 2) * 2048 ≤ (i 0).val ∧ (i 0).val < win9_2.index t (0 : Fin 2) * 2048 + 2048
    rw [e0]; omega
  | ⟨1, _⟩ =>
    show win9_2.index t (1 : Fin 2) * 64 ≤ (i 1).val ∧ (i 1).val < win9_2.index t (1 : Fin 2) * 64 + 64
    rw [e1]; omega

/-- THE VALUE OF REGION 0: after the region the output array holds the product of the two input arrays as the
    region found them — every tile written back is a tile of the product, and the written tiles cover the array. -/
theorem mm9 (c : Dev nD) :
    (dat9 (F := Ideal) V c).arrAt 2 cfg9.N
      = Host.dotGeneral (F := Ideal) (φ₁ := .f32) (φ₂ := .f32) Cert.ReferenceIdeal.dot_S8192x8192_S8192x64_S8192x64_1_0_0_1_n_n none
          (V c (Pipeline.arrRef spec9 0)) (V c (Pipeline.arrRef spec9 1)) :=
  (dat9 V c).arrAt_eq_of_cover 2 (prod9 V c) (flushedTile9 V c) (fun i => cover9 i)

end Blocks

end Cert.KernelIdeal.Hand

end
-- ==== Proof.KI.R10Val.lean ====
/-
  Region 10's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv10`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile10`); row r of the result lies in the tile written back at point 8 (r / 2048) + 7 (`cover10`); hence
  the array after the region is that `dot_general` (`mm10`).

  The steps: what each control case's stores read back to, as the body's pure terms (`accFirstPay10`, `accMidPay10`,
  `accLastPay10`, `outLastPay10`); those terms at an entry (`pay1_apply10`, `pay2_apply10`); each tile as entries of
  its array (`idx_facts10`, `ablkAt10`, `xblkAt10`); one point's update (`step10`); the invariant; the output tile, the
  cover, the array.
-/
import proofs.«158997_j77232101916990_1_alg».proof.Proof.KI.R10Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz10 : (![0, 0] : Fin 2 → Nat) = fun _ => 0 := funext fun a => by fin_cases a <;> rfl

section Pieces

variable {F : FTy → Type} [FloatOps F]
variable (c : Dev nD) (i : grid10.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay10 (hc0 : first10 i) (hc1 : ¬ last10 i) :
    accFirst10 c i arg2 harg2 arg3 harg3 arg4 harg4 arg5 harg5 x0 x1 hc0 hc1 = k10_pay2 x0 x1 (k10_pay1 (F := F)) := by
  unfold accFirst10
  rw [View.read_writes_eq_canon _ _ _ (coverFirst10 c i arg2 harg2 arg3 harg3 arg4 harg4 arg5 harg5 x0 x1 hc0 hc1)]
  unfold runFirst10
  dsimp only
  sl_unfold_words
  rw [View.canon_cons_unit_zero (S := S2048x64) hz10]
  simp only [View.readAt_eq_ld, harg2.read_unread, harg3.read_unread, View.readCov_unit_zero (S := S2048x64) _ hz10,
    View.ld_unit_zero (S := S2048x1024) hz10, View.ld_unit_zero (S := S1024x64) hz10, View.ld_unit_zero (S := S2048x64) hz10]

/-- A middle point leaves the tile update of what it found. -/
theorem accMidPay10 (hc0 : ¬ first10 i) (hc1 : ¬ last10 i) :
    accMid10 c i arg2 harg2 arg3 harg3 arg4 harg4 arg5 harg5 x0 x1 s hc0 hc1 = k10_pay2 x0 x1 s := by
  unfold accMid10
  rw [View.read_writes_eq_canon _ _ _ (coverMid10 c i arg2 harg2 arg3 harg3 arg4 harg4 arg5 harg5 x0 x1 s hc0 hc1)]
  unfold runMid10
  dsimp only
  sl_unfold_words
  rw [View.canon_unit_zero hz10]
  simp only [View.readAt_eq_ld, harg2.read_unread, harg3.read_unread, harg5.read_unread,
    View.ld_unit_zero (S := S2048x1024) hz10, View.ld_unit_zero (S := S1024x64) hz10, View.ld_unit_zero (S := S2048x64) hz10]

/-- A last point leaves the same in the accumulator, -/
theorem accLastPay10 (hc0 : ¬ first10 i) (hc1 : last10 i) :
    accLast10 c i arg2 harg2 arg3 harg3 arg4 harg4 arg5 harg5 x0 x1 s hc0 hc1 = k10_pay2 x0 x1 s := by
  unfold accLast10
  rw [View.read_writes_eq_canon _ _ _ (coverLastAcc10 c i arg2 harg2 arg3 harg3 arg4 harg4 arg5 harg5 x0 x1 s hc0 hc1)]
  unfold runLast10
  dsimp only
  sl_unfold_words
  rw [View.canon_unit_zero hz10]
  simp only [View.readAt_eq_ld, harg2.read_unread, harg3.read_unread, harg5.read_unread,
    View.ld_unit_zero (S := S2048x1024) hz10, View.ld_unit_zero (S := S1024x64) hz10, View.ld_unit_zero (S := S2048x64) hz10]

/-- and copies it into the output tile: the copy's load reads the update's store back. -/
theorem outLastPay10 (hc0 : ¬ first10 i) (hc1 : last10 i) :
    outLast10 c i arg2 harg2 arg3 harg3 arg4 harg4 arg5 harg5 x0 x1 s hc0 hc1 = k10_pay2 x0 x1 s := by
  unfold outLast10
  rw [View.read_writes_eq_canon _ _ _ (coverLastOut10 c i arg2 harg2 arg3 harg3 arg4 harg4 arg5 harg5 x0 x1 s hc0 hc1)]
  unfold runLast10
  dsimp only
  sl_unfold_words
  rw [View.canon_unit_zero hz10]
  simp only [View.readAt_eq_ld, harg2.read_unread, harg3.read_unread, harg5.read_unread, View.readCov_unit_zero (S := S2048x64) _ hz10,
    View.ld_unit_zero (S := S2048x1024) hz10, View.ld_unit_zero (S := S1024x64) hz10, View.ld_unit_zero (S := S2048x64) hz10]

end Pieces

/-! ## The two bodies at an entry, at the ideal values -/

/-- The reset's block is zero everywhere. -/
theorem pay1_apply10 (j : S2048x64.Idx) : k10_pay1 (F := Ideal) j = 0 := by
  unfold k10_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply10 (x0 : Vec Ideal S2048x1024 .f32) (x1 : Vec Ideal S1024x64 .f32) (s : Vec Ideal S2048x64 .f32)
    (p : Fin 2048) (q : Fin 64) :
    k10_pay2 (F := Ideal) x0 x1 s (ix2 p q) = s (ix2 p q) + ∑ c : Fin 1024, x0 (ix2 p c) * x1 (ix2 c q) := by
  unfold k10_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr10 (c : Dev nD) : Vec Ideal S8192x8192 .f32 := V c (Pipeline.arrRef spec10 0)
abbrev xarr10 (c : Dev nD) : Vec Ideal S8192x64 .f32 := V c (Pipeline.arrRef spec10 1)
abbrev ablk10 (c : Dev nD) (t : Fin cfg10.N) : Vec Ideal S2048x1024 .f32 := iblk10 V c 0 t
abbrev xblk10 (c : Dev nD) (t : Fin cfg10.N) : Vec Ideal S1024x64 .f32 := iblk10 V c 1 t

/-- The printed index maps over the grid: point t = 8 i + k reads tile (i, k) of A and tile (k, 0) of x, and its
    output tile is (i, 0). -/
theorem idx_facts10 : ∀ t : Fin cfg10.N, win10_0.index t (0 : Fin 2) = t.val / 8 ∧ win10_0.index t (1 : Fin 2) = t.val % 8
    ∧ win10_1.index t (0 : Fin 2) = t.val % 8 ∧ win10_1.index t (1 : Fin 2) = 0
    ∧ win10_2.index t (0 : Fin 2) = t.val / 8 ∧ win10_2.index t (1 : Fin 2) = 0 :=
  (by decide +kernel : ∀ t : Fin grid10.N, _)

/-- Entry (p, k) of A's tile at point t is A[2048 (t / 8) + p, 1024 (t % 8) + k]. -/
theorem ablkAt10 (c : Dev nD) (t : Fin cfg10.N) (p : Fin 2048) (k : Fin 1024) :
    ablk10 V c t (ix2 p k) = ent (m := 8192) (n := 8192) (aarr10 V c) (2048 * (t.val / 8) + p.val) (1024 * (t.val % 8) + k.val) := by
  have hN : cfg10.N = 32 := N_10
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts10 t
  unfold ablk10 iblk10
  rw [View.read_apply]
  show aarr10 V c _ = aarr10 V c _
  refine congrArg (aarr10 V c) (funext fun a => Fin.ext ?_)
  match a with
  | ⟨0, _⟩ => show win10_0.index t (0 : Fin 2) * 2048 + 1 * p.val = 2048 * (t.val / 8) + p.val; rw [e0]; omega
  | ⟨1, _⟩ => show win10_0.index t (1 : Fin 2) * 1024 + 1 * k.val = 1024 * (t.val % 8) + k.val; rw [e1]; omega

/-- Entry (k, q) of x's tile at point t is x[1024 (t % 8) + k, q]. -/
theorem xblkAt10 (c : Dev nD) (t : Fin cfg10.N) (k : Fin 1024) (q : Fin 64) :
    xblk10 V c t (ix2 k q) = ent (m := 8192) (n := 64) (xarr10 V c) (1024 * (t.val % 8) + k.val) q.val := by
  have hN : cfg10.N = 32 := N_10
  have ht := t.isLt
  have hk := k.isLt
  have hj : 1024 * (t.val % 8) + k.val < 8192 := by omega
  rw [ent_of_lt _ _ _ hj q.isLt]
  obtain ⟨-, -, e0, e1, -⟩ := idx_facts10 t
  unfold xblk10 iblk10
  rw [View.read_apply]
  show xarr10 V c _ = xarr10 V c _
  refine congrArg (xarr10 V c) (funext fun a => Fin.ext ?_)
  match a with
  | ⟨0, _⟩ => show win10_1.index t (0 : Fin 2) * 1024 + 1 * k.val = 1024 * (t.val % 8) + k.val; rw [e0]; omega
  | ⟨1, _⟩ => show win10_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step10 (c : Dev nD) (t : Fin cfg10.N) (p : Fin 2048) (q : Fin 64) (s : Vec Ideal S2048x64 .f32)
    (hs : s (ix2 p q) = dotUpTo (m := 8192) (k := 8192) (n := 64) (aarr10 V c) (xarr10 V c) (2048 * (t.val / 8) + p.val) q.val (1024 * (t.val % 8))) :
    k10_pay2 (F := Ideal) (ablk10 V c t) (xblk10 V c t) s (ix2 p q)
      = dotUpTo (m := 8192) (k := 8192) (n := 64) (aarr10 V c) (xarr10 V c) (2048 * (t.val / 8) + p.val) q.val (1024 * (t.val % 8) + 1024) :=
  (pay2_apply10 (ablk10 V c t) (xblk10 V c t) s p q).trans
    (acc_step (m := 8192) (k := 8192) (n := 64) (aarr10 V c) (xarr10 V c) (M := 2048) (K := 1024) (N := 64)
      (ablk10 V c t) (xblk10 V c t) (2048 * (t.val / 8)) (1024 * (t.val % 8))
      (fun p' c' => ablkAt10 V c t p' c') (fun c' q' => xblkAt10 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv10 (c : Dev nD) (n : ℕ) : ∀ (hn : n < cfg10.N) (p : Fin 2048) (q : Fin 64),
    accAt10 V c n hn (ix2 p q)
      = dotUpTo (m := 8192) (k := 8192) (n := 64) (aarr10 V c) (xarr10 V c) (2048 * (n / 8) + p.val) q.val (1024 * (n % 8) + 1024) := by
  induction n using Nat.strong_induction_on with
  | _ n ih =>
    intro hn p q
    have hN : cfg10.N = 32 := N_10
    by_cases h0 : n % 8 = 0
    · refine (congrFun (accAt10_first V c ⟨n, hn⟩ h0) (ix2 p q)).trans ?_
      refine (congrFun (accFirstPay10 (F := Ideal) c (grid10.coords ⟨n, hn⟩) (ms10_0 ⟨n, hn⟩) (hs10_0 ⟨n, hn⟩) (ms10_1 ⟨n, hn⟩) (hs10_1 ⟨n, hn⟩)
        (ms10_2 ⟨n, hn⟩) (hs10_2 ⟨n, hn⟩) sc10 hsc10 (iblk10 V c 0 ⟨n, hn⟩) (iblk10 V c 1 ⟨n, hn⟩)
        ((first10_iff ⟨n, hn⟩).mpr h0) (fun h => not_last_of_first10 h0 ((last10_iff ⟨n, hn⟩).mp h))) (ix2 p q)).trans ?_
      exact step10 V c ⟨n, hn⟩ p q (k10_pay1 (F := Ideal)) (by show _ = dotUpTo _ _ _ _ (1024 * (n % 8)); rw [h0, Nat.mul_zero, dotUpTo_zero]; exact pay1_apply10 (ix2 p q))
    · have hn' : n - 1 < cfg10.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt10_last V c ⟨n, hn⟩ h0 h1) (ix2 p q)).trans ?_
        refine (congrFun (accLastPay10 (F := Ideal) c (grid10.coords ⟨n, hn⟩) (ms10_0 ⟨n, hn⟩) (hs10_0 ⟨n, hn⟩) (ms10_1 ⟨n, hn⟩) (hs10_1 ⟨n, hn⟩)
          (ms10_2 ⟨n, hn⟩) (hs10_2 ⟨n, hn⟩) sc10 hsc10 (iblk10 V c 0 ⟨n, hn⟩) (iblk10 V c 1 ⟨n, hn⟩) (accAt10 V c (n - 1) hn')
          (fun h => h0 ((first10_iff ⟨n, hn⟩).mp h)) ((last10_iff ⟨n, hn⟩).mpr h1)) (ix2 p q)).trans ?_
        exact step10 V c ⟨n, hn⟩ p q (accAt10 V c (n - 1) hn') hprev
      · refine (congrFun (accAt10_mid V c ⟨n, hn⟩ h0 h1) (ix2 p q)).trans ?_
        refine (congrFun (accMidPay10 (F := Ideal) c (grid10.coords ⟨n, hn⟩) (ms10_0 ⟨n, hn⟩) (hs10_0 ⟨n, hn⟩) (ms10_1 ⟨n, hn⟩) (hs10_1 ⟨n, hn⟩)
          (ms10_2 ⟨n, hn⟩) (hs10_2 ⟨n, hn⟩) sc10 hsc10 (iblk10 V c 0 ⟨n, hn⟩) (iblk10 V c 1 ⟨n, hn⟩) (accAt10 V c (n - 1) hn')
          (fun h => h0 ((first10_iff ⟨n, hn⟩).mp h)) (fun h => h1 ((last10_iff ⟨n, hn⟩).mp h))) (ix2 p q)).trans ?_
        exact step10 V c ⟨n, hn⟩ p q (accAt10 V c (n - 1) hn') hprev

/-! ## The output tile, the cover, the array -/

/-- THE PRODUCT of the two arrays as the reference takes it: the host's `dot_general`, contracting A's columns with
    x's rows. -/
abbrev prod10 (c : Dev nD) : Vec Ideal S8192x64 .f32 :=
  Host.dotGeneral (F := Ideal) (φ₁ := .f32) (φ₂ := .f32) Cert.ReferenceIdeal.dot_S8192x8192_S8192x64_S8192x64_1_0_0_1_n_n none (aarr10 V c) (xarr10 V c)

/-- At (r, q) it is the sum over all 8192 columns j of A[r, j] · x[j, q]. -/
theorem prodAt10 (c : Dev nD) (r : Fin 8192) (q : Fin 64) :
    prod10 V c (ix2 r q) = ∑ j : Fin 8192, aarr10 V c (ix2 r j) * xarr10 V c (ix2 j q) :=
  dotGeneral_plain_apply (M := 8192) (K := 8192) (N := 64) none .single (aarr10 V c) (xarr10 V c) r q

/-- What a point leaves for the output tile is the accumulator as it leaves it: a last point of a row copies it. -/
theorem outIsAcc10 (c : Dev nD) (t : Fin cfg10.N) : outAt10 V c t = accAt10 V c t.val t.isLt := by
  unfold outAt10
  split
  · rename_i h
    exact (outLastPay10 (F := Ideal) c (grid10.coords t) (ms10_0 t) (hs10_0 t) (ms10_1 t) (hs10_1 t) (ms10_2 t) (hs10_2 t) sc10 hsc10
        (iblk10 V c 0 t) (iblk10 V c 1 t) (accAt10 V c (t.val - 1) (Nat.lt_of_le_of_lt (Nat.sub_le _ _) t.isLt))
        (fun h' => h.1 ((first10_iff t).mp h')) ((last10_iff t).mpr h.2)).trans
      ((accLastPay10 (F := Ideal) c (grid10.coords t) (ms10_0 t) (hs10_0 t) (ms10_1 t) (hs10_1 t) (ms10_2 t) (hs10_2 t) sc10 hsc10
        (iblk10 V c 0 t) (iblk10 V c 1 t) (accAt10 V c (t.val - 1) (Nat.lt_of_le_of_lt (Nat.sub_le _ _) t.isLt))
        (fun h' => h.1 ((first10_iff t).mp h')) ((last10_iff t).mpr h.2)).symm.trans (accAt10_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile10 (c : Dev nD) (t : Fin cfg10.N) (hf : (cfg10.win 2).flush t = true) :
    (dat10 V c).flushed 2 t = ((cfg10.win 2).blk t).view.read (Elt Ideal) (prod10 V c) := by
  have hN : cfg10.N = 32 := N_10
  have ht := t.isLt
  have h7 : t.val % 8 = 7 := (flush10_2 t).mp hf
  obtain ⟨-, -, -, -, e0, e1⟩ := idx_facts10 t
  show (cfg10.win 2).cut (grid10.coords t) ((dat10 V c).after 2 t) = _
  rw [after10_2, outIsAcc10 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg10.win 2).blk t).view.emb (ix2 p q) = (ix2 (⟨2048 * (t.val / 8) + p.val, hr⟩ : Fin 8192) q : S8192x64.Idx) :=
    funext fun a => Fin.ext (by
      match a with
      | ⟨0, _⟩ => show win10_2.index t (0 : Fin 2) * 2048 + 1 * p.val = 2048 * (t.val / 8) + p.val; rw [e0]; omega
      | ⟨1, _⟩ => show win10_2.index t (1 : Fin 2) * 64 + 1 * q.val = q.val; rw [e1]; omega)
  rw [View.read_apply]
  show accAt10 V c t.val t.isLt (ix2 p q) = prod10 V c (((cfg10.win 2).blk t).view.emb (ix2 p q))
  rw [hemb, prodAt10 V c ⟨2048 * (t.val / 8) + p.val, hr⟩ q, accInv10 V c t.val t.isLt p q,
    ← dotUpTo_all (aarr10 V c) (xarr10 V c) ⟨2048 * (t.val / 8) + p.val, hr⟩ q,
    show 1024 * (t.val % 8) + 1024 = 8192 by omega]

/-- An entry of the output array is in point t's tile iff each coordinate is in the tile's range on its axis. -/
theorem mem_blk10 (t : Fin cfg10.N) (i : S8192x64.Idx) :
    i ∈ ((cfg10.win 2).blk t).view.set
      ↔ ∀ a : Fin 2, win10_2.index t a * S2048x64.size a ≤ (i a).val ∧ (i a).val < win10_2.index t a * S2048x64.size a + S2048x64.size a := by
  show i ∈ ((View.whole (Pipeline.arrRef spec10 2)).slice (win10_2.rect t)).set ↔ _
  rw [View.set_slice_whole, Rect.mem_set_unit]
  exact Iff.rfl

/-- THE COVER: row r of the output array lies in the tile written back at point 8 (r / 2048) + 7, the last of its row
    of tiles. -/
theorem cover10 (i : S8192x64.Idx) :
    ∃ t : Fin cfg10.N, (cfg10.win 2).flush t = true ∧ i ∈ ((cfg10.win 2).blk t).view.set := by
  have hN : cfg10.N = 32 := N_10
  have hi0 : (i 0).val < 8192 := (i 0).isLt
  have hi1 : (i 1).val < 64 := (i 1).isLt
  have hlt : 8 * ((i 0).val / 2048) + 7 < cfg10.N := by omega
  obtain ⟨t, htv⟩ : ∃ t : Fin cfg10.N, t.val = 8 * ((i 0).val / 2048) + 7 := ⟨⟨_, hlt⟩, rfl⟩
  obtain ⟨-, -, -, -, e0, e1⟩ := idx_facts10 t
  refine ⟨t, (flush10_2 t).mpr (by omega), ?_⟩
  rw [mem_blk10]
  intro a
  match a with
  | ⟨0, _⟩ =>
    show win10_2.index t (0 : Fin 2) * 2048 ≤ (i 0).val ∧ (i 0).val < win10_2.index t (0 : Fin 2) * 2048 + 2048
    rw [e0]; omega
  | ⟨1, _⟩ =>
    show win10_2.index t (1 : Fin 2) * 64 ≤ (i 1).val ∧ (i 1).val < win10_2.index t (1 : Fin 2) * 64 + 64
    rw [e1]; omega

/-- THE VALUE OF REGION 0: after the region the output array holds the product of the two input arrays as the
    region found them — every tile written back is a tile of the product, and the written tiles cover the array. -/
theorem mm10 (c : Dev nD) :
    (dat10 (F := Ideal) V c).arrAt 2 cfg10.N
      = Host.dotGeneral (F := Ideal) (φ₁ := .f32) (φ₂ := .f32) Cert.ReferenceIdeal.dot_S8192x8192_S8192x64_S8192x64_1_0_0_1_n_n none
          (V c (Pipeline.arrRef spec10 0)) (V c (Pipeline.arrRef spec10 1)) :=
  (dat10 V c).arrAt_eq_of_cover 2 (prod10 V c) (flushedTile10 V c) (fun i => cover10 i)

end Blocks

end Cert.KernelIdeal.Hand

end
-- ==== Proof.KI.R11Val.lean ====
/-
  Region 11's value: after the region the output array is the product A · x of the two input arrays.

  The region walks A : [8192, 8192] in 2048 × 1024 tiles and x : [8192, 64] in 1024 × 64 tiles on a 4 × 8 grid; point
  t = 8 i + k reads tile (i, k) of A and tile k of x, and its output tile is tile i of the [8192, 64] result. A scratch
  accumulator is set to zero at k = 0, takes at every point the tile update  acc + (tile of A) · (tile of x)  — the
  tiles rounded to bf16 on their way into the matrix unit, which at the ideal values is no rounding —, and is copied
  into the output tile at k = 7, the only points whose tile is written back.

  So, over the extended reals: after point t the accumulator's entry (p, q) is the sum over the first 1024 (k + 1)
  columns j of A[2048 i + p, j] · x[j, q] (`accInv11`, by induction on the point: a first point of a row adds its
  1024 terms to zero, every other point to what the point before left; a sum over the first N + 1024 columns is the
  sum over the first N plus the 1024 after them, which is all the arithmetic there is, so no entry need be finite);
  at k = 7 that is the sum over all 8192 columns, entry (2048 i + p, q) of the host's `dot_general` of the two arrays
  (`flushedTile11`); row r of the result lies in the tile written back at point 8 (r / 2048) + 7 (`cover11`); hence
  the array after the region is that `dot_general` (`mm11`).

  The steps: what each control case's stores read back to, as the body's pure terms (`accFirstPay11`, `accMidPay11`,
  `accLastPay11`, `outLastPay11`); those terms at an entry (`pay1_apply11`, `pay2_apply11`); each tile as entries of
  its array (`idx_facts11`, `ablkAt11`, `xblkAt11`); one point's update (`step11`); the invariant; the output tile, the
  cover, the array.
-/
import proofs.«158997_j77232101916990_1_alg».proof.Proof.KI.R11Dat
import proofs.«158997_j77232101916990_1_alg».proof.Proof.KI.MMSpec
import proofs.«158997_j77232101916990_1_alg».proof.Proof.Gen.ReferenceIdeal
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case's pieces read back to: the body's pure terms -/

theorem hz11 : (![0, 0] : Fin 2 → Nat) = fun _ => 0 := funext fun a => by fin_cases a <;> rfl

section Pieces

variable {F : FTy → Type} [FloatOps F]
variable (c : Dev nD) (i : grid11.Coords) (arg2 : Memref sig .tc .vmem S2048x1024 .f32) (harg2 : arg2.IsWhole)
  (arg3 : Memref sig .tc .vmem S1024x64 .f32) (harg3 : arg3.IsWhole) (arg4 : Memref sig .tc .vmem S2048x64 .f32) (harg4 : arg4.IsWhole)
  (arg5 : Memref sig .tc .vmem S2048x64 .f32) (harg5 : arg5.IsWhole)
  (x0 : Vec F S2048x1024 .f32) (x1 : Vec F S1024x64 .f32) (s : Vec F S2048x64 .f32)

/-- A first point of a row leaves the tile update of the zero block: the reset's store is read back by the update. -/
theorem accFirstPay11 (hc0 : first11 i) (hc1 : ¬ last11 i) :
    accFirst11 c i arg2 harg2 arg3 harg3 arg4 harg4 arg5 harg5 x0 x1 hc0 hc1 = k11_pay2 x0 x1 (k11_pay1 (F := F)) := by
  unfold accFirst11
  rw [View.read_writes_eq_canon _ _ _ (coverFirst11 c i arg2 harg2 arg3 harg3 arg4 harg4 arg5 harg5 x0 x1 hc0 hc1)]
  unfold runFirst11
  dsimp only
  sl_unfold_words
  rw [View.canon_cons_unit_zero (S := S2048x64) hz11]
  simp only [View.readAt_eq_ld, harg2.read_unread, harg3.read_unread, View.readCov_unit_zero (S := S2048x64) _ hz11,
    View.ld_unit_zero (S := S2048x1024) hz11, View.ld_unit_zero (S := S1024x64) hz11, View.ld_unit_zero (S := S2048x64) hz11]

/-- A middle point leaves the tile update of what it found. -/
theorem accMidPay11 (hc0 : ¬ first11 i) (hc1 : ¬ last11 i) :
    accMid11 c i arg2 harg2 arg3 harg3 arg4 harg4 arg5 harg5 x0 x1 s hc0 hc1 = k11_pay2 x0 x1 s := by
  unfold accMid11
  rw [View.read_writes_eq_canon _ _ _ (coverMid11 c i arg2 harg2 arg3 harg3 arg4 harg4 arg5 harg5 x0 x1 s hc0 hc1)]
  unfold runMid11
  dsimp only
  sl_unfold_words
  rw [View.canon_unit_zero hz11]
  simp only [View.readAt_eq_ld, harg2.read_unread, harg3.read_unread, harg5.read_unread,
    View.ld_unit_zero (S := S2048x1024) hz11, View.ld_unit_zero (S := S1024x64) hz11, View.ld_unit_zero (S := S2048x64) hz11]

/-- A last point leaves the same in the accumulator, -/
theorem accLastPay11 (hc0 : ¬ first11 i) (hc1 : last11 i) :
    accLast11 c i arg2 harg2 arg3 harg3 arg4 harg4 arg5 harg5 x0 x1 s hc0 hc1 = k11_pay2 x0 x1 s := by
  unfold accLast11
  rw [View.read_writes_eq_canon _ _ _ (coverLastAcc11 c i arg2 harg2 arg3 harg3 arg4 harg4 arg5 harg5 x0 x1 s hc0 hc1)]
  unfold runLast11
  dsimp only
  sl_unfold_words
  rw [View.canon_unit_zero hz11]
  simp only [View.readAt_eq_ld, harg2.read_unread, harg3.read_unread, harg5.read_unread,
    View.ld_unit_zero (S := S2048x1024) hz11, View.ld_unit_zero (S := S1024x64) hz11, View.ld_unit_zero (S := S2048x64) hz11]

/-- and copies it into the output tile: the copy's load reads the update's store back. -/
theorem outLastPay11 (hc0 : ¬ first11 i) (hc1 : last11 i) :
    outLast11 c i arg2 harg2 arg3 harg3 arg4 harg4 arg5 harg5 x0 x1 s hc0 hc1 = k11_pay2 x0 x1 s := by
  unfold outLast11
  rw [View.read_writes_eq_canon _ _ _ (coverLastOut11 c i arg2 harg2 arg3 harg3 arg4 harg4 arg5 harg5 x0 x1 s hc0 hc1)]
  unfold runLast11
  dsimp only
  sl_unfold_words
  rw [View.canon_unit_zero hz11]
  simp only [View.readAt_eq_ld, harg2.read_unread, harg3.read_unread, harg5.read_unread, View.readCov_unit_zero (S := S2048x64) _ hz11,
    View.ld_unit_zero (S := S2048x1024) hz11, View.ld_unit_zero (S := S1024x64) hz11, View.ld_unit_zero (S := S2048x64) hz11]

end Pieces

/-! ## The two bodies at an entry, at the ideal values -/

/-- The reset's block is zero everywhere. -/
theorem pay1_apply11 (j : S2048x64.Idx) : k11_pay1 (F := Ideal) j = 0 := by
  unfold k11_pay1
  rw [shapeCast_self]
  exact Ideal.ofBits_zero_f32

/-- The tile update at (p, q): what the accumulator held there plus the sum over the tile's 1024 columns c of
    x0[p, c] · x1[c, q] (the dimension numbers are the plain product's; the rounding to bf16 is no rounding). -/
theorem pay2_apply11 (x0 : Vec Ideal S2048x1024 .f32) (x1 : Vec Ideal S1024x64 .f32) (s : Vec Ideal S2048x64 .f32)
    (p : Fin 2048) (q : Fin 64) :
    k11_pay2 (F := Ideal) x0 x1 s (ix2 p q) = s (ix2 p q) + ∑ c : Fin 1024, x0 (ix2 p c) * x1 (ix2 c q) := by
  unfold k11_pay2
  -- (where the x tile passes through a reshape to its own shape first, that reshape is the identity)
  try rw [shapeCast_self x1 shapeCasts_S1024x64_S1024x64]
  exact tile_apply (M := 2048) (K := 1024) (N := 64) x0 x1 s bitsLt_bf16_f32 shapeCasts_S2048x64_S2048x64 none p q

/-! ## The blocks the windows read -/

section Blocks

variable (V : (c : Dev nD) → (b : Ref sig .tc) → Buf (Elt Ideal) ((c : Thread nD τ).loc b))

/-- The two input arrays as the region finds them, and their tiles at point `t`, under their literal types. -/
abbrev aarr11 (c : Dev nD) : Vec Ideal S8192x8192 .f32 := V c (Pipeline.arrRef spec11 0)
abbrev xarr11 (c : Dev nD) : Vec Ideal S8192x64 .f32 := V c (Pipeline.arrRef spec11 1)
abbrev ablk11 (c : Dev nD) (t : Fin cfg11.N) : Vec Ideal S2048x1024 .f32 := iblk11 V c 0 t
abbrev xblk11 (c : Dev nD) (t : Fin cfg11.N) : Vec Ideal S1024x64 .f32 := iblk11 V c 1 t

/-- The printed index maps over the grid: point t = 8 i + k reads tile (i, k) of A and tile (k, 0) of x, and its
    output tile is (i, 0). -/
theorem idx_facts11 : ∀ t : Fin cfg11.N, win11_0.index t (0 : Fin 2) = t.val / 8 ∧ win11_0.index t (1 : Fin 2) = t.val % 8
    ∧ win11_1.index t (0 : Fin 2) = t.val % 8 ∧ win11_1.index t (1 : Fin 2) = 0
    ∧ win11_2.index t (0 : Fin 2) = t.val / 8 ∧ win11_2.index t (1 : Fin 2) = 0 :=
  (by decide +kernel : ∀ t : Fin grid11.N, _)

/-- Entry (p, k) of A's tile at point t is A[2048 (t / 8) + p, 1024 (t % 8) + k]. -/
theorem ablkAt11 (c : Dev nD) (t : Fin cfg11.N) (p : Fin 2048) (k : Fin 1024) :
    ablk11 V c t (ix2 p k) = ent (m := 8192) (n := 8192) (aarr11 V c) (2048 * (t.val / 8) + p.val) (1024 * (t.val % 8) + k.val) := by
  have hN : cfg11.N = 32 := N_11
  have ht := t.isLt
  have hp := p.isLt
  have hk := k.isLt
  have hr : 2048 * (t.val / 8) + p.val < 8192 := by omega
  have hj : 1024 * (t.val % 8) + k.val < 8192 := by omega
  rw [ent_of_lt _ _ _ hr hj]
  obtain ⟨e0, e1, -⟩ := idx_facts11 t
  unfold ablk11 iblk11
  rw [View.read_apply]
  show aarr11 V c _ = aarr11 V c _
  refine congrArg (aarr11 V c) (funext fun a => Fin.ext ?_)
  match a with
  | ⟨0, _⟩ => show win11_0.index t (0 : Fin 2) * 2048 + 1 * p.val = 2048 * (t.val / 8) + p.val; rw [e0]; omega
  | ⟨1, _⟩ => show win11_0.index t (1 : Fin 2) * 1024 + 1 * k.val = 1024 * (t.val % 8) + k.val; rw [e1]; omega

/-- Entry (k, q) of x's tile at point t is x[1024 (t % 8) + k, q]. -/
theorem xblkAt11 (c : Dev nD) (t : Fin cfg11.N) (k : Fin 1024) (q : Fin 64) :
    xblk11 V c t (ix2 k q) = ent (m := 8192) (n := 64) (xarr11 V c) (1024 * (t.val % 8) + k.val) q.val := by
  have hN : cfg11.N = 32 := N_11
  have ht := t.isLt
  have hk := k.isLt
  have hj : 1024 * (t.val % 8) + k.val < 8192 := by omega
  rw [ent_of_lt _ _ _ hj q.isLt]
  obtain ⟨-, -, e0, e1, -⟩ := idx_facts11 t
  unfold xblk11 iblk11
  rw [View.read_apply]
  show xarr11 V c _ = xarr11 V c _
  refine congrArg (xarr11 V c) (funext fun a => Fin.ext ?_)
  match a with
  | ⟨0, _⟩ => show win11_1.index t (0 : Fin 2) * 1024 + 1 * k.val = 1024 * (t.val % 8) + k.val; rw [e0]; omega
  | ⟨1, _⟩ => show win11_1.index t (1 : Fin 2) * 64 + 1 * q.val = q.val; rw [e1]; omega

/-! ## The accumulator after each point -/

/-- ONE POINT'S UPDATE at an entry. If the accumulator's entry (p, q) before point t = 8 i + k is the product of row
    2048 i + p of A with column q of x over the first 1024 k columns, the tile update at t makes it the product over
    the first 1024 (k + 1): the tile's 1024 terms are those of the columns 1024 k, …, 1024 k + 1023. -/
theorem step11 (c : Dev nD) (t : Fin cfg11.N) (p : Fin 2048) (q : Fin 64) (s : Vec Ideal S2048x64 .f32)
    (hs : s (ix2 p q) = dotUpTo (m := 8192) (k := 8192) (n := 64) (aarr11 V c) (xarr11 V c) (2048 * (t.val / 8) + p.val) q.val (1024 * (t.val % 8))) :
    k11_pay2 (F := Ideal) (ablk11 V c t) (xblk11 V c t) s (ix2 p q)
      = dotUpTo (m := 8192) (k := 8192) (n := 64) (aarr11 V c) (xarr11 V c) (2048 * (t.val / 8) + p.val) q.val (1024 * (t.val % 8) + 1024) :=
  (pay2_apply11 (ablk11 V c t) (xblk11 V c t) s p q).trans
    (acc_step (m := 8192) (k := 8192) (n := 64) (aarr11 V c) (xarr11 V c) (M := 2048) (K := 1024) (N := 64)
      (ablk11 V c t) (xblk11 V c t) (2048 * (t.val / 8)) (1024 * (t.val % 8))
      (fun p' c' => ablkAt11 V c t p' c') (fun c' q' => xblkAt11 V c t c' q') p q (s (ix2 p q)) hs)

/-- THE INVARIANT. After point n = 8 i + k the accumulator holds at (p, q) the product of row 2048 i + p of A with
    column q of x over the first 1024 (k + 1) columns of the row — by induction on the point: a first point of a row
    adds its tile's terms to zero, every other point to what the point before left. -/
theorem accInv11 (c : Dev nD) (n : ℕ) : ∀ (hn : n < cfg11.N) (p : Fin 2048) (q : Fin 64),
    accAt11 V c n hn (ix2 p q)
      = dotUpTo (m := 8192) (k := 8192) (n := 64) (aarr11 V c) (xarr11 V c) (2048 * (n / 8) + p.val) q.val (1024 * (n % 8) + 1024) := by
  induction n using Nat.strong_induction_on with
  | _ n ih =>
    intro hn p q
    have hN : cfg11.N = 32 := N_11
    by_cases h0 : n % 8 = 0
    · refine (congrFun (accAt11_first V c ⟨n, hn⟩ h0) (ix2 p q)).trans ?_
      refine (congrFun (accFirstPay11 (F := Ideal) c (grid11.coords ⟨n, hn⟩) (ms11_0 ⟨n, hn⟩) (hs11_0 ⟨n, hn⟩) (ms11_1 ⟨n, hn⟩) (hs11_1 ⟨n, hn⟩)
        (ms11_2 ⟨n, hn⟩) (hs11_2 ⟨n, hn⟩) sc11 hsc11 (iblk11 V c 0 ⟨n, hn⟩) (iblk11 V c 1 ⟨n, hn⟩)
        ((first11_iff ⟨n, hn⟩).mpr h0) (fun h => not_last_of_first11 h0 ((last11_iff ⟨n, hn⟩).mp h))) (ix2 p q)).trans ?_
      exact step11 V c ⟨n, hn⟩ p q (k11_pay1 (F := Ideal)) (by show _ = dotUpTo _ _ _ _ (1024 * (n % 8)); rw [h0, Nat.mul_zero, dotUpTo_zero]; exact pay1_apply11 (ix2 p q))
    · have hn' : n - 1 < cfg11.N := by omega
      have hprev := ih (n - 1) (by omega) hn' p q
      have e1 : (n - 1) / 8 = n / 8 := by omega
      have e2 : 1024 * ((n - 1) % 8) + 1024 = 1024 * (n % 8) := by omega
      rw [e1, e2] at hprev
      by_cases h1 : n % 8 = 7
      · refine (congrFun (accAt11_last V c ⟨n, hn⟩ h0 h1) (ix2 p q)).trans ?_
        refine (congrFun (accLastPay11 (F := Ideal) c (grid11.coords ⟨n, hn⟩) (ms11_0 ⟨n, hn⟩) (hs11_0 ⟨n, hn⟩) (ms11_1 ⟨n, hn⟩) (hs11_1 ⟨n, hn⟩)
          (ms11_2 ⟨n, hn⟩) (hs11_2 ⟨n, hn⟩) sc11 hsc11 (iblk11 V c 0 ⟨n, hn⟩) (iblk11 V c 1 ⟨n, hn⟩) (accAt11 V c (n - 1) hn')
          (fun h => h0 ((first11_iff ⟨n, hn⟩).mp h)) ((last11_iff ⟨n, hn⟩).mpr h1)) (ix2 p q)).trans ?_
        exact step11 V c ⟨n, hn⟩ p q (accAt11 V c (n - 1) hn') hprev
      · refine (congrFun (accAt11_mid V c ⟨n, hn⟩ h0 h1) (ix2 p q)).trans ?_
        refine (congrFun (accMidPay11 (F := Ideal) c (grid11.coords ⟨n, hn⟩) (ms11_0 ⟨n, hn⟩) (hs11_0 ⟨n, hn⟩) (ms11_1 ⟨n, hn⟩) (hs11_1 ⟨n, hn⟩)
          (ms11_2 ⟨n, hn⟩) (hs11_2 ⟨n, hn⟩) sc11 hsc11 (iblk11 V c 0 ⟨n, hn⟩) (iblk11 V c 1 ⟨n, hn⟩) (accAt11 V c (n - 1) hn')
          (fun h => h0 ((first11_iff ⟨n, hn⟩).mp h)) (fun h => h1 ((last11_iff ⟨n, hn⟩).mp h))) (ix2 p q)).trans ?_
        exact step11 V c ⟨n, hn⟩ p q (accAt11 V c (n - 1) hn') hprev

/-! ## The output tile, the cover, the array -/

/-- THE PRODUCT of the two arrays as the reference takes it: the host's `dot_general`, contracting A's columns with
    x's rows. -/
abbrev prod11 (c : Dev nD) : Vec Ideal S8192x64 .f32 :=
  Host.dotGeneral (F := Ideal) (φ₁ := .f32) (φ₂ := .f32) Cert.ReferenceIdeal.dot_S8192x8192_S8192x64_S8192x64_1_0_0_1_n_n none (aarr11 V c) (xarr11 V c)

/-- At (r, q) it is the sum over all 8192 columns j of A[r, j] · x[j, q]. -/
theorem prodAt11 (c : Dev nD) (r : Fin 8192) (q : Fin 64) :
    prod11 V c (ix2 r q) = ∑ j : Fin 8192, aarr11 V c (ix2 r j) * xarr11 V c (ix2 j q) :=
  dotGeneral_plain_apply (M := 8192) (K := 8192) (N := 64) none .single (aarr11 V c) (xarr11 V c) r q

/-- What a point leaves for the output tile is the accumulator as it leaves it: a last point of a row copies it. -/
theorem outIsAcc11 (c : Dev nD) (t : Fin cfg11.N) : outAt11 V c t = accAt11 V c t.val t.isLt := by
  unfold outAt11
  split
  · rename_i h
    exact (outLastPay11 (F := Ideal) c (grid11.coords t) (ms11_0 t) (hs11_0 t) (ms11_1 t) (hs11_1 t) (ms11_2 t) (hs11_2 t) sc11 hsc11
        (iblk11 V c 0 t) (iblk11 V c 1 t) (accAt11 V c (t.val - 1) (Nat.lt_of_le_of_lt (Nat.sub_le _ _) t.isLt))
        (fun h' => h.1 ((first11_iff t).mp h')) ((last11_iff t).mpr h.2)).trans
      ((accLastPay11 (F := Ideal) c (grid11.coords t) (ms11_0 t) (hs11_0 t) (ms11_1 t) (hs11_1 t) (ms11_2 t) (hs11_2 t) sc11 hsc11
        (iblk11 V c 0 t) (iblk11 V c 1 t) (accAt11 V c (t.val - 1) (Nat.lt_of_le_of_lt (Nat.sub_le _ _) t.isLt))
        (fun h' => h.1 ((first11_iff t).mp h')) ((last11_iff t).mpr h.2)).symm.trans (accAt11_last V c t h.1 h.2).symm)
  · rfl

/-- WHAT A LAST POINT OF A ROW WRITES BACK is its tile of the product: after the eighth tile the accumulator's sums
    run over all 8192 columns, and entry (p, q) of the tile of point t = 8 i + 7 is entry (2048 i + p, q) of the array. -/
theorem flushedTile11 (c : Dev nD) (t : Fin cfg11.N) (hf : (cfg11.win 2).flush t = true) :
    (dat11 V c).flushed 2 t = ((cfg11.win 2).blk t).view.read (Elt Ideal) (prod11 V c) := by
  have hN : cfg11.N = 32 := N_11
  have ht := t.isLt
  have h7 : t.val % 8 = 7 := (flush11_2 t).mp hf
  obtain ⟨-, -, -, -, e0, e1⟩ := idx_facts11 t
  show (cfg11.win 2).cut (grid11.coords t) ((dat11 V c).after 2 t) = _
  rw [after11_2, outIsAcc11 V c t]
  funext y
  obtain ⟨p, q, rfl⟩ : ∃ (p : Fin 2048) (q : Fin 64), y = ix2 p q := ⟨y 0, y 1, eq_ix2 y⟩
  have hp := p.isLt
  have hr : 2048 * (t.val / 8) + p.val < 8192 := by omega
  have hemb : ((cfg11.win 2).blk t).view.emb (ix2 p q) = (ix2 (⟨2048 * (t.val / 8) + p.val, hr⟩ : Fin 8192) q : S8192x64.Idx) :=
    funext fun a => Fin.ext (by
      match a with
      | ⟨0, _⟩ => show win11_2.index t (0 : Fin 2) * 2048 + 1 * p.val = 2048 * (t.val / 8) + p.val; rw [e0]; omega
      | ⟨1, _⟩ => show win11_2.index t (1 : Fin 2) * 64 + 1 * q.val = q.val; rw [e1]; omega)
  rw [View.read_apply]
  show accAt11 V c t.val t.isLt (ix2 p q) = prod11 V c (((cfg11.win 2).blk t).view.emb (ix2 p q))
  rw [hemb, prodAt11 V c ⟨2048 * (t.val / 8) + p.val, hr⟩ q, accInv11 V c t.val t.isLt p q,
    ← dotUpTo_all (aarr11 V c) (xarr11 V c) ⟨2048 * (t.val / 8) + p.val, hr⟩ q,
    show 1024 * (t.val % 8) + 1024 = 8192 by omega]

/-- An entry of the output array is in point t's tile iff each coordinate is in the tile's range on its axis. -/
theorem mem_blk11 (t : Fin cfg11.N) (i : S8192x64.Idx) :
    i ∈ ((cfg11.win 2).blk t).view.set
      ↔ ∀ a : Fin 2, win11_2.index t a * S2048x64.size a ≤ (i a).val ∧ (i a).val < win11_2.index t a * S2048x64.size a + S2048x64.size a := by
  show i ∈ ((View.whole (Pipeline.arrRef spec11 2)).slice (win11_2.rect t)).set ↔ _
  rw [View.set_slice_whole, Rect.mem_set_unit]
  exact Iff.rfl

/-- THE COVER: row r of the output array lies in the tile written back at point 8 (r / 2048) + 7, the last of its row
    of tiles. -/
theorem cover11 (i : S8192x64.Idx) :
    ∃ t : Fin cfg11.N, (cfg11.win 2).flush t = true ∧ i ∈ ((cfg11.win 2).blk t).view.set := by
  have hN : cfg11.N = 32 := N_11
  have hi0 : (i 0).val < 8192 := (i 0).isLt
  have hi1 : (i 1).val < 64 := (i 1).isLt
  have hlt : 8 * ((i 0).val / 2048) + 7 < cfg11.N := by omega
  obtain ⟨t, htv⟩ : ∃ t : Fin cfg11.N, t.val = 8 * ((i 0).val / 2048) + 7 := ⟨⟨_, hlt⟩, rfl⟩
  obtain ⟨-, -, -, -, e0, e1⟩ := idx_facts11 t
  refine ⟨t, (flush11_2 t).mpr (by omega), ?_⟩
  rw [mem_blk11]
  intro a
  match a with
  | ⟨0, _⟩ =>
    show win11_2.index t (0 : Fin 2) * 2048 ≤ (i 0).val ∧ (i 0).val < win11_2.index t (0 : Fin 2) * 2048 + 2048
    rw [e0]; omega
  | ⟨1, _⟩ =>
    show win11_2.index t (1 : Fin 2) * 64 ≤ (i 1).val ∧ (i 1).val < win11_2.index t (1 : Fin 2) * 64 + 64
    rw [e1]; omega

/-- THE VALUE OF REGION 0: after the region the output array holds the product of the two input arrays as the
    region found them — every tile written back is a tile of the product, and the written tiles cover the array. -/
theorem mm11 (c : Dev nD) :
    (dat11 (F := Ideal) V c).arrAt 2 cfg11.N
      = Host.dotGeneral (F := Ideal) (φ₁ := .f32) (φ₂ := .f32) Cert.ReferenceIdeal.dot_S8192x8192_S8192x64_S8192x64_1_0_0_1_n_n none
          (V c (Pipeline.arrRef spec11 0)) (V c (Pipeline.arrRef spec11 1)) :=
  (dat11 V c).arrAt_eq_of_cover 2 (prod11 V c) (flushedTile11 V c) (fun i => cover11 i)

end Blocks

end Cert.KernelIdeal.Hand

end
-- ==== Proof.Value.KRead2.lean ====
/-
  The arrays of the four sequences, at the exact values, at the boundaries of @main where they are read. A blocked
  product leaves in its output array the matrix product of its two input arrays as it finds them (the region's value);
  a hop's three host operations leave hop of the aggregate and the mixing weight; every other item leaves the array
  alone. Reading forward from the launch: main_v605, v609, v610, v611 hold d₁, r₁, s₁, u₁ of the argument arrays,
  main_v635, v639, v640, v641 hold d₂, r₂, s₂, u₂ and main_v665, v669, v670, v671 hold d₃, r₃, s₃, u₃, with the
  matrix product the reference's dot_general and the mixing weights the kernel program's own small dot_general. Each
  array is then carried, unchanged, to the later boundaries at which a product or a normalisation reads it: buffer
  indices are allocated in program order, so every later item writes higher-indexed buffers only.
-/
import proofs.«158997_j77232101916990_1_alg».proof.Proof.Value.KRead1
import proofs.«158997_j77232101916990_1_alg».proof.Proof.KI.Keep
import proofs.«158997_j77232101916990_1_alg».proof.Proof.KI.R0Val
import proofs.«158997_j77232101916990_1_alg».proof.Proof.KI.R1Val
import proofs.«158997_j77232101916990_1_alg».proof.Proof.KI.R2Val
import proofs.«158997_j77232101916990_1_alg».proof.Proof.KI.R3Val
import proofs.«158997_j77232101916990_1_alg».proof.Proof.KI.R4Val
import proofs.«158997_j77232101916990_1_alg».proof.Proof.KI.R5Val
import proofs.«158997_j77232101916990_1_alg».proof.Proof.KI.R6Val
import proofs.«158997_j77232101916990_1_alg».proof.Proof.KI.R7Val
import proofs.«158997_j77232101916990_1_alg».proof.Proof.KI.R8Val
import proofs.«158997_j77232101916990_1_alg».proof.Proof.KI.R9Val
import proofs.«158997_j77232101916990_1_alg».proof.Proof.KI.R10Val
import proofs.«158997_j77232101916990_1_alg».proof.Proof.KI.R11Val

set_option maxRecDepth 16384

noncomputable section

namespace Cert.Value

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (ρ : Dev nD → PrngReg) (c : Dev nD)

/-- The argument arrays as core c's launch memory holds them. -/
abbrev ka0 : FVec Ideal Cert.KernelIdeal.S8192x64 .f32 := m ((c : Thread nD τ).loc main_arg0)
abbrev ka1 : FVec Ideal Cert.KernelIdeal.S8192x64 .f32 := m ((c : Thread nD τ).loc main_arg1)
abbrev ka2 : FVec Ideal Cert.KernelIdeal.S4x64 .f32 := m ((c : Thread nD τ).loc main_arg2)
abbrev ka3 : FVec Ideal Cert.KernelIdeal.S8192x4 .f32 := m ((c : Thread nD τ).loc main_arg3)
abbrev ka4 : FVec Ideal Cert.KernelIdeal.S8192x4 .f32 := m ((c : Thread nD τ).loc main_arg4)
abbrev ka5 : FVec Ideal Cert.KernelIdeal.S8192x8192 .f32 := m ((c : Thread nD τ).loc main_arg5)
abbrev ka6 : FVec Ideal Cert.KernelIdeal.S8192x8192 .f32 := m ((c : Thread nD τ).loc main_arg6)
abbrev ka7 : FVec Ideal Cert.KernelIdeal.S8192x8192 .f32 := m ((c : Thread nD τ).loc main_arg7)
abbrev ka8 : FVec Ideal Cert.KernelIdeal.S8192x8192 .f32 := m ((c : Thread nD τ).loc main_arg8)
abbrev ka9 : FVec Ideal Cert.KernelIdeal.S8192x64 .f32 := m ((c : Thread nD τ).loc main_arg9)
abbrev ka10 : FVec Ideal Cert.KernelIdeal.S8192x64 .f32 := m ((c : Thread nD τ).loc main_arg10)
/-- The two mixing weights. -/
abbrev kwd : FVec Ideal Cert.KernelIdeal.S8192x64 .f32 := mixK (ka3 m c) (ka2 m c)
abbrev kwr : FVec Ideal Cert.KernelIdeal.S8192x64 .f32 := mixK (ka4 m c) (ka2 m c)

/-- Item 22 (region 0): v602 = arg5 · arg1. -/
theorem at23_v602 : W23 m ρ c (Proc.devRef .tc main_v602) = mmR (ka5 m c) (ka1 m c) :=
  (W23_arr m ρ c 2).trans ((mm0 (V22 m ρ) c).trans (congrArg₂ (mmR (F := Ideal)) (launch22 m ρ c main_arg5 (by decide)) (launch22 m ρ c main_arg1 (by decide))))
/-- Item 23: v605 = hop v602 (mix arg3 arg2). -/
theorem at24_v605 : W24 m ρ c (Proc.devRef .tc main_v605) = d1 mmR (kwd m c) (ka1 m c) (ka5 m c) :=
  (hop_v605 (W23 m ρ c)).trans (congrArg₂ (hop (F := Ideal)) (at23_v602 m ρ c) (congrArg₂ (mixK (F := Ideal)) (launch23 m ρ c main_arg3 (by decide)) (launch23 m ρ c main_arg2 (by decide))))
/-- Item 24 (region 1): v606 = arg6 · arg0. -/
theorem at25_v606 : W25 m ρ c (Proc.devRef .tc main_v606) = mmR (ka6 m c) (ka0 m c) :=
  (W25_arr m ρ c 2).trans ((mm1 (V24 m ρ) c).trans (congrArg₂ (mmR (F := Ideal)) (launch24 m ρ c main_arg6 (by decide)) (launch24 m ρ c main_arg0 (by decide))))
/-- Item 25: v609 = hop v606 (mix arg4 arg2). -/
theorem at26_v609 : W26 m ρ c (Proc.devRef .tc main_v609) = r1 mmR (kwr m c) (ka0 m c) (ka6 m c) :=
  (hop_v609 (W25 m ρ c)).trans (congrArg₂ (hop (F := Ideal)) (at25_v606 m ρ c) (congrArg₂ (mixK (F := Ideal)) (launch25 m ρ c main_arg4 (by decide)) (launch25 m ρ c main_arg2 (by decide))))
/-- Item 26 (region 2): v610 = arg8 · arg9. -/
theorem at27_v610 : W27 m ρ c (Proc.devRef .tc main_v610) = s1 mmR (ka9 m c) (ka8 m c) :=
  (W27_arr m ρ c 2).trans ((mm2 (V26 m ρ) c).trans (congrArg₂ (mmR (F := Ideal)) (launch26 m ρ c main_arg8 (by decide)) (launch26 m ρ c main_arg9 (by decide))))
/-- Item 27 (region 3): v611 = arg7 · arg10. -/
theorem at28_v611 : W28 m ρ c (Proc.devRef .tc main_v611) = u1 mmR (ka10 m c) (ka7 m c) :=
  (W28_arr m ρ c 2).trans ((mm3 (V27 m ρ) c).trans (congrArg₂ (mmR (F := Ideal)) (launch27 m ρ c main_arg7 (by decide)) (launch27 m ρ c main_arg10 (by decide))))
/-- v605 is as item 23 left it. -/
theorem at28_v605 : W28 m ρ c (Proc.devRef .tc main_v605) = d1 mmR (kwd m c) (ka1 m c) (ka5 m c) :=
  ((tail28 m ρ c main_v605 (by decide)).symm.trans (tail24 m ρ c main_v605 (by decide))).trans (at24_v605 m ρ c)
/-- v610 is as item 26 left it. -/
theorem at30_v610 : W30 m ρ c (Proc.devRef .tc main_v610) = s1 mmR (ka9 m c) (ka8 m c) :=
  ((tail30 m ρ c main_v610 (by decide)).symm.trans (tail27 m ρ c main_v610 (by decide))).trans (at27_v610 m ρ c)
/-- v609 is as item 25 left it. -/
theorem at32_v609 : W32 m ρ c (Proc.devRef .tc main_v609) = r1 mmR (kwr m c) (ka0 m c) (ka6 m c) :=
  ((tail32 m ρ c main_v609 (by decide)).symm.trans (tail26 m ρ c main_v609 (by decide))).trans (at26_v609 m ρ c)
/-- v611 is as item 27 left it. -/
theorem at34_v611 : W34 m ρ c (Proc.devRef .tc main_v611) = u1 mmR (ka10 m c) (ka7 m c) :=
  ((tail34 m ρ c main_v611 (by decide)).symm.trans (tail28 m ρ c main_v611 (by decide))).trans (at28_v611 m ρ c)
/-- v609 is as item 25 left it. -/
theorem at36_v609 : W36 m ρ c (Proc.devRef .tc main_v609) = r1 mmR (kwr m c) (ka0 m c) (ka6 m c) :=
  ((tail36 m ρ c main_v609 (by decide)).symm.trans (tail26 m ρ c main_v609 (by decide))).trans (at26_v609 m ρ c)
/-- Item 36 (region 4): v632 = arg5 · v609. -/
theorem at37_v632 : W37 m ρ c (Proc.devRef .tc main_v632) = mmR (ka5 m c) (r1 mmR (kwr m c) (ka0 m c) (ka6 m c)) :=
  (W37_arr m ρ c 2).trans ((mm4 (V36 m ρ) c).trans (congrArg₂ (mmR (F := Ideal)) (launch36 m ρ c main_arg5 (by decide)) (at36_v609 m ρ c)))
/-- Item 37: v635 = hop v632 (mix arg3 arg2). -/
theorem at38_v635 : W38 m ρ c (Proc.devRef .tc main_v635) = d2 mmR (kwd m c) (kwr m c) (ka0 m c) (ka5 m c) (ka6 m c) :=
  (hop_v635 (W37 m ρ c)).trans (congrArg₂ (hop (F := Ideal)) (at37_v632 m ρ c) (congrArg₂ (mixK (F := Ideal)) (launch37 m ρ c main_arg3 (by decide)) (launch37 m ρ c main_arg2 (by decide))))
/-- v605 is as item 23 left it. -/
theorem at38_v605 : W38 m ρ c (Proc.devRef .tc main_v605) = d1 mmR (kwd m c) (ka1 m c) (ka5 m c) :=
  ((tail38 m ρ c main_v605 (by decide)).symm.trans (tail24 m ρ c main_v605 (by decide))).trans (at24_v605 m ρ c)
/-- Item 38 (region 5): v636 = arg6 · v605. -/
theorem at39_v636 : W39 m ρ c (Proc.devRef .tc main_v636) = mmR (ka6 m c) (d1 mmR (kwd m c) (ka1 m c) (ka5 m c)) :=
  (W39_arr m ρ c 2).trans ((mm5 (V38 m ρ) c).trans (congrArg₂ (mmR (F := Ideal)) (launch38 m ρ c main_arg6 (by decide)) (at38_v605 m ρ c)))
/-- Item 39: v639 = hop v636 (mix arg4 arg2). -/
theorem at40_v639 : W40 m ρ c (Proc.devRef .tc main_v639) = r2 mmR (kwd m c) (kwr m c) (ka1 m c) (ka5 m c) (ka6 m c) :=
  (hop_v639 (W39 m ρ c)).trans (congrArg₂ (hop (F := Ideal)) (at39_v636 m ρ c) (congrArg₂ (mixK (F := Ideal)) (launch39 m ρ c main_arg4 (by decide)) (launch39 m ρ c main_arg2 (by decide))))
/-- v610 is as item 26 left it. -/
theorem at40_v610 : W40 m ρ c (Proc.devRef .tc main_v610) = s1 mmR (ka9 m c) (ka8 m c) :=
  ((tail40 m ρ c main_v610 (by decide)).symm.trans (tail27 m ρ c main_v610 (by decide))).trans (at27_v610 m ρ c)
/-- Item 40 (region 6): v640 = arg8 · v610. -/
theorem at41_v640 : W41 m ρ c (Proc.devRef .tc main_v640) = s2 mmR (ka9 m c) (ka8 m c) :=
  (W41_arr m ρ c 2).trans ((mm6 (V40 m ρ) c).trans (congrArg₂ (mmR (F := Ideal)) (launch40 m ρ c main_arg8 (by decide)) (at40_v610 m ρ c)))
/-- v611 is as item 27 left it. -/
theorem at41_v611 : W41 m ρ c (Proc.devRef .tc main_v611) = u1 mmR (ka10 m c) (ka7 m c) :=
  ((tail41 m ρ c main_v611 (by decide)).symm.trans (tail28 m ρ c main_v611 (by decide))).trans (at28_v611 m ρ c)
/-- Item 41 (region 7): v641 = arg7 · v611. -/
theorem at42_v641 : W42 m ρ c (Proc.devRef .tc main_v641) = u2 mmR (ka10 m c) (ka7 m c) :=
  (W42_arr m ρ c 2).trans ((mm7 (V41 m ρ) c).trans (congrArg₂ (mmR (F := Ideal)) (launch41 m ρ c main_arg7 (by decide)) (at41_v611 m ρ c)))
/-- v635 is as item 37 left it. -/
theorem at42_v635 : W42 m ρ c (Proc.devRef .tc main_v635) = d2 mmR (kwd m c) (kwr m c) (ka0 m c) (ka5 m c) (ka6 m c) :=
  ((tail42 m ρ c main_v635 (by decide)).symm.trans (tail38 m ρ c main_v635 (by decide))).trans (at38_v635 m ρ c)
/-- v640 is as item 40 left it. -/
theorem at45_v640 : W45 m ρ c (Proc.devRef .tc main_v640) = s2 mmR (ka9 m c) (ka8 m c) :=
  ((tail45 m ρ c main_v640 (by decide)).symm.trans (tail41 m ρ c main_v640 (by decide))).trans (at41_v640 m ρ c)
/-- v639 is as item 39 left it. -/
theorem at47_v639 : W47 m ρ c (Proc.devRef .tc main_v639) = r2 mmR (kwd m c) (kwr m c) (ka1 m c) (ka5 m c) (ka6 m c) :=
  ((tail47 m ρ c main_v639 (by decide)).symm.trans (tail40 m ρ c main_v639 (by decide))).trans (at40_v639 m ρ c)
/-- v641 is as item 41 left it. -/
theorem at49_v641 : W49 m ρ c (Proc.devRef .tc main_v641) = u2 mmR (ka10 m c) (ka7 m c) :=
  ((tail49 m ρ c main_v641 (by decide)).symm.trans (tail42 m ρ c main_v641 (by decide))).trans (at42_v641 m ρ c)
/-- v639 is as item 39 left it. -/
theorem at51_v639 : W51 m ρ c (Proc.devRef .tc main_v639) = r2 mmR (kwd m c) (kwr m c) (ka1 m c) (ka5 m c) (ka6 m c) :=
  ((tail51 m ρ c main_v639 (by decide)).symm.trans (tail40 m ρ c main_v639 (by decide))).trans (at40_v639 m ρ c)
/-- Item 51 (region 8): v662 = arg5 · v639. -/
theorem at52_v662 : W52 m ρ c (Proc.devRef .tc main_v662) = mmR (ka5 m c) (r2 mmR (kwd m c) (kwr m c) (ka1 m c) (ka5 m c) (ka6 m c)) :=
  (W52_arr m ρ c 2).trans ((mm8 (V51 m ρ) c).trans (congrArg₂ (mmR (F := Ideal)) (launch51 m ρ c main_arg5 (by decide)) (at51_v639 m ρ c)))
/-- Item 52: v665 = hop v662 (mix arg3 arg2). -/
theorem at53_v665 : W53 m ρ c (Proc.devRef .tc main_v665) = d3 mmR (kwd m c) (kwr m c) (ka1 m c) (ka5 m c) (ka6 m c) :=
  (hop_v665 (W52 m ρ c)).trans (congrArg₂ (hop (F := Ideal)) (at52_v662 m ρ c) (congrArg₂ (mixK (F := Ideal)) (launch52 m ρ c main_arg3 (by decide)) (launch52 m ρ c main_arg2 (by decide))))
/-- v635 is as item 37 left it. -/
theorem at53_v635 : W53 m ρ c (Proc.devRef .tc main_v635) = d2 mmR (kwd m c) (kwr m c) (ka0 m c) (ka5 m c) (ka6 m c) :=
  ((tail53 m ρ c main_v635 (by decide)).symm.trans (tail38 m ρ c main_v635 (by decide))).trans (at38_v635 m ρ c)
/-- Item 53 (region 9): v666 = arg6 · v635. -/
theorem at54_v666 : W54 m ρ c (Proc.devRef .tc main_v666) = mmR (ka6 m c) (d2 mmR (kwd m c) (kwr m c) (ka0 m c) (ka5 m c) (ka6 m c)) :=
  (W54_arr m ρ c 2).trans ((mm9 (V53 m ρ) c).trans (congrArg₂ (mmR (F := Ideal)) (launch53 m ρ c main_arg6 (by decide)) (at53_v635 m ρ c)))
/-- Item 54: v669 = hop v666 (mix arg4 arg2). -/
theorem at55_v669 : W55 m ρ c (Proc.devRef .tc main_v669) = r3 mmR (kwd m c) (kwr m c) (ka0 m c) (ka5 m c) (ka6 m c) :=
  (hop_v669 (W54 m ρ c)).trans (congrArg₂ (hop (F := Ideal)) (at54_v666 m ρ c) (congrArg₂ (mixK (F := Ideal)) (launch54 m ρ c main_arg4 (by decide)) (launch54 m ρ c main_arg2 (by decide))))
/-- v640 is as item 40 left it. -/
theorem at55_v640 : W55 m ρ c (Proc.devRef .tc main_v640) = s2 mmR (ka9 m c) (ka8 m c) :=
  ((tail55 m ρ c main_v640 (by decide)).symm.trans (tail41 m ρ c main_v640 (by decide))).trans (at41_v640 m ρ c)
/-- Item 55 (region 10): v670 = arg8 · v640. -/
theorem at56_v670 : W56 m ρ c (Proc.devRef .tc main_v670) = s3 mmR (ka9 m c) (ka8 m c) :=
  (W56_arr m ρ c 2).trans ((mm10 (V55 m ρ) c).trans (congrArg₂ (mmR (F := Ideal)) (launch55 m ρ c main_arg8 (by decide)) (at55_v640 m ρ c)))
/-- v641 is as item 41 left it. -/
theorem at56_v641 : W56 m ρ c (Proc.devRef .tc main_v641) = u2 mmR (ka10 m c) (ka7 m c) :=
  ((tail56 m ρ c main_v641 (by decide)).symm.trans (tail42 m ρ c main_v641 (by decide))).trans (at42_v641 m ρ c)
/-- Item 56 (region 11): v671 = arg7 · v641. -/
theorem at57_v671 : W57 m ρ c (Proc.devRef .tc main_v671) = u3 mmR (ka10 m c) (ka7 m c) :=
  (W57_arr m ρ c 2).trans ((mm11 (V56 m ρ) c).trans (congrArg₂ (mmR (F := Ideal)) (launch56 m ρ c main_arg7 (by decide)) (at56_v641 m ρ c)))
/-- v665 is as item 52 left it. -/
theorem at57_v665 : W57 m ρ c (Proc.devRef .tc main_v665) = d3 mmR (kwd m c) (kwr m c) (ka1 m c) (ka5 m c) (ka6 m c) :=
  ((tail57 m ρ c main_v665 (by decide)).symm.trans (tail53 m ρ c main_v665 (by decide))).trans (at53_v665 m ρ c)
/-- v670 is as item 55 left it. -/
theorem at59_v670 : W59 m ρ c (Proc.devRef .tc main_v670) = s3 mmR (ka9 m c) (ka8 m c) :=
  ((tail59 m ρ c main_v670 (by decide)).symm.trans (tail56 m ρ c main_v670 (by decide))).trans (at56_v670 m ρ c)
/-- v669 is as item 54 left it. -/
theorem at61_v669 : W61 m ρ c (Proc.devRef .tc main_v669) = r3 mmR (kwd m c) (kwr m c) (ka0 m c) (ka5 m c) (ka6 m c) :=
  ((tail61 m ρ c main_v669 (by decide)).symm.trans (tail55 m ρ c main_v669 (by decide))).trans (at55_v669 m ρ c)
/-- v671 is as item 56 left it. -/
theorem at63_v671 : W63 m ρ c (Proc.devRef .tc main_v671) = u3 mmR (ka10 m c) (ka7 m c) :=
  ((tail63 m ρ c main_v671 (by decide)).symm.trans (tail57 m ρ c main_v671 (by decide))).trans (at57_v671 m ρ c)

end Cert.Value

end
-- ==== Proof.Value.KRead3.lean ====
/-
  The two results. Each of the sixteen [8192, 64] pieces is a row normalisation of an argument array or of an array of
  the four sequences, read at the boundary where its ten operations start; the piece then stays as it is to the last
  item, whose two concatenations put eight pieces side by side. So the final contents of main_v692 are out0, and of
  main_v693 out1, of the argument arrays, at the reference's matrix product and the kernel program's mixing weights.
-/
import proofs.«158997_j77232101916990_1_alg».proof.Proof.Value.KRead2

set_option maxRecDepth 16384

noncomputable section

namespace Cert.Value

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (ρ : Dev nD → PrngReg) (c : Dev nD)

/-- v586 = l2n arg0, once items 13, 14 have run. -/
theorem at15_v586 : W15 m ρ c (Proc.devRef .tc main_v586) = l2n (ka0 m c) :=
  (l2_v586 (W13 m ρ c)).trans (congrArg (l2n (F := Ideal)) (launch13 m ρ c main_arg0 (by decide)))
/-- It is still that when the last item starts. -/
theorem at64_v586 : W64 m ρ c (Proc.devRef .tc main_v586) = l2n (ka0 m c) :=
  (tail64 m ρ c main_v586 (by decide)).symm.trans ((W65_main_v586 m ρ c).trans (at15_v586 m ρ c))
/-- v591 = l2n arg9, once items 15, 16, 17 have run. -/
theorem at18_v591 : W18 m ρ c (Proc.devRef .tc main_v591) = l2n (ka9 m c) :=
  (l2_v591 (W15 m ρ c)).trans (congrArg (l2n (F := Ideal)) (launch15 m ρ c main_arg9 (by decide)))
/-- It is still that when the last item starts. -/
theorem at64_v591 : W64 m ρ c (Proc.devRef .tc main_v591) = l2n (ka9 m c) :=
  (tail64 m ρ c main_v591 (by decide)).symm.trans ((W65_main_v591 m ρ c).trans (at18_v591 m ρ c))
/-- v596 = l2n arg1, once items 18, 19 have run. -/
theorem at20_v596 : W20 m ρ c (Proc.devRef .tc main_v596) = l2n (ka1 m c) :=
  (l2_v596 (W18 m ρ c)).trans (congrArg (l2n (F := Ideal)) (launch18 m ρ c main_arg1 (by decide)))
/-- It is still that when the last item starts. -/
theorem at64_v596 : W64 m ρ c (Proc.devRef .tc main_v596) = l2n (ka1 m c) :=
  (tail64 m ρ c main_v596 (by decide)).symm.trans ((W65_main_v596 m ρ c).trans (at20_v596 m ρ c))
/-- v601 = l2n arg10, once items 20, 21 have run. -/
theorem at22_v601 : W22 m ρ c (Proc.devRef .tc main_v601) = l2n (ka10 m c) :=
  (l2_v601 (W20 m ρ c)).trans (congrArg (l2n (F := Ideal)) (launch20 m ρ c main_arg10 (by decide)))
/-- It is still that when the last item starts. -/
theorem at64_v601 : W64 m ρ c (Proc.devRef .tc main_v601) = l2n (ka10 m c) :=
  (tail64 m ρ c main_v601 (by decide)).symm.trans ((W65_main_v601 m ρ c).trans (at22_v601 m ρ c))
/-- v616 = l2n v605, once items 28, 29 have run. -/
theorem at30_v616 : W30 m ρ c (Proc.devRef .tc main_v616) = l2n (d1 mmR (kwd m c) (ka1 m c) (ka5 m c)) :=
  (l2_v616 (W28 m ρ c)).trans (congrArg (l2n (F := Ideal)) (at28_v605 m ρ c))
/-- It is still that when the last item starts. -/
theorem at64_v616 : W64 m ρ c (Proc.devRef .tc main_v616) = l2n (d1 mmR (kwd m c) (ka1 m c) (ka5 m c)) :=
  (tail64 m ρ c main_v616 (by decide)).symm.trans ((W65_main_v616 m ρ c).trans (at30_v616 m ρ c))
/-- v621 = l2n v610, once items 30, 31 have run. -/
theorem at32_v621 : W32 m ρ c (Proc.devRef .tc main_v621) = l2n (s1 mmR (ka9 m c) (ka8 m c)) :=
  (l2_v621 (W30 m ρ c)).trans (congrArg (l2n (F := Ideal)) (at30_v610 m ρ c))
/-- It is still that when the last item starts. -/
theorem at64_v621 : W64 m ρ c (Proc.devRef .tc main_v621) = l2n (s1 mmR (ka9 m c) (ka8 m c)) :=
  (tail64 m ρ c main_v621 (by decide)).symm.trans ((W65_main_v621 m ρ c).trans (at32_v621 m ρ c))
/-- v626 = l2n v609, once items 32, 33 have run. -/
theorem at34_v626 : W34 m ρ c (Proc.devRef .tc main_v626) = l2n (r1 mmR (kwr m c) (ka0 m c) (ka6 m c)) :=
  (l2_v626 (W32 m ρ c)).trans (congrArg (l2n (F := Ideal)) (at32_v609 m ρ c))
/-- It is still that when the last item starts. -/
theorem at64_v626 : W64 m ρ c (Proc.devRef .tc main_v626) = l2n (r1 mmR (kwr m c) (ka0 m c) (ka6 m c)) :=
  (tail64 m ρ c main_v626 (by decide)).symm.trans ((W65_main_v626 m ρ c).trans (at34_v626 m ρ c))
/-- v631 = l2n v611, once items 34, 35 have run. -/
theorem at36_v631 : W36 m ρ c (Proc.devRef .tc main_v631) = l2n (u1 mmR (ka10 m c) (ka7 m c)) :=
  (l2_v631 (W34 m ρ c)).trans (congrArg (l2n (F := Ideal)) (at34_v611 m ρ c))
/-- It is still that when the last item starts. -/
theorem at64_v631 : W64 m ρ c (Proc.devRef .tc main_v631) = l2n (u1 mmR (ka10 m c) (ka7 m c)) :=
  (tail64 m ρ c main_v631 (by decide)).symm.trans ((W65_main_v631 m ρ c).trans (at36_v631 m ρ c))
/-- v646 = l2n v635, once items 42, 43, 44 have run. -/
theorem at45_v646 : W45 m ρ c (Proc.devRef .tc main_v646) = l2n (d2 mmR (kwd m c) (kwr m c) (ka0 m c) (ka5 m c) (ka6 m c)) :=
  (l2_v646 (W42 m ρ c)).trans (congrArg (l2n (F := Ideal)) (at42_v635 m ρ c))
/-- It is still that when the last item starts. -/
theorem at64_v646 : W64 m ρ c (Proc.devRef .tc main_v646) = l2n (d2 mmR (kwd m c) (kwr m c) (ka0 m c) (ka5 m c) (ka6 m c)) :=
  (tail64 m ρ c main_v646 (by decide)).symm.trans ((W65_main_v646 m ρ c).trans (at45_v646 m ρ c))
/-- v651 = l2n v640, once items 45, 46 have run. -/
theorem at47_v651 : W47 m ρ c (Proc.devRef .tc main_v651) = l2n (s2 mmR (ka9 m c) (ka8 m c)) :=
  (l2_v651 (W45 m ρ c)).trans (congrArg (l2n (F := Ideal)) (at45_v640 m ρ c))
/-- It is still that when the last item starts. -/
theorem at64_v651 : W64 m ρ c (Proc.devRef .tc main_v651) = l2n (s2 mmR (ka9 m c) (ka8 m c)) :=
  (tail64 m ρ c main_v651 (by decide)).symm.trans ((W65_main_v651 m ρ c).trans (at47_v651 m ρ c))
/-- v656 = l2n v639, once items 47, 48 have run. -/
theorem at49_v656 : W49 m ρ c (Proc.devRef .tc main_v656) = l2n (r2 mmR (kwd m c) (kwr m c) (ka1 m c) (ka5 m c) (ka6 m c)) :=
  (l2_v656 (W47 m ρ c)).trans (congrArg (l2n (F := Ideal)) (at47_v639 m ρ c))
/-- It is still that when the last item starts. -/
theorem at64_v656 : W64 m ρ c (Proc.devRef .tc main_v656) = l2n (r2 mmR (kwd m c) (kwr m c) (ka1 m c) (ka5 m c) (ka6 m c)) :=
  (tail64 m ρ c main_v656 (by decide)).symm.trans ((W65_main_v656 m ρ c).trans (at49_v656 m ρ c))
/-- v661 = l2n v641, once items 49, 50 have run. -/
theorem at51_v661 : W51 m ρ c (Proc.devRef .tc main_v661) = l2n (u2 mmR (ka10 m c) (ka7 m c)) :=
  (l2_v661 (W49 m ρ c)).trans (congrArg (l2n (F := Ideal)) (at49_v641 m ρ c))
/-- It is still that when the last item starts. -/
theorem at64_v661 : W64 m ρ c (Proc.devRef .tc main_v661) = l2n (u2 mmR (ka10 m c) (ka7 m c)) :=
  (tail64 m ρ c main_v661 (by decide)).symm.trans ((W65_main_v661 m ρ c).trans (at51_v661 m ρ c))
/-- v676 = l2n v665, once items 57, 58 have run. -/
theorem at59_v676 : W59 m ρ c (Proc.devRef .tc main_v676) = l2n (d3 mmR (kwd m c) (kwr m c) (ka1 m c) (ka5 m c) (ka6 m c)) :=
  (l2_v676 (W57 m ρ c)).trans (congrArg (l2n (F := Ideal)) (at57_v665 m ρ c))
/-- It is still that when the last item starts. -/
theorem at64_v676 : W64 m ρ c (Proc.devRef .tc main_v676) = l2n (d3 mmR (kwd m c) (kwr m c) (ka1 m c) (ka5 m c) (ka6 m c)) :=
  (tail64 m ρ c main_v676 (by decide)).symm.trans ((W65_main_v676 m ρ c).trans (at59_v676 m ρ c))
/-- v681 = l2n v670, once items 59, 60 have run. -/
theorem at61_v681 : W61 m ρ c (Proc.devRef .tc main_v681) = l2n (s3 mmR (ka9 m c) (ka8 m c)) :=
  (l2_v681 (W59 m ρ c)).trans (congrArg (l2n (F := Ideal)) (at59_v670 m ρ c))
/-- It is still that when the last item starts. -/
theorem at64_v681 : W64 m ρ c (Proc.devRef .tc main_v681) = l2n (s3 mmR (ka9 m c) (ka8 m c)) :=
  (tail64 m ρ c main_v681 (by decide)).symm.trans ((W65_main_v681 m ρ c).trans (at61_v681 m ρ c))
/-- v686 = l2n v669, once items 61, 62 have run. -/
theorem at63_v686 : W63 m ρ c (Proc.devRef .tc main_v686) = l2n (r3 mmR (kwd m c) (kwr m c) (ka0 m c) (ka5 m c) (ka6 m c)) :=
  (l2_v686 (W61 m ρ c)).trans (congrArg (l2n (F := Ideal)) (at61_v669 m ρ c))
/-- It is still that when the last item starts. -/
theorem at64_v686 : W64 m ρ c (Proc.devRef .tc main_v686) = l2n (r3 mmR (kwd m c) (kwr m c) (ka0 m c) (ka5 m c) (ka6 m c)) :=
  (tail64 m ρ c main_v686 (by decide)).symm.trans ((W65_main_v686 m ρ c).trans (at63_v686 m ρ c))
/-- v691 = l2n v671, once items 63, 64 have run. -/
theorem at65_v691 : W65 m ρ c (Proc.devRef .tc main_v691) = l2n (u3 mmR (ka10 m c) (ka7 m c)) :=
  (l2_v691 (W63 m ρ c)).trans (congrArg (l2n (F := Ideal)) (at63_v671 m ρ c))

/-- THE FIRST RESULT: the final contents of v692. -/
theorem kernel_out0 : W65 (F := Ideal) m ρ c (Proc.devRef .tc main_v692)
      = out0 (F := Ideal) mmR (mixK (F := Ideal) (m ((c : Thread nD τ).loc main_arg3)) (m ((c : Thread nD τ).loc main_arg2)))
          (mixK (F := Ideal) (m ((c : Thread nD τ).loc main_arg4)) (m ((c : Thread nD τ).loc main_arg2)))
          (m ((c : Thread nD τ).loc main_arg0)) (m ((c : Thread nD τ).loc main_arg1)) (m ((c : Thread nD τ).loc main_arg9))
          (m ((c : Thread nD τ).loc main_arg5)) (m ((c : Thread nD τ).loc main_arg6)) (m ((c : Thread nD τ).loc main_arg8)) :=
  (cat_v692 (W64 m ρ c)).trans (cat8_congr (at64_v586 m ρ c)
    (at64_v591 m ρ c)
    (at64_v616 m ρ c)
    (at64_v621 m ρ c)
    (at64_v646 m ρ c)
    (at64_v651 m ρ c)
    (at64_v676 m ρ c)
    (at64_v681 m ρ c))

/-- THE SECOND RESULT: the final contents of v693. -/
theorem kernel_out1 : W65 (F := Ideal) m ρ c (Proc.devRef .tc main_v693)
      = out1 (F := Ideal) mmR (mixK (F := Ideal) (m ((c : Thread nD τ).loc main_arg3)) (m ((c : Thread nD τ).loc main_arg2)))
          (mixK (F := Ideal) (m ((c : Thread nD τ).loc main_arg4)) (m ((c : Thread nD τ).loc main_arg2)))
          (m ((c : Thread nD τ).loc main_arg0)) (m ((c : Thread nD τ).loc main_arg1)) (m ((c : Thread nD τ).loc main_arg10))
          (m ((c : Thread nD τ).loc main_arg5)) (m ((c : Thread nD τ).loc main_arg6)) (m ((c : Thread nD τ).loc main_arg7)) :=
  (cat_v693 (W64 m ρ c)).trans (cat8_congr (at64_v596 m ρ c)
    (at64_v601 m ρ c)
    (at64_v626 m ρ c)
    (at64_v631 m ρ c)
    (at64_v656 m ρ c)
    (at64_v661 m ρ c)
    (at64_v686 m ρ c)
    (at65_v691 m ρ c))

end Cert.Value

end
-- ==== Proof.Value.Cor00.lean ====
/-
  The independence regularizer, operations 1 … 60 of both programs' @main (window 0).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 0 takes the buffers live before it,
    main_arg2,
  to the buffers live after it,
    main_cst_8, main_v49, main_v47, main_v30, main_v41, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor0`), whatever the
  contents `V`, `V'` are otherwise and in every float family.
-/
import proofs.«158997_j77232101916990_1_alg».proof.Proof.Gen.KernelIdeal.Launch
import proofs.«158997_j77232101916990_1_alg».proof.Proof.Ref.Ops00
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 0: contents that agree on the buffers live before it agree, after it, on the buffers live after it. -/
theorem cor0 (V : Valuation Cert.KernelIdeal.τ Cert.KernelIdeal.sig (Elt F)) (V' : Valuation Cert.ReferenceIdeal.τ Cert.ReferenceIdeal.sig (Elt F))
    (h : V (Proc.devRef .tc Cert.KernelIdeal.main_arg2) = V' (Proc.devRef .tc Cert.ReferenceIdeal.main_arg2)) :
    after (Cert.KernelIdeal.Gen.main_part0_ops0 (F := F)) V (Proc.devRef .tc Cert.KernelIdeal.main_cst_8) = after (Cert.ReferenceIdeal.Hand.rops0 (F := F)) V' (Proc.devRef .tc Cert.ReferenceIdeal.main_cst_8)
      ∧ after (Cert.KernelIdeal.Gen.main_part0_ops0 (F := F)) V (Proc.devRef .tc Cert.KernelIdeal.main_v49) = after (Cert.ReferenceIdeal.Hand.rops0 (F := F)) V' (Proc.devRef .tc Cert.ReferenceIdeal.main_v49)
      ∧ after (Cert.KernelIdeal.Gen.main_part0_ops0 (F := F)) V (Proc.devRef .tc Cert.KernelIdeal.main_v47) = after (Cert.ReferenceIdeal.Hand.rops0 (F := F)) V' (Proc.devRef .tc Cert.ReferenceIdeal.main_v47)
      ∧ after (Cert.KernelIdeal.Gen.main_part0_ops0 (F := F)) V (Proc.devRef .tc Cert.KernelIdeal.main_v30) = after (Cert.ReferenceIdeal.Hand.rops0 (F := F)) V' (Proc.devRef .tc Cert.ReferenceIdeal.main_v30)
      ∧ after (Cert.KernelIdeal.Gen.main_part0_ops0 (F := F)) V (Proc.devRef .tc Cert.KernelIdeal.main_v41) = after (Cert.ReferenceIdeal.Hand.rops0 (F := F)) V' (Proc.devRef .tc Cert.ReferenceIdeal.main_v41)
      ∧ after (Cert.KernelIdeal.Gen.main_part0_ops0 (F := F)) V (Proc.devRef .tc Cert.KernelIdeal.main_arg2) = after (Cert.ReferenceIdeal.Hand.rops0 (F := F)) V' (Proc.devRef .tc Cert.ReferenceIdeal.main_arg2) := by
  have h0 := h
  refine ⟨?_, ?_, ?_, ?_, ?_, ?_⟩
  · after_results_simp <;> rfl
  · after_results_simp
    rw [h0] <;> rfl
  · after_results_simp
    rw [h0] <;> rfl
  · after_results_simp
    rw [h0] <;> rfl
  · after_results_simp
    rw [h0] <;> rfl
  · after_results_simp
    rw [h0] <;> rfl

end Cert.Value

end
-- ==== Proof.Value.Cor01.lean ====
/-
  The independence regularizer, operations 61 … 120 of both programs' @main (window 1).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 1 takes the buffers live before it,
    main_cst_8, main_v49, main_v47, main_v30, main_v41, main_arg2,
  to the buffers live after it,
    main_v89, main_cst_28, main_v85, main_v79, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor1`), whatever the
  contents `V`, `V'` are otherwise and in every float family.
-/
import proofs.«158997_j77232101916990_1_alg».proof.Proof.Gen.KernelIdeal.Launch
import proofs.«158997_j77232101916990_1_alg».proof.Proof.Ref.Ops01
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 1: contents that agree on the buffers live before it agree, after it, on the buffers live after it. -/
theorem cor1 (V : Valuation Cert.KernelIdeal.τ Cert.KernelIdeal.sig (Elt F)) (V' : Valuation Cert.ReferenceIdeal.τ Cert.ReferenceIdeal.sig (Elt F))
    (h : V (Proc.devRef .tc Cert.KernelIdeal.main_cst_8) = V' (Proc.devRef .tc Cert.ReferenceIdeal.main_cst_8)
      ∧ V (Proc.devRef .tc Cert.KernelIdeal.main_v49) = V' (Proc.devRef .tc Cert.ReferenceIdeal.main_v49)
      ∧ V (Proc.devRef .tc Cert.KernelIdeal.main_v47) = V' (Proc.devRef .tc Cert.ReferenceIdeal.main_v47)
      ∧ V (Proc.devRef .tc Cert.KernelIdeal.main_v30) = V' (Proc.devRef .tc Cert.ReferenceIdeal.main_v30)
      ∧ V (Proc.devRef .tc Cert.KernelIdeal.main_v41) = V' (Proc.devRef .tc Cert.ReferenceIdeal.main_v41)
      ∧ V (Proc.devRef .tc Cert.KernelIdeal.main_arg2) = V' (Proc.devRef .tc Cert.ReferenceIdeal.main_arg2)) :
    after (Cert.KernelIdeal.Gen.main_part1_ops0 (F := F)) V (Proc.devRef .tc Cert.KernelIdeal.main_v89) = after (Cert.ReferenceIdeal.Hand.rops1 (F := F)) V' (Proc.devRef .tc Cert.ReferenceIdeal.main_v89)
      ∧ after (Cert.KernelIdeal.Gen.main_part1_ops0 (F := F)) V (Proc.devRef .tc Cert.KernelIdeal.main_cst_28) = after (Cert.ReferenceIdeal.Hand.rops1 (F := F)) V' (Proc.devRef .tc Cert.ReferenceIdeal.main_cst_28)
      ∧ after (Cert.KernelIdeal.Gen.main_part1_ops0 (F := F)) V (Proc.devRef .tc Cert.KernelIdeal.main_v85) = after (Cert.ReferenceIdeal.Hand.rops1 (F := F)) V' (Proc.devRef .tc Cert.ReferenceIdeal.main_v85)
      ∧ after (Cert.KernelIdeal.Gen.main_part1_ops0 (F := F)) V (Proc.devRef .tc Cert.KernelIdeal.main_v79) = after (Cert.ReferenceIdeal.Hand.rops1 (F := F)) V' (Proc.devRef .tc Cert.ReferenceIdeal.main_v79)
      ∧ after (Cert.KernelIdeal.Gen.main_part1_ops0 (F := F)) V (Proc.devRef .tc Cert.KernelIdeal.main_arg2) = after (Cert.ReferenceIdeal.Hand.rops1 (F := F)) V' (Proc.devRef .tc Cert.ReferenceIdeal.main_arg2) := by
  obtain ⟨h0, h1, h2, h3, h4, h5⟩ := h
  refine ⟨?_, ?_, ?_, ?_, ?_⟩
  · after_results_simp
    rw [h4] <;> rfl
  · after_results_simp <;> rfl
  · after_results_simp
    rw [h0, h1, h2, h3] <;> rfl
  · after_results_simp
    rw [h0, h1, h2, h3, h4] <;> rfl
  · after_results_simp
    rw [h5] <;> rfl

end Cert.Value

end
-- ==== Proof.Value.Cor02.lean ====
/-
  The independence regularizer, operations 121 … 180 of both programs' @main (window 2).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 2 takes the buffers live before it,
    main_v89, main_cst_28, main_v85, main_v79, main_arg2,
  to the buffers live after it,
    main_v140, main_v127, main_v138, main_v96, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor2`), whatever the
  contents `V`, `V'` are otherwise and in every float family.
-/
import proofs.«158997_j77232101916990_1_alg».proof.Proof.Gen.KernelIdeal.Launch
import proofs.«158997_j77232101916990_1_alg».proof.Proof.Ref.Ops02
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 2: contents that agree on the buffers live before it agree, after it, on the buffers live after it. -/
theorem cor2 (V : Valuation Cert.KernelIdeal.τ Cert.KernelIdeal.sig (Elt F)) (V' : Valuation Cert.ReferenceIdeal.τ Cert.ReferenceIdeal.sig (Elt F))
    (h : V (Proc.devRef .tc Cert.KernelIdeal.main_v89) = V' (Proc.devRef .tc Cert.ReferenceIdeal.main_v89)
      ∧ V (Proc.devRef .tc Cert.KernelIdeal.main_cst_28) = V' (Proc.devRef .tc Cert.ReferenceIdeal.main_cst_28)
      ∧ V (Proc.devRef .tc Cert.KernelIdeal.main_v85) = V' (Proc.devRef .tc Cert.ReferenceIdeal.main_v85)
      ∧ V (Proc.devRef .tc Cert.KernelIdeal.main_v79) = V' (Proc.devRef .tc Cert.ReferenceIdeal.main_v79)
      ∧ V (Proc.devRef .tc Cert.KernelIdeal.main_arg2) = V' (Proc.devRef .tc Cert.ReferenceIdeal.main_arg2)) :
    after (Cert.KernelIdeal.Gen.main_part2_ops0 (F := F)) V (Proc.devRef .tc Cert.KernelIdeal.main_v140) = after (Cert.ReferenceIdeal.Hand.rops2 (F := F)) V' (Proc.devRef .tc Cert.ReferenceIdeal.main_v140)
      ∧ after (Cert.KernelIdeal.Gen.main_part2_ops0 (F := F)) V (Proc.devRef .tc Cert.KernelIdeal.main_v127) = after (Cert.ReferenceIdeal.Hand.rops2 (F := F)) V' (Proc.devRef .tc Cert.ReferenceIdeal.main_v127)
      ∧ after (Cert.KernelIdeal.Gen.main_part2_ops0 (F := F)) V (Proc.devRef .tc Cert.KernelIdeal.main_v138) = after (Cert.ReferenceIdeal.Hand.rops2 (F := F)) V' (Proc.devRef .tc Cert.ReferenceIdeal.main_v138)
      ∧ after (Cert.KernelIdeal.Gen.main_part2_ops0 (F := F)) V (Proc.devRef .tc Cert.KernelIdeal.main_v96) = after (Cert.ReferenceIdeal.Hand.rops2 (F := F)) V' (Proc.devRef .tc Cert.ReferenceIdeal.main_v96)
      ∧ after (Cert.KernelIdeal.Gen.main_part2_ops0 (F := F)) V (Proc.devRef .tc Cert.KernelIdeal.main_arg2) = after (Cert.ReferenceIdeal.Hand.rops2 (F := F)) V' (Proc.devRef .tc Cert.ReferenceIdeal.main_arg2) := by
  obtain ⟨h0, h1, h2, h3, h4⟩ := h
  refine ⟨?_, ?_, ?_, ?_, ?_⟩
  · after_results_simp
    rw [h4] <;> rfl
  · after_results_simp
    rw [h4] <;> rfl
  · after_results_simp
    rw [h4] <;> rfl
  · after_results_simp
    rw [h0, h1, h2, h3] <;> rfl
  · after_results_simp
    rw [h4] <;> rfl

end Cert.Value

end
-- ==== Proof.Value.Cor03.lean ====
/-
  The independence regularizer, operations 181 … 240 of both programs' @main (window 3).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 3 takes the buffers live before it,
    main_v140, main_v127, main_v138, main_v96, main_arg2,
  to the buffers live after it,
    main_v181, main_v170, main_v176, main_v96, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor3`), whatever the
  contents `V`, `V'` are otherwise and in every float family.
-/
import proofs.«158997_j77232101916990_1_alg».proof.Proof.Gen.KernelIdeal.Launch
import proofs.«158997_j77232101916990_1_alg».proof.Proof.Ref.Ops03
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 3: contents that agree on the buffers live before it agree, after it, on the buffers live after it. -/
theorem cor3 (V : Valuation Cert.KernelIdeal.τ Cert.KernelIdeal.sig (Elt F)) (V' : Valuation Cert.ReferenceIdeal.τ Cert.ReferenceIdeal.sig (Elt F))
    (h : V (Proc.devRef .tc Cert.KernelIdeal.main_v140) = V' (Proc.devRef .tc Cert.ReferenceIdeal.main_v140)
      ∧ V (Proc.devRef .tc Cert.KernelIdeal.main_v127) = V' (Proc.devRef .tc Cert.ReferenceIdeal.main_v127)
      ∧ V (Proc.devRef .tc Cert.KernelIdeal.main_v138) = V' (Proc.devRef .tc Cert.ReferenceIdeal.main_v138)
      ∧ V (Proc.devRef .tc Cert.KernelIdeal.main_v96) = V' (Proc.devRef .tc Cert.ReferenceIdeal.main_v96)
      ∧ V (Proc.devRef .tc Cert.KernelIdeal.main_arg2) = V' (Proc.devRef .tc Cert.ReferenceIdeal.main_arg2)) :
    after (Cert.KernelIdeal.Gen.main_part3_ops0 (F := F)) V (Proc.devRef .tc Cert.KernelIdeal.main_v181) = after (Cert.ReferenceIdeal.Hand.rops3 (F := F)) V' (Proc.devRef .tc Cert.ReferenceIdeal.main_v181)
      ∧ after (Cert.KernelIdeal.Gen.main_part3_ops0 (F := F)) V (Proc.devRef .tc Cert.KernelIdeal.main_v170) = after (Cert.ReferenceIdeal.Hand.rops3 (F := F)) V' (Proc.devRef .tc Cert.ReferenceIdeal.main_v170)
      ∧ after (Cert.KernelIdeal.Gen.main_part3_ops0 (F := F)) V (Proc.devRef .tc Cert.KernelIdeal.main_v176) = after (Cert.ReferenceIdeal.Hand.rops3 (F := F)) V' (Proc.devRef .tc Cert.ReferenceIdeal.main_v176)
      ∧ after (Cert.KernelIdeal.Gen.main_part3_ops0 (F := F)) V (Proc.devRef .tc Cert.KernelIdeal.main_v96) = after (Cert.ReferenceIdeal.Hand.rops3 (F := F)) V' (Proc.devRef .tc Cert.ReferenceIdeal.main_v96)
      ∧ after (Cert.KernelIdeal.Gen.main_part3_ops0 (F := F)) V (Proc.devRef .tc Cert.KernelIdeal.main_arg2) = after (Cert.ReferenceIdeal.Hand.rops3 (F := F)) V' (Proc.devRef .tc Cert.ReferenceIdeal.main_arg2) := by
  obtain ⟨h0, h1, h2, h3, h4⟩ := h
  refine ⟨?_, ?_, ?_, ?_, ?_⟩
  · after_results_simp
    rw [h0, h1] <;> rfl
  · after_results_simp
    rw [h2] <;> rfl
  · after_results_simp
    rw [h0, h1, h2] <;> rfl
  · after_results_simp
    rw [h3] <;> rfl
  · after_results_simp
    rw [h4] <;> rfl

end Cert.Value

end
-- ==== Proof.Value.Cor04.lean ====
/-
  The independence regularizer, operations 241 … 300 of both programs' @main (window 4).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 4 takes the buffers live before it,
    main_v181, main_v170, main_v176, main_v96, main_arg2,
  to the buffers live after it,
    main_v230, main_v231, main_v224, main_v193, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor4`), whatever the
  contents `V`, `V'` are otherwise and in every float family.
-/
import proofs.«158997_j77232101916990_1_alg».proof.Proof.Gen.KernelIdeal.Launch
import proofs.«158997_j77232101916990_1_alg».proof.Proof.Ref.Ops04
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 4: contents that agree on the buffers live before it agree, after it, on the buffers live after it. -/
theorem cor4 (V : Valuation Cert.KernelIdeal.τ Cert.KernelIdeal.sig (Elt F)) (V' : Valuation Cert.ReferenceIdeal.τ Cert.ReferenceIdeal.sig (Elt F))
    (h : V (Proc.devRef .tc Cert.KernelIdeal.main_v181) = V' (Proc.devRef .tc Cert.ReferenceIdeal.main_v181)
      ∧ V (Proc.devRef .tc Cert.KernelIdeal.main_v170) = V' (Proc.devRef .tc Cert.ReferenceIdeal.main_v170)
      ∧ V (Proc.devRef .tc Cert.KernelIdeal.main_v176) = V' (Proc.devRef .tc Cert.ReferenceIdeal.main_v176)
      ∧ V (Proc.devRef .tc Cert.KernelIdeal.main_v96) = V' (Proc.devRef .tc Cert.ReferenceIdeal.main_v96)
      ∧ V (Proc.devRef .tc Cert.KernelIdeal.main_arg2) = V' (Proc.devRef .tc Cert.ReferenceIdeal.main_arg2)) :
    after (Cert.KernelIdeal.Gen.main_part4_ops0 (F := F)) V (Proc.devRef .tc Cert.KernelIdeal.main_v230) = after (Cert.ReferenceIdeal.Hand.rops4 (F := F)) V' (Proc.devRef .tc Cert.ReferenceIdeal.main_v230)
      ∧ after (Cert.KernelIdeal.Gen.main_part4_ops0 (F := F)) V (Proc.devRef .tc Cert.KernelIdeal.main_v231) = after (Cert.ReferenceIdeal.Hand.rops4 (F := F)) V' (Proc.devRef .tc Cert.ReferenceIdeal.main_v231)
      ∧ after (Cert.KernelIdeal.Gen.main_part4_ops0 (F := F)) V (Proc.devRef .tc Cert.KernelIdeal.main_v224) = after (Cert.ReferenceIdeal.Hand.rops4 (F := F)) V' (Proc.devRef .tc Cert.ReferenceIdeal.main_v224)
      ∧ after (Cert.KernelIdeal.Gen.main_part4_ops0 (F := F)) V (Proc.devRef .tc Cert.KernelIdeal.main_v193) = after (Cert.ReferenceIdeal.Hand.rops4 (F := F)) V' (Proc.devRef .tc Cert.ReferenceIdeal.main_v193)
      ∧ after (Cert.KernelIdeal.Gen.main_part4_ops0 (F := F)) V (Proc.devRef .tc Cert.KernelIdeal.main_arg2) = after (Cert.ReferenceIdeal.Hand.rops4 (F := F)) V' (Proc.devRef .tc Cert.ReferenceIdeal.main_arg2) := by
  obtain ⟨h0, h1, h2, h3, h4⟩ := h
  refine ⟨?_, ?_, ?_, ?_, ?_⟩
  · after_results_simp
    rw [h4] <;> rfl
  · after_results_simp <;> rfl
  · after_results_simp
    rw [h4] <;> rfl
  · after_results_simp
    rw [h0, h1, h2, h3] <;> rfl
  · after_results_simp
    rw [h4] <;> rfl

end Cert.Value

end
-- ==== Proof.Value.Cor05.lean ====
/-
  The independence regularizer, operations 301 … 360 of both programs' @main (window 5).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 5 takes the buffers live before it,
    main_v230, main_v231, main_v224, main_v193, main_arg2,
  to the buffers live after it,
    main_v274, main_v267, main_v273, main_v193, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor5`), whatever the
  contents `V`, `V'` are otherwise and in every float family.
-/
import proofs.«158997_j77232101916990_1_alg».proof.Proof.Gen.KernelIdeal.Launch
import proofs.«158997_j77232101916990_1_alg».proof.Proof.Ref.Ops05
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 5: contents that agree on the buffers live before it agree, after it, on the buffers live after it. -/
theorem cor5 (V : Valuation Cert.KernelIdeal.τ Cert.KernelIdeal.sig (Elt F)) (V' : Valuation Cert.ReferenceIdeal.τ Cert.ReferenceIdeal.sig (Elt F))
    (h : V (Proc.devRef .tc Cert.KernelIdeal.main_v230) = V' (Proc.devRef .tc Cert.ReferenceIdeal.main_v230)
      ∧ V (Proc.devRef .tc Cert.KernelIdeal.main_v231) = V' (Proc.devRef .tc Cert.ReferenceIdeal.main_v231)
      ∧ V (Proc.devRef .tc Cert.KernelIdeal.main_v224) = V' (Proc.devRef .tc Cert.ReferenceIdeal.main_v224)
      ∧ V (Proc.devRef .tc Cert.KernelIdeal.main_v193) = V' (Proc.devRef .tc Cert.ReferenceIdeal.main_v193)
      ∧ V (Proc.devRef .tc Cert.KernelIdeal.main_arg2) = V' (Proc.devRef .tc Cert.ReferenceIdeal.main_arg2)) :
    after (Cert.KernelIdeal.Gen.main_part5_ops0 (F := F)) V (Proc.devRef .tc Cert.KernelIdeal.main_v274) = after (Cert.ReferenceIdeal.Hand.rops5 (F := F)) V' (Proc.devRef .tc Cert.ReferenceIdeal.main_v274)
      ∧ after (Cert.KernelIdeal.Gen.main_part5_ops0 (F := F)) V (Proc.devRef .tc Cert.KernelIdeal.main_v267) = after (Cert.ReferenceIdeal.Hand.rops5 (F := F)) V' (Proc.devRef .tc Cert.ReferenceIdeal.main_v267)
      ∧ after (Cert.KernelIdeal.Gen.main_part5_ops0 (F := F)) V (Proc.devRef .tc Cert.KernelIdeal.main_v273) = after (Cert.ReferenceIdeal.Hand.rops5 (F := F)) V' (Proc.devRef .tc Cert.ReferenceIdeal.main_v273)
      ∧ after (Cert.KernelIdeal.Gen.main_part5_ops0 (F := F)) V (Proc.devRef .tc Cert.KernelIdeal.main_v193) = after (Cert.ReferenceIdeal.Hand.rops5 (F := F)) V' (Proc.devRef .tc Cert.ReferenceIdeal.main_v193)
      ∧ after (Cert.KernelIdeal.Gen.main_part5_ops0 (F := F)) V (Proc.devRef .tc Cert.KernelIdeal.main_arg2) = after (Cert.ReferenceIdeal.Hand.rops5 (F := F)) V' (Proc.devRef .tc Cert.ReferenceIdeal.main_arg2) := by
  obtain ⟨h0, h1, h2, h3, h4⟩ := h
  refine ⟨?_, ?_, ?_, ?_, ?_⟩
  · after_results_simp
    rw [h2] <;> rfl
  · after_results_simp
    rw [h0, h1] <;> rfl
  · after_results_simp
    rw [h0, h1, h2] <;> rfl
  · after_results_simp
    rw [h3] <;> rfl
  · after_results_simp
    rw [h4] <;> rfl

end Cert.Value

end
-- ==== Proof.Value.Cor06.lean ====
/-
  The independence regularizer, operations 361 … 420 of both programs' @main (window 6).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 6 takes the buffers live before it,
    main_v274, main_v267, main_v273, main_v193, main_arg2,
  to the buffers live after it,
    main_v296, main_v310, main_v321, main_v290, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor6`), whatever the
  contents `V`, `V'` are otherwise and in every float family.
-/
import proofs.«158997_j77232101916990_1_alg».proof.Proof.Gen.KernelIdeal.Launch
import proofs.«158997_j77232101916990_1_alg».proof.Proof.Ref.Ops06
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 6: contents that agree on the buffers live before it agree, after it, on the buffers live after it. -/
theorem cor6 (V : Valuation Cert.KernelIdeal.τ Cert.KernelIdeal.sig (Elt F)) (V' : Valuation Cert.ReferenceIdeal.τ Cert.ReferenceIdeal.sig (Elt F))
    (h : V (Proc.devRef .tc Cert.KernelIdeal.main_v274) = V' (Proc.devRef .tc Cert.ReferenceIdeal.main_v274)
      ∧ V (Proc.devRef .tc Cert.KernelIdeal.main_v267) = V' (Proc.devRef .tc Cert.ReferenceIdeal.main_v267)
      ∧ V (Proc.devRef .tc Cert.KernelIdeal.main_v273) = V' (Proc.devRef .tc Cert.ReferenceIdeal.main_v273)
      ∧ V (Proc.devRef .tc Cert.KernelIdeal.main_v193) = V' (Proc.devRef .tc Cert.ReferenceIdeal.main_v193)
      ∧ V (Proc.devRef .tc Cert.KernelIdeal.main_arg2) = V' (Proc.devRef .tc Cert.ReferenceIdeal.main_arg2)) :
    after (Cert.KernelIdeal.Gen.main_part6_ops0 (F := F)) V (Proc.devRef .tc Cert.KernelIdeal.main_v296) = after (Cert.ReferenceIdeal.Hand.rops6 (F := F)) V' (Proc.devRef .tc Cert.ReferenceIdeal.main_v296)
      ∧ after (Cert.KernelIdeal.Gen.main_part6_ops0 (F := F)) V (Proc.devRef .tc Cert.KernelIdeal.main_v310) = after (Cert.ReferenceIdeal.Hand.rops6 (F := F)) V' (Proc.devRef .tc Cert.ReferenceIdeal.main_v310)
      ∧ after (Cert.KernelIdeal.Gen.main_part6_ops0 (F := F)) V (Proc.devRef .tc Cert.KernelIdeal.main_v321) = after (Cert.ReferenceIdeal.Hand.rops6 (F := F)) V' (Proc.devRef .tc Cert.ReferenceIdeal.main_v321)
      ∧ after (Cert.KernelIdeal.Gen.main_part6_ops0 (F := F)) V (Proc.devRef .tc Cert.KernelIdeal.main_v290) = after (Cert.ReferenceIdeal.Hand.rops6 (F := F)) V' (Proc.devRef .tc Cert.ReferenceIdeal.main_v290)
      ∧ after (Cert.KernelIdeal.Gen.main_part6_ops0 (F := F)) V (Proc.devRef .tc Cert.KernelIdeal.main_arg2) = after (Cert.ReferenceIdeal.Hand.rops6 (F := F)) V' (Proc.devRef .tc Cert.ReferenceIdeal.main_arg2) := by
  obtain ⟨h0, h1, h2, h3, h4⟩ := h
  refine ⟨?_, ?_, ?_, ?_, ?_⟩
  · after_results_simp
    rw [h4] <;> rfl
  · after_results_simp
    rw [h4] <;> rfl
  · after_results_simp
    rw [h4] <;> rfl
  · after_results_simp
    rw [h0, h1, h2, h3] <;> rfl
  · after_results_simp
    rw [h4] <;> rfl

end Cert.Value

end
-- ==== Proof.Value.Cor07.lean ====
/-
  The independence regularizer, operations 421 … 480 of both programs' @main (window 7).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 7 takes the buffers live before it,
    main_v296, main_v310, main_v321, main_v290, main_arg2,
  to the buffers live after it,
    main_v366, main_v348, main_v364, main_v290, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor7`), whatever the
  contents `V`, `V'` are otherwise and in every float family.
-/
import proofs.«158997_j77232101916990_1_alg».proof.Proof.Gen.KernelIdeal.Launch
import proofs.«158997_j77232101916990_1_alg».proof.Proof.Ref.Ops07
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 7: contents that agree on the buffers live before it agree, after it, on the buffers live after it. -/
theorem cor7 (V : Valuation Cert.KernelIdeal.τ Cert.KernelIdeal.sig (Elt F)) (V' : Valuation Cert.ReferenceIdeal.τ Cert.ReferenceIdeal.sig (Elt F))
    (h : V (Proc.devRef .tc Cert.KernelIdeal.main_v296) = V' (Proc.devRef .tc Cert.ReferenceIdeal.main_v296)
      ∧ V (Proc.devRef .tc Cert.KernelIdeal.main_v310) = V' (Proc.devRef .tc Cert.ReferenceIdeal.main_v310)
      ∧ V (Proc.devRef .tc Cert.KernelIdeal.main_v321) = V' (Proc.devRef .tc Cert.ReferenceIdeal.main_v321)
      ∧ V (Proc.devRef .tc Cert.KernelIdeal.main_v290) = V' (Proc.devRef .tc Cert.ReferenceIdeal.main_v290)
      ∧ V (Proc.devRef .tc Cert.KernelIdeal.main_arg2) = V' (Proc.devRef .tc Cert.ReferenceIdeal.main_arg2)) :
    after (Cert.KernelIdeal.Gen.main_part7_ops0 (F := F)) V (Proc.devRef .tc Cert.KernelIdeal.main_v366) = after (Cert.ReferenceIdeal.Hand.rops7 (F := F)) V' (Proc.devRef .tc Cert.ReferenceIdeal.main_v366)
      ∧ after (Cert.KernelIdeal.Gen.main_part7_ops0 (F := F)) V (Proc.devRef .tc Cert.KernelIdeal.main_v348) = after (Cert.ReferenceIdeal.Hand.rops7 (F := F)) V' (Proc.devRef .tc Cert.ReferenceIdeal.main_v348)
      ∧ after (Cert.KernelIdeal.Gen.main_part7_ops0 (F := F)) V (Proc.devRef .tc Cert.KernelIdeal.main_v364) = after (Cert.ReferenceIdeal.Hand.rops7 (F := F)) V' (Proc.devRef .tc Cert.ReferenceIdeal.main_v364)
      ∧ after (Cert.KernelIdeal.Gen.main_part7_ops0 (F := F)) V (Proc.devRef .tc Cert.KernelIdeal.main_v290) = after (Cert.ReferenceIdeal.Hand.rops7 (F := F)) V' (Proc.devRef .tc Cert.ReferenceIdeal.main_v290)
      ∧ after (Cert.KernelIdeal.Gen.main_part7_ops0 (F := F)) V (Proc.devRef .tc Cert.KernelIdeal.main_arg2) = after (Cert.ReferenceIdeal.Hand.rops7 (F := F)) V' (Proc.devRef .tc Cert.ReferenceIdeal.main_arg2) := by
  obtain ⟨h0, h1, h2, h3, h4⟩ := h
  refine ⟨?_, ?_, ?_, ?_, ?_⟩
  · after_results_simp
    rw [h0, h1, h2] <;> rfl
  · after_results_simp
    rw [h2] <;> rfl
  · after_results_simp
    rw [h0, h1] <;> rfl
  · after_results_simp
    rw [h3] <;> rfl
  · after_results_simp
    rw [h4] <;> rfl

end Cert.Value

end
-- ==== Proof.Value.Cor08.lean ====
/-
  The independence regularizer, operations 481 … 540 of both programs' @main (window 8).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 8 takes the buffers live before it,
    main_v366, main_v348, main_v364, main_v290, main_arg2,
  to the buffers live after it,
    main_v410, main_v412, main_v393, main_v407, main_v387, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor8`), whatever the
  contents `V`, `V'` are otherwise and in every float family.
-/
import proofs.«158997_j77232101916990_1_alg».proof.Proof.Gen.KernelIdeal.Launch
import proofs.«158997_j77232101916990_1_alg».proof.Proof.Ref.Ops08
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 8: contents that agree on the buffers live before it agree, after it, on the buffers live after it. -/
theorem cor8 (V : Valuation Cert.KernelIdeal.τ Cert.KernelIdeal.sig (Elt F)) (V' : Valuation Cert.ReferenceIdeal.τ Cert.ReferenceIdeal.sig (Elt F))
    (h : V (Proc.devRef .tc Cert.KernelIdeal.main_v366) = V' (Proc.devRef .tc Cert.ReferenceIdeal.main_v366)
      ∧ V (Proc.devRef .tc Cert.KernelIdeal.main_v348) = V' (Proc.devRef .tc Cert.ReferenceIdeal.main_v348)
      ∧ V (Proc.devRef .tc Cert.KernelIdeal.main_v364) = V' (Proc.devRef .tc Cert.ReferenceIdeal.main_v364)
      ∧ V (Proc.devRef .tc Cert.KernelIdeal.main_v290) = V' (Proc.devRef .tc Cert.ReferenceIdeal.main_v290)
      ∧ V (Proc.devRef .tc Cert.KernelIdeal.main_arg2) = V' (Proc.devRef .tc Cert.ReferenceIdeal.main_arg2)) :
    after (Cert.KernelIdeal.Gen.main_part8_ops0 (F := F)) V (Proc.devRef .tc Cert.KernelIdeal.main_v410) = after (Cert.ReferenceIdeal.Hand.rops8 (F := F)) V' (Proc.devRef .tc Cert.ReferenceIdeal.main_v410)
      ∧ after (Cert.KernelIdeal.Gen.main_part8_ops0 (F := F)) V (Proc.devRef .tc Cert.KernelIdeal.main_v412) = after (Cert.ReferenceIdeal.Hand.rops8 (F := F)) V' (Proc.devRef .tc Cert.ReferenceIdeal.main_v412)
      ∧ after (Cert.KernelIdeal.Gen.main_part8_ops0 (F := F)) V (Proc.devRef .tc Cert.KernelIdeal.main_v393) = after (Cert.ReferenceIdeal.Hand.rops8 (F := F)) V' (Proc.devRef .tc Cert.ReferenceIdeal.main_v393)
      ∧ after (Cert.KernelIdeal.Gen.main_part8_ops0 (F := F)) V (Proc.devRef .tc Cert.KernelIdeal.main_v407) = after (Cert.ReferenceIdeal.Hand.rops8 (F := F)) V' (Proc.devRef .tc Cert.ReferenceIdeal.main_v407)
      ∧ after (Cert.KernelIdeal.Gen.main_part8_ops0 (F := F)) V (Proc.devRef .tc Cert.KernelIdeal.main_v387) = after (Cert.ReferenceIdeal.Hand.rops8 (F := F)) V' (Proc.devRef .tc Cert.ReferenceIdeal.main_v387)
      ∧ after (Cert.KernelIdeal.Gen.main_part8_ops0 (F := F)) V (Proc.devRef .tc Cert.KernelIdeal.main_arg2) = after (Cert.ReferenceIdeal.Hand.rops8 (F := F)) V' (Proc.devRef .tc Cert.ReferenceIdeal.main_arg2) := by
  obtain ⟨h0, h1, h2, h3, h4⟩ := h
  refine ⟨?_, ?_, ?_, ?_, ?_, ?_⟩
  · after_results_simp
    rw [h4] <;> rfl
  · after_results_simp
    rw [h4] <;> rfl
  · after_results_simp
    rw [h4] <;> rfl
  · after_results_simp
    rw [h4] <;> rfl
  · after_results_simp
    rw [h0, h1, h2, h3] <;> rfl
  · after_results_simp
    rw [h4] <;> rfl

end Cert.Value

end
-- ==== Proof.Value.Cor09.lean ====
/-
  The independence regularizer, operations 541 … 600 of both programs' @main (window 9).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 9 takes the buffers live before it,
    main_v410, main_v412, main_v393, main_v407, main_v387, main_arg2,
  to the buffers live after it,
    main_v429, main_cst_140, main_v457, main_v445, main_v387, main_arg2.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor9`), whatever the
  contents `V`, `V'` are otherwise and in every float family.
-/
import proofs.«158997_j77232101916990_1_alg».proof.Proof.Gen.KernelIdeal.Launch
import proofs.«158997_j77232101916990_1_alg».proof.Proof.Ref.Ops09
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 9: contents that agree on the buffers live before it agree, after it, on the buffers live after it. -/
theorem cor9 (V : Valuation Cert.KernelIdeal.τ Cert.KernelIdeal.sig (Elt F)) (V' : Valuation Cert.ReferenceIdeal.τ Cert.ReferenceIdeal.sig (Elt F))
    (h : V (Proc.devRef .tc Cert.KernelIdeal.main_v410) = V' (Proc.devRef .tc Cert.ReferenceIdeal.main_v410)
      ∧ V (Proc.devRef .tc Cert.KernelIdeal.main_v412) = V' (Proc.devRef .tc Cert.ReferenceIdeal.main_v412)
      ∧ V (Proc.devRef .tc Cert.KernelIdeal.main_v393) = V' (Proc.devRef .tc Cert.ReferenceIdeal.main_v393)
      ∧ V (Proc.devRef .tc Cert.KernelIdeal.main_v407) = V' (Proc.devRef .tc Cert.ReferenceIdeal.main_v407)
      ∧ V (Proc.devRef .tc Cert.KernelIdeal.main_v387) = V' (Proc.devRef .tc Cert.ReferenceIdeal.main_v387)
      ∧ V (Proc.devRef .tc Cert.KernelIdeal.main_arg2) = V' (Proc.devRef .tc Cert.ReferenceIdeal.main_arg2)) :
    after (Cert.KernelIdeal.Gen.main_part9_ops0 (F := F)) V (Proc.devRef .tc Cert.KernelIdeal.main_v429) = after (Cert.ReferenceIdeal.Hand.rops9 (F := F)) V' (Proc.devRef .tc Cert.ReferenceIdeal.main_v429)
      ∧ after (Cert.KernelIdeal.Gen.main_part9_ops0 (F := F)) V (Proc.devRef .tc Cert.KernelIdeal.main_cst_140) = after (Cert.ReferenceIdeal.Hand.rops9 (F := F)) V' (Proc.devRef .tc Cert.ReferenceIdeal.main_cst_140)
      ∧ after (Cert.KernelIdeal.Gen.main_part9_ops0 (F := F)) V (Proc.devRef .tc Cert.KernelIdeal.main_v457) = after (Cert.ReferenceIdeal.Hand.rops9 (F := F)) V' (Proc.devRef .tc Cert.ReferenceIdeal.main_v457)
      ∧ after (Cert.KernelIdeal.Gen.main_part9_ops0 (F := F)) V (Proc.devRef .tc Cert.KernelIdeal.main_v445) = after (Cert.ReferenceIdeal.Hand.rops9 (F := F)) V' (Proc.devRef .tc Cert.ReferenceIdeal.main_v445)
      ∧ after (Cert.KernelIdeal.Gen.main_part9_ops0 (F := F)) V (Proc.devRef .tc Cert.KernelIdeal.main_v387) = after (Cert.ReferenceIdeal.Hand.rops9 (F := F)) V' (Proc.devRef .tc Cert.ReferenceIdeal.main_v387)
      ∧ after (Cert.KernelIdeal.Gen.main_part9_ops0 (F := F)) V (Proc.devRef .tc Cert.KernelIdeal.main_arg2) = after (Cert.ReferenceIdeal.Hand.rops9 (F := F)) V' (Proc.devRef .tc Cert.ReferenceIdeal.main_arg2) := by
  obtain ⟨h0, h1, h2, h3, h4, h5⟩ := h
  refine ⟨?_, ?_, ?_, ?_, ?_, ?_⟩
  · after_results_simp
    rw [h2, h3] <;> rfl
  · after_results_simp <;> rfl
  · after_results_simp
    rw [h2, h3] <;> rfl
  · after_results_simp
    rw [h0, h1] <;> rfl
  · after_results_simp
    rw [h4] <;> rfl
  · after_results_simp
    rw [h5] <;> rfl

end Cert.Value

end
-- ==== Proof.Value.Cor10.lean ====
/-
  The independence regularizer, operations 601 … 660 of both programs' @main (window 10).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 10 takes the buffers live before it,
    main_v429, main_cst_140, main_v457, main_v445, main_v387, main_arg2,
  to the buffers live after it,
    main_v502, main_v489, main_v497, main_v490, main_v484.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor10`), whatever the
  contents `V`, `V'` are otherwise and in every float family.
-/
import proofs.«158997_j77232101916990_1_alg».proof.Proof.Gen.KernelIdeal.Launch
import proofs.«158997_j77232101916990_1_alg».proof.Proof.Ref.Ops10
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 10: contents that agree on the buffers live before it agree, after it, on the buffers live after it. -/
theorem cor10 (V : Valuation Cert.KernelIdeal.τ Cert.KernelIdeal.sig (Elt F)) (V' : Valuation Cert.ReferenceIdeal.τ Cert.ReferenceIdeal.sig (Elt F))
    (h : V (Proc.devRef .tc Cert.KernelIdeal.main_v429) = V' (Proc.devRef .tc Cert.ReferenceIdeal.main_v429)
      ∧ V (Proc.devRef .tc Cert.KernelIdeal.main_cst_140) = V' (Proc.devRef .tc Cert.ReferenceIdeal.main_cst_140)
      ∧ V (Proc.devRef .tc Cert.KernelIdeal.main_v457) = V' (Proc.devRef .tc Cert.ReferenceIdeal.main_v457)
      ∧ V (Proc.devRef .tc Cert.KernelIdeal.main_v445) = V' (Proc.devRef .tc Cert.ReferenceIdeal.main_v445)
      ∧ V (Proc.devRef .tc Cert.KernelIdeal.main_v387) = V' (Proc.devRef .tc Cert.ReferenceIdeal.main_v387)
      ∧ V (Proc.devRef .tc Cert.KernelIdeal.main_arg2) = V' (Proc.devRef .tc Cert.ReferenceIdeal.main_arg2)) :
    after (Cert.KernelIdeal.Gen.main_part10_ops0 (F := F)) V (Proc.devRef .tc Cert.KernelIdeal.main_v502) = after (Cert.ReferenceIdeal.Hand.rops10 (F := F)) V' (Proc.devRef .tc Cert.ReferenceIdeal.main_v502)
      ∧ after (Cert.KernelIdeal.Gen.main_part10_ops0 (F := F)) V (Proc.devRef .tc Cert.KernelIdeal.main_v489) = after (Cert.ReferenceIdeal.Hand.rops10 (F := F)) V' (Proc.devRef .tc Cert.ReferenceIdeal.main_v489)
      ∧ after (Cert.KernelIdeal.Gen.main_part10_ops0 (F := F)) V (Proc.devRef .tc Cert.KernelIdeal.main_v497) = after (Cert.ReferenceIdeal.Hand.rops10 (F := F)) V' (Proc.devRef .tc Cert.ReferenceIdeal.main_v497)
      ∧ after (Cert.KernelIdeal.Gen.main_part10_ops0 (F := F)) V (Proc.devRef .tc Cert.KernelIdeal.main_v490) = after (Cert.ReferenceIdeal.Hand.rops10 (F := F)) V' (Proc.devRef .tc Cert.ReferenceIdeal.main_v490)
      ∧ after (Cert.KernelIdeal.Gen.main_part10_ops0 (F := F)) V (Proc.devRef .tc Cert.KernelIdeal.main_v484) = after (Cert.ReferenceIdeal.Hand.rops10 (F := F)) V' (Proc.devRef .tc Cert.ReferenceIdeal.main_v484) := by
  obtain ⟨h0, h1, h2, h3, h4, h5⟩ := h
  refine ⟨?_, ?_, ?_, ?_, ?_⟩
  · after_results_simp
    rw [h5] <;> rfl
  · after_results_simp
    rw [h5] <;> rfl
  · after_results_simp
    rw [h5] <;> rfl
  · after_results_simp
    rw [h5] <;> rfl
  · after_results_simp
    rw [h0, h1, h2, h3, h4] <;> rfl

end Cert.Value

end
-- ==== Proof.Value.Cor11.lean ====
/-
  The independence regularizer, operations 661 … 720 of both programs' @main (window 11).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 11 takes the buffers live before it,
    main_v502, main_v489, main_v497, main_v490, main_v484,
  to the buffers live after it,
    main_v526, main_cst_169, main_v548, main_v542, main_v484.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor11`), whatever the
  contents `V`, `V'` are otherwise and in every float family.
-/
import proofs.«158997_j77232101916990_1_alg».proof.Proof.Gen.KernelIdeal.Launch
import proofs.«158997_j77232101916990_1_alg».proof.Proof.Ref.Ops11
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 11: contents that agree on the buffers live before it agree, after it, on the buffers live after it. -/
theorem cor11 (V : Valuation Cert.KernelIdeal.τ Cert.KernelIdeal.sig (Elt F)) (V' : Valuation Cert.ReferenceIdeal.τ Cert.ReferenceIdeal.sig (Elt F))
    (h : V (Proc.devRef .tc Cert.KernelIdeal.main_v502) = V' (Proc.devRef .tc Cert.ReferenceIdeal.main_v502)
      ∧ V (Proc.devRef .tc Cert.KernelIdeal.main_v489) = V' (Proc.devRef .tc Cert.ReferenceIdeal.main_v489)
      ∧ V (Proc.devRef .tc Cert.KernelIdeal.main_v497) = V' (Proc.devRef .tc Cert.ReferenceIdeal.main_v497)
      ∧ V (Proc.devRef .tc Cert.KernelIdeal.main_v490) = V' (Proc.devRef .tc Cert.ReferenceIdeal.main_v490)
      ∧ V (Proc.devRef .tc Cert.KernelIdeal.main_v484) = V' (Proc.devRef .tc Cert.ReferenceIdeal.main_v484)) :
    after (Cert.KernelIdeal.Gen.main_part11_ops0 (F := F)) V (Proc.devRef .tc Cert.KernelIdeal.main_v526) = after (Cert.ReferenceIdeal.Hand.rops11 (F := F)) V' (Proc.devRef .tc Cert.ReferenceIdeal.main_v526)
      ∧ after (Cert.KernelIdeal.Gen.main_part11_ops0 (F := F)) V (Proc.devRef .tc Cert.KernelIdeal.main_cst_169) = after (Cert.ReferenceIdeal.Hand.rops11 (F := F)) V' (Proc.devRef .tc Cert.ReferenceIdeal.main_cst_169)
      ∧ after (Cert.KernelIdeal.Gen.main_part11_ops0 (F := F)) V (Proc.devRef .tc Cert.KernelIdeal.main_v548) = after (Cert.ReferenceIdeal.Hand.rops11 (F := F)) V' (Proc.devRef .tc Cert.ReferenceIdeal.main_v548)
      ∧ after (Cert.KernelIdeal.Gen.main_part11_ops0 (F := F)) V (Proc.devRef .tc Cert.KernelIdeal.main_v542) = after (Cert.ReferenceIdeal.Hand.rops11 (F := F)) V' (Proc.devRef .tc Cert.ReferenceIdeal.main_v542)
      ∧ after (Cert.KernelIdeal.Gen.main_part11_ops0 (F := F)) V (Proc.devRef .tc Cert.KernelIdeal.main_v484) = after (Cert.ReferenceIdeal.Hand.rops11 (F := F)) V' (Proc.devRef .tc Cert.ReferenceIdeal.main_v484) := by
  obtain ⟨h0, h1, h2, h3, h4⟩ := h
  refine ⟨?_, ?_, ?_, ?_, ?_⟩
  · after_results_simp
    rw [h0, h3] <;> rfl
  · after_results_simp <;> rfl
  · after_results_simp
    rw [h0, h3] <;> rfl
  · after_results_simp
    rw [h1, h2] <;> rfl
  · after_results_simp
    rw [h4] <;> rfl

end Cert.Value

end
-- ==== Proof.Value.Cor12.lean ====
/-
  The independence regularizer, operations 721 … 769 of both programs' @main (window 12).

  Both programs begin with the same 769 host operations, the same builders over buffers of the same names in the
  same order, each program over its own table of buffers. Through these operations the value of main_v581 depends
  on the launch memory only through main_arg2. The operations are cut into thirteen windows at the same places in
  both programs. A buffer is LIVE at a cut when an operation before the cut (or the launch) wrote it and an
  operation after the cut that main_v581 depends on reads it. Window 12 takes the buffers live before it,
    main_v526, main_cst_169, main_v548, main_v542, main_v484,
  to the buffers live after it,
    main_v581.
  Each buffer live after the window holds, in either program, a composition of the window's operations' functions
  applied to the contents of buffers live before it: the fold of the window's results read at that buffer, every
  operation's result taken at its own buffer and skipped at every other. The two compositions are the same
  expression, the two programs' shape abbreviations unfolding to the same literals. So if the two programs' contents
  agree on every buffer live before the window they agree on every buffer live after it (`cor12`), whatever the
  contents `V`, `V'` are otherwise and in every float family.
-/
import proofs.«158997_j77232101916990_1_alg».proof.Proof.Gen.KernelIdeal.Launch
import proofs.«158997_j77232101916990_1_alg».proof.Proof.Ref.Ops12
import Idealize.ShloMosaic.Lib.StableHlo.Run

set_option maxRecDepth 16384

noncomputable section

namespace Cert.Value

open Idealize.ShloMosaic Idealize.ShloMosaic.StableHlo

variable {F : FTy → Type} [FloatOps F]

set_option maxHeartbeats 4000000 in
/-- Window 12: contents that agree on the buffers live before it agree, after it, on the buffers live after it. -/
theorem cor12 (V : Valuation Cert.KernelIdeal.τ Cert.KernelIdeal.sig (Elt F)) (V' : Valuation Cert.ReferenceIdeal.τ Cert.ReferenceIdeal.sig (Elt F))
    (h : V (Proc.devRef .tc Cert.KernelIdeal.main_v526) = V' (Proc.devRef .tc Cert.ReferenceIdeal.main_v526)
      ∧ V (Proc.devRef .tc Cert.KernelIdeal.main_cst_169) = V' (Proc.devRef .tc Cert.ReferenceIdeal.main_cst_169)
      ∧ V (Proc.devRef .tc Cert.KernelIdeal.main_v548) = V' (Proc.devRef .tc Cert.ReferenceIdeal.main_v548)
      ∧ V (Proc.devRef .tc Cert.KernelIdeal.main_v542) = V' (Proc.devRef .tc Cert.ReferenceIdeal.main_v542)
      ∧ V (Proc.devRef .tc Cert.KernelIdeal.main_v484) = V' (Proc.devRef .tc Cert.ReferenceIdeal.main_v484)) :
    after (Cert.KernelIdeal.Gen.main_part12_ops0 (F := F)) V (Proc.devRef .tc Cert.KernelIdeal.main_v581) = after (Cert.ReferenceIdeal.Hand.rops12 (F := F)) V' (Proc.devRef .tc Cert.ReferenceIdeal.main_v581) := by
  obtain ⟨h0, h1, h2, h3, h4⟩ := h
  · after_results_simp
    rw [h0, h1, h2, h3, h4] <;> rfl

end Cert.Value

end
-- ==== Proof.Value.Cor.lean ====
/-
  The independence regularizer is the same in both programs.

  Both programs' @main begin with the same computation: the regularizer cor of the latent embedding main_arg2, the sum
  over the six pairs of its four rows of a distance correlation — 769 host operations, the same builders over buffers
  of the same names in the same order, each program over its own table of buffers —, and both leave its value in
  main_v581. No blocked product comes before it in the kernel's program, so in both programs main_v581 holds, after
  these operations, the same composition of the operations' functions applied to the launch contents of main_arg2
  alone.

  The composition is not written out. The 769 operations are cut into thirteen windows at the same places in both
  programs, and for each window `corJ` (module CorJJ) says: contents of the two programs' buffers that agree on the
  buffers live before the window — written before it, or at launch, and read after it on the way to main_v581 — agree,
  after the window's operations, on the buffers live after it. The only buffer live before window 0 is main_arg2, the
  only one live after window 12 is main_v581. The contents of the kernel's program's buffers after its window J are
  `W(J+1)`, the fold of that window's results over `WJ`, and `W0` is the launch memory; the reference's are
  `WR(J+1)` over `WRJ` likewise. So from launch memories that agree on main_arg2 the thirteen statements, each fed the
  one before it, give `cor_eq`: the two programs' main_v581 agree after window 12. Nothing about floats is used: the
  statement holds in every float family.
-/
import proofs.«158997_j77232101916990_1_alg».proof.Proof.KI.Fold
import proofs.«158997_j77232101916990_1_alg».proof.Proof.Ref.Main
import proofs.«158997_j77232101916990_1_alg».proof.Proof.Value.Cor00
import proofs.«158997_j77232101916990_1_alg».proof.Proof.Value.Cor01
import proofs.«158997_j77232101916990_1_alg».proof.Proof.Value.Cor02
import proofs.«158997_j77232101916990_1_alg».proof.Proof.Value.Cor03
import proofs.«158997_j77232101916990_1_alg».proof.Proof.Value.Cor04
import proofs.«158997_j77232101916990_1_alg».proof.Proof.Value.Cor05
import proofs.«158997_j77232101916990_1_alg».proof.Proof.Value.Cor06
import proofs.«158997_j77232101916990_1_alg».proof.Proof.Value.Cor07
import proofs.«158997_j77232101916990_1_alg».proof.Proof.Value.Cor08
import proofs.«158997_j77232101916990_1_alg».proof.Proof.Value.Cor09
import proofs.«158997_j77232101916990_1_alg».proof.Proof.Value.Cor10
import proofs.«158997_j77232101916990_1_alg».proof.Proof.Value.Cor11
import proofs.«158997_j77232101916990_1_alg».proof.Proof.Value.Cor12

noncomputable section

namespace Cert.Value

open Idealize.ShloMosaic Idealize.ShloMosaic.TcCoe Idealize.ShloMosaic.StableHlo

variable {F : FTy → Type} [FloatOps F]

/-- From launch memories that agree on main_arg2, the two programs hold the same independence regularizer in main_v581
    once its operations have run: after the kernel's program's first thirteen host stretches, and after the reference's
    first thirteen windows. -/
theorem cor_eq (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Hand.W13 m ρ c (Proc.devRef .tc Cert.KernelIdeal.main_v581) = Cert.ReferenceIdeal.Hand.WR13 m' c (Proc.devRef .tc Cert.ReferenceIdeal.main_v581) := by
  have b0 := cor0 (Cert.KernelIdeal.Hand.W0 m ρ c) (Cert.ReferenceIdeal.Hand.WR0 m' c) h2.symm
  have b1 := cor1 (Cert.KernelIdeal.Hand.W1 m ρ c) (Cert.ReferenceIdeal.Hand.WR1 m' c) b0
  have b2 := cor2 (Cert.KernelIdeal.Hand.W2 m ρ c) (Cert.ReferenceIdeal.Hand.WR2 m' c) b1
  have b3 := cor3 (Cert.KernelIdeal.Hand.W3 m ρ c) (Cert.ReferenceIdeal.Hand.WR3 m' c) b2
  have b4 := cor4 (Cert.KernelIdeal.Hand.W4 m ρ c) (Cert.ReferenceIdeal.Hand.WR4 m' c) b3
  have b5 := cor5 (Cert.KernelIdeal.Hand.W5 m ρ c) (Cert.ReferenceIdeal.Hand.WR5 m' c) b4
  have b6 := cor6 (Cert.KernelIdeal.Hand.W6 m ρ c) (Cert.ReferenceIdeal.Hand.WR6 m' c) b5
  have b7 := cor7 (Cert.KernelIdeal.Hand.W7 m ρ c) (Cert.ReferenceIdeal.Hand.WR7 m' c) b6
  have b8 := cor8 (Cert.KernelIdeal.Hand.W8 m ρ c) (Cert.ReferenceIdeal.Hand.WR8 m' c) b7
  have b9 := cor9 (Cert.KernelIdeal.Hand.W9 m ρ c) (Cert.ReferenceIdeal.Hand.WR9 m' c) b8
  have b10 := cor10 (Cert.KernelIdeal.Hand.W10 m ρ c) (Cert.ReferenceIdeal.Hand.WR10 m' c) b9
  have b11 := cor11 (Cert.KernelIdeal.Hand.W11 m ρ c) (Cert.ReferenceIdeal.Hand.WR11 m' c) b10
  exact cor12 (Cert.KernelIdeal.Hand.W12 m ρ c) (Cert.ReferenceIdeal.Hand.WR12 m' c) b11

end Cert.Value

end
-- ==== Proof.WEq.lean ====
/-
  The latent mixing weights, computed two ways, are one array.

  The kernel's program forms  W = weight · latent  as a host matrix product of a [8192, 4] array by a
  [4, 64] array: at index (n, d) it is  ∑ k : Fin 4, weight[n, k] * latent[k, d].

  The reference forms the same array as  (latent[None, :, :] * weight[:, :, None]).sum(axis = 1):  it
  lays latent along a new leading axis and weight along a new trailing axis, stretches both to
  [8192, 4, 64], multiplies them entry by entry and sums the middle axis from the initial value 0.  At
  index (n, d) that is  0 + ∑ k : Fin 4, latent[k, d] * weight[n, k].

  Over the extended reals the two agree: multiplication commutes under the sum and 0 + x = x.  Nothing
  is distributed and nothing is cancelled, so the equation holds at infinite entries as well and no
  finiteness of the inputs is used.
-/
import proofs.«158997_j77232101916990_1_alg».proof.Proof.Gen.KernelIdeal
import proofs.«158997_j77232101916990_1_alg».proof.Proof.Gen.ReferenceIdeal
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

open scoped BigOperators

namespace Cert.Value.WEq

open Idealize.ShloMosaic Idealize.ShloMosaic.ValueIdx

/-! ## The kernel's side: the matrix product at an index -/

/-- The matrix product at (n, d): the sum over the contracted coordinate k of weight[n, k] * latent[k, d].
    The program's dimension numbers (contract axis 1 of the left with axis 0 of the right, no batch axis)
    are those of a plain rows-by-columns product. -/
theorem dot_at (w : FVec Ideal ⟨2, ![8192, 4]⟩ .f32) (l : FVec Ideal ⟨2, ![4, 64]⟩ .f32) (n : Fin 8192) (d : Fin 64) :
    Host.dotGeneral (F := Ideal) Cert.KernelIdeal.dot_S8192x4_S4x64_S8192x64_1_0_0_1_n_n none w l (ix2 n d)
      = ∑ k : Fin 4, w (ix2 n k) * l (ix2 k d) :=
  StackMember.dotGeneral_plain_apply none w l n d

/-! ## The reference's side: two stretched arrays, their product, and the sum over the middle axis -/

/-- latent, given a leading unit axis and then stretched along it to 8192 rows, read at (n, k, d): the
    row number is forgotten, latent[k, d] remains. -/
theorem latent_at (l : FVec Ideal ⟨2, ![4, 64]⟩ .f32) (n : Fin 8192) (k : Fin 4) (d : Fin 64) :
    broadcastInDim Cert.ReferenceIdeal.S8192x4x64 ![0, 1, 2] Cert.ReferenceIdeal.Gen.bcast_S1x4x64_S8192x4x64_0_1_2
        (broadcastInDim Cert.ReferenceIdeal.S1x4x64 ![1, 2] Cert.ReferenceIdeal.Gen.bcast_S4x64_S1x4x64_1_2 l) (ix3 n k d)
      = l (ix2 k d) :=
  (broadcastInDim_apply _ _ _ (ix3 n k d) (ix3 (0 : Fin 1) k d)
      (fun a => match a with | ⟨0, _⟩ => rfl | ⟨1, _⟩ => rfl | ⟨2, _⟩ => rfl)).trans
    (broadcastInDim_apply _ _ l (ix3 (0 : Fin 1) k d) (ix2 k d)
      (fun a => match a with | ⟨0, _⟩ => rfl | ⟨1, _⟩ => rfl))

/-- weight, given a trailing unit axis and then stretched along it to 64 columns, read at (n, k, d): the
    column number is forgotten, weight[n, k] remains. -/
theorem weight_at (w : FVec Ideal ⟨2, ![8192, 4]⟩ .f32) (n : Fin 8192) (k : Fin 4) (d : Fin 64) :
    broadcastInDim Cert.ReferenceIdeal.S8192x4x64 ![0, 1, 2] Cert.ReferenceIdeal.Gen.bcast_S8192x4x1_S8192x4x64_0_1_2
        (broadcastInDim Cert.ReferenceIdeal.S8192x4x1 ![0, 1] Cert.ReferenceIdeal.Gen.bcast_S8192x4_S8192x4x1_0_1 w) (ix3 n k d)
      = w (ix2 n k) :=
  (broadcastInDim_apply _ _ _ (ix3 n k d) (ix3 n k (0 : Fin 1))
      (fun a => match a with | ⟨0, _⟩ => rfl | ⟨1, _⟩ => rfl | ⟨2, _⟩ => rfl)).trans
    (broadcastInDim_apply _ _ w (ix3 n k (0 : Fin 1)) (ix2 n k)
      (fun a => match a with | ⟨0, _⟩ => rfl | ⟨1, _⟩ => rfl))

/-- Summing a [8192, 4, 64] array over its middle axis keeps the axes (n, d): the witness that names, for a
    kept index and a middle coordinate, the index they come from. -/
theorem keeps_outer : Cert.ReferenceIdeal.S8192x4x64.Reduces [1] Cert.ReferenceIdeal.S8192x64 := by decide

/-- The kept index (n, d) with the middle coordinate k put back is (n, k, d). -/
theorem lift_at (n : Fin 8192) (d : Fin 64) (k : Fin 4) : keeps_outer.lift (ix2 n d) k = ix3 n k d := by
  funext c
  apply Fin.ext
  match c with
  | ⟨0, _⟩ => rfl
  | ⟨1, _⟩ => rfl
  | ⟨2, _⟩ => rfl

/-- The reference's array at (n, d): the initial value 0 plus the sum over k of latent[k, d] * weight[n, k]. -/
theorem sum_at (w : FVec Ideal ⟨2, ![8192, 4]⟩ .f32) (l : FVec Ideal ⟨2, ![4, 64]⟩ .f32) (n : Fin 8192) (d : Fin 64) :
    Host.reduceAdd (F := Ideal)
        (mulf (broadcastInDim Cert.ReferenceIdeal.S8192x4x64 ![0, 1, 2] Cert.ReferenceIdeal.Gen.bcast_S1x4x64_S8192x4x64_0_1_2
                (broadcastInDim Cert.ReferenceIdeal.S1x4x64 ![1, 2] Cert.ReferenceIdeal.Gen.bcast_S4x64_S1x4x64_1_2 l))
              (broadcastInDim Cert.ReferenceIdeal.S8192x4x64 ![0, 1, 2] Cert.ReferenceIdeal.Gen.bcast_S8192x4x1_S8192x4x64_0_1_2
                (broadcastInDim Cert.ReferenceIdeal.S8192x4x1 ![0, 1] Cert.ReferenceIdeal.Gen.bcast_S8192x4_S8192x4x1_0_1 w)))
        (constant (F := Ideal) Cert.ReferenceIdeal.S_ .f32 0x00000000#32)
        Cert.ReferenceIdeal.Gen.reducesTo_S8192x4x64_S8192x64_d1 Cert.ReferenceIdeal.Gen.h_S_ (ix2 n d)
      = 0 + ∑ k : Fin 4, l (ix2 k d) * w (ix2 n k) := by
  refine (hostReduceAdd_apply _ _ _ _ _).trans ?_
  refine (Ideal.hostReduceAdd_single _ keeps_outer _ _ _).trans ?_
  rw [constant_apply, Ideal.ofBits_zero_f32]
  refine congrArg (0 + ·) (Finset.sum_congr rfl fun (k : Fin 4) _ => ?_)
  rw [lift_at, mulf_apply, latent_at, weight_at]

end Cert.Value.WEq

namespace Cert.Value

open Idealize.ShloMosaic Idealize.ShloMosaic.ValueIdx

/-! ## The two sides are one array -/

/-- weight · latent, as the kernel's program computes it, is the reference's stretched product summed over
    its middle axis: at every index both are the same four products, each with its factors in the other
    order, and the reference's sum starts from 0. -/
theorem w_eq (w : FVec Ideal Cert.KernelIdeal.S8192x4 .f32) (l : FVec Ideal Cert.KernelIdeal.S4x64 .f32) :
    Host.dotGeneral (F := Ideal) Cert.KernelIdeal.dot_S8192x4_S4x64_S8192x64_1_0_0_1_n_n none w l
      = Host.reduceAdd (F := Ideal)
          (mulf (broadcastInDim Cert.ReferenceIdeal.S8192x4x64 ![0, 1, 2] Cert.ReferenceIdeal.Gen.bcast_S1x4x64_S8192x4x64_0_1_2
                  (broadcastInDim Cert.ReferenceIdeal.S1x4x64 ![1, 2] Cert.ReferenceIdeal.Gen.bcast_S4x64_S1x4x64_1_2 l))
                (broadcastInDim Cert.ReferenceIdeal.S8192x4x64 ![0, 1, 2] Cert.ReferenceIdeal.Gen.bcast_S8192x4x1_S8192x4x64_0_1_2
                  (broadcastInDim Cert.ReferenceIdeal.S8192x4x1 ![0, 1] Cert.ReferenceIdeal.Gen.bcast_S8192x4_S8192x4x1_0_1 w)))
          (constant Cert.ReferenceIdeal.S_ .f32 0x00000000#32)
          Cert.ReferenceIdeal.Gen.reducesTo_S8192x4x64_S8192x64_d1 Cert.ReferenceIdeal.Gen.h_S_ := by
  funext i
  obtain ⟨n, d, rfl⟩ : ∃ (n : Fin 8192) (d : Fin 64), i = ix2 n d := ⟨i 0, i 1, eq_ix2 i⟩
  refine (WEq.dot_at w l n d).trans (Eq.trans ?_ (WEq.sum_at w l n d).symm)
  rw [zero_add]
  exact Finset.sum_congr rfl fun k _ => mul_comm _ _

end Cert.Value
-- ==== Proof.Value.RReadParts.lean ====
/-
  Pieces of the specification's functions that the reference's windows leave in buffers of their own.

  The reference's operations are cut into windows at fixed counts, not at the seams of the mathematics: a
  row-normalisation's denominators can be the last thing one window writes and the division the first thing the next
  does, and a mixing weight's two stretched factors can close one window while their product and sum open the next.
  These definitions name the pieces, and each equation says how the specification's function is put together from them
  (by unfolding).
-/
import proofs.«158997_j77232101916990_1_alg».proof.Proof.Value.Spec

noncomputable section

namespace Cert.Value

open Cert.ReferenceIdeal Cert.ReferenceIdeal.Gen Idealize.ShloMosaic

variable {F : FTy → Type} [FloatOps F]

/-- The denominators of a row-normalisation, laid out entry by entry: every entry of row n holds the larger of row n's
    Euclidean norm and 1e-12. -/
def rowDen (x : FVec F S8192x64 .f32) : FVec F S8192x64 .f32 :=
  broadcastInDim S8192x64 ![0, 1] bcast_S8192x1_S8192x64_0_1
    (maximumf (Host.sqrt (broadcastInDim S8192x1 ![0] bcast_S8192_S8192x1_0
        (Host.reduceAdd (mulf x x) (constant S_ .f32 0x00000000#32) reducesTo_S8192x64_S8192_d1 h_S_)))
      (broadcastInDim S8192x1 ![] bcast_S_S8192x1 (constant S_ .f32 0x2B8CBCCC#32)))

/-- A row-normalised array is the array over its denominators, entry by entry. -/
theorem l2n_eq (x : FVec F S8192x64 .f32) : l2n x = Host.divf x (rowDen x) := rfl

/-- latent laid along a new leading axis and stretched along it: entry (n, k, d) is latent[k, d]. -/
def latentB (l : FVec F S4x64 .f32) : FVec F S8192x4x64 .f32 :=
  broadcastInDim S8192x4x64 ![0, 1, 2] bcast_S1x4x64_S8192x4x64_0_1_2 (broadcastInDim S1x4x64 ![1, 2] bcast_S4x64_S1x4x64_1_2 l)

/-- weight laid along a new trailing axis and stretched along it: entry (n, k, d) is weight[n, k]. -/
def weightB (w : FVec F S8192x4 .f32) : FVec F S8192x4x64 .f32 :=
  broadcastInDim S8192x4x64 ![0, 1, 2] bcast_S8192x4x1_S8192x4x64_0_1_2 (broadcastInDim S8192x4x1 ![0, 1] bcast_S8192x4_S8192x4x1_0_1 w)

/-- The sum over the middle axis of an entry-by-entry product of two [8192, 4, 64] arrays, from 0. -/
def sumMid (p q : FVec F S8192x4x64 .f32) : FVec F S8192x64 .f32 :=
  Host.reduceAdd (mulf p q) (constant S_ .f32 0x00000000#32) reducesTo_S8192x4x64_S8192x64_d1 h_S_

/-- The mixing weight is the middle-axis sum of the two stretched arrays' product. -/
theorem mixR_eq (w : FVec F S8192x4 .f32) (l : FVec F S4x64 .f32) : mixR w l = sumMid (latentB l) (weightB w) := rfl

end Cert.Value

end
-- ==== Proof.Value.RRead12.lean ====
/-
  Window 12 of the reference (operations 721 … 788). After the scalar third result the window begins the two array
  results: it row-normalises the initial d (argument 0), and for the initial s (argument 9) it computes the
  denominators, leaving the division to the next window.

  A window is a straight line of host operations, and what a buffer holds after the line, from contents V before it,
  is the fold of the operations' results over V. Each statement below reads one buffer of that fold: unfolding the fold,
  the operation that wrote the buffer applies its function to its operands' contents, those are in turn what the
  operations before wrote, and so on down to buffers no operation of this window writes, which still hold what V gave
  them. The outcome is a term in the specification's own functions over V at the window's inputs, and the equation
  holds by unfolding alone.
-/
import proofs.«158997_j77232101916990_1_alg».proof.Proof.Ref.Ops12
import proofs.«158997_j77232101916990_1_alg».proof.Proof.Value.RReadParts

noncomputable section

namespace Cert.Value

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

local notation "↟" r => (Proc.devRef Proc.tc r)

/-- The first part of the first result: the initial d, row-normalised. -/
theorem w12_v586 (V : Valuation τ sig (Elt F)) :
    after rops12 V (↟main_v586) = l2n (V (↟main_arg0)) := by
  rfl

/-- The denominators for the initial s; the division itself is the next window's first operation. -/
theorem w12_v590 (V : Valuation τ sig (Elt F)) :
    after rops12 V (↟main_v590) = rowDen (V (↟main_arg9)) := by
  rfl

end Cert.Value

end
-- ==== Proof.Value.RRead13.lean ====
/-
  Window 13 of the reference (operations 789 … 872). It finishes the row-normalisation of the initial s, row-normalises
  the initial r and u (arguments 1 and 10), then takes the first step of all four sequences: d₁ = hop (A5 · r₀) wd,
  r₁ = hop (A6 · d₀) wr, s₁ = A8 · s₀, u₁ = A7 · u₀, each mixing weight formed anew as a broadcast, a product and a sum
  over the middle axis. It row-normalises the four new arrays, and ends with the product A5 · r₁ that starts d's second step.

  A window is a straight line of host operations, and what a buffer holds after the line, from contents V before it,
  is the fold of the operations' results over V. Each statement below reads one buffer of that fold: unfolding the fold,
  the operation that wrote the buffer applies its function to its operands' contents, those are in turn what the
  operations before wrote, and so on down to buffers no operation of this window writes, which still hold what V gave
  them. The outcome is a term in the specification's own functions over V at the window's inputs, and the equation
  holds by unfolding alone.
-/
import proofs.«158997_j77232101916990_1_alg».proof.Proof.Ref.Ops13
import proofs.«158997_j77232101916990_1_alg».proof.Proof.Value.RReadParts

noncomputable section

namespace Cert.Value

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

local notation "↟" r => (Proc.devRef Proc.tc r)

/-- The second part of the first result: the initial s, each entry over its row's denominator, which the window before left in its buffer. -/
theorem w13_v591 (V : Valuation τ sig (Elt F)) :
    after rops13 V (↟main_v591) = Host.divf (V (↟main_arg9)) (V (↟main_v590)) := by
  rfl

/-- The first part of the second result: the initial r, row-normalised. -/
theorem w13_v596 (V : Valuation τ sig (Elt F)) :
    after rops13 V (↟main_v596) = l2n (V (↟main_arg1)) := by
  rfl

/-- The second part of the second result: the initial u, row-normalised. -/
theorem w13_v601 (V : Valuation τ sig (Elt F)) :
    after rops13 V (↟main_v601) = l2n (V (↟main_arg10)) := by
  rfl

/-- d after one step. -/
theorem w13_v610 (V : Valuation τ sig (Elt F)) :
    after rops13 V (↟main_v610) = (hop (mmR (V (↟main_arg5)) (V (↟main_arg1))) (mixR (V (↟main_arg3)) (V (↟main_arg2)))) := by
  rfl

/-- r after one step. -/
theorem w13_v619 (V : Valuation τ sig (Elt F)) :
    after rops13 V (↟main_v619) = (hop (mmR (V (↟main_arg6)) (V (↟main_arg0))) (mixR (V (↟main_arg4)) (V (↟main_arg2)))) := by
  rfl

/-- s after one step. -/
theorem w13_v620 (V : Valuation τ sig (Elt F)) :
    after rops13 V (↟main_v620) = (mmR (V (↟main_arg8)) (V (↟main_arg9))) := by
  rfl

/-- u after one step. -/
theorem w13_v621 (V : Valuation τ sig (Elt F)) :
    after rops13 V (↟main_v621) = (mmR (V (↟main_arg7)) (V (↟main_arg10))) := by
  rfl

/-- d after one step, row-normalised. -/
theorem w13_v626 (V : Valuation τ sig (Elt F)) :
    after rops13 V (↟main_v626) = l2n (hop (mmR (V (↟main_arg5)) (V (↟main_arg1))) (mixR (V (↟main_arg3)) (V (↟main_arg2)))) := by
  rfl

/-- s after one step, row-normalised. -/
theorem w13_v631 (V : Valuation τ sig (Elt F)) :
    after rops13 V (↟main_v631) = l2n (mmR (V (↟main_arg8)) (V (↟main_arg9))) := by
  rfl

/-- r after one step, row-normalised. -/
theorem w13_v636 (V : Valuation τ sig (Elt F)) :
    after rops13 V (↟main_v636) = l2n (hop (mmR (V (↟main_arg6)) (V (↟main_arg0))) (mixR (V (↟main_arg4)) (V (↟main_arg2)))) := by
  rfl

/-- u after one step, row-normalised. -/
theorem w13_v641 (V : Valuation τ sig (Elt F)) :
    after rops13 V (↟main_v641) = l2n (mmR (V (↟main_arg7)) (V (↟main_arg10))) := by
  rfl

/-- The product that starts d's second step: A5 by r after one step. -/
theorem w13_v642 (V : Valuation τ sig (Elt F)) :
    after rops13 V (↟main_v642) = (mmR (V (↟main_arg5)) (hop (mmR (V (↟main_arg6)) (V (↟main_arg0))) (mixR (V (↟main_arg4)) (V (↟main_arg2))))) := by
  rfl

end Cert.Value

end
-- ==== Proof.Value.RRead14.lean ====
/-
  Window 14 of the reference (operations 873 … 948). The second step of all four sequences, d₂ = hop (A5 · r₁) wd with
  the product taken from the window before, r₂ = hop (A6 · d₁) wr, s₂ = A8 · s₁, u₂ = A7 · u₁, and their
  row-normalisations; then d₃ = hop (A5 · r₂) wd, the product A6 · d₂ that starts r's third step, and the two stretched
  factors of r's third mixing weight, whose product and sum are the next window's.

  A window is a straight line of host operations, and what a buffer holds after the line, from contents V before it,
  is the fold of the operations' results over V. Each statement below reads one buffer of that fold: unfolding the fold,
  the operation that wrote the buffer applies its function to its operands' contents, those are in turn what the
  operations before wrote, and so on down to buffers no operation of this window writes, which still hold what V gave
  them. The outcome is a term in the specification's own functions over V at the window's inputs, and the equation
  holds by unfolding alone.
-/
import proofs.«158997_j77232101916990_1_alg».proof.Proof.Ref.Ops14
import proofs.«158997_j77232101916990_1_alg».proof.Proof.Value.RReadParts

noncomputable section

namespace Cert.Value

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

local notation "↟" r => (Proc.devRef Proc.tc r)

/-- s after two steps. -/
theorem w14_v660 (V : Valuation τ sig (Elt F)) :
    after rops14 V (↟main_v660) = (mmR (V (↟main_arg8)) (V (↟main_v620))) := by
  rfl

/-- u after two steps. -/
theorem w14_v661 (V : Valuation τ sig (Elt F)) :
    after rops14 V (↟main_v661) = (mmR (V (↟main_arg7)) (V (↟main_v621))) := by
  rfl

/-- d after two steps, row-normalised. The step's product was formed at the end of the window before. -/
theorem w14_v666 (V : Valuation τ sig (Elt F)) :
    after rops14 V (↟main_v666) = l2n (hop (V (↟main_v642)) (mixR (V (↟main_arg3)) (V (↟main_arg2)))) := by
  rfl

/-- s after two steps, row-normalised. -/
theorem w14_v671 (V : Valuation τ sig (Elt F)) :
    after rops14 V (↟main_v671) = l2n (mmR (V (↟main_arg8)) (V (↟main_v620))) := by
  rfl

/-- r after two steps, row-normalised. -/
theorem w14_v676 (V : Valuation τ sig (Elt F)) :
    after rops14 V (↟main_v676) = l2n (hop (mmR (V (↟main_arg6)) (V (↟main_v610))) (mixR (V (↟main_arg4)) (V (↟main_arg2)))) := by
  rfl

/-- u after two steps, row-normalised. -/
theorem w14_v681 (V : Valuation τ sig (Elt F)) :
    after rops14 V (↟main_v681) = l2n (mmR (V (↟main_arg7)) (V (↟main_v621))) := by
  rfl

/-- d after three steps. -/
theorem w14_v690 (V : Valuation τ sig (Elt F)) :
    after rops14 V (↟main_v690) = (hop (mmR (V (↟main_arg5)) (hop (mmR (V (↟main_arg6)) (V (↟main_v610))) (mixR (V (↟main_arg4)) (V (↟main_arg2))))) (mixR (V (↟main_arg3)) (V (↟main_arg2)))) := by
  rfl

/-- The product that starts r's third step: A6 by d after two steps. -/
theorem w14_v691 (V : Valuation τ sig (Elt F)) :
    after rops14 V (↟main_v691) = (mmR (V (↟main_arg6)) (hop (V (↟main_v642)) (mixR (V (↟main_arg3)) (V (↟main_arg2))))) := by
  rfl

/-- The first factor of r's third mixing weight: latent, stretched. The product and the sum are the next window's. -/
theorem w14_v694 (V : Valuation τ sig (Elt F)) :
    after rops14 V (↟main_v694) = latentB (V (↟main_arg2)) := by
  rfl

/-- The second factor of r's third mixing weight: r's weight, stretched. -/
theorem w14_v695 (V : Valuation τ sig (Elt F)) :
    after rops14 V (↟main_v695) = weightB (V (↟main_arg4)) := by
  rfl

end Cert.Value

end
-- ==== Proof.Value.RReadCat.lean ====
/-
  A concatenation of eight operands, read at its result.

  A host operation over a family of operand buffers writes one result buffer: its function applied to the family of
  the operands' contents. When the family is a literal list of eight references, the family of contents is the list of
  the eight buffers' contents, each read at its own reference: the first at the first reference, and so on. So the
  result of concatenating eight buffers is the concatenation of what those eight buffers hold, and what each of them
  holds can in turn be read off the operations before.
-/
import Idealize.ShloMosaic.Lib.StableHlo.Run

noncomputable section

namespace Cert.Value

open Idealize.ShloMosaic Idealize.ShloMosaic.StableHlo

/-- An operation over a literal family of eight references (a concatenation of eight operands), read at its own result
    buffer: its function applied to the eight operands' contents, each at its own reference. -/
theorem nary8_result {τ : Topo} {sig : RefSig} {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (V : Valuation τ sig Val) :
    (nary (τ := τ) ![x0, x1, x2, x3, x4, x5, x6, x7] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (fun i => i.elim0))))))))) := by
  rw [nary_result]; congr 1; funext k; fin_cases k <;> rfl

end Cert.Value

end
-- ==== Proof.Value.RRead15.lean ====
/-
  Window 15 of the reference (operations 949 … 997). It completes r's third mixing weight and r₃ = hop (A6 · d₂) wr,
  forms s₃ = A8 · s₂ and u₃ = A7 · u₂, row-normalises d₃, s₃, r₃, u₃, and concatenates: the first result is the eight
  row-normalised arrays d₀, s₀, d₁, s₁, d₂, s₂, d₃, s₃ side by side, the second r₀, u₀, r₁, u₁, r₂, u₂, r₃, u₃.

  A window is a straight line of host operations, and what a buffer holds after the line, from contents V before it,
  is the fold of the operations' results over V. Each statement below reads one buffer of that fold: unfolding the fold,
  the operation that wrote the buffer applies its function to its operands' contents, those are in turn what the
  operations before wrote, and so on down to buffers no operation of this window writes, which still hold what V gave
  them. The outcome is a term in the specification's own functions over V at the window's inputs, and the equation
  holds by unfolding alone. (For the two concatenations the last one or two operations are peeled off first: a
  concatenation's result is its function of its eight operands' contents, each at its own reference.)
-/
import proofs.«158997_j77232101916990_1_alg».proof.Proof.Ref.Ops15
import proofs.«158997_j77232101916990_1_alg».proof.Proof.Value.RReadParts
import proofs.«158997_j77232101916990_1_alg».proof.Proof.Value.RReadCat

noncomputable section

namespace Cert.Value

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

local notation "↟" r => (Proc.devRef Proc.tc r)

/-- The first result: the eight parts side by side. Six were left by earlier windows; the last two are d and s after three steps, row-normalised here. -/
theorem w15_v722 (V : Valuation τ sig (Elt F)) :
    after rops15 V (↟main_v722) = cat8 (V (↟main_v586)) (V (↟main_v591)) (V (↟main_v626)) (V (↟main_v631)) (V (↟main_v666)) (V (↟main_v671))
      (l2n (V (↟main_v690))) (l2n (mmR (V (↟main_arg8)) (V (↟main_v660)))) := by
  simp only [after_cons, after_nil]
  rw [nary_result_ne]; rotate_left; decide
  rw [nary8_result]
  rfl

/-- The second result: the eight parts side by side. Six were left by earlier windows; the last two are r and u after three steps, row-normalised here; r's third mixing weight is completed here from the two stretched factors. -/
theorem w15_v723 (V : Valuation τ sig (Elt F)) :
    after rops15 V (↟main_v723) = cat8 (V (↟main_v596)) (V (↟main_v601)) (V (↟main_v636)) (V (↟main_v641)) (V (↟main_v676)) (V (↟main_v681))
      (l2n (hop (V (↟main_v691)) (sumMid (V (↟main_v694)) (V (↟main_v695))))) (l2n (mmR (V (↟main_arg7)) (V (↟main_v661)))) := by
  simp only [after_cons, after_nil]
  rw [nary8_result]
  rfl

end Cert.Value

end
-- ==== Proof.Value.RReadArgs.lean ====
/-
  The reference's arguments, as its last four windows find them.

  No operation of the reference program writes an argument of @main: each operation writes the one buffer of its own
  result, window by window these buffers are listed, and none of them is an argument. A buffer a window does not write
  keeps its contents through the window. So after any number of windows an argument still holds what it held at
  launch. Stated here after twelve, thirteen, fourteen and fifteen windows: these are the contents from which the last
  four windows, the ones that compute the two array results, read their inputs.
-/
import proofs.«158997_j77232101916990_1_alg».proof.Proof.Ref.Run

noncomputable section

namespace Cert.Value

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- An argument of @main holds its launch contents after the first twelve windows: none of them writes it. -/
theorem WR12_arg (m : (ℓ : Loc nD τ sig) → Buf (Elt F) ℓ) (c : Dev nD) {r : Ref sig .tc} (h : r ∈ mainArgs) :
    WR12 m c (Proc.devRef .tc r) = m ((c.tc : Thread nD τ).loc r) :=
  (rops11_keep (WR11 m c) (rops11_W_args r h)).trans <|
    (rops10_keep (WR10 m c) (rops10_W_args r h)).trans <|
    (rops9_keep (WR9 m c) (rops9_W_args r h)).trans <|
    (rops8_keep (WR8 m c) (rops8_W_args r h)).trans <|
    (rops7_keep (WR7 m c) (rops7_W_args r h)).trans <|
    (rops6_keep (WR6 m c) (rops6_W_args r h)).trans <|
    (rops5_keep (WR5 m c) (rops5_W_args r h)).trans <|
    (rops4_keep (WR4 m c) (rops4_W_args r h)).trans <|
    (rops3_keep (WR3 m c) (rops3_W_args r h)).trans <|
    (rops2_keep (WR2 m c) (rops2_W_args r h)).trans <|
    (rops1_keep (WR1 m c) (rops1_W_args r h)).trans <|
    (rops0_keep (WR0 m c) (rops0_W_args r h))

/-- … and after the thirteenth, … -/
theorem WR13_arg (m : (ℓ : Loc nD τ sig) → Buf (Elt F) ℓ) (c : Dev nD) {r : Ref sig .tc} (h : r ∈ mainArgs) :
    WR13 m c (Proc.devRef .tc r) = m ((c.tc : Thread nD τ).loc r) :=
  (rops12_keep (WR12 m c) (rops12_W_args r h)).trans (WR12_arg m c h)

/-- … the fourteenth … -/
theorem WR14_arg (m : (ℓ : Loc nD τ sig) → Buf (Elt F) ℓ) (c : Dev nD) {r : Ref sig .tc} (h : r ∈ mainArgs) :
    WR14 m c (Proc.devRef .tc r) = m ((c.tc : Thread nD τ).loc r) :=
  (rops13_keep (WR13 m c) (rops13_W_args r h)).trans (WR13_arg m c h)

/-- … and the fifteenth. -/
theorem WR15_arg (m : (ℓ : Loc nD τ sig) → Buf (Elt F) ℓ) (c : Dev nD) {r : Ref sig .tc} (h : r ∈ mainArgs) :
    WR15 m c (Proc.devRef .tc r) = m ((c.tc : Thread nD τ).loc r) :=
  (rops14_keep (WR14 m c) (rops14_W_args r h)).trans (WR14_arg m c h)

end Cert.Value

end
-- ==== Proof.Value.RRead.lean ====
/-
  The reference's two array results as the specification's functions of its arguments.

  The last four windows of the reference compute the two results stage by stage. Read one window at a time, each
  buffer a window writes is a term in the specification's functions over the contents the window found; the contents a
  window finds are what the windows before left. Three kinds of fact are chained here, level by level, the level after
  window J being the contents after windows 0 … J:

  - an argument of @main holds its launch contents at every level (no operation writes it);
  - a buffer written by window J holds, at the level after J, the window's term with the window's inputs replaced by
    what the level before holds there: the initial arrays row-normalised, then d₁, r₁, s₁, u₁ and their
    row-normalisations after window 13, d₂, r₂, s₂, u₂ and theirs and d₃ after window 14, with the products and the
    stretched factors a window prepares for the next;
  - a part of a result written early (the row-normalised d₀, s₀, d₁, s₁, … ) is written by no later window, so it is
    still there when the last window concatenates.

  The last window then row-normalises d₃, s₃, r₃, u₃ and places the eight parts side by side: that is the
  specification's out0, resp. out1, at the reference's matrix product mmR and its mixing weights
  mixR (argument 3) (argument 2) and mixR (argument 4) (argument 2), by unfolding the definitions of the sequences.
-/
import proofs.«158997_j77232101916990_1_alg».proof.Proof.Value.RRead12
import proofs.«158997_j77232101916990_1_alg».proof.Proof.Value.RRead13
import proofs.«158997_j77232101916990_1_alg».proof.Proof.Value.RRead14
import proofs.«158997_j77232101916990_1_alg».proof.Proof.Value.RRead15
import proofs.«158997_j77232101916990_1_alg».proof.Proof.Value.RReadArgs

noncomputable section

namespace Cert.Value

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

local notation "↟" r => (Proc.devRef Proc.tc r)
set_option quotPrecheck false in
local notation "arg[" r "]" => m ((c.tc : Thread nD τ).loc r)

/-- The reference's mixing weight for the d sequence, on device c: from its arguments 3 (weight) and 2 (latent). -/
abbrev wdR : FVec F S8192x64 .f32 := mixR arg[main_arg3] arg[main_arg2]
/-- The reference's mixing weight for the r sequence: from its arguments 4 (weight) and 2 (latent). -/
abbrev wrR : FVec F S8192x64 .f32 := mixR arg[main_arg4] arg[main_arg2]

/-- The four sequences at the reference's arguments, with the reference's own matrix product and weights. -/
abbrev rD1 : FVec F S8192x64 .f32 := d1 mmR (wdR m c) arg[main_arg1] arg[main_arg5]
abbrev rR1 : FVec F S8192x64 .f32 := r1 mmR (wrR m c) arg[main_arg0] arg[main_arg6]
abbrev rS1 : FVec F S8192x64 .f32 := s1 mmR arg[main_arg9] arg[main_arg8]
abbrev rU1 : FVec F S8192x64 .f32 := u1 mmR arg[main_arg10] arg[main_arg7]
abbrev rD2 : FVec F S8192x64 .f32 := d2 mmR (wdR m c) (wrR m c) arg[main_arg0] arg[main_arg5] arg[main_arg6]
abbrev rR2 : FVec F S8192x64 .f32 := r2 mmR (wdR m c) (wrR m c) arg[main_arg1] arg[main_arg5] arg[main_arg6]
abbrev rS2 : FVec F S8192x64 .f32 := s2 mmR arg[main_arg9] arg[main_arg8]
abbrev rU2 : FVec F S8192x64 .f32 := u2 mmR arg[main_arg10] arg[main_arg7]
abbrev rD3 : FVec F S8192x64 .f32 := d3 mmR (wdR m c) (wrR m c) arg[main_arg1] arg[main_arg5] arg[main_arg6]

/-! ## After window 12 -/
/-- The initial d, row-normalised. -/
theorem L13_v586 : WR13 m c (↟main_v586) = l2n arg[main_arg0] := by
  refine (w12_v586 (WR12 m c)).trans ?_
  rw [WR12_arg m c (r := main_arg0) (by decide)]

/-- The denominators for the initial s. -/
theorem L13_v590 : WR13 m c (↟main_v590) = rowDen arg[main_arg9] := by
  refine (w12_v590 (WR12 m c)).trans ?_
  rw [WR12_arg m c (r := main_arg9) (by decide)]

/-! ## After window 13 -/
/-- The initial s, row-normalised: the division done over the denominators of the window before. -/
theorem L14_v591 : WR14 m c (↟main_v591) = l2n arg[main_arg9] := by
  refine (w13_v591 (WR13 m c)).trans ?_
  rw [WR13_arg m c (r := main_arg9) (by decide),
    L13_v590 m c,
    ← l2n_eq]

/-- The initial r, row-normalised. -/
theorem L14_v596 : WR14 m c (↟main_v596) = l2n arg[main_arg1] := by
  refine (w13_v596 (WR13 m c)).trans ?_
  rw [WR13_arg m c (r := main_arg1) (by decide)]

/-- The initial u, row-normalised. -/
theorem L14_v601 : WR14 m c (↟main_v601) = l2n arg[main_arg10] := by
  refine (w13_v601 (WR13 m c)).trans ?_
  rw [WR13_arg m c (r := main_arg10) (by decide)]

/-- d₁. -/
theorem L14_v610 : WR14 m c (↟main_v610) = rD1 m c := by
  refine (w13_v610 (WR13 m c)).trans ?_
  rw [WR13_arg m c (r := main_arg5) (by decide),
    WR13_arg m c (r := main_arg1) (by decide),
    WR13_arg m c (r := main_arg3) (by decide),
    WR13_arg m c (r := main_arg2) (by decide)]
  rfl

/-- s₁. -/
theorem L14_v620 : WR14 m c (↟main_v620) = rS1 m c := by
  refine (w13_v620 (WR13 m c)).trans ?_
  rw [WR13_arg m c (r := main_arg8) (by decide),
    WR13_arg m c (r := main_arg9) (by decide)]
  rfl

/-- u₁. -/
theorem L14_v621 : WR14 m c (↟main_v621) = rU1 m c := by
  refine (w13_v621 (WR13 m c)).trans ?_
  rw [WR13_arg m c (r := main_arg7) (by decide),
    WR13_arg m c (r := main_arg10) (by decide)]
  rfl

/-- d₁, row-normalised. -/
theorem L14_v626 : WR14 m c (↟main_v626) = l2n (rD1 m c) := by
  refine (w13_v626 (WR13 m c)).trans ?_
  rw [WR13_arg m c (r := main_arg5) (by decide),
    WR13_arg m c (r := main_arg1) (by decide),
    WR13_arg m c (r := main_arg3) (by decide),
    WR13_arg m c (r := main_arg2) (by decide)]
  rfl

/-- s₁, row-normalised. -/
theorem L14_v631 : WR14 m c (↟main_v631) = l2n (rS1 m c) := by
  refine (w13_v631 (WR13 m c)).trans ?_
  rw [WR13_arg m c (r := main_arg8) (by decide),
    WR13_arg m c (r := main_arg9) (by decide)]
  rfl

/-- r₁, row-normalised. -/
theorem L14_v636 : WR14 m c (↟main_v636) = l2n (rR1 m c) := by
  refine (w13_v636 (WR13 m c)).trans ?_
  rw [WR13_arg m c (r := main_arg6) (by decide),
    WR13_arg m c (r := main_arg0) (by decide),
    WR13_arg m c (r := main_arg4) (by decide),
    WR13_arg m c (r := main_arg2) (by decide)]
  rfl

/-- u₁, row-normalised. -/
theorem L14_v641 : WR14 m c (↟main_v641) = l2n (rU1 m c) := by
  refine (w13_v641 (WR13 m c)).trans ?_
  rw [WR13_arg m c (r := main_arg7) (by decide),
    WR13_arg m c (r := main_arg10) (by decide)]
  rfl

/-- A5 · r₁, the product d's second step starts from. -/
theorem L14_v642 : WR14 m c (↟main_v642) = mmR arg[main_arg5] (rR1 m c) := by
  refine (w13_v642 (WR13 m c)).trans ?_
  rw [WR13_arg m c (r := main_arg5) (by decide),
    WR13_arg m c (r := main_arg6) (by decide),
    WR13_arg m c (r := main_arg0) (by decide),
    WR13_arg m c (r := main_arg4) (by decide),
    WR13_arg m c (r := main_arg2) (by decide)]
  rfl

/-! ## After window 14 -/
/-- s₂. -/
theorem L15_v660 : WR15 m c (↟main_v660) = rS2 m c := by
  refine (w14_v660 (WR14 m c)).trans ?_
  rw [WR14_arg m c (r := main_arg8) (by decide),
    L14_v620 m c]
  rfl

/-- u₂. -/
theorem L15_v661 : WR15 m c (↟main_v661) = rU2 m c := by
  refine (w14_v661 (WR14 m c)).trans ?_
  rw [WR14_arg m c (r := main_arg7) (by decide),
    L14_v621 m c]
  rfl

/-- d₂, row-normalised. -/
theorem L15_v666 : WR15 m c (↟main_v666) = l2n (rD2 m c) := by
  refine (w14_v666 (WR14 m c)).trans ?_
  rw [L14_v642 m c,
    WR14_arg m c (r := main_arg3) (by decide),
    WR14_arg m c (r := main_arg2) (by decide)]
  rfl

/-- s₂, row-normalised. -/
theorem L15_v671 : WR15 m c (↟main_v671) = l2n (rS2 m c) := by
  refine (w14_v671 (WR14 m c)).trans ?_
  rw [WR14_arg m c (r := main_arg8) (by decide),
    L14_v620 m c]
  rfl

/-- r₂, row-normalised. -/
theorem L15_v676 : WR15 m c (↟main_v676) = l2n (rR2 m c) := by
  refine (w14_v676 (WR14 m c)).trans ?_
  rw [WR14_arg m c (r := main_arg6) (by decide),
    L14_v610 m c,
    WR14_arg m c (r := main_arg4) (by decide),
    WR14_arg m c (r := main_arg2) (by decide)]
  rfl

/-- u₂, row-normalised. -/
theorem L15_v681 : WR15 m c (↟main_v681) = l2n (rU2 m c) := by
  refine (w14_v681 (WR14 m c)).trans ?_
  rw [WR14_arg m c (r := main_arg7) (by decide),
    L14_v621 m c]
  rfl

/-- d₃. -/
theorem L15_v690 : WR15 m c (↟main_v690) = rD3 m c := by
  refine (w14_v690 (WR14 m c)).trans ?_
  rw [WR14_arg m c (r := main_arg5) (by decide),
    WR14_arg m c (r := main_arg6) (by decide),
    L14_v610 m c,
    WR14_arg m c (r := main_arg4) (by decide),
    WR14_arg m c (r := main_arg2) (by decide),
    WR14_arg m c (r := main_arg3) (by decide)]
  rfl

/-- A6 · d₂, the product r's third step starts from. -/
theorem L15_v691 : WR15 m c (↟main_v691) = mmR arg[main_arg6] (rD2 m c) := by
  refine (w14_v691 (WR14 m c)).trans ?_
  rw [WR14_arg m c (r := main_arg6) (by decide),
    L14_v642 m c,
    WR14_arg m c (r := main_arg3) (by decide),
    WR14_arg m c (r := main_arg2) (by decide)]
  rfl

/-- latent, stretched: the first factor of r's third mixing weight. -/
theorem L15_v694 : WR15 m c (↟main_v694) = latentB arg[main_arg2] := by
  refine (w14_v694 (WR14 m c)).trans ?_
  rw [WR14_arg m c (r := main_arg2) (by decide)]

/-- r's weight, stretched: the second factor. -/
theorem L15_v695 : WR15 m c (↟main_v695) = weightB arg[main_arg4] := by
  refine (w14_v695 (WR14 m c)).trans ?_
  rw [WR14_arg m c (r := main_arg4) (by decide)]

/-! ## Parts of the results that earlier windows left, walked to the last window: no later window writes them -/
/-- The initial d, row-normalised, still there after windows 13 and 14. -/
theorem L15_v586 : WR15 m c (↟main_v586) = l2n arg[main_arg0] :=
  (rops14_keep (WR14 m c) (by decide)).trans ((rops13_keep (WR13 m c) (by decide)).trans (L13_v586 m c))

/-- The initial s, row-normalised, still there after window 14. -/
theorem L15_v591 : WR15 m c (↟main_v591) = l2n arg[main_arg9] :=
  (rops14_keep (WR14 m c) (by decide)).trans (L14_v591 m c)

/-- The initial r, row-normalised. -/
theorem L15_v596 : WR15 m c (↟main_v596) = l2n arg[main_arg1] :=
  (rops14_keep (WR14 m c) (by decide)).trans (L14_v596 m c)

/-- The initial u, row-normalised. -/
theorem L15_v601 : WR15 m c (↟main_v601) = l2n arg[main_arg10] :=
  (rops14_keep (WR14 m c) (by decide)).trans (L14_v601 m c)

/-- d₁, row-normalised. -/
theorem L15_v626 : WR15 m c (↟main_v626) = l2n (rD1 m c) :=
  (rops14_keep (WR14 m c) (by decide)).trans (L14_v626 m c)

/-- s₁, row-normalised. -/
theorem L15_v631 : WR15 m c (↟main_v631) = l2n (rS1 m c) :=
  (rops14_keep (WR14 m c) (by decide)).trans (L14_v631 m c)

/-- r₁, row-normalised. -/
theorem L15_v636 : WR15 m c (↟main_v636) = l2n (rR1 m c) :=
  (rops14_keep (WR14 m c) (by decide)).trans (L14_v636 m c)

/-- u₁, row-normalised. -/
theorem L15_v641 : WR15 m c (↟main_v641) = l2n (rU1 m c) :=
  (rops14_keep (WR14 m c) (by decide)).trans (L14_v641 m c)

/-! ## The two results -/

/-- The reference's first result on device c is the specification's first result of its arguments, with the reference's
    matrix product and its two mixing weights. -/
theorem ref_out0 : WR16 m c (↟main_v722)
    = out0 mmR (mixR arg[main_arg3] arg[main_arg2]) (mixR arg[main_arg4] arg[main_arg2]) arg[main_arg0] arg[main_arg1] arg[main_arg9] arg[main_arg5] arg[main_arg6] arg[main_arg8] := by
  refine (w15_v722 (WR15 m c)).trans ?_
  rw [L15_v586 m c, L15_v591 m c, L15_v626 m c, L15_v631 m c, L15_v666 m c, L15_v671 m c, L15_v690 m c,
    WR15_arg m c (r := main_arg8) (by decide), L15_v660 m c]
  rfl

/-- The reference's second result on device c is the specification's second result of its arguments: r's third mixing
    weight, completed in the last window from the two stretched factors, is the same weight as in the first two steps. -/
theorem ref_out1 : WR16 m c (↟main_v723)
    = out1 mmR (mixR arg[main_arg3] arg[main_arg2]) (mixR arg[main_arg4] arg[main_arg2]) arg[main_arg0] arg[main_arg1] arg[main_arg10] arg[main_arg5] arg[main_arg6] arg[main_arg7] := by
  refine (w15_v723 (WR15 m c)).trans ?_
  rw [L15_v596 m c, L15_v601 m c, L15_v636 m c, L15_v641 m c, L15_v676 m c, L15_v681 m c, L15_v691 m c, L15_v694 m c,
    L15_v695 m c, ← mixR_eq, WR15_arg m c (r := main_arg7) (by decide), L15_v661 m c]
  rfl

end Cert.Value

end
-- ==== Proof.Value.Algebraic.lean ====
/-
  The algebraic claim: at the exact instance, from launch memories that agree on the eleven arguments, the idealized
  kernel program and the idealized reference end with the same three results.

  The witnesses are what the kernel's program leaves in its three result buffers. Its run ends with every unscoped
  buffer at the last boundary's contents, so the three results are those contents and the eleven arguments, which no
  segment writes, are as launched.

  The reference's run ends with every buffer at the fold of its 997 operations over the launch contents, and its
  arguments are as launched for the same reason. Its three results are the kernel's:

  - The two arrays. Both programs compute the specification's out0 and out1 of their arguments: the same four
    sequences of row-normalised arrays, concatenated. They differ in two parameters only. The matrix products are the
    reference's host product on both sides (the kernel's blocked products were shown equal to it where the kernel's
    results were read). The mixing weights are, in the kernel's program, the host product weight · latent, and in the
    reference the sum over k of latent[k, d] · weight[n, k] written as a broadcast, a product and a sum: the same four
    products in the other order, added from 0, so the same array over the extended reals, with nothing distributed or
    cancelled. The arguments agree by hypothesis.
  - The scalar. Both programs compute it by the same host operations from argument 2 alone, early on: equal after the
    thirteenth stretch of the one and the thirteenth window of the other, and written by nothing later in either.

  No law used here needs a finite entry, so the precondition is not opened.
-/
import proofs.«158997_j77232101916990_1_alg».proof.Defs
import proofs.«158997_j77232101916990_1_alg».proof.Proof.Gen.Pre_finite_inputs
import proofs.«158997_j77232101916990_1_alg».proof.Proof.KI.Run
import proofs.«158997_j77232101916990_1_alg».proof.Proof.Value.KRead3
import proofs.«158997_j77232101916990_1_alg».proof.Proof.Value.Cor
import proofs.«158997_j77232101916990_1_alg».proof.Proof.WEq
import proofs.«158997_j77232101916990_1_alg».proof.Proof.Ref.Run
import proofs.«158997_j77232101916990_1_alg».proof.Proof.Value.RRead

noncomputable section

namespace Cert.Proof

open Idealize.ShloMosaic Idealize.ShloMosaic.TcCoe Idealize.SL.Sem Idealize.ShloMosaic.StableHlo

/-- The kernel program's mixing weight is the reference's: the matrix product weight · latent against the sum over the
    latent factor of the two stretched arrays' product. -/
theorem mixK_eq_mixR (w : FVec Ideal Cert.KernelIdeal.S8192x4 .f32) (l : FVec Ideal Cert.KernelIdeal.S4x64 .f32) :
    Cert.Value.mixK (F := Ideal) w l = Cert.Value.mixR (F := Ideal) w l :=
  Cert.Value.w_eq w l

theorem algebraic : Cert.algebraic_KernelIdeal_ReferenceIdeal := by
  intro m ρ m' ρ' _ hagree
  refine ⟨fun c => Cert.KernelIdeal.Hand.W65 (F := Ideal) m ρ c (Proc.devRef .tc Cert.KernelIdeal.main_v692),
    fun c => Cert.KernelIdeal.Hand.W65 (F := Ideal) m ρ c (Proc.devRef .tc Cert.KernelIdeal.main_v693),
    fun c => Cert.KernelIdeal.Hand.W65 (F := Ideal) m ρ c (Proc.devRef .tc Cert.KernelIdeal.main_v581), ?_, ?_⟩
  · -- the kernel's program: its results are the last boundary's contents, its arguments as launched
    refine (θ_run Cert.KernelIdeal.defs _ _).mono (fun _ h c => ?_) (Cert.KernelIdeal.Hand.run_main (F := Ideal) m ρ)
    have hc := h c
    exact ⟨hc _ (Cert.KernelIdeal.Hand.mem_uc Cert.KernelIdeal.main_v692 (by decide)),
      hc _ (Cert.KernelIdeal.Hand.mem_uc Cert.KernelIdeal.main_v693 (by decide)),
      hc _ (Cert.KernelIdeal.Hand.mem_uc Cert.KernelIdeal.main_v581 (by decide)),
      (hc _ (Cert.KernelIdeal.Hand.mem_uc Cert.KernelIdeal.main_arg0 (by decide))).trans (Cert.KernelIdeal.Hand.W65_main_arg0 m ρ c),
      (hc _ (Cert.KernelIdeal.Hand.mem_uc Cert.KernelIdeal.main_arg1 (by decide))).trans (Cert.KernelIdeal.Hand.W65_main_arg1 m ρ c),
      (hc _ (Cert.KernelIdeal.Hand.mem_uc Cert.KernelIdeal.main_arg2 (by decide))).trans (Cert.KernelIdeal.Hand.W65_main_arg2 m ρ c),
      (hc _ (Cert.KernelIdeal.Hand.mem_uc Cert.KernelIdeal.main_arg3 (by decide))).trans (Cert.KernelIdeal.Hand.W65_main_arg3 m ρ c),
      (hc _ (Cert.KernelIdeal.Hand.mem_uc Cert.KernelIdeal.main_arg4 (by decide))).trans (Cert.KernelIdeal.Hand.W65_main_arg4 m ρ c),
      (hc _ (Cert.KernelIdeal.Hand.mem_uc Cert.KernelIdeal.main_arg5 (by decide))).trans (Cert.KernelIdeal.Hand.W65_main_arg5 m ρ c),
      (hc _ (Cert.KernelIdeal.Hand.mem_uc Cert.KernelIdeal.main_arg6 (by decide))).trans (Cert.KernelIdeal.Hand.W65_main_arg6 m ρ c),
      (hc _ (Cert.KernelIdeal.Hand.mem_uc Cert.KernelIdeal.main_arg7 (by decide))).trans (Cert.KernelIdeal.Hand.W65_main_arg7 m ρ c),
      (hc _ (Cert.KernelIdeal.Hand.mem_uc Cert.KernelIdeal.main_arg8 (by decide))).trans (Cert.KernelIdeal.Hand.W65_main_arg8 m ρ c),
      (hc _ (Cert.KernelIdeal.Hand.mem_uc Cert.KernelIdeal.main_arg9 (by decide))).trans (Cert.KernelIdeal.Hand.W65_main_arg9 m ρ c),
      (hc _ (Cert.KernelIdeal.Hand.mem_uc Cert.KernelIdeal.main_arg10 (by decide))).trans (Cert.KernelIdeal.Hand.W65_main_arg10 m ρ c)⟩
  · -- the reference: the fold of its operations, read at its three results and its arguments
    refine (θ_run Cert.ReferenceIdeal.defs _ _).mono (fun _ h c => ?_) (Cert.ReferenceIdeal.Hand.run (F := Ideal) m' ρ')
    obtain ⟨h0, h1, h2, h3, h4, h5, h6, h7, h8, h9, h10⟩ := hagree c
    have e0 : Cert.ReferenceIdeal.Hand.WR16 m' c (Proc.devRef .tc Cert.ReferenceIdeal.main_v722)
        = Cert.KernelIdeal.Hand.W65 (F := Ideal) m ρ c (Proc.devRef .tc Cert.KernelIdeal.main_v692) := by
      rw [Cert.Value.ref_out0 m' c, Cert.Value.kernel_out0 m ρ c, h0, h1, h2, h3, h4, h5, h6, h8, h9,
        mixK_eq_mixR, mixK_eq_mixR]
    have e1 : Cert.ReferenceIdeal.Hand.WR16 m' c (Proc.devRef .tc Cert.ReferenceIdeal.main_v723)
        = Cert.KernelIdeal.Hand.W65 (F := Ideal) m ρ c (Proc.devRef .tc Cert.KernelIdeal.main_v693) := by
      rw [Cert.Value.ref_out1 m' c, Cert.Value.kernel_out1 m ρ c, h0, h1, h2, h3, h4, h5, h6, h7, h10,
        mixK_eq_mixR, mixK_eq_mixR]
    have e2 : Cert.ReferenceIdeal.Hand.WR16 m' c (Proc.devRef .tc Cert.ReferenceIdeal.main_v581)
        = Cert.KernelIdeal.Hand.W65 (F := Ideal) m ρ c (Proc.devRef .tc Cert.KernelIdeal.main_v581) :=
      (Cert.ReferenceIdeal.Hand.rops15_keep (Cert.ReferenceIdeal.Hand.WR15 m' c) (by decide)).trans <|
        (Cert.ReferenceIdeal.Hand.rops14_keep (Cert.ReferenceIdeal.Hand.WR14 m' c) (by decide)).trans <|
        (Cert.ReferenceIdeal.Hand.rops13_keep (Cert.ReferenceIdeal.Hand.WR13 m' c) (by decide)).trans <|
        (Cert.Value.cor_eq m ρ m' c h2).symm.trans (Cert.KernelIdeal.Hand.W65_main_v581 m ρ c).symm
    exact ⟨(h c Cert.ReferenceIdeal.main_v722).trans e0, (h c Cert.ReferenceIdeal.main_v723).trans e1, (h c Cert.ReferenceIdeal.main_v581).trans e2,
      (h c Cert.ReferenceIdeal.main_arg0).trans (Cert.ReferenceIdeal.Hand.WR16_main_arg0 m' c),
      (h c Cert.ReferenceIdeal.main_arg1).trans (Cert.ReferenceIdeal.Hand.WR16_main_arg1 m' c),
      (h c Cert.ReferenceIdeal.main_arg2).trans (Cert.ReferenceIdeal.Hand.WR16_main_arg2 m' c),
      (h c Cert.ReferenceIdeal.main_arg3).trans (Cert.ReferenceIdeal.Hand.WR16_main_arg3 m' c),
      (h c Cert.ReferenceIdeal.main_arg4).trans (Cert.ReferenceIdeal.Hand.WR16_main_arg4 m' c),
      (h c Cert.ReferenceIdeal.main_arg5).trans (Cert.ReferenceIdeal.Hand.WR16_main_arg5 m' c),
      (h c Cert.ReferenceIdeal.main_arg6).trans (Cert.ReferenceIdeal.Hand.WR16_main_arg6 m' c),
      (h c Cert.ReferenceIdeal.main_arg7).trans (Cert.ReferenceIdeal.Hand.WR16_main_arg7 m' c),
      (h c Cert.ReferenceIdeal.main_arg8).trans (Cert.ReferenceIdeal.Hand.WR16_main_arg8 m' c),
      (h c Cert.ReferenceIdeal.main_arg9).trans (Cert.ReferenceIdeal.Hand.WR16_main_arg9 m' c),
      (h c Cert.ReferenceIdeal.main_arg10).trans (Cert.ReferenceIdeal.Hand.WR16_main_arg10 m' c)⟩

end Cert.Proof

end
-- ==== Proof.lean ====
/-
  The certificate: the kernel's program (twelve blocked matrix products A · x inside host code) against the plain
  reference, over the extended reals.

  The three frames. The kernel's program, as printed and idealized, runs as 65 segments in order — 53 stretches of host
  operations and the 12 products, each a pipelined kernel on a 4 × 8 grid that accumulates the eight tile products of a
  row of tiles in a scratch buffer and writes the row's output tile at the row's last point; the run is generic in the
  float instance, so one text gives both frames. The reference is a pure host program; its run is the fold of its 997
  operations, window by window.

  The idealization rewrote nothing, so `preserves` is trivial.

  The value claim. At the exact instance a change of float format is the identity and a tile product accumulated
  into zero is a plain sum, so each kernel region's output array is the sum over all 8192 columns regrouped into eight
  blocks of 1024: the reference's matrix product. The kernel's program computes its mixing weights as a small matrix
  product where the reference sums a product of two broadcasts: the same sum of four products, with the factors
  commuted. Everything else is the same host code in both programs, so the three results agree; no law used needs
  finite inputs.
-/
import proofs.«158997_j77232101916990_1_alg».proof.Defs
import proofs.«158997_j77232101916990_1_alg».proof.Proof.KI.Frame
import proofs.«158997_j77232101916990_1_alg».proof.Proof.KB.Frame
import proofs.«158997_j77232101916990_1_alg».proof.Proof.Ref.Frame
import proofs.«158997_j77232101916990_1_alg».proof.Proof.Value.Algebraic
import proofs.«158997_j77232101916990_1_alg».proof.Proof.Gen.Kernel
import proofs.«158997_j77232101916990_1_alg».proof.Proof.Gen.KernelIdeal
import proofs.«158997_j77232101916990_1_alg».proof.Proof.Gen.ReferenceIdeal
import proofs.«158997_j77232101916990_1_alg».proof.Proof.Gen.Pre_finite_inputs

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.ReferenceIdeal.Hand.frame_ri,
  trivial,
  Cert.Proof.algebraic⟩

end Cert.Proof

end
